-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S256x512 : Shape := ⟨2, ![256, 512]⟩
abbrev S512x256 : Shape := ⟨2, ![512, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S256x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x256 .f32) (main_arg5 : FVec F S256x2048 .f32) (main_arg6 : FVec F S2048x256 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256x2048 .f32 := Host.absf main_arg5
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  let main_v29 : FVec F S2048x256 .f32 := Host.absf main_arg6
  let main_cst_10 : FVec F S_ .f32 := constant S_ .f32 0x7F800000#32
  let main_v30 : FVec F S2048x256 .f32 := broadcastInDim S2048x256 ![] bcast_S_S2048x256 main_cst_10
  let main_v31 : IVec S2048x256 1 := cmpf .olt main_v29 main_v30
  let main_c_11 : IVec S_ 1 := constantI S_ 1 1#1
  let main_v32 : IVec S_ 1 := (fun x v => Host.reduce IntOp.andi x v reducesTo_S2048x256_S_d0_1 h_S_) main_v31 main_c_11
  let main_v33 : IVec S_ 1 := andi main_v28 main_v32
  main_v33

def fn {F : FTy → Type} [FloatOps F] (main_arg0 : FVec F S256x256 .f32) (main_arg1 : FVec F S256x2048 .f32) (main_arg2 : FVec F S2048x256 .f32) (main_arg3 : FVec F S256x2048 .f32) (main_arg4 : FVec F S2048x256 .f32) (main_arg5 : FVec F S256x2048 .f32) (main_arg6 : FVec F S2048x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S256x256 : Shape := ⟨2, ![256, 256]⟩
abbrev S256x512 : Shape := ⟨2, ![256, 512]⟩
abbrev S512x256 : Shape := ⟨2, ![512, 256]⟩
abbrev S64x256 : Shape := ⟨2, ![64, 256]⟩
abbrev S2x4x4x64x256 : Shape := ⟨5, ![2, 4, 4, 64, 256]⟩
abbrev S2x4x64x256 : Shape := ⟨4, ![2, 4, 64, 256]⟩
abbrev S3x4x4 : Shape := ⟨3, ![3, 4, 4]⟩
abbrev S_ : Shape := ⟨0, ![]⟩
abbrev S64x512 : Shape := ⟨2, ![64, 512]⟩
abbrev S1x1x1x64x256 : Shape := ⟨5, ![1, 1, 1, 64, 256]⟩
abbrev S1x1x1 : Shape := ⟨3, ![1, 1, 1]⟩
abbrev S1x1x64x256 : Shape := ⟨4, ![1, 1, 64, 256]⟩

abbrev nBuf : Space → Nat
  | .hbm => 8
  | .vmem => 10
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S64x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S64x256, .f32⟩
  | .local _ .vmem, ⟨8, _⟩ => ⟨S2x4x4x64x256, .bf16⟩
  | .local _ .vmem, ⟨9, _⟩ => ⟨S2x4x64x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_40 : BitVec 32 := 2#32
  let v62 : BitVec 32 := Scalar.addi v2 c2_i32_40
  let c4_i32_41 : BitVec 32 := 4#32
  let c0_i32_42 : BitVec 32 := 0#32
  let v63 : BitVec 1 := Scalar.cmpi .eq c4_i32_41 c0_i32_42
  let c1_i32_43 : BitVec 32 := 1#32
  let v64 : BitVec 32 := Scalar.select v63 c1_i32_43 c4_i32_41
  let v65 : BitVec 32 := Scalar.remsi v62 v64
  let c0_i32_45 : BitVec 32 := 0#32
  let v67 : BitVec 1 := Scalar.cmpi .slt v65 c0_i32_45
  let c0_i32_46 : BitVec 32 := 0#32
  let v68 : BitVec 1 := Scalar.cmpi .slt v64 c0_i32_46
  let v69 : BitVec 1 := Scalar.xori v67 v68
  let c0_i32_44 : BitVec 32 := 0#32
  let v66 : BitVec 1 := Scalar.cmpi .ne v65 c0_i32_44
  let v70 : BitVec 1 := Scalar.andi v69 v66
  let v71 : BitVec 32 := Scalar.addi v65 v64
  let v72 : BitVec 32 := Scalar.select v70 v71 v65
  let c1_i32_59 : BitVec 32 := 1#32
  let v73 : BitVec 32 := Scalar.muli v72 c1_i32_59
  let v74 : BitVec 32 := Scalar.addi c0_i32_60 v73
  v74.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_65 : BitVec 32 := 1#32
  let v83 : BitVec 32 := Scalar.addi v2 c1_i32_65
  let c4_i32_66 : BitVec 32 := 4#32
  let c0_i32_67 : BitVec 32 := 0#32
  let v84 : BitVec 1 := Scalar.cmpi .eq c4_i32_66 c0_i32_67
  let c1_i32_68 : BitVec 32 := 1#32
  let v85 : BitVec 32 := Scalar.select v84 c1_i32_68 c4_i32_66
  let v86 : BitVec 32 := Scalar.remsi v83 v85
  let c0_i32_70 : BitVec 32 := 0#32
  let v88 : BitVec 1 := Scalar.cmpi .slt v86 c0_i32_70
  let c0_i32_71 : BitVec 32 := 0#32
  let v89 : BitVec 1 := Scalar.cmpi .slt v85 c0_i32_71
  let v90 : BitVec 1 := Scalar.xori v88 v89
  let c0_i32_69 : BitVec 32 := 0#32
  let v87 : BitVec 1 := Scalar.cmpi .ne v86 c0_i32_69
  let v91 : BitVec 1 := Scalar.andi v90 v87
  let v92 : BitVec 32 := Scalar.addi v86 v85
  let v93 : BitVec 32 := Scalar.select v91 v92 v86
  let c1_i32_84 : BitVec 32 := 1#32
  let v94 : BitVec 32 := Scalar.muli v93 c1_i32_84
  let v95 : BitVec 32 := Scalar.addi c0_i32_85 v94
  v95.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_90 : BitVec 32 := 3#32
  let v104 : BitVec 32 := Scalar.addi v2 c3_i32_90
  let c4_i32_91 : BitVec 32 := 4#32
  let c0_i32_92 : BitVec 32 := 0#32
  let v105 : BitVec 1 := Scalar.cmpi .eq c4_i32_91 c0_i32_92
  let c1_i32_93 : BitVec 32 := 1#32
  let v106 : BitVec 32 := Scalar.select v105 c1_i32_93 c4_i32_91
  let v107 : BitVec 32 := Scalar.remsi v104 v106
  let c0_i32_95 : BitVec 32 := 0#32
  let v109 : BitVec 1 := Scalar.cmpi .slt v107 c0_i32_95
  let c0_i32_96 : BitVec 32 := 0#32
  let v110 : BitVec 1 := Scalar.cmpi .slt v106 c0_i32_96
  let v111 : BitVec 1 := Scalar.xori v109 v110
  let c0_i32_94 : BitVec 32 := 0#32
  let v108 : BitVec 1 := Scalar.cmpi .ne v107 c0_i32_94
  let v112 : BitVec 1 := Scalar.andi v111 v108
  let v113 : BitVec 32 := Scalar.addi v107 v106
  let v114 : BitVec 32 := Scalar.select v112 v113 v107
  let c1_i32_109 : BitVec 32 := 1#32
  let v115 : BitVec 32 := Scalar.muli v114 c1_i32_109
  let v116 : BitVec 32 := Scalar.addi c0_i32_110 v115
  v116.toNat
def k0_dev7 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_122 : BitVec 32 := 2#32
  let v135 : BitVec 32 := Scalar.addi v2 c2_i32_122
  let c4_i32_123 : BitVec 32 := 4#32
  let c0_i32_124 : BitVec 32 := 0#32
  let v136 : BitVec 1 := Scalar.cmpi .eq c4_i32_123 c0_i32_124
  let c1_i32_125 : BitVec 32 := 1#32
  let v137 : BitVec 32 := Scalar.select v136 c1_i32_125 c4_i32_123
  let v138 : BitVec 32 := Scalar.remsi v135 v137
  let c0_i32_127 : BitVec 32 := 0#32
  let v140 : BitVec 1 := Scalar.cmpi .slt v138 c0_i32_127
  let c0_i32_128 : BitVec 32 := 0#32
  let v141 : BitVec 1 := Scalar.cmpi .slt v137 c0_i32_128
  let v142 : BitVec 1 := Scalar.xori v140 v141
  let c0_i32_126 : BitVec 32 := 0#32
  let v139 : BitVec 1 := Scalar.cmpi .ne v138 c0_i32_126
  let v143 : BitVec 1 := Scalar.andi v142 v139
  let v144 : BitVec 32 := Scalar.addi v138 v137
  let v145 : BitVec 32 := Scalar.select v143 v144 v138
  let c1_i32_141 : BitVec 32 := 1#32
  let v146 : BitVec 32 := Scalar.muli v145 c1_i32_141
  let v147 : BitVec 32 := Scalar.addi c0_i32_142 v146
  v147.toNat
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_147 : BitVec 32 := 1#32
  let v156 : BitVec 32 := Scalar.addi v2 c1_i32_147
  let c4_i32_148 : BitVec 32 := 4#32
  let c0_i32_149 : BitVec 32 := 0#32
  let v157 : BitVec 1 := Scalar.cmpi .eq c4_i32_148 c0_i32_149
  let c1_i32_150 : BitVec 32 := 1#32
  let v158 : BitVec 32 := Scalar.select v157 c1_i32_150 c4_i32_148
  let v159 : BitVec 32 := Scalar.remsi v156 v158
  let c0_i32_152 : BitVec 32 := 0#32
  let v161 : BitVec 1 := Scalar.cmpi .slt v159 c0_i32_152
  let c0_i32_153 : BitVec 32 := 0#32
  let v162 : BitVec 1 := Scalar.cmpi .slt v158 c0_i32_153
  let v163 : BitVec 1 := Scalar.xori v161 v162
  let c0_i32_151 : BitVec 32 := 0#32
  let v160 : BitVec 1 := Scalar.cmpi .ne v159 c0_i32_151
  let v164 : BitVec 1 := Scalar.andi v163 v160
  let v165 : BitVec 32 := Scalar.addi v159 v158
  let v166 : BitVec 32 := Scalar.select v164 v165 v159
  let c1_i32_166 : BitVec 32 := 1#32
  let v167 : BitVec 32 := Scalar.muli v166 c1_i32_166
  let v168 : BitVec 32 := Scalar.addi c0_i32_167 v167
  v168.toNat
def k0_dev9 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_172 : BitVec 32 := 3#32
  let v177 : BitVec 32 := Scalar.addi v2 c3_i32_172
  let c4_i32_173 : BitVec 32 := 4#32
  let c0_i32_174 : BitVec 32 := 0#32
  let v178 : BitVec 1 := Scalar.cmpi .eq c4_i32_173 c0_i32_174
  let c1_i32_175 : BitVec 32 := 1#32
  let v179 : BitVec 32 := Scalar.select v178 c1_i32_175 c4_i32_173
  let v180 : BitVec 32 := Scalar.remsi v177 v179
  let c0_i32_177 : BitVec 32 := 0#32
  let v182 : BitVec 1 := Scalar.cmpi .slt v180 c0_i32_177
  let c0_i32_178 : BitVec 32 := 0#32
  let v183 : BitVec 1 := Scalar.cmpi .slt v179 c0_i32_178
  let v184 : BitVec 1 := Scalar.xori v182 v183
  let c0_i32_176 : BitVec 32 := 0#32
  let v181 : BitVec 1 := Scalar.cmpi .ne v180 c0_i32_176
  let v185 : BitVec 1 := Scalar.andi v184 v181
  let v186 : BitVec 32 := Scalar.addi v180 v179
  let v187 : BitVec 32 := Scalar.select v185 v186 v180
  let c1_i32_191 : BitVec 32 := 1#32
  let v188 : BitVec 32 := Scalar.muli v187 c1_i32_191
  let v189 : BitVec 32 := Scalar.addi c0_i32_192 v188
  v189.toNat
def k0_dev10 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_204 : BitVec 32 := 2#32
  let v208 : BitVec 32 := Scalar.addi v2 c2_i32_204
  let c4_i32_205 : BitVec 32 := 4#32
  let c0_i32_206 : BitVec 32 := 0#32
  let v209 : BitVec 1 := Scalar.cmpi .eq c4_i32_205 c0_i32_206
  let c1_i32_207 : BitVec 32 := 1#32
  let v210 : BitVec 32 := Scalar.select v209 c1_i32_207 c4_i32_205
  let v211 : BitVec 32 := Scalar.remsi v208 v210
  let c0_i32_209 : BitVec 32 := 0#32
  let v213 : BitVec 1 := Scalar.cmpi .slt v211 c0_i32_209
  let c0_i32_210 : BitVec 32 := 0#32
  let v214 : BitVec 1 := Scalar.cmpi .slt v210 c0_i32_210
  let v215 : BitVec 1 := Scalar.xori v213 v214
  let c0_i32_208 : BitVec 32 := 0#32
  let v212 : BitVec 1 := Scalar.cmpi .ne v211 c0_i32_208
  let v216 : BitVec 1 := Scalar.andi v215 v212
  let v217 : BitVec 32 := Scalar.addi v211 v210
  let v218 : BitVec 32 := Scalar.select v216 v217 v211
  let c1_i32_223 : BitVec 32 := 1#32
  let v219 : BitVec 32 := Scalar.muli v218 c1_i32_223
  let v220 : BitVec 32 := Scalar.addi c0_i32_224 v219
  v220.toNat
def k0_dev11 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_229 : BitVec 32 := 1#32
  let v229 : BitVec 32 := Scalar.addi v2 c1_i32_229
  let c4_i32_230 : BitVec 32 := 4#32
  let c0_i32_231 : BitVec 32 := 0#32
  let v230 : BitVec 1 := Scalar.cmpi .eq c4_i32_230 c0_i32_231
  let c1_i32_232 : BitVec 32 := 1#32
  let v231 : BitVec 32 := Scalar.select v230 c1_i32_232 c4_i32_230
  let v232 : BitVec 32 := Scalar.remsi v229 v231
  let c0_i32_234 : BitVec 32 := 0#32
  let v234 : BitVec 1 := Scalar.cmpi .slt v232 c0_i32_234
  let c0_i32_235 : BitVec 32 := 0#32
  let v235 : BitVec 1 := Scalar.cmpi .slt v231 c0_i32_235
  let v236 : BitVec 1 := Scalar.xori v234 v235
  let c0_i32_233 : BitVec 32 := 0#32
  let v233 : BitVec 1 := Scalar.cmpi .ne v232 c0_i32_233
  let v237 : BitVec 1 := Scalar.andi v236 v233
  let v238 : BitVec 32 := Scalar.addi v232 v231
  let v239 : BitVec 32 := Scalar.select v237 v238 v232
  let c1_i32_248 : BitVec 32 := 1#32
  let v240 : BitVec 32 := Scalar.muli v239 c1_i32_248
  let v241 : BitVec 32 := Scalar.addi c0_i32_249 v240
  v241.toNat
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_254 : BitVec 32 := 3#32
  let v250 : BitVec 32 := Scalar.addi v2 c3_i32_254
  let c4_i32_255 : BitVec 32 := 4#32
  let c0_i32_256 : BitVec 32 := 0#32
  let v251 : BitVec 1 := Scalar.cmpi .eq c4_i32_255 c0_i32_256
  let c1_i32_257 : BitVec 32 := 1#32
  let v252 : BitVec 32 := Scalar.select v251 c1_i32_257 c4_i32_255
  let v253 : BitVec 32 := Scalar.remsi v250 v252
  let c0_i32_259 : BitVec 32 := 0#32
  let v255 : BitVec 1 := Scalar.cmpi .slt v253 c0_i32_259
  let c0_i32_260 : BitVec 32 := 0#32
  let v256 : BitVec 1 := Scalar.cmpi .slt v252 c0_i32_260
  let v257 : BitVec 1 := Scalar.xori v255 v256
  let c0_i32_258 : BitVec 32 := 0#32
  let v254 : BitVec 1 := Scalar.cmpi .ne v253 c0_i32_258
  let v258 : BitVec 1 := Scalar.andi v257 v254
  let v259 : BitVec 32 := Scalar.addi v253 v252
  let v260 : BitVec 32 := Scalar.select v258 v259 v253
  let c1_i32_273 : BitVec 32 := 1#32
  let v261 : BitVec 32 := Scalar.muli v260 c1_i32_273
  let v262 : BitVec 32 := Scalar.addi c0_i32_274 v261
  v262.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_286 : BitVec 32 := 2#32
  let v281 : BitVec 32 := Scalar.addi v2 c2_i32_286
  let c4_i32_287 : BitVec 32 := 4#32
  let c0_i32_288 : BitVec 32 := 0#32
  let v282 : BitVec 1 := Scalar.cmpi .eq c4_i32_287 c0_i32_288
  let c1_i32_289 : BitVec 32 := 1#32
  let v283 : BitVec 32 := Scalar.select v282 c1_i32_289 c4_i32_287
  let v284 : BitVec 32 := Scalar.remsi v281 v283
  let c0_i32_291 : BitVec 32 := 0#32
  let v286 : BitVec 1 := Scalar.cmpi .slt v284 c0_i32_291
  let c0_i32_292 : BitVec 32 := 0#32
  let v287 : BitVec 1 := Scalar.cmpi .slt v283 c0_i32_292
  let v288 : BitVec 1 := Scalar.xori v286 v287
  let c0_i32_290 : BitVec 32 := 0#32
  let v285 : BitVec 1 := Scalar.cmpi .ne v284 c0_i32_290
  let v289 : BitVec 1 := Scalar.andi v288 v285
  let v290 : BitVec 32 := Scalar.addi v284 v283
  let v291 : BitVec 32 := Scalar.select v289 v290 v284
  let c1_i32_305 : BitVec 32 := 1#32
  let v292 : BitVec 32 := Scalar.muli v291 c1_i32_305
  let v293 : BitVec 32 := Scalar.addi c0_i32_306 v292
  v293.toNat
def k0_dev14 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_311 : BitVec 32 := 1#32
  let v302 : BitVec 32 := Scalar.addi v2 c1_i32_311
  let c4_i32_312 : BitVec 32 := 4#32
  let c0_i32_313 : BitVec 32 := 0#32
  let v303 : BitVec 1 := Scalar.cmpi .eq c4_i32_312 c0_i32_313
  let c1_i32_314 : BitVec 32 := 1#32
  let v304 : BitVec 32 := Scalar.select v303 c1_i32_314 c4_i32_312
  let v305 : BitVec 32 := Scalar.remsi v302 v304
  let c0_i32_316 : BitVec 32 := 0#32
  let v307 : BitVec 1 := Scalar.cmpi .slt v305 c0_i32_316
  let c0_i32_317 : BitVec 32 := 0#32
  let v308 : BitVec 1 := Scalar.cmpi .slt v304 c0_i32_317
  let v309 : BitVec 1 := Scalar.xori v307 v308
  let c0_i32_315 : BitVec 32 := 0#32
  let v306 : BitVec 1 := Scalar.cmpi .ne v305 c0_i32_315
  let v310 : BitVec 1 := Scalar.andi v309 v306
  let v311 : BitVec 32 := Scalar.addi v305 v304
  let v312 : BitVec 32 := Scalar.select v310 v311 v305
  let c1_i32_330 : BitVec 32 := 1#32
  let v313 : BitVec 32 := Scalar.muli v312 c1_i32_330
  let v314 : BitVec 32 := Scalar.addi c0_i32_331 v313
  v314.toNat
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_336 : BitVec 32 := 3#32
  let v323 : BitVec 32 := Scalar.addi v2 c3_i32_336
  let c4_i32_337 : BitVec 32 := 4#32
  let c0_i32_338 : BitVec 32 := 0#32
  let v324 : BitVec 1 := Scalar.cmpi .eq c4_i32_337 c0_i32_338
  let c1_i32_339 : BitVec 32 := 1#32
  let v325 : BitVec 32 := Scalar.select v324 c1_i32_339 c4_i32_337
  let v326 : BitVec 32 := Scalar.remsi v323 v325
  let c0_i32_341 : BitVec 32 := 0#32
  let v328 : BitVec 1 := Scalar.cmpi .slt v326 c0_i32_341
  let c0_i32_342 : BitVec 32 := 0#32
  let v329 : BitVec 1 := Scalar.cmpi .slt v325 c0_i32_342
  let v330 : BitVec 1 := Scalar.xori v328 v329
  let c0_i32_340 : BitVec 32 := 0#32
  let v327 : BitVec 1 := Scalar.cmpi .ne v326 c0_i32_340
  let v331 : BitVec 1 := Scalar.andi v330 v327
  let v332 : BitVec 32 := Scalar.addi v326 v325
  let v333 : BitVec 32 := Scalar.select v331 v332 v326
  let c1_i32_355 : BitVec 32 := 1#32
  let v334 : BitVec 32 := Scalar.muli v333 c1_i32_355
  let v335 : BitVec 32 := Scalar.addi c0_i32_356 v334
  v335.toNat
def k0_dev16 (d0 : Dev nD) : Nat :=
  let c0_i32_521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_501 : BitVec 32 := 2#32
  let v415 : BitVec 32 := Scalar.addi v2 c2_i32_501
  let c4_i32_502 : BitVec 32 := 4#32
  let c0_i32_503 : BitVec 32 := 0#32
  let v416 : BitVec 1 := Scalar.cmpi .eq c4_i32_502 c0_i32_503
  let c1_i32_504 : BitVec 32 := 1#32
  let v417 : BitVec 32 := Scalar.select v416 c1_i32_504 c4_i32_502
  let v418 : BitVec 32 := Scalar.remsi v415 v417
  let c0_i32_506 : BitVec 32 := 0#32
  let v420 : BitVec 1 := Scalar.cmpi .slt v418 c0_i32_506
  let c0_i32_507 : BitVec 32 := 0#32
  let v421 : BitVec 1 := Scalar.cmpi .slt v417 c0_i32_507
  let v422 : BitVec 1 := Scalar.xori v420 v421
  let c0_i32_505 : BitVec 32 := 0#32
  let v419 : BitVec 1 := Scalar.cmpi .ne v418 c0_i32_505
  let v423 : BitVec 1 := Scalar.andi v422 v419
  let v424 : BitVec 32 := Scalar.addi v418 v417
  let v425 : BitVec 32 := Scalar.select v423 v424 v418
  let c1_i32_520 : BitVec 32 := 1#32
  let v426 : BitVec 32 := Scalar.muli v425 c1_i32_520
  let v427 : BitVec 32 := Scalar.addi c0_i32_521 v426
  v427.toNat
def k0_dev17 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_526 : BitVec 32 := 1#32
  let v436 : BitVec 32 := Scalar.addi v2 c1_i32_526
  let c4_i32_527 : BitVec 32 := 4#32
  let c0_i32_528 : BitVec 32 := 0#32
  let v437 : BitVec 1 := Scalar.cmpi .eq c4_i32_527 c0_i32_528
  let c1_i32_529 : BitVec 32 := 1#32
  let v438 : BitVec 32 := Scalar.select v437 c1_i32_529 c4_i32_527
  let v439 : BitVec 32 := Scalar.remsi v436 v438
  let c0_i32_531 : BitVec 32 := 0#32
  let v441 : BitVec 1 := Scalar.cmpi .slt v439 c0_i32_531
  let c0_i32_532 : BitVec 32 := 0#32
  let v442 : BitVec 1 := Scalar.cmpi .slt v438 c0_i32_532
  let v443 : BitVec 1 := Scalar.xori v441 v442
  let c0_i32_530 : BitVec 32 := 0#32
  let v440 : BitVec 1 := Scalar.cmpi .ne v439 c0_i32_530
  let v444 : BitVec 1 := Scalar.andi v443 v440
  let v445 : BitVec 32 := Scalar.addi v439 v438
  let v446 : BitVec 32 := Scalar.select v444 v445 v439
  let c1_i32_545 : BitVec 32 := 1#32
  let v447 : BitVec 32 := Scalar.muli v446 c1_i32_545
  let v448 : BitVec 32 := Scalar.addi c0_i32_546 v447
  v448.toNat
def k0_dev18 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_551 : BitVec 32 := 3#32
  let v457 : BitVec 32 := Scalar.addi v2 c3_i32_551
  let c4_i32_552 : BitVec 32 := 4#32
  let c0_i32_553 : BitVec 32 := 0#32
  let v458 : BitVec 1 := Scalar.cmpi .eq c4_i32_552 c0_i32_553
  let c1_i32_554 : BitVec 32 := 1#32
  let v459 : BitVec 32 := Scalar.select v458 c1_i32_554 c4_i32_552
  let v460 : BitVec 32 := Scalar.remsi v457 v459
  let c0_i32_556 : BitVec 32 := 0#32
  let v462 : BitVec 1 := Scalar.cmpi .slt v460 c0_i32_556
  let c0_i32_557 : BitVec 32 := 0#32
  let v463 : BitVec 1 := Scalar.cmpi .slt v459 c0_i32_557
  let v464 : BitVec 1 := Scalar.xori v462 v463
  let c0_i32_555 : BitVec 32 := 0#32
  let v461 : BitVec 1 := Scalar.cmpi .ne v460 c0_i32_555
  let v465 : BitVec 1 := Scalar.andi v464 v461
  let v466 : BitVec 32 := Scalar.addi v460 v459
  let v467 : BitVec 32 := Scalar.select v465 v466 v460
  let c1_i32_570 : BitVec 32 := 1#32
  let v468 : BitVec 32 := Scalar.muli v467 c1_i32_570
  let v469 : BitVec 32 := Scalar.addi c0_i32_571 v468
  v469.toNat
def k0_dev19 (d0 : Dev nD) : Nat :=
  let c0_i32_732 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_712 : BitVec 32 := 2#32
  let v543 : BitVec 32 := Scalar.addi v2 c2_i32_712
  let c4_i32_713 : BitVec 32 := 4#32
  let c0_i32_714 : BitVec 32 := 0#32
  let v544 : BitVec 1 := Scalar.cmpi .eq c4_i32_713 c0_i32_714
  let c1_i32_715 : BitVec 32 := 1#32
  let v545 : BitVec 32 := Scalar.select v544 c1_i32_715 c4_i32_713
  let v546 : BitVec 32 := Scalar.remsi v543 v545
  let c0_i32_717 : BitVec 32 := 0#32
  let v548 : BitVec 1 := Scalar.cmpi .slt v546 c0_i32_717
  let c0_i32_718 : BitVec 32 := 0#32
  let v549 : BitVec 1 := Scalar.cmpi .slt v545 c0_i32_718
  let v550 : BitVec 1 := Scalar.xori v548 v549
  let c0_i32_716 : BitVec 32 := 0#32
  let v547 : BitVec 1 := Scalar.cmpi .ne v546 c0_i32_716
  let v551 : BitVec 1 := Scalar.andi v550 v547
  let v552 : BitVec 32 := Scalar.addi v546 v545
  let v553 : BitVec 32 := Scalar.select v551 v552 v546
  let c1_i32_731 : BitVec 32 := 1#32
  let v554 : BitVec 32 := Scalar.muli v553 c1_i32_731
  let v555 : BitVec 32 := Scalar.addi c0_i32_732 v554
  v555.toNat
def k0_dev20 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_737 : BitVec 32 := 1#32
  let v564 : BitVec 32 := Scalar.addi v2 c1_i32_737
  let c4_i32_738 : BitVec 32 := 4#32
  let c0_i32_739 : BitVec 32 := 0#32
  let v565 : BitVec 1 := Scalar.cmpi .eq c4_i32_738 c0_i32_739
  let c1_i32_740 : BitVec 32 := 1#32
  let v566 : BitVec 32 := Scalar.select v565 c1_i32_740 c4_i32_738
  let v567 : BitVec 32 := Scalar.remsi v564 v566
  let c0_i32_742 : BitVec 32 := 0#32
  let v569 : BitVec 1 := Scalar.cmpi .slt v567 c0_i32_742
  let c0_i32_743 : BitVec 32 := 0#32
  let v570 : BitVec 1 := Scalar.cmpi .slt v566 c0_i32_743
  let v571 : BitVec 1 := Scalar.xori v569 v570
  let c0_i32_741 : BitVec 32 := 0#32
  let v568 : BitVec 1 := Scalar.cmpi .ne v567 c0_i32_741
  let v572 : BitVec 1 := Scalar.andi v571 v568
  let v573 : BitVec 32 := Scalar.addi v567 v566
  let v574 : BitVec 32 := Scalar.select v572 v573 v567
  let c1_i32_756 : BitVec 32 := 1#32
  let v575 : BitVec 32 := Scalar.muli v574 c1_i32_756
  let v576 : BitVec 32 := Scalar.addi c0_i32_757 v575
  v576.toNat
def k0_dev21 (d0 : Dev nD) : Nat :=
  let c0_i32_782 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_762 : BitVec 32 := 3#32
  let v585 : BitVec 32 := Scalar.addi v2 c3_i32_762
  let c4_i32_763 : BitVec 32 := 4#32
  let c0_i32_764 : BitVec 32 := 0#32
  let v586 : BitVec 1 := Scalar.cmpi .eq c4_i32_763 c0_i32_764
  let c1_i32_765 : BitVec 32 := 1#32
  let v587 : BitVec 32 := Scalar.select v586 c1_i32_765 c4_i32_763
  let v588 : BitVec 32 := Scalar.remsi v585 v587
  let c0_i32_767 : BitVec 32 := 0#32
  let v590 : BitVec 1 := Scalar.cmpi .slt v588 c0_i32_767
  let c0_i32_768 : BitVec 32 := 0#32
  let v591 : BitVec 1 := Scalar.cmpi .slt v587 c0_i32_768
  let v592 : BitVec 1 := Scalar.xori v590 v591
  let c0_i32_766 : BitVec 32 := 0#32
  let v589 : BitVec 1 := Scalar.cmpi .ne v588 c0_i32_766
  let v593 : BitVec 1 := Scalar.andi v592 v589
  let v594 : BitVec 32 := Scalar.addi v588 v587
  let v595 : BitVec 32 := Scalar.select v593 v594 v588
  let c1_i32_781 : BitVec 32 := 1#32
  let v596 : BitVec 32 := Scalar.muli v595 c1_i32_781
  let v597 : BitVec 32 := Scalar.addi c0_i32_782 v596
  v597.toNat
def k0_dev22 (d0 : Dev nD) : Nat :=
  let c0_i32_943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_923 : BitVec 32 := 2#32
  let v671 : BitVec 32 := Scalar.addi v2 c2_i32_923
  let c4_i32_924 : BitVec 32 := 4#32
  let c0_i32_925 : BitVec 32 := 0#32
  let v672 : BitVec 1 := Scalar.cmpi .eq c4_i32_924 c0_i32_925
  let c1_i32_926 : BitVec 32 := 1#32
  let v673 : BitVec 32 := Scalar.select v672 c1_i32_926 c4_i32_924
  let v674 : BitVec 32 := Scalar.remsi v671 v673
  let c0_i32_928 : BitVec 32 := 0#32
  let v676 : BitVec 1 := Scalar.cmpi .slt v674 c0_i32_928
  let c0_i32_929 : BitVec 32 := 0#32
  let v677 : BitVec 1 := Scalar.cmpi .slt v673 c0_i32_929
  let v678 : BitVec 1 := Scalar.xori v676 v677
  let c0_i32_927 : BitVec 32 := 0#32
  let v675 : BitVec 1 := Scalar.cmpi .ne v674 c0_i32_927
  let v679 : BitVec 1 := Scalar.andi v678 v675
  let v680 : BitVec 32 := Scalar.addi v674 v673
  let v681 : BitVec 32 := Scalar.select v679 v680 v674
  let c1_i32_942 : BitVec 32 := 1#32
  let v682 : BitVec 32 := Scalar.muli v681 c1_i32_942
  let v683 : BitVec 32 := Scalar.addi c0_i32_943 v682
  v683.toNat
def k0_dev23 (d0 : Dev nD) : Nat :=
  let c0_i32_968 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_948 : BitVec 32 := 1#32
  let v692 : BitVec 32 := Scalar.addi v2 c1_i32_948
  let c4_i32_949 : BitVec 32 := 4#32
  let c0_i32_950 : BitVec 32 := 0#32
  let v693 : BitVec 1 := Scalar.cmpi .eq c4_i32_949 c0_i32_950
  let c1_i32_951 : BitVec 32 := 1#32
  let v694 : BitVec 32 := Scalar.select v693 c1_i32_951 c4_i32_949
  let v695 : BitVec 32 := Scalar.remsi v692 v694
  let c0_i32_953 : BitVec 32 := 0#32
  let v697 : BitVec 1 := Scalar.cmpi .slt v695 c0_i32_953
  let c0_i32_954 : BitVec 32 := 0#32
  let v698 : BitVec 1 := Scalar.cmpi .slt v694 c0_i32_954
  let v699 : BitVec 1 := Scalar.xori v697 v698
  let c0_i32_952 : BitVec 32 := 0#32
  let v696 : BitVec 1 := Scalar.cmpi .ne v695 c0_i32_952
  let v700 : BitVec 1 := Scalar.andi v699 v696
  let v701 : BitVec 32 := Scalar.addi v695 v694
  let v702 : BitVec 32 := Scalar.select v700 v701 v695
  let c1_i32_967 : BitVec 32 := 1#32
  let v703 : BitVec 32 := Scalar.muli v702 c1_i32_967
  let v704 : BitVec 32 := Scalar.addi c0_i32_968 v703
  v704.toNat
def k0_dev24 (d0 : Dev nD) : Nat :=
  let c0_i32_993 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_973 : BitVec 32 := 3#32
  let v713 : BitVec 32 := Scalar.addi v2 c3_i32_973
  let c4_i32_974 : BitVec 32 := 4#32
  let c0_i32_975 : BitVec 32 := 0#32
  let v714 : BitVec 1 := Scalar.cmpi .eq c4_i32_974 c0_i32_975
  let c1_i32_976 : BitVec 32 := 1#32
  let v715 : BitVec 32 := Scalar.select v714 c1_i32_976 c4_i32_974
  let v716 : BitVec 32 := Scalar.remsi v713 v715
  let c0_i32_978 : BitVec 32 := 0#32
  let v718 : BitVec 1 := Scalar.cmpi .slt v716 c0_i32_978
  let c0_i32_979 : BitVec 32 := 0#32
  let v719 : BitVec 1 := Scalar.cmpi .slt v715 c0_i32_979
  let v720 : BitVec 1 := Scalar.xori v718 v719
  let c0_i32_977 : BitVec 32 := 0#32
  let v717 : BitVec 1 := Scalar.cmpi .ne v716 c0_i32_977
  let v721 : BitVec 1 := Scalar.andi v720 v717
  let v722 : BitVec 32 := Scalar.addi v716 v715
  let v723 : BitVec 32 := Scalar.select v721 v722 v716
  let c1_i32_992 : BitVec 32 := 1#32
  let v724 : BitVec 32 := Scalar.muli v723 c1_i32_992
  let v725 : BitVec 32 := Scalar.addi c0_i32_993 v724
  v725.toNat
def k0_dev25 (d0 : Dev nD) : Nat :=
  let c0_i32_1154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1134 : BitVec 32 := 2#32
  let v799 : BitVec 32 := Scalar.addi v2 c2_i32_1134
  let c4_i32_1135 : BitVec 32 := 4#32
  let c0_i32_1136 : BitVec 32 := 0#32
  let v800 : BitVec 1 := Scalar.cmpi .eq c4_i32_1135 c0_i32_1136
  let c1_i32_1137 : BitVec 32 := 1#32
  let v801 : BitVec 32 := Scalar.select v800 c1_i32_1137 c4_i32_1135
  let v802 : BitVec 32 := Scalar.remsi v799 v801
  let c0_i32_1139 : BitVec 32 := 0#32
  let v804 : BitVec 1 := Scalar.cmpi .slt v802 c0_i32_1139
  let c0_i32_1140 : BitVec 32 := 0#32
  let v805 : BitVec 1 := Scalar.cmpi .slt v801 c0_i32_1140
  let v806 : BitVec 1 := Scalar.xori v804 v805
  let c0_i32_1138 : BitVec 32 := 0#32
  let v803 : BitVec 1 := Scalar.cmpi .ne v802 c0_i32_1138
  let v807 : BitVec 1 := Scalar.andi v806 v803
  let v808 : BitVec 32 := Scalar.addi v802 v801
  let v809 : BitVec 32 := Scalar.select v807 v808 v802
  let c1_i32_1153 : BitVec 32 := 1#32
  let v810 : BitVec 32 := Scalar.muli v809 c1_i32_1153
  let v811 : BitVec 32 := Scalar.addi c0_i32_1154 v810
  v811.toNat
def k0_dev26 (d0 : Dev nD) : Nat :=
  let c0_i32_1179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1159 : BitVec 32 := 1#32
  let v820 : BitVec 32 := Scalar.addi v2 c1_i32_1159
  let c4_i32_1160 : BitVec 32 := 4#32
  let c0_i32_1161 : BitVec 32 := 0#32
  let v821 : BitVec 1 := Scalar.cmpi .eq c4_i32_1160 c0_i32_1161
  let c1_i32_1162 : BitVec 32 := 1#32
  let v822 : BitVec 32 := Scalar.select v821 c1_i32_1162 c4_i32_1160
  let v823 : BitVec 32 := Scalar.remsi v820 v822
  let c0_i32_1164 : BitVec 32 := 0#32
  let v825 : BitVec 1 := Scalar.cmpi .slt v823 c0_i32_1164
  let c0_i32_1165 : BitVec 32 := 0#32
  let v826 : BitVec 1 := Scalar.cmpi .slt v822 c0_i32_1165
  let v827 : BitVec 1 := Scalar.xori v825 v826
  let c0_i32_1163 : BitVec 32 := 0#32
  let v824 : BitVec 1 := Scalar.cmpi .ne v823 c0_i32_1163
  let v828 : BitVec 1 := Scalar.andi v827 v824
  let v829 : BitVec 32 := Scalar.addi v823 v822
  let v830 : BitVec 32 := Scalar.select v828 v829 v823
  let c1_i32_1178 : BitVec 32 := 1#32
  let v831 : BitVec 32 := Scalar.muli v830 c1_i32_1178
  let v832 : BitVec 32 := Scalar.addi c0_i32_1179 v831
  v832.toNat
def k0_dev27 (d0 : Dev nD) : Nat :=
  let c0_i32_1204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1184 : BitVec 32 := 3#32
  let v841 : BitVec 32 := Scalar.addi v2 c3_i32_1184
  let c4_i32_1185 : BitVec 32 := 4#32
  let c0_i32_1186 : BitVec 32 := 0#32
  let v842 : BitVec 1 := Scalar.cmpi .eq c4_i32_1185 c0_i32_1186
  let c1_i32_1187 : BitVec 32 := 1#32
  let v843 : BitVec 32 := Scalar.select v842 c1_i32_1187 c4_i32_1185
  let v844 : BitVec 32 := Scalar.remsi v841 v843
  let c0_i32_1189 : BitVec 32 := 0#32
  let v846 : BitVec 1 := Scalar.cmpi .slt v844 c0_i32_1189
  let c0_i32_1190 : BitVec 32 := 0#32
  let v847 : BitVec 1 := Scalar.cmpi .slt v843 c0_i32_1190
  let v848 : BitVec 1 := Scalar.xori v846 v847
  let c0_i32_1188 : BitVec 32 := 0#32
  let v845 : BitVec 1 := Scalar.cmpi .ne v844 c0_i32_1188
  let v849 : BitVec 1 := Scalar.andi v848 v845
  let v850 : BitVec 32 := Scalar.addi v844 v843
  let v851 : BitVec 32 := Scalar.select v849 v850 v844
  let c1_i32_1203 : BitVec 32 := 1#32
  let v852 : BitVec 32 := Scalar.muli v851 c1_i32_1203
  let v853 : BitVec 32 := Scalar.addi c0_i32_1204 v852
  v853.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1213 : BitVec 32 := 0#32
  let v868 : BitVec 1 := Scalar.cmpi .eq v2 c0_i32_1213
  let v869 : BitVec 32 := Scalar.extui v868
  let c0_i32_1358 : BitVec 32 := 0#32
  let v870 : BitVec 1 := Scalar.cmpi .ne v869 c0_i32_1358
  v870

def k0_dev28 : Nat :=
  let c0_i32_1872 : BitVec 32 := 0#32
  let c2_i32_1870 : BitVec 32 := 2#32
  let c1_i32_1871 : BitVec 32 := 1#32
  let v945 : BitVec 32 := Scalar.muli c2_i32_1870 c1_i32_1871
  let v946 : BitVec 32 := Scalar.addi c0_i32_1872 v945
  v946.toNat
def k0_dev29 : Nat :=
  let c0_i32_1952 : BitVec 32 := 0#32
  let c1_i32_1950 : BitVec 32 := 1#32
  let c1_i32_1951 : BitVec 32 := 1#32
  let v1020 : BitVec 32 := Scalar.muli c1_i32_1950 c1_i32_1951
  let v1021 : BitVec 32 := Scalar.addi c0_i32_1952 v1020
  v1021.toNat
def k0_dev30 : Nat :=
  let c0_i32_2032 : BitVec 32 := 0#32
  let c3_i32_2030 : BitVec 32 := 3#32
  let c1_i32_2031 : BitVec 32 := 1#32
  let v1095 : BitVec 32 := Scalar.muli c3_i32_2030 c1_i32_2031
  let v1096 : BitVec 32 := Scalar.addi c0_i32_2032 v1095
  v1096.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1359 : BitVec 32 := 1#32
  let v871 : BitVec 1 := Scalar.cmpi .eq v2 c1_i32_1359
  let v872 : BitVec 32 := Scalar.extui v871
  let c0_i32_1504 : BitVec 32 := 0#32
  let v873 : BitVec 1 := Scalar.cmpi .ne v872 c0_i32_1504
  v873

def k0_dev31 : Nat :=
  let c0_i32_1872 : BitVec 32 := 0#32
  let c3_i32_1870 : BitVec 32 := 3#32
  let c1_i32_1871 : BitVec 32 := 1#32
  let v945 : BitVec 32 := Scalar.muli c3_i32_1870 c1_i32_1871
  let v946 : BitVec 32 := Scalar.addi c0_i32_1872 v945
  v946.toNat
def k0_dev32 : Nat :=
  let c0_i32_1952 : BitVec 32 := 0#32
  let c2_i32_1950 : BitVec 32 := 2#32
  let c1_i32_1951 : BitVec 32 := 1#32
  let v1020 : BitVec 32 := Scalar.muli c2_i32_1950 c1_i32_1951
  let v1021 : BitVec 32 := Scalar.addi c0_i32_1952 v1020
  v1021.toNat
def k0_dev33 : Nat :=
  let c0_i32_2032 : BitVec 32 := 0#32
  let c0_i32_2030 : BitVec 32 := 0#32
  let c1_i32_2031 : BitVec 32 := 1#32
  let v1095 : BitVec 32 := Scalar.muli c0_i32_2030 c1_i32_2031
  let v1096 : BitVec 32 := Scalar.addi c0_i32_2032 v1095
  v1096.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1505 : BitVec 32 := 2#32
  let v874 : BitVec 1 := Scalar.cmpi .eq v2 c2_i32_1505
  let v875 : BitVec 32 := Scalar.extui v874
  let c0_i32_1650 : BitVec 32 := 0#32
  let v876 : BitVec 1 := Scalar.cmpi .ne v875 c0_i32_1650
  v876

def k0_dev34 : Nat :=
  let c0_i32_1872 : BitVec 32 := 0#32
  let c0_i32_1870 : BitVec 32 := 0#32
  let c1_i32_1871 : BitVec 32 := 1#32
  let v945 : BitVec 32 := Scalar.muli c0_i32_1870 c1_i32_1871
  let v946 : BitVec 32 := Scalar.addi c0_i32_1872 v945
  v946.toNat
def k0_dev35 : Nat :=
  let c0_i32_1952 : BitVec 32 := 0#32
  let c3_i32_1950 : BitVec 32 := 3#32
  let c1_i32_1951 : BitVec 32 := 1#32
  let v1020 : BitVec 32 := Scalar.muli c3_i32_1950 c1_i32_1951
  let v1021 : BitVec 32 := Scalar.addi c0_i32_1952 v1020
  v1021.toNat
def k0_dev36 : Nat :=
  let c0_i32_2032 : BitVec 32 := 0#32
  let c1_i32_2030 : BitVec 32 := 1#32
  let c1_i32_2031 : BitVec 32 := 1#32
  let v1095 : BitVec 32 := Scalar.muli c1_i32_2030 c1_i32_2031
  let v1096 : BitVec 32 := Scalar.addi c0_i32_2032 v1095
  v1096.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1651 : BitVec 32 := 3#32
  let v877 : BitVec 1 := Scalar.cmpi .eq v2 c3_i32_1651
  let v878 : BitVec 32 := Scalar.extui v877
  let c0_i32_1796 : BitVec 32 := 0#32
  let v879 : BitVec 1 := Scalar.cmpi .ne v878 c0_i32_1796
  v879

def k0_dev37 : Nat :=
  let c0_i32_1872 : BitVec 32 := 0#32
  let c1_i32_1870 : BitVec 32 := 1#32
  let c1_i32_1871 : BitVec 32 := 1#32
  let v945 : BitVec 32 := Scalar.muli c1_i32_1870 c1_i32_1871
  let v946 : BitVec 32 := Scalar.addi c0_i32_1872 v945
  v946.toNat
def k0_dev38 : Nat :=
  let c0_i32_1952 : BitVec 32 := 0#32
  let c0_i32_1950 : BitVec 32 := 0#32
  let c1_i32_1951 : BitVec 32 := 1#32
  let v1020 : BitVec 32 := Scalar.muli c0_i32_1950 c1_i32_1951
  let v1021 : BitVec 32 := Scalar.addi c0_i32_1952 v1020
  v1021.toNat
def k0_dev39 : Nat :=
  let c0_i32_2032 : BitVec 32 := 0#32
  let c2_i32_2030 : BitVec 32 := 2#32
  let c1_i32_2031 : BitVec 32 := 1#32
  let v1095 : BitVec 32 := Scalar.muli c2_i32_2030 c1_i32_2031
  let v1096 : BitVec 32 := Scalar.addi c0_i32_2032 v1095
  v1096.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S256x256_o0_0_S64x256 : S256x256.Slices ![0, 0] S64x256
  inb_S2x4x4x64x256_S1x1x1x64x256_0_0_0_0_0 : ∀ a, (![0, 0, 0, 0, 0] : Fin 5 → Nat) a + S1x1x1x64x256.size a ≤ S2x4x4x64x256.size a
  h_S1x1x1x64x256 : 0 < S1x1x1x64x256.numel
  shapeCasts_S1x1x1x64x256_S64x256 : S1x1x1x64x256.ShapeCasts S64x256
  shapeCasts_S64x256_S1x1x1x64x256 : S64x256.ShapeCasts S1x1x1x64x256
  packedbf16_S2x4x4x64x256_S1x1x1x64x256_0_0_0_0_0 : (Rect.unit (s := S2x4x4x64x256) ![0, 0, 0, 0, 0] S1x1x1x64x256.size inb_S2x4x4x64x256_S1x1x1x64x256_0_0_0_0_0).PackedRows (EltTy.packing .bf16)
  hamt_3 : (3#32 : BitVec 32).msb = false
  inb_S3x4x4_S1x1x1_0_0_2 : ∀ a, (![0, 0, 2] : Fin 3 → Nat) a + S1x1x1.size a ≤ S3x4x4.size a
  squeezes_S1x1x1_S_ : S1x1x1.Squeezes S_
  inb_S2x4x4x64x256_S1x1x1x64x256_0_0_2_0_0 : ∀ a, (![0, 0, 2, 0, 0] : Fin 5 → Nat) a + S1x1x1x64x256.size a ≤ S2x4x4x64x256.size a
  squeezes_S1x1x1x64x256_S64x256 : S1x1x1x64x256.Squeezes S64x256
  wordsbf16_S2x4x4x64x256_S1x1x1x64x256_0_0_0_0_0 : (Rect.unit (s := S2x4x4x64x256) ![0, 0, 0, 0, 0] S1x1x1x64x256.size inb_S2x4x4x64x256_S1x1x1x64x256_0_0_0_0_0).WholeWords (EltTy.packing .bf16)
  wordsbf16_S2x4x4x64x256_S1x1x1x64x256_0_0_2_0_0 : (Rect.unit (s := S2x4x4x64x256) ![0, 0, 2, 0, 0] S1x1x1x64x256.size inb_S2x4x4x64x256_S1x1x1x64x256_0_0_2_0_0).WholeWords (EltTy.packing .bf16)
  inb_S3x4x4_S1x1x1_0_0_1 : ∀ a, (![0, 0, 1] : Fin 3 → Nat) a + S1x1x1.size a ≤ S3x4x4.size a
  inb_S2x4x4x64x256_S1x1x1x64x256_0_0_1_0_0 : ∀ a, (![0, 0, 1, 0, 0] : Fin 5 → Nat) a + S1x1x1x64x256.size a ≤ S2x4x4x64x256.size a
  wordsbf16_S2x4x4x64x256_S1x1x1x64x256_0_0_1_0_0 : (Rect.unit (s := S2x4x4x64x256) ![0, 0, 1, 0, 0] S1x1x1x64x256.size inb_S2x4x4x64x256_S1x1x1x64x256_0_0_1_0_0).WholeWords (EltTy.packing .bf16)
  inb_S3x4x4_S1x1x1_0_0_3 : ∀ a, (![0, 0, 3] : Fin 3 → Nat) a + S1x1x1.size a ≤ S3x4x4.size a
  inb_S2x4x4x64x256_S1x1x1x64x256_0_0_3_0_0 : ∀ a, (![0, 0, 3, 0, 0] : Fin 5 → Nat) a + S1x1x1x64x256.size a ≤ S2x4x4x64x256.size a
  wordsbf16_S2x4x4x64x256_S1x1x1x64x256_0_0_3_0_0 : (Rect.unit (s := S2x4x4x64x256) ![0, 0, 3, 0, 0] S1x1x1x64x256.size inb_S2x4x4x64x256_S1x1x1x64x256_0_0_3_0_0).WholeWords (EltTy.packing .bf16)
  slices_S256x256_o64_0_S64x256 : S256x256.Slices ![64, 0] S64x256
  inb_S2x4x4x64x256_S1x1x1x64x256_0_1_0_0_0 : ∀ a, (![0, 1, 0, 0, 0] : Fin 5 → Nat) a + S1x1x1x64x256.size a ≤ S2x4x4x64x256.size a
  packedbf16_S2x4x4x64x256_S1x1x1x64x256_0_1_0_0_0 : (Rect.unit (s := S2x4x4x64x256) ![0, 1, 0, 0, 0] S1x1x1x64x256.size inb_S2x4x4x64x256_S1x1x1x64x256_0_1_0_0_0).PackedRows (EltTy.packing .bf16)
  inb_S3x4x4_S1x1x1_0_1_2 : ∀ a, (![0, 1, 2] : Fin 3 → Nat) a + S1x1x1.size a ≤ S3x4x4.size a
  inb_S2x4x4x64x256_S1x1x1x64x256_0_1_2_0_0 : ∀ a, (![0, 1, 2, 0, 0] : Fin 5 → Nat) a + S1x1x1x64x256.size a ≤ S2x4x4x64x256.size a
  wordsbf16_S2x4x4x64x256_S1x1x1x64x256_0_1_0_0_0 : (Rect.unit (s := S2x4x4x64x256) ![0, 1, 0, 0, 0] S1x1x1x64x256.size inb_S2x4x4x64x256_S1x1x1x64x256_0_1_0_0_0).WholeWords (EltTy.packing .bf16)
  wordsbf16_S2x4x4x64x256_S1x1x1x64x256_0_1_2_0_0 : (Rect.unit (s := S2x4x4x64x256) ![0, 1, 2, 0, 0] S1x1x1x64x256.size inb_S2x4x4x64x256_S1x1x1x64x256_0_1_2_0_0).WholeWords (EltTy.packing .bf16)
  inb_S3x4x4_S1x1x1_0_1_1 : ∀ a, (![0, 1, 1] : Fin 3 → Nat) a + S1x1x1.size a ≤ S3x4x4.size a
  inb_S2x4x4x64x256_S1x1x1x64x256_0_1_1_0_0 : ∀ a, (![0, 1, 1, 0, 0] : Fin 5 → Nat) a + S1x1x1x64x256.size a ≤ S2x4x4x64x256.size a
  wordsbf16_S2x4x4x64x256_S1x1x1x64x256_0_1_1_0_0 : (Rect.unit (s := S2x4x4x64x256) ![0, 1, 1, 0, 0] S1x1x1x64x256.size inb_S2x4x4x64x256_S1x1x1x64x256_0_1_1_0_0).WholeWords (EltTy.packing .bf16)
  inb_S3x4x4_S1x1x1_0_1_3 : ∀ a, (![0, 1, 3] : Fin 3 → Nat) a + S1x1x1.size a ≤ S3x4x4.size a
  inb_S2x4x4x64x256_S1x1x1x64x256_0_1_3_0_0 : ∀ a, (![0, 1, 3, 0, 0] : Fin 5 → Nat) a + S1x1x1x64x256.size a ≤ S2x4x4x64x256.size a
  wordsbf16_S2x4x4x64x256_S1x1x1x64x256_0_1_3_0_0 : (Rect.unit (s := S2x4x4x64x256) ![0, 1, 3, 0, 0] S1x1x1x64x256.size inb_S2x4x4x64x256_S1x1x1x64x256_0_1_3_0_0).WholeWords (EltTy.packing .bf16)
  slices_S256x256_o128_0_S64x256 : S256x256.Slices ![128, 0] S64x256
  inb_S2x4x4x64x256_S1x1x1x64x256_0_2_0_0_0 : ∀ a, (![0, 2, 0, 0, 0] : Fin 5 → Nat) a + S1x1x1x64x256.size a ≤ S2x4x4x64x256.size a
  packedbf16_S2x4x4x64x256_S1x1x1x64x256_0_2_0_0_0 : (Rect.unit (s := S2x4x4x64x256) ![0, 2, 0, 0, 0] S1x1x1x64x256.size inb_S2x4x4x64x256_S1x1x1x64x256_0_2_0_0_0).PackedRows (EltTy.packing .bf16)
  inb_S3x4x4_S1x1x1_0_2_2 : ∀ a, (![0, 2, 2] : Fin 3 → Nat) a + S1x1x1.size a ≤ S3x4x4.size a
  inb_S2x4x4x64x256_S1x1x1x64x256_0_2_2_0_0 : ∀ a, (![0, 2, 2, 0, 0] : Fin 5 → Nat) a + S1x1x1x64x256.size a ≤ S2x4x4x64x256.size a
  wordsbf16_S2x4x4x64x256_S1x1x1x64x256_0_2_0_0_0 : (Rect.unit (s := S2x4x4x64x256) ![0, 2, 0, 0, 0] S1x1x1x64x256.size inb_S2x4x4x64x256_S1x1x1x64x256_0_2_0_0_0).WholeWords (EltTy.packing .bf16)
  wordsbf16_S2x4x4x64x256_S1x1x1x64x256_0_2_2_0_0 : (Rect.unit (s := S2x4x4x64x256) ![0, 2, 2, 0, 0] S1x1x1x64x256.size inb_S2x4x4x64x256_S1x1x1x64x256_0_2_2_0_0).WholeWords (EltTy.packing .bf16)
  inb_S3x4x4_S1x1x1_0_2_1 : ∀ a, (![0, 2, 1] : Fin 3 → Nat) a + S1x1x1.size a ≤ S3x4x4.size a
  inb_S2x4x4x64x256_S1x1x1x64x256_0_2_1_0_0 : ∀ a, (![0, 2, 1, 0, 0] : Fin 5 → Nat) a + S1x1x1x64x256.size a ≤ S2x4x4x64x256.size a
  wordsbf16_S2x4x4x64x256_S1x1x1x64x256_0_2_1_0_0 : (Rect.unit (s := S2x4x4x64x256) ![0, 2, 1, 0, 0] S1x1x1x64x256.size inb_S2x4x4x64x256_S1x1x1x64x256_0_2_1_0_0).WholeWords (EltTy.packing .bf16)
  inb_S3x4x4_S1x1x1_0_2_3 : ∀ a, (![0, 2, 3] : Fin 3 → Nat) a + S1x1x1.size a ≤ S3x4x4.size a
  inb_S2x4x4x64x256_S1x1x1x64x256_0_2_3_0_0 : ∀ a, (![0, 2, 3, 0, 0] : Fin 5 → Nat) a + S1x1x1x64x256.size a ≤ S2x4x4x64x256.size a
  wordsbf16_S2x4x4x64x256_S1x1x1x64x256_0_2_3_0_0 : (Rect.unit (s := S2x4x4x64x256) ![0, 2, 3, 0, 0] S1x1x1x64x256.size inb_S2x4x4x64x256_S1x1x1x64x256_0_2_3_0_0).WholeWords (EltTy.packing .bf16)
  slices_S256x256_o192_0_S64x256 : S256x256.Slices ![192, 0] S64x256
  inb_S2x4x4x64x256_S1x1x1x64x256_0_3_0_0_0 : ∀ a, (![0, 3, 0, 0, 0] : Fin 5 → Nat) a + S1x1x1x64x256.size a ≤ S2x4x4x64x256.size a
  packedbf16_S2x4x4x64x256_S1x1x1x64x256_0_3_0_0_0 : (Rect.unit (s := S2x4x4x64x256) ![0, 3, 0, 0, 0] S1x1x1x64x256.size inb_S2x4x4x64x256_S1x1x1x64x256_0_3_0_0_0).PackedRows (EltTy.packing .bf16)
  inb_S3x4x4_S1x1x1_0_3_2 : ∀ a, (![0, 3, 2] : Fin 3 → Nat) a + S1x1x1.size a ≤ S3x4x4.size a
  inb_S2x4x4x64x256_S1x1x1x64x256_0_3_2_0_0 : ∀ a, (![0, 3, 2, 0, 0] : Fin 5 → Nat) a + S1x1x1x64x256.size a ≤ S2x4x4x64x256.size a
  wordsbf16_S2x4x4x64x256_S1x1x1x64x256_0_3_0_0_0 : (Rect.unit (s := S2x4x4x64x256) ![0, 3, 0, 0, 0] S1x1x1x64x256.size inb_S2x4x4x64x256_S1x1x1x64x256_0_3_0_0_0).WholeWords (EltTy.packing .bf16)
  wordsbf16_S2x4x4x64x256_S1x1x1x64x256_0_3_2_0_0 : (Rect.unit (s := S2x4x4x64x256) ![0, 3, 2, 0, 0] S1x1x1x64x256.size inb_S2x4x4x64x256_S1x1x1x64x256_0_3_2_0_0).WholeWords (EltTy.packing .bf16)
  inb_S3x4x4_S1x1x1_0_3_1 : ∀ a, (![0, 3, 1] : Fin 3 → Nat) a + S1x1x1.size a ≤ S3x4x4.size a
  inb_S2x4x4x64x256_S1x1x1x64x256_0_3_1_0_0 : ∀ a, (![0, 3, 1, 0, 0] : Fin 5 → Nat) a + S1x1x1x64x256.size a ≤ S2x4x4x64x256.size a
  wordsbf16_S2x4x4x64x256_S1x1x1x64x256_0_3_1_0_0 : (Rect.unit (s := S2x4x4x64x256) ![0, 3, 1, 0, 0] S1x1x1x64x256.size inb_S2x4x4x64x256_S1x1x1x64x256_0_3_1_0_0).WholeWords (EltTy.packing .bf16)
  inb_S3x4x4_S1x1x1_0_3_3 : ∀ a, (![0, 3, 3] : Fin 3 → Nat) a + S1x1x1.size a ≤ S3x4x4.size a
  inb_S2x4x4x64x256_S1x1x1x64x256_0_3_3_0_0 : ∀ a, (![0, 3, 3, 0, 0] : Fin 5 → Nat) a + S1x1x1x64x256.size a ≤ S2x4x4x64x256.size a
  wordsbf16_S2x4x4x64x256_S1x1x1x64x256_0_3_3_0_0 : (Rect.unit (s := S2x4x4x64x256) ![0, 3, 3, 0, 0] S1x1x1x64x256.size inb_S2x4x4x64x256_S1x1x1x64x256_0_3_3_0_0).WholeWords (EltTy.packing .bf16)
  inb_S2x4x4x64x256_S1x1x1x64x256_1_0_0_0_0 : ∀ a, (![1, 0, 0, 0, 0] : Fin 5 → Nat) a + S1x1x1x64x256.size a ≤ S2x4x4x64x256.size a
  packedbf16_S2x4x4x64x256_S1x1x1x64x256_1_0_0_0_0 : (Rect.unit (s := S2x4x4x64x256) ![1, 0, 0, 0, 0] S1x1x1x64x256.size inb_S2x4x4x64x256_S1x1x1x64x256_1_0_0_0_0).PackedRows (EltTy.packing .bf16)
  inb_S3x4x4_S1x1x1_1_0_2 : ∀ a, (![1, 0, 2] : Fin 3 → Nat) a + S1x1x1.size a ≤ S3x4x4.size a
  inb_S2x4x4x64x256_S1x1x1x64x256_1_0_2_0_0 : ∀ a, (![1, 0, 2, 0, 0] : Fin 5 → Nat) a + S1x1x1x64x256.size a ≤ S2x4x4x64x256.size a
  wordsbf16_S2x4x4x64x256_S1x1x1x64x256_1_0_0_0_0 : (Rect.unit (s := S2x4x4x64x256) ![1, 0, 0, 0, 0] S1x1x1x64x256.size inb_S2x4x4x64x256_S1x1x1x64x256_1_0_0_0_0).WholeWords (EltTy.packing .bf16)
  wordsbf16_S2x4x4x64x256_S1x1x1x64x256_1_0_2_0_0 : (Rect.unit (s := S2x4x4x64x256) ![1, 0, 2, 0, 0] S1x1x1x64x256.size inb_S2x4x4x64x256_S1x1x1x64x256_1_0_2_0_0).WholeWords (EltTy.packing .bf16)
  inb_S3x4x4_S1x1x1_1_0_1 : ∀ a, (![1, 0, 1] : Fin 3 → Nat) a + S1x1x1.size a ≤ S3x4x4.size a
  inb_S2x4x4x64x256_S1x1x1x64x256_1_0_1_0_0 : ∀ a, (![1, 0, 1, 0, 0] : Fin 5 → Nat) a + S1x1x1x64x256.size a ≤ S2x4x4x64x256.size a
  wordsbf16_S2x4x4x64x256_S1x1x1x64x256_1_0_1_0_0 : (Rect.unit (s := S2x4x4x64x256) ![1, 0, 1, 0, 0] S1x1x1x64x256.size inb_S2x4x4x64x256_S1x1x1x64x256_1_0_1_0_0).WholeWords (EltTy.packing .bf16)
  inb_S3x4x4_S1x1x1_1_0_3 : ∀ a, (![1, 0, 3] : Fin 3 → Nat) a + S1x1x1.size a ≤ S3x4x4.size a
  inb_S2x4x4x64x256_S1x1x1x64x256_1_0_3_0_0 : ∀ a, (![1, 0, 3, 0, 0] : Fin 5 → Nat) a + S1x1x1x64x256.size a ≤ S2x4x4x64x256.size a
  wordsbf16_S2x4x4x64x256_S1x1x1x64x256_1_0_3_0_0 : (Rect.unit (s := S2x4x4x64x256) ![1, 0, 3, 0, 0] S1x1x1x64x256.size inb_S2x4x4x64x256_S1x1x1x64x256_1_0_3_0_0).WholeWords (EltTy.packing .bf16)
  inb_S2x4x4x64x256_S1x1x1x64x256_1_1_0_0_0 : ∀ a, (![1, 1, 0, 0, 0] : Fin 5 → Nat) a + S1x1x1x64x256.size a ≤ S2x4x4x64x256.size a
  packedbf16_S2x4x4x64x256_S1x1x1x64x256_1_1_0_0_0 : (Rect.unit (s := S2x4x4x64x256) ![1, 1, 0, 0, 0] S1x1x1x64x256.size inb_S2x4x4x64x256_S1x1x1x64x256_1_1_0_0_0).PackedRows (EltTy.packing .bf16)
  inb_S3x4x4_S1x1x1_1_1_2 : ∀ a, (![1, 1, 2] : Fin 3 → Nat) a + S1x1x1.size a ≤ S3x4x4.size a
  inb_S2x4x4x64x256_S1x1x1x64x256_1_1_2_0_0 : ∀ a, (![1, 1, 2, 0, 0] : Fin 5 → Nat) a + S1x1x1x64x256.size a ≤ S2x4x4x64x256.size a
  wordsbf16_S2x4x4x64x256_S1x1x1x64x256_1_1_0_0_0 : (Rect.unit (s := S2x4x4x64x256) ![1, 1, 0, 0, 0] S1x1x1x64x256.size inb_S2x4x4x64x256_S1x1x1x64x256_1_1_0_0_0).WholeWords (EltTy.packing .bf16)
  wordsbf16_S2x4x4x64x256_S1x1x1x64x256_1_1_2_0_0 : (Rect.unit (s := S2x4x4x64x256) ![1, 1, 2, 0, 0] S1x1x1x64x256.size inb_S2x4x4x64x256_S1x1x1x64x256_1_1_2_0_0).WholeWords (EltTy.packing .bf16)
  inb_S3x4x4_S1x1x1_1_1_1 : ∀ a, (![1, 1, 1] : Fin 3 → Nat) a + S1x1x1.size a ≤ S3x4x4.size a
  inb_S2x4x4x64x256_S1x1x1x64x256_1_1_1_0_0 : ∀ a, (![1, 1, 1, 0, 0] : Fin 5 → Nat) a + S1x1x1x64x256.size a ≤ S2x4x4x64x256.size a
  wordsbf16_S2x4x4x64x256_S1x1x1x64x256_1_1_1_0_0 : (Rect.unit (s := S2x4x4x64x256) ![1, 1, 1, 0, 0] S1x1x1x64x256.size inb_S2x4x4x64x256_S1x1x1x64x256_1_1_1_0_0).WholeWords (EltTy.packing .bf16)
  inb_S3x4x4_S1x1x1_1_1_3 : ∀ a, (![1, 1, 3] : Fin 3 → Nat) a + S1x1x1.size a ≤ S3x4x4.size a
  inb_S2x4x4x64x256_S1x1x1x64x256_1_1_3_0_0 : ∀ a, (![1, 1, 3, 0, 0] : Fin 5 → Nat) a + S1x1x1x64x256.size a ≤ S2x4x4x64x256.size a
  wordsbf16_S2x4x4x64x256_S1x1x1x64x256_1_1_3_0_0 : (Rect.unit (s := S2x4x4x64x256) ![1, 1, 3, 0, 0] S1x1x1x64x256.size inb_S2x4x4x64x256_S1x1x1x64x256_1_1_3_0_0).WholeWords (EltTy.packing .bf16)
  inb_S2x4x4x64x256_S1x1x1x64x256_1_2_0_0_0 : ∀ a, (![1, 2, 0, 0, 0] : Fin 5 → Nat) a + S1x1x1x64x256.size a ≤ S2x4x4x64x256.size a
  packedbf16_S2x4x4x64x256_S1x1x1x64x256_1_2_0_0_0 : (Rect.unit (s := S2x4x4x64x256) ![1, 2, 0, 0, 0] S1x1x1x64x256.size inb_S2x4x4x64x256_S1x1x1x64x256_1_2_0_0_0).PackedRows (EltTy.packing .bf16)
  inb_S3x4x4_S1x1x1_1_2_2 : ∀ a, (![1, 2, 2] : Fin 3 → Nat) a + S1x1x1.size a ≤ S3x4x4.size a
  inb_S2x4x4x64x256_S1x1x1x64x256_1_2_2_0_0 : ∀ a, (![1, 2, 2, 0, 0] : Fin 5 → Nat) a + S1x1x1x64x256.size a ≤ S2x4x4x64x256.size a
  wordsbf16_S2x4x4x64x256_S1x1x1x64x256_1_2_0_0_0 : (Rect.unit (s := S2x4x4x64x256) ![1, 2, 0, 0, 0] S1x1x1x64x256.size inb_S2x4x4x64x256_S1x1x1x64x256_1_2_0_0_0).WholeWords (EltTy.packing .bf16)
  wordsbf16_S2x4x4x64x256_S1x1x1x64x256_1_2_2_0_0 : (Rect.unit (s := S2x4x4x64x256) ![1, 2, 2, 0, 0] S1x1x1x64x256.size inb_S2x4x4x64x256_S1x1x1x64x256_1_2_2_0_0).WholeWords (EltTy.packing .bf16)
  inb_S3x4x4_S1x1x1_1_2_1 : ∀ a, (![1, 2, 1] : Fin 3 → Nat) a + S1x1x1.size a ≤ S3x4x4.size a
  inb_S2x4x4x64x256_S1x1x1x64x256_1_2_1_0_0 : ∀ a, (![1, 2, 1, 0, 0] : Fin 5 → Nat) a + S1x1x1x64x256.size a ≤ S2x4x4x64x256.size a
  wordsbf16_S2x4x4x64x256_S1x1x1x64x256_1_2_1_0_0 : (Rect.unit (s := S2x4x4x64x256) ![1, 2, 1, 0, 0] S1x1x1x64x256.size inb_S2x4x4x64x256_S1x1x1x64x256_1_2_1_0_0).WholeWords (EltTy.packing .bf16)
  inb_S3x4x4_S1x1x1_1_2_3 : ∀ a, (![1, 2, 3] : Fin 3 → Nat) a + S1x1x1.size a ≤ S3x4x4.size a
  inb_S2x4x4x64x256_S1x1x1x64x256_1_2_3_0_0 : ∀ a, (![1, 2, 3, 0, 0] : Fin 5 → Nat) a + S1x1x1x64x256.size a ≤ S2x4x4x64x256.size a
  wordsbf16_S2x4x4x64x256_S1x1x1x64x256_1_2_3_0_0 : (Rect.unit (s := S2x4x4x64x256) ![1, 2, 3, 0, 0] S1x1x1x64x256.size inb_S2x4x4x64x256_S1x1x1x64x256_1_2_3_0_0).WholeWords (EltTy.packing .bf16)
  inb_S2x4x4x64x256_S1x1x1x64x256_1_3_0_0_0 : ∀ a, (![1, 3, 0, 0, 0] : Fin 5 → Nat) a + S1x1x1x64x256.size a ≤ S2x4x4x64x256.size a
  packedbf16_S2x4x4x64x256_S1x1x1x64x256_1_3_0_0_0 : (Rect.unit (s := S2x4x4x64x256) ![1, 3, 0, 0, 0] S1x1x1x64x256.size inb_S2x4x4x64x256_S1x1x1x64x256_1_3_0_0_0).PackedRows (EltTy.packing .bf16)
  inb_S3x4x4_S1x1x1_1_3_2 : ∀ a, (![1, 3, 2] : Fin 3 → Nat) a + S1x1x1.size a ≤ S3x4x4.size a
  inb_S2x4x4x64x256_S1x1x1x64x256_1_3_2_0_0 : ∀ a, (![1, 3, 2, 0, 0] : Fin 5 → Nat) a + S1x1x1x64x256.size a ≤ S2x4x4x64x256.size a
  wordsbf16_S2x4x4x64x256_S1x1x1x64x256_1_3_0_0_0 : (Rect.unit (s := S2x4x4x64x256) ![1, 3, 0, 0, 0] S1x1x1x64x256.size inb_S2x4x4x64x256_S1x1x1x64x256_1_3_0_0_0).WholeWords (EltTy.packing .bf16)
  wordsbf16_S2x4x4x64x256_S1x1x1x64x256_1_3_2_0_0 : (Rect.unit (s := S2x4x4x64x256) ![1, 3, 2, 0, 0] S1x1x1x64x256.size inb_S2x4x4x64x256_S1x1x1x64x256_1_3_2_0_0).WholeWords (EltTy.packing .bf16)
  inb_S3x4x4_S1x1x1_1_3_1 : ∀ a, (![1, 3, 1] : Fin 3 → Nat) a + S1x1x1.size a ≤ S3x4x4.size a
  inb_S2x4x4x64x256_S1x1x1x64x256_1_3_1_0_0 : ∀ a, (![1, 3, 1, 0, 0] : Fin 5 → Nat) a + S1x1x1x64x256.size a ≤ S2x4x4x64x256.size a
  wordsbf16_S2x4x4x64x256_S1x1x1x64x256_1_3_1_0_0 : (Rect.unit (s := S2x4x4x64x256) ![1, 3, 1, 0, 0] S1x1x1x64x256.size inb_S2x4x4x64x256_S1x1x1x64x256_1_3_1_0_0).WholeWords (EltTy.packing .bf16)
  inb_S3x4x4_S1x1x1_1_3_3 : ∀ a, (![1, 3, 3] : Fin 3 → Nat) a + S1x1x1.size a ≤ S3x4x4.size a
  inb_S2x4x4x64x256_S1x1x1x64x256_1_3_3_0_0 : ∀ a, (![1, 3, 3, 0, 0] : Fin 5 → Nat) a + S1x1x1x64x256.size a ≤ S2x4x4x64x256.size a
  wordsbf16_S2x4x4x64x256_S1x1x1x64x256_1_3_3_0_0 : (Rect.unit (s := S2x4x4x64x256) ![1, 3, 3, 0, 0] S1x1x1x64x256.size inb_S2x4x4x64x256_S1x1x1x64x256_1_3_3_0_0).WholeWords (EltTy.packing .bf16)
  inb_S2x4x64x256_S1x1x64x256_0_2_0_0 : ∀ a, (![0, 2, 0, 0] : Fin 4 → Nat) a + S1x1x64x256.size a ≤ S2x4x64x256.size a
  h_S1x1x64x256 : 0 < S1x1x64x256.numel
  shapeCasts_S1x1x64x256_S64x256 : S1x1x64x256.ShapeCasts S64x256
  shapeCasts_S64x256_S1x1x64x256 : S64x256.ShapeCasts S1x1x64x256
  packedbf16_S2x4x64x256_S1x1x64x256_0_2_0_0 : (Rect.unit (s := S2x4x64x256) ![0, 2, 0, 0] S1x1x64x256.size inb_S2x4x64x256_S1x1x64x256_0_2_0_0).PackedRows (EltTy.packing .bf16)
  inb_S3x4x4_S1x1x1_2_0_2 : ∀ a, (![2, 0, 2] : Fin 3 → Nat) a + S1x1x1.size a ≤ S3x4x4.size a
  inb_S2x4x64x256_S1x1x64x256_1_2_0_0 : ∀ a, (![1, 2, 0, 0] : Fin 4 → Nat) a + S1x1x64x256.size a ≤ S2x4x64x256.size a
  squeezes_S1x1x64x256_S64x256 : S1x1x64x256.Squeezes S64x256
  wordsbf16_S2x4x64x256_S1x1x64x256_0_2_0_0 : (Rect.unit (s := S2x4x64x256) ![0, 2, 0, 0] S1x1x64x256.size inb_S2x4x64x256_S1x1x64x256_0_2_0_0).WholeWords (EltTy.packing .bf16)
  wordsbf16_S2x4x64x256_S1x1x64x256_1_2_0_0 : (Rect.unit (s := S2x4x64x256) ![1, 2, 0, 0] S1x1x64x256.size inb_S2x4x64x256_S1x1x64x256_1_2_0_0).WholeWords (EltTy.packing .bf16)
  inb_S2x4x64x256_S1x1x64x256_0_1_0_0 : ∀ a, (![0, 1, 0, 0] : Fin 4 → Nat) a + S1x1x64x256.size a ≤ S2x4x64x256.size a
  packedbf16_S2x4x64x256_S1x1x64x256_0_1_0_0 : (Rect.unit (s := S2x4x64x256) ![0, 1, 0, 0] S1x1x64x256.size inb_S2x4x64x256_S1x1x64x256_0_1_0_0).PackedRows (EltTy.packing .bf16)
  inb_S3x4x4_S1x1x1_2_0_1 : ∀ a, (![2, 0, 1] : Fin 3 → Nat) a + S1x1x1.size a ≤ S3x4x4.size a
  inb_S2x4x64x256_S1x1x64x256_1_1_0_0 : ∀ a, (![1, 1, 0, 0] : Fin 4 → Nat) a + S1x1x64x256.size a ≤ S2x4x64x256.size a
  wordsbf16_S2x4x64x256_S1x1x64x256_0_1_0_0 : (Rect.unit (s := S2x4x64x256) ![0, 1, 0, 0] S1x1x64x256.size inb_S2x4x64x256_S1x1x64x256_0_1_0_0).WholeWords (EltTy.packing .bf16)
  wordsbf16_S2x4x64x256_S1x1x64x256_1_1_0_0 : (Rect.unit (s := S2x4x64x256) ![1, 1, 0, 0] S1x1x64x256.size inb_S2x4x64x256_S1x1x64x256_1_1_0_0).WholeWords (EltTy.packing .bf16)
  inb_S2x4x64x256_S1x1x64x256_0_3_0_0 : ∀ a, (![0, 3, 0, 0] : Fin 4 → Nat) a + S1x1x64x256.size a ≤ S2x4x64x256.size a
  packedbf16_S2x4x64x256_S1x1x64x256_0_3_0_0 : (Rect.unit (s := S2x4x64x256) ![0, 3, 0, 0] S1x1x64x256.size inb_S2x4x64x256_S1x1x64x256_0_3_0_0).PackedRows (EltTy.packing .bf16)
  inb_S3x4x4_S1x1x1_2_0_3 : ∀ a, (![2, 0, 3] : Fin 3 → Nat) a + S1x1x1.size a ≤ S3x4x4.size a
  inb_S2x4x64x256_S1x1x64x256_1_3_0_0 : ∀ a, (![1, 3, 0, 0] : Fin 4 → Nat) a + S1x1x64x256.size a ≤ S2x4x64x256.size a
  wordsbf16_S2x4x64x256_S1x1x64x256_0_3_0_0 : (Rect.unit (s := S2x4x64x256) ![0, 3, 0, 0] S1x1x64x256.size inb_S2x4x64x256_S1x1x64x256_0_3_0_0).WholeWords (EltTy.packing .bf16)
  wordsbf16_S2x4x64x256_S1x1x64x256_1_3_0_0 : (Rect.unit (s := S2x4x64x256) ![1, 3, 0, 0] S1x1x64x256.size inb_S2x4x64x256_S1x1x64x256_1_3_0_0).WholeWords (EltTy.packing .bf16)
  inb_S64x256_S64x256_0_0 : ∀ a, (![0, 0] : Fin 2 → Nat) a + S64x256.size a ≤ S64x256.size a
  h_S64x256 : 0 < S64x256.numel
  dot_S64x256_S256x512_S64x512_1_0_0_1_n_n_wf : DotDims.WF S64x256 S256x512 S64x512 [1] [0] [0] [1] [] []
  dot_S64x512_S512x256_S64x256_1_0_0_1_n_n_wf : DotDims.WF S64x512 S512x256 S64x256 [1] [0] [0] [1] [] []
  hcc0_scratch2 : 8 + S3x4x4.numel ≤ 104
  hcc0_scratch3 : 56 + S3x4x4.numel ≤ 104
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, ∀ (k0_h1 : k0_cond1 d0 = 1#1), k0_dev28 < nD
  k0_dev29_lt : ∀ d0 : Dev nD, ∀ (k0_h1 : k0_cond1 d0 = 1#1), k0_dev29 < nD
  k0_dev30_lt : ∀ d0 : Dev nD, ∀ (k0_h1 : k0_cond1 d0 = 1#1), k0_dev30 < nD
  k0_dev31_lt : ∀ d0 : Dev nD, ∀ (k0_h2 : k0_cond2 d0 = 1#1), k0_dev31 < nD
  k0_dev32_lt : ∀ d0 : Dev nD, ∀ (k0_h2 : k0_cond2 d0 = 1#1), k0_dev32 < nD
  k0_dev33_lt : ∀ d0 : Dev nD, ∀ (k0_h2 : k0_cond2 d0 = 1#1), k0_dev33 < nD
  k0_dev34_lt : ∀ d0 : Dev nD, ∀ (k0_h3 : k0_cond3 d0 = 1#1), k0_dev34 < nD
  k0_dev35_lt : ∀ d0 : Dev nD, ∀ (k0_h3 : k0_cond3 d0 = 1#1), k0_dev35 < nD
  k0_dev36_lt : ∀ d0 : Dev nD, ∀ (k0_h3 : k0_cond3 d0 = 1#1), k0_dev36 < nD
  k0_dev37_lt : ∀ d0 : Dev nD, ∀ (k0_h4 : k0_cond4 d0 = 1#1), k0_dev37 < nD
  k0_dev38_lt : ∀ d0 : Dev nD, ∀ (k0_h4 : k0_cond4 d0 = 1#1), k0_dev38 < nD
  k0_dev39_lt : ∀ d0 : Dev nD, ∀ (k0_h4 : k0_cond4 d0 = 1#1), k0_dev39 < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch2 : DmaSems sig S3x4x4 := SemArray.consecutive 8 S3x4x4 hcc0_scratch2
abbrev cc0_scratch3 : DmaSems sig S3x4x4 := SemArray.consecutive 56 S3x4x4 hcc0_scratch3
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S2048x256, .f32⟩
  | .hbm, ⟨3, _⟩ => ⟨S256x2048, .f32⟩
  | .hbm, ⟨4, _⟩ => ⟨S2048x256, .f32⟩
  | .hbm, ⟨5, _⟩ => ⟨S256x2048, .f32⟩
  | .hbm, ⟨6, _⟩ => ⟨S2048x256, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S256x256, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x256, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S256x2048 : S_.BroadcastsInDim S256x2048 (![] : Fin 0 → Fin S256x2048.rank)
  dot_S256x256_S256x2048_S256x2048_1_0_0_1_n_n_wf : DotDims.WF S256x256 S256x2048 S256x2048 [1] [0] [0] [1] [] []
  dot_S256x2048_S2048x256_S256x256_1_0_0_1_n_n_wf : DotDims.WF S256x2048 S2048x256 S256x256 [1] [0] [0] [1] [] []

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

class Facts : Prop extends Facts₀ where

variable [Facts]
-- ==== Proof.KValG.lean ====
import proofs.«900991_g7700000000000992_dist_mlpseq_tp1d_rep_bs_b256_d256_h512_v7x_i4_bf16_1_alg».proof.Proof.Gen.KernelIdeal.Skeleton

/-!
# The values the program stores, as pure functions of the values it loads: for any float model

The program's body is a sequence of loads, pure computations and stores.  This file composes the pure
computations along the body's dataflow: for each store it gives the stored vector as a function of the vectors
the loads before it returned, and a closed form of each over a few shared building blocks (the shape casts, the
two matrix products, the clamp at zero, rounding and widening, the row slices).
-/

noncomputable section

namespace Cert.KernelIdeal.KVal

open Cert.KernelIdeal Cert.KernelIdeal.Gen Idealize.ShloMosaic Idealize.SL.Sem

/-! ## The stored vectors, for any float model -/

section Generic

variable {F : FTy → Type} [FloatOps F]

/-- Layer 0: the vector stored for row block p (into slot 0 of that block's first-layer buffer), from the loaded
    input and the loaded first-layer weight slices. -/
def st0 (x : Vec F S256x256 .f32) (win : Vec F S256x512 .f32) (wout : Vec F S512x256 .f32) :
    Fin 4 → FVec F S1x1x1x64x256 .bf16
  | ⟨0, _⟩ => k0_pay56 x win wout
  | ⟨1, _⟩ => k0_pay57 (k0_pay53 x) (k0_pay54 win) (k0_pay55 wout)
  | ⟨2, _⟩ => k0_pay59 (k0_pay55 wout) (k0_pay58 (k0_pay53 x) (k0_pay54 win))
  | ⟨3, _⟩ => k0_pay60 (k0_pay53 x) (k0_pay54 win) (k0_pay55 wout)

/-- Layer 1: the vector stored for row block p (into slot 0 of that block's second-layer buffer), from the loaded
    second-layer weight slices and the four loaded first-layer slots of block p, in the order the body loads
    them: slot 0, slot 1, slot 3, slot 2.  The block only selects which copies of the computation are composed. -/
def st1 (win : Vec F S256x512 .f32) (wout : Vec F S512x256 .f32) (own s1 s3 s2 : Vec F S1x1x1x64x256 .bf16) :
    Fin 4 → FVec F S1x1x1x64x256 .bf16
  | ⟨0, _⟩ => k0_pay66 (k0_pay61 win) (k0_pay62 wout)
      (k0_pay65 (k0_pay61 win) (k0_pay64 (k0_pay61 win) (k0_pay63 win own) s1) s3) s2
  | ⟨1, _⟩ => k0_pay70 (k0_pay61 win) (k0_pay62 wout)
      (k0_pay69 (k0_pay61 win) (k0_pay68 (k0_pay61 win) (k0_pay67 (k0_pay61 win) own) s1) s3) s2
  | ⟨2, _⟩ => k0_pay74 (k0_pay61 win) (k0_pay62 wout)
      (k0_pay73 (k0_pay61 win) (k0_pay72 (k0_pay61 win) (k0_pay71 (k0_pay61 win) own) s1) s3) s2
  | ⟨3, _⟩ => k0_pay78 (k0_pay61 win) (k0_pay62 wout)
      (k0_pay77 (k0_pay61 win) (k0_pay76 (k0_pay61 win) (k0_pay75 (k0_pay61 win) own) s1) s3) s2

/-- The third-layer weight slices as the branches receive them, from the loaded arrays. -/
abbrev w2in (win2 : Vec F S256x512 .f32) : FVec F S256x512 .bf16 := k0_pay79 win2
abbrev w2out (wout2 : Vec F S512x256 .f32) : FVec F S512x256 .bf16 := k0_pay80 wout2

/-- Layer 2 on device k, first fold (over block k+2): the vector stored into slot 2 of the first exchange
    buffer, from the third-layer weight slices (as the branch receives them) and the four loaded
    second-layer slots 0, 1, 3, 2 of that block. -/
def rsc2 (k : Fin 4) (w : FVec F S256x512 .bf16) (v : FVec F S512x256 .bf16)
    (own s1 s3 s2 : Vec F S1x1x1x64x256 .bf16) : FVec F S1x1x64x256 .bf16 :=
  match k with
  | ⟨0, _⟩ => k0_pay3 v (k0_pay2 w (k0_pay1 w own s1) s3 s2)
  | ⟨1, _⟩ => k0_pay16 v (k0_pay15 w (k0_pay14 w own s1) s3 s2)
  | ⟨2, _⟩ => k0_pay29 v (k0_pay28 w (k0_pay27 w own s1) s3 s2)
  | ⟨3, _⟩ => k0_pay42 v (k0_pay41 w (k0_pay40 w own s1) s3 s2)

/-- Layer 2 on device k, second fold (over block k+1): the vector stored into slot 1 of the first exchange
    buffer. -/
def rsc1 (k : Fin 4) (w : FVec F S256x512 .bf16) (v : FVec F S512x256 .bf16)
    (own s1 s3 s2 : Vec F S1x1x1x64x256 .bf16) : FVec F S1x1x64x256 .bf16 :=
  match k with
  | ⟨0, _⟩ => k0_pay6 w v (k0_pay5 w (k0_pay4 w own) s1) s3 s2
  | ⟨1, _⟩ => k0_pay19 w v (k0_pay18 w (k0_pay17 w own) s1) s3 s2
  | ⟨2, _⟩ => k0_pay32 w v (k0_pay31 w (k0_pay30 w own) s1) s3 s2
  | ⟨3, _⟩ => k0_pay45 w v (k0_pay44 w (k0_pay43 w own) s1) s3 s2

/-- Layer 2 on device k, third fold (over block k+3): the vector stored into slot 3 of the first exchange
    buffer. -/
def rsc3 (k : Fin 4) (w : FVec F S256x512 .bf16) (v : FVec F S512x256 .bf16)
    (own s1 s3 s2 : Vec F S1x1x1x64x256 .bf16) : FVec F S1x1x64x256 .bf16 :=
  match k with
  | ⟨0, _⟩ => k0_pay9 w v (k0_pay8 w (k0_pay7 w own) s1 s3) s2
  | ⟨1, _⟩ => k0_pay22 w v (k0_pay21 w (k0_pay20 w own) s1 s3) s2
  | ⟨2, _⟩ => k0_pay35 w v (k0_pay34 w (k0_pay33 w own) s1 s3) s2
  | ⟨3, _⟩ => k0_pay48 w v (k0_pay47 w (k0_pay46 w own) s1 s3) s2

/-- Layer 2 on device k, last fold (over the device's own block k) and the final sum: the vector stored into
    the output, from the weight slices, the four loaded second-layer slots 0, 1, 3, 2 of block k and the three
    loaded slots 1, 3, 2 of the second exchange buffer, in the order the body loads them. -/
def outv (k : Fin 4) (w : FVec F S256x512 .bf16) (v : FVec F S512x256 .bf16)
    (own s1 s3 s2 : Vec F S1x1x1x64x256 .bf16) (r1 r3 r2 : Vec F S1x1x64x256 .bf16) : FVec F S64x256 .f32 :=
  match k with
  | ⟨0, _⟩ => k0_pay13 (k0_pay12 w v (k0_pay11 w (k0_pay10 w own s1) s3) s2 r1) r3 r2
  | ⟨1, _⟩ => k0_pay26 (k0_pay25 w v (k0_pay24 w (k0_pay23 w own s1) s3) s2 r1) r3 r2
  | ⟨2, _⟩ => k0_pay39 (k0_pay38 w v (k0_pay37 w (k0_pay36 w own s1) s3) s2 r1) r3 r2
  | ⟨3, _⟩ => k0_pay52 (k0_pay51 w v (k0_pay50 w (k0_pay49 w own s1) s3) s2 r1) r3 r2

/-! ### The building blocks the copies share -/

/-- A loaded slot as a 64 × 256 matrix. -/
def down5 (a : Vec F S1x1x1x64x256 .bf16) : FVec F S64x256 .bf16 :=
  shapeCast S64x256 a shapeCasts_S1x1x1x64x256_S64x256
def down4 (a : Vec F S1x1x64x256 .bf16) : FVec F S64x256 .bf16 :=
  shapeCast S64x256 a shapeCasts_S1x1x64x256_S64x256
/-- A 64 × 256 matrix in a slot's shape. -/
def up5 (a : FVec F S64x256 .bf16) : FVec F S1x1x1x64x256 .bf16 :=
  shapeCast S1x1x1x64x256 a shapeCasts_S64x256_S1x1x1x64x256
def up4 (a : FVec F S64x256 .bf16) : FVec F S1x1x64x256 .bf16 :=
  shapeCast S1x1x64x256 a shapeCasts_S64x256_S1x1x64x256

/-- A 64 × 256 matrix times a 256 × 512 weight slice, into the zero accumulator. -/
def dotIn (w : FVec F S256x512 .bf16) (a : FVec F S64x256 .bf16) : FVec F S64x512 .f32 :=
  matmul dot_S64x256_S256x512_S64x512_1_0_0_1_n_n none a w (constant S64x512 .f32 0x00000000#32)

/-- Clamp at zero, round, times a 512 × 256 weight slice into the zero accumulator. -/
def act (v : FVec F S512x256 .bf16) (pre : FVec F S64x512 .f32) : FVec F S64x256 .f32 :=
  matmul dot_S64x512_S512x256_S64x256_1_0_0_1_n_n none
    (truncf .bf16 (maximumf pre (broadcast S64x512 (Scalar.ofBits .f32 0x00000000#32))) bitsLt_bf16_f32) v
    (constant S64x256 .f32 0x00000000#32)

/-- Rounding a 64 × 256 result to the narrow format. -/
def rnd (a : FVec F S64x256 .f32) : FVec F S64x256 .bf16 := truncf .bf16 a bitsLt_bf16_f32
/-- Widening a 64 × 256 matrix back. -/
def wid (a : FVec F S64x256 .bf16) : FVec F S64x256 .f32 := extf .f32 a bitsLt_bf16_f32

/-- Row block p of the rounded input. -/
def rowsOf (x : FVec F S256x256 .bf16) : Fin 4 → FVec F S64x256 .bf16
  | ⟨0, _⟩ => extractStridedSlice S64x256 ![0, 0] x slices_S256x256_o0_0_S64x256
  | ⟨1, _⟩ => extractStridedSlice S64x256 ![64, 0] x slices_S256x256_o64_0_S64x256
  | ⟨2, _⟩ => extractStridedSlice S64x256 ![128, 0] x slices_S256x256_o128_0_S64x256
  | ⟨3, _⟩ => extractStridedSlice S64x256 ![192, 0] x slices_S256x256_o192_0_S64x256

/-- Layer 0 in the building blocks. -/
theorem st0_eq (x : Vec F S256x256 .f32) (win : Vec F S256x512 .f32) (wout : Vec F S512x256 .f32) (p : Fin 4) :
    st0 x win wout p
      = up5 (rnd (act (k0_pay55 wout) (dotIn (k0_pay54 win) (rowsOf (k0_pay53 x) p)))) := by
  match p with
  | ⟨0, _⟩ => rfl
  | ⟨1, _⟩ => rfl
  | ⟨2, _⟩ => rfl
  | ⟨3, _⟩ => rfl

/-- Layer 1 in the building blocks: the four products are added in the order slot 0, slot 1, slot 3, slot 2. -/
theorem st1_eq (win : Vec F S256x512 .f32) (wout : Vec F S512x256 .f32)
    (own s1 s3 s2 : Vec F S1x1x1x64x256 .bf16) (p : Fin 4) :
    st1 win wout own s1 s3 s2 p
      = up5 (rnd (act (k0_pay62 wout)
          (addf (addf (addf (dotIn (k0_pay61 win) (down5 own)) (dotIn (k0_pay61 win) (down5 s1)))
            (dotIn (k0_pay61 win) (down5 s3))) (dotIn (k0_pay61 win) (down5 s2))))) := by
  match p with
  | ⟨0, _⟩ => rfl
  | ⟨1, _⟩ => rfl
  | ⟨2, _⟩ => rfl
  | ⟨3, _⟩ => rfl

/-- The first fold of layer 2 in the building blocks. -/
theorem rsc2_eq (k : Fin 4) (w : FVec F S256x512 .bf16) (v : FVec F S512x256 .bf16)
    (own s1 s3 s2 : Vec F S1x1x1x64x256 .bf16) :
    rsc2 k w v own s1 s3 s2
      = up4 (rnd (act v (addf (addf (addf (dotIn w (down5 own)) (dotIn w (down5 s1)))
          (dotIn w (down5 s3))) (dotIn w (down5 s2))))) := by
  match k with
  | ⟨0, _⟩ => rfl
  | ⟨1, _⟩ => rfl
  | ⟨2, _⟩ => rfl
  | ⟨3, _⟩ => rfl

/-- The second fold of layer 2 in the building blocks. -/
theorem rsc1_eq (k : Fin 4) (w : FVec F S256x512 .bf16) (v : FVec F S512x256 .bf16)
    (own s1 s3 s2 : Vec F S1x1x1x64x256 .bf16) :
    rsc1 k w v own s1 s3 s2
      = up4 (rnd (act v (addf (addf (addf (dotIn w (down5 own)) (dotIn w (down5 s1)))
          (dotIn w (down5 s3))) (dotIn w (down5 s2))))) := by
  match k with
  | ⟨0, _⟩ => rfl
  | ⟨1, _⟩ => rfl
  | ⟨2, _⟩ => rfl
  | ⟨3, _⟩ => rfl

/-- The third fold of layer 2 in the building blocks. -/
theorem rsc3_eq (k : Fin 4) (w : FVec F S256x512 .bf16) (v : FVec F S512x256 .bf16)
    (own s1 s3 s2 : Vec F S1x1x1x64x256 .bf16) :
    rsc3 k w v own s1 s3 s2
      = up4 (rnd (act v (addf (addf (addf (dotIn w (down5 own)) (dotIn w (down5 s1)))
          (dotIn w (down5 s3))) (dotIn w (down5 s2))))) := by
  match k with
  | ⟨0, _⟩ => rfl
  | ⟨1, _⟩ => rfl
  | ⟨2, _⟩ => rfl
  | ⟨3, _⟩ => rfl

/-- The last fold of layer 2 and the final sum in the building blocks: the device's own share, then the
    exchanged shares in the order slot 1, slot 3, slot 2. -/
theorem outv_eq (k : Fin 4) (w : FVec F S256x512 .bf16) (v : FVec F S512x256 .bf16)
    (own s1 s3 s2 : Vec F S1x1x1x64x256 .bf16) (r1 r3 r2 : Vec F S1x1x64x256 .bf16) :
    outv k w v own s1 s3 s2 r1 r3 r2
      = addf (addf (addf
          (act v (addf (addf (addf (dotIn w (down5 own)) (dotIn w (down5 s1)))
            (dotIn w (down5 s3))) (dotIn w (down5 s2))))
          (wid (down4 r1))) (wid (down4 r3))) (wid (down4 r2)) := by
  match k with
  | ⟨0, _⟩ => rfl
  | ⟨1, _⟩ => rfl
  | ⟨2, _⟩ => rfl
  | ⟨3, _⟩ => rfl

end Generic

end Cert.KernelIdeal.KVal

end
-- ==== Proof.Ring.lean ====
import proofs.«900991_g7700000000000992_dist_mlpseq_tp1d_rep_bs_b256_d256_h512_v7x_i4_bf16_1_alg».proof.Proof.Gen.KernelIdeal

noncomputable section

namespace Cert.KernelIdeal.Mlp

open Idealize.ShloMosaic
open Idealize.ShloMosaic.TcCoe
open Cert.KernelIdeal Cert.KernelIdeal.Gen

/-! The four devices form the cyclic group of order four: a device at distance `o` ahead, and at distance `o` behind. -/

/-- The device `o` places ahead of `c` on the ring of four. -/
def pe (c : Dev nD) (o : ℕ) : Dev nD := ⟨(c.val + o) % 4, Nat.mod_lt _ (by decide)⟩
/-- The device `o` places behind `c`. -/
def ps (c : Dev nD) (o : ℕ) : Dev nD := ⟨(c.val + (4 - o % 4)) % 4, Nat.mod_lt _ (by decide)⟩

theorem ps_pe1 (c : Dev nD) : ps (pe c 1) 1 = c := by revert c; decide
theorem ps_pe2 (c : Dev nD) : ps (pe c 2) 2 = c := by revert c; decide
theorem ps_pe3 (c : Dev nD) : ps (pe c 3) 3 = c := by revert c; decide
theorem pe_ps1 (c : Dev nD) : pe (ps c 1) 1 = c := by revert c; decide
theorem pe_ps2 (c : Dev nD) : pe (ps c 2) 2 = c := by revert c; decide
theorem pe_ps3 (c : Dev nD) : pe (ps c 3) 3 = c := by revert c; decide

/-! The printed device chains: every signal and every copy of the main trunk names the device `o` ahead, `o` the slot index. -/
theorem dev1_eq (c : Dev nD) : (⟨k0_dev1 c, k0_dev1_lt c⟩ : Dev nD) = pe c 1 := by revert c; decide +kernel
theorem dev2_eq (c : Dev nD) : (⟨k0_dev2 c, k0_dev2_lt c⟩ : Dev nD) = pe c 2 := by revert c; decide +kernel
theorem dev3_eq (c : Dev nD) : (⟨k0_dev3 c, k0_dev3_lt c⟩ : Dev nD) = pe c 3 := by revert c; decide +kernel
theorem dev4_eq (c : Dev nD) : (⟨k0_dev4 c, k0_dev4_lt c⟩ : Dev nD) = pe c 2 := by revert c; decide +kernel
theorem dev5_eq (c : Dev nD) : (⟨k0_dev5 c, k0_dev5_lt c⟩ : Dev nD) = pe c 1 := by revert c; decide +kernel
theorem dev6_eq (c : Dev nD) : (⟨k0_dev6 c, k0_dev6_lt c⟩ : Dev nD) = pe c 3 := by revert c; decide +kernel
theorem dev7_eq (c : Dev nD) : (⟨k0_dev7 c, k0_dev7_lt c⟩ : Dev nD) = pe c 2 := by revert c; decide +kernel
theorem dev8_eq (c : Dev nD) : (⟨k0_dev8 c, k0_dev8_lt c⟩ : Dev nD) = pe c 1 := by revert c; decide +kernel
theorem dev9_eq (c : Dev nD) : (⟨k0_dev9 c, k0_dev9_lt c⟩ : Dev nD) = pe c 3 := by revert c; decide +kernel
theorem dev10_eq (c : Dev nD) : (⟨k0_dev10 c, k0_dev10_lt c⟩ : Dev nD) = pe c 2 := by revert c; decide +kernel
theorem dev11_eq (c : Dev nD) : (⟨k0_dev11 c, k0_dev11_lt c⟩ : Dev nD) = pe c 1 := by revert c; decide +kernel
theorem dev12_eq (c : Dev nD) : (⟨k0_dev12 c, k0_dev12_lt c⟩ : Dev nD) = pe c 3 := by revert c; decide +kernel
theorem dev13_eq (c : Dev nD) : (⟨k0_dev13 c, k0_dev13_lt c⟩ : Dev nD) = pe c 2 := by revert c; decide +kernel
theorem dev14_eq (c : Dev nD) : (⟨k0_dev14 c, k0_dev14_lt c⟩ : Dev nD) = pe c 1 := by revert c; decide +kernel
theorem dev15_eq (c : Dev nD) : (⟨k0_dev15 c, k0_dev15_lt c⟩ : Dev nD) = pe c 3 := by revert c; decide +kernel
theorem dev16_eq (c : Dev nD) : (⟨k0_dev16 c, k0_dev16_lt c⟩ : Dev nD) = pe c 2 := by revert c; decide +kernel
theorem dev17_eq (c : Dev nD) : (⟨k0_dev17 c, k0_dev17_lt c⟩ : Dev nD) = pe c 1 := by revert c; decide +kernel
theorem dev18_eq (c : Dev nD) : (⟨k0_dev18 c, k0_dev18_lt c⟩ : Dev nD) = pe c 3 := by revert c; decide +kernel
theorem dev19_eq (c : Dev nD) : (⟨k0_dev19 c, k0_dev19_lt c⟩ : Dev nD) = pe c 2 := by revert c; decide +kernel
theorem dev20_eq (c : Dev nD) : (⟨k0_dev20 c, k0_dev20_lt c⟩ : Dev nD) = pe c 1 := by revert c; decide +kernel
theorem dev21_eq (c : Dev nD) : (⟨k0_dev21 c, k0_dev21_lt c⟩ : Dev nD) = pe c 3 := by revert c; decide +kernel
theorem dev22_eq (c : Dev nD) : (⟨k0_dev22 c, k0_dev22_lt c⟩ : Dev nD) = pe c 2 := by revert c; decide +kernel
theorem dev23_eq (c : Dev nD) : (⟨k0_dev23 c, k0_dev23_lt c⟩ : Dev nD) = pe c 1 := by revert c; decide +kernel
theorem dev24_eq (c : Dev nD) : (⟨k0_dev24 c, k0_dev24_lt c⟩ : Dev nD) = pe c 3 := by revert c; decide +kernel
theorem dev25_eq (c : Dev nD) : (⟨k0_dev25 c, k0_dev25_lt c⟩ : Dev nD) = pe c 2 := by revert c; decide +kernel
theorem dev26_eq (c : Dev nD) : (⟨k0_dev26 c, k0_dev26_lt c⟩ : Dev nD) = pe c 1 := by revert c; decide +kernel
theorem dev27_eq (c : Dev nD) : (⟨k0_dev27 c, k0_dev27_lt c⟩ : Dev nD) = pe c 3 := by revert c; decide +kernel

end Cert.KernelIdeal.Mlp

end
-- ==== Proof.JoinG.lean ====
import proofs.«900991_g7700000000000992_dist_mlpseq_tp1d_rep_bs_b256_d256_h512_v7x_i4_bf16_1_alg».proof.Proof.KValG
import proofs.«900991_g7700000000000992_dist_mlpseq_tp1d_rep_bs_b256_d256_h512_v7x_i4_bf16_1_alg».proof.Proof.Ring

/-!
# The four devices together: for any float model

Each device stores, layer by layer, vectors computed from what it loaded; what it loads from a slot other than
its own is what the device that many places behind it on the ring of four stored.  This file composes the
per-store functions along that exchange into the value each device ends with.
-/

noncomputable section

namespace Cert.KernelIdeal.Join

open Cert.KernelIdeal Cert.KernelIdeal.Gen Cert.KernelIdeal.KVal Cert.KernelIdeal.Mlp Idealize.ShloMosaic
  Idealize.SL.Sem

/-! ## The stored values of all devices, for any float model

The data are per-device arrays: X e is device e's input array, Wi l e and Wo l e its two weight slices of
layer l. -/

section Generic

variable {F : FTy → Type} [FloatOps F]
variable (X : Dev nD → Vec F S256x256 .f32) (Wi : Fin 3 → Dev nD → Vec F S256x512 .f32)
  (Wo : Fin 3 → Dev nD → Vec F S512x256 .f32)

/-- What device e stores for row block p in layer 0. -/
def V0 (e : Dev nD) (p : Fin 4) : FVec F S1x1x1x64x256 .bf16 := st0 (X e) (Wi 0 e) (Wo 0 e) p

/-- What device e stores for row block p in layer 1: its slots 0, 1, 3, 2 of that block hold the layer-0 vectors
    of the devices 0, 1, 3, 2 places behind it. -/
def V1 (e : Dev nD) (p : Fin 4) : FVec F S1x1x1x64x256 .bf16 :=
  st1 (Wi 1 e) (Wo 1 e) (V0 X Wi Wo e p) (V0 X Wi Wo (ps e 1) p) (V0 X Wi Wo (ps e 3) p) (V0 X Wi Wo (ps e 2) p) p

/-- What device e stores into slot 1 of the first exchange buffer: its layer-2 share for the block of the
    device one place ahead. -/
def V2_1 (e : Dev nD) : FVec F S1x1x64x256 .bf16 :=
  rsc1 e (w2in (Wi 2 e)) (w2out (Wo 2 e)) (V1 X Wi Wo e (pe e 1)) (V1 X Wi Wo (ps e 1) (pe e 1))
    (V1 X Wi Wo (ps e 3) (pe e 1)) (V1 X Wi Wo (ps e 2) (pe e 1))

/-- Into slot 2: its layer-2 share for the block of the device two places ahead. -/
def V2_2 (e : Dev nD) : FVec F S1x1x64x256 .bf16 :=
  rsc2 e (w2in (Wi 2 e)) (w2out (Wo 2 e)) (V1 X Wi Wo e (pe e 2)) (V1 X Wi Wo (ps e 1) (pe e 2))
    (V1 X Wi Wo (ps e 3) (pe e 2)) (V1 X Wi Wo (ps e 2) (pe e 2))

/-- Into slot 3: its layer-2 share for the block of the device three places ahead. -/
def V2_3 (e : Dev nD) : FVec F S1x1x64x256 .bf16 :=
  rsc3 e (w2in (Wi 2 e)) (w2out (Wo 2 e)) (V1 X Wi Wo e (pe e 3)) (V1 X Wi Wo (ps e 1) (pe e 3))
    (V1 X Wi Wo (ps e 3) (pe e 3)) (V1 X Wi Wo (ps e 2) (pe e 3))

/-- What device e stores into its result: its own layer-2 share for its own block, plus the shares for that
    block it received in slots 1, 3, 2 of the second exchange buffer, from the devices 1, 3, 2 places behind. -/
def OutV (e : Dev nD) : FVec F S64x256 .f32 :=
  outv e (w2in (Wi 2 e)) (w2out (Wo 2 e)) (V1 X Wi Wo e e) (V1 X Wi Wo (ps e 1) e) (V1 X Wi Wo (ps e 3) e)
    (V1 X Wi Wo (ps e 2) e) (V2_1 X Wi Wo (ps e 1)) (V2_3 X Wi Wo (ps e 3)) (V2_2 X Wi Wo (ps e 2))

end Generic

/-! ## On the ring of four, o places behind is subtraction -/

theorem ps_one (e : Fin 4) : ps e 1 = e - 1 := by revert e; decide
theorem ps_two (e : Fin 4) : ps e 2 = e - 2 := by revert e; decide
theorem ps_three (e : Fin 4) : ps e 3 = e - 3 := by revert e; decide
theorem pe_one (e : Fin 4) : pe e 1 = e + 1 := by revert e; decide
theorem pe_two (e : Fin 4) : pe e 2 = e + 2 := by revert e; decide
theorem pe_three (e : Fin 4) : pe e 3 = e + 3 := by revert e; decide

/-- Three per-device arrays as one family indexed by the layer. -/
def pack3 {α : Type} (a b c : Dev nD → α) : Fin 3 → Dev nD → α
  | ⟨0, _⟩ => a
  | ⟨1, _⟩ => b
  | ⟨2, _⟩ => c

end Cert.KernelIdeal.Join

end
-- ==== Proof.Proto.lean ====
import proofs.«900991_g7700000000000992_dist_mlpseq_tp1d_rep_bs_b256_d256_h512_v7x_i4_bf16_1_alg».proof.Proof.Ring
import proofs.«900991_g7700000000000992_dist_mlpseq_tp1d_rep_bs_b256_d256_h512_v7x_i4_bf16_1_alg».proof.Proof.Gen.KernelIdeal.Skeleton
import proofs.«900991_g7700000000000992_dist_mlpseq_tp1d_rep_bs_b256_d256_h512_v7x_i4_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds library's, duties named by a slot index -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells

Each device has the runtime's barrier semaphore and, per layer `l`, row block `p` and slot `o`, one send and one
receive DMA semaphore. -/

abbrev barS : Sem sig := (SemArray.scalar (sig.barrier 0 rfl) : Sems sig S_).sem

/-- Send semaphore `[l, p, o]`, spelt as the body slices it. -/
abbrev sndS (l p o : ℕ) (h : ∀ a, (![l, p, o] : Fin 3 → Nat) a + S1x1x1.size a ≤ S3x4x4.size a) : DmaSem sig :=
  ((cc0_scratch2.slice (Rect.unit (s := S3x4x4) ![l, p, o] S1x1x1.size h)).squeeze S_ squeezes_S1x1x1_S_).sem
/-- Receive semaphore `[l, p, o]`. -/
abbrev rcvS (l p o : ℕ) (h : ∀ a, (![l, p, o] : Fin 3 → Nat) a + S1x1x1.size a ≤ S3x4x4.size a) : DmaSem sig :=
  ((cc0_scratch3.slice (Rect.unit (s := S3x4x4) ![l, p, o] S1x1x1.size h)).squeeze S_ squeezes_S1x1x1_S_).sem

abbrev barCell (c : Dev nD) : GSem nD τ sig := ((c : Thread nD τ), .reg barS)

/-- Slot `[l, p, o]` of the exchange buffer: a 64 × 256 block. -/
abbrev slotM (l p o : ℕ) (h : ∀ a, (![l, p, o, 0, 0] : Fin 5 → Nat) a + S1x1x1x64x256.size a ≤ S2x4x4x64x256.size a) : Memref sig .tc .vmem S64x256 .bf16 :=
  ((Memref.whole cc0_scratch0).slice (Rect.unit (s := S2x4x4x64x256) ![l, p, o, 0, 0] S1x1x1x64x256.size h) (fun _ => rfl)).squeeze S64x256 squeezes_S1x1x1x64x256_S64x256
/-- Slot `[k, o]` of the reduce-scatter buffer. -/
abbrev rsM (k o : ℕ) (h : ∀ a, (![k, o, 0, 0] : Fin 4 → Nat) a + S1x1x64x256.size a ≤ S2x4x64x256.size a) : Memref sig .tc .vmem S64x256 .bf16 :=
  ((Memref.whole cc0_scratch1).slice (Rect.unit (s := S2x4x64x256) ![k, o, 0, 0] S1x1x64x256.size h) (fun _ => rfl)).squeeze S64x256 squeezes_S1x1x64x256_S64x256

example : (slotM 0 0 2 inb_S2x4x4x64x256_S1x1x1x64x256_0_0_2_0_0).view.WordExact := ((Memref.isWhole_whole cc0_scratch0).wordExact_slice rfl _ wordsbf16_S2x4x4x64x256_S1x1x1x64x256_0_0_2_0_0).reshape _ _

/-- The credit of one block's copy. -/
abbrev N : ℕ := (slotM 0 0 0 inb_S2x4x4x64x256_S1x1x1x64x256_0_0_0_0_0).view.dmaCredit

theorem inb5_of {l p o : ℕ} (hl : l < 2) (hp : p < 4) (ho : o < 4) :
    ∀ a, (![l, p, o, 0, 0] : Fin 5 → Nat) a + S1x1x1x64x256.size a ≤ S2x4x4x64x256.size a := by
  intro a; fin_cases a <;> simp [Shape.size] <;> omega
theorem inb4_of {k o : ℕ} (hk : k < 2) (ho : o < 4) :
    ∀ a, (![k, o, 0, 0] : Fin 4 → Nat) a + S1x1x64x256.size a ≤ S2x4x64x256.size a := by
  intro a; fin_cases a <;> simp [Shape.size] <;> omega
theorem inb3_of {l p o : ℕ} (hl : l < 3) (hp : p < 4) (ho : o < 4) :
    ∀ a, (![l, p, o] : Fin 3 → Nat) a + S1x1x1.size a ≤ S3x4x4.size a := by
  intro a; fin_cases a <;> simp [Shape.size] <;> omega

/-! ## Which cell a DMA semaphore is: the send array sits at 8 … 55, the receive array at 56 … 103, row-major in (layer, block, slot) -/

def sndKey (q : DmaSem sig) : Option (ℕ × ℕ × ℕ) :=
  if 8 ≤ q.val ∧ q.val < 56 then some ((q.val - 8) / 16, (q.val - 8) / 4 % 4, (q.val - 8) % 4) else none
def rcvKey (q : DmaSem sig) : Option (ℕ × ℕ × ℕ) :=
  if 56 ≤ q.val ∧ q.val < 104 then some ((q.val - 56) / 16, (q.val - 56) / 4 % 4, (q.val - 56) % 4) else none
/-- The copies the kernel makes: layers 0 and 1 every block to the three other slots, layer 2 the three reduce-scatter slots. -/
def usedKey (k : ℕ × ℕ × ℕ) : Bool := decide (k.2.2 ≠ 0) && (decide (k.1 < 2) || (decide (k.1 = 2) && decide (k.2.1 = 0)))

section Sched

variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))

/-- What the device `o` behind `c` (the same device as the one `4 - o` ahead) hands `c` with its entry signal: the nine
    blocks of its own buffers that `c` will write — slot `4 - o` of every exchange block and of the reduce-scatter landing row. -/
def barPay1 (c : Dev nD) : sProp 𝕄 :=
  iprop((∃ f, (slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} f)
      ∗ (∃ f, (slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} f)
      ∗ (∃ f, (slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} f)
      ∗ (∃ f, (slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} f)
      ∗ (∃ f, (slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} f)
      ∗ (∃ f, (slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} f)
      ∗ (∃ f, (slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} f)
      ∗ (∃ f, (slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} f)
      ∗ (∃ f, (rsM 1 3 inb_S2x4x64x256_S1x1x64x256_1_3_0_0).view.loc (pe c 3 : Thread nD τ) ↦[(rsM 1 3 inb_S2x4x64x256_S1x1x64x256_1_3_0_0).view.set]{fullShare} f))
def barPay2 (c : Dev nD) : sProp 𝕄 :=
  iprop((∃ f, (slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} f)
      ∗ (∃ f, (slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} f)
      ∗ (∃ f, (slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} f)
      ∗ (∃ f, (slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} f)
      ∗ (∃ f, (slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} f)
      ∗ (∃ f, (slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} f)
      ∗ (∃ f, (slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} f)
      ∗ (∃ f, (slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} f)
      ∗ (∃ f, (rsM 1 2 inb_S2x4x64x256_S1x1x64x256_1_2_0_0).view.loc (pe c 2 : Thread nD τ) ↦[(rsM 1 2 inb_S2x4x64x256_S1x1x64x256_1_2_0_0).view.set]{fullShare} f))
def barPay3 (c : Dev nD) : sProp 𝕄 :=
  iprop((∃ f, (slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} f)
      ∗ (∃ f, (slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} f)
      ∗ (∃ f, (slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} f)
      ∗ (∃ f, (slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} f)
      ∗ (∃ f, (slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} f)
      ∗ (∃ f, (slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} f)
      ∗ (∃ f, (slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} f)
      ∗ (∃ f, (slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} f)
      ∗ (∃ f, (rsM 1 1 inb_S2x4x64x256_S1x1x64x256_1_1_0_0).view.loc (pe c 1 : Thread nD τ) ↦[(rsM 1 1 inb_S2x4x64x256_S1x1x64x256_1_1_0_0).view.set]{fullShare} f))

/-- A landing hands the receiver the destination block holding the sender's value (written over fixed other contents:
    only the block's own elements are held). -/
def recvPay (c : Dev nD) : ℕ × ℕ × ℕ → sProp 𝕄
  | (0, 0, 1) => ((slotM 0 0 1 inb_S2x4x4x64x256_S1x1x1x64x256_0_0_1_0_0).view.loc (c : Thread nD τ) ↦[(slotM 0 0 1 inb_S2x4x4x64x256_S1x1x1x64x256_0_0_1_0_0).view.set]{fullShare} (slotM 0 0 1 inb_S2x4x4x64x256_S1x1x1x64x256_0_0_1_0_0).view.write (Elt F) (jk c) (val (ps c 1) 0 0) Finset.univ : sProp 𝕄)
  | (0, 0, 2) => ((slotM 0 0 2 inb_S2x4x4x64x256_S1x1x1x64x256_0_0_2_0_0).view.loc (c : Thread nD τ) ↦[(slotM 0 0 2 inb_S2x4x4x64x256_S1x1x1x64x256_0_0_2_0_0).view.set]{fullShare} (slotM 0 0 2 inb_S2x4x4x64x256_S1x1x1x64x256_0_0_2_0_0).view.write (Elt F) (jk c) (val (ps c 2) 0 0) Finset.univ : sProp 𝕄)
  | (0, 0, 3) => ((slotM 0 0 3 inb_S2x4x4x64x256_S1x1x1x64x256_0_0_3_0_0).view.loc (c : Thread nD τ) ↦[(slotM 0 0 3 inb_S2x4x4x64x256_S1x1x1x64x256_0_0_3_0_0).view.set]{fullShare} (slotM 0 0 3 inb_S2x4x4x64x256_S1x1x1x64x256_0_0_3_0_0).view.write (Elt F) (jk c) (val (ps c 3) 0 0) Finset.univ : sProp 𝕄)
  | (0, 1, 1) => ((slotM 0 1 1 inb_S2x4x4x64x256_S1x1x1x64x256_0_1_1_0_0).view.loc (c : Thread nD τ) ↦[(slotM 0 1 1 inb_S2x4x4x64x256_S1x1x1x64x256_0_1_1_0_0).view.set]{fullShare} (slotM 0 1 1 inb_S2x4x4x64x256_S1x1x1x64x256_0_1_1_0_0).view.write (Elt F) (jk c) (val (ps c 1) 0 1) Finset.univ : sProp 𝕄)
  | (0, 1, 2) => ((slotM 0 1 2 inb_S2x4x4x64x256_S1x1x1x64x256_0_1_2_0_0).view.loc (c : Thread nD τ) ↦[(slotM 0 1 2 inb_S2x4x4x64x256_S1x1x1x64x256_0_1_2_0_0).view.set]{fullShare} (slotM 0 1 2 inb_S2x4x4x64x256_S1x1x1x64x256_0_1_2_0_0).view.write (Elt F) (jk c) (val (ps c 2) 0 1) Finset.univ : sProp 𝕄)
  | (0, 1, 3) => ((slotM 0 1 3 inb_S2x4x4x64x256_S1x1x1x64x256_0_1_3_0_0).view.loc (c : Thread nD τ) ↦[(slotM 0 1 3 inb_S2x4x4x64x256_S1x1x1x64x256_0_1_3_0_0).view.set]{fullShare} (slotM 0 1 3 inb_S2x4x4x64x256_S1x1x1x64x256_0_1_3_0_0).view.write (Elt F) (jk c) (val (ps c 3) 0 1) Finset.univ : sProp 𝕄)
  | (0, 2, 1) => ((slotM 0 2 1 inb_S2x4x4x64x256_S1x1x1x64x256_0_2_1_0_0).view.loc (c : Thread nD τ) ↦[(slotM 0 2 1 inb_S2x4x4x64x256_S1x1x1x64x256_0_2_1_0_0).view.set]{fullShare} (slotM 0 2 1 inb_S2x4x4x64x256_S1x1x1x64x256_0_2_1_0_0).view.write (Elt F) (jk c) (val (ps c 1) 0 2) Finset.univ : sProp 𝕄)
  | (0, 2, 2) => ((slotM 0 2 2 inb_S2x4x4x64x256_S1x1x1x64x256_0_2_2_0_0).view.loc (c : Thread nD τ) ↦[(slotM 0 2 2 inb_S2x4x4x64x256_S1x1x1x64x256_0_2_2_0_0).view.set]{fullShare} (slotM 0 2 2 inb_S2x4x4x64x256_S1x1x1x64x256_0_2_2_0_0).view.write (Elt F) (jk c) (val (ps c 2) 0 2) Finset.univ : sProp 𝕄)
  | (0, 2, 3) => ((slotM 0 2 3 inb_S2x4x4x64x256_S1x1x1x64x256_0_2_3_0_0).view.loc (c : Thread nD τ) ↦[(slotM 0 2 3 inb_S2x4x4x64x256_S1x1x1x64x256_0_2_3_0_0).view.set]{fullShare} (slotM 0 2 3 inb_S2x4x4x64x256_S1x1x1x64x256_0_2_3_0_0).view.write (Elt F) (jk c) (val (ps c 3) 0 2) Finset.univ : sProp 𝕄)
  | (0, 3, 1) => ((slotM 0 3 1 inb_S2x4x4x64x256_S1x1x1x64x256_0_3_1_0_0).view.loc (c : Thread nD τ) ↦[(slotM 0 3 1 inb_S2x4x4x64x256_S1x1x1x64x256_0_3_1_0_0).view.set]{fullShare} (slotM 0 3 1 inb_S2x4x4x64x256_S1x1x1x64x256_0_3_1_0_0).view.write (Elt F) (jk c) (val (ps c 1) 0 3) Finset.univ : sProp 𝕄)
  | (0, 3, 2) => ((slotM 0 3 2 inb_S2x4x4x64x256_S1x1x1x64x256_0_3_2_0_0).view.loc (c : Thread nD τ) ↦[(slotM 0 3 2 inb_S2x4x4x64x256_S1x1x1x64x256_0_3_2_0_0).view.set]{fullShare} (slotM 0 3 2 inb_S2x4x4x64x256_S1x1x1x64x256_0_3_2_0_0).view.write (Elt F) (jk c) (val (ps c 2) 0 3) Finset.univ : sProp 𝕄)
  | (0, 3, 3) => ((slotM 0 3 3 inb_S2x4x4x64x256_S1x1x1x64x256_0_3_3_0_0).view.loc (c : Thread nD τ) ↦[(slotM 0 3 3 inb_S2x4x4x64x256_S1x1x1x64x256_0_3_3_0_0).view.set]{fullShare} (slotM 0 3 3 inb_S2x4x4x64x256_S1x1x1x64x256_0_3_3_0_0).view.write (Elt F) (jk c) (val (ps c 3) 0 3) Finset.univ : sProp 𝕄)
  | (1, 0, 1) => ((slotM 1 0 1 inb_S2x4x4x64x256_S1x1x1x64x256_1_0_1_0_0).view.loc (c : Thread nD τ) ↦[(slotM 1 0 1 inb_S2x4x4x64x256_S1x1x1x64x256_1_0_1_0_0).view.set]{fullShare} (slotM 1 0 1 inb_S2x4x4x64x256_S1x1x1x64x256_1_0_1_0_0).view.write (Elt F) (jk c) (val (ps c 1) 1 0) Finset.univ : sProp 𝕄)
  | (1, 0, 2) => ((slotM 1 0 2 inb_S2x4x4x64x256_S1x1x1x64x256_1_0_2_0_0).view.loc (c : Thread nD τ) ↦[(slotM 1 0 2 inb_S2x4x4x64x256_S1x1x1x64x256_1_0_2_0_0).view.set]{fullShare} (slotM 1 0 2 inb_S2x4x4x64x256_S1x1x1x64x256_1_0_2_0_0).view.write (Elt F) (jk c) (val (ps c 2) 1 0) Finset.univ : sProp 𝕄)
  | (1, 0, 3) => ((slotM 1 0 3 inb_S2x4x4x64x256_S1x1x1x64x256_1_0_3_0_0).view.loc (c : Thread nD τ) ↦[(slotM 1 0 3 inb_S2x4x4x64x256_S1x1x1x64x256_1_0_3_0_0).view.set]{fullShare} (slotM 1 0 3 inb_S2x4x4x64x256_S1x1x1x64x256_1_0_3_0_0).view.write (Elt F) (jk c) (val (ps c 3) 1 0) Finset.univ : sProp 𝕄)
  | (1, 1, 1) => ((slotM 1 1 1 inb_S2x4x4x64x256_S1x1x1x64x256_1_1_1_0_0).view.loc (c : Thread nD τ) ↦[(slotM 1 1 1 inb_S2x4x4x64x256_S1x1x1x64x256_1_1_1_0_0).view.set]{fullShare} (slotM 1 1 1 inb_S2x4x4x64x256_S1x1x1x64x256_1_1_1_0_0).view.write (Elt F) (jk c) (val (ps c 1) 1 1) Finset.univ : sProp 𝕄)
  | (1, 1, 2) => ((slotM 1 1 2 inb_S2x4x4x64x256_S1x1x1x64x256_1_1_2_0_0).view.loc (c : Thread nD τ) ↦[(slotM 1 1 2 inb_S2x4x4x64x256_S1x1x1x64x256_1_1_2_0_0).view.set]{fullShare} (slotM 1 1 2 inb_S2x4x4x64x256_S1x1x1x64x256_1_1_2_0_0).view.write (Elt F) (jk c) (val (ps c 2) 1 1) Finset.univ : sProp 𝕄)
  | (1, 1, 3) => ((slotM 1 1 3 inb_S2x4x4x64x256_S1x1x1x64x256_1_1_3_0_0).view.loc (c : Thread nD τ) ↦[(slotM 1 1 3 inb_S2x4x4x64x256_S1x1x1x64x256_1_1_3_0_0).view.set]{fullShare} (slotM 1 1 3 inb_S2x4x4x64x256_S1x1x1x64x256_1_1_3_0_0).view.write (Elt F) (jk c) (val (ps c 3) 1 1) Finset.univ : sProp 𝕄)
  | (1, 2, 1) => ((slotM 1 2 1 inb_S2x4x4x64x256_S1x1x1x64x256_1_2_1_0_0).view.loc (c : Thread nD τ) ↦[(slotM 1 2 1 inb_S2x4x4x64x256_S1x1x1x64x256_1_2_1_0_0).view.set]{fullShare} (slotM 1 2 1 inb_S2x4x4x64x256_S1x1x1x64x256_1_2_1_0_0).view.write (Elt F) (jk c) (val (ps c 1) 1 2) Finset.univ : sProp 𝕄)
  | (1, 2, 2) => ((slotM 1 2 2 inb_S2x4x4x64x256_S1x1x1x64x256_1_2_2_0_0).view.loc (c : Thread nD τ) ↦[(slotM 1 2 2 inb_S2x4x4x64x256_S1x1x1x64x256_1_2_2_0_0).view.set]{fullShare} (slotM 1 2 2 inb_S2x4x4x64x256_S1x1x1x64x256_1_2_2_0_0).view.write (Elt F) (jk c) (val (ps c 2) 1 2) Finset.univ : sProp 𝕄)
  | (1, 2, 3) => ((slotM 1 2 3 inb_S2x4x4x64x256_S1x1x1x64x256_1_2_3_0_0).view.loc (c : Thread nD τ) ↦[(slotM 1 2 3 inb_S2x4x4x64x256_S1x1x1x64x256_1_2_3_0_0).view.set]{fullShare} (slotM 1 2 3 inb_S2x4x4x64x256_S1x1x1x64x256_1_2_3_0_0).view.write (Elt F) (jk c) (val (ps c 3) 1 2) Finset.univ : sProp 𝕄)
  | (1, 3, 1) => ((slotM 1 3 1 inb_S2x4x4x64x256_S1x1x1x64x256_1_3_1_0_0).view.loc (c : Thread nD τ) ↦[(slotM 1 3 1 inb_S2x4x4x64x256_S1x1x1x64x256_1_3_1_0_0).view.set]{fullShare} (slotM 1 3 1 inb_S2x4x4x64x256_S1x1x1x64x256_1_3_1_0_0).view.write (Elt F) (jk c) (val (ps c 1) 1 3) Finset.univ : sProp 𝕄)
  | (1, 3, 2) => ((slotM 1 3 2 inb_S2x4x4x64x256_S1x1x1x64x256_1_3_2_0_0).view.loc (c : Thread nD τ) ↦[(slotM 1 3 2 inb_S2x4x4x64x256_S1x1x1x64x256_1_3_2_0_0).view.set]{fullShare} (slotM 1 3 2 inb_S2x4x4x64x256_S1x1x1x64x256_1_3_2_0_0).view.write (Elt F) (jk c) (val (ps c 2) 1 3) Finset.univ : sProp 𝕄)
  | (1, 3, 3) => ((slotM 1 3 3 inb_S2x4x4x64x256_S1x1x1x64x256_1_3_3_0_0).view.loc (c : Thread nD τ) ↦[(slotM 1 3 3 inb_S2x4x4x64x256_S1x1x1x64x256_1_3_3_0_0).view.set]{fullShare} (slotM 1 3 3 inb_S2x4x4x64x256_S1x1x1x64x256_1_3_3_0_0).view.write (Elt F) (jk c) (val (ps c 3) 1 3) Finset.univ : sProp 𝕄)
  | (2, 0, 1) => ((rsM 1 1 inb_S2x4x64x256_S1x1x64x256_1_1_0_0).view.loc (c : Thread nD τ) ↦[(rsM 1 1 inb_S2x4x64x256_S1x1x64x256_1_1_0_0).view.set]{fullShare} (rsM 1 1 inb_S2x4x64x256_S1x1x64x256_1_1_0_0).view.write (Elt F) (jr c) (val (ps c 1) 2 1) Finset.univ : sProp 𝕄)
  | (2, 0, 2) => ((rsM 1 2 inb_S2x4x64x256_S1x1x64x256_1_2_0_0).view.loc (c : Thread nD τ) ↦[(rsM 1 2 inb_S2x4x64x256_S1x1x64x256_1_2_0_0).view.set]{fullShare} (rsM 1 2 inb_S2x4x64x256_S1x1x64x256_1_2_0_0).view.write (Elt F) (jr c) (val (ps c 2) 2 2) Finset.univ : sProp 𝕄)
  | (2, 0, 3) => ((rsM 1 3 inb_S2x4x64x256_S1x1x64x256_1_3_0_0).view.loc (c : Thread nD τ) ↦[(rsM 1 3 inb_S2x4x64x256_S1x1x64x256_1_3_0_0).view.set]{fullShare} (rsM 1 3 inb_S2x4x64x256_S1x1x64x256_1_3_0_0).view.write (Elt F) (jr c) (val (ps c 3) 2 3) Finset.univ : sProp 𝕄)
  | _ => iprop(emp)

/-- A departure hands the sender back the share of the source block it lent. -/
def sendPay (c : Dev nD) : ℕ × ℕ × ℕ → sProp 𝕄
  | (0, 0, 1) => ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} (slotM 0 0 0 inb_S2x4x4x64x256_S1x1x1x64x256_0_0_0_0_0).view.write (Elt F) (jk c) (val c 0 0) Finset.univ : sProp 𝕄)
  | (0, 0, 2) => ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} (slotM 0 0 0 inb_S2x4x4x64x256_S1x1x1x64x256_0_0_0_0_0).view.write (Elt F) (jk c) (val c 0 0) Finset.univ : sProp 𝕄)
  | (0, 0, 3) => ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} (slotM 0 0 0 inb_S2x4x4x64x256_S1x1x1x64x256_0_0_0_0_0).view.write (Elt F) (jk c) (val c 0 0) Finset.univ : sProp 𝕄)
  | (0, 1, 1) => ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} (slotM 0 1 0 inb_S2x4x4x64x256_S1x1x1x64x256_0_1_0_0_0).view.write (Elt F) (jk c) (val c 0 1) Finset.univ : sProp 𝕄)
  | (0, 1, 2) => ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} (slotM 0 1 0 inb_S2x4x4x64x256_S1x1x1x64x256_0_1_0_0_0).view.write (Elt F) (jk c) (val c 0 1) Finset.univ : sProp 𝕄)
  | (0, 1, 3) => ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} (slotM 0 1 0 inb_S2x4x4x64x256_S1x1x1x64x256_0_1_0_0_0).view.write (Elt F) (jk c) (val c 0 1) Finset.univ : sProp 𝕄)
  | (0, 2, 1) => ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} (slotM 0 2 0 inb_S2x4x4x64x256_S1x1x1x64x256_0_2_0_0_0).view.write (Elt F) (jk c) (val c 0 2) Finset.univ : sProp 𝕄)
  | (0, 2, 2) => ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} (slotM 0 2 0 inb_S2x4x4x64x256_S1x1x1x64x256_0_2_0_0_0).view.write (Elt F) (jk c) (val c 0 2) Finset.univ : sProp 𝕄)
  | (0, 2, 3) => ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} (slotM 0 2 0 inb_S2x4x4x64x256_S1x1x1x64x256_0_2_0_0_0).view.write (Elt F) (jk c) (val c 0 2) Finset.univ : sProp 𝕄)
  | (0, 3, 1) => ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} (slotM 0 3 0 inb_S2x4x4x64x256_S1x1x1x64x256_0_3_0_0_0).view.write (Elt F) (jk c) (val c 0 3) Finset.univ : sProp 𝕄)
  | (0, 3, 2) => ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} (slotM 0 3 0 inb_S2x4x4x64x256_S1x1x1x64x256_0_3_0_0_0).view.write (Elt F) (jk c) (val c 0 3) Finset.univ : sProp 𝕄)
  | (0, 3, 3) => ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} (slotM 0 3 0 inb_S2x4x4x64x256_S1x1x1x64x256_0_3_0_0_0).view.write (Elt F) (jk c) (val c 0 3) Finset.univ : sProp 𝕄)
  | (1, 0, 1) => ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} (slotM 1 0 0 inb_S2x4x4x64x256_S1x1x1x64x256_1_0_0_0_0).view.write (Elt F) (jk c) (val c 1 0) Finset.univ : sProp 𝕄)
  | (1, 0, 2) => ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} (slotM 1 0 0 inb_S2x4x4x64x256_S1x1x1x64x256_1_0_0_0_0).view.write (Elt F) (jk c) (val c 1 0) Finset.univ : sProp 𝕄)
  | (1, 0, 3) => ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} (slotM 1 0 0 inb_S2x4x4x64x256_S1x1x1x64x256_1_0_0_0_0).view.write (Elt F) (jk c) (val c 1 0) Finset.univ : sProp 𝕄)
  | (1, 1, 1) => ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} (slotM 1 1 0 inb_S2x4x4x64x256_S1x1x1x64x256_1_1_0_0_0).view.write (Elt F) (jk c) (val c 1 1) Finset.univ : sProp 𝕄)
  | (1, 1, 2) => ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} (slotM 1 1 0 inb_S2x4x4x64x256_S1x1x1x64x256_1_1_0_0_0).view.write (Elt F) (jk c) (val c 1 1) Finset.univ : sProp 𝕄)
  | (1, 1, 3) => ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} (slotM 1 1 0 inb_S2x4x4x64x256_S1x1x1x64x256_1_1_0_0_0).view.write (Elt F) (jk c) (val c 1 1) Finset.univ : sProp 𝕄)
  | (1, 2, 1) => ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} (slotM 1 2 0 inb_S2x4x4x64x256_S1x1x1x64x256_1_2_0_0_0).view.write (Elt F) (jk c) (val c 1 2) Finset.univ : sProp 𝕄)
  | (1, 2, 2) => ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} (slotM 1 2 0 inb_S2x4x4x64x256_S1x1x1x64x256_1_2_0_0_0).view.write (Elt F) (jk c) (val c 1 2) Finset.univ : sProp 𝕄)
  | (1, 2, 3) => ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} (slotM 1 2 0 inb_S2x4x4x64x256_S1x1x1x64x256_1_2_0_0_0).view.write (Elt F) (jk c) (val c 1 2) Finset.univ : sProp 𝕄)
  | (1, 3, 1) => ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} (slotM 1 3 0 inb_S2x4x4x64x256_S1x1x1x64x256_1_3_0_0_0).view.write (Elt F) (jk c) (val c 1 3) Finset.univ : sProp 𝕄)
  | (1, 3, 2) => ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} (slotM 1 3 0 inb_S2x4x4x64x256_S1x1x1x64x256_1_3_0_0_0).view.write (Elt F) (jk c) (val c 1 3) Finset.univ : sProp 𝕄)
  | (1, 3, 3) => ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} (slotM 1 3 0 inb_S2x4x4x64x256_S1x1x1x64x256_1_3_0_0_0).view.write (Elt F) (jk c) (val c 1 3) Finset.univ : sProp 𝕄)
  | (2, 0, 1) => ((rsM 0 1 inb_S2x4x64x256_S1x1x64x256_0_1_0_0).view.loc (c : Thread nD τ) ↦[(rsM 0 1 inb_S2x4x64x256_S1x1x64x256_0_1_0_0).view.set]{fullShare} (rsM 0 1 inb_S2x4x64x256_S1x1x64x256_0_1_0_0).view.write (Elt F) (jr c) (val c 2 1) Finset.univ : sProp 𝕄)
  | (2, 0, 2) => ((rsM 0 2 inb_S2x4x64x256_S1x1x64x256_0_2_0_0).view.loc (c : Thread nD τ) ↦[(rsM 0 2 inb_S2x4x64x256_S1x1x64x256_0_2_0_0).view.set]{fullShare} (rsM 0 2 inb_S2x4x64x256_S1x1x64x256_0_2_0_0).view.write (Elt F) (jr c) (val c 2 2) Finset.univ : sProp 𝕄)
  | (2, 0, 3) => ((rsM 0 3 inb_S2x4x64x256_S1x1x64x256_0_3_0_0).view.loc (c : Thread nD τ) ↦[(rsM 0 3 inb_S2x4x64x256_S1x1x64x256_0_3_0_0).view.set]{fullShare} (rsM 0 3 inb_S2x4x64x256_S1x1x64x256_0_3_0_0).view.write (Elt F) (jr c) (val c 2 3) Finset.univ : sProp 𝕄)
  | _ => iprop(emp)

/-- One round for every cell. The barrier cell of a device has three unit duties, `o = 1, 2, 3`, paid by the device `o` behind;
    a used send or receive cell one duty, `0`, of one block's credit. -/
def Rd : Rounds.Schedule (GSem nD τ sig) (Fin 4) 𝕄 where
  duties g r :=
    if r = 0 ∧ g.1.2 = .tc then
      match g.2 with
      | .reg s => if s = barS then {1, 2, 3} else ∅
      | .dma q => match sndKey q, rcvKey q with
        | some k, _ => if usedKey k then {0} else ∅
        | none, some k => if usedKey k then {0} else ∅
        | none, none => ∅
    else ∅
  unitless _ := False
  amount g _ _ := match g.2 with | .reg _ => 1 | .dma _ => N
  payload g _ d :=
    match g.2 with
    | .reg s => if s = barS then (if d = 1 then barPay1 (F := F) g.1.1 else if d = 2 then barPay2 (F := F) g.1.1 else if d = 3 then barPay3 (F := F) g.1.1 else iprop(emp)) else iprop(emp)
    | .dma q => match sndKey q, rcvKey q with
      | some k, _ => sendPay val jk jr g.1.1 k
      | none, some k => recvPay val jk jr g.1.1 k
      | none, none => iprop(emp)
  amount_pos g _ _ _ := by
    cases g.2 with
    | reg _ => exact Nat.one_pos
    | dma _ => exact View.dmaCredit_pos _ (by decide)

end Sched

end Cert.KernelIdeal.Mlp

end
-- ==== Proof.Tables.lean ====
import proofs.«900991_g7700000000000992_dist_mlpseq_tp1d_rep_bs_b256_d256_h512_v7x_i4_bf16_1_alg».proof.Proof.Proto

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))

/-! The schedule's tables, cell by cell: which duties, how many units, what each hands over. Every entry is read off the
    definition by evaluation, the semaphore of a literal cell being a literal number. -/

theorem duties_bar (c : Dev nD) : (Rd val jk jr).duties (barCell c) 0 = {1, 2, 3} := rfl
theorem amount_bar (c : Dev nD) (d : Fin 4) : (Rd val jk jr).amount (barCell c) 0 d = 1 := rfl
theorem expect_bar (c : Dev nD) : (Rd val jk jr).expect (barCell c) 0 = 3 := rfl
theorem payload_bar1 (c : Dev nD) : (Rd val jk jr).payload (barCell c) 0 1 = (iprop((∃ f, (slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} f)
      ∗ (∃ f, (slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} f)
      ∗ (∃ f, (slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} f)
      ∗ (∃ f, (slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} f)
      ∗ (∃ f, (slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} f)
      ∗ (∃ f, (slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} f)
      ∗ (∃ f, (slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} f)
      ∗ (∃ f, (slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} f)
      ∗ (∃ f, (rsM 1 3 inb_S2x4x64x256_S1x1x64x256_1_3_0_0).view.loc (pe c 3 : Thread nD τ) ↦[(rsM 1 3 inb_S2x4x64x256_S1x1x64x256_1_3_0_0).view.set]{fullShare} f)) : sProp 𝕄) := rfl
theorem payload_bar2 (c : Dev nD) : (Rd val jk jr).payload (barCell c) 0 2 = (iprop((∃ f, (slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} f)
      ∗ (∃ f, (slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} f)
      ∗ (∃ f, (slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} f)
      ∗ (∃ f, (slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} f)
      ∗ (∃ f, (slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} f)
      ∗ (∃ f, (slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} f)
      ∗ (∃ f, (slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} f)
      ∗ (∃ f, (slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} f)
      ∗ (∃ f, (rsM 1 2 inb_S2x4x64x256_S1x1x64x256_1_2_0_0).view.loc (pe c 2 : Thread nD τ) ↦[(rsM 1 2 inb_S2x4x64x256_S1x1x64x256_1_2_0_0).view.set]{fullShare} f)) : sProp 𝕄) := rfl
theorem payload_bar3 (c : Dev nD) : (Rd val jk jr).payload (barCell c) 0 3 = (iprop((∃ f, (slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} f)
      ∗ (∃ f, (slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} f)
      ∗ (∃ f, (slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} f)
      ∗ (∃ f, (slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} f)
      ∗ (∃ f, (slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} f)
      ∗ (∃ f, (slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} f)
      ∗ (∃ f, (slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} f)
      ∗ (∃ f, (slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} f)
      ∗ (∃ f, (rsM 1 1 inb_S2x4x64x256_S1x1x64x256_1_1_0_0).view.loc (pe c 1 : Thread nD τ) ↦[(rsM 1 1 inb_S2x4x64x256_S1x1x64x256_1_1_0_0).view.set]{fullShare} f)) : sProp 𝕄) := rfl
theorem pe_pe_1_3 (c : Dev nD) : pe (pe c 1) 3 = c := by revert c; decide
theorem pe_pe_2_2 (c : Dev nD) : pe (pe c 2) 2 = c := by revert c; decide
theorem pe_pe_3_1 (c : Dev nD) : pe (pe c 3) 1 = c := by revert c; decide
/-- The same entries as the payer reads them: paying duty `o` of the barrier cell `o` ahead hands over the payer's own blocks. -/
theorem payload_pay1 (c : Dev nD) : (Rd val jk jr).payload (barCell (pe c 1)) 0 1 = (iprop((∃ f, (slotM 0 0 3 inb_S2x4x4x64x256_S1x1x1x64x256_0_0_3_0_0).view.loc (c : Thread nD τ) ↦[(slotM 0 0 3 inb_S2x4x4x64x256_S1x1x1x64x256_0_0_3_0_0).view.set]{fullShare} f)
      ∗ (∃ f, (slotM 0 1 3 inb_S2x4x4x64x256_S1x1x1x64x256_0_1_3_0_0).view.loc (c : Thread nD τ) ↦[(slotM 0 1 3 inb_S2x4x4x64x256_S1x1x1x64x256_0_1_3_0_0).view.set]{fullShare} f)
      ∗ (∃ f, (slotM 0 2 3 inb_S2x4x4x64x256_S1x1x1x64x256_0_2_3_0_0).view.loc (c : Thread nD τ) ↦[(slotM 0 2 3 inb_S2x4x4x64x256_S1x1x1x64x256_0_2_3_0_0).view.set]{fullShare} f)
      ∗ (∃ f, (slotM 0 3 3 inb_S2x4x4x64x256_S1x1x1x64x256_0_3_3_0_0).view.loc (c : Thread nD τ) ↦[(slotM 0 3 3 inb_S2x4x4x64x256_S1x1x1x64x256_0_3_3_0_0).view.set]{fullShare} f)
      ∗ (∃ f, (slotM 1 0 3 inb_S2x4x4x64x256_S1x1x1x64x256_1_0_3_0_0).view.loc (c : Thread nD τ) ↦[(slotM 1 0 3 inb_S2x4x4x64x256_S1x1x1x64x256_1_0_3_0_0).view.set]{fullShare} f)
      ∗ (∃ f, (slotM 1 1 3 inb_S2x4x4x64x256_S1x1x1x64x256_1_1_3_0_0).view.loc (c : Thread nD τ) ↦[(slotM 1 1 3 inb_S2x4x4x64x256_S1x1x1x64x256_1_1_3_0_0).view.set]{fullShare} f)
      ∗ (∃ f, (slotM 1 2 3 inb_S2x4x4x64x256_S1x1x1x64x256_1_2_3_0_0).view.loc (c : Thread nD τ) ↦[(slotM 1 2 3 inb_S2x4x4x64x256_S1x1x1x64x256_1_2_3_0_0).view.set]{fullShare} f)
      ∗ (∃ f, (slotM 1 3 3 inb_S2x4x4x64x256_S1x1x1x64x256_1_3_3_0_0).view.loc (c : Thread nD τ) ↦[(slotM 1 3 3 inb_S2x4x4x64x256_S1x1x1x64x256_1_3_3_0_0).view.set]{fullShare} f)
      ∗ (∃ f, (rsM 1 3 inb_S2x4x64x256_S1x1x64x256_1_3_0_0).view.loc (c : Thread nD τ) ↦[(rsM 1 3 inb_S2x4x64x256_S1x1x64x256_1_3_0_0).view.set]{fullShare} f)) : sProp 𝕄) := by
  rw [payload_bar1, pe_pe_1_3]
theorem payload_pay2 (c : Dev nD) : (Rd val jk jr).payload (barCell (pe c 2)) 0 2 = (iprop((∃ f, (slotM 0 0 2 inb_S2x4x4x64x256_S1x1x1x64x256_0_0_2_0_0).view.loc (c : Thread nD τ) ↦[(slotM 0 0 2 inb_S2x4x4x64x256_S1x1x1x64x256_0_0_2_0_0).view.set]{fullShare} f)
      ∗ (∃ f, (slotM 0 1 2 inb_S2x4x4x64x256_S1x1x1x64x256_0_1_2_0_0).view.loc (c : Thread nD τ) ↦[(slotM 0 1 2 inb_S2x4x4x64x256_S1x1x1x64x256_0_1_2_0_0).view.set]{fullShare} f)
      ∗ (∃ f, (slotM 0 2 2 inb_S2x4x4x64x256_S1x1x1x64x256_0_2_2_0_0).view.loc (c : Thread nD τ) ↦[(slotM 0 2 2 inb_S2x4x4x64x256_S1x1x1x64x256_0_2_2_0_0).view.set]{fullShare} f)
      ∗ (∃ f, (slotM 0 3 2 inb_S2x4x4x64x256_S1x1x1x64x256_0_3_2_0_0).view.loc (c : Thread nD τ) ↦[(slotM 0 3 2 inb_S2x4x4x64x256_S1x1x1x64x256_0_3_2_0_0).view.set]{fullShare} f)
      ∗ (∃ f, (slotM 1 0 2 inb_S2x4x4x64x256_S1x1x1x64x256_1_0_2_0_0).view.loc (c : Thread nD τ) ↦[(slotM 1 0 2 inb_S2x4x4x64x256_S1x1x1x64x256_1_0_2_0_0).view.set]{fullShare} f)
      ∗ (∃ f, (slotM 1 1 2 inb_S2x4x4x64x256_S1x1x1x64x256_1_1_2_0_0).view.loc (c : Thread nD τ) ↦[(slotM 1 1 2 inb_S2x4x4x64x256_S1x1x1x64x256_1_1_2_0_0).view.set]{fullShare} f)
      ∗ (∃ f, (slotM 1 2 2 inb_S2x4x4x64x256_S1x1x1x64x256_1_2_2_0_0).view.loc (c : Thread nD τ) ↦[(slotM 1 2 2 inb_S2x4x4x64x256_S1x1x1x64x256_1_2_2_0_0).view.set]{fullShare} f)
      ∗ (∃ f, (slotM 1 3 2 inb_S2x4x4x64x256_S1x1x1x64x256_1_3_2_0_0).view.loc (c : Thread nD τ) ↦[(slotM 1 3 2 inb_S2x4x4x64x256_S1x1x1x64x256_1_3_2_0_0).view.set]{fullShare} f)
      ∗ (∃ f, (rsM 1 2 inb_S2x4x64x256_S1x1x64x256_1_2_0_0).view.loc (c : Thread nD τ) ↦[(rsM 1 2 inb_S2x4x64x256_S1x1x64x256_1_2_0_0).view.set]{fullShare} f)) : sProp 𝕄) := by
  rw [payload_bar2, pe_pe_2_2]
theorem payload_pay3 (c : Dev nD) : (Rd val jk jr).payload (barCell (pe c 3)) 0 3 = (iprop((∃ f, (slotM 0 0 1 inb_S2x4x4x64x256_S1x1x1x64x256_0_0_1_0_0).view.loc (c : Thread nD τ) ↦[(slotM 0 0 1 inb_S2x4x4x64x256_S1x1x1x64x256_0_0_1_0_0).view.set]{fullShare} f)
      ∗ (∃ f, (slotM 0 1 1 inb_S2x4x4x64x256_S1x1x1x64x256_0_1_1_0_0).view.loc (c : Thread nD τ) ↦[(slotM 0 1 1 inb_S2x4x4x64x256_S1x1x1x64x256_0_1_1_0_0).view.set]{fullShare} f)
      ∗ (∃ f, (slotM 0 2 1 inb_S2x4x4x64x256_S1x1x1x64x256_0_2_1_0_0).view.loc (c : Thread nD τ) ↦[(slotM 0 2 1 inb_S2x4x4x64x256_S1x1x1x64x256_0_2_1_0_0).view.set]{fullShare} f)
      ∗ (∃ f, (slotM 0 3 1 inb_S2x4x4x64x256_S1x1x1x64x256_0_3_1_0_0).view.loc (c : Thread nD τ) ↦[(slotM 0 3 1 inb_S2x4x4x64x256_S1x1x1x64x256_0_3_1_0_0).view.set]{fullShare} f)
      ∗ (∃ f, (slotM 1 0 1 inb_S2x4x4x64x256_S1x1x1x64x256_1_0_1_0_0).view.loc (c : Thread nD τ) ↦[(slotM 1 0 1 inb_S2x4x4x64x256_S1x1x1x64x256_1_0_1_0_0).view.set]{fullShare} f)
      ∗ (∃ f, (slotM 1 1 1 inb_S2x4x4x64x256_S1x1x1x64x256_1_1_1_0_0).view.loc (c : Thread nD τ) ↦[(slotM 1 1 1 inb_S2x4x4x64x256_S1x1x1x64x256_1_1_1_0_0).view.set]{fullShare} f)
      ∗ (∃ f, (slotM 1 2 1 inb_S2x4x4x64x256_S1x1x1x64x256_1_2_1_0_0).view.loc (c : Thread nD τ) ↦[(slotM 1 2 1 inb_S2x4x4x64x256_S1x1x1x64x256_1_2_1_0_0).view.set]{fullShare} f)
      ∗ (∃ f, (slotM 1 3 1 inb_S2x4x4x64x256_S1x1x1x64x256_1_3_1_0_0).view.loc (c : Thread nD τ) ↦[(slotM 1 3 1 inb_S2x4x4x64x256_S1x1x1x64x256_1_3_1_0_0).view.set]{fullShare} f)
      ∗ (∃ f, (rsM 1 1 inb_S2x4x64x256_S1x1x64x256_1_1_0_0).view.loc (c : Thread nD τ) ↦[(rsM 1 1 inb_S2x4x64x256_S1x1x64x256_1_1_0_0).view.set]{fullShare} f)) : sProp 𝕄) := by
  rw [payload_bar3, pe_pe_3_1]
theorem duties_later (g : GSem nD τ sig) : ∀ r, 1 ≤ r → (Rd val jk jr).duties g r = ∅ :=
  fun r hr => by dsimp only [Rd]; rw [if_neg fun h => by omega]

theorem duties_snd_0_0_1 (c : Dev nD) : (Rd val jk jr).duties ((c : Thread nD τ), SemLoc.dma (sndS 0 0 1 inb_S3x4x4_S1x1x1_0_0_1)) 0 = {0} := rfl
theorem duties_rcv_0_0_1 (c : Dev nD) : (Rd val jk jr).duties ((c : Thread nD τ), SemLoc.dma (rcvS 0 0 1 inb_S3x4x4_S1x1x1_0_0_1)) 0 = {0} := rfl
theorem amount_snd_0_0_1 (c : Dev nD) (d : Fin 4) : (Rd val jk jr).amount ((c : Thread nD τ), SemLoc.dma (sndS 0 0 1 inb_S3x4x4_S1x1x1_0_0_1)) 0 d = N := rfl
theorem amount_rcv_0_0_1 (c : Dev nD) (d : Fin 4) : (Rd val jk jr).amount ((c : Thread nD τ), SemLoc.dma (rcvS 0 0 1 inb_S3x4x4_S1x1x1_0_0_1)) 0 d = N := rfl
theorem expect_snd_0_0_1 (c : Dev nD) : (Rd val jk jr).expect ((c : Thread nD τ), SemLoc.dma (sndS 0 0 1 inb_S3x4x4_S1x1x1_0_0_1)) 0 = N := by
  unfold Schedule.expect Schedule.amountOf; rw [duties_snd_0_0_1, Finset.sum_singleton]; rfl
theorem expect_rcv_0_0_1 (c : Dev nD) : (Rd val jk jr).expect ((c : Thread nD τ), SemLoc.dma (rcvS 0 0 1 inb_S3x4x4_S1x1x1_0_0_1)) 0 = N := by
  unfold Schedule.expect Schedule.amountOf; rw [duties_rcv_0_0_1, Finset.sum_singleton]; rfl
theorem payload_snd_0_0_1 (c : Dev nD) (d : Fin 4) : (Rd val jk jr).payload ((c : Thread nD τ), SemLoc.dma (sndS 0 0 1 inb_S3x4x4_S1x1x1_0_0_1)) 0 d
    = ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} (slotM 0 0 0 inb_S2x4x4x64x256_S1x1x1x64x256_0_0_0_0_0).view.write (Elt F) (jk c) (val c 0 0) Finset.univ : sProp 𝕄) := rfl
theorem payload_rcv_0_0_1 (c : Dev nD) (d : Fin 4) : (Rd val jk jr).payload ((c : Thread nD τ), SemLoc.dma (rcvS 0 0 1 inb_S3x4x4_S1x1x1_0_0_1)) 0 d
    = ((slotM 0 0 1 inb_S2x4x4x64x256_S1x1x1x64x256_0_0_1_0_0).view.loc (c : Thread nD τ) ↦[(slotM 0 0 1 inb_S2x4x4x64x256_S1x1x1x64x256_0_0_1_0_0).view.set]{fullShare} (slotM 0 0 1 inb_S2x4x4x64x256_S1x1x1x64x256_0_0_1_0_0).view.write (Elt F) (jk c) (val (ps c 1) 0 0) Finset.univ : sProp 𝕄) := rfl

theorem duties_snd_0_0_2 (c : Dev nD) : (Rd val jk jr).duties ((c : Thread nD τ), SemLoc.dma (sndS 0 0 2 inb_S3x4x4_S1x1x1_0_0_2)) 0 = {0} := rfl
theorem duties_rcv_0_0_2 (c : Dev nD) : (Rd val jk jr).duties ((c : Thread nD τ), SemLoc.dma (rcvS 0 0 2 inb_S3x4x4_S1x1x1_0_0_2)) 0 = {0} := rfl
theorem amount_snd_0_0_2 (c : Dev nD) (d : Fin 4) : (Rd val jk jr).amount ((c : Thread nD τ), SemLoc.dma (sndS 0 0 2 inb_S3x4x4_S1x1x1_0_0_2)) 0 d = N := rfl
theorem amount_rcv_0_0_2 (c : Dev nD) (d : Fin 4) : (Rd val jk jr).amount ((c : Thread nD τ), SemLoc.dma (rcvS 0 0 2 inb_S3x4x4_S1x1x1_0_0_2)) 0 d = N := rfl
theorem expect_snd_0_0_2 (c : Dev nD) : (Rd val jk jr).expect ((c : Thread nD τ), SemLoc.dma (sndS 0 0 2 inb_S3x4x4_S1x1x1_0_0_2)) 0 = N := by
  unfold Schedule.expect Schedule.amountOf; rw [duties_snd_0_0_2, Finset.sum_singleton]; rfl
theorem expect_rcv_0_0_2 (c : Dev nD) : (Rd val jk jr).expect ((c : Thread nD τ), SemLoc.dma (rcvS 0 0 2 inb_S3x4x4_S1x1x1_0_0_2)) 0 = N := by
  unfold Schedule.expect Schedule.amountOf; rw [duties_rcv_0_0_2, Finset.sum_singleton]; rfl
theorem payload_snd_0_0_2 (c : Dev nD) (d : Fin 4) : (Rd val jk jr).payload ((c : Thread nD τ), SemLoc.dma (sndS 0 0 2 inb_S3x4x4_S1x1x1_0_0_2)) 0 d
    = ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} (slotM 0 0 0 inb_S2x4x4x64x256_S1x1x1x64x256_0_0_0_0_0).view.write (Elt F) (jk c) (val c 0 0) Finset.univ : sProp 𝕄) := rfl
theorem payload_rcv_0_0_2 (c : Dev nD) (d : Fin 4) : (Rd val jk jr).payload ((c : Thread nD τ), SemLoc.dma (rcvS 0 0 2 inb_S3x4x4_S1x1x1_0_0_2)) 0 d
    = ((slotM 0 0 2 inb_S2x4x4x64x256_S1x1x1x64x256_0_0_2_0_0).view.loc (c : Thread nD τ) ↦[(slotM 0 0 2 inb_S2x4x4x64x256_S1x1x1x64x256_0_0_2_0_0).view.set]{fullShare} (slotM 0 0 2 inb_S2x4x4x64x256_S1x1x1x64x256_0_0_2_0_0).view.write (Elt F) (jk c) (val (ps c 2) 0 0) Finset.univ : sProp 𝕄) := rfl

theorem duties_snd_0_0_3 (c : Dev nD) : (Rd val jk jr).duties ((c : Thread nD τ), SemLoc.dma (sndS 0 0 3 inb_S3x4x4_S1x1x1_0_0_3)) 0 = {0} := rfl
theorem duties_rcv_0_0_3 (c : Dev nD) : (Rd val jk jr).duties ((c : Thread nD τ), SemLoc.dma (rcvS 0 0 3 inb_S3x4x4_S1x1x1_0_0_3)) 0 = {0} := rfl
theorem amount_snd_0_0_3 (c : Dev nD) (d : Fin 4) : (Rd val jk jr).amount ((c : Thread nD τ), SemLoc.dma (sndS 0 0 3 inb_S3x4x4_S1x1x1_0_0_3)) 0 d = N := rfl
theorem amount_rcv_0_0_3 (c : Dev nD) (d : Fin 4) : (Rd val jk jr).amount ((c : Thread nD τ), SemLoc.dma (rcvS 0 0 3 inb_S3x4x4_S1x1x1_0_0_3)) 0 d = N := rfl
theorem expect_snd_0_0_3 (c : Dev nD) : (Rd val jk jr).expect ((c : Thread nD τ), SemLoc.dma (sndS 0 0 3 inb_S3x4x4_S1x1x1_0_0_3)) 0 = N := by
  unfold Schedule.expect Schedule.amountOf; rw [duties_snd_0_0_3, Finset.sum_singleton]; rfl
theorem expect_rcv_0_0_3 (c : Dev nD) : (Rd val jk jr).expect ((c : Thread nD τ), SemLoc.dma (rcvS 0 0 3 inb_S3x4x4_S1x1x1_0_0_3)) 0 = N := by
  unfold Schedule.expect Schedule.amountOf; rw [duties_rcv_0_0_3, Finset.sum_singleton]; rfl
theorem payload_snd_0_0_3 (c : Dev nD) (d : Fin 4) : (Rd val jk jr).payload ((c : Thread nD τ), SemLoc.dma (sndS 0 0 3 inb_S3x4x4_S1x1x1_0_0_3)) 0 d
    = ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} (slotM 0 0 0 inb_S2x4x4x64x256_S1x1x1x64x256_0_0_0_0_0).view.write (Elt F) (jk c) (val c 0 0) Finset.univ : sProp 𝕄) := rfl
theorem payload_rcv_0_0_3 (c : Dev nD) (d : Fin 4) : (Rd val jk jr).payload ((c : Thread nD τ), SemLoc.dma (rcvS 0 0 3 inb_S3x4x4_S1x1x1_0_0_3)) 0 d
    = ((slotM 0 0 3 inb_S2x4x4x64x256_S1x1x1x64x256_0_0_3_0_0).view.loc (c : Thread nD τ) ↦[(slotM 0 0 3 inb_S2x4x4x64x256_S1x1x1x64x256_0_0_3_0_0).view.set]{fullShare} (slotM 0 0 3 inb_S2x4x4x64x256_S1x1x1x64x256_0_0_3_0_0).view.write (Elt F) (jk c) (val (ps c 3) 0 0) Finset.univ : sProp 𝕄) := rfl

theorem duties_snd_0_1_1 (c : Dev nD) : (Rd val jk jr).duties ((c : Thread nD τ), SemLoc.dma (sndS 0 1 1 inb_S3x4x4_S1x1x1_0_1_1)) 0 = {0} := rfl
theorem duties_rcv_0_1_1 (c : Dev nD) : (Rd val jk jr).duties ((c : Thread nD τ), SemLoc.dma (rcvS 0 1 1 inb_S3x4x4_S1x1x1_0_1_1)) 0 = {0} := rfl
theorem amount_snd_0_1_1 (c : Dev nD) (d : Fin 4) : (Rd val jk jr).amount ((c : Thread nD τ), SemLoc.dma (sndS 0 1 1 inb_S3x4x4_S1x1x1_0_1_1)) 0 d = N := rfl
theorem amount_rcv_0_1_1 (c : Dev nD) (d : Fin 4) : (Rd val jk jr).amount ((c : Thread nD τ), SemLoc.dma (rcvS 0 1 1 inb_S3x4x4_S1x1x1_0_1_1)) 0 d = N := rfl
theorem expect_snd_0_1_1 (c : Dev nD) : (Rd val jk jr).expect ((c : Thread nD τ), SemLoc.dma (sndS 0 1 1 inb_S3x4x4_S1x1x1_0_1_1)) 0 = N := by
  unfold Schedule.expect Schedule.amountOf; rw [duties_snd_0_1_1, Finset.sum_singleton]; rfl
theorem expect_rcv_0_1_1 (c : Dev nD) : (Rd val jk jr).expect ((c : Thread nD τ), SemLoc.dma (rcvS 0 1 1 inb_S3x4x4_S1x1x1_0_1_1)) 0 = N := by
  unfold Schedule.expect Schedule.amountOf; rw [duties_rcv_0_1_1, Finset.sum_singleton]; rfl
theorem payload_snd_0_1_1 (c : Dev nD) (d : Fin 4) : (Rd val jk jr).payload ((c : Thread nD τ), SemLoc.dma (sndS 0 1 1 inb_S3x4x4_S1x1x1_0_1_1)) 0 d
    = ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} (slotM 0 1 0 inb_S2x4x4x64x256_S1x1x1x64x256_0_1_0_0_0).view.write (Elt F) (jk c) (val c 0 1) Finset.univ : sProp 𝕄) := rfl
theorem payload_rcv_0_1_1 (c : Dev nD) (d : Fin 4) : (Rd val jk jr).payload ((c : Thread nD τ), SemLoc.dma (rcvS 0 1 1 inb_S3x4x4_S1x1x1_0_1_1)) 0 d
    = ((slotM 0 1 1 inb_S2x4x4x64x256_S1x1x1x64x256_0_1_1_0_0).view.loc (c : Thread nD τ) ↦[(slotM 0 1 1 inb_S2x4x4x64x256_S1x1x1x64x256_0_1_1_0_0).view.set]{fullShare} (slotM 0 1 1 inb_S2x4x4x64x256_S1x1x1x64x256_0_1_1_0_0).view.write (Elt F) (jk c) (val (ps c 1) 0 1) Finset.univ : sProp 𝕄) := rfl

theorem duties_snd_0_1_2 (c : Dev nD) : (Rd val jk jr).duties ((c : Thread nD τ), SemLoc.dma (sndS 0 1 2 inb_S3x4x4_S1x1x1_0_1_2)) 0 = {0} := rfl
theorem duties_rcv_0_1_2 (c : Dev nD) : (Rd val jk jr).duties ((c : Thread nD τ), SemLoc.dma (rcvS 0 1 2 inb_S3x4x4_S1x1x1_0_1_2)) 0 = {0} := rfl
theorem amount_snd_0_1_2 (c : Dev nD) (d : Fin 4) : (Rd val jk jr).amount ((c : Thread nD τ), SemLoc.dma (sndS 0 1 2 inb_S3x4x4_S1x1x1_0_1_2)) 0 d = N := rfl
theorem amount_rcv_0_1_2 (c : Dev nD) (d : Fin 4) : (Rd val jk jr).amount ((c : Thread nD τ), SemLoc.dma (rcvS 0 1 2 inb_S3x4x4_S1x1x1_0_1_2)) 0 d = N := rfl
theorem expect_snd_0_1_2 (c : Dev nD) : (Rd val jk jr).expect ((c : Thread nD τ), SemLoc.dma (sndS 0 1 2 inb_S3x4x4_S1x1x1_0_1_2)) 0 = N := by
  unfold Schedule.expect Schedule.amountOf; rw [duties_snd_0_1_2, Finset.sum_singleton]; rfl
theorem expect_rcv_0_1_2 (c : Dev nD) : (Rd val jk jr).expect ((c : Thread nD τ), SemLoc.dma (rcvS 0 1 2 inb_S3x4x4_S1x1x1_0_1_2)) 0 = N := by
  unfold Schedule.expect Schedule.amountOf; rw [duties_rcv_0_1_2, Finset.sum_singleton]; rfl
theorem payload_snd_0_1_2 (c : Dev nD) (d : Fin 4) : (Rd val jk jr).payload ((c : Thread nD τ), SemLoc.dma (sndS 0 1 2 inb_S3x4x4_S1x1x1_0_1_2)) 0 d
    = ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} (slotM 0 1 0 inb_S2x4x4x64x256_S1x1x1x64x256_0_1_0_0_0).view.write (Elt F) (jk c) (val c 0 1) Finset.univ : sProp 𝕄) := rfl
theorem payload_rcv_0_1_2 (c : Dev nD) (d : Fin 4) : (Rd val jk jr).payload ((c : Thread nD τ), SemLoc.dma (rcvS 0 1 2 inb_S3x4x4_S1x1x1_0_1_2)) 0 d
    = ((slotM 0 1 2 inb_S2x4x4x64x256_S1x1x1x64x256_0_1_2_0_0).view.loc (c : Thread nD τ) ↦[(slotM 0 1 2 inb_S2x4x4x64x256_S1x1x1x64x256_0_1_2_0_0).view.set]{fullShare} (slotM 0 1 2 inb_S2x4x4x64x256_S1x1x1x64x256_0_1_2_0_0).view.write (Elt F) (jk c) (val (ps c 2) 0 1) Finset.univ : sProp 𝕄) := rfl

theorem duties_snd_0_1_3 (c : Dev nD) : (Rd val jk jr).duties ((c : Thread nD τ), SemLoc.dma (sndS 0 1 3 inb_S3x4x4_S1x1x1_0_1_3)) 0 = {0} := rfl
theorem duties_rcv_0_1_3 (c : Dev nD) : (Rd val jk jr).duties ((c : Thread nD τ), SemLoc.dma (rcvS 0 1 3 inb_S3x4x4_S1x1x1_0_1_3)) 0 = {0} := rfl
theorem amount_snd_0_1_3 (c : Dev nD) (d : Fin 4) : (Rd val jk jr).amount ((c : Thread nD τ), SemLoc.dma (sndS 0 1 3 inb_S3x4x4_S1x1x1_0_1_3)) 0 d = N := rfl
theorem amount_rcv_0_1_3 (c : Dev nD) (d : Fin 4) : (Rd val jk jr).amount ((c : Thread nD τ), SemLoc.dma (rcvS 0 1 3 inb_S3x4x4_S1x1x1_0_1_3)) 0 d = N := rfl
theorem expect_snd_0_1_3 (c : Dev nD) : (Rd val jk jr).expect ((c : Thread nD τ), SemLoc.dma (sndS 0 1 3 inb_S3x4x4_S1x1x1_0_1_3)) 0 = N := by
  unfold Schedule.expect Schedule.amountOf; rw [duties_snd_0_1_3, Finset.sum_singleton]; rfl
theorem expect_rcv_0_1_3 (c : Dev nD) : (Rd val jk jr).expect ((c : Thread nD τ), SemLoc.dma (rcvS 0 1 3 inb_S3x4x4_S1x1x1_0_1_3)) 0 = N := by
  unfold Schedule.expect Schedule.amountOf; rw [duties_rcv_0_1_3, Finset.sum_singleton]; rfl
theorem payload_snd_0_1_3 (c : Dev nD) (d : Fin 4) : (Rd val jk jr).payload ((c : Thread nD τ), SemLoc.dma (sndS 0 1 3 inb_S3x4x4_S1x1x1_0_1_3)) 0 d
    = ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} (slotM 0 1 0 inb_S2x4x4x64x256_S1x1x1x64x256_0_1_0_0_0).view.write (Elt F) (jk c) (val c 0 1) Finset.univ : sProp 𝕄) := rfl
theorem payload_rcv_0_1_3 (c : Dev nD) (d : Fin 4) : (Rd val jk jr).payload ((c : Thread nD τ), SemLoc.dma (rcvS 0 1 3 inb_S3x4x4_S1x1x1_0_1_3)) 0 d
    = ((slotM 0 1 3 inb_S2x4x4x64x256_S1x1x1x64x256_0_1_3_0_0).view.loc (c : Thread nD τ) ↦[(slotM 0 1 3 inb_S2x4x4x64x256_S1x1x1x64x256_0_1_3_0_0).view.set]{fullShare} (slotM 0 1 3 inb_S2x4x4x64x256_S1x1x1x64x256_0_1_3_0_0).view.write (Elt F) (jk c) (val (ps c 3) 0 1) Finset.univ : sProp 𝕄) := rfl

theorem duties_snd_0_2_1 (c : Dev nD) : (Rd val jk jr).duties ((c : Thread nD τ), SemLoc.dma (sndS 0 2 1 inb_S3x4x4_S1x1x1_0_2_1)) 0 = {0} := rfl
theorem duties_rcv_0_2_1 (c : Dev nD) : (Rd val jk jr).duties ((c : Thread nD τ), SemLoc.dma (rcvS 0 2 1 inb_S3x4x4_S1x1x1_0_2_1)) 0 = {0} := rfl
theorem amount_snd_0_2_1 (c : Dev nD) (d : Fin 4) : (Rd val jk jr).amount ((c : Thread nD τ), SemLoc.dma (sndS 0 2 1 inb_S3x4x4_S1x1x1_0_2_1)) 0 d = N := rfl
theorem amount_rcv_0_2_1 (c : Dev nD) (d : Fin 4) : (Rd val jk jr).amount ((c : Thread nD τ), SemLoc.dma (rcvS 0 2 1 inb_S3x4x4_S1x1x1_0_2_1)) 0 d = N := rfl
theorem expect_snd_0_2_1 (c : Dev nD) : (Rd val jk jr).expect ((c : Thread nD τ), SemLoc.dma (sndS 0 2 1 inb_S3x4x4_S1x1x1_0_2_1)) 0 = N := by
  unfold Schedule.expect Schedule.amountOf; rw [duties_snd_0_2_1, Finset.sum_singleton]; rfl
theorem expect_rcv_0_2_1 (c : Dev nD) : (Rd val jk jr).expect ((c : Thread nD τ), SemLoc.dma (rcvS 0 2 1 inb_S3x4x4_S1x1x1_0_2_1)) 0 = N := by
  unfold Schedule.expect Schedule.amountOf; rw [duties_rcv_0_2_1, Finset.sum_singleton]; rfl
theorem payload_snd_0_2_1 (c : Dev nD) (d : Fin 4) : (Rd val jk jr).payload ((c : Thread nD τ), SemLoc.dma (sndS 0 2 1 inb_S3x4x4_S1x1x1_0_2_1)) 0 d
    = ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} (slotM 0 2 0 inb_S2x4x4x64x256_S1x1x1x64x256_0_2_0_0_0).view.write (Elt F) (jk c) (val c 0 2) Finset.univ : sProp 𝕄) := rfl
theorem payload_rcv_0_2_1 (c : Dev nD) (d : Fin 4) : (Rd val jk jr).payload ((c : Thread nD τ), SemLoc.dma (rcvS 0 2 1 inb_S3x4x4_S1x1x1_0_2_1)) 0 d
    = ((slotM 0 2 1 inb_S2x4x4x64x256_S1x1x1x64x256_0_2_1_0_0).view.loc (c : Thread nD τ) ↦[(slotM 0 2 1 inb_S2x4x4x64x256_S1x1x1x64x256_0_2_1_0_0).view.set]{fullShare} (slotM 0 2 1 inb_S2x4x4x64x256_S1x1x1x64x256_0_2_1_0_0).view.write (Elt F) (jk c) (val (ps c 1) 0 2) Finset.univ : sProp 𝕄) := rfl

theorem duties_snd_0_2_2 (c : Dev nD) : (Rd val jk jr).duties ((c : Thread nD τ), SemLoc.dma (sndS 0 2 2 inb_S3x4x4_S1x1x1_0_2_2)) 0 = {0} := rfl
theorem duties_rcv_0_2_2 (c : Dev nD) : (Rd val jk jr).duties ((c : Thread nD τ), SemLoc.dma (rcvS 0 2 2 inb_S3x4x4_S1x1x1_0_2_2)) 0 = {0} := rfl
theorem amount_snd_0_2_2 (c : Dev nD) (d : Fin 4) : (Rd val jk jr).amount ((c : Thread nD τ), SemLoc.dma (sndS 0 2 2 inb_S3x4x4_S1x1x1_0_2_2)) 0 d = N := rfl
theorem amount_rcv_0_2_2 (c : Dev nD) (d : Fin 4) : (Rd val jk jr).amount ((c : Thread nD τ), SemLoc.dma (rcvS 0 2 2 inb_S3x4x4_S1x1x1_0_2_2)) 0 d = N := rfl
theorem expect_snd_0_2_2 (c : Dev nD) : (Rd val jk jr).expect ((c : Thread nD τ), SemLoc.dma (sndS 0 2 2 inb_S3x4x4_S1x1x1_0_2_2)) 0 = N := by
  unfold Schedule.expect Schedule.amountOf; rw [duties_snd_0_2_2, Finset.sum_singleton]; rfl
theorem expect_rcv_0_2_2 (c : Dev nD) : (Rd val jk jr).expect ((c : Thread nD τ), SemLoc.dma (rcvS 0 2 2 inb_S3x4x4_S1x1x1_0_2_2)) 0 = N := by
  unfold Schedule.expect Schedule.amountOf; rw [duties_rcv_0_2_2, Finset.sum_singleton]; rfl
theorem payload_snd_0_2_2 (c : Dev nD) (d : Fin 4) : (Rd val jk jr).payload ((c : Thread nD τ), SemLoc.dma (sndS 0 2 2 inb_S3x4x4_S1x1x1_0_2_2)) 0 d
    = ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} (slotM 0 2 0 inb_S2x4x4x64x256_S1x1x1x64x256_0_2_0_0_0).view.write (Elt F) (jk c) (val c 0 2) Finset.univ : sProp 𝕄) := rfl
theorem payload_rcv_0_2_2 (c : Dev nD) (d : Fin 4) : (Rd val jk jr).payload ((c : Thread nD τ), SemLoc.dma (rcvS 0 2 2 inb_S3x4x4_S1x1x1_0_2_2)) 0 d
    = ((slotM 0 2 2 inb_S2x4x4x64x256_S1x1x1x64x256_0_2_2_0_0).view.loc (c : Thread nD τ) ↦[(slotM 0 2 2 inb_S2x4x4x64x256_S1x1x1x64x256_0_2_2_0_0).view.set]{fullShare} (slotM 0 2 2 inb_S2x4x4x64x256_S1x1x1x64x256_0_2_2_0_0).view.write (Elt F) (jk c) (val (ps c 2) 0 2) Finset.univ : sProp 𝕄) := rfl

theorem duties_snd_0_2_3 (c : Dev nD) : (Rd val jk jr).duties ((c : Thread nD τ), SemLoc.dma (sndS 0 2 3 inb_S3x4x4_S1x1x1_0_2_3)) 0 = {0} := rfl
theorem duties_rcv_0_2_3 (c : Dev nD) : (Rd val jk jr).duties ((c : Thread nD τ), SemLoc.dma (rcvS 0 2 3 inb_S3x4x4_S1x1x1_0_2_3)) 0 = {0} := rfl
theorem amount_snd_0_2_3 (c : Dev nD) (d : Fin 4) : (Rd val jk jr).amount ((c : Thread nD τ), SemLoc.dma (sndS 0 2 3 inb_S3x4x4_S1x1x1_0_2_3)) 0 d = N := rfl
theorem amount_rcv_0_2_3 (c : Dev nD) (d : Fin 4) : (Rd val jk jr).amount ((c : Thread nD τ), SemLoc.dma (rcvS 0 2 3 inb_S3x4x4_S1x1x1_0_2_3)) 0 d = N := rfl
theorem expect_snd_0_2_3 (c : Dev nD) : (Rd val jk jr).expect ((c : Thread nD τ), SemLoc.dma (sndS 0 2 3 inb_S3x4x4_S1x1x1_0_2_3)) 0 = N := by
  unfold Schedule.expect Schedule.amountOf; rw [duties_snd_0_2_3, Finset.sum_singleton]; rfl
theorem expect_rcv_0_2_3 (c : Dev nD) : (Rd val jk jr).expect ((c : Thread nD τ), SemLoc.dma (rcvS 0 2 3 inb_S3x4x4_S1x1x1_0_2_3)) 0 = N := by
  unfold Schedule.expect Schedule.amountOf; rw [duties_rcv_0_2_3, Finset.sum_singleton]; rfl
theorem payload_snd_0_2_3 (c : Dev nD) (d : Fin 4) : (Rd val jk jr).payload ((c : Thread nD τ), SemLoc.dma (sndS 0 2 3 inb_S3x4x4_S1x1x1_0_2_3)) 0 d
    = ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} (slotM 0 2 0 inb_S2x4x4x64x256_S1x1x1x64x256_0_2_0_0_0).view.write (Elt F) (jk c) (val c 0 2) Finset.univ : sProp 𝕄) := rfl
theorem payload_rcv_0_2_3 (c : Dev nD) (d : Fin 4) : (Rd val jk jr).payload ((c : Thread nD τ), SemLoc.dma (rcvS 0 2 3 inb_S3x4x4_S1x1x1_0_2_3)) 0 d
    = ((slotM 0 2 3 inb_S2x4x4x64x256_S1x1x1x64x256_0_2_3_0_0).view.loc (c : Thread nD τ) ↦[(slotM 0 2 3 inb_S2x4x4x64x256_S1x1x1x64x256_0_2_3_0_0).view.set]{fullShare} (slotM 0 2 3 inb_S2x4x4x64x256_S1x1x1x64x256_0_2_3_0_0).view.write (Elt F) (jk c) (val (ps c 3) 0 2) Finset.univ : sProp 𝕄) := rfl

theorem duties_snd_0_3_1 (c : Dev nD) : (Rd val jk jr).duties ((c : Thread nD τ), SemLoc.dma (sndS 0 3 1 inb_S3x4x4_S1x1x1_0_3_1)) 0 = {0} := rfl
theorem duties_rcv_0_3_1 (c : Dev nD) : (Rd val jk jr).duties ((c : Thread nD τ), SemLoc.dma (rcvS 0 3 1 inb_S3x4x4_S1x1x1_0_3_1)) 0 = {0} := rfl
theorem amount_snd_0_3_1 (c : Dev nD) (d : Fin 4) : (Rd val jk jr).amount ((c : Thread nD τ), SemLoc.dma (sndS 0 3 1 inb_S3x4x4_S1x1x1_0_3_1)) 0 d = N := rfl
theorem amount_rcv_0_3_1 (c : Dev nD) (d : Fin 4) : (Rd val jk jr).amount ((c : Thread nD τ), SemLoc.dma (rcvS 0 3 1 inb_S3x4x4_S1x1x1_0_3_1)) 0 d = N := rfl
theorem expect_snd_0_3_1 (c : Dev nD) : (Rd val jk jr).expect ((c : Thread nD τ), SemLoc.dma (sndS 0 3 1 inb_S3x4x4_S1x1x1_0_3_1)) 0 = N := by
  unfold Schedule.expect Schedule.amountOf; rw [duties_snd_0_3_1, Finset.sum_singleton]; rfl
theorem expect_rcv_0_3_1 (c : Dev nD) : (Rd val jk jr).expect ((c : Thread nD τ), SemLoc.dma (rcvS 0 3 1 inb_S3x4x4_S1x1x1_0_3_1)) 0 = N := by
  unfold Schedule.expect Schedule.amountOf; rw [duties_rcv_0_3_1, Finset.sum_singleton]; rfl
theorem payload_snd_0_3_1 (c : Dev nD) (d : Fin 4) : (Rd val jk jr).payload ((c : Thread nD τ), SemLoc.dma (sndS 0 3 1 inb_S3x4x4_S1x1x1_0_3_1)) 0 d
    = ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} (slotM 0 3 0 inb_S2x4x4x64x256_S1x1x1x64x256_0_3_0_0_0).view.write (Elt F) (jk c) (val c 0 3) Finset.univ : sProp 𝕄) := rfl
theorem payload_rcv_0_3_1 (c : Dev nD) (d : Fin 4) : (Rd val jk jr).payload ((c : Thread nD τ), SemLoc.dma (rcvS 0 3 1 inb_S3x4x4_S1x1x1_0_3_1)) 0 d
    = ((slotM 0 3 1 inb_S2x4x4x64x256_S1x1x1x64x256_0_3_1_0_0).view.loc (c : Thread nD τ) ↦[(slotM 0 3 1 inb_S2x4x4x64x256_S1x1x1x64x256_0_3_1_0_0).view.set]{fullShare} (slotM 0 3 1 inb_S2x4x4x64x256_S1x1x1x64x256_0_3_1_0_0).view.write (Elt F) (jk c) (val (ps c 1) 0 3) Finset.univ : sProp 𝕄) := rfl

theorem duties_snd_0_3_2 (c : Dev nD) : (Rd val jk jr).duties ((c : Thread nD τ), SemLoc.dma (sndS 0 3 2 inb_S3x4x4_S1x1x1_0_3_2)) 0 = {0} := rfl
theorem duties_rcv_0_3_2 (c : Dev nD) : (Rd val jk jr).duties ((c : Thread nD τ), SemLoc.dma (rcvS 0 3 2 inb_S3x4x4_S1x1x1_0_3_2)) 0 = {0} := rfl
theorem amount_snd_0_3_2 (c : Dev nD) (d : Fin 4) : (Rd val jk jr).amount ((c : Thread nD τ), SemLoc.dma (sndS 0 3 2 inb_S3x4x4_S1x1x1_0_3_2)) 0 d = N := rfl
theorem amount_rcv_0_3_2 (c : Dev nD) (d : Fin 4) : (Rd val jk jr).amount ((c : Thread nD τ), SemLoc.dma (rcvS 0 3 2 inb_S3x4x4_S1x1x1_0_3_2)) 0 d = N := rfl
theorem expect_snd_0_3_2 (c : Dev nD) : (Rd val jk jr).expect ((c : Thread nD τ), SemLoc.dma (sndS 0 3 2 inb_S3x4x4_S1x1x1_0_3_2)) 0 = N := by
  unfold Schedule.expect Schedule.amountOf; rw [duties_snd_0_3_2, Finset.sum_singleton]; rfl
theorem expect_rcv_0_3_2 (c : Dev nD) : (Rd val jk jr).expect ((c : Thread nD τ), SemLoc.dma (rcvS 0 3 2 inb_S3x4x4_S1x1x1_0_3_2)) 0 = N := by
  unfold Schedule.expect Schedule.amountOf; rw [duties_rcv_0_3_2, Finset.sum_singleton]; rfl
theorem payload_snd_0_3_2 (c : Dev nD) (d : Fin 4) : (Rd val jk jr).payload ((c : Thread nD τ), SemLoc.dma (sndS 0 3 2 inb_S3x4x4_S1x1x1_0_3_2)) 0 d
    = ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} (slotM 0 3 0 inb_S2x4x4x64x256_S1x1x1x64x256_0_3_0_0_0).view.write (Elt F) (jk c) (val c 0 3) Finset.univ : sProp 𝕄) := rfl
theorem payload_rcv_0_3_2 (c : Dev nD) (d : Fin 4) : (Rd val jk jr).payload ((c : Thread nD τ), SemLoc.dma (rcvS 0 3 2 inb_S3x4x4_S1x1x1_0_3_2)) 0 d
    = ((slotM 0 3 2 inb_S2x4x4x64x256_S1x1x1x64x256_0_3_2_0_0).view.loc (c : Thread nD τ) ↦[(slotM 0 3 2 inb_S2x4x4x64x256_S1x1x1x64x256_0_3_2_0_0).view.set]{fullShare} (slotM 0 3 2 inb_S2x4x4x64x256_S1x1x1x64x256_0_3_2_0_0).view.write (Elt F) (jk c) (val (ps c 2) 0 3) Finset.univ : sProp 𝕄) := rfl

theorem duties_snd_0_3_3 (c : Dev nD) : (Rd val jk jr).duties ((c : Thread nD τ), SemLoc.dma (sndS 0 3 3 inb_S3x4x4_S1x1x1_0_3_3)) 0 = {0} := rfl
theorem duties_rcv_0_3_3 (c : Dev nD) : (Rd val jk jr).duties ((c : Thread nD τ), SemLoc.dma (rcvS 0 3 3 inb_S3x4x4_S1x1x1_0_3_3)) 0 = {0} := rfl
theorem amount_snd_0_3_3 (c : Dev nD) (d : Fin 4) : (Rd val jk jr).amount ((c : Thread nD τ), SemLoc.dma (sndS 0 3 3 inb_S3x4x4_S1x1x1_0_3_3)) 0 d = N := rfl
theorem amount_rcv_0_3_3 (c : Dev nD) (d : Fin 4) : (Rd val jk jr).amount ((c : Thread nD τ), SemLoc.dma (rcvS 0 3 3 inb_S3x4x4_S1x1x1_0_3_3)) 0 d = N := rfl
theorem expect_snd_0_3_3 (c : Dev nD) : (Rd val jk jr).expect ((c : Thread nD τ), SemLoc.dma (sndS 0 3 3 inb_S3x4x4_S1x1x1_0_3_3)) 0 = N := by
  unfold Schedule.expect Schedule.amountOf; rw [duties_snd_0_3_3, Finset.sum_singleton]; rfl
theorem expect_rcv_0_3_3 (c : Dev nD) : (Rd val jk jr).expect ((c : Thread nD τ), SemLoc.dma (rcvS 0 3 3 inb_S3x4x4_S1x1x1_0_3_3)) 0 = N := by
  unfold Schedule.expect Schedule.amountOf; rw [duties_rcv_0_3_3, Finset.sum_singleton]; rfl
theorem payload_snd_0_3_3 (c : Dev nD) (d : Fin 4) : (Rd val jk jr).payload ((c : Thread nD τ), SemLoc.dma (sndS 0 3 3 inb_S3x4x4_S1x1x1_0_3_3)) 0 d
    = ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} (slotM 0 3 0 inb_S2x4x4x64x256_S1x1x1x64x256_0_3_0_0_0).view.write (Elt F) (jk c) (val c 0 3) Finset.univ : sProp 𝕄) := rfl
theorem payload_rcv_0_3_3 (c : Dev nD) (d : Fin 4) : (Rd val jk jr).payload ((c : Thread nD τ), SemLoc.dma (rcvS 0 3 3 inb_S3x4x4_S1x1x1_0_3_3)) 0 d
    = ((slotM 0 3 3 inb_S2x4x4x64x256_S1x1x1x64x256_0_3_3_0_0).view.loc (c : Thread nD τ) ↦[(slotM 0 3 3 inb_S2x4x4x64x256_S1x1x1x64x256_0_3_3_0_0).view.set]{fullShare} (slotM 0 3 3 inb_S2x4x4x64x256_S1x1x1x64x256_0_3_3_0_0).view.write (Elt F) (jk c) (val (ps c 3) 0 3) Finset.univ : sProp 𝕄) := rfl

theorem duties_snd_1_0_1 (c : Dev nD) : (Rd val jk jr).duties ((c : Thread nD τ), SemLoc.dma (sndS 1 0 1 inb_S3x4x4_S1x1x1_1_0_1)) 0 = {0} := rfl
theorem duties_rcv_1_0_1 (c : Dev nD) : (Rd val jk jr).duties ((c : Thread nD τ), SemLoc.dma (rcvS 1 0 1 inb_S3x4x4_S1x1x1_1_0_1)) 0 = {0} := rfl
theorem amount_snd_1_0_1 (c : Dev nD) (d : Fin 4) : (Rd val jk jr).amount ((c : Thread nD τ), SemLoc.dma (sndS 1 0 1 inb_S3x4x4_S1x1x1_1_0_1)) 0 d = N := rfl
theorem amount_rcv_1_0_1 (c : Dev nD) (d : Fin 4) : (Rd val jk jr).amount ((c : Thread nD τ), SemLoc.dma (rcvS 1 0 1 inb_S3x4x4_S1x1x1_1_0_1)) 0 d = N := rfl
theorem expect_snd_1_0_1 (c : Dev nD) : (Rd val jk jr).expect ((c : Thread nD τ), SemLoc.dma (sndS 1 0 1 inb_S3x4x4_S1x1x1_1_0_1)) 0 = N := by
  unfold Schedule.expect Schedule.amountOf; rw [duties_snd_1_0_1, Finset.sum_singleton]; rfl
theorem expect_rcv_1_0_1 (c : Dev nD) : (Rd val jk jr).expect ((c : Thread nD τ), SemLoc.dma (rcvS 1 0 1 inb_S3x4x4_S1x1x1_1_0_1)) 0 = N := by
  unfold Schedule.expect Schedule.amountOf; rw [duties_rcv_1_0_1, Finset.sum_singleton]; rfl
theorem payload_snd_1_0_1 (c : Dev nD) (d : Fin 4) : (Rd val jk jr).payload ((c : Thread nD τ), SemLoc.dma (sndS 1 0 1 inb_S3x4x4_S1x1x1_1_0_1)) 0 d
    = ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} (slotM 1 0 0 inb_S2x4x4x64x256_S1x1x1x64x256_1_0_0_0_0).view.write (Elt F) (jk c) (val c 1 0) Finset.univ : sProp 𝕄) := rfl
theorem payload_rcv_1_0_1 (c : Dev nD) (d : Fin 4) : (Rd val jk jr).payload ((c : Thread nD τ), SemLoc.dma (rcvS 1 0 1 inb_S3x4x4_S1x1x1_1_0_1)) 0 d
    = ((slotM 1 0 1 inb_S2x4x4x64x256_S1x1x1x64x256_1_0_1_0_0).view.loc (c : Thread nD τ) ↦[(slotM 1 0 1 inb_S2x4x4x64x256_S1x1x1x64x256_1_0_1_0_0).view.set]{fullShare} (slotM 1 0 1 inb_S2x4x4x64x256_S1x1x1x64x256_1_0_1_0_0).view.write (Elt F) (jk c) (val (ps c 1) 1 0) Finset.univ : sProp 𝕄) := rfl

theorem duties_snd_1_0_2 (c : Dev nD) : (Rd val jk jr).duties ((c : Thread nD τ), SemLoc.dma (sndS 1 0 2 inb_S3x4x4_S1x1x1_1_0_2)) 0 = {0} := rfl
theorem duties_rcv_1_0_2 (c : Dev nD) : (Rd val jk jr).duties ((c : Thread nD τ), SemLoc.dma (rcvS 1 0 2 inb_S3x4x4_S1x1x1_1_0_2)) 0 = {0} := rfl
theorem amount_snd_1_0_2 (c : Dev nD) (d : Fin 4) : (Rd val jk jr).amount ((c : Thread nD τ), SemLoc.dma (sndS 1 0 2 inb_S3x4x4_S1x1x1_1_0_2)) 0 d = N := rfl
theorem amount_rcv_1_0_2 (c : Dev nD) (d : Fin 4) : (Rd val jk jr).amount ((c : Thread nD τ), SemLoc.dma (rcvS 1 0 2 inb_S3x4x4_S1x1x1_1_0_2)) 0 d = N := rfl
theorem expect_snd_1_0_2 (c : Dev nD) : (Rd val jk jr).expect ((c : Thread nD τ), SemLoc.dma (sndS 1 0 2 inb_S3x4x4_S1x1x1_1_0_2)) 0 = N := by
  unfold Schedule.expect Schedule.amountOf; rw [duties_snd_1_0_2, Finset.sum_singleton]; rfl
theorem expect_rcv_1_0_2 (c : Dev nD) : (Rd val jk jr).expect ((c : Thread nD τ), SemLoc.dma (rcvS 1 0 2 inb_S3x4x4_S1x1x1_1_0_2)) 0 = N := by
  unfold Schedule.expect Schedule.amountOf; rw [duties_rcv_1_0_2, Finset.sum_singleton]; rfl
theorem payload_snd_1_0_2 (c : Dev nD) (d : Fin 4) : (Rd val jk jr).payload ((c : Thread nD τ), SemLoc.dma (sndS 1 0 2 inb_S3x4x4_S1x1x1_1_0_2)) 0 d
    = ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} (slotM 1 0 0 inb_S2x4x4x64x256_S1x1x1x64x256_1_0_0_0_0).view.write (Elt F) (jk c) (val c 1 0) Finset.univ : sProp 𝕄) := rfl
theorem payload_rcv_1_0_2 (c : Dev nD) (d : Fin 4) : (Rd val jk jr).payload ((c : Thread nD τ), SemLoc.dma (rcvS 1 0 2 inb_S3x4x4_S1x1x1_1_0_2)) 0 d
    = ((slotM 1 0 2 inb_S2x4x4x64x256_S1x1x1x64x256_1_0_2_0_0).view.loc (c : Thread nD τ) ↦[(slotM 1 0 2 inb_S2x4x4x64x256_S1x1x1x64x256_1_0_2_0_0).view.set]{fullShare} (slotM 1 0 2 inb_S2x4x4x64x256_S1x1x1x64x256_1_0_2_0_0).view.write (Elt F) (jk c) (val (ps c 2) 1 0) Finset.univ : sProp 𝕄) := rfl

theorem duties_snd_1_0_3 (c : Dev nD) : (Rd val jk jr).duties ((c : Thread nD τ), SemLoc.dma (sndS 1 0 3 inb_S3x4x4_S1x1x1_1_0_3)) 0 = {0} := rfl
theorem duties_rcv_1_0_3 (c : Dev nD) : (Rd val jk jr).duties ((c : Thread nD τ), SemLoc.dma (rcvS 1 0 3 inb_S3x4x4_S1x1x1_1_0_3)) 0 = {0} := rfl
theorem amount_snd_1_0_3 (c : Dev nD) (d : Fin 4) : (Rd val jk jr).amount ((c : Thread nD τ), SemLoc.dma (sndS 1 0 3 inb_S3x4x4_S1x1x1_1_0_3)) 0 d = N := rfl
theorem amount_rcv_1_0_3 (c : Dev nD) (d : Fin 4) : (Rd val jk jr).amount ((c : Thread nD τ), SemLoc.dma (rcvS 1 0 3 inb_S3x4x4_S1x1x1_1_0_3)) 0 d = N := rfl
theorem expect_snd_1_0_3 (c : Dev nD) : (Rd val jk jr).expect ((c : Thread nD τ), SemLoc.dma (sndS 1 0 3 inb_S3x4x4_S1x1x1_1_0_3)) 0 = N := by
  unfold Schedule.expect Schedule.amountOf; rw [duties_snd_1_0_3, Finset.sum_singleton]; rfl
theorem expect_rcv_1_0_3 (c : Dev nD) : (Rd val jk jr).expect ((c : Thread nD τ), SemLoc.dma (rcvS 1 0 3 inb_S3x4x4_S1x1x1_1_0_3)) 0 = N := by
  unfold Schedule.expect Schedule.amountOf; rw [duties_rcv_1_0_3, Finset.sum_singleton]; rfl
theorem payload_snd_1_0_3 (c : Dev nD) (d : Fin 4) : (Rd val jk jr).payload ((c : Thread nD τ), SemLoc.dma (sndS 1 0 3 inb_S3x4x4_S1x1x1_1_0_3)) 0 d
    = ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} (slotM 1 0 0 inb_S2x4x4x64x256_S1x1x1x64x256_1_0_0_0_0).view.write (Elt F) (jk c) (val c 1 0) Finset.univ : sProp 𝕄) := rfl
theorem payload_rcv_1_0_3 (c : Dev nD) (d : Fin 4) : (Rd val jk jr).payload ((c : Thread nD τ), SemLoc.dma (rcvS 1 0 3 inb_S3x4x4_S1x1x1_1_0_3)) 0 d
    = ((slotM 1 0 3 inb_S2x4x4x64x256_S1x1x1x64x256_1_0_3_0_0).view.loc (c : Thread nD τ) ↦[(slotM 1 0 3 inb_S2x4x4x64x256_S1x1x1x64x256_1_0_3_0_0).view.set]{fullShare} (slotM 1 0 3 inb_S2x4x4x64x256_S1x1x1x64x256_1_0_3_0_0).view.write (Elt F) (jk c) (val (ps c 3) 1 0) Finset.univ : sProp 𝕄) := rfl

theorem duties_snd_1_1_1 (c : Dev nD) : (Rd val jk jr).duties ((c : Thread nD τ), SemLoc.dma (sndS 1 1 1 inb_S3x4x4_S1x1x1_1_1_1)) 0 = {0} := rfl
theorem duties_rcv_1_1_1 (c : Dev nD) : (Rd val jk jr).duties ((c : Thread nD τ), SemLoc.dma (rcvS 1 1 1 inb_S3x4x4_S1x1x1_1_1_1)) 0 = {0} := rfl
theorem amount_snd_1_1_1 (c : Dev nD) (d : Fin 4) : (Rd val jk jr).amount ((c : Thread nD τ), SemLoc.dma (sndS 1 1 1 inb_S3x4x4_S1x1x1_1_1_1)) 0 d = N := rfl
theorem amount_rcv_1_1_1 (c : Dev nD) (d : Fin 4) : (Rd val jk jr).amount ((c : Thread nD τ), SemLoc.dma (rcvS 1 1 1 inb_S3x4x4_S1x1x1_1_1_1)) 0 d = N := rfl
theorem expect_snd_1_1_1 (c : Dev nD) : (Rd val jk jr).expect ((c : Thread nD τ), SemLoc.dma (sndS 1 1 1 inb_S3x4x4_S1x1x1_1_1_1)) 0 = N := by
  unfold Schedule.expect Schedule.amountOf; rw [duties_snd_1_1_1, Finset.sum_singleton]; rfl
theorem expect_rcv_1_1_1 (c : Dev nD) : (Rd val jk jr).expect ((c : Thread nD τ), SemLoc.dma (rcvS 1 1 1 inb_S3x4x4_S1x1x1_1_1_1)) 0 = N := by
  unfold Schedule.expect Schedule.amountOf; rw [duties_rcv_1_1_1, Finset.sum_singleton]; rfl
theorem payload_snd_1_1_1 (c : Dev nD) (d : Fin 4) : (Rd val jk jr).payload ((c : Thread nD τ), SemLoc.dma (sndS 1 1 1 inb_S3x4x4_S1x1x1_1_1_1)) 0 d
    = ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} (slotM 1 1 0 inb_S2x4x4x64x256_S1x1x1x64x256_1_1_0_0_0).view.write (Elt F) (jk c) (val c 1 1) Finset.univ : sProp 𝕄) := rfl
theorem payload_rcv_1_1_1 (c : Dev nD) (d : Fin 4) : (Rd val jk jr).payload ((c : Thread nD τ), SemLoc.dma (rcvS 1 1 1 inb_S3x4x4_S1x1x1_1_1_1)) 0 d
    = ((slotM 1 1 1 inb_S2x4x4x64x256_S1x1x1x64x256_1_1_1_0_0).view.loc (c : Thread nD τ) ↦[(slotM 1 1 1 inb_S2x4x4x64x256_S1x1x1x64x256_1_1_1_0_0).view.set]{fullShare} (slotM 1 1 1 inb_S2x4x4x64x256_S1x1x1x64x256_1_1_1_0_0).view.write (Elt F) (jk c) (val (ps c 1) 1 1) Finset.univ : sProp 𝕄) := rfl

theorem duties_snd_1_1_2 (c : Dev nD) : (Rd val jk jr).duties ((c : Thread nD τ), SemLoc.dma (sndS 1 1 2 inb_S3x4x4_S1x1x1_1_1_2)) 0 = {0} := rfl
theorem duties_rcv_1_1_2 (c : Dev nD) : (Rd val jk jr).duties ((c : Thread nD τ), SemLoc.dma (rcvS 1 1 2 inb_S3x4x4_S1x1x1_1_1_2)) 0 = {0} := rfl
theorem amount_snd_1_1_2 (c : Dev nD) (d : Fin 4) : (Rd val jk jr).amount ((c : Thread nD τ), SemLoc.dma (sndS 1 1 2 inb_S3x4x4_S1x1x1_1_1_2)) 0 d = N := rfl
theorem amount_rcv_1_1_2 (c : Dev nD) (d : Fin 4) : (Rd val jk jr).amount ((c : Thread nD τ), SemLoc.dma (rcvS 1 1 2 inb_S3x4x4_S1x1x1_1_1_2)) 0 d = N := rfl
theorem expect_snd_1_1_2 (c : Dev nD) : (Rd val jk jr).expect ((c : Thread nD τ), SemLoc.dma (sndS 1 1 2 inb_S3x4x4_S1x1x1_1_1_2)) 0 = N := by
  unfold Schedule.expect Schedule.amountOf; rw [duties_snd_1_1_2, Finset.sum_singleton]; rfl
theorem expect_rcv_1_1_2 (c : Dev nD) : (Rd val jk jr).expect ((c : Thread nD τ), SemLoc.dma (rcvS 1 1 2 inb_S3x4x4_S1x1x1_1_1_2)) 0 = N := by
  unfold Schedule.expect Schedule.amountOf; rw [duties_rcv_1_1_2, Finset.sum_singleton]; rfl
theorem payload_snd_1_1_2 (c : Dev nD) (d : Fin 4) : (Rd val jk jr).payload ((c : Thread nD τ), SemLoc.dma (sndS 1 1 2 inb_S3x4x4_S1x1x1_1_1_2)) 0 d
    = ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} (slotM 1 1 0 inb_S2x4x4x64x256_S1x1x1x64x256_1_1_0_0_0).view.write (Elt F) (jk c) (val c 1 1) Finset.univ : sProp 𝕄) := rfl
theorem payload_rcv_1_1_2 (c : Dev nD) (d : Fin 4) : (Rd val jk jr).payload ((c : Thread nD τ), SemLoc.dma (rcvS 1 1 2 inb_S3x4x4_S1x1x1_1_1_2)) 0 d
    = ((slotM 1 1 2 inb_S2x4x4x64x256_S1x1x1x64x256_1_1_2_0_0).view.loc (c : Thread nD τ) ↦[(slotM 1 1 2 inb_S2x4x4x64x256_S1x1x1x64x256_1_1_2_0_0).view.set]{fullShare} (slotM 1 1 2 inb_S2x4x4x64x256_S1x1x1x64x256_1_1_2_0_0).view.write (Elt F) (jk c) (val (ps c 2) 1 1) Finset.univ : sProp 𝕄) := rfl

theorem duties_snd_1_1_3 (c : Dev nD) : (Rd val jk jr).duties ((c : Thread nD τ), SemLoc.dma (sndS 1 1 3 inb_S3x4x4_S1x1x1_1_1_3)) 0 = {0} := rfl
theorem duties_rcv_1_1_3 (c : Dev nD) : (Rd val jk jr).duties ((c : Thread nD τ), SemLoc.dma (rcvS 1 1 3 inb_S3x4x4_S1x1x1_1_1_3)) 0 = {0} := rfl
theorem amount_snd_1_1_3 (c : Dev nD) (d : Fin 4) : (Rd val jk jr).amount ((c : Thread nD τ), SemLoc.dma (sndS 1 1 3 inb_S3x4x4_S1x1x1_1_1_3)) 0 d = N := rfl
theorem amount_rcv_1_1_3 (c : Dev nD) (d : Fin 4) : (Rd val jk jr).amount ((c : Thread nD τ), SemLoc.dma (rcvS 1 1 3 inb_S3x4x4_S1x1x1_1_1_3)) 0 d = N := rfl
theorem expect_snd_1_1_3 (c : Dev nD) : (Rd val jk jr).expect ((c : Thread nD τ), SemLoc.dma (sndS 1 1 3 inb_S3x4x4_S1x1x1_1_1_3)) 0 = N := by
  unfold Schedule.expect Schedule.amountOf; rw [duties_snd_1_1_3, Finset.sum_singleton]; rfl
theorem expect_rcv_1_1_3 (c : Dev nD) : (Rd val jk jr).expect ((c : Thread nD τ), SemLoc.dma (rcvS 1 1 3 inb_S3x4x4_S1x1x1_1_1_3)) 0 = N := by
  unfold Schedule.expect Schedule.amountOf; rw [duties_rcv_1_1_3, Finset.sum_singleton]; rfl
theorem payload_snd_1_1_3 (c : Dev nD) (d : Fin 4) : (Rd val jk jr).payload ((c : Thread nD τ), SemLoc.dma (sndS 1 1 3 inb_S3x4x4_S1x1x1_1_1_3)) 0 d
    = ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} (slotM 1 1 0 inb_S2x4x4x64x256_S1x1x1x64x256_1_1_0_0_0).view.write (Elt F) (jk c) (val c 1 1) Finset.univ : sProp 𝕄) := rfl
theorem payload_rcv_1_1_3 (c : Dev nD) (d : Fin 4) : (Rd val jk jr).payload ((c : Thread nD τ), SemLoc.dma (rcvS 1 1 3 inb_S3x4x4_S1x1x1_1_1_3)) 0 d
    = ((slotM 1 1 3 inb_S2x4x4x64x256_S1x1x1x64x256_1_1_3_0_0).view.loc (c : Thread nD τ) ↦[(slotM 1 1 3 inb_S2x4x4x64x256_S1x1x1x64x256_1_1_3_0_0).view.set]{fullShare} (slotM 1 1 3 inb_S2x4x4x64x256_S1x1x1x64x256_1_1_3_0_0).view.write (Elt F) (jk c) (val (ps c 3) 1 1) Finset.univ : sProp 𝕄) := rfl

theorem duties_snd_1_2_1 (c : Dev nD) : (Rd val jk jr).duties ((c : Thread nD τ), SemLoc.dma (sndS 1 2 1 inb_S3x4x4_S1x1x1_1_2_1)) 0 = {0} := rfl
theorem duties_rcv_1_2_1 (c : Dev nD) : (Rd val jk jr).duties ((c : Thread nD τ), SemLoc.dma (rcvS 1 2 1 inb_S3x4x4_S1x1x1_1_2_1)) 0 = {0} := rfl
theorem amount_snd_1_2_1 (c : Dev nD) (d : Fin 4) : (Rd val jk jr).amount ((c : Thread nD τ), SemLoc.dma (sndS 1 2 1 inb_S3x4x4_S1x1x1_1_2_1)) 0 d = N := rfl
theorem amount_rcv_1_2_1 (c : Dev nD) (d : Fin 4) : (Rd val jk jr).amount ((c : Thread nD τ), SemLoc.dma (rcvS 1 2 1 inb_S3x4x4_S1x1x1_1_2_1)) 0 d = N := rfl
theorem expect_snd_1_2_1 (c : Dev nD) : (Rd val jk jr).expect ((c : Thread nD τ), SemLoc.dma (sndS 1 2 1 inb_S3x4x4_S1x1x1_1_2_1)) 0 = N := by
  unfold Schedule.expect Schedule.amountOf; rw [duties_snd_1_2_1, Finset.sum_singleton]; rfl
theorem expect_rcv_1_2_1 (c : Dev nD) : (Rd val jk jr).expect ((c : Thread nD τ), SemLoc.dma (rcvS 1 2 1 inb_S3x4x4_S1x1x1_1_2_1)) 0 = N := by
  unfold Schedule.expect Schedule.amountOf; rw [duties_rcv_1_2_1, Finset.sum_singleton]; rfl
theorem payload_snd_1_2_1 (c : Dev nD) (d : Fin 4) : (Rd val jk jr).payload ((c : Thread nD τ), SemLoc.dma (sndS 1 2 1 inb_S3x4x4_S1x1x1_1_2_1)) 0 d
    = ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} (slotM 1 2 0 inb_S2x4x4x64x256_S1x1x1x64x256_1_2_0_0_0).view.write (Elt F) (jk c) (val c 1 2) Finset.univ : sProp 𝕄) := rfl
theorem payload_rcv_1_2_1 (c : Dev nD) (d : Fin 4) : (Rd val jk jr).payload ((c : Thread nD τ), SemLoc.dma (rcvS 1 2 1 inb_S3x4x4_S1x1x1_1_2_1)) 0 d
    = ((slotM 1 2 1 inb_S2x4x4x64x256_S1x1x1x64x256_1_2_1_0_0).view.loc (c : Thread nD τ) ↦[(slotM 1 2 1 inb_S2x4x4x64x256_S1x1x1x64x256_1_2_1_0_0).view.set]{fullShare} (slotM 1 2 1 inb_S2x4x4x64x256_S1x1x1x64x256_1_2_1_0_0).view.write (Elt F) (jk c) (val (ps c 1) 1 2) Finset.univ : sProp 𝕄) := rfl

theorem duties_snd_1_2_2 (c : Dev nD) : (Rd val jk jr).duties ((c : Thread nD τ), SemLoc.dma (sndS 1 2 2 inb_S3x4x4_S1x1x1_1_2_2)) 0 = {0} := rfl
theorem duties_rcv_1_2_2 (c : Dev nD) : (Rd val jk jr).duties ((c : Thread nD τ), SemLoc.dma (rcvS 1 2 2 inb_S3x4x4_S1x1x1_1_2_2)) 0 = {0} := rfl
theorem amount_snd_1_2_2 (c : Dev nD) (d : Fin 4) : (Rd val jk jr).amount ((c : Thread nD τ), SemLoc.dma (sndS 1 2 2 inb_S3x4x4_S1x1x1_1_2_2)) 0 d = N := rfl
theorem amount_rcv_1_2_2 (c : Dev nD) (d : Fin 4) : (Rd val jk jr).amount ((c : Thread nD τ), SemLoc.dma (rcvS 1 2 2 inb_S3x4x4_S1x1x1_1_2_2)) 0 d = N := rfl
theorem expect_snd_1_2_2 (c : Dev nD) : (Rd val jk jr).expect ((c : Thread nD τ), SemLoc.dma (sndS 1 2 2 inb_S3x4x4_S1x1x1_1_2_2)) 0 = N := by
  unfold Schedule.expect Schedule.amountOf; rw [duties_snd_1_2_2, Finset.sum_singleton]; rfl
theorem expect_rcv_1_2_2 (c : Dev nD) : (Rd val jk jr).expect ((c : Thread nD τ), SemLoc.dma (rcvS 1 2 2 inb_S3x4x4_S1x1x1_1_2_2)) 0 = N := by
  unfold Schedule.expect Schedule.amountOf; rw [duties_rcv_1_2_2, Finset.sum_singleton]; rfl
theorem payload_snd_1_2_2 (c : Dev nD) (d : Fin 4) : (Rd val jk jr).payload ((c : Thread nD τ), SemLoc.dma (sndS 1 2 2 inb_S3x4x4_S1x1x1_1_2_2)) 0 d
    = ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} (slotM 1 2 0 inb_S2x4x4x64x256_S1x1x1x64x256_1_2_0_0_0).view.write (Elt F) (jk c) (val c 1 2) Finset.univ : sProp 𝕄) := rfl
theorem payload_rcv_1_2_2 (c : Dev nD) (d : Fin 4) : (Rd val jk jr).payload ((c : Thread nD τ), SemLoc.dma (rcvS 1 2 2 inb_S3x4x4_S1x1x1_1_2_2)) 0 d
    = ((slotM 1 2 2 inb_S2x4x4x64x256_S1x1x1x64x256_1_2_2_0_0).view.loc (c : Thread nD τ) ↦[(slotM 1 2 2 inb_S2x4x4x64x256_S1x1x1x64x256_1_2_2_0_0).view.set]{fullShare} (slotM 1 2 2 inb_S2x4x4x64x256_S1x1x1x64x256_1_2_2_0_0).view.write (Elt F) (jk c) (val (ps c 2) 1 2) Finset.univ : sProp 𝕄) := rfl

theorem duties_snd_1_2_3 (c : Dev nD) : (Rd val jk jr).duties ((c : Thread nD τ), SemLoc.dma (sndS 1 2 3 inb_S3x4x4_S1x1x1_1_2_3)) 0 = {0} := rfl
theorem duties_rcv_1_2_3 (c : Dev nD) : (Rd val jk jr).duties ((c : Thread nD τ), SemLoc.dma (rcvS 1 2 3 inb_S3x4x4_S1x1x1_1_2_3)) 0 = {0} := rfl
theorem amount_snd_1_2_3 (c : Dev nD) (d : Fin 4) : (Rd val jk jr).amount ((c : Thread nD τ), SemLoc.dma (sndS 1 2 3 inb_S3x4x4_S1x1x1_1_2_3)) 0 d = N := rfl
theorem amount_rcv_1_2_3 (c : Dev nD) (d : Fin 4) : (Rd val jk jr).amount ((c : Thread nD τ), SemLoc.dma (rcvS 1 2 3 inb_S3x4x4_S1x1x1_1_2_3)) 0 d = N := rfl
theorem expect_snd_1_2_3 (c : Dev nD) : (Rd val jk jr).expect ((c : Thread nD τ), SemLoc.dma (sndS 1 2 3 inb_S3x4x4_S1x1x1_1_2_3)) 0 = N := by
  unfold Schedule.expect Schedule.amountOf; rw [duties_snd_1_2_3, Finset.sum_singleton]; rfl
theorem expect_rcv_1_2_3 (c : Dev nD) : (Rd val jk jr).expect ((c : Thread nD τ), SemLoc.dma (rcvS 1 2 3 inb_S3x4x4_S1x1x1_1_2_3)) 0 = N := by
  unfold Schedule.expect Schedule.amountOf; rw [duties_rcv_1_2_3, Finset.sum_singleton]; rfl
theorem payload_snd_1_2_3 (c : Dev nD) (d : Fin 4) : (Rd val jk jr).payload ((c : Thread nD τ), SemLoc.dma (sndS 1 2 3 inb_S3x4x4_S1x1x1_1_2_3)) 0 d
    = ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} (slotM 1 2 0 inb_S2x4x4x64x256_S1x1x1x64x256_1_2_0_0_0).view.write (Elt F) (jk c) (val c 1 2) Finset.univ : sProp 𝕄) := rfl
theorem payload_rcv_1_2_3 (c : Dev nD) (d : Fin 4) : (Rd val jk jr).payload ((c : Thread nD τ), SemLoc.dma (rcvS 1 2 3 inb_S3x4x4_S1x1x1_1_2_3)) 0 d
    = ((slotM 1 2 3 inb_S2x4x4x64x256_S1x1x1x64x256_1_2_3_0_0).view.loc (c : Thread nD τ) ↦[(slotM 1 2 3 inb_S2x4x4x64x256_S1x1x1x64x256_1_2_3_0_0).view.set]{fullShare} (slotM 1 2 3 inb_S2x4x4x64x256_S1x1x1x64x256_1_2_3_0_0).view.write (Elt F) (jk c) (val (ps c 3) 1 2) Finset.univ : sProp 𝕄) := rfl

theorem duties_snd_1_3_1 (c : Dev nD) : (Rd val jk jr).duties ((c : Thread nD τ), SemLoc.dma (sndS 1 3 1 inb_S3x4x4_S1x1x1_1_3_1)) 0 = {0} := rfl
theorem duties_rcv_1_3_1 (c : Dev nD) : (Rd val jk jr).duties ((c : Thread nD τ), SemLoc.dma (rcvS 1 3 1 inb_S3x4x4_S1x1x1_1_3_1)) 0 = {0} := rfl
theorem amount_snd_1_3_1 (c : Dev nD) (d : Fin 4) : (Rd val jk jr).amount ((c : Thread nD τ), SemLoc.dma (sndS 1 3 1 inb_S3x4x4_S1x1x1_1_3_1)) 0 d = N := rfl
theorem amount_rcv_1_3_1 (c : Dev nD) (d : Fin 4) : (Rd val jk jr).amount ((c : Thread nD τ), SemLoc.dma (rcvS 1 3 1 inb_S3x4x4_S1x1x1_1_3_1)) 0 d = N := rfl
theorem expect_snd_1_3_1 (c : Dev nD) : (Rd val jk jr).expect ((c : Thread nD τ), SemLoc.dma (sndS 1 3 1 inb_S3x4x4_S1x1x1_1_3_1)) 0 = N := by
  unfold Schedule.expect Schedule.amountOf; rw [duties_snd_1_3_1, Finset.sum_singleton]; rfl
theorem expect_rcv_1_3_1 (c : Dev nD) : (Rd val jk jr).expect ((c : Thread nD τ), SemLoc.dma (rcvS 1 3 1 inb_S3x4x4_S1x1x1_1_3_1)) 0 = N := by
  unfold Schedule.expect Schedule.amountOf; rw [duties_rcv_1_3_1, Finset.sum_singleton]; rfl
theorem payload_snd_1_3_1 (c : Dev nD) (d : Fin 4) : (Rd val jk jr).payload ((c : Thread nD τ), SemLoc.dma (sndS 1 3 1 inb_S3x4x4_S1x1x1_1_3_1)) 0 d
    = ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} (slotM 1 3 0 inb_S2x4x4x64x256_S1x1x1x64x256_1_3_0_0_0).view.write (Elt F) (jk c) (val c 1 3) Finset.univ : sProp 𝕄) := rfl
theorem payload_rcv_1_3_1 (c : Dev nD) (d : Fin 4) : (Rd val jk jr).payload ((c : Thread nD τ), SemLoc.dma (rcvS 1 3 1 inb_S3x4x4_S1x1x1_1_3_1)) 0 d
    = ((slotM 1 3 1 inb_S2x4x4x64x256_S1x1x1x64x256_1_3_1_0_0).view.loc (c : Thread nD τ) ↦[(slotM 1 3 1 inb_S2x4x4x64x256_S1x1x1x64x256_1_3_1_0_0).view.set]{fullShare} (slotM 1 3 1 inb_S2x4x4x64x256_S1x1x1x64x256_1_3_1_0_0).view.write (Elt F) (jk c) (val (ps c 1) 1 3) Finset.univ : sProp 𝕄) := rfl

theorem duties_snd_1_3_2 (c : Dev nD) : (Rd val jk jr).duties ((c : Thread nD τ), SemLoc.dma (sndS 1 3 2 inb_S3x4x4_S1x1x1_1_3_2)) 0 = {0} := rfl
theorem duties_rcv_1_3_2 (c : Dev nD) : (Rd val jk jr).duties ((c : Thread nD τ), SemLoc.dma (rcvS 1 3 2 inb_S3x4x4_S1x1x1_1_3_2)) 0 = {0} := rfl
theorem amount_snd_1_3_2 (c : Dev nD) (d : Fin 4) : (Rd val jk jr).amount ((c : Thread nD τ), SemLoc.dma (sndS 1 3 2 inb_S3x4x4_S1x1x1_1_3_2)) 0 d = N := rfl
theorem amount_rcv_1_3_2 (c : Dev nD) (d : Fin 4) : (Rd val jk jr).amount ((c : Thread nD τ), SemLoc.dma (rcvS 1 3 2 inb_S3x4x4_S1x1x1_1_3_2)) 0 d = N := rfl
theorem expect_snd_1_3_2 (c : Dev nD) : (Rd val jk jr).expect ((c : Thread nD τ), SemLoc.dma (sndS 1 3 2 inb_S3x4x4_S1x1x1_1_3_2)) 0 = N := by
  unfold Schedule.expect Schedule.amountOf; rw [duties_snd_1_3_2, Finset.sum_singleton]; rfl
theorem expect_rcv_1_3_2 (c : Dev nD) : (Rd val jk jr).expect ((c : Thread nD τ), SemLoc.dma (rcvS 1 3 2 inb_S3x4x4_S1x1x1_1_3_2)) 0 = N := by
  unfold Schedule.expect Schedule.amountOf; rw [duties_rcv_1_3_2, Finset.sum_singleton]; rfl
theorem payload_snd_1_3_2 (c : Dev nD) (d : Fin 4) : (Rd val jk jr).payload ((c : Thread nD τ), SemLoc.dma (sndS 1 3 2 inb_S3x4x4_S1x1x1_1_3_2)) 0 d
    = ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} (slotM 1 3 0 inb_S2x4x4x64x256_S1x1x1x64x256_1_3_0_0_0).view.write (Elt F) (jk c) (val c 1 3) Finset.univ : sProp 𝕄) := rfl
theorem payload_rcv_1_3_2 (c : Dev nD) (d : Fin 4) : (Rd val jk jr).payload ((c : Thread nD τ), SemLoc.dma (rcvS 1 3 2 inb_S3x4x4_S1x1x1_1_3_2)) 0 d
    = ((slotM 1 3 2 inb_S2x4x4x64x256_S1x1x1x64x256_1_3_2_0_0).view.loc (c : Thread nD τ) ↦[(slotM 1 3 2 inb_S2x4x4x64x256_S1x1x1x64x256_1_3_2_0_0).view.set]{fullShare} (slotM 1 3 2 inb_S2x4x4x64x256_S1x1x1x64x256_1_3_2_0_0).view.write (Elt F) (jk c) (val (ps c 2) 1 3) Finset.univ : sProp 𝕄) := rfl

theorem duties_snd_1_3_3 (c : Dev nD) : (Rd val jk jr).duties ((c : Thread nD τ), SemLoc.dma (sndS 1 3 3 inb_S3x4x4_S1x1x1_1_3_3)) 0 = {0} := rfl
theorem duties_rcv_1_3_3 (c : Dev nD) : (Rd val jk jr).duties ((c : Thread nD τ), SemLoc.dma (rcvS 1 3 3 inb_S3x4x4_S1x1x1_1_3_3)) 0 = {0} := rfl
theorem amount_snd_1_3_3 (c : Dev nD) (d : Fin 4) : (Rd val jk jr).amount ((c : Thread nD τ), SemLoc.dma (sndS 1 3 3 inb_S3x4x4_S1x1x1_1_3_3)) 0 d = N := rfl
theorem amount_rcv_1_3_3 (c : Dev nD) (d : Fin 4) : (Rd val jk jr).amount ((c : Thread nD τ), SemLoc.dma (rcvS 1 3 3 inb_S3x4x4_S1x1x1_1_3_3)) 0 d = N := rfl
theorem expect_snd_1_3_3 (c : Dev nD) : (Rd val jk jr).expect ((c : Thread nD τ), SemLoc.dma (sndS 1 3 3 inb_S3x4x4_S1x1x1_1_3_3)) 0 = N := by
  unfold Schedule.expect Schedule.amountOf; rw [duties_snd_1_3_3, Finset.sum_singleton]; rfl
theorem expect_rcv_1_3_3 (c : Dev nD) : (Rd val jk jr).expect ((c : Thread nD τ), SemLoc.dma (rcvS 1 3 3 inb_S3x4x4_S1x1x1_1_3_3)) 0 = N := by
  unfold Schedule.expect Schedule.amountOf; rw [duties_rcv_1_3_3, Finset.sum_singleton]; rfl
theorem payload_snd_1_3_3 (c : Dev nD) (d : Fin 4) : (Rd val jk jr).payload ((c : Thread nD τ), SemLoc.dma (sndS 1 3 3 inb_S3x4x4_S1x1x1_1_3_3)) 0 d
    = ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} (slotM 1 3 0 inb_S2x4x4x64x256_S1x1x1x64x256_1_3_0_0_0).view.write (Elt F) (jk c) (val c 1 3) Finset.univ : sProp 𝕄) := rfl
theorem payload_rcv_1_3_3 (c : Dev nD) (d : Fin 4) : (Rd val jk jr).payload ((c : Thread nD τ), SemLoc.dma (rcvS 1 3 3 inb_S3x4x4_S1x1x1_1_3_3)) 0 d
    = ((slotM 1 3 3 inb_S2x4x4x64x256_S1x1x1x64x256_1_3_3_0_0).view.loc (c : Thread nD τ) ↦[(slotM 1 3 3 inb_S2x4x4x64x256_S1x1x1x64x256_1_3_3_0_0).view.set]{fullShare} (slotM 1 3 3 inb_S2x4x4x64x256_S1x1x1x64x256_1_3_3_0_0).view.write (Elt F) (jk c) (val (ps c 3) 1 3) Finset.univ : sProp 𝕄) := rfl

theorem duties_snd_2_0_1 (c : Dev nD) : (Rd val jk jr).duties ((c : Thread nD τ), SemLoc.dma (sndS 2 0 1 inb_S3x4x4_S1x1x1_2_0_1)) 0 = {0} := rfl
theorem duties_rcv_2_0_1 (c : Dev nD) : (Rd val jk jr).duties ((c : Thread nD τ), SemLoc.dma (rcvS 2 0 1 inb_S3x4x4_S1x1x1_2_0_1)) 0 = {0} := rfl
theorem amount_snd_2_0_1 (c : Dev nD) (d : Fin 4) : (Rd val jk jr).amount ((c : Thread nD τ), SemLoc.dma (sndS 2 0 1 inb_S3x4x4_S1x1x1_2_0_1)) 0 d = N := rfl
theorem amount_rcv_2_0_1 (c : Dev nD) (d : Fin 4) : (Rd val jk jr).amount ((c : Thread nD τ), SemLoc.dma (rcvS 2 0 1 inb_S3x4x4_S1x1x1_2_0_1)) 0 d = N := rfl
theorem expect_snd_2_0_1 (c : Dev nD) : (Rd val jk jr).expect ((c : Thread nD τ), SemLoc.dma (sndS 2 0 1 inb_S3x4x4_S1x1x1_2_0_1)) 0 = N := by
  unfold Schedule.expect Schedule.amountOf; rw [duties_snd_2_0_1, Finset.sum_singleton]; rfl
theorem expect_rcv_2_0_1 (c : Dev nD) : (Rd val jk jr).expect ((c : Thread nD τ), SemLoc.dma (rcvS 2 0 1 inb_S3x4x4_S1x1x1_2_0_1)) 0 = N := by
  unfold Schedule.expect Schedule.amountOf; rw [duties_rcv_2_0_1, Finset.sum_singleton]; rfl
theorem payload_snd_2_0_1 (c : Dev nD) (d : Fin 4) : (Rd val jk jr).payload ((c : Thread nD τ), SemLoc.dma (sndS 2 0 1 inb_S3x4x4_S1x1x1_2_0_1)) 0 d
    = ((rsM 0 1 inb_S2x4x64x256_S1x1x64x256_0_1_0_0).view.loc (c : Thread nD τ) ↦[(rsM 0 1 inb_S2x4x64x256_S1x1x64x256_0_1_0_0).view.set]{fullShare} (rsM 0 1 inb_S2x4x64x256_S1x1x64x256_0_1_0_0).view.write (Elt F) (jr c) (val c 2 1) Finset.univ : sProp 𝕄) := rfl
theorem payload_rcv_2_0_1 (c : Dev nD) (d : Fin 4) : (Rd val jk jr).payload ((c : Thread nD τ), SemLoc.dma (rcvS 2 0 1 inb_S3x4x4_S1x1x1_2_0_1)) 0 d
    = ((rsM 1 1 inb_S2x4x64x256_S1x1x64x256_1_1_0_0).view.loc (c : Thread nD τ) ↦[(rsM 1 1 inb_S2x4x64x256_S1x1x64x256_1_1_0_0).view.set]{fullShare} (rsM 1 1 inb_S2x4x64x256_S1x1x64x256_1_1_0_0).view.write (Elt F) (jr c) (val (ps c 1) 2 1) Finset.univ : sProp 𝕄) := rfl

theorem duties_snd_2_0_2 (c : Dev nD) : (Rd val jk jr).duties ((c : Thread nD τ), SemLoc.dma (sndS 2 0 2 inb_S3x4x4_S1x1x1_2_0_2)) 0 = {0} := rfl
theorem duties_rcv_2_0_2 (c : Dev nD) : (Rd val jk jr).duties ((c : Thread nD τ), SemLoc.dma (rcvS 2 0 2 inb_S3x4x4_S1x1x1_2_0_2)) 0 = {0} := rfl
theorem amount_snd_2_0_2 (c : Dev nD) (d : Fin 4) : (Rd val jk jr).amount ((c : Thread nD τ), SemLoc.dma (sndS 2 0 2 inb_S3x4x4_S1x1x1_2_0_2)) 0 d = N := rfl
theorem amount_rcv_2_0_2 (c : Dev nD) (d : Fin 4) : (Rd val jk jr).amount ((c : Thread nD τ), SemLoc.dma (rcvS 2 0 2 inb_S3x4x4_S1x1x1_2_0_2)) 0 d = N := rfl
theorem expect_snd_2_0_2 (c : Dev nD) : (Rd val jk jr).expect ((c : Thread nD τ), SemLoc.dma (sndS 2 0 2 inb_S3x4x4_S1x1x1_2_0_2)) 0 = N := by
  unfold Schedule.expect Schedule.amountOf; rw [duties_snd_2_0_2, Finset.sum_singleton]; rfl
theorem expect_rcv_2_0_2 (c : Dev nD) : (Rd val jk jr).expect ((c : Thread nD τ), SemLoc.dma (rcvS 2 0 2 inb_S3x4x4_S1x1x1_2_0_2)) 0 = N := by
  unfold Schedule.expect Schedule.amountOf; rw [duties_rcv_2_0_2, Finset.sum_singleton]; rfl
theorem payload_snd_2_0_2 (c : Dev nD) (d : Fin 4) : (Rd val jk jr).payload ((c : Thread nD τ), SemLoc.dma (sndS 2 0 2 inb_S3x4x4_S1x1x1_2_0_2)) 0 d
    = ((rsM 0 2 inb_S2x4x64x256_S1x1x64x256_0_2_0_0).view.loc (c : Thread nD τ) ↦[(rsM 0 2 inb_S2x4x64x256_S1x1x64x256_0_2_0_0).view.set]{fullShare} (rsM 0 2 inb_S2x4x64x256_S1x1x64x256_0_2_0_0).view.write (Elt F) (jr c) (val c 2 2) Finset.univ : sProp 𝕄) := rfl
theorem payload_rcv_2_0_2 (c : Dev nD) (d : Fin 4) : (Rd val jk jr).payload ((c : Thread nD τ), SemLoc.dma (rcvS 2 0 2 inb_S3x4x4_S1x1x1_2_0_2)) 0 d
    = ((rsM 1 2 inb_S2x4x64x256_S1x1x64x256_1_2_0_0).view.loc (c : Thread nD τ) ↦[(rsM 1 2 inb_S2x4x64x256_S1x1x64x256_1_2_0_0).view.set]{fullShare} (rsM 1 2 inb_S2x4x64x256_S1x1x64x256_1_2_0_0).view.write (Elt F) (jr c) (val (ps c 2) 2 2) Finset.univ : sProp 𝕄) := rfl

theorem duties_snd_2_0_3 (c : Dev nD) : (Rd val jk jr).duties ((c : Thread nD τ), SemLoc.dma (sndS 2 0 3 inb_S3x4x4_S1x1x1_2_0_3)) 0 = {0} := rfl
theorem duties_rcv_2_0_3 (c : Dev nD) : (Rd val jk jr).duties ((c : Thread nD τ), SemLoc.dma (rcvS 2 0 3 inb_S3x4x4_S1x1x1_2_0_3)) 0 = {0} := rfl
theorem amount_snd_2_0_3 (c : Dev nD) (d : Fin 4) : (Rd val jk jr).amount ((c : Thread nD τ), SemLoc.dma (sndS 2 0 3 inb_S3x4x4_S1x1x1_2_0_3)) 0 d = N := rfl
theorem amount_rcv_2_0_3 (c : Dev nD) (d : Fin 4) : (Rd val jk jr).amount ((c : Thread nD τ), SemLoc.dma (rcvS 2 0 3 inb_S3x4x4_S1x1x1_2_0_3)) 0 d = N := rfl
theorem expect_snd_2_0_3 (c : Dev nD) : (Rd val jk jr).expect ((c : Thread nD τ), SemLoc.dma (sndS 2 0 3 inb_S3x4x4_S1x1x1_2_0_3)) 0 = N := by
  unfold Schedule.expect Schedule.amountOf; rw [duties_snd_2_0_3, Finset.sum_singleton]; rfl
theorem expect_rcv_2_0_3 (c : Dev nD) : (Rd val jk jr).expect ((c : Thread nD τ), SemLoc.dma (rcvS 2 0 3 inb_S3x4x4_S1x1x1_2_0_3)) 0 = N := by
  unfold Schedule.expect Schedule.amountOf; rw [duties_rcv_2_0_3, Finset.sum_singleton]; rfl
theorem payload_snd_2_0_3 (c : Dev nD) (d : Fin 4) : (Rd val jk jr).payload ((c : Thread nD τ), SemLoc.dma (sndS 2 0 3 inb_S3x4x4_S1x1x1_2_0_3)) 0 d
    = ((rsM 0 3 inb_S2x4x64x256_S1x1x64x256_0_3_0_0).view.loc (c : Thread nD τ) ↦[(rsM 0 3 inb_S2x4x64x256_S1x1x64x256_0_3_0_0).view.set]{fullShare} (rsM 0 3 inb_S2x4x64x256_S1x1x64x256_0_3_0_0).view.write (Elt F) (jr c) (val c 2 3) Finset.univ : sProp 𝕄) := rfl
theorem payload_rcv_2_0_3 (c : Dev nD) (d : Fin 4) : (Rd val jk jr).payload ((c : Thread nD τ), SemLoc.dma (rcvS 2 0 3 inb_S3x4x4_S1x1x1_2_0_3)) 0 d
    = ((rsM 1 3 inb_S2x4x64x256_S1x1x64x256_1_3_0_0).view.loc (c : Thread nD τ) ↦[(rsM 1 3 inb_S2x4x64x256_S1x1x64x256_1_3_0_0).view.set]{fullShare} (rsM 1 3 inb_S2x4x64x256_S1x1x64x256_1_3_0_0).view.write (Elt F) (jr c) (val (ps c 3) 2 3) Finset.univ : sProp 𝕄) := rfl

end Cert.KernelIdeal.Mlp

end
-- ==== Proof.BodyDefs.lean ====
import proofs.«900991_g7700000000000992_dist_mlpseq_tp1d_rep_bs_b256_d256_h512_v7x_i4_bf16_1_alg».proof.Proof.Tables
import proofs.«900991_g7700000000000992_dist_mlpseq_tp1d_rep_bs_b256_d256_h512_v7x_i4_bf16_1_alg».proof.Proof.Gen.KernelIdeal.Frame

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-- The memory at launch. -/
def s₀ : MemSt nD τ sig (Elt F) := ⟨m, fun _ => 0, ρ⟩

/-! ## What a device owes at launch, and the levels -/

/-- Device `c` owes each of the three other devices one unit on its barrier cell, and the device `o` ahead one block's
    credit on each of the nine receive cells of slot `o`: summed in the reverse of the order in which the body pays. -/
def O₀ (c : Dev nD) : CellTallies nD τ sig Unit :=
  tallyAt (((pe c 3) : Thread nD τ), SemLoc.dma (rcvS 2 0 3 inb_S3x4x4_S1x1x1_2_0_3)) () N
    + tallyAt (((pe c 1) : Thread nD τ), SemLoc.dma (rcvS 2 0 1 inb_S3x4x4_S1x1x1_2_0_1)) () N
    + tallyAt (((pe c 2) : Thread nD τ), SemLoc.dma (rcvS 2 0 2 inb_S3x4x4_S1x1x1_2_0_2)) () N
    + tallyAt (((pe c 3) : Thread nD τ), SemLoc.dma (rcvS 1 3 3 inb_S3x4x4_S1x1x1_1_3_3)) () N
    + tallyAt (((pe c 1) : Thread nD τ), SemLoc.dma (rcvS 1 3 1 inb_S3x4x4_S1x1x1_1_3_1)) () N
    + tallyAt (((pe c 2) : Thread nD τ), SemLoc.dma (rcvS 1 3 2 inb_S3x4x4_S1x1x1_1_3_2)) () N
    + tallyAt (((pe c 3) : Thread nD τ), SemLoc.dma (rcvS 1 2 3 inb_S3x4x4_S1x1x1_1_2_3)) () N
    + tallyAt (((pe c 1) : Thread nD τ), SemLoc.dma (rcvS 1 2 1 inb_S3x4x4_S1x1x1_1_2_1)) () N
    + tallyAt (((pe c 2) : Thread nD τ), SemLoc.dma (rcvS 1 2 2 inb_S3x4x4_S1x1x1_1_2_2)) () N
    + tallyAt (((pe c 3) : Thread nD τ), SemLoc.dma (rcvS 1 1 3 inb_S3x4x4_S1x1x1_1_1_3)) () N
    + tallyAt (((pe c 1) : Thread nD τ), SemLoc.dma (rcvS 1 1 1 inb_S3x4x4_S1x1x1_1_1_1)) () N
    + tallyAt (((pe c 2) : Thread nD τ), SemLoc.dma (rcvS 1 1 2 inb_S3x4x4_S1x1x1_1_1_2)) () N
    + tallyAt (((pe c 3) : Thread nD τ), SemLoc.dma (rcvS 1 0 3 inb_S3x4x4_S1x1x1_1_0_3)) () N
    + tallyAt (((pe c 1) : Thread nD τ), SemLoc.dma (rcvS 1 0 1 inb_S3x4x4_S1x1x1_1_0_1)) () N
    + tallyAt (((pe c 2) : Thread nD τ), SemLoc.dma (rcvS 1 0 2 inb_S3x4x4_S1x1x1_1_0_2)) () N
    + tallyAt (((pe c 3) : Thread nD τ), SemLoc.dma (rcvS 0 3 3 inb_S3x4x4_S1x1x1_0_3_3)) () N
    + tallyAt (((pe c 1) : Thread nD τ), SemLoc.dma (rcvS 0 3 1 inb_S3x4x4_S1x1x1_0_3_1)) () N
    + tallyAt (((pe c 2) : Thread nD τ), SemLoc.dma (rcvS 0 3 2 inb_S3x4x4_S1x1x1_0_3_2)) () N
    + tallyAt (((pe c 3) : Thread nD τ), SemLoc.dma (rcvS 0 2 3 inb_S3x4x4_S1x1x1_0_2_3)) () N
    + tallyAt (((pe c 1) : Thread nD τ), SemLoc.dma (rcvS 0 2 1 inb_S3x4x4_S1x1x1_0_2_1)) () N
    + tallyAt (((pe c 2) : Thread nD τ), SemLoc.dma (rcvS 0 2 2 inb_S3x4x4_S1x1x1_0_2_2)) () N
    + tallyAt (((pe c 3) : Thread nD τ), SemLoc.dma (rcvS 0 1 3 inb_S3x4x4_S1x1x1_0_1_3)) () N
    + tallyAt (((pe c 1) : Thread nD τ), SemLoc.dma (rcvS 0 1 1 inb_S3x4x4_S1x1x1_0_1_1)) () N
    + tallyAt (((pe c 2) : Thread nD τ), SemLoc.dma (rcvS 0 1 2 inb_S3x4x4_S1x1x1_0_1_2)) () N
    + tallyAt (((pe c 3) : Thread nD τ), SemLoc.dma (rcvS 0 0 3 inb_S3x4x4_S1x1x1_0_0_3)) () N
    + tallyAt (((pe c 1) : Thread nD τ), SemLoc.dma (rcvS 0 0 1 inb_S3x4x4_S1x1x1_0_0_1)) () N
    + tallyAt (((pe c 2) : Thread nD τ), SemLoc.dma (rcvS 0 0 2 inb_S3x4x4_S1x1x1_0_0_2)) () N
    + tallyAt (barCell (pe c 3)) () 1
    + tallyAt (barCell (pe c 2)) () 1
    + tallyAt (barCell (pe c 1)) () 1

def L (g : GSem nD τ sig) : Finset Unit := if g.1.2 = .tc then {()} else ∅
/-- Barrier cells at 1, a receive cell of layer `l` at `2 + l`, every other cell at 0: a device waits on a layer's landings
    only when all it still owes lies in that layer's copies or later ones. -/
def lv (g : GSem nD τ sig) (_ : Unit) : ℕ :=
  match g.2 with
  | .reg s => if s = barS then 1 else 0
  | .dma q => match rcvKey q with | some k => 2 + k.1 | none => 0

/-! ## The ghost state of one device -/

def invs (K : GSem nD τ sig → ℕ) (c : Dev nD) : sProp 𝕄 :=
  iprop(cellInv ER (Rd val jk jr) (K (barCell c)) (barCell c)
    ∗ cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
    ∗ cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
    ∗ cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
    ∗ cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
    ∗ cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
    ∗ cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
    ∗ cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
    ∗ cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
    ∗ cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
    ∗ cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
    ∗ cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
    ∗ cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
    ∗ cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
    ∗ cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
    ∗ cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
    ∗ cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
    ∗ cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
    ∗ cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
    ∗ cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
    ∗ cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
    ∗ cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
    ∗ cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
    ∗ cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
    ∗ cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
    ∗ cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
    ∗ cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
    ∗ cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
    ∗ cellInv ER (Rd val jk jr) (K ((c : Thread nD τ), SemLoc.dma (rcvS 0 0 1 inb_S3x4x4_S1x1x1_0_0_1))) ((c : Thread nD τ), SemLoc.dma (rcvS 0 0 1 inb_S3x4x4_S1x1x1_0_0_1))
    ∗ cellInv ER (Rd val jk jr) (K ((c : Thread nD τ), SemLoc.dma (rcvS 0 0 2 inb_S3x4x4_S1x1x1_0_0_2))) ((c : Thread nD τ), SemLoc.dma (rcvS 0 0 2 inb_S3x4x4_S1x1x1_0_0_2))
    ∗ cellInv ER (Rd val jk jr) (K ((c : Thread nD τ), SemLoc.dma (rcvS 0 0 3 inb_S3x4x4_S1x1x1_0_0_3))) ((c : Thread nD τ), SemLoc.dma (rcvS 0 0 3 inb_S3x4x4_S1x1x1_0_0_3))
    ∗ cellInv ER (Rd val jk jr) (K ((c : Thread nD τ), SemLoc.dma (rcvS 0 1 1 inb_S3x4x4_S1x1x1_0_1_1))) ((c : Thread nD τ), SemLoc.dma (rcvS 0 1 1 inb_S3x4x4_S1x1x1_0_1_1))
    ∗ cellInv ER (Rd val jk jr) (K ((c : Thread nD τ), SemLoc.dma (rcvS 0 1 2 inb_S3x4x4_S1x1x1_0_1_2))) ((c : Thread nD τ), SemLoc.dma (rcvS 0 1 2 inb_S3x4x4_S1x1x1_0_1_2))
    ∗ cellInv ER (Rd val jk jr) (K ((c : Thread nD τ), SemLoc.dma (rcvS 0 1 3 inb_S3x4x4_S1x1x1_0_1_3))) ((c : Thread nD τ), SemLoc.dma (rcvS 0 1 3 inb_S3x4x4_S1x1x1_0_1_3))
    ∗ cellInv ER (Rd val jk jr) (K ((c : Thread nD τ), SemLoc.dma (rcvS 0 2 1 inb_S3x4x4_S1x1x1_0_2_1))) ((c : Thread nD τ), SemLoc.dma (rcvS 0 2 1 inb_S3x4x4_S1x1x1_0_2_1))
    ∗ cellInv ER (Rd val jk jr) (K ((c : Thread nD τ), SemLoc.dma (rcvS 0 2 2 inb_S3x4x4_S1x1x1_0_2_2))) ((c : Thread nD τ), SemLoc.dma (rcvS 0 2 2 inb_S3x4x4_S1x1x1_0_2_2))
    ∗ cellInv ER (Rd val jk jr) (K ((c : Thread nD τ), SemLoc.dma (rcvS 0 2 3 inb_S3x4x4_S1x1x1_0_2_3))) ((c : Thread nD τ), SemLoc.dma (rcvS 0 2 3 inb_S3x4x4_S1x1x1_0_2_3))
    ∗ cellInv ER (Rd val jk jr) (K ((c : Thread nD τ), SemLoc.dma (rcvS 0 3 1 inb_S3x4x4_S1x1x1_0_3_1))) ((c : Thread nD τ), SemLoc.dma (rcvS 0 3 1 inb_S3x4x4_S1x1x1_0_3_1))
    ∗ cellInv ER (Rd val jk jr) (K ((c : Thread nD τ), SemLoc.dma (rcvS 0 3 2 inb_S3x4x4_S1x1x1_0_3_2))) ((c : Thread nD τ), SemLoc.dma (rcvS 0 3 2 inb_S3x4x4_S1x1x1_0_3_2))
    ∗ cellInv ER (Rd val jk jr) (K ((c : Thread nD τ), SemLoc.dma (rcvS 0 3 3 inb_S3x4x4_S1x1x1_0_3_3))) ((c : Thread nD τ), SemLoc.dma (rcvS 0 3 3 inb_S3x4x4_S1x1x1_0_3_3))
    ∗ cellInv ER (Rd val jk jr) (K ((c : Thread nD τ), SemLoc.dma (rcvS 1 0 1 inb_S3x4x4_S1x1x1_1_0_1))) ((c : Thread nD τ), SemLoc.dma (rcvS 1 0 1 inb_S3x4x4_S1x1x1_1_0_1))
    ∗ cellInv ER (Rd val jk jr) (K ((c : Thread nD τ), SemLoc.dma (rcvS 1 0 2 inb_S3x4x4_S1x1x1_1_0_2))) ((c : Thread nD τ), SemLoc.dma (rcvS 1 0 2 inb_S3x4x4_S1x1x1_1_0_2))
    ∗ cellInv ER (Rd val jk jr) (K ((c : Thread nD τ), SemLoc.dma (rcvS 1 0 3 inb_S3x4x4_S1x1x1_1_0_3))) ((c : Thread nD τ), SemLoc.dma (rcvS 1 0 3 inb_S3x4x4_S1x1x1_1_0_3))
    ∗ cellInv ER (Rd val jk jr) (K ((c : Thread nD τ), SemLoc.dma (rcvS 1 1 1 inb_S3x4x4_S1x1x1_1_1_1))) ((c : Thread nD τ), SemLoc.dma (rcvS 1 1 1 inb_S3x4x4_S1x1x1_1_1_1))
    ∗ cellInv ER (Rd val jk jr) (K ((c : Thread nD τ), SemLoc.dma (rcvS 1 1 2 inb_S3x4x4_S1x1x1_1_1_2))) ((c : Thread nD τ), SemLoc.dma (rcvS 1 1 2 inb_S3x4x4_S1x1x1_1_1_2))
    ∗ cellInv ER (Rd val jk jr) (K ((c : Thread nD τ), SemLoc.dma (rcvS 1 1 3 inb_S3x4x4_S1x1x1_1_1_3))) ((c : Thread nD τ), SemLoc.dma (rcvS 1 1 3 inb_S3x4x4_S1x1x1_1_1_3))
    ∗ cellInv ER (Rd val jk jr) (K ((c : Thread nD τ), SemLoc.dma (rcvS 1 2 1 inb_S3x4x4_S1x1x1_1_2_1))) ((c : Thread nD τ), SemLoc.dma (rcvS 1 2 1 inb_S3x4x4_S1x1x1_1_2_1))
    ∗ cellInv ER (Rd val jk jr) (K ((c : Thread nD τ), SemLoc.dma (rcvS 1 2 2 inb_S3x4x4_S1x1x1_1_2_2))) ((c : Thread nD τ), SemLoc.dma (rcvS 1 2 2 inb_S3x4x4_S1x1x1_1_2_2))
    ∗ cellInv ER (Rd val jk jr) (K ((c : Thread nD τ), SemLoc.dma (rcvS 1 2 3 inb_S3x4x4_S1x1x1_1_2_3))) ((c : Thread nD τ), SemLoc.dma (rcvS 1 2 3 inb_S3x4x4_S1x1x1_1_2_3))
    ∗ cellInv ER (Rd val jk jr) (K ((c : Thread nD τ), SemLoc.dma (rcvS 1 3 1 inb_S3x4x4_S1x1x1_1_3_1))) ((c : Thread nD τ), SemLoc.dma (rcvS 1 3 1 inb_S3x4x4_S1x1x1_1_3_1))
    ∗ cellInv ER (Rd val jk jr) (K ((c : Thread nD τ), SemLoc.dma (rcvS 1 3 2 inb_S3x4x4_S1x1x1_1_3_2))) ((c : Thread nD τ), SemLoc.dma (rcvS 1 3 2 inb_S3x4x4_S1x1x1_1_3_2))
    ∗ cellInv ER (Rd val jk jr) (K ((c : Thread nD τ), SemLoc.dma (rcvS 1 3 3 inb_S3x4x4_S1x1x1_1_3_3))) ((c : Thread nD τ), SemLoc.dma (rcvS 1 3 3 inb_S3x4x4_S1x1x1_1_3_3))
    ∗ cellInv ER (Rd val jk jr) (K ((c : Thread nD τ), SemLoc.dma (rcvS 2 0 1 inb_S3x4x4_S1x1x1_2_0_1))) ((c : Thread nD τ), SemLoc.dma (rcvS 2 0 1 inb_S3x4x4_S1x1x1_2_0_1))
    ∗ cellInv ER (Rd val jk jr) (K ((c : Thread nD τ), SemLoc.dma (rcvS 2 0 2 inb_S3x4x4_S1x1x1_2_0_2))) ((c : Thread nD τ), SemLoc.dma (rcvS 2 0 2 inb_S3x4x4_S1x1x1_2_0_2))
    ∗ cellInv ER (Rd val jk jr) (K ((c : Thread nD τ), SemLoc.dma (rcvS 2 0 3 inb_S3x4x4_S1x1x1_2_0_3))) ((c : Thread nD τ), SemLoc.dma (rcvS 2 0 3 inb_S3x4x4_S1x1x1_2_0_3))
    ∗ cellInv ER (Rd val jk jr) (K (barCell (pe c 1))) (barCell (pe c 1))
    ∗ cellInv ER (Rd val jk jr) (K (barCell (pe c 2))) (barCell (pe c 2))
    ∗ cellInv ER (Rd val jk jr) (K (barCell (pe c 3))) (barCell (pe c 3))
    ∗ cellInv ER (Rd val jk jr) (K (((pe c 1) : Thread nD τ), SemLoc.dma (rcvS 0 0 1 inb_S3x4x4_S1x1x1_0_0_1))) (((pe c 1) : Thread nD τ), SemLoc.dma (rcvS 0 0 1 inb_S3x4x4_S1x1x1_0_0_1))
    ∗ cellInv ER (Rd val jk jr) (K (((pe c 2) : Thread nD τ), SemLoc.dma (rcvS 0 0 2 inb_S3x4x4_S1x1x1_0_0_2))) (((pe c 2) : Thread nD τ), SemLoc.dma (rcvS 0 0 2 inb_S3x4x4_S1x1x1_0_0_2))
    ∗ cellInv ER (Rd val jk jr) (K (((pe c 3) : Thread nD τ), SemLoc.dma (rcvS 0 0 3 inb_S3x4x4_S1x1x1_0_0_3))) (((pe c 3) : Thread nD τ), SemLoc.dma (rcvS 0 0 3 inb_S3x4x4_S1x1x1_0_0_3))
    ∗ cellInv ER (Rd val jk jr) (K (((pe c 1) : Thread nD τ), SemLoc.dma (rcvS 0 1 1 inb_S3x4x4_S1x1x1_0_1_1))) (((pe c 1) : Thread nD τ), SemLoc.dma (rcvS 0 1 1 inb_S3x4x4_S1x1x1_0_1_1))
    ∗ cellInv ER (Rd val jk jr) (K (((pe c 2) : Thread nD τ), SemLoc.dma (rcvS 0 1 2 inb_S3x4x4_S1x1x1_0_1_2))) (((pe c 2) : Thread nD τ), SemLoc.dma (rcvS 0 1 2 inb_S3x4x4_S1x1x1_0_1_2))
    ∗ cellInv ER (Rd val jk jr) (K (((pe c 3) : Thread nD τ), SemLoc.dma (rcvS 0 1 3 inb_S3x4x4_S1x1x1_0_1_3))) (((pe c 3) : Thread nD τ), SemLoc.dma (rcvS 0 1 3 inb_S3x4x4_S1x1x1_0_1_3))
    ∗ cellInv ER (Rd val jk jr) (K (((pe c 1) : Thread nD τ), SemLoc.dma (rcvS 0 2 1 inb_S3x4x4_S1x1x1_0_2_1))) (((pe c 1) : Thread nD τ), SemLoc.dma (rcvS 0 2 1 inb_S3x4x4_S1x1x1_0_2_1))
    ∗ cellInv ER (Rd val jk jr) (K (((pe c 2) : Thread nD τ), SemLoc.dma (rcvS 0 2 2 inb_S3x4x4_S1x1x1_0_2_2))) (((pe c 2) : Thread nD τ), SemLoc.dma (rcvS 0 2 2 inb_S3x4x4_S1x1x1_0_2_2))
    ∗ cellInv ER (Rd val jk jr) (K (((pe c 3) : Thread nD τ), SemLoc.dma (rcvS 0 2 3 inb_S3x4x4_S1x1x1_0_2_3))) (((pe c 3) : Thread nD τ), SemLoc.dma (rcvS 0 2 3 inb_S3x4x4_S1x1x1_0_2_3))
    ∗ cellInv ER (Rd val jk jr) (K (((pe c 1) : Thread nD τ), SemLoc.dma (rcvS 0 3 1 inb_S3x4x4_S1x1x1_0_3_1))) (((pe c 1) : Thread nD τ), SemLoc.dma (rcvS 0 3 1 inb_S3x4x4_S1x1x1_0_3_1))
    ∗ cellInv ER (Rd val jk jr) (K (((pe c 2) : Thread nD τ), SemLoc.dma (rcvS 0 3 2 inb_S3x4x4_S1x1x1_0_3_2))) (((pe c 2) : Thread nD τ), SemLoc.dma (rcvS 0 3 2 inb_S3x4x4_S1x1x1_0_3_2))
    ∗ cellInv ER (Rd val jk jr) (K (((pe c 3) : Thread nD τ), SemLoc.dma (rcvS 0 3 3 inb_S3x4x4_S1x1x1_0_3_3))) (((pe c 3) : Thread nD τ), SemLoc.dma (rcvS 0 3 3 inb_S3x4x4_S1x1x1_0_3_3))
    ∗ cellInv ER (Rd val jk jr) (K (((pe c 1) : Thread nD τ), SemLoc.dma (rcvS 1 0 1 inb_S3x4x4_S1x1x1_1_0_1))) (((pe c 1) : Thread nD τ), SemLoc.dma (rcvS 1 0 1 inb_S3x4x4_S1x1x1_1_0_1))
    ∗ cellInv ER (Rd val jk jr) (K (((pe c 2) : Thread nD τ), SemLoc.dma (rcvS 1 0 2 inb_S3x4x4_S1x1x1_1_0_2))) (((pe c 2) : Thread nD τ), SemLoc.dma (rcvS 1 0 2 inb_S3x4x4_S1x1x1_1_0_2))
    ∗ cellInv ER (Rd val jk jr) (K (((pe c 3) : Thread nD τ), SemLoc.dma (rcvS 1 0 3 inb_S3x4x4_S1x1x1_1_0_3))) (((pe c 3) : Thread nD τ), SemLoc.dma (rcvS 1 0 3 inb_S3x4x4_S1x1x1_1_0_3))
    ∗ cellInv ER (Rd val jk jr) (K (((pe c 1) : Thread nD τ), SemLoc.dma (rcvS 1 1 1 inb_S3x4x4_S1x1x1_1_1_1))) (((pe c 1) : Thread nD τ), SemLoc.dma (rcvS 1 1 1 inb_S3x4x4_S1x1x1_1_1_1))
    ∗ cellInv ER (Rd val jk jr) (K (((pe c 2) : Thread nD τ), SemLoc.dma (rcvS 1 1 2 inb_S3x4x4_S1x1x1_1_1_2))) (((pe c 2) : Thread nD τ), SemLoc.dma (rcvS 1 1 2 inb_S3x4x4_S1x1x1_1_1_2))
    ∗ cellInv ER (Rd val jk jr) (K (((pe c 3) : Thread nD τ), SemLoc.dma (rcvS 1 1 3 inb_S3x4x4_S1x1x1_1_1_3))) (((pe c 3) : Thread nD τ), SemLoc.dma (rcvS 1 1 3 inb_S3x4x4_S1x1x1_1_1_3))
    ∗ cellInv ER (Rd val jk jr) (K (((pe c 1) : Thread nD τ), SemLoc.dma (rcvS 1 2 1 inb_S3x4x4_S1x1x1_1_2_1))) (((pe c 1) : Thread nD τ), SemLoc.dma (rcvS 1 2 1 inb_S3x4x4_S1x1x1_1_2_1))
    ∗ cellInv ER (Rd val jk jr) (K (((pe c 2) : Thread nD τ), SemLoc.dma (rcvS 1 2 2 inb_S3x4x4_S1x1x1_1_2_2))) (((pe c 2) : Thread nD τ), SemLoc.dma (rcvS 1 2 2 inb_S3x4x4_S1x1x1_1_2_2))
    ∗ cellInv ER (Rd val jk jr) (K (((pe c 3) : Thread nD τ), SemLoc.dma (rcvS 1 2 3 inb_S3x4x4_S1x1x1_1_2_3))) (((pe c 3) : Thread nD τ), SemLoc.dma (rcvS 1 2 3 inb_S3x4x4_S1x1x1_1_2_3))
    ∗ cellInv ER (Rd val jk jr) (K (((pe c 1) : Thread nD τ), SemLoc.dma (rcvS 1 3 1 inb_S3x4x4_S1x1x1_1_3_1))) (((pe c 1) : Thread nD τ), SemLoc.dma (rcvS 1 3 1 inb_S3x4x4_S1x1x1_1_3_1))
    ∗ cellInv ER (Rd val jk jr) (K (((pe c 2) : Thread nD τ), SemLoc.dma (rcvS 1 3 2 inb_S3x4x4_S1x1x1_1_3_2))) (((pe c 2) : Thread nD τ), SemLoc.dma (rcvS 1 3 2 inb_S3x4x4_S1x1x1_1_3_2))
    ∗ cellInv ER (Rd val jk jr) (K (((pe c 3) : Thread nD τ), SemLoc.dma (rcvS 1 3 3 inb_S3x4x4_S1x1x1_1_3_3))) (((pe c 3) : Thread nD τ), SemLoc.dma (rcvS 1 3 3 inb_S3x4x4_S1x1x1_1_3_3))
    ∗ cellInv ER (Rd val jk jr) (K (((pe c 1) : Thread nD τ), SemLoc.dma (rcvS 2 0 1 inb_S3x4x4_S1x1x1_2_0_1))) (((pe c 1) : Thread nD τ), SemLoc.dma (rcvS 2 0 1 inb_S3x4x4_S1x1x1_2_0_1))
    ∗ cellInv ER (Rd val jk jr) (K (((pe c 2) : Thread nD τ), SemLoc.dma (rcvS 2 0 2 inb_S3x4x4_S1x1x1_2_0_2))) (((pe c 2) : Thread nD τ), SemLoc.dma (rcvS 2 0 2 inb_S3x4x4_S1x1x1_2_0_2))
    ∗ cellInv ER (Rd val jk jr) (K (((pe c 3) : Thread nD τ), SemLoc.dma (rcvS 2 0 3 inb_S3x4x4_S1x1x1_2_0_3))) (((pe c 3) : Thread nD τ), SemLoc.dma (rcvS 2 0 3 inb_S3x4x4_S1x1x1_2_0_3)))

set_option synthInstance.maxSize 100000 in
set_option synthInstance.maxHeartbeats 2000000 in
set_option maxHeartbeats 2000000 in
instance invs_persistent (K : GSem nD τ sig → ℕ) (c : Dev nD) : BI.Persistent (invs val jk jr K c) := by unfold invs; infer_instance

/-- The invariants of the cells the device opens; its positions at round 0 of its own cells; round 0 reached on the cells it
    pays; the tokens of the duties it pays. -/
def ghost (K : GSem nD τ sig → ℕ) (c : Dev nD) : sProp 𝕄 :=
  iprop(invs val jk jr K c
    ∗ atPos ER (barCell c) 0 ∅ 0
    ∗ atPos ER ((c : Thread nD τ), SemLoc.dma (sndS 0 0 1 inb_S3x4x4_S1x1x1_0_0_1)) 0 ∅ 0
    ∗ atPos ER ((c : Thread nD τ), SemLoc.dma (sndS 0 0 2 inb_S3x4x4_S1x1x1_0_0_2)) 0 ∅ 0
    ∗ atPos ER ((c : Thread nD τ), SemLoc.dma (sndS 0 0 3 inb_S3x4x4_S1x1x1_0_0_3)) 0 ∅ 0
    ∗ atPos ER ((c : Thread nD τ), SemLoc.dma (sndS 0 1 1 inb_S3x4x4_S1x1x1_0_1_1)) 0 ∅ 0
    ∗ atPos ER ((c : Thread nD τ), SemLoc.dma (sndS 0 1 2 inb_S3x4x4_S1x1x1_0_1_2)) 0 ∅ 0
    ∗ atPos ER ((c : Thread nD τ), SemLoc.dma (sndS 0 1 3 inb_S3x4x4_S1x1x1_0_1_3)) 0 ∅ 0
    ∗ atPos ER ((c : Thread nD τ), SemLoc.dma (sndS 0 2 1 inb_S3x4x4_S1x1x1_0_2_1)) 0 ∅ 0
    ∗ atPos ER ((c : Thread nD τ), SemLoc.dma (sndS 0 2 2 inb_S3x4x4_S1x1x1_0_2_2)) 0 ∅ 0
    ∗ atPos ER ((c : Thread nD τ), SemLoc.dma (sndS 0 2 3 inb_S3x4x4_S1x1x1_0_2_3)) 0 ∅ 0
    ∗ atPos ER ((c : Thread nD τ), SemLoc.dma (sndS 0 3 1 inb_S3x4x4_S1x1x1_0_3_1)) 0 ∅ 0
    ∗ atPos ER ((c : Thread nD τ), SemLoc.dma (sndS 0 3 2 inb_S3x4x4_S1x1x1_0_3_2)) 0 ∅ 0
    ∗ atPos ER ((c : Thread nD τ), SemLoc.dma (sndS 0 3 3 inb_S3x4x4_S1x1x1_0_3_3)) 0 ∅ 0
    ∗ atPos ER ((c : Thread nD τ), SemLoc.dma (sndS 1 0 1 inb_S3x4x4_S1x1x1_1_0_1)) 0 ∅ 0
    ∗ atPos ER ((c : Thread nD τ), SemLoc.dma (sndS 1 0 2 inb_S3x4x4_S1x1x1_1_0_2)) 0 ∅ 0
    ∗ atPos ER ((c : Thread nD τ), SemLoc.dma (sndS 1 0 3 inb_S3x4x4_S1x1x1_1_0_3)) 0 ∅ 0
    ∗ atPos ER ((c : Thread nD τ), SemLoc.dma (sndS 1 1 1 inb_S3x4x4_S1x1x1_1_1_1)) 0 ∅ 0
    ∗ atPos ER ((c : Thread nD τ), SemLoc.dma (sndS 1 1 2 inb_S3x4x4_S1x1x1_1_1_2)) 0 ∅ 0
    ∗ atPos ER ((c : Thread nD τ), SemLoc.dma (sndS 1 1 3 inb_S3x4x4_S1x1x1_1_1_3)) 0 ∅ 0
    ∗ atPos ER ((c : Thread nD τ), SemLoc.dma (sndS 1 2 1 inb_S3x4x4_S1x1x1_1_2_1)) 0 ∅ 0
    ∗ atPos ER ((c : Thread nD τ), SemLoc.dma (sndS 1 2 2 inb_S3x4x4_S1x1x1_1_2_2)) 0 ∅ 0
    ∗ atPos ER ((c : Thread nD τ), SemLoc.dma (sndS 1 2 3 inb_S3x4x4_S1x1x1_1_2_3)) 0 ∅ 0
    ∗ atPos ER ((c : Thread nD τ), SemLoc.dma (sndS 1 3 1 inb_S3x4x4_S1x1x1_1_3_1)) 0 ∅ 0
    ∗ atPos ER ((c : Thread nD τ), SemLoc.dma (sndS 1 3 2 inb_S3x4x4_S1x1x1_1_3_2)) 0 ∅ 0
    ∗ atPos ER ((c : Thread nD τ), SemLoc.dma (sndS 1 3 3 inb_S3x4x4_S1x1x1_1_3_3)) 0 ∅ 0
    ∗ atPos ER ((c : Thread nD τ), SemLoc.dma (sndS 2 0 1 inb_S3x4x4_S1x1x1_2_0_1)) 0 ∅ 0
    ∗ atPos ER ((c : Thread nD τ), SemLoc.dma (sndS 2 0 2 inb_S3x4x4_S1x1x1_2_0_2)) 0 ∅ 0
    ∗ atPos ER ((c : Thread nD τ), SemLoc.dma (sndS 2 0 3 inb_S3x4x4_S1x1x1_2_0_3)) 0 ∅ 0
    ∗ atPos ER ((c : Thread nD τ), SemLoc.dma (rcvS 0 0 1 inb_S3x4x4_S1x1x1_0_0_1)) 0 ∅ 0
    ∗ atPos ER ((c : Thread nD τ), SemLoc.dma (rcvS 0 0 2 inb_S3x4x4_S1x1x1_0_0_2)) 0 ∅ 0
    ∗ atPos ER ((c : Thread nD τ), SemLoc.dma (rcvS 0 0 3 inb_S3x4x4_S1x1x1_0_0_3)) 0 ∅ 0
    ∗ atPos ER ((c : Thread nD τ), SemLoc.dma (rcvS 0 1 1 inb_S3x4x4_S1x1x1_0_1_1)) 0 ∅ 0
    ∗ atPos ER ((c : Thread nD τ), SemLoc.dma (rcvS 0 1 2 inb_S3x4x4_S1x1x1_0_1_2)) 0 ∅ 0
    ∗ atPos ER ((c : Thread nD τ), SemLoc.dma (rcvS 0 1 3 inb_S3x4x4_S1x1x1_0_1_3)) 0 ∅ 0
    ∗ atPos ER ((c : Thread nD τ), SemLoc.dma (rcvS 0 2 1 inb_S3x4x4_S1x1x1_0_2_1)) 0 ∅ 0
    ∗ atPos ER ((c : Thread nD τ), SemLoc.dma (rcvS 0 2 2 inb_S3x4x4_S1x1x1_0_2_2)) 0 ∅ 0
    ∗ atPos ER ((c : Thread nD τ), SemLoc.dma (rcvS 0 2 3 inb_S3x4x4_S1x1x1_0_2_3)) 0 ∅ 0
    ∗ atPos ER ((c : Thread nD τ), SemLoc.dma (rcvS 0 3 1 inb_S3x4x4_S1x1x1_0_3_1)) 0 ∅ 0
    ∗ atPos ER ((c : Thread nD τ), SemLoc.dma (rcvS 0 3 2 inb_S3x4x4_S1x1x1_0_3_2)) 0 ∅ 0
    ∗ atPos ER ((c : Thread nD τ), SemLoc.dma (rcvS 0 3 3 inb_S3x4x4_S1x1x1_0_3_3)) 0 ∅ 0
    ∗ atPos ER ((c : Thread nD τ), SemLoc.dma (rcvS 1 0 1 inb_S3x4x4_S1x1x1_1_0_1)) 0 ∅ 0
    ∗ atPos ER ((c : Thread nD τ), SemLoc.dma (rcvS 1 0 2 inb_S3x4x4_S1x1x1_1_0_2)) 0 ∅ 0
    ∗ atPos ER ((c : Thread nD τ), SemLoc.dma (rcvS 1 0 3 inb_S3x4x4_S1x1x1_1_0_3)) 0 ∅ 0
    ∗ atPos ER ((c : Thread nD τ), SemLoc.dma (rcvS 1 1 1 inb_S3x4x4_S1x1x1_1_1_1)) 0 ∅ 0
    ∗ atPos ER ((c : Thread nD τ), SemLoc.dma (rcvS 1 1 2 inb_S3x4x4_S1x1x1_1_1_2)) 0 ∅ 0
    ∗ atPos ER ((c : Thread nD τ), SemLoc.dma (rcvS 1 1 3 inb_S3x4x4_S1x1x1_1_1_3)) 0 ∅ 0
    ∗ atPos ER ((c : Thread nD τ), SemLoc.dma (rcvS 1 2 1 inb_S3x4x4_S1x1x1_1_2_1)) 0 ∅ 0
    ∗ atPos ER ((c : Thread nD τ), SemLoc.dma (rcvS 1 2 2 inb_S3x4x4_S1x1x1_1_2_2)) 0 ∅ 0
    ∗ atPos ER ((c : Thread nD τ), SemLoc.dma (rcvS 1 2 3 inb_S3x4x4_S1x1x1_1_2_3)) 0 ∅ 0
    ∗ atPos ER ((c : Thread nD τ), SemLoc.dma (rcvS 1 3 1 inb_S3x4x4_S1x1x1_1_3_1)) 0 ∅ 0
    ∗ atPos ER ((c : Thread nD τ), SemLoc.dma (rcvS 1 3 2 inb_S3x4x4_S1x1x1_1_3_2)) 0 ∅ 0
    ∗ atPos ER ((c : Thread nD τ), SemLoc.dma (rcvS 1 3 3 inb_S3x4x4_S1x1x1_1_3_3)) 0 ∅ 0
    ∗ atPos ER ((c : Thread nD τ), SemLoc.dma (rcvS 2 0 1 inb_S3x4x4_S1x1x1_2_0_1)) 0 ∅ 0
    ∗ atPos ER ((c : Thread nD τ), SemLoc.dma (rcvS 2 0 2 inb_S3x4x4_S1x1x1_2_0_2)) 0 ∅ 0
    ∗ atPos ER ((c : Thread nD τ), SemLoc.dma (rcvS 2 0 3 inb_S3x4x4_S1x1x1_2_0_3)) 0 ∅ 0
    ∗ reached ER (barCell (pe c 1)) 0
    ∗ reached ER (barCell (pe c 2)) 0
    ∗ reached ER (barCell (pe c 3)) 0
    ∗ reached ER ((c : Thread nD τ), SemLoc.dma (sndS 0 0 1 inb_S3x4x4_S1x1x1_0_0_1)) 0
    ∗ reached ER ((c : Thread nD τ), SemLoc.dma (sndS 0 0 2 inb_S3x4x4_S1x1x1_0_0_2)) 0
    ∗ reached ER ((c : Thread nD τ), SemLoc.dma (sndS 0 0 3 inb_S3x4x4_S1x1x1_0_0_3)) 0
    ∗ reached ER ((c : Thread nD τ), SemLoc.dma (sndS 0 1 1 inb_S3x4x4_S1x1x1_0_1_1)) 0
    ∗ reached ER ((c : Thread nD τ), SemLoc.dma (sndS 0 1 2 inb_S3x4x4_S1x1x1_0_1_2)) 0
    ∗ reached ER ((c : Thread nD τ), SemLoc.dma (sndS 0 1 3 inb_S3x4x4_S1x1x1_0_1_3)) 0
    ∗ reached ER ((c : Thread nD τ), SemLoc.dma (sndS 0 2 1 inb_S3x4x4_S1x1x1_0_2_1)) 0
    ∗ reached ER ((c : Thread nD τ), SemLoc.dma (sndS 0 2 2 inb_S3x4x4_S1x1x1_0_2_2)) 0
    ∗ reached ER ((c : Thread nD τ), SemLoc.dma (sndS 0 2 3 inb_S3x4x4_S1x1x1_0_2_3)) 0
    ∗ reached ER ((c : Thread nD τ), SemLoc.dma (sndS 0 3 1 inb_S3x4x4_S1x1x1_0_3_1)) 0
    ∗ reached ER ((c : Thread nD τ), SemLoc.dma (sndS 0 3 2 inb_S3x4x4_S1x1x1_0_3_2)) 0
    ∗ reached ER ((c : Thread nD τ), SemLoc.dma (sndS 0 3 3 inb_S3x4x4_S1x1x1_0_3_3)) 0
    ∗ reached ER ((c : Thread nD τ), SemLoc.dma (sndS 1 0 1 inb_S3x4x4_S1x1x1_1_0_1)) 0
    ∗ reached ER ((c : Thread nD τ), SemLoc.dma (sndS 1 0 2 inb_S3x4x4_S1x1x1_1_0_2)) 0
    ∗ reached ER ((c : Thread nD τ), SemLoc.dma (sndS 1 0 3 inb_S3x4x4_S1x1x1_1_0_3)) 0
    ∗ reached ER ((c : Thread nD τ), SemLoc.dma (sndS 1 1 1 inb_S3x4x4_S1x1x1_1_1_1)) 0
    ∗ reached ER ((c : Thread nD τ), SemLoc.dma (sndS 1 1 2 inb_S3x4x4_S1x1x1_1_1_2)) 0
    ∗ reached ER ((c : Thread nD τ), SemLoc.dma (sndS 1 1 3 inb_S3x4x4_S1x1x1_1_1_3)) 0
    ∗ reached ER ((c : Thread nD τ), SemLoc.dma (sndS 1 2 1 inb_S3x4x4_S1x1x1_1_2_1)) 0
    ∗ reached ER ((c : Thread nD τ), SemLoc.dma (sndS 1 2 2 inb_S3x4x4_S1x1x1_1_2_2)) 0
    ∗ reached ER ((c : Thread nD τ), SemLoc.dma (sndS 1 2 3 inb_S3x4x4_S1x1x1_1_2_3)) 0
    ∗ reached ER ((c : Thread nD τ), SemLoc.dma (sndS 1 3 1 inb_S3x4x4_S1x1x1_1_3_1)) 0
    ∗ reached ER ((c : Thread nD τ), SemLoc.dma (sndS 1 3 2 inb_S3x4x4_S1x1x1_1_3_2)) 0
    ∗ reached ER ((c : Thread nD τ), SemLoc.dma (sndS 1 3 3 inb_S3x4x4_S1x1x1_1_3_3)) 0
    ∗ reached ER ((c : Thread nD τ), SemLoc.dma (sndS 2 0 1 inb_S3x4x4_S1x1x1_2_0_1)) 0
    ∗ reached ER ((c : Thread nD τ), SemLoc.dma (sndS 2 0 2 inb_S3x4x4_S1x1x1_2_0_2)) 0
    ∗ reached ER ((c : Thread nD τ), SemLoc.dma (sndS 2 0 3 inb_S3x4x4_S1x1x1_2_0_3)) 0
    ∗ reached ER (((pe c 1) : Thread nD τ), SemLoc.dma (rcvS 0 0 1 inb_S3x4x4_S1x1x1_0_0_1)) 0
    ∗ reached ER (((pe c 2) : Thread nD τ), SemLoc.dma (rcvS 0 0 2 inb_S3x4x4_S1x1x1_0_0_2)) 0
    ∗ reached ER (((pe c 3) : Thread nD τ), SemLoc.dma (rcvS 0 0 3 inb_S3x4x4_S1x1x1_0_0_3)) 0
    ∗ reached ER (((pe c 1) : Thread nD τ), SemLoc.dma (rcvS 0 1 1 inb_S3x4x4_S1x1x1_0_1_1)) 0
    ∗ reached ER (((pe c 2) : Thread nD τ), SemLoc.dma (rcvS 0 1 2 inb_S3x4x4_S1x1x1_0_1_2)) 0
    ∗ reached ER (((pe c 3) : Thread nD τ), SemLoc.dma (rcvS 0 1 3 inb_S3x4x4_S1x1x1_0_1_3)) 0
    ∗ reached ER (((pe c 1) : Thread nD τ), SemLoc.dma (rcvS 0 2 1 inb_S3x4x4_S1x1x1_0_2_1)) 0
    ∗ reached ER (((pe c 2) : Thread nD τ), SemLoc.dma (rcvS 0 2 2 inb_S3x4x4_S1x1x1_0_2_2)) 0
    ∗ reached ER (((pe c 3) : Thread nD τ), SemLoc.dma (rcvS 0 2 3 inb_S3x4x4_S1x1x1_0_2_3)) 0
    ∗ reached ER (((pe c 1) : Thread nD τ), SemLoc.dma (rcvS 0 3 1 inb_S3x4x4_S1x1x1_0_3_1)) 0
    ∗ reached ER (((pe c 2) : Thread nD τ), SemLoc.dma (rcvS 0 3 2 inb_S3x4x4_S1x1x1_0_3_2)) 0
    ∗ reached ER (((pe c 3) : Thread nD τ), SemLoc.dma (rcvS 0 3 3 inb_S3x4x4_S1x1x1_0_3_3)) 0
    ∗ reached ER (((pe c 1) : Thread nD τ), SemLoc.dma (rcvS 1 0 1 inb_S3x4x4_S1x1x1_1_0_1)) 0
    ∗ reached ER (((pe c 2) : Thread nD τ), SemLoc.dma (rcvS 1 0 2 inb_S3x4x4_S1x1x1_1_0_2)) 0
    ∗ reached ER (((pe c 3) : Thread nD τ), SemLoc.dma (rcvS 1 0 3 inb_S3x4x4_S1x1x1_1_0_3)) 0
    ∗ reached ER (((pe c 1) : Thread nD τ), SemLoc.dma (rcvS 1 1 1 inb_S3x4x4_S1x1x1_1_1_1)) 0
    ∗ reached ER (((pe c 2) : Thread nD τ), SemLoc.dma (rcvS 1 1 2 inb_S3x4x4_S1x1x1_1_1_2)) 0
    ∗ reached ER (((pe c 3) : Thread nD τ), SemLoc.dma (rcvS 1 1 3 inb_S3x4x4_S1x1x1_1_1_3)) 0
    ∗ reached ER (((pe c 1) : Thread nD τ), SemLoc.dma (rcvS 1 2 1 inb_S3x4x4_S1x1x1_1_2_1)) 0
    ∗ reached ER (((pe c 2) : Thread nD τ), SemLoc.dma (rcvS 1 2 2 inb_S3x4x4_S1x1x1_1_2_2)) 0
    ∗ reached ER (((pe c 3) : Thread nD τ), SemLoc.dma (rcvS 1 2 3 inb_S3x4x4_S1x1x1_1_2_3)) 0
    ∗ reached ER (((pe c 1) : Thread nD τ), SemLoc.dma (rcvS 1 3 1 inb_S3x4x4_S1x1x1_1_3_1)) 0
    ∗ reached ER (((pe c 2) : Thread nD τ), SemLoc.dma (rcvS 1 3 2 inb_S3x4x4_S1x1x1_1_3_2)) 0
    ∗ reached ER (((pe c 3) : Thread nD τ), SemLoc.dma (rcvS 1 3 3 inb_S3x4x4_S1x1x1_1_3_3)) 0
    ∗ reached ER (((pe c 1) : Thread nD τ), SemLoc.dma (rcvS 2 0 1 inb_S3x4x4_S1x1x1_2_0_1)) 0
    ∗ reached ER (((pe c 2) : Thread nD τ), SemLoc.dma (rcvS 2 0 2 inb_S3x4x4_S1x1x1_2_0_2)) 0
    ∗ reached ER (((pe c 3) : Thread nD τ), SemLoc.dma (rcvS 2 0 3 inb_S3x4x4_S1x1x1_2_0_3)) 0
    ∗ dutyTok ER (barCell (pe c 1)) 0 (1 : Fin 4)
    ∗ dutyTok ER (barCell (pe c 2)) 0 (2 : Fin 4)
    ∗ dutyTok ER (barCell (pe c 3)) 0 (3 : Fin 4)
    ∗ dutyTok ER ((c : Thread nD τ), SemLoc.dma (sndS 0 0 1 inb_S3x4x4_S1x1x1_0_0_1)) 0 (0 : Fin 4)
    ∗ dutyTok ER ((c : Thread nD τ), SemLoc.dma (sndS 0 0 2 inb_S3x4x4_S1x1x1_0_0_2)) 0 (0 : Fin 4)
    ∗ dutyTok ER ((c : Thread nD τ), SemLoc.dma (sndS 0 0 3 inb_S3x4x4_S1x1x1_0_0_3)) 0 (0 : Fin 4)
    ∗ dutyTok ER ((c : Thread nD τ), SemLoc.dma (sndS 0 1 1 inb_S3x4x4_S1x1x1_0_1_1)) 0 (0 : Fin 4)
    ∗ dutyTok ER ((c : Thread nD τ), SemLoc.dma (sndS 0 1 2 inb_S3x4x4_S1x1x1_0_1_2)) 0 (0 : Fin 4)
    ∗ dutyTok ER ((c : Thread nD τ), SemLoc.dma (sndS 0 1 3 inb_S3x4x4_S1x1x1_0_1_3)) 0 (0 : Fin 4)
    ∗ dutyTok ER ((c : Thread nD τ), SemLoc.dma (sndS 0 2 1 inb_S3x4x4_S1x1x1_0_2_1)) 0 (0 : Fin 4)
    ∗ dutyTok ER ((c : Thread nD τ), SemLoc.dma (sndS 0 2 2 inb_S3x4x4_S1x1x1_0_2_2)) 0 (0 : Fin 4)
    ∗ dutyTok ER ((c : Thread nD τ), SemLoc.dma (sndS 0 2 3 inb_S3x4x4_S1x1x1_0_2_3)) 0 (0 : Fin 4)
    ∗ dutyTok ER ((c : Thread nD τ), SemLoc.dma (sndS 0 3 1 inb_S3x4x4_S1x1x1_0_3_1)) 0 (0 : Fin 4)
    ∗ dutyTok ER ((c : Thread nD τ), SemLoc.dma (sndS 0 3 2 inb_S3x4x4_S1x1x1_0_3_2)) 0 (0 : Fin 4)
    ∗ dutyTok ER ((c : Thread nD τ), SemLoc.dma (sndS 0 3 3 inb_S3x4x4_S1x1x1_0_3_3)) 0 (0 : Fin 4)
    ∗ dutyTok ER ((c : Thread nD τ), SemLoc.dma (sndS 1 0 1 inb_S3x4x4_S1x1x1_1_0_1)) 0 (0 : Fin 4)
    ∗ dutyTok ER ((c : Thread nD τ), SemLoc.dma (sndS 1 0 2 inb_S3x4x4_S1x1x1_1_0_2)) 0 (0 : Fin 4)
    ∗ dutyTok ER ((c : Thread nD τ), SemLoc.dma (sndS 1 0 3 inb_S3x4x4_S1x1x1_1_0_3)) 0 (0 : Fin 4)
    ∗ dutyTok ER ((c : Thread nD τ), SemLoc.dma (sndS 1 1 1 inb_S3x4x4_S1x1x1_1_1_1)) 0 (0 : Fin 4)
    ∗ dutyTok ER ((c : Thread nD τ), SemLoc.dma (sndS 1 1 2 inb_S3x4x4_S1x1x1_1_1_2)) 0 (0 : Fin 4)
    ∗ dutyTok ER ((c : Thread nD τ), SemLoc.dma (sndS 1 1 3 inb_S3x4x4_S1x1x1_1_1_3)) 0 (0 : Fin 4)
    ∗ dutyTok ER ((c : Thread nD τ), SemLoc.dma (sndS 1 2 1 inb_S3x4x4_S1x1x1_1_2_1)) 0 (0 : Fin 4)
    ∗ dutyTok ER ((c : Thread nD τ), SemLoc.dma (sndS 1 2 2 inb_S3x4x4_S1x1x1_1_2_2)) 0 (0 : Fin 4)
    ∗ dutyTok ER ((c : Thread nD τ), SemLoc.dma (sndS 1 2 3 inb_S3x4x4_S1x1x1_1_2_3)) 0 (0 : Fin 4)
    ∗ dutyTok ER ((c : Thread nD τ), SemLoc.dma (sndS 1 3 1 inb_S3x4x4_S1x1x1_1_3_1)) 0 (0 : Fin 4)
    ∗ dutyTok ER ((c : Thread nD τ), SemLoc.dma (sndS 1 3 2 inb_S3x4x4_S1x1x1_1_3_2)) 0 (0 : Fin 4)
    ∗ dutyTok ER ((c : Thread nD τ), SemLoc.dma (sndS 1 3 3 inb_S3x4x4_S1x1x1_1_3_3)) 0 (0 : Fin 4)
    ∗ dutyTok ER ((c : Thread nD τ), SemLoc.dma (sndS 2 0 1 inb_S3x4x4_S1x1x1_2_0_1)) 0 (0 : Fin 4)
    ∗ dutyTok ER ((c : Thread nD τ), SemLoc.dma (sndS 2 0 2 inb_S3x4x4_S1x1x1_2_0_2)) 0 (0 : Fin 4)
    ∗ dutyTok ER ((c : Thread nD τ), SemLoc.dma (sndS 2 0 3 inb_S3x4x4_S1x1x1_2_0_3)) 0 (0 : Fin 4)
    ∗ dutyTok ER (((pe c 1) : Thread nD τ), SemLoc.dma (rcvS 0 0 1 inb_S3x4x4_S1x1x1_0_0_1)) 0 (0 : Fin 4)
    ∗ dutyTok ER (((pe c 2) : Thread nD τ), SemLoc.dma (rcvS 0 0 2 inb_S3x4x4_S1x1x1_0_0_2)) 0 (0 : Fin 4)
    ∗ dutyTok ER (((pe c 3) : Thread nD τ), SemLoc.dma (rcvS 0 0 3 inb_S3x4x4_S1x1x1_0_0_3)) 0 (0 : Fin 4)
    ∗ dutyTok ER (((pe c 1) : Thread nD τ), SemLoc.dma (rcvS 0 1 1 inb_S3x4x4_S1x1x1_0_1_1)) 0 (0 : Fin 4)
    ∗ dutyTok ER (((pe c 2) : Thread nD τ), SemLoc.dma (rcvS 0 1 2 inb_S3x4x4_S1x1x1_0_1_2)) 0 (0 : Fin 4)
    ∗ dutyTok ER (((pe c 3) : Thread nD τ), SemLoc.dma (rcvS 0 1 3 inb_S3x4x4_S1x1x1_0_1_3)) 0 (0 : Fin 4)
    ∗ dutyTok ER (((pe c 1) : Thread nD τ), SemLoc.dma (rcvS 0 2 1 inb_S3x4x4_S1x1x1_0_2_1)) 0 (0 : Fin 4)
    ∗ dutyTok ER (((pe c 2) : Thread nD τ), SemLoc.dma (rcvS 0 2 2 inb_S3x4x4_S1x1x1_0_2_2)) 0 (0 : Fin 4)
    ∗ dutyTok ER (((pe c 3) : Thread nD τ), SemLoc.dma (rcvS 0 2 3 inb_S3x4x4_S1x1x1_0_2_3)) 0 (0 : Fin 4)
    ∗ dutyTok ER (((pe c 1) : Thread nD τ), SemLoc.dma (rcvS 0 3 1 inb_S3x4x4_S1x1x1_0_3_1)) 0 (0 : Fin 4)
    ∗ dutyTok ER (((pe c 2) : Thread nD τ), SemLoc.dma (rcvS 0 3 2 inb_S3x4x4_S1x1x1_0_3_2)) 0 (0 : Fin 4)
    ∗ dutyTok ER (((pe c 3) : Thread nD τ), SemLoc.dma (rcvS 0 3 3 inb_S3x4x4_S1x1x1_0_3_3)) 0 (0 : Fin 4)
    ∗ dutyTok ER (((pe c 1) : Thread nD τ), SemLoc.dma (rcvS 1 0 1 inb_S3x4x4_S1x1x1_1_0_1)) 0 (0 : Fin 4)
    ∗ dutyTok ER (((pe c 2) : Thread nD τ), SemLoc.dma (rcvS 1 0 2 inb_S3x4x4_S1x1x1_1_0_2)) 0 (0 : Fin 4)
    ∗ dutyTok ER (((pe c 3) : Thread nD τ), SemLoc.dma (rcvS 1 0 3 inb_S3x4x4_S1x1x1_1_0_3)) 0 (0 : Fin 4)
    ∗ dutyTok ER (((pe c 1) : Thread nD τ), SemLoc.dma (rcvS 1 1 1 inb_S3x4x4_S1x1x1_1_1_1)) 0 (0 : Fin 4)
    ∗ dutyTok ER (((pe c 2) : Thread nD τ), SemLoc.dma (rcvS 1 1 2 inb_S3x4x4_S1x1x1_1_1_2)) 0 (0 : Fin 4)
    ∗ dutyTok ER (((pe c 3) : Thread nD τ), SemLoc.dma (rcvS 1 1 3 inb_S3x4x4_S1x1x1_1_1_3)) 0 (0 : Fin 4)
    ∗ dutyTok ER (((pe c 1) : Thread nD τ), SemLoc.dma (rcvS 1 2 1 inb_S3x4x4_S1x1x1_1_2_1)) 0 (0 : Fin 4)
    ∗ dutyTok ER (((pe c 2) : Thread nD τ), SemLoc.dma (rcvS 1 2 2 inb_S3x4x4_S1x1x1_1_2_2)) 0 (0 : Fin 4)
    ∗ dutyTok ER (((pe c 3) : Thread nD τ), SemLoc.dma (rcvS 1 2 3 inb_S3x4x4_S1x1x1_1_2_3)) 0 (0 : Fin 4)
    ∗ dutyTok ER (((pe c 1) : Thread nD τ), SemLoc.dma (rcvS 1 3 1 inb_S3x4x4_S1x1x1_1_3_1)) 0 (0 : Fin 4)
    ∗ dutyTok ER (((pe c 2) : Thread nD τ), SemLoc.dma (rcvS 1 3 2 inb_S3x4x4_S1x1x1_1_3_2)) 0 (0 : Fin 4)
    ∗ dutyTok ER (((pe c 3) : Thread nD τ), SemLoc.dma (rcvS 1 3 3 inb_S3x4x4_S1x1x1_1_3_3)) 0 (0 : Fin 4)
    ∗ dutyTok ER (((pe c 1) : Thread nD τ), SemLoc.dma (rcvS 2 0 1 inb_S3x4x4_S1x1x1_2_0_1)) 0 (0 : Fin 4)
    ∗ dutyTok ER (((pe c 2) : Thread nD τ), SemLoc.dma (rcvS 2 0 2 inb_S3x4x4_S1x1x1_2_0_2)) 0 (0 : Fin 4)
    ∗ dutyTok ER (((pe c 3) : Thread nD τ), SemLoc.dma (rcvS 2 0 3 inb_S3x4x4_S1x1x1_2_0_3)) 0 (0 : Fin 4))

def start (c : Dev nD) : sProp 𝕄 :=
  iprop((∃ K, ghost val jk jr K c)
    ∗ cred (tallyAt (barCell c) () 3)
    ∗ cred (tallyAt ((c : Thread nD τ), SemLoc.dma (rcvS 0 0 1 inb_S3x4x4_S1x1x1_0_0_1)) () N)
    ∗ cred (tallyAt ((c : Thread nD τ), SemLoc.dma (rcvS 0 0 2 inb_S3x4x4_S1x1x1_0_0_2)) () N)
    ∗ cred (tallyAt ((c : Thread nD τ), SemLoc.dma (rcvS 0 0 3 inb_S3x4x4_S1x1x1_0_0_3)) () N)
    ∗ cred (tallyAt ((c : Thread nD τ), SemLoc.dma (rcvS 0 1 1 inb_S3x4x4_S1x1x1_0_1_1)) () N)
    ∗ cred (tallyAt ((c : Thread nD τ), SemLoc.dma (rcvS 0 1 2 inb_S3x4x4_S1x1x1_0_1_2)) () N)
    ∗ cred (tallyAt ((c : Thread nD τ), SemLoc.dma (rcvS 0 1 3 inb_S3x4x4_S1x1x1_0_1_3)) () N)
    ∗ cred (tallyAt ((c : Thread nD τ), SemLoc.dma (rcvS 0 2 1 inb_S3x4x4_S1x1x1_0_2_1)) () N)
    ∗ cred (tallyAt ((c : Thread nD τ), SemLoc.dma (rcvS 0 2 2 inb_S3x4x4_S1x1x1_0_2_2)) () N)
    ∗ cred (tallyAt ((c : Thread nD τ), SemLoc.dma (rcvS 0 2 3 inb_S3x4x4_S1x1x1_0_2_3)) () N)
    ∗ cred (tallyAt ((c : Thread nD τ), SemLoc.dma (rcvS 0 3 1 inb_S3x4x4_S1x1x1_0_3_1)) () N)
    ∗ cred (tallyAt ((c : Thread nD τ), SemLoc.dma (rcvS 0 3 2 inb_S3x4x4_S1x1x1_0_3_2)) () N)
    ∗ cred (tallyAt ((c : Thread nD τ), SemLoc.dma (rcvS 0 3 3 inb_S3x4x4_S1x1x1_0_3_3)) () N)
    ∗ cred (tallyAt ((c : Thread nD τ), SemLoc.dma (rcvS 1 0 1 inb_S3x4x4_S1x1x1_1_0_1)) () N)
    ∗ cred (tallyAt ((c : Thread nD τ), SemLoc.dma (rcvS 1 0 2 inb_S3x4x4_S1x1x1_1_0_2)) () N)
    ∗ cred (tallyAt ((c : Thread nD τ), SemLoc.dma (rcvS 1 0 3 inb_S3x4x4_S1x1x1_1_0_3)) () N)
    ∗ cred (tallyAt ((c : Thread nD τ), SemLoc.dma (rcvS 1 1 1 inb_S3x4x4_S1x1x1_1_1_1)) () N)
    ∗ cred (tallyAt ((c : Thread nD τ), SemLoc.dma (rcvS 1 1 2 inb_S3x4x4_S1x1x1_1_1_2)) () N)
    ∗ cred (tallyAt ((c : Thread nD τ), SemLoc.dma (rcvS 1 1 3 inb_S3x4x4_S1x1x1_1_1_3)) () N)
    ∗ cred (tallyAt ((c : Thread nD τ), SemLoc.dma (rcvS 1 2 1 inb_S3x4x4_S1x1x1_1_2_1)) () N)
    ∗ cred (tallyAt ((c : Thread nD τ), SemLoc.dma (rcvS 1 2 2 inb_S3x4x4_S1x1x1_1_2_2)) () N)
    ∗ cred (tallyAt ((c : Thread nD τ), SemLoc.dma (rcvS 1 2 3 inb_S3x4x4_S1x1x1_1_2_3)) () N)
    ∗ cred (tallyAt ((c : Thread nD τ), SemLoc.dma (rcvS 1 3 1 inb_S3x4x4_S1x1x1_1_3_1)) () N)
    ∗ cred (tallyAt ((c : Thread nD τ), SemLoc.dma (rcvS 1 3 2 inb_S3x4x4_S1x1x1_1_3_2)) () N)
    ∗ cred (tallyAt ((c : Thread nD τ), SemLoc.dma (rcvS 1 3 3 inb_S3x4x4_S1x1x1_1_3_3)) () N)
    ∗ cred (tallyAt ((c : Thread nD τ), SemLoc.dma (rcvS 2 0 1 inb_S3x4x4_S1x1x1_2_0_1)) () N)
    ∗ cred (tallyAt ((c : Thread nD τ), SemLoc.dma (rcvS 2 0 2 inb_S3x4x4_S1x1x1_2_0_2)) () N)
    ∗ cred (tallyAt ((c : Thread nD τ), SemLoc.dma (rcvS 2 0 3 inb_S3x4x4_S1x1x1_2_0_3)) () N)
    ∗ levAts L lv)

def Φ₀ (c : Dev nD) : sProp 𝕄 :=
  iprop(start val jk jr c ∗ (∃ f, ((c : Thread nD τ).loc cc0_scratch0) ↦{fullShare} f) ∗ (∃ f, ((c : Thread nD τ).loc cc0_scratch1) ↦{fullShare} f))

/-- After the body: both scratch buffers whole again, every own cell closed with its counter at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ semVal ((c : Thread nD τ), SemLoc.dma (sndS 0 0 1 inb_S3x4x4_S1x1x1_0_0_1)) 0
    ∗ semVal ((c : Thread nD τ), SemLoc.dma (sndS 0 0 2 inb_S3x4x4_S1x1x1_0_0_2)) 0
    ∗ semVal ((c : Thread nD τ), SemLoc.dma (sndS 0 0 3 inb_S3x4x4_S1x1x1_0_0_3)) 0
    ∗ semVal ((c : Thread nD τ), SemLoc.dma (sndS 0 1 1 inb_S3x4x4_S1x1x1_0_1_1)) 0
    ∗ semVal ((c : Thread nD τ), SemLoc.dma (sndS 0 1 2 inb_S3x4x4_S1x1x1_0_1_2)) 0
    ∗ semVal ((c : Thread nD τ), SemLoc.dma (sndS 0 1 3 inb_S3x4x4_S1x1x1_0_1_3)) 0
    ∗ semVal ((c : Thread nD τ), SemLoc.dma (sndS 0 2 1 inb_S3x4x4_S1x1x1_0_2_1)) 0
    ∗ semVal ((c : Thread nD τ), SemLoc.dma (sndS 0 2 2 inb_S3x4x4_S1x1x1_0_2_2)) 0
    ∗ semVal ((c : Thread nD τ), SemLoc.dma (sndS 0 2 3 inb_S3x4x4_S1x1x1_0_2_3)) 0
    ∗ semVal ((c : Thread nD τ), SemLoc.dma (sndS 0 3 1 inb_S3x4x4_S1x1x1_0_3_1)) 0
    ∗ semVal ((c : Thread nD τ), SemLoc.dma (sndS 0 3 2 inb_S3x4x4_S1x1x1_0_3_2)) 0
    ∗ semVal ((c : Thread nD τ), SemLoc.dma (sndS 0 3 3 inb_S3x4x4_S1x1x1_0_3_3)) 0
    ∗ semVal ((c : Thread nD τ), SemLoc.dma (sndS 1 0 1 inb_S3x4x4_S1x1x1_1_0_1)) 0
    ∗ semVal ((c : Thread nD τ), SemLoc.dma (sndS 1 0 2 inb_S3x4x4_S1x1x1_1_0_2)) 0
    ∗ semVal ((c : Thread nD τ), SemLoc.dma (sndS 1 0 3 inb_S3x4x4_S1x1x1_1_0_3)) 0
    ∗ semVal ((c : Thread nD τ), SemLoc.dma (sndS 1 1 1 inb_S3x4x4_S1x1x1_1_1_1)) 0
    ∗ semVal ((c : Thread nD τ), SemLoc.dma (sndS 1 1 2 inb_S3x4x4_S1x1x1_1_1_2)) 0
    ∗ semVal ((c : Thread nD τ), SemLoc.dma (sndS 1 1 3 inb_S3x4x4_S1x1x1_1_1_3)) 0
    ∗ semVal ((c : Thread nD τ), SemLoc.dma (sndS 1 2 1 inb_S3x4x4_S1x1x1_1_2_1)) 0
    ∗ semVal ((c : Thread nD τ), SemLoc.dma (sndS 1 2 2 inb_S3x4x4_S1x1x1_1_2_2)) 0
    ∗ semVal ((c : Thread nD τ), SemLoc.dma (sndS 1 2 3 inb_S3x4x4_S1x1x1_1_2_3)) 0
    ∗ semVal ((c : Thread nD τ), SemLoc.dma (sndS 1 3 1 inb_S3x4x4_S1x1x1_1_3_1)) 0
    ∗ semVal ((c : Thread nD τ), SemLoc.dma (sndS 1 3 2 inb_S3x4x4_S1x1x1_1_3_2)) 0
    ∗ semVal ((c : Thread nD τ), SemLoc.dma (sndS 1 3 3 inb_S3x4x4_S1x1x1_1_3_3)) 0
    ∗ semVal ((c : Thread nD τ), SemLoc.dma (sndS 2 0 1 inb_S3x4x4_S1x1x1_2_0_1)) 0
    ∗ semVal ((c : Thread nD τ), SemLoc.dma (sndS 2 0 2 inb_S3x4x4_S1x1x1_2_0_2)) 0
    ∗ semVal ((c : Thread nD τ), SemLoc.dma (sndS 2 0 3 inb_S3x4x4_S1x1x1_2_0_3)) 0
    ∗ semVal ((c : Thread nD τ), SemLoc.dma (rcvS 0 0 1 inb_S3x4x4_S1x1x1_0_0_1)) 0
    ∗ semVal ((c : Thread nD τ), SemLoc.dma (rcvS 0 0 2 inb_S3x4x4_S1x1x1_0_0_2)) 0
    ∗ semVal ((c : Thread nD τ), SemLoc.dma (rcvS 0 0 3 inb_S3x4x4_S1x1x1_0_0_3)) 0
    ∗ semVal ((c : Thread nD τ), SemLoc.dma (rcvS 0 1 1 inb_S3x4x4_S1x1x1_0_1_1)) 0
    ∗ semVal ((c : Thread nD τ), SemLoc.dma (rcvS 0 1 2 inb_S3x4x4_S1x1x1_0_1_2)) 0
    ∗ semVal ((c : Thread nD τ), SemLoc.dma (rcvS 0 1 3 inb_S3x4x4_S1x1x1_0_1_3)) 0
    ∗ semVal ((c : Thread nD τ), SemLoc.dma (rcvS 0 2 1 inb_S3x4x4_S1x1x1_0_2_1)) 0
    ∗ semVal ((c : Thread nD τ), SemLoc.dma (rcvS 0 2 2 inb_S3x4x4_S1x1x1_0_2_2)) 0
    ∗ semVal ((c : Thread nD τ), SemLoc.dma (rcvS 0 2 3 inb_S3x4x4_S1x1x1_0_2_3)) 0
    ∗ semVal ((c : Thread nD τ), SemLoc.dma (rcvS 0 3 1 inb_S3x4x4_S1x1x1_0_3_1)) 0
    ∗ semVal ((c : Thread nD τ), SemLoc.dma (rcvS 0 3 2 inb_S3x4x4_S1x1x1_0_3_2)) 0
    ∗ semVal ((c : Thread nD τ), SemLoc.dma (rcvS 0 3 3 inb_S3x4x4_S1x1x1_0_3_3)) 0
    ∗ semVal ((c : Thread nD τ), SemLoc.dma (rcvS 1 0 1 inb_S3x4x4_S1x1x1_1_0_1)) 0
    ∗ semVal ((c : Thread nD τ), SemLoc.dma (rcvS 1 0 2 inb_S3x4x4_S1x1x1_1_0_2)) 0
    ∗ semVal ((c : Thread nD τ), SemLoc.dma (rcvS 1 0 3 inb_S3x4x4_S1x1x1_1_0_3)) 0
    ∗ semVal ((c : Thread nD τ), SemLoc.dma (rcvS 1 1 1 inb_S3x4x4_S1x1x1_1_1_1)) 0
    ∗ semVal ((c : Thread nD τ), SemLoc.dma (rcvS 1 1 2 inb_S3x4x4_S1x1x1_1_1_2)) 0
    ∗ semVal ((c : Thread nD τ), SemLoc.dma (rcvS 1 1 3 inb_S3x4x4_S1x1x1_1_1_3)) 0
    ∗ semVal ((c : Thread nD τ), SemLoc.dma (rcvS 1 2 1 inb_S3x4x4_S1x1x1_1_2_1)) 0
    ∗ semVal ((c : Thread nD τ), SemLoc.dma (rcvS 1 2 2 inb_S3x4x4_S1x1x1_1_2_2)) 0
    ∗ semVal ((c : Thread nD τ), SemLoc.dma (rcvS 1 2 3 inb_S3x4x4_S1x1x1_1_2_3)) 0
    ∗ semVal ((c : Thread nD τ), SemLoc.dma (rcvS 1 3 1 inb_S3x4x4_S1x1x1_1_3_1)) 0
    ∗ semVal ((c : Thread nD τ), SemLoc.dma (rcvS 1 3 2 inb_S3x4x4_S1x1x1_1_3_2)) 0
    ∗ semVal ((c : Thread nD τ), SemLoc.dma (rcvS 1 3 3 inb_S3x4x4_S1x1x1_1_3_3)) 0
    ∗ semVal ((c : Thread nD τ), SemLoc.dma (rcvS 2 0 1 inb_S3x4x4_S1x1x1_2_0_1)) 0
    ∗ semVal ((c : Thread nD τ), SemLoc.dma (rcvS 2 0 2 inb_S3x4x4_S1x1x1_2_0_2)) 0
    ∗ semVal ((c : Thread nD τ), SemLoc.dma (rcvS 2 0 3 inb_S3x4x4_S1x1x1_2_0_3)) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- An input window's staging buffer holds the device's whole argument array (the grid is a single point). -/
def xstg0 (c : Dev nD) : (cc0_stg0_0 : Ref sig .tc).ty.Contents (Elt F) :=
  (win0_0.blk (0 : Fin 1)).view.read (Elt F) ((s₀ m ρ).mem ((c : Thread nD τ).loc main_arg0))
def xstg1 (c : Dev nD) : (cc0_stg1_0 : Ref sig .tc).ty.Contents (Elt F) :=
  (win0_1.blk (0 : Fin 1)).view.read (Elt F) ((s₀ m ρ).mem ((c : Thread nD τ).loc main_arg1))
def xstg2 (c : Dev nD) : (cc0_stg2_0 : Ref sig .tc).ty.Contents (Elt F) :=
  (win0_2.blk (0 : Fin 1)).view.read (Elt F) ((s₀ m ρ).mem ((c : Thread nD τ).loc main_arg2))
def xstg3 (c : Dev nD) : (cc0_stg3_0 : Ref sig .tc).ty.Contents (Elt F) :=
  (win0_3.blk (0 : Fin 1)).view.read (Elt F) ((s₀ m ρ).mem ((c : Thread nD τ).loc main_arg3))
def xstg4 (c : Dev nD) : (cc0_stg4_0 : Ref sig .tc).ty.Contents (Elt F) :=
  (win0_4.blk (0 : Fin 1)).view.read (Elt F) ((s₀ m ρ).mem ((c : Thread nD τ).loc main_arg4))
def xstg5 (c : Dev nD) : (cc0_stg5_0 : Ref sig .tc).ty.Contents (Elt F) :=
  (win0_5.blk (0 : Fin 1)).view.read (Elt F) ((s₀ m ρ).mem ((c : Thread nD τ).loc main_arg5))
def xstg6 (c : Dev nD) : (cc0_stg6_0 : Ref sig .tc).ty.Contents (Elt F) :=
  (win0_6.blk (0 : Fin 1)).view.read (Elt F) ((s₀ m ρ).mem ((c : Thread nD τ).loc main_arg6))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg0 m ρ c
    | ⟨1, _⟩ => xstg1 m ρ c
    | ⟨2, _⟩ => xstg2 m ρ c
    | ⟨3, _⟩ => xstg3 m ρ c
    | ⟨4, _⟩ => xstg4 m ρ c
    | ⟨5, _⟩ => xstg5 m ρ c
    | ⟨6, _⟩ => xstg6 m ρ c
    | ⟨7, _⟩ => outv c
  Φ t := match t with
    | ⟨0, _⟩ => Φ₀ val jk jr c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Mlp

end
-- ==== Proof.BlockViews.lean ====
import proofs.«900991_g7700000000000992_dist_mlpseq_tp1d_rep_bs_b256_d256_h512_v7x_i4_bf16_1_alg».proof.Proof.Proto
import Idealize.ShloMosaic.Lib.Writes
import Idealize.ShloMosaic.Lib.ValueIdx

noncomputable section

namespace Cert.KernelIdeal.Mlp

open Idealize.ShloMosaic
open Idealize.ShloMosaic.TcCoe
open Idealize.ShloMosaic.ValueIdx
open Cert.KernelIdeal Cert.KernelIdeal.Gen

variable {F : FTy → Type} [FloatOps F]

/-! ## Blocks with and without their unit axes

A block of the exchange buffer is addressed in two ways: as a `1 × 1 × 1 × 64 × 256` rectangle of the whole buffer (a vector
load or store), and as the `64 × 256` array left when the rectangle's three unit axes are dropped (a copy's source or
destination). The two index sets correspond by row-major position, which puts `0` on each unit axis. -/

/-- A `1 × 1 × 1 × 64 × 256` array with its unit axes dropped. -/
def sq5 {α : Type} (v : S1x1x1x64x256.Idx → α) : S64x256.Idx → α :=
  fun i => v (ix5 (n0 := 1) (n1 := 1) (n2 := 1) (n3 := 64) (n4 := 256) 0 0 0 (i 0) (i 1))
/-- A `64 × 256` array under three leading unit axes. -/
def un5 {α : Type} (x : S64x256.Idx → α) : S1x1x1x64x256.Idx → α :=
  fun j => x (ix2 (n0 := 64) (n1 := 256) (j 3) (j 4))

/-- An index of the long shape is determined by its last two coordinates. -/
theorem ix5_last (j : S1x1x1x64x256.Idx) :
    ix5 (n0 := 1) (n1 := 1) (n2 := 1) (n3 := 64) (n4 := 256) 0 0 0 (j 3) (j 4) = j := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem un5_sq5 {α : Type} (v : S1x1x1x64x256.Idx → α) : un5 (sq5 v) = v :=
  funext fun j => congrArg v (ix5_last j)

theorem sq5_un5 {α : Type} (x : S64x256.Idx → α) : sq5 (un5 x) = x :=
  funext fun i => congrArg x (eq_ix2 i).symm

/-- Row-major matching of the short shape's indices with the long shape's: `0` on the three unit axes. -/
theorem reshape_sq5 (h : S64x256.numel = S1x1x1x64x256.numel) (i : S64x256.Idx) :
    Shape.reshapeEquiv h i = ix5 (n0 := 1) (n1 := 1) (n2 := 1) (n3 := 64) (n4 := 256) 0 0 0 (i 0) (i 1) :=
  Shape.reshapeEquiv_eq_of_rowMajor h (by
    rw [Shape.rowMajor_val_five, Shape.rowMajor_val_two]
    show ((((0 * 1 + 0) * 1 + 0) * 64 + (i 0).val) * 256 + (i 1).val) = (i 0).val * 256 + (i 1).val
    simp only [Nat.zero_mul, Nat.zero_add, Nat.mul_one, Nat.add_zero])

/-- The matching the other way: the last two coordinates. -/
theorem reshape_un5 (h : S64x256.numel = S1x1x1x64x256.numel) (j : S1x1x1x64x256.Idx) :
    (Shape.reshapeEquiv h).symm j = ix2 (n0 := 64) (n1 := 256) (j 3) (j 4) := by
  rw [Equiv.symm_apply_eq, reshape_sq5]
  exact (ix5_last j).symm

/-! ## The exchange buffer's blocks -/

section Slot

variable (l p o : ℕ) (h : ∀ a, (![l, p, o, 0, 0] : Fin 5 → Nat) a + S1x1x1x64x256.size a ≤ S2x4x4x64x256.size a)

/-- What a store through the block's rectangle of the whole buffer leaves, read through the block's own view: the stored
    array with its unit axes dropped. -/
theorem slot_read_store (c : Dev nD) (f0 : Buf (Elt F) ((c : Thread nD τ).loc cc0_scratch0))
    (v : S1x1x1x64x256.Idx → Elt F .bf16) :
    (slotM l p o h).view.read (Elt F)
        (View.write (Elt F) ((Memref.whole cc0_scratch0).access (Rect.unit (s := S2x4x4x64x256) ![l, p, o, 0, 0] S1x1x1x64x256.size h)) f0 v Finset.univ)
      = sq5 v := by
  funext i
  show View.read (Elt F) ((Memref.whole cc0_scratch0).access (Rect.unit (s := S2x4x4x64x256) ![l, p, o, 0, 0] S1x1x1x64x256.size h))
      (View.write (Elt F) ((Memref.whole cc0_scratch0).access (Rect.unit (s := S2x4x4x64x256) ![l, p, o, 0, 0] S1x1x1x64x256.size h)) f0 v Finset.univ)
      (Shape.reshapeEquiv squeezes_S1x1x1x64x256_S64x256.numel_eq i) = sq5 v i
  rw [View.read_write_univ, reshape_sq5]
  rfl

/-- What a landing in the block leaves, read by a load through the block's rectangle of the whole buffer: the landed array
    under three unit axes. -/
theorem slot_load_landing (c : Dev nD) (fd : Buf (Elt F) ((c : Thread nD τ).loc cc0_scratch0))
    (x : S64x256.Idx → Elt F .bf16) :
    View.readAt (Elt F) (Memref.whole cc0_scratch0).view
        (Rect.unit (s := S2x4x4x64x256) ![l, p, o, 0, 0] S1x1x1x64x256.size h).toLoadRect
        ((slotM l p o h).view.write (Elt F) fd x Finset.univ)
      = un5 x := by
  show View.read (Elt F) ((Memref.whole cc0_scratch0).access (Rect.unit (s := S2x4x4x64x256) ![l, p, o, 0, 0] S1x1x1x64x256.size h))
      (View.write (Elt F) (((Memref.whole cc0_scratch0).access (Rect.unit (s := S2x4x4x64x256) ![l, p, o, 0, 0] S1x1x1x64x256.size h)).reshape S64x256
        squeezes_S1x1x1x64x256_S64x256.numel_eq) fd x Finset.univ) = un5 x
  rw [View.write_reshape_univ, View.read_write_univ]
  funext j
  show x ((Shape.reshapeEquiv squeezes_S1x1x1x64x256_S64x256.numel_eq).symm j) = un5 x j
  rw [reshape_un5]
  rfl

/-- A load through the block's rectangle of what a store through it left: the stored array. -/
theorem slot_load_store (c : Dev nD) (f0 : Buf (Elt F) ((c : Thread nD τ).loc cc0_scratch0))
    (v : S1x1x1x64x256.Idx → Elt F .bf16) :
    View.readAt (Elt F) (Memref.whole cc0_scratch0).view
        (Rect.unit (s := S2x4x4x64x256) ![l, p, o, 0, 0] S1x1x1x64x256.size h).toLoadRect
        (View.write (Elt F) ((Memref.whole cc0_scratch0).access (Rect.unit (s := S2x4x4x64x256) ![l, p, o, 0, 0] S1x1x1x64x256.size h)) f0 v Finset.univ)
      = v :=
  View.read_write_univ (v := (Memref.whole cc0_scratch0).access (Rect.unit (s := S2x4x4x64x256) ![l, p, o, 0, 0] S1x1x1x64x256.size h)) f0 v

end Slot

/-! ## The reduce-scatter buffer's blocks: the same with two unit axes -/

/-- A `1 × 1 × 64 × 256` array with its unit axes dropped. -/
def sq4 {α : Type} (v : S1x1x64x256.Idx → α) : S64x256.Idx → α :=
  fun i => v (ix4 (n0 := 1) (n1 := 1) (n2 := 64) (n3 := 256) 0 0 (i 0) (i 1))
/-- A `64 × 256` array under two leading unit axes. -/
def un4 {α : Type} (x : S64x256.Idx → α) : S1x1x64x256.Idx → α :=
  fun j => x (ix2 (n0 := 64) (n1 := 256) (j 2) (j 3))

/-- An index of the long shape is determined by its last two coordinates. -/
theorem ix4_last (j : S1x1x64x256.Idx) :
    ix4 (n0 := 1) (n1 := 1) (n2 := 64) (n3 := 256) 0 0 (j 2) (j 3) = j := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem un4_sq4 {α : Type} (v : S1x1x64x256.Idx → α) : un4 (sq4 v) = v :=
  funext fun j => congrArg v (ix4_last j)

theorem sq4_un4 {α : Type} (x : S64x256.Idx → α) : sq4 (un4 x) = x :=
  funext fun i => congrArg x (eq_ix2 i).symm

/-- Row-major matching of the short shape's indices with the long shape's: `0` on the two unit axes. -/
theorem reshape_sq4 (h : S64x256.numel = S1x1x64x256.numel) (i : S64x256.Idx) :
    Shape.reshapeEquiv h i = ix4 (n0 := 1) (n1 := 1) (n2 := 64) (n3 := 256) 0 0 (i 0) (i 1) :=
  Shape.reshapeEquiv_eq_of_rowMajor h (by
    rw [Shape.rowMajor_val_four, Shape.rowMajor_val_two]
    show (((0 * 1 + 0) * 64 + (i 0).val) * 256 + (i 1).val) = (i 0).val * 256 + (i 1).val
    simp only [Nat.zero_mul, Nat.zero_add])

/-- The matching the other way: the last two coordinates. -/
theorem reshape_un4 (h : S64x256.numel = S1x1x64x256.numel) (j : S1x1x64x256.Idx) :
    (Shape.reshapeEquiv h).symm j = ix2 (n0 := 64) (n1 := 256) (j 2) (j 3) := by
  rw [Equiv.symm_apply_eq, reshape_sq4]
  exact (ix4_last j).symm

section Row

variable (k o : ℕ) (h : ∀ a, (![k, o, 0, 0] : Fin 4 → Nat) a + S1x1x64x256.size a ≤ S2x4x64x256.size a)

/-- What a store through the block's rectangle of the whole buffer leaves, read through the block's own view. -/
theorem row_read_store (c : Dev nD) (f0 : Buf (Elt F) ((c : Thread nD τ).loc cc0_scratch1))
    (v : S1x1x64x256.Idx → Elt F .bf16) :
    (rsM k o h).view.read (Elt F)
        (View.write (Elt F) ((Memref.whole cc0_scratch1).access (Rect.unit (s := S2x4x64x256) ![k, o, 0, 0] S1x1x64x256.size h)) f0 v Finset.univ)
      = sq4 v := by
  funext i
  show View.read (Elt F) ((Memref.whole cc0_scratch1).access (Rect.unit (s := S2x4x64x256) ![k, o, 0, 0] S1x1x64x256.size h))
      (View.write (Elt F) ((Memref.whole cc0_scratch1).access (Rect.unit (s := S2x4x64x256) ![k, o, 0, 0] S1x1x64x256.size h)) f0 v Finset.univ)
      (Shape.reshapeEquiv squeezes_S1x1x64x256_S64x256.numel_eq i) = sq4 v i
  rw [View.read_write_univ, reshape_sq4]
  rfl

/-- What a landing in the block leaves, read by a load through the block's rectangle of the whole buffer. -/
theorem row_load_landing (c : Dev nD) (fd : Buf (Elt F) ((c : Thread nD τ).loc cc0_scratch1))
    (x : S64x256.Idx → Elt F .bf16) :
    View.readAt (Elt F) (Memref.whole cc0_scratch1).view
        (Rect.unit (s := S2x4x64x256) ![k, o, 0, 0] S1x1x64x256.size h).toLoadRect
        ((rsM k o h).view.write (Elt F) fd x Finset.univ)
      = un4 x := by
  show View.read (Elt F) ((Memref.whole cc0_scratch1).access (Rect.unit (s := S2x4x64x256) ![k, o, 0, 0] S1x1x64x256.size h))
      (View.write (Elt F) (((Memref.whole cc0_scratch1).access (Rect.unit (s := S2x4x64x256) ![k, o, 0, 0] S1x1x64x256.size h)).reshape S64x256
        squeezes_S1x1x64x256_S64x256.numel_eq) fd x Finset.univ) = un4 x
  rw [View.write_reshape_univ, View.read_write_univ]
  funext j
  show x ((Shape.reshapeEquiv squeezes_S1x1x64x256_S64x256.numel_eq).symm j) = un4 x j
  rw [reshape_un4]
  rfl

/-- A load through the block's rectangle of what a store through it left: the stored array. -/
theorem row_load_store (c : Dev nD) (f0 : Buf (Elt F) ((c : Thread nD τ).loc cc0_scratch1))
    (v : S1x1x64x256.Idx → Elt F .bf16) :
    View.readAt (Elt F) (Memref.whole cc0_scratch1).view
        (Rect.unit (s := S2x4x64x256) ![k, o, 0, 0] S1x1x64x256.size h).toLoadRect
        (View.write (Elt F) ((Memref.whole cc0_scratch1).access (Rect.unit (s := S2x4x64x256) ![k, o, 0, 0] S1x1x64x256.size h)) f0 v Finset.univ)
      = v :=
  View.read_write_univ (v := (Memref.whole cc0_scratch1).access (Rect.unit (s := S2x4x64x256) ![k, o, 0, 0] S1x1x64x256.size h)) f0 v

end Row

/-! ## The staging buffers: a load or store through a buffer's whole rectangle at zero offsets -/

omit [FloatOps F] in
theorem zero2 : (![0, 0] : Fin 2 → Nat) = fun _ => 0 := funext fun a => by fin_cases a <;> rfl

omit [FloatOps F] in
/-- A load of the whole of staging buffer 0 reads its contents. -/
theorem read_stg0 (f : (cc0_stg0_0 : Ref sig .tc).ty.Contents (Elt F)) :
    View.readAt (Elt F) (Memref.whole cc0_stg0_0).view (Rect.unit (s := S256x256) ![0, 0] S256x256.size inb_S256x256_S256x256_0_0).toLoadRect f = f :=
  Memref.readAt_unit_zero (Elt F) cc0_stg0_0 zero2 _ f

omit [FloatOps F] in
/-- A load of the whole of staging buffer 1 reads its contents. -/
theorem read_stg1 (f : (cc0_stg1_0 : Ref sig .tc).ty.Contents (Elt F)) :
    View.readAt (Elt F) (Memref.whole cc0_stg1_0).view (Rect.unit (s := S256x512) ![0, 0] S256x512.size inb_S256x512_S256x512_0_0).toLoadRect f = f :=
  Memref.readAt_unit_zero (Elt F) cc0_stg1_0 zero2 _ f

omit [FloatOps F] in
/-- A load of the whole of staging buffer 2 reads its contents. -/
theorem read_stg2 (f : (cc0_stg2_0 : Ref sig .tc).ty.Contents (Elt F)) :
    View.readAt (Elt F) (Memref.whole cc0_stg2_0).view (Rect.unit (s := S512x256) ![0, 0] S512x256.size inb_S512x256_S512x256_0_0).toLoadRect f = f :=
  Memref.readAt_unit_zero (Elt F) cc0_stg2_0 zero2 _ f

omit [FloatOps F] in
/-- A load of the whole of staging buffer 3 reads its contents. -/
theorem read_stg3 (f : (cc0_stg3_0 : Ref sig .tc).ty.Contents (Elt F)) :
    View.readAt (Elt F) (Memref.whole cc0_stg3_0).view (Rect.unit (s := S256x512) ![0, 0] S256x512.size inb_S256x512_S256x512_0_0).toLoadRect f = f :=
  Memref.readAt_unit_zero (Elt F) cc0_stg3_0 zero2 _ f

omit [FloatOps F] in
/-- A load of the whole of staging buffer 4 reads its contents. -/
theorem read_stg4 (f : (cc0_stg4_0 : Ref sig .tc).ty.Contents (Elt F)) :
    View.readAt (Elt F) (Memref.whole cc0_stg4_0).view (Rect.unit (s := S512x256) ![0, 0] S512x256.size inb_S512x256_S512x256_0_0).toLoadRect f = f :=
  Memref.readAt_unit_zero (Elt F) cc0_stg4_0 zero2 _ f

omit [FloatOps F] in
/-- A load of the whole of staging buffer 5 reads its contents. -/
theorem read_stg5 (f : (cc0_stg5_0 : Ref sig .tc).ty.Contents (Elt F)) :
    View.readAt (Elt F) (Memref.whole cc0_stg5_0).view (Rect.unit (s := S256x512) ![0, 0] S256x512.size inb_S256x512_S256x512_0_0).toLoadRect f = f :=
  Memref.readAt_unit_zero (Elt F) cc0_stg5_0 zero2 _ f

omit [FloatOps F] in
/-- A load of the whole of staging buffer 6 reads its contents. -/
theorem read_stg6 (f : (cc0_stg6_0 : Ref sig .tc).ty.Contents (Elt F)) :
    View.readAt (Elt F) (Memref.whole cc0_stg6_0).view (Rect.unit (s := S512x256) ![0, 0] S512x256.size inb_S512x256_S512x256_0_0).toLoadRect f = f :=
  Memref.readAt_unit_zero (Elt F) cc0_stg6_0 zero2 _ f

omit [FloatOps F] in
/-- A store over the whole of the result's staging buffer leaves the payload. -/
theorem write_stg7 (f w : (cc0_stg7_0 : Ref sig .tc).ty.Contents (Elt F)) :
    View.write (Elt F) ((Memref.whole cc0_stg7_0).access (Rect.unit (s := S64x256) ![0, 0] S64x256.size inb_S64x256_S64x256_0_0)) f w Finset.univ = w :=
  Memref.write_access_unit_zero_univ (Elt F) cc0_stg7_0 zero2 _ f w

/-- info: 'Cert.KernelIdeal.Mlp.slot_read_store' depends on axioms: [propext, Classical.choice, Quot.sound] -/
#guard_msgs in #print axioms slot_read_store
/-- info: 'Cert.KernelIdeal.Mlp.slot_load_landing' depends on axioms: [propext, Classical.choice, Quot.sound] -/
#guard_msgs in #print axioms slot_load_landing
/-- info: 'Cert.KernelIdeal.Mlp.slot_load_store' depends on axioms: [propext, Classical.choice, Quot.sound] -/
#guard_msgs in #print axioms slot_load_store
/-- info: 'Cert.KernelIdeal.Mlp.row_read_store' depends on axioms: [propext, Classical.choice, Quot.sound] -/
#guard_msgs in #print axioms row_read_store
/-- info: 'Cert.KernelIdeal.Mlp.row_load_landing' depends on axioms: [propext, Classical.choice, Quot.sound] -/
#guard_msgs in #print axioms row_load_landing
/-- info: 'Cert.KernelIdeal.Mlp.row_load_store' depends on axioms: [propext, Classical.choice, Quot.sound] -/
#guard_msgs in #print axioms row_load_store
/-- info: 'Cert.KernelIdeal.Mlp.read_stg0' depends on axioms: [propext, Classical.choice, Quot.sound] -/
#guard_msgs in #print axioms read_stg0
/-- info: 'Cert.KernelIdeal.Mlp.write_stg7' depends on axioms: [propext, Classical.choice, Quot.sound] -/
#guard_msgs in #print axioms write_stg7

end Cert.KernelIdeal.Mlp

end
-- ==== Proof.ValsG.lean ====
import proofs.«900991_g7700000000000992_dist_mlpseq_tp1d_rep_bs_b256_d256_h512_v7x_i4_bf16_1_alg».proof.Proof.JoinG
import proofs.«900991_g7700000000000992_dist_mlpseq_tp1d_rep_bs_b256_d256_h512_v7x_i4_bf16_1_alg».proof.Proof.BodyDefs
import proofs.«900991_g7700000000000992_dist_mlpseq_tp1d_rep_bs_b256_d256_h512_v7x_i4_bf16_1_alg».proof.Proof.BlockViews

/-!
# The values of the run, from the memory at launch: for any float model

The statements about the body are made over a family of exchanged blocks, arbitrary initial contents of the two
exchange buffers and a family of results.  Here these are fixed as functions of the memory at launch: each
device's seven argument arrays as its loads return them, the vectors every device stores layer by layer
computed from those, and each device's final result.
-/

noncomputable section

namespace Cert.KernelIdeal.Mlp

open Idealize.ShloMosaic
open Idealize.ShloMosaic.TcCoe
open Cert.KernelIdeal Cert.KernelIdeal.Gen Cert.KernelIdeal.Join
open Idealize.SL.Sem

section Generic

variable {F : FTy → Type} [FloatOps F]
variable (m : (ℓ : Loc nD τ sig) → Buf (Elt F) ℓ) (ρ : Dev nD → PrngReg)

omit [FloatOps F] in
/-- The offsets of a load of a whole rank-2 array are all zero. -/
theorem hz2 : (![0, 0] : Fin 2 → Nat) = fun _ => 0 := funext fun a => by fin_cases a <;> rfl

/-! ## Each device's argument arrays, as a load of the whole staging buffer returns them -/

def XA0 (e : Dev nD) : Vec F S256x256 .f32 :=
  (Memref.whole cc0_stg0_0 : Memref sig .tc .vmem S256x256 .f32).view.readAt (Elt F)
    (Rect.unit (s := S256x256) ![0, 0] S256x256.size inb_S256x256_S256x256_0_0).toLoadRect (xstg0 m ρ e)
def XA1 (e : Dev nD) : Vec F S256x512 .f32 :=
  (Memref.whole cc0_stg1_0 : Memref sig .tc .vmem S256x512 .f32).view.readAt (Elt F)
    (Rect.unit (s := S256x512) ![0, 0] S256x512.size inb_S256x512_S256x512_0_0).toLoadRect (xstg1 m ρ e)
def XA2 (e : Dev nD) : Vec F S512x256 .f32 :=
  (Memref.whole cc0_stg2_0 : Memref sig .tc .vmem S512x256 .f32).view.readAt (Elt F)
    (Rect.unit (s := S512x256) ![0, 0] S512x256.size inb_S512x256_S512x256_0_0).toLoadRect (xstg2 m ρ e)
def XA3 (e : Dev nD) : Vec F S256x512 .f32 :=
  (Memref.whole cc0_stg3_0 : Memref sig .tc .vmem S256x512 .f32).view.readAt (Elt F)
    (Rect.unit (s := S256x512) ![0, 0] S256x512.size inb_S256x512_S256x512_0_0).toLoadRect (xstg3 m ρ e)
def XA4 (e : Dev nD) : Vec F S512x256 .f32 :=
  (Memref.whole cc0_stg4_0 : Memref sig .tc .vmem S512x256 .f32).view.readAt (Elt F)
    (Rect.unit (s := S512x256) ![0, 0] S512x256.size inb_S512x256_S512x256_0_0).toLoadRect (xstg4 m ρ e)
def XA5 (e : Dev nD) : Vec F S256x512 .f32 :=
  (Memref.whole cc0_stg5_0 : Memref sig .tc .vmem S256x512 .f32).view.readAt (Elt F)
    (Rect.unit (s := S256x512) ![0, 0] S256x512.size inb_S256x512_S256x512_0_0).toLoadRect (xstg5 m ρ e)
def XA6 (e : Dev nD) : Vec F S512x256 .f32 :=
  (Memref.whole cc0_stg6_0 : Memref sig .tc .vmem S512x256 .f32).view.readAt (Elt F)
    (Rect.unit (s := S512x256) ![0, 0] S512x256.size inb_S512x256_S512x256_0_0).toLoadRect (xstg6 m ρ e)

/-- A load of the whole staging buffer returns its contents. -/
theorem XA0_eq (e : Dev nD) : XA0 m ρ e = xstg0 m ρ e := Memref.readAt_unit_zero (Elt F) cc0_stg0_0 hz2 _ _
theorem XA1_eq (e : Dev nD) : XA1 m ρ e = xstg1 m ρ e := Memref.readAt_unit_zero (Elt F) cc0_stg1_0 hz2 _ _
theorem XA2_eq (e : Dev nD) : XA2 m ρ e = xstg2 m ρ e := Memref.readAt_unit_zero (Elt F) cc0_stg2_0 hz2 _ _
theorem XA3_eq (e : Dev nD) : XA3 m ρ e = xstg3 m ρ e := Memref.readAt_unit_zero (Elt F) cc0_stg3_0 hz2 _ _
theorem XA4_eq (e : Dev nD) : XA4 m ρ e = xstg4 m ρ e := Memref.readAt_unit_zero (Elt F) cc0_stg4_0 hz2 _ _
theorem XA5_eq (e : Dev nD) : XA5 m ρ e = xstg5 m ρ e := Memref.readAt_unit_zero (Elt F) cc0_stg5_0 hz2 _ _
theorem XA6_eq (e : Dev nD) : XA6 m ρ e = xstg6 m ρ e := Memref.readAt_unit_zero (Elt F) cc0_stg6_0 hz2 _ _

/-- The staging buffer of an input holds the device's whole argument array: the window's one block is the
    whole array. -/
theorem xstg0_eq (e : Dev nD) : xstg0 m ρ e = m ((e : Thread nD τ).loc main_arg0) := by
  funext y
  unfold xstg0
  show (m ((e : Thread nD τ).loc main_arg0)) ((win0_0.blk (0 : Fin 1)).view.emb y)
    = m ((e : Thread nD τ).loc main_arg0) y
  refine congrArg _ (funext fun a => Fin.ext ?_)
  match a with
  | ⟨0, _⟩ =>
    show 0 * 256 + 1 * (y 0).val = (y 0).val
    omega
  | ⟨1, _⟩ =>
    show 0 * 256 + 1 * (y 1).val = (y 1).val
    omega
theorem xstg1_eq (e : Dev nD) : xstg1 m ρ e = m ((e : Thread nD τ).loc main_arg1) := by
  funext y
  unfold xstg1
  show (m ((e : Thread nD τ).loc main_arg1)) ((win0_1.blk (0 : Fin 1)).view.emb y)
    = m ((e : Thread nD τ).loc main_arg1) y
  refine congrArg _ (funext fun a => Fin.ext ?_)
  match a with
  | ⟨0, _⟩ =>
    show 0 * 256 + 1 * (y 0).val = (y 0).val
    omega
  | ⟨1, _⟩ =>
    show 0 * 512 + 1 * (y 1).val = (y 1).val
    omega
theorem xstg2_eq (e : Dev nD) : xstg2 m ρ e = m ((e : Thread nD τ).loc main_arg2) := by
  funext y
  unfold xstg2
  show (m ((e : Thread nD τ).loc main_arg2)) ((win0_2.blk (0 : Fin 1)).view.emb y)
    = m ((e : Thread nD τ).loc main_arg2) y
  refine congrArg _ (funext fun a => Fin.ext ?_)
  match a with
  | ⟨0, _⟩ =>
    show 0 * 512 + 1 * (y 0).val = (y 0).val
    omega
  | ⟨1, _⟩ =>
    show 0 * 256 + 1 * (y 1).val = (y 1).val
    omega
theorem xstg3_eq (e : Dev nD) : xstg3 m ρ e = m ((e : Thread nD τ).loc main_arg3) := by
  funext y
  unfold xstg3
  show (m ((e : Thread nD τ).loc main_arg3)) ((win0_3.blk (0 : Fin 1)).view.emb y)
    = m ((e : Thread nD τ).loc main_arg3) y
  refine congrArg _ (funext fun a => Fin.ext ?_)
  match a with
  | ⟨0, _⟩ =>
    show 0 * 256 + 1 * (y 0).val = (y 0).val
    omega
  | ⟨1, _⟩ =>
    show 0 * 512 + 1 * (y 1).val = (y 1).val
    omega
theorem xstg4_eq (e : Dev nD) : xstg4 m ρ e = m ((e : Thread nD τ).loc main_arg4) := by
  funext y
  unfold xstg4
  show (m ((e : Thread nD τ).loc main_arg4)) ((win0_4.blk (0 : Fin 1)).view.emb y)
    = m ((e : Thread nD τ).loc main_arg4) y
  refine congrArg _ (funext fun a => Fin.ext ?_)
  match a with
  | ⟨0, _⟩ =>
    show 0 * 512 + 1 * (y 0).val = (y 0).val
    omega
  | ⟨1, _⟩ =>
    show 0 * 256 + 1 * (y 1).val = (y 1).val
    omega
theorem xstg5_eq (e : Dev nD) : xstg5 m ρ e = m ((e : Thread nD τ).loc main_arg5) := by
  funext y
  unfold xstg5
  show (m ((e : Thread nD τ).loc main_arg5)) ((win0_5.blk (0 : Fin 1)).view.emb y)
    = m ((e : Thread nD τ).loc main_arg5) y
  refine congrArg _ (funext fun a => Fin.ext ?_)
  match a with
  | ⟨0, _⟩ =>
    show 0 * 256 + 1 * (y 0).val = (y 0).val
    omega
  | ⟨1, _⟩ =>
    show 0 * 512 + 1 * (y 1).val = (y 1).val
    omega
theorem xstg6_eq (e : Dev nD) : xstg6 m ρ e = m ((e : Thread nD τ).loc main_arg6) := by
  funext y
  unfold xstg6
  show (m ((e : Thread nD τ).loc main_arg6)) ((win0_6.blk (0 : Fin 1)).view.emb y)
    = m ((e : Thread nD τ).loc main_arg6) y
  refine congrArg _ (funext fun a => Fin.ext ?_)
  match a with
  | ⟨0, _⟩ =>
    show 0 * 512 + 1 * (y 0).val = (y 0).val
    omega
  | ⟨1, _⟩ =>
    show 0 * 256 + 1 * (y 1).val = (y 1).val
    omega

/-! ## The exchanged blocks, the initial buffers and the results -/

/-- The three weight-slice arrays of one kind, by layer. -/
abbrev WiA : Fin 3 → Dev nD → Vec F S256x512 .f32 := pack3 (XA1 m ρ) (XA3 m ρ) (XA5 m ρ)
abbrev WoA : Fin 3 → Dev nD → Vec F S512x256 .f32 := pack3 (XA2 m ρ) (XA4 m ρ) (XA6 m ρ)

/-- An arbitrary entry. -/
def dflt : Elt F .bf16 := (Elt.inhabited F .bf16).default

/-- The block device e stores in layer l for index i: in layers 0 and 1 for row block i; in layer 2 into slot i of
    the first exchange buffer.  Elsewhere an arbitrary block. -/
def valF : Dev nD → ℕ → ℕ → S64x256.Idx → Elt F .bf16 := fun e l i =>
  match l with
  | 0 => if h : i < 4 then sq5 (V0 (XA0 m ρ) (WiA m ρ) (WoA m ρ) e ⟨i, h⟩) else fun _ => dflt
  | 1 => if h : i < 4 then sq5 (V1 (XA0 m ρ) (WiA m ρ) (WoA m ρ) e ⟨i, h⟩) else fun _ => dflt
  | 2 =>
    match i with
    | 1 => sq4 (V2_1 (XA0 m ρ) (WiA m ρ) (WoA m ρ) e)
    | 2 => sq4 (V2_2 (XA0 m ρ) (WiA m ρ) (WoA m ρ) e)
    | 3 => sq4 (V2_3 (XA0 m ρ) (WiA m ρ) (WoA m ρ) e)
    | _ => fun _ => dflt
  | _ => fun _ => dflt

theorem valF_0_0 (e : Dev nD) : valF m ρ e 0 0 = sq5 (V0 (XA0 m ρ) (WiA m ρ) (WoA m ρ) e 0) := rfl
theorem valF_0_1 (e : Dev nD) : valF m ρ e 0 1 = sq5 (V0 (XA0 m ρ) (WiA m ρ) (WoA m ρ) e 1) := rfl
theorem valF_0_2 (e : Dev nD) : valF m ρ e 0 2 = sq5 (V0 (XA0 m ρ) (WiA m ρ) (WoA m ρ) e 2) := rfl
theorem valF_0_3 (e : Dev nD) : valF m ρ e 0 3 = sq5 (V0 (XA0 m ρ) (WiA m ρ) (WoA m ρ) e 3) := rfl
theorem valF_1_0 (e : Dev nD) : valF m ρ e 1 0 = sq5 (V1 (XA0 m ρ) (WiA m ρ) (WoA m ρ) e 0) := rfl
theorem valF_1_1 (e : Dev nD) : valF m ρ e 1 1 = sq5 (V1 (XA0 m ρ) (WiA m ρ) (WoA m ρ) e 1) := rfl
theorem valF_1_2 (e : Dev nD) : valF m ρ e 1 2 = sq5 (V1 (XA0 m ρ) (WiA m ρ) (WoA m ρ) e 2) := rfl
theorem valF_1_3 (e : Dev nD) : valF m ρ e 1 3 = sq5 (V1 (XA0 m ρ) (WiA m ρ) (WoA m ρ) e 3) := rfl
theorem valF_2_1 (e : Dev nD) : valF m ρ e 2 1 = sq4 (V2_1 (XA0 m ρ) (WiA m ρ) (WoA m ρ) e) := rfl
theorem valF_2_2 (e : Dev nD) : valF m ρ e 2 2 = sq4 (V2_2 (XA0 m ρ) (WiA m ρ) (WoA m ρ) e) := rfl
theorem valF_2_3 (e : Dev nD) : valF m ρ e 2 3 = sq4 (V2_3 (XA0 m ρ) (WiA m ρ) (WoA m ρ) e) := rfl

/-- With a row block given as an index below four. -/
theorem valF_0 (e : Dev nD) (p : Fin 4) : valF m ρ e 0 p.val = sq5 (V0 (XA0 m ρ) (WiA m ρ) (WoA m ρ) e p) := by
  show (if h : p.val < 4 then sq5 (V0 (XA0 m ρ) (WiA m ρ) (WoA m ρ) e ⟨p.val, h⟩) else fun _ => dflt) = _
  rw [dif_pos p.isLt]
theorem valF_1 (e : Dev nD) (p : Fin 4) : valF m ρ e 1 p.val = sq5 (V1 (XA0 m ρ) (WiA m ρ) (WoA m ρ) e p) := by
  show (if h : p.val < 4 then sq5 (V1 (XA0 m ρ) (WiA m ρ) (WoA m ρ) e ⟨p.val, h⟩) else fun _ => dflt) = _
  rw [dif_pos p.isLt]

/-- Arbitrary initial contents of the two exchange buffers. -/
def jkF (c : Dev nD) : Buf (Elt F) ((c : Thread nD τ).loc cc0_scratch0) := fun _ => dflt (F := F)
def jrF (c : Dev nD) : Buf (Elt F) ((c : Thread nD τ).loc cc0_scratch1) := fun _ => dflt (F := F)

/-- Each device's result. -/
def outF (c : Dev nD) : (cc0_stg7_0 : Ref sig .tc).ty.Contents (Elt F) :=
  OutV (XA0 m ρ) (WiA m ρ) (WoA m ρ) c

theorem outF_eq (c : Dev nD) :
    outF m ρ c = OutV (XA0 m ρ) (pack3 (XA1 m ρ) (XA3 m ρ) (XA5 m ρ)) (pack3 (XA2 m ρ) (XA4 m ρ) (XA6 m ρ)) c := rfl

end Generic

end Cert.KernelIdeal.Mlp

end
-- ==== Proof.MlpMath.lean ====
import Mathlib.Data.EReal.Basic
import Mathlib.Algebra.BigOperators.Fin
import Mathlib.Algebra.BigOperators.Pi
import Mathlib.Algebra.BigOperators.Ring.Finset
import Mathlib.Data.Fintype.BigOperators
import Mathlib.Tactic.Abel

/-!
# A three-layer perceptron split over four devices, against its one-device form

Matrices are plain functions into the extended reals.  Each layer has a hidden axis that is cut into four
slices, one per device: device d holds the slice Win l d of the layer's first weight matrix and the slice
Wout l d of its second one.  A device multiplies, clamps below at zero, multiplies again, and the four partial
products are then added up.  The one-device form does the same with the hidden axis indexed by pairs
(device, position in the slice).

Addition and multiplication of extended reals do not distribute at the infinities, so the comparison is made
for entries that are real numbers: every stage is shown to be the image of the same stage computed in the
reals, and the identity is proved there, where sums may be exchanged and products distributed.
-/

noncomputable section

namespace Cert.Proof.MlpMath

/-! ## The stages over the extended reals -/

section Defs

variable {R I H : Type}

/-- Matrix product: entry (r, h) is the sum over i of A r i * B i h. -/
def mm [Fintype I] (A : R → I → EReal) (B : I → H → EReal) : R → H → EReal :=
  fun r h => ∑ i, A r i * B i h

/-- Entrywise clamp below at zero. -/
def relu (A : R → H → EReal) : R → H → EReal := fun r h => max (A r h) 0

/-- One device's share of a layer: multiply by its slice W, clamp, multiply by its slice V. -/
def part [Fintype I] [Fintype H] (X : R → I → EReal) (W : I → H → EReal) (V : H → I → EReal) :
    R → I → EReal :=
  mm (relu (mm X W)) V

/-- The order in which device c adds the four contributions: its own, then those of c-1, c-3 and c-2
    (arithmetic modulo four). -/
def gather4 {α : Type} [Add α] (f : Fin 4 → α) (c : Fin 4) : α :=
  f c + f (c - 1) + f (c - 3) + f (c - 2)

theorem mm_apply [Fintype I] (A : R → I → EReal) (B : I → H → EReal) (r : R) (h : H) :
    mm A B r h = ∑ i, A r i * B i h := rfl

theorem relu_apply (A : R → H → EReal) (r : R) (h : H) : relu A r h = max (A r h) 0 := rfl

theorem gather4_apply {α : Type} [Add α] (f : Fin 4 → R → H → α) (c : Fin 4) (r : R) (h : H) :
    gather4 f c r h = f c r h + f (c - 1) r h + f (c - 3) r h + f (c - 2) r h := rfl

end Defs

section Pipeline

variable {R I H : Type} [Fintype I] [Fintype H]
variable (x : Fin 4 → R → I → EReal)
variable (Win : Fin 3 → Fin 4 → I → H → EReal) (Wout : Fin 3 → Fin 4 → H → I → EReal)

/-- First layer: device d's share for row block p. -/
def C0 (d p : Fin 4) : R → I → EReal := part (x p) (Win 0 d) (Wout 0 d)

/-- Second layer: device c multiplies every first-layer share by its slice, adds the four products in its own
    order, clamps and multiplies by its second slice. -/
def C1 (c p : Fin 4) : R → I → EReal :=
  mm (relu (gather4 (fun e => mm (C0 x Win Wout e p) (Win 1 c)) c)) (Wout 1 c)

/-- Third layer, in the same way from the second-layer shares. -/
def E2 (c p : Fin 4) : R → I → EReal :=
  mm (relu (gather4 (fun e => mm (C1 x Win Wout e p) (Win 2 c)) c)) (Wout 2 c)

/-- Device c's result: the four third-layer shares for row block c, added in its own order. -/
def out (c : Fin 4) : R → I → EReal := gather4 (fun e => E2 x Win Wout e c) c

/-- One layer on one device: the hidden axis is indexed by pairs (device, position in the slice). -/
def layerRef (l : Fin 3) (Y : R → I → EReal) : R → I → EReal :=
  fun r j => ∑ dh : Fin 4 × H, max (∑ i, Y r i * Win l dh.1 i dh.2) 0 * Wout l dh.1 dh.2 j

/-- The three layers on one device, for row block p. -/
def ref (p : Fin 4) : R → I → EReal :=
  layerRef Win Wout 2 (layerRef Win Wout 1 (layerRef Win Wout 0 (x p)))

end Pipeline

/-! ## The same stages over the reals -/

section RealDefs

variable {R I H : Type}

def mmR [Fintype I] (A : R → I → ℝ) (B : I → H → ℝ) : R → H → ℝ :=
  fun r h => ∑ i, A r i * B i h

def reluR (A : R → H → ℝ) : R → H → ℝ := fun r h => max (A r h) 0

def partR [Fintype I] [Fintype H] (X : R → I → ℝ) (W : I → H → ℝ) (V : H → I → ℝ) : R → I → ℝ :=
  mmR (reluR (mmR X W)) V

/-- Entrywise image of a real matrix in the extended reals. -/
def cM (A : R → H → ℝ) : R → H → EReal := fun r h => ((A r h : ℝ) : EReal)

theorem cM_apply (A : R → H → ℝ) (r : R) (h : H) : cM A r h = ((A r h : ℝ) : EReal) := rfl

variable [Fintype I] [Fintype H]
variable (x : Fin 4 → R → I → ℝ)
variable (Win : Fin 3 → Fin 4 → I → H → ℝ) (Wout : Fin 3 → Fin 4 → H → I → ℝ)

def C0R (d p : Fin 4) : R → I → ℝ := partR (x p) (Win 0 d) (Wout 0 d)

def C1R (c p : Fin 4) : R → I → ℝ :=
  mmR (reluR (gather4 (fun e => mmR (C0R x Win Wout e p) (Win 1 c)) c)) (Wout 1 c)

def E2R (c p : Fin 4) : R → I → ℝ :=
  mmR (reluR (gather4 (fun e => mmR (C1R x Win Wout e p) (Win 2 c)) c)) (Wout 2 c)

def outR (c : Fin 4) : R → I → ℝ := gather4 (fun e => E2R x Win Wout e c) c

def layerRefR (l : Fin 3) (Y : R → I → ℝ) : R → I → ℝ :=
  fun r j => ∑ dh : Fin 4 × H, max (∑ i, Y r i * Win l dh.1 i dh.2) 0 * Wout l dh.1 dh.2 j

def refR (p : Fin 4) : R → I → ℝ :=
  layerRefR Win Wout 2 (layerRefR Win Wout 1 (layerRefR Win Wout 0 (x p)))

end RealDefs

/-! ## Each extended-real stage of real data is the image of the real stage -/

/-- The image of a finite sum of reals is the sum of the images. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The image of a maximum of reals is the maximum of the images: the embedding is monotone. -/
theorem coe_max (a b : ℝ) : ((max a b : ℝ) : EReal) = max (a : EReal) (b : EReal) :=
  EReal.coe_strictMono.monotone.map_max

section Coe

variable {R I H : Type}

theorem mm_coe [Fintype I] (A : R → I → ℝ) (B : I → H → ℝ) : mm (cM A) (cM B) = cM (mmR A B) := by
  funext r h
  show ∑ i, ((A r i : ℝ) : EReal) * ((B i h : ℝ) : EReal) = ((∑ i, A r i * B i h : ℝ) : EReal)
  rw [coe_sum]
  exact Finset.sum_congr rfl (fun i _ => (EReal.coe_mul _ _).symm)

theorem relu_coe (A : R → H → ℝ) : relu (cM A) = cM (reluR A) := by
  funext r h
  show max ((A r h : ℝ) : EReal) 0 = ((max (A r h) 0 : ℝ) : EReal)
  rw [coe_max, EReal.coe_zero]

theorem part_coe [Fintype I] [Fintype H] (X : R → I → ℝ) (W : I → H → ℝ) (V : H → I → ℝ) :
    part (cM X) (cM W) (cM V) = cM (partR X W V) := by
  unfold part partR
  rw [mm_coe, relu_coe, mm_coe]

theorem gather4_coe (f : Fin 4 → R → H → ℝ) (c : Fin 4) :
    gather4 (fun e => cM (f e)) c = cM (gather4 f c) := by
  funext r h
  show ((f c r h : ℝ) : EReal) + ((f (c - 1) r h : ℝ) : EReal) + ((f (c - 3) r h : ℝ) : EReal)
      + ((f (c - 2) r h : ℝ) : EReal)
    = ((f c r h + f (c - 1) r h + f (c - 3) r h + f (c - 2) r h : ℝ) : EReal)
  rw [EReal.coe_add, EReal.coe_add, EReal.coe_add]

variable [Fintype I] [Fintype H]
variable (x : Fin 4 → R → I → ℝ)
variable (Win : Fin 3 → Fin 4 → I → H → ℝ) (Wout : Fin 3 → Fin 4 → H → I → ℝ)

/-- Real input blocks, seen in the extended reals. -/
def cX : Fin 4 → R → I → EReal := fun p => cM (x p)

/-- Real weight slices, seen in the extended reals. -/
def cW {A B : Type} (W : Fin 3 → Fin 4 → A → B → ℝ) : Fin 3 → Fin 4 → A → B → EReal :=
  fun l d => cM (W l d)

theorem C0_coe (d p : Fin 4) :
    C0 (cX x) (cW Win) (cW Wout) d p = cM (C0R x Win Wout d p) :=
  part_coe (x p) (Win 0 d) (Wout 0 d)

theorem C1_coe (c p : Fin 4) :
    C1 (cX x) (cW Win) (cW Wout) c p = cM (C1R x Win Wout c p) := by
  show mm (relu (gather4 (fun e => mm (C0 (cX x) (cW Win) (cW Wout) e p) (cM (Win 1 c))) c))
      (cM (Wout 1 c)) = _
  simp only [C0_coe, mm_coe, gather4_coe, relu_coe]
  rfl

theorem E2_coe (c p : Fin 4) :
    E2 (cX x) (cW Win) (cW Wout) c p = cM (E2R x Win Wout c p) := by
  show mm (relu (gather4 (fun e => mm (C1 (cX x) (cW Win) (cW Wout) e p) (cM (Win 2 c))) c))
      (cM (Wout 2 c)) = _
  simp only [C1_coe, mm_coe, gather4_coe, relu_coe]
  rfl

/-- The four-device result of real data is the image of the real four-device result. -/
theorem out_coe (c : Fin 4) : out (cX x) (cW Win) (cW Wout) c = cM (outR x Win Wout c) := by
  show gather4 (fun e => E2 (cX x) (cW Win) (cW Wout) e c) c = _
  simp only [E2_coe, gather4_coe]
  rfl

theorem layerRef_coe (l : Fin 3) (Y : R → I → ℝ) :
    layerRef (cW Win) (cW Wout) l (cM Y) = cM (layerRefR Win Wout l Y) := by
  funext r j
  show ∑ dh : Fin 4 × H,
        max (∑ i, ((Y r i : ℝ) : EReal) * ((Win l dh.1 i dh.2 : ℝ) : EReal)) 0
          * ((Wout l dh.1 dh.2 j : ℝ) : EReal)
      = ((∑ dh : Fin 4 × H, max (∑ i, Y r i * Win l dh.1 i dh.2) 0 * Wout l dh.1 dh.2 j : ℝ) : EReal)
  rw [coe_sum]
  refine Finset.sum_congr rfl (fun dh _ => ?_)
  rw [EReal.coe_mul, coe_max, EReal.coe_zero, coe_sum]
  simp only [EReal.coe_mul]

/-- The one-device result of real data is the image of the real one-device result. -/
theorem ref_coe (p : Fin 4) : ref (cX x) (cW Win) (cW Wout) p = cM (refR x Win Wout p) := by
  show layerRef (cW Win) (cW Wout) 2 (layerRef (cW Win) (cW Wout) 1
      (layerRef (cW Win) (cW Wout) 0 (cM (x p)))) = _
  rw [layerRef_coe, layerRef_coe, layerRef_coe]
  rfl

end Coe

/-! ## The identity over the reals -/

/-- In a commutative additive monoid the order of adding does not matter: each device's order of adding the
    four contributions gives their sum. -/
theorem gather4_eq_sum {α : Type} [AddCommMonoid α] (f : Fin 4 → α) (c : Fin 4) :
    gather4 f c = ∑ d, f d := by
  rw [Fin.sum_univ_four]
  match c with
  | 0 => show f 0 + f 3 + f 1 + f 2 = _; abel
  | 1 => show f 1 + f 0 + f 2 + f 3 = _; abel
  | 2 => show f 2 + f 1 + f 3 + f 0 = _; abel
  | 3 => show f 3 + f 2 + f 0 + f 1 = _; abel

section RealIdentity

variable {R I H : Type} [Fintype I] [Fintype H]

/-- The matrix product is additive in its left factor. -/
theorem mmR_sum_left {ι : Type} [Fintype ι] {K : Type} (Z : ι → R → I → ℝ) (W : I → K → ℝ) :
    mmR (∑ e, Z e) W = ∑ e, mmR (Z e) W := by
  funext r k
  rw [Finset.sum_apply, Finset.sum_apply]
  show ∑ i, (∑ e, Z e) r i * W i k = ∑ e, ∑ i, Z e r i * W i k
  rw [Finset.sum_comm]
  refine Finset.sum_congr rfl (fun i _ => ?_)
  rw [Finset.sum_apply, Finset.sum_apply, Finset.sum_mul]

variable (x : Fin 4 → R → I → ℝ)
variable (Win : Fin 3 → Fin 4 → I → H → ℝ) (Wout : Fin 3 → Fin 4 → H → I → ℝ)

/-- A one-device layer is the sum of the four devices' shares: the sum over pairs (device, position) is the
    sum over devices of the sums over positions. -/
theorem layerRefR_eq_sum (l : Fin 3) (Y : R → I → ℝ) :
    layerRefR Win Wout l Y = ∑ d, partR Y (Win l d) (Wout l d) := by
  funext r j
  rw [Finset.sum_apply, Finset.sum_apply]
  exact Fintype.sum_prod_type
    (fun dh : Fin 4 × H => max (∑ i, Y r i * Win l dh.1 i dh.2) 0 * Wout l dh.1 dh.2 j)

/-- Multiplying each of four matrices by W, adding the products in any device's order, clamping and multiplying
    by V is that device's share of the layer applied to the sum of the four matrices. -/
theorem stageR (Z : Fin 4 → R → I → ℝ) (W : I → H → ℝ) (V : H → I → ℝ) (c : Fin 4) :
    mmR (reluR (gather4 (fun e => mmR (Z e) W) c)) V = partR (∑ e, Z e) W V := by
  unfold partR
  rw [gather4_eq_sum, ← mmR_sum_left]

theorem sum_C0R (p : Fin 4) : ∑ e, C0R x Win Wout e p = layerRefR Win Wout 0 (x p) :=
  (layerRefR_eq_sum Win Wout 0 (x p)).symm

theorem C1R_eq (c p : Fin 4) :
    C1R x Win Wout c p = partR (layerRefR Win Wout 0 (x p)) (Win 1 c) (Wout 1 c) := by
  unfold C1R
  rw [stageR, sum_C0R]

theorem sum_C1R (p : Fin 4) :
    ∑ e, C1R x Win Wout e p = layerRefR Win Wout 1 (layerRefR Win Wout 0 (x p)) := by
  rw [layerRefR_eq_sum Win Wout 1]
  exact Finset.sum_congr rfl (fun e _ => C1R_eq x Win Wout e p)

theorem E2R_eq (c p : Fin 4) :
    E2R x Win Wout c p
      = partR (layerRefR Win Wout 1 (layerRefR Win Wout 0 (x p))) (Win 2 c) (Wout 2 c) := by
  unfold E2R
  rw [stageR, sum_C1R]

/-- Over the reals the four-device result for device c is the one-device result for row block c. -/
theorem outR_eq_refR (c : Fin 4) : outR x Win Wout c = refR x Win Wout c := by
  unfold outR refR
  rw [gather4_eq_sum, layerRefR_eq_sum Win Wout 2]
  exact Finset.sum_congr rfl (fun e _ => E2R_eq x Win Wout e c)

end RealIdentity

/-! ## The identity over the extended reals, for real entries -/

section Main

variable {R I H : Type} [Fintype I] [Fintype H]
variable (x : Fin 4 → R → I → EReal)
variable (Win : Fin 3 → Fin 4 → I → H → EReal) (Wout : Fin 3 → Fin 4 → H → I → EReal)

/-- If every entry of the input blocks and of the weight slices is a real number, device c's result of the
    four-device computation is the one-device result for row block c. -/
theorem out_eq_ref
    (hx : ∃ xr : Fin 4 → R → I → ℝ, ∀ p r i, x p r i = ((xr p r i : ℝ) : EReal))
    (hWin : ∃ Winr : Fin 3 → Fin 4 → I → H → ℝ, ∀ l d i h, Win l d i h = ((Winr l d i h : ℝ) : EReal))
    (hWout : ∃ Woutr : Fin 3 → Fin 4 → H → I → ℝ,
      ∀ l d h i, Wout l d h i = ((Woutr l d h i : ℝ) : EReal)) :
    ∀ c : Fin 4, out x Win Wout c = ref x Win Wout c := by
  obtain ⟨xr, hx⟩ := hx
  obtain ⟨Winr, hWin⟩ := hWin
  obtain ⟨Woutr, hWout⟩ := hWout
  have ex : x = cX xr := by funext p r i; exact hx p r i
  have eWin : Win = cW Winr := by funext l d i h; exact hWin l d i h
  have eWout : Wout = cW Woutr := by funext l d h i; exact hWout l d h i
  intro c
  rw [ex, eWin, eWout, out_coe, ref_coe, outR_eq_refR]

/-- With real entries every entry of the four-device result is a real number. -/
theorem out_finite
    (hx : ∃ xr : Fin 4 → R → I → ℝ, ∀ p r i, x p r i = ((xr p r i : ℝ) : EReal))
    (hWin : ∃ Winr : Fin 3 → Fin 4 → I → H → ℝ, ∀ l d i h, Win l d i h = ((Winr l d i h : ℝ) : EReal))
    (hWout : ∃ Woutr : Fin 3 → Fin 4 → H → I → ℝ,
      ∀ l d h i, Wout l d h i = ((Woutr l d h i : ℝ) : EReal)) :
    ∃ v : Fin 4 → R → I → ℝ, ∀ c r j, out x Win Wout c r j = ((v c r j : ℝ) : EReal) := by
  obtain ⟨xr, hx⟩ := hx
  obtain ⟨Winr, hWin⟩ := hWin
  obtain ⟨Woutr, hWout⟩ := hWout
  have ex : x = cX xr := by funext p r i; exact hx p r i
  have eWin : Win = cW Winr := by funext l d i h; exact hWin l d i h
  have eWout : Wout = cW Woutr := by funext l d h i; exact hWout l d h i
  refine ⟨outR xr Winr Woutr, fun c r j => ?_⟩
  rw [ex, eWin, eWout, out_coe]
  rfl

/-- With real entries every entry of the one-device result is a real number. -/
theorem ref_finite
    (hx : ∃ xr : Fin 4 → R → I → ℝ, ∀ p r i, x p r i = ((xr p r i : ℝ) : EReal))
    (hWin : ∃ Winr : Fin 3 → Fin 4 → I → H → ℝ, ∀ l d i h, Win l d i h = ((Winr l d i h : ℝ) : EReal))
    (hWout : ∃ Woutr : Fin 3 → Fin 4 → H → I → ℝ,
      ∀ l d h i, Wout l d h i = ((Woutr l d h i : ℝ) : EReal)) :
    ∃ v : Fin 4 → R → I → ℝ, ∀ p r j, ref x Win Wout p r j = ((v p r j : ℝ) : EReal) := by
  obtain ⟨xr, hx⟩ := hx
  obtain ⟨Winr, hWin⟩ := hWin
  obtain ⟨Woutr, hWout⟩ := hWout
  have ex : x = cX xr := by funext p r i; exact hx p r i
  have eWin : Win = cW Winr := by funext l d i h; exact hWin l d i h
  have eWout : Wout = cW Woutr := by funext l d h i; exact hWout l d h i
  refine ⟨refR xr Winr Woutr, fun p r j => ?_⟩
  rw [ex, eWin, eWout, ref_coe]
  rfl

end Main

end Cert.Proof.MlpMath

end

/-- info: 'Cert.Proof.MlpMath.out_eq_ref' depends on axioms: [propext, Classical.choice, Quot.sound] -/
#guard_msgs in
#print axioms Cert.Proof.MlpMath.out_eq_ref
-- ==== Proof.KVal.lean ====
import proofs.«900991_g7700000000000992_dist_mlpseq_tp1d_rep_bs_b256_d256_h512_v7x_i4_bf16_1_alg».proof.Proof.KValG
import proofs.«900991_g7700000000000992_dist_mlpseq_tp1d_rep_bs_b256_d256_h512_v7x_i4_bf16_1_alg».proof.Proof.MlpMath
import Idealize.ShloMosaic.Lib.Pipeline.Value
import Idealize.ShloMosaic.Lib.ValueIdx
import Idealize.ShloMosaic.Lib.ValueLayout
import Idealize.ShloMosaic.PureOps.Ideal.Laws

/-!
# The values the program stores, at the ideal values, read as matrices

At the ideal values (extended reals, where rounding to a narrower format and widening back are the identity and a
matrix product into a zero accumulator is a plain sum) each stored vector, read as a matrix, is expressed with
the matrix product, the clamp at zero and the sums of the three-layer perceptron.
-/

noncomputable section

namespace Cert.KernelIdeal.KVal

open Cert.KernelIdeal Cert.KernelIdeal.Gen Idealize.ShloMosaic Idealize.SL.Sem

/-! ## At the ideal values, read as matrices -/

section AtIdeal

open ValueIdx Cert.Proof

/-- A rank-2 vector as a matrix. -/
def m2 {a b : Nat} (v : (⟨2, ![a, b]⟩ : Shape).Idx → EReal) : Fin a → Fin b → EReal :=
  fun r c => v (ix2 r c)
/-- A vector with two leading unit axes as a matrix. -/
def m4 {a b : Nat} (v : (⟨4, ![1, 1, a, b]⟩ : Shape).Idx → EReal) : Fin a → Fin b → EReal :=
  fun r c => v (ix4 (0 : Fin 1) (0 : Fin 1) r c)
/-- A vector with three leading unit axes as a matrix. -/
def m5 {a b : Nat} (v : (⟨5, ![1, 1, 1, a, b]⟩ : Shape).Idx → EReal) : Fin a → Fin b → EReal :=
  fun r c => v (ix5 (0 : Fin 1) (0 : Fin 1) (0 : Fin 1) r c)
/-- Row block p (64 rows) of a matrix of 256 rows. -/
def rowBlock (p : Fin 4) (X : Fin 256 → Fin 256 → EReal) : Fin 64 → Fin 256 → EReal :=
  fun r c => X ⟨64 * p.val + r.val, by have := p.isLt; have := r.isLt; omega⟩ c

theorem m2_apply {a b : Nat} (v : (⟨2, ![a, b]⟩ : Shape).Idx → EReal) (r : Fin a) (c : Fin b) :
    m2 v r c = v (ix2 r c) := rfl
theorem m4_apply {a b : Nat} (v : (⟨4, ![1, 1, a, b]⟩ : Shape).Idx → EReal) (r : Fin a) (c : Fin b) :
    m4 v r c = v (ix4 (0 : Fin 1) (0 : Fin 1) r c) := rfl
theorem m5_apply {a b : Nat} (v : (⟨5, ![1, 1, 1, a, b]⟩ : Shape).Idx → EReal) (r : Fin a) (c : Fin b) :
    m5 v r c = v (ix5 (0 : Fin 1) (0 : Fin 1) (0 : Fin 1) r c) := rfl

/-! ### The shape casts only rename indices -/

theorem m2_down5 (a : FVec Ideal S1x1x1x64x256 .bf16) : m2 (down5 (F := Ideal) a) = m5 a := by
  funext r c
  exact shapeCast_apply a _ (ix2 r c) (ix5 (0 : Fin 1) (0 : Fin 1) (0 : Fin 1) r c) (by
    rw [Shape.rowMajor_val_five, Shape.rowMajor_val_two]
    show ((((0 * 1 + 0) * 1 + 0) * 64 + r.val) * 256 + c.val) = r.val * 256 + c.val
    simp only [Nat.zero_mul, Nat.zero_add])

theorem m5_up5 (a : FVec Ideal S64x256 .bf16) : m5 (up5 a) = m2 a := by
  funext r c
  exact shapeCast_apply a _ (ix5 (0 : Fin 1) (0 : Fin 1) (0 : Fin 1) r c) (ix2 r c) (by
    rw [Shape.rowMajor_val_five, Shape.rowMajor_val_two]
    show r.val * 256 + c.val = ((((0 * 1 + 0) * 1 + 0) * 64 + r.val) * 256 + c.val)
    simp only [Nat.zero_mul, Nat.zero_add])

theorem m2_down4 (a : FVec Ideal S1x1x64x256 .bf16) : m2 (down4 (F := Ideal) a) = m4 a := by
  funext r c
  exact shapeCast_apply a _ (ix2 r c) (ix4 (0 : Fin 1) (0 : Fin 1) r c) (by
    rw [Shape.rowMajor_val_four, Shape.rowMajor_val_two]
    show (((0 * 1 + 0) * 64 + r.val) * 256 + c.val) = r.val * 256 + c.val
    simp only [Nat.zero_mul, Nat.zero_add])

theorem m4_up4 (a : FVec Ideal S64x256 .bf16) : m4 (up4 a) = m2 a := by
  funext r c
  exact shapeCast_apply a _ (ix4 (0 : Fin 1) (0 : Fin 1) r c) (ix2 r c) (by
    rw [Shape.rowMajor_val_four, Shape.rowMajor_val_two]
    show r.val * 256 + c.val = (((0 * 1 + 0) * 64 + r.val) * 256 + c.val)
    simp only [Nat.zero_mul, Nat.zero_add])

/-! ### Rounding and widening are the identity; addition is entrywise -/

theorem m2_rnd (a : FVec Ideal S64x256 .f32) : m2 (rnd a) = m2 a := rfl
theorem m2_wid (a : FVec Ideal S64x256 .bf16) : m2 (wid a) = m2 a := rfl
theorem m2_addf {s0 s1 : Nat} {φ : FTy} (a b : FVec Ideal ⟨2, ![s0, s1]⟩ φ) :
    m2 (addf a b) = m2 a + m2 b := rfl

/-- The rounded copies of the loaded weights and of the input are the loaded arrays. -/
theorem pay53_ideal (x : FVec Ideal S256x256 .f32) : k0_pay53 (F := Ideal) x = x :=
  shapeCast_self x _
theorem pay54_ideal (w : FVec Ideal S256x512 .f32) : k0_pay54 (F := Ideal) w = w :=
  shapeCast_self w _
theorem pay55_ideal (w : FVec Ideal S512x256 .f32) : k0_pay55 (F := Ideal) w = w :=
  shapeCast_self w _
theorem pay61_ideal (w : FVec Ideal S256x512 .f32) : k0_pay61 (F := Ideal) w = w :=
  shapeCast_self w _
theorem pay62_ideal (w : FVec Ideal S512x256 .f32) : k0_pay62 (F := Ideal) w = w :=
  shapeCast_self w _
theorem pay79_ideal (w : FVec Ideal S256x512 .f32) : k0_pay79 (F := Ideal) w = w :=
  shapeCast_self w _
theorem pay80_ideal (w : FVec Ideal S512x256 .f32) : k0_pay80 (F := Ideal) w = w :=
  shapeCast_self w _

/-! ### The row slices -/

theorem m2_rowsOf (x : FVec Ideal S256x256 .bf16) (p : Fin 4) : m2 (rowsOf x p) = rowBlock p (m2 x) := by
  funext r c
  match p with
  | ⟨0, _⟩ =>
    show extractStridedSlice S64x256 ![0, 0] x slices_S256x256_o0_0_S64x256 (ix2 r c)
      = x (ix2 ⟨64 * 0 + r.val, by have := r.isLt; omega⟩ c)
    exact slice2_axis0_apply 0 x slices_S256x256_o0_0_S64x256 r c _ (by show 64 * 0 + r.val = 0 + r.val; omega)
  | ⟨1, _⟩ =>
    show extractStridedSlice S64x256 ![64, 0] x slices_S256x256_o64_0_S64x256 (ix2 r c)
      = x (ix2 ⟨64 * 1 + r.val, by have := r.isLt; omega⟩ c)
    exact slice2_axis0_apply 64 x slices_S256x256_o64_0_S64x256 r c _ (by show 64 * 1 + r.val = 64 + r.val; omega)
  | ⟨2, _⟩ =>
    show extractStridedSlice S64x256 ![128, 0] x slices_S256x256_o128_0_S64x256 (ix2 r c)
      = x (ix2 ⟨64 * 2 + r.val, by have := r.isLt; omega⟩ c)
    exact slice2_axis0_apply 128 x slices_S256x256_o128_0_S64x256 r c _ (by show 64 * 2 + r.val = 128 + r.val; omega)
  | ⟨3, _⟩ =>
    show extractStridedSlice S64x256 ![192, 0] x slices_S256x256_o192_0_S64x256 (ix2 r c)
      = x (ix2 ⟨64 * 3 + r.val, by have := r.isLt; omega⟩ c)
    exact slice2_axis0_apply 192 x slices_S256x256_o192_0_S64x256 r c _ (by show 64 * 3 + r.val = 192 + r.val; omega)

/-! ### The two matrix products -/

theorem lhs_dot1_0 (i : S64x512.Idx) (q : dot_S64x256_S256x512_S64x512_1_0_0_1_n_n.contr.Idx) :
    (dot_S64x256_S256x512_S64x512_1_0_0_1_n_n.lhsIdx i q 0).val = (i 0).val := by
  unfold DotDims.lhsIdx
  rw [dif_neg (show ¬(0 : Fin S64x256.rank) ∈ dot_S64x256_S256x512_S64x512_1_0_0_1_n_n.lhsBatch by decide), dif_pos (show (0 : Fin S64x256.rank) ∈ dot_S64x256_S256x512_S64x512_1_0_0_1_n_n.lhsNonContracting by decide)]
  rfl
theorem lhs_dot1_1 (i : S64x512.Idx) (q : dot_S64x256_S256x512_S64x512_1_0_0_1_n_n.contr.Idx) :
    (dot_S64x256_S256x512_S64x512_1_0_0_1_n_n.lhsIdx i q 1).val = (q ⟨0, by decide⟩).val :=
  dot_S64x256_S256x512_S64x512_1_0_0_1_n_n.lhsIdx_val_of_single rfl i q
theorem rhs_dot1_0 (i : S64x512.Idx) (q : dot_S64x256_S256x512_S64x512_1_0_0_1_n_n.contr.Idx) :
    (dot_S64x256_S256x512_S64x512_1_0_0_1_n_n.rhsIdx i q 0).val = (q ⟨0, by decide⟩).val :=
  dot_S64x256_S256x512_S64x512_1_0_0_1_n_n.rhsIdx_val_of_single rfl i q
theorem rhs_dot1_1 (i : S64x512.Idx) (q : dot_S64x256_S256x512_S64x512_1_0_0_1_n_n.contr.Idx) :
    (dot_S64x256_S256x512_S64x512_1_0_0_1_n_n.rhsIdx i q 1).val = (i 1).val := by
  unfold DotDims.rhsIdx
  rw [dif_neg (show ¬(1 : Fin S256x512.rank) ∈ dot_S64x256_S256x512_S64x512_1_0_0_1_n_n.rhsBatch by decide), dif_pos (show (1 : Fin S256x512.rank) ∈ dot_S64x256_S256x512_S64x512_1_0_0_1_n_n.rhsNonContracting by decide)]
  rfl

/-- A 64 × 256 matrix times a 256 × 512 one into the zero accumulator, at an entry. -/
theorem dot1_apply (a : FVec Ideal S64x256 .bf16) (w : FVec Ideal S256x512 .bf16) (r : Fin 64) (h : Fin 512) :
    matmul dot_S64x256_S256x512_S64x512_1_0_0_1_n_n none a w (constant (F := Ideal) S64x512 .f32 0x00000000#32) (ix2 r h)
      = ∑ k : Fin 256, a (ix2 r k) * w (ix2 k h) := by
  simp only [matmul]
  rw [Ideal.matmul_constant_zero_apply, ← Equiv.sum_comp (ValueIdx.contrEquiv1 dot_S64x256_S256x512_S64x512_1_0_0_1_n_n 256 rfl rfl).symm]
  refine Finset.sum_congr rfl fun k _ => ?_
  have hk := ValueIdx.contrEquiv1_symm_val dot_S64x256_S256x512_S64x512_1_0_0_1_n_n 256 rfl rfl k
  have el : dot_S64x256_S256x512_S64x512_1_0_0_1_n_n.lhsIdx (ix2 r h) ((ValueIdx.contrEquiv1 dot_S64x256_S256x512_S64x512_1_0_0_1_n_n 256 rfl rfl).symm k) = ix2 r k := funext fun ax => Fin.ext (by
    match ax with
    | ⟨0, _⟩ => exact lhs_dot1_0 _ _
    | ⟨1, _⟩ => exact (lhs_dot1_1 _ _).trans hk)
  have er : dot_S64x256_S256x512_S64x512_1_0_0_1_n_n.rhsIdx (ix2 r h) ((ValueIdx.contrEquiv1 dot_S64x256_S256x512_S64x512_1_0_0_1_n_n 256 rfl rfl).symm k) = ix2 k h := funext fun ax => Fin.ext (by
    match ax with
    | ⟨0, _⟩ => exact (rhs_dot1_0 _ _).trans hk
    | ⟨1, _⟩ => exact rhs_dot1_1 _ _)
  rw [el, er]

theorem lhs_dot2_0 (i : S64x256.Idx) (q : dot_S64x512_S512x256_S64x256_1_0_0_1_n_n.contr.Idx) :
    (dot_S64x512_S512x256_S64x256_1_0_0_1_n_n.lhsIdx i q 0).val = (i 0).val := by
  unfold DotDims.lhsIdx
  rw [dif_neg (show ¬(0 : Fin S64x512.rank) ∈ dot_S64x512_S512x256_S64x256_1_0_0_1_n_n.lhsBatch by decide), dif_pos (show (0 : Fin S64x512.rank) ∈ dot_S64x512_S512x256_S64x256_1_0_0_1_n_n.lhsNonContracting by decide)]
  rfl
theorem lhs_dot2_1 (i : S64x256.Idx) (q : dot_S64x512_S512x256_S64x256_1_0_0_1_n_n.contr.Idx) :
    (dot_S64x512_S512x256_S64x256_1_0_0_1_n_n.lhsIdx i q 1).val = (q ⟨0, by decide⟩).val :=
  dot_S64x512_S512x256_S64x256_1_0_0_1_n_n.lhsIdx_val_of_single rfl i q
theorem rhs_dot2_0 (i : S64x256.Idx) (q : dot_S64x512_S512x256_S64x256_1_0_0_1_n_n.contr.Idx) :
    (dot_S64x512_S512x256_S64x256_1_0_0_1_n_n.rhsIdx i q 0).val = (q ⟨0, by decide⟩).val :=
  dot_S64x512_S512x256_S64x256_1_0_0_1_n_n.rhsIdx_val_of_single rfl i q
theorem rhs_dot2_1 (i : S64x256.Idx) (q : dot_S64x512_S512x256_S64x256_1_0_0_1_n_n.contr.Idx) :
    (dot_S64x512_S512x256_S64x256_1_0_0_1_n_n.rhsIdx i q 1).val = (i 1).val := by
  unfold DotDims.rhsIdx
  rw [dif_neg (show ¬(1 : Fin S512x256.rank) ∈ dot_S64x512_S512x256_S64x256_1_0_0_1_n_n.rhsBatch by decide), dif_pos (show (1 : Fin S512x256.rank) ∈ dot_S64x512_S512x256_S64x256_1_0_0_1_n_n.rhsNonContracting by decide)]
  rfl

/-- A 64 × 512 matrix times a 512 × 256 one into the zero accumulator, at an entry. -/
theorem dot2_apply (a : FVec Ideal S64x512 .bf16) (v : FVec Ideal S512x256 .bf16) (r : Fin 64) (j : Fin 256) :
    matmul dot_S64x512_S512x256_S64x256_1_0_0_1_n_n none a v (constant (F := Ideal) S64x256 .f32 0x00000000#32) (ix2 r j)
      = ∑ k : Fin 512, a (ix2 r k) * v (ix2 k j) := by
  simp only [matmul]
  rw [Ideal.matmul_constant_zero_apply, ← Equiv.sum_comp (ValueIdx.contrEquiv1 dot_S64x512_S512x256_S64x256_1_0_0_1_n_n 512 rfl rfl).symm]
  refine Finset.sum_congr rfl fun k _ => ?_
  have hk := ValueIdx.contrEquiv1_symm_val dot_S64x512_S512x256_S64x256_1_0_0_1_n_n 512 rfl rfl k
  have el : dot_S64x512_S512x256_S64x256_1_0_0_1_n_n.lhsIdx (ix2 r j) ((ValueIdx.contrEquiv1 dot_S64x512_S512x256_S64x256_1_0_0_1_n_n 512 rfl rfl).symm k) = ix2 r k := funext fun ax => Fin.ext (by
    match ax with
    | ⟨0, _⟩ => exact lhs_dot2_0 _ _
    | ⟨1, _⟩ => exact (lhs_dot2_1 _ _).trans hk)
  have er : dot_S64x512_S512x256_S64x256_1_0_0_1_n_n.rhsIdx (ix2 r j) ((ValueIdx.contrEquiv1 dot_S64x512_S512x256_S64x256_1_0_0_1_n_n 512 rfl rfl).symm k) = ix2 k j := funext fun ax => Fin.ext (by
    match ax with
    | ⟨0, _⟩ => exact (rhs_dot2_0 _ _).trans hk
    | ⟨1, _⟩ => exact rhs_dot2_1 _ _)
  rw [el, er]

/-- The first product of a layer, as matrices. -/
theorem m2_dotIn (w : FVec Ideal S256x512 .bf16) (a : FVec Ideal S64x256 .bf16) :
    m2 (dotIn w a) = MlpMath.mm (m2 a) (m2 w) := by
  funext r h
  exact dot1_apply a w r h

/-- Clamp, round and second product of a layer, as matrices. -/
theorem m2_act (v : FVec Ideal S512x256 .bf16) (pre : FVec Ideal S64x512 .f32) :
    m2 (act v pre) = MlpMath.mm (MlpMath.relu (m2 pre)) (m2 v) := by
  funext r j
  show matmul dot_S64x512_S512x256_S64x256_1_0_0_1_n_n none
      (truncf .bf16 (maximumf pre (broadcast S64x512 (Scalar.ofBits (F := Ideal) .f32 0x00000000#32))) bitsLt_bf16_f32) v
      (constant (F := Ideal) S64x256 .f32 0x00000000#32) (ix2 r j)
    = ∑ h : Fin 512, max (pre (ix2 r h)) 0 * v (ix2 h j)
  rw [dot2_apply]
  refine Finset.sum_congr rfl fun h _ => ?_
  show max (pre (ix2 r h)) (Ideal.ofBits .f32 0x00000000#32) * v (ix2 h j) = _
  rw [Ideal.ofBits_zero_f32]

end AtIdeal

/-! ### The stored vectors as matrices -/

section Stored

open ValueIdx Cert.Proof

/-- One device's share of a layer applied to four contributions added in the order given: multiply each by
    the first weight slice, add, clamp at zero, multiply by the second weight slice. -/
def fold4 (W : Fin 256 → Fin 512 → EReal) (V : Fin 512 → Fin 256 → EReal)
    (a0 a1 a3 a2 : Fin 64 → Fin 256 → EReal) : Fin 64 → Fin 256 → EReal :=
  MlpMath.mm (MlpMath.relu (MlpMath.mm a0 W + MlpMath.mm a1 W + MlpMath.mm a3 W + MlpMath.mm a2 W)) V

/-- With the four contributions those of devices c, c-1, c-3, c-2, this is the order in which device c adds. -/
theorem fold4_gather4 (W : Fin 256 → Fin 512 → EReal) (V : Fin 512 → Fin 256 → EReal)
    (f : Fin 4 → Fin 64 → Fin 256 → EReal) (c : Fin 4) :
    fold4 W V (f c) (f (c - 1)) (f (c - 3)) (f (c - 2))
      = MlpMath.mm (MlpMath.relu (MlpMath.gather4 (fun e => MlpMath.mm (f e) W) c)) V := rfl

/-- Layer 0: the vector stored for row block p is that block's share of the first layer. -/
theorem m5_st0 (x : FVec Ideal S256x256 .f32) (win : FVec Ideal S256x512 .f32) (wout : FVec Ideal S512x256 .f32)
    (p : Fin 4) :
    m5 (st0 (F := Ideal) x win wout p) = MlpMath.part (rowBlock p (m2 x)) (m2 win) (m2 wout) := by
  rw [st0_eq, m5_up5, m2_rnd, m2_act, m2_dotIn, m2_rowsOf, pay53_ideal, pay54_ideal, pay55_ideal]
  rfl

/-- Layer 1: the vector stored for row block p, from the four loaded slots 0, 1, 3, 2 of that block. -/
theorem m5_st1 (win : FVec Ideal S256x512 .f32) (wout : FVec Ideal S512x256 .f32)
    (own s1 s3 s2 : FVec Ideal S1x1x1x64x256 .bf16) (p : Fin 4) :
    m5 (st1 (F := Ideal) win wout own s1 s3 s2 p)
      = fold4 (m2 win) (m2 wout) (m5 own) (m5 s1) (m5 s3) (m5 s2) := by
  rw [st1_eq, m5_up5, m2_rnd, m2_act, pay61_ideal, pay62_ideal]
  simp only [m2_addf, m2_dotIn, m2_down5]
  rfl

/-- Layer 2, first fold on device k. -/
theorem m4_rsc2 (k : Fin 4) (w : FVec Ideal S256x512 .bf16) (v : FVec Ideal S512x256 .bf16)
    (own s1 s3 s2 : FVec Ideal S1x1x1x64x256 .bf16) :
    m4 (rsc2 (F := Ideal) k w v own s1 s3 s2) = fold4 (m2 w) (m2 v) (m5 own) (m5 s1) (m5 s3) (m5 s2) := by
  rw [rsc2_eq, m4_up4, m2_rnd, m2_act]
  simp only [m2_addf, m2_dotIn, m2_down5]
  rfl

/-- Layer 2, second fold on device k. -/
theorem m4_rsc1 (k : Fin 4) (w : FVec Ideal S256x512 .bf16) (v : FVec Ideal S512x256 .bf16)
    (own s1 s3 s2 : FVec Ideal S1x1x1x64x256 .bf16) :
    m4 (rsc1 (F := Ideal) k w v own s1 s3 s2) = fold4 (m2 w) (m2 v) (m5 own) (m5 s1) (m5 s3) (m5 s2) := by
  rw [rsc1_eq, m4_up4, m2_rnd, m2_act]
  simp only [m2_addf, m2_dotIn, m2_down5]
  rfl

/-- Layer 2, third fold on device k. -/
theorem m4_rsc3 (k : Fin 4) (w : FVec Ideal S256x512 .bf16) (v : FVec Ideal S512x256 .bf16)
    (own s1 s3 s2 : FVec Ideal S1x1x1x64x256 .bf16) :
    m4 (rsc3 (F := Ideal) k w v own s1 s3 s2) = fold4 (m2 w) (m2 v) (m5 own) (m5 s1) (m5 s3) (m5 s2) := by
  rw [rsc3_eq, m4_up4, m2_rnd, m2_act]
  simp only [m2_addf, m2_dotIn, m2_down5]
  rfl

/-- Layer 2, last fold on device k and the final sum: the device's own share plus the three exchanged shares
    in the order slot 1, slot 3, slot 2. -/
theorem m2_outv (k : Fin 4) (w : FVec Ideal S256x512 .bf16) (v : FVec Ideal S512x256 .bf16)
    (own s1 s3 s2 : FVec Ideal S1x1x1x64x256 .bf16) (r1 r3 r2 : FVec Ideal S1x1x64x256 .bf16) :
    m2 (outv (F := Ideal) k w v own s1 s3 s2 r1 r3 r2)
      = fold4 (m2 w) (m2 v) (m5 own) (m5 s1) (m5 s3) (m5 s2) + m4 r1 + m4 r3 + m4 r2 := by
  rw [outv_eq]
  simp only [m2_addf, m2_wid, m2_down4, m2_act, m2_dotIn, m2_down5]
  rfl

/-- The final sum with the shares those of devices c, c-1, c-3, c-2 is the order in which device c adds. -/
theorem out_gather4 (f : Fin 4 → Fin 64 → Fin 256 → EReal) (c : Fin 4) :
    f c + f (c - 1) + f (c - 3) + f (c - 2) = MlpMath.gather4 f c := rfl

end Stored

end Cert.KernelIdeal.KVal

end
-- ==== Proof.RefSide.lean ====
import proofs.«900991_g7700000000000992_dist_mlpseq_tp1d_rep_bs_b256_d256_h512_v7x_i4_bf16_1_alg».proof.Defs
import proofs.«900991_g7700000000000992_dist_mlpseq_tp1d_rep_bs_b256_d256_h512_v7x_i4_bf16_1_alg».proof.Proof.Gen.ReferenceIdeal
import proofs.«900991_g7700000000000992_dist_mlpseq_tp1d_rep_bs_b256_d256_h512_v7x_i4_bf16_1_alg».proof.Proof.Gen.ReferenceIdeal.Run
import proofs.«900991_g7700000000000992_dist_mlpseq_tp1d_rep_bs_b256_d256_h512_v7x_i4_bf16_1_alg».proof.Proof.Gen.ReferenceIdeal.Read

noncomputable section

namespace Cert.Proof.RefSide

open Idealize.ShloMosaic Idealize.ShloMosaic.TcCoe Idealize.SL.Sem

/-- The one-device reference runs to the end from any memory, and leaves its seven argument arrays as they were:
    its run read back, with the result's value dropped. -/
theorem frame_ref [Cert.ReferenceIdeal.Facts] [Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.RefVal.lean ====
import proofs.«900991_g7700000000000992_dist_mlpseq_tp1d_rep_bs_b256_d256_h512_v7x_i4_bf16_1_alg».proof.Proof.RefSide
import Idealize.ShloMosaic.Lib.ValueIdx
import Idealize.ShloMosaic.Lib.Layout
import Idealize.ShloMosaic.PureOps.Ideal.Laws
import Mathlib.Algebra.BigOperators.Fin
import Mathlib.Logic.Equiv.Fin.Basic

noncomputable section

open scoped BigOperators

namespace Cert.Proof.RefVal

open Cert.ReferenceIdeal Cert.ReferenceIdeal.Gen Cert.ReferenceIdeal.Read Idealize.ShloMosaic Idealize.ShloMosaic.ValueIdx

/-! ## The reference, entry by entry

One layer of the reference sends a 256 × 256 array `Y` to `relu (Y · W) · V`: entry `(r, j)` is the sum over the
2048 hidden units `k` of `max (∑ i, Y r i * W i k) 0 * V k j`. The reference is three such layers. -/

/-- One layer at an entry: `(relu (Y · W) · V) r j`. -/
def L (W : (⟨S256x2048, .f32⟩ : BufTy).Contents (Elt Ideal)) (V : (⟨S2048x256, .f32⟩ : BufTy).Contents (Elt Ideal))
    (Y : Fin 256 → Fin 256 → EReal) : Fin 256 → Fin 256 → EReal :=
  fun r j => ∑ k : Fin 2048, max (∑ i : Fin 256, Y r i * W (ix2 i k)) 0 * V (ix2 k j)

/-! ### Where the contractions read their operands, by coordinates -/

theorem lidx_v0 (r : Fin 256) (k : Fin 2048) (i : Fin 256) : lidx_main_v0 (ix2 r k) i = ix2 r i := by
  funext a; match a with | ⟨0, _⟩ => rfl | ⟨1, _⟩ => rfl
theorem ridx_v0 (r : Fin 256) (k : Fin 2048) (i : Fin 256) : ridx_main_v0 (ix2 r k) i = ix2 i k := by
  funext a; match a with | ⟨0, _⟩ => rfl | ⟨1, _⟩ => rfl
theorem lidx_v3 (r j : Fin 256) (k : Fin 2048) : lidx_main_v3 (ix2 r j) k = ix2 r k := by
  funext a; match a with | ⟨0, _⟩ => rfl | ⟨1, _⟩ => rfl
theorem ridx_v3 (r j : Fin 256) (k : Fin 2048) : ridx_main_v3 (ix2 r j) k = ix2 k j := by
  funext a; match a with | ⟨0, _⟩ => rfl | ⟨1, _⟩ => rfl
theorem lidx_v4 (r : Fin 256) (k : Fin 2048) (i : Fin 256) : lidx_main_v4 (ix2 r k) i = ix2 r i := by
  funext a; match a with | ⟨0, _⟩ => rfl | ⟨1, _⟩ => rfl
theorem ridx_v4 (r : Fin 256) (k : Fin 2048) (i : Fin 256) : ridx_main_v4 (ix2 r k) i = ix2 i k := by
  funext a; match a with | ⟨0, _⟩ => rfl | ⟨1, _⟩ => rfl
theorem lidx_v7 (r j : Fin 256) (k : Fin 2048) : lidx_main_v7 (ix2 r j) k = ix2 r k := by
  funext a; match a with | ⟨0, _⟩ => rfl | ⟨1, _⟩ => rfl
theorem ridx_v7 (r j : Fin 256) (k : Fin 2048) : ridx_main_v7 (ix2 r j) k = ix2 k j := by
  funext a; match a with | ⟨0, _⟩ => rfl | ⟨1, _⟩ => rfl
theorem lidx_v8 (r : Fin 256) (k : Fin 2048) (i : Fin 256) : lidx_main_v8 (ix2 r k) i = ix2 r i := by
  funext a; match a with | ⟨0, _⟩ => rfl | ⟨1, _⟩ => rfl
theorem ridx_v8 (r : Fin 256) (k : Fin 2048) (i : Fin 256) : ridx_main_v8 (ix2 r k) i = ix2 i k := by
  funext a; match a with | ⟨0, _⟩ => rfl | ⟨1, _⟩ => rfl
theorem lidx_v11 (r j : Fin 256) (k : Fin 2048) : lidx_main_v11 (ix2 r j) k = ix2 r k := by
  funext a; match a with | ⟨0, _⟩ => rfl | ⟨1, _⟩ => rfl
theorem ridx_v11 (r j : Fin 256) (k : Fin 2048) : ridx_main_v11 (ix2 r j) k = ix2 k j := by
  funext a; match a with | ⟨0, _⟩ => rfl | ⟨1, _⟩ => rfl

/-- The zero the reference's `maximum` compares with is the extended real `0`. -/
theorem zero_word : FloatOps.ofBits (F := Ideal) .f32 0x00000000#32 = (0 : EReal) := Ideal.ofBits_zero_f32

/-! ### The three layers -/

/-- The first layer's result is `L x1 x2` of the input. -/
theorem layer1 (x0 : (⟨S256x256, .f32⟩ : BufTy).Contents (Elt Ideal)) (x1 : (⟨S256x2048, .f32⟩ : BufTy).Contents (Elt Ideal)) (x2 : (⟨S2048x256, .f32⟩ : BufTy).Contents (Elt Ideal)) (r j : Fin 256) :
    val_main_v3 (F := Ideal) x0 x1 x2 (ix2 r j) = L x1 x2 (fun r i => x0 (ix2 r i)) r j := by
  rw [val_main_v3_apply]
  unfold L
  refine Finset.sum_congr rfl fun k _ => ?_
  rw [lidx_v3, ridx_v3, val_main_v2_apply, val_main_v0_apply, val_main_v1_apply, val_main_cst_apply, zero_word,
    Ideal.maximumf_def]
  refine congrArg (fun s : EReal => max s 0 * x2 (ix2 k j)) (Finset.sum_congr rfl fun i _ => ?_)
  rw [lidx_v0, ridx_v0]

/-- The second layer's result is `L x3 x4` of the first layer's. -/
theorem layer2 (x0 : (⟨S256x256, .f32⟩ : BufTy).Contents (Elt Ideal)) (x1 : (⟨S256x2048, .f32⟩ : BufTy).Contents (Elt Ideal)) (x2 : (⟨S2048x256, .f32⟩ : BufTy).Contents (Elt Ideal)) (x3 : (⟨S256x2048, .f32⟩ : BufTy).Contents (Elt Ideal)) (x4 : (⟨S2048x256, .f32⟩ : BufTy).Contents (Elt Ideal)) (r j : Fin 256) :
    val_main_v7 (F := Ideal) x0 x1 x2 x3 x4 (ix2 r j)
      = L x3 x4 (fun r i => val_main_v3 (F := Ideal) x0 x1 x2 (ix2 r i)) r j := by
  rw [val_main_v7_apply]
  unfold L
  refine Finset.sum_congr rfl fun k _ => ?_
  rw [lidx_v7, ridx_v7, val_main_v6_apply, val_main_v4_apply, val_main_v5_apply, val_main_cst_0_apply, zero_word,
    Ideal.maximumf_def]
  refine congrArg (fun s : EReal => max s 0 * x4 (ix2 k j)) (Finset.sum_congr rfl fun i _ => ?_)
  rw [lidx_v4, ridx_v4]

/-- The third layer's result is `L x5 x6` of the second layer's. -/
theorem layer3 (x0 : (⟨S256x256, .f32⟩ : BufTy).Contents (Elt Ideal)) (x1 : (⟨S256x2048, .f32⟩ : BufTy).Contents (Elt Ideal)) (x2 : (⟨S2048x256, .f32⟩ : BufTy).Contents (Elt Ideal)) (x3 : (⟨S256x2048, .f32⟩ : BufTy).Contents (Elt Ideal)) (x4 : (⟨S2048x256, .f32⟩ : BufTy).Contents (Elt Ideal)) (x5 : (⟨S256x2048, .f32⟩ : BufTy).Contents (Elt Ideal)) (x6 : (⟨S2048x256, .f32⟩ : BufTy).Contents (Elt Ideal)) (r j : Fin 256) :
    val_main_v11 (F := Ideal) x0 x1 x2 x3 x4 x5 x6 (ix2 r j)
      = L x5 x6 (fun r i => val_main_v7 (F := Ideal) x0 x1 x2 x3 x4 (ix2 r i)) r j := by
  rw [val_main_v11_apply]
  unfold L
  refine Finset.sum_congr rfl fun k _ => ?_
  rw [lidx_v11, ridx_v11, val_main_v10_apply, val_main_v8_apply, val_main_v9_apply, val_main_cst_1_apply, zero_word,
    Ideal.maximumf_def]
  refine congrArg (fun s : EReal => max s 0 * x6 (ix2 k j)) (Finset.sum_congr rfl fun i _ => ?_)
  rw [lidx_v8, ridx_v8]

/-- The reference's result at entry `(r, j)`: three layers of `L` over the input. -/
theorem ref_entry (x0 : (⟨S256x256, .f32⟩ : BufTy).Contents (Elt Ideal)) (x1 : (⟨S256x2048, .f32⟩ : BufTy).Contents (Elt Ideal)) (x2 : (⟨S2048x256, .f32⟩ : BufTy).Contents (Elt Ideal)) (x3 : (⟨S256x2048, .f32⟩ : BufTy).Contents (Elt Ideal)) (x4 : (⟨S2048x256, .f32⟩ : BufTy).Contents (Elt Ideal)) (x5 : (⟨S256x2048, .f32⟩ : BufTy).Contents (Elt Ideal)) (x6 : (⟨S2048x256, .f32⟩ : BufTy).Contents (Elt Ideal)) (r j : Fin 256) :
    val_main_v11 (F := Ideal) x0 x1 x2 x3 x4 x5 x6 (ix2 r j)
      = L x5 x6 (L x3 x4 (L x1 x2 (fun r i => x0 (ix2 r i)))) r j := by
  rw [layer3]
  have h2 : (fun r i => val_main_v7 (F := Ideal) x0 x1 x2 x3 x4 (ix2 r i))
      = L x3 x4 (L x1 x2 (fun r i => x0 (ix2 r i))) := by
    funext r i
    rw [layer2]
    have h1 : (fun r i => val_main_v3 (F := Ideal) x0 x1 x2 (ix2 r i)) = L x1 x2 (fun r i => x0 (ix2 r i)) := by
      funext r i; exact layer1 x0 x1 x2 r i
    rw [h1]
  rw [h2]

/-! ### The run's term

The reference's run states its result as one composed term of the seven arguments; that term is the last stage. -/

/-- The term the reference's run leaves in its result is the last stage `val_main_v11`. -/
theorem ref_run_val {F : FTy → Type} [FloatOps F] (x0 : (⟨S256x256, .f32⟩ : BufTy).Contents (Elt F)) (x1 : (⟨S256x2048, .f32⟩ : BufTy).Contents (Elt F)) (x2 : (⟨S2048x256, .f32⟩ : BufTy).Contents (Elt F)) (x3 : (⟨S256x2048, .f32⟩ : BufTy).Contents (Elt F)) (x4 : (⟨S2048x256, .f32⟩ : BufTy).Contents (Elt F)) (x5 : (⟨S256x2048, .f32⟩ : BufTy).Contents (Elt F)) (x6 : (⟨S2048x256, .f32⟩ : BufTy).Contents (Elt F)) :
    Host.dotGeneral dot_S256x2048_S2048x256_S256x256_1_0_0_1_n_n none (maximumf (Host.dotGeneral dot_S256x256_S256x2048_S256x2048_1_0_0_1_n_n none (Host.dotGeneral dot_S256x2048_S2048x256_S256x256_1_0_0_1_n_n none (maximumf (Host.dotGeneral dot_S256x256_S256x2048_S256x2048_1_0_0_1_n_n none (Host.dotGeneral dot_S256x2048_S2048x256_S256x256_1_0_0_1_n_n none (maximumf (Host.dotGeneral dot_S256x256_S256x2048_S256x2048_1_0_0_1_n_n none (x0) (x1)) (broadcastInDim S256x2048 ![] bcast_S_S256x2048 (constant S_ .f32 0x00000000#32))) (x2)) (x3)) (broadcastInDim S256x2048 ![] bcast_S_S256x2048 (constant S_ .f32 0x00000000#32))) (x4)) (x5)) (broadcastInDim S256x2048 ![] bcast_S_S256x2048 (constant S_ .f32 0x00000000#32))) (x6)
      = val_main_v11 (F := F) x0 x1 x2 x3 x4 x5 x6 :=
  val_main_v11_eq (F := F) x0 x1 x2 x3 x4 x5 x6

/-- The run's term at entry `(r, j)`: three layers of `L` over the input. -/
theorem ref_run_entry (x0 : (⟨S256x256, .f32⟩ : BufTy).Contents (Elt Ideal)) (x1 : (⟨S256x2048, .f32⟩ : BufTy).Contents (Elt Ideal)) (x2 : (⟨S2048x256, .f32⟩ : BufTy).Contents (Elt Ideal)) (x3 : (⟨S256x2048, .f32⟩ : BufTy).Contents (Elt Ideal)) (x4 : (⟨S2048x256, .f32⟩ : BufTy).Contents (Elt Ideal)) (x5 : (⟨S256x2048, .f32⟩ : BufTy).Contents (Elt Ideal)) (x6 : (⟨S2048x256, .f32⟩ : BufTy).Contents (Elt Ideal)) (r j : Fin 256) :
    (Host.dotGeneral (F := Ideal) (φ₁ := .f32) (φ₂ := .f32) dot_S256x2048_S2048x256_S256x256_1_0_0_1_n_n none (maximumf (Host.dotGeneral (F := Ideal) (φ₁ := .f32) (φ₂ := .f32) dot_S256x256_S256x2048_S256x2048_1_0_0_1_n_n none (Host.dotGeneral (F := Ideal) (φ₁ := .f32) (φ₂ := .f32) dot_S256x2048_S2048x256_S256x256_1_0_0_1_n_n none (maximumf (Host.dotGeneral (F := Ideal) (φ₁ := .f32) (φ₂ := .f32) dot_S256x256_S256x2048_S256x2048_1_0_0_1_n_n none (Host.dotGeneral (F := Ideal) (φ₁ := .f32) (φ₂ := .f32) dot_S256x2048_S2048x256_S256x256_1_0_0_1_n_n none (maximumf (Host.dotGeneral (F := Ideal) (φ₁ := .f32) (φ₂ := .f32) dot_S256x256_S256x2048_S256x2048_1_0_0_1_n_n none (x0) (x1)) (broadcastInDim S256x2048 ![] bcast_S_S256x2048 (constant S_ .f32 0x00000000#32))) (x2)) (x3)) (broadcastInDim S256x2048 ![] bcast_S_S256x2048 (constant S_ .f32 0x00000000#32))) (x4)) (x5)) (broadcastInDim S256x2048 ![] bcast_S_S256x2048 (constant S_ .f32 0x00000000#32))) (x6)) (ix2 r j)
      = L x5 x6 (L x3 x4 (L x1 x2 (fun r i => x0 (ix2 r i)))) r j :=
  (congrFun (ref_run_val (F := Ideal) x0 x1 x2 x3 x4 x5 x6) (ix2 r j)).trans (ref_entry x0 x1 x2 x3 x4 x5 x6 r j)

/-! ## The hidden axis across the four devices

Each device `d` of the four holds 512 of the 2048 hidden units: columns `d · 512 + h` of an input weight, rows
`d · 512 + h` of an output weight; and 64 of the 256 rows of the result, rows `d · 64 + r'`. -/

/-- Device `d`'s block of an array cut along its columns: column `h` of the block is column `d · 512 + h` of the whole. -/
theorem block_cols {α : Type} (d : Fin 4) (W : (⟨2, ![256, 2048]⟩ : Shape).Idx → α) (i : Fin 256) (h : Fin 512) :
    (Layout.block ⟨2, ![256, 512]⟩ ⟨2, ![256, 2048]⟩ 1 4 d W) (ix2 i h)
      = W (ix2 i (⟨d.val * 512 + h.val, by omega⟩ : Fin 2048)) := by
  refine congrArg W (funext fun b => Fin.ext ?_)
  match b with
  | ⟨0, _⟩ => rfl
  | ⟨1, _⟩ => rfl

/-- Device `d`'s block of an array cut along its rows: row `h` of the block is row `d · 512 + h` of the whole. -/
theorem block_rows {α : Type} (d : Fin 4) (V : (⟨2, ![2048, 256]⟩ : Shape).Idx → α) (h : Fin 512) (j : Fin 256) :
    (Layout.block ⟨2, ![512, 256]⟩ ⟨2, ![2048, 256]⟩ 0 4 d V) (ix2 h j)
      = V (ix2 (⟨d.val * 512 + h.val, by omega⟩ : Fin 2048) j) := by
  refine congrArg V (funext fun b => Fin.ext ?_)
  match b with
  | ⟨0, _⟩ => rfl
  | ⟨1, _⟩ => rfl

/-- Device `d`'s block of the result, cut along its rows: row `r'` of the block is row `d · 64 + r'` of the whole. -/
theorem block_out {α : Type} (d : Fin 4) (Y : (⟨2, ![256, 256]⟩ : Shape).Idx → α) (r' : Fin 64) (j : Fin 256) :
    (Layout.block ⟨2, ![64, 256]⟩ ⟨2, ![256, 256]⟩ 0 4 d Y) (ix2 r' j)
      = Y (ix2 (⟨d.val * 64 + r'.val, by omega⟩ : Fin 256) j) := by
  refine congrArg Y (funext fun b => Fin.ext ?_)
  match b with
  | ⟨0, _⟩ => rfl
  | ⟨1, _⟩ => rfl

/-- A sum over the 2048 hidden units is the sum over (device, unit on the device): `k = d · 512 + h`. -/
theorem sum_hidden {M : Type*} [AddCommMonoid M] (f : Fin 2048 → M) :
    ∑ k : Fin 2048, f k = ∑ dh : Fin 4 × Fin 512, f ⟨dh.1.val * 512 + dh.2.val, by omega⟩ := by
  symm
  refine Fintype.sum_equiv ((finProdFinEquiv (m := 4) (n := 512)).trans (finCongr (by norm_num))) _ _
    fun dh => congrArg f (Fin.ext ?_)
  show dh.1.val * 512 + dh.2.val = dh.2.val + 512 * dh.1.val
  omega

/-- The same as a double sum: over the devices, then over the units on a device. -/
theorem sum_hidden' {M : Type*} [AddCommMonoid M] (f : Fin 2048 → M) :
    ∑ k : Fin 2048, f k = ∑ d : Fin 4, ∑ h : Fin 512, f ⟨d.val * 512 + h.val, by omega⟩ :=
  (sum_hidden f).trans (Fintype.sum_prod_type _)

end Cert.Proof.RefVal

end
-- ==== Proof.Join.lean ====
import proofs.«900991_g7700000000000992_dist_mlpseq_tp1d_rep_bs_b256_d256_h512_v7x_i4_bf16_1_alg».proof.Proof.JoinG
import proofs.«900991_g7700000000000992_dist_mlpseq_tp1d_rep_bs_b256_d256_h512_v7x_i4_bf16_1_alg».proof.Proof.KVal
import proofs.«900991_g7700000000000992_dist_mlpseq_tp1d_rep_bs_b256_d256_h512_v7x_i4_bf16_1_alg».proof.Proof.RefVal

/-!
# The four devices together, at the ideal values, and against the one-device reference

The value each device ends with, read at the ideal values, is the four-device perceptron of the mathematics
file; it is the device's block of rows of the one-device reference's result when the devices' weight arrays are
the blocks of the reference's and every entry is a real number.
-/

noncomputable section

namespace Cert.KernelIdeal.Join

open Cert.KernelIdeal Cert.KernelIdeal.Gen Cert.KernelIdeal.KVal Cert.KernelIdeal.Mlp Idealize.ShloMosaic
  Idealize.SL.Sem

/-! ## At the ideal values: the four-device perceptron -/

section AtIdeal

open Cert.Proof ValueIdx

variable (X : Dev nD → FVec Ideal S256x256 .f32) (Wi : Fin 3 → Dev nD → FVec Ideal S256x512 .f32)
  (Wo : Fin 3 → Dev nD → FVec Ideal S512x256 .f32)

/-- The replicated input as four row blocks of 64 rows. -/
def xM (X0 : FVec Ideal S256x256 .f32) : Fin 4 → Fin 64 → Fin 256 → EReal := fun p => rowBlock p (m2 X0)
/-- The first weight slices as matrices, by layer and device. -/
def WinM : Fin 3 → Fin 4 → Fin 256 → Fin 512 → EReal := fun l d => m2 (Wi l d)
/-- The second weight slices as matrices, by layer and device. -/
def WoutM : Fin 3 → Fin 4 → Fin 512 → Fin 256 → EReal := fun l d => m2 (Wo l d)

/-- At the ideal values the third-layer weight slices the branches receive are the loaded arrays. -/
theorem w2in_ideal (w : FVec Ideal S256x512 .f32) : w2in (F := Ideal) w = w := pay79_ideal w
theorem w2out_ideal (w : FVec Ideal S512x256 .f32) : w2out (F := Ideal) w = w := pay80_ideal w

variable (X0 : FVec Ideal S256x256 .f32) (hX : ∀ e, X e = X0)
include hX

theorem m5_V0 (e : Dev nD) (p : Fin 4) :
    m5 (V0 (F := Ideal) X Wi Wo e p) = MlpMath.C0 (xM X0) (WinM Wi) (WoutM Wo) e p := by
  unfold V0
  rw [m5_st0, hX]
  rfl

theorem m5_V1 (e : Dev nD) (p : Fin 4) :
    m5 (V1 (F := Ideal) X Wi Wo e p) = MlpMath.C1 (xM X0) (WinM Wi) (WoutM Wo) e p := by
  unfold V1
  rw [m5_st1, m5_V0 X Wi Wo X0 hX, m5_V0 X Wi Wo X0 hX, m5_V0 X Wi Wo X0 hX, m5_V0 X Wi Wo X0 hX,
    ps_one, ps_three, ps_two]
  exact fold4_gather4 (m2 (Wi 1 e)) (m2 (Wo 1 e)) (fun d => MlpMath.C0 (xM X0) (WinM Wi) (WoutM Wo) d p) e

theorem m4_V2_1 (e : Dev nD) :
    m4 (V2_1 (F := Ideal) X Wi Wo e) = MlpMath.E2 (xM X0) (WinM Wi) (WoutM Wo) e (pe e 1) := by
  unfold V2_1
  rw [m4_rsc1, m5_V1 X Wi Wo X0 hX, m5_V1 X Wi Wo X0 hX, m5_V1 X Wi Wo X0 hX, m5_V1 X Wi Wo X0 hX,
    ps_one, ps_three, ps_two, w2in_ideal, w2out_ideal]
  exact fold4_gather4 (m2 (Wi 2 e)) (m2 (Wo 2 e))
    (fun d => MlpMath.C1 (xM X0) (WinM Wi) (WoutM Wo) d (pe e 1)) e

theorem m4_V2_2 (e : Dev nD) :
    m4 (V2_2 (F := Ideal) X Wi Wo e) = MlpMath.E2 (xM X0) (WinM Wi) (WoutM Wo) e (pe e 2) := by
  unfold V2_2
  rw [m4_rsc2, m5_V1 X Wi Wo X0 hX, m5_V1 X Wi Wo X0 hX, m5_V1 X Wi Wo X0 hX, m5_V1 X Wi Wo X0 hX,
    ps_one, ps_three, ps_two, w2in_ideal, w2out_ideal]
  exact fold4_gather4 (m2 (Wi 2 e)) (m2 (Wo 2 e))
    (fun d => MlpMath.C1 (xM X0) (WinM Wi) (WoutM Wo) d (pe e 2)) e

theorem m4_V2_3 (e : Dev nD) :
    m4 (V2_3 (F := Ideal) X Wi Wo e) = MlpMath.E2 (xM X0) (WinM Wi) (WoutM Wo) e (pe e 3) := by
  unfold V2_3
  rw [m4_rsc3, m5_V1 X Wi Wo X0 hX, m5_V1 X Wi Wo X0 hX, m5_V1 X Wi Wo X0 hX, m5_V1 X Wi Wo X0 hX,
    ps_one, ps_three, ps_two, w2in_ideal, w2out_ideal]
  exact fold4_gather4 (m2 (Wi 2 e)) (m2 (Wo 2 e))
    (fun d => MlpMath.C1 (xM X0) (WinM Wi) (WoutM Wo) d (pe e 3)) e

/-- Device e's result, read as a matrix, is the four-device perceptron's result at e. -/
theorem m2_OutV (e : Dev nD) :
    m2 (OutV (F := Ideal) X Wi Wo e) = MlpMath.out (xM X0) (WinM Wi) (WoutM Wo) e := by
  unfold OutV
  rw [m2_outv, m5_V1 X Wi Wo X0 hX, m5_V1 X Wi Wo X0 hX, m5_V1 X Wi Wo X0 hX, m5_V1 X Wi Wo X0 hX,
    m4_V2_1 X Wi Wo X0 hX, m4_V2_3 X Wi Wo X0 hX, m4_V2_2 X Wi Wo X0 hX, pe_ps1, pe_ps3, pe_ps2,
    ps_one, ps_three, ps_two, w2in_ideal, w2out_ideal]
  rfl

end AtIdeal

/-! ## Against the one-device reference

The reference applies three layers to the whole 256-row input, each with 2048 hidden units.  Device d's weight
slices are the blocks of 512 hidden units starting at 512 d.  A layer acts row by row, so on a block of rows it
is the paired-index layer of the mathematics file on that block. -/

section Reference

open Cert.Proof Cert.Proof.RefVal ValueIdx

/-- One reference layer on row block e is the paired-index layer, when the devices' slices are the blocks of
    the layer's two weight arrays. -/
theorem layerRef_rowBlock (W : (⟨2, ![256, 2048]⟩ : Shape).Idx → EReal) (V : (⟨2, ![2048, 256]⟩ : Shape).Idx → EReal)
    (Win : Fin 3 → Fin 4 → Fin 256 → Fin 512 → EReal) (Wout : Fin 3 → Fin 4 → Fin 512 → Fin 256 → EReal) (l : Fin 3)
    (hW : ∀ d, Win l d = m2 (Layout.block ⟨2, ![256, 512]⟩ ⟨2, ![256, 2048]⟩ 1 4 d W))
    (hV : ∀ d, Wout l d = m2 (Layout.block ⟨2, ![512, 256]⟩ ⟨2, ![2048, 256]⟩ 0 4 d V))
    (Y : Fin 256 → Fin 256 → EReal) (e : Fin 4) :
    MlpMath.layerRef Win Wout l (rowBlock e Y) = rowBlock e (L W V Y) := by
  funext r j
  have hr : 64 * e.val + r.val < 256 := by have := e.isLt; have := r.isLt; omega
  show (∑ dh : Fin 4 × Fin 512, max (∑ i, Y ⟨64 * e.val + r.val, hr⟩ i * Win l dh.1 i dh.2) 0 * Wout l dh.1 dh.2 j)
    = ∑ k : Fin 2048, max (∑ i : Fin 256, Y ⟨64 * e.val + r.val, hr⟩ i * W (ix2 i k)) 0 * V (ix2 k j)
  rw [sum_hidden]
  refine Finset.sum_congr rfl fun dh _ => ?_
  have hw : ∀ i, Win l dh.1 i dh.2 = W (ix2 i ⟨dh.1.val * 512 + dh.2.val, by omega⟩) := fun i => by
    rw [hW]; exact block_cols dh.1 W i dh.2
  have hv : Wout l dh.1 dh.2 j = V (ix2 ⟨dh.1.val * 512 + dh.2.val, by omega⟩ j) := by
    rw [hV]; exact block_rows dh.1 V dh.2 j
  simp only [hw, hv]

/-- The choice of real witnesses, entry by entry. -/
theorem exists_real_fun {ι : Type} (f : ι → EReal) (h : ∀ i, ∃ r : ℝ, f i = (r : EReal)) :
    ∃ g : ι → ℝ, ∀ i, f i = ((g i : ℝ) : EReal) :=
  ⟨fun i => (h i).choose, fun i => (h i).choose_spec⟩

variable (x0 : (⟨Cert.ReferenceIdeal.S256x256, .f32⟩ : BufTy).Contents (Elt Ideal))
  (x1 : (⟨Cert.ReferenceIdeal.S256x2048, .f32⟩ : BufTy).Contents (Elt Ideal))
  (x2 : (⟨Cert.ReferenceIdeal.S2048x256, .f32⟩ : BufTy).Contents (Elt Ideal))
  (x3 : (⟨Cert.ReferenceIdeal.S256x2048, .f32⟩ : BufTy).Contents (Elt Ideal))
  (x4 : (⟨Cert.ReferenceIdeal.S2048x256, .f32⟩ : BufTy).Contents (Elt Ideal))
  (x5 : (⟨Cert.ReferenceIdeal.S256x2048, .f32⟩ : BufTy).Contents (Elt Ideal))
  (x6 : (⟨Cert.ReferenceIdeal.S2048x256, .f32⟩ : BufTy).Contents (Elt Ideal))
variable (X : Dev nD → FVec Ideal S256x256 .f32) (Wi : Fin 3 → Dev nD → FVec Ideal S256x512 .f32)
  (Wo : Fin 3 → Dev nD → FVec Ideal S512x256 .f32)

/-- Every device holds the reference's input; its weight slices are the blocks of the reference's weight
    arrays; all entries the devices hold are real numbers.  Then device e's result is its block of 64 rows of
    the reference's result. -/
theorem out_is_block
    (hX : ∀ e, X e = x0)
    (hWi0 : ∀ e, Wi 0 e = Layout.block ⟨2, ![256, 512]⟩ ⟨2, ![256, 2048]⟩ 1 4 e x1)
    (hWo0 : ∀ e, Wo 0 e = Layout.block ⟨2, ![512, 256]⟩ ⟨2, ![2048, 256]⟩ 0 4 e x2)
    (hWi1 : ∀ e, Wi 1 e = Layout.block ⟨2, ![256, 512]⟩ ⟨2, ![256, 2048]⟩ 1 4 e x3)
    (hWo1 : ∀ e, Wo 1 e = Layout.block ⟨2, ![512, 256]⟩ ⟨2, ![2048, 256]⟩ 0 4 e x4)
    (hWi2 : ∀ e, Wi 2 e = Layout.block ⟨2, ![256, 512]⟩ ⟨2, ![256, 2048]⟩ 1 4 e x5)
    (hWo2 : ∀ e, Wo 2 e = Layout.block ⟨2, ![512, 256]⟩ ⟨2, ![2048, 256]⟩ 0 4 e x6)
    (fX : ∀ e i, ∃ r : ℝ, X e i = (r : EReal))
    (fWi : ∀ l e i, ∃ r : ℝ, Wi l e i = (r : EReal))
    (fWo : ∀ l e i, ∃ r : ℝ, Wo l e i = (r : EReal))
    (e : Dev nD) :
    OutV (F := Ideal) X Wi Wo e
      = Layout.block ⟨2, ![64, 256]⟩ ⟨2, ![256, 256]⟩ 0 4 e
          (Cert.ReferenceIdeal.Read.val_main_v11 (F := Ideal) x0 x1 x2 x3 x4 x5 x6) := by
  funext i
  obtain ⟨r, j, rfl⟩ : ∃ (r : Fin 64) (j : Fin 256), i = ix2 r j := ⟨i 0, i 1, eq_ix2 i⟩
  rw [block_out, ref_entry]
  -- the devices' result is the four-device perceptron, equal to the paired-index form on real data
  have hx : ∃ xr : Fin 4 → Fin 64 → Fin 256 → ℝ, ∀ p r i, xM x0 p r i = ((xr p r i : ℝ) : EReal) := by
    obtain ⟨g, hg⟩ := exists_real_fun (fun i => X e i) (fX e)
    rw [hX] at hg
    exact ⟨fun p r i => g (ix2 ⟨64 * p.val + r.val, by have := p.isLt; have := r.isLt; omega⟩ i), fun p r i => hg _⟩
  have hwi : ∃ wr : Fin 3 → Fin 4 → Fin 256 → Fin 512 → ℝ, ∀ l d i h, WinM Wi l d i h = ((wr l d i h : ℝ) : EReal) := by
    obtain ⟨g, hg⟩ := exists_real_fun (fun q : Fin 3 × Fin 4 × S256x512.Idx => Wi q.1 q.2.1 q.2.2)
      (fun q => fWi q.1 q.2.1 q.2.2)
    exact ⟨fun l d i h => g (l, d, ix2 i h), fun l d i h => hg (l, d, ix2 i h)⟩
  have hwo : ∃ wr : Fin 3 → Fin 4 → Fin 512 → Fin 256 → ℝ, ∀ l d h i, WoutM Wo l d h i = ((wr l d h i : ℝ) : EReal) := by
    obtain ⟨g, hg⟩ := exists_real_fun (fun q : Fin 3 × Fin 4 × S512x256.Idx => Wo q.1 q.2.1 q.2.2)
      (fun q => fWo q.1 q.2.1 q.2.2)
    exact ⟨fun l d h i => g (l, d, ix2 h i), fun l d h i => hg (l, d, ix2 h i)⟩
  have hk : m2 (OutV (F := Ideal) X Wi Wo e) = MlpMath.ref (xM x0) (WinM Wi) (WoutM Wo) e :=
    (m2_OutV X Wi Wo x0 hX e).trans (MlpMath.out_eq_ref (xM x0) (WinM Wi) (WoutM Wo) hx hwi hwo e)
  -- the one-device form: three layers, each restricted to the row block
  have h0 : MlpMath.layerRef (WinM Wi) (WoutM Wo) 0 (rowBlock e (m2 x0)) = rowBlock e (L x1 x2 (m2 x0)) :=
    layerRef_rowBlock x1 x2 (WinM Wi) (WoutM Wo) 0 (fun d => by show m2 (Wi 0 d) = _; rw [hWi0])
      (fun d => by show m2 (Wo 0 d) = _; rw [hWo0]) (m2 x0) e
  have h1 : MlpMath.layerRef (WinM Wi) (WoutM Wo) 1 (rowBlock e (L x1 x2 (m2 x0)))
      = rowBlock e (L x3 x4 (L x1 x2 (m2 x0))) :=
    layerRef_rowBlock x3 x4 (WinM Wi) (WoutM Wo) 1 (fun d => by show m2 (Wi 1 d) = _; rw [hWi1])
      (fun d => by show m2 (Wo 1 d) = _; rw [hWo1]) _ e
  have h2 : MlpMath.layerRef (WinM Wi) (WoutM Wo) 2 (rowBlock e (L x3 x4 (L x1 x2 (m2 x0))))
      = rowBlock e (L x5 x6 (L x3 x4 (L x1 x2 (m2 x0)))) :=
    layerRef_rowBlock x5 x6 (WinM Wi) (WoutM Wo) 2 (fun d => by show m2 (Wi 2 d) = _; rw [hWi2])
      (fun d => by show m2 (Wo 2 d) = _; rw [hWo2]) _ e
  have href : MlpMath.ref (xM x0) (WinM Wi) (WoutM Wo) e = rowBlock e (L x5 x6 (L x3 x4 (L x1 x2 (m2 x0)))) := by
    show MlpMath.layerRef (WinM Wi) (WoutM Wo) 2 (MlpMath.layerRef (WinM Wi) (WoutM Wo) 1
      (MlpMath.layerRef (WinM Wi) (WoutM Wo) 0 (rowBlock e (m2 x0)))) = _
    rw [h0, h1, h2]
  have hfin := congrFun (congrFun (hk.trans href) r) j
  show m2 (OutV (F := Ideal) X Wi Wo e) r j = _
  rw [hfin]
  show L x5 x6 (L x3 x4 (L x1 x2 (m2 x0))) ⟨64 * e.val + r.val, _⟩ j
    = L x5 x6 (L x3 x4 (L x1 x2 (fun r i => x0 (ix2 r i)))) ⟨e.val * 64 + r.val, _⟩ j
  congr 1
  exact Fin.ext (by show 64 * e.val + r.val = e.val * 64 + r.val; omega)

/-- The same with the seven per-device arrays given one by one, in argument order. -/
theorem out_is_block7
    (A0 : Dev nD → FVec Ideal S256x256 .f32) (A1 A3 A5 : Dev nD → FVec Ideal S256x512 .f32)
    (A2 A4 A6 : Dev nD → FVec Ideal S512x256 .f32)
    (h0 : ∀ e, A0 e = x0)
    (h1 : ∀ e, A1 e = Layout.block ⟨2, ![256, 512]⟩ ⟨2, ![256, 2048]⟩ 1 4 e x1)
    (h2 : ∀ e, A2 e = Layout.block ⟨2, ![512, 256]⟩ ⟨2, ![2048, 256]⟩ 0 4 e x2)
    (h3 : ∀ e, A3 e = Layout.block ⟨2, ![256, 512]⟩ ⟨2, ![256, 2048]⟩ 1 4 e x3)
    (h4 : ∀ e, A4 e = Layout.block ⟨2, ![512, 256]⟩ ⟨2, ![2048, 256]⟩ 0 4 e x4)
    (h5 : ∀ e, A5 e = Layout.block ⟨2, ![256, 512]⟩ ⟨2, ![256, 2048]⟩ 1 4 e x5)
    (h6 : ∀ e, A6 e = Layout.block ⟨2, ![512, 256]⟩ ⟨2, ![2048, 256]⟩ 0 4 e x6)
    (f0 : ∀ e i, ∃ r : ℝ, A0 e i = (r : EReal)) (f1 : ∀ e i, ∃ r : ℝ, A1 e i = (r : EReal))
    (f2 : ∀ e i, ∃ r : ℝ, A2 e i = (r : EReal)) (f3 : ∀ e i, ∃ r : ℝ, A3 e i = (r : EReal))
    (f4 : ∀ e i, ∃ r : ℝ, A4 e i = (r : EReal)) (f5 : ∀ e i, ∃ r : ℝ, A5 e i = (r : EReal))
    (f6 : ∀ e i, ∃ r : ℝ, A6 e i = (r : EReal))
    (e : Dev nD) :
    OutV (F := Ideal) A0 (pack3 A1 A3 A5) (pack3 A2 A4 A6) e
      = Layout.block ⟨2, ![64, 256]⟩ ⟨2, ![256, 256]⟩ 0 4 e
          (Cert.ReferenceIdeal.Read.val_main_v11 (F := Ideal) x0 x1 x2 x3 x4 x5 x6) :=
  out_is_block x0 x1 x2 x3 x4 x5 x6 A0 (pack3 A1 A3 A5) (pack3 A2 A4 A6) h0 h1 h2 h3 h4 h5 h6 f0
    (fun l => match l with | ⟨0, _⟩ => f1 | ⟨1, _⟩ => f3 | ⟨2, _⟩ => f5)
    (fun l => match l with | ⟨0, _⟩ => f2 | ⟨1, _⟩ => f4 | ⟨2, _⟩ => f6) e

end Reference

end Cert.KernelIdeal.Join

end
-- ==== Proof.Finite.lean ====
/-
  Finiteness read back from the precondition. The printed predicate `finite_inputs` takes, for each of the
  seven argument arrays, the conjunction over all entries of `|x| < +∞` and conjoins the seven results. When
  its value is 1, every entry of every array is therefore a real number: `|x| < +∞` fails at both infinities
  (the junk value of a NaN is `⊥`, so it fails there too).
-/
import proofs.«900991_g7700000000000992_dist_mlpseq_tp1d_rep_bs_b256_d256_h512_v7x_i4_bf16_1_alg».proof.Pre_finite_inputs_Kernel
import Idealize.ShloMosaic.Lib.ReduceAll
import Idealize.ShloMosaic.Lib.ValueIdx
import Idealize.ShloMosaic.PureOps.Ideal

namespace Cert.Proof.Finite

open Idealize.ShloMosaic
open Cert.Pre_finite_inputs_Kernel (S_ S256x256 S256x512 S512x256)

/-- The rank-0 shape has exactly one index. -/
instance subsingleton_S_Idx : Subsingleton S_.Idx := ⟨fun a b => funext fun d => d.elim0⟩

/-- An extended real whose absolute value `max x (-x)` lies strictly below `⊤` is a real:
    at `⊤` the maximum is `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` of the 32-bit format denotes `+∞`. -/
theorem ofBits_inf : Ideal.ofBits .f32 0x7F800000#32 = ⊤ := by simp [Ideal.ofBits, Ideal.ieee]

/-- One entry: the comparison `|x| < +∞` answering 1 says `x` is a real. -/
theorem elt_real (x : Ideal .f32)
    (h : FloatOps.cmpf (F := Ideal) .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  refine real_of_abs_lt_top x ?_
  by_contra hn
  simp [Ideal.cmp, hn] at h'

/-- One array: if the conjunction over all entries of `|x| < +∞` is 1, every entry is a real. -/
theorem all_real {s : Shape} {axes : List (Fin s.rank)} (a : FVec Ideal s .f32) (dims : Fin S_.rank → Fin s.rank)
    (hb : S_.BroadcastsInDim s dims) (hr : s.ReducesTo axes S_) (hu : 0 < S_.numel) (init : IVec S_ 1)
    (e : Host.reduce IntOp.andi
          (cmpf .olt (Host.absf a) (broadcastInDim s dims hb (constant (F := Ideal) S_ .f32 0x7F800000#32))) init hr hu
          ValueIdx.ix0 = 1#1) :
    ∀ i, ∃ r : ℝ, a i = (r : EReal) := fun i =>
  elt_real (a i) (Host.reduce_andi_all _ init hr hu _ e i)

/-- The precondition read back: when `finite_inputs` of the seven arrays is all ones, every entry of each is a real. -/
theorem finite_of_pre [Cert.Pre_finite_inputs_Kernel.Facts]
    (a0 : FVec Ideal S256x256 .f32) (a1 : FVec Ideal S256x512 .f32) (a2 : FVec Ideal S512x256 .f32)
    (a3 : FVec Ideal S256x512 .f32) (a4 : FVec Ideal S512x256 .f32) (a5 : FVec Ideal S256x512 .f32)
    (a6 : FVec Ideal S512x256 .f32)
    (h : Cert.Pre_finite_inputs_Kernel.fn (F := Ideal) a0 a1 a2 a3 a4 a5 a6 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal))
      ∧ (∀ i, ∃ x : ℝ, a6 i = (x : EReal)) := by
  have e := congrFun h ValueIdx.ix0
  dsimp only [Cert.Pre_finite_inputs_Kernel.fn, Cert.Pre_finite_inputs_Kernel.fn_part1, andi] at e
  simp only [IntOp.andi_eq_one] at e
  obtain ⟨⟨⟨⟨⟨⟨e0, e1⟩, e2⟩, e3⟩, e4⟩, e5⟩, e6⟩ := e
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6⟩

end Cert.Proof.Finite
-- ==== Proof.Vals.lean ====
import proofs.«900991_g7700000000000992_dist_mlpseq_tp1d_rep_bs_b256_d256_h512_v7x_i4_bf16_1_alg».proof.Proof.ValsG
import proofs.«900991_g7700000000000992_dist_mlpseq_tp1d_rep_bs_b256_d256_h512_v7x_i4_bf16_1_alg».proof.Proof.Join
import proofs.«900991_g7700000000000992_dist_mlpseq_tp1d_rep_bs_b256_d256_h512_v7x_i4_bf16_1_alg».proof.Proof.Finite
import proofs.«900991_g7700000000000992_dist_mlpseq_tp1d_rep_bs_b256_d256_h512_v7x_i4_bf16_1_alg».proof.Defs

/-!
# The values of the run at the ideal values: the block of the reference's result

At the ideal values, under the hypotheses of the claim against the reference, each device's result fixed from
the memory at launch is the device's block of rows of the reference's result.
-/

noncomputable section

namespace Cert.KernelIdeal.Mlp

open Idealize.ShloMosaic
open Idealize.ShloMosaic.TcCoe
open Cert.KernelIdeal Cert.KernelIdeal.Gen Cert.KernelIdeal.Join
open Idealize.SL.Sem

/-! ## At the ideal values: each device's result is its block of the reference's result -/

section AtIdeal

variable [hKernelIdeal : Cert.KernelIdeal.Facts] [hReferenceIdeal : Cert.ReferenceIdeal.Facts]
  [hPre_finite_inputs_Kernel : Cert.Pre_finite_inputs_Kernel.Facts]

/-- Under the precondition (every entry of every device's argument arrays finite) and the agreement of the
    devices' arrays with the reference's (the input replicated, the weight arrays cut into four blocks along the
    hidden axis), device c's result is block c of the rows of the reference's result. -/
theorem outF_is_block
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6)))
    (c : Dev Cert.KernelIdeal.nD) :
    outF m ρ c
      = Layout.block ⟨2, ![64, 256]⟩ ⟨2, ![256, 256]⟩ 0 4 c
          (Cert.ReferenceIdeal.Read.val_main_v11 (F := Ideal)
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
            (m' (((0 : Dev Cert.ReferenceIdeal.nD).tc : Thread Cert.ReferenceIdeal.nD Cert.ReferenceIdeal.τ).loc Cert.ReferenceIdeal.main_arg3))
            (m' (((0 : Dev Cert.ReferenceIdeal.nD).tc : Thread Cert.ReferenceIdeal.nD Cert.ReferenceIdeal.τ).loc Cert.ReferenceIdeal.main_arg4))
            (m' (((0 : Dev Cert.ReferenceIdeal.nD).tc : Thread Cert.ReferenceIdeal.nD Cert.ReferenceIdeal.τ).loc Cert.ReferenceIdeal.main_arg5))
            (m' (((0 : Dev Cert.ReferenceIdeal.nD).tc : Thread Cert.ReferenceIdeal.nD Cert.ReferenceIdeal.τ).loc Cert.ReferenceIdeal.main_arg6))) := by
  have e0 : ∀ e, XA0 m ρ e = m ((e : Thread nD τ).loc main_arg0) := fun e => (XA0_eq m ρ e).trans (xstg0_eq m ρ e)
  have e1 : ∀ e, XA1 m ρ e = m ((e : Thread nD τ).loc main_arg1) := fun e => (XA1_eq m ρ e).trans (xstg1_eq m ρ e)
  have e2 : ∀ e, XA2 m ρ e = m ((e : Thread nD τ).loc main_arg2) := fun e => (XA2_eq m ρ e).trans (xstg2_eq m ρ e)
  have e3 : ∀ e, XA3 m ρ e = m ((e : Thread nD τ).loc main_arg3) := fun e => (XA3_eq m ρ e).trans (xstg3_eq m ρ e)
  have e4 : ∀ e, XA4 m ρ e = m ((e : Thread nD τ).loc main_arg4) := fun e => (XA4_eq m ρ e).trans (xstg4_eq m ρ e)
  have e5 : ∀ e, XA5 m ρ e = m ((e : Thread nD τ).loc main_arg5) := fun e => (XA5_eq m ρ e).trans (xstg5_eq m ρ e)
  have e6 : ∀ e, XA6 m ρ e = m ((e : Thread nD τ).loc main_arg6) := fun e => (XA6_eq m ρ e).trans (xstg6_eq m ρ e)
  have hf := fun e : Dev nD => Cert.Proof.Finite.finite_of_pre _ _ _ _ _ _ _ (hpre e)
  exact out_is_block7 _ _ _ _ _ _ _ (XA0 m ρ) (XA1 m ρ) (XA3 m ρ) (XA5 m ρ) (XA2 m ρ) (XA4 m ρ) (XA6 m ρ)
    (fun e => (e0 e).trans (hagree e).1)
    (fun e => (e1 e).trans (hagree e).2.1)
    (fun e => (e2 e).trans (hagree e).2.2.1)
    (fun e => (e3 e).trans (hagree e).2.2.2.1)
    (fun e => (e4 e).trans (hagree e).2.2.2.2.1)
    (fun e => (e5 e).trans (hagree e).2.2.2.2.2.1)
    (fun e => (e6 e).trans (hagree e).2.2.2.2.2.2)
    (fun e i => by rw [e0]; exact (hf e).1 i)
    (fun e i => by rw [e1]; exact (hf e).2.1 i)
    (fun e i => by rw [e2]; exact (hf e).2.2.1 i)
    (fun e i => by rw [e3]; exact (hf e).2.2.2.1 i)
    (fun e i => by rw [e4]; exact (hf e).2.2.2.2.1 i)
    (fun e i => by rw [e5]; exact (hf e).2.2.2.2.2.1 i)
    (fun e i => by rw [e6]; exact (hf e).2.2.2.2.2.2 i)
    c

end AtIdeal

end Cert.KernelIdeal.Mlp

end
-- ==== Proof.Creds.lean ====
import proofs.«900991_g7700000000000992_dist_mlpseq_tp1d_rep_bs_b256_d256_h512_v7x_i4_bf16_1_alg».proof.Proof.BodyDefs
import Idealize.ShloMosaic.Lib.Pipeline.Launch

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## The credit a device is dealt at launch

What the devices owe at launch is a sum of one-cell tallies, each addressed to the device a fixed distance ahead. Summed
over the issuers, every such tally is one credit on the addressee's own cell: the device that distance behind owes it. -/

/-- The launch credit under a sum of dues is the launch credit under each part; the part added last is put first. -/
theorem launchCred_split {O D : Dev nD → CellTallies nD τ sig Unit} {c : Dev nD} {P Q : sProp 𝕄}
    (hO : (Pipeline.launchCred O c : sProp 𝕄) ⊢ P) (hD : (Pipeline.launchCred D c : sProp 𝕄) ⊢ Q) :
    (Pipeline.launchCred (fun d => O d + D d) c : sProp 𝕄) ⊢ iprop(Q ∗ P) := by
  rw [Pipeline.launchCred_add]
  iintro ⟨HO, HD⟩
  isplitl [HD]
  · iapply hD
    iexact HD
  · iapply hO
    iexact HO

/-- Three unit credits on the barrier cell are one credit of three. -/
theorem barCred_join (c : Dev nD) :
    (iprop(cred (tallyAt (barCell c) () 1) ∗ cred (tallyAt (barCell c) () 1) ∗ cred (tallyAt (barCell c) () 1)) : sProp 𝕄)
      ⊢ cred (tallyAt (barCell c) () 3) := by
  refine (sep_mono_r (cred_add _ _).2).trans ((cred_add _ _).2.trans (Entails.of_eq ?_))
  rw [tallyAt_add, tallyAt_add]

/-- The launch credit of device `c`, one token per summand of what the devices owe, in the reverse of the order of the
    summands: the device `o` behind `c` is the one whose dues at distance `o` land on `c`'s cells. -/
theorem creds_rev (c : Dev nD) : (Pipeline.launchCred O₀ c : sProp 𝕄) ⊢ iprop(
      cred (tallyAt (barCell c) () 1)
    ∗ cred (tallyAt (barCell c) () 1)
    ∗ cred (tallyAt (barCell c) () 1)
    ∗ cred (tallyAt ((c : Thread nD τ), SemLoc.dma (rcvS 0 0 2 inb_S3x4x4_S1x1x1_0_0_2)) () N)
    ∗ cred (tallyAt ((c : Thread nD τ), SemLoc.dma (rcvS 0 0 1 inb_S3x4x4_S1x1x1_0_0_1)) () N)
    ∗ cred (tallyAt ((c : Thread nD τ), SemLoc.dma (rcvS 0 0 3 inb_S3x4x4_S1x1x1_0_0_3)) () N)
    ∗ cred (tallyAt ((c : Thread nD τ), SemLoc.dma (rcvS 0 1 2 inb_S3x4x4_S1x1x1_0_1_2)) () N)
    ∗ cred (tallyAt ((c : Thread nD τ), SemLoc.dma (rcvS 0 1 1 inb_S3x4x4_S1x1x1_0_1_1)) () N)
    ∗ cred (tallyAt ((c : Thread nD τ), SemLoc.dma (rcvS 0 1 3 inb_S3x4x4_S1x1x1_0_1_3)) () N)
    ∗ cred (tallyAt ((c : Thread nD τ), SemLoc.dma (rcvS 0 2 2 inb_S3x4x4_S1x1x1_0_2_2)) () N)
    ∗ cred (tallyAt ((c : Thread nD τ), SemLoc.dma (rcvS 0 2 1 inb_S3x4x4_S1x1x1_0_2_1)) () N)
    ∗ cred (tallyAt ((c : Thread nD τ), SemLoc.dma (rcvS 0 2 3 inb_S3x4x4_S1x1x1_0_2_3)) () N)
    ∗ cred (tallyAt ((c : Thread nD τ), SemLoc.dma (rcvS 0 3 2 inb_S3x4x4_S1x1x1_0_3_2)) () N)
    ∗ cred (tallyAt ((c : Thread nD τ), SemLoc.dma (rcvS 0 3 1 inb_S3x4x4_S1x1x1_0_3_1)) () N)
    ∗ cred (tallyAt ((c : Thread nD τ), SemLoc.dma (rcvS 0 3 3 inb_S3x4x4_S1x1x1_0_3_3)) () N)
    ∗ cred (tallyAt ((c : Thread nD τ), SemLoc.dma (rcvS 1 0 2 inb_S3x4x4_S1x1x1_1_0_2)) () N)
    ∗ cred (tallyAt ((c : Thread nD τ), SemLoc.dma (rcvS 1 0 1 inb_S3x4x4_S1x1x1_1_0_1)) () N)
    ∗ cred (tallyAt ((c : Thread nD τ), SemLoc.dma (rcvS 1 0 3 inb_S3x4x4_S1x1x1_1_0_3)) () N)
    ∗ cred (tallyAt ((c : Thread nD τ), SemLoc.dma (rcvS 1 1 2 inb_S3x4x4_S1x1x1_1_1_2)) () N)
    ∗ cred (tallyAt ((c : Thread nD τ), SemLoc.dma (rcvS 1 1 1 inb_S3x4x4_S1x1x1_1_1_1)) () N)
    ∗ cred (tallyAt ((c : Thread nD τ), SemLoc.dma (rcvS 1 1 3 inb_S3x4x4_S1x1x1_1_1_3)) () N)
    ∗ cred (tallyAt ((c : Thread nD τ), SemLoc.dma (rcvS 1 2 2 inb_S3x4x4_S1x1x1_1_2_2)) () N)
    ∗ cred (tallyAt ((c : Thread nD τ), SemLoc.dma (rcvS 1 2 1 inb_S3x4x4_S1x1x1_1_2_1)) () N)
    ∗ cred (tallyAt ((c : Thread nD τ), SemLoc.dma (rcvS 1 2 3 inb_S3x4x4_S1x1x1_1_2_3)) () N)
    ∗ cred (tallyAt ((c : Thread nD τ), SemLoc.dma (rcvS 1 3 2 inb_S3x4x4_S1x1x1_1_3_2)) () N)
    ∗ cred (tallyAt ((c : Thread nD τ), SemLoc.dma (rcvS 1 3 1 inb_S3x4x4_S1x1x1_1_3_1)) () N)
    ∗ cred (tallyAt ((c : Thread nD τ), SemLoc.dma (rcvS 1 3 3 inb_S3x4x4_S1x1x1_1_3_3)) () N)
    ∗ cred (tallyAt ((c : Thread nD τ), SemLoc.dma (rcvS 2 0 2 inb_S3x4x4_S1x1x1_2_0_2)) () N)
    ∗ cred (tallyAt ((c : Thread nD τ), SemLoc.dma (rcvS 2 0 1 inb_S3x4x4_S1x1x1_2_0_1)) () N)
    ∗ cred (tallyAt ((c : Thread nD τ), SemLoc.dma (rcvS 2 0 3 inb_S3x4x4_S1x1x1_2_0_3)) () N)) := by
  show (Pipeline.launchCred (fun d => _ + _) c : sProp 𝕄) ⊢ _
  -- the three barrier dues
  refine launchCred_split ?_ (Pipeline.launchCred_tallyAt _ (fun d => pe d 1) (fun c => ps c 1) pe_ps1 ps_pe1 () 1 c)
  refine launchCred_split ?_ (Pipeline.launchCred_tallyAt _ (fun d => pe d 2) (fun c => ps c 2) pe_ps2 ps_pe2 () 1 c)
  refine launchCred_split ?_ (Pipeline.launchCred_tallyAt _ (fun d => pe d 3) (fun c => ps c 3) pe_ps3 ps_pe3 () 1 c)
  -- layer 0
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  -- layer 1
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  -- the last layer's three
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  exact Pipeline.launchCred_tallyAt _ (fun d => pe d 3) (fun c => ps c 3) pe_ps3 ps_pe3 () N c

/-- The same tokens in the order in which a device's starting resources list them, the three barrier units joined. -/
theorem creds (c : Dev nD) : (Pipeline.launchCred O₀ c : sProp 𝕄) ⊢ iprop(
      cred (tallyAt (barCell c) () 3)
    ∗ cred (tallyAt ((c : Thread nD τ), SemLoc.dma (rcvS 0 0 1 inb_S3x4x4_S1x1x1_0_0_1)) () N)
    ∗ cred (tallyAt ((c : Thread nD τ), SemLoc.dma (rcvS 0 0 2 inb_S3x4x4_S1x1x1_0_0_2)) () N)
    ∗ cred (tallyAt ((c : Thread nD τ), SemLoc.dma (rcvS 0 0 3 inb_S3x4x4_S1x1x1_0_0_3)) () N)
    ∗ cred (tallyAt ((c : Thread nD τ), SemLoc.dma (rcvS 0 1 1 inb_S3x4x4_S1x1x1_0_1_1)) () N)
    ∗ cred (tallyAt ((c : Thread nD τ), SemLoc.dma (rcvS 0 1 2 inb_S3x4x4_S1x1x1_0_1_2)) () N)
    ∗ cred (tallyAt ((c : Thread nD τ), SemLoc.dma (rcvS 0 1 3 inb_S3x4x4_S1x1x1_0_1_3)) () N)
    ∗ cred (tallyAt ((c : Thread nD τ), SemLoc.dma (rcvS 0 2 1 inb_S3x4x4_S1x1x1_0_2_1)) () N)
    ∗ cred (tallyAt ((c : Thread nD τ), SemLoc.dma (rcvS 0 2 2 inb_S3x4x4_S1x1x1_0_2_2)) () N)
    ∗ cred (tallyAt ((c : Thread nD τ), SemLoc.dma (rcvS 0 2 3 inb_S3x4x4_S1x1x1_0_2_3)) () N)
    ∗ cred (tallyAt ((c : Thread nD τ), SemLoc.dma (rcvS 0 3 1 inb_S3x4x4_S1x1x1_0_3_1)) () N)
    ∗ cred (tallyAt ((c : Thread nD τ), SemLoc.dma (rcvS 0 3 2 inb_S3x4x4_S1x1x1_0_3_2)) () N)
    ∗ cred (tallyAt ((c : Thread nD τ), SemLoc.dma (rcvS 0 3 3 inb_S3x4x4_S1x1x1_0_3_3)) () N)
    ∗ cred (tallyAt ((c : Thread nD τ), SemLoc.dma (rcvS 1 0 1 inb_S3x4x4_S1x1x1_1_0_1)) () N)
    ∗ cred (tallyAt ((c : Thread nD τ), SemLoc.dma (rcvS 1 0 2 inb_S3x4x4_S1x1x1_1_0_2)) () N)
    ∗ cred (tallyAt ((c : Thread nD τ), SemLoc.dma (rcvS 1 0 3 inb_S3x4x4_S1x1x1_1_0_3)) () N)
    ∗ cred (tallyAt ((c : Thread nD τ), SemLoc.dma (rcvS 1 1 1 inb_S3x4x4_S1x1x1_1_1_1)) () N)
    ∗ cred (tallyAt ((c : Thread nD τ), SemLoc.dma (rcvS 1 1 2 inb_S3x4x4_S1x1x1_1_1_2)) () N)
    ∗ cred (tallyAt ((c : Thread nD τ), SemLoc.dma (rcvS 1 1 3 inb_S3x4x4_S1x1x1_1_1_3)) () N)
    ∗ cred (tallyAt ((c : Thread nD τ), SemLoc.dma (rcvS 1 2 1 inb_S3x4x4_S1x1x1_1_2_1)) () N)
    ∗ cred (tallyAt ((c : Thread nD τ), SemLoc.dma (rcvS 1 2 2 inb_S3x4x4_S1x1x1_1_2_2)) () N)
    ∗ cred (tallyAt ((c : Thread nD τ), SemLoc.dma (rcvS 1 2 3 inb_S3x4x4_S1x1x1_1_2_3)) () N)
    ∗ cred (tallyAt ((c : Thread nD τ), SemLoc.dma (rcvS 1 3 1 inb_S3x4x4_S1x1x1_1_3_1)) () N)
    ∗ cred (tallyAt ((c : Thread nD τ), SemLoc.dma (rcvS 1 3 2 inb_S3x4x4_S1x1x1_1_3_2)) () N)
    ∗ cred (tallyAt ((c : Thread nD τ), SemLoc.dma (rcvS 1 3 3 inb_S3x4x4_S1x1x1_1_3_3)) () N)
    ∗ cred (tallyAt ((c : Thread nD τ), SemLoc.dma (rcvS 2 0 1 inb_S3x4x4_S1x1x1_2_0_1)) () N)
    ∗ cred (tallyAt ((c : Thread nD τ), SemLoc.dma (rcvS 2 0 2 inb_S3x4x4_S1x1x1_2_0_2)) () N)
    ∗ cred (tallyAt ((c : Thread nD τ), SemLoc.dma (rcvS 2 0 3 inb_S3x4x4_S1x1x1_2_0_3)) () N)) := by
  refine (creds_rev c).trans ?_
  iintro ⟨B1, B2, B3, H002, H001, H003, H012, H011, H013, H022, H021, H023, H032, H031, H033,
    H102, H101, H103, H112, H111, H113, H122, H121, H123, H132, H131, H133, H202, H201, H203⟩
  isplitl [B1 B2 B3]
  · iapply barCred_join c
    isplitl [B1]
    · iexact B1
    isplitl [B2]
    · iexact B2
    iexact B3
  isplitl [H001]
  · iexact H001
  isplitl [H002]
  · iexact H002
  isplitl [H003]
  · iexact H003
  isplitl [H011]
  · iexact H011
  isplitl [H012]
  · iexact H012
  isplitl [H013]
  · iexact H013
  isplitl [H021]
  · iexact H021
  isplitl [H022]
  · iexact H022
  isplitl [H023]
  · iexact H023
  isplitl [H031]
  · iexact H031
  isplitl [H032]
  · iexact H032
  isplitl [H033]
  · iexact H033
  isplitl [H101]
  · iexact H101
  isplitl [H102]
  · iexact H102
  isplitl [H103]
  · iexact H103
  isplitl [H111]
  · iexact H111
  isplitl [H112]
  · iexact H112
  isplitl [H113]
  · iexact H113
  isplitl [H121]
  · iexact H121
  isplitl [H122]
  · iexact H122
  isplitl [H123]
  · iexact H123
  isplitl [H131]
  · iexact H131
  isplitl [H132]
  · iexact H132
  isplitl [H133]
  · iexact H133
  isplitl [H201]
  · iexact H201
  isplitl [H202]
  · iexact H202
  iexact H203

/-- info: 'Cert.KernelIdeal.Mlp.creds' depends on axioms: [propext, Classical.choice, Quot.sound] -/
#guard_msgs in #print axioms creds

end Cert.KernelIdeal.Mlp

end
-- ==== Proof.Levels.lean ====
/-
  The deadlock levels. A wait is allowed when everything the waiting device still owes lies on cells at a level
  strictly above the cell it waits on. Barrier cells sit at level 1, the receive cells of layer `l` at `2 + l`, every
  other cell at 0; what a device owes is always a sum of one-cell tallies on barrier and receive cells.
-/
import proofs.«900991_g7700000000000992_dist_mlpseq_tp1d_rep_bs_b256_d256_h512_v7x_i4_bf16_1_alg».proof.Proof.BodyDefs

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Where a tally is positive -/

/-- A sum of two tallies is positive at a cell only where one of them is. -/
theorem pos_of_add {O₁ O₂ : CellTallies nD τ sig Unit} {g : GSem nD τ sig} {u : Unit} (h : 0 < (O₁ + O₂) g u) :
    0 < O₁ g u ∨ 0 < O₂ g u := Pipeline.add_pos_cases h

/-- A one-cell tally is positive only at its own cell. -/
theorem pos_tallyAt {g g' : GSem nD τ sig} {u u' : Unit} {n : ℕ} (h : 0 < tallyAt g' u' n g u) : g = g' :=
  (Pipeline.tallyAt_pos h).1

/-- Every cell at which the tally `O` is positive satisfies `P`. -/
def Supp (P : GSem nD τ sig → Prop) (O : CellTallies nD τ sig Unit) : Prop := ∀ g u, 0 < O g u → P g

theorem Supp.zero (P : GSem nD τ sig → Prop) : Supp P 0 := fun g u h => absurd h (Nat.lt_irrefl 0)
theorem Supp.add {P : GSem nD τ sig → Prop} {O₁ O₂ : CellTallies nD τ sig Unit} (h₁ : Supp P O₁) (h₂ : Supp P O₂) :
    Supp P (O₁ + O₂) := fun g u h => (pos_of_add h).elim (h₁ g u) (h₂ g u)
theorem Supp.tally {P : GSem nD τ sig → Prop} {g : GSem nD τ sig} (hg : P g) (u : Unit) (k : ℕ) : Supp P (tallyAt g u k) :=
  fun g' u' h => by rw [pos_tallyAt h]; exact hg
theorem Supp.mono {P Q : GSem nD τ sig → Prop} {O : CellTallies nD τ sig Unit} (hPQ : ∀ g, P g → Q g) (h : Supp P O) :
    Supp Q O := fun g u hg => hPQ g (h g u hg)

/-! ## The levels of the literal cells -/

theorem L_tc (c : Dev nD) (sm : SemLoc sig) : L ((c : Thread nD τ), sm) = {()} := if_pos rfl

/-- A barrier cell sits at level 1. -/
theorem lv_bar (c : Dev nD) : lv (barCell c) () = 1 := by dsimp only [lv]; rw [if_pos rfl]

/-- A semaphore of the two arrays does not depend on the evidence that its index is in range. -/
theorem rcvS_irrel {l p o : ℕ} (h h' : ∀ a, (![l, p, o] : Fin 3 → Nat) a + S1x1x1.size a ≤ S3x4x4.size a) :
    rcvS l p o h = rcvS l p o h' := rfl
theorem sndS_irrel {l p o : ℕ} (h h' : ∀ a, (![l, p, o] : Fin 3 → Nat) a + S1x1x1.size a ≤ S3x4x4.size a) :
    sndS l p o h = sndS l p o h' := rfl

/-- The receive cell `[l, p, o]` sits at level `2 + l`. -/
theorem lv_rcv (c : Dev nD) {l p o : ℕ} (hl : l < 3) (hp : p < 4) (ho : o < 4)
    (h : ∀ a, (![l, p, o] : Fin 3 → Nat) a + S1x1x1.size a ≤ S3x4x4.size a) :
    lv ((c : Thread nD τ), SemLoc.dma (rcvS l p o h)) () = 2 + l := by
  obtain rfl | rfl | rfl : l = 0 ∨ l = 1 ∨ l = 2 := by omega
  all_goals obtain rfl | rfl | rfl | rfl : p = 0 ∨ p = 1 ∨ p = 2 ∨ p = 3 := by omega
  all_goals obtain rfl | rfl | rfl | rfl : o = 0 ∨ o = 1 ∨ o = 2 ∨ o = 3 := by omega
  all_goals (rw [rcvS_irrel h (by decide)]; rfl)

/-- A send cell sits at level 0. -/
theorem lv_snd (c : Dev nD) {l p o : ℕ} (hl : l < 3) (hp : p < 4) (ho : o < 4)
    (h : ∀ a, (![l, p, o] : Fin 3 → Nat) a + S1x1x1.size a ≤ S3x4x4.size a) :
    lv ((c : Thread nD τ), SemLoc.dma (sndS l p o h)) () = 0 := by
  obtain rfl | rfl | rfl : l = 0 ∨ l = 1 ∨ l = 2 := by omega
  all_goals obtain rfl | rfl | rfl | rfl : p = 0 ∨ p = 1 ∨ p = 2 ∨ p = 3 := by omega
  all_goals obtain rfl | rfl | rfl | rfl : o = 0 ∨ o = 1 ∨ o = 2 ∨ o = 3 := by omega
  all_goals (rw [sndS_irrel h (by decide)]; rfl)

/-- A DMA semaphore below the receive array (the pipeline's staging semaphores, the send array) sits at level 0. -/
theorem lv_dma_lt (c : Dev nD) (q : DmaSem sig) (hq : q.val < 56) : lv ((c : Thread nD τ), SemLoc.dma q) () = 0 := by
  dsimp only [lv, rcvKey]; rw [if_neg (fun h => by omega)]

/-! ## Tallies above a level -/

/-- Everything the tally `O` holds lies on a core's cell at a level above `n`. -/
abbrev Above (n : ℕ) (O : CellTallies nD τ sig Unit) : Prop := Supp (fun g => g.1.2 = .tc ∧ n < lv g ()) O

theorem above_bar (c : Dev nD) (k : ℕ) : Above 0 (tallyAt (barCell c) () k) :=
  Supp.tally ⟨rfl, by rw [lv_bar]; decide⟩ () k

theorem above_rcv (c : Dev nD) {l p o : ℕ} (hl : l < 3) (hp : p < 4) (ho : o < 4)
    (h : ∀ a, (![l, p, o] : Fin 3 → Nat) a + S1x1x1.size a ≤ S3x4x4.size a) (k : ℕ) :
    Above (1 + l) (tallyAt ((c : Thread nD τ), SemLoc.dma (rcvS l p o h)) () k) :=
  Supp.tally ⟨rfl, by rw [lv_rcv c hl hp ho h]; omega⟩ () k

theorem Above.mono {m n : ℕ} (hmn : m ≤ n) {O : CellTallies nD τ sig Unit} (h : Above n O) : Above m O :=
  Supp.mono (fun g hg => ⟨hg.1, Nat.lt_of_le_of_lt hmn hg.2⟩) h

/-- What a device owes at launch lies on the barrier cells of the three others and on receive cells of theirs. -/
theorem O₀_pos (c : Dev nD) :
    Supp (fun g => (∃ o, (o = 1 ∨ o = 2 ∨ o = 3) ∧ g = barCell (pe c o))
      ∨ ∃ (l p o : ℕ) (_ : l < 3) (_ : p < 4) (_ : o < 4) (h : ∀ a, (![l, p, o] : Fin 3 → Nat) a + S1x1x1.size a ≤ S3x4x4.size a),
          g = (((pe c o) : Thread nD τ), SemLoc.dma (rcvS l p o h))) (O₀ c) := by
  unfold O₀
  repeat' (first
    | apply Supp.add
    | exact Supp.tally (Or.inl ⟨_, by decide, rfl⟩) () _
    | exact Supp.tally (Or.inr ⟨_, _, _, by decide, by decide, by decide, _, rfl⟩) () _)

/-- What a device owes at launch lies above level 0. -/
theorem O₀_above (c : Dev nD) : Above 0 (O₀ c) :=
  Supp.mono (fun g hg => by
    rcases hg with ⟨o, _, rfl⟩ | ⟨l, p, o, hl, hp, ho, h, rfl⟩
    · exact ⟨rfl, by rw [lv_bar]; decide⟩
    · exact ⟨rfl, by rw [lv_rcv _ hl hp ho h]; omega⟩) (O₀_pos c)

/-! ## The evidence a wait presents -/

omit [FloatOps F] in
/-- A device may wait on a cell when all it owes lies on cores' cells at levels strictly above that cell's. -/
theorem mayWait_of_above (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  Pipeline.mayWait_of_levAts (L := L) (lev := lv) (by rw [L_tc]; exact Finset.mem_singleton_self _)
    (fun g u hg => ⟨by unfold L; rw [if_pos (hO g u hg).1]; exact Finset.mem_singleton_self _, (hO g u hg).2⟩)

omit [FloatOps F] in
/-- The same, the level of the waited cell named. -/
theorem mayWait_of_Above (c : Dev nD) (sm : SemLoc sig) (n : ℕ) (hn : lv ((c : Thread nD τ), sm) () = n)
    (O : CellTallies nD τ sig Unit) (hO : Above n O) :
    (levAts L lv : sProp 𝕄) ⊢ MayWait (c : Thread nD τ) sm () O :=
  mayWait_of_above c sm O (fun g u hg => by rw [hn]; exact hO g u hg)

omit [FloatOps F] in
/-- The pipeline's staging semaphores sit at level 0, below everything a device ever owes. -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · exact mayWait_of_Above c _ 0 (lv_dma_lt c q (by omega)) _ (O₀_above c)
  · rw [MayWait_zero]; iintro -; iempintro

end Cert.KernelIdeal.Mlp

end
-- ==== Proof.LaunchK.lean ====
import proofs.«900991_g7700000000000992_dist_mlpseq_tp1d_rep_bs_b256_d256_h512_v7x_i4_bf16_1_alg».proof.Proof.BodyDefs
import proofs.«900991_g7700000000000992_dist_mlpseq_tp1d_rep_bs_b256_d256_h512_v7x_i4_bf16_1_alg».proof.Proof.Creds
import proofs.«900991_g7700000000000992_dist_mlpseq_tp1d_rep_bs_b256_d256_h512_v7x_i4_bf16_1_alg».proof.Proof.Levels
import Idealize.ShloMosaic.Lib.Pipeline.Launch
import Idealize.ShloMosaic.Lib.Pipeline.Kit
import Idealize.ShloMosaic.Lib.Tactic

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## The 27 copies, indexed

Index `k : Fin 27` runs over the copies in the order (layer, block, slot): layers 0 and 1, blocks 0 … 3, slots 1 … 3,
then the three reduce-scatter copies of layer 2. `sq k` is its send semaphore, `rq k` its receive semaphore, `ko k` its slot:
the distance to the device it goes to. -/

def sq : Fin 27 → DmaSem sig
  | 0 => sndS 0 0 1 inb_S3x4x4_S1x1x1_0_0_1
  | 1 => sndS 0 0 2 inb_S3x4x4_S1x1x1_0_0_2
  | 2 => sndS 0 0 3 inb_S3x4x4_S1x1x1_0_0_3
  | 3 => sndS 0 1 1 inb_S3x4x4_S1x1x1_0_1_1
  | 4 => sndS 0 1 2 inb_S3x4x4_S1x1x1_0_1_2
  | 5 => sndS 0 1 3 inb_S3x4x4_S1x1x1_0_1_3
  | 6 => sndS 0 2 1 inb_S3x4x4_S1x1x1_0_2_1
  | 7 => sndS 0 2 2 inb_S3x4x4_S1x1x1_0_2_2
  | 8 => sndS 0 2 3 inb_S3x4x4_S1x1x1_0_2_3
  | 9 => sndS 0 3 1 inb_S3x4x4_S1x1x1_0_3_1
  | 10 => sndS 0 3 2 inb_S3x4x4_S1x1x1_0_3_2
  | 11 => sndS 0 3 3 inb_S3x4x4_S1x1x1_0_3_3
  | 12 => sndS 1 0 1 inb_S3x4x4_S1x1x1_1_0_1
  | 13 => sndS 1 0 2 inb_S3x4x4_S1x1x1_1_0_2
  | 14 => sndS 1 0 3 inb_S3x4x4_S1x1x1_1_0_3
  | 15 => sndS 1 1 1 inb_S3x4x4_S1x1x1_1_1_1
  | 16 => sndS 1 1 2 inb_S3x4x4_S1x1x1_1_1_2
  | 17 => sndS 1 1 3 inb_S3x4x4_S1x1x1_1_1_3
  | 18 => sndS 1 2 1 inb_S3x4x4_S1x1x1_1_2_1
  | 19 => sndS 1 2 2 inb_S3x4x4_S1x1x1_1_2_2
  | 20 => sndS 1 2 3 inb_S3x4x4_S1x1x1_1_2_3
  | 21 => sndS 1 3 1 inb_S3x4x4_S1x1x1_1_3_1
  | 22 => sndS 1 3 2 inb_S3x4x4_S1x1x1_1_3_2
  | 23 => sndS 1 3 3 inb_S3x4x4_S1x1x1_1_3_3
  | 24 => sndS 2 0 1 inb_S3x4x4_S1x1x1_2_0_1
  | 25 => sndS 2 0 2 inb_S3x4x4_S1x1x1_2_0_2
  | 26 => sndS 2 0 3 inb_S3x4x4_S1x1x1_2_0_3
  | ⟨_ + 27, h⟩ => absurd h (Nat.not_lt.2 (Nat.le_add_left _ _))
def rq : Fin 27 → DmaSem sig
  | 0 => rcvS 0 0 1 inb_S3x4x4_S1x1x1_0_0_1
  | 1 => rcvS 0 0 2 inb_S3x4x4_S1x1x1_0_0_2
  | 2 => rcvS 0 0 3 inb_S3x4x4_S1x1x1_0_0_3
  | 3 => rcvS 0 1 1 inb_S3x4x4_S1x1x1_0_1_1
  | 4 => rcvS 0 1 2 inb_S3x4x4_S1x1x1_0_1_2
  | 5 => rcvS 0 1 3 inb_S3x4x4_S1x1x1_0_1_3
  | 6 => rcvS 0 2 1 inb_S3x4x4_S1x1x1_0_2_1
  | 7 => rcvS 0 2 2 inb_S3x4x4_S1x1x1_0_2_2
  | 8 => rcvS 0 2 3 inb_S3x4x4_S1x1x1_0_2_3
  | 9 => rcvS 0 3 1 inb_S3x4x4_S1x1x1_0_3_1
  | 10 => rcvS 0 3 2 inb_S3x4x4_S1x1x1_0_3_2
  | 11 => rcvS 0 3 3 inb_S3x4x4_S1x1x1_0_3_3
  | 12 => rcvS 1 0 1 inb_S3x4x4_S1x1x1_1_0_1
  | 13 => rcvS 1 0 2 inb_S3x4x4_S1x1x1_1_0_2
  | 14 => rcvS 1 0 3 inb_S3x4x4_S1x1x1_1_0_3
  | 15 => rcvS 1 1 1 inb_S3x4x4_S1x1x1_1_1_1
  | 16 => rcvS 1 1 2 inb_S3x4x4_S1x1x1_1_1_2
  | 17 => rcvS 1 1 3 inb_S3x4x4_S1x1x1_1_1_3
  | 18 => rcvS 1 2 1 inb_S3x4x4_S1x1x1_1_2_1
  | 19 => rcvS 1 2 2 inb_S3x4x4_S1x1x1_1_2_2
  | 20 => rcvS 1 2 3 inb_S3x4x4_S1x1x1_1_2_3
  | 21 => rcvS 1 3 1 inb_S3x4x4_S1x1x1_1_3_1
  | 22 => rcvS 1 3 2 inb_S3x4x4_S1x1x1_1_3_2
  | 23 => rcvS 1 3 3 inb_S3x4x4_S1x1x1_1_3_3
  | 24 => rcvS 2 0 1 inb_S3x4x4_S1x1x1_2_0_1
  | 25 => rcvS 2 0 2 inb_S3x4x4_S1x1x1_2_0_2
  | 26 => rcvS 2 0 3 inb_S3x4x4_S1x1x1_2_0_3
  | ⟨_ + 27, h⟩ => absurd h (Nat.not_lt.2 (Nat.le_add_left _ _))
def ko : Fin 27 → ℕ
  | 0 => 1
  | 1 => 2
  | 2 => 3
  | 3 => 1
  | 4 => 2
  | 5 => 3
  | 6 => 1
  | 7 => 2
  | 8 => 3
  | 9 => 1
  | 10 => 2
  | 11 => 3
  | 12 => 1
  | 13 => 2
  | 14 => 3
  | 15 => 1
  | 16 => 2
  | 17 => 3
  | 18 => 1
  | 19 => 2
  | 20 => 3
  | 21 => 1
  | 22 => 2
  | 23 => 3
  | 24 => 1
  | 25 => 2
  | 26 => 3
  | ⟨_ + 27, h⟩ => absurd h (Nat.not_lt.2 (Nat.le_add_left _ _))

abbrev sndC (c : Dev nD) (k : Fin 27) : GSem nD τ sig := ((c : Thread nD τ), SemLoc.dma (sq k))
abbrev rcvC (c : Dev nD) (k : Fin 27) : GSem nD τ sig := ((c : Thread nD τ), SemLoc.dma (rq k))

/-- The 27 indices, listed. -/
abbrev k27 : List (Fin 27) := [0, 1, 2, 3, 4, 5, 6, 7, 8, 9, 10, 11, 12, 13, 14, 15, 16, 17, 18, 19, 20, 21, 22, 23, 24, 25, 26]

theorem bigSep_fin27 {M : Type} [URA M] (Φ : Fin 27 → sProp M) : bigSep Finset.univ Φ = bigSepL k27 Φ :=
  bigSep_univ_eq_bigSepL k27 (by decide) (by decide) Φ

/-- A chain `Φ a ∗ Φ b ∗ … ∗ R` that ends in a tail `R`: how a run of like conjuncts sits inside a longer flat conjunction. -/
def bigSepLR {M : Type} [URA M] {I : Type} : List I → (I → sProp M) → sProp M → sProp M
  | [], _, R => R
  | i :: l, Φ, R => BI.sep (Φ i) (bigSepLR l Φ R)

theorem bigSepLR_eq {M : Type} [URA M] {I : Type} (l : List I) (Φ : I → sProp M) (R : sProp M) :
    bigSepLR l Φ R = iprop(bigSepL l Φ ∗ R) := by
  induction l with
  | nil => exact (equiv_iff.mp emp_sep).symm
  | cons i l ih =>
    show BI.sep (Φ i) (bigSepLR l Φ R) = _
    rw [ih, bigSepL_cons]
    exact BI.sep_assoc'.antisymm BI.sep_assoc

theorem bigSepLR_fin27 {M : Type} [URA M] (Φ : Fin 27 → sProp M) (R : sProp M) :
    bigSepLR k27 Φ R = iprop(bigSep Finset.univ Φ ∗ R) := by rw [bigSepLR_eq, bigSep_fin27]

/-! ## The ring, as equivalences -/

theorem ps_pe (c : Dev nD) (o : ℕ) : ps (pe c o) o = c := by
  have h : c.val < 4 := c.isLt
  exact Fin.ext (by simp only [ps, pe]; omega)
theorem pe_ps (c : Dev nD) (o : ℕ) : pe (ps c o) o = c := by
  have h : c.val < 4 := c.isLt
  exact Fin.ext (by simp only [ps, pe]; omega)
/-- Going `o` devices ahead, as a permutation of the devices. -/
def ahead (o : ℕ) : Dev nD ≃ Dev nD := ⟨fun c => pe c o, fun c => ps c o, fun c => ps_pe c o, fun c => pe_ps c o⟩

/-! ## The kernel's own semaphores and the cells -/

/-- The kernel's own (scoped) semaphores that the protocol uses: the 27 send and the 27 receive semaphores. -/
abbrev osem : Fin 27 ⊕ Fin 27 → SemLoc sig
  | .inl k => .dma (sq k)
  | .inr k => .dma (rq k)

/-- A device's cells: its barrier cell, then its own semaphores. -/
abbrev CK : Type := Unit ⊕ (Fin 27 ⊕ Fin 27)
abbrev csem : CK → SemLoc sig
  | .inl _ => .reg barS
  | .inr i => osem i
abbrev kcell (ci : Dev nD × CK) : GSem nD τ sig := ((ci.1 : Thread nD τ), csem ci.2)

theorem ownSemFacts : Pipeline.OwnSemFacts cfg0.spec osem := by decide +kernel
theorem osem_injective : Function.Injective osem := ownSemFacts.inj
theorem csem_injective : Function.Injective csem := by
  rintro (u | i) (u' | i') h
  · rfl
  · rcases i' with k | k <;> cases h
  · rcases i with k | k <;> cases h
  · exact congrArg Sum.inr (osem_injective h)
theorem kcell_injective : Function.Injective (kcell : Dev nD × CK → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl
def ourCells : Finset (GSem nD τ sig) := Finset.univ.map ⟨kcell, kcell_injective⟩

/-- The duty tokens of a device's own cells: its barrier's three, one for each own semaphore. -/
abbrev TK : Type := Fin 3 ⊕ (Fin 27 ⊕ Fin 27)
abbrev tokOf (ct : Dev nD × TK) : GSem nD τ sig × ℕ × Fin 4 := match ct.2 with
  | .inl o => (barCell ct.1, 0, o.succ)
  | .inr i => (((ct.1 : Thread nD τ), osem i), 0, 0)
theorem tokOf_injective : Function.Injective (tokOf : Dev nD × TK → GSem nD τ sig × ℕ × Fin 4) := by
  rintro ⟨c, t⟩ ⟨c', t'⟩ h
  have h1 : c = c' := by
    have := congrArg (fun x : GSem nD τ sig × ℕ × Fin 4 => x.1.1.1) h
    rcases t with o | i <;> rcases t' with o' | i' <;> exact this
  subst h1
  have h2 : t = t' := by
    rcases t with o | i <;> rcases t' with o' | i'
    · exact congrArg Sum.inl (Fin.succ_injective _ (congrArg (fun x : GSem nD τ sig × ℕ × Fin 4 => x.2.2) h))
    · exact absurd (congrArg (fun x : GSem nD τ sig × ℕ × Fin 4 => x.1.2) h) (by rcases i' with k | k <;> exact fun h' => by cases h')
    · exact absurd (congrArg (fun x : GSem nD τ sig × ℕ × Fin 4 => x.1.2) h) (by rcases i with k | k <;> exact fun h' => by cases h')
    · exact congrArg Sum.inr (osem_injective (congrArg (fun x : GSem nD τ sig × ℕ × Fin 4 => x.1.2) h))
  subst h2; rfl
def ourToks : Finset (GSem nD τ sig × ℕ × Fin 4) := Finset.univ.map ⟨tokOf, tokOf_injective⟩

def u₀ : UU :=
  (initOf (Pipeline.cells cfgs cellOf_inj) (Pipeline.launchToks cfgs cellOf_inj), initOf ourCells ourToks)

theorem share_eq (c : Dev nD) (w : Fin cfg0.W) : (dats m ρ val jk jr outv 0 c).share w = fullShare := by unfold Dat.share; split <;> rfl

/-! ### Sums over the index types -/

theorem bigSep_unit {M : Type} [URA M] (Φ : Unit → sProp M) : bigSep Finset.univ Φ = Φ () := by
  rw [show (Finset.univ : Finset Unit) = {()} from rfl, bigSep_singleton]
theorem bigSep_CK {M : Type} [URA M] (Φ : CK → sProp M) :
    bigSep Finset.univ Φ = iprop(Φ (.inl ()) ∗ (bigSep Finset.univ fun k : Fin 27 => Φ (.inr (.inl k))) ∗ bigSep Finset.univ fun k : Fin 27 => Φ (.inr (.inr k))) := by
  rw [bigSep_univ_sum, bigSep_univ_sum, bigSep_unit]; rfl
theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ
theorem bigSep_TK {M : Type} [URA M] (Φ : TK → sProp M) :
    bigSep Finset.univ Φ = iprop((Φ (.inl 0) ∗ Φ (.inl 1) ∗ Φ (.inl 2)) ∗ (bigSep Finset.univ fun k : Fin 27 => Φ (.inr (.inl k))) ∗ bigSep Finset.univ fun k : Fin 27 => Φ (.inr (.inr k))) := by
  rw [bigSep_univ_sum, bigSep_univ_sum, bigSep_fin3]; rfl

/-! ## The schedule's payloads can be stored in an invariant -/

set_option synthInstance.maxSize 100000 in
set_option synthInstance.maxHeartbeats 2000000 in
set_option maxHeartbeats 2000000 in
instance barPay1_storable (c : Dev nD) : BI.Storable (upEmb : UEmb _ 𝕄) (barPay1 (F := F) c) := by unfold barPay1; infer_instance
set_option synthInstance.maxSize 100000 in
set_option synthInstance.maxHeartbeats 2000000 in
set_option maxHeartbeats 2000000 in
instance barPay2_storable (c : Dev nD) : BI.Storable (upEmb : UEmb _ 𝕄) (barPay2 (F := F) c) := by unfold barPay2; infer_instance
set_option synthInstance.maxSize 100000 in
set_option synthInstance.maxHeartbeats 2000000 in
set_option maxHeartbeats 2000000 in
instance barPay3_storable (c : Dev nD) : BI.Storable (upEmb : UEmb _ 𝕄) (barPay3 (F := F) c) := by unfold barPay3; infer_instance
instance sendPay_storable (c : Dev nD) (k : ℕ × ℕ × ℕ) : BI.Storable (upEmb : UEmb _ 𝕄) (sendPay val jk jr c k) := by
  unfold sendPay; split <;> infer_instance
instance recvPay_storable (c : Dev nD) (k : ℕ × ℕ × ℕ) : BI.Storable (upEmb : UEmb _ 𝕄) (recvPay val jk jr c k) := by
  unfold recvPay; split <;> infer_instance
instance Rd_payload_storable (g : GSem nD τ sig) (r : ℕ) (d : Fin 4) :
    BI.Storable (upEmb : UEmb _ 𝕄) ((Rd val jk jr).payload g r d) := by
  dsimp only [Rd]
  (repeat' split) <;> infer_instance

/-! ## What the launch element deals each device, and what the global step makes of it -/

/-- The duty tokens of device `c`'s own cells. -/
def toks (c : Dev nD) : sProp 𝕄 :=
  bigSep Finset.univ fun t : TK => dutyTok ER (tokOf (c, t)).1 (tokOf (c, t)).2.1 (tokOf (c, t)).2.2

/-- What the launch element deals device `c`. -/
def G (c : Dev nD) : sProp 𝕄 :=
  iprop((bigSep Finset.univ fun i : CK => roundState ER (Rd val jk jr) (kcell (c, i)) 0)
    ∗ (bigSep Finset.univ fun i : CK => iprop(atPos ER (kcell (c, i)) 0 ∅ 0 ∗ reached ER (kcell (c, i)) 0)) ∗ toks (F := F) c)

/-- What the global step makes of it. -/
def G' (c : Dev nD) : sProp 𝕄 := iprop(∃ K, ghost val jk jr K c)

theorem fund_ring : BI.own (ER (initOf ourCells ourToks)) ⊢ (|==> bigSep Finset.univ (G (F := F) val jk jr) : sProp 𝕄) := by
  have hX (Φ : GSem nD τ sig → sProp 𝕄) : bigSep ourCells Φ = bigSep Finset.univ fun c : Dev nD => bigSep Finset.univ fun i : CK => Φ (kcell (c, i)) := by
    unfold ourCells; rw [bigSep_map, bigSep_univ_prod]; rfl
  have hT : bigSep ourToks (fun x => (dutyTok ER x.1 x.2.1 x.2.2 : sProp 𝕄)) = bigSep Finset.univ fun c : Dev nD => toks (F := F) c := by
    unfold ourToks toks; rw [bigSep_map, bigSep_univ_prod]; rfl
  iintro HX
  imod (Rounds.fund ER (Rd val jk jr) ourCells ourToks) $$ HX with ⟨Hst, Hr, Hat, Htok⟩
  imodintro
  ihave Hst' := (Entails.of_eq (hX fun g => roundState ER (Rd val jk jr) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores at zero: the send ones, the receive ones. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 27 => semVal (sndC c k) 0) ∗ bigSep Finset.univ fun k : Fin 27 => semVal (rcvC c k) 0) := by
  unfold Pipeline.ownSems0; rw [bigSep_univ_sum]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CK => semVal (kcell (c, i)) 0 : sProp 𝕄) := by
  rw [unscopedSems0_eq, ownSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G val jk jr c)
      ⊢ |={Set.univ}=> iprop((bigSep Finset.univ fun i : CK => iprop(∃ κ : ℕ, cellInv ER (Rd val jk jr) κ (kcell (c, i))))
          ∗ (bigSep Finset.univ fun i : CK => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CK => semVal (kcell (c, i)) 0) ∗ bigSep Finset.univ fun i : CK => roundState ER (Rd val jk jr) (kcell (c, i)) 0)
      ⊢ (|={Set.univ}=> bigSep Finset.univ fun i : CK => iprop(∃ κ : ℕ, cellInv ER (Rd val jk jr) κ (kcell (c, i))) : sProp 𝕄) from by
        rw [← bigSep_sep']
        exact (bigSep_mono fun i _ => (Rounds.body_intro ER (Rd val jk jr) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The flat conjunctions of the body's definitions, as chains over the copies -/

theorem invs_eq (K : GSem nD τ sig → ℕ) (c : Dev nD) :
    invs val jk jr K c = iprop(cellInv ER (Rd val jk jr) (K (barCell c)) (barCell c)
      ∗ bigSepLR k27 (fun k => cellInv ER (Rd val jk jr) (K (sndC c k)) (sndC c k))
        (bigSepLR k27 (fun k => cellInv ER (Rd val jk jr) (K (rcvC c k)) (rcvC c k))
          iprop(cellInv ER (Rd val jk jr) (K (barCell (pe c 1))) (barCell (pe c 1))
            ∗ cellInv ER (Rd val jk jr) (K (barCell (pe c 2))) (barCell (pe c 2))
            ∗ cellInv ER (Rd val jk jr) (K (barCell (pe c 3))) (barCell (pe c 3))
            ∗ bigSepL k27 (fun k => cellInv ER (Rd val jk jr) (K (rcvC (pe c (ko k)) k)) (rcvC (pe c (ko k)) k))))) := rfl

theorem ghost_eq (K : GSem nD τ sig → ℕ) (c : Dev nD) :
    ghost val jk jr K c = iprop(invs val jk jr K c
      ∗ atPos ER (barCell c) 0 ∅ 0
      ∗ bigSepLR k27 (fun k => atPos ER (sndC c k) 0 ∅ 0)
        (bigSepLR k27 (fun k => atPos ER (rcvC c k) 0 ∅ 0)
          iprop(reached ER (barCell (pe c 1)) 0 ∗ reached ER (barCell (pe c 2)) 0 ∗ reached ER (barCell (pe c 3)) 0
            ∗ bigSepLR k27 (fun k => reached ER (sndC c k) 0)
              (bigSepLR k27 (fun k => reached ER (rcvC (pe c (ko k)) k) 0)
                iprop(dutyTok ER (barCell (pe c 1)) 0 (1 : Fin 4) ∗ dutyTok ER (barCell (pe c 2)) 0 (2 : Fin 4) ∗ dutyTok ER (barCell (pe c 3)) 0 (3 : Fin 4)
                  ∗ bigSepLR k27 (fun k => dutyTok ER (sndC c k) 0 (0 : Fin 4))
                    (bigSepL k27 (fun k => dutyTok ER (rcvC (pe c (ko k)) k) 0 (0 : Fin 4)))))))) := rfl

theorem start_eq (c : Dev nD) :
    start val jk jr c = iprop((∃ K, ghost val jk jr K c) ∗ cred (tallyAt (barCell c) () 3)
      ∗ bigSepLR k27 (fun k => cred (tallyAt (rcvC c k) () N)) (levAts L lv)) := rfl

theorem phi1_eq (c : Dev nD) :
    (Φ₁ (F := F) c : sProp 𝕄) = iprop((∃ f, ((c : Thread nD τ).loc cc0_scratch0) ↦{fullShare} f) ∗ (∃ f, ((c : Thread nD τ).loc cc0_scratch1) ↦{fullShare} f)
      ∗ bigSepLR k27 (fun k => semVal (sndC c k) 0) (bigSepL k27 (fun k => semVal (rcvC c k) 0))) := rfl

/-- The ghost state of one device, by groups. -/
theorem ghost_groups (K : GSem nD τ sig → ℕ) (c : Dev nD) :
    ghost val jk jr K c = iprop((cellInv ER (Rd val jk jr) (K (barCell c)) (barCell c)
        ∗ (bigSep Finset.univ fun k => cellInv ER (Rd val jk jr) (K (sndC c k)) (sndC c k))
        ∗ (bigSep Finset.univ fun k => cellInv ER (Rd val jk jr) (K (rcvC c k)) (rcvC c k))
        ∗ cellInv ER (Rd val jk jr) (K (barCell (pe c 1))) (barCell (pe c 1))
        ∗ cellInv ER (Rd val jk jr) (K (barCell (pe c 2))) (barCell (pe c 2))
        ∗ cellInv ER (Rd val jk jr) (K (barCell (pe c 3))) (barCell (pe c 3))
        ∗ bigSep Finset.univ fun k => cellInv ER (Rd val jk jr) (K (rcvC (pe c (ko k)) k)) (rcvC (pe c (ko k)) k))
      ∗ atPos ER (barCell c) 0 ∅ 0
      ∗ (bigSep Finset.univ fun k => atPos ER (sndC c k) 0 ∅ 0)
      ∗ (bigSep Finset.univ fun k => atPos ER (rcvC c k) 0 ∅ 0)
      ∗ reached ER (barCell (pe c 1)) 0 ∗ reached ER (barCell (pe c 2)) 0 ∗ reached ER (barCell (pe c 3)) 0
      ∗ (bigSep Finset.univ fun k => reached ER (sndC c k) 0)
      ∗ (bigSep Finset.univ fun k => reached ER (rcvC (pe c (ko k)) k) 0)
      ∗ dutyTok ER (barCell (pe c 1)) 0 (1 : Fin 4) ∗ dutyTok ER (barCell (pe c 2)) 0 (2 : Fin 4) ∗ dutyTok ER (barCell (pe c 3)) 0 (3 : Fin 4)
      ∗ (bigSep Finset.univ fun k => dutyTok ER (sndC c k) 0 (0 : Fin 4))
      ∗ bigSep Finset.univ fun k => dutyTok ER (rcvC (pe c (ko k)) k) 0 (0 : Fin 4)) := by
  rw [ghost_eq, invs_eq]
  simp only [bigSepLR_fin27, ← bigSep_fin27]

/-! ## The records, and the tokens dealt round the ring -/

theorem bigSep_comm' {M : Type} [URA M] {α β : Type} [Fintype α] [Fintype β] (Φ : α → β → sProp M) :
    (bigSep Finset.univ fun a => bigSep Finset.univ fun b => Φ a b) = bigSep Finset.univ fun b => bigSep Finset.univ fun a => Φ a b := by
  rw [← BI.bigSep_univ_prod (fun x : α × β => Φ x.1 x.2), BI.bigSep_univ_equiv (Equiv.prodComm β α) (fun x : α × β => Φ x.1 x.2),
    BI.bigSep_univ_prod]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every cell's invariant, at the names `K`, and that round 0 of every cell is reached: persistent, every device gets them all. -/
def records (K : GSem nD τ sig → ℕ) : sProp 𝕄 :=
  iprop((bigSep Finset.univ fun ci : Dev nD × CK => cellInv ER (Rd val jk jr) (K (kcell ci)) (kcell ci))
    ∗ bigSep Finset.univ fun ci : Dev nD × CK => reached ER (kcell ci) 0)

instance records_persistent (K : GSem nD τ sig → ℕ) : BI.Persistent (records val jk jr K) := by unfold records; infer_instance

theorem inv_at (K : GSem nD τ sig → ℕ) (ci : Dev nD × CK) :
    (bigSep Finset.univ fun ci : Dev nD × CK => (cellInv ER (Rd val jk jr) (K (kcell ci)) (kcell ci) : sProp 𝕄)) ⊢ cellInv ER (Rd val jk jr) (K (kcell ci)) (kcell ci) :=
  bigSep_elim (Finset.mem_univ ci)
theorem inv_grp (K : GSem nD τ sig → ℕ) (f : Fin 27 → Dev nD × CK) :
    (bigSep Finset.univ fun ci : Dev nD × CK => (cellInv ER (Rd val jk jr) (K (kcell ci)) (kcell ci) : sProp 𝕄))
      ⊢ bigSep Finset.univ fun k : Fin 27 => cellInv ER (Rd val jk jr) (K (kcell (f k))) (kcell (f k)) :=
  BI.bigSep_intro_persistent fun k _ => bigSep_elim (Finset.mem_univ (f k))
theorem reached_at (ci : Dev nD × CK) :
    (bigSep Finset.univ fun ci : Dev nD × CK => (reached ER (kcell ci) 0 : sProp 𝕄)) ⊢ reached ER (kcell ci) 0 :=
  bigSep_elim (Finset.mem_univ ci)
theorem reached_grp (f : Fin 27 → Dev nD × CK) :
    (bigSep Finset.univ fun ci : Dev nD × CK => (reached ER (kcell ci) 0 : sProp 𝕄)) ⊢ bigSep Finset.univ fun k : Fin 27 => reached ER (kcell (f k)) 0 :=
  BI.bigSep_intro_persistent fun k _ => bigSep_elim (Finset.mem_univ (f k))

/-- The tokens of the duties device `c` pays: the barrier duty `o` of the device `o` ahead, its own send duties, the receive duty of
    each copy's destination. -/
def payToks (c : Dev nD) : sProp 𝕄 :=
  iprop((dutyTok ER (barCell (pe c 1)) 0 (1 : Fin 4) ∗ dutyTok ER (barCell (pe c 2)) 0 (2 : Fin 4) ∗ dutyTok ER (barCell (pe c 3)) 0 (3 : Fin 4))
    ∗ (bigSep Finset.univ fun k : Fin 27 => dutyTok ER (sndC c k) 0 (0 : Fin 4))
    ∗ bigSep Finset.univ fun k : Fin 27 => dutyTok ER (rcvC (pe c (ko k)) k) 0 (0 : Fin 4))
/-- What stays with device `c`: its positions on its own cells, and those tokens. -/
def linear (c : Dev nD) : sProp 𝕄 :=
  iprop((atPos ER (barCell c) 0 ∅ 0 ∗ (bigSep Finset.univ fun k : Fin 27 => atPos ER (sndC c k) 0 ∅ 0) ∗ bigSep Finset.univ fun k : Fin 27 => atPos ER (rcvC c k) 0 ∅ 0)
    ∗ payToks (F := F) c)

theorem toks_eq (c : Dev nD) : (toks (F := F) c : sProp 𝕄)
    = iprop((dutyTok ER (barCell c) 0 (1 : Fin 4) ∗ dutyTok ER (barCell c) 0 (2 : Fin 4) ∗ dutyTok ER (barCell c) 0 (3 : Fin 4))
      ∗ (bigSep Finset.univ fun k : Fin 27 => dutyTok ER (sndC c k) 0 (0 : Fin 4))
      ∗ bigSep Finset.univ fun k : Fin 27 => dutyTok ER (rcvC c k) 0 (0 : Fin 4)) := by
  unfold toks; rw [bigSep_TK]; rfl

theorem atPos_CK (c : Dev nD) : (bigSep Finset.univ fun i : CK => (atPos ER (kcell (c, i)) 0 ∅ 0 : sProp 𝕄))
    = iprop(atPos ER (barCell c) 0 ∅ 0 ∗ (bigSep Finset.univ fun k : Fin 27 => atPos ER (sndC c k) 0 ∅ 0) ∗ bigSep Finset.univ fun k : Fin 27 => atPos ER (rcvC c k) 0 ∅ 0) :=
  bigSep_CK _

/-- A barrier token goes to the device that pays it, `o` behind its cell's owner: seen from the payer, the cell is `o` ahead. -/
theorem deal_bar (o : ℕ) (d : Fin 4) :
    (bigSep Finset.univ fun c : Dev nD => (dutyTok ER (barCell c) 0 d : sProp 𝕄)) = bigSep Finset.univ fun c : Dev nD => dutyTok ER (barCell (pe c o)) 0 d :=
  bigSep_univ_equiv (ahead o) _
/-- A receive token goes to the copy's source. -/
theorem deal_rcv :
    (bigSep Finset.univ fun c : Dev nD => bigSep Finset.univ fun k : Fin 27 => (dutyTok ER (rcvC c k) 0 (0 : Fin 4) : sProp 𝕄))
      = bigSep Finset.univ fun c : Dev nD => bigSep Finset.univ fun k : Fin 27 => dutyTok ER (rcvC (pe c (ko k)) k) 0 (0 : Fin 4) :=
  (bigSep_comm' _).trans ((bigSep_congr fun k _ => bigSep_univ_equiv (ahead (ko k)) fun c : Dev nD => (dutyTok ER (rcvC c k) 0 (0 : Fin 4) : sProp 𝕄)).trans
    (bigSep_comm' fun (k : Fin 27) (c : Dev nD) => (dutyTok ER (rcvC (pe c (ko k)) k) 0 (0 : Fin 4) : sProp 𝕄)))

theorem toks_around : (bigSep Finset.univ fun c : Dev nD => (toks (F := F) c : sProp 𝕄)) ⊢ bigSep Finset.univ fun c : Dev nD => payToks (F := F) c := by
  rw [bigSep_congr (fun c _ => toks_eq (F := F) c)]
  unfold payToks
  rw [bigSep_sep', bigSep_sep', bigSep_sep', bigSep_sep', bigSep_sep', bigSep_sep', bigSep_sep', bigSep_sep',
    deal_bar 1 1, deal_bar 2 2, deal_bar 3 3, deal_rcv]

theorem ghost_intro (K : GSem nD τ sig → ℕ) (c : Dev nD) : iprop(records val jk jr K ∗ linear (F := F) c) ⊢ ghost val jk jr K c := by
  rw [ghost_groups]
  unfold records linear payToks
  iintro ⟨⟨#HI, #HR⟩, ⟨HaB, HaS, HaV⟩, ⟨Ht1, Ht2, Ht3⟩, HtS, HtV⟩
  isplitr
  · isplitr; · iapply (inv_at val jk jr K (c, .inl ())); iexact HI
    isplitr; · iapply (inv_grp val jk jr K fun k => (c, .inr (.inl k))); iexact HI
    isplitr; · iapply (inv_grp val jk jr K fun k => (c, .inr (.inr k))); iexact HI
    isplitr; · iapply (inv_at val jk jr K (pe c 1, .inl ())); iexact HI
    isplitr; · iapply (inv_at val jk jr K (pe c 2, .inl ())); iexact HI
    isplitr; · iapply (inv_at val jk jr K (pe c 3, .inl ())); iexact HI
    iapply (inv_grp val jk jr K fun k => (pe c (ko k), .inr (.inr k))); iexact HI
  isplitl [HaB]; · iexact HaB
  isplitl [HaS]; · iexact HaS
  isplitl [HaV]; · iexact HaV
  isplitr; · iapply (reached_at (F := F) (pe c 1, .inl ())); iexact HR
  isplitr; · iapply (reached_at (F := F) (pe c 2, .inl ())); iexact HR
  isplitr; · iapply (reached_at (F := F) (pe c 3, .inl ())); iexact HR
  isplitr; · iapply (reached_grp (F := F) fun k => (c, .inr (.inl k))); iexact HR
  isplitr; · iapply (reached_grp (F := F) fun k => (pe c (ko k), .inr (.inr k))); iexact HR
  isplitl [Ht1]; · iexact Ht1
  isplitl [Ht2]; · iexact Ht2
  isplitl [Ht3]; · iexact Ht3
  isplitl [HtS]; · iexact HtS
  iexact HtV

theorem ghost_intro' (K : GSem nD τ sig → ℕ) (c : Dev nD) : iprop(records val jk jr K ∗ linear (F := F) c) ⊢ G' val jk jr c := by
  unfold G'
  iintro H
  iexists K
  iapply (ghost_intro val jk jr K c)
  iexact H

theorem regroup :
    (bigSep Finset.univ fun c : Dev nD => iprop((bigSep Finset.univ fun i : CK => iprop(∃ κ : ℕ, cellInv ER (Rd val jk jr) κ (kcell (c, i))))
          ∗ (bigSep Finset.univ fun i : CK => iprop(atPos ER (kcell (c, i)) 0 ∅ 0 ∗ reached ER (kcell (c, i)) 0)) ∗ toks (F := F) c) : sProp 𝕄)
      ⊢ bigSep Finset.univ (G' val jk jr) := by
  rw [bigSep_sep', bigSep_sep', ← bigSep_univ_prod (fun ci : Dev nD × CK => iprop(∃ κ : ℕ, cellInv ER (Rd val jk jr) κ (kcell ci))),
    bigSep_congr (s := Finset.univ) (fun (c : Dev nD) _ => bigSep_sep' Finset.univ (fun i : CK => (atPos ER (kcell (c, i)) 0 ∅ 0 : sProp 𝕄)) (fun i => reached ER (kcell (c, i)) 0)),
    bigSep_sep', ← bigSep_univ_prod (fun ci : Dev nD × CK => (reached ER (kcell ci) 0 : sProp 𝕄))]
  iintro ⟨HI, ⟨Hat, #HR⟩, Htok⟩
  ihave HK := (BI.bigSep_exists_pi Finset.univ (fun (ci : Dev nD × CK) (κ : ℕ) => (cellInv ER (Rd val jk jr) κ (kcell ci) : sProp 𝕄))) $$ HI
  icases HK with ⟨%K, #HI⟩
  ihave Htk := (toks_around (F := F)) $$ Htok
  have hK : (bigSep Finset.univ fun ci : Dev nD × CK => (cellInv ER (Rd val jk jr) (K ci) (kcell ci) : sProp 𝕄))
      = bigSep Finset.univ fun ci : Dev nD × CK => cellInv ER (Rd val jk jr) (Function.extend kcell K 0 (kcell ci)) (kcell ci) :=
    bigSep_congr fun ci _ => by rw [kcell_injective.extend_apply]
  ihave HI' := (Entails.of_eq hK) $$ HI
  iapply (bigSep_with_persistent (R := records val jk jr (Function.extend kcell K 0)) fun c _ => ghost_intro' val jk jr (Function.extend kcell K 0) c)
  isplitr
  · unfold records; isplitl; · iexact HI'
    iexact HR
  · iapply ((Entails.of_eq (bigSep_sep' Finset.univ (fun c : Dev nD => bigSep Finset.univ fun i : CK => (atPos ER (kcell (c, i)) 0 ∅ 0 : sProp 𝕄)) (payToks (F := F))).symm).trans
      (bigSep_mono fun c _ => show _ ⊢ linear (F := F) c from Entails.of_eq (by unfold linear; rw [atPos_CK])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G val jk jr c) : sProp 𝕄)
    ⊢ |={Set.univ}=> bigSep Finset.univ (G' val jk jr) :=
  ((bigSep_mono fun c _ => core_alloc val jk jr c).trans (bigSep_fupd _ _)).trans (BI.fupd_mono (regroup val jk jr))

/-! ## The launch theorem's side conditions -/

/-- A device's launch credit, cell by cell: three units on its barrier cell, one block's credit on each receive cell. -/
abbrev credsFlat (c : Dev nD) : sProp 𝕄 :=
  iprop(cred (tallyAt (barCell c) () 3)
      ∗ cred (tallyAt ((c : Thread nD τ), SemLoc.dma (rcvS 0 0 1 inb_S3x4x4_S1x1x1_0_0_1)) () N)
      ∗ cred (tallyAt ((c : Thread nD τ), SemLoc.dma (rcvS 0 0 2 inb_S3x4x4_S1x1x1_0_0_2)) () N)
      ∗ cred (tallyAt ((c : Thread nD τ), SemLoc.dma (rcvS 0 0 3 inb_S3x4x4_S1x1x1_0_0_3)) () N)
      ∗ cred (tallyAt ((c : Thread nD τ), SemLoc.dma (rcvS 0 1 1 inb_S3x4x4_S1x1x1_0_1_1)) () N)
      ∗ cred (tallyAt ((c : Thread nD τ), SemLoc.dma (rcvS 0 1 2 inb_S3x4x4_S1x1x1_0_1_2)) () N)
      ∗ cred (tallyAt ((c : Thread nD τ), SemLoc.dma (rcvS 0 1 3 inb_S3x4x4_S1x1x1_0_1_3)) () N)
      ∗ cred (tallyAt ((c : Thread nD τ), SemLoc.dma (rcvS 0 2 1 inb_S3x4x4_S1x1x1_0_2_1)) () N)
      ∗ cred (tallyAt ((c : Thread nD τ), SemLoc.dma (rcvS 0 2 2 inb_S3x4x4_S1x1x1_0_2_2)) () N)
      ∗ cred (tallyAt ((c : Thread nD τ), SemLoc.dma (rcvS 0 2 3 inb_S3x4x4_S1x1x1_0_2_3)) () N)
      ∗ cred (tallyAt ((c : Thread nD τ), SemLoc.dma (rcvS 0 3 1 inb_S3x4x4_S1x1x1_0_3_1)) () N)
      ∗ cred (tallyAt ((c : Thread nD τ), SemLoc.dma (rcvS 0 3 2 inb_S3x4x4_S1x1x1_0_3_2)) () N)
      ∗ cred (tallyAt ((c : Thread nD τ), SemLoc.dma (rcvS 0 3 3 inb_S3x4x4_S1x1x1_0_3_3)) () N)
      ∗ cred (tallyAt ((c : Thread nD τ), SemLoc.dma (rcvS 1 0 1 inb_S3x4x4_S1x1x1_1_0_1)) () N)
      ∗ cred (tallyAt ((c : Thread nD τ), SemLoc.dma (rcvS 1 0 2 inb_S3x4x4_S1x1x1_1_0_2)) () N)
      ∗ cred (tallyAt ((c : Thread nD τ), SemLoc.dma (rcvS 1 0 3 inb_S3x4x4_S1x1x1_1_0_3)) () N)
      ∗ cred (tallyAt ((c : Thread nD τ), SemLoc.dma (rcvS 1 1 1 inb_S3x4x4_S1x1x1_1_1_1)) () N)
      ∗ cred (tallyAt ((c : Thread nD τ), SemLoc.dma (rcvS 1 1 2 inb_S3x4x4_S1x1x1_1_1_2)) () N)
      ∗ cred (tallyAt ((c : Thread nD τ), SemLoc.dma (rcvS 1 1 3 inb_S3x4x4_S1x1x1_1_1_3)) () N)
      ∗ cred (tallyAt ((c : Thread nD τ), SemLoc.dma (rcvS 1 2 1 inb_S3x4x4_S1x1x1_1_2_1)) () N)
      ∗ cred (tallyAt ((c : Thread nD τ), SemLoc.dma (rcvS 1 2 2 inb_S3x4x4_S1x1x1_1_2_2)) () N)
      ∗ cred (tallyAt ((c : Thread nD τ), SemLoc.dma (rcvS 1 2 3 inb_S3x4x4_S1x1x1_1_2_3)) () N)
      ∗ cred (tallyAt ((c : Thread nD τ), SemLoc.dma (rcvS 1 3 1 inb_S3x4x4_S1x1x1_1_3_1)) () N)
      ∗ cred (tallyAt ((c : Thread nD τ), SemLoc.dma (rcvS 1 3 2 inb_S3x4x4_S1x1x1_1_3_2)) () N)
      ∗ cred (tallyAt ((c : Thread nD τ), SemLoc.dma (rcvS 1 3 3 inb_S3x4x4_S1x1x1_1_3_3)) () N)
      ∗ cred (tallyAt ((c : Thread nD τ), SemLoc.dma (rcvS 2 0 1 inb_S3x4x4_S1x1x1_2_0_1)) () N)
      ∗ cred (tallyAt ((c : Thread nD τ), SemLoc.dma (rcvS 2 0 2 inb_S3x4x4_S1x1x1_2_0_2)) () N)
      ∗ cred (tallyAt ((c : Thread nD τ), SemLoc.dma (rcvS 2 0 3 inb_S3x4x4_S1x1x1_2_0_3)) () N))

theorem credsFlat_eq (c : Dev nD) : (credsFlat (F := F) c : sProp 𝕄)
    = iprop(cred (tallyAt (barCell c) () 3) ∗ bigSepL k27 (fun k => cred (tallyAt (rcvC c k) () N))) := rfl

theorem start_intro (hcreds : ∀ c : Dev nD, (Pipeline.launchCred O₀ c : sProp 𝕄) ⊢ credsFlat (F := F) c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' val jk jr c)
      ⊢ |={Set.univ}=> iprop(start val jk jr c ∗ emp) := by
  rw [start_eq, bigSepLR_eq]
  unfold G'
  iintro ⟨-, Hlev, Hcr, -, HG⟩
  ihave Hc := ((hcreds c).trans (Entails.of_eq (credsFlat_eq (F := F) c))) $$ Hcr
  icases Hc with ⟨H1, HN⟩
  imodintro
  isplitl
  · isplitl [HG]; · iexact HG
    isplitl [H1]; · iexact H1
    isplitl [HN]; · iexact HN
    iexact Hlev
  · iempintro

theorem phi0_intro (c : Dev nD) :
    iprop(start val jk jr c ∗ Pipeline.prefHeld Pipeline.Prefetch.none c (fun _ => fullShare.right) (fun k => k.elim0) ∗ Pipeline.scopedRest cfg0.spec c)
      ⊢ (dats m ρ val jk jr outv 0 c).Φ 0 := by
  rw [show (dats m ρ val jk jr outv 0 c).Φ 0 = Φ₀ val jk jr c from rfl, scopedRest0_eq]
  unfold Φ₀
  iintro ⟨Hs, -, ⟨H0, H1⟩⟩
  isplitl [Hs]; · iexact Hs
  isplitl [H0] <;> iassumption

theorem phi1_exit (c : Dev nD) :
    (dats m ρ val jk jr outv 0 c).Φ (Fin.last cfg0.N) ⊢ iprop(emp ∗ Pipeline.ownSems0 osem c ∗ Pipeline.scopedRest cfg0.spec c) := by
  rw [show (dats m ρ val jk jr outv 0 c).Φ (Fin.last cfg0.N) = Φ₁ (F := F) c from rfl, scopedRest0_eq, ownSems0_eq, phi1_eq, bigSepLR_fin27, ← bigSep_fin27]
  iintro ⟨H0, H1, HS, HV⟩
  isplitr; · iempintro
  isplitl [HS HV]
  · isplitl [HS] <;> iassumption
  isplitl [H0] <;> iassumption

theorem waits
    (hlev : ∀ (c : Dev nD) (q : DmaSem sig), q.val < 8 → ∀ O : CellTallies nD τ sig Unit, (O = O₀ c ∨ O = 0) →
      (levAts L lv : sProp 𝕄) ⊢ MayWait (c : Thread nD τ) (.dma q) () O) (c : Dev nD) :
    (levAts L lv : sProp 𝕄) ⊢ Pipeline.cellsWaits cfgs (dats m ρ val jk jr outv) () 0 c :=
  Pipeline.cellsWaits_intro cfgs (dats m ρ val jk jr outv) () 0 c fun w s t =>
    hlev c _ (by fin_cases w <;> fin_cases s <;> decide) _ (by
      rcases t with ⟨_ | _, ht⟩
      · exact Or.inl rfl
      · exact Or.inr rfl)

theorem L_of_ne (g : GSem nD τ sig) (h : g.1.2 ≠ .tc) : L g = ∅ := if_neg h

/-! ## The run -/

set_option maxRecDepth 8000 in
/-- At the compiled mesh of four devices, for any float values, from any memory with zero counters: every weakly fair execution of
    @main terminates, and every final state has each device's arrays at the contents the proof data name. -/
theorem run_main (hbody : ∀ c : Dev nD, BodyObligation (dats m ρ val jk jr outv 0 c) (defs₀ (F := F)) 𝒱₀ () Set.univ) :
    θ_run defs (onTc (τ := τ) (main (F := F))) (s₀ m ρ) (fun r => ∀ c : Dev nD, ∀ w : Fin cfg0.W,
      r.2.mem ((cfg0.win w).arr.view.loc (c : Thread nD τ)) = (dats m ρ val jk jr outv 0 c).arrAt w cfg0.N) :=
  Pipeline.θ_run_region_owing_glob_pf (fun p => (cfgs p).toPCfg) (fun p => (cfgs p).toPCfg_adm) (dats m ρ val jk jr outv) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ val jk jr outv)
    (hdistinct := winFacts0.arr_inj)
    (O₀ := O₀) (howed₀ := fun _ => rfl) (howedN := fun _ => rfl)
    (L := L) (lv := lv) (hL := L_of_ne) (hwaits := waits m ρ val jk jr outv fun c q hq O hO => mayWait_stage (F := F) c q hq O hO)
    (G := G val jk jr) (G' := G' val jk jr) (u₀ := u₀)
    (hu₀ := by
      unfold u₀
      iintro Hu
      ihave H := (ownU_pair _ _) $$ Hu
      icases H with ⟨HP, HX⟩
      imod (fund_ring val jk jr) $$ HX with HG
      imodintro
      isplitl [HP] <;> iassumption)
    (hglob := glob val jk jr)
    (hA := fun _ _ => rfl) (hpf := fun _ k => k.elim0)
    (X := start val jk jr) (Y := fun _ => iprop(emp)) (Z := fun _ => iprop(emp))
    (hX := start_intro m ρ val jk jr fun c => creds (F := F) c) (hin := phi0_intro m ρ val jk jr outv) (hout := phi1_exit m ρ val jk jr outv)
    (QY := fun _ _ => True)
    (hY := fun c s' => by
      iintro ⟨-, -, HSI⟩
      imodintro
      isplitr; · ipureintro; trivial
      iexact HSI)
    (hQ := fun _ h c w => (h c).1 w)

/-- info: 'Cert.KernelIdeal.Mlp.run_main' depends on axioms: [propext, Classical.choice, Quot.sound] -/
#guard_msgs in #print axioms run_main

end Cert.KernelIdeal.Mlp

end
-- ==== Proof.FinalK.lean ====
import proofs.«900991_g7700000000000992_dist_mlpseq_tp1d_rep_bs_b256_d256_h512_v7x_i4_bf16_1_alg».proof.Proof.LaunchK

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## The arrays after the run

The grid is a single point. An input window's array is never written; the output window's one block is the whole array, written
back once with what the body left in its staging buffer. -/

/-- An input array ends as it was at launch. -/
theorem final_in (c : Dev nD) (w : Fin cfg0.W) (hw : w.val < 7) :
    (dats m ρ val jk jr outv 0 c).arrAt w cfg0.N = (s₀ m ρ).mem ((cfg0.win w).arr.view.loc (c : Thread nD τ)) := by
  have hin : (cfg0.win w).isOut = false := by
    revert hw; revert w; decide
  exact (dats m ρ val jk jr outv 0 c).arrAt_in w hin _

/-- The one write-back of the result window writes its block of the array over what the array held before. -/
theorem final_out_step (c : Dev nD) :
    (dats m ρ val jk jr outv 0 c).arrAt (7 : Fin 8) cfg0.N
      = ((cfg0.win (7 : Fin 8)).blk t₀).view.write (Elt F) ((dats m ρ val jk jr outv 0 c).arrAt (7 : Fin 8) t₀.val)
          ((dats m ρ val jk jr outv 0 c).flushed (7 : Fin 8) t₀) Finset.univ := by
  have h := (dats m ρ val jk jr outv 0 c).arrAt_succ (7 : Fin 8) t₀
  rw [flush0_7 t₀, if_pos rfl] at h
  exact h

/-- The result array ends holding what the body left in the result's staging buffer. -/
theorem final_out (c : Dev nD) : (dats m ρ val jk jr outv 0 c).arrAt (7 : Fin 8) cfg0.N = outv c := by
  have hz : (fun a => (win0_7.index t₀) a * main_v1.ty.shape.size a) = fun _ => 0 := funext fun a => by fin_cases a <;> decide
  have hw := fun f w => Memref.write_access_unit_zero_univ (Elt F) main_v1 hz (fun a => by fin_cases a <;> decide) f w
  rw [final_out_step]
  exact hw _ _

/-- The kernel's run, read back: on every device the result array holds `outv c` and the seven argument arrays are unchanged. -/
theorem kernel_run (hbody : ∀ c : Dev nD, BodyObligation (dats m ρ val jk jr outv 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outv c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c) (7 : Fin 8)).trans (final_out m ρ val jk jr outv c),
      ((h c) (0 : Fin 8)).trans (final_in m ρ val jk jr outv c 0 (by decide)),
      ((h c) (1 : Fin 8)).trans (final_in m ρ val jk jr outv c 1 (by decide)),
      ((h c) (2 : Fin 8)).trans (final_in m ρ val jk jr outv c 2 (by decide)),
      ((h c) (3 : Fin 8)).trans (final_in m ρ val jk jr outv c 3 (by decide)),
      ((h c) (4 : Fin 8)).trans (final_in m ρ val jk jr outv c 4 (by decide)),
      ((h c) (5 : Fin 8)).trans (final_in m ρ val jk jr outv c 5 (by decide)),
      ((h c) (6 : Fin 8)).trans (final_in m ρ val jk jr outv c 6 (by decide))⟩)
    (run_main m ρ val jk jr outv hbody)

/-- info: 'Cert.KernelIdeal.Mlp.kernel_run' depends on axioms: [propext, Classical.choice, Quot.sound] -/
#guard_msgs in #print axioms kernel_run

end Cert.KernelIdeal.Mlp

end
-- ==== Proof.Owes.lean ====
import proofs.«900991_g7700000000000992_dist_mlpseq_tp1d_rep_bs_b256_d256_h512_v7x_i4_bf16_1_alg».proof.Proof.BodyDefs

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What a device still owes, counted down: the 27 copies are numbered 27, 26, …, 1 in the order the body starts them, and
    after the copies numbered above `n` have been started the device owes the credits of copies `1 … n`. -/

/-- The credit copy number `n` owes: one block on the receive cell of its slot, on the device that many places ahead. -/
def owedBy (c : Dev nD) : ℕ → CellTallies nD τ sig Unit
  | 27 => tallyAt (((pe c 2) : Thread nD τ), SemLoc.dma (rcvS 0 0 2 inb_S3x4x4_S1x1x1_0_0_2)) () N
  | 26 => tallyAt (((pe c 1) : Thread nD τ), SemLoc.dma (rcvS 0 0 1 inb_S3x4x4_S1x1x1_0_0_1)) () N
  | 25 => tallyAt (((pe c 3) : Thread nD τ), SemLoc.dma (rcvS 0 0 3 inb_S3x4x4_S1x1x1_0_0_3)) () N
  | 24 => tallyAt (((pe c 2) : Thread nD τ), SemLoc.dma (rcvS 0 1 2 inb_S3x4x4_S1x1x1_0_1_2)) () N
  | 23 => tallyAt (((pe c 1) : Thread nD τ), SemLoc.dma (rcvS 0 1 1 inb_S3x4x4_S1x1x1_0_1_1)) () N
  | 22 => tallyAt (((pe c 3) : Thread nD τ), SemLoc.dma (rcvS 0 1 3 inb_S3x4x4_S1x1x1_0_1_3)) () N
  | 21 => tallyAt (((pe c 2) : Thread nD τ), SemLoc.dma (rcvS 0 2 2 inb_S3x4x4_S1x1x1_0_2_2)) () N
  | 20 => tallyAt (((pe c 1) : Thread nD τ), SemLoc.dma (rcvS 0 2 1 inb_S3x4x4_S1x1x1_0_2_1)) () N
  | 19 => tallyAt (((pe c 3) : Thread nD τ), SemLoc.dma (rcvS 0 2 3 inb_S3x4x4_S1x1x1_0_2_3)) () N
  | 18 => tallyAt (((pe c 2) : Thread nD τ), SemLoc.dma (rcvS 0 3 2 inb_S3x4x4_S1x1x1_0_3_2)) () N
  | 17 => tallyAt (((pe c 1) : Thread nD τ), SemLoc.dma (rcvS 0 3 1 inb_S3x4x4_S1x1x1_0_3_1)) () N
  | 16 => tallyAt (((pe c 3) : Thread nD τ), SemLoc.dma (rcvS 0 3 3 inb_S3x4x4_S1x1x1_0_3_3)) () N
  | 15 => tallyAt (((pe c 2) : Thread nD τ), SemLoc.dma (rcvS 1 0 2 inb_S3x4x4_S1x1x1_1_0_2)) () N
  | 14 => tallyAt (((pe c 1) : Thread nD τ), SemLoc.dma (rcvS 1 0 1 inb_S3x4x4_S1x1x1_1_0_1)) () N
  | 13 => tallyAt (((pe c 3) : Thread nD τ), SemLoc.dma (rcvS 1 0 3 inb_S3x4x4_S1x1x1_1_0_3)) () N
  | 12 => tallyAt (((pe c 2) : Thread nD τ), SemLoc.dma (rcvS 1 1 2 inb_S3x4x4_S1x1x1_1_1_2)) () N
  | 11 => tallyAt (((pe c 1) : Thread nD τ), SemLoc.dma (rcvS 1 1 1 inb_S3x4x4_S1x1x1_1_1_1)) () N
  | 10 => tallyAt (((pe c 3) : Thread nD τ), SemLoc.dma (rcvS 1 1 3 inb_S3x4x4_S1x1x1_1_1_3)) () N
  | 9 => tallyAt (((pe c 2) : Thread nD τ), SemLoc.dma (rcvS 1 2 2 inb_S3x4x4_S1x1x1_1_2_2)) () N
  | 8 => tallyAt (((pe c 1) : Thread nD τ), SemLoc.dma (rcvS 1 2 1 inb_S3x4x4_S1x1x1_1_2_1)) () N
  | 7 => tallyAt (((pe c 3) : Thread nD τ), SemLoc.dma (rcvS 1 2 3 inb_S3x4x4_S1x1x1_1_2_3)) () N
  | 6 => tallyAt (((pe c 2) : Thread nD τ), SemLoc.dma (rcvS 1 3 2 inb_S3x4x4_S1x1x1_1_3_2)) () N
  | 5 => tallyAt (((pe c 1) : Thread nD τ), SemLoc.dma (rcvS 1 3 1 inb_S3x4x4_S1x1x1_1_3_1)) () N
  | 4 => tallyAt (((pe c 3) : Thread nD τ), SemLoc.dma (rcvS 1 3 3 inb_S3x4x4_S1x1x1_1_3_3)) () N
  | 3 => tallyAt (((pe c 2) : Thread nD τ), SemLoc.dma (rcvS 2 0 2 inb_S3x4x4_S1x1x1_2_0_2)) () N
  | 2 => tallyAt (((pe c 1) : Thread nD τ), SemLoc.dma (rcvS 2 0 1 inb_S3x4x4_S1x1x1_2_0_1)) () N
  | 1 => tallyAt (((pe c 3) : Thread nD τ), SemLoc.dma (rcvS 2 0 3 inb_S3x4x4_S1x1x1_2_0_3)) () N
  | _ => 0

/-- What is owed once only copies `1 … n` remain to be started. -/
def owesLeft (c : Dev nD) : ℕ → CellTallies nD τ sig Unit
  | 0 => 0
  | n + 1 => owesLeft c n + owedBy c (n + 1)

theorem owesLeft_succ (c : Dev nD) (n : ℕ) : owesLeft c (n + 1) = owesLeft c n + owedBy c (n + 1) := rfl

/-- At launch: all 27 copies and the three entry signals. -/
theorem O₀_eq (c : Dev nD) : O₀ c = owesLeft c 27 + tallyAt (barCell (pe c 3)) () 1 + tallyAt (barCell (pe c 2)) () 1 + tallyAt (barCell (pe c 1)) () 1 := by
  simp only [owesLeft, owedBy, O₀, zero_add]

/-- The lowest level among the cells of copies `1 … n`: layer 0 is numbered 16 … 27, layer 1 4 … 15, the reduce-scatter 1 … 3. -/
def lvLeft (n : ℕ) : ℕ := if n = 0 then 5 else if n ≤ 3 then 4 else if n ≤ 15 then 3 else 2

end Cert.KernelIdeal.Mlp

end
-- ==== Proof.Toks.lean ====
import proofs.«900991_g7700000000000992_dist_mlpseq_tp1d_rep_bs_b256_d256_h512_v7x_i4_bf16_1_alg».proof.Proof.Owes

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! The duty tokens of the copies not yet started, counted down like what is owed: a copy's two tokens (its departure on the
    device's own send cell, its landing on the receive cell of the device ahead) are taken out when the copy is started. -/

/-- The two tokens copy number `n` pays with. -/
def copyToks (c : Dev nD) : ℕ → sProp 𝕄
  | 27 => iprop(dutyTok ER ((c : Thread nD τ), SemLoc.dma (sndS 0 0 2 inb_S3x4x4_S1x1x1_0_0_2)) 0 (0 : Fin 4) ∗ dutyTok ER (((pe c 2) : Thread nD τ), SemLoc.dma (rcvS 0 0 2 inb_S3x4x4_S1x1x1_0_0_2)) 0 (0 : Fin 4))
  | 26 => iprop(dutyTok ER ((c : Thread nD τ), SemLoc.dma (sndS 0 0 1 inb_S3x4x4_S1x1x1_0_0_1)) 0 (0 : Fin 4) ∗ dutyTok ER (((pe c 1) : Thread nD τ), SemLoc.dma (rcvS 0 0 1 inb_S3x4x4_S1x1x1_0_0_1)) 0 (0 : Fin 4))
  | 25 => iprop(dutyTok ER ((c : Thread nD τ), SemLoc.dma (sndS 0 0 3 inb_S3x4x4_S1x1x1_0_0_3)) 0 (0 : Fin 4) ∗ dutyTok ER (((pe c 3) : Thread nD τ), SemLoc.dma (rcvS 0 0 3 inb_S3x4x4_S1x1x1_0_0_3)) 0 (0 : Fin 4))
  | 24 => iprop(dutyTok ER ((c : Thread nD τ), SemLoc.dma (sndS 0 1 2 inb_S3x4x4_S1x1x1_0_1_2)) 0 (0 : Fin 4) ∗ dutyTok ER (((pe c 2) : Thread nD τ), SemLoc.dma (rcvS 0 1 2 inb_S3x4x4_S1x1x1_0_1_2)) 0 (0 : Fin 4))
  | 23 => iprop(dutyTok ER ((c : Thread nD τ), SemLoc.dma (sndS 0 1 1 inb_S3x4x4_S1x1x1_0_1_1)) 0 (0 : Fin 4) ∗ dutyTok ER (((pe c 1) : Thread nD τ), SemLoc.dma (rcvS 0 1 1 inb_S3x4x4_S1x1x1_0_1_1)) 0 (0 : Fin 4))
  | 22 => iprop(dutyTok ER ((c : Thread nD τ), SemLoc.dma (sndS 0 1 3 inb_S3x4x4_S1x1x1_0_1_3)) 0 (0 : Fin 4) ∗ dutyTok ER (((pe c 3) : Thread nD τ), SemLoc.dma (rcvS 0 1 3 inb_S3x4x4_S1x1x1_0_1_3)) 0 (0 : Fin 4))
  | 21 => iprop(dutyTok ER ((c : Thread nD τ), SemLoc.dma (sndS 0 2 2 inb_S3x4x4_S1x1x1_0_2_2)) 0 (0 : Fin 4) ∗ dutyTok ER (((pe c 2) : Thread nD τ), SemLoc.dma (rcvS 0 2 2 inb_S3x4x4_S1x1x1_0_2_2)) 0 (0 : Fin 4))
  | 20 => iprop(dutyTok ER ((c : Thread nD τ), SemLoc.dma (sndS 0 2 1 inb_S3x4x4_S1x1x1_0_2_1)) 0 (0 : Fin 4) ∗ dutyTok ER (((pe c 1) : Thread nD τ), SemLoc.dma (rcvS 0 2 1 inb_S3x4x4_S1x1x1_0_2_1)) 0 (0 : Fin 4))
  | 19 => iprop(dutyTok ER ((c : Thread nD τ), SemLoc.dma (sndS 0 2 3 inb_S3x4x4_S1x1x1_0_2_3)) 0 (0 : Fin 4) ∗ dutyTok ER (((pe c 3) : Thread nD τ), SemLoc.dma (rcvS 0 2 3 inb_S3x4x4_S1x1x1_0_2_3)) 0 (0 : Fin 4))
  | 18 => iprop(dutyTok ER ((c : Thread nD τ), SemLoc.dma (sndS 0 3 2 inb_S3x4x4_S1x1x1_0_3_2)) 0 (0 : Fin 4) ∗ dutyTok ER (((pe c 2) : Thread nD τ), SemLoc.dma (rcvS 0 3 2 inb_S3x4x4_S1x1x1_0_3_2)) 0 (0 : Fin 4))
  | 17 => iprop(dutyTok ER ((c : Thread nD τ), SemLoc.dma (sndS 0 3 1 inb_S3x4x4_S1x1x1_0_3_1)) 0 (0 : Fin 4) ∗ dutyTok ER (((pe c 1) : Thread nD τ), SemLoc.dma (rcvS 0 3 1 inb_S3x4x4_S1x1x1_0_3_1)) 0 (0 : Fin 4))
  | 16 => iprop(dutyTok ER ((c : Thread nD τ), SemLoc.dma (sndS 0 3 3 inb_S3x4x4_S1x1x1_0_3_3)) 0 (0 : Fin 4) ∗ dutyTok ER (((pe c 3) : Thread nD τ), SemLoc.dma (rcvS 0 3 3 inb_S3x4x4_S1x1x1_0_3_3)) 0 (0 : Fin 4))
  | 15 => iprop(dutyTok ER ((c : Thread nD τ), SemLoc.dma (sndS 1 0 2 inb_S3x4x4_S1x1x1_1_0_2)) 0 (0 : Fin 4) ∗ dutyTok ER (((pe c 2) : Thread nD τ), SemLoc.dma (rcvS 1 0 2 inb_S3x4x4_S1x1x1_1_0_2)) 0 (0 : Fin 4))
  | 14 => iprop(dutyTok ER ((c : Thread nD τ), SemLoc.dma (sndS 1 0 1 inb_S3x4x4_S1x1x1_1_0_1)) 0 (0 : Fin 4) ∗ dutyTok ER (((pe c 1) : Thread nD τ), SemLoc.dma (rcvS 1 0 1 inb_S3x4x4_S1x1x1_1_0_1)) 0 (0 : Fin 4))
  | 13 => iprop(dutyTok ER ((c : Thread nD τ), SemLoc.dma (sndS 1 0 3 inb_S3x4x4_S1x1x1_1_0_3)) 0 (0 : Fin 4) ∗ dutyTok ER (((pe c 3) : Thread nD τ), SemLoc.dma (rcvS 1 0 3 inb_S3x4x4_S1x1x1_1_0_3)) 0 (0 : Fin 4))
  | 12 => iprop(dutyTok ER ((c : Thread nD τ), SemLoc.dma (sndS 1 1 2 inb_S3x4x4_S1x1x1_1_1_2)) 0 (0 : Fin 4) ∗ dutyTok ER (((pe c 2) : Thread nD τ), SemLoc.dma (rcvS 1 1 2 inb_S3x4x4_S1x1x1_1_1_2)) 0 (0 : Fin 4))
  | 11 => iprop(dutyTok ER ((c : Thread nD τ), SemLoc.dma (sndS 1 1 1 inb_S3x4x4_S1x1x1_1_1_1)) 0 (0 : Fin 4) ∗ dutyTok ER (((pe c 1) : Thread nD τ), SemLoc.dma (rcvS 1 1 1 inb_S3x4x4_S1x1x1_1_1_1)) 0 (0 : Fin 4))
  | 10 => iprop(dutyTok ER ((c : Thread nD τ), SemLoc.dma (sndS 1 1 3 inb_S3x4x4_S1x1x1_1_1_3)) 0 (0 : Fin 4) ∗ dutyTok ER (((pe c 3) : Thread nD τ), SemLoc.dma (rcvS 1 1 3 inb_S3x4x4_S1x1x1_1_1_3)) 0 (0 : Fin 4))
  | 9 => iprop(dutyTok ER ((c : Thread nD τ), SemLoc.dma (sndS 1 2 2 inb_S3x4x4_S1x1x1_1_2_2)) 0 (0 : Fin 4) ∗ dutyTok ER (((pe c 2) : Thread nD τ), SemLoc.dma (rcvS 1 2 2 inb_S3x4x4_S1x1x1_1_2_2)) 0 (0 : Fin 4))
  | 8 => iprop(dutyTok ER ((c : Thread nD τ), SemLoc.dma (sndS 1 2 1 inb_S3x4x4_S1x1x1_1_2_1)) 0 (0 : Fin 4) ∗ dutyTok ER (((pe c 1) : Thread nD τ), SemLoc.dma (rcvS 1 2 1 inb_S3x4x4_S1x1x1_1_2_1)) 0 (0 : Fin 4))
  | 7 => iprop(dutyTok ER ((c : Thread nD τ), SemLoc.dma (sndS 1 2 3 inb_S3x4x4_S1x1x1_1_2_3)) 0 (0 : Fin 4) ∗ dutyTok ER (((pe c 3) : Thread nD τ), SemLoc.dma (rcvS 1 2 3 inb_S3x4x4_S1x1x1_1_2_3)) 0 (0 : Fin 4))
  | 6 => iprop(dutyTok ER ((c : Thread nD τ), SemLoc.dma (sndS 1 3 2 inb_S3x4x4_S1x1x1_1_3_2)) 0 (0 : Fin 4) ∗ dutyTok ER (((pe c 2) : Thread nD τ), SemLoc.dma (rcvS 1 3 2 inb_S3x4x4_S1x1x1_1_3_2)) 0 (0 : Fin 4))
  | 5 => iprop(dutyTok ER ((c : Thread nD τ), SemLoc.dma (sndS 1 3 1 inb_S3x4x4_S1x1x1_1_3_1)) 0 (0 : Fin 4) ∗ dutyTok ER (((pe c 1) : Thread nD τ), SemLoc.dma (rcvS 1 3 1 inb_S3x4x4_S1x1x1_1_3_1)) 0 (0 : Fin 4))
  | 4 => iprop(dutyTok ER ((c : Thread nD τ), SemLoc.dma (sndS 1 3 3 inb_S3x4x4_S1x1x1_1_3_3)) 0 (0 : Fin 4) ∗ dutyTok ER (((pe c 3) : Thread nD τ), SemLoc.dma (rcvS 1 3 3 inb_S3x4x4_S1x1x1_1_3_3)) 0 (0 : Fin 4))
  | 3 => iprop(dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4))
  | 2 => iprop(dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4))
  | 1 => iprop(dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4))
  | _ => iprop(emp)

/-- The tokens of copies `1 … n`. -/
def toksLeft (c : Dev nD) : ℕ → sProp 𝕄
  | 0 => iprop(emp)
  | n + 1 => iprop(copyToks (F := F) c (n + 1) ∗ toksLeft c n)

theorem toksLeft_succ (c : Dev nD) (n : ℕ) : toksLeft (F := F) c (n + 1) = iprop(copyToks (F := F) c (n + 1) ∗ toksLeft c n) := rfl

end Cert.KernelIdeal.Mlp

end
-- ==== Proof.SlotSplit.lean ====
/-
  The two scratch buffers by blocks. The exchange buffer `[2, 4, 4, 64, 256]` is cut along its first three axes into 32
  blocks of `64 × 256`, the reduce-scatter buffer `[2, 4, 64, 256]` along its first two into 8: the blocks are pairwise
  disjoint (two blocks differ in a leading coordinate) and cover the buffer (every element has leading coordinates in
  range). So holding a buffer whole at contents `f` is holding its blocks apart at `f`, and blocks held apart at
  contents of their own glue to the whole buffer at some contents.
-/
import proofs.«900991_g7700000000000992_dist_mlpseq_tp1d_rep_bs_b256_d256_h512_v7x_i4_bf16_1_alg».proof.Proof.Proto

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## A flat separating conjunction, and a buffer cut along a key -/

/-- `P₁ ∗ P₂ ∗ … ∗ Pₙ`, flat, of a list of assertions. -/
def sepChain : List (sProp 𝕄) → sProp 𝕄
  | [] => iprop(emp)
  | [P] => P
  | P :: Q :: r => iprop(P ∗ sepChain (Q :: r))

section Key

variable {κ : Type} [DecidableEq κ] (ℓ : Loc nD τ sig) (key : Idx ℓ → κ)

/-- The elements of the buffer whose key is `k`. -/
def fiber (k : κ) : Finset (Idx ℓ) := Finset.univ.filter fun i => key i = k

/-- The elements whose keys lie in a duplicate-free list, held at one contents, are the elements of each key, held apart. -/
theorem chain_fibers (q : PosShare TreeShare) (f : Buf (Elt F) ℓ) : ∀ (k : κ) (ks : List κ), (k :: ks).Nodup →
    ((ℓ ↦[Finset.univ.filter fun i => key i ∈ k :: ks]{q} f : sProp 𝕄)
      ⊣⊢ sepChain ((k :: ks).map fun k => (ℓ ↦[fiber ℓ key k]{q} f : sProp 𝕄)))
  | k, [], _ => by
    have hset : (Finset.univ.filter fun i => key i ∈ [k]) = fiber ℓ key k := by
      ext i; simp only [fiber, Finset.mem_filter, Finset.mem_univ, true_and, List.mem_singleton]
    rw [hset]; exact .rfl
  | k, k' :: ks, hnd => by
    have hset : (Finset.univ.filter fun i => key i ∈ k :: k' :: ks)
        = fiber ℓ key k ∪ Finset.univ.filter fun i => key i ∈ k' :: ks := by
      ext i
      simp only [fiber, Finset.mem_filter, Finset.mem_univ, true_and, Finset.mem_union, List.mem_cons (a := key i) (b := k)]
    have hd : Disjoint (fiber ℓ key k) (Finset.univ.filter fun i => key i ∈ k' :: ks) := by
      rw [Finset.disjoint_left]; intro i hi hj
      simp only [fiber, Finset.mem_filter, Finset.mem_univ, true_and] at hi hj
      exact (List.nodup_cons.mp hnd).1 (hi ▸ hj)
    rw [hset]
    exact (Region.is_union hd).trans (sep_congr_right (chain_fibers q f k' ks (List.nodup_cons.mp hnd).2))

/-- A buffer whose every element has its key in a duplicate-free list is its blocks by key, held apart. -/
theorem split_fibers (q : PosShare TreeShare) (f : Buf (Elt F) ℓ) (k : κ) (ks : List κ) (hnd : (k :: ks).Nodup)
    (hcov : ∀ i, key i ∈ k :: ks) :
    ((ℓ ↦{q} f : sProp 𝕄) ⊣⊢ sepChain ((k :: ks).map fun k => (ℓ ↦[fiber ℓ key k]{q} f : sProp 𝕄))) := by
  have hset : (Finset.univ.filter fun i => key i ∈ k :: ks) = Finset.univ := Finset.filter_true_of_mem fun i _ => hcov i
  rw [← hset]; exact chain_fibers ℓ key q f k ks hnd

/-- Blocks by key held apart, each at contents of its own, make up the elements of those keys at some contents. -/
theorem join_fibers (q : PosShare TreeShare) : ∀ (k : κ) (ks : List κ), (k :: ks).Nodup →
    (sepChain ((k :: ks).map fun k => (iprop(∃ f, ℓ ↦[fiber ℓ key k]{q} f) : sProp 𝕄))
      ⊢ ∃ f, ℓ ↦[Finset.univ.filter fun i => key i ∈ k :: ks]{q} f)
  | k, [], _ => by
    have hset : (Finset.univ.filter fun i => key i ∈ [k]) = fiber ℓ key k := by
      ext i; simp only [fiber, Finset.mem_filter, Finset.mem_univ, true_and, List.mem_singleton]
    rw [hset]; exact .rfl
  | k, k' :: ks, hnd => by
    have hset : (Finset.univ.filter fun i => key i ∈ k :: k' :: ks)
        = fiber ℓ key k ∪ Finset.univ.filter fun i => key i ∈ k' :: ks := by
      ext i
      simp only [fiber, Finset.mem_filter, Finset.mem_univ, true_and, Finset.mem_union, List.mem_cons (a := key i) (b := k)]
    have hd : Disjoint (fiber ℓ key k) (Finset.univ.filter fun i => key i ∈ k' :: ks) := by
      rw [Finset.disjoint_left]; intro i hi hj
      simp only [fiber, Finset.mem_filter, Finset.mem_univ, true_and] at hi hj
      exact (List.nodup_cons.mp hnd).1 (hi ▸ hj)
    rw [hset]
    refine (sep_mono_right (join_fibers q k' ks (List.nodup_cons.mp hnd).2)).trans ?_
    iintro ⟨⟨%f, Hf⟩, ⟨%g, Hg⟩⟩
    iexists ((Finset.univ.filter fun i => key i ∈ k' :: ks).piecewise g f)
    iapply (Region.is_join hd)
    isplitl [Hf] <;> iassumption

/-- The whole buffer at some contents, from its blocks by key each at contents of its own. -/
theorem join_fibers_univ (q : PosShare TreeShare) (k : κ) (ks : List κ) (hnd : (k :: ks).Nodup) (hcov : ∀ i, key i ∈ k :: ks) :
    (sepChain ((k :: ks).map fun k => (iprop(∃ f, ℓ ↦[fiber ℓ key k]{q} f) : sProp 𝕄)) ⊢ ∃ f, ℓ ↦{q} f) := by
  have hset : (Finset.univ.filter fun i => key i ∈ k :: ks) = Finset.univ := Finset.filter_true_of_mem fun i _ => hcov i
  rw [← hset]; exact join_fibers ℓ key q k ks hnd

end Key

/-! ## The two scratch buffers by blocks

An element of the exchange buffer `[2, 4, 4, 64, 256]` lies in the block named by its first three coordinates, an element of
the reduce-scatter buffer `[2, 4, 64, 256]` in the block named by its first two; a block's view is exactly the elements of
its name. -/

/-- The block coordinates of an element of the exchange buffer. -/
def key0 (i : S2x4x4x64x256.Idx) : ℕ × ℕ × ℕ := ((i 0).val, (i 1).val, (i 2).val)
/-- The block coordinates of an element of the reduce-scatter buffer. -/
def key1 (i : S2x4x64x256.Idx) : ℕ × ℕ := ((i 0).val, (i 1).val)

/-- The 32 blocks of the exchange buffer, row-major. -/
def keys0 : List (ℕ × ℕ × ℕ) := [(0, 0, 0), (0, 0, 1), (0, 0, 2), (0, 0, 3), (0, 1, 0), (0, 1, 1), (0, 1, 2), (0, 1, 3), (0, 2, 0), (0, 2, 1), (0, 2, 2), (0, 2, 3), (0, 3, 0), (0, 3, 1), (0, 3, 2), (0, 3, 3), (1, 0, 0), (1, 0, 1), (1, 0, 2), (1, 0, 3), (1, 1, 0), (1, 1, 1), (1, 1, 2), (1, 1, 3), (1, 2, 0), (1, 2, 1), (1, 2, 2), (1, 2, 3), (1, 3, 0), (1, 3, 1), (1, 3, 2), (1, 3, 3)]
/-- The 8 blocks of the reduce-scatter buffer, row-major. -/
def keys1 : List (ℕ × ℕ) := [(0, 0), (0, 1), (0, 2), (0, 3), (1, 0), (1, 1), (1, 2), (1, 3)]

theorem keys0_nodup : keys0.Nodup := by decide
theorem keys1_nodup : keys1.Nodup := by decide

theorem key0_mem (i : S2x4x4x64x256.Idx) : key0 i ∈ keys0 := by
  have b0 : ((i 0 : Fin _) : ℕ) < 2 := (i 0).isLt
  have b1 : ((i 1 : Fin _) : ℕ) < 4 := (i 1).isLt
  have b2 : ((i 2 : Fin _) : ℕ) < 4 := (i 2).isLt
  obtain h0 | h0 : ((i 0 : Fin _) : ℕ) = 0 ∨ ((i 0 : Fin _) : ℕ) = 1 := by omega
  all_goals obtain h1 | h1 | h1 | h1 : ((i 1 : Fin _) : ℕ) = 0 ∨ ((i 1 : Fin _) : ℕ) = 1 ∨ ((i 1 : Fin _) : ℕ) = 2 ∨ ((i 1 : Fin _) : ℕ) = 3 := by omega
  all_goals obtain h2 | h2 | h2 | h2 : ((i 2 : Fin _) : ℕ) = 0 ∨ ((i 2 : Fin _) : ℕ) = 1 ∨ ((i 2 : Fin _) : ℕ) = 2 ∨ ((i 2 : Fin _) : ℕ) = 3 := by omega
  all_goals (rw [key0, h0, h1, h2]; decide)

theorem key1_mem (i : S2x4x64x256.Idx) : key1 i ∈ keys1 := by
  have b0 : ((i 0 : Fin _) : ℕ) < 2 := (i 0).isLt
  have b1 : ((i 1 : Fin _) : ℕ) < 4 := (i 1).isLt
  obtain h0 | h0 : ((i 0 : Fin _) : ℕ) = 0 ∨ ((i 0 : Fin _) : ℕ) = 1 := by omega
  all_goals obtain h1 | h1 | h1 | h1 : ((i 1 : Fin _) : ℕ) = 0 ∨ ((i 1 : Fin _) : ℕ) = 1 ∨ ((i 1 : Fin _) : ℕ) = 2 ∨ ((i 1 : Fin _) : ℕ) = 3 := by omega
  all_goals (rw [key1, h0, h1]; decide)

theorem forall_fin5 {P : Fin 5 → Prop} : (∀ a, P a) ↔ P 0 ∧ P 1 ∧ P 2 ∧ P 3 ∧ P 4 :=
  ⟨fun h => ⟨h 0, h 1, h 2, h 3, h 4⟩, fun ⟨h0, h1, h2, h3, h4⟩ a => by fin_cases a <;> assumption⟩
theorem forall_fin4 {P : Fin 4 → Prop} : (∀ a, P a) ↔ P 0 ∧ P 1 ∧ P 2 ∧ P 3 :=
  ⟨fun h => ⟨h 0, h 1, h 2, h 3⟩, fun ⟨h0, h1, h2, h3⟩ a => by fin_cases a <;> assumption⟩

/-- The view of block `[l, p, o]` of the exchange buffer is the elements whose first three coordinates are `l, p, o`. -/
theorem slot_set (c : Dev nD) {l p o : ℕ}
    (h : ∀ a, (![l, p, o, 0, 0] : Fin 5 → Nat) a + S1x1x1x64x256.size a ≤ S2x4x4x64x256.size a) :
    (slotM l p o h).view.set = fiber ((c : Thread nD τ).loc cc0_scratch0) key0 (l, p, o) := by
  ext i
  simp only [Memref.view_squeeze, View.set_reshape, Memref.view_slice, Memref.view_whole, View.set_slice_whole,
    Rect.mem_set_unit, fiber, Finset.mem_filter, Finset.mem_univ, true_and, key0, Prod.mk.injEq]
  change (∀ a : Fin 5, _) ↔ _
  rw [forall_fin5]
  have b3 : ((i 3 : Fin _) : ℕ) < 64 := (i 3).isLt
  have b4 : ((i 4 : Fin _) : ℕ) < 256 := (i 4).isLt
  simp [Shape.size]
  omega

/-- The view of block `[k, o]` of the reduce-scatter buffer is the elements whose first two coordinates are `k, o`. -/
theorem rs_set (c : Dev nD) {k o : ℕ}
    (h : ∀ a, (![k, o, 0, 0] : Fin 4 → Nat) a + S1x1x64x256.size a ≤ S2x4x64x256.size a) :
    (rsM k o h).view.set = fiber ((c : Thread nD τ).loc cc0_scratch1) key1 (k, o) := by
  ext i
  simp only [Memref.view_squeeze, View.set_reshape, Memref.view_slice, Memref.view_whole, View.set_slice_whole,
    Rect.mem_set_unit, fiber, Finset.mem_filter, Finset.mem_univ, true_and, key1, Prod.mk.injEq]
  change (∀ a : Fin 4, _) ↔ _
  rw [forall_fin4]
  have b2 : ((i 2 : Fin _) : ℕ) < 64 := (i 2).isLt
  have b3 : ((i 3 : Fin _) : ℕ) < 256 := (i 3).isLt
  simp [Shape.size]
  omega

theorem inb_rs_0_0 : ∀ a, (![0, 0, 0, 0] : Fin 4 → Nat) a + S1x1x64x256.size a ≤ S2x4x64x256.size a := by decide
theorem inb_rs_1_0 : ∀ a, (![1, 0, 0, 0] : Fin 4 → Nat) a + S1x1x64x256.size a ≤ S2x4x64x256.size a := by decide

/-! ## Cutting the buffers into their blocks, and joining them back -/

/-- The exchange buffer held whole is its 32 blocks held apart, at the same contents. -/
theorem scratch0_split (c : Dev nD) (f : Buf (Elt F) ((c : Thread nD τ).loc cc0_scratch0)) :
    ((((c : Thread nD τ).loc cc0_scratch0) ↦{fullShare} f : sProp 𝕄) ⊣⊢ iprop(
      ((slotM 0 0 0 inb_S2x4x4x64x256_S1x1x1x64x256_0_0_0_0_0).view.loc (c : Thread nD τ) ↦[(slotM 0 0 0 inb_S2x4x4x64x256_S1x1x1x64x256_0_0_0_0_0).view.set]{fullShare} f)
      ∗ ((slotM 0 0 1 inb_S2x4x4x64x256_S1x1x1x64x256_0_0_1_0_0).view.loc (c : Thread nD τ) ↦[(slotM 0 0 1 inb_S2x4x4x64x256_S1x1x1x64x256_0_0_1_0_0).view.set]{fullShare} f)
      ∗ ((slotM 0 0 2 inb_S2x4x4x64x256_S1x1x1x64x256_0_0_2_0_0).view.loc (c : Thread nD τ) ↦[(slotM 0 0 2 inb_S2x4x4x64x256_S1x1x1x64x256_0_0_2_0_0).view.set]{fullShare} f)
      ∗ ((slotM 0 0 3 inb_S2x4x4x64x256_S1x1x1x64x256_0_0_3_0_0).view.loc (c : Thread nD τ) ↦[(slotM 0 0 3 inb_S2x4x4x64x256_S1x1x1x64x256_0_0_3_0_0).view.set]{fullShare} f)
      ∗ ((slotM 0 1 0 inb_S2x4x4x64x256_S1x1x1x64x256_0_1_0_0_0).view.loc (c : Thread nD τ) ↦[(slotM 0 1 0 inb_S2x4x4x64x256_S1x1x1x64x256_0_1_0_0_0).view.set]{fullShare} f)
      ∗ ((slotM 0 1 1 inb_S2x4x4x64x256_S1x1x1x64x256_0_1_1_0_0).view.loc (c : Thread nD τ) ↦[(slotM 0 1 1 inb_S2x4x4x64x256_S1x1x1x64x256_0_1_1_0_0).view.set]{fullShare} f)
      ∗ ((slotM 0 1 2 inb_S2x4x4x64x256_S1x1x1x64x256_0_1_2_0_0).view.loc (c : Thread nD τ) ↦[(slotM 0 1 2 inb_S2x4x4x64x256_S1x1x1x64x256_0_1_2_0_0).view.set]{fullShare} f)
      ∗ ((slotM 0 1 3 inb_S2x4x4x64x256_S1x1x1x64x256_0_1_3_0_0).view.loc (c : Thread nD τ) ↦[(slotM 0 1 3 inb_S2x4x4x64x256_S1x1x1x64x256_0_1_3_0_0).view.set]{fullShare} f)
      ∗ ((slotM 0 2 0 inb_S2x4x4x64x256_S1x1x1x64x256_0_2_0_0_0).view.loc (c : Thread nD τ) ↦[(slotM 0 2 0 inb_S2x4x4x64x256_S1x1x1x64x256_0_2_0_0_0).view.set]{fullShare} f)
      ∗ ((slotM 0 2 1 inb_S2x4x4x64x256_S1x1x1x64x256_0_2_1_0_0).view.loc (c : Thread nD τ) ↦[(slotM 0 2 1 inb_S2x4x4x64x256_S1x1x1x64x256_0_2_1_0_0).view.set]{fullShare} f)
      ∗ ((slotM 0 2 2 inb_S2x4x4x64x256_S1x1x1x64x256_0_2_2_0_0).view.loc (c : Thread nD τ) ↦[(slotM 0 2 2 inb_S2x4x4x64x256_S1x1x1x64x256_0_2_2_0_0).view.set]{fullShare} f)
      ∗ ((slotM 0 2 3 inb_S2x4x4x64x256_S1x1x1x64x256_0_2_3_0_0).view.loc (c : Thread nD τ) ↦[(slotM 0 2 3 inb_S2x4x4x64x256_S1x1x1x64x256_0_2_3_0_0).view.set]{fullShare} f)
      ∗ ((slotM 0 3 0 inb_S2x4x4x64x256_S1x1x1x64x256_0_3_0_0_0).view.loc (c : Thread nD τ) ↦[(slotM 0 3 0 inb_S2x4x4x64x256_S1x1x1x64x256_0_3_0_0_0).view.set]{fullShare} f)
      ∗ ((slotM 0 3 1 inb_S2x4x4x64x256_S1x1x1x64x256_0_3_1_0_0).view.loc (c : Thread nD τ) ↦[(slotM 0 3 1 inb_S2x4x4x64x256_S1x1x1x64x256_0_3_1_0_0).view.set]{fullShare} f)
      ∗ ((slotM 0 3 2 inb_S2x4x4x64x256_S1x1x1x64x256_0_3_2_0_0).view.loc (c : Thread nD τ) ↦[(slotM 0 3 2 inb_S2x4x4x64x256_S1x1x1x64x256_0_3_2_0_0).view.set]{fullShare} f)
      ∗ ((slotM 0 3 3 inb_S2x4x4x64x256_S1x1x1x64x256_0_3_3_0_0).view.loc (c : Thread nD τ) ↦[(slotM 0 3 3 inb_S2x4x4x64x256_S1x1x1x64x256_0_3_3_0_0).view.set]{fullShare} f)
      ∗ ((slotM 1 0 0 inb_S2x4x4x64x256_S1x1x1x64x256_1_0_0_0_0).view.loc (c : Thread nD τ) ↦[(slotM 1 0 0 inb_S2x4x4x64x256_S1x1x1x64x256_1_0_0_0_0).view.set]{fullShare} f)
      ∗ ((slotM 1 0 1 inb_S2x4x4x64x256_S1x1x1x64x256_1_0_1_0_0).view.loc (c : Thread nD τ) ↦[(slotM 1 0 1 inb_S2x4x4x64x256_S1x1x1x64x256_1_0_1_0_0).view.set]{fullShare} f)
      ∗ ((slotM 1 0 2 inb_S2x4x4x64x256_S1x1x1x64x256_1_0_2_0_0).view.loc (c : Thread nD τ) ↦[(slotM 1 0 2 inb_S2x4x4x64x256_S1x1x1x64x256_1_0_2_0_0).view.set]{fullShare} f)
      ∗ ((slotM 1 0 3 inb_S2x4x4x64x256_S1x1x1x64x256_1_0_3_0_0).view.loc (c : Thread nD τ) ↦[(slotM 1 0 3 inb_S2x4x4x64x256_S1x1x1x64x256_1_0_3_0_0).view.set]{fullShare} f)
      ∗ ((slotM 1 1 0 inb_S2x4x4x64x256_S1x1x1x64x256_1_1_0_0_0).view.loc (c : Thread nD τ) ↦[(slotM 1 1 0 inb_S2x4x4x64x256_S1x1x1x64x256_1_1_0_0_0).view.set]{fullShare} f)
      ∗ ((slotM 1 1 1 inb_S2x4x4x64x256_S1x1x1x64x256_1_1_1_0_0).view.loc (c : Thread nD τ) ↦[(slotM 1 1 1 inb_S2x4x4x64x256_S1x1x1x64x256_1_1_1_0_0).view.set]{fullShare} f)
      ∗ ((slotM 1 1 2 inb_S2x4x4x64x256_S1x1x1x64x256_1_1_2_0_0).view.loc (c : Thread nD τ) ↦[(slotM 1 1 2 inb_S2x4x4x64x256_S1x1x1x64x256_1_1_2_0_0).view.set]{fullShare} f)
      ∗ ((slotM 1 1 3 inb_S2x4x4x64x256_S1x1x1x64x256_1_1_3_0_0).view.loc (c : Thread nD τ) ↦[(slotM 1 1 3 inb_S2x4x4x64x256_S1x1x1x64x256_1_1_3_0_0).view.set]{fullShare} f)
      ∗ ((slotM 1 2 0 inb_S2x4x4x64x256_S1x1x1x64x256_1_2_0_0_0).view.loc (c : Thread nD τ) ↦[(slotM 1 2 0 inb_S2x4x4x64x256_S1x1x1x64x256_1_2_0_0_0).view.set]{fullShare} f)
      ∗ ((slotM 1 2 1 inb_S2x4x4x64x256_S1x1x1x64x256_1_2_1_0_0).view.loc (c : Thread nD τ) ↦[(slotM 1 2 1 inb_S2x4x4x64x256_S1x1x1x64x256_1_2_1_0_0).view.set]{fullShare} f)
      ∗ ((slotM 1 2 2 inb_S2x4x4x64x256_S1x1x1x64x256_1_2_2_0_0).view.loc (c : Thread nD τ) ↦[(slotM 1 2 2 inb_S2x4x4x64x256_S1x1x1x64x256_1_2_2_0_0).view.set]{fullShare} f)
      ∗ ((slotM 1 2 3 inb_S2x4x4x64x256_S1x1x1x64x256_1_2_3_0_0).view.loc (c : Thread nD τ) ↦[(slotM 1 2 3 inb_S2x4x4x64x256_S1x1x1x64x256_1_2_3_0_0).view.set]{fullShare} f)
      ∗ ((slotM 1 3 0 inb_S2x4x4x64x256_S1x1x1x64x256_1_3_0_0_0).view.loc (c : Thread nD τ) ↦[(slotM 1 3 0 inb_S2x4x4x64x256_S1x1x1x64x256_1_3_0_0_0).view.set]{fullShare} f)
      ∗ ((slotM 1 3 1 inb_S2x4x4x64x256_S1x1x1x64x256_1_3_1_0_0).view.loc (c : Thread nD τ) ↦[(slotM 1 3 1 inb_S2x4x4x64x256_S1x1x1x64x256_1_3_1_0_0).view.set]{fullShare} f)
      ∗ ((slotM 1 3 2 inb_S2x4x4x64x256_S1x1x1x64x256_1_3_2_0_0).view.loc (c : Thread nD τ) ↦[(slotM 1 3 2 inb_S2x4x4x64x256_S1x1x1x64x256_1_3_2_0_0).view.set]{fullShare} f)
      ∗ ((slotM 1 3 3 inb_S2x4x4x64x256_S1x1x1x64x256_1_3_3_0_0).view.loc (c : Thread nD τ) ↦[(slotM 1 3 3 inb_S2x4x4x64x256_S1x1x1x64x256_1_3_3_0_0).view.set]{fullShare} f))) := by
  have h := split_fibers ((c : Thread nD τ).loc cc0_scratch0) key0 fullShare f _ _ keys0_nodup key0_mem
  simp only [List.map, sepChain] at h
  simp only [slot_set c]
  exact h

set_option maxHeartbeats 2000000 in
/-- The 32 blocks of the exchange buffer, each at contents of its own, make up the whole buffer at some contents. -/
theorem scratch0_join (c : Dev nD) :
    ((iprop(
      (∃ f, ((slotM 0 0 0 inb_S2x4x4x64x256_S1x1x1x64x256_0_0_0_0_0).view.loc (c : Thread nD τ) ↦[(slotM 0 0 0 inb_S2x4x4x64x256_S1x1x1x64x256_0_0_0_0_0).view.set]{fullShare} f))
      ∗ (∃ f, ((slotM 0 0 1 inb_S2x4x4x64x256_S1x1x1x64x256_0_0_1_0_0).view.loc (c : Thread nD τ) ↦[(slotM 0 0 1 inb_S2x4x4x64x256_S1x1x1x64x256_0_0_1_0_0).view.set]{fullShare} f))
      ∗ (∃ f, ((slotM 0 0 2 inb_S2x4x4x64x256_S1x1x1x64x256_0_0_2_0_0).view.loc (c : Thread nD τ) ↦[(slotM 0 0 2 inb_S2x4x4x64x256_S1x1x1x64x256_0_0_2_0_0).view.set]{fullShare} f))
      ∗ (∃ f, ((slotM 0 0 3 inb_S2x4x4x64x256_S1x1x1x64x256_0_0_3_0_0).view.loc (c : Thread nD τ) ↦[(slotM 0 0 3 inb_S2x4x4x64x256_S1x1x1x64x256_0_0_3_0_0).view.set]{fullShare} f))
      ∗ (∃ f, ((slotM 0 1 0 inb_S2x4x4x64x256_S1x1x1x64x256_0_1_0_0_0).view.loc (c : Thread nD τ) ↦[(slotM 0 1 0 inb_S2x4x4x64x256_S1x1x1x64x256_0_1_0_0_0).view.set]{fullShare} f))
      ∗ (∃ f, ((slotM 0 1 1 inb_S2x4x4x64x256_S1x1x1x64x256_0_1_1_0_0).view.loc (c : Thread nD τ) ↦[(slotM 0 1 1 inb_S2x4x4x64x256_S1x1x1x64x256_0_1_1_0_0).view.set]{fullShare} f))
      ∗ (∃ f, ((slotM 0 1 2 inb_S2x4x4x64x256_S1x1x1x64x256_0_1_2_0_0).view.loc (c : Thread nD τ) ↦[(slotM 0 1 2 inb_S2x4x4x64x256_S1x1x1x64x256_0_1_2_0_0).view.set]{fullShare} f))
      ∗ (∃ f, ((slotM 0 1 3 inb_S2x4x4x64x256_S1x1x1x64x256_0_1_3_0_0).view.loc (c : Thread nD τ) ↦[(slotM 0 1 3 inb_S2x4x4x64x256_S1x1x1x64x256_0_1_3_0_0).view.set]{fullShare} f))
      ∗ (∃ f, ((slotM 0 2 0 inb_S2x4x4x64x256_S1x1x1x64x256_0_2_0_0_0).view.loc (c : Thread nD τ) ↦[(slotM 0 2 0 inb_S2x4x4x64x256_S1x1x1x64x256_0_2_0_0_0).view.set]{fullShare} f))
      ∗ (∃ f, ((slotM 0 2 1 inb_S2x4x4x64x256_S1x1x1x64x256_0_2_1_0_0).view.loc (c : Thread nD τ) ↦[(slotM 0 2 1 inb_S2x4x4x64x256_S1x1x1x64x256_0_2_1_0_0).view.set]{fullShare} f))
      ∗ (∃ f, ((slotM 0 2 2 inb_S2x4x4x64x256_S1x1x1x64x256_0_2_2_0_0).view.loc (c : Thread nD τ) ↦[(slotM 0 2 2 inb_S2x4x4x64x256_S1x1x1x64x256_0_2_2_0_0).view.set]{fullShare} f))
      ∗ (∃ f, ((slotM 0 2 3 inb_S2x4x4x64x256_S1x1x1x64x256_0_2_3_0_0).view.loc (c : Thread nD τ) ↦[(slotM 0 2 3 inb_S2x4x4x64x256_S1x1x1x64x256_0_2_3_0_0).view.set]{fullShare} f))
      ∗ (∃ f, ((slotM 0 3 0 inb_S2x4x4x64x256_S1x1x1x64x256_0_3_0_0_0).view.loc (c : Thread nD τ) ↦[(slotM 0 3 0 inb_S2x4x4x64x256_S1x1x1x64x256_0_3_0_0_0).view.set]{fullShare} f))
      ∗ (∃ f, ((slotM 0 3 1 inb_S2x4x4x64x256_S1x1x1x64x256_0_3_1_0_0).view.loc (c : Thread nD τ) ↦[(slotM 0 3 1 inb_S2x4x4x64x256_S1x1x1x64x256_0_3_1_0_0).view.set]{fullShare} f))
      ∗ (∃ f, ((slotM 0 3 2 inb_S2x4x4x64x256_S1x1x1x64x256_0_3_2_0_0).view.loc (c : Thread nD τ) ↦[(slotM 0 3 2 inb_S2x4x4x64x256_S1x1x1x64x256_0_3_2_0_0).view.set]{fullShare} f))
      ∗ (∃ f, ((slotM 0 3 3 inb_S2x4x4x64x256_S1x1x1x64x256_0_3_3_0_0).view.loc (c : Thread nD τ) ↦[(slotM 0 3 3 inb_S2x4x4x64x256_S1x1x1x64x256_0_3_3_0_0).view.set]{fullShare} f))
      ∗ (∃ f, ((slotM 1 0 0 inb_S2x4x4x64x256_S1x1x1x64x256_1_0_0_0_0).view.loc (c : Thread nD τ) ↦[(slotM 1 0 0 inb_S2x4x4x64x256_S1x1x1x64x256_1_0_0_0_0).view.set]{fullShare} f))
      ∗ (∃ f, ((slotM 1 0 1 inb_S2x4x4x64x256_S1x1x1x64x256_1_0_1_0_0).view.loc (c : Thread nD τ) ↦[(slotM 1 0 1 inb_S2x4x4x64x256_S1x1x1x64x256_1_0_1_0_0).view.set]{fullShare} f))
      ∗ (∃ f, ((slotM 1 0 2 inb_S2x4x4x64x256_S1x1x1x64x256_1_0_2_0_0).view.loc (c : Thread nD τ) ↦[(slotM 1 0 2 inb_S2x4x4x64x256_S1x1x1x64x256_1_0_2_0_0).view.set]{fullShare} f))
      ∗ (∃ f, ((slotM 1 0 3 inb_S2x4x4x64x256_S1x1x1x64x256_1_0_3_0_0).view.loc (c : Thread nD τ) ↦[(slotM 1 0 3 inb_S2x4x4x64x256_S1x1x1x64x256_1_0_3_0_0).view.set]{fullShare} f))
      ∗ (∃ f, ((slotM 1 1 0 inb_S2x4x4x64x256_S1x1x1x64x256_1_1_0_0_0).view.loc (c : Thread nD τ) ↦[(slotM 1 1 0 inb_S2x4x4x64x256_S1x1x1x64x256_1_1_0_0_0).view.set]{fullShare} f))
      ∗ (∃ f, ((slotM 1 1 1 inb_S2x4x4x64x256_S1x1x1x64x256_1_1_1_0_0).view.loc (c : Thread nD τ) ↦[(slotM 1 1 1 inb_S2x4x4x64x256_S1x1x1x64x256_1_1_1_0_0).view.set]{fullShare} f))
      ∗ (∃ f, ((slotM 1 1 2 inb_S2x4x4x64x256_S1x1x1x64x256_1_1_2_0_0).view.loc (c : Thread nD τ) ↦[(slotM 1 1 2 inb_S2x4x4x64x256_S1x1x1x64x256_1_1_2_0_0).view.set]{fullShare} f))
      ∗ (∃ f, ((slotM 1 1 3 inb_S2x4x4x64x256_S1x1x1x64x256_1_1_3_0_0).view.loc (c : Thread nD τ) ↦[(slotM 1 1 3 inb_S2x4x4x64x256_S1x1x1x64x256_1_1_3_0_0).view.set]{fullShare} f))
      ∗ (∃ f, ((slotM 1 2 0 inb_S2x4x4x64x256_S1x1x1x64x256_1_2_0_0_0).view.loc (c : Thread nD τ) ↦[(slotM 1 2 0 inb_S2x4x4x64x256_S1x1x1x64x256_1_2_0_0_0).view.set]{fullShare} f))
      ∗ (∃ f, ((slotM 1 2 1 inb_S2x4x4x64x256_S1x1x1x64x256_1_2_1_0_0).view.loc (c : Thread nD τ) ↦[(slotM 1 2 1 inb_S2x4x4x64x256_S1x1x1x64x256_1_2_1_0_0).view.set]{fullShare} f))
      ∗ (∃ f, ((slotM 1 2 2 inb_S2x4x4x64x256_S1x1x1x64x256_1_2_2_0_0).view.loc (c : Thread nD τ) ↦[(slotM 1 2 2 inb_S2x4x4x64x256_S1x1x1x64x256_1_2_2_0_0).view.set]{fullShare} f))
      ∗ (∃ f, ((slotM 1 2 3 inb_S2x4x4x64x256_S1x1x1x64x256_1_2_3_0_0).view.loc (c : Thread nD τ) ↦[(slotM 1 2 3 inb_S2x4x4x64x256_S1x1x1x64x256_1_2_3_0_0).view.set]{fullShare} f))
      ∗ (∃ f, ((slotM 1 3 0 inb_S2x4x4x64x256_S1x1x1x64x256_1_3_0_0_0).view.loc (c : Thread nD τ) ↦[(slotM 1 3 0 inb_S2x4x4x64x256_S1x1x1x64x256_1_3_0_0_0).view.set]{fullShare} f))
      ∗ (∃ f, ((slotM 1 3 1 inb_S2x4x4x64x256_S1x1x1x64x256_1_3_1_0_0).view.loc (c : Thread nD τ) ↦[(slotM 1 3 1 inb_S2x4x4x64x256_S1x1x1x64x256_1_3_1_0_0).view.set]{fullShare} f))
      ∗ (∃ f, ((slotM 1 3 2 inb_S2x4x4x64x256_S1x1x1x64x256_1_3_2_0_0).view.loc (c : Thread nD τ) ↦[(slotM 1 3 2 inb_S2x4x4x64x256_S1x1x1x64x256_1_3_2_0_0).view.set]{fullShare} f))
      ∗ (∃ f, ((slotM 1 3 3 inb_S2x4x4x64x256_S1x1x1x64x256_1_3_3_0_0).view.loc (c : Thread nD τ) ↦[(slotM 1 3 3 inb_S2x4x4x64x256_S1x1x1x64x256_1_3_3_0_0).view.set]{fullShare} f))) : sProp 𝕄)
      ⊢ ∃ f, ((c : Thread nD τ).loc cc0_scratch0) ↦{fullShare} f) := by
  have h := join_fibers_univ (F := F) ((c : Thread nD τ).loc cc0_scratch0) key0 fullShare _ _ keys0_nodup key0_mem
  simp only [List.map, sepChain] at h
  simp only [slot_set c]
  exact h

/-- The reduce-scatter buffer held whole is its 8 blocks held apart, at the same contents. -/
theorem scratch1_split (c : Dev nD) (f : Buf (Elt F) ((c : Thread nD τ).loc cc0_scratch1)) :
    ((((c : Thread nD τ).loc cc0_scratch1) ↦{fullShare} f : sProp 𝕄) ⊣⊢ iprop(
      ((rsM 0 0 inb_rs_0_0).view.loc (c : Thread nD τ) ↦[(rsM 0 0 inb_rs_0_0).view.set]{fullShare} f)
      ∗ ((rsM 0 1 inb_S2x4x64x256_S1x1x64x256_0_1_0_0).view.loc (c : Thread nD τ) ↦[(rsM 0 1 inb_S2x4x64x256_S1x1x64x256_0_1_0_0).view.set]{fullShare} f)
      ∗ ((rsM 0 2 inb_S2x4x64x256_S1x1x64x256_0_2_0_0).view.loc (c : Thread nD τ) ↦[(rsM 0 2 inb_S2x4x64x256_S1x1x64x256_0_2_0_0).view.set]{fullShare} f)
      ∗ ((rsM 0 3 inb_S2x4x64x256_S1x1x64x256_0_3_0_0).view.loc (c : Thread nD τ) ↦[(rsM 0 3 inb_S2x4x64x256_S1x1x64x256_0_3_0_0).view.set]{fullShare} f)
      ∗ ((rsM 1 0 inb_rs_1_0).view.loc (c : Thread nD τ) ↦[(rsM 1 0 inb_rs_1_0).view.set]{fullShare} f)
      ∗ ((rsM 1 1 inb_S2x4x64x256_S1x1x64x256_1_1_0_0).view.loc (c : Thread nD τ) ↦[(rsM 1 1 inb_S2x4x64x256_S1x1x64x256_1_1_0_0).view.set]{fullShare} f)
      ∗ ((rsM 1 2 inb_S2x4x64x256_S1x1x64x256_1_2_0_0).view.loc (c : Thread nD τ) ↦[(rsM 1 2 inb_S2x4x64x256_S1x1x64x256_1_2_0_0).view.set]{fullShare} f)
      ∗ ((rsM 1 3 inb_S2x4x64x256_S1x1x64x256_1_3_0_0).view.loc (c : Thread nD τ) ↦[(rsM 1 3 inb_S2x4x64x256_S1x1x64x256_1_3_0_0).view.set]{fullShare} f))) := by
  have h := split_fibers ((c : Thread nD τ).loc cc0_scratch1) key1 fullShare f _ _ keys1_nodup key1_mem
  simp only [List.map, sepChain] at h
  simp only [rs_set c]
  exact h

/-- The 8 blocks of the reduce-scatter buffer, each at contents of its own, make up the whole buffer at some contents. -/
theorem scratch1_join (c : Dev nD) :
    ((iprop(
      (∃ f, ((rsM 0 0 inb_rs_0_0).view.loc (c : Thread nD τ) ↦[(rsM 0 0 inb_rs_0_0).view.set]{fullShare} f))
      ∗ (∃ f, ((rsM 0 1 inb_S2x4x64x256_S1x1x64x256_0_1_0_0).view.loc (c : Thread nD τ) ↦[(rsM 0 1 inb_S2x4x64x256_S1x1x64x256_0_1_0_0).view.set]{fullShare} f))
      ∗ (∃ f, ((rsM 0 2 inb_S2x4x64x256_S1x1x64x256_0_2_0_0).view.loc (c : Thread nD τ) ↦[(rsM 0 2 inb_S2x4x64x256_S1x1x64x256_0_2_0_0).view.set]{fullShare} f))
      ∗ (∃ f, ((rsM 0 3 inb_S2x4x64x256_S1x1x64x256_0_3_0_0).view.loc (c : Thread nD τ) ↦[(rsM 0 3 inb_S2x4x64x256_S1x1x64x256_0_3_0_0).view.set]{fullShare} f))
      ∗ (∃ f, ((rsM 1 0 inb_rs_1_0).view.loc (c : Thread nD τ) ↦[(rsM 1 0 inb_rs_1_0).view.set]{fullShare} f))
      ∗ (∃ f, ((rsM 1 1 inb_S2x4x64x256_S1x1x64x256_1_1_0_0).view.loc (c : Thread nD τ) ↦[(rsM 1 1 inb_S2x4x64x256_S1x1x64x256_1_1_0_0).view.set]{fullShare} f))
      ∗ (∃ f, ((rsM 1 2 inb_S2x4x64x256_S1x1x64x256_1_2_0_0).view.loc (c : Thread nD τ) ↦[(rsM 1 2 inb_S2x4x64x256_S1x1x64x256_1_2_0_0).view.set]{fullShare} f))
      ∗ (∃ f, ((rsM 1 3 inb_S2x4x64x256_S1x1x64x256_1_3_0_0).view.loc (c : Thread nD τ) ↦[(rsM 1 3 inb_S2x4x64x256_S1x1x64x256_1_3_0_0).view.set]{fullShare} f))) : sProp 𝕄)
      ⊢ ∃ f, ((c : Thread nD τ).loc cc0_scratch1) ↦{fullShare} f) := by
  have h := join_fibers_univ (F := F) ((c : Thread nD τ).loc cc0_scratch1) key1 fullShare _ _ keys1_nodup key1_mem
  simp only [List.map, sepChain] at h
  simp only [rs_set c]
  exact h

end Cert.KernelIdeal.Mlp

end
-- ==== Proof.BodyIface.lean ====
import proofs.«900991_g7700000000000992_dist_mlpseq_tp1d_rep_bs_b256_d256_h512_v7x_i4_bf16_1_alg».proof.Proof.BodyDefs
import proofs.«900991_g7700000000000992_dist_mlpseq_tp1d_rep_bs_b256_d256_h512_v7x_i4_bf16_1_alg».proof.Proof.Toks
import proofs.«900991_g7700000000000992_dist_mlpseq_tp1d_rep_bs_b256_d256_h512_v7x_i4_bf16_1_alg».proof.Proof.SlotSplit

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-- What one device's body starts from, every piece its own conjunct: the invariants of the cells it opens and that round 0
    is reached on the cells it pays (persistent), the levels; its positions on its own cells, the three entry-signal tokens,
    the tokens of the 27 copies, the launch credits of the cells others pay, its two exchange buffers cut into their blocks,
    the eight staging buffers at the arrays' contents, and what it owes. -/
def bodyPre (K : GSem nD τ sig → ℕ) (c : Dev nD) (W : Waits sig Unit)
    (f0 : Buf (Elt F) ((c : Thread nD τ).loc cc0_scratch0)) (f1 : Buf (Elt F) ((c : Thread nD τ).loc cc0_scratch1))
    (g7 : (cc0_stg7_0 : Ref sig .tc).ty.Contents (Elt F)) : sProp 𝕄 :=
  iprop(cellInv ER (Rd val jk jr) (K (barCell c)) (barCell c)
      ∗ cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
      ∗ cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
      ∗ cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
      ∗ cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
      ∗ cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
      ∗ cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
      ∗ cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
      ∗ cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
      ∗ cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
      ∗ cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
      ∗ cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
      ∗ cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
      ∗ cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
      ∗ cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
      ∗ cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
      ∗ cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
      ∗ cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
      ∗ cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
      ∗ cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
      ∗ cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
      ∗ cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
      ∗ cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
      ∗ cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
      ∗ cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
      ∗ cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
      ∗ cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
      ∗ cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
      ∗ cellInv ER (Rd val jk jr) (K ((c : Thread nD τ), SemLoc.dma (rcvS 0 0 1 inb_S3x4x4_S1x1x1_0_0_1))) ((c : Thread nD τ), SemLoc.dma (rcvS 0 0 1 inb_S3x4x4_S1x1x1_0_0_1))
      ∗ cellInv ER (Rd val jk jr) (K ((c : Thread nD τ), SemLoc.dma (rcvS 0 0 2 inb_S3x4x4_S1x1x1_0_0_2))) ((c : Thread nD τ), SemLoc.dma (rcvS 0 0 2 inb_S3x4x4_S1x1x1_0_0_2))
      ∗ cellInv ER (Rd val jk jr) (K ((c : Thread nD τ), SemLoc.dma (rcvS 0 0 3 inb_S3x4x4_S1x1x1_0_0_3))) ((c : Thread nD τ), SemLoc.dma (rcvS 0 0 3 inb_S3x4x4_S1x1x1_0_0_3))
      ∗ cellInv ER (Rd val jk jr) (K ((c : Thread nD τ), SemLoc.dma (rcvS 0 1 1 inb_S3x4x4_S1x1x1_0_1_1))) ((c : Thread nD τ), SemLoc.dma (rcvS 0 1 1 inb_S3x4x4_S1x1x1_0_1_1))
      ∗ cellInv ER (Rd val jk jr) (K ((c : Thread nD τ), SemLoc.dma (rcvS 0 1 2 inb_S3x4x4_S1x1x1_0_1_2))) ((c : Thread nD τ), SemLoc.dma (rcvS 0 1 2 inb_S3x4x4_S1x1x1_0_1_2))
      ∗ cellInv ER (Rd val jk jr) (K ((c : Thread nD τ), SemLoc.dma (rcvS 0 1 3 inb_S3x4x4_S1x1x1_0_1_3))) ((c : Thread nD τ), SemLoc.dma (rcvS 0 1 3 inb_S3x4x4_S1x1x1_0_1_3))
      ∗ cellInv ER (Rd val jk jr) (K ((c : Thread nD τ), SemLoc.dma (rcvS 0 2 1 inb_S3x4x4_S1x1x1_0_2_1))) ((c : Thread nD τ), SemLoc.dma (rcvS 0 2 1 inb_S3x4x4_S1x1x1_0_2_1))
      ∗ cellInv ER (Rd val jk jr) (K ((c : Thread nD τ), SemLoc.dma (rcvS 0 2 2 inb_S3x4x4_S1x1x1_0_2_2))) ((c : Thread nD τ), SemLoc.dma (rcvS 0 2 2 inb_S3x4x4_S1x1x1_0_2_2))
      ∗ cellInv ER (Rd val jk jr) (K ((c : Thread nD τ), SemLoc.dma (rcvS 0 2 3 inb_S3x4x4_S1x1x1_0_2_3))) ((c : Thread nD τ), SemLoc.dma (rcvS 0 2 3 inb_S3x4x4_S1x1x1_0_2_3))
      ∗ cellInv ER (Rd val jk jr) (K ((c : Thread nD τ), SemLoc.dma (rcvS 0 3 1 inb_S3x4x4_S1x1x1_0_3_1))) ((c : Thread nD τ), SemLoc.dma (rcvS 0 3 1 inb_S3x4x4_S1x1x1_0_3_1))
      ∗ cellInv ER (Rd val jk jr) (K ((c : Thread nD τ), SemLoc.dma (rcvS 0 3 2 inb_S3x4x4_S1x1x1_0_3_2))) ((c : Thread nD τ), SemLoc.dma (rcvS 0 3 2 inb_S3x4x4_S1x1x1_0_3_2))
      ∗ cellInv ER (Rd val jk jr) (K ((c : Thread nD τ), SemLoc.dma (rcvS 0 3 3 inb_S3x4x4_S1x1x1_0_3_3))) ((c : Thread nD τ), SemLoc.dma (rcvS 0 3 3 inb_S3x4x4_S1x1x1_0_3_3))
      ∗ cellInv ER (Rd val jk jr) (K ((c : Thread nD τ), SemLoc.dma (rcvS 1 0 1 inb_S3x4x4_S1x1x1_1_0_1))) ((c : Thread nD τ), SemLoc.dma (rcvS 1 0 1 inb_S3x4x4_S1x1x1_1_0_1))
      ∗ cellInv ER (Rd val jk jr) (K ((c : Thread nD τ), SemLoc.dma (rcvS 1 0 2 inb_S3x4x4_S1x1x1_1_0_2))) ((c : Thread nD τ), SemLoc.dma (rcvS 1 0 2 inb_S3x4x4_S1x1x1_1_0_2))
      ∗ cellInv ER (Rd val jk jr) (K ((c : Thread nD τ), SemLoc.dma (rcvS 1 0 3 inb_S3x4x4_S1x1x1_1_0_3))) ((c : Thread nD τ), SemLoc.dma (rcvS 1 0 3 inb_S3x4x4_S1x1x1_1_0_3))
      ∗ cellInv ER (Rd val jk jr) (K ((c : Thread nD τ), SemLoc.dma (rcvS 1 1 1 inb_S3x4x4_S1x1x1_1_1_1))) ((c : Thread nD τ), SemLoc.dma (rcvS 1 1 1 inb_S3x4x4_S1x1x1_1_1_1))
      ∗ cellInv ER (Rd val jk jr) (K ((c : Thread nD τ), SemLoc.dma (rcvS 1 1 2 inb_S3x4x4_S1x1x1_1_1_2))) ((c : Thread nD τ), SemLoc.dma (rcvS 1 1 2 inb_S3x4x4_S1x1x1_1_1_2))
      ∗ cellInv ER (Rd val jk jr) (K ((c : Thread nD τ), SemLoc.dma (rcvS 1 1 3 inb_S3x4x4_S1x1x1_1_1_3))) ((c : Thread nD τ), SemLoc.dma (rcvS 1 1 3 inb_S3x4x4_S1x1x1_1_1_3))
      ∗ cellInv ER (Rd val jk jr) (K ((c : Thread nD τ), SemLoc.dma (rcvS 1 2 1 inb_S3x4x4_S1x1x1_1_2_1))) ((c : Thread nD τ), SemLoc.dma (rcvS 1 2 1 inb_S3x4x4_S1x1x1_1_2_1))
      ∗ cellInv ER (Rd val jk jr) (K ((c : Thread nD τ), SemLoc.dma (rcvS 1 2 2 inb_S3x4x4_S1x1x1_1_2_2))) ((c : Thread nD τ), SemLoc.dma (rcvS 1 2 2 inb_S3x4x4_S1x1x1_1_2_2))
      ∗ cellInv ER (Rd val jk jr) (K ((c : Thread nD τ), SemLoc.dma (rcvS 1 2 3 inb_S3x4x4_S1x1x1_1_2_3))) ((c : Thread nD τ), SemLoc.dma (rcvS 1 2 3 inb_S3x4x4_S1x1x1_1_2_3))
      ∗ cellInv ER (Rd val jk jr) (K ((c : Thread nD τ), SemLoc.dma (rcvS 1 3 1 inb_S3x4x4_S1x1x1_1_3_1))) ((c : Thread nD τ), SemLoc.dma (rcvS 1 3 1 inb_S3x4x4_S1x1x1_1_3_1))
      ∗ cellInv ER (Rd val jk jr) (K ((c : Thread nD τ), SemLoc.dma (rcvS 1 3 2 inb_S3x4x4_S1x1x1_1_3_2))) ((c : Thread nD τ), SemLoc.dma (rcvS 1 3 2 inb_S3x4x4_S1x1x1_1_3_2))
      ∗ cellInv ER (Rd val jk jr) (K ((c : Thread nD τ), SemLoc.dma (rcvS 1 3 3 inb_S3x4x4_S1x1x1_1_3_3))) ((c : Thread nD τ), SemLoc.dma (rcvS 1 3 3 inb_S3x4x4_S1x1x1_1_3_3))
      ∗ cellInv ER (Rd val jk jr) (K ((c : Thread nD τ), SemLoc.dma (rcvS 2 0 1 inb_S3x4x4_S1x1x1_2_0_1))) ((c : Thread nD τ), SemLoc.dma (rcvS 2 0 1 inb_S3x4x4_S1x1x1_2_0_1))
      ∗ cellInv ER (Rd val jk jr) (K ((c : Thread nD τ), SemLoc.dma (rcvS 2 0 2 inb_S3x4x4_S1x1x1_2_0_2))) ((c : Thread nD τ), SemLoc.dma (rcvS 2 0 2 inb_S3x4x4_S1x1x1_2_0_2))
      ∗ cellInv ER (Rd val jk jr) (K ((c : Thread nD τ), SemLoc.dma (rcvS 2 0 3 inb_S3x4x4_S1x1x1_2_0_3))) ((c : Thread nD τ), SemLoc.dma (rcvS 2 0 3 inb_S3x4x4_S1x1x1_2_0_3))
      ∗ cellInv ER (Rd val jk jr) (K (barCell (pe c 1))) (barCell (pe c 1))
      ∗ cellInv ER (Rd val jk jr) (K (barCell (pe c 2))) (barCell (pe c 2))
      ∗ cellInv ER (Rd val jk jr) (K (barCell (pe c 3))) (barCell (pe c 3))
      ∗ cellInv ER (Rd val jk jr) (K (((pe c 1) : Thread nD τ), SemLoc.dma (rcvS 0 0 1 inb_S3x4x4_S1x1x1_0_0_1))) (((pe c 1) : Thread nD τ), SemLoc.dma (rcvS 0 0 1 inb_S3x4x4_S1x1x1_0_0_1))
      ∗ cellInv ER (Rd val jk jr) (K (((pe c 2) : Thread nD τ), SemLoc.dma (rcvS 0 0 2 inb_S3x4x4_S1x1x1_0_0_2))) (((pe c 2) : Thread nD τ), SemLoc.dma (rcvS 0 0 2 inb_S3x4x4_S1x1x1_0_0_2))
      ∗ cellInv ER (Rd val jk jr) (K (((pe c 3) : Thread nD τ), SemLoc.dma (rcvS 0 0 3 inb_S3x4x4_S1x1x1_0_0_3))) (((pe c 3) : Thread nD τ), SemLoc.dma (rcvS 0 0 3 inb_S3x4x4_S1x1x1_0_0_3))
      ∗ cellInv ER (Rd val jk jr) (K (((pe c 1) : Thread nD τ), SemLoc.dma (rcvS 0 1 1 inb_S3x4x4_S1x1x1_0_1_1))) (((pe c 1) : Thread nD τ), SemLoc.dma (rcvS 0 1 1 inb_S3x4x4_S1x1x1_0_1_1))
      ∗ cellInv ER (Rd val jk jr) (K (((pe c 2) : Thread nD τ), SemLoc.dma (rcvS 0 1 2 inb_S3x4x4_S1x1x1_0_1_2))) (((pe c 2) : Thread nD τ), SemLoc.dma (rcvS 0 1 2 inb_S3x4x4_S1x1x1_0_1_2))
      ∗ cellInv ER (Rd val jk jr) (K (((pe c 3) : Thread nD τ), SemLoc.dma (rcvS 0 1 3 inb_S3x4x4_S1x1x1_0_1_3))) (((pe c 3) : Thread nD τ), SemLoc.dma (rcvS 0 1 3 inb_S3x4x4_S1x1x1_0_1_3))
      ∗ cellInv ER (Rd val jk jr) (K (((pe c 1) : Thread nD τ), SemLoc.dma (rcvS 0 2 1 inb_S3x4x4_S1x1x1_0_2_1))) (((pe c 1) : Thread nD τ), SemLoc.dma (rcvS 0 2 1 inb_S3x4x4_S1x1x1_0_2_1))
      ∗ cellInv ER (Rd val jk jr) (K (((pe c 2) : Thread nD τ), SemLoc.dma (rcvS 0 2 2 inb_S3x4x4_S1x1x1_0_2_2))) (((pe c 2) : Thread nD τ), SemLoc.dma (rcvS 0 2 2 inb_S3x4x4_S1x1x1_0_2_2))
      ∗ cellInv ER (Rd val jk jr) (K (((pe c 3) : Thread nD τ), SemLoc.dma (rcvS 0 2 3 inb_S3x4x4_S1x1x1_0_2_3))) (((pe c 3) : Thread nD τ), SemLoc.dma (rcvS 0 2 3 inb_S3x4x4_S1x1x1_0_2_3))
      ∗ cellInv ER (Rd val jk jr) (K (((pe c 1) : Thread nD τ), SemLoc.dma (rcvS 0 3 1 inb_S3x4x4_S1x1x1_0_3_1))) (((pe c 1) : Thread nD τ), SemLoc.dma (rcvS 0 3 1 inb_S3x4x4_S1x1x1_0_3_1))
      ∗ cellInv ER (Rd val jk jr) (K (((pe c 2) : Thread nD τ), SemLoc.dma (rcvS 0 3 2 inb_S3x4x4_S1x1x1_0_3_2))) (((pe c 2) : Thread nD τ), SemLoc.dma (rcvS 0 3 2 inb_S3x4x4_S1x1x1_0_3_2))
      ∗ cellInv ER (Rd val jk jr) (K (((pe c 3) : Thread nD τ), SemLoc.dma (rcvS 0 3 3 inb_S3x4x4_S1x1x1_0_3_3))) (((pe c 3) : Thread nD τ), SemLoc.dma (rcvS 0 3 3 inb_S3x4x4_S1x1x1_0_3_3))
      ∗ cellInv ER (Rd val jk jr) (K (((pe c 1) : Thread nD τ), SemLoc.dma (rcvS 1 0 1 inb_S3x4x4_S1x1x1_1_0_1))) (((pe c 1) : Thread nD τ), SemLoc.dma (rcvS 1 0 1 inb_S3x4x4_S1x1x1_1_0_1))
      ∗ cellInv ER (Rd val jk jr) (K (((pe c 2) : Thread nD τ), SemLoc.dma (rcvS 1 0 2 inb_S3x4x4_S1x1x1_1_0_2))) (((pe c 2) : Thread nD τ), SemLoc.dma (rcvS 1 0 2 inb_S3x4x4_S1x1x1_1_0_2))
      ∗ cellInv ER (Rd val jk jr) (K (((pe c 3) : Thread nD τ), SemLoc.dma (rcvS 1 0 3 inb_S3x4x4_S1x1x1_1_0_3))) (((pe c 3) : Thread nD τ), SemLoc.dma (rcvS 1 0 3 inb_S3x4x4_S1x1x1_1_0_3))
      ∗ cellInv ER (Rd val jk jr) (K (((pe c 1) : Thread nD τ), SemLoc.dma (rcvS 1 1 1 inb_S3x4x4_S1x1x1_1_1_1))) (((pe c 1) : Thread nD τ), SemLoc.dma (rcvS 1 1 1 inb_S3x4x4_S1x1x1_1_1_1))
      ∗ cellInv ER (Rd val jk jr) (K (((pe c 2) : Thread nD τ), SemLoc.dma (rcvS 1 1 2 inb_S3x4x4_S1x1x1_1_1_2))) (((pe c 2) : Thread nD τ), SemLoc.dma (rcvS 1 1 2 inb_S3x4x4_S1x1x1_1_1_2))
      ∗ cellInv ER (Rd val jk jr) (K (((pe c 3) : Thread nD τ), SemLoc.dma (rcvS 1 1 3 inb_S3x4x4_S1x1x1_1_1_3))) (((pe c 3) : Thread nD τ), SemLoc.dma (rcvS 1 1 3 inb_S3x4x4_S1x1x1_1_1_3))
      ∗ cellInv ER (Rd val jk jr) (K (((pe c 1) : Thread nD τ), SemLoc.dma (rcvS 1 2 1 inb_S3x4x4_S1x1x1_1_2_1))) (((pe c 1) : Thread nD τ), SemLoc.dma (rcvS 1 2 1 inb_S3x4x4_S1x1x1_1_2_1))
      ∗ cellInv ER (Rd val jk jr) (K (((pe c 2) : Thread nD τ), SemLoc.dma (rcvS 1 2 2 inb_S3x4x4_S1x1x1_1_2_2))) (((pe c 2) : Thread nD τ), SemLoc.dma (rcvS 1 2 2 inb_S3x4x4_S1x1x1_1_2_2))
      ∗ cellInv ER (Rd val jk jr) (K (((pe c 3) : Thread nD τ), SemLoc.dma (rcvS 1 2 3 inb_S3x4x4_S1x1x1_1_2_3))) (((pe c 3) : Thread nD τ), SemLoc.dma (rcvS 1 2 3 inb_S3x4x4_S1x1x1_1_2_3))
      ∗ cellInv ER (Rd val jk jr) (K (((pe c 1) : Thread nD τ), SemLoc.dma (rcvS 1 3 1 inb_S3x4x4_S1x1x1_1_3_1))) (((pe c 1) : Thread nD τ), SemLoc.dma (rcvS 1 3 1 inb_S3x4x4_S1x1x1_1_3_1))
      ∗ cellInv ER (Rd val jk jr) (K (((pe c 2) : Thread nD τ), SemLoc.dma (rcvS 1 3 2 inb_S3x4x4_S1x1x1_1_3_2))) (((pe c 2) : Thread nD τ), SemLoc.dma (rcvS 1 3 2 inb_S3x4x4_S1x1x1_1_3_2))
      ∗ cellInv ER (Rd val jk jr) (K (((pe c 3) : Thread nD τ), SemLoc.dma (rcvS 1 3 3 inb_S3x4x4_S1x1x1_1_3_3))) (((pe c 3) : Thread nD τ), SemLoc.dma (rcvS 1 3 3 inb_S3x4x4_S1x1x1_1_3_3))
      ∗ cellInv ER (Rd val jk jr) (K (((pe c 1) : Thread nD τ), SemLoc.dma (rcvS 2 0 1 inb_S3x4x4_S1x1x1_2_0_1))) (((pe c 1) : Thread nD τ), SemLoc.dma (rcvS 2 0 1 inb_S3x4x4_S1x1x1_2_0_1))
      ∗ cellInv ER (Rd val jk jr) (K (((pe c 2) : Thread nD τ), SemLoc.dma (rcvS 2 0 2 inb_S3x4x4_S1x1x1_2_0_2))) (((pe c 2) : Thread nD τ), SemLoc.dma (rcvS 2 0 2 inb_S3x4x4_S1x1x1_2_0_2))
      ∗ cellInv ER (Rd val jk jr) (K (((pe c 3) : Thread nD τ), SemLoc.dma (rcvS 2 0 3 inb_S3x4x4_S1x1x1_2_0_3))) (((pe c 3) : Thread nD τ), SemLoc.dma (rcvS 2 0 3 inb_S3x4x4_S1x1x1_2_0_3))
      ∗ reached ER (barCell (pe c 1)) 0
      ∗ reached ER (barCell (pe c 2)) 0
      ∗ reached ER (barCell (pe c 3)) 0
      ∗ reached ER ((c : Thread nD τ), SemLoc.dma (sndS 0 0 1 inb_S3x4x4_S1x1x1_0_0_1)) 0
      ∗ reached ER ((c : Thread nD τ), SemLoc.dma (sndS 0 0 2 inb_S3x4x4_S1x1x1_0_0_2)) 0
      ∗ reached ER ((c : Thread nD τ), SemLoc.dma (sndS 0 0 3 inb_S3x4x4_S1x1x1_0_0_3)) 0
      ∗ reached ER ((c : Thread nD τ), SemLoc.dma (sndS 0 1 1 inb_S3x4x4_S1x1x1_0_1_1)) 0
      ∗ reached ER ((c : Thread nD τ), SemLoc.dma (sndS 0 1 2 inb_S3x4x4_S1x1x1_0_1_2)) 0
      ∗ reached ER ((c : Thread nD τ), SemLoc.dma (sndS 0 1 3 inb_S3x4x4_S1x1x1_0_1_3)) 0
      ∗ reached ER ((c : Thread nD τ), SemLoc.dma (sndS 0 2 1 inb_S3x4x4_S1x1x1_0_2_1)) 0
      ∗ reached ER ((c : Thread nD τ), SemLoc.dma (sndS 0 2 2 inb_S3x4x4_S1x1x1_0_2_2)) 0
      ∗ reached ER ((c : Thread nD τ), SemLoc.dma (sndS 0 2 3 inb_S3x4x4_S1x1x1_0_2_3)) 0
      ∗ reached ER ((c : Thread nD τ), SemLoc.dma (sndS 0 3 1 inb_S3x4x4_S1x1x1_0_3_1)) 0
      ∗ reached ER ((c : Thread nD τ), SemLoc.dma (sndS 0 3 2 inb_S3x4x4_S1x1x1_0_3_2)) 0
      ∗ reached ER ((c : Thread nD τ), SemLoc.dma (sndS 0 3 3 inb_S3x4x4_S1x1x1_0_3_3)) 0
      ∗ reached ER ((c : Thread nD τ), SemLoc.dma (sndS 1 0 1 inb_S3x4x4_S1x1x1_1_0_1)) 0
      ∗ reached ER ((c : Thread nD τ), SemLoc.dma (sndS 1 0 2 inb_S3x4x4_S1x1x1_1_0_2)) 0
      ∗ reached ER ((c : Thread nD τ), SemLoc.dma (sndS 1 0 3 inb_S3x4x4_S1x1x1_1_0_3)) 0
      ∗ reached ER ((c : Thread nD τ), SemLoc.dma (sndS 1 1 1 inb_S3x4x4_S1x1x1_1_1_1)) 0
      ∗ reached ER ((c : Thread nD τ), SemLoc.dma (sndS 1 1 2 inb_S3x4x4_S1x1x1_1_1_2)) 0
      ∗ reached ER ((c : Thread nD τ), SemLoc.dma (sndS 1 1 3 inb_S3x4x4_S1x1x1_1_1_3)) 0
      ∗ reached ER ((c : Thread nD τ), SemLoc.dma (sndS 1 2 1 inb_S3x4x4_S1x1x1_1_2_1)) 0
      ∗ reached ER ((c : Thread nD τ), SemLoc.dma (sndS 1 2 2 inb_S3x4x4_S1x1x1_1_2_2)) 0
      ∗ reached ER ((c : Thread nD τ), SemLoc.dma (sndS 1 2 3 inb_S3x4x4_S1x1x1_1_2_3)) 0
      ∗ reached ER ((c : Thread nD τ), SemLoc.dma (sndS 1 3 1 inb_S3x4x4_S1x1x1_1_3_1)) 0
      ∗ reached ER ((c : Thread nD τ), SemLoc.dma (sndS 1 3 2 inb_S3x4x4_S1x1x1_1_3_2)) 0
      ∗ reached ER ((c : Thread nD τ), SemLoc.dma (sndS 1 3 3 inb_S3x4x4_S1x1x1_1_3_3)) 0
      ∗ reached ER ((c : Thread nD τ), SemLoc.dma (sndS 2 0 1 inb_S3x4x4_S1x1x1_2_0_1)) 0
      ∗ reached ER ((c : Thread nD τ), SemLoc.dma (sndS 2 0 2 inb_S3x4x4_S1x1x1_2_0_2)) 0
      ∗ reached ER ((c : Thread nD τ), SemLoc.dma (sndS 2 0 3 inb_S3x4x4_S1x1x1_2_0_3)) 0
      ∗ reached ER (((pe c 1) : Thread nD τ), SemLoc.dma (rcvS 0 0 1 inb_S3x4x4_S1x1x1_0_0_1)) 0
      ∗ reached ER (((pe c 2) : Thread nD τ), SemLoc.dma (rcvS 0 0 2 inb_S3x4x4_S1x1x1_0_0_2)) 0
      ∗ reached ER (((pe c 3) : Thread nD τ), SemLoc.dma (rcvS 0 0 3 inb_S3x4x4_S1x1x1_0_0_3)) 0
      ∗ reached ER (((pe c 1) : Thread nD τ), SemLoc.dma (rcvS 0 1 1 inb_S3x4x4_S1x1x1_0_1_1)) 0
      ∗ reached ER (((pe c 2) : Thread nD τ), SemLoc.dma (rcvS 0 1 2 inb_S3x4x4_S1x1x1_0_1_2)) 0
      ∗ reached ER (((pe c 3) : Thread nD τ), SemLoc.dma (rcvS 0 1 3 inb_S3x4x4_S1x1x1_0_1_3)) 0
      ∗ reached ER (((pe c 1) : Thread nD τ), SemLoc.dma (rcvS 0 2 1 inb_S3x4x4_S1x1x1_0_2_1)) 0
      ∗ reached ER (((pe c 2) : Thread nD τ), SemLoc.dma (rcvS 0 2 2 inb_S3x4x4_S1x1x1_0_2_2)) 0
      ∗ reached ER (((pe c 3) : Thread nD τ), SemLoc.dma (rcvS 0 2 3 inb_S3x4x4_S1x1x1_0_2_3)) 0
      ∗ reached ER (((pe c 1) : Thread nD τ), SemLoc.dma (rcvS 0 3 1 inb_S3x4x4_S1x1x1_0_3_1)) 0
      ∗ reached ER (((pe c 2) : Thread nD τ), SemLoc.dma (rcvS 0 3 2 inb_S3x4x4_S1x1x1_0_3_2)) 0
      ∗ reached ER (((pe c 3) : Thread nD τ), SemLoc.dma (rcvS 0 3 3 inb_S3x4x4_S1x1x1_0_3_3)) 0
      ∗ reached ER (((pe c 1) : Thread nD τ), SemLoc.dma (rcvS 1 0 1 inb_S3x4x4_S1x1x1_1_0_1)) 0
      ∗ reached ER (((pe c 2) : Thread nD τ), SemLoc.dma (rcvS 1 0 2 inb_S3x4x4_S1x1x1_1_0_2)) 0
      ∗ reached ER (((pe c 3) : Thread nD τ), SemLoc.dma (rcvS 1 0 3 inb_S3x4x4_S1x1x1_1_0_3)) 0
      ∗ reached ER (((pe c 1) : Thread nD τ), SemLoc.dma (rcvS 1 1 1 inb_S3x4x4_S1x1x1_1_1_1)) 0
      ∗ reached ER (((pe c 2) : Thread nD τ), SemLoc.dma (rcvS 1 1 2 inb_S3x4x4_S1x1x1_1_1_2)) 0
      ∗ reached ER (((pe c 3) : Thread nD τ), SemLoc.dma (rcvS 1 1 3 inb_S3x4x4_S1x1x1_1_1_3)) 0
      ∗ reached ER (((pe c 1) : Thread nD τ), SemLoc.dma (rcvS 1 2 1 inb_S3x4x4_S1x1x1_1_2_1)) 0
      ∗ reached ER (((pe c 2) : Thread nD τ), SemLoc.dma (rcvS 1 2 2 inb_S3x4x4_S1x1x1_1_2_2)) 0
      ∗ reached ER (((pe c 3) : Thread nD τ), SemLoc.dma (rcvS 1 2 3 inb_S3x4x4_S1x1x1_1_2_3)) 0
      ∗ reached ER (((pe c 1) : Thread nD τ), SemLoc.dma (rcvS 1 3 1 inb_S3x4x4_S1x1x1_1_3_1)) 0
      ∗ reached ER (((pe c 2) : Thread nD τ), SemLoc.dma (rcvS 1 3 2 inb_S3x4x4_S1x1x1_1_3_2)) 0
      ∗ reached ER (((pe c 3) : Thread nD τ), SemLoc.dma (rcvS 1 3 3 inb_S3x4x4_S1x1x1_1_3_3)) 0
      ∗ reached ER (((pe c 1) : Thread nD τ), SemLoc.dma (rcvS 2 0 1 inb_S3x4x4_S1x1x1_2_0_1)) 0
      ∗ reached ER (((pe c 2) : Thread nD τ), SemLoc.dma (rcvS 2 0 2 inb_S3x4x4_S1x1x1_2_0_2)) 0
      ∗ reached ER (((pe c 3) : Thread nD τ), SemLoc.dma (rcvS 2 0 3 inb_S3x4x4_S1x1x1_2_0_3)) 0
      ∗ levAts L lv
      ∗ atPos ER (barCell c) 0 ∅ 0
      ∗ atPos ER ((c : Thread nD τ), SemLoc.dma (sndS 0 0 1 inb_S3x4x4_S1x1x1_0_0_1)) 0 ∅ 0
      ∗ atPos ER ((c : Thread nD τ), SemLoc.dma (sndS 0 0 2 inb_S3x4x4_S1x1x1_0_0_2)) 0 ∅ 0
      ∗ atPos ER ((c : Thread nD τ), SemLoc.dma (sndS 0 0 3 inb_S3x4x4_S1x1x1_0_0_3)) 0 ∅ 0
      ∗ atPos ER ((c : Thread nD τ), SemLoc.dma (sndS 0 1 1 inb_S3x4x4_S1x1x1_0_1_1)) 0 ∅ 0
      ∗ atPos ER ((c : Thread nD τ), SemLoc.dma (sndS 0 1 2 inb_S3x4x4_S1x1x1_0_1_2)) 0 ∅ 0
      ∗ atPos ER ((c : Thread nD τ), SemLoc.dma (sndS 0 1 3 inb_S3x4x4_S1x1x1_0_1_3)) 0 ∅ 0
      ∗ atPos ER ((c : Thread nD τ), SemLoc.dma (sndS 0 2 1 inb_S3x4x4_S1x1x1_0_2_1)) 0 ∅ 0
      ∗ atPos ER ((c : Thread nD τ), SemLoc.dma (sndS 0 2 2 inb_S3x4x4_S1x1x1_0_2_2)) 0 ∅ 0
      ∗ atPos ER ((c : Thread nD τ), SemLoc.dma (sndS 0 2 3 inb_S3x4x4_S1x1x1_0_2_3)) 0 ∅ 0
      ∗ atPos ER ((c : Thread nD τ), SemLoc.dma (sndS 0 3 1 inb_S3x4x4_S1x1x1_0_3_1)) 0 ∅ 0
      ∗ atPos ER ((c : Thread nD τ), SemLoc.dma (sndS 0 3 2 inb_S3x4x4_S1x1x1_0_3_2)) 0 ∅ 0
      ∗ atPos ER ((c : Thread nD τ), SemLoc.dma (sndS 0 3 3 inb_S3x4x4_S1x1x1_0_3_3)) 0 ∅ 0
      ∗ atPos ER ((c : Thread nD τ), SemLoc.dma (sndS 1 0 1 inb_S3x4x4_S1x1x1_1_0_1)) 0 ∅ 0
      ∗ atPos ER ((c : Thread nD τ), SemLoc.dma (sndS 1 0 2 inb_S3x4x4_S1x1x1_1_0_2)) 0 ∅ 0
      ∗ atPos ER ((c : Thread nD τ), SemLoc.dma (sndS 1 0 3 inb_S3x4x4_S1x1x1_1_0_3)) 0 ∅ 0
      ∗ atPos ER ((c : Thread nD τ), SemLoc.dma (sndS 1 1 1 inb_S3x4x4_S1x1x1_1_1_1)) 0 ∅ 0
      ∗ atPos ER ((c : Thread nD τ), SemLoc.dma (sndS 1 1 2 inb_S3x4x4_S1x1x1_1_1_2)) 0 ∅ 0
      ∗ atPos ER ((c : Thread nD τ), SemLoc.dma (sndS 1 1 3 inb_S3x4x4_S1x1x1_1_1_3)) 0 ∅ 0
      ∗ atPos ER ((c : Thread nD τ), SemLoc.dma (sndS 1 2 1 inb_S3x4x4_S1x1x1_1_2_1)) 0 ∅ 0
      ∗ atPos ER ((c : Thread nD τ), SemLoc.dma (sndS 1 2 2 inb_S3x4x4_S1x1x1_1_2_2)) 0 ∅ 0
      ∗ atPos ER ((c : Thread nD τ), SemLoc.dma (sndS 1 2 3 inb_S3x4x4_S1x1x1_1_2_3)) 0 ∅ 0
      ∗ atPos ER ((c : Thread nD τ), SemLoc.dma (sndS 1 3 1 inb_S3x4x4_S1x1x1_1_3_1)) 0 ∅ 0
      ∗ atPos ER ((c : Thread nD τ), SemLoc.dma (sndS 1 3 2 inb_S3x4x4_S1x1x1_1_3_2)) 0 ∅ 0
      ∗ atPos ER ((c : Thread nD τ), SemLoc.dma (sndS 1 3 3 inb_S3x4x4_S1x1x1_1_3_3)) 0 ∅ 0
      ∗ atPos ER ((c : Thread nD τ), SemLoc.dma (sndS 2 0 1 inb_S3x4x4_S1x1x1_2_0_1)) 0 ∅ 0
      ∗ atPos ER ((c : Thread nD τ), SemLoc.dma (sndS 2 0 2 inb_S3x4x4_S1x1x1_2_0_2)) 0 ∅ 0
      ∗ atPos ER ((c : Thread nD τ), SemLoc.dma (sndS 2 0 3 inb_S3x4x4_S1x1x1_2_0_3)) 0 ∅ 0
      ∗ atPos ER ((c : Thread nD τ), SemLoc.dma (rcvS 0 0 1 inb_S3x4x4_S1x1x1_0_0_1)) 0 ∅ 0
      ∗ atPos ER ((c : Thread nD τ), SemLoc.dma (rcvS 0 0 2 inb_S3x4x4_S1x1x1_0_0_2)) 0 ∅ 0
      ∗ atPos ER ((c : Thread nD τ), SemLoc.dma (rcvS 0 0 3 inb_S3x4x4_S1x1x1_0_0_3)) 0 ∅ 0
      ∗ atPos ER ((c : Thread nD τ), SemLoc.dma (rcvS 0 1 1 inb_S3x4x4_S1x1x1_0_1_1)) 0 ∅ 0
      ∗ atPos ER ((c : Thread nD τ), SemLoc.dma (rcvS 0 1 2 inb_S3x4x4_S1x1x1_0_1_2)) 0 ∅ 0
      ∗ atPos ER ((c : Thread nD τ), SemLoc.dma (rcvS 0 1 3 inb_S3x4x4_S1x1x1_0_1_3)) 0 ∅ 0
      ∗ atPos ER ((c : Thread nD τ), SemLoc.dma (rcvS 0 2 1 inb_S3x4x4_S1x1x1_0_2_1)) 0 ∅ 0
      ∗ atPos ER ((c : Thread nD τ), SemLoc.dma (rcvS 0 2 2 inb_S3x4x4_S1x1x1_0_2_2)) 0 ∅ 0
      ∗ atPos ER ((c : Thread nD τ), SemLoc.dma (rcvS 0 2 3 inb_S3x4x4_S1x1x1_0_2_3)) 0 ∅ 0
      ∗ atPos ER ((c : Thread nD τ), SemLoc.dma (rcvS 0 3 1 inb_S3x4x4_S1x1x1_0_3_1)) 0 ∅ 0
      ∗ atPos ER ((c : Thread nD τ), SemLoc.dma (rcvS 0 3 2 inb_S3x4x4_S1x1x1_0_3_2)) 0 ∅ 0
      ∗ atPos ER ((c : Thread nD τ), SemLoc.dma (rcvS 0 3 3 inb_S3x4x4_S1x1x1_0_3_3)) 0 ∅ 0
      ∗ atPos ER ((c : Thread nD τ), SemLoc.dma (rcvS 1 0 1 inb_S3x4x4_S1x1x1_1_0_1)) 0 ∅ 0
      ∗ atPos ER ((c : Thread nD τ), SemLoc.dma (rcvS 1 0 2 inb_S3x4x4_S1x1x1_1_0_2)) 0 ∅ 0
      ∗ atPos ER ((c : Thread nD τ), SemLoc.dma (rcvS 1 0 3 inb_S3x4x4_S1x1x1_1_0_3)) 0 ∅ 0
      ∗ atPos ER ((c : Thread nD τ), SemLoc.dma (rcvS 1 1 1 inb_S3x4x4_S1x1x1_1_1_1)) 0 ∅ 0
      ∗ atPos ER ((c : Thread nD τ), SemLoc.dma (rcvS 1 1 2 inb_S3x4x4_S1x1x1_1_1_2)) 0 ∅ 0
      ∗ atPos ER ((c : Thread nD τ), SemLoc.dma (rcvS 1 1 3 inb_S3x4x4_S1x1x1_1_1_3)) 0 ∅ 0
      ∗ atPos ER ((c : Thread nD τ), SemLoc.dma (rcvS 1 2 1 inb_S3x4x4_S1x1x1_1_2_1)) 0 ∅ 0
      ∗ atPos ER ((c : Thread nD τ), SemLoc.dma (rcvS 1 2 2 inb_S3x4x4_S1x1x1_1_2_2)) 0 ∅ 0
      ∗ atPos ER ((c : Thread nD τ), SemLoc.dma (rcvS 1 2 3 inb_S3x4x4_S1x1x1_1_2_3)) 0 ∅ 0
      ∗ atPos ER ((c : Thread nD τ), SemLoc.dma (rcvS 1 3 1 inb_S3x4x4_S1x1x1_1_3_1)) 0 ∅ 0
      ∗ atPos ER ((c : Thread nD τ), SemLoc.dma (rcvS 1 3 2 inb_S3x4x4_S1x1x1_1_3_2)) 0 ∅ 0
      ∗ atPos ER ((c : Thread nD τ), SemLoc.dma (rcvS 1 3 3 inb_S3x4x4_S1x1x1_1_3_3)) 0 ∅ 0
      ∗ atPos ER ((c : Thread nD τ), SemLoc.dma (rcvS 2 0 1 inb_S3x4x4_S1x1x1_2_0_1)) 0 ∅ 0
      ∗ atPos ER ((c : Thread nD τ), SemLoc.dma (rcvS 2 0 2 inb_S3x4x4_S1x1x1_2_0_2)) 0 ∅ 0
      ∗ atPos ER ((c : Thread nD τ), SemLoc.dma (rcvS 2 0 3 inb_S3x4x4_S1x1x1_2_0_3)) 0 ∅ 0
      ∗ dutyTok ER (barCell (pe c 1)) 0 (1 : Fin 4)
      ∗ dutyTok ER (barCell (pe c 2)) 0 (2 : Fin 4)
      ∗ dutyTok ER (barCell (pe c 3)) 0 (3 : Fin 4)
      ∗ toksLeft c 27
      ∗ cred (tallyAt (barCell c) () 3)
      ∗ cred (tallyAt ((c : Thread nD τ), SemLoc.dma (rcvS 0 0 1 inb_S3x4x4_S1x1x1_0_0_1)) () N)
      ∗ cred (tallyAt ((c : Thread nD τ), SemLoc.dma (rcvS 0 0 2 inb_S3x4x4_S1x1x1_0_0_2)) () N)
      ∗ cred (tallyAt ((c : Thread nD τ), SemLoc.dma (rcvS 0 0 3 inb_S3x4x4_S1x1x1_0_0_3)) () N)
      ∗ cred (tallyAt ((c : Thread nD τ), SemLoc.dma (rcvS 0 1 1 inb_S3x4x4_S1x1x1_0_1_1)) () N)
      ∗ cred (tallyAt ((c : Thread nD τ), SemLoc.dma (rcvS 0 1 2 inb_S3x4x4_S1x1x1_0_1_2)) () N)
      ∗ cred (tallyAt ((c : Thread nD τ), SemLoc.dma (rcvS 0 1 3 inb_S3x4x4_S1x1x1_0_1_3)) () N)
      ∗ cred (tallyAt ((c : Thread nD τ), SemLoc.dma (rcvS 0 2 1 inb_S3x4x4_S1x1x1_0_2_1)) () N)
      ∗ cred (tallyAt ((c : Thread nD τ), SemLoc.dma (rcvS 0 2 2 inb_S3x4x4_S1x1x1_0_2_2)) () N)
      ∗ cred (tallyAt ((c : Thread nD τ), SemLoc.dma (rcvS 0 2 3 inb_S3x4x4_S1x1x1_0_2_3)) () N)
      ∗ cred (tallyAt ((c : Thread nD τ), SemLoc.dma (rcvS 0 3 1 inb_S3x4x4_S1x1x1_0_3_1)) () N)
      ∗ cred (tallyAt ((c : Thread nD τ), SemLoc.dma (rcvS 0 3 2 inb_S3x4x4_S1x1x1_0_3_2)) () N)
      ∗ cred (tallyAt ((c : Thread nD τ), SemLoc.dma (rcvS 0 3 3 inb_S3x4x4_S1x1x1_0_3_3)) () N)
      ∗ cred (tallyAt ((c : Thread nD τ), SemLoc.dma (rcvS 1 0 1 inb_S3x4x4_S1x1x1_1_0_1)) () N)
      ∗ cred (tallyAt ((c : Thread nD τ), SemLoc.dma (rcvS 1 0 2 inb_S3x4x4_S1x1x1_1_0_2)) () N)
      ∗ cred (tallyAt ((c : Thread nD τ), SemLoc.dma (rcvS 1 0 3 inb_S3x4x4_S1x1x1_1_0_3)) () N)
      ∗ cred (tallyAt ((c : Thread nD τ), SemLoc.dma (rcvS 1 1 1 inb_S3x4x4_S1x1x1_1_1_1)) () N)
      ∗ cred (tallyAt ((c : Thread nD τ), SemLoc.dma (rcvS 1 1 2 inb_S3x4x4_S1x1x1_1_1_2)) () N)
      ∗ cred (tallyAt ((c : Thread nD τ), SemLoc.dma (rcvS 1 1 3 inb_S3x4x4_S1x1x1_1_1_3)) () N)
      ∗ cred (tallyAt ((c : Thread nD τ), SemLoc.dma (rcvS 1 2 1 inb_S3x4x4_S1x1x1_1_2_1)) () N)
      ∗ cred (tallyAt ((c : Thread nD τ), SemLoc.dma (rcvS 1 2 2 inb_S3x4x4_S1x1x1_1_2_2)) () N)
      ∗ cred (tallyAt ((c : Thread nD τ), SemLoc.dma (rcvS 1 2 3 inb_S3x4x4_S1x1x1_1_2_3)) () N)
      ∗ cred (tallyAt ((c : Thread nD τ), SemLoc.dma (rcvS 1 3 1 inb_S3x4x4_S1x1x1_1_3_1)) () N)
      ∗ cred (tallyAt ((c : Thread nD τ), SemLoc.dma (rcvS 1 3 2 inb_S3x4x4_S1x1x1_1_3_2)) () N)
      ∗ cred (tallyAt ((c : Thread nD τ), SemLoc.dma (rcvS 1 3 3 inb_S3x4x4_S1x1x1_1_3_3)) () N)
      ∗ cred (tallyAt ((c : Thread nD τ), SemLoc.dma (rcvS 2 0 1 inb_S3x4x4_S1x1x1_2_0_1)) () N)
      ∗ cred (tallyAt ((c : Thread nD τ), SemLoc.dma (rcvS 2 0 2 inb_S3x4x4_S1x1x1_2_0_2)) () N)
      ∗ cred (tallyAt ((c : Thread nD τ), SemLoc.dma (rcvS 2 0 3 inb_S3x4x4_S1x1x1_2_0_3)) () N)
      ∗ ((slotM 0 0 0 inb_S2x4x4x64x256_S1x1x1x64x256_0_0_0_0_0).view.loc (c : Thread nD τ) ↦[(slotM 0 0 0 inb_S2x4x4x64x256_S1x1x1x64x256_0_0_0_0_0).view.set]{fullShare} f0)
      ∗ ((slotM 0 0 1 inb_S2x4x4x64x256_S1x1x1x64x256_0_0_1_0_0).view.loc (c : Thread nD τ) ↦[(slotM 0 0 1 inb_S2x4x4x64x256_S1x1x1x64x256_0_0_1_0_0).view.set]{fullShare} f0)
      ∗ ((slotM 0 0 2 inb_S2x4x4x64x256_S1x1x1x64x256_0_0_2_0_0).view.loc (c : Thread nD τ) ↦[(slotM 0 0 2 inb_S2x4x4x64x256_S1x1x1x64x256_0_0_2_0_0).view.set]{fullShare} f0)
      ∗ ((slotM 0 0 3 inb_S2x4x4x64x256_S1x1x1x64x256_0_0_3_0_0).view.loc (c : Thread nD τ) ↦[(slotM 0 0 3 inb_S2x4x4x64x256_S1x1x1x64x256_0_0_3_0_0).view.set]{fullShare} f0)
      ∗ ((slotM 0 1 0 inb_S2x4x4x64x256_S1x1x1x64x256_0_1_0_0_0).view.loc (c : Thread nD τ) ↦[(slotM 0 1 0 inb_S2x4x4x64x256_S1x1x1x64x256_0_1_0_0_0).view.set]{fullShare} f0)
      ∗ ((slotM 0 1 1 inb_S2x4x4x64x256_S1x1x1x64x256_0_1_1_0_0).view.loc (c : Thread nD τ) ↦[(slotM 0 1 1 inb_S2x4x4x64x256_S1x1x1x64x256_0_1_1_0_0).view.set]{fullShare} f0)
      ∗ ((slotM 0 1 2 inb_S2x4x4x64x256_S1x1x1x64x256_0_1_2_0_0).view.loc (c : Thread nD τ) ↦[(slotM 0 1 2 inb_S2x4x4x64x256_S1x1x1x64x256_0_1_2_0_0).view.set]{fullShare} f0)
      ∗ ((slotM 0 1 3 inb_S2x4x4x64x256_S1x1x1x64x256_0_1_3_0_0).view.loc (c : Thread nD τ) ↦[(slotM 0 1 3 inb_S2x4x4x64x256_S1x1x1x64x256_0_1_3_0_0).view.set]{fullShare} f0)
      ∗ ((slotM 0 2 0 inb_S2x4x4x64x256_S1x1x1x64x256_0_2_0_0_0).view.loc (c : Thread nD τ) ↦[(slotM 0 2 0 inb_S2x4x4x64x256_S1x1x1x64x256_0_2_0_0_0).view.set]{fullShare} f0)
      ∗ ((slotM 0 2 1 inb_S2x4x4x64x256_S1x1x1x64x256_0_2_1_0_0).view.loc (c : Thread nD τ) ↦[(slotM 0 2 1 inb_S2x4x4x64x256_S1x1x1x64x256_0_2_1_0_0).view.set]{fullShare} f0)
      ∗ ((slotM 0 2 2 inb_S2x4x4x64x256_S1x1x1x64x256_0_2_2_0_0).view.loc (c : Thread nD τ) ↦[(slotM 0 2 2 inb_S2x4x4x64x256_S1x1x1x64x256_0_2_2_0_0).view.set]{fullShare} f0)
      ∗ ((slotM 0 2 3 inb_S2x4x4x64x256_S1x1x1x64x256_0_2_3_0_0).view.loc (c : Thread nD τ) ↦[(slotM 0 2 3 inb_S2x4x4x64x256_S1x1x1x64x256_0_2_3_0_0).view.set]{fullShare} f0)
      ∗ ((slotM 0 3 0 inb_S2x4x4x64x256_S1x1x1x64x256_0_3_0_0_0).view.loc (c : Thread nD τ) ↦[(slotM 0 3 0 inb_S2x4x4x64x256_S1x1x1x64x256_0_3_0_0_0).view.set]{fullShare} f0)
      ∗ ((slotM 0 3 1 inb_S2x4x4x64x256_S1x1x1x64x256_0_3_1_0_0).view.loc (c : Thread nD τ) ↦[(slotM 0 3 1 inb_S2x4x4x64x256_S1x1x1x64x256_0_3_1_0_0).view.set]{fullShare} f0)
      ∗ ((slotM 0 3 2 inb_S2x4x4x64x256_S1x1x1x64x256_0_3_2_0_0).view.loc (c : Thread nD τ) ↦[(slotM 0 3 2 inb_S2x4x4x64x256_S1x1x1x64x256_0_3_2_0_0).view.set]{fullShare} f0)
      ∗ ((slotM 0 3 3 inb_S2x4x4x64x256_S1x1x1x64x256_0_3_3_0_0).view.loc (c : Thread nD τ) ↦[(slotM 0 3 3 inb_S2x4x4x64x256_S1x1x1x64x256_0_3_3_0_0).view.set]{fullShare} f0)
      ∗ ((slotM 1 0 0 inb_S2x4x4x64x256_S1x1x1x64x256_1_0_0_0_0).view.loc (c : Thread nD τ) ↦[(slotM 1 0 0 inb_S2x4x4x64x256_S1x1x1x64x256_1_0_0_0_0).view.set]{fullShare} f0)
      ∗ ((slotM 1 0 1 inb_S2x4x4x64x256_S1x1x1x64x256_1_0_1_0_0).view.loc (c : Thread nD τ) ↦[(slotM 1 0 1 inb_S2x4x4x64x256_S1x1x1x64x256_1_0_1_0_0).view.set]{fullShare} f0)
      ∗ ((slotM 1 0 2 inb_S2x4x4x64x256_S1x1x1x64x256_1_0_2_0_0).view.loc (c : Thread nD τ) ↦[(slotM 1 0 2 inb_S2x4x4x64x256_S1x1x1x64x256_1_0_2_0_0).view.set]{fullShare} f0)
      ∗ ((slotM 1 0 3 inb_S2x4x4x64x256_S1x1x1x64x256_1_0_3_0_0).view.loc (c : Thread nD τ) ↦[(slotM 1 0 3 inb_S2x4x4x64x256_S1x1x1x64x256_1_0_3_0_0).view.set]{fullShare} f0)
      ∗ ((slotM 1 1 0 inb_S2x4x4x64x256_S1x1x1x64x256_1_1_0_0_0).view.loc (c : Thread nD τ) ↦[(slotM 1 1 0 inb_S2x4x4x64x256_S1x1x1x64x256_1_1_0_0_0).view.set]{fullShare} f0)
      ∗ ((slotM 1 1 1 inb_S2x4x4x64x256_S1x1x1x64x256_1_1_1_0_0).view.loc (c : Thread nD τ) ↦[(slotM 1 1 1 inb_S2x4x4x64x256_S1x1x1x64x256_1_1_1_0_0).view.set]{fullShare} f0)
      ∗ ((slotM 1 1 2 inb_S2x4x4x64x256_S1x1x1x64x256_1_1_2_0_0).view.loc (c : Thread nD τ) ↦[(slotM 1 1 2 inb_S2x4x4x64x256_S1x1x1x64x256_1_1_2_0_0).view.set]{fullShare} f0)
      ∗ ((slotM 1 1 3 inb_S2x4x4x64x256_S1x1x1x64x256_1_1_3_0_0).view.loc (c : Thread nD τ) ↦[(slotM 1 1 3 inb_S2x4x4x64x256_S1x1x1x64x256_1_1_3_0_0).view.set]{fullShare} f0)
      ∗ ((slotM 1 2 0 inb_S2x4x4x64x256_S1x1x1x64x256_1_2_0_0_0).view.loc (c : Thread nD τ) ↦[(slotM 1 2 0 inb_S2x4x4x64x256_S1x1x1x64x256_1_2_0_0_0).view.set]{fullShare} f0)
      ∗ ((slotM 1 2 1 inb_S2x4x4x64x256_S1x1x1x64x256_1_2_1_0_0).view.loc (c : Thread nD τ) ↦[(slotM 1 2 1 inb_S2x4x4x64x256_S1x1x1x64x256_1_2_1_0_0).view.set]{fullShare} f0)
      ∗ ((slotM 1 2 2 inb_S2x4x4x64x256_S1x1x1x64x256_1_2_2_0_0).view.loc (c : Thread nD τ) ↦[(slotM 1 2 2 inb_S2x4x4x64x256_S1x1x1x64x256_1_2_2_0_0).view.set]{fullShare} f0)
      ∗ ((slotM 1 2 3 inb_S2x4x4x64x256_S1x1x1x64x256_1_2_3_0_0).view.loc (c : Thread nD τ) ↦[(slotM 1 2 3 inb_S2x4x4x64x256_S1x1x1x64x256_1_2_3_0_0).view.set]{fullShare} f0)
      ∗ ((slotM 1 3 0 inb_S2x4x4x64x256_S1x1x1x64x256_1_3_0_0_0).view.loc (c : Thread nD τ) ↦[(slotM 1 3 0 inb_S2x4x4x64x256_S1x1x1x64x256_1_3_0_0_0).view.set]{fullShare} f0)
      ∗ ((slotM 1 3 1 inb_S2x4x4x64x256_S1x1x1x64x256_1_3_1_0_0).view.loc (c : Thread nD τ) ↦[(slotM 1 3 1 inb_S2x4x4x64x256_S1x1x1x64x256_1_3_1_0_0).view.set]{fullShare} f0)
      ∗ ((slotM 1 3 2 inb_S2x4x4x64x256_S1x1x1x64x256_1_3_2_0_0).view.loc (c : Thread nD τ) ↦[(slotM 1 3 2 inb_S2x4x4x64x256_S1x1x1x64x256_1_3_2_0_0).view.set]{fullShare} f0)
      ∗ ((slotM 1 3 3 inb_S2x4x4x64x256_S1x1x1x64x256_1_3_3_0_0).view.loc (c : Thread nD τ) ↦[(slotM 1 3 3 inb_S2x4x4x64x256_S1x1x1x64x256_1_3_3_0_0).view.set]{fullShare} f0)
      ∗ ((rsM 0 0 inb_rs_0_0).view.loc (c : Thread nD τ) ↦[(rsM 0 0 inb_rs_0_0).view.set]{fullShare} f1)
      ∗ ((rsM 0 1 inb_S2x4x64x256_S1x1x64x256_0_1_0_0).view.loc (c : Thread nD τ) ↦[(rsM 0 1 inb_S2x4x64x256_S1x1x64x256_0_1_0_0).view.set]{fullShare} f1)
      ∗ ((rsM 0 2 inb_S2x4x64x256_S1x1x64x256_0_2_0_0).view.loc (c : Thread nD τ) ↦[(rsM 0 2 inb_S2x4x64x256_S1x1x64x256_0_2_0_0).view.set]{fullShare} f1)
      ∗ ((rsM 0 3 inb_S2x4x64x256_S1x1x64x256_0_3_0_0).view.loc (c : Thread nD τ) ↦[(rsM 0 3 inb_S2x4x64x256_S1x1x64x256_0_3_0_0).view.set]{fullShare} f1)
      ∗ ((rsM 1 0 inb_rs_1_0).view.loc (c : Thread nD τ) ↦[(rsM 1 0 inb_rs_1_0).view.set]{fullShare} f1)
      ∗ ((rsM 1 1 inb_S2x4x64x256_S1x1x64x256_1_1_0_0).view.loc (c : Thread nD τ) ↦[(rsM 1 1 inb_S2x4x64x256_S1x1x64x256_1_1_0_0).view.set]{fullShare} f1)
      ∗ ((rsM 1 2 inb_S2x4x64x256_S1x1x64x256_1_2_0_0).view.loc (c : Thread nD τ) ↦[(rsM 1 2 inb_S2x4x64x256_S1x1x64x256_1_2_0_0).view.set]{fullShare} f1)
      ∗ ((rsM 1 3 inb_S2x4x64x256_S1x1x64x256_1_3_0_0).view.loc (c : Thread nD τ) ↦[(rsM 1 3 inb_S2x4x64x256_S1x1x64x256_1_3_0_0).view.set]{fullShare} f1)
      ∗ ((Memref.whole cc0_stg0_0).view.loc (c : Thread nD τ) ↦{fullShare} xstg0 m ρ c)
      ∗ ((Memref.whole cc0_stg1_0).view.loc (c : Thread nD τ) ↦{fullShare} xstg1 m ρ c)
      ∗ ((Memref.whole cc0_stg2_0).view.loc (c : Thread nD τ) ↦{fullShare} xstg2 m ρ c)
      ∗ ((Memref.whole cc0_stg3_0).view.loc (c : Thread nD τ) ↦{fullShare} xstg3 m ρ c)
      ∗ ((Memref.whole cc0_stg4_0).view.loc (c : Thread nD τ) ↦{fullShare} xstg4 m ρ c)
      ∗ ((Memref.whole cc0_stg5_0).view.loc (c : Thread nD τ) ↦{fullShare} xstg5 m ρ c)
      ∗ ((Memref.whole cc0_stg6_0).view.loc (c : Thread nD τ) ↦{fullShare} xstg6 m ρ c)
      ∗ ((Memref.whole cc0_stg7_0).view.loc (c : Thread nD τ) ↦{fullShare} g7)
      ∗ owes (c : Thread nD τ) (owesLeft c 27 + tallyAt (barCell (pe c 3)) () 1 + tallyAt (barCell (pe c 2)) () 1 + tallyAt (barCell (pe c 1)) () 1) W)

/-- What it ends with: the two buffers whole again and every own cell closed at zero (`Φ₁`), nothing owed, the input staging
    buffers as they were and the output staging buffer at the device's result. -/
def bodyPost (c : Dev nD) : sProp 𝕄 :=
  iprop(Φ₁ (F := F) c ∗ (∃ W, owes (c : Thread nD τ) 0 W)
    ∗ ((Memref.whole cc0_stg0_0).view.loc (c : Thread nD τ) ↦{fullShare} xstg0 m ρ c)
    ∗ ((Memref.whole cc0_stg1_0).view.loc (c : Thread nD τ) ↦{fullShare} xstg1 m ρ c)
    ∗ ((Memref.whole cc0_stg2_0).view.loc (c : Thread nD τ) ↦{fullShare} xstg2 m ρ c)
    ∗ ((Memref.whole cc0_stg3_0).view.loc (c : Thread nD τ) ↦{fullShare} xstg3 m ρ c)
    ∗ ((Memref.whole cc0_stg4_0).view.loc (c : Thread nD τ) ↦{fullShare} xstg4 m ρ c)
    ∗ ((Memref.whole cc0_stg5_0).view.loc (c : Thread nD τ) ↦{fullShare} xstg5 m ρ c)
    ∗ ((Memref.whole cc0_stg6_0).view.loc (c : Thread nD τ) ↦{fullShare} xstg6 m ρ c)
    ∗ ((Memref.whole cc0_stg7_0).view.loc (c : Thread nD τ) ↦{fullShare} outv c))

end Cert.KernelIdeal.Mlp

end
-- ==== Proof.BodyOblig.lean ====
import proofs.«900991_g7700000000000992_dist_mlpseq_tp1d_rep_bs_b256_d256_h512_v7x_i4_bf16_1_alg».proof.Proof.BodyIface
import proofs.«900991_g7700000000000992_dist_mlpseq_tp1d_rep_bs_b256_d256_h512_v7x_i4_bf16_1_alg».proof.Proof.LaunchK

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## From the body's run to the pipeline's body obligation

The pipeline hands a device's body its invariant before the one point, what it owes, and the eight staging buffers; the
body's run is stated from the same things held piece by piece. This module opens the one into the other and closes the
post back; it states nothing about what the body does. -/

/-- A staging buffer held whole at contents `X`. -/
abbrev stgP (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stgP c b X := by
  unfold owns; simp only [Memref.view_whole, View.read_whole, View.set_whole]

theorem bigSep_W8 (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

/-! ### What the staging buffers hold when the body starts -/

theorem before_0 (c : Dev nD) (d) : (dats m ρ val jk jr outv 0 c).before (0 : Fin 8) t₀ d = xstg0 m ρ c := by
  unfold Dat.before; rw [if_pos (fetch0_0 t₀)]; rfl
theorem before_1 (c : Dev nD) (d) : (dats m ρ val jk jr outv 0 c).before (1 : Fin 8) t₀ d = xstg1 m ρ c := by
  unfold Dat.before; rw [if_pos (fetch0_1 t₀)]; rfl
theorem before_2 (c : Dev nD) (d) : (dats m ρ val jk jr outv 0 c).before (2 : Fin 8) t₀ d = xstg2 m ρ c := by
  unfold Dat.before; rw [if_pos (fetch0_2 t₀)]; rfl
theorem before_3 (c : Dev nD) (d) : (dats m ρ val jk jr outv 0 c).before (3 : Fin 8) t₀ d = xstg3 m ρ c := by
  unfold Dat.before; rw [if_pos (fetch0_3 t₀)]; rfl
theorem before_4 (c : Dev nD) (d) : (dats m ρ val jk jr outv 0 c).before (4 : Fin 8) t₀ d = xstg4 m ρ c := by
  unfold Dat.before; rw [if_pos (fetch0_4 t₀)]; rfl
theorem before_5 (c : Dev nD) (d) : (dats m ρ val jk jr outv 0 c).before (5 : Fin 8) t₀ d = xstg5 m ρ c := by
  unfold Dat.before; rw [if_pos (fetch0_5 t₀)]; rfl
theorem before_6 (c : Dev nD) (d) : (dats m ρ val jk jr outv 0 c).before (6 : Fin 8) t₀ d = xstg6 m ρ c := by
  unfold Dat.before; rw [if_pos (fetch0_6 t₀)]; rfl
theorem before_7 (c : Dev nD) (d) : (dats m ρ val jk jr outv 0 c).before (7 : Fin 8) t₀ d = d := by
  unfold Dat.before; rw [if_neg (by decide)]; exact if_pos rfl

/-! ### The copies' tokens, in the order the body starts the copies -/

/-- The copies in the order the body starts them: in every block, slot 2, then slot 1, then slot 3. -/
abbrev p27 : List (Fin 27) := [1, 0, 2, 4, 3, 5, 7, 6, 8, 10, 9, 11, 13, 12, 14, 16, 15, 17, 19, 18, 20, 22, 21, 23, 25, 24, 26]

theorem toksLeft_eq (c : Dev nD) : (toksLeft (F := F) c 27 : sProp 𝕄)
    = iprop((bigSep Finset.univ fun k : Fin 27 => dutyTok ER (sndC c k) 0 (0 : Fin 4)) ∗ bigSep Finset.univ fun k : Fin 27 => dutyTok ER (rcvC (pe c (ko k)) k) 0 (0 : Fin 4)) := by
  have h : (toksLeft (F := F) c 27 : sProp 𝕄)
      = bigSepLR p27 (fun k => iprop(dutyTok ER (sndC c k) 0 (0 : Fin 4) ∗ dutyTok ER (rcvC (pe c (ko k)) k) 0 (0 : Fin 4))) iprop(emp) := rfl
  rw [h, bigSepLR_eq, ← bigSep_univ_eq_bigSepL p27 (by decide) (by decide), bigSep_sep']
  exact equiv_iff.mp sep_emp

/-! ### The exchange buffers' blocks, listed -/

def slots0 (c : Dev nD) (f : Buf (Elt F) ((c : Thread nD τ).loc cc0_scratch0)) : List (sProp 𝕄) :=
  [((slotM 0 0 0 inb_S2x4x4x64x256_S1x1x1x64x256_0_0_0_0_0).view.loc (c : Thread nD τ) ↦[(slotM 0 0 0 inb_S2x4x4x64x256_S1x1x1x64x256_0_0_0_0_0).view.set]{fullShare} f : sProp 𝕄),
   ((slotM 0 0 1 inb_S2x4x4x64x256_S1x1x1x64x256_0_0_1_0_0).view.loc (c : Thread nD τ) ↦[(slotM 0 0 1 inb_S2x4x4x64x256_S1x1x1x64x256_0_0_1_0_0).view.set]{fullShare} f : sProp 𝕄),
   ((slotM 0 0 2 inb_S2x4x4x64x256_S1x1x1x64x256_0_0_2_0_0).view.loc (c : Thread nD τ) ↦[(slotM 0 0 2 inb_S2x4x4x64x256_S1x1x1x64x256_0_0_2_0_0).view.set]{fullShare} f : sProp 𝕄),
   ((slotM 0 0 3 inb_S2x4x4x64x256_S1x1x1x64x256_0_0_3_0_0).view.loc (c : Thread nD τ) ↦[(slotM 0 0 3 inb_S2x4x4x64x256_S1x1x1x64x256_0_0_3_0_0).view.set]{fullShare} f : sProp 𝕄),
   ((slotM 0 1 0 inb_S2x4x4x64x256_S1x1x1x64x256_0_1_0_0_0).view.loc (c : Thread nD τ) ↦[(slotM 0 1 0 inb_S2x4x4x64x256_S1x1x1x64x256_0_1_0_0_0).view.set]{fullShare} f : sProp 𝕄),
   ((slotM 0 1 1 inb_S2x4x4x64x256_S1x1x1x64x256_0_1_1_0_0).view.loc (c : Thread nD τ) ↦[(slotM 0 1 1 inb_S2x4x4x64x256_S1x1x1x64x256_0_1_1_0_0).view.set]{fullShare} f : sProp 𝕄),
   ((slotM 0 1 2 inb_S2x4x4x64x256_S1x1x1x64x256_0_1_2_0_0).view.loc (c : Thread nD τ) ↦[(slotM 0 1 2 inb_S2x4x4x64x256_S1x1x1x64x256_0_1_2_0_0).view.set]{fullShare} f : sProp 𝕄),
   ((slotM 0 1 3 inb_S2x4x4x64x256_S1x1x1x64x256_0_1_3_0_0).view.loc (c : Thread nD τ) ↦[(slotM 0 1 3 inb_S2x4x4x64x256_S1x1x1x64x256_0_1_3_0_0).view.set]{fullShare} f : sProp 𝕄),
   ((slotM 0 2 0 inb_S2x4x4x64x256_S1x1x1x64x256_0_2_0_0_0).view.loc (c : Thread nD τ) ↦[(slotM 0 2 0 inb_S2x4x4x64x256_S1x1x1x64x256_0_2_0_0_0).view.set]{fullShare} f : sProp 𝕄),
   ((slotM 0 2 1 inb_S2x4x4x64x256_S1x1x1x64x256_0_2_1_0_0).view.loc (c : Thread nD τ) ↦[(slotM 0 2 1 inb_S2x4x4x64x256_S1x1x1x64x256_0_2_1_0_0).view.set]{fullShare} f : sProp 𝕄),
   ((slotM 0 2 2 inb_S2x4x4x64x256_S1x1x1x64x256_0_2_2_0_0).view.loc (c : Thread nD τ) ↦[(slotM 0 2 2 inb_S2x4x4x64x256_S1x1x1x64x256_0_2_2_0_0).view.set]{fullShare} f : sProp 𝕄),
   ((slotM 0 2 3 inb_S2x4x4x64x256_S1x1x1x64x256_0_2_3_0_0).view.loc (c : Thread nD τ) ↦[(slotM 0 2 3 inb_S2x4x4x64x256_S1x1x1x64x256_0_2_3_0_0).view.set]{fullShare} f : sProp 𝕄),
   ((slotM 0 3 0 inb_S2x4x4x64x256_S1x1x1x64x256_0_3_0_0_0).view.loc (c : Thread nD τ) ↦[(slotM 0 3 0 inb_S2x4x4x64x256_S1x1x1x64x256_0_3_0_0_0).view.set]{fullShare} f : sProp 𝕄),
   ((slotM 0 3 1 inb_S2x4x4x64x256_S1x1x1x64x256_0_3_1_0_0).view.loc (c : Thread nD τ) ↦[(slotM 0 3 1 inb_S2x4x4x64x256_S1x1x1x64x256_0_3_1_0_0).view.set]{fullShare} f : sProp 𝕄),
   ((slotM 0 3 2 inb_S2x4x4x64x256_S1x1x1x64x256_0_3_2_0_0).view.loc (c : Thread nD τ) ↦[(slotM 0 3 2 inb_S2x4x4x64x256_S1x1x1x64x256_0_3_2_0_0).view.set]{fullShare} f : sProp 𝕄),
   ((slotM 0 3 3 inb_S2x4x4x64x256_S1x1x1x64x256_0_3_3_0_0).view.loc (c : Thread nD τ) ↦[(slotM 0 3 3 inb_S2x4x4x64x256_S1x1x1x64x256_0_3_3_0_0).view.set]{fullShare} f : sProp 𝕄),
   ((slotM 1 0 0 inb_S2x4x4x64x256_S1x1x1x64x256_1_0_0_0_0).view.loc (c : Thread nD τ) ↦[(slotM 1 0 0 inb_S2x4x4x64x256_S1x1x1x64x256_1_0_0_0_0).view.set]{fullShare} f : sProp 𝕄),
   ((slotM 1 0 1 inb_S2x4x4x64x256_S1x1x1x64x256_1_0_1_0_0).view.loc (c : Thread nD τ) ↦[(slotM 1 0 1 inb_S2x4x4x64x256_S1x1x1x64x256_1_0_1_0_0).view.set]{fullShare} f : sProp 𝕄),
   ((slotM 1 0 2 inb_S2x4x4x64x256_S1x1x1x64x256_1_0_2_0_0).view.loc (c : Thread nD τ) ↦[(slotM 1 0 2 inb_S2x4x4x64x256_S1x1x1x64x256_1_0_2_0_0).view.set]{fullShare} f : sProp 𝕄),
   ((slotM 1 0 3 inb_S2x4x4x64x256_S1x1x1x64x256_1_0_3_0_0).view.loc (c : Thread nD τ) ↦[(slotM 1 0 3 inb_S2x4x4x64x256_S1x1x1x64x256_1_0_3_0_0).view.set]{fullShare} f : sProp 𝕄),
   ((slotM 1 1 0 inb_S2x4x4x64x256_S1x1x1x64x256_1_1_0_0_0).view.loc (c : Thread nD τ) ↦[(slotM 1 1 0 inb_S2x4x4x64x256_S1x1x1x64x256_1_1_0_0_0).view.set]{fullShare} f : sProp 𝕄),
   ((slotM 1 1 1 inb_S2x4x4x64x256_S1x1x1x64x256_1_1_1_0_0).view.loc (c : Thread nD τ) ↦[(slotM 1 1 1 inb_S2x4x4x64x256_S1x1x1x64x256_1_1_1_0_0).view.set]{fullShare} f : sProp 𝕄),
   ((slotM 1 1 2 inb_S2x4x4x64x256_S1x1x1x64x256_1_1_2_0_0).view.loc (c : Thread nD τ) ↦[(slotM 1 1 2 inb_S2x4x4x64x256_S1x1x1x64x256_1_1_2_0_0).view.set]{fullShare} f : sProp 𝕄),
   ((slotM 1 1 3 inb_S2x4x4x64x256_S1x1x1x64x256_1_1_3_0_0).view.loc (c : Thread nD τ) ↦[(slotM 1 1 3 inb_S2x4x4x64x256_S1x1x1x64x256_1_1_3_0_0).view.set]{fullShare} f : sProp 𝕄),
   ((slotM 1 2 0 inb_S2x4x4x64x256_S1x1x1x64x256_1_2_0_0_0).view.loc (c : Thread nD τ) ↦[(slotM 1 2 0 inb_S2x4x4x64x256_S1x1x1x64x256_1_2_0_0_0).view.set]{fullShare} f : sProp 𝕄),
   ((slotM 1 2 1 inb_S2x4x4x64x256_S1x1x1x64x256_1_2_1_0_0).view.loc (c : Thread nD τ) ↦[(slotM 1 2 1 inb_S2x4x4x64x256_S1x1x1x64x256_1_2_1_0_0).view.set]{fullShare} f : sProp 𝕄),
   ((slotM 1 2 2 inb_S2x4x4x64x256_S1x1x1x64x256_1_2_2_0_0).view.loc (c : Thread nD τ) ↦[(slotM 1 2 2 inb_S2x4x4x64x256_S1x1x1x64x256_1_2_2_0_0).view.set]{fullShare} f : sProp 𝕄),
   ((slotM 1 2 3 inb_S2x4x4x64x256_S1x1x1x64x256_1_2_3_0_0).view.loc (c : Thread nD τ) ↦[(slotM 1 2 3 inb_S2x4x4x64x256_S1x1x1x64x256_1_2_3_0_0).view.set]{fullShare} f : sProp 𝕄),
   ((slotM 1 3 0 inb_S2x4x4x64x256_S1x1x1x64x256_1_3_0_0_0).view.loc (c : Thread nD τ) ↦[(slotM 1 3 0 inb_S2x4x4x64x256_S1x1x1x64x256_1_3_0_0_0).view.set]{fullShare} f : sProp 𝕄),
   ((slotM 1 3 1 inb_S2x4x4x64x256_S1x1x1x64x256_1_3_1_0_0).view.loc (c : Thread nD τ) ↦[(slotM 1 3 1 inb_S2x4x4x64x256_S1x1x1x64x256_1_3_1_0_0).view.set]{fullShare} f : sProp 𝕄),
   ((slotM 1 3 2 inb_S2x4x4x64x256_S1x1x1x64x256_1_3_2_0_0).view.loc (c : Thread nD τ) ↦[(slotM 1 3 2 inb_S2x4x4x64x256_S1x1x1x64x256_1_3_2_0_0).view.set]{fullShare} f : sProp 𝕄),
   ((slotM 1 3 3 inb_S2x4x4x64x256_S1x1x1x64x256_1_3_3_0_0).view.loc (c : Thread nD τ) ↦[(slotM 1 3 3 inb_S2x4x4x64x256_S1x1x1x64x256_1_3_3_0_0).view.set]{fullShare} f : sProp 𝕄)]
def slots1 (c : Dev nD) (f : Buf (Elt F) ((c : Thread nD τ).loc cc0_scratch1)) : List (sProp 𝕄) :=
  [((rsM 0 0 inb_rs_0_0).view.loc (c : Thread nD τ) ↦[(rsM 0 0 inb_rs_0_0).view.set]{fullShare} f : sProp 𝕄),
   ((rsM 0 1 inb_S2x4x64x256_S1x1x64x256_0_1_0_0).view.loc (c : Thread nD τ) ↦[(rsM 0 1 inb_S2x4x64x256_S1x1x64x256_0_1_0_0).view.set]{fullShare} f : sProp 𝕄),
   ((rsM 0 2 inb_S2x4x64x256_S1x1x64x256_0_2_0_0).view.loc (c : Thread nD τ) ↦[(rsM 0 2 inb_S2x4x64x256_S1x1x64x256_0_2_0_0).view.set]{fullShare} f : sProp 𝕄),
   ((rsM 0 3 inb_S2x4x64x256_S1x1x64x256_0_3_0_0).view.loc (c : Thread nD τ) ↦[(rsM 0 3 inb_S2x4x64x256_S1x1x64x256_0_3_0_0).view.set]{fullShare} f : sProp 𝕄),
   ((rsM 1 0 inb_rs_1_0).view.loc (c : Thread nD τ) ↦[(rsM 1 0 inb_rs_1_0).view.set]{fullShare} f : sProp 𝕄),
   ((rsM 1 1 inb_S2x4x64x256_S1x1x64x256_1_1_0_0).view.loc (c : Thread nD τ) ↦[(rsM 1 1 inb_S2x4x64x256_S1x1x64x256_1_1_0_0).view.set]{fullShare} f : sProp 𝕄),
   ((rsM 1 2 inb_S2x4x64x256_S1x1x64x256_1_2_0_0).view.loc (c : Thread nD τ) ↦[(rsM 1 2 inb_S2x4x64x256_S1x1x64x256_1_2_0_0).view.set]{fullShare} f : sProp 𝕄),
   ((rsM 1 3 inb_S2x4x64x256_S1x1x64x256_1_3_0_0).view.loc (c : Thread nD τ) ↦[(rsM 1 3 inb_S2x4x64x256_S1x1x64x256_1_3_0_0).view.set]{fullShare} f : sProp 𝕄)]

theorem scratch0_cut (c : Dev nD) (f : Buf (Elt F) ((c : Thread nD τ).loc cc0_scratch0)) :
    ((((c : Thread nD τ).loc cc0_scratch0) ↦{fullShare} f : sProp 𝕄)) ⊢ bigSepL (slots0 c f) id := (scratch0_split c f).1
theorem scratch1_cut (c : Dev nD) (f : Buf (Elt F) ((c : Thread nD τ).loc cc0_scratch1)) :
    ((((c : Thread nD τ).loc cc0_scratch1) ↦{fullShare} f : sProp 𝕄)) ⊢ bigSepL (slots1 c f) id := (scratch1_split c f).1

/-! ### The body's starting context, as chains over the copies -/

theorem bodyPre_eq (K : GSem nD τ sig → ℕ) (c : Dev nD) (W : Waits sig Unit)
    (f0 : Buf (Elt F) ((c : Thread nD τ).loc cc0_scratch0)) (f1 : Buf (Elt F) ((c : Thread nD τ).loc cc0_scratch1))
    (g7 : (cc0_stg7_0 : Ref sig .tc).ty.Contents (Elt F)) :
    bodyPre m ρ val jk jr K c W f0 f1 g7 = iprop(cellInv ER (Rd val jk jr) (K (barCell c)) (barCell c)
      ∗ bigSepLR k27 (fun k => cellInv ER (Rd val jk jr) (K (sndC c k)) (sndC c k))
        (bigSepLR k27 (fun k => cellInv ER (Rd val jk jr) (K (rcvC c k)) (rcvC c k))
          iprop(cellInv ER (Rd val jk jr) (K (barCell (pe c 1))) (barCell (pe c 1)) ∗ cellInv ER (Rd val jk jr) (K (barCell (pe c 2))) (barCell (pe c 2)) ∗ cellInv ER (Rd val jk jr) (K (barCell (pe c 3))) (barCell (pe c 3))
            ∗ bigSepLR k27 (fun k => cellInv ER (Rd val jk jr) (K (rcvC (pe c (ko k)) k)) (rcvC (pe c (ko k)) k))
              iprop(reached ER (barCell (pe c 1)) 0 ∗ reached ER (barCell (pe c 2)) 0 ∗ reached ER (barCell (pe c 3)) 0
                ∗ bigSepLR k27 (fun k => reached ER (sndC c k) 0)
                  (bigSepLR k27 (fun k => reached ER (rcvC (pe c (ko k)) k) 0)
                    iprop(levAts L lv ∗ atPos ER (barCell c) 0 ∅ 0
                      ∗ bigSepLR k27 (fun k => atPos ER (sndC c k) 0 ∅ 0)
                        (bigSepLR k27 (fun k => atPos ER (rcvC c k) 0 ∅ 0)
                          iprop(dutyTok ER (barCell (pe c 1)) 0 (1 : Fin 4) ∗ dutyTok ER (barCell (pe c 2)) 0 (2 : Fin 4) ∗ dutyTok ER (barCell (pe c 3)) 0 (3 : Fin 4)
                            ∗ toksLeft c 27
                            ∗ cred (tallyAt (barCell c) () 3)
                            ∗ bigSepLR k27 (fun k => cred (tallyAt (rcvC c k) () N))
                              (bigSepLR (slots0 c f0) id (bigSepLR (slots1 c f1) id
                                iprop(((Memref.whole cc0_stg0_0).view.loc (c : Thread nD τ) ↦{fullShare} xstg0 m ρ c)
                                  ∗ ((Memref.whole cc0_stg1_0).view.loc (c : Thread nD τ) ↦{fullShare} xstg1 m ρ c)
                                  ∗ ((Memref.whole cc0_stg2_0).view.loc (c : Thread nD τ) ↦{fullShare} xstg2 m ρ c)
                                  ∗ ((Memref.whole cc0_stg3_0).view.loc (c : Thread nD τ) ↦{fullShare} xstg3 m ρ c)
                                  ∗ ((Memref.whole cc0_stg4_0).view.loc (c : Thread nD τ) ↦{fullShare} xstg4 m ρ c)
                                  ∗ ((Memref.whole cc0_stg5_0).view.loc (c : Thread nD τ) ↦{fullShare} xstg5 m ρ c)
                                  ∗ ((Memref.whole cc0_stg6_0).view.loc (c : Thread nD τ) ↦{fullShare} xstg6 m ρ c)
                                  ∗ ((Memref.whole cc0_stg7_0).view.loc (c : Thread nD τ) ↦{fullShare} g7)
                                  ∗ owes (c : Thread nD τ) (owesLeft c 27 + tallyAt (barCell (pe c 3)) () 1 + tallyAt (barCell (pe c 2)) () 1 + tallyAt (barCell (pe c 1)) () 1) W))))))))))) := rfl

/-! ### The obligation -/

/-- What the pipeline hands the body at the one point. -/
def bodyPre' (c : Dev nD) : sProp 𝕄 :=
  iprop(Φ₀ val jk jr c ∗ (dats m ρ val jk jr outv 0 c).owesAt () t₀.castSucc
    ∗ (∃ d, stgP c cc0_stg0_0 ((dats m ρ val jk jr outv 0 c).before (0 : Fin 8) t₀ d))
    ∗ (∃ d, stgP c cc0_stg1_0 ((dats m ρ val jk jr outv 0 c).before (1 : Fin 8) t₀ d))
    ∗ (∃ d, stgP c cc0_stg2_0 ((dats m ρ val jk jr outv 0 c).before (2 : Fin 8) t₀ d))
    ∗ (∃ d, stgP c cc0_stg3_0 ((dats m ρ val jk jr outv 0 c).before (3 : Fin 8) t₀ d))
    ∗ (∃ d, stgP c cc0_stg4_0 ((dats m ρ val jk jr outv 0 c).before (4 : Fin 8) t₀ d))
    ∗ (∃ d, stgP c cc0_stg5_0 ((dats m ρ val jk jr outv 0 c).before (5 : Fin 8) t₀ d))
    ∗ (∃ d, stgP c cc0_stg6_0 ((dats m ρ val jk jr outv 0 c).before (6 : Fin 8) t₀ d))
    ∗ (∃ d, stgP c cc0_stg7_0 ((dats m ρ val jk jr outv 0 c).before (7 : Fin 8) t₀ d)))

/-- What it wants back. -/
def libPost (c : Dev nD) : sProp 𝕄 :=
  iprop(Φ₁ (F := F) c ∗ (dats m ρ val jk jr outv 0 c).owesAt () t₀.succ
    ∗ stgP c cc0_stg0_0 (xstg0 m ρ c) ∗ stgP c cc0_stg1_0 (xstg1 m ρ c) ∗ stgP c cc0_stg2_0 (xstg2 m ρ c) ∗ stgP c cc0_stg3_0 (xstg3 m ρ c) ∗ stgP c cc0_stg4_0 (xstg4 m ρ c) ∗ stgP c cc0_stg5_0 (xstg5 m ρ c) ∗ stgP c cc0_stg6_0 (xstg6 m ρ c) ∗ stgP c cc0_stg7_0 (outv c))

theorem post_close (c : Dev nD) : bodyPost m ρ outv c ⊢ libPost m ρ val jk jr outv c := by
  unfold bodyPost libPost Dat.owesAt Pipeline.owesWithin
  rw [show (dats m ρ val jk jr outv 0 c).owed t₀.succ = 0 from rfl]
  iintro ⟨HΦ, ⟨%W, HO⟩, H0, H1, H2, H3, H4, H5, H6, H7⟩
  isplitl [HΦ]; · iexact HΦ
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  isplitl [H5]; · iexists _; isplitr; · (ipureintro; rfl)
                  iexact H5
  isplitl [H6]; · iexists _; isplitr; · (ipureintro; rfl)
                  iexact H6
  iexists _; isplitr; · (ipureintro; rfl)
  iexact H7

set_option maxRecDepth 8000 in
set_option maxHeartbeats 1600000 in
/-- The pipeline's hand-over opened into the body's starting context. -/
theorem pre_open (c : Dev nD) :
    bodyPre' m ρ val jk jr outv c ⊢ iprop(∃ K W f0 f1 g7, bodyPre m ρ val jk jr K c W f0 f1 g7) := by
  unfold bodyPre' Φ₀ Dat.owesAt Pipeline.owesWithin
  rw [start_eq, bigSepLR_fin27, show (dats m ρ val jk jr outv 0 c).owed t₀.castSucc = O₀ c from rfl, O₀_eq]
  iintro ⟨⟨⟨⟨%K, Hg⟩, HcB, HcR, #Hlev⟩, ⟨%f0, Hs0⟩, ⟨%f1, Hs1⟩⟩, ⟨%W, %hW, HO⟩,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩⟩
  rw [before_0] at hg0; rw [before_1] at hg1; rw [before_2] at hg2; rw [before_3] at hg3
  rw [before_4] at hg4; rw [before_5] at hg5; rw [before_6] at hg6
  subst hg0; subst hg1; subst hg2; subst hg3; subst hg4; subst hg5; subst hg6
  iexists K; iexists W; iexists f0; iexists f1; iexists g7
  rw [bodyPre_eq]
  simp only [bigSepLR_fin27]
  rw [bigSepLR_eq, bigSepLR_eq, toksLeft_eq]
  ihave Hg' := (Entails.of_eq (ghost_groups val jk jr K c)) $$ Hg
  icases Hg' with ⟨⟨#I0, #IS, #IV, #I1, #I2, #I3, #IP⟩, HaB, HaS, HaV, #R1, #R2, #R3, #RS, #RP, T1, T2, T3, TS, TP⟩
  ihave Hc0 := (scratch0_cut (F := F) c f0) $$ Hs0
  ihave Hc1 := (scratch1_cut (F := F) c f1) $$ Hs1
  isplitr; · iexact I0
  isplitr; · iexact IS
  isplitr; · iexact IV
  isplitr; · iexact I1
  isplitr; · iexact I2
  isplitr; · iexact I3
  isplitr; · iexact IP
  isplitr; · iexact R1
  isplitr; · iexact R2
  isplitr; · iexact R3
  isplitr; · iexact RS
  isplitr; · iexact RP
  isplitr; · iexact Hlev
  isplitl [HaB]; · iexact HaB
  isplitl [HaS]; · iexact HaS
  isplitl [HaV]; · iexact HaV
  isplitl [T1]; · iexact T1
  isplitl [T2]; · iexact T2
  isplitl [T3]; · iexact T3
  isplitl [TS TP]
  · isplitl [TS] <;> iassumption
  isplitl [HcB]; · iexact HcB
  isplitl [HcR]; · iexact HcR
  isplitl [Hc0]; · iexact Hc0
  isplitl [Hc1]; · iexact Hc1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HO

set_option maxRecDepth 8000 in
/-- The pipeline's body obligation on device `c`, from the body's run. -/
theorem body_obligation
    (hsound : ∀ (K : GSem nD τ sig → ℕ) (c : Dev nD) (Kt : PUnit → sProp 𝕄) (W : Waits sig Unit)
      (f0 : Buf (Elt F) ((c : Thread nD τ).loc cc0_scratch0)) (f1 : Buf (Elt F) ((c : Thread nD τ).loc cc0_scratch1))
      (g7 : (cc0_stg7_0 : Ref sig .tc).ty.Contents (Elt F)),
      iprop(bodyPre m ρ val jk jr K c W f0 f1 g7 ∗ (bodyPost m ρ outv c -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) Kt)
    (c : Dev nD) : BodyObligation (dats m ρ val jk jr outv 0 c) (defs₀ (F := F)) 𝒱₀ () Set.univ := fun t => by
  rw [fin_N t]
  rw [bigSep_W8, bigSep_W8]
  simp only [owns_whole_eq]
  show bodyPre' m ρ val jk jr outv c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) (fun _ => libPost m ρ val jk jr outv c)
  iintro H
  ihave H' := (pre_open m ρ val jk jr outv c) $$ H
  icases H' with ⟨%K, %W, %f0, %f1, %g7, Hpre⟩
  iapply (hsound K c (fun _ => libPost m ρ val jk jr outv c) W f0 f1 g7)
  isplitl [Hpre]; · iexact Hpre
  iintro Hp
  iapply (post_close m ρ val jk jr outv c)
  iexact Hp

/-- info: 'Cert.KernelIdeal.Mlp.body_obligation' depends on axioms: [propext, Classical.choice, Quot.sound] -/
#guard_msgs in #print axioms body_obligation

end Cert.KernelIdeal.Mlp

end
-- ==== Proof.Claims.lean ====
import proofs.«900991_g7700000000000992_dist_mlpseq_tp1d_rep_bs_b256_d256_h512_v7x_i4_bf16_1_alg».proof.Defs
import proofs.«900991_g7700000000000992_dist_mlpseq_tp1d_rep_bs_b256_d256_h512_v7x_i4_bf16_1_alg».proof.Proof.Vals
import proofs.«900991_g7700000000000992_dist_mlpseq_tp1d_rep_bs_b256_d256_h512_v7x_i4_bf16_1_alg».proof.Proof.FinalK
import proofs.«900991_g7700000000000992_dist_mlpseq_tp1d_rep_bs_b256_d256_h512_v7x_i4_bf16_1_alg».proof.Proof.BodyOblig
import proofs.«900991_g7700000000000992_dist_mlpseq_tp1d_rep_bs_b256_d256_h512_v7x_i4_bf16_1_alg».proof.Proof.RefSide
import proofs.«900991_g7700000000000992_dist_mlpseq_tp1d_rep_bs_b256_d256_h512_v7x_i4_bf16_1_alg».proof.Proof.RefVal
import proofs.«900991_g7700000000000992_dist_mlpseq_tp1d_rep_bs_b256_d256_h512_v7x_i4_bf16_1_alg».proof.Proof.Gen.KernelIdeal
import proofs.«900991_g7700000000000992_dist_mlpseq_tp1d_rep_bs_b256_d256_h512_v7x_i4_bf16_1_alg».proof.Proof.Gen.ReferenceIdeal
import proofs.«900991_g7700000000000992_dist_mlpseq_tp1d_rep_bs_b256_d256_h512_v7x_i4_bf16_1_alg».proof.Proof.Gen.Pre_finite_inputs_Kernel
import proofs.«900991_g7700000000000992_dist_mlpseq_tp1d_rep_bs_b256_d256_h512_v7x_i4_bf16_1_alg».proof.Proof.Gen.Pre_finite_inputs_ReferenceIdeal

/-!
# The claims about the idealized program and the reference

Given the symbolic run of one device's body from its starting context to its final context (the hypothesis
Sound), every device's body meets what the launch asks of it, so the program runs to the end on every
device with the argument arrays unchanged and each result array holding the value computed from the memory at
launch.  At the ideal values that value is the device's block of rows of the one-device reference's result:
the hidden axis of each of the three layers is cut over the four devices, the partial products are exchanged
block by block and added, and the sum equals the one-device product because sums of finitely many reals may be
regrouped and products distributed.
-/

noncomputable section

namespace Cert.Proof.Claims

open Idealize.ShloMosaic
open Idealize.ShloMosaic.TcCoe
open Cert.KernelIdeal Cert.KernelIdeal.Gen Cert.KernelIdeal.Mlp
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The body's run, at the values fixed from the memory at launch: from the body's starting context on device c,
    with the continuation owed the body's final context, the body runs to the continuation. -/
abbrev Sound (F : FTy → Type) [FloatOps F] : Prop :=
  ∀ (m : (ℓ : Loc nD τ sig) → Buf (Elt F) ℓ) (ρ : Dev nD → PrngReg)
    (K : GSem nD τ sig → ℕ) (c : Dev nD) (Kt : PUnit → sProp (MT nD τ sig Unit (Elt F) ℕ UU ℕ)) (W : Waits sig Unit)
    (f0 : Buf (Elt F) ((c : Thread nD τ).loc cc0_scratch0)) (f1 : Buf (Elt F) ((c : Thread nD τ).loc cc0_scratch1))
    (g7 : (cc0_stg7_0 : Ref sig .tc).ty.Contents (Elt F)),
    iprop(bodyPre m ρ (valF m ρ) jkF jrF K c W f0 f1 g7 ∗ (bodyPost m ρ (outF m ρ) c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) Kt

/-- The program's run at the values fixed from the memory at launch: every device's result array ends holding
    its computed result and its seven argument arrays are unchanged. -/
theorem run_of {F : FTy → Type} [FloatOps F] (h : Sound F) (m : (ℓ : Loc nD τ sig) → Buf (Elt F) ℓ)
    (ρ : Dev nD → PrngReg) :
    θ_run defs (onTc (τ := τ) (main (F := F))) ⟨m, fun _ => 0, ρ⟩ (fun r => ∀ c : Dev nD,
      r.2.mem ((c.tc : Thread nD τ).loc main_v1) = outF m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  kernel_run m ρ (valF m ρ) jkF jrF (outF m ρ) (fun c =>
    body_obligation m ρ (valF m ρ) jkF jrF (outF m ρ) (fun K c Kt W f0 f1 g7 => h m ρ K c Kt W f0 f1 g7) c)

/-- The idealized program runs to the end and leaves its argument arrays as they were. -/
theorem frame_KernelIdeal_of (h : Sound Ideal) : Cert.frame_KernelIdeal := fun m ρ _ =>
  (θ_run Cert.KernelIdeal.defs _ _).mono (fun _ hr c => (hr c).2) (run_of h m ρ)

/-- The one-device reference runs to the end and leaves its argument arrays as they were. -/
theorem frame_ReferenceIdeal' : Cert.frame_ReferenceIdeal := Cert.Proof.RefSide.frame_ref

/-- The idealization rewrote no operation. -/
theorem preserves : Cert.preserves_Kernel_KernelIdeal := trivial

/-- At the ideal values, from memories that agree, each device's result array ends holding its block of rows
    of the value the reference's result array ends holding, and both programs leave their arguments unchanged. -/
theorem algebraic_of (h : Sound Ideal) : Cert.algebraic_KernelIdeal_ReferenceIdeal := by
  intro m ρ m' ρ' hpre hagree
  refine ⟨Cert.ReferenceIdeal.Read.val_main_v11 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)), ?_, ?_⟩
  · exact (θ_run Cert.KernelIdeal.defs _ _).mono
      (fun _ hr c => ⟨(hr c).1.trans (outF_is_block m ρ m' hpre hagree c), (hr c).2⟩) (run_of h m ρ)
  · exact (θ_run Cert.ReferenceIdeal.defs _ _).mono
      (fun _ hr => ⟨(hr 0).1.trans (Cert.Proof.RefVal.ref_run_val (F := Ideal) _ _ _ _ _ _ _), (hr 0).2⟩)
      (Cert.ReferenceIdeal.Value.run (F := Ideal) m' ρ')

end Cert.Proof.Claims

end
-- ==== Proof.Bits.KValG.lean ====
import proofs.«900991_g7700000000000992_dist_mlpseq_tp1d_rep_bs_b256_d256_h512_v7x_i4_bf16_1_alg».proof.Proof.Gen.Kernel.Skeleton

/-!
# The values the program stores, as pure functions of the values it loads: for any float model

The program's body is a sequence of loads, pure computations and stores.  This file composes the pure
computations along the body's dataflow: for each store it gives the stored vector as a function of the vectors
the loads before it returned, and a closed form of each over a few shared building blocks (the shape casts, the
two matrix products, the clamp at zero, rounding and widening, the row slices).
-/

noncomputable section

namespace Cert.Kernel.KVal

open Cert.Kernel Cert.Kernel.Gen Idealize.ShloMosaic Idealize.SL.Sem

/-! ## The stored vectors, for any float model -/

section Generic

variable {F : FTy → Type} [FloatOps F]

/-- Layer 0: the vector stored for row block p (into slot 0 of that block's first-layer buffer), from the loaded
    input and the loaded first-layer weight slices. -/
def st0 (x : Vec F S256x256 .f32) (win : Vec F S256x512 .f32) (wout : Vec F S512x256 .f32) :
    Fin 4 → FVec F S1x1x1x64x256 .bf16
  | ⟨0, _⟩ => k0_pay56 x win wout
  | ⟨1, _⟩ => k0_pay57 (k0_pay53 x) (k0_pay54 win) (k0_pay55 wout)
  | ⟨2, _⟩ => k0_pay59 (k0_pay55 wout) (k0_pay58 (k0_pay53 x) (k0_pay54 win))
  | ⟨3, _⟩ => k0_pay60 (k0_pay53 x) (k0_pay54 win) (k0_pay55 wout)

/-- Layer 1: the vector stored for row block p (into slot 0 of that block's second-layer buffer), from the loaded
    second-layer weight slices and the four loaded first-layer slots of block p, in the order the body loads
    them: slot 0, slot 1, slot 3, slot 2.  The block only selects which copies of the computation are composed. -/
def st1 (win : Vec F S256x512 .f32) (wout : Vec F S512x256 .f32) (own s1 s3 s2 : Vec F S1x1x1x64x256 .bf16) :
    Fin 4 → FVec F S1x1x1x64x256 .bf16
  | ⟨0, _⟩ => k0_pay66 (k0_pay61 win) (k0_pay62 wout)
      (k0_pay65 (k0_pay61 win) (k0_pay64 (k0_pay61 win) (k0_pay63 win own) s1) s3) s2
  | ⟨1, _⟩ => k0_pay70 (k0_pay61 win) (k0_pay62 wout)
      (k0_pay69 (k0_pay61 win) (k0_pay68 (k0_pay61 win) (k0_pay67 (k0_pay61 win) own) s1) s3) s2
  | ⟨2, _⟩ => k0_pay74 (k0_pay61 win) (k0_pay62 wout)
      (k0_pay73 (k0_pay61 win) (k0_pay72 (k0_pay61 win) (k0_pay71 (k0_pay61 win) own) s1) s3) s2
  | ⟨3, _⟩ => k0_pay78 (k0_pay61 win) (k0_pay62 wout)
      (k0_pay77 (k0_pay61 win) (k0_pay76 (k0_pay61 win) (k0_pay75 (k0_pay61 win) own) s1) s3) s2

/-- The third-layer weight slices as the branches receive them, from the loaded arrays. -/
abbrev w2in (win2 : Vec F S256x512 .f32) : FVec F S256x512 .bf16 := k0_pay79 win2
abbrev w2out (wout2 : Vec F S512x256 .f32) : FVec F S512x256 .bf16 := k0_pay80 wout2

/-- Layer 2 on device k, first fold (over block k+2): the vector stored into slot 2 of the first exchange
    buffer, from the third-layer weight slices (as the branch receives them) and the four loaded
    second-layer slots 0, 1, 3, 2 of that block. -/
def rsc2 (k : Fin 4) (w : FVec F S256x512 .bf16) (v : FVec F S512x256 .bf16)
    (own s1 s3 s2 : Vec F S1x1x1x64x256 .bf16) : FVec F S1x1x64x256 .bf16 :=
  match k with
  | ⟨0, _⟩ => k0_pay3 v (k0_pay2 w (k0_pay1 w own s1) s3 s2)
  | ⟨1, _⟩ => k0_pay16 v (k0_pay15 w (k0_pay14 w own s1) s3 s2)
  | ⟨2, _⟩ => k0_pay29 v (k0_pay28 w (k0_pay27 w own s1) s3 s2)
  | ⟨3, _⟩ => k0_pay42 v (k0_pay41 w (k0_pay40 w own s1) s3 s2)

/-- Layer 2 on device k, second fold (over block k+1): the vector stored into slot 1 of the first exchange
    buffer. -/
def rsc1 (k : Fin 4) (w : FVec F S256x512 .bf16) (v : FVec F S512x256 .bf16)
    (own s1 s3 s2 : Vec F S1x1x1x64x256 .bf16) : FVec F S1x1x64x256 .bf16 :=
  match k with
  | ⟨0, _⟩ => k0_pay6 w v (k0_pay5 w (k0_pay4 w own) s1) s3 s2
  | ⟨1, _⟩ => k0_pay19 w v (k0_pay18 w (k0_pay17 w own) s1) s3 s2
  | ⟨2, _⟩ => k0_pay32 w v (k0_pay31 w (k0_pay30 w own) s1) s3 s2
  | ⟨3, _⟩ => k0_pay45 w v (k0_pay44 w (k0_pay43 w own) s1) s3 s2

/-- Layer 2 on device k, third fold (over block k+3): the vector stored into slot 3 of the first exchange
    buffer. -/
def rsc3 (k : Fin 4) (w : FVec F S256x512 .bf16) (v : FVec F S512x256 .bf16)
    (own s1 s3 s2 : Vec F S1x1x1x64x256 .bf16) : FVec F S1x1x64x256 .bf16 :=
  match k with
  | ⟨0, _⟩ => k0_pay9 w v (k0_pay8 w (k0_pay7 w own) s1 s3) s2
  | ⟨1, _⟩ => k0_pay22 w v (k0_pay21 w (k0_pay20 w own) s1 s3) s2
  | ⟨2, _⟩ => k0_pay35 w v (k0_pay34 w (k0_pay33 w own) s1 s3) s2
  | ⟨3, _⟩ => k0_pay48 w v (k0_pay47 w (k0_pay46 w own) s1 s3) s2

/-- Layer 2 on device k, last fold (over the device's own block k) and the final sum: the vector stored into
    the output, from the weight slices, the four loaded second-layer slots 0, 1, 3, 2 of block k and the three
    loaded slots 1, 3, 2 of the second exchange buffer, in the order the body loads them. -/
def outv (k : Fin 4) (w : FVec F S256x512 .bf16) (v : FVec F S512x256 .bf16)
    (own s1 s3 s2 : Vec F S1x1x1x64x256 .bf16) (r1 r3 r2 : Vec F S1x1x64x256 .bf16) : FVec F S64x256 .f32 :=
  match k with
  | ⟨0, _⟩ => k0_pay13 (k0_pay12 w v (k0_pay11 w (k0_pay10 w own s1) s3) s2 r1) r3 r2
  | ⟨1, _⟩ => k0_pay26 (k0_pay25 w v (k0_pay24 w (k0_pay23 w own s1) s3) s2 r1) r3 r2
  | ⟨2, _⟩ => k0_pay39 (k0_pay38 w v (k0_pay37 w (k0_pay36 w own s1) s3) s2 r1) r3 r2
  | ⟨3, _⟩ => k0_pay52 (k0_pay51 w v (k0_pay50 w (k0_pay49 w own s1) s3) s2 r1) r3 r2

/-! ### The building blocks the copies share -/

/-- A loaded slot as a 64 × 256 matrix. -/
def down5 (a : Vec F S1x1x1x64x256 .bf16) : FVec F S64x256 .bf16 :=
  shapeCast S64x256 a shapeCasts_S1x1x1x64x256_S64x256
def down4 (a : Vec F S1x1x64x256 .bf16) : FVec F S64x256 .bf16 :=
  shapeCast S64x256 a shapeCasts_S1x1x64x256_S64x256
/-- A 64 × 256 matrix in a slot's shape. -/
def up5 (a : FVec F S64x256 .bf16) : FVec F S1x1x1x64x256 .bf16 :=
  shapeCast S1x1x1x64x256 a shapeCasts_S64x256_S1x1x1x64x256
def up4 (a : FVec F S64x256 .bf16) : FVec F S1x1x64x256 .bf16 :=
  shapeCast S1x1x64x256 a shapeCasts_S64x256_S1x1x64x256

/-- A 64 × 256 matrix times a 256 × 512 weight slice, into the zero accumulator. -/
def dotIn (w : FVec F S256x512 .bf16) (a : FVec F S64x256 .bf16) : FVec F S64x512 .f32 :=
  matmul dot_S64x256_S256x512_S64x512_1_0_0_1_n_n none a w (constant S64x512 .f32 0x00000000#32)

/-- Clamp at zero, round, times a 512 × 256 weight slice into the zero accumulator. -/
def act (v : FVec F S512x256 .bf16) (pre : FVec F S64x512 .f32) : FVec F S64x256 .f32 :=
  matmul dot_S64x512_S512x256_S64x256_1_0_0_1_n_n none
    (truncf .bf16 (maximumf pre (broadcast S64x512 (Scalar.ofBits .f32 0x00000000#32))) bitsLt_bf16_f32) v
    (constant S64x256 .f32 0x00000000#32)

/-- Rounding a 64 × 256 result to the narrow format. -/
def rnd (a : FVec F S64x256 .f32) : FVec F S64x256 .bf16 := truncf .bf16 a bitsLt_bf16_f32
/-- Widening a 64 × 256 matrix back. -/
def wid (a : FVec F S64x256 .bf16) : FVec F S64x256 .f32 := extf .f32 a bitsLt_bf16_f32

/-- Row block p of the rounded input. -/
def rowsOf (x : FVec F S256x256 .bf16) : Fin 4 → FVec F S64x256 .bf16
  | ⟨0, _⟩ => extractStridedSlice S64x256 ![0, 0] x slices_S256x256_o0_0_S64x256
  | ⟨1, _⟩ => extractStridedSlice S64x256 ![64, 0] x slices_S256x256_o64_0_S64x256
  | ⟨2, _⟩ => extractStridedSlice S64x256 ![128, 0] x slices_S256x256_o128_0_S64x256
  | ⟨3, _⟩ => extractStridedSlice S64x256 ![192, 0] x slices_S256x256_o192_0_S64x256

/-- Layer 0 in the building blocks. -/
theorem st0_eq (x : Vec F S256x256 .f32) (win : Vec F S256x512 .f32) (wout : Vec F S512x256 .f32) (p : Fin 4) :
    st0 x win wout p
      = up5 (rnd (act (k0_pay55 wout) (dotIn (k0_pay54 win) (rowsOf (k0_pay53 x) p)))) := by
  match p with
  | ⟨0, _⟩ => rfl
  | ⟨1, _⟩ => rfl
  | ⟨2, _⟩ => rfl
  | ⟨3, _⟩ => rfl

/-- Layer 1 in the building blocks: the four products are added in the order slot 0, slot 1, slot 3, slot 2. -/
theorem st1_eq (win : Vec F S256x512 .f32) (wout : Vec F S512x256 .f32)
    (own s1 s3 s2 : Vec F S1x1x1x64x256 .bf16) (p : Fin 4) :
    st1 win wout own s1 s3 s2 p
      = up5 (rnd (act (k0_pay62 wout)
          (addf (addf (addf (dotIn (k0_pay61 win) (down5 own)) (dotIn (k0_pay61 win) (down5 s1)))
            (dotIn (k0_pay61 win) (down5 s3))) (dotIn (k0_pay61 win) (down5 s2))))) := by
  match p with
  | ⟨0, _⟩ => rfl
  | ⟨1, _⟩ => rfl
  | ⟨2, _⟩ => rfl
  | ⟨3, _⟩ => rfl

/-- The first fold of layer 2 in the building blocks. -/
theorem rsc2_eq (k : Fin 4) (w : FVec F S256x512 .bf16) (v : FVec F S512x256 .bf16)
    (own s1 s3 s2 : Vec F S1x1x1x64x256 .bf16) :
    rsc2 k w v own s1 s3 s2
      = up4 (rnd (act v (addf (addf (addf (dotIn w (down5 own)) (dotIn w (down5 s1)))
          (dotIn w (down5 s3))) (dotIn w (down5 s2))))) := by
  match k with
  | ⟨0, _⟩ => rfl
  | ⟨1, _⟩ => rfl
  | ⟨2, _⟩ => rfl
  | ⟨3, _⟩ => rfl

/-- The second fold of layer 2 in the building blocks. -/
theorem rsc1_eq (k : Fin 4) (w : FVec F S256x512 .bf16) (v : FVec F S512x256 .bf16)
    (own s1 s3 s2 : Vec F S1x1x1x64x256 .bf16) :
    rsc1 k w v own s1 s3 s2
      = up4 (rnd (act v (addf (addf (addf (dotIn w (down5 own)) (dotIn w (down5 s1)))
          (dotIn w (down5 s3))) (dotIn w (down5 s2))))) := by
  match k with
  | ⟨0, _⟩ => rfl
  | ⟨1, _⟩ => rfl
  | ⟨2, _⟩ => rfl
  | ⟨3, _⟩ => rfl

/-- The third fold of layer 2 in the building blocks. -/
theorem rsc3_eq (k : Fin 4) (w : FVec F S256x512 .bf16) (v : FVec F S512x256 .bf16)
    (own s1 s3 s2 : Vec F S1x1x1x64x256 .bf16) :
    rsc3 k w v own s1 s3 s2
      = up4 (rnd (act v (addf (addf (addf (dotIn w (down5 own)) (dotIn w (down5 s1)))
          (dotIn w (down5 s3))) (dotIn w (down5 s2))))) := by
  match k with
  | ⟨0, _⟩ => rfl
  | ⟨1, _⟩ => rfl
  | ⟨2, _⟩ => rfl
  | ⟨3, _⟩ => rfl

/-- The last fold of layer 2 and the final sum in the building blocks: the device's own share, then the
    exchanged shares in the order slot 1, slot 3, slot 2. -/
theorem outv_eq (k : Fin 4) (w : FVec F S256x512 .bf16) (v : FVec F S512x256 .bf16)
    (own s1 s3 s2 : Vec F S1x1x1x64x256 .bf16) (r1 r3 r2 : Vec F S1x1x64x256 .bf16) :
    outv k w v own s1 s3 s2 r1 r3 r2
      = addf (addf (addf
          (act v (addf (addf (addf (dotIn w (down5 own)) (dotIn w (down5 s1)))
            (dotIn w (down5 s3))) (dotIn w (down5 s2))))
          (wid (down4 r1))) (wid (down4 r3))) (wid (down4 r2)) := by
  match k with
  | ⟨0, _⟩ => rfl
  | ⟨1, _⟩ => rfl
  | ⟨2, _⟩ => rfl
  | ⟨3, _⟩ => rfl

end Generic

end Cert.Kernel.KVal

end
-- ==== Proof.Bits.Ring.lean ====
import proofs.«900991_g7700000000000992_dist_mlpseq_tp1d_rep_bs_b256_d256_h512_v7x_i4_bf16_1_alg».proof.Proof.Gen.Kernel

noncomputable section

namespace Cert.Kernel.Mlp

open Idealize.ShloMosaic
open Idealize.ShloMosaic.TcCoe
open Cert.Kernel Cert.Kernel.Gen

/-! The four devices form the cyclic group of order four: a device at distance `o` ahead, and at distance `o` behind. -/

/-- The device `o` places ahead of `c` on the ring of four. -/
def pe (c : Dev nD) (o : ℕ) : Dev nD := ⟨(c.val + o) % 4, Nat.mod_lt _ (by decide)⟩
/-- The device `o` places behind `c`. -/
def ps (c : Dev nD) (o : ℕ) : Dev nD := ⟨(c.val + (4 - o % 4)) % 4, Nat.mod_lt _ (by decide)⟩

theorem ps_pe1 (c : Dev nD) : ps (pe c 1) 1 = c := by revert c; decide
theorem ps_pe2 (c : Dev nD) : ps (pe c 2) 2 = c := by revert c; decide
theorem ps_pe3 (c : Dev nD) : ps (pe c 3) 3 = c := by revert c; decide
theorem pe_ps1 (c : Dev nD) : pe (ps c 1) 1 = c := by revert c; decide
theorem pe_ps2 (c : Dev nD) : pe (ps c 2) 2 = c := by revert c; decide
theorem pe_ps3 (c : Dev nD) : pe (ps c 3) 3 = c := by revert c; decide

/-! The printed device chains: every signal and every copy of the main trunk names the device `o` ahead, `o` the slot index. -/
theorem dev1_eq (c : Dev nD) : (⟨k0_dev1 c, k0_dev1_lt c⟩ : Dev nD) = pe c 1 := by revert c; decide +kernel
theorem dev2_eq (c : Dev nD) : (⟨k0_dev2 c, k0_dev2_lt c⟩ : Dev nD) = pe c 2 := by revert c; decide +kernel
theorem dev3_eq (c : Dev nD) : (⟨k0_dev3 c, k0_dev3_lt c⟩ : Dev nD) = pe c 3 := by revert c; decide +kernel
theorem dev4_eq (c : Dev nD) : (⟨k0_dev4 c, k0_dev4_lt c⟩ : Dev nD) = pe c 2 := by revert c; decide +kernel
theorem dev5_eq (c : Dev nD) : (⟨k0_dev5 c, k0_dev5_lt c⟩ : Dev nD) = pe c 1 := by revert c; decide +kernel
theorem dev6_eq (c : Dev nD) : (⟨k0_dev6 c, k0_dev6_lt c⟩ : Dev nD) = pe c 3 := by revert c; decide +kernel
theorem dev7_eq (c : Dev nD) : (⟨k0_dev7 c, k0_dev7_lt c⟩ : Dev nD) = pe c 2 := by revert c; decide +kernel
theorem dev8_eq (c : Dev nD) : (⟨k0_dev8 c, k0_dev8_lt c⟩ : Dev nD) = pe c 1 := by revert c; decide +kernel
theorem dev9_eq (c : Dev nD) : (⟨k0_dev9 c, k0_dev9_lt c⟩ : Dev nD) = pe c 3 := by revert c; decide +kernel
theorem dev10_eq (c : Dev nD) : (⟨k0_dev10 c, k0_dev10_lt c⟩ : Dev nD) = pe c 2 := by revert c; decide +kernel
theorem dev11_eq (c : Dev nD) : (⟨k0_dev11 c, k0_dev11_lt c⟩ : Dev nD) = pe c 1 := by revert c; decide +kernel
theorem dev12_eq (c : Dev nD) : (⟨k0_dev12 c, k0_dev12_lt c⟩ : Dev nD) = pe c 3 := by revert c; decide +kernel
theorem dev13_eq (c : Dev nD) : (⟨k0_dev13 c, k0_dev13_lt c⟩ : Dev nD) = pe c 2 := by revert c; decide +kernel
theorem dev14_eq (c : Dev nD) : (⟨k0_dev14 c, k0_dev14_lt c⟩ : Dev nD) = pe c 1 := by revert c; decide +kernel
theorem dev15_eq (c : Dev nD) : (⟨k0_dev15 c, k0_dev15_lt c⟩ : Dev nD) = pe c 3 := by revert c; decide +kernel
theorem dev16_eq (c : Dev nD) : (⟨k0_dev16 c, k0_dev16_lt c⟩ : Dev nD) = pe c 2 := by revert c; decide +kernel
theorem dev17_eq (c : Dev nD) : (⟨k0_dev17 c, k0_dev17_lt c⟩ : Dev nD) = pe c 1 := by revert c; decide +kernel
theorem dev18_eq (c : Dev nD) : (⟨k0_dev18 c, k0_dev18_lt c⟩ : Dev nD) = pe c 3 := by revert c; decide +kernel
theorem dev19_eq (c : Dev nD) : (⟨k0_dev19 c, k0_dev19_lt c⟩ : Dev nD) = pe c 2 := by revert c; decide +kernel
theorem dev20_eq (c : Dev nD) : (⟨k0_dev20 c, k0_dev20_lt c⟩ : Dev nD) = pe c 1 := by revert c; decide +kernel
theorem dev21_eq (c : Dev nD) : (⟨k0_dev21 c, k0_dev21_lt c⟩ : Dev nD) = pe c 3 := by revert c; decide +kernel
theorem dev22_eq (c : Dev nD) : (⟨k0_dev22 c, k0_dev22_lt c⟩ : Dev nD) = pe c 2 := by revert c; decide +kernel
theorem dev23_eq (c : Dev nD) : (⟨k0_dev23 c, k0_dev23_lt c⟩ : Dev nD) = pe c 1 := by revert c; decide +kernel
theorem dev24_eq (c : Dev nD) : (⟨k0_dev24 c, k0_dev24_lt c⟩ : Dev nD) = pe c 3 := by revert c; decide +kernel
theorem dev25_eq (c : Dev nD) : (⟨k0_dev25 c, k0_dev25_lt c⟩ : Dev nD) = pe c 2 := by revert c; decide +kernel
theorem dev26_eq (c : Dev nD) : (⟨k0_dev26 c, k0_dev26_lt c⟩ : Dev nD) = pe c 1 := by revert c; decide +kernel
theorem dev27_eq (c : Dev nD) : (⟨k0_dev27 c, k0_dev27_lt c⟩ : Dev nD) = pe c 3 := by revert c; decide +kernel

end Cert.Kernel.Mlp

end
-- ==== Proof.Bits.JoinG.lean ====
import proofs.«900991_g7700000000000992_dist_mlpseq_tp1d_rep_bs_b256_d256_h512_v7x_i4_bf16_1_alg».proof.Proof.Bits.KValG
import proofs.«900991_g7700000000000992_dist_mlpseq_tp1d_rep_bs_b256_d256_h512_v7x_i4_bf16_1_alg».proof.Proof.Bits.Ring

/-!
# The four devices together: for any float model

Each device stores, layer by layer, vectors computed from what it loaded; what it loads from a slot other than
its own is what the device that many places behind it on the ring of four stored.  This file composes the
per-store functions along that exchange into the value each device ends with.
-/

noncomputable section

namespace Cert.Kernel.Join

open Cert.Kernel Cert.Kernel.Gen Cert.Kernel.KVal Cert.Kernel.Mlp Idealize.ShloMosaic
  Idealize.SL.Sem

/-! ## The stored values of all devices, for any float model

The data are per-device arrays: X e is device e's input array, Wi l e and Wo l e its two weight slices of
layer l. -/

section Generic

variable {F : FTy → Type} [FloatOps F]
variable (X : Dev nD → Vec F S256x256 .f32) (Wi : Fin 3 → Dev nD → Vec F S256x512 .f32)
  (Wo : Fin 3 → Dev nD → Vec F S512x256 .f32)

/-- What device e stores for row block p in layer 0. -/
def V0 (e : Dev nD) (p : Fin 4) : FVec F S1x1x1x64x256 .bf16 := st0 (X e) (Wi 0 e) (Wo 0 e) p

/-- What device e stores for row block p in layer 1: its slots 0, 1, 3, 2 of that block hold the layer-0 vectors
    of the devices 0, 1, 3, 2 places behind it. -/
def V1 (e : Dev nD) (p : Fin 4) : FVec F S1x1x1x64x256 .bf16 :=
  st1 (Wi 1 e) (Wo 1 e) (V0 X Wi Wo e p) (V0 X Wi Wo (ps e 1) p) (V0 X Wi Wo (ps e 3) p) (V0 X Wi Wo (ps e 2) p) p

/-- What device e stores into slot 1 of the first exchange buffer: its layer-2 share for the block of the
    device one place ahead. -/
def V2_1 (e : Dev nD) : FVec F S1x1x64x256 .bf16 :=
  rsc1 e (w2in (Wi 2 e)) (w2out (Wo 2 e)) (V1 X Wi Wo e (pe e 1)) (V1 X Wi Wo (ps e 1) (pe e 1))
    (V1 X Wi Wo (ps e 3) (pe e 1)) (V1 X Wi Wo (ps e 2) (pe e 1))

/-- Into slot 2: its layer-2 share for the block of the device two places ahead. -/
def V2_2 (e : Dev nD) : FVec F S1x1x64x256 .bf16 :=
  rsc2 e (w2in (Wi 2 e)) (w2out (Wo 2 e)) (V1 X Wi Wo e (pe e 2)) (V1 X Wi Wo (ps e 1) (pe e 2))
    (V1 X Wi Wo (ps e 3) (pe e 2)) (V1 X Wi Wo (ps e 2) (pe e 2))

/-- Into slot 3: its layer-2 share for the block of the device three places ahead. -/
def V2_3 (e : Dev nD) : FVec F S1x1x64x256 .bf16 :=
  rsc3 e (w2in (Wi 2 e)) (w2out (Wo 2 e)) (V1 X Wi Wo e (pe e 3)) (V1 X Wi Wo (ps e 1) (pe e 3))
    (V1 X Wi Wo (ps e 3) (pe e 3)) (V1 X Wi Wo (ps e 2) (pe e 3))

/-- What device e stores into its result: its own layer-2 share for its own block, plus the shares for that
    block it received in slots 1, 3, 2 of the second exchange buffer, from the devices 1, 3, 2 places behind. -/
def OutV (e : Dev nD) : FVec F S64x256 .f32 :=
  outv e (w2in (Wi 2 e)) (w2out (Wo 2 e)) (V1 X Wi Wo e e) (V1 X Wi Wo (ps e 1) e) (V1 X Wi Wo (ps e 3) e)
    (V1 X Wi Wo (ps e 2) e) (V2_1 X Wi Wo (ps e 1)) (V2_3 X Wi Wo (ps e 3)) (V2_2 X Wi Wo (ps e 2))

end Generic

/-! ## On the ring of four, o places behind is subtraction -/

theorem ps_one (e : Fin 4) : ps e 1 = e - 1 := by revert e; decide
theorem ps_two (e : Fin 4) : ps e 2 = e - 2 := by revert e; decide
theorem ps_three (e : Fin 4) : ps e 3 = e - 3 := by revert e; decide
theorem pe_one (e : Fin 4) : pe e 1 = e + 1 := by revert e; decide
theorem pe_two (e : Fin 4) : pe e 2 = e + 2 := by revert e; decide
theorem pe_three (e : Fin 4) : pe e 3 = e + 3 := by revert e; decide

/-- Three per-device arrays as one family indexed by the layer. -/
def pack3 {α : Type} (a b c : Dev nD → α) : Fin 3 → Dev nD → α
  | ⟨0, _⟩ => a
  | ⟨1, _⟩ => b
  | ⟨2, _⟩ => c

end Cert.Kernel.Join

end
-- ==== Proof.Bits.Proto.lean ====
import proofs.«900991_g7700000000000992_dist_mlpseq_tp1d_rep_bs_b256_d256_h512_v7x_i4_bf16_1_alg».proof.Proof.Bits.Ring
import proofs.«900991_g7700000000000992_dist_mlpseq_tp1d_rep_bs_b256_d256_h512_v7x_i4_bf16_1_alg».proof.Proof.Gen.Kernel.Skeleton
import proofs.«900991_g7700000000000992_dist_mlpseq_tp1d_rep_bs_b256_d256_h512_v7x_i4_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds library's, duties named by a slot index -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells

Each device has the runtime's barrier semaphore and, per layer `l`, row block `p` and slot `o`, one send and one
receive DMA semaphore. -/

abbrev barS : Sem sig := (SemArray.scalar (sig.barrier 0 rfl) : Sems sig S_).sem

/-- Send semaphore `[l, p, o]`, spelt as the body slices it. -/
abbrev sndS (l p o : ℕ) (h : ∀ a, (![l, p, o] : Fin 3 → Nat) a + S1x1x1.size a ≤ S3x4x4.size a) : DmaSem sig :=
  ((cc0_scratch2.slice (Rect.unit (s := S3x4x4) ![l, p, o] S1x1x1.size h)).squeeze S_ squeezes_S1x1x1_S_).sem
/-- Receive semaphore `[l, p, o]`. -/
abbrev rcvS (l p o : ℕ) (h : ∀ a, (![l, p, o] : Fin 3 → Nat) a + S1x1x1.size a ≤ S3x4x4.size a) : DmaSem sig :=
  ((cc0_scratch3.slice (Rect.unit (s := S3x4x4) ![l, p, o] S1x1x1.size h)).squeeze S_ squeezes_S1x1x1_S_).sem

abbrev barCell (c : Dev nD) : GSem nD τ sig := ((c : Thread nD τ), .reg barS)

/-- Slot `[l, p, o]` of the exchange buffer: a 64 × 256 block. -/
abbrev slotM (l p o : ℕ) (h : ∀ a, (![l, p, o, 0, 0] : Fin 5 → Nat) a + S1x1x1x64x256.size a ≤ S2x4x4x64x256.size a) : Memref sig .tc .vmem S64x256 .bf16 :=
  ((Memref.whole cc0_scratch0).slice (Rect.unit (s := S2x4x4x64x256) ![l, p, o, 0, 0] S1x1x1x64x256.size h) (fun _ => rfl)).squeeze S64x256 squeezes_S1x1x1x64x256_S64x256
/-- Slot `[k, o]` of the reduce-scatter buffer. -/
abbrev rsM (k o : ℕ) (h : ∀ a, (![k, o, 0, 0] : Fin 4 → Nat) a + S1x1x64x256.size a ≤ S2x4x64x256.size a) : Memref sig .tc .vmem S64x256 .bf16 :=
  ((Memref.whole cc0_scratch1).slice (Rect.unit (s := S2x4x64x256) ![k, o, 0, 0] S1x1x64x256.size h) (fun _ => rfl)).squeeze S64x256 squeezes_S1x1x64x256_S64x256

example : (slotM 0 0 2 inb_S2x4x4x64x256_S1x1x1x64x256_0_0_2_0_0).view.WordExact := ((Memref.isWhole_whole cc0_scratch0).wordExact_slice rfl _ wordsbf16_S2x4x4x64x256_S1x1x1x64x256_0_0_2_0_0).reshape _ _

/-- The credit of one block's copy. -/
abbrev N : ℕ := (slotM 0 0 0 inb_S2x4x4x64x256_S1x1x1x64x256_0_0_0_0_0).view.dmaCredit

theorem inb5_of {l p o : ℕ} (hl : l < 2) (hp : p < 4) (ho : o < 4) :
    ∀ a, (![l, p, o, 0, 0] : Fin 5 → Nat) a + S1x1x1x64x256.size a ≤ S2x4x4x64x256.size a := by
  intro a; fin_cases a <;> simp [Shape.size] <;> omega
theorem inb4_of {k o : ℕ} (hk : k < 2) (ho : o < 4) :
    ∀ a, (![k, o, 0, 0] : Fin 4 → Nat) a + S1x1x64x256.size a ≤ S2x4x64x256.size a := by
  intro a; fin_cases a <;> simp [Shape.size] <;> omega
theorem inb3_of {l p o : ℕ} (hl : l < 3) (hp : p < 4) (ho : o < 4) :
    ∀ a, (![l, p, o] : Fin 3 → Nat) a + S1x1x1.size a ≤ S3x4x4.size a := by
  intro a; fin_cases a <;> simp [Shape.size] <;> omega

/-! ## Which cell a DMA semaphore is: the send array sits at 8 … 55, the receive array at 56 … 103, row-major in (layer, block, slot) -/

def sndKey (q : DmaSem sig) : Option (ℕ × ℕ × ℕ) :=
  if 8 ≤ q.val ∧ q.val < 56 then some ((q.val - 8) / 16, (q.val - 8) / 4 % 4, (q.val - 8) % 4) else none
def rcvKey (q : DmaSem sig) : Option (ℕ × ℕ × ℕ) :=
  if 56 ≤ q.val ∧ q.val < 104 then some ((q.val - 56) / 16, (q.val - 56) / 4 % 4, (q.val - 56) % 4) else none
/-- The copies the kernel makes: layers 0 and 1 every block to the three other slots, layer 2 the three reduce-scatter slots. -/
def usedKey (k : ℕ × ℕ × ℕ) : Bool := decide (k.2.2 ≠ 0) && (decide (k.1 < 2) || (decide (k.1 = 2) && decide (k.2.1 = 0)))

section Sched

variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))

/-- What the device `o` behind `c` (the same device as the one `4 - o` ahead) hands `c` with its entry signal: the nine
    blocks of its own buffers that `c` will write — slot `4 - o` of every exchange block and of the reduce-scatter landing row. -/
def barPay1 (c : Dev nD) : sProp 𝕄 :=
  iprop((∃ f, (slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} f)
      ∗ (∃ f, (slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} f)
      ∗ (∃ f, (slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} f)
      ∗ (∃ f, (slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} f)
      ∗ (∃ f, (slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} f)
      ∗ (∃ f, (slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} f)
      ∗ (∃ f, (slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} f)
      ∗ (∃ f, (slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} f)
      ∗ (∃ f, (rsM 1 3 inb_S2x4x64x256_S1x1x64x256_1_3_0_0).view.loc (pe c 3 : Thread nD τ) ↦[(rsM 1 3 inb_S2x4x64x256_S1x1x64x256_1_3_0_0).view.set]{fullShare} f))
def barPay2 (c : Dev nD) : sProp 𝕄 :=
  iprop((∃ f, (slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} f)
      ∗ (∃ f, (slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} f)
      ∗ (∃ f, (slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} f)
      ∗ (∃ f, (slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} f)
      ∗ (∃ f, (slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} f)
      ∗ (∃ f, (slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} f)
      ∗ (∃ f, (slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} f)
      ∗ (∃ f, (slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} f)
      ∗ (∃ f, (rsM 1 2 inb_S2x4x64x256_S1x1x64x256_1_2_0_0).view.loc (pe c 2 : Thread nD τ) ↦[(rsM 1 2 inb_S2x4x64x256_S1x1x64x256_1_2_0_0).view.set]{fullShare} f))
def barPay3 (c : Dev nD) : sProp 𝕄 :=
  iprop((∃ f, (slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} f)
      ∗ (∃ f, (slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} f)
      ∗ (∃ f, (slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} f)
      ∗ (∃ f, (slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} f)
      ∗ (∃ f, (slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} f)
      ∗ (∃ f, (slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} f)
      ∗ (∃ f, (slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} f)
      ∗ (∃ f, (slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} f)
      ∗ (∃ f, (rsM 1 1 inb_S2x4x64x256_S1x1x64x256_1_1_0_0).view.loc (pe c 1 : Thread nD τ) ↦[(rsM 1 1 inb_S2x4x64x256_S1x1x64x256_1_1_0_0).view.set]{fullShare} f))

/-- A landing hands the receiver the destination block holding the sender's value (written over fixed other contents:
    only the block's own elements are held). -/
def recvPay (c : Dev nD) : ℕ × ℕ × ℕ → sProp 𝕄
  | (0, 0, 1) => ((slotM 0 0 1 inb_S2x4x4x64x256_S1x1x1x64x256_0_0_1_0_0).view.loc (c : Thread nD τ) ↦[(slotM 0 0 1 inb_S2x4x4x64x256_S1x1x1x64x256_0_0_1_0_0).view.set]{fullShare} (slotM 0 0 1 inb_S2x4x4x64x256_S1x1x1x64x256_0_0_1_0_0).view.write (Elt F) (jk c) (val (ps c 1) 0 0) Finset.univ : sProp 𝕄)
  | (0, 0, 2) => ((slotM 0 0 2 inb_S2x4x4x64x256_S1x1x1x64x256_0_0_2_0_0).view.loc (c : Thread nD τ) ↦[(slotM 0 0 2 inb_S2x4x4x64x256_S1x1x1x64x256_0_0_2_0_0).view.set]{fullShare} (slotM 0 0 2 inb_S2x4x4x64x256_S1x1x1x64x256_0_0_2_0_0).view.write (Elt F) (jk c) (val (ps c 2) 0 0) Finset.univ : sProp 𝕄)
  | (0, 0, 3) => ((slotM 0 0 3 inb_S2x4x4x64x256_S1x1x1x64x256_0_0_3_0_0).view.loc (c : Thread nD τ) ↦[(slotM 0 0 3 inb_S2x4x4x64x256_S1x1x1x64x256_0_0_3_0_0).view.set]{fullShare} (slotM 0 0 3 inb_S2x4x4x64x256_S1x1x1x64x256_0_0_3_0_0).view.write (Elt F) (jk c) (val (ps c 3) 0 0) Finset.univ : sProp 𝕄)
  | (0, 1, 1) => ((slotM 0 1 1 inb_S2x4x4x64x256_S1x1x1x64x256_0_1_1_0_0).view.loc (c : Thread nD τ) ↦[(slotM 0 1 1 inb_S2x4x4x64x256_S1x1x1x64x256_0_1_1_0_0).view.set]{fullShare} (slotM 0 1 1 inb_S2x4x4x64x256_S1x1x1x64x256_0_1_1_0_0).view.write (Elt F) (jk c) (val (ps c 1) 0 1) Finset.univ : sProp 𝕄)
  | (0, 1, 2) => ((slotM 0 1 2 inb_S2x4x4x64x256_S1x1x1x64x256_0_1_2_0_0).view.loc (c : Thread nD τ) ↦[(slotM 0 1 2 inb_S2x4x4x64x256_S1x1x1x64x256_0_1_2_0_0).view.set]{fullShare} (slotM 0 1 2 inb_S2x4x4x64x256_S1x1x1x64x256_0_1_2_0_0).view.write (Elt F) (jk c) (val (ps c 2) 0 1) Finset.univ : sProp 𝕄)
  | (0, 1, 3) => ((slotM 0 1 3 inb_S2x4x4x64x256_S1x1x1x64x256_0_1_3_0_0).view.loc (c : Thread nD τ) ↦[(slotM 0 1 3 inb_S2x4x4x64x256_S1x1x1x64x256_0_1_3_0_0).view.set]{fullShare} (slotM 0 1 3 inb_S2x4x4x64x256_S1x1x1x64x256_0_1_3_0_0).view.write (Elt F) (jk c) (val (ps c 3) 0 1) Finset.univ : sProp 𝕄)
  | (0, 2, 1) => ((slotM 0 2 1 inb_S2x4x4x64x256_S1x1x1x64x256_0_2_1_0_0).view.loc (c : Thread nD τ) ↦[(slotM 0 2 1 inb_S2x4x4x64x256_S1x1x1x64x256_0_2_1_0_0).view.set]{fullShare} (slotM 0 2 1 inb_S2x4x4x64x256_S1x1x1x64x256_0_2_1_0_0).view.write (Elt F) (jk c) (val (ps c 1) 0 2) Finset.univ : sProp 𝕄)
  | (0, 2, 2) => ((slotM 0 2 2 inb_S2x4x4x64x256_S1x1x1x64x256_0_2_2_0_0).view.loc (c : Thread nD τ) ↦[(slotM 0 2 2 inb_S2x4x4x64x256_S1x1x1x64x256_0_2_2_0_0).view.set]{fullShare} (slotM 0 2 2 inb_S2x4x4x64x256_S1x1x1x64x256_0_2_2_0_0).view.write (Elt F) (jk c) (val (ps c 2) 0 2) Finset.univ : sProp 𝕄)
  | (0, 2, 3) => ((slotM 0 2 3 inb_S2x4x4x64x256_S1x1x1x64x256_0_2_3_0_0).view.loc (c : Thread nD τ) ↦[(slotM 0 2 3 inb_S2x4x4x64x256_S1x1x1x64x256_0_2_3_0_0).view.set]{fullShare} (slotM 0 2 3 inb_S2x4x4x64x256_S1x1x1x64x256_0_2_3_0_0).view.write (Elt F) (jk c) (val (ps c 3) 0 2) Finset.univ : sProp 𝕄)
  | (0, 3, 1) => ((slotM 0 3 1 inb_S2x4x4x64x256_S1x1x1x64x256_0_3_1_0_0).view.loc (c : Thread nD τ) ↦[(slotM 0 3 1 inb_S2x4x4x64x256_S1x1x1x64x256_0_3_1_0_0).view.set]{fullShare} (slotM 0 3 1 inb_S2x4x4x64x256_S1x1x1x64x256_0_3_1_0_0).view.write (Elt F) (jk c) (val (ps c 1) 0 3) Finset.univ : sProp 𝕄)
  | (0, 3, 2) => ((slotM 0 3 2 inb_S2x4x4x64x256_S1x1x1x64x256_0_3_2_0_0).view.loc (c : Thread nD τ) ↦[(slotM 0 3 2 inb_S2x4x4x64x256_S1x1x1x64x256_0_3_2_0_0).view.set]{fullShare} (slotM 0 3 2 inb_S2x4x4x64x256_S1x1x1x64x256_0_3_2_0_0).view.write (Elt F) (jk c) (val (ps c 2) 0 3) Finset.univ : sProp 𝕄)
  | (0, 3, 3) => ((slotM 0 3 3 inb_S2x4x4x64x256_S1x1x1x64x256_0_3_3_0_0).view.loc (c : Thread nD τ) ↦[(slotM 0 3 3 inb_S2x4x4x64x256_S1x1x1x64x256_0_3_3_0_0).view.set]{fullShare} (slotM 0 3 3 inb_S2x4x4x64x256_S1x1x1x64x256_0_3_3_0_0).view.write (Elt F) (jk c) (val (ps c 3) 0 3) Finset.univ : sProp 𝕄)
  | (1, 0, 1) => ((slotM 1 0 1 inb_S2x4x4x64x256_S1x1x1x64x256_1_0_1_0_0).view.loc (c : Thread nD τ) ↦[(slotM 1 0 1 inb_S2x4x4x64x256_S1x1x1x64x256_1_0_1_0_0).view.set]{fullShare} (slotM 1 0 1 inb_S2x4x4x64x256_S1x1x1x64x256_1_0_1_0_0).view.write (Elt F) (jk c) (val (ps c 1) 1 0) Finset.univ : sProp 𝕄)
  | (1, 0, 2) => ((slotM 1 0 2 inb_S2x4x4x64x256_S1x1x1x64x256_1_0_2_0_0).view.loc (c : Thread nD τ) ↦[(slotM 1 0 2 inb_S2x4x4x64x256_S1x1x1x64x256_1_0_2_0_0).view.set]{fullShare} (slotM 1 0 2 inb_S2x4x4x64x256_S1x1x1x64x256_1_0_2_0_0).view.write (Elt F) (jk c) (val (ps c 2) 1 0) Finset.univ : sProp 𝕄)
  | (1, 0, 3) => ((slotM 1 0 3 inb_S2x4x4x64x256_S1x1x1x64x256_1_0_3_0_0).view.loc (c : Thread nD τ) ↦[(slotM 1 0 3 inb_S2x4x4x64x256_S1x1x1x64x256_1_0_3_0_0).view.set]{fullShare} (slotM 1 0 3 inb_S2x4x4x64x256_S1x1x1x64x256_1_0_3_0_0).view.write (Elt F) (jk c) (val (ps c 3) 1 0) Finset.univ : sProp 𝕄)
  | (1, 1, 1) => ((slotM 1 1 1 inb_S2x4x4x64x256_S1x1x1x64x256_1_1_1_0_0).view.loc (c : Thread nD τ) ↦[(slotM 1 1 1 inb_S2x4x4x64x256_S1x1x1x64x256_1_1_1_0_0).view.set]{fullShare} (slotM 1 1 1 inb_S2x4x4x64x256_S1x1x1x64x256_1_1_1_0_0).view.write (Elt F) (jk c) (val (ps c 1) 1 1) Finset.univ : sProp 𝕄)
  | (1, 1, 2) => ((slotM 1 1 2 inb_S2x4x4x64x256_S1x1x1x64x256_1_1_2_0_0).view.loc (c : Thread nD τ) ↦[(slotM 1 1 2 inb_S2x4x4x64x256_S1x1x1x64x256_1_1_2_0_0).view.set]{fullShare} (slotM 1 1 2 inb_S2x4x4x64x256_S1x1x1x64x256_1_1_2_0_0).view.write (Elt F) (jk c) (val (ps c 2) 1 1) Finset.univ : sProp 𝕄)
  | (1, 1, 3) => ((slotM 1 1 3 inb_S2x4x4x64x256_S1x1x1x64x256_1_1_3_0_0).view.loc (c : Thread nD τ) ↦[(slotM 1 1 3 inb_S2x4x4x64x256_S1x1x1x64x256_1_1_3_0_0).view.set]{fullShare} (slotM 1 1 3 inb_S2x4x4x64x256_S1x1x1x64x256_1_1_3_0_0).view.write (Elt F) (jk c) (val (ps c 3) 1 1) Finset.univ : sProp 𝕄)
  | (1, 2, 1) => ((slotM 1 2 1 inb_S2x4x4x64x256_S1x1x1x64x256_1_2_1_0_0).view.loc (c : Thread nD τ) ↦[(slotM 1 2 1 inb_S2x4x4x64x256_S1x1x1x64x256_1_2_1_0_0).view.set]{fullShare} (slotM 1 2 1 inb_S2x4x4x64x256_S1x1x1x64x256_1_2_1_0_0).view.write (Elt F) (jk c) (val (ps c 1) 1 2) Finset.univ : sProp 𝕄)
  | (1, 2, 2) => ((slotM 1 2 2 inb_S2x4x4x64x256_S1x1x1x64x256_1_2_2_0_0).view.loc (c : Thread nD τ) ↦[(slotM 1 2 2 inb_S2x4x4x64x256_S1x1x1x64x256_1_2_2_0_0).view.set]{fullShare} (slotM 1 2 2 inb_S2x4x4x64x256_S1x1x1x64x256_1_2_2_0_0).view.write (Elt F) (jk c) (val (ps c 2) 1 2) Finset.univ : sProp 𝕄)
  | (1, 2, 3) => ((slotM 1 2 3 inb_S2x4x4x64x256_S1x1x1x64x256_1_2_3_0_0).view.loc (c : Thread nD τ) ↦[(slotM 1 2 3 inb_S2x4x4x64x256_S1x1x1x64x256_1_2_3_0_0).view.set]{fullShare} (slotM 1 2 3 inb_S2x4x4x64x256_S1x1x1x64x256_1_2_3_0_0).view.write (Elt F) (jk c) (val (ps c 3) 1 2) Finset.univ : sProp 𝕄)
  | (1, 3, 1) => ((slotM 1 3 1 inb_S2x4x4x64x256_S1x1x1x64x256_1_3_1_0_0).view.loc (c : Thread nD τ) ↦[(slotM 1 3 1 inb_S2x4x4x64x256_S1x1x1x64x256_1_3_1_0_0).view.set]{fullShare} (slotM 1 3 1 inb_S2x4x4x64x256_S1x1x1x64x256_1_3_1_0_0).view.write (Elt F) (jk c) (val (ps c 1) 1 3) Finset.univ : sProp 𝕄)
  | (1, 3, 2) => ((slotM 1 3 2 inb_S2x4x4x64x256_S1x1x1x64x256_1_3_2_0_0).view.loc (c : Thread nD τ) ↦[(slotM 1 3 2 inb_S2x4x4x64x256_S1x1x1x64x256_1_3_2_0_0).view.set]{fullShare} (slotM 1 3 2 inb_S2x4x4x64x256_S1x1x1x64x256_1_3_2_0_0).view.write (Elt F) (jk c) (val (ps c 2) 1 3) Finset.univ : sProp 𝕄)
  | (1, 3, 3) => ((slotM 1 3 3 inb_S2x4x4x64x256_S1x1x1x64x256_1_3_3_0_0).view.loc (c : Thread nD τ) ↦[(slotM 1 3 3 inb_S2x4x4x64x256_S1x1x1x64x256_1_3_3_0_0).view.set]{fullShare} (slotM 1 3 3 inb_S2x4x4x64x256_S1x1x1x64x256_1_3_3_0_0).view.write (Elt F) (jk c) (val (ps c 3) 1 3) Finset.univ : sProp 𝕄)
  | (2, 0, 1) => ((rsM 1 1 inb_S2x4x64x256_S1x1x64x256_1_1_0_0).view.loc (c : Thread nD τ) ↦[(rsM 1 1 inb_S2x4x64x256_S1x1x64x256_1_1_0_0).view.set]{fullShare} (rsM 1 1 inb_S2x4x64x256_S1x1x64x256_1_1_0_0).view.write (Elt F) (jr c) (val (ps c 1) 2 1) Finset.univ : sProp 𝕄)
  | (2, 0, 2) => ((rsM 1 2 inb_S2x4x64x256_S1x1x64x256_1_2_0_0).view.loc (c : Thread nD τ) ↦[(rsM 1 2 inb_S2x4x64x256_S1x1x64x256_1_2_0_0).view.set]{fullShare} (rsM 1 2 inb_S2x4x64x256_S1x1x64x256_1_2_0_0).view.write (Elt F) (jr c) (val (ps c 2) 2 2) Finset.univ : sProp 𝕄)
  | (2, 0, 3) => ((rsM 1 3 inb_S2x4x64x256_S1x1x64x256_1_3_0_0).view.loc (c : Thread nD τ) ↦[(rsM 1 3 inb_S2x4x64x256_S1x1x64x256_1_3_0_0).view.set]{fullShare} (rsM 1 3 inb_S2x4x64x256_S1x1x64x256_1_3_0_0).view.write (Elt F) (jr c) (val (ps c 3) 2 3) Finset.univ : sProp 𝕄)
  | _ => iprop(emp)

/-- A departure hands the sender back the share of the source block it lent. -/
def sendPay (c : Dev nD) : ℕ × ℕ × ℕ → sProp 𝕄
  | (0, 0, 1) => ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} (slotM 0 0 0 inb_S2x4x4x64x256_S1x1x1x64x256_0_0_0_0_0).view.write (Elt F) (jk c) (val c 0 0) Finset.univ : sProp 𝕄)
  | (0, 0, 2) => ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} (slotM 0 0 0 inb_S2x4x4x64x256_S1x1x1x64x256_0_0_0_0_0).view.write (Elt F) (jk c) (val c 0 0) Finset.univ : sProp 𝕄)
  | (0, 0, 3) => ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} (slotM 0 0 0 inb_S2x4x4x64x256_S1x1x1x64x256_0_0_0_0_0).view.write (Elt F) (jk c) (val c 0 0) Finset.univ : sProp 𝕄)
  | (0, 1, 1) => ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} (slotM 0 1 0 inb_S2x4x4x64x256_S1x1x1x64x256_0_1_0_0_0).view.write (Elt F) (jk c) (val c 0 1) Finset.univ : sProp 𝕄)
  | (0, 1, 2) => ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} (slotM 0 1 0 inb_S2x4x4x64x256_S1x1x1x64x256_0_1_0_0_0).view.write (Elt F) (jk c) (val c 0 1) Finset.univ : sProp 𝕄)
  | (0, 1, 3) => ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} (slotM 0 1 0 inb_S2x4x4x64x256_S1x1x1x64x256_0_1_0_0_0).view.write (Elt F) (jk c) (val c 0 1) Finset.univ : sProp 𝕄)
  | (0, 2, 1) => ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} (slotM 0 2 0 inb_S2x4x4x64x256_S1x1x1x64x256_0_2_0_0_0).view.write (Elt F) (jk c) (val c 0 2) Finset.univ : sProp 𝕄)
  | (0, 2, 2) => ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} (slotM 0 2 0 inb_S2x4x4x64x256_S1x1x1x64x256_0_2_0_0_0).view.write (Elt F) (jk c) (val c 0 2) Finset.univ : sProp 𝕄)
  | (0, 2, 3) => ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} (slotM 0 2 0 inb_S2x4x4x64x256_S1x1x1x64x256_0_2_0_0_0).view.write (Elt F) (jk c) (val c 0 2) Finset.univ : sProp 𝕄)
  | (0, 3, 1) => ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} (slotM 0 3 0 inb_S2x4x4x64x256_S1x1x1x64x256_0_3_0_0_0).view.write (Elt F) (jk c) (val c 0 3) Finset.univ : sProp 𝕄)
  | (0, 3, 2) => ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} (slotM 0 3 0 inb_S2x4x4x64x256_S1x1x1x64x256_0_3_0_0_0).view.write (Elt F) (jk c) (val c 0 3) Finset.univ : sProp 𝕄)
  | (0, 3, 3) => ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} (slotM 0 3 0 inb_S2x4x4x64x256_S1x1x1x64x256_0_3_0_0_0).view.write (Elt F) (jk c) (val c 0 3) Finset.univ : sProp 𝕄)
  | (1, 0, 1) => ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} (slotM 1 0 0 inb_S2x4x4x64x256_S1x1x1x64x256_1_0_0_0_0).view.write (Elt F) (jk c) (val c 1 0) Finset.univ : sProp 𝕄)
  | (1, 0, 2) => ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} (slotM 1 0 0 inb_S2x4x4x64x256_S1x1x1x64x256_1_0_0_0_0).view.write (Elt F) (jk c) (val c 1 0) Finset.univ : sProp 𝕄)
  | (1, 0, 3) => ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} (slotM 1 0 0 inb_S2x4x4x64x256_S1x1x1x64x256_1_0_0_0_0).view.write (Elt F) (jk c) (val c 1 0) Finset.univ : sProp 𝕄)
  | (1, 1, 1) => ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} (slotM 1 1 0 inb_S2x4x4x64x256_S1x1x1x64x256_1_1_0_0_0).view.write (Elt F) (jk c) (val c 1 1) Finset.univ : sProp 𝕄)
  | (1, 1, 2) => ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} (slotM 1 1 0 inb_S2x4x4x64x256_S1x1x1x64x256_1_1_0_0_0).view.write (Elt F) (jk c) (val c 1 1) Finset.univ : sProp 𝕄)
  | (1, 1, 3) => ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} (slotM 1 1 0 inb_S2x4x4x64x256_S1x1x1x64x256_1_1_0_0_0).view.write (Elt F) (jk c) (val c 1 1) Finset.univ : sProp 𝕄)
  | (1, 2, 1) => ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} (slotM 1 2 0 inb_S2x4x4x64x256_S1x1x1x64x256_1_2_0_0_0).view.write (Elt F) (jk c) (val c 1 2) Finset.univ : sProp 𝕄)
  | (1, 2, 2) => ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} (slotM 1 2 0 inb_S2x4x4x64x256_S1x1x1x64x256_1_2_0_0_0).view.write (Elt F) (jk c) (val c 1 2) Finset.univ : sProp 𝕄)
  | (1, 2, 3) => ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} (slotM 1 2 0 inb_S2x4x4x64x256_S1x1x1x64x256_1_2_0_0_0).view.write (Elt F) (jk c) (val c 1 2) Finset.univ : sProp 𝕄)
  | (1, 3, 1) => ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} (slotM 1 3 0 inb_S2x4x4x64x256_S1x1x1x64x256_1_3_0_0_0).view.write (Elt F) (jk c) (val c 1 3) Finset.univ : sProp 𝕄)
  | (1, 3, 2) => ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} (slotM 1 3 0 inb_S2x4x4x64x256_S1x1x1x64x256_1_3_0_0_0).view.write (Elt F) (jk c) (val c 1 3) Finset.univ : sProp 𝕄)
  | (1, 3, 3) => ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} (slotM 1 3 0 inb_S2x4x4x64x256_S1x1x1x64x256_1_3_0_0_0).view.write (Elt F) (jk c) (val c 1 3) Finset.univ : sProp 𝕄)
  | (2, 0, 1) => ((rsM 0 1 inb_S2x4x64x256_S1x1x64x256_0_1_0_0).view.loc (c : Thread nD τ) ↦[(rsM 0 1 inb_S2x4x64x256_S1x1x64x256_0_1_0_0).view.set]{fullShare} (rsM 0 1 inb_S2x4x64x256_S1x1x64x256_0_1_0_0).view.write (Elt F) (jr c) (val c 2 1) Finset.univ : sProp 𝕄)
  | (2, 0, 2) => ((rsM 0 2 inb_S2x4x64x256_S1x1x64x256_0_2_0_0).view.loc (c : Thread nD τ) ↦[(rsM 0 2 inb_S2x4x64x256_S1x1x64x256_0_2_0_0).view.set]{fullShare} (rsM 0 2 inb_S2x4x64x256_S1x1x64x256_0_2_0_0).view.write (Elt F) (jr c) (val c 2 2) Finset.univ : sProp 𝕄)
  | (2, 0, 3) => ((rsM 0 3 inb_S2x4x64x256_S1x1x64x256_0_3_0_0).view.loc (c : Thread nD τ) ↦[(rsM 0 3 inb_S2x4x64x256_S1x1x64x256_0_3_0_0).view.set]{fullShare} (rsM 0 3 inb_S2x4x64x256_S1x1x64x256_0_3_0_0).view.write (Elt F) (jr c) (val c 2 3) Finset.univ : sProp 𝕄)
  | _ => iprop(emp)

/-- One round for every cell. The barrier cell of a device has three unit duties, `o = 1, 2, 3`, paid by the device `o` behind;
    a used send or receive cell one duty, `0`, of one block's credit. -/
def Rd : Rounds.Schedule (GSem nD τ sig) (Fin 4) 𝕄 where
  duties g r :=
    if r = 0 ∧ g.1.2 = .tc then
      match g.2 with
      | .reg s => if s = barS then {1, 2, 3} else ∅
      | .dma q => match sndKey q, rcvKey q with
        | some k, _ => if usedKey k then {0} else ∅
        | none, some k => if usedKey k then {0} else ∅
        | none, none => ∅
    else ∅
  unitless _ := False
  amount g _ _ := match g.2 with | .reg _ => 1 | .dma _ => N
  payload g _ d :=
    match g.2 with
    | .reg s => if s = barS then (if d = 1 then barPay1 (F := F) g.1.1 else if d = 2 then barPay2 (F := F) g.1.1 else if d = 3 then barPay3 (F := F) g.1.1 else iprop(emp)) else iprop(emp)
    | .dma q => match sndKey q, rcvKey q with
      | some k, _ => sendPay val jk jr g.1.1 k
      | none, some k => recvPay val jk jr g.1.1 k
      | none, none => iprop(emp)
  amount_pos g _ _ _ := by
    cases g.2 with
    | reg _ => exact Nat.one_pos
    | dma _ => exact View.dmaCredit_pos _ (by decide)

end Sched

end Cert.Kernel.Mlp

end
-- ==== Proof.Bits.Tables.lean ====
import proofs.«900991_g7700000000000992_dist_mlpseq_tp1d_rep_bs_b256_d256_h512_v7x_i4_bf16_1_alg».proof.Proof.Bits.Proto

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))

/-! The schedule's tables, cell by cell: which duties, how many units, what each hands over. Every entry is read off the
    definition by evaluation, the semaphore of a literal cell being a literal number. -/

theorem duties_bar (c : Dev nD) : (Rd val jk jr).duties (barCell c) 0 = {1, 2, 3} := rfl
theorem amount_bar (c : Dev nD) (d : Fin 4) : (Rd val jk jr).amount (barCell c) 0 d = 1 := rfl
theorem expect_bar (c : Dev nD) : (Rd val jk jr).expect (barCell c) 0 = 3 := rfl
theorem payload_bar1 (c : Dev nD) : (Rd val jk jr).payload (barCell c) 0 1 = (iprop((∃ f, (slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} f)
      ∗ (∃ f, (slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} f)
      ∗ (∃ f, (slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} f)
      ∗ (∃ f, (slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} f)
      ∗ (∃ f, (slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} f)
      ∗ (∃ f, (slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} f)
      ∗ (∃ f, (slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} f)
      ∗ (∃ f, (slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} f)
      ∗ (∃ f, (rsM 1 3 inb_S2x4x64x256_S1x1x64x256_1_3_0_0).view.loc (pe c 3 : Thread nD τ) ↦[(rsM 1 3 inb_S2x4x64x256_S1x1x64x256_1_3_0_0).view.set]{fullShare} f)) : sProp 𝕄) := rfl
theorem payload_bar2 (c : Dev nD) : (Rd val jk jr).payload (barCell c) 0 2 = (iprop((∃ f, (slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} f)
      ∗ (∃ f, (slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} f)
      ∗ (∃ f, (slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} f)
      ∗ (∃ f, (slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} f)
      ∗ (∃ f, (slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} f)
      ∗ (∃ f, (slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} f)
      ∗ (∃ f, (slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} f)
      ∗ (∃ f, (slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} f)
      ∗ (∃ f, (rsM 1 2 inb_S2x4x64x256_S1x1x64x256_1_2_0_0).view.loc (pe c 2 : Thread nD τ) ↦[(rsM 1 2 inb_S2x4x64x256_S1x1x64x256_1_2_0_0).view.set]{fullShare} f)) : sProp 𝕄) := rfl
theorem payload_bar3 (c : Dev nD) : (Rd val jk jr).payload (barCell c) 0 3 = (iprop((∃ f, (slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} f)
      ∗ (∃ f, (slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} f)
      ∗ (∃ f, (slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} f)
      ∗ (∃ f, (slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} f)
      ∗ (∃ f, (slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} f)
      ∗ (∃ f, (slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} f)
      ∗ (∃ f, (slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} f)
      ∗ (∃ f, (slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} f)
      ∗ (∃ f, (rsM 1 1 inb_S2x4x64x256_S1x1x64x256_1_1_0_0).view.loc (pe c 1 : Thread nD τ) ↦[(rsM 1 1 inb_S2x4x64x256_S1x1x64x256_1_1_0_0).view.set]{fullShare} f)) : sProp 𝕄) := rfl
theorem pe_pe_1_3 (c : Dev nD) : pe (pe c 1) 3 = c := by revert c; decide
theorem pe_pe_2_2 (c : Dev nD) : pe (pe c 2) 2 = c := by revert c; decide
theorem pe_pe_3_1 (c : Dev nD) : pe (pe c 3) 1 = c := by revert c; decide
/-- The same entries as the payer reads them: paying duty `o` of the barrier cell `o` ahead hands over the payer's own blocks. -/
theorem payload_pay1 (c : Dev nD) : (Rd val jk jr).payload (barCell (pe c 1)) 0 1 = (iprop((∃ f, (slotM 0 0 3 inb_S2x4x4x64x256_S1x1x1x64x256_0_0_3_0_0).view.loc (c : Thread nD τ) ↦[(slotM 0 0 3 inb_S2x4x4x64x256_S1x1x1x64x256_0_0_3_0_0).view.set]{fullShare} f)
      ∗ (∃ f, (slotM 0 1 3 inb_S2x4x4x64x256_S1x1x1x64x256_0_1_3_0_0).view.loc (c : Thread nD τ) ↦[(slotM 0 1 3 inb_S2x4x4x64x256_S1x1x1x64x256_0_1_3_0_0).view.set]{fullShare} f)
      ∗ (∃ f, (slotM 0 2 3 inb_S2x4x4x64x256_S1x1x1x64x256_0_2_3_0_0).view.loc (c : Thread nD τ) ↦[(slotM 0 2 3 inb_S2x4x4x64x256_S1x1x1x64x256_0_2_3_0_0).view.set]{fullShare} f)
      ∗ (∃ f, (slotM 0 3 3 inb_S2x4x4x64x256_S1x1x1x64x256_0_3_3_0_0).view.loc (c : Thread nD τ) ↦[(slotM 0 3 3 inb_S2x4x4x64x256_S1x1x1x64x256_0_3_3_0_0).view.set]{fullShare} f)
      ∗ (∃ f, (slotM 1 0 3 inb_S2x4x4x64x256_S1x1x1x64x256_1_0_3_0_0).view.loc (c : Thread nD τ) ↦[(slotM 1 0 3 inb_S2x4x4x64x256_S1x1x1x64x256_1_0_3_0_0).view.set]{fullShare} f)
      ∗ (∃ f, (slotM 1 1 3 inb_S2x4x4x64x256_S1x1x1x64x256_1_1_3_0_0).view.loc (c : Thread nD τ) ↦[(slotM 1 1 3 inb_S2x4x4x64x256_S1x1x1x64x256_1_1_3_0_0).view.set]{fullShare} f)
      ∗ (∃ f, (slotM 1 2 3 inb_S2x4x4x64x256_S1x1x1x64x256_1_2_3_0_0).view.loc (c : Thread nD τ) ↦[(slotM 1 2 3 inb_S2x4x4x64x256_S1x1x1x64x256_1_2_3_0_0).view.set]{fullShare} f)
      ∗ (∃ f, (slotM 1 3 3 inb_S2x4x4x64x256_S1x1x1x64x256_1_3_3_0_0).view.loc (c : Thread nD τ) ↦[(slotM 1 3 3 inb_S2x4x4x64x256_S1x1x1x64x256_1_3_3_0_0).view.set]{fullShare} f)
      ∗ (∃ f, (rsM 1 3 inb_S2x4x64x256_S1x1x64x256_1_3_0_0).view.loc (c : Thread nD τ) ↦[(rsM 1 3 inb_S2x4x64x256_S1x1x64x256_1_3_0_0).view.set]{fullShare} f)) : sProp 𝕄) := by
  rw [payload_bar1, pe_pe_1_3]
theorem payload_pay2 (c : Dev nD) : (Rd val jk jr).payload (barCell (pe c 2)) 0 2 = (iprop((∃ f, (slotM 0 0 2 inb_S2x4x4x64x256_S1x1x1x64x256_0_0_2_0_0).view.loc (c : Thread nD τ) ↦[(slotM 0 0 2 inb_S2x4x4x64x256_S1x1x1x64x256_0_0_2_0_0).view.set]{fullShare} f)
      ∗ (∃ f, (slotM 0 1 2 inb_S2x4x4x64x256_S1x1x1x64x256_0_1_2_0_0).view.loc (c : Thread nD τ) ↦[(slotM 0 1 2 inb_S2x4x4x64x256_S1x1x1x64x256_0_1_2_0_0).view.set]{fullShare} f)
      ∗ (∃ f, (slotM 0 2 2 inb_S2x4x4x64x256_S1x1x1x64x256_0_2_2_0_0).view.loc (c : Thread nD τ) ↦[(slotM 0 2 2 inb_S2x4x4x64x256_S1x1x1x64x256_0_2_2_0_0).view.set]{fullShare} f)
      ∗ (∃ f, (slotM 0 3 2 inb_S2x4x4x64x256_S1x1x1x64x256_0_3_2_0_0).view.loc (c : Thread nD τ) ↦[(slotM 0 3 2 inb_S2x4x4x64x256_S1x1x1x64x256_0_3_2_0_0).view.set]{fullShare} f)
      ∗ (∃ f, (slotM 1 0 2 inb_S2x4x4x64x256_S1x1x1x64x256_1_0_2_0_0).view.loc (c : Thread nD τ) ↦[(slotM 1 0 2 inb_S2x4x4x64x256_S1x1x1x64x256_1_0_2_0_0).view.set]{fullShare} f)
      ∗ (∃ f, (slotM 1 1 2 inb_S2x4x4x64x256_S1x1x1x64x256_1_1_2_0_0).view.loc (c : Thread nD τ) ↦[(slotM 1 1 2 inb_S2x4x4x64x256_S1x1x1x64x256_1_1_2_0_0).view.set]{fullShare} f)
      ∗ (∃ f, (slotM 1 2 2 inb_S2x4x4x64x256_S1x1x1x64x256_1_2_2_0_0).view.loc (c : Thread nD τ) ↦[(slotM 1 2 2 inb_S2x4x4x64x256_S1x1x1x64x256_1_2_2_0_0).view.set]{fullShare} f)
      ∗ (∃ f, (slotM 1 3 2 inb_S2x4x4x64x256_S1x1x1x64x256_1_3_2_0_0).view.loc (c : Thread nD τ) ↦[(slotM 1 3 2 inb_S2x4x4x64x256_S1x1x1x64x256_1_3_2_0_0).view.set]{fullShare} f)
      ∗ (∃ f, (rsM 1 2 inb_S2x4x64x256_S1x1x64x256_1_2_0_0).view.loc (c : Thread nD τ) ↦[(rsM 1 2 inb_S2x4x64x256_S1x1x64x256_1_2_0_0).view.set]{fullShare} f)) : sProp 𝕄) := by
  rw [payload_bar2, pe_pe_2_2]
theorem payload_pay3 (c : Dev nD) : (Rd val jk jr).payload (barCell (pe c 3)) 0 3 = (iprop((∃ f, (slotM 0 0 1 inb_S2x4x4x64x256_S1x1x1x64x256_0_0_1_0_0).view.loc (c : Thread nD τ) ↦[(slotM 0 0 1 inb_S2x4x4x64x256_S1x1x1x64x256_0_0_1_0_0).view.set]{fullShare} f)
      ∗ (∃ f, (slotM 0 1 1 inb_S2x4x4x64x256_S1x1x1x64x256_0_1_1_0_0).view.loc (c : Thread nD τ) ↦[(slotM 0 1 1 inb_S2x4x4x64x256_S1x1x1x64x256_0_1_1_0_0).view.set]{fullShare} f)
      ∗ (∃ f, (slotM 0 2 1 inb_S2x4x4x64x256_S1x1x1x64x256_0_2_1_0_0).view.loc (c : Thread nD τ) ↦[(slotM 0 2 1 inb_S2x4x4x64x256_S1x1x1x64x256_0_2_1_0_0).view.set]{fullShare} f)
      ∗ (∃ f, (slotM 0 3 1 inb_S2x4x4x64x256_S1x1x1x64x256_0_3_1_0_0).view.loc (c : Thread nD τ) ↦[(slotM 0 3 1 inb_S2x4x4x64x256_S1x1x1x64x256_0_3_1_0_0).view.set]{fullShare} f)
      ∗ (∃ f, (slotM 1 0 1 inb_S2x4x4x64x256_S1x1x1x64x256_1_0_1_0_0).view.loc (c : Thread nD τ) ↦[(slotM 1 0 1 inb_S2x4x4x64x256_S1x1x1x64x256_1_0_1_0_0).view.set]{fullShare} f)
      ∗ (∃ f, (slotM 1 1 1 inb_S2x4x4x64x256_S1x1x1x64x256_1_1_1_0_0).view.loc (c : Thread nD τ) ↦[(slotM 1 1 1 inb_S2x4x4x64x256_S1x1x1x64x256_1_1_1_0_0).view.set]{fullShare} f)
      ∗ (∃ f, (slotM 1 2 1 inb_S2x4x4x64x256_S1x1x1x64x256_1_2_1_0_0).view.loc (c : Thread nD τ) ↦[(slotM 1 2 1 inb_S2x4x4x64x256_S1x1x1x64x256_1_2_1_0_0).view.set]{fullShare} f)
      ∗ (∃ f, (slotM 1 3 1 inb_S2x4x4x64x256_S1x1x1x64x256_1_3_1_0_0).view.loc (c : Thread nD τ) ↦[(slotM 1 3 1 inb_S2x4x4x64x256_S1x1x1x64x256_1_3_1_0_0).view.set]{fullShare} f)
      ∗ (∃ f, (rsM 1 1 inb_S2x4x64x256_S1x1x64x256_1_1_0_0).view.loc (c : Thread nD τ) ↦[(rsM 1 1 inb_S2x4x64x256_S1x1x64x256_1_1_0_0).view.set]{fullShare} f)) : sProp 𝕄) := by
  rw [payload_bar3, pe_pe_3_1]
theorem duties_later (g : GSem nD τ sig) : ∀ r, 1 ≤ r → (Rd val jk jr).duties g r = ∅ :=
  fun r hr => by dsimp only [Rd]; rw [if_neg fun h => by omega]

theorem duties_snd_0_0_1 (c : Dev nD) : (Rd val jk jr).duties ((c : Thread nD τ), SemLoc.dma (sndS 0 0 1 inb_S3x4x4_S1x1x1_0_0_1)) 0 = {0} := rfl
theorem duties_rcv_0_0_1 (c : Dev nD) : (Rd val jk jr).duties ((c : Thread nD τ), SemLoc.dma (rcvS 0 0 1 inb_S3x4x4_S1x1x1_0_0_1)) 0 = {0} := rfl
theorem amount_snd_0_0_1 (c : Dev nD) (d : Fin 4) : (Rd val jk jr).amount ((c : Thread nD τ), SemLoc.dma (sndS 0 0 1 inb_S3x4x4_S1x1x1_0_0_1)) 0 d = N := rfl
theorem amount_rcv_0_0_1 (c : Dev nD) (d : Fin 4) : (Rd val jk jr).amount ((c : Thread nD τ), SemLoc.dma (rcvS 0 0 1 inb_S3x4x4_S1x1x1_0_0_1)) 0 d = N := rfl
theorem expect_snd_0_0_1 (c : Dev nD) : (Rd val jk jr).expect ((c : Thread nD τ), SemLoc.dma (sndS 0 0 1 inb_S3x4x4_S1x1x1_0_0_1)) 0 = N := by
  unfold Schedule.expect Schedule.amountOf; rw [duties_snd_0_0_1, Finset.sum_singleton]; rfl
theorem expect_rcv_0_0_1 (c : Dev nD) : (Rd val jk jr).expect ((c : Thread nD τ), SemLoc.dma (rcvS 0 0 1 inb_S3x4x4_S1x1x1_0_0_1)) 0 = N := by
  unfold Schedule.expect Schedule.amountOf; rw [duties_rcv_0_0_1, Finset.sum_singleton]; rfl
theorem payload_snd_0_0_1 (c : Dev nD) (d : Fin 4) : (Rd val jk jr).payload ((c : Thread nD τ), SemLoc.dma (sndS 0 0 1 inb_S3x4x4_S1x1x1_0_0_1)) 0 d
    = ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} (slotM 0 0 0 inb_S2x4x4x64x256_S1x1x1x64x256_0_0_0_0_0).view.write (Elt F) (jk c) (val c 0 0) Finset.univ : sProp 𝕄) := rfl
theorem payload_rcv_0_0_1 (c : Dev nD) (d : Fin 4) : (Rd val jk jr).payload ((c : Thread nD τ), SemLoc.dma (rcvS 0 0 1 inb_S3x4x4_S1x1x1_0_0_1)) 0 d
    = ((slotM 0 0 1 inb_S2x4x4x64x256_S1x1x1x64x256_0_0_1_0_0).view.loc (c : Thread nD τ) ↦[(slotM 0 0 1 inb_S2x4x4x64x256_S1x1x1x64x256_0_0_1_0_0).view.set]{fullShare} (slotM 0 0 1 inb_S2x4x4x64x256_S1x1x1x64x256_0_0_1_0_0).view.write (Elt F) (jk c) (val (ps c 1) 0 0) Finset.univ : sProp 𝕄) := rfl

theorem duties_snd_0_0_2 (c : Dev nD) : (Rd val jk jr).duties ((c : Thread nD τ), SemLoc.dma (sndS 0 0 2 inb_S3x4x4_S1x1x1_0_0_2)) 0 = {0} := rfl
theorem duties_rcv_0_0_2 (c : Dev nD) : (Rd val jk jr).duties ((c : Thread nD τ), SemLoc.dma (rcvS 0 0 2 inb_S3x4x4_S1x1x1_0_0_2)) 0 = {0} := rfl
theorem amount_snd_0_0_2 (c : Dev nD) (d : Fin 4) : (Rd val jk jr).amount ((c : Thread nD τ), SemLoc.dma (sndS 0 0 2 inb_S3x4x4_S1x1x1_0_0_2)) 0 d = N := rfl
theorem amount_rcv_0_0_2 (c : Dev nD) (d : Fin 4) : (Rd val jk jr).amount ((c : Thread nD τ), SemLoc.dma (rcvS 0 0 2 inb_S3x4x4_S1x1x1_0_0_2)) 0 d = N := rfl
theorem expect_snd_0_0_2 (c : Dev nD) : (Rd val jk jr).expect ((c : Thread nD τ), SemLoc.dma (sndS 0 0 2 inb_S3x4x4_S1x1x1_0_0_2)) 0 = N := by
  unfold Schedule.expect Schedule.amountOf; rw [duties_snd_0_0_2, Finset.sum_singleton]; rfl
theorem expect_rcv_0_0_2 (c : Dev nD) : (Rd val jk jr).expect ((c : Thread nD τ), SemLoc.dma (rcvS 0 0 2 inb_S3x4x4_S1x1x1_0_0_2)) 0 = N := by
  unfold Schedule.expect Schedule.amountOf; rw [duties_rcv_0_0_2, Finset.sum_singleton]; rfl
theorem payload_snd_0_0_2 (c : Dev nD) (d : Fin 4) : (Rd val jk jr).payload ((c : Thread nD τ), SemLoc.dma (sndS 0 0 2 inb_S3x4x4_S1x1x1_0_0_2)) 0 d
    = ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} (slotM 0 0 0 inb_S2x4x4x64x256_S1x1x1x64x256_0_0_0_0_0).view.write (Elt F) (jk c) (val c 0 0) Finset.univ : sProp 𝕄) := rfl
theorem payload_rcv_0_0_2 (c : Dev nD) (d : Fin 4) : (Rd val jk jr).payload ((c : Thread nD τ), SemLoc.dma (rcvS 0 0 2 inb_S3x4x4_S1x1x1_0_0_2)) 0 d
    = ((slotM 0 0 2 inb_S2x4x4x64x256_S1x1x1x64x256_0_0_2_0_0).view.loc (c : Thread nD τ) ↦[(slotM 0 0 2 inb_S2x4x4x64x256_S1x1x1x64x256_0_0_2_0_0).view.set]{fullShare} (slotM 0 0 2 inb_S2x4x4x64x256_S1x1x1x64x256_0_0_2_0_0).view.write (Elt F) (jk c) (val (ps c 2) 0 0) Finset.univ : sProp 𝕄) := rfl

theorem duties_snd_0_0_3 (c : Dev nD) : (Rd val jk jr).duties ((c : Thread nD τ), SemLoc.dma (sndS 0 0 3 inb_S3x4x4_S1x1x1_0_0_3)) 0 = {0} := rfl
theorem duties_rcv_0_0_3 (c : Dev nD) : (Rd val jk jr).duties ((c : Thread nD τ), SemLoc.dma (rcvS 0 0 3 inb_S3x4x4_S1x1x1_0_0_3)) 0 = {0} := rfl
theorem amount_snd_0_0_3 (c : Dev nD) (d : Fin 4) : (Rd val jk jr).amount ((c : Thread nD τ), SemLoc.dma (sndS 0 0 3 inb_S3x4x4_S1x1x1_0_0_3)) 0 d = N := rfl
theorem amount_rcv_0_0_3 (c : Dev nD) (d : Fin 4) : (Rd val jk jr).amount ((c : Thread nD τ), SemLoc.dma (rcvS 0 0 3 inb_S3x4x4_S1x1x1_0_0_3)) 0 d = N := rfl
theorem expect_snd_0_0_3 (c : Dev nD) : (Rd val jk jr).expect ((c : Thread nD τ), SemLoc.dma (sndS 0 0 3 inb_S3x4x4_S1x1x1_0_0_3)) 0 = N := by
  unfold Schedule.expect Schedule.amountOf; rw [duties_snd_0_0_3, Finset.sum_singleton]; rfl
theorem expect_rcv_0_0_3 (c : Dev nD) : (Rd val jk jr).expect ((c : Thread nD τ), SemLoc.dma (rcvS 0 0 3 inb_S3x4x4_S1x1x1_0_0_3)) 0 = N := by
  unfold Schedule.expect Schedule.amountOf; rw [duties_rcv_0_0_3, Finset.sum_singleton]; rfl
theorem payload_snd_0_0_3 (c : Dev nD) (d : Fin 4) : (Rd val jk jr).payload ((c : Thread nD τ), SemLoc.dma (sndS 0 0 3 inb_S3x4x4_S1x1x1_0_0_3)) 0 d
    = ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} (slotM 0 0 0 inb_S2x4x4x64x256_S1x1x1x64x256_0_0_0_0_0).view.write (Elt F) (jk c) (val c 0 0) Finset.univ : sProp 𝕄) := rfl
theorem payload_rcv_0_0_3 (c : Dev nD) (d : Fin 4) : (Rd val jk jr).payload ((c : Thread nD τ), SemLoc.dma (rcvS 0 0 3 inb_S3x4x4_S1x1x1_0_0_3)) 0 d
    = ((slotM 0 0 3 inb_S2x4x4x64x256_S1x1x1x64x256_0_0_3_0_0).view.loc (c : Thread nD τ) ↦[(slotM 0 0 3 inb_S2x4x4x64x256_S1x1x1x64x256_0_0_3_0_0).view.set]{fullShare} (slotM 0 0 3 inb_S2x4x4x64x256_S1x1x1x64x256_0_0_3_0_0).view.write (Elt F) (jk c) (val (ps c 3) 0 0) Finset.univ : sProp 𝕄) := rfl

theorem duties_snd_0_1_1 (c : Dev nD) : (Rd val jk jr).duties ((c : Thread nD τ), SemLoc.dma (sndS 0 1 1 inb_S3x4x4_S1x1x1_0_1_1)) 0 = {0} := rfl
theorem duties_rcv_0_1_1 (c : Dev nD) : (Rd val jk jr).duties ((c : Thread nD τ), SemLoc.dma (rcvS 0 1 1 inb_S3x4x4_S1x1x1_0_1_1)) 0 = {0} := rfl
theorem amount_snd_0_1_1 (c : Dev nD) (d : Fin 4) : (Rd val jk jr).amount ((c : Thread nD τ), SemLoc.dma (sndS 0 1 1 inb_S3x4x4_S1x1x1_0_1_1)) 0 d = N := rfl
theorem amount_rcv_0_1_1 (c : Dev nD) (d : Fin 4) : (Rd val jk jr).amount ((c : Thread nD τ), SemLoc.dma (rcvS 0 1 1 inb_S3x4x4_S1x1x1_0_1_1)) 0 d = N := rfl
theorem expect_snd_0_1_1 (c : Dev nD) : (Rd val jk jr).expect ((c : Thread nD τ), SemLoc.dma (sndS 0 1 1 inb_S3x4x4_S1x1x1_0_1_1)) 0 = N := by
  unfold Schedule.expect Schedule.amountOf; rw [duties_snd_0_1_1, Finset.sum_singleton]; rfl
theorem expect_rcv_0_1_1 (c : Dev nD) : (Rd val jk jr).expect ((c : Thread nD τ), SemLoc.dma (rcvS 0 1 1 inb_S3x4x4_S1x1x1_0_1_1)) 0 = N := by
  unfold Schedule.expect Schedule.amountOf; rw [duties_rcv_0_1_1, Finset.sum_singleton]; rfl
theorem payload_snd_0_1_1 (c : Dev nD) (d : Fin 4) : (Rd val jk jr).payload ((c : Thread nD τ), SemLoc.dma (sndS 0 1 1 inb_S3x4x4_S1x1x1_0_1_1)) 0 d
    = ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} (slotM 0 1 0 inb_S2x4x4x64x256_S1x1x1x64x256_0_1_0_0_0).view.write (Elt F) (jk c) (val c 0 1) Finset.univ : sProp 𝕄) := rfl
theorem payload_rcv_0_1_1 (c : Dev nD) (d : Fin 4) : (Rd val jk jr).payload ((c : Thread nD τ), SemLoc.dma (rcvS 0 1 1 inb_S3x4x4_S1x1x1_0_1_1)) 0 d
    = ((slotM 0 1 1 inb_S2x4x4x64x256_S1x1x1x64x256_0_1_1_0_0).view.loc (c : Thread nD τ) ↦[(slotM 0 1 1 inb_S2x4x4x64x256_S1x1x1x64x256_0_1_1_0_0).view.set]{fullShare} (slotM 0 1 1 inb_S2x4x4x64x256_S1x1x1x64x256_0_1_1_0_0).view.write (Elt F) (jk c) (val (ps c 1) 0 1) Finset.univ : sProp 𝕄) := rfl

theorem duties_snd_0_1_2 (c : Dev nD) : (Rd val jk jr).duties ((c : Thread nD τ), SemLoc.dma (sndS 0 1 2 inb_S3x4x4_S1x1x1_0_1_2)) 0 = {0} := rfl
theorem duties_rcv_0_1_2 (c : Dev nD) : (Rd val jk jr).duties ((c : Thread nD τ), SemLoc.dma (rcvS 0 1 2 inb_S3x4x4_S1x1x1_0_1_2)) 0 = {0} := rfl
theorem amount_snd_0_1_2 (c : Dev nD) (d : Fin 4) : (Rd val jk jr).amount ((c : Thread nD τ), SemLoc.dma (sndS 0 1 2 inb_S3x4x4_S1x1x1_0_1_2)) 0 d = N := rfl
theorem amount_rcv_0_1_2 (c : Dev nD) (d : Fin 4) : (Rd val jk jr).amount ((c : Thread nD τ), SemLoc.dma (rcvS 0 1 2 inb_S3x4x4_S1x1x1_0_1_2)) 0 d = N := rfl
theorem expect_snd_0_1_2 (c : Dev nD) : (Rd val jk jr).expect ((c : Thread nD τ), SemLoc.dma (sndS 0 1 2 inb_S3x4x4_S1x1x1_0_1_2)) 0 = N := by
  unfold Schedule.expect Schedule.amountOf; rw [duties_snd_0_1_2, Finset.sum_singleton]; rfl
theorem expect_rcv_0_1_2 (c : Dev nD) : (Rd val jk jr).expect ((c : Thread nD τ), SemLoc.dma (rcvS 0 1 2 inb_S3x4x4_S1x1x1_0_1_2)) 0 = N := by
  unfold Schedule.expect Schedule.amountOf; rw [duties_rcv_0_1_2, Finset.sum_singleton]; rfl
theorem payload_snd_0_1_2 (c : Dev nD) (d : Fin 4) : (Rd val jk jr).payload ((c : Thread nD τ), SemLoc.dma (sndS 0 1 2 inb_S3x4x4_S1x1x1_0_1_2)) 0 d
    = ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} (slotM 0 1 0 inb_S2x4x4x64x256_S1x1x1x64x256_0_1_0_0_0).view.write (Elt F) (jk c) (val c 0 1) Finset.univ : sProp 𝕄) := rfl
theorem payload_rcv_0_1_2 (c : Dev nD) (d : Fin 4) : (Rd val jk jr).payload ((c : Thread nD τ), SemLoc.dma (rcvS 0 1 2 inb_S3x4x4_S1x1x1_0_1_2)) 0 d
    = ((slotM 0 1 2 inb_S2x4x4x64x256_S1x1x1x64x256_0_1_2_0_0).view.loc (c : Thread nD τ) ↦[(slotM 0 1 2 inb_S2x4x4x64x256_S1x1x1x64x256_0_1_2_0_0).view.set]{fullShare} (slotM 0 1 2 inb_S2x4x4x64x256_S1x1x1x64x256_0_1_2_0_0).view.write (Elt F) (jk c) (val (ps c 2) 0 1) Finset.univ : sProp 𝕄) := rfl

theorem duties_snd_0_1_3 (c : Dev nD) : (Rd val jk jr).duties ((c : Thread nD τ), SemLoc.dma (sndS 0 1 3 inb_S3x4x4_S1x1x1_0_1_3)) 0 = {0} := rfl
theorem duties_rcv_0_1_3 (c : Dev nD) : (Rd val jk jr).duties ((c : Thread nD τ), SemLoc.dma (rcvS 0 1 3 inb_S3x4x4_S1x1x1_0_1_3)) 0 = {0} := rfl
theorem amount_snd_0_1_3 (c : Dev nD) (d : Fin 4) : (Rd val jk jr).amount ((c : Thread nD τ), SemLoc.dma (sndS 0 1 3 inb_S3x4x4_S1x1x1_0_1_3)) 0 d = N := rfl
theorem amount_rcv_0_1_3 (c : Dev nD) (d : Fin 4) : (Rd val jk jr).amount ((c : Thread nD τ), SemLoc.dma (rcvS 0 1 3 inb_S3x4x4_S1x1x1_0_1_3)) 0 d = N := rfl
theorem expect_snd_0_1_3 (c : Dev nD) : (Rd val jk jr).expect ((c : Thread nD τ), SemLoc.dma (sndS 0 1 3 inb_S3x4x4_S1x1x1_0_1_3)) 0 = N := by
  unfold Schedule.expect Schedule.amountOf; rw [duties_snd_0_1_3, Finset.sum_singleton]; rfl
theorem expect_rcv_0_1_3 (c : Dev nD) : (Rd val jk jr).expect ((c : Thread nD τ), SemLoc.dma (rcvS 0 1 3 inb_S3x4x4_S1x1x1_0_1_3)) 0 = N := by
  unfold Schedule.expect Schedule.amountOf; rw [duties_rcv_0_1_3, Finset.sum_singleton]; rfl
theorem payload_snd_0_1_3 (c : Dev nD) (d : Fin 4) : (Rd val jk jr).payload ((c : Thread nD τ), SemLoc.dma (sndS 0 1 3 inb_S3x4x4_S1x1x1_0_1_3)) 0 d
    = ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} (slotM 0 1 0 inb_S2x4x4x64x256_S1x1x1x64x256_0_1_0_0_0).view.write (Elt F) (jk c) (val c 0 1) Finset.univ : sProp 𝕄) := rfl
theorem payload_rcv_0_1_3 (c : Dev nD) (d : Fin 4) : (Rd val jk jr).payload ((c : Thread nD τ), SemLoc.dma (rcvS 0 1 3 inb_S3x4x4_S1x1x1_0_1_3)) 0 d
    = ((slotM 0 1 3 inb_S2x4x4x64x256_S1x1x1x64x256_0_1_3_0_0).view.loc (c : Thread nD τ) ↦[(slotM 0 1 3 inb_S2x4x4x64x256_S1x1x1x64x256_0_1_3_0_0).view.set]{fullShare} (slotM 0 1 3 inb_S2x4x4x64x256_S1x1x1x64x256_0_1_3_0_0).view.write (Elt F) (jk c) (val (ps c 3) 0 1) Finset.univ : sProp 𝕄) := rfl

theorem duties_snd_0_2_1 (c : Dev nD) : (Rd val jk jr).duties ((c : Thread nD τ), SemLoc.dma (sndS 0 2 1 inb_S3x4x4_S1x1x1_0_2_1)) 0 = {0} := rfl
theorem duties_rcv_0_2_1 (c : Dev nD) : (Rd val jk jr).duties ((c : Thread nD τ), SemLoc.dma (rcvS 0 2 1 inb_S3x4x4_S1x1x1_0_2_1)) 0 = {0} := rfl
theorem amount_snd_0_2_1 (c : Dev nD) (d : Fin 4) : (Rd val jk jr).amount ((c : Thread nD τ), SemLoc.dma (sndS 0 2 1 inb_S3x4x4_S1x1x1_0_2_1)) 0 d = N := rfl
theorem amount_rcv_0_2_1 (c : Dev nD) (d : Fin 4) : (Rd val jk jr).amount ((c : Thread nD τ), SemLoc.dma (rcvS 0 2 1 inb_S3x4x4_S1x1x1_0_2_1)) 0 d = N := rfl
theorem expect_snd_0_2_1 (c : Dev nD) : (Rd val jk jr).expect ((c : Thread nD τ), SemLoc.dma (sndS 0 2 1 inb_S3x4x4_S1x1x1_0_2_1)) 0 = N := by
  unfold Schedule.expect Schedule.amountOf; rw [duties_snd_0_2_1, Finset.sum_singleton]; rfl
theorem expect_rcv_0_2_1 (c : Dev nD) : (Rd val jk jr).expect ((c : Thread nD τ), SemLoc.dma (rcvS 0 2 1 inb_S3x4x4_S1x1x1_0_2_1)) 0 = N := by
  unfold Schedule.expect Schedule.amountOf; rw [duties_rcv_0_2_1, Finset.sum_singleton]; rfl
theorem payload_snd_0_2_1 (c : Dev nD) (d : Fin 4) : (Rd val jk jr).payload ((c : Thread nD τ), SemLoc.dma (sndS 0 2 1 inb_S3x4x4_S1x1x1_0_2_1)) 0 d
    = ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} (slotM 0 2 0 inb_S2x4x4x64x256_S1x1x1x64x256_0_2_0_0_0).view.write (Elt F) (jk c) (val c 0 2) Finset.univ : sProp 𝕄) := rfl
theorem payload_rcv_0_2_1 (c : Dev nD) (d : Fin 4) : (Rd val jk jr).payload ((c : Thread nD τ), SemLoc.dma (rcvS 0 2 1 inb_S3x4x4_S1x1x1_0_2_1)) 0 d
    = ((slotM 0 2 1 inb_S2x4x4x64x256_S1x1x1x64x256_0_2_1_0_0).view.loc (c : Thread nD τ) ↦[(slotM 0 2 1 inb_S2x4x4x64x256_S1x1x1x64x256_0_2_1_0_0).view.set]{fullShare} (slotM 0 2 1 inb_S2x4x4x64x256_S1x1x1x64x256_0_2_1_0_0).view.write (Elt F) (jk c) (val (ps c 1) 0 2) Finset.univ : sProp 𝕄) := rfl

theorem duties_snd_0_2_2 (c : Dev nD) : (Rd val jk jr).duties ((c : Thread nD τ), SemLoc.dma (sndS 0 2 2 inb_S3x4x4_S1x1x1_0_2_2)) 0 = {0} := rfl
theorem duties_rcv_0_2_2 (c : Dev nD) : (Rd val jk jr).duties ((c : Thread nD τ), SemLoc.dma (rcvS 0 2 2 inb_S3x4x4_S1x1x1_0_2_2)) 0 = {0} := rfl
theorem amount_snd_0_2_2 (c : Dev nD) (d : Fin 4) : (Rd val jk jr).amount ((c : Thread nD τ), SemLoc.dma (sndS 0 2 2 inb_S3x4x4_S1x1x1_0_2_2)) 0 d = N := rfl
theorem amount_rcv_0_2_2 (c : Dev nD) (d : Fin 4) : (Rd val jk jr).amount ((c : Thread nD τ), SemLoc.dma (rcvS 0 2 2 inb_S3x4x4_S1x1x1_0_2_2)) 0 d = N := rfl
theorem expect_snd_0_2_2 (c : Dev nD) : (Rd val jk jr).expect ((c : Thread nD τ), SemLoc.dma (sndS 0 2 2 inb_S3x4x4_S1x1x1_0_2_2)) 0 = N := by
  unfold Schedule.expect Schedule.amountOf; rw [duties_snd_0_2_2, Finset.sum_singleton]; rfl
theorem expect_rcv_0_2_2 (c : Dev nD) : (Rd val jk jr).expect ((c : Thread nD τ), SemLoc.dma (rcvS 0 2 2 inb_S3x4x4_S1x1x1_0_2_2)) 0 = N := by
  unfold Schedule.expect Schedule.amountOf; rw [duties_rcv_0_2_2, Finset.sum_singleton]; rfl
theorem payload_snd_0_2_2 (c : Dev nD) (d : Fin 4) : (Rd val jk jr).payload ((c : Thread nD τ), SemLoc.dma (sndS 0 2 2 inb_S3x4x4_S1x1x1_0_2_2)) 0 d
    = ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} (slotM 0 2 0 inb_S2x4x4x64x256_S1x1x1x64x256_0_2_0_0_0).view.write (Elt F) (jk c) (val c 0 2) Finset.univ : sProp 𝕄) := rfl
theorem payload_rcv_0_2_2 (c : Dev nD) (d : Fin 4) : (Rd val jk jr).payload ((c : Thread nD τ), SemLoc.dma (rcvS 0 2 2 inb_S3x4x4_S1x1x1_0_2_2)) 0 d
    = ((slotM 0 2 2 inb_S2x4x4x64x256_S1x1x1x64x256_0_2_2_0_0).view.loc (c : Thread nD τ) ↦[(slotM 0 2 2 inb_S2x4x4x64x256_S1x1x1x64x256_0_2_2_0_0).view.set]{fullShare} (slotM 0 2 2 inb_S2x4x4x64x256_S1x1x1x64x256_0_2_2_0_0).view.write (Elt F) (jk c) (val (ps c 2) 0 2) Finset.univ : sProp 𝕄) := rfl

theorem duties_snd_0_2_3 (c : Dev nD) : (Rd val jk jr).duties ((c : Thread nD τ), SemLoc.dma (sndS 0 2 3 inb_S3x4x4_S1x1x1_0_2_3)) 0 = {0} := rfl
theorem duties_rcv_0_2_3 (c : Dev nD) : (Rd val jk jr).duties ((c : Thread nD τ), SemLoc.dma (rcvS 0 2 3 inb_S3x4x4_S1x1x1_0_2_3)) 0 = {0} := rfl
theorem amount_snd_0_2_3 (c : Dev nD) (d : Fin 4) : (Rd val jk jr).amount ((c : Thread nD τ), SemLoc.dma (sndS 0 2 3 inb_S3x4x4_S1x1x1_0_2_3)) 0 d = N := rfl
theorem amount_rcv_0_2_3 (c : Dev nD) (d : Fin 4) : (Rd val jk jr).amount ((c : Thread nD τ), SemLoc.dma (rcvS 0 2 3 inb_S3x4x4_S1x1x1_0_2_3)) 0 d = N := rfl
theorem expect_snd_0_2_3 (c : Dev nD) : (Rd val jk jr).expect ((c : Thread nD τ), SemLoc.dma (sndS 0 2 3 inb_S3x4x4_S1x1x1_0_2_3)) 0 = N := by
  unfold Schedule.expect Schedule.amountOf; rw [duties_snd_0_2_3, Finset.sum_singleton]; rfl
theorem expect_rcv_0_2_3 (c : Dev nD) : (Rd val jk jr).expect ((c : Thread nD τ), SemLoc.dma (rcvS 0 2 3 inb_S3x4x4_S1x1x1_0_2_3)) 0 = N := by
  unfold Schedule.expect Schedule.amountOf; rw [duties_rcv_0_2_3, Finset.sum_singleton]; rfl
theorem payload_snd_0_2_3 (c : Dev nD) (d : Fin 4) : (Rd val jk jr).payload ((c : Thread nD τ), SemLoc.dma (sndS 0 2 3 inb_S3x4x4_S1x1x1_0_2_3)) 0 d
    = ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} (slotM 0 2 0 inb_S2x4x4x64x256_S1x1x1x64x256_0_2_0_0_0).view.write (Elt F) (jk c) (val c 0 2) Finset.univ : sProp 𝕄) := rfl
theorem payload_rcv_0_2_3 (c : Dev nD) (d : Fin 4) : (Rd val jk jr).payload ((c : Thread nD τ), SemLoc.dma (rcvS 0 2 3 inb_S3x4x4_S1x1x1_0_2_3)) 0 d
    = ((slotM 0 2 3 inb_S2x4x4x64x256_S1x1x1x64x256_0_2_3_0_0).view.loc (c : Thread nD τ) ↦[(slotM 0 2 3 inb_S2x4x4x64x256_S1x1x1x64x256_0_2_3_0_0).view.set]{fullShare} (slotM 0 2 3 inb_S2x4x4x64x256_S1x1x1x64x256_0_2_3_0_0).view.write (Elt F) (jk c) (val (ps c 3) 0 2) Finset.univ : sProp 𝕄) := rfl

theorem duties_snd_0_3_1 (c : Dev nD) : (Rd val jk jr).duties ((c : Thread nD τ), SemLoc.dma (sndS 0 3 1 inb_S3x4x4_S1x1x1_0_3_1)) 0 = {0} := rfl
theorem duties_rcv_0_3_1 (c : Dev nD) : (Rd val jk jr).duties ((c : Thread nD τ), SemLoc.dma (rcvS 0 3 1 inb_S3x4x4_S1x1x1_0_3_1)) 0 = {0} := rfl
theorem amount_snd_0_3_1 (c : Dev nD) (d : Fin 4) : (Rd val jk jr).amount ((c : Thread nD τ), SemLoc.dma (sndS 0 3 1 inb_S3x4x4_S1x1x1_0_3_1)) 0 d = N := rfl
theorem amount_rcv_0_3_1 (c : Dev nD) (d : Fin 4) : (Rd val jk jr).amount ((c : Thread nD τ), SemLoc.dma (rcvS 0 3 1 inb_S3x4x4_S1x1x1_0_3_1)) 0 d = N := rfl
theorem expect_snd_0_3_1 (c : Dev nD) : (Rd val jk jr).expect ((c : Thread nD τ), SemLoc.dma (sndS 0 3 1 inb_S3x4x4_S1x1x1_0_3_1)) 0 = N := by
  unfold Schedule.expect Schedule.amountOf; rw [duties_snd_0_3_1, Finset.sum_singleton]; rfl
theorem expect_rcv_0_3_1 (c : Dev nD) : (Rd val jk jr).expect ((c : Thread nD τ), SemLoc.dma (rcvS 0 3 1 inb_S3x4x4_S1x1x1_0_3_1)) 0 = N := by
  unfold Schedule.expect Schedule.amountOf; rw [duties_rcv_0_3_1, Finset.sum_singleton]; rfl
theorem payload_snd_0_3_1 (c : Dev nD) (d : Fin 4) : (Rd val jk jr).payload ((c : Thread nD τ), SemLoc.dma (sndS 0 3 1 inb_S3x4x4_S1x1x1_0_3_1)) 0 d
    = ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} (slotM 0 3 0 inb_S2x4x4x64x256_S1x1x1x64x256_0_3_0_0_0).view.write (Elt F) (jk c) (val c 0 3) Finset.univ : sProp 𝕄) := rfl
theorem payload_rcv_0_3_1 (c : Dev nD) (d : Fin 4) : (Rd val jk jr).payload ((c : Thread nD τ), SemLoc.dma (rcvS 0 3 1 inb_S3x4x4_S1x1x1_0_3_1)) 0 d
    = ((slotM 0 3 1 inb_S2x4x4x64x256_S1x1x1x64x256_0_3_1_0_0).view.loc (c : Thread nD τ) ↦[(slotM 0 3 1 inb_S2x4x4x64x256_S1x1x1x64x256_0_3_1_0_0).view.set]{fullShare} (slotM 0 3 1 inb_S2x4x4x64x256_S1x1x1x64x256_0_3_1_0_0).view.write (Elt F) (jk c) (val (ps c 1) 0 3) Finset.univ : sProp 𝕄) := rfl

theorem duties_snd_0_3_2 (c : Dev nD) : (Rd val jk jr).duties ((c : Thread nD τ), SemLoc.dma (sndS 0 3 2 inb_S3x4x4_S1x1x1_0_3_2)) 0 = {0} := rfl
theorem duties_rcv_0_3_2 (c : Dev nD) : (Rd val jk jr).duties ((c : Thread nD τ), SemLoc.dma (rcvS 0 3 2 inb_S3x4x4_S1x1x1_0_3_2)) 0 = {0} := rfl
theorem amount_snd_0_3_2 (c : Dev nD) (d : Fin 4) : (Rd val jk jr).amount ((c : Thread nD τ), SemLoc.dma (sndS 0 3 2 inb_S3x4x4_S1x1x1_0_3_2)) 0 d = N := rfl
theorem amount_rcv_0_3_2 (c : Dev nD) (d : Fin 4) : (Rd val jk jr).amount ((c : Thread nD τ), SemLoc.dma (rcvS 0 3 2 inb_S3x4x4_S1x1x1_0_3_2)) 0 d = N := rfl
theorem expect_snd_0_3_2 (c : Dev nD) : (Rd val jk jr).expect ((c : Thread nD τ), SemLoc.dma (sndS 0 3 2 inb_S3x4x4_S1x1x1_0_3_2)) 0 = N := by
  unfold Schedule.expect Schedule.amountOf; rw [duties_snd_0_3_2, Finset.sum_singleton]; rfl
theorem expect_rcv_0_3_2 (c : Dev nD) : (Rd val jk jr).expect ((c : Thread nD τ), SemLoc.dma (rcvS 0 3 2 inb_S3x4x4_S1x1x1_0_3_2)) 0 = N := by
  unfold Schedule.expect Schedule.amountOf; rw [duties_rcv_0_3_2, Finset.sum_singleton]; rfl
theorem payload_snd_0_3_2 (c : Dev nD) (d : Fin 4) : (Rd val jk jr).payload ((c : Thread nD τ), SemLoc.dma (sndS 0 3 2 inb_S3x4x4_S1x1x1_0_3_2)) 0 d
    = ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} (slotM 0 3 0 inb_S2x4x4x64x256_S1x1x1x64x256_0_3_0_0_0).view.write (Elt F) (jk c) (val c 0 3) Finset.univ : sProp 𝕄) := rfl
theorem payload_rcv_0_3_2 (c : Dev nD) (d : Fin 4) : (Rd val jk jr).payload ((c : Thread nD τ), SemLoc.dma (rcvS 0 3 2 inb_S3x4x4_S1x1x1_0_3_2)) 0 d
    = ((slotM 0 3 2 inb_S2x4x4x64x256_S1x1x1x64x256_0_3_2_0_0).view.loc (c : Thread nD τ) ↦[(slotM 0 3 2 inb_S2x4x4x64x256_S1x1x1x64x256_0_3_2_0_0).view.set]{fullShare} (slotM 0 3 2 inb_S2x4x4x64x256_S1x1x1x64x256_0_3_2_0_0).view.write (Elt F) (jk c) (val (ps c 2) 0 3) Finset.univ : sProp 𝕄) := rfl

theorem duties_snd_0_3_3 (c : Dev nD) : (Rd val jk jr).duties ((c : Thread nD τ), SemLoc.dma (sndS 0 3 3 inb_S3x4x4_S1x1x1_0_3_3)) 0 = {0} := rfl
theorem duties_rcv_0_3_3 (c : Dev nD) : (Rd val jk jr).duties ((c : Thread nD τ), SemLoc.dma (rcvS 0 3 3 inb_S3x4x4_S1x1x1_0_3_3)) 0 = {0} := rfl
theorem amount_snd_0_3_3 (c : Dev nD) (d : Fin 4) : (Rd val jk jr).amount ((c : Thread nD τ), SemLoc.dma (sndS 0 3 3 inb_S3x4x4_S1x1x1_0_3_3)) 0 d = N := rfl
theorem amount_rcv_0_3_3 (c : Dev nD) (d : Fin 4) : (Rd val jk jr).amount ((c : Thread nD τ), SemLoc.dma (rcvS 0 3 3 inb_S3x4x4_S1x1x1_0_3_3)) 0 d = N := rfl
theorem expect_snd_0_3_3 (c : Dev nD) : (Rd val jk jr).expect ((c : Thread nD τ), SemLoc.dma (sndS 0 3 3 inb_S3x4x4_S1x1x1_0_3_3)) 0 = N := by
  unfold Schedule.expect Schedule.amountOf; rw [duties_snd_0_3_3, Finset.sum_singleton]; rfl
theorem expect_rcv_0_3_3 (c : Dev nD) : (Rd val jk jr).expect ((c : Thread nD τ), SemLoc.dma (rcvS 0 3 3 inb_S3x4x4_S1x1x1_0_3_3)) 0 = N := by
  unfold Schedule.expect Schedule.amountOf; rw [duties_rcv_0_3_3, Finset.sum_singleton]; rfl
theorem payload_snd_0_3_3 (c : Dev nD) (d : Fin 4) : (Rd val jk jr).payload ((c : Thread nD τ), SemLoc.dma (sndS 0 3 3 inb_S3x4x4_S1x1x1_0_3_3)) 0 d
    = ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} (slotM 0 3 0 inb_S2x4x4x64x256_S1x1x1x64x256_0_3_0_0_0).view.write (Elt F) (jk c) (val c 0 3) Finset.univ : sProp 𝕄) := rfl
theorem payload_rcv_0_3_3 (c : Dev nD) (d : Fin 4) : (Rd val jk jr).payload ((c : Thread nD τ), SemLoc.dma (rcvS 0 3 3 inb_S3x4x4_S1x1x1_0_3_3)) 0 d
    = ((slotM 0 3 3 inb_S2x4x4x64x256_S1x1x1x64x256_0_3_3_0_0).view.loc (c : Thread nD τ) ↦[(slotM 0 3 3 inb_S2x4x4x64x256_S1x1x1x64x256_0_3_3_0_0).view.set]{fullShare} (slotM 0 3 3 inb_S2x4x4x64x256_S1x1x1x64x256_0_3_3_0_0).view.write (Elt F) (jk c) (val (ps c 3) 0 3) Finset.univ : sProp 𝕄) := rfl

theorem duties_snd_1_0_1 (c : Dev nD) : (Rd val jk jr).duties ((c : Thread nD τ), SemLoc.dma (sndS 1 0 1 inb_S3x4x4_S1x1x1_1_0_1)) 0 = {0} := rfl
theorem duties_rcv_1_0_1 (c : Dev nD) : (Rd val jk jr).duties ((c : Thread nD τ), SemLoc.dma (rcvS 1 0 1 inb_S3x4x4_S1x1x1_1_0_1)) 0 = {0} := rfl
theorem amount_snd_1_0_1 (c : Dev nD) (d : Fin 4) : (Rd val jk jr).amount ((c : Thread nD τ), SemLoc.dma (sndS 1 0 1 inb_S3x4x4_S1x1x1_1_0_1)) 0 d = N := rfl
theorem amount_rcv_1_0_1 (c : Dev nD) (d : Fin 4) : (Rd val jk jr).amount ((c : Thread nD τ), SemLoc.dma (rcvS 1 0 1 inb_S3x4x4_S1x1x1_1_0_1)) 0 d = N := rfl
theorem expect_snd_1_0_1 (c : Dev nD) : (Rd val jk jr).expect ((c : Thread nD τ), SemLoc.dma (sndS 1 0 1 inb_S3x4x4_S1x1x1_1_0_1)) 0 = N := by
  unfold Schedule.expect Schedule.amountOf; rw [duties_snd_1_0_1, Finset.sum_singleton]; rfl
theorem expect_rcv_1_0_1 (c : Dev nD) : (Rd val jk jr).expect ((c : Thread nD τ), SemLoc.dma (rcvS 1 0 1 inb_S3x4x4_S1x1x1_1_0_1)) 0 = N := by
  unfold Schedule.expect Schedule.amountOf; rw [duties_rcv_1_0_1, Finset.sum_singleton]; rfl
theorem payload_snd_1_0_1 (c : Dev nD) (d : Fin 4) : (Rd val jk jr).payload ((c : Thread nD τ), SemLoc.dma (sndS 1 0 1 inb_S3x4x4_S1x1x1_1_0_1)) 0 d
    = ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} (slotM 1 0 0 inb_S2x4x4x64x256_S1x1x1x64x256_1_0_0_0_0).view.write (Elt F) (jk c) (val c 1 0) Finset.univ : sProp 𝕄) := rfl
theorem payload_rcv_1_0_1 (c : Dev nD) (d : Fin 4) : (Rd val jk jr).payload ((c : Thread nD τ), SemLoc.dma (rcvS 1 0 1 inb_S3x4x4_S1x1x1_1_0_1)) 0 d
    = ((slotM 1 0 1 inb_S2x4x4x64x256_S1x1x1x64x256_1_0_1_0_0).view.loc (c : Thread nD τ) ↦[(slotM 1 0 1 inb_S2x4x4x64x256_S1x1x1x64x256_1_0_1_0_0).view.set]{fullShare} (slotM 1 0 1 inb_S2x4x4x64x256_S1x1x1x64x256_1_0_1_0_0).view.write (Elt F) (jk c) (val (ps c 1) 1 0) Finset.univ : sProp 𝕄) := rfl

theorem duties_snd_1_0_2 (c : Dev nD) : (Rd val jk jr).duties ((c : Thread nD τ), SemLoc.dma (sndS 1 0 2 inb_S3x4x4_S1x1x1_1_0_2)) 0 = {0} := rfl
theorem duties_rcv_1_0_2 (c : Dev nD) : (Rd val jk jr).duties ((c : Thread nD τ), SemLoc.dma (rcvS 1 0 2 inb_S3x4x4_S1x1x1_1_0_2)) 0 = {0} := rfl
theorem amount_snd_1_0_2 (c : Dev nD) (d : Fin 4) : (Rd val jk jr).amount ((c : Thread nD τ), SemLoc.dma (sndS 1 0 2 inb_S3x4x4_S1x1x1_1_0_2)) 0 d = N := rfl
theorem amount_rcv_1_0_2 (c : Dev nD) (d : Fin 4) : (Rd val jk jr).amount ((c : Thread nD τ), SemLoc.dma (rcvS 1 0 2 inb_S3x4x4_S1x1x1_1_0_2)) 0 d = N := rfl
theorem expect_snd_1_0_2 (c : Dev nD) : (Rd val jk jr).expect ((c : Thread nD τ), SemLoc.dma (sndS 1 0 2 inb_S3x4x4_S1x1x1_1_0_2)) 0 = N := by
  unfold Schedule.expect Schedule.amountOf; rw [duties_snd_1_0_2, Finset.sum_singleton]; rfl
theorem expect_rcv_1_0_2 (c : Dev nD) : (Rd val jk jr).expect ((c : Thread nD τ), SemLoc.dma (rcvS 1 0 2 inb_S3x4x4_S1x1x1_1_0_2)) 0 = N := by
  unfold Schedule.expect Schedule.amountOf; rw [duties_rcv_1_0_2, Finset.sum_singleton]; rfl
theorem payload_snd_1_0_2 (c : Dev nD) (d : Fin 4) : (Rd val jk jr).payload ((c : Thread nD τ), SemLoc.dma (sndS 1 0 2 inb_S3x4x4_S1x1x1_1_0_2)) 0 d
    = ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} (slotM 1 0 0 inb_S2x4x4x64x256_S1x1x1x64x256_1_0_0_0_0).view.write (Elt F) (jk c) (val c 1 0) Finset.univ : sProp 𝕄) := rfl
theorem payload_rcv_1_0_2 (c : Dev nD) (d : Fin 4) : (Rd val jk jr).payload ((c : Thread nD τ), SemLoc.dma (rcvS 1 0 2 inb_S3x4x4_S1x1x1_1_0_2)) 0 d
    = ((slotM 1 0 2 inb_S2x4x4x64x256_S1x1x1x64x256_1_0_2_0_0).view.loc (c : Thread nD τ) ↦[(slotM 1 0 2 inb_S2x4x4x64x256_S1x1x1x64x256_1_0_2_0_0).view.set]{fullShare} (slotM 1 0 2 inb_S2x4x4x64x256_S1x1x1x64x256_1_0_2_0_0).view.write (Elt F) (jk c) (val (ps c 2) 1 0) Finset.univ : sProp 𝕄) := rfl

theorem duties_snd_1_0_3 (c : Dev nD) : (Rd val jk jr).duties ((c : Thread nD τ), SemLoc.dma (sndS 1 0 3 inb_S3x4x4_S1x1x1_1_0_3)) 0 = {0} := rfl
theorem duties_rcv_1_0_3 (c : Dev nD) : (Rd val jk jr).duties ((c : Thread nD τ), SemLoc.dma (rcvS 1 0 3 inb_S3x4x4_S1x1x1_1_0_3)) 0 = {0} := rfl
theorem amount_snd_1_0_3 (c : Dev nD) (d : Fin 4) : (Rd val jk jr).amount ((c : Thread nD τ), SemLoc.dma (sndS 1 0 3 inb_S3x4x4_S1x1x1_1_0_3)) 0 d = N := rfl
theorem amount_rcv_1_0_3 (c : Dev nD) (d : Fin 4) : (Rd val jk jr).amount ((c : Thread nD τ), SemLoc.dma (rcvS 1 0 3 inb_S3x4x4_S1x1x1_1_0_3)) 0 d = N := rfl
theorem expect_snd_1_0_3 (c : Dev nD) : (Rd val jk jr).expect ((c : Thread nD τ), SemLoc.dma (sndS 1 0 3 inb_S3x4x4_S1x1x1_1_0_3)) 0 = N := by
  unfold Schedule.expect Schedule.amountOf; rw [duties_snd_1_0_3, Finset.sum_singleton]; rfl
theorem expect_rcv_1_0_3 (c : Dev nD) : (Rd val jk jr).expect ((c : Thread nD τ), SemLoc.dma (rcvS 1 0 3 inb_S3x4x4_S1x1x1_1_0_3)) 0 = N := by
  unfold Schedule.expect Schedule.amountOf; rw [duties_rcv_1_0_3, Finset.sum_singleton]; rfl
theorem payload_snd_1_0_3 (c : Dev nD) (d : Fin 4) : (Rd val jk jr).payload ((c : Thread nD τ), SemLoc.dma (sndS 1 0 3 inb_S3x4x4_S1x1x1_1_0_3)) 0 d
    = ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} (slotM 1 0 0 inb_S2x4x4x64x256_S1x1x1x64x256_1_0_0_0_0).view.write (Elt F) (jk c) (val c 1 0) Finset.univ : sProp 𝕄) := rfl
theorem payload_rcv_1_0_3 (c : Dev nD) (d : Fin 4) : (Rd val jk jr).payload ((c : Thread nD τ), SemLoc.dma (rcvS 1 0 3 inb_S3x4x4_S1x1x1_1_0_3)) 0 d
    = ((slotM 1 0 3 inb_S2x4x4x64x256_S1x1x1x64x256_1_0_3_0_0).view.loc (c : Thread nD τ) ↦[(slotM 1 0 3 inb_S2x4x4x64x256_S1x1x1x64x256_1_0_3_0_0).view.set]{fullShare} (slotM 1 0 3 inb_S2x4x4x64x256_S1x1x1x64x256_1_0_3_0_0).view.write (Elt F) (jk c) (val (ps c 3) 1 0) Finset.univ : sProp 𝕄) := rfl

theorem duties_snd_1_1_1 (c : Dev nD) : (Rd val jk jr).duties ((c : Thread nD τ), SemLoc.dma (sndS 1 1 1 inb_S3x4x4_S1x1x1_1_1_1)) 0 = {0} := rfl
theorem duties_rcv_1_1_1 (c : Dev nD) : (Rd val jk jr).duties ((c : Thread nD τ), SemLoc.dma (rcvS 1 1 1 inb_S3x4x4_S1x1x1_1_1_1)) 0 = {0} := rfl
theorem amount_snd_1_1_1 (c : Dev nD) (d : Fin 4) : (Rd val jk jr).amount ((c : Thread nD τ), SemLoc.dma (sndS 1 1 1 inb_S3x4x4_S1x1x1_1_1_1)) 0 d = N := rfl
theorem amount_rcv_1_1_1 (c : Dev nD) (d : Fin 4) : (Rd val jk jr).amount ((c : Thread nD τ), SemLoc.dma (rcvS 1 1 1 inb_S3x4x4_S1x1x1_1_1_1)) 0 d = N := rfl
theorem expect_snd_1_1_1 (c : Dev nD) : (Rd val jk jr).expect ((c : Thread nD τ), SemLoc.dma (sndS 1 1 1 inb_S3x4x4_S1x1x1_1_1_1)) 0 = N := by
  unfold Schedule.expect Schedule.amountOf; rw [duties_snd_1_1_1, Finset.sum_singleton]; rfl
theorem expect_rcv_1_1_1 (c : Dev nD) : (Rd val jk jr).expect ((c : Thread nD τ), SemLoc.dma (rcvS 1 1 1 inb_S3x4x4_S1x1x1_1_1_1)) 0 = N := by
  unfold Schedule.expect Schedule.amountOf; rw [duties_rcv_1_1_1, Finset.sum_singleton]; rfl
theorem payload_snd_1_1_1 (c : Dev nD) (d : Fin 4) : (Rd val jk jr).payload ((c : Thread nD τ), SemLoc.dma (sndS 1 1 1 inb_S3x4x4_S1x1x1_1_1_1)) 0 d
    = ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} (slotM 1 1 0 inb_S2x4x4x64x256_S1x1x1x64x256_1_1_0_0_0).view.write (Elt F) (jk c) (val c 1 1) Finset.univ : sProp 𝕄) := rfl
theorem payload_rcv_1_1_1 (c : Dev nD) (d : Fin 4) : (Rd val jk jr).payload ((c : Thread nD τ), SemLoc.dma (rcvS 1 1 1 inb_S3x4x4_S1x1x1_1_1_1)) 0 d
    = ((slotM 1 1 1 inb_S2x4x4x64x256_S1x1x1x64x256_1_1_1_0_0).view.loc (c : Thread nD τ) ↦[(slotM 1 1 1 inb_S2x4x4x64x256_S1x1x1x64x256_1_1_1_0_0).view.set]{fullShare} (slotM 1 1 1 inb_S2x4x4x64x256_S1x1x1x64x256_1_1_1_0_0).view.write (Elt F) (jk c) (val (ps c 1) 1 1) Finset.univ : sProp 𝕄) := rfl

theorem duties_snd_1_1_2 (c : Dev nD) : (Rd val jk jr).duties ((c : Thread nD τ), SemLoc.dma (sndS 1 1 2 inb_S3x4x4_S1x1x1_1_1_2)) 0 = {0} := rfl
theorem duties_rcv_1_1_2 (c : Dev nD) : (Rd val jk jr).duties ((c : Thread nD τ), SemLoc.dma (rcvS 1 1 2 inb_S3x4x4_S1x1x1_1_1_2)) 0 = {0} := rfl
theorem amount_snd_1_1_2 (c : Dev nD) (d : Fin 4) : (Rd val jk jr).amount ((c : Thread nD τ), SemLoc.dma (sndS 1 1 2 inb_S3x4x4_S1x1x1_1_1_2)) 0 d = N := rfl
theorem amount_rcv_1_1_2 (c : Dev nD) (d : Fin 4) : (Rd val jk jr).amount ((c : Thread nD τ), SemLoc.dma (rcvS 1 1 2 inb_S3x4x4_S1x1x1_1_1_2)) 0 d = N := rfl
theorem expect_snd_1_1_2 (c : Dev nD) : (Rd val jk jr).expect ((c : Thread nD τ), SemLoc.dma (sndS 1 1 2 inb_S3x4x4_S1x1x1_1_1_2)) 0 = N := by
  unfold Schedule.expect Schedule.amountOf; rw [duties_snd_1_1_2, Finset.sum_singleton]; rfl
theorem expect_rcv_1_1_2 (c : Dev nD) : (Rd val jk jr).expect ((c : Thread nD τ), SemLoc.dma (rcvS 1 1 2 inb_S3x4x4_S1x1x1_1_1_2)) 0 = N := by
  unfold Schedule.expect Schedule.amountOf; rw [duties_rcv_1_1_2, Finset.sum_singleton]; rfl
theorem payload_snd_1_1_2 (c : Dev nD) (d : Fin 4) : (Rd val jk jr).payload ((c : Thread nD τ), SemLoc.dma (sndS 1 1 2 inb_S3x4x4_S1x1x1_1_1_2)) 0 d
    = ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} (slotM 1 1 0 inb_S2x4x4x64x256_S1x1x1x64x256_1_1_0_0_0).view.write (Elt F) (jk c) (val c 1 1) Finset.univ : sProp 𝕄) := rfl
theorem payload_rcv_1_1_2 (c : Dev nD) (d : Fin 4) : (Rd val jk jr).payload ((c : Thread nD τ), SemLoc.dma (rcvS 1 1 2 inb_S3x4x4_S1x1x1_1_1_2)) 0 d
    = ((slotM 1 1 2 inb_S2x4x4x64x256_S1x1x1x64x256_1_1_2_0_0).view.loc (c : Thread nD τ) ↦[(slotM 1 1 2 inb_S2x4x4x64x256_S1x1x1x64x256_1_1_2_0_0).view.set]{fullShare} (slotM 1 1 2 inb_S2x4x4x64x256_S1x1x1x64x256_1_1_2_0_0).view.write (Elt F) (jk c) (val (ps c 2) 1 1) Finset.univ : sProp 𝕄) := rfl

theorem duties_snd_1_1_3 (c : Dev nD) : (Rd val jk jr).duties ((c : Thread nD τ), SemLoc.dma (sndS 1 1 3 inb_S3x4x4_S1x1x1_1_1_3)) 0 = {0} := rfl
theorem duties_rcv_1_1_3 (c : Dev nD) : (Rd val jk jr).duties ((c : Thread nD τ), SemLoc.dma (rcvS 1 1 3 inb_S3x4x4_S1x1x1_1_1_3)) 0 = {0} := rfl
theorem amount_snd_1_1_3 (c : Dev nD) (d : Fin 4) : (Rd val jk jr).amount ((c : Thread nD τ), SemLoc.dma (sndS 1 1 3 inb_S3x4x4_S1x1x1_1_1_3)) 0 d = N := rfl
theorem amount_rcv_1_1_3 (c : Dev nD) (d : Fin 4) : (Rd val jk jr).amount ((c : Thread nD τ), SemLoc.dma (rcvS 1 1 3 inb_S3x4x4_S1x1x1_1_1_3)) 0 d = N := rfl
theorem expect_snd_1_1_3 (c : Dev nD) : (Rd val jk jr).expect ((c : Thread nD τ), SemLoc.dma (sndS 1 1 3 inb_S3x4x4_S1x1x1_1_1_3)) 0 = N := by
  unfold Schedule.expect Schedule.amountOf; rw [duties_snd_1_1_3, Finset.sum_singleton]; rfl
theorem expect_rcv_1_1_3 (c : Dev nD) : (Rd val jk jr).expect ((c : Thread nD τ), SemLoc.dma (rcvS 1 1 3 inb_S3x4x4_S1x1x1_1_1_3)) 0 = N := by
  unfold Schedule.expect Schedule.amountOf; rw [duties_rcv_1_1_3, Finset.sum_singleton]; rfl
theorem payload_snd_1_1_3 (c : Dev nD) (d : Fin 4) : (Rd val jk jr).payload ((c : Thread nD τ), SemLoc.dma (sndS 1 1 3 inb_S3x4x4_S1x1x1_1_1_3)) 0 d
    = ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} (slotM 1 1 0 inb_S2x4x4x64x256_S1x1x1x64x256_1_1_0_0_0).view.write (Elt F) (jk c) (val c 1 1) Finset.univ : sProp 𝕄) := rfl
theorem payload_rcv_1_1_3 (c : Dev nD) (d : Fin 4) : (Rd val jk jr).payload ((c : Thread nD τ), SemLoc.dma (rcvS 1 1 3 inb_S3x4x4_S1x1x1_1_1_3)) 0 d
    = ((slotM 1 1 3 inb_S2x4x4x64x256_S1x1x1x64x256_1_1_3_0_0).view.loc (c : Thread nD τ) ↦[(slotM 1 1 3 inb_S2x4x4x64x256_S1x1x1x64x256_1_1_3_0_0).view.set]{fullShare} (slotM 1 1 3 inb_S2x4x4x64x256_S1x1x1x64x256_1_1_3_0_0).view.write (Elt F) (jk c) (val (ps c 3) 1 1) Finset.univ : sProp 𝕄) := rfl

theorem duties_snd_1_2_1 (c : Dev nD) : (Rd val jk jr).duties ((c : Thread nD τ), SemLoc.dma (sndS 1 2 1 inb_S3x4x4_S1x1x1_1_2_1)) 0 = {0} := rfl
theorem duties_rcv_1_2_1 (c : Dev nD) : (Rd val jk jr).duties ((c : Thread nD τ), SemLoc.dma (rcvS 1 2 1 inb_S3x4x4_S1x1x1_1_2_1)) 0 = {0} := rfl
theorem amount_snd_1_2_1 (c : Dev nD) (d : Fin 4) : (Rd val jk jr).amount ((c : Thread nD τ), SemLoc.dma (sndS 1 2 1 inb_S3x4x4_S1x1x1_1_2_1)) 0 d = N := rfl
theorem amount_rcv_1_2_1 (c : Dev nD) (d : Fin 4) : (Rd val jk jr).amount ((c : Thread nD τ), SemLoc.dma (rcvS 1 2 1 inb_S3x4x4_S1x1x1_1_2_1)) 0 d = N := rfl
theorem expect_snd_1_2_1 (c : Dev nD) : (Rd val jk jr).expect ((c : Thread nD τ), SemLoc.dma (sndS 1 2 1 inb_S3x4x4_S1x1x1_1_2_1)) 0 = N := by
  unfold Schedule.expect Schedule.amountOf; rw [duties_snd_1_2_1, Finset.sum_singleton]; rfl
theorem expect_rcv_1_2_1 (c : Dev nD) : (Rd val jk jr).expect ((c : Thread nD τ), SemLoc.dma (rcvS 1 2 1 inb_S3x4x4_S1x1x1_1_2_1)) 0 = N := by
  unfold Schedule.expect Schedule.amountOf; rw [duties_rcv_1_2_1, Finset.sum_singleton]; rfl
theorem payload_snd_1_2_1 (c : Dev nD) (d : Fin 4) : (Rd val jk jr).payload ((c : Thread nD τ), SemLoc.dma (sndS 1 2 1 inb_S3x4x4_S1x1x1_1_2_1)) 0 d
    = ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} (slotM 1 2 0 inb_S2x4x4x64x256_S1x1x1x64x256_1_2_0_0_0).view.write (Elt F) (jk c) (val c 1 2) Finset.univ : sProp 𝕄) := rfl
theorem payload_rcv_1_2_1 (c : Dev nD) (d : Fin 4) : (Rd val jk jr).payload ((c : Thread nD τ), SemLoc.dma (rcvS 1 2 1 inb_S3x4x4_S1x1x1_1_2_1)) 0 d
    = ((slotM 1 2 1 inb_S2x4x4x64x256_S1x1x1x64x256_1_2_1_0_0).view.loc (c : Thread nD τ) ↦[(slotM 1 2 1 inb_S2x4x4x64x256_S1x1x1x64x256_1_2_1_0_0).view.set]{fullShare} (slotM 1 2 1 inb_S2x4x4x64x256_S1x1x1x64x256_1_2_1_0_0).view.write (Elt F) (jk c) (val (ps c 1) 1 2) Finset.univ : sProp 𝕄) := rfl

theorem duties_snd_1_2_2 (c : Dev nD) : (Rd val jk jr).duties ((c : Thread nD τ), SemLoc.dma (sndS 1 2 2 inb_S3x4x4_S1x1x1_1_2_2)) 0 = {0} := rfl
theorem duties_rcv_1_2_2 (c : Dev nD) : (Rd val jk jr).duties ((c : Thread nD τ), SemLoc.dma (rcvS 1 2 2 inb_S3x4x4_S1x1x1_1_2_2)) 0 = {0} := rfl
theorem amount_snd_1_2_2 (c : Dev nD) (d : Fin 4) : (Rd val jk jr).amount ((c : Thread nD τ), SemLoc.dma (sndS 1 2 2 inb_S3x4x4_S1x1x1_1_2_2)) 0 d = N := rfl
theorem amount_rcv_1_2_2 (c : Dev nD) (d : Fin 4) : (Rd val jk jr).amount ((c : Thread nD τ), SemLoc.dma (rcvS 1 2 2 inb_S3x4x4_S1x1x1_1_2_2)) 0 d = N := rfl
theorem expect_snd_1_2_2 (c : Dev nD) : (Rd val jk jr).expect ((c : Thread nD τ), SemLoc.dma (sndS 1 2 2 inb_S3x4x4_S1x1x1_1_2_2)) 0 = N := by
  unfold Schedule.expect Schedule.amountOf; rw [duties_snd_1_2_2, Finset.sum_singleton]; rfl
theorem expect_rcv_1_2_2 (c : Dev nD) : (Rd val jk jr).expect ((c : Thread nD τ), SemLoc.dma (rcvS 1 2 2 inb_S3x4x4_S1x1x1_1_2_2)) 0 = N := by
  unfold Schedule.expect Schedule.amountOf; rw [duties_rcv_1_2_2, Finset.sum_singleton]; rfl
theorem payload_snd_1_2_2 (c : Dev nD) (d : Fin 4) : (Rd val jk jr).payload ((c : Thread nD τ), SemLoc.dma (sndS 1 2 2 inb_S3x4x4_S1x1x1_1_2_2)) 0 d
    = ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} (slotM 1 2 0 inb_S2x4x4x64x256_S1x1x1x64x256_1_2_0_0_0).view.write (Elt F) (jk c) (val c 1 2) Finset.univ : sProp 𝕄) := rfl
theorem payload_rcv_1_2_2 (c : Dev nD) (d : Fin 4) : (Rd val jk jr).payload ((c : Thread nD τ), SemLoc.dma (rcvS 1 2 2 inb_S3x4x4_S1x1x1_1_2_2)) 0 d
    = ((slotM 1 2 2 inb_S2x4x4x64x256_S1x1x1x64x256_1_2_2_0_0).view.loc (c : Thread nD τ) ↦[(slotM 1 2 2 inb_S2x4x4x64x256_S1x1x1x64x256_1_2_2_0_0).view.set]{fullShare} (slotM 1 2 2 inb_S2x4x4x64x256_S1x1x1x64x256_1_2_2_0_0).view.write (Elt F) (jk c) (val (ps c 2) 1 2) Finset.univ : sProp 𝕄) := rfl

theorem duties_snd_1_2_3 (c : Dev nD) : (Rd val jk jr).duties ((c : Thread nD τ), SemLoc.dma (sndS 1 2 3 inb_S3x4x4_S1x1x1_1_2_3)) 0 = {0} := rfl
theorem duties_rcv_1_2_3 (c : Dev nD) : (Rd val jk jr).duties ((c : Thread nD τ), SemLoc.dma (rcvS 1 2 3 inb_S3x4x4_S1x1x1_1_2_3)) 0 = {0} := rfl
theorem amount_snd_1_2_3 (c : Dev nD) (d : Fin 4) : (Rd val jk jr).amount ((c : Thread nD τ), SemLoc.dma (sndS 1 2 3 inb_S3x4x4_S1x1x1_1_2_3)) 0 d = N := rfl
theorem amount_rcv_1_2_3 (c : Dev nD) (d : Fin 4) : (Rd val jk jr).amount ((c : Thread nD τ), SemLoc.dma (rcvS 1 2 3 inb_S3x4x4_S1x1x1_1_2_3)) 0 d = N := rfl
theorem expect_snd_1_2_3 (c : Dev nD) : (Rd val jk jr).expect ((c : Thread nD τ), SemLoc.dma (sndS 1 2 3 inb_S3x4x4_S1x1x1_1_2_3)) 0 = N := by
  unfold Schedule.expect Schedule.amountOf; rw [duties_snd_1_2_3, Finset.sum_singleton]; rfl
theorem expect_rcv_1_2_3 (c : Dev nD) : (Rd val jk jr).expect ((c : Thread nD τ), SemLoc.dma (rcvS 1 2 3 inb_S3x4x4_S1x1x1_1_2_3)) 0 = N := by
  unfold Schedule.expect Schedule.amountOf; rw [duties_rcv_1_2_3, Finset.sum_singleton]; rfl
theorem payload_snd_1_2_3 (c : Dev nD) (d : Fin 4) : (Rd val jk jr).payload ((c : Thread nD τ), SemLoc.dma (sndS 1 2 3 inb_S3x4x4_S1x1x1_1_2_3)) 0 d
    = ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} (slotM 1 2 0 inb_S2x4x4x64x256_S1x1x1x64x256_1_2_0_0_0).view.write (Elt F) (jk c) (val c 1 2) Finset.univ : sProp 𝕄) := rfl
theorem payload_rcv_1_2_3 (c : Dev nD) (d : Fin 4) : (Rd val jk jr).payload ((c : Thread nD τ), SemLoc.dma (rcvS 1 2 3 inb_S3x4x4_S1x1x1_1_2_3)) 0 d
    = ((slotM 1 2 3 inb_S2x4x4x64x256_S1x1x1x64x256_1_2_3_0_0).view.loc (c : Thread nD τ) ↦[(slotM 1 2 3 inb_S2x4x4x64x256_S1x1x1x64x256_1_2_3_0_0).view.set]{fullShare} (slotM 1 2 3 inb_S2x4x4x64x256_S1x1x1x64x256_1_2_3_0_0).view.write (Elt F) (jk c) (val (ps c 3) 1 2) Finset.univ : sProp 𝕄) := rfl

theorem duties_snd_1_3_1 (c : Dev nD) : (Rd val jk jr).duties ((c : Thread nD τ), SemLoc.dma (sndS 1 3 1 inb_S3x4x4_S1x1x1_1_3_1)) 0 = {0} := rfl
theorem duties_rcv_1_3_1 (c : Dev nD) : (Rd val jk jr).duties ((c : Thread nD τ), SemLoc.dma (rcvS 1 3 1 inb_S3x4x4_S1x1x1_1_3_1)) 0 = {0} := rfl
theorem amount_snd_1_3_1 (c : Dev nD) (d : Fin 4) : (Rd val jk jr).amount ((c : Thread nD τ), SemLoc.dma (sndS 1 3 1 inb_S3x4x4_S1x1x1_1_3_1)) 0 d = N := rfl
theorem amount_rcv_1_3_1 (c : Dev nD) (d : Fin 4) : (Rd val jk jr).amount ((c : Thread nD τ), SemLoc.dma (rcvS 1 3 1 inb_S3x4x4_S1x1x1_1_3_1)) 0 d = N := rfl
theorem expect_snd_1_3_1 (c : Dev nD) : (Rd val jk jr).expect ((c : Thread nD τ), SemLoc.dma (sndS 1 3 1 inb_S3x4x4_S1x1x1_1_3_1)) 0 = N := by
  unfold Schedule.expect Schedule.amountOf; rw [duties_snd_1_3_1, Finset.sum_singleton]; rfl
theorem expect_rcv_1_3_1 (c : Dev nD) : (Rd val jk jr).expect ((c : Thread nD τ), SemLoc.dma (rcvS 1 3 1 inb_S3x4x4_S1x1x1_1_3_1)) 0 = N := by
  unfold Schedule.expect Schedule.amountOf; rw [duties_rcv_1_3_1, Finset.sum_singleton]; rfl
theorem payload_snd_1_3_1 (c : Dev nD) (d : Fin 4) : (Rd val jk jr).payload ((c : Thread nD τ), SemLoc.dma (sndS 1 3 1 inb_S3x4x4_S1x1x1_1_3_1)) 0 d
    = ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} (slotM 1 3 0 inb_S2x4x4x64x256_S1x1x1x64x256_1_3_0_0_0).view.write (Elt F) (jk c) (val c 1 3) Finset.univ : sProp 𝕄) := rfl
theorem payload_rcv_1_3_1 (c : Dev nD) (d : Fin 4) : (Rd val jk jr).payload ((c : Thread nD τ), SemLoc.dma (rcvS 1 3 1 inb_S3x4x4_S1x1x1_1_3_1)) 0 d
    = ((slotM 1 3 1 inb_S2x4x4x64x256_S1x1x1x64x256_1_3_1_0_0).view.loc (c : Thread nD τ) ↦[(slotM 1 3 1 inb_S2x4x4x64x256_S1x1x1x64x256_1_3_1_0_0).view.set]{fullShare} (slotM 1 3 1 inb_S2x4x4x64x256_S1x1x1x64x256_1_3_1_0_0).view.write (Elt F) (jk c) (val (ps c 1) 1 3) Finset.univ : sProp 𝕄) := rfl

theorem duties_snd_1_3_2 (c : Dev nD) : (Rd val jk jr).duties ((c : Thread nD τ), SemLoc.dma (sndS 1 3 2 inb_S3x4x4_S1x1x1_1_3_2)) 0 = {0} := rfl
theorem duties_rcv_1_3_2 (c : Dev nD) : (Rd val jk jr).duties ((c : Thread nD τ), SemLoc.dma (rcvS 1 3 2 inb_S3x4x4_S1x1x1_1_3_2)) 0 = {0} := rfl
theorem amount_snd_1_3_2 (c : Dev nD) (d : Fin 4) : (Rd val jk jr).amount ((c : Thread nD τ), SemLoc.dma (sndS 1 3 2 inb_S3x4x4_S1x1x1_1_3_2)) 0 d = N := rfl
theorem amount_rcv_1_3_2 (c : Dev nD) (d : Fin 4) : (Rd val jk jr).amount ((c : Thread nD τ), SemLoc.dma (rcvS 1 3 2 inb_S3x4x4_S1x1x1_1_3_2)) 0 d = N := rfl
theorem expect_snd_1_3_2 (c : Dev nD) : (Rd val jk jr).expect ((c : Thread nD τ), SemLoc.dma (sndS 1 3 2 inb_S3x4x4_S1x1x1_1_3_2)) 0 = N := by
  unfold Schedule.expect Schedule.amountOf; rw [duties_snd_1_3_2, Finset.sum_singleton]; rfl
theorem expect_rcv_1_3_2 (c : Dev nD) : (Rd val jk jr).expect ((c : Thread nD τ), SemLoc.dma (rcvS 1 3 2 inb_S3x4x4_S1x1x1_1_3_2)) 0 = N := by
  unfold Schedule.expect Schedule.amountOf; rw [duties_rcv_1_3_2, Finset.sum_singleton]; rfl
theorem payload_snd_1_3_2 (c : Dev nD) (d : Fin 4) : (Rd val jk jr).payload ((c : Thread nD τ), SemLoc.dma (sndS 1 3 2 inb_S3x4x4_S1x1x1_1_3_2)) 0 d
    = ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} (slotM 1 3 0 inb_S2x4x4x64x256_S1x1x1x64x256_1_3_0_0_0).view.write (Elt F) (jk c) (val c 1 3) Finset.univ : sProp 𝕄) := rfl
theorem payload_rcv_1_3_2 (c : Dev nD) (d : Fin 4) : (Rd val jk jr).payload ((c : Thread nD τ), SemLoc.dma (rcvS 1 3 2 inb_S3x4x4_S1x1x1_1_3_2)) 0 d
    = ((slotM 1 3 2 inb_S2x4x4x64x256_S1x1x1x64x256_1_3_2_0_0).view.loc (c : Thread nD τ) ↦[(slotM 1 3 2 inb_S2x4x4x64x256_S1x1x1x64x256_1_3_2_0_0).view.set]{fullShare} (slotM 1 3 2 inb_S2x4x4x64x256_S1x1x1x64x256_1_3_2_0_0).view.write (Elt F) (jk c) (val (ps c 2) 1 3) Finset.univ : sProp 𝕄) := rfl

theorem duties_snd_1_3_3 (c : Dev nD) : (Rd val jk jr).duties ((c : Thread nD τ), SemLoc.dma (sndS 1 3 3 inb_S3x4x4_S1x1x1_1_3_3)) 0 = {0} := rfl
theorem duties_rcv_1_3_3 (c : Dev nD) : (Rd val jk jr).duties ((c : Thread nD τ), SemLoc.dma (rcvS 1 3 3 inb_S3x4x4_S1x1x1_1_3_3)) 0 = {0} := rfl
theorem amount_snd_1_3_3 (c : Dev nD) (d : Fin 4) : (Rd val jk jr).amount ((c : Thread nD τ), SemLoc.dma (sndS 1 3 3 inb_S3x4x4_S1x1x1_1_3_3)) 0 d = N := rfl
theorem amount_rcv_1_3_3 (c : Dev nD) (d : Fin 4) : (Rd val jk jr).amount ((c : Thread nD τ), SemLoc.dma (rcvS 1 3 3 inb_S3x4x4_S1x1x1_1_3_3)) 0 d = N := rfl
theorem expect_snd_1_3_3 (c : Dev nD) : (Rd val jk jr).expect ((c : Thread nD τ), SemLoc.dma (sndS 1 3 3 inb_S3x4x4_S1x1x1_1_3_3)) 0 = N := by
  unfold Schedule.expect Schedule.amountOf; rw [duties_snd_1_3_3, Finset.sum_singleton]; rfl
theorem expect_rcv_1_3_3 (c : Dev nD) : (Rd val jk jr).expect ((c : Thread nD τ), SemLoc.dma (rcvS 1 3 3 inb_S3x4x4_S1x1x1_1_3_3)) 0 = N := by
  unfold Schedule.expect Schedule.amountOf; rw [duties_rcv_1_3_3, Finset.sum_singleton]; rfl
theorem payload_snd_1_3_3 (c : Dev nD) (d : Fin 4) : (Rd val jk jr).payload ((c : Thread nD τ), SemLoc.dma (sndS 1 3 3 inb_S3x4x4_S1x1x1_1_3_3)) 0 d
    = ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} (slotM 1 3 0 inb_S2x4x4x64x256_S1x1x1x64x256_1_3_0_0_0).view.write (Elt F) (jk c) (val c 1 3) Finset.univ : sProp 𝕄) := rfl
theorem payload_rcv_1_3_3 (c : Dev nD) (d : Fin 4) : (Rd val jk jr).payload ((c : Thread nD τ), SemLoc.dma (rcvS 1 3 3 inb_S3x4x4_S1x1x1_1_3_3)) 0 d
    = ((slotM 1 3 3 inb_S2x4x4x64x256_S1x1x1x64x256_1_3_3_0_0).view.loc (c : Thread nD τ) ↦[(slotM 1 3 3 inb_S2x4x4x64x256_S1x1x1x64x256_1_3_3_0_0).view.set]{fullShare} (slotM 1 3 3 inb_S2x4x4x64x256_S1x1x1x64x256_1_3_3_0_0).view.write (Elt F) (jk c) (val (ps c 3) 1 3) Finset.univ : sProp 𝕄) := rfl

theorem duties_snd_2_0_1 (c : Dev nD) : (Rd val jk jr).duties ((c : Thread nD τ), SemLoc.dma (sndS 2 0 1 inb_S3x4x4_S1x1x1_2_0_1)) 0 = {0} := rfl
theorem duties_rcv_2_0_1 (c : Dev nD) : (Rd val jk jr).duties ((c : Thread nD τ), SemLoc.dma (rcvS 2 0 1 inb_S3x4x4_S1x1x1_2_0_1)) 0 = {0} := rfl
theorem amount_snd_2_0_1 (c : Dev nD) (d : Fin 4) : (Rd val jk jr).amount ((c : Thread nD τ), SemLoc.dma (sndS 2 0 1 inb_S3x4x4_S1x1x1_2_0_1)) 0 d = N := rfl
theorem amount_rcv_2_0_1 (c : Dev nD) (d : Fin 4) : (Rd val jk jr).amount ((c : Thread nD τ), SemLoc.dma (rcvS 2 0 1 inb_S3x4x4_S1x1x1_2_0_1)) 0 d = N := rfl
theorem expect_snd_2_0_1 (c : Dev nD) : (Rd val jk jr).expect ((c : Thread nD τ), SemLoc.dma (sndS 2 0 1 inb_S3x4x4_S1x1x1_2_0_1)) 0 = N := by
  unfold Schedule.expect Schedule.amountOf; rw [duties_snd_2_0_1, Finset.sum_singleton]; rfl
theorem expect_rcv_2_0_1 (c : Dev nD) : (Rd val jk jr).expect ((c : Thread nD τ), SemLoc.dma (rcvS 2 0 1 inb_S3x4x4_S1x1x1_2_0_1)) 0 = N := by
  unfold Schedule.expect Schedule.amountOf; rw [duties_rcv_2_0_1, Finset.sum_singleton]; rfl
theorem payload_snd_2_0_1 (c : Dev nD) (d : Fin 4) : (Rd val jk jr).payload ((c : Thread nD τ), SemLoc.dma (sndS 2 0 1 inb_S3x4x4_S1x1x1_2_0_1)) 0 d
    = ((rsM 0 1 inb_S2x4x64x256_S1x1x64x256_0_1_0_0).view.loc (c : Thread nD τ) ↦[(rsM 0 1 inb_S2x4x64x256_S1x1x64x256_0_1_0_0).view.set]{fullShare} (rsM 0 1 inb_S2x4x64x256_S1x1x64x256_0_1_0_0).view.write (Elt F) (jr c) (val c 2 1) Finset.univ : sProp 𝕄) := rfl
theorem payload_rcv_2_0_1 (c : Dev nD) (d : Fin 4) : (Rd val jk jr).payload ((c : Thread nD τ), SemLoc.dma (rcvS 2 0 1 inb_S3x4x4_S1x1x1_2_0_1)) 0 d
    = ((rsM 1 1 inb_S2x4x64x256_S1x1x64x256_1_1_0_0).view.loc (c : Thread nD τ) ↦[(rsM 1 1 inb_S2x4x64x256_S1x1x64x256_1_1_0_0).view.set]{fullShare} (rsM 1 1 inb_S2x4x64x256_S1x1x64x256_1_1_0_0).view.write (Elt F) (jr c) (val (ps c 1) 2 1) Finset.univ : sProp 𝕄) := rfl

theorem duties_snd_2_0_2 (c : Dev nD) : (Rd val jk jr).duties ((c : Thread nD τ), SemLoc.dma (sndS 2 0 2 inb_S3x4x4_S1x1x1_2_0_2)) 0 = {0} := rfl
theorem duties_rcv_2_0_2 (c : Dev nD) : (Rd val jk jr).duties ((c : Thread nD τ), SemLoc.dma (rcvS 2 0 2 inb_S3x4x4_S1x1x1_2_0_2)) 0 = {0} := rfl
theorem amount_snd_2_0_2 (c : Dev nD) (d : Fin 4) : (Rd val jk jr).amount ((c : Thread nD τ), SemLoc.dma (sndS 2 0 2 inb_S3x4x4_S1x1x1_2_0_2)) 0 d = N := rfl
theorem amount_rcv_2_0_2 (c : Dev nD) (d : Fin 4) : (Rd val jk jr).amount ((c : Thread nD τ), SemLoc.dma (rcvS 2 0 2 inb_S3x4x4_S1x1x1_2_0_2)) 0 d = N := rfl
theorem expect_snd_2_0_2 (c : Dev nD) : (Rd val jk jr).expect ((c : Thread nD τ), SemLoc.dma (sndS 2 0 2 inb_S3x4x4_S1x1x1_2_0_2)) 0 = N := by
  unfold Schedule.expect Schedule.amountOf; rw [duties_snd_2_0_2, Finset.sum_singleton]; rfl
theorem expect_rcv_2_0_2 (c : Dev nD) : (Rd val jk jr).expect ((c : Thread nD τ), SemLoc.dma (rcvS 2 0 2 inb_S3x4x4_S1x1x1_2_0_2)) 0 = N := by
  unfold Schedule.expect Schedule.amountOf; rw [duties_rcv_2_0_2, Finset.sum_singleton]; rfl
theorem payload_snd_2_0_2 (c : Dev nD) (d : Fin 4) : (Rd val jk jr).payload ((c : Thread nD τ), SemLoc.dma (sndS 2 0 2 inb_S3x4x4_S1x1x1_2_0_2)) 0 d
    = ((rsM 0 2 inb_S2x4x64x256_S1x1x64x256_0_2_0_0).view.loc (c : Thread nD τ) ↦[(rsM 0 2 inb_S2x4x64x256_S1x1x64x256_0_2_0_0).view.set]{fullShare} (rsM 0 2 inb_S2x4x64x256_S1x1x64x256_0_2_0_0).view.write (Elt F) (jr c) (val c 2 2) Finset.univ : sProp 𝕄) := rfl
theorem payload_rcv_2_0_2 (c : Dev nD) (d : Fin 4) : (Rd val jk jr).payload ((c : Thread nD τ), SemLoc.dma (rcvS 2 0 2 inb_S3x4x4_S1x1x1_2_0_2)) 0 d
    = ((rsM 1 2 inb_S2x4x64x256_S1x1x64x256_1_2_0_0).view.loc (c : Thread nD τ) ↦[(rsM 1 2 inb_S2x4x64x256_S1x1x64x256_1_2_0_0).view.set]{fullShare} (rsM 1 2 inb_S2x4x64x256_S1x1x64x256_1_2_0_0).view.write (Elt F) (jr c) (val (ps c 2) 2 2) Finset.univ : sProp 𝕄) := rfl

theorem duties_snd_2_0_3 (c : Dev nD) : (Rd val jk jr).duties ((c : Thread nD τ), SemLoc.dma (sndS 2 0 3 inb_S3x4x4_S1x1x1_2_0_3)) 0 = {0} := rfl
theorem duties_rcv_2_0_3 (c : Dev nD) : (Rd val jk jr).duties ((c : Thread nD τ), SemLoc.dma (rcvS 2 0 3 inb_S3x4x4_S1x1x1_2_0_3)) 0 = {0} := rfl
theorem amount_snd_2_0_3 (c : Dev nD) (d : Fin 4) : (Rd val jk jr).amount ((c : Thread nD τ), SemLoc.dma (sndS 2 0 3 inb_S3x4x4_S1x1x1_2_0_3)) 0 d = N := rfl
theorem amount_rcv_2_0_3 (c : Dev nD) (d : Fin 4) : (Rd val jk jr).amount ((c : Thread nD τ), SemLoc.dma (rcvS 2 0 3 inb_S3x4x4_S1x1x1_2_0_3)) 0 d = N := rfl
theorem expect_snd_2_0_3 (c : Dev nD) : (Rd val jk jr).expect ((c : Thread nD τ), SemLoc.dma (sndS 2 0 3 inb_S3x4x4_S1x1x1_2_0_3)) 0 = N := by
  unfold Schedule.expect Schedule.amountOf; rw [duties_snd_2_0_3, Finset.sum_singleton]; rfl
theorem expect_rcv_2_0_3 (c : Dev nD) : (Rd val jk jr).expect ((c : Thread nD τ), SemLoc.dma (rcvS 2 0 3 inb_S3x4x4_S1x1x1_2_0_3)) 0 = N := by
  unfold Schedule.expect Schedule.amountOf; rw [duties_rcv_2_0_3, Finset.sum_singleton]; rfl
theorem payload_snd_2_0_3 (c : Dev nD) (d : Fin 4) : (Rd val jk jr).payload ((c : Thread nD τ), SemLoc.dma (sndS 2 0 3 inb_S3x4x4_S1x1x1_2_0_3)) 0 d
    = ((rsM 0 3 inb_S2x4x64x256_S1x1x64x256_0_3_0_0).view.loc (c : Thread nD τ) ↦[(rsM 0 3 inb_S2x4x64x256_S1x1x64x256_0_3_0_0).view.set]{fullShare} (rsM 0 3 inb_S2x4x64x256_S1x1x64x256_0_3_0_0).view.write (Elt F) (jr c) (val c 2 3) Finset.univ : sProp 𝕄) := rfl
theorem payload_rcv_2_0_3 (c : Dev nD) (d : Fin 4) : (Rd val jk jr).payload ((c : Thread nD τ), SemLoc.dma (rcvS 2 0 3 inb_S3x4x4_S1x1x1_2_0_3)) 0 d
    = ((rsM 1 3 inb_S2x4x64x256_S1x1x64x256_1_3_0_0).view.loc (c : Thread nD τ) ↦[(rsM 1 3 inb_S2x4x64x256_S1x1x64x256_1_3_0_0).view.set]{fullShare} (rsM 1 3 inb_S2x4x64x256_S1x1x64x256_1_3_0_0).view.write (Elt F) (jr c) (val (ps c 3) 2 3) Finset.univ : sProp 𝕄) := rfl

end Cert.Kernel.Mlp

end
-- ==== Proof.Bits.BodyDefs.lean ====
import proofs.«900991_g7700000000000992_dist_mlpseq_tp1d_rep_bs_b256_d256_h512_v7x_i4_bf16_1_alg».proof.Proof.Bits.Tables
import proofs.«900991_g7700000000000992_dist_mlpseq_tp1d_rep_bs_b256_d256_h512_v7x_i4_bf16_1_alg».proof.Proof.Gen.Kernel.Frame

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-- The memory at launch. -/
def s₀ : MemSt nD τ sig (Elt F) := ⟨m, fun _ => 0, ρ⟩

/-! ## What a device owes at launch, and the levels -/

/-- Device `c` owes each of the three other devices one unit on its barrier cell, and the device `o` ahead one block's
    credit on each of the nine receive cells of slot `o`: summed in the reverse of the order in which the body pays. -/
def O₀ (c : Dev nD) : CellTallies nD τ sig Unit :=
  tallyAt (((pe c 3) : Thread nD τ), SemLoc.dma (rcvS 2 0 3 inb_S3x4x4_S1x1x1_2_0_3)) () N
    + tallyAt (((pe c 1) : Thread nD τ), SemLoc.dma (rcvS 2 0 1 inb_S3x4x4_S1x1x1_2_0_1)) () N
    + tallyAt (((pe c 2) : Thread nD τ), SemLoc.dma (rcvS 2 0 2 inb_S3x4x4_S1x1x1_2_0_2)) () N
    + tallyAt (((pe c 3) : Thread nD τ), SemLoc.dma (rcvS 1 3 3 inb_S3x4x4_S1x1x1_1_3_3)) () N
    + tallyAt (((pe c 1) : Thread nD τ), SemLoc.dma (rcvS 1 3 1 inb_S3x4x4_S1x1x1_1_3_1)) () N
    + tallyAt (((pe c 2) : Thread nD τ), SemLoc.dma (rcvS 1 3 2 inb_S3x4x4_S1x1x1_1_3_2)) () N
    + tallyAt (((pe c 3) : Thread nD τ), SemLoc.dma (rcvS 1 2 3 inb_S3x4x4_S1x1x1_1_2_3)) () N
    + tallyAt (((pe c 1) : Thread nD τ), SemLoc.dma (rcvS 1 2 1 inb_S3x4x4_S1x1x1_1_2_1)) () N
    + tallyAt (((pe c 2) : Thread nD τ), SemLoc.dma (rcvS 1 2 2 inb_S3x4x4_S1x1x1_1_2_2)) () N
    + tallyAt (((pe c 3) : Thread nD τ), SemLoc.dma (rcvS 1 1 3 inb_S3x4x4_S1x1x1_1_1_3)) () N
    + tallyAt (((pe c 1) : Thread nD τ), SemLoc.dma (rcvS 1 1 1 inb_S3x4x4_S1x1x1_1_1_1)) () N
    + tallyAt (((pe c 2) : Thread nD τ), SemLoc.dma (rcvS 1 1 2 inb_S3x4x4_S1x1x1_1_1_2)) () N
    + tallyAt (((pe c 3) : Thread nD τ), SemLoc.dma (rcvS 1 0 3 inb_S3x4x4_S1x1x1_1_0_3)) () N
    + tallyAt (((pe c 1) : Thread nD τ), SemLoc.dma (rcvS 1 0 1 inb_S3x4x4_S1x1x1_1_0_1)) () N
    + tallyAt (((pe c 2) : Thread nD τ), SemLoc.dma (rcvS 1 0 2 inb_S3x4x4_S1x1x1_1_0_2)) () N
    + tallyAt (((pe c 3) : Thread nD τ), SemLoc.dma (rcvS 0 3 3 inb_S3x4x4_S1x1x1_0_3_3)) () N
    + tallyAt (((pe c 1) : Thread nD τ), SemLoc.dma (rcvS 0 3 1 inb_S3x4x4_S1x1x1_0_3_1)) () N
    + tallyAt (((pe c 2) : Thread nD τ), SemLoc.dma (rcvS 0 3 2 inb_S3x4x4_S1x1x1_0_3_2)) () N
    + tallyAt (((pe c 3) : Thread nD τ), SemLoc.dma (rcvS 0 2 3 inb_S3x4x4_S1x1x1_0_2_3)) () N
    + tallyAt (((pe c 1) : Thread nD τ), SemLoc.dma (rcvS 0 2 1 inb_S3x4x4_S1x1x1_0_2_1)) () N
    + tallyAt (((pe c 2) : Thread nD τ), SemLoc.dma (rcvS 0 2 2 inb_S3x4x4_S1x1x1_0_2_2)) () N
    + tallyAt (((pe c 3) : Thread nD τ), SemLoc.dma (rcvS 0 1 3 inb_S3x4x4_S1x1x1_0_1_3)) () N
    + tallyAt (((pe c 1) : Thread nD τ), SemLoc.dma (rcvS 0 1 1 inb_S3x4x4_S1x1x1_0_1_1)) () N
    + tallyAt (((pe c 2) : Thread nD τ), SemLoc.dma (rcvS 0 1 2 inb_S3x4x4_S1x1x1_0_1_2)) () N
    + tallyAt (((pe c 3) : Thread nD τ), SemLoc.dma (rcvS 0 0 3 inb_S3x4x4_S1x1x1_0_0_3)) () N
    + tallyAt (((pe c 1) : Thread nD τ), SemLoc.dma (rcvS 0 0 1 inb_S3x4x4_S1x1x1_0_0_1)) () N
    + tallyAt (((pe c 2) : Thread nD τ), SemLoc.dma (rcvS 0 0 2 inb_S3x4x4_S1x1x1_0_0_2)) () N
    + tallyAt (barCell (pe c 3)) () 1
    + tallyAt (barCell (pe c 2)) () 1
    + tallyAt (barCell (pe c 1)) () 1

def L (g : GSem nD τ sig) : Finset Unit := if g.1.2 = .tc then {()} else ∅
/-- Barrier cells at 1, a receive cell of layer `l` at `2 + l`, every other cell at 0: a device waits on a layer's landings
    only when all it still owes lies in that layer's copies or later ones. -/
def lv (g : GSem nD τ sig) (_ : Unit) : ℕ :=
  match g.2 with
  | .reg s => if s = barS then 1 else 0
  | .dma q => match rcvKey q with | some k => 2 + k.1 | none => 0

/-! ## The ghost state of one device -/

def invs (K : GSem nD τ sig → ℕ) (c : Dev nD) : sProp 𝕄 :=
  iprop(cellInv ER (Rd val jk jr) (K (barCell c)) (barCell c)
    ∗ cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
    ∗ cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
    ∗ cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
    ∗ cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
    ∗ cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
    ∗ cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
    ∗ cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
    ∗ cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
    ∗ cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
    ∗ cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
    ∗ cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
    ∗ cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
    ∗ cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
    ∗ cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
    ∗ cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
    ∗ cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
    ∗ cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
    ∗ cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
    ∗ cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
    ∗ cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
    ∗ cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
    ∗ cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
    ∗ cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
    ∗ cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
    ∗ cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
    ∗ cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
    ∗ cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
    ∗ cellInv ER (Rd val jk jr) (K ((c : Thread nD τ), SemLoc.dma (rcvS 0 0 1 inb_S3x4x4_S1x1x1_0_0_1))) ((c : Thread nD τ), SemLoc.dma (rcvS 0 0 1 inb_S3x4x4_S1x1x1_0_0_1))
    ∗ cellInv ER (Rd val jk jr) (K ((c : Thread nD τ), SemLoc.dma (rcvS 0 0 2 inb_S3x4x4_S1x1x1_0_0_2))) ((c : Thread nD τ), SemLoc.dma (rcvS 0 0 2 inb_S3x4x4_S1x1x1_0_0_2))
    ∗ cellInv ER (Rd val jk jr) (K ((c : Thread nD τ), SemLoc.dma (rcvS 0 0 3 inb_S3x4x4_S1x1x1_0_0_3))) ((c : Thread nD τ), SemLoc.dma (rcvS 0 0 3 inb_S3x4x4_S1x1x1_0_0_3))
    ∗ cellInv ER (Rd val jk jr) (K ((c : Thread nD τ), SemLoc.dma (rcvS 0 1 1 inb_S3x4x4_S1x1x1_0_1_1))) ((c : Thread nD τ), SemLoc.dma (rcvS 0 1 1 inb_S3x4x4_S1x1x1_0_1_1))
    ∗ cellInv ER (Rd val jk jr) (K ((c : Thread nD τ), SemLoc.dma (rcvS 0 1 2 inb_S3x4x4_S1x1x1_0_1_2))) ((c : Thread nD τ), SemLoc.dma (rcvS 0 1 2 inb_S3x4x4_S1x1x1_0_1_2))
    ∗ cellInv ER (Rd val jk jr) (K ((c : Thread nD τ), SemLoc.dma (rcvS 0 1 3 inb_S3x4x4_S1x1x1_0_1_3))) ((c : Thread nD τ), SemLoc.dma (rcvS 0 1 3 inb_S3x4x4_S1x1x1_0_1_3))
    ∗ cellInv ER (Rd val jk jr) (K ((c : Thread nD τ), SemLoc.dma (rcvS 0 2 1 inb_S3x4x4_S1x1x1_0_2_1))) ((c : Thread nD τ), SemLoc.dma (rcvS 0 2 1 inb_S3x4x4_S1x1x1_0_2_1))
    ∗ cellInv ER (Rd val jk jr) (K ((c : Thread nD τ), SemLoc.dma (rcvS 0 2 2 inb_S3x4x4_S1x1x1_0_2_2))) ((c : Thread nD τ), SemLoc.dma (rcvS 0 2 2 inb_S3x4x4_S1x1x1_0_2_2))
    ∗ cellInv ER (Rd val jk jr) (K ((c : Thread nD τ), SemLoc.dma (rcvS 0 2 3 inb_S3x4x4_S1x1x1_0_2_3))) ((c : Thread nD τ), SemLoc.dma (rcvS 0 2 3 inb_S3x4x4_S1x1x1_0_2_3))
    ∗ cellInv ER (Rd val jk jr) (K ((c : Thread nD τ), SemLoc.dma (rcvS 0 3 1 inb_S3x4x4_S1x1x1_0_3_1))) ((c : Thread nD τ), SemLoc.dma (rcvS 0 3 1 inb_S3x4x4_S1x1x1_0_3_1))
    ∗ cellInv ER (Rd val jk jr) (K ((c : Thread nD τ), SemLoc.dma (rcvS 0 3 2 inb_S3x4x4_S1x1x1_0_3_2))) ((c : Thread nD τ), SemLoc.dma (rcvS 0 3 2 inb_S3x4x4_S1x1x1_0_3_2))
    ∗ cellInv ER (Rd val jk jr) (K ((c : Thread nD τ), SemLoc.dma (rcvS 0 3 3 inb_S3x4x4_S1x1x1_0_3_3))) ((c : Thread nD τ), SemLoc.dma (rcvS 0 3 3 inb_S3x4x4_S1x1x1_0_3_3))
    ∗ cellInv ER (Rd val jk jr) (K ((c : Thread nD τ), SemLoc.dma (rcvS 1 0 1 inb_S3x4x4_S1x1x1_1_0_1))) ((c : Thread nD τ), SemLoc.dma (rcvS 1 0 1 inb_S3x4x4_S1x1x1_1_0_1))
    ∗ cellInv ER (Rd val jk jr) (K ((c : Thread nD τ), SemLoc.dma (rcvS 1 0 2 inb_S3x4x4_S1x1x1_1_0_2))) ((c : Thread nD τ), SemLoc.dma (rcvS 1 0 2 inb_S3x4x4_S1x1x1_1_0_2))
    ∗ cellInv ER (Rd val jk jr) (K ((c : Thread nD τ), SemLoc.dma (rcvS 1 0 3 inb_S3x4x4_S1x1x1_1_0_3))) ((c : Thread nD τ), SemLoc.dma (rcvS 1 0 3 inb_S3x4x4_S1x1x1_1_0_3))
    ∗ cellInv ER (Rd val jk jr) (K ((c : Thread nD τ), SemLoc.dma (rcvS 1 1 1 inb_S3x4x4_S1x1x1_1_1_1))) ((c : Thread nD τ), SemLoc.dma (rcvS 1 1 1 inb_S3x4x4_S1x1x1_1_1_1))
    ∗ cellInv ER (Rd val jk jr) (K ((c : Thread nD τ), SemLoc.dma (rcvS 1 1 2 inb_S3x4x4_S1x1x1_1_1_2))) ((c : Thread nD τ), SemLoc.dma (rcvS 1 1 2 inb_S3x4x4_S1x1x1_1_1_2))
    ∗ cellInv ER (Rd val jk jr) (K ((c : Thread nD τ), SemLoc.dma (rcvS 1 1 3 inb_S3x4x4_S1x1x1_1_1_3))) ((c : Thread nD τ), SemLoc.dma (rcvS 1 1 3 inb_S3x4x4_S1x1x1_1_1_3))
    ∗ cellInv ER (Rd val jk jr) (K ((c : Thread nD τ), SemLoc.dma (rcvS 1 2 1 inb_S3x4x4_S1x1x1_1_2_1))) ((c : Thread nD τ), SemLoc.dma (rcvS 1 2 1 inb_S3x4x4_S1x1x1_1_2_1))
    ∗ cellInv ER (Rd val jk jr) (K ((c : Thread nD τ), SemLoc.dma (rcvS 1 2 2 inb_S3x4x4_S1x1x1_1_2_2))) ((c : Thread nD τ), SemLoc.dma (rcvS 1 2 2 inb_S3x4x4_S1x1x1_1_2_2))
    ∗ cellInv ER (Rd val jk jr) (K ((c : Thread nD τ), SemLoc.dma (rcvS 1 2 3 inb_S3x4x4_S1x1x1_1_2_3))) ((c : Thread nD τ), SemLoc.dma (rcvS 1 2 3 inb_S3x4x4_S1x1x1_1_2_3))
    ∗ cellInv ER (Rd val jk jr) (K ((c : Thread nD τ), SemLoc.dma (rcvS 1 3 1 inb_S3x4x4_S1x1x1_1_3_1))) ((c : Thread nD τ), SemLoc.dma (rcvS 1 3 1 inb_S3x4x4_S1x1x1_1_3_1))
    ∗ cellInv ER (Rd val jk jr) (K ((c : Thread nD τ), SemLoc.dma (rcvS 1 3 2 inb_S3x4x4_S1x1x1_1_3_2))) ((c : Thread nD τ), SemLoc.dma (rcvS 1 3 2 inb_S3x4x4_S1x1x1_1_3_2))
    ∗ cellInv ER (Rd val jk jr) (K ((c : Thread nD τ), SemLoc.dma (rcvS 1 3 3 inb_S3x4x4_S1x1x1_1_3_3))) ((c : Thread nD τ), SemLoc.dma (rcvS 1 3 3 inb_S3x4x4_S1x1x1_1_3_3))
    ∗ cellInv ER (Rd val jk jr) (K ((c : Thread nD τ), SemLoc.dma (rcvS 2 0 1 inb_S3x4x4_S1x1x1_2_0_1))) ((c : Thread nD τ), SemLoc.dma (rcvS 2 0 1 inb_S3x4x4_S1x1x1_2_0_1))
    ∗ cellInv ER (Rd val jk jr) (K ((c : Thread nD τ), SemLoc.dma (rcvS 2 0 2 inb_S3x4x4_S1x1x1_2_0_2))) ((c : Thread nD τ), SemLoc.dma (rcvS 2 0 2 inb_S3x4x4_S1x1x1_2_0_2))
    ∗ cellInv ER (Rd val jk jr) (K ((c : Thread nD τ), SemLoc.dma (rcvS 2 0 3 inb_S3x4x4_S1x1x1_2_0_3))) ((c : Thread nD τ), SemLoc.dma (rcvS 2 0 3 inb_S3x4x4_S1x1x1_2_0_3))
    ∗ cellInv ER (Rd val jk jr) (K (barCell (pe c 1))) (barCell (pe c 1))
    ∗ cellInv ER (Rd val jk jr) (K (barCell (pe c 2))) (barCell (pe c 2))
    ∗ cellInv ER (Rd val jk jr) (K (barCell (pe c 3))) (barCell (pe c 3))
    ∗ cellInv ER (Rd val jk jr) (K (((pe c 1) : Thread nD τ), SemLoc.dma (rcvS 0 0 1 inb_S3x4x4_S1x1x1_0_0_1))) (((pe c 1) : Thread nD τ), SemLoc.dma (rcvS 0 0 1 inb_S3x4x4_S1x1x1_0_0_1))
    ∗ cellInv ER (Rd val jk jr) (K (((pe c 2) : Thread nD τ), SemLoc.dma (rcvS 0 0 2 inb_S3x4x4_S1x1x1_0_0_2))) (((pe c 2) : Thread nD τ), SemLoc.dma (rcvS 0 0 2 inb_S3x4x4_S1x1x1_0_0_2))
    ∗ cellInv ER (Rd val jk jr) (K (((pe c 3) : Thread nD τ), SemLoc.dma (rcvS 0 0 3 inb_S3x4x4_S1x1x1_0_0_3))) (((pe c 3) : Thread nD τ), SemLoc.dma (rcvS 0 0 3 inb_S3x4x4_S1x1x1_0_0_3))
    ∗ cellInv ER (Rd val jk jr) (K (((pe c 1) : Thread nD τ), SemLoc.dma (rcvS 0 1 1 inb_S3x4x4_S1x1x1_0_1_1))) (((pe c 1) : Thread nD τ), SemLoc.dma (rcvS 0 1 1 inb_S3x4x4_S1x1x1_0_1_1))
    ∗ cellInv ER (Rd val jk jr) (K (((pe c 2) : Thread nD τ), SemLoc.dma (rcvS 0 1 2 inb_S3x4x4_S1x1x1_0_1_2))) (((pe c 2) : Thread nD τ), SemLoc.dma (rcvS 0 1 2 inb_S3x4x4_S1x1x1_0_1_2))
    ∗ cellInv ER (Rd val jk jr) (K (((pe c 3) : Thread nD τ), SemLoc.dma (rcvS 0 1 3 inb_S3x4x4_S1x1x1_0_1_3))) (((pe c 3) : Thread nD τ), SemLoc.dma (rcvS 0 1 3 inb_S3x4x4_S1x1x1_0_1_3))
    ∗ cellInv ER (Rd val jk jr) (K (((pe c 1) : Thread nD τ), SemLoc.dma (rcvS 0 2 1 inb_S3x4x4_S1x1x1_0_2_1))) (((pe c 1) : Thread nD τ), SemLoc.dma (rcvS 0 2 1 inb_S3x4x4_S1x1x1_0_2_1))
    ∗ cellInv ER (Rd val jk jr) (K (((pe c 2) : Thread nD τ), SemLoc.dma (rcvS 0 2 2 inb_S3x4x4_S1x1x1_0_2_2))) (((pe c 2) : Thread nD τ), SemLoc.dma (rcvS 0 2 2 inb_S3x4x4_S1x1x1_0_2_2))
    ∗ cellInv ER (Rd val jk jr) (K (((pe c 3) : Thread nD τ), SemLoc.dma (rcvS 0 2 3 inb_S3x4x4_S1x1x1_0_2_3))) (((pe c 3) : Thread nD τ), SemLoc.dma (rcvS 0 2 3 inb_S3x4x4_S1x1x1_0_2_3))
    ∗ cellInv ER (Rd val jk jr) (K (((pe c 1) : Thread nD τ), SemLoc.dma (rcvS 0 3 1 inb_S3x4x4_S1x1x1_0_3_1))) (((pe c 1) : Thread nD τ), SemLoc.dma (rcvS 0 3 1 inb_S3x4x4_S1x1x1_0_3_1))
    ∗ cellInv ER (Rd val jk jr) (K (((pe c 2) : Thread nD τ), SemLoc.dma (rcvS 0 3 2 inb_S3x4x4_S1x1x1_0_3_2))) (((pe c 2) : Thread nD τ), SemLoc.dma (rcvS 0 3 2 inb_S3x4x4_S1x1x1_0_3_2))
    ∗ cellInv ER (Rd val jk jr) (K (((pe c 3) : Thread nD τ), SemLoc.dma (rcvS 0 3 3 inb_S3x4x4_S1x1x1_0_3_3))) (((pe c 3) : Thread nD τ), SemLoc.dma (rcvS 0 3 3 inb_S3x4x4_S1x1x1_0_3_3))
    ∗ cellInv ER (Rd val jk jr) (K (((pe c 1) : Thread nD τ), SemLoc.dma (rcvS 1 0 1 inb_S3x4x4_S1x1x1_1_0_1))) (((pe c 1) : Thread nD τ), SemLoc.dma (rcvS 1 0 1 inb_S3x4x4_S1x1x1_1_0_1))
    ∗ cellInv ER (Rd val jk jr) (K (((pe c 2) : Thread nD τ), SemLoc.dma (rcvS 1 0 2 inb_S3x4x4_S1x1x1_1_0_2))) (((pe c 2) : Thread nD τ), SemLoc.dma (rcvS 1 0 2 inb_S3x4x4_S1x1x1_1_0_2))
    ∗ cellInv ER (Rd val jk jr) (K (((pe c 3) : Thread nD τ), SemLoc.dma (rcvS 1 0 3 inb_S3x4x4_S1x1x1_1_0_3))) (((pe c 3) : Thread nD τ), SemLoc.dma (rcvS 1 0 3 inb_S3x4x4_S1x1x1_1_0_3))
    ∗ cellInv ER (Rd val jk jr) (K (((pe c 1) : Thread nD τ), SemLoc.dma (rcvS 1 1 1 inb_S3x4x4_S1x1x1_1_1_1))) (((pe c 1) : Thread nD τ), SemLoc.dma (rcvS 1 1 1 inb_S3x4x4_S1x1x1_1_1_1))
    ∗ cellInv ER (Rd val jk jr) (K (((pe c 2) : Thread nD τ), SemLoc.dma (rcvS 1 1 2 inb_S3x4x4_S1x1x1_1_1_2))) (((pe c 2) : Thread nD τ), SemLoc.dma (rcvS 1 1 2 inb_S3x4x4_S1x1x1_1_1_2))
    ∗ cellInv ER (Rd val jk jr) (K (((pe c 3) : Thread nD τ), SemLoc.dma (rcvS 1 1 3 inb_S3x4x4_S1x1x1_1_1_3))) (((pe c 3) : Thread nD τ), SemLoc.dma (rcvS 1 1 3 inb_S3x4x4_S1x1x1_1_1_3))
    ∗ cellInv ER (Rd val jk jr) (K (((pe c 1) : Thread nD τ), SemLoc.dma (rcvS 1 2 1 inb_S3x4x4_S1x1x1_1_2_1))) (((pe c 1) : Thread nD τ), SemLoc.dma (rcvS 1 2 1 inb_S3x4x4_S1x1x1_1_2_1))
    ∗ cellInv ER (Rd val jk jr) (K (((pe c 2) : Thread nD τ), SemLoc.dma (rcvS 1 2 2 inb_S3x4x4_S1x1x1_1_2_2))) (((pe c 2) : Thread nD τ), SemLoc.dma (rcvS 1 2 2 inb_S3x4x4_S1x1x1_1_2_2))
    ∗ cellInv ER (Rd val jk jr) (K (((pe c 3) : Thread nD τ), SemLoc.dma (rcvS 1 2 3 inb_S3x4x4_S1x1x1_1_2_3))) (((pe c 3) : Thread nD τ), SemLoc.dma (rcvS 1 2 3 inb_S3x4x4_S1x1x1_1_2_3))
    ∗ cellInv ER (Rd val jk jr) (K (((pe c 1) : Thread nD τ), SemLoc.dma (rcvS 1 3 1 inb_S3x4x4_S1x1x1_1_3_1))) (((pe c 1) : Thread nD τ), SemLoc.dma (rcvS 1 3 1 inb_S3x4x4_S1x1x1_1_3_1))
    ∗ cellInv ER (Rd val jk jr) (K (((pe c 2) : Thread nD τ), SemLoc.dma (rcvS 1 3 2 inb_S3x4x4_S1x1x1_1_3_2))) (((pe c 2) : Thread nD τ), SemLoc.dma (rcvS 1 3 2 inb_S3x4x4_S1x1x1_1_3_2))
    ∗ cellInv ER (Rd val jk jr) (K (((pe c 3) : Thread nD τ), SemLoc.dma (rcvS 1 3 3 inb_S3x4x4_S1x1x1_1_3_3))) (((pe c 3) : Thread nD τ), SemLoc.dma (rcvS 1 3 3 inb_S3x4x4_S1x1x1_1_3_3))
    ∗ cellInv ER (Rd val jk jr) (K (((pe c 1) : Thread nD τ), SemLoc.dma (rcvS 2 0 1 inb_S3x4x4_S1x1x1_2_0_1))) (((pe c 1) : Thread nD τ), SemLoc.dma (rcvS 2 0 1 inb_S3x4x4_S1x1x1_2_0_1))
    ∗ cellInv ER (Rd val jk jr) (K (((pe c 2) : Thread nD τ), SemLoc.dma (rcvS 2 0 2 inb_S3x4x4_S1x1x1_2_0_2))) (((pe c 2) : Thread nD τ), SemLoc.dma (rcvS 2 0 2 inb_S3x4x4_S1x1x1_2_0_2))
    ∗ cellInv ER (Rd val jk jr) (K (((pe c 3) : Thread nD τ), SemLoc.dma (rcvS 2 0 3 inb_S3x4x4_S1x1x1_2_0_3))) (((pe c 3) : Thread nD τ), SemLoc.dma (rcvS 2 0 3 inb_S3x4x4_S1x1x1_2_0_3)))

set_option synthInstance.maxSize 100000 in
set_option synthInstance.maxHeartbeats 2000000 in
set_option maxHeartbeats 2000000 in
instance invs_persistent (K : GSem nD τ sig → ℕ) (c : Dev nD) : BI.Persistent (invs val jk jr K c) := by unfold invs; infer_instance

/-- The invariants of the cells the device opens; its positions at round 0 of its own cells; round 0 reached on the cells it
    pays; the tokens of the duties it pays. -/
def ghost (K : GSem nD τ sig → ℕ) (c : Dev nD) : sProp 𝕄 :=
  iprop(invs val jk jr K c
    ∗ atPos ER (barCell c) 0 ∅ 0
    ∗ atPos ER ((c : Thread nD τ), SemLoc.dma (sndS 0 0 1 inb_S3x4x4_S1x1x1_0_0_1)) 0 ∅ 0
    ∗ atPos ER ((c : Thread nD τ), SemLoc.dma (sndS 0 0 2 inb_S3x4x4_S1x1x1_0_0_2)) 0 ∅ 0
    ∗ atPos ER ((c : Thread nD τ), SemLoc.dma (sndS 0 0 3 inb_S3x4x4_S1x1x1_0_0_3)) 0 ∅ 0
    ∗ atPos ER ((c : Thread nD τ), SemLoc.dma (sndS 0 1 1 inb_S3x4x4_S1x1x1_0_1_1)) 0 ∅ 0
    ∗ atPos ER ((c : Thread nD τ), SemLoc.dma (sndS 0 1 2 inb_S3x4x4_S1x1x1_0_1_2)) 0 ∅ 0
    ∗ atPos ER ((c : Thread nD τ), SemLoc.dma (sndS 0 1 3 inb_S3x4x4_S1x1x1_0_1_3)) 0 ∅ 0
    ∗ atPos ER ((c : Thread nD τ), SemLoc.dma (sndS 0 2 1 inb_S3x4x4_S1x1x1_0_2_1)) 0 ∅ 0
    ∗ atPos ER ((c : Thread nD τ), SemLoc.dma (sndS 0 2 2 inb_S3x4x4_S1x1x1_0_2_2)) 0 ∅ 0
    ∗ atPos ER ((c : Thread nD τ), SemLoc.dma (sndS 0 2 3 inb_S3x4x4_S1x1x1_0_2_3)) 0 ∅ 0
    ∗ atPos ER ((c : Thread nD τ), SemLoc.dma (sndS 0 3 1 inb_S3x4x4_S1x1x1_0_3_1)) 0 ∅ 0
    ∗ atPos ER ((c : Thread nD τ), SemLoc.dma (sndS 0 3 2 inb_S3x4x4_S1x1x1_0_3_2)) 0 ∅ 0
    ∗ atPos ER ((c : Thread nD τ), SemLoc.dma (sndS 0 3 3 inb_S3x4x4_S1x1x1_0_3_3)) 0 ∅ 0
    ∗ atPos ER ((c : Thread nD τ), SemLoc.dma (sndS 1 0 1 inb_S3x4x4_S1x1x1_1_0_1)) 0 ∅ 0
    ∗ atPos ER ((c : Thread nD τ), SemLoc.dma (sndS 1 0 2 inb_S3x4x4_S1x1x1_1_0_2)) 0 ∅ 0
    ∗ atPos ER ((c : Thread nD τ), SemLoc.dma (sndS 1 0 3 inb_S3x4x4_S1x1x1_1_0_3)) 0 ∅ 0
    ∗ atPos ER ((c : Thread nD τ), SemLoc.dma (sndS 1 1 1 inb_S3x4x4_S1x1x1_1_1_1)) 0 ∅ 0
    ∗ atPos ER ((c : Thread nD τ), SemLoc.dma (sndS 1 1 2 inb_S3x4x4_S1x1x1_1_1_2)) 0 ∅ 0
    ∗ atPos ER ((c : Thread nD τ), SemLoc.dma (sndS 1 1 3 inb_S3x4x4_S1x1x1_1_1_3)) 0 ∅ 0
    ∗ atPos ER ((c : Thread nD τ), SemLoc.dma (sndS 1 2 1 inb_S3x4x4_S1x1x1_1_2_1)) 0 ∅ 0
    ∗ atPos ER ((c : Thread nD τ), SemLoc.dma (sndS 1 2 2 inb_S3x4x4_S1x1x1_1_2_2)) 0 ∅ 0
    ∗ atPos ER ((c : Thread nD τ), SemLoc.dma (sndS 1 2 3 inb_S3x4x4_S1x1x1_1_2_3)) 0 ∅ 0
    ∗ atPos ER ((c : Thread nD τ), SemLoc.dma (sndS 1 3 1 inb_S3x4x4_S1x1x1_1_3_1)) 0 ∅ 0
    ∗ atPos ER ((c : Thread nD τ), SemLoc.dma (sndS 1 3 2 inb_S3x4x4_S1x1x1_1_3_2)) 0 ∅ 0
    ∗ atPos ER ((c : Thread nD τ), SemLoc.dma (sndS 1 3 3 inb_S3x4x4_S1x1x1_1_3_3)) 0 ∅ 0
    ∗ atPos ER ((c : Thread nD τ), SemLoc.dma (sndS 2 0 1 inb_S3x4x4_S1x1x1_2_0_1)) 0 ∅ 0
    ∗ atPos ER ((c : Thread nD τ), SemLoc.dma (sndS 2 0 2 inb_S3x4x4_S1x1x1_2_0_2)) 0 ∅ 0
    ∗ atPos ER ((c : Thread nD τ), SemLoc.dma (sndS 2 0 3 inb_S3x4x4_S1x1x1_2_0_3)) 0 ∅ 0
    ∗ atPos ER ((c : Thread nD τ), SemLoc.dma (rcvS 0 0 1 inb_S3x4x4_S1x1x1_0_0_1)) 0 ∅ 0
    ∗ atPos ER ((c : Thread nD τ), SemLoc.dma (rcvS 0 0 2 inb_S3x4x4_S1x1x1_0_0_2)) 0 ∅ 0
    ∗ atPos ER ((c : Thread nD τ), SemLoc.dma (rcvS 0 0 3 inb_S3x4x4_S1x1x1_0_0_3)) 0 ∅ 0
    ∗ atPos ER ((c : Thread nD τ), SemLoc.dma (rcvS 0 1 1 inb_S3x4x4_S1x1x1_0_1_1)) 0 ∅ 0
    ∗ atPos ER ((c : Thread nD τ), SemLoc.dma (rcvS 0 1 2 inb_S3x4x4_S1x1x1_0_1_2)) 0 ∅ 0
    ∗ atPos ER ((c : Thread nD τ), SemLoc.dma (rcvS 0 1 3 inb_S3x4x4_S1x1x1_0_1_3)) 0 ∅ 0
    ∗ atPos ER ((c : Thread nD τ), SemLoc.dma (rcvS 0 2 1 inb_S3x4x4_S1x1x1_0_2_1)) 0 ∅ 0
    ∗ atPos ER ((c : Thread nD τ), SemLoc.dma (rcvS 0 2 2 inb_S3x4x4_S1x1x1_0_2_2)) 0 ∅ 0
    ∗ atPos ER ((c : Thread nD τ), SemLoc.dma (rcvS 0 2 3 inb_S3x4x4_S1x1x1_0_2_3)) 0 ∅ 0
    ∗ atPos ER ((c : Thread nD τ), SemLoc.dma (rcvS 0 3 1 inb_S3x4x4_S1x1x1_0_3_1)) 0 ∅ 0
    ∗ atPos ER ((c : Thread nD τ), SemLoc.dma (rcvS 0 3 2 inb_S3x4x4_S1x1x1_0_3_2)) 0 ∅ 0
    ∗ atPos ER ((c : Thread nD τ), SemLoc.dma (rcvS 0 3 3 inb_S3x4x4_S1x1x1_0_3_3)) 0 ∅ 0
    ∗ atPos ER ((c : Thread nD τ), SemLoc.dma (rcvS 1 0 1 inb_S3x4x4_S1x1x1_1_0_1)) 0 ∅ 0
    ∗ atPos ER ((c : Thread nD τ), SemLoc.dma (rcvS 1 0 2 inb_S3x4x4_S1x1x1_1_0_2)) 0 ∅ 0
    ∗ atPos ER ((c : Thread nD τ), SemLoc.dma (rcvS 1 0 3 inb_S3x4x4_S1x1x1_1_0_3)) 0 ∅ 0
    ∗ atPos ER ((c : Thread nD τ), SemLoc.dma (rcvS 1 1 1 inb_S3x4x4_S1x1x1_1_1_1)) 0 ∅ 0
    ∗ atPos ER ((c : Thread nD τ), SemLoc.dma (rcvS 1 1 2 inb_S3x4x4_S1x1x1_1_1_2)) 0 ∅ 0
    ∗ atPos ER ((c : Thread nD τ), SemLoc.dma (rcvS 1 1 3 inb_S3x4x4_S1x1x1_1_1_3)) 0 ∅ 0
    ∗ atPos ER ((c : Thread nD τ), SemLoc.dma (rcvS 1 2 1 inb_S3x4x4_S1x1x1_1_2_1)) 0 ∅ 0
    ∗ atPos ER ((c : Thread nD τ), SemLoc.dma (rcvS 1 2 2 inb_S3x4x4_S1x1x1_1_2_2)) 0 ∅ 0
    ∗ atPos ER ((c : Thread nD τ), SemLoc.dma (rcvS 1 2 3 inb_S3x4x4_S1x1x1_1_2_3)) 0 ∅ 0
    ∗ atPos ER ((c : Thread nD τ), SemLoc.dma (rcvS 1 3 1 inb_S3x4x4_S1x1x1_1_3_1)) 0 ∅ 0
    ∗ atPos ER ((c : Thread nD τ), SemLoc.dma (rcvS 1 3 2 inb_S3x4x4_S1x1x1_1_3_2)) 0 ∅ 0
    ∗ atPos ER ((c : Thread nD τ), SemLoc.dma (rcvS 1 3 3 inb_S3x4x4_S1x1x1_1_3_3)) 0 ∅ 0
    ∗ atPos ER ((c : Thread nD τ), SemLoc.dma (rcvS 2 0 1 inb_S3x4x4_S1x1x1_2_0_1)) 0 ∅ 0
    ∗ atPos ER ((c : Thread nD τ), SemLoc.dma (rcvS 2 0 2 inb_S3x4x4_S1x1x1_2_0_2)) 0 ∅ 0
    ∗ atPos ER ((c : Thread nD τ), SemLoc.dma (rcvS 2 0 3 inb_S3x4x4_S1x1x1_2_0_3)) 0 ∅ 0
    ∗ reached ER (barCell (pe c 1)) 0
    ∗ reached ER (barCell (pe c 2)) 0
    ∗ reached ER (barCell (pe c 3)) 0
    ∗ reached ER ((c : Thread nD τ), SemLoc.dma (sndS 0 0 1 inb_S3x4x4_S1x1x1_0_0_1)) 0
    ∗ reached ER ((c : Thread nD τ), SemLoc.dma (sndS 0 0 2 inb_S3x4x4_S1x1x1_0_0_2)) 0
    ∗ reached ER ((c : Thread nD τ), SemLoc.dma (sndS 0 0 3 inb_S3x4x4_S1x1x1_0_0_3)) 0
    ∗ reached ER ((c : Thread nD τ), SemLoc.dma (sndS 0 1 1 inb_S3x4x4_S1x1x1_0_1_1)) 0
    ∗ reached ER ((c : Thread nD τ), SemLoc.dma (sndS 0 1 2 inb_S3x4x4_S1x1x1_0_1_2)) 0
    ∗ reached ER ((c : Thread nD τ), SemLoc.dma (sndS 0 1 3 inb_S3x4x4_S1x1x1_0_1_3)) 0
    ∗ reached ER ((c : Thread nD τ), SemLoc.dma (sndS 0 2 1 inb_S3x4x4_S1x1x1_0_2_1)) 0
    ∗ reached ER ((c : Thread nD τ), SemLoc.dma (sndS 0 2 2 inb_S3x4x4_S1x1x1_0_2_2)) 0
    ∗ reached ER ((c : Thread nD τ), SemLoc.dma (sndS 0 2 3 inb_S3x4x4_S1x1x1_0_2_3)) 0
    ∗ reached ER ((c : Thread nD τ), SemLoc.dma (sndS 0 3 1 inb_S3x4x4_S1x1x1_0_3_1)) 0
    ∗ reached ER ((c : Thread nD τ), SemLoc.dma (sndS 0 3 2 inb_S3x4x4_S1x1x1_0_3_2)) 0
    ∗ reached ER ((c : Thread nD τ), SemLoc.dma (sndS 0 3 3 inb_S3x4x4_S1x1x1_0_3_3)) 0
    ∗ reached ER ((c : Thread nD τ), SemLoc.dma (sndS 1 0 1 inb_S3x4x4_S1x1x1_1_0_1)) 0
    ∗ reached ER ((c : Thread nD τ), SemLoc.dma (sndS 1 0 2 inb_S3x4x4_S1x1x1_1_0_2)) 0
    ∗ reached ER ((c : Thread nD τ), SemLoc.dma (sndS 1 0 3 inb_S3x4x4_S1x1x1_1_0_3)) 0
    ∗ reached ER ((c : Thread nD τ), SemLoc.dma (sndS 1 1 1 inb_S3x4x4_S1x1x1_1_1_1)) 0
    ∗ reached ER ((c : Thread nD τ), SemLoc.dma (sndS 1 1 2 inb_S3x4x4_S1x1x1_1_1_2)) 0
    ∗ reached ER ((c : Thread nD τ), SemLoc.dma (sndS 1 1 3 inb_S3x4x4_S1x1x1_1_1_3)) 0
    ∗ reached ER ((c : Thread nD τ), SemLoc.dma (sndS 1 2 1 inb_S3x4x4_S1x1x1_1_2_1)) 0
    ∗ reached ER ((c : Thread nD τ), SemLoc.dma (sndS 1 2 2 inb_S3x4x4_S1x1x1_1_2_2)) 0
    ∗ reached ER ((c : Thread nD τ), SemLoc.dma (sndS 1 2 3 inb_S3x4x4_S1x1x1_1_2_3)) 0
    ∗ reached ER ((c : Thread nD τ), SemLoc.dma (sndS 1 3 1 inb_S3x4x4_S1x1x1_1_3_1)) 0
    ∗ reached ER ((c : Thread nD τ), SemLoc.dma (sndS 1 3 2 inb_S3x4x4_S1x1x1_1_3_2)) 0
    ∗ reached ER ((c : Thread nD τ), SemLoc.dma (sndS 1 3 3 inb_S3x4x4_S1x1x1_1_3_3)) 0
    ∗ reached ER ((c : Thread nD τ), SemLoc.dma (sndS 2 0 1 inb_S3x4x4_S1x1x1_2_0_1)) 0
    ∗ reached ER ((c : Thread nD τ), SemLoc.dma (sndS 2 0 2 inb_S3x4x4_S1x1x1_2_0_2)) 0
    ∗ reached ER ((c : Thread nD τ), SemLoc.dma (sndS 2 0 3 inb_S3x4x4_S1x1x1_2_0_3)) 0
    ∗ reached ER (((pe c 1) : Thread nD τ), SemLoc.dma (rcvS 0 0 1 inb_S3x4x4_S1x1x1_0_0_1)) 0
    ∗ reached ER (((pe c 2) : Thread nD τ), SemLoc.dma (rcvS 0 0 2 inb_S3x4x4_S1x1x1_0_0_2)) 0
    ∗ reached ER (((pe c 3) : Thread nD τ), SemLoc.dma (rcvS 0 0 3 inb_S3x4x4_S1x1x1_0_0_3)) 0
    ∗ reached ER (((pe c 1) : Thread nD τ), SemLoc.dma (rcvS 0 1 1 inb_S3x4x4_S1x1x1_0_1_1)) 0
    ∗ reached ER (((pe c 2) : Thread nD τ), SemLoc.dma (rcvS 0 1 2 inb_S3x4x4_S1x1x1_0_1_2)) 0
    ∗ reached ER (((pe c 3) : Thread nD τ), SemLoc.dma (rcvS 0 1 3 inb_S3x4x4_S1x1x1_0_1_3)) 0
    ∗ reached ER (((pe c 1) : Thread nD τ), SemLoc.dma (rcvS 0 2 1 inb_S3x4x4_S1x1x1_0_2_1)) 0
    ∗ reached ER (((pe c 2) : Thread nD τ), SemLoc.dma (rcvS 0 2 2 inb_S3x4x4_S1x1x1_0_2_2)) 0
    ∗ reached ER (((pe c 3) : Thread nD τ), SemLoc.dma (rcvS 0 2 3 inb_S3x4x4_S1x1x1_0_2_3)) 0
    ∗ reached ER (((pe c 1) : Thread nD τ), SemLoc.dma (rcvS 0 3 1 inb_S3x4x4_S1x1x1_0_3_1)) 0
    ∗ reached ER (((pe c 2) : Thread nD τ), SemLoc.dma (rcvS 0 3 2 inb_S3x4x4_S1x1x1_0_3_2)) 0
    ∗ reached ER (((pe c 3) : Thread nD τ), SemLoc.dma (rcvS 0 3 3 inb_S3x4x4_S1x1x1_0_3_3)) 0
    ∗ reached ER (((pe c 1) : Thread nD τ), SemLoc.dma (rcvS 1 0 1 inb_S3x4x4_S1x1x1_1_0_1)) 0
    ∗ reached ER (((pe c 2) : Thread nD τ), SemLoc.dma (rcvS 1 0 2 inb_S3x4x4_S1x1x1_1_0_2)) 0
    ∗ reached ER (((pe c 3) : Thread nD τ), SemLoc.dma (rcvS 1 0 3 inb_S3x4x4_S1x1x1_1_0_3)) 0
    ∗ reached ER (((pe c 1) : Thread nD τ), SemLoc.dma (rcvS 1 1 1 inb_S3x4x4_S1x1x1_1_1_1)) 0
    ∗ reached ER (((pe c 2) : Thread nD τ), SemLoc.dma (rcvS 1 1 2 inb_S3x4x4_S1x1x1_1_1_2)) 0
    ∗ reached ER (((pe c 3) : Thread nD τ), SemLoc.dma (rcvS 1 1 3 inb_S3x4x4_S1x1x1_1_1_3)) 0
    ∗ reached ER (((pe c 1) : Thread nD τ), SemLoc.dma (rcvS 1 2 1 inb_S3x4x4_S1x1x1_1_2_1)) 0
    ∗ reached ER (((pe c 2) : Thread nD τ), SemLoc.dma (rcvS 1 2 2 inb_S3x4x4_S1x1x1_1_2_2)) 0
    ∗ reached ER (((pe c 3) : Thread nD τ), SemLoc.dma (rcvS 1 2 3 inb_S3x4x4_S1x1x1_1_2_3)) 0
    ∗ reached ER (((pe c 1) : Thread nD τ), SemLoc.dma (rcvS 1 3 1 inb_S3x4x4_S1x1x1_1_3_1)) 0
    ∗ reached ER (((pe c 2) : Thread nD τ), SemLoc.dma (rcvS 1 3 2 inb_S3x4x4_S1x1x1_1_3_2)) 0
    ∗ reached ER (((pe c 3) : Thread nD τ), SemLoc.dma (rcvS 1 3 3 inb_S3x4x4_S1x1x1_1_3_3)) 0
    ∗ reached ER (((pe c 1) : Thread nD τ), SemLoc.dma (rcvS 2 0 1 inb_S3x4x4_S1x1x1_2_0_1)) 0
    ∗ reached ER (((pe c 2) : Thread nD τ), SemLoc.dma (rcvS 2 0 2 inb_S3x4x4_S1x1x1_2_0_2)) 0
    ∗ reached ER (((pe c 3) : Thread nD τ), SemLoc.dma (rcvS 2 0 3 inb_S3x4x4_S1x1x1_2_0_3)) 0
    ∗ dutyTok ER (barCell (pe c 1)) 0 (1 : Fin 4)
    ∗ dutyTok ER (barCell (pe c 2)) 0 (2 : Fin 4)
    ∗ dutyTok ER (barCell (pe c 3)) 0 (3 : Fin 4)
    ∗ dutyTok ER ((c : Thread nD τ), SemLoc.dma (sndS 0 0 1 inb_S3x4x4_S1x1x1_0_0_1)) 0 (0 : Fin 4)
    ∗ dutyTok ER ((c : Thread nD τ), SemLoc.dma (sndS 0 0 2 inb_S3x4x4_S1x1x1_0_0_2)) 0 (0 : Fin 4)
    ∗ dutyTok ER ((c : Thread nD τ), SemLoc.dma (sndS 0 0 3 inb_S3x4x4_S1x1x1_0_0_3)) 0 (0 : Fin 4)
    ∗ dutyTok ER ((c : Thread nD τ), SemLoc.dma (sndS 0 1 1 inb_S3x4x4_S1x1x1_0_1_1)) 0 (0 : Fin 4)
    ∗ dutyTok ER ((c : Thread nD τ), SemLoc.dma (sndS 0 1 2 inb_S3x4x4_S1x1x1_0_1_2)) 0 (0 : Fin 4)
    ∗ dutyTok ER ((c : Thread nD τ), SemLoc.dma (sndS 0 1 3 inb_S3x4x4_S1x1x1_0_1_3)) 0 (0 : Fin 4)
    ∗ dutyTok ER ((c : Thread nD τ), SemLoc.dma (sndS 0 2 1 inb_S3x4x4_S1x1x1_0_2_1)) 0 (0 : Fin 4)
    ∗ dutyTok ER ((c : Thread nD τ), SemLoc.dma (sndS 0 2 2 inb_S3x4x4_S1x1x1_0_2_2)) 0 (0 : Fin 4)
    ∗ dutyTok ER ((c : Thread nD τ), SemLoc.dma (sndS 0 2 3 inb_S3x4x4_S1x1x1_0_2_3)) 0 (0 : Fin 4)
    ∗ dutyTok ER ((c : Thread nD τ), SemLoc.dma (sndS 0 3 1 inb_S3x4x4_S1x1x1_0_3_1)) 0 (0 : Fin 4)
    ∗ dutyTok ER ((c : Thread nD τ), SemLoc.dma (sndS 0 3 2 inb_S3x4x4_S1x1x1_0_3_2)) 0 (0 : Fin 4)
    ∗ dutyTok ER ((c : Thread nD τ), SemLoc.dma (sndS 0 3 3 inb_S3x4x4_S1x1x1_0_3_3)) 0 (0 : Fin 4)
    ∗ dutyTok ER ((c : Thread nD τ), SemLoc.dma (sndS 1 0 1 inb_S3x4x4_S1x1x1_1_0_1)) 0 (0 : Fin 4)
    ∗ dutyTok ER ((c : Thread nD τ), SemLoc.dma (sndS 1 0 2 inb_S3x4x4_S1x1x1_1_0_2)) 0 (0 : Fin 4)
    ∗ dutyTok ER ((c : Thread nD τ), SemLoc.dma (sndS 1 0 3 inb_S3x4x4_S1x1x1_1_0_3)) 0 (0 : Fin 4)
    ∗ dutyTok ER ((c : Thread nD τ), SemLoc.dma (sndS 1 1 1 inb_S3x4x4_S1x1x1_1_1_1)) 0 (0 : Fin 4)
    ∗ dutyTok ER ((c : Thread nD τ), SemLoc.dma (sndS 1 1 2 inb_S3x4x4_S1x1x1_1_1_2)) 0 (0 : Fin 4)
    ∗ dutyTok ER ((c : Thread nD τ), SemLoc.dma (sndS 1 1 3 inb_S3x4x4_S1x1x1_1_1_3)) 0 (0 : Fin 4)
    ∗ dutyTok ER ((c : Thread nD τ), SemLoc.dma (sndS 1 2 1 inb_S3x4x4_S1x1x1_1_2_1)) 0 (0 : Fin 4)
    ∗ dutyTok ER ((c : Thread nD τ), SemLoc.dma (sndS 1 2 2 inb_S3x4x4_S1x1x1_1_2_2)) 0 (0 : Fin 4)
    ∗ dutyTok ER ((c : Thread nD τ), SemLoc.dma (sndS 1 2 3 inb_S3x4x4_S1x1x1_1_2_3)) 0 (0 : Fin 4)
    ∗ dutyTok ER ((c : Thread nD τ), SemLoc.dma (sndS 1 3 1 inb_S3x4x4_S1x1x1_1_3_1)) 0 (0 : Fin 4)
    ∗ dutyTok ER ((c : Thread nD τ), SemLoc.dma (sndS 1 3 2 inb_S3x4x4_S1x1x1_1_3_2)) 0 (0 : Fin 4)
    ∗ dutyTok ER ((c : Thread nD τ), SemLoc.dma (sndS 1 3 3 inb_S3x4x4_S1x1x1_1_3_3)) 0 (0 : Fin 4)
    ∗ dutyTok ER ((c : Thread nD τ), SemLoc.dma (sndS 2 0 1 inb_S3x4x4_S1x1x1_2_0_1)) 0 (0 : Fin 4)
    ∗ dutyTok ER ((c : Thread nD τ), SemLoc.dma (sndS 2 0 2 inb_S3x4x4_S1x1x1_2_0_2)) 0 (0 : Fin 4)
    ∗ dutyTok ER ((c : Thread nD τ), SemLoc.dma (sndS 2 0 3 inb_S3x4x4_S1x1x1_2_0_3)) 0 (0 : Fin 4)
    ∗ dutyTok ER (((pe c 1) : Thread nD τ), SemLoc.dma (rcvS 0 0 1 inb_S3x4x4_S1x1x1_0_0_1)) 0 (0 : Fin 4)
    ∗ dutyTok ER (((pe c 2) : Thread nD τ), SemLoc.dma (rcvS 0 0 2 inb_S3x4x4_S1x1x1_0_0_2)) 0 (0 : Fin 4)
    ∗ dutyTok ER (((pe c 3) : Thread nD τ), SemLoc.dma (rcvS 0 0 3 inb_S3x4x4_S1x1x1_0_0_3)) 0 (0 : Fin 4)
    ∗ dutyTok ER (((pe c 1) : Thread nD τ), SemLoc.dma (rcvS 0 1 1 inb_S3x4x4_S1x1x1_0_1_1)) 0 (0 : Fin 4)
    ∗ dutyTok ER (((pe c 2) : Thread nD τ), SemLoc.dma (rcvS 0 1 2 inb_S3x4x4_S1x1x1_0_1_2)) 0 (0 : Fin 4)
    ∗ dutyTok ER (((pe c 3) : Thread nD τ), SemLoc.dma (rcvS 0 1 3 inb_S3x4x4_S1x1x1_0_1_3)) 0 (0 : Fin 4)
    ∗ dutyTok ER (((pe c 1) : Thread nD τ), SemLoc.dma (rcvS 0 2 1 inb_S3x4x4_S1x1x1_0_2_1)) 0 (0 : Fin 4)
    ∗ dutyTok ER (((pe c 2) : Thread nD τ), SemLoc.dma (rcvS 0 2 2 inb_S3x4x4_S1x1x1_0_2_2)) 0 (0 : Fin 4)
    ∗ dutyTok ER (((pe c 3) : Thread nD τ), SemLoc.dma (rcvS 0 2 3 inb_S3x4x4_S1x1x1_0_2_3)) 0 (0 : Fin 4)
    ∗ dutyTok ER (((pe c 1) : Thread nD τ), SemLoc.dma (rcvS 0 3 1 inb_S3x4x4_S1x1x1_0_3_1)) 0 (0 : Fin 4)
    ∗ dutyTok ER (((pe c 2) : Thread nD τ), SemLoc.dma (rcvS 0 3 2 inb_S3x4x4_S1x1x1_0_3_2)) 0 (0 : Fin 4)
    ∗ dutyTok ER (((pe c 3) : Thread nD τ), SemLoc.dma (rcvS 0 3 3 inb_S3x4x4_S1x1x1_0_3_3)) 0 (0 : Fin 4)
    ∗ dutyTok ER (((pe c 1) : Thread nD τ), SemLoc.dma (rcvS 1 0 1 inb_S3x4x4_S1x1x1_1_0_1)) 0 (0 : Fin 4)
    ∗ dutyTok ER (((pe c 2) : Thread nD τ), SemLoc.dma (rcvS 1 0 2 inb_S3x4x4_S1x1x1_1_0_2)) 0 (0 : Fin 4)
    ∗ dutyTok ER (((pe c 3) : Thread nD τ), SemLoc.dma (rcvS 1 0 3 inb_S3x4x4_S1x1x1_1_0_3)) 0 (0 : Fin 4)
    ∗ dutyTok ER (((pe c 1) : Thread nD τ), SemLoc.dma (rcvS 1 1 1 inb_S3x4x4_S1x1x1_1_1_1)) 0 (0 : Fin 4)
    ∗ dutyTok ER (((pe c 2) : Thread nD τ), SemLoc.dma (rcvS 1 1 2 inb_S3x4x4_S1x1x1_1_1_2)) 0 (0 : Fin 4)
    ∗ dutyTok ER (((pe c 3) : Thread nD τ), SemLoc.dma (rcvS 1 1 3 inb_S3x4x4_S1x1x1_1_1_3)) 0 (0 : Fin 4)
    ∗ dutyTok ER (((pe c 1) : Thread nD τ), SemLoc.dma (rcvS 1 2 1 inb_S3x4x4_S1x1x1_1_2_1)) 0 (0 : Fin 4)
    ∗ dutyTok ER (((pe c 2) : Thread nD τ), SemLoc.dma (rcvS 1 2 2 inb_S3x4x4_S1x1x1_1_2_2)) 0 (0 : Fin 4)
    ∗ dutyTok ER (((pe c 3) : Thread nD τ), SemLoc.dma (rcvS 1 2 3 inb_S3x4x4_S1x1x1_1_2_3)) 0 (0 : Fin 4)
    ∗ dutyTok ER (((pe c 1) : Thread nD τ), SemLoc.dma (rcvS 1 3 1 inb_S3x4x4_S1x1x1_1_3_1)) 0 (0 : Fin 4)
    ∗ dutyTok ER (((pe c 2) : Thread nD τ), SemLoc.dma (rcvS 1 3 2 inb_S3x4x4_S1x1x1_1_3_2)) 0 (0 : Fin 4)
    ∗ dutyTok ER (((pe c 3) : Thread nD τ), SemLoc.dma (rcvS 1 3 3 inb_S3x4x4_S1x1x1_1_3_3)) 0 (0 : Fin 4)
    ∗ dutyTok ER (((pe c 1) : Thread nD τ), SemLoc.dma (rcvS 2 0 1 inb_S3x4x4_S1x1x1_2_0_1)) 0 (0 : Fin 4)
    ∗ dutyTok ER (((pe c 2) : Thread nD τ), SemLoc.dma (rcvS 2 0 2 inb_S3x4x4_S1x1x1_2_0_2)) 0 (0 : Fin 4)
    ∗ dutyTok ER (((pe c 3) : Thread nD τ), SemLoc.dma (rcvS 2 0 3 inb_S3x4x4_S1x1x1_2_0_3)) 0 (0 : Fin 4))

def start (c : Dev nD) : sProp 𝕄 :=
  iprop((∃ K, ghost val jk jr K c)
    ∗ cred (tallyAt (barCell c) () 3)
    ∗ cred (tallyAt ((c : Thread nD τ), SemLoc.dma (rcvS 0 0 1 inb_S3x4x4_S1x1x1_0_0_1)) () N)
    ∗ cred (tallyAt ((c : Thread nD τ), SemLoc.dma (rcvS 0 0 2 inb_S3x4x4_S1x1x1_0_0_2)) () N)
    ∗ cred (tallyAt ((c : Thread nD τ), SemLoc.dma (rcvS 0 0 3 inb_S3x4x4_S1x1x1_0_0_3)) () N)
    ∗ cred (tallyAt ((c : Thread nD τ), SemLoc.dma (rcvS 0 1 1 inb_S3x4x4_S1x1x1_0_1_1)) () N)
    ∗ cred (tallyAt ((c : Thread nD τ), SemLoc.dma (rcvS 0 1 2 inb_S3x4x4_S1x1x1_0_1_2)) () N)
    ∗ cred (tallyAt ((c : Thread nD τ), SemLoc.dma (rcvS 0 1 3 inb_S3x4x4_S1x1x1_0_1_3)) () N)
    ∗ cred (tallyAt ((c : Thread nD τ), SemLoc.dma (rcvS 0 2 1 inb_S3x4x4_S1x1x1_0_2_1)) () N)
    ∗ cred (tallyAt ((c : Thread nD τ), SemLoc.dma (rcvS 0 2 2 inb_S3x4x4_S1x1x1_0_2_2)) () N)
    ∗ cred (tallyAt ((c : Thread nD τ), SemLoc.dma (rcvS 0 2 3 inb_S3x4x4_S1x1x1_0_2_3)) () N)
    ∗ cred (tallyAt ((c : Thread nD τ), SemLoc.dma (rcvS 0 3 1 inb_S3x4x4_S1x1x1_0_3_1)) () N)
    ∗ cred (tallyAt ((c : Thread nD τ), SemLoc.dma (rcvS 0 3 2 inb_S3x4x4_S1x1x1_0_3_2)) () N)
    ∗ cred (tallyAt ((c : Thread nD τ), SemLoc.dma (rcvS 0 3 3 inb_S3x4x4_S1x1x1_0_3_3)) () N)
    ∗ cred (tallyAt ((c : Thread nD τ), SemLoc.dma (rcvS 1 0 1 inb_S3x4x4_S1x1x1_1_0_1)) () N)
    ∗ cred (tallyAt ((c : Thread nD τ), SemLoc.dma (rcvS 1 0 2 inb_S3x4x4_S1x1x1_1_0_2)) () N)
    ∗ cred (tallyAt ((c : Thread nD τ), SemLoc.dma (rcvS 1 0 3 inb_S3x4x4_S1x1x1_1_0_3)) () N)
    ∗ cred (tallyAt ((c : Thread nD τ), SemLoc.dma (rcvS 1 1 1 inb_S3x4x4_S1x1x1_1_1_1)) () N)
    ∗ cred (tallyAt ((c : Thread nD τ), SemLoc.dma (rcvS 1 1 2 inb_S3x4x4_S1x1x1_1_1_2)) () N)
    ∗ cred (tallyAt ((c : Thread nD τ), SemLoc.dma (rcvS 1 1 3 inb_S3x4x4_S1x1x1_1_1_3)) () N)
    ∗ cred (tallyAt ((c : Thread nD τ), SemLoc.dma (rcvS 1 2 1 inb_S3x4x4_S1x1x1_1_2_1)) () N)
    ∗ cred (tallyAt ((c : Thread nD τ), SemLoc.dma (rcvS 1 2 2 inb_S3x4x4_S1x1x1_1_2_2)) () N)
    ∗ cred (tallyAt ((c : Thread nD τ), SemLoc.dma (rcvS 1 2 3 inb_S3x4x4_S1x1x1_1_2_3)) () N)
    ∗ cred (tallyAt ((c : Thread nD τ), SemLoc.dma (rcvS 1 3 1 inb_S3x4x4_S1x1x1_1_3_1)) () N)
    ∗ cred (tallyAt ((c : Thread nD τ), SemLoc.dma (rcvS 1 3 2 inb_S3x4x4_S1x1x1_1_3_2)) () N)
    ∗ cred (tallyAt ((c : Thread nD τ), SemLoc.dma (rcvS 1 3 3 inb_S3x4x4_S1x1x1_1_3_3)) () N)
    ∗ cred (tallyAt ((c : Thread nD τ), SemLoc.dma (rcvS 2 0 1 inb_S3x4x4_S1x1x1_2_0_1)) () N)
    ∗ cred (tallyAt ((c : Thread nD τ), SemLoc.dma (rcvS 2 0 2 inb_S3x4x4_S1x1x1_2_0_2)) () N)
    ∗ cred (tallyAt ((c : Thread nD τ), SemLoc.dma (rcvS 2 0 3 inb_S3x4x4_S1x1x1_2_0_3)) () N)
    ∗ levAts L lv)

def Φ₀ (c : Dev nD) : sProp 𝕄 :=
  iprop(start val jk jr c ∗ (∃ f, ((c : Thread nD τ).loc cc0_scratch0) ↦{fullShare} f) ∗ (∃ f, ((c : Thread nD τ).loc cc0_scratch1) ↦{fullShare} f))

/-- After the body: both scratch buffers whole again, every own cell closed with its counter at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ semVal ((c : Thread nD τ), SemLoc.dma (sndS 0 0 1 inb_S3x4x4_S1x1x1_0_0_1)) 0
    ∗ semVal ((c : Thread nD τ), SemLoc.dma (sndS 0 0 2 inb_S3x4x4_S1x1x1_0_0_2)) 0
    ∗ semVal ((c : Thread nD τ), SemLoc.dma (sndS 0 0 3 inb_S3x4x4_S1x1x1_0_0_3)) 0
    ∗ semVal ((c : Thread nD τ), SemLoc.dma (sndS 0 1 1 inb_S3x4x4_S1x1x1_0_1_1)) 0
    ∗ semVal ((c : Thread nD τ), SemLoc.dma (sndS 0 1 2 inb_S3x4x4_S1x1x1_0_1_2)) 0
    ∗ semVal ((c : Thread nD τ), SemLoc.dma (sndS 0 1 3 inb_S3x4x4_S1x1x1_0_1_3)) 0
    ∗ semVal ((c : Thread nD τ), SemLoc.dma (sndS 0 2 1 inb_S3x4x4_S1x1x1_0_2_1)) 0
    ∗ semVal ((c : Thread nD τ), SemLoc.dma (sndS 0 2 2 inb_S3x4x4_S1x1x1_0_2_2)) 0
    ∗ semVal ((c : Thread nD τ), SemLoc.dma (sndS 0 2 3 inb_S3x4x4_S1x1x1_0_2_3)) 0
    ∗ semVal ((c : Thread nD τ), SemLoc.dma (sndS 0 3 1 inb_S3x4x4_S1x1x1_0_3_1)) 0
    ∗ semVal ((c : Thread nD τ), SemLoc.dma (sndS 0 3 2 inb_S3x4x4_S1x1x1_0_3_2)) 0
    ∗ semVal ((c : Thread nD τ), SemLoc.dma (sndS 0 3 3 inb_S3x4x4_S1x1x1_0_3_3)) 0
    ∗ semVal ((c : Thread nD τ), SemLoc.dma (sndS 1 0 1 inb_S3x4x4_S1x1x1_1_0_1)) 0
    ∗ semVal ((c : Thread nD τ), SemLoc.dma (sndS 1 0 2 inb_S3x4x4_S1x1x1_1_0_2)) 0
    ∗ semVal ((c : Thread nD τ), SemLoc.dma (sndS 1 0 3 inb_S3x4x4_S1x1x1_1_0_3)) 0
    ∗ semVal ((c : Thread nD τ), SemLoc.dma (sndS 1 1 1 inb_S3x4x4_S1x1x1_1_1_1)) 0
    ∗ semVal ((c : Thread nD τ), SemLoc.dma (sndS 1 1 2 inb_S3x4x4_S1x1x1_1_1_2)) 0
    ∗ semVal ((c : Thread nD τ), SemLoc.dma (sndS 1 1 3 inb_S3x4x4_S1x1x1_1_1_3)) 0
    ∗ semVal ((c : Thread nD τ), SemLoc.dma (sndS 1 2 1 inb_S3x4x4_S1x1x1_1_2_1)) 0
    ∗ semVal ((c : Thread nD τ), SemLoc.dma (sndS 1 2 2 inb_S3x4x4_S1x1x1_1_2_2)) 0
    ∗ semVal ((c : Thread nD τ), SemLoc.dma (sndS 1 2 3 inb_S3x4x4_S1x1x1_1_2_3)) 0
    ∗ semVal ((c : Thread nD τ), SemLoc.dma (sndS 1 3 1 inb_S3x4x4_S1x1x1_1_3_1)) 0
    ∗ semVal ((c : Thread nD τ), SemLoc.dma (sndS 1 3 2 inb_S3x4x4_S1x1x1_1_3_2)) 0
    ∗ semVal ((c : Thread nD τ), SemLoc.dma (sndS 1 3 3 inb_S3x4x4_S1x1x1_1_3_3)) 0
    ∗ semVal ((c : Thread nD τ), SemLoc.dma (sndS 2 0 1 inb_S3x4x4_S1x1x1_2_0_1)) 0
    ∗ semVal ((c : Thread nD τ), SemLoc.dma (sndS 2 0 2 inb_S3x4x4_S1x1x1_2_0_2)) 0
    ∗ semVal ((c : Thread nD τ), SemLoc.dma (sndS 2 0 3 inb_S3x4x4_S1x1x1_2_0_3)) 0
    ∗ semVal ((c : Thread nD τ), SemLoc.dma (rcvS 0 0 1 inb_S3x4x4_S1x1x1_0_0_1)) 0
    ∗ semVal ((c : Thread nD τ), SemLoc.dma (rcvS 0 0 2 inb_S3x4x4_S1x1x1_0_0_2)) 0
    ∗ semVal ((c : Thread nD τ), SemLoc.dma (rcvS 0 0 3 inb_S3x4x4_S1x1x1_0_0_3)) 0
    ∗ semVal ((c : Thread nD τ), SemLoc.dma (rcvS 0 1 1 inb_S3x4x4_S1x1x1_0_1_1)) 0
    ∗ semVal ((c : Thread nD τ), SemLoc.dma (rcvS 0 1 2 inb_S3x4x4_S1x1x1_0_1_2)) 0
    ∗ semVal ((c : Thread nD τ), SemLoc.dma (rcvS 0 1 3 inb_S3x4x4_S1x1x1_0_1_3)) 0
    ∗ semVal ((c : Thread nD τ), SemLoc.dma (rcvS 0 2 1 inb_S3x4x4_S1x1x1_0_2_1)) 0
    ∗ semVal ((c : Thread nD τ), SemLoc.dma (rcvS 0 2 2 inb_S3x4x4_S1x1x1_0_2_2)) 0
    ∗ semVal ((c : Thread nD τ), SemLoc.dma (rcvS 0 2 3 inb_S3x4x4_S1x1x1_0_2_3)) 0
    ∗ semVal ((c : Thread nD τ), SemLoc.dma (rcvS 0 3 1 inb_S3x4x4_S1x1x1_0_3_1)) 0
    ∗ semVal ((c : Thread nD τ), SemLoc.dma (rcvS 0 3 2 inb_S3x4x4_S1x1x1_0_3_2)) 0
    ∗ semVal ((c : Thread nD τ), SemLoc.dma (rcvS 0 3 3 inb_S3x4x4_S1x1x1_0_3_3)) 0
    ∗ semVal ((c : Thread nD τ), SemLoc.dma (rcvS 1 0 1 inb_S3x4x4_S1x1x1_1_0_1)) 0
    ∗ semVal ((c : Thread nD τ), SemLoc.dma (rcvS 1 0 2 inb_S3x4x4_S1x1x1_1_0_2)) 0
    ∗ semVal ((c : Thread nD τ), SemLoc.dma (rcvS 1 0 3 inb_S3x4x4_S1x1x1_1_0_3)) 0
    ∗ semVal ((c : Thread nD τ), SemLoc.dma (rcvS 1 1 1 inb_S3x4x4_S1x1x1_1_1_1)) 0
    ∗ semVal ((c : Thread nD τ), SemLoc.dma (rcvS 1 1 2 inb_S3x4x4_S1x1x1_1_1_2)) 0
    ∗ semVal ((c : Thread nD τ), SemLoc.dma (rcvS 1 1 3 inb_S3x4x4_S1x1x1_1_1_3)) 0
    ∗ semVal ((c : Thread nD τ), SemLoc.dma (rcvS 1 2 1 inb_S3x4x4_S1x1x1_1_2_1)) 0
    ∗ semVal ((c : Thread nD τ), SemLoc.dma (rcvS 1 2 2 inb_S3x4x4_S1x1x1_1_2_2)) 0
    ∗ semVal ((c : Thread nD τ), SemLoc.dma (rcvS 1 2 3 inb_S3x4x4_S1x1x1_1_2_3)) 0
    ∗ semVal ((c : Thread nD τ), SemLoc.dma (rcvS 1 3 1 inb_S3x4x4_S1x1x1_1_3_1)) 0
    ∗ semVal ((c : Thread nD τ), SemLoc.dma (rcvS 1 3 2 inb_S3x4x4_S1x1x1_1_3_2)) 0
    ∗ semVal ((c : Thread nD τ), SemLoc.dma (rcvS 1 3 3 inb_S3x4x4_S1x1x1_1_3_3)) 0
    ∗ semVal ((c : Thread nD τ), SemLoc.dma (rcvS 2 0 1 inb_S3x4x4_S1x1x1_2_0_1)) 0
    ∗ semVal ((c : Thread nD τ), SemLoc.dma (rcvS 2 0 2 inb_S3x4x4_S1x1x1_2_0_2)) 0
    ∗ semVal ((c : Thread nD τ), SemLoc.dma (rcvS 2 0 3 inb_S3x4x4_S1x1x1_2_0_3)) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- An input window's staging buffer holds the device's whole argument array (the grid is a single point). -/
def xstg0 (c : Dev nD) : (cc0_stg0_0 : Ref sig .tc).ty.Contents (Elt F) :=
  (win0_0.blk (0 : Fin 1)).view.read (Elt F) ((s₀ m ρ).mem ((c : Thread nD τ).loc main_arg0))
def xstg1 (c : Dev nD) : (cc0_stg1_0 : Ref sig .tc).ty.Contents (Elt F) :=
  (win0_1.blk (0 : Fin 1)).view.read (Elt F) ((s₀ m ρ).mem ((c : Thread nD τ).loc main_arg1))
def xstg2 (c : Dev nD) : (cc0_stg2_0 : Ref sig .tc).ty.Contents (Elt F) :=
  (win0_2.blk (0 : Fin 1)).view.read (Elt F) ((s₀ m ρ).mem ((c : Thread nD τ).loc main_arg2))
def xstg3 (c : Dev nD) : (cc0_stg3_0 : Ref sig .tc).ty.Contents (Elt F) :=
  (win0_3.blk (0 : Fin 1)).view.read (Elt F) ((s₀ m ρ).mem ((c : Thread nD τ).loc main_arg3))
def xstg4 (c : Dev nD) : (cc0_stg4_0 : Ref sig .tc).ty.Contents (Elt F) :=
  (win0_4.blk (0 : Fin 1)).view.read (Elt F) ((s₀ m ρ).mem ((c : Thread nD τ).loc main_arg4))
def xstg5 (c : Dev nD) : (cc0_stg5_0 : Ref sig .tc).ty.Contents (Elt F) :=
  (win0_5.blk (0 : Fin 1)).view.read (Elt F) ((s₀ m ρ).mem ((c : Thread nD τ).loc main_arg5))
def xstg6 (c : Dev nD) : (cc0_stg6_0 : Ref sig .tc).ty.Contents (Elt F) :=
  (win0_6.blk (0 : Fin 1)).view.read (Elt F) ((s₀ m ρ).mem ((c : Thread nD τ).loc main_arg6))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg0 m ρ c
    | ⟨1, _⟩ => xstg1 m ρ c
    | ⟨2, _⟩ => xstg2 m ρ c
    | ⟨3, _⟩ => xstg3 m ρ c
    | ⟨4, _⟩ => xstg4 m ρ c
    | ⟨5, _⟩ => xstg5 m ρ c
    | ⟨6, _⟩ => xstg6 m ρ c
    | ⟨7, _⟩ => outv c
  Φ t := match t with
    | ⟨0, _⟩ => Φ₀ val jk jr c
    | ⟨_ + 1, _⟩ => Φ₁ c
  q _ := fullShare
  owed t := match t with
    | ⟨0, _⟩ => O₀ c
    | ⟨_ + 1, _⟩ => 0

abbrev 𝒱₀ : Variants := Variants.none

end Cert.Kernel.Mlp

end
-- ==== Proof.Bits.BlockViews.lean ====
import proofs.«900991_g7700000000000992_dist_mlpseq_tp1d_rep_bs_b256_d256_h512_v7x_i4_bf16_1_alg».proof.Proof.Bits.Proto
import Idealize.ShloMosaic.Lib.Writes
import Idealize.ShloMosaic.Lib.ValueIdx

noncomputable section

namespace Cert.Kernel.Mlp

open Idealize.ShloMosaic
open Idealize.ShloMosaic.TcCoe
open Idealize.ShloMosaic.ValueIdx
open Cert.Kernel Cert.Kernel.Gen

variable {F : FTy → Type} [FloatOps F]

/-! ## Blocks with and without their unit axes

A block of the exchange buffer is addressed in two ways: as a `1 × 1 × 1 × 64 × 256` rectangle of the whole buffer (a vector
load or store), and as the `64 × 256` array left when the rectangle's three unit axes are dropped (a copy's source or
destination). The two index sets correspond by row-major position, which puts `0` on each unit axis. -/

/-- A `1 × 1 × 1 × 64 × 256` array with its unit axes dropped. -/
def sq5 {α : Type} (v : S1x1x1x64x256.Idx → α) : S64x256.Idx → α :=
  fun i => v (ix5 (n0 := 1) (n1 := 1) (n2 := 1) (n3 := 64) (n4 := 256) 0 0 0 (i 0) (i 1))
/-- A `64 × 256` array under three leading unit axes. -/
def un5 {α : Type} (x : S64x256.Idx → α) : S1x1x1x64x256.Idx → α :=
  fun j => x (ix2 (n0 := 64) (n1 := 256) (j 3) (j 4))

/-- An index of the long shape is determined by its last two coordinates. -/
theorem ix5_last (j : S1x1x1x64x256.Idx) :
    ix5 (n0 := 1) (n1 := 1) (n2 := 1) (n3 := 64) (n4 := 256) 0 0 0 (j 3) (j 4) = j := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem un5_sq5 {α : Type} (v : S1x1x1x64x256.Idx → α) : un5 (sq5 v) = v :=
  funext fun j => congrArg v (ix5_last j)

theorem sq5_un5 {α : Type} (x : S64x256.Idx → α) : sq5 (un5 x) = x :=
  funext fun i => congrArg x (eq_ix2 i).symm

/-- Row-major matching of the short shape's indices with the long shape's: `0` on the three unit axes. -/
theorem reshape_sq5 (h : S64x256.numel = S1x1x1x64x256.numel) (i : S64x256.Idx) :
    Shape.reshapeEquiv h i = ix5 (n0 := 1) (n1 := 1) (n2 := 1) (n3 := 64) (n4 := 256) 0 0 0 (i 0) (i 1) :=
  Shape.reshapeEquiv_eq_of_rowMajor h (by
    rw [Shape.rowMajor_val_five, Shape.rowMajor_val_two]
    show ((((0 * 1 + 0) * 1 + 0) * 64 + (i 0).val) * 256 + (i 1).val) = (i 0).val * 256 + (i 1).val
    simp only [Nat.zero_mul, Nat.zero_add, Nat.mul_one, Nat.add_zero])

/-- The matching the other way: the last two coordinates. -/
theorem reshape_un5 (h : S64x256.numel = S1x1x1x64x256.numel) (j : S1x1x1x64x256.Idx) :
    (Shape.reshapeEquiv h).symm j = ix2 (n0 := 64) (n1 := 256) (j 3) (j 4) := by
  rw [Equiv.symm_apply_eq, reshape_sq5]
  exact (ix5_last j).symm

/-! ## The exchange buffer's blocks -/

section Slot

variable (l p o : ℕ) (h : ∀ a, (![l, p, o, 0, 0] : Fin 5 → Nat) a + S1x1x1x64x256.size a ≤ S2x4x4x64x256.size a)

/-- What a store through the block's rectangle of the whole buffer leaves, read through the block's own view: the stored
    array with its unit axes dropped. -/
theorem slot_read_store (c : Dev nD) (f0 : Buf (Elt F) ((c : Thread nD τ).loc cc0_scratch0))
    (v : S1x1x1x64x256.Idx → Elt F .bf16) :
    (slotM l p o h).view.read (Elt F)
        (View.write (Elt F) ((Memref.whole cc0_scratch0).access (Rect.unit (s := S2x4x4x64x256) ![l, p, o, 0, 0] S1x1x1x64x256.size h)) f0 v Finset.univ)
      = sq5 v := by
  funext i
  show View.read (Elt F) ((Memref.whole cc0_scratch0).access (Rect.unit (s := S2x4x4x64x256) ![l, p, o, 0, 0] S1x1x1x64x256.size h))
      (View.write (Elt F) ((Memref.whole cc0_scratch0).access (Rect.unit (s := S2x4x4x64x256) ![l, p, o, 0, 0] S1x1x1x64x256.size h)) f0 v Finset.univ)
      (Shape.reshapeEquiv squeezes_S1x1x1x64x256_S64x256.numel_eq i) = sq5 v i
  rw [View.read_write_univ, reshape_sq5]
  rfl

/-- What a landing in the block leaves, read by a load through the block's rectangle of the whole buffer: the landed array
    under three unit axes. -/
theorem slot_load_landing (c : Dev nD) (fd : Buf (Elt F) ((c : Thread nD τ).loc cc0_scratch0))
    (x : S64x256.Idx → Elt F .bf16) :
    View.readAt (Elt F) (Memref.whole cc0_scratch0).view
        (Rect.unit (s := S2x4x4x64x256) ![l, p, o, 0, 0] S1x1x1x64x256.size h).toLoadRect
        ((slotM l p o h).view.write (Elt F) fd x Finset.univ)
      = un5 x := by
  show View.read (Elt F) ((Memref.whole cc0_scratch0).access (Rect.unit (s := S2x4x4x64x256) ![l, p, o, 0, 0] S1x1x1x64x256.size h))
      (View.write (Elt F) (((Memref.whole cc0_scratch0).access (Rect.unit (s := S2x4x4x64x256) ![l, p, o, 0, 0] S1x1x1x64x256.size h)).reshape S64x256
        squeezes_S1x1x1x64x256_S64x256.numel_eq) fd x Finset.univ) = un5 x
  rw [View.write_reshape_univ, View.read_write_univ]
  funext j
  show x ((Shape.reshapeEquiv squeezes_S1x1x1x64x256_S64x256.numel_eq).symm j) = un5 x j
  rw [reshape_un5]
  rfl

/-- A load through the block's rectangle of what a store through it left: the stored array. -/
theorem slot_load_store (c : Dev nD) (f0 : Buf (Elt F) ((c : Thread nD τ).loc cc0_scratch0))
    (v : S1x1x1x64x256.Idx → Elt F .bf16) :
    View.readAt (Elt F) (Memref.whole cc0_scratch0).view
        (Rect.unit (s := S2x4x4x64x256) ![l, p, o, 0, 0] S1x1x1x64x256.size h).toLoadRect
        (View.write (Elt F) ((Memref.whole cc0_scratch0).access (Rect.unit (s := S2x4x4x64x256) ![l, p, o, 0, 0] S1x1x1x64x256.size h)) f0 v Finset.univ)
      = v :=
  View.read_write_univ (v := (Memref.whole cc0_scratch0).access (Rect.unit (s := S2x4x4x64x256) ![l, p, o, 0, 0] S1x1x1x64x256.size h)) f0 v

end Slot

/-! ## The reduce-scatter buffer's blocks: the same with two unit axes -/

/-- A `1 × 1 × 64 × 256` array with its unit axes dropped. -/
def sq4 {α : Type} (v : S1x1x64x256.Idx → α) : S64x256.Idx → α :=
  fun i => v (ix4 (n0 := 1) (n1 := 1) (n2 := 64) (n3 := 256) 0 0 (i 0) (i 1))
/-- A `64 × 256` array under two leading unit axes. -/
def un4 {α : Type} (x : S64x256.Idx → α) : S1x1x64x256.Idx → α :=
  fun j => x (ix2 (n0 := 64) (n1 := 256) (j 2) (j 3))

/-- An index of the long shape is determined by its last two coordinates. -/
theorem ix4_last (j : S1x1x64x256.Idx) :
    ix4 (n0 := 1) (n1 := 1) (n2 := 64) (n3 := 256) 0 0 (j 2) (j 3) = j := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem un4_sq4 {α : Type} (v : S1x1x64x256.Idx → α) : un4 (sq4 v) = v :=
  funext fun j => congrArg v (ix4_last j)

theorem sq4_un4 {α : Type} (x : S64x256.Idx → α) : sq4 (un4 x) = x :=
  funext fun i => congrArg x (eq_ix2 i).symm

/-- Row-major matching of the short shape's indices with the long shape's: `0` on the two unit axes. -/
theorem reshape_sq4 (h : S64x256.numel = S1x1x64x256.numel) (i : S64x256.Idx) :
    Shape.reshapeEquiv h i = ix4 (n0 := 1) (n1 := 1) (n2 := 64) (n3 := 256) 0 0 (i 0) (i 1) :=
  Shape.reshapeEquiv_eq_of_rowMajor h (by
    rw [Shape.rowMajor_val_four, Shape.rowMajor_val_two]
    show (((0 * 1 + 0) * 64 + (i 0).val) * 256 + (i 1).val) = (i 0).val * 256 + (i 1).val
    simp only [Nat.zero_mul, Nat.zero_add])

/-- The matching the other way: the last two coordinates. -/
theorem reshape_un4 (h : S64x256.numel = S1x1x64x256.numel) (j : S1x1x64x256.Idx) :
    (Shape.reshapeEquiv h).symm j = ix2 (n0 := 64) (n1 := 256) (j 2) (j 3) := by
  rw [Equiv.symm_apply_eq, reshape_sq4]
  exact (ix4_last j).symm

section Row

variable (k o : ℕ) (h : ∀ a, (![k, o, 0, 0] : Fin 4 → Nat) a + S1x1x64x256.size a ≤ S2x4x64x256.size a)

/-- What a store through the block's rectangle of the whole buffer leaves, read through the block's own view. -/
theorem row_read_store (c : Dev nD) (f0 : Buf (Elt F) ((c : Thread nD τ).loc cc0_scratch1))
    (v : S1x1x64x256.Idx → Elt F .bf16) :
    (rsM k o h).view.read (Elt F)
        (View.write (Elt F) ((Memref.whole cc0_scratch1).access (Rect.unit (s := S2x4x64x256) ![k, o, 0, 0] S1x1x64x256.size h)) f0 v Finset.univ)
      = sq4 v := by
  funext i
  show View.read (Elt F) ((Memref.whole cc0_scratch1).access (Rect.unit (s := S2x4x64x256) ![k, o, 0, 0] S1x1x64x256.size h))
      (View.write (Elt F) ((Memref.whole cc0_scratch1).access (Rect.unit (s := S2x4x64x256) ![k, o, 0, 0] S1x1x64x256.size h)) f0 v Finset.univ)
      (Shape.reshapeEquiv squeezes_S1x1x64x256_S64x256.numel_eq i) = sq4 v i
  rw [View.read_write_univ, reshape_sq4]
  rfl

/-- What a landing in the block leaves, read by a load through the block's rectangle of the whole buffer. -/
theorem row_load_landing (c : Dev nD) (fd : Buf (Elt F) ((c : Thread nD τ).loc cc0_scratch1))
    (x : S64x256.Idx → Elt F .bf16) :
    View.readAt (Elt F) (Memref.whole cc0_scratch1).view
        (Rect.unit (s := S2x4x64x256) ![k, o, 0, 0] S1x1x64x256.size h).toLoadRect
        ((rsM k o h).view.write (Elt F) fd x Finset.univ)
      = un4 x := by
  show View.read (Elt F) ((Memref.whole cc0_scratch1).access (Rect.unit (s := S2x4x64x256) ![k, o, 0, 0] S1x1x64x256.size h))
      (View.write (Elt F) (((Memref.whole cc0_scratch1).access (Rect.unit (s := S2x4x64x256) ![k, o, 0, 0] S1x1x64x256.size h)).reshape S64x256
        squeezes_S1x1x64x256_S64x256.numel_eq) fd x Finset.univ) = un4 x
  rw [View.write_reshape_univ, View.read_write_univ]
  funext j
  show x ((Shape.reshapeEquiv squeezes_S1x1x64x256_S64x256.numel_eq).symm j) = un4 x j
  rw [reshape_un4]
  rfl

/-- A load through the block's rectangle of what a store through it left: the stored array. -/
theorem row_load_store (c : Dev nD) (f0 : Buf (Elt F) ((c : Thread nD τ).loc cc0_scratch1))
    (v : S1x1x64x256.Idx → Elt F .bf16) :
    View.readAt (Elt F) (Memref.whole cc0_scratch1).view
        (Rect.unit (s := S2x4x64x256) ![k, o, 0, 0] S1x1x64x256.size h).toLoadRect
        (View.write (Elt F) ((Memref.whole cc0_scratch1).access (Rect.unit (s := S2x4x64x256) ![k, o, 0, 0] S1x1x64x256.size h)) f0 v Finset.univ)
      = v :=
  View.read_write_univ (v := (Memref.whole cc0_scratch1).access (Rect.unit (s := S2x4x64x256) ![k, o, 0, 0] S1x1x64x256.size h)) f0 v

end Row

/-! ## The staging buffers: a load or store through a buffer's whole rectangle at zero offsets -/

omit [FloatOps F] in
theorem zero2 : (![0, 0] : Fin 2 → Nat) = fun _ => 0 := funext fun a => by fin_cases a <;> rfl

omit [FloatOps F] in
/-- A load of the whole of staging buffer 0 reads its contents. -/
theorem read_stg0 (f : (cc0_stg0_0 : Ref sig .tc).ty.Contents (Elt F)) :
    View.readAt (Elt F) (Memref.whole cc0_stg0_0).view (Rect.unit (s := S256x256) ![0, 0] S256x256.size inb_S256x256_S256x256_0_0).toLoadRect f = f :=
  Memref.readAt_unit_zero (Elt F) cc0_stg0_0 zero2 _ f

omit [FloatOps F] in
/-- A load of the whole of staging buffer 1 reads its contents. -/
theorem read_stg1 (f : (cc0_stg1_0 : Ref sig .tc).ty.Contents (Elt F)) :
    View.readAt (Elt F) (Memref.whole cc0_stg1_0).view (Rect.unit (s := S256x512) ![0, 0] S256x512.size inb_S256x512_S256x512_0_0).toLoadRect f = f :=
  Memref.readAt_unit_zero (Elt F) cc0_stg1_0 zero2 _ f

omit [FloatOps F] in
/-- A load of the whole of staging buffer 2 reads its contents. -/
theorem read_stg2 (f : (cc0_stg2_0 : Ref sig .tc).ty.Contents (Elt F)) :
    View.readAt (Elt F) (Memref.whole cc0_stg2_0).view (Rect.unit (s := S512x256) ![0, 0] S512x256.size inb_S512x256_S512x256_0_0).toLoadRect f = f :=
  Memref.readAt_unit_zero (Elt F) cc0_stg2_0 zero2 _ f

omit [FloatOps F] in
/-- A load of the whole of staging buffer 3 reads its contents. -/
theorem read_stg3 (f : (cc0_stg3_0 : Ref sig .tc).ty.Contents (Elt F)) :
    View.readAt (Elt F) (Memref.whole cc0_stg3_0).view (Rect.unit (s := S256x512) ![0, 0] S256x512.size inb_S256x512_S256x512_0_0).toLoadRect f = f :=
  Memref.readAt_unit_zero (Elt F) cc0_stg3_0 zero2 _ f

omit [FloatOps F] in
/-- A load of the whole of staging buffer 4 reads its contents. -/
theorem read_stg4 (f : (cc0_stg4_0 : Ref sig .tc).ty.Contents (Elt F)) :
    View.readAt (Elt F) (Memref.whole cc0_stg4_0).view (Rect.unit (s := S512x256) ![0, 0] S512x256.size inb_S512x256_S512x256_0_0).toLoadRect f = f :=
  Memref.readAt_unit_zero (Elt F) cc0_stg4_0 zero2 _ f

omit [FloatOps F] in
/-- A load of the whole of staging buffer 5 reads its contents. -/
theorem read_stg5 (f : (cc0_stg5_0 : Ref sig .tc).ty.Contents (Elt F)) :
    View.readAt (Elt F) (Memref.whole cc0_stg5_0).view (Rect.unit (s := S256x512) ![0, 0] S256x512.size inb_S256x512_S256x512_0_0).toLoadRect f = f :=
  Memref.readAt_unit_zero (Elt F) cc0_stg5_0 zero2 _ f

omit [FloatOps F] in
/-- A load of the whole of staging buffer 6 reads its contents. -/
theorem read_stg6 (f : (cc0_stg6_0 : Ref sig .tc).ty.Contents (Elt F)) :
    View.readAt (Elt F) (Memref.whole cc0_stg6_0).view (Rect.unit (s := S512x256) ![0, 0] S512x256.size inb_S512x256_S512x256_0_0).toLoadRect f = f :=
  Memref.readAt_unit_zero (Elt F) cc0_stg6_0 zero2 _ f

omit [FloatOps F] in
/-- A store over the whole of the result's staging buffer leaves the payload. -/
theorem write_stg7 (f w : (cc0_stg7_0 : Ref sig .tc).ty.Contents (Elt F)) :
    View.write (Elt F) ((Memref.whole cc0_stg7_0).access (Rect.unit (s := S64x256) ![0, 0] S64x256.size inb_S64x256_S64x256_0_0)) f w Finset.univ = w :=
  Memref.write_access_unit_zero_univ (Elt F) cc0_stg7_0 zero2 _ f w

/-- info: 'Cert.Kernel.Mlp.slot_read_store' depends on axioms: [propext, Classical.choice, Quot.sound] -/
#guard_msgs in #print axioms slot_read_store
/-- info: 'Cert.Kernel.Mlp.slot_load_landing' depends on axioms: [propext, Classical.choice, Quot.sound] -/
#guard_msgs in #print axioms slot_load_landing
/-- info: 'Cert.Kernel.Mlp.slot_load_store' depends on axioms: [propext, Classical.choice, Quot.sound] -/
#guard_msgs in #print axioms slot_load_store
/-- info: 'Cert.Kernel.Mlp.row_read_store' depends on axioms: [propext, Classical.choice, Quot.sound] -/
#guard_msgs in #print axioms row_read_store
/-- info: 'Cert.Kernel.Mlp.row_load_landing' depends on axioms: [propext, Classical.choice, Quot.sound] -/
#guard_msgs in #print axioms row_load_landing
/-- info: 'Cert.Kernel.Mlp.row_load_store' depends on axioms: [propext, Classical.choice, Quot.sound] -/
#guard_msgs in #print axioms row_load_store
/-- info: 'Cert.Kernel.Mlp.read_stg0' depends on axioms: [propext, Classical.choice, Quot.sound] -/
#guard_msgs in #print axioms read_stg0
/-- info: 'Cert.Kernel.Mlp.write_stg7' depends on axioms: [propext, Classical.choice, Quot.sound] -/
#guard_msgs in #print axioms write_stg7

end Cert.Kernel.Mlp

end
-- ==== Proof.Bits.ValsG.lean ====
import proofs.«900991_g7700000000000992_dist_mlpseq_tp1d_rep_bs_b256_d256_h512_v7x_i4_bf16_1_alg».proof.Proof.Bits.JoinG
import proofs.«900991_g7700000000000992_dist_mlpseq_tp1d_rep_bs_b256_d256_h512_v7x_i4_bf16_1_alg».proof.Proof.Bits.BodyDefs
import proofs.«900991_g7700000000000992_dist_mlpseq_tp1d_rep_bs_b256_d256_h512_v7x_i4_bf16_1_alg».proof.Proof.Bits.BlockViews

/-!
# The values of the run, from the memory at launch: for any float model

The statements about the body are made over a family of exchanged blocks, arbitrary initial contents of the two
exchange buffers and a family of results.  Here these are fixed as functions of the memory at launch: each
device's seven argument arrays as its loads return them, the vectors every device stores layer by layer
computed from those, and each device's final result.
-/

noncomputable section

namespace Cert.Kernel.Mlp

open Idealize.ShloMosaic
open Idealize.ShloMosaic.TcCoe
open Cert.Kernel Cert.Kernel.Gen Cert.Kernel.Join
open Idealize.SL.Sem

section Generic

variable {F : FTy → Type} [FloatOps F]
variable (m : (ℓ : Loc nD τ sig) → Buf (Elt F) ℓ) (ρ : Dev nD → PrngReg)

omit [FloatOps F] in
/-- The offsets of a load of a whole rank-2 array are all zero. -/
theorem hz2 : (![0, 0] : Fin 2 → Nat) = fun _ => 0 := funext fun a => by fin_cases a <;> rfl

/-! ## Each device's argument arrays, as a load of the whole staging buffer returns them -/

def XA0 (e : Dev nD) : Vec F S256x256 .f32 :=
  (Memref.whole cc0_stg0_0 : Memref sig .tc .vmem S256x256 .f32).view.readAt (Elt F)
    (Rect.unit (s := S256x256) ![0, 0] S256x256.size inb_S256x256_S256x256_0_0).toLoadRect (xstg0 m ρ e)
def XA1 (e : Dev nD) : Vec F S256x512 .f32 :=
  (Memref.whole cc0_stg1_0 : Memref sig .tc .vmem S256x512 .f32).view.readAt (Elt F)
    (Rect.unit (s := S256x512) ![0, 0] S256x512.size inb_S256x512_S256x512_0_0).toLoadRect (xstg1 m ρ e)
def XA2 (e : Dev nD) : Vec F S512x256 .f32 :=
  (Memref.whole cc0_stg2_0 : Memref sig .tc .vmem S512x256 .f32).view.readAt (Elt F)
    (Rect.unit (s := S512x256) ![0, 0] S512x256.size inb_S512x256_S512x256_0_0).toLoadRect (xstg2 m ρ e)
def XA3 (e : Dev nD) : Vec F S256x512 .f32 :=
  (Memref.whole cc0_stg3_0 : Memref sig .tc .vmem S256x512 .f32).view.readAt (Elt F)
    (Rect.unit (s := S256x512) ![0, 0] S256x512.size inb_S256x512_S256x512_0_0).toLoadRect (xstg3 m ρ e)
def XA4 (e : Dev nD) : Vec F S512x256 .f32 :=
  (Memref.whole cc0_stg4_0 : Memref sig .tc .vmem S512x256 .f32).view.readAt (Elt F)
    (Rect.unit (s := S512x256) ![0, 0] S512x256.size inb_S512x256_S512x256_0_0).toLoadRect (xstg4 m ρ e)
def XA5 (e : Dev nD) : Vec F S256x512 .f32 :=
  (Memref.whole cc0_stg5_0 : Memref sig .tc .vmem S256x512 .f32).view.readAt (Elt F)
    (Rect.unit (s := S256x512) ![0, 0] S256x512.size inb_S256x512_S256x512_0_0).toLoadRect (xstg5 m ρ e)
def XA6 (e : Dev nD) : Vec F S512x256 .f32 :=
  (Memref.whole cc0_stg6_0 : Memref sig .tc .vmem S512x256 .f32).view.readAt (Elt F)
    (Rect.unit (s := S512x256) ![0, 0] S512x256.size inb_S512x256_S512x256_0_0).toLoadRect (xstg6 m ρ e)

/-- A load of the whole staging buffer returns its contents. -/
theorem XA0_eq (e : Dev nD) : XA0 m ρ e = xstg0 m ρ e := Memref.readAt_unit_zero (Elt F) cc0_stg0_0 hz2 _ _
theorem XA1_eq (e : Dev nD) : XA1 m ρ e = xstg1 m ρ e := Memref.readAt_unit_zero (Elt F) cc0_stg1_0 hz2 _ _
theorem XA2_eq (e : Dev nD) : XA2 m ρ e = xstg2 m ρ e := Memref.readAt_unit_zero (Elt F) cc0_stg2_0 hz2 _ _
theorem XA3_eq (e : Dev nD) : XA3 m ρ e = xstg3 m ρ e := Memref.readAt_unit_zero (Elt F) cc0_stg3_0 hz2 _ _
theorem XA4_eq (e : Dev nD) : XA4 m ρ e = xstg4 m ρ e := Memref.readAt_unit_zero (Elt F) cc0_stg4_0 hz2 _ _
theorem XA5_eq (e : Dev nD) : XA5 m ρ e = xstg5 m ρ e := Memref.readAt_unit_zero (Elt F) cc0_stg5_0 hz2 _ _
theorem XA6_eq (e : Dev nD) : XA6 m ρ e = xstg6 m ρ e := Memref.readAt_unit_zero (Elt F) cc0_stg6_0 hz2 _ _

/-- The staging buffer of an input holds the device's whole argument array: the window's one block is the
    whole array. -/
theorem xstg0_eq (e : Dev nD) : xstg0 m ρ e = m ((e : Thread nD τ).loc main_arg0) := by
  funext y
  unfold xstg0
  show (m ((e : Thread nD τ).loc main_arg0)) ((win0_0.blk (0 : Fin 1)).view.emb y)
    = m ((e : Thread nD τ).loc main_arg0) y
  refine congrArg _ (funext fun a => Fin.ext ?_)
  match a with
  | ⟨0, _⟩ =>
    show 0 * 256 + 1 * (y 0).val = (y 0).val
    omega
  | ⟨1, _⟩ =>
    show 0 * 256 + 1 * (y 1).val = (y 1).val
    omega
theorem xstg1_eq (e : Dev nD) : xstg1 m ρ e = m ((e : Thread nD τ).loc main_arg1) := by
  funext y
  unfold xstg1
  show (m ((e : Thread nD τ).loc main_arg1)) ((win0_1.blk (0 : Fin 1)).view.emb y)
    = m ((e : Thread nD τ).loc main_arg1) y
  refine congrArg _ (funext fun a => Fin.ext ?_)
  match a with
  | ⟨0, _⟩ =>
    show 0 * 256 + 1 * (y 0).val = (y 0).val
    omega
  | ⟨1, _⟩ =>
    show 0 * 512 + 1 * (y 1).val = (y 1).val
    omega
theorem xstg2_eq (e : Dev nD) : xstg2 m ρ e = m ((e : Thread nD τ).loc main_arg2) := by
  funext y
  unfold xstg2
  show (m ((e : Thread nD τ).loc main_arg2)) ((win0_2.blk (0 : Fin 1)).view.emb y)
    = m ((e : Thread nD τ).loc main_arg2) y
  refine congrArg _ (funext fun a => Fin.ext ?_)
  match a with
  | ⟨0, _⟩ =>
    show 0 * 512 + 1 * (y 0).val = (y 0).val
    omega
  | ⟨1, _⟩ =>
    show 0 * 256 + 1 * (y 1).val = (y 1).val
    omega
theorem xstg3_eq (e : Dev nD) : xstg3 m ρ e = m ((e : Thread nD τ).loc main_arg3) := by
  funext y
  unfold xstg3
  show (m ((e : Thread nD τ).loc main_arg3)) ((win0_3.blk (0 : Fin 1)).view.emb y)
    = m ((e : Thread nD τ).loc main_arg3) y
  refine congrArg _ (funext fun a => Fin.ext ?_)
  match a with
  | ⟨0, _⟩ =>
    show 0 * 256 + 1 * (y 0).val = (y 0).val
    omega
  | ⟨1, _⟩ =>
    show 0 * 512 + 1 * (y 1).val = (y 1).val
    omega
theorem xstg4_eq (e : Dev nD) : xstg4 m ρ e = m ((e : Thread nD τ).loc main_arg4) := by
  funext y
  unfold xstg4
  show (m ((e : Thread nD τ).loc main_arg4)) ((win0_4.blk (0 : Fin 1)).view.emb y)
    = m ((e : Thread nD τ).loc main_arg4) y
  refine congrArg _ (funext fun a => Fin.ext ?_)
  match a with
  | ⟨0, _⟩ =>
    show 0 * 512 + 1 * (y 0).val = (y 0).val
    omega
  | ⟨1, _⟩ =>
    show 0 * 256 + 1 * (y 1).val = (y 1).val
    omega
theorem xstg5_eq (e : Dev nD) : xstg5 m ρ e = m ((e : Thread nD τ).loc main_arg5) := by
  funext y
  unfold xstg5
  show (m ((e : Thread nD τ).loc main_arg5)) ((win0_5.blk (0 : Fin 1)).view.emb y)
    = m ((e : Thread nD τ).loc main_arg5) y
  refine congrArg _ (funext fun a => Fin.ext ?_)
  match a with
  | ⟨0, _⟩ =>
    show 0 * 256 + 1 * (y 0).val = (y 0).val
    omega
  | ⟨1, _⟩ =>
    show 0 * 512 + 1 * (y 1).val = (y 1).val
    omega
theorem xstg6_eq (e : Dev nD) : xstg6 m ρ e = m ((e : Thread nD τ).loc main_arg6) := by
  funext y
  unfold xstg6
  show (m ((e : Thread nD τ).loc main_arg6)) ((win0_6.blk (0 : Fin 1)).view.emb y)
    = m ((e : Thread nD τ).loc main_arg6) y
  refine congrArg _ (funext fun a => Fin.ext ?_)
  match a with
  | ⟨0, _⟩ =>
    show 0 * 512 + 1 * (y 0).val = (y 0).val
    omega
  | ⟨1, _⟩ =>
    show 0 * 256 + 1 * (y 1).val = (y 1).val
    omega

/-! ## The exchanged blocks, the initial buffers and the results -/

/-- The three weight-slice arrays of one kind, by layer. -/
abbrev WiA : Fin 3 → Dev nD → Vec F S256x512 .f32 := pack3 (XA1 m ρ) (XA3 m ρ) (XA5 m ρ)
abbrev WoA : Fin 3 → Dev nD → Vec F S512x256 .f32 := pack3 (XA2 m ρ) (XA4 m ρ) (XA6 m ρ)

/-- An arbitrary entry. -/
def dflt : Elt F .bf16 := (Elt.inhabited F .bf16).default

/-- The block device e stores in layer l for index i: in layers 0 and 1 for row block i; in layer 2 into slot i of
    the first exchange buffer.  Elsewhere an arbitrary block. -/
def valF : Dev nD → ℕ → ℕ → S64x256.Idx → Elt F .bf16 := fun e l i =>
  match l with
  | 0 => if h : i < 4 then sq5 (V0 (XA0 m ρ) (WiA m ρ) (WoA m ρ) e ⟨i, h⟩) else fun _ => dflt
  | 1 => if h : i < 4 then sq5 (V1 (XA0 m ρ) (WiA m ρ) (WoA m ρ) e ⟨i, h⟩) else fun _ => dflt
  | 2 =>
    match i with
    | 1 => sq4 (V2_1 (XA0 m ρ) (WiA m ρ) (WoA m ρ) e)
    | 2 => sq4 (V2_2 (XA0 m ρ) (WiA m ρ) (WoA m ρ) e)
    | 3 => sq4 (V2_3 (XA0 m ρ) (WiA m ρ) (WoA m ρ) e)
    | _ => fun _ => dflt
  | _ => fun _ => dflt

theorem valF_0_0 (e : Dev nD) : valF m ρ e 0 0 = sq5 (V0 (XA0 m ρ) (WiA m ρ) (WoA m ρ) e 0) := rfl
theorem valF_0_1 (e : Dev nD) : valF m ρ e 0 1 = sq5 (V0 (XA0 m ρ) (WiA m ρ) (WoA m ρ) e 1) := rfl
theorem valF_0_2 (e : Dev nD) : valF m ρ e 0 2 = sq5 (V0 (XA0 m ρ) (WiA m ρ) (WoA m ρ) e 2) := rfl
theorem valF_0_3 (e : Dev nD) : valF m ρ e 0 3 = sq5 (V0 (XA0 m ρ) (WiA m ρ) (WoA m ρ) e 3) := rfl
theorem valF_1_0 (e : Dev nD) : valF m ρ e 1 0 = sq5 (V1 (XA0 m ρ) (WiA m ρ) (WoA m ρ) e 0) := rfl
theorem valF_1_1 (e : Dev nD) : valF m ρ e 1 1 = sq5 (V1 (XA0 m ρ) (WiA m ρ) (WoA m ρ) e 1) := rfl
theorem valF_1_2 (e : Dev nD) : valF m ρ e 1 2 = sq5 (V1 (XA0 m ρ) (WiA m ρ) (WoA m ρ) e 2) := rfl
theorem valF_1_3 (e : Dev nD) : valF m ρ e 1 3 = sq5 (V1 (XA0 m ρ) (WiA m ρ) (WoA m ρ) e 3) := rfl
theorem valF_2_1 (e : Dev nD) : valF m ρ e 2 1 = sq4 (V2_1 (XA0 m ρ) (WiA m ρ) (WoA m ρ) e) := rfl
theorem valF_2_2 (e : Dev nD) : valF m ρ e 2 2 = sq4 (V2_2 (XA0 m ρ) (WiA m ρ) (WoA m ρ) e) := rfl
theorem valF_2_3 (e : Dev nD) : valF m ρ e 2 3 = sq4 (V2_3 (XA0 m ρ) (WiA m ρ) (WoA m ρ) e) := rfl

/-- With a row block given as an index below four. -/
theorem valF_0 (e : Dev nD) (p : Fin 4) : valF m ρ e 0 p.val = sq5 (V0 (XA0 m ρ) (WiA m ρ) (WoA m ρ) e p) := by
  show (if h : p.val < 4 then sq5 (V0 (XA0 m ρ) (WiA m ρ) (WoA m ρ) e ⟨p.val, h⟩) else fun _ => dflt) = _
  rw [dif_pos p.isLt]
theorem valF_1 (e : Dev nD) (p : Fin 4) : valF m ρ e 1 p.val = sq5 (V1 (XA0 m ρ) (WiA m ρ) (WoA m ρ) e p) := by
  show (if h : p.val < 4 then sq5 (V1 (XA0 m ρ) (WiA m ρ) (WoA m ρ) e ⟨p.val, h⟩) else fun _ => dflt) = _
  rw [dif_pos p.isLt]

/-- Arbitrary initial contents of the two exchange buffers. -/
def jkF (c : Dev nD) : Buf (Elt F) ((c : Thread nD τ).loc cc0_scratch0) := fun _ => dflt (F := F)
def jrF (c : Dev nD) : Buf (Elt F) ((c : Thread nD τ).loc cc0_scratch1) := fun _ => dflt (F := F)

/-- Each device's result. -/
def outF (c : Dev nD) : (cc0_stg7_0 : Ref sig .tc).ty.Contents (Elt F) :=
  OutV (XA0 m ρ) (WiA m ρ) (WoA m ρ) c

theorem outF_eq (c : Dev nD) :
    outF m ρ c = OutV (XA0 m ρ) (pack3 (XA1 m ρ) (XA3 m ρ) (XA5 m ρ)) (pack3 (XA2 m ρ) (XA4 m ρ) (XA6 m ρ)) c := rfl

end Generic

end Cert.Kernel.Mlp

end
-- ==== Proof.Bits.Creds.lean ====
import proofs.«900991_g7700000000000992_dist_mlpseq_tp1d_rep_bs_b256_d256_h512_v7x_i4_bf16_1_alg».proof.Proof.Bits.BodyDefs
import Idealize.ShloMosaic.Lib.Pipeline.Launch

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## The credit a device is dealt at launch

What the devices owe at launch is a sum of one-cell tallies, each addressed to the device a fixed distance ahead. Summed
over the issuers, every such tally is one credit on the addressee's own cell: the device that distance behind owes it. -/

/-- The launch credit under a sum of dues is the launch credit under each part; the part added last is put first. -/
theorem launchCred_split {O D : Dev nD → CellTallies nD τ sig Unit} {c : Dev nD} {P Q : sProp 𝕄}
    (hO : (Pipeline.launchCred O c : sProp 𝕄) ⊢ P) (hD : (Pipeline.launchCred D c : sProp 𝕄) ⊢ Q) :
    (Pipeline.launchCred (fun d => O d + D d) c : sProp 𝕄) ⊢ iprop(Q ∗ P) := by
  rw [Pipeline.launchCred_add]
  iintro ⟨HO, HD⟩
  isplitl [HD]
  · iapply hD
    iexact HD
  · iapply hO
    iexact HO

/-- Three unit credits on the barrier cell are one credit of three. -/
theorem barCred_join (c : Dev nD) :
    (iprop(cred (tallyAt (barCell c) () 1) ∗ cred (tallyAt (barCell c) () 1) ∗ cred (tallyAt (barCell c) () 1)) : sProp 𝕄)
      ⊢ cred (tallyAt (barCell c) () 3) := by
  refine (sep_mono_r (cred_add _ _).2).trans ((cred_add _ _).2.trans (Entails.of_eq ?_))
  rw [tallyAt_add, tallyAt_add]

/-- The launch credit of device `c`, one token per summand of what the devices owe, in the reverse of the order of the
    summands: the device `o` behind `c` is the one whose dues at distance `o` land on `c`'s cells. -/
theorem creds_rev (c : Dev nD) : (Pipeline.launchCred O₀ c : sProp 𝕄) ⊢ iprop(
      cred (tallyAt (barCell c) () 1)
    ∗ cred (tallyAt (barCell c) () 1)
    ∗ cred (tallyAt (barCell c) () 1)
    ∗ cred (tallyAt ((c : Thread nD τ), SemLoc.dma (rcvS 0 0 2 inb_S3x4x4_S1x1x1_0_0_2)) () N)
    ∗ cred (tallyAt ((c : Thread nD τ), SemLoc.dma (rcvS 0 0 1 inb_S3x4x4_S1x1x1_0_0_1)) () N)
    ∗ cred (tallyAt ((c : Thread nD τ), SemLoc.dma (rcvS 0 0 3 inb_S3x4x4_S1x1x1_0_0_3)) () N)
    ∗ cred (tallyAt ((c : Thread nD τ), SemLoc.dma (rcvS 0 1 2 inb_S3x4x4_S1x1x1_0_1_2)) () N)
    ∗ cred (tallyAt ((c : Thread nD τ), SemLoc.dma (rcvS 0 1 1 inb_S3x4x4_S1x1x1_0_1_1)) () N)
    ∗ cred (tallyAt ((c : Thread nD τ), SemLoc.dma (rcvS 0 1 3 inb_S3x4x4_S1x1x1_0_1_3)) () N)
    ∗ cred (tallyAt ((c : Thread nD τ), SemLoc.dma (rcvS 0 2 2 inb_S3x4x4_S1x1x1_0_2_2)) () N)
    ∗ cred (tallyAt ((c : Thread nD τ), SemLoc.dma (rcvS 0 2 1 inb_S3x4x4_S1x1x1_0_2_1)) () N)
    ∗ cred (tallyAt ((c : Thread nD τ), SemLoc.dma (rcvS 0 2 3 inb_S3x4x4_S1x1x1_0_2_3)) () N)
    ∗ cred (tallyAt ((c : Thread nD τ), SemLoc.dma (rcvS 0 3 2 inb_S3x4x4_S1x1x1_0_3_2)) () N)
    ∗ cred (tallyAt ((c : Thread nD τ), SemLoc.dma (rcvS 0 3 1 inb_S3x4x4_S1x1x1_0_3_1)) () N)
    ∗ cred (tallyAt ((c : Thread nD τ), SemLoc.dma (rcvS 0 3 3 inb_S3x4x4_S1x1x1_0_3_3)) () N)
    ∗ cred (tallyAt ((c : Thread nD τ), SemLoc.dma (rcvS 1 0 2 inb_S3x4x4_S1x1x1_1_0_2)) () N)
    ∗ cred (tallyAt ((c : Thread nD τ), SemLoc.dma (rcvS 1 0 1 inb_S3x4x4_S1x1x1_1_0_1)) () N)
    ∗ cred (tallyAt ((c : Thread nD τ), SemLoc.dma (rcvS 1 0 3 inb_S3x4x4_S1x1x1_1_0_3)) () N)
    ∗ cred (tallyAt ((c : Thread nD τ), SemLoc.dma (rcvS 1 1 2 inb_S3x4x4_S1x1x1_1_1_2)) () N)
    ∗ cred (tallyAt ((c : Thread nD τ), SemLoc.dma (rcvS 1 1 1 inb_S3x4x4_S1x1x1_1_1_1)) () N)
    ∗ cred (tallyAt ((c : Thread nD τ), SemLoc.dma (rcvS 1 1 3 inb_S3x4x4_S1x1x1_1_1_3)) () N)
    ∗ cred (tallyAt ((c : Thread nD τ), SemLoc.dma (rcvS 1 2 2 inb_S3x4x4_S1x1x1_1_2_2)) () N)
    ∗ cred (tallyAt ((c : Thread nD τ), SemLoc.dma (rcvS 1 2 1 inb_S3x4x4_S1x1x1_1_2_1)) () N)
    ∗ cred (tallyAt ((c : Thread nD τ), SemLoc.dma (rcvS 1 2 3 inb_S3x4x4_S1x1x1_1_2_3)) () N)
    ∗ cred (tallyAt ((c : Thread nD τ), SemLoc.dma (rcvS 1 3 2 inb_S3x4x4_S1x1x1_1_3_2)) () N)
    ∗ cred (tallyAt ((c : Thread nD τ), SemLoc.dma (rcvS 1 3 1 inb_S3x4x4_S1x1x1_1_3_1)) () N)
    ∗ cred (tallyAt ((c : Thread nD τ), SemLoc.dma (rcvS 1 3 3 inb_S3x4x4_S1x1x1_1_3_3)) () N)
    ∗ cred (tallyAt ((c : Thread nD τ), SemLoc.dma (rcvS 2 0 2 inb_S3x4x4_S1x1x1_2_0_2)) () N)
    ∗ cred (tallyAt ((c : Thread nD τ), SemLoc.dma (rcvS 2 0 1 inb_S3x4x4_S1x1x1_2_0_1)) () N)
    ∗ cred (tallyAt ((c : Thread nD τ), SemLoc.dma (rcvS 2 0 3 inb_S3x4x4_S1x1x1_2_0_3)) () N)) := by
  show (Pipeline.launchCred (fun d => _ + _) c : sProp 𝕄) ⊢ _
  -- the three barrier dues
  refine launchCred_split ?_ (Pipeline.launchCred_tallyAt _ (fun d => pe d 1) (fun c => ps c 1) pe_ps1 ps_pe1 () 1 c)
  refine launchCred_split ?_ (Pipeline.launchCred_tallyAt _ (fun d => pe d 2) (fun c => ps c 2) pe_ps2 ps_pe2 () 1 c)
  refine launchCred_split ?_ (Pipeline.launchCred_tallyAt _ (fun d => pe d 3) (fun c => ps c 3) pe_ps3 ps_pe3 () 1 c)
  -- layer 0
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  -- layer 1
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  refine launchCred_split ?_ (Pipeline.launchCred_tallyAt _ (fun d => pe d 3) (fun c => ps c 3) pe_ps3 ps_pe3 () N c)
  -- the last layer's three
  refine launchCred_split ?_ (Pipeline.launchCred_tallyAt _ (fun d => pe d 2) (fun c => ps c 2) pe_ps2 ps_pe2 () N c)
  refine launchCred_split ?_ (Pipeline.launchCred_tallyAt _ (fun d => pe d 1) (fun c => ps c 1) pe_ps1 ps_pe1 () N c)
  exact Pipeline.launchCred_tallyAt _ (fun d => pe d 3) (fun c => ps c 3) pe_ps3 ps_pe3 () N c

/-- The same tokens in the order in which a device's starting resources list them, the three barrier units joined. -/
theorem creds (c : Dev nD) : (Pipeline.launchCred O₀ c : sProp 𝕄) ⊢ iprop(
      cred (tallyAt (barCell c) () 3)
    ∗ cred (tallyAt ((c : Thread nD τ), SemLoc.dma (rcvS 0 0 1 inb_S3x4x4_S1x1x1_0_0_1)) () N)
    ∗ cred (tallyAt ((c : Thread nD τ), SemLoc.dma (rcvS 0 0 2 inb_S3x4x4_S1x1x1_0_0_2)) () N)
    ∗ cred (tallyAt ((c : Thread nD τ), SemLoc.dma (rcvS 0 0 3 inb_S3x4x4_S1x1x1_0_0_3)) () N)
    ∗ cred (tallyAt ((c : Thread nD τ), SemLoc.dma (rcvS 0 1 1 inb_S3x4x4_S1x1x1_0_1_1)) () N)
    ∗ cred (tallyAt ((c : Thread nD τ), SemLoc.dma (rcvS 0 1 2 inb_S3x4x4_S1x1x1_0_1_2)) () N)
    ∗ cred (tallyAt ((c : Thread nD τ), SemLoc.dma (rcvS 0 1 3 inb_S3x4x4_S1x1x1_0_1_3)) () N)
    ∗ cred (tallyAt ((c : Thread nD τ), SemLoc.dma (rcvS 0 2 1 inb_S3x4x4_S1x1x1_0_2_1)) () N)
    ∗ cred (tallyAt ((c : Thread nD τ), SemLoc.dma (rcvS 0 2 2 inb_S3x4x4_S1x1x1_0_2_2)) () N)
    ∗ cred (tallyAt ((c : Thread nD τ), SemLoc.dma (rcvS 0 2 3 inb_S3x4x4_S1x1x1_0_2_3)) () N)
    ∗ cred (tallyAt ((c : Thread nD τ), SemLoc.dma (rcvS 0 3 1 inb_S3x4x4_S1x1x1_0_3_1)) () N)
    ∗ cred (tallyAt ((c : Thread nD τ), SemLoc.dma (rcvS 0 3 2 inb_S3x4x4_S1x1x1_0_3_2)) () N)
    ∗ cred (tallyAt ((c : Thread nD τ), SemLoc.dma (rcvS 0 3 3 inb_S3x4x4_S1x1x1_0_3_3)) () N)
    ∗ cred (tallyAt ((c : Thread nD τ), SemLoc.dma (rcvS 1 0 1 inb_S3x4x4_S1x1x1_1_0_1)) () N)
    ∗ cred (tallyAt ((c : Thread nD τ), SemLoc.dma (rcvS 1 0 2 inb_S3x4x4_S1x1x1_1_0_2)) () N)
    ∗ cred (tallyAt ((c : Thread nD τ), SemLoc.dma (rcvS 1 0 3 inb_S3x4x4_S1x1x1_1_0_3)) () N)
    ∗ cred (tallyAt ((c : Thread nD τ), SemLoc.dma (rcvS 1 1 1 inb_S3x4x4_S1x1x1_1_1_1)) () N)
    ∗ cred (tallyAt ((c : Thread nD τ), SemLoc.dma (rcvS 1 1 2 inb_S3x4x4_S1x1x1_1_1_2)) () N)
    ∗ cred (tallyAt ((c : Thread nD τ), SemLoc.dma (rcvS 1 1 3 inb_S3x4x4_S1x1x1_1_1_3)) () N)
    ∗ cred (tallyAt ((c : Thread nD τ), SemLoc.dma (rcvS 1 2 1 inb_S3x4x4_S1x1x1_1_2_1)) () N)
    ∗ cred (tallyAt ((c : Thread nD τ), SemLoc.dma (rcvS 1 2 2 inb_S3x4x4_S1x1x1_1_2_2)) () N)
    ∗ cred (tallyAt ((c : Thread nD τ), SemLoc.dma (rcvS 1 2 3 inb_S3x4x4_S1x1x1_1_2_3)) () N)
    ∗ cred (tallyAt ((c : Thread nD τ), SemLoc.dma (rcvS 1 3 1 inb_S3x4x4_S1x1x1_1_3_1)) () N)
    ∗ cred (tallyAt ((c : Thread nD τ), SemLoc.dma (rcvS 1 3 2 inb_S3x4x4_S1x1x1_1_3_2)) () N)
    ∗ cred (tallyAt ((c : Thread nD τ), SemLoc.dma (rcvS 1 3 3 inb_S3x4x4_S1x1x1_1_3_3)) () N)
    ∗ cred (tallyAt ((c : Thread nD τ), SemLoc.dma (rcvS 2 0 1 inb_S3x4x4_S1x1x1_2_0_1)) () N)
    ∗ cred (tallyAt ((c : Thread nD τ), SemLoc.dma (rcvS 2 0 2 inb_S3x4x4_S1x1x1_2_0_2)) () N)
    ∗ cred (tallyAt ((c : Thread nD τ), SemLoc.dma (rcvS 2 0 3 inb_S3x4x4_S1x1x1_2_0_3)) () N)) := by
  refine (creds_rev c).trans ?_
  iintro ⟨B1, B2, B3, H002, H001, H003, H012, H011, H013, H022, H021, H023, H032, H031, H033,
    H102, H101, H103, H112, H111, H113, H122, H121, H123, H132, H131, H133, H202, H201, H203⟩
  isplitl [B1 B2 B3]
  · iapply barCred_join c
    isplitl [B1]
    · iexact B1
    isplitl [B2]
    · iexact B2
    iexact B3
  isplitl [H001]
  · iexact H001
  isplitl [H002]
  · iexact H002
  isplitl [H003]
  · iexact H003
  isplitl [H011]
  · iexact H011
  isplitl [H012]
  · iexact H012
  isplitl [H013]
  · iexact H013
  isplitl [H021]
  · iexact H021
  isplitl [H022]
  · iexact H022
  isplitl [H023]
  · iexact H023
  isplitl [H031]
  · iexact H031
  isplitl [H032]
  · iexact H032
  isplitl [H033]
  · iexact H033
  isplitl [H101]
  · iexact H101
  isplitl [H102]
  · iexact H102
  isplitl [H103]
  · iexact H103
  isplitl [H111]
  · iexact H111
  isplitl [H112]
  · iexact H112
  isplitl [H113]
  · iexact H113
  isplitl [H121]
  · iexact H121
  isplitl [H122]
  · iexact H122
  isplitl [H123]
  · iexact H123
  isplitl [H131]
  · iexact H131
  isplitl [H132]
  · iexact H132
  isplitl [H133]
  · iexact H133
  isplitl [H201]
  · iexact H201
  isplitl [H202]
  · iexact H202
  iexact H203

/-- info: 'Cert.Kernel.Mlp.creds' depends on axioms: [propext, Classical.choice, Quot.sound] -/
#guard_msgs in #print axioms creds

end Cert.Kernel.Mlp

end
-- ==== Proof.Bits.Levels.lean ====
/-
  The deadlock levels. A wait is allowed when everything the waiting device still owes lies on cells at a level
  strictly above the cell it waits on. Barrier cells sit at level 1, the receive cells of layer `l` at `2 + l`, every
  other cell at 0; what a device owes is always a sum of one-cell tallies on barrier and receive cells.
-/
import proofs.«900991_g7700000000000992_dist_mlpseq_tp1d_rep_bs_b256_d256_h512_v7x_i4_bf16_1_alg».proof.Proof.Bits.BodyDefs

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Where a tally is positive -/

/-- A sum of two tallies is positive at a cell only where one of them is. -/
theorem pos_of_add {O₁ O₂ : CellTallies nD τ sig Unit} {g : GSem nD τ sig} {u : Unit} (h : 0 < (O₁ + O₂) g u) :
    0 < O₁ g u ∨ 0 < O₂ g u := Pipeline.add_pos_cases h

/-- A one-cell tally is positive only at its own cell. -/
theorem pos_tallyAt {g g' : GSem nD τ sig} {u u' : Unit} {n : ℕ} (h : 0 < tallyAt g' u' n g u) : g = g' :=
  (Pipeline.tallyAt_pos h).1

/-- Every cell at which the tally `O` is positive satisfies `P`. -/
def Supp (P : GSem nD τ sig → Prop) (O : CellTallies nD τ sig Unit) : Prop := ∀ g u, 0 < O g u → P g

theorem Supp.zero (P : GSem nD τ sig → Prop) : Supp P 0 := fun g u h => absurd h (Nat.lt_irrefl 0)
theorem Supp.add {P : GSem nD τ sig → Prop} {O₁ O₂ : CellTallies nD τ sig Unit} (h₁ : Supp P O₁) (h₂ : Supp P O₂) :
    Supp P (O₁ + O₂) := fun g u h => (pos_of_add h).elim (h₁ g u) (h₂ g u)
theorem Supp.tally {P : GSem nD τ sig → Prop} {g : GSem nD τ sig} (hg : P g) (u : Unit) (k : ℕ) : Supp P (tallyAt g u k) :=
  fun g' u' h => by rw [pos_tallyAt h]; exact hg
theorem Supp.mono {P Q : GSem nD τ sig → Prop} {O : CellTallies nD τ sig Unit} (hPQ : ∀ g, P g → Q g) (h : Supp P O) :
    Supp Q O := fun g u hg => hPQ g (h g u hg)

/-! ## The levels of the literal cells -/

theorem L_tc (c : Dev nD) (sm : SemLoc sig) : L ((c : Thread nD τ), sm) = {()} := if_pos rfl

/-- A barrier cell sits at level 1. -/
theorem lv_bar (c : Dev nD) : lv (barCell c) () = 1 := by dsimp only [lv]; rw [if_pos rfl]

/-- A semaphore of the two arrays does not depend on the evidence that its index is in range. -/
theorem rcvS_irrel {l p o : ℕ} (h h' : ∀ a, (![l, p, o] : Fin 3 → Nat) a + S1x1x1.size a ≤ S3x4x4.size a) :
    rcvS l p o h = rcvS l p o h' := rfl
theorem sndS_irrel {l p o : ℕ} (h h' : ∀ a, (![l, p, o] : Fin 3 → Nat) a + S1x1x1.size a ≤ S3x4x4.size a) :
    sndS l p o h = sndS l p o h' := rfl

/-- The receive cell `[l, p, o]` sits at level `2 + l`. -/
theorem lv_rcv (c : Dev nD) {l p o : ℕ} (hl : l < 3) (hp : p < 4) (ho : o < 4)
    (h : ∀ a, (![l, p, o] : Fin 3 → Nat) a + S1x1x1.size a ≤ S3x4x4.size a) :
    lv ((c : Thread nD τ), SemLoc.dma (rcvS l p o h)) () = 2 + l := by
  obtain rfl | rfl | rfl : l = 0 ∨ l = 1 ∨ l = 2 := by omega
  all_goals obtain rfl | rfl | rfl | rfl : p = 0 ∨ p = 1 ∨ p = 2 ∨ p = 3 := by omega
  all_goals obtain rfl | rfl | rfl | rfl : o = 0 ∨ o = 1 ∨ o = 2 ∨ o = 3 := by omega
  all_goals (rw [rcvS_irrel h (by decide)]; rfl)

/-- A send cell sits at level 0. -/
theorem lv_snd (c : Dev nD) {l p o : ℕ} (hl : l < 3) (hp : p < 4) (ho : o < 4)
    (h : ∀ a, (![l, p, o] : Fin 3 → Nat) a + S1x1x1.size a ≤ S3x4x4.size a) :
    lv ((c : Thread nD τ), SemLoc.dma (sndS l p o h)) () = 0 := by
  obtain rfl | rfl | rfl : l = 0 ∨ l = 1 ∨ l = 2 := by omega
  all_goals obtain rfl | rfl | rfl | rfl : p = 0 ∨ p = 1 ∨ p = 2 ∨ p = 3 := by omega
  all_goals obtain rfl | rfl | rfl | rfl : o = 0 ∨ o = 1 ∨ o = 2 ∨ o = 3 := by omega
  all_goals (rw [sndS_irrel h (by decide)]; rfl)

/-- A DMA semaphore below the receive array (the pipeline's staging semaphores, the send array) sits at level 0. -/
theorem lv_dma_lt (c : Dev nD) (q : DmaSem sig) (hq : q.val < 56) : lv ((c : Thread nD τ), SemLoc.dma q) () = 0 := by
  dsimp only [lv, rcvKey]; rw [if_neg (fun h => by omega)]

/-! ## Tallies above a level -/

/-- Everything the tally `O` holds lies on a core's cell at a level above `n`. -/
abbrev Above (n : ℕ) (O : CellTallies nD τ sig Unit) : Prop := Supp (fun g => g.1.2 = .tc ∧ n < lv g ()) O

theorem above_bar (c : Dev nD) (k : ℕ) : Above 0 (tallyAt (barCell c) () k) :=
  Supp.tally ⟨rfl, by rw [lv_bar]; decide⟩ () k

theorem above_rcv (c : Dev nD) {l p o : ℕ} (hl : l < 3) (hp : p < 4) (ho : o < 4)
    (h : ∀ a, (![l, p, o] : Fin 3 → Nat) a + S1x1x1.size a ≤ S3x4x4.size a) (k : ℕ) :
    Above (1 + l) (tallyAt ((c : Thread nD τ), SemLoc.dma (rcvS l p o h)) () k) :=
  Supp.tally ⟨rfl, by rw [lv_rcv c hl hp ho h]; omega⟩ () k

theorem Above.mono {m n : ℕ} (hmn : m ≤ n) {O : CellTallies nD τ sig Unit} (h : Above n O) : Above m O :=
  Supp.mono (fun g hg => ⟨hg.1, Nat.lt_of_le_of_lt hmn hg.2⟩) h

/-- What a device owes at launch lies on the barrier cells of the three others and on receive cells of theirs. -/
theorem O₀_pos (c : Dev nD) :
    Supp (fun g => (∃ o, (o = 1 ∨ o = 2 ∨ o = 3) ∧ g = barCell (pe c o))
      ∨ ∃ (l p o : ℕ) (_ : l < 3) (_ : p < 4) (_ : o < 4) (h : ∀ a, (![l, p, o] : Fin 3 → Nat) a + S1x1x1.size a ≤ S3x4x4.size a),
          g = (((pe c o) : Thread nD τ), SemLoc.dma (rcvS l p o h))) (O₀ c) := by
  unfold O₀
  repeat' (first
    | apply Supp.add
    | exact Supp.tally (Or.inl ⟨_, by decide, rfl⟩) () _
    | exact Supp.tally (Or.inr ⟨_, _, _, by decide, by decide, by decide, _, rfl⟩) () _)

/-- What a device owes at launch lies above level 0. -/
theorem O₀_above (c : Dev nD) : Above 0 (O₀ c) :=
  Supp.mono (fun g hg => by
    rcases hg with ⟨o, _, rfl⟩ | ⟨l, p, o, hl, hp, ho, h, rfl⟩
    · exact ⟨rfl, by rw [lv_bar]; decide⟩
    · exact ⟨rfl, by rw [lv_rcv _ hl hp ho h]; omega⟩) (O₀_pos c)

/-! ## The evidence a wait presents -/

omit [FloatOps F] in
/-- A device may wait on a cell when all it owes lies on cores' cells at levels strictly above that cell's. -/
theorem mayWait_of_above (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  Pipeline.mayWait_of_levAts (L := L) (lev := lv) (by rw [L_tc]; exact Finset.mem_singleton_self _)
    (fun g u hg => ⟨by unfold L; rw [if_pos (hO g u hg).1]; exact Finset.mem_singleton_self _, (hO g u hg).2⟩)

omit [FloatOps F] in
/-- The same, the level of the waited cell named. -/
theorem mayWait_of_Above (c : Dev nD) (sm : SemLoc sig) (n : ℕ) (hn : lv ((c : Thread nD τ), sm) () = n)
    (O : CellTallies nD τ sig Unit) (hO : Above n O) :
    (levAts L lv : sProp 𝕄) ⊢ MayWait (c : Thread nD τ) sm () O :=
  mayWait_of_above c sm O (fun g u hg => by rw [hn]; exact hO g u hg)

omit [FloatOps F] in
/-- The pipeline's staging semaphores sit at level 0, below everything a device ever owes. -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · exact mayWait_of_Above c _ 0 (lv_dma_lt c q (by omega)) _ (O₀_above c)
  · rw [MayWait_zero]; iintro -; iempintro

end Cert.Kernel.Mlp

end
-- ==== Proof.Bits.LaunchK.lean ====
import proofs.«900991_g7700000000000992_dist_mlpseq_tp1d_rep_bs_b256_d256_h512_v7x_i4_bf16_1_alg».proof.Proof.Bits.BodyDefs
import proofs.«900991_g7700000000000992_dist_mlpseq_tp1d_rep_bs_b256_d256_h512_v7x_i4_bf16_1_alg».proof.Proof.Bits.Creds
import proofs.«900991_g7700000000000992_dist_mlpseq_tp1d_rep_bs_b256_d256_h512_v7x_i4_bf16_1_alg».proof.Proof.Bits.Levels
import Idealize.ShloMosaic.Lib.Pipeline.Launch
import Idealize.ShloMosaic.Lib.Pipeline.Kit
import Idealize.ShloMosaic.Lib.Tactic

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## The 27 copies, indexed

Index `k : Fin 27` runs over the copies in the order (layer, block, slot): layers 0 and 1, blocks 0 … 3, slots 1 … 3,
then the three reduce-scatter copies of layer 2. `sq k` is its send semaphore, `rq k` its receive semaphore, `ko k` its slot:
the distance to the device it goes to. -/

def sq : Fin 27 → DmaSem sig
  | 0 => sndS 0 0 1 inb_S3x4x4_S1x1x1_0_0_1
  | 1 => sndS 0 0 2 inb_S3x4x4_S1x1x1_0_0_2
  | 2 => sndS 0 0 3 inb_S3x4x4_S1x1x1_0_0_3
  | 3 => sndS 0 1 1 inb_S3x4x4_S1x1x1_0_1_1
  | 4 => sndS 0 1 2 inb_S3x4x4_S1x1x1_0_1_2
  | 5 => sndS 0 1 3 inb_S3x4x4_S1x1x1_0_1_3
  | 6 => sndS 0 2 1 inb_S3x4x4_S1x1x1_0_2_1
  | 7 => sndS 0 2 2 inb_S3x4x4_S1x1x1_0_2_2
  | 8 => sndS 0 2 3 inb_S3x4x4_S1x1x1_0_2_3
  | 9 => sndS 0 3 1 inb_S3x4x4_S1x1x1_0_3_1
  | 10 => sndS 0 3 2 inb_S3x4x4_S1x1x1_0_3_2
  | 11 => sndS 0 3 3 inb_S3x4x4_S1x1x1_0_3_3
  | 12 => sndS 1 0 1 inb_S3x4x4_S1x1x1_1_0_1
  | 13 => sndS 1 0 2 inb_S3x4x4_S1x1x1_1_0_2
  | 14 => sndS 1 0 3 inb_S3x4x4_S1x1x1_1_0_3
  | 15 => sndS 1 1 1 inb_S3x4x4_S1x1x1_1_1_1
  | 16 => sndS 1 1 2 inb_S3x4x4_S1x1x1_1_1_2
  | 17 => sndS 1 1 3 inb_S3x4x4_S1x1x1_1_1_3
  | 18 => sndS 1 2 1 inb_S3x4x4_S1x1x1_1_2_1
  | 19 => sndS 1 2 2 inb_S3x4x4_S1x1x1_1_2_2
  | 20 => sndS 1 2 3 inb_S3x4x4_S1x1x1_1_2_3
  | 21 => sndS 1 3 1 inb_S3x4x4_S1x1x1_1_3_1
  | 22 => sndS 1 3 2 inb_S3x4x4_S1x1x1_1_3_2
  | 23 => sndS 1 3 3 inb_S3x4x4_S1x1x1_1_3_3
  | 24 => sndS 2 0 1 inb_S3x4x4_S1x1x1_2_0_1
  | 25 => sndS 2 0 2 inb_S3x4x4_S1x1x1_2_0_2
  | 26 => sndS 2 0 3 inb_S3x4x4_S1x1x1_2_0_3
  | ⟨_ + 27, h⟩ => absurd h (Nat.not_lt.2 (Nat.le_add_left _ _))
def rq : Fin 27 → DmaSem sig
  | 0 => rcvS 0 0 1 inb_S3x4x4_S1x1x1_0_0_1
  | 1 => rcvS 0 0 2 inb_S3x4x4_S1x1x1_0_0_2
  | 2 => rcvS 0 0 3 inb_S3x4x4_S1x1x1_0_0_3
  | 3 => rcvS 0 1 1 inb_S3x4x4_S1x1x1_0_1_1
  | 4 => rcvS 0 1 2 inb_S3x4x4_S1x1x1_0_1_2
  | 5 => rcvS 0 1 3 inb_S3x4x4_S1x1x1_0_1_3
  | 6 => rcvS 0 2 1 inb_S3x4x4_S1x1x1_0_2_1
  | 7 => rcvS 0 2 2 inb_S3x4x4_S1x1x1_0_2_2
  | 8 => rcvS 0 2 3 inb_S3x4x4_S1x1x1_0_2_3
  | 9 => rcvS 0 3 1 inb_S3x4x4_S1x1x1_0_3_1
  | 10 => rcvS 0 3 2 inb_S3x4x4_S1x1x1_0_3_2
  | 11 => rcvS 0 3 3 inb_S3x4x4_S1x1x1_0_3_3
  | 12 => rcvS 1 0 1 inb_S3x4x4_S1x1x1_1_0_1
  | 13 => rcvS 1 0 2 inb_S3x4x4_S1x1x1_1_0_2
  | 14 => rcvS 1 0 3 inb_S3x4x4_S1x1x1_1_0_3
  | 15 => rcvS 1 1 1 inb_S3x4x4_S1x1x1_1_1_1
  | 16 => rcvS 1 1 2 inb_S3x4x4_S1x1x1_1_1_2
  | 17 => rcvS 1 1 3 inb_S3x4x4_S1x1x1_1_1_3
  | 18 => rcvS 1 2 1 inb_S3x4x4_S1x1x1_1_2_1
  | 19 => rcvS 1 2 2 inb_S3x4x4_S1x1x1_1_2_2
  | 20 => rcvS 1 2 3 inb_S3x4x4_S1x1x1_1_2_3
  | 21 => rcvS 1 3 1 inb_S3x4x4_S1x1x1_1_3_1
  | 22 => rcvS 1 3 2 inb_S3x4x4_S1x1x1_1_3_2
  | 23 => rcvS 1 3 3 inb_S3x4x4_S1x1x1_1_3_3
  | 24 => rcvS 2 0 1 inb_S3x4x4_S1x1x1_2_0_1
  | 25 => rcvS 2 0 2 inb_S3x4x4_S1x1x1_2_0_2
  | 26 => rcvS 2 0 3 inb_S3x4x4_S1x1x1_2_0_3
  | ⟨_ + 27, h⟩ => absurd h (Nat.not_lt.2 (Nat.le_add_left _ _))
def ko : Fin 27 → ℕ
  | 0 => 1
  | 1 => 2
  | 2 => 3
  | 3 => 1
  | 4 => 2
  | 5 => 3
  | 6 => 1
  | 7 => 2
  | 8 => 3
  | 9 => 1
  | 10 => 2
  | 11 => 3
  | 12 => 1
  | 13 => 2
  | 14 => 3
  | 15 => 1
  | 16 => 2
  | 17 => 3
  | 18 => 1
  | 19 => 2
  | 20 => 3
  | 21 => 1
  | 22 => 2
  | 23 => 3
  | 24 => 1
  | 25 => 2
  | 26 => 3
  | ⟨_ + 27, h⟩ => absurd h (Nat.not_lt.2 (Nat.le_add_left _ _))

abbrev sndC (c : Dev nD) (k : Fin 27) : GSem nD τ sig := ((c : Thread nD τ), SemLoc.dma (sq k))
abbrev rcvC (c : Dev nD) (k : Fin 27) : GSem nD τ sig := ((c : Thread nD τ), SemLoc.dma (rq k))

/-- The 27 indices, listed. -/
abbrev k27 : List (Fin 27) := [0, 1, 2, 3, 4, 5, 6, 7, 8, 9, 10, 11, 12, 13, 14, 15, 16, 17, 18, 19, 20, 21, 22, 23, 24, 25, 26]

theorem bigSep_fin27 {M : Type} [URA M] (Φ : Fin 27 → sProp M) : bigSep Finset.univ Φ = bigSepL k27 Φ :=
  bigSep_univ_eq_bigSepL k27 (by decide) (by decide) Φ

/-- A chain `Φ a ∗ Φ b ∗ … ∗ R` that ends in a tail `R`: how a run of like conjuncts sits inside a longer flat conjunction. -/
def bigSepLR {M : Type} [URA M] {I : Type} : List I → (I → sProp M) → sProp M → sProp M
  | [], _, R => R
  | i :: l, Φ, R => BI.sep (Φ i) (bigSepLR l Φ R)

theorem bigSepLR_eq {M : Type} [URA M] {I : Type} (l : List I) (Φ : I → sProp M) (R : sProp M) :
    bigSepLR l Φ R = iprop(bigSepL l Φ ∗ R) := by
  induction l with
  | nil => exact (equiv_iff.mp emp_sep).symm
  | cons i l ih =>
    show BI.sep (Φ i) (bigSepLR l Φ R) = _
    rw [ih, bigSepL_cons]
    exact BI.sep_assoc'.antisymm BI.sep_assoc

theorem bigSepLR_fin27 {M : Type} [URA M] (Φ : Fin 27 → sProp M) (R : sProp M) :
    bigSepLR k27 Φ R = iprop(bigSep Finset.univ Φ ∗ R) := by rw [bigSepLR_eq, bigSep_fin27]

/-! ## The ring, as equivalences -/

theorem ps_pe (c : Dev nD) (o : ℕ) : ps (pe c o) o = c := by
  have h : c.val < 4 := c.isLt
  exact Fin.ext (by simp only [ps, pe]; omega)
theorem pe_ps (c : Dev nD) (o : ℕ) : pe (ps c o) o = c := by
  have h : c.val < 4 := c.isLt
  exact Fin.ext (by simp only [ps, pe]; omega)
/-- Going `o` devices ahead, as a permutation of the devices. -/
def ahead (o : ℕ) : Dev nD ≃ Dev nD := ⟨fun c => pe c o, fun c => ps c o, fun c => ps_pe c o, fun c => pe_ps c o⟩

/-! ## The kernel's own semaphores and the cells -/

/-- The kernel's own (scoped) semaphores that the protocol uses: the 27 send and the 27 receive semaphores. -/
abbrev osem : Fin 27 ⊕ Fin 27 → SemLoc sig
  | .inl k => .dma (sq k)
  | .inr k => .dma (rq k)

/-- A device's cells: its barrier cell, then its own semaphores. -/
abbrev CK : Type := Unit ⊕ (Fin 27 ⊕ Fin 27)
abbrev csem : CK → SemLoc sig
  | .inl _ => .reg barS
  | .inr i => osem i
abbrev kcell (ci : Dev nD × CK) : GSem nD τ sig := ((ci.1 : Thread nD τ), csem ci.2)

theorem ownSemFacts : Pipeline.OwnSemFacts cfg0.spec osem := by decide +kernel
theorem osem_injective : Function.Injective osem := ownSemFacts.inj
theorem csem_injective : Function.Injective csem := by
  rintro (u | i) (u' | i') h
  · rfl
  · rcases i' with k | k <;> cases h
  · rcases i with k | k <;> cases h
  · exact congrArg Sum.inr (osem_injective h)
theorem kcell_injective : Function.Injective (kcell : Dev nD × CK → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl
def ourCells : Finset (GSem nD τ sig) := Finset.univ.map ⟨kcell, kcell_injective⟩

/-- The duty tokens of a device's own cells: its barrier's three, one for each own semaphore. -/
abbrev TK : Type := Fin 3 ⊕ (Fin 27 ⊕ Fin 27)
abbrev tokOf (ct : Dev nD × TK) : GSem nD τ sig × ℕ × Fin 4 := match ct.2 with
  | .inl o => (barCell ct.1, 0, o.succ)
  | .inr i => (((ct.1 : Thread nD τ), osem i), 0, 0)
theorem tokOf_injective : Function.Injective (tokOf : Dev nD × TK → GSem nD τ sig × ℕ × Fin 4) := by
  rintro ⟨c, t⟩ ⟨c', t'⟩ h
  have h1 : c = c' := by
    have := congrArg (fun x : GSem nD τ sig × ℕ × Fin 4 => x.1.1.1) h
    rcases t with o | i <;> rcases t' with o' | i' <;> exact this
  subst h1
  have h2 : t = t' := by
    rcases t with o | i <;> rcases t' with o' | i'
    · exact congrArg Sum.inl (Fin.succ_injective _ (congrArg (fun x : GSem nD τ sig × ℕ × Fin 4 => x.2.2) h))
    · exact absurd (congrArg (fun x : GSem nD τ sig × ℕ × Fin 4 => x.1.2) h) (by rcases i' with k | k <;> exact fun h' => by cases h')
    · exact absurd (congrArg (fun x : GSem nD τ sig × ℕ × Fin 4 => x.1.2) h) (by rcases i with k | k <;> exact fun h' => by cases h')
    · exact congrArg Sum.inr (osem_injective (congrArg (fun x : GSem nD τ sig × ℕ × Fin 4 => x.1.2) h))
  subst h2; rfl
def ourToks : Finset (GSem nD τ sig × ℕ × Fin 4) := Finset.univ.map ⟨tokOf, tokOf_injective⟩

def u₀ : UU :=
  (initOf (Pipeline.cells cfgs cellOf_inj) (Pipeline.launchToks cfgs cellOf_inj), initOf ourCells ourToks)

theorem share_eq (c : Dev nD) (w : Fin cfg0.W) : (dats m ρ val jk jr outv 0 c).share w = fullShare := by unfold Dat.share; split <;> rfl

/-! ### Sums over the index types -/

theorem bigSep_unit {M : Type} [URA M] (Φ : Unit → sProp M) : bigSep Finset.univ Φ = Φ () := by
  rw [show (Finset.univ : Finset Unit) = {()} from rfl, bigSep_singleton]
theorem bigSep_CK {M : Type} [URA M] (Φ : CK → sProp M) :
    bigSep Finset.univ Φ = iprop(Φ (.inl ()) ∗ (bigSep Finset.univ fun k : Fin 27 => Φ (.inr (.inl k))) ∗ bigSep Finset.univ fun k : Fin 27 => Φ (.inr (.inr k))) := by
  rw [bigSep_univ_sum, bigSep_univ_sum, bigSep_unit]; rfl
theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ
theorem bigSep_TK {M : Type} [URA M] (Φ : TK → sProp M) :
    bigSep Finset.univ Φ = iprop((Φ (.inl 0) ∗ Φ (.inl 1) ∗ Φ (.inl 2)) ∗ (bigSep Finset.univ fun k : Fin 27 => Φ (.inr (.inl k))) ∗ bigSep Finset.univ fun k : Fin 27 => Φ (.inr (.inr k))) := by
  rw [bigSep_univ_sum, bigSep_univ_sum, bigSep_fin3]; rfl

/-! ## The schedule's payloads can be stored in an invariant -/

set_option synthInstance.maxSize 100000 in
set_option synthInstance.maxHeartbeats 2000000 in
set_option maxHeartbeats 2000000 in
instance barPay1_storable (c : Dev nD) : BI.Storable (upEmb : UEmb _ 𝕄) (barPay1 (F := F) c) := by unfold barPay1; infer_instance
set_option synthInstance.maxSize 100000 in
set_option synthInstance.maxHeartbeats 2000000 in
set_option maxHeartbeats 2000000 in
instance barPay2_storable (c : Dev nD) : BI.Storable (upEmb : UEmb _ 𝕄) (barPay2 (F := F) c) := by unfold barPay2; infer_instance
set_option synthInstance.maxSize 100000 in
set_option synthInstance.maxHeartbeats 2000000 in
set_option maxHeartbeats 2000000 in
instance barPay3_storable (c : Dev nD) : BI.Storable (upEmb : UEmb _ 𝕄) (barPay3 (F := F) c) := by unfold barPay3; infer_instance
instance sendPay_storable (c : Dev nD) (k : ℕ × ℕ × ℕ) : BI.Storable (upEmb : UEmb _ 𝕄) (sendPay val jk jr c k) := by
  unfold sendPay; split <;> infer_instance
instance recvPay_storable (c : Dev nD) (k : ℕ × ℕ × ℕ) : BI.Storable (upEmb : UEmb _ 𝕄) (recvPay val jk jr c k) := by
  unfold recvPay; split <;> infer_instance
instance Rd_payload_storable (g : GSem nD τ sig) (r : ℕ) (d : Fin 4) :
    BI.Storable (upEmb : UEmb _ 𝕄) ((Rd val jk jr).payload g r d) := by
  dsimp only [Rd]
  (repeat' split) <;> infer_instance

/-! ## What the launch element deals each device, and what the global step makes of it -/

/-- The duty tokens of device `c`'s own cells. -/
def toks (c : Dev nD) : sProp 𝕄 :=
  bigSep Finset.univ fun t : TK => dutyTok ER (tokOf (c, t)).1 (tokOf (c, t)).2.1 (tokOf (c, t)).2.2

/-- What the launch element deals device `c`. -/
def G (c : Dev nD) : sProp 𝕄 :=
  iprop((bigSep Finset.univ fun i : CK => roundState ER (Rd val jk jr) (kcell (c, i)) 0)
    ∗ (bigSep Finset.univ fun i : CK => iprop(atPos ER (kcell (c, i)) 0 ∅ 0 ∗ reached ER (kcell (c, i)) 0)) ∗ toks (F := F) c)

/-- What the global step makes of it. -/
def G' (c : Dev nD) : sProp 𝕄 := iprop(∃ K, ghost val jk jr K c)

theorem fund_ring : BI.own (ER (initOf ourCells ourToks)) ⊢ (|==> bigSep Finset.univ (G (F := F) val jk jr) : sProp 𝕄) := by
  have hX (Φ : GSem nD τ sig → sProp 𝕄) : bigSep ourCells Φ = bigSep Finset.univ fun c : Dev nD => bigSep Finset.univ fun i : CK => Φ (kcell (c, i)) := by
    unfold ourCells; rw [bigSep_map, bigSep_univ_prod]; rfl
  have hT : bigSep ourToks (fun x => (dutyTok ER x.1 x.2.1 x.2.2 : sProp 𝕄)) = bigSep Finset.univ fun c : Dev nD => toks (F := F) c := by
    unfold ourToks toks; rw [bigSep_map, bigSep_univ_prod]; rfl
  iintro HX
  imod (Rounds.fund ER (Rd val jk jr) ourCells ourToks) $$ HX with ⟨Hst, Hr, Hat, Htok⟩
  imodintro
  ihave Hst' := (Entails.of_eq (hX fun g => roundState ER (Rd val jk jr) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores at zero: the send ones, the receive ones. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 27 => semVal (sndC c k) 0) ∗ bigSep Finset.univ fun k : Fin 27 => semVal (rcvC c k) 0) := by
  unfold Pipeline.ownSems0; rw [bigSep_univ_sum]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CK => semVal (kcell (c, i)) 0 : sProp 𝕄) := by
  rw [unscopedSems0_eq, ownSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G val jk jr c)
      ⊢ |={Set.univ}=> iprop((bigSep Finset.univ fun i : CK => iprop(∃ κ : ℕ, cellInv ER (Rd val jk jr) κ (kcell (c, i))))
          ∗ (bigSep Finset.univ fun i : CK => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CK => semVal (kcell (c, i)) 0) ∗ bigSep Finset.univ fun i : CK => roundState ER (Rd val jk jr) (kcell (c, i)) 0)
      ⊢ (|={Set.univ}=> bigSep Finset.univ fun i : CK => iprop(∃ κ : ℕ, cellInv ER (Rd val jk jr) κ (kcell (c, i))) : sProp 𝕄) from by
        rw [← bigSep_sep']
        exact (bigSep_mono fun i _ => (Rounds.body_intro ER (Rd val jk jr) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The flat conjunctions of the body's definitions, as chains over the copies -/

theorem invs_eq (K : GSem nD τ sig → ℕ) (c : Dev nD) :
    invs val jk jr K c = iprop(cellInv ER (Rd val jk jr) (K (barCell c)) (barCell c)
      ∗ bigSepLR k27 (fun k => cellInv ER (Rd val jk jr) (K (sndC c k)) (sndC c k))
        (bigSepLR k27 (fun k => cellInv ER (Rd val jk jr) (K (rcvC c k)) (rcvC c k))
          iprop(cellInv ER (Rd val jk jr) (K (barCell (pe c 1))) (barCell (pe c 1))
            ∗ cellInv ER (Rd val jk jr) (K (barCell (pe c 2))) (barCell (pe c 2))
            ∗ cellInv ER (Rd val jk jr) (K (barCell (pe c 3))) (barCell (pe c 3))
            ∗ bigSepL k27 (fun k => cellInv ER (Rd val jk jr) (K (rcvC (pe c (ko k)) k)) (rcvC (pe c (ko k)) k))))) := rfl

theorem ghost_eq (K : GSem nD τ sig → ℕ) (c : Dev nD) :
    ghost val jk jr K c = iprop(invs val jk jr K c
      ∗ atPos ER (barCell c) 0 ∅ 0
      ∗ bigSepLR k27 (fun k => atPos ER (sndC c k) 0 ∅ 0)
        (bigSepLR k27 (fun k => atPos ER (rcvC c k) 0 ∅ 0)
          iprop(reached ER (barCell (pe c 1)) 0 ∗ reached ER (barCell (pe c 2)) 0 ∗ reached ER (barCell (pe c 3)) 0
            ∗ bigSepLR k27 (fun k => reached ER (sndC c k) 0)
              (bigSepLR k27 (fun k => reached ER (rcvC (pe c (ko k)) k) 0)
                iprop(dutyTok ER (barCell (pe c 1)) 0 (1 : Fin 4) ∗ dutyTok ER (barCell (pe c 2)) 0 (2 : Fin 4) ∗ dutyTok ER (barCell (pe c 3)) 0 (3 : Fin 4)
                  ∗ bigSepLR k27 (fun k => dutyTok ER (sndC c k) 0 (0 : Fin 4))
                    (bigSepL k27 (fun k => dutyTok ER (rcvC (pe c (ko k)) k) 0 (0 : Fin 4)))))))) := rfl

theorem start_eq (c : Dev nD) :
    start val jk jr c = iprop((∃ K, ghost val jk jr K c) ∗ cred (tallyAt (barCell c) () 3)
      ∗ bigSepLR k27 (fun k => cred (tallyAt (rcvC c k) () N)) (levAts L lv)) := rfl

theorem phi1_eq (c : Dev nD) :
    (Φ₁ (F := F) c : sProp 𝕄) = iprop((∃ f, ((c : Thread nD τ).loc cc0_scratch0) ↦{fullShare} f) ∗ (∃ f, ((c : Thread nD τ).loc cc0_scratch1) ↦{fullShare} f)
      ∗ bigSepLR k27 (fun k => semVal (sndC c k) 0) (bigSepL k27 (fun k => semVal (rcvC c k) 0))) := rfl

/-- The ghost state of one device, by groups. -/
theorem ghost_groups (K : GSem nD τ sig → ℕ) (c : Dev nD) :
    ghost val jk jr K c = iprop((cellInv ER (Rd val jk jr) (K (barCell c)) (barCell c)
        ∗ (bigSep Finset.univ fun k => cellInv ER (Rd val jk jr) (K (sndC c k)) (sndC c k))
        ∗ (bigSep Finset.univ fun k => cellInv ER (Rd val jk jr) (K (rcvC c k)) (rcvC c k))
        ∗ cellInv ER (Rd val jk jr) (K (barCell (pe c 1))) (barCell (pe c 1))
        ∗ cellInv ER (Rd val jk jr) (K (barCell (pe c 2))) (barCell (pe c 2))
        ∗ cellInv ER (Rd val jk jr) (K (barCell (pe c 3))) (barCell (pe c 3))
        ∗ bigSep Finset.univ fun k => cellInv ER (Rd val jk jr) (K (rcvC (pe c (ko k)) k)) (rcvC (pe c (ko k)) k))
      ∗ atPos ER (barCell c) 0 ∅ 0
      ∗ (bigSep Finset.univ fun k => atPos ER (sndC c k) 0 ∅ 0)
      ∗ (bigSep Finset.univ fun k => atPos ER (rcvC c k) 0 ∅ 0)
      ∗ reached ER (barCell (pe c 1)) 0 ∗ reached ER (barCell (pe c 2)) 0 ∗ reached ER (barCell (pe c 3)) 0
      ∗ (bigSep Finset.univ fun k => reached ER (sndC c k) 0)
      ∗ (bigSep Finset.univ fun k => reached ER (rcvC (pe c (ko k)) k) 0)
      ∗ dutyTok ER (barCell (pe c 1)) 0 (1 : Fin 4) ∗ dutyTok ER (barCell (pe c 2)) 0 (2 : Fin 4) ∗ dutyTok ER (barCell (pe c 3)) 0 (3 : Fin 4)
      ∗ (bigSep Finset.univ fun k => dutyTok ER (sndC c k) 0 (0 : Fin 4))
      ∗ bigSep Finset.univ fun k => dutyTok ER (rcvC (pe c (ko k)) k) 0 (0 : Fin 4)) := by
  rw [ghost_eq, invs_eq]
  simp only [bigSepLR_fin27, ← bigSep_fin27]

/-! ## The records, and the tokens dealt round the ring -/

theorem bigSep_comm' {M : Type} [URA M] {α β : Type} [Fintype α] [Fintype β] (Φ : α → β → sProp M) :
    (bigSep Finset.univ fun a => bigSep Finset.univ fun b => Φ a b) = bigSep Finset.univ fun b => bigSep Finset.univ fun a => Φ a b := by
  rw [← BI.bigSep_univ_prod (fun x : α × β => Φ x.1 x.2), BI.bigSep_univ_equiv (Equiv.prodComm β α) (fun x : α × β => Φ x.1 x.2),
    BI.bigSep_univ_prod]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every cell's invariant, at the names `K`, and that round 0 of every cell is reached: persistent, every device gets them all. -/
def records (K : GSem nD τ sig → ℕ) : sProp 𝕄 :=
  iprop((bigSep Finset.univ fun ci : Dev nD × CK => cellInv ER (Rd val jk jr) (K (kcell ci)) (kcell ci))
    ∗ bigSep Finset.univ fun ci : Dev nD × CK => reached ER (kcell ci) 0)

instance records_persistent (K : GSem nD τ sig → ℕ) : BI.Persistent (records val jk jr K) := by unfold records; infer_instance

theorem inv_at (K : GSem nD τ sig → ℕ) (ci : Dev nD × CK) :
    (bigSep Finset.univ fun ci : Dev nD × CK => (cellInv ER (Rd val jk jr) (K (kcell ci)) (kcell ci) : sProp 𝕄)) ⊢ cellInv ER (Rd val jk jr) (K (kcell ci)) (kcell ci) :=
  bigSep_elim (Finset.mem_univ ci)
theorem inv_grp (K : GSem nD τ sig → ℕ) (f : Fin 27 → Dev nD × CK) :
    (bigSep Finset.univ fun ci : Dev nD × CK => (cellInv ER (Rd val jk jr) (K (kcell ci)) (kcell ci) : sProp 𝕄))
      ⊢ bigSep Finset.univ fun k : Fin 27 => cellInv ER (Rd val jk jr) (K (kcell (f k))) (kcell (f k)) :=
  BI.bigSep_intro_persistent fun k _ => bigSep_elim (Finset.mem_univ (f k))
theorem reached_at (ci : Dev nD × CK) :
    (bigSep Finset.univ fun ci : Dev nD × CK => (reached ER (kcell ci) 0 : sProp 𝕄)) ⊢ reached ER (kcell ci) 0 :=
  bigSep_elim (Finset.mem_univ ci)
theorem reached_grp (f : Fin 27 → Dev nD × CK) :
    (bigSep Finset.univ fun ci : Dev nD × CK => (reached ER (kcell ci) 0 : sProp 𝕄)) ⊢ bigSep Finset.univ fun k : Fin 27 => reached ER (kcell (f k)) 0 :=
  BI.bigSep_intro_persistent fun k _ => bigSep_elim (Finset.mem_univ (f k))

/-- The tokens of the duties device `c` pays: the barrier duty `o` of the device `o` ahead, its own send duties, the receive duty of
    each copy's destination. -/
def payToks (c : Dev nD) : sProp 𝕄 :=
  iprop((dutyTok ER (barCell (pe c 1)) 0 (1 : Fin 4) ∗ dutyTok ER (barCell (pe c 2)) 0 (2 : Fin 4) ∗ dutyTok ER (barCell (pe c 3)) 0 (3 : Fin 4))
    ∗ (bigSep Finset.univ fun k : Fin 27 => dutyTok ER (sndC c k) 0 (0 : Fin 4))
    ∗ bigSep Finset.univ fun k : Fin 27 => dutyTok ER (rcvC (pe c (ko k)) k) 0 (0 : Fin 4))
/-- What stays with device `c`: its positions on its own cells, and those tokens. -/
def linear (c : Dev nD) : sProp 𝕄 :=
  iprop((atPos ER (barCell c) 0 ∅ 0 ∗ (bigSep Finset.univ fun k : Fin 27 => atPos ER (sndC c k) 0 ∅ 0) ∗ bigSep Finset.univ fun k : Fin 27 => atPos ER (rcvC c k) 0 ∅ 0)
    ∗ payToks (F := F) c)

theorem toks_eq (c : Dev nD) : (toks (F := F) c : sProp 𝕄)
    = iprop((dutyTok ER (barCell c) 0 (1 : Fin 4) ∗ dutyTok ER (barCell c) 0 (2 : Fin 4) ∗ dutyTok ER (barCell c) 0 (3 : Fin 4))
      ∗ (bigSep Finset.univ fun k : Fin 27 => dutyTok ER (sndC c k) 0 (0 : Fin 4))
      ∗ bigSep Finset.univ fun k : Fin 27 => dutyTok ER (rcvC c k) 0 (0 : Fin 4)) := by
  unfold toks; rw [bigSep_TK]; rfl

theorem atPos_CK (c : Dev nD) : (bigSep Finset.univ fun i : CK => (atPos ER (kcell (c, i)) 0 ∅ 0 : sProp 𝕄))
    = iprop(atPos ER (barCell c) 0 ∅ 0 ∗ (bigSep Finset.univ fun k : Fin 27 => atPos ER (sndC c k) 0 ∅ 0) ∗ bigSep Finset.univ fun k : Fin 27 => atPos ER (rcvC c k) 0 ∅ 0) :=
  bigSep_CK _

/-- A barrier token goes to the device that pays it, `o` behind its cell's owner: seen from the payer, the cell is `o` ahead. -/
theorem deal_bar (o : ℕ) (d : Fin 4) :
    (bigSep Finset.univ fun c : Dev nD => (dutyTok ER (barCell c) 0 d : sProp 𝕄)) = bigSep Finset.univ fun c : Dev nD => dutyTok ER (barCell (pe c o)) 0 d :=
  bigSep_univ_equiv (ahead o) _
/-- A receive token goes to the copy's source. -/
theorem deal_rcv :
    (bigSep Finset.univ fun c : Dev nD => bigSep Finset.univ fun k : Fin 27 => (dutyTok ER (rcvC c k) 0 (0 : Fin 4) : sProp 𝕄))
      = bigSep Finset.univ fun c : Dev nD => bigSep Finset.univ fun k : Fin 27 => dutyTok ER (rcvC (pe c (ko k)) k) 0 (0 : Fin 4) :=
  (bigSep_comm' _).trans ((bigSep_congr fun k _ => bigSep_univ_equiv (ahead (ko k)) fun c : Dev nD => (dutyTok ER (rcvC c k) 0 (0 : Fin 4) : sProp 𝕄)).trans
    (bigSep_comm' fun (k : Fin 27) (c : Dev nD) => (dutyTok ER (rcvC (pe c (ko k)) k) 0 (0 : Fin 4) : sProp 𝕄)))

theorem toks_around : (bigSep Finset.univ fun c : Dev nD => (toks (F := F) c : sProp 𝕄)) ⊢ bigSep Finset.univ fun c : Dev nD => payToks (F := F) c := by
  rw [bigSep_congr (fun c _ => toks_eq (F := F) c)]
  unfold payToks
  rw [bigSep_sep', bigSep_sep', bigSep_sep', bigSep_sep', bigSep_sep', bigSep_sep', bigSep_sep', bigSep_sep',
    deal_bar 1 1, deal_bar 2 2, deal_bar 3 3, deal_rcv]

theorem ghost_intro (K : GSem nD τ sig → ℕ) (c : Dev nD) : iprop(records val jk jr K ∗ linear (F := F) c) ⊢ ghost val jk jr K c := by
  rw [ghost_groups]
  unfold records linear payToks
  iintro ⟨⟨#HI, #HR⟩, ⟨HaB, HaS, HaV⟩, ⟨Ht1, Ht2, Ht3⟩, HtS, HtV⟩
  isplitr
  · isplitr; · iapply (inv_at val jk jr K (c, .inl ())); iexact HI
    isplitr; · iapply (inv_grp val jk jr K fun k => (c, .inr (.inl k))); iexact HI
    isplitr; · iapply (inv_grp val jk jr K fun k => (c, .inr (.inr k))); iexact HI
    isplitr; · iapply (inv_at val jk jr K (pe c 1, .inl ())); iexact HI
    isplitr; · iapply (inv_at val jk jr K (pe c 2, .inl ())); iexact HI
    isplitr; · iapply (inv_at val jk jr K (pe c 3, .inl ())); iexact HI
    iapply (inv_grp val jk jr K fun k => (pe c (ko k), .inr (.inr k))); iexact HI
  isplitl [HaB]; · iexact HaB
  isplitl [HaS]; · iexact HaS
  isplitl [HaV]; · iexact HaV
  isplitr; · iapply (reached_at (F := F) (pe c 1, .inl ())); iexact HR
  isplitr; · iapply (reached_at (F := F) (pe c 2, .inl ())); iexact HR
  isplitr; · iapply (reached_at (F := F) (pe c 3, .inl ())); iexact HR
  isplitr; · iapply (reached_grp (F := F) fun k => (c, .inr (.inl k))); iexact HR
  isplitr; · iapply (reached_grp (F := F) fun k => (pe c (ko k), .inr (.inr k))); iexact HR
  isplitl [Ht1]; · iexact Ht1
  isplitl [Ht2]; · iexact Ht2
  isplitl [Ht3]; · iexact Ht3
  isplitl [HtS]; · iexact HtS
  iexact HtV

theorem ghost_intro' (K : GSem nD τ sig → ℕ) (c : Dev nD) : iprop(records val jk jr K ∗ linear (F := F) c) ⊢ G' val jk jr c := by
  unfold G'
  iintro H
  iexists K
  iapply (ghost_intro val jk jr K c)
  iexact H

theorem regroup :
    (bigSep Finset.univ fun c : Dev nD => iprop((bigSep Finset.univ fun i : CK => iprop(∃ κ : ℕ, cellInv ER (Rd val jk jr) κ (kcell (c, i))))
          ∗ (bigSep Finset.univ fun i : CK => iprop(atPos ER (kcell (c, i)) 0 ∅ 0 ∗ reached ER (kcell (c, i)) 0)) ∗ toks (F := F) c) : sProp 𝕄)
      ⊢ bigSep Finset.univ (G' val jk jr) := by
  rw [bigSep_sep', bigSep_sep', ← bigSep_univ_prod (fun ci : Dev nD × CK => iprop(∃ κ : ℕ, cellInv ER (Rd val jk jr) κ (kcell ci))),
    bigSep_congr (s := Finset.univ) (fun (c : Dev nD) _ => bigSep_sep' Finset.univ (fun i : CK => (atPos ER (kcell (c, i)) 0 ∅ 0 : sProp 𝕄)) (fun i => reached ER (kcell (c, i)) 0)),
    bigSep_sep', ← bigSep_univ_prod (fun ci : Dev nD × CK => (reached ER (kcell ci) 0 : sProp 𝕄))]
  iintro ⟨HI, ⟨Hat, #HR⟩, Htok⟩
  ihave HK := (BI.bigSep_exists_pi Finset.univ (fun (ci : Dev nD × CK) (κ : ℕ) => (cellInv ER (Rd val jk jr) κ (kcell ci) : sProp 𝕄))) $$ HI
  icases HK with ⟨%K, #HI⟩
  ihave Htk := (toks_around (F := F)) $$ Htok
  have hK : (bigSep Finset.univ fun ci : Dev nD × CK => (cellInv ER (Rd val jk jr) (K ci) (kcell ci) : sProp 𝕄))
      = bigSep Finset.univ fun ci : Dev nD × CK => cellInv ER (Rd val jk jr) (Function.extend kcell K 0 (kcell ci)) (kcell ci) :=
    bigSep_congr fun ci _ => by rw [kcell_injective.extend_apply]
  ihave HI' := (Entails.of_eq hK) $$ HI
  iapply (bigSep_with_persistent (R := records val jk jr (Function.extend kcell K 0)) fun c _ => ghost_intro' val jk jr (Function.extend kcell K 0) c)
  isplitr
  · unfold records; isplitl; · iexact HI'
    iexact HR
  · iapply ((Entails.of_eq (bigSep_sep' Finset.univ (fun c : Dev nD => bigSep Finset.univ fun i : CK => (atPos ER (kcell (c, i)) 0 ∅ 0 : sProp 𝕄)) (payToks (F := F))).symm).trans
      (bigSep_mono fun c _ => show _ ⊢ linear (F := F) c from Entails.of_eq (by unfold linear; rw [atPos_CK])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G val jk jr c) : sProp 𝕄)
    ⊢ |={Set.univ}=> bigSep Finset.univ (G' val jk jr) :=
  ((bigSep_mono fun c _ => core_alloc val jk jr c).trans (bigSep_fupd _ _)).trans (BI.fupd_mono (regroup val jk jr))

/-! ## The launch theorem's side conditions -/

/-- A device's launch credit, cell by cell: three units on its barrier cell, one block's credit on each receive cell. -/
abbrev credsFlat (c : Dev nD) : sProp 𝕄 :=
  iprop(cred (tallyAt (barCell c) () 3)
      ∗ cred (tallyAt ((c : Thread nD τ), SemLoc.dma (rcvS 0 0 1 inb_S3x4x4_S1x1x1_0_0_1)) () N)
      ∗ cred (tallyAt ((c : Thread nD τ), SemLoc.dma (rcvS 0 0 2 inb_S3x4x4_S1x1x1_0_0_2)) () N)
      ∗ cred (tallyAt ((c : Thread nD τ), SemLoc.dma (rcvS 0 0 3 inb_S3x4x4_S1x1x1_0_0_3)) () N)
      ∗ cred (tallyAt ((c : Thread nD τ), SemLoc.dma (rcvS 0 1 1 inb_S3x4x4_S1x1x1_0_1_1)) () N)
      ∗ cred (tallyAt ((c : Thread nD τ), SemLoc.dma (rcvS 0 1 2 inb_S3x4x4_S1x1x1_0_1_2)) () N)
      ∗ cred (tallyAt ((c : Thread nD τ), SemLoc.dma (rcvS 0 1 3 inb_S3x4x4_S1x1x1_0_1_3)) () N)
      ∗ cred (tallyAt ((c : Thread nD τ), SemLoc.dma (rcvS 0 2 1 inb_S3x4x4_S1x1x1_0_2_1)) () N)
      ∗ cred (tallyAt ((c : Thread nD τ), SemLoc.dma (rcvS 0 2 2 inb_S3x4x4_S1x1x1_0_2_2)) () N)
      ∗ cred (tallyAt ((c : Thread nD τ), SemLoc.dma (rcvS 0 2 3 inb_S3x4x4_S1x1x1_0_2_3)) () N)
      ∗ cred (tallyAt ((c : Thread nD τ), SemLoc.dma (rcvS 0 3 1 inb_S3x4x4_S1x1x1_0_3_1)) () N)
      ∗ cred (tallyAt ((c : Thread nD τ), SemLoc.dma (rcvS 0 3 2 inb_S3x4x4_S1x1x1_0_3_2)) () N)
      ∗ cred (tallyAt ((c : Thread nD τ), SemLoc.dma (rcvS 0 3 3 inb_S3x4x4_S1x1x1_0_3_3)) () N)
      ∗ cred (tallyAt ((c : Thread nD τ), SemLoc.dma (rcvS 1 0 1 inb_S3x4x4_S1x1x1_1_0_1)) () N)
      ∗ cred (tallyAt ((c : Thread nD τ), SemLoc.dma (rcvS 1 0 2 inb_S3x4x4_S1x1x1_1_0_2)) () N)
      ∗ cred (tallyAt ((c : Thread nD τ), SemLoc.dma (rcvS 1 0 3 inb_S3x4x4_S1x1x1_1_0_3)) () N)
      ∗ cred (tallyAt ((c : Thread nD τ), SemLoc.dma (rcvS 1 1 1 inb_S3x4x4_S1x1x1_1_1_1)) () N)
      ∗ cred (tallyAt ((c : Thread nD τ), SemLoc.dma (rcvS 1 1 2 inb_S3x4x4_S1x1x1_1_1_2)) () N)
      ∗ cred (tallyAt ((c : Thread nD τ), SemLoc.dma (rcvS 1 1 3 inb_S3x4x4_S1x1x1_1_1_3)) () N)
      ∗ cred (tallyAt ((c : Thread nD τ), SemLoc.dma (rcvS 1 2 1 inb_S3x4x4_S1x1x1_1_2_1)) () N)
      ∗ cred (tallyAt ((c : Thread nD τ), SemLoc.dma (rcvS 1 2 2 inb_S3x4x4_S1x1x1_1_2_2)) () N)
      ∗ cred (tallyAt ((c : Thread nD τ), SemLoc.dma (rcvS 1 2 3 inb_S3x4x4_S1x1x1_1_2_3)) () N)
      ∗ cred (tallyAt ((c : Thread nD τ), SemLoc.dma (rcvS 1 3 1 inb_S3x4x4_S1x1x1_1_3_1)) () N)
      ∗ cred (tallyAt ((c : Thread nD τ), SemLoc.dma (rcvS 1 3 2 inb_S3x4x4_S1x1x1_1_3_2)) () N)
      ∗ cred (tallyAt ((c : Thread nD τ), SemLoc.dma (rcvS 1 3 3 inb_S3x4x4_S1x1x1_1_3_3)) () N)
      ∗ cred (tallyAt ((c : Thread nD τ), SemLoc.dma (rcvS 2 0 1 inb_S3x4x4_S1x1x1_2_0_1)) () N)
      ∗ cred (tallyAt ((c : Thread nD τ), SemLoc.dma (rcvS 2 0 2 inb_S3x4x4_S1x1x1_2_0_2)) () N)
      ∗ cred (tallyAt ((c : Thread nD τ), SemLoc.dma (rcvS 2 0 3 inb_S3x4x4_S1x1x1_2_0_3)) () N))

theorem credsFlat_eq (c : Dev nD) : (credsFlat (F := F) c : sProp 𝕄)
    = iprop(cred (tallyAt (barCell c) () 3) ∗ bigSepL k27 (fun k => cred (tallyAt (rcvC c k) () N))) := rfl

theorem start_intro (hcreds : ∀ c : Dev nD, (Pipeline.launchCred O₀ c : sProp 𝕄) ⊢ credsFlat (F := F) c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' val jk jr c)
      ⊢ |={Set.univ}=> iprop(start val jk jr c ∗ emp) := by
  rw [start_eq, bigSepLR_eq]
  unfold G'
  iintro ⟨-, Hlev, Hcr, -, HG⟩
  ihave Hc := ((hcreds c).trans (Entails.of_eq (credsFlat_eq (F := F) c))) $$ Hcr
  icases Hc with ⟨H1, HN⟩
  imodintro
  isplitl
  · isplitl [HG]; · iexact HG
    isplitl [H1]; · iexact H1
    isplitl [HN]; · iexact HN
    iexact Hlev
  · iempintro

theorem phi0_intro (c : Dev nD) :
    iprop(start val jk jr c ∗ Pipeline.prefHeld Pipeline.Prefetch.none c (fun _ => fullShare.right) (fun k => k.elim0) ∗ Pipeline.scopedRest cfg0.spec c)
      ⊢ (dats m ρ val jk jr outv 0 c).Φ 0 := by
  rw [show (dats m ρ val jk jr outv 0 c).Φ 0 = Φ₀ val jk jr c from rfl, scopedRest0_eq]
  unfold Φ₀
  iintro ⟨Hs, -, ⟨H0, H1⟩⟩
  isplitl [Hs]; · iexact Hs
  isplitl [H0] <;> iassumption

theorem phi1_exit (c : Dev nD) :
    (dats m ρ val jk jr outv 0 c).Φ (Fin.last cfg0.N) ⊢ iprop(emp ∗ Pipeline.ownSems0 osem c ∗ Pipeline.scopedRest cfg0.spec c) := by
  rw [show (dats m ρ val jk jr outv 0 c).Φ (Fin.last cfg0.N) = Φ₁ (F := F) c from rfl, scopedRest0_eq, ownSems0_eq, phi1_eq, bigSepLR_fin27, ← bigSep_fin27]
  iintro ⟨H0, H1, HS, HV⟩
  isplitr; · iempintro
  isplitl [HS HV]
  · isplitl [HS] <;> iassumption
  isplitl [H0] <;> iassumption

theorem waits
    (hlev : ∀ (c : Dev nD) (q : DmaSem sig), q.val < 8 → ∀ O : CellTallies nD τ sig Unit, (O = O₀ c ∨ O = 0) →
      (levAts L lv : sProp 𝕄) ⊢ MayWait (c : Thread nD τ) (.dma q) () O) (c : Dev nD) :
    (levAts L lv : sProp 𝕄) ⊢ Pipeline.cellsWaits cfgs (dats m ρ val jk jr outv) () 0 c :=
  Pipeline.cellsWaits_intro cfgs (dats m ρ val jk jr outv) () 0 c fun w s t =>
    hlev c _ (by fin_cases w <;> fin_cases s <;> decide) _ (by
      rcases t with ⟨_ | _, ht⟩
      · exact Or.inl rfl
      · exact Or.inr rfl)

theorem L_of_ne (g : GSem nD τ sig) (h : g.1.2 ≠ .tc) : L g = ∅ := if_neg h

/-! ## The run -/

set_option maxRecDepth 8000 in
/-- At the compiled mesh of four devices, for any float values, from any memory with zero counters: every weakly fair execution of
    @main terminates, and every final state has each device's arrays at the contents the proof data name. -/
theorem run_main (hbody : ∀ c : Dev nD, BodyObligation (dats m ρ val jk jr outv 0 c) (defs₀ (F := F)) 𝒱₀ () Set.univ) :
    θ_run defs (onTc (τ := τ) (main (F := F))) (s₀ m ρ) (fun r => ∀ c : Dev nD, ∀ w : Fin cfg0.W,
      r.2.mem ((cfg0.win w).arr.view.loc (c : Thread nD τ)) = (dats m ρ val jk jr outv 0 c).arrAt w cfg0.N) :=
  Pipeline.θ_run_region_owing_glob_pf (fun p => (cfgs p).toPCfg) (fun p => (cfgs p).toPCfg_adm) (dats m ρ val jk jr outv) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ val jk jr outv)
    (hdistinct := winFacts0.arr_inj)
    (O₀ := O₀) (howed₀ := fun _ => rfl) (howedN := fun _ => rfl)
    (L := L) (lv := lv) (hL := L_of_ne) (hwaits := waits m ρ val jk jr outv fun c q hq O hO => mayWait_stage (F := F) c q hq O hO)
    (G := G val jk jr) (G' := G' val jk jr) (u₀ := u₀)
    (hu₀ := by
      unfold u₀
      iintro Hu
      ihave H := (ownU_pair _ _) $$ Hu
      icases H with ⟨HP, HX⟩
      imod (fund_ring val jk jr) $$ HX with HG
      imodintro
      isplitl [HP] <;> iassumption)
    (hglob := glob val jk jr)
    (hA := fun _ _ => rfl) (hpf := fun _ k => k.elim0)
    (X := start val jk jr) (Y := fun _ => iprop(emp)) (Z := fun _ => iprop(emp))
    (hX := start_intro m ρ val jk jr fun c => creds (F := F) c) (hin := phi0_intro m ρ val jk jr outv) (hout := phi1_exit m ρ val jk jr outv)
    (QY := fun _ _ => True)
    (hY := fun c s' => by
      iintro ⟨-, -, HSI⟩
      imodintro
      isplitr; · ipureintro; trivial
      iexact HSI)
    (hQ := fun _ h c w => (h c).1 w)

/-- info: 'Cert.Kernel.Mlp.run_main' depends on axioms: [propext, Classical.choice, Quot.sound] -/
#guard_msgs in #print axioms run_main

end Cert.Kernel.Mlp

end
-- ==== Proof.Bits.FinalK.lean ====
import proofs.«900991_g7700000000000992_dist_mlpseq_tp1d_rep_bs_b256_d256_h512_v7x_i4_bf16_1_alg».proof.Proof.Bits.LaunchK

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## The arrays after the run

The grid is a single point. An input window's array is never written; the output window's one block is the whole array, written
back once with what the body left in its staging buffer. -/

/-- An input array ends as it was at launch. -/
theorem final_in (c : Dev nD) (w : Fin cfg0.W) (hw : w.val < 7) :
    (dats m ρ val jk jr outv 0 c).arrAt w cfg0.N = (s₀ m ρ).mem ((cfg0.win w).arr.view.loc (c : Thread nD τ)) := by
  have hin : (cfg0.win w).isOut = false := by
    revert hw; revert w; decide
  exact (dats m ρ val jk jr outv 0 c).arrAt_in w hin _

/-- The one write-back of the result window writes its block of the array over what the array held before. -/
theorem final_out_step (c : Dev nD) :
    (dats m ρ val jk jr outv 0 c).arrAt (7 : Fin 8) cfg0.N
      = ((cfg0.win (7 : Fin 8)).blk t₀).view.write (Elt F) ((dats m ρ val jk jr outv 0 c).arrAt (7 : Fin 8) t₀.val)
          ((dats m ρ val jk jr outv 0 c).flushed (7 : Fin 8) t₀) Finset.univ := by
  have h := (dats m ρ val jk jr outv 0 c).arrAt_succ (7 : Fin 8) t₀
  rw [flush0_7 t₀, if_pos rfl] at h
  exact h

/-- The result array ends holding what the body left in the result's staging buffer. -/
theorem final_out (c : Dev nD) : (dats m ρ val jk jr outv 0 c).arrAt (7 : Fin 8) cfg0.N = outv c := by
  have hz : (fun a => (win0_7.index t₀) a * main_v1.ty.shape.size a) = fun _ => 0 := funext fun a => by fin_cases a <;> decide
  have hw := fun f w => Memref.write_access_unit_zero_univ (Elt F) main_v1 hz (fun a => by fin_cases a <;> decide) f w
  rw [final_out_step]
  exact hw _ _

/-- The kernel's run, read back: on every device the result array holds `outv c` and the seven argument arrays are unchanged. -/
theorem kernel_run (hbody : ∀ c : Dev nD, BodyObligation (dats m ρ val jk jr outv 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outv c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c) (7 : Fin 8)).trans (final_out m ρ val jk jr outv c),
      ((h c) (0 : Fin 8)).trans (final_in m ρ val jk jr outv c 0 (by decide)),
      ((h c) (1 : Fin 8)).trans (final_in m ρ val jk jr outv c 1 (by decide)),
      ((h c) (2 : Fin 8)).trans (final_in m ρ val jk jr outv c 2 (by decide)),
      ((h c) (3 : Fin 8)).trans (final_in m ρ val jk jr outv c 3 (by decide)),
      ((h c) (4 : Fin 8)).trans (final_in m ρ val jk jr outv c 4 (by decide)),
      ((h c) (5 : Fin 8)).trans (final_in m ρ val jk jr outv c 5 (by decide)),
      ((h c) (6 : Fin 8)).trans (final_in m ρ val jk jr outv c 6 (by decide))⟩)
    (run_main m ρ val jk jr outv hbody)

/-- info: 'Cert.Kernel.Mlp.kernel_run' depends on axioms: [propext, Classical.choice, Quot.sound] -/
#guard_msgs in #print axioms kernel_run

end Cert.Kernel.Mlp

end
-- ==== Proof.Bits.Owes.lean ====
import proofs.«900991_g7700000000000992_dist_mlpseq_tp1d_rep_bs_b256_d256_h512_v7x_i4_bf16_1_alg».proof.Proof.Bits.BodyDefs

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What a device still owes, counted down: the 27 copies are numbered 27, 26, …, 1 in the order the body starts them, and
    after the copies numbered above `n` have been started the device owes the credits of copies `1 … n`. -/

/-- The credit copy number `n` owes: one block on the receive cell of its slot, on the device that many places ahead. -/
def owedBy (c : Dev nD) : ℕ → CellTallies nD τ sig Unit
  | 27 => tallyAt (((pe c 2) : Thread nD τ), SemLoc.dma (rcvS 0 0 2 inb_S3x4x4_S1x1x1_0_0_2)) () N
  | 26 => tallyAt (((pe c 1) : Thread nD τ), SemLoc.dma (rcvS 0 0 1 inb_S3x4x4_S1x1x1_0_0_1)) () N
  | 25 => tallyAt (((pe c 3) : Thread nD τ), SemLoc.dma (rcvS 0 0 3 inb_S3x4x4_S1x1x1_0_0_3)) () N
  | 24 => tallyAt (((pe c 2) : Thread nD τ), SemLoc.dma (rcvS 0 1 2 inb_S3x4x4_S1x1x1_0_1_2)) () N
  | 23 => tallyAt (((pe c 1) : Thread nD τ), SemLoc.dma (rcvS 0 1 1 inb_S3x4x4_S1x1x1_0_1_1)) () N
  | 22 => tallyAt (((pe c 3) : Thread nD τ), SemLoc.dma (rcvS 0 1 3 inb_S3x4x4_S1x1x1_0_1_3)) () N
  | 21 => tallyAt (((pe c 2) : Thread nD τ), SemLoc.dma (rcvS 0 2 2 inb_S3x4x4_S1x1x1_0_2_2)) () N
  | 20 => tallyAt (((pe c 1) : Thread nD τ), SemLoc.dma (rcvS 0 2 1 inb_S3x4x4_S1x1x1_0_2_1)) () N
  | 19 => tallyAt (((pe c 3) : Thread nD τ), SemLoc.dma (rcvS 0 2 3 inb_S3x4x4_S1x1x1_0_2_3)) () N
  | 18 => tallyAt (((pe c 2) : Thread nD τ), SemLoc.dma (rcvS 0 3 2 inb_S3x4x4_S1x1x1_0_3_2)) () N
  | 17 => tallyAt (((pe c 1) : Thread nD τ), SemLoc.dma (rcvS 0 3 1 inb_S3x4x4_S1x1x1_0_3_1)) () N
  | 16 => tallyAt (((pe c 3) : Thread nD τ), SemLoc.dma (rcvS 0 3 3 inb_S3x4x4_S1x1x1_0_3_3)) () N
  | 15 => tallyAt (((pe c 2) : Thread nD τ), SemLoc.dma (rcvS 1 0 2 inb_S3x4x4_S1x1x1_1_0_2)) () N
  | 14 => tallyAt (((pe c 1) : Thread nD τ), SemLoc.dma (rcvS 1 0 1 inb_S3x4x4_S1x1x1_1_0_1)) () N
  | 13 => tallyAt (((pe c 3) : Thread nD τ), SemLoc.dma (rcvS 1 0 3 inb_S3x4x4_S1x1x1_1_0_3)) () N
  | 12 => tallyAt (((pe c 2) : Thread nD τ), SemLoc.dma (rcvS 1 1 2 inb_S3x4x4_S1x1x1_1_1_2)) () N
  | 11 => tallyAt (((pe c 1) : Thread nD τ), SemLoc.dma (rcvS 1 1 1 inb_S3x4x4_S1x1x1_1_1_1)) () N
  | 10 => tallyAt (((pe c 3) : Thread nD τ), SemLoc.dma (rcvS 1 1 3 inb_S3x4x4_S1x1x1_1_1_3)) () N
  | 9 => tallyAt (((pe c 2) : Thread nD τ), SemLoc.dma (rcvS 1 2 2 inb_S3x4x4_S1x1x1_1_2_2)) () N
  | 8 => tallyAt (((pe c 1) : Thread nD τ), SemLoc.dma (rcvS 1 2 1 inb_S3x4x4_S1x1x1_1_2_1)) () N
  | 7 => tallyAt (((pe c 3) : Thread nD τ), SemLoc.dma (rcvS 1 2 3 inb_S3x4x4_S1x1x1_1_2_3)) () N
  | 6 => tallyAt (((pe c 2) : Thread nD τ), SemLoc.dma (rcvS 1 3 2 inb_S3x4x4_S1x1x1_1_3_2)) () N
  | 5 => tallyAt (((pe c 1) : Thread nD τ), SemLoc.dma (rcvS 1 3 1 inb_S3x4x4_S1x1x1_1_3_1)) () N
  | 4 => tallyAt (((pe c 3) : Thread nD τ), SemLoc.dma (rcvS 1 3 3 inb_S3x4x4_S1x1x1_1_3_3)) () N
  | 3 => tallyAt (((pe c 2) : Thread nD τ), SemLoc.dma (rcvS 2 0 2 inb_S3x4x4_S1x1x1_2_0_2)) () N
  | 2 => tallyAt (((pe c 1) : Thread nD τ), SemLoc.dma (rcvS 2 0 1 inb_S3x4x4_S1x1x1_2_0_1)) () N
  | 1 => tallyAt (((pe c 3) : Thread nD τ), SemLoc.dma (rcvS 2 0 3 inb_S3x4x4_S1x1x1_2_0_3)) () N
  | _ => 0

/-- What is owed once only copies `1 … n` remain to be started. -/
def owesLeft (c : Dev nD) : ℕ → CellTallies nD τ sig Unit
  | 0 => 0
  | n + 1 => owesLeft c n + owedBy c (n + 1)

theorem owesLeft_succ (c : Dev nD) (n : ℕ) : owesLeft c (n + 1) = owesLeft c n + owedBy c (n + 1) := rfl

/-- At launch: all 27 copies and the three entry signals. -/
theorem O₀_eq (c : Dev nD) : O₀ c = owesLeft c 27 + tallyAt (barCell (pe c 3)) () 1 + tallyAt (barCell (pe c 2)) () 1 + tallyAt (barCell (pe c 1)) () 1 := by
  simp only [owesLeft, owedBy, O₀, zero_add]

/-- The lowest level among the cells of copies `1 … n`: layer 0 is numbered 16 … 27, layer 1 4 … 15, the reduce-scatter 1 … 3. -/
def lvLeft (n : ℕ) : ℕ := if n = 0 then 5 else if n ≤ 3 then 4 else if n ≤ 15 then 3 else 2

end Cert.Kernel.Mlp

end
-- ==== Proof.Bits.Toks.lean ====
import proofs.«900991_g7700000000000992_dist_mlpseq_tp1d_rep_bs_b256_d256_h512_v7x_i4_bf16_1_alg».proof.Proof.Bits.Owes

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! The duty tokens of the copies not yet started, counted down like what is owed: a copy's two tokens (its departure on the
    device's own send cell, its landing on the receive cell of the device ahead) are taken out when the copy is started. -/

/-- The two tokens copy number `n` pays with. -/
def copyToks (c : Dev nD) : ℕ → sProp 𝕄
  | 27 => iprop(dutyTok ER ((c : Thread nD τ), SemLoc.dma (sndS 0 0 2 inb_S3x4x4_S1x1x1_0_0_2)) 0 (0 : Fin 4) ∗ dutyTok ER (((pe c 2) : Thread nD τ), SemLoc.dma (rcvS 0 0 2 inb_S3x4x4_S1x1x1_0_0_2)) 0 (0 : Fin 4))
  | 26 => iprop(dutyTok ER ((c : Thread nD τ), SemLoc.dma (sndS 0 0 1 inb_S3x4x4_S1x1x1_0_0_1)) 0 (0 : Fin 4) ∗ dutyTok ER (((pe c 1) : Thread nD τ), SemLoc.dma (rcvS 0 0 1 inb_S3x4x4_S1x1x1_0_0_1)) 0 (0 : Fin 4))
  | 25 => iprop(dutyTok ER ((c : Thread nD τ), SemLoc.dma (sndS 0 0 3 inb_S3x4x4_S1x1x1_0_0_3)) 0 (0 : Fin 4) ∗ dutyTok ER (((pe c 3) : Thread nD τ), SemLoc.dma (rcvS 0 0 3 inb_S3x4x4_S1x1x1_0_0_3)) 0 (0 : Fin 4))
  | 24 => iprop(dutyTok ER ((c : Thread nD τ), SemLoc.dma (sndS 0 1 2 inb_S3x4x4_S1x1x1_0_1_2)) 0 (0 : Fin 4) ∗ dutyTok ER (((pe c 2) : Thread nD τ), SemLoc.dma (rcvS 0 1 2 inb_S3x4x4_S1x1x1_0_1_2)) 0 (0 : Fin 4))
  | 23 => iprop(dutyTok ER ((c : Thread nD τ), SemLoc.dma (sndS 0 1 1 inb_S3x4x4_S1x1x1_0_1_1)) 0 (0 : Fin 4) ∗ dutyTok ER (((pe c 1) : Thread nD τ), SemLoc.dma (rcvS 0 1 1 inb_S3x4x4_S1x1x1_0_1_1)) 0 (0 : Fin 4))
  | 22 => iprop(dutyTok ER ((c : Thread nD τ), SemLoc.dma (sndS 0 1 3 inb_S3x4x4_S1x1x1_0_1_3)) 0 (0 : Fin 4) ∗ dutyTok ER (((pe c 3) : Thread nD τ), SemLoc.dma (rcvS 0 1 3 inb_S3x4x4_S1x1x1_0_1_3)) 0 (0 : Fin 4))
  | 21 => iprop(dutyTok ER ((c : Thread nD τ), SemLoc.dma (sndS 0 2 2 inb_S3x4x4_S1x1x1_0_2_2)) 0 (0 : Fin 4) ∗ dutyTok ER (((pe c 2) : Thread nD τ), SemLoc.dma (rcvS 0 2 2 inb_S3x4x4_S1x1x1_0_2_2)) 0 (0 : Fin 4))
  | 20 => iprop(dutyTok ER ((c : Thread nD τ), SemLoc.dma (sndS 0 2 1 inb_S3x4x4_S1x1x1_0_2_1)) 0 (0 : Fin 4) ∗ dutyTok ER (((pe c 1) : Thread nD τ), SemLoc.dma (rcvS 0 2 1 inb_S3x4x4_S1x1x1_0_2_1)) 0 (0 : Fin 4))
  | 19 => iprop(dutyTok ER ((c : Thread nD τ), SemLoc.dma (sndS 0 2 3 inb_S3x4x4_S1x1x1_0_2_3)) 0 (0 : Fin 4) ∗ dutyTok ER (((pe c 3) : Thread nD τ), SemLoc.dma (rcvS 0 2 3 inb_S3x4x4_S1x1x1_0_2_3)) 0 (0 : Fin 4))
  | 18 => iprop(dutyTok ER ((c : Thread nD τ), SemLoc.dma (sndS 0 3 2 inb_S3x4x4_S1x1x1_0_3_2)) 0 (0 : Fin 4) ∗ dutyTok ER (((pe c 2) : Thread nD τ), SemLoc.dma (rcvS 0 3 2 inb_S3x4x4_S1x1x1_0_3_2)) 0 (0 : Fin 4))
  | 17 => iprop(dutyTok ER ((c : Thread nD τ), SemLoc.dma (sndS 0 3 1 inb_S3x4x4_S1x1x1_0_3_1)) 0 (0 : Fin 4) ∗ dutyTok ER (((pe c 1) : Thread nD τ), SemLoc.dma (rcvS 0 3 1 inb_S3x4x4_S1x1x1_0_3_1)) 0 (0 : Fin 4))
  | 16 => iprop(dutyTok ER ((c : Thread nD τ), SemLoc.dma (sndS 0 3 3 inb_S3x4x4_S1x1x1_0_3_3)) 0 (0 : Fin 4) ∗ dutyTok ER (((pe c 3) : Thread nD τ), SemLoc.dma (rcvS 0 3 3 inb_S3x4x4_S1x1x1_0_3_3)) 0 (0 : Fin 4))
  | 15 => iprop(dutyTok ER ((c : Thread nD τ), SemLoc.dma (sndS 1 0 2 inb_S3x4x4_S1x1x1_1_0_2)) 0 (0 : Fin 4) ∗ dutyTok ER (((pe c 2) : Thread nD τ), SemLoc.dma (rcvS 1 0 2 inb_S3x4x4_S1x1x1_1_0_2)) 0 (0 : Fin 4))
  | 14 => iprop(dutyTok ER ((c : Thread nD τ), SemLoc.dma (sndS 1 0 1 inb_S3x4x4_S1x1x1_1_0_1)) 0 (0 : Fin 4) ∗ dutyTok ER (((pe c 1) : Thread nD τ), SemLoc.dma (rcvS 1 0 1 inb_S3x4x4_S1x1x1_1_0_1)) 0 (0 : Fin 4))
  | 13 => iprop(dutyTok ER ((c : Thread nD τ), SemLoc.dma (sndS 1 0 3 inb_S3x4x4_S1x1x1_1_0_3)) 0 (0 : Fin 4) ∗ dutyTok ER (((pe c 3) : Thread nD τ), SemLoc.dma (rcvS 1 0 3 inb_S3x4x4_S1x1x1_1_0_3)) 0 (0 : Fin 4))
  | 12 => iprop(dutyTok ER ((c : Thread nD τ), SemLoc.dma (sndS 1 1 2 inb_S3x4x4_S1x1x1_1_1_2)) 0 (0 : Fin 4) ∗ dutyTok ER (((pe c 2) : Thread nD τ), SemLoc.dma (rcvS 1 1 2 inb_S3x4x4_S1x1x1_1_1_2)) 0 (0 : Fin 4))
  | 11 => iprop(dutyTok ER ((c : Thread nD τ), SemLoc.dma (sndS 1 1 1 inb_S3x4x4_S1x1x1_1_1_1)) 0 (0 : Fin 4) ∗ dutyTok ER (((pe c 1) : Thread nD τ), SemLoc.dma (rcvS 1 1 1 inb_S3x4x4_S1x1x1_1_1_1)) 0 (0 : Fin 4))
  | 10 => iprop(dutyTok ER ((c : Thread nD τ), SemLoc.dma (sndS 1 1 3 inb_S3x4x4_S1x1x1_1_1_3)) 0 (0 : Fin 4) ∗ dutyTok ER (((pe c 3) : Thread nD τ), SemLoc.dma (rcvS 1 1 3 inb_S3x4x4_S1x1x1_1_1_3)) 0 (0 : Fin 4))
  | 9 => iprop(dutyTok ER ((c : Thread nD τ), SemLoc.dma (sndS 1 2 2 inb_S3x4x4_S1x1x1_1_2_2)) 0 (0 : Fin 4) ∗ dutyTok ER (((pe c 2) : Thread nD τ), SemLoc.dma (rcvS 1 2 2 inb_S3x4x4_S1x1x1_1_2_2)) 0 (0 : Fin 4))
  | 8 => iprop(dutyTok ER ((c : Thread nD τ), SemLoc.dma (sndS 1 2 1 inb_S3x4x4_S1x1x1_1_2_1)) 0 (0 : Fin 4) ∗ dutyTok ER (((pe c 1) : Thread nD τ), SemLoc.dma (rcvS 1 2 1 inb_S3x4x4_S1x1x1_1_2_1)) 0 (0 : Fin 4))
  | 7 => iprop(dutyTok ER ((c : Thread nD τ), SemLoc.dma (sndS 1 2 3 inb_S3x4x4_S1x1x1_1_2_3)) 0 (0 : Fin 4) ∗ dutyTok ER (((pe c 3) : Thread nD τ), SemLoc.dma (rcvS 1 2 3 inb_S3x4x4_S1x1x1_1_2_3)) 0 (0 : Fin 4))
  | 6 => iprop(dutyTok ER ((c : Thread nD τ), SemLoc.dma (sndS 1 3 2 inb_S3x4x4_S1x1x1_1_3_2)) 0 (0 : Fin 4) ∗ dutyTok ER (((pe c 2) : Thread nD τ), SemLoc.dma (rcvS 1 3 2 inb_S3x4x4_S1x1x1_1_3_2)) 0 (0 : Fin 4))
  | 5 => iprop(dutyTok ER ((c : Thread nD τ), SemLoc.dma (sndS 1 3 1 inb_S3x4x4_S1x1x1_1_3_1)) 0 (0 : Fin 4) ∗ dutyTok ER (((pe c 1) : Thread nD τ), SemLoc.dma (rcvS 1 3 1 inb_S3x4x4_S1x1x1_1_3_1)) 0 (0 : Fin 4))
  | 4 => iprop(dutyTok ER ((c : Thread nD τ), SemLoc.dma (sndS 1 3 3 inb_S3x4x4_S1x1x1_1_3_3)) 0 (0 : Fin 4) ∗ dutyTok ER (((pe c 3) : Thread nD τ), SemLoc.dma (rcvS 1 3 3 inb_S3x4x4_S1x1x1_1_3_3)) 0 (0 : Fin 4))
  | 3 => iprop(dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4))
  | 2 => iprop(dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4))
  | 1 => iprop(dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4))
  | _ => iprop(emp)

/-- The tokens of copies `1 … n`. -/
def toksLeft (c : Dev nD) : ℕ → sProp 𝕄
  | 0 => iprop(emp)
  | n + 1 => iprop(copyToks (F := F) c (n + 1) ∗ toksLeft c n)

theorem toksLeft_succ (c : Dev nD) (n : ℕ) : toksLeft (F := F) c (n + 1) = iprop(copyToks (F := F) c (n + 1) ∗ toksLeft c n) := rfl

end Cert.Kernel.Mlp

end
-- ==== Proof.Bits.SlotSplit.lean ====
/-
  The two scratch buffers by blocks. The exchange buffer `[2, 4, 4, 64, 256]` is cut along its first three axes into 32
  blocks of `64 × 256`, the reduce-scatter buffer `[2, 4, 64, 256]` along its first two into 8: the blocks are pairwise
  disjoint (two blocks differ in a leading coordinate) and cover the buffer (every element has leading coordinates in
  range). So holding a buffer whole at contents `f` is holding its blocks apart at `f`, and blocks held apart at
  contents of their own glue to the whole buffer at some contents.
-/
import proofs.«900991_g7700000000000992_dist_mlpseq_tp1d_rep_bs_b256_d256_h512_v7x_i4_bf16_1_alg».proof.Proof.Bits.Proto

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## A flat separating conjunction, and a buffer cut along a key -/

/-- `P₁ ∗ P₂ ∗ … ∗ Pₙ`, flat, of a list of assertions. -/
def sepChain : List (sProp 𝕄) → sProp 𝕄
  | [] => iprop(emp)
  | [P] => P
  | P :: Q :: r => iprop(P ∗ sepChain (Q :: r))

section Key

variable {κ : Type} [DecidableEq κ] (ℓ : Loc nD τ sig) (key : Idx ℓ → κ)

/-- The elements of the buffer whose key is `k`. -/
def fiber (k : κ) : Finset (Idx ℓ) := Finset.univ.filter fun i => key i = k

/-- The elements whose keys lie in a duplicate-free list, held at one contents, are the elements of each key, held apart. -/
theorem chain_fibers (q : PosShare TreeShare) (f : Buf (Elt F) ℓ) : ∀ (k : κ) (ks : List κ), (k :: ks).Nodup →
    ((ℓ ↦[Finset.univ.filter fun i => key i ∈ k :: ks]{q} f : sProp 𝕄)
      ⊣⊢ sepChain ((k :: ks).map fun k => (ℓ ↦[fiber ℓ key k]{q} f : sProp 𝕄)))
  | k, [], _ => by
    have hset : (Finset.univ.filter fun i => key i ∈ [k]) = fiber ℓ key k := by
      ext i; simp only [fiber, Finset.mem_filter, Finset.mem_univ, true_and, List.mem_singleton]
    rw [hset]; exact .rfl
  | k, k' :: ks, hnd => by
    have hset : (Finset.univ.filter fun i => key i ∈ k :: k' :: ks)
        = fiber ℓ key k ∪ Finset.univ.filter fun i => key i ∈ k' :: ks := by
      ext i
      simp only [fiber, Finset.mem_filter, Finset.mem_univ, true_and, Finset.mem_union, List.mem_cons (a := key i) (b := k)]
    have hd : Disjoint (fiber ℓ key k) (Finset.univ.filter fun i => key i ∈ k' :: ks) := by
      rw [Finset.disjoint_left]; intro i hi hj
      simp only [fiber, Finset.mem_filter, Finset.mem_univ, true_and] at hi hj
      exact (List.nodup_cons.mp hnd).1 (hi ▸ hj)
    rw [hset]
    exact (Region.is_union hd).trans (sep_congr_right (chain_fibers q f k' ks (List.nodup_cons.mp hnd).2))

/-- A buffer whose every element has its key in a duplicate-free list is its blocks by key, held apart. -/
theorem split_fibers (q : PosShare TreeShare) (f : Buf (Elt F) ℓ) (k : κ) (ks : List κ) (hnd : (k :: ks).Nodup)
    (hcov : ∀ i, key i ∈ k :: ks) :
    ((ℓ ↦{q} f : sProp 𝕄) ⊣⊢ sepChain ((k :: ks).map fun k => (ℓ ↦[fiber ℓ key k]{q} f : sProp 𝕄))) := by
  have hset : (Finset.univ.filter fun i => key i ∈ k :: ks) = Finset.univ := Finset.filter_true_of_mem fun i _ => hcov i
  rw [← hset]; exact chain_fibers ℓ key q f k ks hnd

/-- Blocks by key held apart, each at contents of its own, make up the elements of those keys at some contents. -/
theorem join_fibers (q : PosShare TreeShare) : ∀ (k : κ) (ks : List κ), (k :: ks).Nodup →
    (sepChain ((k :: ks).map fun k => (iprop(∃ f, ℓ ↦[fiber ℓ key k]{q} f) : sProp 𝕄))
      ⊢ ∃ f, ℓ ↦[Finset.univ.filter fun i => key i ∈ k :: ks]{q} f)
  | k, [], _ => by
    have hset : (Finset.univ.filter fun i => key i ∈ [k]) = fiber ℓ key k := by
      ext i; simp only [fiber, Finset.mem_filter, Finset.mem_univ, true_and, List.mem_singleton]
    rw [hset]; exact .rfl
  | k, k' :: ks, hnd => by
    have hset : (Finset.univ.filter fun i => key i ∈ k :: k' :: ks)
        = fiber ℓ key k ∪ Finset.univ.filter fun i => key i ∈ k' :: ks := by
      ext i
      simp only [fiber, Finset.mem_filter, Finset.mem_univ, true_and, Finset.mem_union, List.mem_cons (a := key i) (b := k)]
    have hd : Disjoint (fiber ℓ key k) (Finset.univ.filter fun i => key i ∈ k' :: ks) := by
      rw [Finset.disjoint_left]; intro i hi hj
      simp only [fiber, Finset.mem_filter, Finset.mem_univ, true_and] at hi hj
      exact (List.nodup_cons.mp hnd).1 (hi ▸ hj)
    rw [hset]
    refine (sep_mono_right (join_fibers q k' ks (List.nodup_cons.mp hnd).2)).trans ?_
    iintro ⟨⟨%f, Hf⟩, ⟨%g, Hg⟩⟩
    iexists ((Finset.univ.filter fun i => key i ∈ k' :: ks).piecewise g f)
    iapply (Region.is_join hd)
    isplitl [Hf] <;> iassumption

/-- The whole buffer at some contents, from its blocks by key each at contents of its own. -/
theorem join_fibers_univ (q : PosShare TreeShare) (k : κ) (ks : List κ) (hnd : (k :: ks).Nodup) (hcov : ∀ i, key i ∈ k :: ks) :
    (sepChain ((k :: ks).map fun k => (iprop(∃ f, ℓ ↦[fiber ℓ key k]{q} f) : sProp 𝕄)) ⊢ ∃ f, ℓ ↦{q} f) := by
  have hset : (Finset.univ.filter fun i => key i ∈ k :: ks) = Finset.univ := Finset.filter_true_of_mem fun i _ => hcov i
  rw [← hset]; exact join_fibers ℓ key q k ks hnd

end Key

/-! ## The two scratch buffers by blocks

An element of the exchange buffer `[2, 4, 4, 64, 256]` lies in the block named by its first three coordinates, an element of
the reduce-scatter buffer `[2, 4, 64, 256]` in the block named by its first two; a block's view is exactly the elements of
its name. -/

/-- The block coordinates of an element of the exchange buffer. -/
def key0 (i : S2x4x4x64x256.Idx) : ℕ × ℕ × ℕ := ((i 0).val, (i 1).val, (i 2).val)
/-- The block coordinates of an element of the reduce-scatter buffer. -/
def key1 (i : S2x4x64x256.Idx) : ℕ × ℕ := ((i 0).val, (i 1).val)

/-- The 32 blocks of the exchange buffer, row-major. -/
def keys0 : List (ℕ × ℕ × ℕ) := [(0, 0, 0), (0, 0, 1), (0, 0, 2), (0, 0, 3), (0, 1, 0), (0, 1, 1), (0, 1, 2), (0, 1, 3), (0, 2, 0), (0, 2, 1), (0, 2, 2), (0, 2, 3), (0, 3, 0), (0, 3, 1), (0, 3, 2), (0, 3, 3), (1, 0, 0), (1, 0, 1), (1, 0, 2), (1, 0, 3), (1, 1, 0), (1, 1, 1), (1, 1, 2), (1, 1, 3), (1, 2, 0), (1, 2, 1), (1, 2, 2), (1, 2, 3), (1, 3, 0), (1, 3, 1), (1, 3, 2), (1, 3, 3)]
/-- The 8 blocks of the reduce-scatter buffer, row-major. -/
def keys1 : List (ℕ × ℕ) := [(0, 0), (0, 1), (0, 2), (0, 3), (1, 0), (1, 1), (1, 2), (1, 3)]

theorem keys0_nodup : keys0.Nodup := by decide
theorem keys1_nodup : keys1.Nodup := by decide

theorem key0_mem (i : S2x4x4x64x256.Idx) : key0 i ∈ keys0 := by
  have b0 : ((i 0 : Fin _) : ℕ) < 2 := (i 0).isLt
  have b1 : ((i 1 : Fin _) : ℕ) < 4 := (i 1).isLt
  have b2 : ((i 2 : Fin _) : ℕ) < 4 := (i 2).isLt
  obtain h0 | h0 : ((i 0 : Fin _) : ℕ) = 0 ∨ ((i 0 : Fin _) : ℕ) = 1 := by omega
  all_goals obtain h1 | h1 | h1 | h1 : ((i 1 : Fin _) : ℕ) = 0 ∨ ((i 1 : Fin _) : ℕ) = 1 ∨ ((i 1 : Fin _) : ℕ) = 2 ∨ ((i 1 : Fin _) : ℕ) = 3 := by omega
  all_goals obtain h2 | h2 | h2 | h2 : ((i 2 : Fin _) : ℕ) = 0 ∨ ((i 2 : Fin _) : ℕ) = 1 ∨ ((i 2 : Fin _) : ℕ) = 2 ∨ ((i 2 : Fin _) : ℕ) = 3 := by omega
  all_goals (rw [key0, h0, h1, h2]; decide)

theorem key1_mem (i : S2x4x64x256.Idx) : key1 i ∈ keys1 := by
  have b0 : ((i 0 : Fin _) : ℕ) < 2 := (i 0).isLt
  have b1 : ((i 1 : Fin _) : ℕ) < 4 := (i 1).isLt
  obtain h0 | h0 : ((i 0 : Fin _) : ℕ) = 0 ∨ ((i 0 : Fin _) : ℕ) = 1 := by omega
  all_goals obtain h1 | h1 | h1 | h1 : ((i 1 : Fin _) : ℕ) = 0 ∨ ((i 1 : Fin _) : ℕ) = 1 ∨ ((i 1 : Fin _) : ℕ) = 2 ∨ ((i 1 : Fin _) : ℕ) = 3 := by omega
  all_goals (rw [key1, h0, h1]; decide)

theorem forall_fin5 {P : Fin 5 → Prop} : (∀ a, P a) ↔ P 0 ∧ P 1 ∧ P 2 ∧ P 3 ∧ P 4 :=
  ⟨fun h => ⟨h 0, h 1, h 2, h 3, h 4⟩, fun ⟨h0, h1, h2, h3, h4⟩ a => by fin_cases a <;> assumption⟩
theorem forall_fin4 {P : Fin 4 → Prop} : (∀ a, P a) ↔ P 0 ∧ P 1 ∧ P 2 ∧ P 3 :=
  ⟨fun h => ⟨h 0, h 1, h 2, h 3⟩, fun ⟨h0, h1, h2, h3⟩ a => by fin_cases a <;> assumption⟩

/-- The view of block `[l, p, o]` of the exchange buffer is the elements whose first three coordinates are `l, p, o`. -/
theorem slot_set (c : Dev nD) {l p o : ℕ}
    (h : ∀ a, (![l, p, o, 0, 0] : Fin 5 → Nat) a + S1x1x1x64x256.size a ≤ S2x4x4x64x256.size a) :
    (slotM l p o h).view.set = fiber ((c : Thread nD τ).loc cc0_scratch0) key0 (l, p, o) := by
  ext i
  simp only [Memref.view_squeeze, View.set_reshape, Memref.view_slice, Memref.view_whole, View.set_slice_whole,
    Rect.mem_set_unit, fiber, Finset.mem_filter, Finset.mem_univ, true_and, key0, Prod.mk.injEq]
  change (∀ a : Fin 5, _) ↔ _
  rw [forall_fin5]
  have b3 : ((i 3 : Fin _) : ℕ) < 64 := (i 3).isLt
  have b4 : ((i 4 : Fin _) : ℕ) < 256 := (i 4).isLt
  simp [Shape.size]
  omega

/-- The view of block `[k, o]` of the reduce-scatter buffer is the elements whose first two coordinates are `k, o`. -/
theorem rs_set (c : Dev nD) {k o : ℕ}
    (h : ∀ a, (![k, o, 0, 0] : Fin 4 → Nat) a + S1x1x64x256.size a ≤ S2x4x64x256.size a) :
    (rsM k o h).view.set = fiber ((c : Thread nD τ).loc cc0_scratch1) key1 (k, o) := by
  ext i
  simp only [Memref.view_squeeze, View.set_reshape, Memref.view_slice, Memref.view_whole, View.set_slice_whole,
    Rect.mem_set_unit, fiber, Finset.mem_filter, Finset.mem_univ, true_and, key1, Prod.mk.injEq]
  change (∀ a : Fin 4, _) ↔ _
  rw [forall_fin4]
  have b2 : ((i 2 : Fin _) : ℕ) < 64 := (i 2).isLt
  have b3 : ((i 3 : Fin _) : ℕ) < 256 := (i 3).isLt
  simp [Shape.size]
  omega

theorem inb_rs_0_0 : ∀ a, (![0, 0, 0, 0] : Fin 4 → Nat) a + S1x1x64x256.size a ≤ S2x4x64x256.size a := by decide
theorem inb_rs_1_0 : ∀ a, (![1, 0, 0, 0] : Fin 4 → Nat) a + S1x1x64x256.size a ≤ S2x4x64x256.size a := by decide

/-! ## Cutting the buffers into their blocks, and joining them back -/

/-- The exchange buffer held whole is its 32 blocks held apart, at the same contents. -/
theorem scratch0_split (c : Dev nD) (f : Buf (Elt F) ((c : Thread nD τ).loc cc0_scratch0)) :
    ((((c : Thread nD τ).loc cc0_scratch0) ↦{fullShare} f : sProp 𝕄) ⊣⊢ iprop(
      ((slotM 0 0 0 inb_S2x4x4x64x256_S1x1x1x64x256_0_0_0_0_0).view.loc (c : Thread nD τ) ↦[(slotM 0 0 0 inb_S2x4x4x64x256_S1x1x1x64x256_0_0_0_0_0).view.set]{fullShare} f)
      ∗ ((slotM 0 0 1 inb_S2x4x4x64x256_S1x1x1x64x256_0_0_1_0_0).view.loc (c : Thread nD τ) ↦[(slotM 0 0 1 inb_S2x4x4x64x256_S1x1x1x64x256_0_0_1_0_0).view.set]{fullShare} f)
      ∗ ((slotM 0 0 2 inb_S2x4x4x64x256_S1x1x1x64x256_0_0_2_0_0).view.loc (c : Thread nD τ) ↦[(slotM 0 0 2 inb_S2x4x4x64x256_S1x1x1x64x256_0_0_2_0_0).view.set]{fullShare} f)
      ∗ ((slotM 0 0 3 inb_S2x4x4x64x256_S1x1x1x64x256_0_0_3_0_0).view.loc (c : Thread nD τ) ↦[(slotM 0 0 3 inb_S2x4x4x64x256_S1x1x1x64x256_0_0_3_0_0).view.set]{fullShare} f)
      ∗ ((slotM 0 1 0 inb_S2x4x4x64x256_S1x1x1x64x256_0_1_0_0_0).view.loc (c : Thread nD τ) ↦[(slotM 0 1 0 inb_S2x4x4x64x256_S1x1x1x64x256_0_1_0_0_0).view.set]{fullShare} f)
      ∗ ((slotM 0 1 1 inb_S2x4x4x64x256_S1x1x1x64x256_0_1_1_0_0).view.loc (c : Thread nD τ) ↦[(slotM 0 1 1 inb_S2x4x4x64x256_S1x1x1x64x256_0_1_1_0_0).view.set]{fullShare} f)
      ∗ ((slotM 0 1 2 inb_S2x4x4x64x256_S1x1x1x64x256_0_1_2_0_0).view.loc (c : Thread nD τ) ↦[(slotM 0 1 2 inb_S2x4x4x64x256_S1x1x1x64x256_0_1_2_0_0).view.set]{fullShare} f)
      ∗ ((slotM 0 1 3 inb_S2x4x4x64x256_S1x1x1x64x256_0_1_3_0_0).view.loc (c : Thread nD τ) ↦[(slotM 0 1 3 inb_S2x4x4x64x256_S1x1x1x64x256_0_1_3_0_0).view.set]{fullShare} f)
      ∗ ((slotM 0 2 0 inb_S2x4x4x64x256_S1x1x1x64x256_0_2_0_0_0).view.loc (c : Thread nD τ) ↦[(slotM 0 2 0 inb_S2x4x4x64x256_S1x1x1x64x256_0_2_0_0_0).view.set]{fullShare} f)
      ∗ ((slotM 0 2 1 inb_S2x4x4x64x256_S1x1x1x64x256_0_2_1_0_0).view.loc (c : Thread nD τ) ↦[(slotM 0 2 1 inb_S2x4x4x64x256_S1x1x1x64x256_0_2_1_0_0).view.set]{fullShare} f)
      ∗ ((slotM 0 2 2 inb_S2x4x4x64x256_S1x1x1x64x256_0_2_2_0_0).view.loc (c : Thread nD τ) ↦[(slotM 0 2 2 inb_S2x4x4x64x256_S1x1x1x64x256_0_2_2_0_0).view.set]{fullShare} f)
      ∗ ((slotM 0 2 3 inb_S2x4x4x64x256_S1x1x1x64x256_0_2_3_0_0).view.loc (c : Thread nD τ) ↦[(slotM 0 2 3 inb_S2x4x4x64x256_S1x1x1x64x256_0_2_3_0_0).view.set]{fullShare} f)
      ∗ ((slotM 0 3 0 inb_S2x4x4x64x256_S1x1x1x64x256_0_3_0_0_0).view.loc (c : Thread nD τ) ↦[(slotM 0 3 0 inb_S2x4x4x64x256_S1x1x1x64x256_0_3_0_0_0).view.set]{fullShare} f)
      ∗ ((slotM 0 3 1 inb_S2x4x4x64x256_S1x1x1x64x256_0_3_1_0_0).view.loc (c : Thread nD τ) ↦[(slotM 0 3 1 inb_S2x4x4x64x256_S1x1x1x64x256_0_3_1_0_0).view.set]{fullShare} f)
      ∗ ((slotM 0 3 2 inb_S2x4x4x64x256_S1x1x1x64x256_0_3_2_0_0).view.loc (c : Thread nD τ) ↦[(slotM 0 3 2 inb_S2x4x4x64x256_S1x1x1x64x256_0_3_2_0_0).view.set]{fullShare} f)
      ∗ ((slotM 0 3 3 inb_S2x4x4x64x256_S1x1x1x64x256_0_3_3_0_0).view.loc (c : Thread nD τ) ↦[(slotM 0 3 3 inb_S2x4x4x64x256_S1x1x1x64x256_0_3_3_0_0).view.set]{fullShare} f)
      ∗ ((slotM 1 0 0 inb_S2x4x4x64x256_S1x1x1x64x256_1_0_0_0_0).view.loc (c : Thread nD τ) ↦[(slotM 1 0 0 inb_S2x4x4x64x256_S1x1x1x64x256_1_0_0_0_0).view.set]{fullShare} f)
      ∗ ((slotM 1 0 1 inb_S2x4x4x64x256_S1x1x1x64x256_1_0_1_0_0).view.loc (c : Thread nD τ) ↦[(slotM 1 0 1 inb_S2x4x4x64x256_S1x1x1x64x256_1_0_1_0_0).view.set]{fullShare} f)
      ∗ ((slotM 1 0 2 inb_S2x4x4x64x256_S1x1x1x64x256_1_0_2_0_0).view.loc (c : Thread nD τ) ↦[(slotM 1 0 2 inb_S2x4x4x64x256_S1x1x1x64x256_1_0_2_0_0).view.set]{fullShare} f)
      ∗ ((slotM 1 0 3 inb_S2x4x4x64x256_S1x1x1x64x256_1_0_3_0_0).view.loc (c : Thread nD τ) ↦[(slotM 1 0 3 inb_S2x4x4x64x256_S1x1x1x64x256_1_0_3_0_0).view.set]{fullShare} f)
      ∗ ((slotM 1 1 0 inb_S2x4x4x64x256_S1x1x1x64x256_1_1_0_0_0).view.loc (c : Thread nD τ) ↦[(slotM 1 1 0 inb_S2x4x4x64x256_S1x1x1x64x256_1_1_0_0_0).view.set]{fullShare} f)
      ∗ ((slotM 1 1 1 inb_S2x4x4x64x256_S1x1x1x64x256_1_1_1_0_0).view.loc (c : Thread nD τ) ↦[(slotM 1 1 1 inb_S2x4x4x64x256_S1x1x1x64x256_1_1_1_0_0).view.set]{fullShare} f)
      ∗ ((slotM 1 1 2 inb_S2x4x4x64x256_S1x1x1x64x256_1_1_2_0_0).view.loc (c : Thread nD τ) ↦[(slotM 1 1 2 inb_S2x4x4x64x256_S1x1x1x64x256_1_1_2_0_0).view.set]{fullShare} f)
      ∗ ((slotM 1 1 3 inb_S2x4x4x64x256_S1x1x1x64x256_1_1_3_0_0).view.loc (c : Thread nD τ) ↦[(slotM 1 1 3 inb_S2x4x4x64x256_S1x1x1x64x256_1_1_3_0_0).view.set]{fullShare} f)
      ∗ ((slotM 1 2 0 inb_S2x4x4x64x256_S1x1x1x64x256_1_2_0_0_0).view.loc (c : Thread nD τ) ↦[(slotM 1 2 0 inb_S2x4x4x64x256_S1x1x1x64x256_1_2_0_0_0).view.set]{fullShare} f)
      ∗ ((slotM 1 2 1 inb_S2x4x4x64x256_S1x1x1x64x256_1_2_1_0_0).view.loc (c : Thread nD τ) ↦[(slotM 1 2 1 inb_S2x4x4x64x256_S1x1x1x64x256_1_2_1_0_0).view.set]{fullShare} f)
      ∗ ((slotM 1 2 2 inb_S2x4x4x64x256_S1x1x1x64x256_1_2_2_0_0).view.loc (c : Thread nD τ) ↦[(slotM 1 2 2 inb_S2x4x4x64x256_S1x1x1x64x256_1_2_2_0_0).view.set]{fullShare} f)
      ∗ ((slotM 1 2 3 inb_S2x4x4x64x256_S1x1x1x64x256_1_2_3_0_0).view.loc (c : Thread nD τ) ↦[(slotM 1 2 3 inb_S2x4x4x64x256_S1x1x1x64x256_1_2_3_0_0).view.set]{fullShare} f)
      ∗ ((slotM 1 3 0 inb_S2x4x4x64x256_S1x1x1x64x256_1_3_0_0_0).view.loc (c : Thread nD τ) ↦[(slotM 1 3 0 inb_S2x4x4x64x256_S1x1x1x64x256_1_3_0_0_0).view.set]{fullShare} f)
      ∗ ((slotM 1 3 1 inb_S2x4x4x64x256_S1x1x1x64x256_1_3_1_0_0).view.loc (c : Thread nD τ) ↦[(slotM 1 3 1 inb_S2x4x4x64x256_S1x1x1x64x256_1_3_1_0_0).view.set]{fullShare} f)
      ∗ ((slotM 1 3 2 inb_S2x4x4x64x256_S1x1x1x64x256_1_3_2_0_0).view.loc (c : Thread nD τ) ↦[(slotM 1 3 2 inb_S2x4x4x64x256_S1x1x1x64x256_1_3_2_0_0).view.set]{fullShare} f)
      ∗ ((slotM 1 3 3 inb_S2x4x4x64x256_S1x1x1x64x256_1_3_3_0_0).view.loc (c : Thread nD τ) ↦[(slotM 1 3 3 inb_S2x4x4x64x256_S1x1x1x64x256_1_3_3_0_0).view.set]{fullShare} f))) := by
  have h := split_fibers ((c : Thread nD τ).loc cc0_scratch0) key0 fullShare f _ _ keys0_nodup key0_mem
  simp only [List.map, sepChain] at h
  simp only [slot_set c]
  exact h

set_option maxHeartbeats 2000000 in
/-- The 32 blocks of the exchange buffer, each at contents of its own, make up the whole buffer at some contents. -/
theorem scratch0_join (c : Dev nD) :
    ((iprop(
      (∃ f, ((slotM 0 0 0 inb_S2x4x4x64x256_S1x1x1x64x256_0_0_0_0_0).view.loc (c : Thread nD τ) ↦[(slotM 0 0 0 inb_S2x4x4x64x256_S1x1x1x64x256_0_0_0_0_0).view.set]{fullShare} f))
      ∗ (∃ f, ((slotM 0 0 1 inb_S2x4x4x64x256_S1x1x1x64x256_0_0_1_0_0).view.loc (c : Thread nD τ) ↦[(slotM 0 0 1 inb_S2x4x4x64x256_S1x1x1x64x256_0_0_1_0_0).view.set]{fullShare} f))
      ∗ (∃ f, ((slotM 0 0 2 inb_S2x4x4x64x256_S1x1x1x64x256_0_0_2_0_0).view.loc (c : Thread nD τ) ↦[(slotM 0 0 2 inb_S2x4x4x64x256_S1x1x1x64x256_0_0_2_0_0).view.set]{fullShare} f))
      ∗ (∃ f, ((slotM 0 0 3 inb_S2x4x4x64x256_S1x1x1x64x256_0_0_3_0_0).view.loc (c : Thread nD τ) ↦[(slotM 0 0 3 inb_S2x4x4x64x256_S1x1x1x64x256_0_0_3_0_0).view.set]{fullShare} f))
      ∗ (∃ f, ((slotM 0 1 0 inb_S2x4x4x64x256_S1x1x1x64x256_0_1_0_0_0).view.loc (c : Thread nD τ) ↦[(slotM 0 1 0 inb_S2x4x4x64x256_S1x1x1x64x256_0_1_0_0_0).view.set]{fullShare} f))
      ∗ (∃ f, ((slotM 0 1 1 inb_S2x4x4x64x256_S1x1x1x64x256_0_1_1_0_0).view.loc (c : Thread nD τ) ↦[(slotM 0 1 1 inb_S2x4x4x64x256_S1x1x1x64x256_0_1_1_0_0).view.set]{fullShare} f))
      ∗ (∃ f, ((slotM 0 1 2 inb_S2x4x4x64x256_S1x1x1x64x256_0_1_2_0_0).view.loc (c : Thread nD τ) ↦[(slotM 0 1 2 inb_S2x4x4x64x256_S1x1x1x64x256_0_1_2_0_0).view.set]{fullShare} f))
      ∗ (∃ f, ((slotM 0 1 3 inb_S2x4x4x64x256_S1x1x1x64x256_0_1_3_0_0).view.loc (c : Thread nD τ) ↦[(slotM 0 1 3 inb_S2x4x4x64x256_S1x1x1x64x256_0_1_3_0_0).view.set]{fullShare} f))
      ∗ (∃ f, ((slotM 0 2 0 inb_S2x4x4x64x256_S1x1x1x64x256_0_2_0_0_0).view.loc (c : Thread nD τ) ↦[(slotM 0 2 0 inb_S2x4x4x64x256_S1x1x1x64x256_0_2_0_0_0).view.set]{fullShare} f))
      ∗ (∃ f, ((slotM 0 2 1 inb_S2x4x4x64x256_S1x1x1x64x256_0_2_1_0_0).view.loc (c : Thread nD τ) ↦[(slotM 0 2 1 inb_S2x4x4x64x256_S1x1x1x64x256_0_2_1_0_0).view.set]{fullShare} f))
      ∗ (∃ f, ((slotM 0 2 2 inb_S2x4x4x64x256_S1x1x1x64x256_0_2_2_0_0).view.loc (c : Thread nD τ) ↦[(slotM 0 2 2 inb_S2x4x4x64x256_S1x1x1x64x256_0_2_2_0_0).view.set]{fullShare} f))
      ∗ (∃ f, ((slotM 0 2 3 inb_S2x4x4x64x256_S1x1x1x64x256_0_2_3_0_0).view.loc (c : Thread nD τ) ↦[(slotM 0 2 3 inb_S2x4x4x64x256_S1x1x1x64x256_0_2_3_0_0).view.set]{fullShare} f))
      ∗ (∃ f, ((slotM 0 3 0 inb_S2x4x4x64x256_S1x1x1x64x256_0_3_0_0_0).view.loc (c : Thread nD τ) ↦[(slotM 0 3 0 inb_S2x4x4x64x256_S1x1x1x64x256_0_3_0_0_0).view.set]{fullShare} f))
      ∗ (∃ f, ((slotM 0 3 1 inb_S2x4x4x64x256_S1x1x1x64x256_0_3_1_0_0).view.loc (c : Thread nD τ) ↦[(slotM 0 3 1 inb_S2x4x4x64x256_S1x1x1x64x256_0_3_1_0_0).view.set]{fullShare} f))
      ∗ (∃ f, ((slotM 0 3 2 inb_S2x4x4x64x256_S1x1x1x64x256_0_3_2_0_0).view.loc (c : Thread nD τ) ↦[(slotM 0 3 2 inb_S2x4x4x64x256_S1x1x1x64x256_0_3_2_0_0).view.set]{fullShare} f))
      ∗ (∃ f, ((slotM 0 3 3 inb_S2x4x4x64x256_S1x1x1x64x256_0_3_3_0_0).view.loc (c : Thread nD τ) ↦[(slotM 0 3 3 inb_S2x4x4x64x256_S1x1x1x64x256_0_3_3_0_0).view.set]{fullShare} f))
      ∗ (∃ f, ((slotM 1 0 0 inb_S2x4x4x64x256_S1x1x1x64x256_1_0_0_0_0).view.loc (c : Thread nD τ) ↦[(slotM 1 0 0 inb_S2x4x4x64x256_S1x1x1x64x256_1_0_0_0_0).view.set]{fullShare} f))
      ∗ (∃ f, ((slotM 1 0 1 inb_S2x4x4x64x256_S1x1x1x64x256_1_0_1_0_0).view.loc (c : Thread nD τ) ↦[(slotM 1 0 1 inb_S2x4x4x64x256_S1x1x1x64x256_1_0_1_0_0).view.set]{fullShare} f))
      ∗ (∃ f, ((slotM 1 0 2 inb_S2x4x4x64x256_S1x1x1x64x256_1_0_2_0_0).view.loc (c : Thread nD τ) ↦[(slotM 1 0 2 inb_S2x4x4x64x256_S1x1x1x64x256_1_0_2_0_0).view.set]{fullShare} f))
      ∗ (∃ f, ((slotM 1 0 3 inb_S2x4x4x64x256_S1x1x1x64x256_1_0_3_0_0).view.loc (c : Thread nD τ) ↦[(slotM 1 0 3 inb_S2x4x4x64x256_S1x1x1x64x256_1_0_3_0_0).view.set]{fullShare} f))
      ∗ (∃ f, ((slotM 1 1 0 inb_S2x4x4x64x256_S1x1x1x64x256_1_1_0_0_0).view.loc (c : Thread nD τ) ↦[(slotM 1 1 0 inb_S2x4x4x64x256_S1x1x1x64x256_1_1_0_0_0).view.set]{fullShare} f))
      ∗ (∃ f, ((slotM 1 1 1 inb_S2x4x4x64x256_S1x1x1x64x256_1_1_1_0_0).view.loc (c : Thread nD τ) ↦[(slotM 1 1 1 inb_S2x4x4x64x256_S1x1x1x64x256_1_1_1_0_0).view.set]{fullShare} f))
      ∗ (∃ f, ((slotM 1 1 2 inb_S2x4x4x64x256_S1x1x1x64x256_1_1_2_0_0).view.loc (c : Thread nD τ) ↦[(slotM 1 1 2 inb_S2x4x4x64x256_S1x1x1x64x256_1_1_2_0_0).view.set]{fullShare} f))
      ∗ (∃ f, ((slotM 1 1 3 inb_S2x4x4x64x256_S1x1x1x64x256_1_1_3_0_0).view.loc (c : Thread nD τ) ↦[(slotM 1 1 3 inb_S2x4x4x64x256_S1x1x1x64x256_1_1_3_0_0).view.set]{fullShare} f))
      ∗ (∃ f, ((slotM 1 2 0 inb_S2x4x4x64x256_S1x1x1x64x256_1_2_0_0_0).view.loc (c : Thread nD τ) ↦[(slotM 1 2 0 inb_S2x4x4x64x256_S1x1x1x64x256_1_2_0_0_0).view.set]{fullShare} f))
      ∗ (∃ f, ((slotM 1 2 1 inb_S2x4x4x64x256_S1x1x1x64x256_1_2_1_0_0).view.loc (c : Thread nD τ) ↦[(slotM 1 2 1 inb_S2x4x4x64x256_S1x1x1x64x256_1_2_1_0_0).view.set]{fullShare} f))
      ∗ (∃ f, ((slotM 1 2 2 inb_S2x4x4x64x256_S1x1x1x64x256_1_2_2_0_0).view.loc (c : Thread nD τ) ↦[(slotM 1 2 2 inb_S2x4x4x64x256_S1x1x1x64x256_1_2_2_0_0).view.set]{fullShare} f))
      ∗ (∃ f, ((slotM 1 2 3 inb_S2x4x4x64x256_S1x1x1x64x256_1_2_3_0_0).view.loc (c : Thread nD τ) ↦[(slotM 1 2 3 inb_S2x4x4x64x256_S1x1x1x64x256_1_2_3_0_0).view.set]{fullShare} f))
      ∗ (∃ f, ((slotM 1 3 0 inb_S2x4x4x64x256_S1x1x1x64x256_1_3_0_0_0).view.loc (c : Thread nD τ) ↦[(slotM 1 3 0 inb_S2x4x4x64x256_S1x1x1x64x256_1_3_0_0_0).view.set]{fullShare} f))
      ∗ (∃ f, ((slotM 1 3 1 inb_S2x4x4x64x256_S1x1x1x64x256_1_3_1_0_0).view.loc (c : Thread nD τ) ↦[(slotM 1 3 1 inb_S2x4x4x64x256_S1x1x1x64x256_1_3_1_0_0).view.set]{fullShare} f))
      ∗ (∃ f, ((slotM 1 3 2 inb_S2x4x4x64x256_S1x1x1x64x256_1_3_2_0_0).view.loc (c : Thread nD τ) ↦[(slotM 1 3 2 inb_S2x4x4x64x256_S1x1x1x64x256_1_3_2_0_0).view.set]{fullShare} f))
      ∗ (∃ f, ((slotM 1 3 3 inb_S2x4x4x64x256_S1x1x1x64x256_1_3_3_0_0).view.loc (c : Thread nD τ) ↦[(slotM 1 3 3 inb_S2x4x4x64x256_S1x1x1x64x256_1_3_3_0_0).view.set]{fullShare} f))) : sProp 𝕄)
      ⊢ ∃ f, ((c : Thread nD τ).loc cc0_scratch0) ↦{fullShare} f) := by
  have h := join_fibers_univ (F := F) ((c : Thread nD τ).loc cc0_scratch0) key0 fullShare _ _ keys0_nodup key0_mem
  simp only [List.map, sepChain] at h
  simp only [slot_set c]
  exact h

/-- The reduce-scatter buffer held whole is its 8 blocks held apart, at the same contents. -/
theorem scratch1_split (c : Dev nD) (f : Buf (Elt F) ((c : Thread nD τ).loc cc0_scratch1)) :
    ((((c : Thread nD τ).loc cc0_scratch1) ↦{fullShare} f : sProp 𝕄) ⊣⊢ iprop(
      ((rsM 0 0 inb_rs_0_0).view.loc (c : Thread nD τ) ↦[(rsM 0 0 inb_rs_0_0).view.set]{fullShare} f)
      ∗ ((rsM 0 1 inb_S2x4x64x256_S1x1x64x256_0_1_0_0).view.loc (c : Thread nD τ) ↦[(rsM 0 1 inb_S2x4x64x256_S1x1x64x256_0_1_0_0).view.set]{fullShare} f)
      ∗ ((rsM 0 2 inb_S2x4x64x256_S1x1x64x256_0_2_0_0).view.loc (c : Thread nD τ) ↦[(rsM 0 2 inb_S2x4x64x256_S1x1x64x256_0_2_0_0).view.set]{fullShare} f)
      ∗ ((rsM 0 3 inb_S2x4x64x256_S1x1x64x256_0_3_0_0).view.loc (c : Thread nD τ) ↦[(rsM 0 3 inb_S2x4x64x256_S1x1x64x256_0_3_0_0).view.set]{fullShare} f)
      ∗ ((rsM 1 0 inb_rs_1_0).view.loc (c : Thread nD τ) ↦[(rsM 1 0 inb_rs_1_0).view.set]{fullShare} f)
      ∗ ((rsM 1 1 inb_S2x4x64x256_S1x1x64x256_1_1_0_0).view.loc (c : Thread nD τ) ↦[(rsM 1 1 inb_S2x4x64x256_S1x1x64x256_1_1_0_0).view.set]{fullShare} f)
      ∗ ((rsM 1 2 inb_S2x4x64x256_S1x1x64x256_1_2_0_0).view.loc (c : Thread nD τ) ↦[(rsM 1 2 inb_S2x4x64x256_S1x1x64x256_1_2_0_0).view.set]{fullShare} f)
      ∗ ((rsM 1 3 inb_S2x4x64x256_S1x1x64x256_1_3_0_0).view.loc (c : Thread nD τ) ↦[(rsM 1 3 inb_S2x4x64x256_S1x1x64x256_1_3_0_0).view.set]{fullShare} f))) := by
  have h := split_fibers ((c : Thread nD τ).loc cc0_scratch1) key1 fullShare f _ _ keys1_nodup key1_mem
  simp only [List.map, sepChain] at h
  simp only [rs_set c]
  exact h

/-- The 8 blocks of the reduce-scatter buffer, each at contents of its own, make up the whole buffer at some contents. -/
theorem scratch1_join (c : Dev nD) :
    ((iprop(
      (∃ f, ((rsM 0 0 inb_rs_0_0).view.loc (c : Thread nD τ) ↦[(rsM 0 0 inb_rs_0_0).view.set]{fullShare} f))
      ∗ (∃ f, ((rsM 0 1 inb_S2x4x64x256_S1x1x64x256_0_1_0_0).view.loc (c : Thread nD τ) ↦[(rsM 0 1 inb_S2x4x64x256_S1x1x64x256_0_1_0_0).view.set]{fullShare} f))
      ∗ (∃ f, ((rsM 0 2 inb_S2x4x64x256_S1x1x64x256_0_2_0_0).view.loc (c : Thread nD τ) ↦[(rsM 0 2 inb_S2x4x64x256_S1x1x64x256_0_2_0_0).view.set]{fullShare} f))
      ∗ (∃ f, ((rsM 0 3 inb_S2x4x64x256_S1x1x64x256_0_3_0_0).view.loc (c : Thread nD τ) ↦[(rsM 0 3 inb_S2x4x64x256_S1x1x64x256_0_3_0_0).view.set]{fullShare} f))
      ∗ (∃ f, ((rsM 1 0 inb_rs_1_0).view.loc (c : Thread nD τ) ↦[(rsM 1 0 inb_rs_1_0).view.set]{fullShare} f))
      ∗ (∃ f, ((rsM 1 1 inb_S2x4x64x256_S1x1x64x256_1_1_0_0).view.loc (c : Thread nD τ) ↦[(rsM 1 1 inb_S2x4x64x256_S1x1x64x256_1_1_0_0).view.set]{fullShare} f))
      ∗ (∃ f, ((rsM 1 2 inb_S2x4x64x256_S1x1x64x256_1_2_0_0).view.loc (c : Thread nD τ) ↦[(rsM 1 2 inb_S2x4x64x256_S1x1x64x256_1_2_0_0).view.set]{fullShare} f))
      ∗ (∃ f, ((rsM 1 3 inb_S2x4x64x256_S1x1x64x256_1_3_0_0).view.loc (c : Thread nD τ) ↦[(rsM 1 3 inb_S2x4x64x256_S1x1x64x256_1_3_0_0).view.set]{fullShare} f))) : sProp 𝕄)
      ⊢ ∃ f, ((c : Thread nD τ).loc cc0_scratch1) ↦{fullShare} f) := by
  have h := join_fibers_univ (F := F) ((c : Thread nD τ).loc cc0_scratch1) key1 fullShare _ _ keys1_nodup key1_mem
  simp only [List.map, sepChain] at h
  simp only [rs_set c]
  exact h

end Cert.Kernel.Mlp

end
-- ==== Proof.Bits.BodyIface.lean ====
import proofs.«900991_g7700000000000992_dist_mlpseq_tp1d_rep_bs_b256_d256_h512_v7x_i4_bf16_1_alg».proof.Proof.Bits.BodyDefs
import proofs.«900991_g7700000000000992_dist_mlpseq_tp1d_rep_bs_b256_d256_h512_v7x_i4_bf16_1_alg».proof.Proof.Bits.Toks
import proofs.«900991_g7700000000000992_dist_mlpseq_tp1d_rep_bs_b256_d256_h512_v7x_i4_bf16_1_alg».proof.Proof.Bits.SlotSplit

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-- What one device's body starts from, every piece its own conjunct: the invariants of the cells it opens and that round 0
    is reached on the cells it pays (persistent), the levels; its positions on its own cells, the three entry-signal tokens,
    the tokens of the 27 copies, the launch credits of the cells others pay, its two exchange buffers cut into their blocks,
    the eight staging buffers at the arrays' contents, and what it owes. -/
def bodyPre (K : GSem nD τ sig → ℕ) (c : Dev nD) (W : Waits sig Unit)
    (f0 : Buf (Elt F) ((c : Thread nD τ).loc cc0_scratch0)) (f1 : Buf (Elt F) ((c : Thread nD τ).loc cc0_scratch1))
    (g7 : (cc0_stg7_0 : Ref sig .tc).ty.Contents (Elt F)) : sProp 𝕄 :=
  iprop(cellInv ER (Rd val jk jr) (K (barCell c)) (barCell c)
      ∗ cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
      ∗ cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
      ∗ cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
      ∗ cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
      ∗ cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
      ∗ cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
      ∗ cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
      ∗ cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
      ∗ cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
      ∗ cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
      ∗ cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
      ∗ cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
      ∗ cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
      ∗ cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
      ∗ cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
      ∗ cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
      ∗ cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
      ∗ cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
      ∗ cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
      ∗ cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
      ∗ cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
      ∗ cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
      ∗ cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
      ∗ cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
      ∗ cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
      ∗ cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
      ∗ cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
      ∗ cellInv ER (Rd val jk jr) (K ((c : Thread nD τ), SemLoc.dma (rcvS 0 0 1 inb_S3x4x4_S1x1x1_0_0_1))) ((c : Thread nD τ), SemLoc.dma (rcvS 0 0 1 inb_S3x4x4_S1x1x1_0_0_1))
      ∗ cellInv ER (Rd val jk jr) (K ((c : Thread nD τ), SemLoc.dma (rcvS 0 0 2 inb_S3x4x4_S1x1x1_0_0_2))) ((c : Thread nD τ), SemLoc.dma (rcvS 0 0 2 inb_S3x4x4_S1x1x1_0_0_2))
      ∗ cellInv ER (Rd val jk jr) (K ((c : Thread nD τ), SemLoc.dma (rcvS 0 0 3 inb_S3x4x4_S1x1x1_0_0_3))) ((c : Thread nD τ), SemLoc.dma (rcvS 0 0 3 inb_S3x4x4_S1x1x1_0_0_3))
      ∗ cellInv ER (Rd val jk jr) (K ((c : Thread nD τ), SemLoc.dma (rcvS 0 1 1 inb_S3x4x4_S1x1x1_0_1_1))) ((c : Thread nD τ), SemLoc.dma (rcvS 0 1 1 inb_S3x4x4_S1x1x1_0_1_1))
      ∗ cellInv ER (Rd val jk jr) (K ((c : Thread nD τ), SemLoc.dma (rcvS 0 1 2 inb_S3x4x4_S1x1x1_0_1_2))) ((c : Thread nD τ), SemLoc.dma (rcvS 0 1 2 inb_S3x4x4_S1x1x1_0_1_2))
      ∗ cellInv ER (Rd val jk jr) (K ((c : Thread nD τ), SemLoc.dma (rcvS 0 1 3 inb_S3x4x4_S1x1x1_0_1_3))) ((c : Thread nD τ), SemLoc.dma (rcvS 0 1 3 inb_S3x4x4_S1x1x1_0_1_3))
      ∗ cellInv ER (Rd val jk jr) (K ((c : Thread nD τ), SemLoc.dma (rcvS 0 2 1 inb_S3x4x4_S1x1x1_0_2_1))) ((c : Thread nD τ), SemLoc.dma (rcvS 0 2 1 inb_S3x4x4_S1x1x1_0_2_1))
      ∗ cellInv ER (Rd val jk jr) (K ((c : Thread nD τ), SemLoc.dma (rcvS 0 2 2 inb_S3x4x4_S1x1x1_0_2_2))) ((c : Thread nD τ), SemLoc.dma (rcvS 0 2 2 inb_S3x4x4_S1x1x1_0_2_2))
      ∗ cellInv ER (Rd val jk jr) (K ((c : Thread nD τ), SemLoc.dma (rcvS 0 2 3 inb_S3x4x4_S1x1x1_0_2_3))) ((c : Thread nD τ), SemLoc.dma (rcvS 0 2 3 inb_S3x4x4_S1x1x1_0_2_3))
      ∗ cellInv ER (Rd val jk jr) (K ((c : Thread nD τ), SemLoc.dma (rcvS 0 3 1 inb_S3x4x4_S1x1x1_0_3_1))) ((c : Thread nD τ), SemLoc.dma (rcvS 0 3 1 inb_S3x4x4_S1x1x1_0_3_1))
      ∗ cellInv ER (Rd val jk jr) (K ((c : Thread nD τ), SemLoc.dma (rcvS 0 3 2 inb_S3x4x4_S1x1x1_0_3_2))) ((c : Thread nD τ), SemLoc.dma (rcvS 0 3 2 inb_S3x4x4_S1x1x1_0_3_2))
      ∗ cellInv ER (Rd val jk jr) (K ((c : Thread nD τ), SemLoc.dma (rcvS 0 3 3 inb_S3x4x4_S1x1x1_0_3_3))) ((c : Thread nD τ), SemLoc.dma (rcvS 0 3 3 inb_S3x4x4_S1x1x1_0_3_3))
      ∗ cellInv ER (Rd val jk jr) (K ((c : Thread nD τ), SemLoc.dma (rcvS 1 0 1 inb_S3x4x4_S1x1x1_1_0_1))) ((c : Thread nD τ), SemLoc.dma (rcvS 1 0 1 inb_S3x4x4_S1x1x1_1_0_1))
      ∗ cellInv ER (Rd val jk jr) (K ((c : Thread nD τ), SemLoc.dma (rcvS 1 0 2 inb_S3x4x4_S1x1x1_1_0_2))) ((c : Thread nD τ), SemLoc.dma (rcvS 1 0 2 inb_S3x4x4_S1x1x1_1_0_2))
      ∗ cellInv ER (Rd val jk jr) (K ((c : Thread nD τ), SemLoc.dma (rcvS 1 0 3 inb_S3x4x4_S1x1x1_1_0_3))) ((c : Thread nD τ), SemLoc.dma (rcvS 1 0 3 inb_S3x4x4_S1x1x1_1_0_3))
      ∗ cellInv ER (Rd val jk jr) (K ((c : Thread nD τ), SemLoc.dma (rcvS 1 1 1 inb_S3x4x4_S1x1x1_1_1_1))) ((c : Thread nD τ), SemLoc.dma (rcvS 1 1 1 inb_S3x4x4_S1x1x1_1_1_1))
      ∗ cellInv ER (Rd val jk jr) (K ((c : Thread nD τ), SemLoc.dma (rcvS 1 1 2 inb_S3x4x4_S1x1x1_1_1_2))) ((c : Thread nD τ), SemLoc.dma (rcvS 1 1 2 inb_S3x4x4_S1x1x1_1_1_2))
      ∗ cellInv ER (Rd val jk jr) (K ((c : Thread nD τ), SemLoc.dma (rcvS 1 1 3 inb_S3x4x4_S1x1x1_1_1_3))) ((c : Thread nD τ), SemLoc.dma (rcvS 1 1 3 inb_S3x4x4_S1x1x1_1_1_3))
      ∗ cellInv ER (Rd val jk jr) (K ((c : Thread nD τ), SemLoc.dma (rcvS 1 2 1 inb_S3x4x4_S1x1x1_1_2_1))) ((c : Thread nD τ), SemLoc.dma (rcvS 1 2 1 inb_S3x4x4_S1x1x1_1_2_1))
      ∗ cellInv ER (Rd val jk jr) (K ((c : Thread nD τ), SemLoc.dma (rcvS 1 2 2 inb_S3x4x4_S1x1x1_1_2_2))) ((c : Thread nD τ), SemLoc.dma (rcvS 1 2 2 inb_S3x4x4_S1x1x1_1_2_2))
      ∗ cellInv ER (Rd val jk jr) (K ((c : Thread nD τ), SemLoc.dma (rcvS 1 2 3 inb_S3x4x4_S1x1x1_1_2_3))) ((c : Thread nD τ), SemLoc.dma (rcvS 1 2 3 inb_S3x4x4_S1x1x1_1_2_3))
      ∗ cellInv ER (Rd val jk jr) (K ((c : Thread nD τ), SemLoc.dma (rcvS 1 3 1 inb_S3x4x4_S1x1x1_1_3_1))) ((c : Thread nD τ), SemLoc.dma (rcvS 1 3 1 inb_S3x4x4_S1x1x1_1_3_1))
      ∗ cellInv ER (Rd val jk jr) (K ((c : Thread nD τ), SemLoc.dma (rcvS 1 3 2 inb_S3x4x4_S1x1x1_1_3_2))) ((c : Thread nD τ), SemLoc.dma (rcvS 1 3 2 inb_S3x4x4_S1x1x1_1_3_2))
      ∗ cellInv ER (Rd val jk jr) (K ((c : Thread nD τ), SemLoc.dma (rcvS 1 3 3 inb_S3x4x4_S1x1x1_1_3_3))) ((c : Thread nD τ), SemLoc.dma (rcvS 1 3 3 inb_S3x4x4_S1x1x1_1_3_3))
      ∗ cellInv ER (Rd val jk jr) (K ((c : Thread nD τ), SemLoc.dma (rcvS 2 0 1 inb_S3x4x4_S1x1x1_2_0_1))) ((c : Thread nD τ), SemLoc.dma (rcvS 2 0 1 inb_S3x4x4_S1x1x1_2_0_1))
      ∗ cellInv ER (Rd val jk jr) (K ((c : Thread nD τ), SemLoc.dma (rcvS 2 0 2 inb_S3x4x4_S1x1x1_2_0_2))) ((c : Thread nD τ), SemLoc.dma (rcvS 2 0 2 inb_S3x4x4_S1x1x1_2_0_2))
      ∗ cellInv ER (Rd val jk jr) (K ((c : Thread nD τ), SemLoc.dma (rcvS 2 0 3 inb_S3x4x4_S1x1x1_2_0_3))) ((c : Thread nD τ), SemLoc.dma (rcvS 2 0 3 inb_S3x4x4_S1x1x1_2_0_3))
      ∗ cellInv ER (Rd val jk jr) (K (barCell (pe c 1))) (barCell (pe c 1))
      ∗ cellInv ER (Rd val jk jr) (K (barCell (pe c 2))) (barCell (pe c 2))
      ∗ cellInv ER (Rd val jk jr) (K (barCell (pe c 3))) (barCell (pe c 3))
      ∗ cellInv ER (Rd val jk jr) (K (((pe c 1) : Thread nD τ), SemLoc.dma (rcvS 0 0 1 inb_S3x4x4_S1x1x1_0_0_1))) (((pe c 1) : Thread nD τ), SemLoc.dma (rcvS 0 0 1 inb_S3x4x4_S1x1x1_0_0_1))
      ∗ cellInv ER (Rd val jk jr) (K (((pe c 2) : Thread nD τ), SemLoc.dma (rcvS 0 0 2 inb_S3x4x4_S1x1x1_0_0_2))) (((pe c 2) : Thread nD τ), SemLoc.dma (rcvS 0 0 2 inb_S3x4x4_S1x1x1_0_0_2))
      ∗ cellInv ER (Rd val jk jr) (K (((pe c 3) : Thread nD τ), SemLoc.dma (rcvS 0 0 3 inb_S3x4x4_S1x1x1_0_0_3))) (((pe c 3) : Thread nD τ), SemLoc.dma (rcvS 0 0 3 inb_S3x4x4_S1x1x1_0_0_3))
      ∗ cellInv ER (Rd val jk jr) (K (((pe c 1) : Thread nD τ), SemLoc.dma (rcvS 0 1 1 inb_S3x4x4_S1x1x1_0_1_1))) (((pe c 1) : Thread nD τ), SemLoc.dma (rcvS 0 1 1 inb_S3x4x4_S1x1x1_0_1_1))
      ∗ cellInv ER (Rd val jk jr) (K (((pe c 2) : Thread nD τ), SemLoc.dma (rcvS 0 1 2 inb_S3x4x4_S1x1x1_0_1_2))) (((pe c 2) : Thread nD τ), SemLoc.dma (rcvS 0 1 2 inb_S3x4x4_S1x1x1_0_1_2))
      ∗ cellInv ER (Rd val jk jr) (K (((pe c 3) : Thread nD τ), SemLoc.dma (rcvS 0 1 3 inb_S3x4x4_S1x1x1_0_1_3))) (((pe c 3) : Thread nD τ), SemLoc.dma (rcvS 0 1 3 inb_S3x4x4_S1x1x1_0_1_3))
      ∗ cellInv ER (Rd val jk jr) (K (((pe c 1) : Thread nD τ), SemLoc.dma (rcvS 0 2 1 inb_S3x4x4_S1x1x1_0_2_1))) (((pe c 1) : Thread nD τ), SemLoc.dma (rcvS 0 2 1 inb_S3x4x4_S1x1x1_0_2_1))
      ∗ cellInv ER (Rd val jk jr) (K (((pe c 2) : Thread nD τ), SemLoc.dma (rcvS 0 2 2 inb_S3x4x4_S1x1x1_0_2_2))) (((pe c 2) : Thread nD τ), SemLoc.dma (rcvS 0 2 2 inb_S3x4x4_S1x1x1_0_2_2))
      ∗ cellInv ER (Rd val jk jr) (K (((pe c 3) : Thread nD τ), SemLoc.dma (rcvS 0 2 3 inb_S3x4x4_S1x1x1_0_2_3))) (((pe c 3) : Thread nD τ), SemLoc.dma (rcvS 0 2 3 inb_S3x4x4_S1x1x1_0_2_3))
      ∗ cellInv ER (Rd val jk jr) (K (((pe c 1) : Thread nD τ), SemLoc.dma (rcvS 0 3 1 inb_S3x4x4_S1x1x1_0_3_1))) (((pe c 1) : Thread nD τ), SemLoc.dma (rcvS 0 3 1 inb_S3x4x4_S1x1x1_0_3_1))
      ∗ cellInv ER (Rd val jk jr) (K (((pe c 2) : Thread nD τ), SemLoc.dma (rcvS 0 3 2 inb_S3x4x4_S1x1x1_0_3_2))) (((pe c 2) : Thread nD τ), SemLoc.dma (rcvS 0 3 2 inb_S3x4x4_S1x1x1_0_3_2))
      ∗ cellInv ER (Rd val jk jr) (K (((pe c 3) : Thread nD τ), SemLoc.dma (rcvS 0 3 3 inb_S3x4x4_S1x1x1_0_3_3))) (((pe c 3) : Thread nD τ), SemLoc.dma (rcvS 0 3 3 inb_S3x4x4_S1x1x1_0_3_3))
      ∗ cellInv ER (Rd val jk jr) (K (((pe c 1) : Thread nD τ), SemLoc.dma (rcvS 1 0 1 inb_S3x4x4_S1x1x1_1_0_1))) (((pe c 1) : Thread nD τ), SemLoc.dma (rcvS 1 0 1 inb_S3x4x4_S1x1x1_1_0_1))
      ∗ cellInv ER (Rd val jk jr) (K (((pe c 2) : Thread nD τ), SemLoc.dma (rcvS 1 0 2 inb_S3x4x4_S1x1x1_1_0_2))) (((pe c 2) : Thread nD τ), SemLoc.dma (rcvS 1 0 2 inb_S3x4x4_S1x1x1_1_0_2))
      ∗ cellInv ER (Rd val jk jr) (K (((pe c 3) : Thread nD τ), SemLoc.dma (rcvS 1 0 3 inb_S3x4x4_S1x1x1_1_0_3))) (((pe c 3) : Thread nD τ), SemLoc.dma (rcvS 1 0 3 inb_S3x4x4_S1x1x1_1_0_3))
      ∗ cellInv ER (Rd val jk jr) (K (((pe c 1) : Thread nD τ), SemLoc.dma (rcvS 1 1 1 inb_S3x4x4_S1x1x1_1_1_1))) (((pe c 1) : Thread nD τ), SemLoc.dma (rcvS 1 1 1 inb_S3x4x4_S1x1x1_1_1_1))
      ∗ cellInv ER (Rd val jk jr) (K (((pe c 2) : Thread nD τ), SemLoc.dma (rcvS 1 1 2 inb_S3x4x4_S1x1x1_1_1_2))) (((pe c 2) : Thread nD τ), SemLoc.dma (rcvS 1 1 2 inb_S3x4x4_S1x1x1_1_1_2))
      ∗ cellInv ER (Rd val jk jr) (K (((pe c 3) : Thread nD τ), SemLoc.dma (rcvS 1 1 3 inb_S3x4x4_S1x1x1_1_1_3))) (((pe c 3) : Thread nD τ), SemLoc.dma (rcvS 1 1 3 inb_S3x4x4_S1x1x1_1_1_3))
      ∗ cellInv ER (Rd val jk jr) (K (((pe c 1) : Thread nD τ), SemLoc.dma (rcvS 1 2 1 inb_S3x4x4_S1x1x1_1_2_1))) (((pe c 1) : Thread nD τ), SemLoc.dma (rcvS 1 2 1 inb_S3x4x4_S1x1x1_1_2_1))
      ∗ cellInv ER (Rd val jk jr) (K (((pe c 2) : Thread nD τ), SemLoc.dma (rcvS 1 2 2 inb_S3x4x4_S1x1x1_1_2_2))) (((pe c 2) : Thread nD τ), SemLoc.dma (rcvS 1 2 2 inb_S3x4x4_S1x1x1_1_2_2))
      ∗ cellInv ER (Rd val jk jr) (K (((pe c 3) : Thread nD τ), SemLoc.dma (rcvS 1 2 3 inb_S3x4x4_S1x1x1_1_2_3))) (((pe c 3) : Thread nD τ), SemLoc.dma (rcvS 1 2 3 inb_S3x4x4_S1x1x1_1_2_3))
      ∗ cellInv ER (Rd val jk jr) (K (((pe c 1) : Thread nD τ), SemLoc.dma (rcvS 1 3 1 inb_S3x4x4_S1x1x1_1_3_1))) (((pe c 1) : Thread nD τ), SemLoc.dma (rcvS 1 3 1 inb_S3x4x4_S1x1x1_1_3_1))
      ∗ cellInv ER (Rd val jk jr) (K (((pe c 2) : Thread nD τ), SemLoc.dma (rcvS 1 3 2 inb_S3x4x4_S1x1x1_1_3_2))) (((pe c 2) : Thread nD τ), SemLoc.dma (rcvS 1 3 2 inb_S3x4x4_S1x1x1_1_3_2))
      ∗ cellInv ER (Rd val jk jr) (K (((pe c 3) : Thread nD τ), SemLoc.dma (rcvS 1 3 3 inb_S3x4x4_S1x1x1_1_3_3))) (((pe c 3) : Thread nD τ), SemLoc.dma (rcvS 1 3 3 inb_S3x4x4_S1x1x1_1_3_3))
      ∗ cellInv ER (Rd val jk jr) (K (((pe c 1) : Thread nD τ), SemLoc.dma (rcvS 2 0 1 inb_S3x4x4_S1x1x1_2_0_1))) (((pe c 1) : Thread nD τ), SemLoc.dma (rcvS 2 0 1 inb_S3x4x4_S1x1x1_2_0_1))
      ∗ cellInv ER (Rd val jk jr) (K (((pe c 2) : Thread nD τ), SemLoc.dma (rcvS 2 0 2 inb_S3x4x4_S1x1x1_2_0_2))) (((pe c 2) : Thread nD τ), SemLoc.dma (rcvS 2 0 2 inb_S3x4x4_S1x1x1_2_0_2))
      ∗ cellInv ER (Rd val jk jr) (K (((pe c 3) : Thread nD τ), SemLoc.dma (rcvS 2 0 3 inb_S3x4x4_S1x1x1_2_0_3))) (((pe c 3) : Thread nD τ), SemLoc.dma (rcvS 2 0 3 inb_S3x4x4_S1x1x1_2_0_3))
      ∗ reached ER (barCell (pe c 1)) 0
      ∗ reached ER (barCell (pe c 2)) 0
      ∗ reached ER (barCell (pe c 3)) 0
      ∗ reached ER ((c : Thread nD τ), SemLoc.dma (sndS 0 0 1 inb_S3x4x4_S1x1x1_0_0_1)) 0
      ∗ reached ER ((c : Thread nD τ), SemLoc.dma (sndS 0 0 2 inb_S3x4x4_S1x1x1_0_0_2)) 0
      ∗ reached ER ((c : Thread nD τ), SemLoc.dma (sndS 0 0 3 inb_S3x4x4_S1x1x1_0_0_3)) 0
      ∗ reached ER ((c : Thread nD τ), SemLoc.dma (sndS 0 1 1 inb_S3x4x4_S1x1x1_0_1_1)) 0
      ∗ reached ER ((c : Thread nD τ), SemLoc.dma (sndS 0 1 2 inb_S3x4x4_S1x1x1_0_1_2)) 0
      ∗ reached ER ((c : Thread nD τ), SemLoc.dma (sndS 0 1 3 inb_S3x4x4_S1x1x1_0_1_3)) 0
      ∗ reached ER ((c : Thread nD τ), SemLoc.dma (sndS 0 2 1 inb_S3x4x4_S1x1x1_0_2_1)) 0
      ∗ reached ER ((c : Thread nD τ), SemLoc.dma (sndS 0 2 2 inb_S3x4x4_S1x1x1_0_2_2)) 0
      ∗ reached ER ((c : Thread nD τ), SemLoc.dma (sndS 0 2 3 inb_S3x4x4_S1x1x1_0_2_3)) 0
      ∗ reached ER ((c : Thread nD τ), SemLoc.dma (sndS 0 3 1 inb_S3x4x4_S1x1x1_0_3_1)) 0
      ∗ reached ER ((c : Thread nD τ), SemLoc.dma (sndS 0 3 2 inb_S3x4x4_S1x1x1_0_3_2)) 0
      ∗ reached ER ((c : Thread nD τ), SemLoc.dma (sndS 0 3 3 inb_S3x4x4_S1x1x1_0_3_3)) 0
      ∗ reached ER ((c : Thread nD τ), SemLoc.dma (sndS 1 0 1 inb_S3x4x4_S1x1x1_1_0_1)) 0
      ∗ reached ER ((c : Thread nD τ), SemLoc.dma (sndS 1 0 2 inb_S3x4x4_S1x1x1_1_0_2)) 0
      ∗ reached ER ((c : Thread nD τ), SemLoc.dma (sndS 1 0 3 inb_S3x4x4_S1x1x1_1_0_3)) 0
      ∗ reached ER ((c : Thread nD τ), SemLoc.dma (sndS 1 1 1 inb_S3x4x4_S1x1x1_1_1_1)) 0
      ∗ reached ER ((c : Thread nD τ), SemLoc.dma (sndS 1 1 2 inb_S3x4x4_S1x1x1_1_1_2)) 0
      ∗ reached ER ((c : Thread nD τ), SemLoc.dma (sndS 1 1 3 inb_S3x4x4_S1x1x1_1_1_3)) 0
      ∗ reached ER ((c : Thread nD τ), SemLoc.dma (sndS 1 2 1 inb_S3x4x4_S1x1x1_1_2_1)) 0
      ∗ reached ER ((c : Thread nD τ), SemLoc.dma (sndS 1 2 2 inb_S3x4x4_S1x1x1_1_2_2)) 0
      ∗ reached ER ((c : Thread nD τ), SemLoc.dma (sndS 1 2 3 inb_S3x4x4_S1x1x1_1_2_3)) 0
      ∗ reached ER ((c : Thread nD τ), SemLoc.dma (sndS 1 3 1 inb_S3x4x4_S1x1x1_1_3_1)) 0
      ∗ reached ER ((c : Thread nD τ), SemLoc.dma (sndS 1 3 2 inb_S3x4x4_S1x1x1_1_3_2)) 0
      ∗ reached ER ((c : Thread nD τ), SemLoc.dma (sndS 1 3 3 inb_S3x4x4_S1x1x1_1_3_3)) 0
      ∗ reached ER ((c : Thread nD τ), SemLoc.dma (sndS 2 0 1 inb_S3x4x4_S1x1x1_2_0_1)) 0
      ∗ reached ER ((c : Thread nD τ), SemLoc.dma (sndS 2 0 2 inb_S3x4x4_S1x1x1_2_0_2)) 0
      ∗ reached ER ((c : Thread nD τ), SemLoc.dma (sndS 2 0 3 inb_S3x4x4_S1x1x1_2_0_3)) 0
      ∗ reached ER (((pe c 1) : Thread nD τ), SemLoc.dma (rcvS 0 0 1 inb_S3x4x4_S1x1x1_0_0_1)) 0
      ∗ reached ER (((pe c 2) : Thread nD τ), SemLoc.dma (rcvS 0 0 2 inb_S3x4x4_S1x1x1_0_0_2)) 0
      ∗ reached ER (((pe c 3) : Thread nD τ), SemLoc.dma (rcvS 0 0 3 inb_S3x4x4_S1x1x1_0_0_3)) 0
      ∗ reached ER (((pe c 1) : Thread nD τ), SemLoc.dma (rcvS 0 1 1 inb_S3x4x4_S1x1x1_0_1_1)) 0
      ∗ reached ER (((pe c 2) : Thread nD τ), SemLoc.dma (rcvS 0 1 2 inb_S3x4x4_S1x1x1_0_1_2)) 0
      ∗ reached ER (((pe c 3) : Thread nD τ), SemLoc.dma (rcvS 0 1 3 inb_S3x4x4_S1x1x1_0_1_3)) 0
      ∗ reached ER (((pe c 1) : Thread nD τ), SemLoc.dma (rcvS 0 2 1 inb_S3x4x4_S1x1x1_0_2_1)) 0
      ∗ reached ER (((pe c 2) : Thread nD τ), SemLoc.dma (rcvS 0 2 2 inb_S3x4x4_S1x1x1_0_2_2)) 0
      ∗ reached ER (((pe c 3) : Thread nD τ), SemLoc.dma (rcvS 0 2 3 inb_S3x4x4_S1x1x1_0_2_3)) 0
      ∗ reached ER (((pe c 1) : Thread nD τ), SemLoc.dma (rcvS 0 3 1 inb_S3x4x4_S1x1x1_0_3_1)) 0
      ∗ reached ER (((pe c 2) : Thread nD τ), SemLoc.dma (rcvS 0 3 2 inb_S3x4x4_S1x1x1_0_3_2)) 0
      ∗ reached ER (((pe c 3) : Thread nD τ), SemLoc.dma (rcvS 0 3 3 inb_S3x4x4_S1x1x1_0_3_3)) 0
      ∗ reached ER (((pe c 1) : Thread nD τ), SemLoc.dma (rcvS 1 0 1 inb_S3x4x4_S1x1x1_1_0_1)) 0
      ∗ reached ER (((pe c 2) : Thread nD τ), SemLoc.dma (rcvS 1 0 2 inb_S3x4x4_S1x1x1_1_0_2)) 0
      ∗ reached ER (((pe c 3) : Thread nD τ), SemLoc.dma (rcvS 1 0 3 inb_S3x4x4_S1x1x1_1_0_3)) 0
      ∗ reached ER (((pe c 1) : Thread nD τ), SemLoc.dma (rcvS 1 1 1 inb_S3x4x4_S1x1x1_1_1_1)) 0
      ∗ reached ER (((pe c 2) : Thread nD τ), SemLoc.dma (rcvS 1 1 2 inb_S3x4x4_S1x1x1_1_1_2)) 0
      ∗ reached ER (((pe c 3) : Thread nD τ), SemLoc.dma (rcvS 1 1 3 inb_S3x4x4_S1x1x1_1_1_3)) 0
      ∗ reached ER (((pe c 1) : Thread nD τ), SemLoc.dma (rcvS 1 2 1 inb_S3x4x4_S1x1x1_1_2_1)) 0
      ∗ reached ER (((pe c 2) : Thread nD τ), SemLoc.dma (rcvS 1 2 2 inb_S3x4x4_S1x1x1_1_2_2)) 0
      ∗ reached ER (((pe c 3) : Thread nD τ), SemLoc.dma (rcvS 1 2 3 inb_S3x4x4_S1x1x1_1_2_3)) 0
      ∗ reached ER (((pe c 1) : Thread nD τ), SemLoc.dma (rcvS 1 3 1 inb_S3x4x4_S1x1x1_1_3_1)) 0
      ∗ reached ER (((pe c 2) : Thread nD τ), SemLoc.dma (rcvS 1 3 2 inb_S3x4x4_S1x1x1_1_3_2)) 0
      ∗ reached ER (((pe c 3) : Thread nD τ), SemLoc.dma (rcvS 1 3 3 inb_S3x4x4_S1x1x1_1_3_3)) 0
      ∗ reached ER (((pe c 1) : Thread nD τ), SemLoc.dma (rcvS 2 0 1 inb_S3x4x4_S1x1x1_2_0_1)) 0
      ∗ reached ER (((pe c 2) : Thread nD τ), SemLoc.dma (rcvS 2 0 2 inb_S3x4x4_S1x1x1_2_0_2)) 0
      ∗ reached ER (((pe c 3) : Thread nD τ), SemLoc.dma (rcvS 2 0 3 inb_S3x4x4_S1x1x1_2_0_3)) 0
      ∗ levAts L lv
      ∗ atPos ER (barCell c) 0 ∅ 0
      ∗ atPos ER ((c : Thread nD τ), SemLoc.dma (sndS 0 0 1 inb_S3x4x4_S1x1x1_0_0_1)) 0 ∅ 0
      ∗ atPos ER ((c : Thread nD τ), SemLoc.dma (sndS 0 0 2 inb_S3x4x4_S1x1x1_0_0_2)) 0 ∅ 0
      ∗ atPos ER ((c : Thread nD τ), SemLoc.dma (sndS 0 0 3 inb_S3x4x4_S1x1x1_0_0_3)) 0 ∅ 0
      ∗ atPos ER ((c : Thread nD τ), SemLoc.dma (sndS 0 1 1 inb_S3x4x4_S1x1x1_0_1_1)) 0 ∅ 0
      ∗ atPos ER ((c : Thread nD τ), SemLoc.dma (sndS 0 1 2 inb_S3x4x4_S1x1x1_0_1_2)) 0 ∅ 0
      ∗ atPos ER ((c : Thread nD τ), SemLoc.dma (sndS 0 1 3 inb_S3x4x4_S1x1x1_0_1_3)) 0 ∅ 0
      ∗ atPos ER ((c : Thread nD τ), SemLoc.dma (sndS 0 2 1 inb_S3x4x4_S1x1x1_0_2_1)) 0 ∅ 0
      ∗ atPos ER ((c : Thread nD τ), SemLoc.dma (sndS 0 2 2 inb_S3x4x4_S1x1x1_0_2_2)) 0 ∅ 0
      ∗ atPos ER ((c : Thread nD τ), SemLoc.dma (sndS 0 2 3 inb_S3x4x4_S1x1x1_0_2_3)) 0 ∅ 0
      ∗ atPos ER ((c : Thread nD τ), SemLoc.dma (sndS 0 3 1 inb_S3x4x4_S1x1x1_0_3_1)) 0 ∅ 0
      ∗ atPos ER ((c : Thread nD τ), SemLoc.dma (sndS 0 3 2 inb_S3x4x4_S1x1x1_0_3_2)) 0 ∅ 0
      ∗ atPos ER ((c : Thread nD τ), SemLoc.dma (sndS 0 3 3 inb_S3x4x4_S1x1x1_0_3_3)) 0 ∅ 0
      ∗ atPos ER ((c : Thread nD τ), SemLoc.dma (sndS 1 0 1 inb_S3x4x4_S1x1x1_1_0_1)) 0 ∅ 0
      ∗ atPos ER ((c : Thread nD τ), SemLoc.dma (sndS 1 0 2 inb_S3x4x4_S1x1x1_1_0_2)) 0 ∅ 0
      ∗ atPos ER ((c : Thread nD τ), SemLoc.dma (sndS 1 0 3 inb_S3x4x4_S1x1x1_1_0_3)) 0 ∅ 0
      ∗ atPos ER ((c : Thread nD τ), SemLoc.dma (sndS 1 1 1 inb_S3x4x4_S1x1x1_1_1_1)) 0 ∅ 0
      ∗ atPos ER ((c : Thread nD τ), SemLoc.dma (sndS 1 1 2 inb_S3x4x4_S1x1x1_1_1_2)) 0 ∅ 0
      ∗ atPos ER ((c : Thread nD τ), SemLoc.dma (sndS 1 1 3 inb_S3x4x4_S1x1x1_1_1_3)) 0 ∅ 0
      ∗ atPos ER ((c : Thread nD τ), SemLoc.dma (sndS 1 2 1 inb_S3x4x4_S1x1x1_1_2_1)) 0 ∅ 0
      ∗ atPos ER ((c : Thread nD τ), SemLoc.dma (sndS 1 2 2 inb_S3x4x4_S1x1x1_1_2_2)) 0 ∅ 0
      ∗ atPos ER ((c : Thread nD τ), SemLoc.dma (sndS 1 2 3 inb_S3x4x4_S1x1x1_1_2_3)) 0 ∅ 0
      ∗ atPos ER ((c : Thread nD τ), SemLoc.dma (sndS 1 3 1 inb_S3x4x4_S1x1x1_1_3_1)) 0 ∅ 0
      ∗ atPos ER ((c : Thread nD τ), SemLoc.dma (sndS 1 3 2 inb_S3x4x4_S1x1x1_1_3_2)) 0 ∅ 0
      ∗ atPos ER ((c : Thread nD τ), SemLoc.dma (sndS 1 3 3 inb_S3x4x4_S1x1x1_1_3_3)) 0 ∅ 0
      ∗ atPos ER ((c : Thread nD τ), SemLoc.dma (sndS 2 0 1 inb_S3x4x4_S1x1x1_2_0_1)) 0 ∅ 0
      ∗ atPos ER ((c : Thread nD τ), SemLoc.dma (sndS 2 0 2 inb_S3x4x4_S1x1x1_2_0_2)) 0 ∅ 0
      ∗ atPos ER ((c : Thread nD τ), SemLoc.dma (sndS 2 0 3 inb_S3x4x4_S1x1x1_2_0_3)) 0 ∅ 0
      ∗ atPos ER ((c : Thread nD τ), SemLoc.dma (rcvS 0 0 1 inb_S3x4x4_S1x1x1_0_0_1)) 0 ∅ 0
      ∗ atPos ER ((c : Thread nD τ), SemLoc.dma (rcvS 0 0 2 inb_S3x4x4_S1x1x1_0_0_2)) 0 ∅ 0
      ∗ atPos ER ((c : Thread nD τ), SemLoc.dma (rcvS 0 0 3 inb_S3x4x4_S1x1x1_0_0_3)) 0 ∅ 0
      ∗ atPos ER ((c : Thread nD τ), SemLoc.dma (rcvS 0 1 1 inb_S3x4x4_S1x1x1_0_1_1)) 0 ∅ 0
      ∗ atPos ER ((c : Thread nD τ), SemLoc.dma (rcvS 0 1 2 inb_S3x4x4_S1x1x1_0_1_2)) 0 ∅ 0
      ∗ atPos ER ((c : Thread nD τ), SemLoc.dma (rcvS 0 1 3 inb_S3x4x4_S1x1x1_0_1_3)) 0 ∅ 0
      ∗ atPos ER ((c : Thread nD τ), SemLoc.dma (rcvS 0 2 1 inb_S3x4x4_S1x1x1_0_2_1)) 0 ∅ 0
      ∗ atPos ER ((c : Thread nD τ), SemLoc.dma (rcvS 0 2 2 inb_S3x4x4_S1x1x1_0_2_2)) 0 ∅ 0
      ∗ atPos ER ((c : Thread nD τ), SemLoc.dma (rcvS 0 2 3 inb_S3x4x4_S1x1x1_0_2_3)) 0 ∅ 0
      ∗ atPos ER ((c : Thread nD τ), SemLoc.dma (rcvS 0 3 1 inb_S3x4x4_S1x1x1_0_3_1)) 0 ∅ 0
      ∗ atPos ER ((c : Thread nD τ), SemLoc.dma (rcvS 0 3 2 inb_S3x4x4_S1x1x1_0_3_2)) 0 ∅ 0
      ∗ atPos ER ((c : Thread nD τ), SemLoc.dma (rcvS 0 3 3 inb_S3x4x4_S1x1x1_0_3_3)) 0 ∅ 0
      ∗ atPos ER ((c : Thread nD τ), SemLoc.dma (rcvS 1 0 1 inb_S3x4x4_S1x1x1_1_0_1)) 0 ∅ 0
      ∗ atPos ER ((c : Thread nD τ), SemLoc.dma (rcvS 1 0 2 inb_S3x4x4_S1x1x1_1_0_2)) 0 ∅ 0
      ∗ atPos ER ((c : Thread nD τ), SemLoc.dma (rcvS 1 0 3 inb_S3x4x4_S1x1x1_1_0_3)) 0 ∅ 0
      ∗ atPos ER ((c : Thread nD τ), SemLoc.dma (rcvS 1 1 1 inb_S3x4x4_S1x1x1_1_1_1)) 0 ∅ 0
      ∗ atPos ER ((c : Thread nD τ), SemLoc.dma (rcvS 1 1 2 inb_S3x4x4_S1x1x1_1_1_2)) 0 ∅ 0
      ∗ atPos ER ((c : Thread nD τ), SemLoc.dma (rcvS 1 1 3 inb_S3x4x4_S1x1x1_1_1_3)) 0 ∅ 0
      ∗ atPos ER ((c : Thread nD τ), SemLoc.dma (rcvS 1 2 1 inb_S3x4x4_S1x1x1_1_2_1)) 0 ∅ 0
      ∗ atPos ER ((c : Thread nD τ), SemLoc.dma (rcvS 1 2 2 inb_S3x4x4_S1x1x1_1_2_2)) 0 ∅ 0
      ∗ atPos ER ((c : Thread nD τ), SemLoc.dma (rcvS 1 2 3 inb_S3x4x4_S1x1x1_1_2_3)) 0 ∅ 0
      ∗ atPos ER ((c : Thread nD τ), SemLoc.dma (rcvS 1 3 1 inb_S3x4x4_S1x1x1_1_3_1)) 0 ∅ 0
      ∗ atPos ER ((c : Thread nD τ), SemLoc.dma (rcvS 1 3 2 inb_S3x4x4_S1x1x1_1_3_2)) 0 ∅ 0
      ∗ atPos ER ((c : Thread nD τ), SemLoc.dma (rcvS 1 3 3 inb_S3x4x4_S1x1x1_1_3_3)) 0 ∅ 0
      ∗ atPos ER ((c : Thread nD τ), SemLoc.dma (rcvS 2 0 1 inb_S3x4x4_S1x1x1_2_0_1)) 0 ∅ 0
      ∗ atPos ER ((c : Thread nD τ), SemLoc.dma (rcvS 2 0 2 inb_S3x4x4_S1x1x1_2_0_2)) 0 ∅ 0
      ∗ atPos ER ((c : Thread nD τ), SemLoc.dma (rcvS 2 0 3 inb_S3x4x4_S1x1x1_2_0_3)) 0 ∅ 0
      ∗ dutyTok ER (barCell (pe c 1)) 0 (1 : Fin 4)
      ∗ dutyTok ER (barCell (pe c 2)) 0 (2 : Fin 4)
      ∗ dutyTok ER (barCell (pe c 3)) 0 (3 : Fin 4)
      ∗ toksLeft c 27
      ∗ cred (tallyAt (barCell c) () 3)
      ∗ cred (tallyAt ((c : Thread nD τ), SemLoc.dma (rcvS 0 0 1 inb_S3x4x4_S1x1x1_0_0_1)) () N)
      ∗ cred (tallyAt ((c : Thread nD τ), SemLoc.dma (rcvS 0 0 2 inb_S3x4x4_S1x1x1_0_0_2)) () N)
      ∗ cred (tallyAt ((c : Thread nD τ), SemLoc.dma (rcvS 0 0 3 inb_S3x4x4_S1x1x1_0_0_3)) () N)
      ∗ cred (tallyAt ((c : Thread nD τ), SemLoc.dma (rcvS 0 1 1 inb_S3x4x4_S1x1x1_0_1_1)) () N)
      ∗ cred (tallyAt ((c : Thread nD τ), SemLoc.dma (rcvS 0 1 2 inb_S3x4x4_S1x1x1_0_1_2)) () N)
      ∗ cred (tallyAt ((c : Thread nD τ), SemLoc.dma (rcvS 0 1 3 inb_S3x4x4_S1x1x1_0_1_3)) () N)
      ∗ cred (tallyAt ((c : Thread nD τ), SemLoc.dma (rcvS 0 2 1 inb_S3x4x4_S1x1x1_0_2_1)) () N)
      ∗ cred (tallyAt ((c : Thread nD τ), SemLoc.dma (rcvS 0 2 2 inb_S3x4x4_S1x1x1_0_2_2)) () N)
      ∗ cred (tallyAt ((c : Thread nD τ), SemLoc.dma (rcvS 0 2 3 inb_S3x4x4_S1x1x1_0_2_3)) () N)
      ∗ cred (tallyAt ((c : Thread nD τ), SemLoc.dma (rcvS 0 3 1 inb_S3x4x4_S1x1x1_0_3_1)) () N)
      ∗ cred (tallyAt ((c : Thread nD τ), SemLoc.dma (rcvS 0 3 2 inb_S3x4x4_S1x1x1_0_3_2)) () N)
      ∗ cred (tallyAt ((c : Thread nD τ), SemLoc.dma (rcvS 0 3 3 inb_S3x4x4_S1x1x1_0_3_3)) () N)
      ∗ cred (tallyAt ((c : Thread nD τ), SemLoc.dma (rcvS 1 0 1 inb_S3x4x4_S1x1x1_1_0_1)) () N)
      ∗ cred (tallyAt ((c : Thread nD τ), SemLoc.dma (rcvS 1 0 2 inb_S3x4x4_S1x1x1_1_0_2)) () N)
      ∗ cred (tallyAt ((c : Thread nD τ), SemLoc.dma (rcvS 1 0 3 inb_S3x4x4_S1x1x1_1_0_3)) () N)
      ∗ cred (tallyAt ((c : Thread nD τ), SemLoc.dma (rcvS 1 1 1 inb_S3x4x4_S1x1x1_1_1_1)) () N)
      ∗ cred (tallyAt ((c : Thread nD τ), SemLoc.dma (rcvS 1 1 2 inb_S3x4x4_S1x1x1_1_1_2)) () N)
      ∗ cred (tallyAt ((c : Thread nD τ), SemLoc.dma (rcvS 1 1 3 inb_S3x4x4_S1x1x1_1_1_3)) () N)
      ∗ cred (tallyAt ((c : Thread nD τ), SemLoc.dma (rcvS 1 2 1 inb_S3x4x4_S1x1x1_1_2_1)) () N)
      ∗ cred (tallyAt ((c : Thread nD τ), SemLoc.dma (rcvS 1 2 2 inb_S3x4x4_S1x1x1_1_2_2)) () N)
      ∗ cred (tallyAt ((c : Thread nD τ), SemLoc.dma (rcvS 1 2 3 inb_S3x4x4_S1x1x1_1_2_3)) () N)
      ∗ cred (tallyAt ((c : Thread nD τ), SemLoc.dma (rcvS 1 3 1 inb_S3x4x4_S1x1x1_1_3_1)) () N)
      ∗ cred (tallyAt ((c : Thread nD τ), SemLoc.dma (rcvS 1 3 2 inb_S3x4x4_S1x1x1_1_3_2)) () N)
      ∗ cred (tallyAt ((c : Thread nD τ), SemLoc.dma (rcvS 1 3 3 inb_S3x4x4_S1x1x1_1_3_3)) () N)
      ∗ cred (tallyAt ((c : Thread nD τ), SemLoc.dma (rcvS 2 0 1 inb_S3x4x4_S1x1x1_2_0_1)) () N)
      ∗ cred (tallyAt ((c : Thread nD τ), SemLoc.dma (rcvS 2 0 2 inb_S3x4x4_S1x1x1_2_0_2)) () N)
      ∗ cred (tallyAt ((c : Thread nD τ), SemLoc.dma (rcvS 2 0 3 inb_S3x4x4_S1x1x1_2_0_3)) () N)
      ∗ ((slotM 0 0 0 inb_S2x4x4x64x256_S1x1x1x64x256_0_0_0_0_0).view.loc (c : Thread nD τ) ↦[(slotM 0 0 0 inb_S2x4x4x64x256_S1x1x1x64x256_0_0_0_0_0).view.set]{fullShare} f0)
      ∗ ((slotM 0 0 1 inb_S2x4x4x64x256_S1x1x1x64x256_0_0_1_0_0).view.loc (c : Thread nD τ) ↦[(slotM 0 0 1 inb_S2x4x4x64x256_S1x1x1x64x256_0_0_1_0_0).view.set]{fullShare} f0)
      ∗ ((slotM 0 0 2 inb_S2x4x4x64x256_S1x1x1x64x256_0_0_2_0_0).view.loc (c : Thread nD τ) ↦[(slotM 0 0 2 inb_S2x4x4x64x256_S1x1x1x64x256_0_0_2_0_0).view.set]{fullShare} f0)
      ∗ ((slotM 0 0 3 inb_S2x4x4x64x256_S1x1x1x64x256_0_0_3_0_0).view.loc (c : Thread nD τ) ↦[(slotM 0 0 3 inb_S2x4x4x64x256_S1x1x1x64x256_0_0_3_0_0).view.set]{fullShare} f0)
      ∗ ((slotM 0 1 0 inb_S2x4x4x64x256_S1x1x1x64x256_0_1_0_0_0).view.loc (c : Thread nD τ) ↦[(slotM 0 1 0 inb_S2x4x4x64x256_S1x1x1x64x256_0_1_0_0_0).view.set]{fullShare} f0)
      ∗ ((slotM 0 1 1 inb_S2x4x4x64x256_S1x1x1x64x256_0_1_1_0_0).view.loc (c : Thread nD τ) ↦[(slotM 0 1 1 inb_S2x4x4x64x256_S1x1x1x64x256_0_1_1_0_0).view.set]{fullShare} f0)
      ∗ ((slotM 0 1 2 inb_S2x4x4x64x256_S1x1x1x64x256_0_1_2_0_0).view.loc (c : Thread nD τ) ↦[(slotM 0 1 2 inb_S2x4x4x64x256_S1x1x1x64x256_0_1_2_0_0).view.set]{fullShare} f0)
      ∗ ((slotM 0 1 3 inb_S2x4x4x64x256_S1x1x1x64x256_0_1_3_0_0).view.loc (c : Thread nD τ) ↦[(slotM 0 1 3 inb_S2x4x4x64x256_S1x1x1x64x256_0_1_3_0_0).view.set]{fullShare} f0)
      ∗ ((slotM 0 2 0 inb_S2x4x4x64x256_S1x1x1x64x256_0_2_0_0_0).view.loc (c : Thread nD τ) ↦[(slotM 0 2 0 inb_S2x4x4x64x256_S1x1x1x64x256_0_2_0_0_0).view.set]{fullShare} f0)
      ∗ ((slotM 0 2 1 inb_S2x4x4x64x256_S1x1x1x64x256_0_2_1_0_0).view.loc (c : Thread nD τ) ↦[(slotM 0 2 1 inb_S2x4x4x64x256_S1x1x1x64x256_0_2_1_0_0).view.set]{fullShare} f0)
      ∗ ((slotM 0 2 2 inb_S2x4x4x64x256_S1x1x1x64x256_0_2_2_0_0).view.loc (c : Thread nD τ) ↦[(slotM 0 2 2 inb_S2x4x4x64x256_S1x1x1x64x256_0_2_2_0_0).view.set]{fullShare} f0)
      ∗ ((slotM 0 2 3 inb_S2x4x4x64x256_S1x1x1x64x256_0_2_3_0_0).view.loc (c : Thread nD τ) ↦[(slotM 0 2 3 inb_S2x4x4x64x256_S1x1x1x64x256_0_2_3_0_0).view.set]{fullShare} f0)
      ∗ ((slotM 0 3 0 inb_S2x4x4x64x256_S1x1x1x64x256_0_3_0_0_0).view.loc (c : Thread nD τ) ↦[(slotM 0 3 0 inb_S2x4x4x64x256_S1x1x1x64x256_0_3_0_0_0).view.set]{fullShare} f0)
      ∗ ((slotM 0 3 1 inb_S2x4x4x64x256_S1x1x1x64x256_0_3_1_0_0).view.loc (c : Thread nD τ) ↦[(slotM 0 3 1 inb_S2x4x4x64x256_S1x1x1x64x256_0_3_1_0_0).view.set]{fullShare} f0)
      ∗ ((slotM 0 3 2 inb_S2x4x4x64x256_S1x1x1x64x256_0_3_2_0_0).view.loc (c : Thread nD τ) ↦[(slotM 0 3 2 inb_S2x4x4x64x256_S1x1x1x64x256_0_3_2_0_0).view.set]{fullShare} f0)
      ∗ ((slotM 0 3 3 inb_S2x4x4x64x256_S1x1x1x64x256_0_3_3_0_0).view.loc (c : Thread nD τ) ↦[(slotM 0 3 3 inb_S2x4x4x64x256_S1x1x1x64x256_0_3_3_0_0).view.set]{fullShare} f0)
      ∗ ((slotM 1 0 0 inb_S2x4x4x64x256_S1x1x1x64x256_1_0_0_0_0).view.loc (c : Thread nD τ) ↦[(slotM 1 0 0 inb_S2x4x4x64x256_S1x1x1x64x256_1_0_0_0_0).view.set]{fullShare} f0)
      ∗ ((slotM 1 0 1 inb_S2x4x4x64x256_S1x1x1x64x256_1_0_1_0_0).view.loc (c : Thread nD τ) ↦[(slotM 1 0 1 inb_S2x4x4x64x256_S1x1x1x64x256_1_0_1_0_0).view.set]{fullShare} f0)
      ∗ ((slotM 1 0 2 inb_S2x4x4x64x256_S1x1x1x64x256_1_0_2_0_0).view.loc (c : Thread nD τ) ↦[(slotM 1 0 2 inb_S2x4x4x64x256_S1x1x1x64x256_1_0_2_0_0).view.set]{fullShare} f0)
      ∗ ((slotM 1 0 3 inb_S2x4x4x64x256_S1x1x1x64x256_1_0_3_0_0).view.loc (c : Thread nD τ) ↦[(slotM 1 0 3 inb_S2x4x4x64x256_S1x1x1x64x256_1_0_3_0_0).view.set]{fullShare} f0)
      ∗ ((slotM 1 1 0 inb_S2x4x4x64x256_S1x1x1x64x256_1_1_0_0_0).view.loc (c : Thread nD τ) ↦[(slotM 1 1 0 inb_S2x4x4x64x256_S1x1x1x64x256_1_1_0_0_0).view.set]{fullShare} f0)
      ∗ ((slotM 1 1 1 inb_S2x4x4x64x256_S1x1x1x64x256_1_1_1_0_0).view.loc (c : Thread nD τ) ↦[(slotM 1 1 1 inb_S2x4x4x64x256_S1x1x1x64x256_1_1_1_0_0).view.set]{fullShare} f0)
      ∗ ((slotM 1 1 2 inb_S2x4x4x64x256_S1x1x1x64x256_1_1_2_0_0).view.loc (c : Thread nD τ) ↦[(slotM 1 1 2 inb_S2x4x4x64x256_S1x1x1x64x256_1_1_2_0_0).view.set]{fullShare} f0)
      ∗ ((slotM 1 1 3 inb_S2x4x4x64x256_S1x1x1x64x256_1_1_3_0_0).view.loc (c : Thread nD τ) ↦[(slotM 1 1 3 inb_S2x4x4x64x256_S1x1x1x64x256_1_1_3_0_0).view.set]{fullShare} f0)
      ∗ ((slotM 1 2 0 inb_S2x4x4x64x256_S1x1x1x64x256_1_2_0_0_0).view.loc (c : Thread nD τ) ↦[(slotM 1 2 0 inb_S2x4x4x64x256_S1x1x1x64x256_1_2_0_0_0).view.set]{fullShare} f0)
      ∗ ((slotM 1 2 1 inb_S2x4x4x64x256_S1x1x1x64x256_1_2_1_0_0).view.loc (c : Thread nD τ) ↦[(slotM 1 2 1 inb_S2x4x4x64x256_S1x1x1x64x256_1_2_1_0_0).view.set]{fullShare} f0)
      ∗ ((slotM 1 2 2 inb_S2x4x4x64x256_S1x1x1x64x256_1_2_2_0_0).view.loc (c : Thread nD τ) ↦[(slotM 1 2 2 inb_S2x4x4x64x256_S1x1x1x64x256_1_2_2_0_0).view.set]{fullShare} f0)
      ∗ ((slotM 1 2 3 inb_S2x4x4x64x256_S1x1x1x64x256_1_2_3_0_0).view.loc (c : Thread nD τ) ↦[(slotM 1 2 3 inb_S2x4x4x64x256_S1x1x1x64x256_1_2_3_0_0).view.set]{fullShare} f0)
      ∗ ((slotM 1 3 0 inb_S2x4x4x64x256_S1x1x1x64x256_1_3_0_0_0).view.loc (c : Thread nD τ) ↦[(slotM 1 3 0 inb_S2x4x4x64x256_S1x1x1x64x256_1_3_0_0_0).view.set]{fullShare} f0)
      ∗ ((slotM 1 3 1 inb_S2x4x4x64x256_S1x1x1x64x256_1_3_1_0_0).view.loc (c : Thread nD τ) ↦[(slotM 1 3 1 inb_S2x4x4x64x256_S1x1x1x64x256_1_3_1_0_0).view.set]{fullShare} f0)
      ∗ ((slotM 1 3 2 inb_S2x4x4x64x256_S1x1x1x64x256_1_3_2_0_0).view.loc (c : Thread nD τ) ↦[(slotM 1 3 2 inb_S2x4x4x64x256_S1x1x1x64x256_1_3_2_0_0).view.set]{fullShare} f0)
      ∗ ((slotM 1 3 3 inb_S2x4x4x64x256_S1x1x1x64x256_1_3_3_0_0).view.loc (c : Thread nD τ) ↦[(slotM 1 3 3 inb_S2x4x4x64x256_S1x1x1x64x256_1_3_3_0_0).view.set]{fullShare} f0)
      ∗ ((rsM 0 0 inb_rs_0_0).view.loc (c : Thread nD τ) ↦[(rsM 0 0 inb_rs_0_0).view.set]{fullShare} f1)
      ∗ ((rsM 0 1 inb_S2x4x64x256_S1x1x64x256_0_1_0_0).view.loc (c : Thread nD τ) ↦[(rsM 0 1 inb_S2x4x64x256_S1x1x64x256_0_1_0_0).view.set]{fullShare} f1)
      ∗ ((rsM 0 2 inb_S2x4x64x256_S1x1x64x256_0_2_0_0).view.loc (c : Thread nD τ) ↦[(rsM 0 2 inb_S2x4x64x256_S1x1x64x256_0_2_0_0).view.set]{fullShare} f1)
      ∗ ((rsM 0 3 inb_S2x4x64x256_S1x1x64x256_0_3_0_0).view.loc (c : Thread nD τ) ↦[(rsM 0 3 inb_S2x4x64x256_S1x1x64x256_0_3_0_0).view.set]{fullShare} f1)
      ∗ ((rsM 1 0 inb_rs_1_0).view.loc (c : Thread nD τ) ↦[(rsM 1 0 inb_rs_1_0).view.set]{fullShare} f1)
      ∗ ((rsM 1 1 inb_S2x4x64x256_S1x1x64x256_1_1_0_0).view.loc (c : Thread nD τ) ↦[(rsM 1 1 inb_S2x4x64x256_S1x1x64x256_1_1_0_0).view.set]{fullShare} f1)
      ∗ ((rsM 1 2 inb_S2x4x64x256_S1x1x64x256_1_2_0_0).view.loc (c : Thread nD τ) ↦[(rsM 1 2 inb_S2x4x64x256_S1x1x64x256_1_2_0_0).view.set]{fullShare} f1)
      ∗ ((rsM 1 3 inb_S2x4x64x256_S1x1x64x256_1_3_0_0).view.loc (c : Thread nD τ) ↦[(rsM 1 3 inb_S2x4x64x256_S1x1x64x256_1_3_0_0).view.set]{fullShare} f1)
      ∗ ((Memref.whole cc0_stg0_0).view.loc (c : Thread nD τ) ↦{fullShare} xstg0 m ρ c)
      ∗ ((Memref.whole cc0_stg1_0).view.loc (c : Thread nD τ) ↦{fullShare} xstg1 m ρ c)
      ∗ ((Memref.whole cc0_stg2_0).view.loc (c : Thread nD τ) ↦{fullShare} xstg2 m ρ c)
      ∗ ((Memref.whole cc0_stg3_0).view.loc (c : Thread nD τ) ↦{fullShare} xstg3 m ρ c)
      ∗ ((Memref.whole cc0_stg4_0).view.loc (c : Thread nD τ) ↦{fullShare} xstg4 m ρ c)
      ∗ ((Memref.whole cc0_stg5_0).view.loc (c : Thread nD τ) ↦{fullShare} xstg5 m ρ c)
      ∗ ((Memref.whole cc0_stg6_0).view.loc (c : Thread nD τ) ↦{fullShare} xstg6 m ρ c)
      ∗ ((Memref.whole cc0_stg7_0).view.loc (c : Thread nD τ) ↦{fullShare} g7)
      ∗ owes (c : Thread nD τ) (owesLeft c 27 + tallyAt (barCell (pe c 3)) () 1 + tallyAt (barCell (pe c 2)) () 1 + tallyAt (barCell (pe c 1)) () 1) W)

/-- What it ends with: the two buffers whole again and every own cell closed at zero (`Φ₁`), nothing owed, the input staging
    buffers as they were and the output staging buffer at the device's result. -/
def bodyPost (c : Dev nD) : sProp 𝕄 :=
  iprop(Φ₁ (F := F) c ∗ (∃ W, owes (c : Thread nD τ) 0 W)
    ∗ ((Memref.whole cc0_stg0_0).view.loc (c : Thread nD τ) ↦{fullShare} xstg0 m ρ c)
    ∗ ((Memref.whole cc0_stg1_0).view.loc (c : Thread nD τ) ↦{fullShare} xstg1 m ρ c)
    ∗ ((Memref.whole cc0_stg2_0).view.loc (c : Thread nD τ) ↦{fullShare} xstg2 m ρ c)
    ∗ ((Memref.whole cc0_stg3_0).view.loc (c : Thread nD τ) ↦{fullShare} xstg3 m ρ c)
    ∗ ((Memref.whole cc0_stg4_0).view.loc (c : Thread nD τ) ↦{fullShare} xstg4 m ρ c)
    ∗ ((Memref.whole cc0_stg5_0).view.loc (c : Thread nD τ) ↦{fullShare} xstg5 m ρ c)
    ∗ ((Memref.whole cc0_stg6_0).view.loc (c : Thread nD τ) ↦{fullShare} xstg6 m ρ c)
    ∗ ((Memref.whole cc0_stg7_0).view.loc (c : Thread nD τ) ↦{fullShare} outv c))

end Cert.Kernel.Mlp

end
-- ==== Proof.Bits.BodyOblig.lean ====
import proofs.«900991_g7700000000000992_dist_mlpseq_tp1d_rep_bs_b256_d256_h512_v7x_i4_bf16_1_alg».proof.Proof.Bits.BodyIface
import proofs.«900991_g7700000000000992_dist_mlpseq_tp1d_rep_bs_b256_d256_h512_v7x_i4_bf16_1_alg».proof.Proof.Bits.LaunchK

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## From the body's run to the pipeline's body obligation

The pipeline hands a device's body its invariant before the one point, what it owes, and the eight staging buffers; the
body's run is stated from the same things held piece by piece. This module opens the one into the other and closes the
post back; it states nothing about what the body does. -/

/-- A staging buffer held whole at contents `X`. -/
abbrev stgP (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stgP c b X := by
  unfold owns; simp only [Memref.view_whole, View.read_whole, View.set_whole]

theorem bigSep_W8 (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

/-! ### What the staging buffers hold when the body starts -/

theorem before_0 (c : Dev nD) (d) : (dats m ρ val jk jr outv 0 c).before (0 : Fin 8) t₀ d = xstg0 m ρ c := by
  unfold Dat.before; rw [if_pos (fetch0_0 t₀)]; rfl
theorem before_1 (c : Dev nD) (d) : (dats m ρ val jk jr outv 0 c).before (1 : Fin 8) t₀ d = xstg1 m ρ c := by
  unfold Dat.before; rw [if_pos (fetch0_1 t₀)]; rfl
theorem before_2 (c : Dev nD) (d) : (dats m ρ val jk jr outv 0 c).before (2 : Fin 8) t₀ d = xstg2 m ρ c := by
  unfold Dat.before; rw [if_pos (fetch0_2 t₀)]; rfl
theorem before_3 (c : Dev nD) (d) : (dats m ρ val jk jr outv 0 c).before (3 : Fin 8) t₀ d = xstg3 m ρ c := by
  unfold Dat.before; rw [if_pos (fetch0_3 t₀)]; rfl
theorem before_4 (c : Dev nD) (d) : (dats m ρ val jk jr outv 0 c).before (4 : Fin 8) t₀ d = xstg4 m ρ c := by
  unfold Dat.before; rw [if_pos (fetch0_4 t₀)]; rfl
theorem before_5 (c : Dev nD) (d) : (dats m ρ val jk jr outv 0 c).before (5 : Fin 8) t₀ d = xstg5 m ρ c := by
  unfold Dat.before; rw [if_pos (fetch0_5 t₀)]; rfl
theorem before_6 (c : Dev nD) (d) : (dats m ρ val jk jr outv 0 c).before (6 : Fin 8) t₀ d = xstg6 m ρ c := by
  unfold Dat.before; rw [if_pos (fetch0_6 t₀)]; rfl
theorem before_7 (c : Dev nD) (d) : (dats m ρ val jk jr outv 0 c).before (7 : Fin 8) t₀ d = d := by
  unfold Dat.before; rw [if_neg (by decide)]; exact if_pos rfl

/-! ### The copies' tokens, in the order the body starts the copies -/

/-- The copies in the order the body starts them: in every block, slot 2, then slot 1, then slot 3. -/
abbrev p27 : List (Fin 27) := [1, 0, 2, 4, 3, 5, 7, 6, 8, 10, 9, 11, 13, 12, 14, 16, 15, 17, 19, 18, 20, 22, 21, 23, 25, 24, 26]

theorem toksLeft_eq (c : Dev nD) : (toksLeft (F := F) c 27 : sProp 𝕄)
    = iprop((bigSep Finset.univ fun k : Fin 27 => dutyTok ER (sndC c k) 0 (0 : Fin 4)) ∗ bigSep Finset.univ fun k : Fin 27 => dutyTok ER (rcvC (pe c (ko k)) k) 0 (0 : Fin 4)) := by
  have h : (toksLeft (F := F) c 27 : sProp 𝕄)
      = bigSepLR p27 (fun k => iprop(dutyTok ER (sndC c k) 0 (0 : Fin 4) ∗ dutyTok ER (rcvC (pe c (ko k)) k) 0 (0 : Fin 4))) iprop(emp) := rfl
  rw [h, bigSepLR_eq, ← bigSep_univ_eq_bigSepL p27 (by decide) (by decide), bigSep_sep']
  exact equiv_iff.mp sep_emp

/-! ### The exchange buffers' blocks, listed -/

def slots0 (c : Dev nD) (f : Buf (Elt F) ((c : Thread nD τ).loc cc0_scratch0)) : List (sProp 𝕄) :=
  [((slotM 0 0 0 inb_S2x4x4x64x256_S1x1x1x64x256_0_0_0_0_0).view.loc (c : Thread nD τ) ↦[(slotM 0 0 0 inb_S2x4x4x64x256_S1x1x1x64x256_0_0_0_0_0).view.set]{fullShare} f : sProp 𝕄),
   ((slotM 0 0 1 inb_S2x4x4x64x256_S1x1x1x64x256_0_0_1_0_0).view.loc (c : Thread nD τ) ↦[(slotM 0 0 1 inb_S2x4x4x64x256_S1x1x1x64x256_0_0_1_0_0).view.set]{fullShare} f : sProp 𝕄),
   ((slotM 0 0 2 inb_S2x4x4x64x256_S1x1x1x64x256_0_0_2_0_0).view.loc (c : Thread nD τ) ↦[(slotM 0 0 2 inb_S2x4x4x64x256_S1x1x1x64x256_0_0_2_0_0).view.set]{fullShare} f : sProp 𝕄),
   ((slotM 0 0 3 inb_S2x4x4x64x256_S1x1x1x64x256_0_0_3_0_0).view.loc (c : Thread nD τ) ↦[(slotM 0 0 3 inb_S2x4x4x64x256_S1x1x1x64x256_0_0_3_0_0).view.set]{fullShare} f : sProp 𝕄),
   ((slotM 0 1 0 inb_S2x4x4x64x256_S1x1x1x64x256_0_1_0_0_0).view.loc (c : Thread nD τ) ↦[(slotM 0 1 0 inb_S2x4x4x64x256_S1x1x1x64x256_0_1_0_0_0).view.set]{fullShare} f : sProp 𝕄),
   ((slotM 0 1 1 inb_S2x4x4x64x256_S1x1x1x64x256_0_1_1_0_0).view.loc (c : Thread nD τ) ↦[(slotM 0 1 1 inb_S2x4x4x64x256_S1x1x1x64x256_0_1_1_0_0).view.set]{fullShare} f : sProp 𝕄),
   ((slotM 0 1 2 inb_S2x4x4x64x256_S1x1x1x64x256_0_1_2_0_0).view.loc (c : Thread nD τ) ↦[(slotM 0 1 2 inb_S2x4x4x64x256_S1x1x1x64x256_0_1_2_0_0).view.set]{fullShare} f : sProp 𝕄),
   ((slotM 0 1 3 inb_S2x4x4x64x256_S1x1x1x64x256_0_1_3_0_0).view.loc (c : Thread nD τ) ↦[(slotM 0 1 3 inb_S2x4x4x64x256_S1x1x1x64x256_0_1_3_0_0).view.set]{fullShare} f : sProp 𝕄),
   ((slotM 0 2 0 inb_S2x4x4x64x256_S1x1x1x64x256_0_2_0_0_0).view.loc (c : Thread nD τ) ↦[(slotM 0 2 0 inb_S2x4x4x64x256_S1x1x1x64x256_0_2_0_0_0).view.set]{fullShare} f : sProp 𝕄),
   ((slotM 0 2 1 inb_S2x4x4x64x256_S1x1x1x64x256_0_2_1_0_0).view.loc (c : Thread nD τ) ↦[(slotM 0 2 1 inb_S2x4x4x64x256_S1x1x1x64x256_0_2_1_0_0).view.set]{fullShare} f : sProp 𝕄),
   ((slotM 0 2 2 inb_S2x4x4x64x256_S1x1x1x64x256_0_2_2_0_0).view.loc (c : Thread nD τ) ↦[(slotM 0 2 2 inb_S2x4x4x64x256_S1x1x1x64x256_0_2_2_0_0).view.set]{fullShare} f : sProp 𝕄),
   ((slotM 0 2 3 inb_S2x4x4x64x256_S1x1x1x64x256_0_2_3_0_0).view.loc (c : Thread nD τ) ↦[(slotM 0 2 3 inb_S2x4x4x64x256_S1x1x1x64x256_0_2_3_0_0).view.set]{fullShare} f : sProp 𝕄),
   ((slotM 0 3 0 inb_S2x4x4x64x256_S1x1x1x64x256_0_3_0_0_0).view.loc (c : Thread nD τ) ↦[(slotM 0 3 0 inb_S2x4x4x64x256_S1x1x1x64x256_0_3_0_0_0).view.set]{fullShare} f : sProp 𝕄),
   ((slotM 0 3 1 inb_S2x4x4x64x256_S1x1x1x64x256_0_3_1_0_0).view.loc (c : Thread nD τ) ↦[(slotM 0 3 1 inb_S2x4x4x64x256_S1x1x1x64x256_0_3_1_0_0).view.set]{fullShare} f : sProp 𝕄),
   ((slotM 0 3 2 inb_S2x4x4x64x256_S1x1x1x64x256_0_3_2_0_0).view.loc (c : Thread nD τ) ↦[(slotM 0 3 2 inb_S2x4x4x64x256_S1x1x1x64x256_0_3_2_0_0).view.set]{fullShare} f : sProp 𝕄),
   ((slotM 0 3 3 inb_S2x4x4x64x256_S1x1x1x64x256_0_3_3_0_0).view.loc (c : Thread nD τ) ↦[(slotM 0 3 3 inb_S2x4x4x64x256_S1x1x1x64x256_0_3_3_0_0).view.set]{fullShare} f : sProp 𝕄),
   ((slotM 1 0 0 inb_S2x4x4x64x256_S1x1x1x64x256_1_0_0_0_0).view.loc (c : Thread nD τ) ↦[(slotM 1 0 0 inb_S2x4x4x64x256_S1x1x1x64x256_1_0_0_0_0).view.set]{fullShare} f : sProp 𝕄),
   ((slotM 1 0 1 inb_S2x4x4x64x256_S1x1x1x64x256_1_0_1_0_0).view.loc (c : Thread nD τ) ↦[(slotM 1 0 1 inb_S2x4x4x64x256_S1x1x1x64x256_1_0_1_0_0).view.set]{fullShare} f : sProp 𝕄),
   ((slotM 1 0 2 inb_S2x4x4x64x256_S1x1x1x64x256_1_0_2_0_0).view.loc (c : Thread nD τ) ↦[(slotM 1 0 2 inb_S2x4x4x64x256_S1x1x1x64x256_1_0_2_0_0).view.set]{fullShare} f : sProp 𝕄),
   ((slotM 1 0 3 inb_S2x4x4x64x256_S1x1x1x64x256_1_0_3_0_0).view.loc (c : Thread nD τ) ↦[(slotM 1 0 3 inb_S2x4x4x64x256_S1x1x1x64x256_1_0_3_0_0).view.set]{fullShare} f : sProp 𝕄),
   ((slotM 1 1 0 inb_S2x4x4x64x256_S1x1x1x64x256_1_1_0_0_0).view.loc (c : Thread nD τ) ↦[(slotM 1 1 0 inb_S2x4x4x64x256_S1x1x1x64x256_1_1_0_0_0).view.set]{fullShare} f : sProp 𝕄),
   ((slotM 1 1 1 inb_S2x4x4x64x256_S1x1x1x64x256_1_1_1_0_0).view.loc (c : Thread nD τ) ↦[(slotM 1 1 1 inb_S2x4x4x64x256_S1x1x1x64x256_1_1_1_0_0).view.set]{fullShare} f : sProp 𝕄),
   ((slotM 1 1 2 inb_S2x4x4x64x256_S1x1x1x64x256_1_1_2_0_0).view.loc (c : Thread nD τ) ↦[(slotM 1 1 2 inb_S2x4x4x64x256_S1x1x1x64x256_1_1_2_0_0).view.set]{fullShare} f : sProp 𝕄),
   ((slotM 1 1 3 inb_S2x4x4x64x256_S1x1x1x64x256_1_1_3_0_0).view.loc (c : Thread nD τ) ↦[(slotM 1 1 3 inb_S2x4x4x64x256_S1x1x1x64x256_1_1_3_0_0).view.set]{fullShare} f : sProp 𝕄),
   ((slotM 1 2 0 inb_S2x4x4x64x256_S1x1x1x64x256_1_2_0_0_0).view.loc (c : Thread nD τ) ↦[(slotM 1 2 0 inb_S2x4x4x64x256_S1x1x1x64x256_1_2_0_0_0).view.set]{fullShare} f : sProp 𝕄),
   ((slotM 1 2 1 inb_S2x4x4x64x256_S1x1x1x64x256_1_2_1_0_0).view.loc (c : Thread nD τ) ↦[(slotM 1 2 1 inb_S2x4x4x64x256_S1x1x1x64x256_1_2_1_0_0).view.set]{fullShare} f : sProp 𝕄),
   ((slotM 1 2 2 inb_S2x4x4x64x256_S1x1x1x64x256_1_2_2_0_0).view.loc (c : Thread nD τ) ↦[(slotM 1 2 2 inb_S2x4x4x64x256_S1x1x1x64x256_1_2_2_0_0).view.set]{fullShare} f : sProp 𝕄),
   ((slotM 1 2 3 inb_S2x4x4x64x256_S1x1x1x64x256_1_2_3_0_0).view.loc (c : Thread nD τ) ↦[(slotM 1 2 3 inb_S2x4x4x64x256_S1x1x1x64x256_1_2_3_0_0).view.set]{fullShare} f : sProp 𝕄),
   ((slotM 1 3 0 inb_S2x4x4x64x256_S1x1x1x64x256_1_3_0_0_0).view.loc (c : Thread nD τ) ↦[(slotM 1 3 0 inb_S2x4x4x64x256_S1x1x1x64x256_1_3_0_0_0).view.set]{fullShare} f : sProp 𝕄),
   ((slotM 1 3 1 inb_S2x4x4x64x256_S1x1x1x64x256_1_3_1_0_0).view.loc (c : Thread nD τ) ↦[(slotM 1 3 1 inb_S2x4x4x64x256_S1x1x1x64x256_1_3_1_0_0).view.set]{fullShare} f : sProp 𝕄),
   ((slotM 1 3 2 inb_S2x4x4x64x256_S1x1x1x64x256_1_3_2_0_0).view.loc (c : Thread nD τ) ↦[(slotM 1 3 2 inb_S2x4x4x64x256_S1x1x1x64x256_1_3_2_0_0).view.set]{fullShare} f : sProp 𝕄),
   ((slotM 1 3 3 inb_S2x4x4x64x256_S1x1x1x64x256_1_3_3_0_0).view.loc (c : Thread nD τ) ↦[(slotM 1 3 3 inb_S2x4x4x64x256_S1x1x1x64x256_1_3_3_0_0).view.set]{fullShare} f : sProp 𝕄)]
def slots1 (c : Dev nD) (f : Buf (Elt F) ((c : Thread nD τ).loc cc0_scratch1)) : List (sProp 𝕄) :=
  [((rsM 0 0 inb_rs_0_0).view.loc (c : Thread nD τ) ↦[(rsM 0 0 inb_rs_0_0).view.set]{fullShare} f : sProp 𝕄),
   ((rsM 0 1 inb_S2x4x64x256_S1x1x64x256_0_1_0_0).view.loc (c : Thread nD τ) ↦[(rsM 0 1 inb_S2x4x64x256_S1x1x64x256_0_1_0_0).view.set]{fullShare} f : sProp 𝕄),
   ((rsM 0 2 inb_S2x4x64x256_S1x1x64x256_0_2_0_0).view.loc (c : Thread nD τ) ↦[(rsM 0 2 inb_S2x4x64x256_S1x1x64x256_0_2_0_0).view.set]{fullShare} f : sProp 𝕄),
   ((rsM 0 3 inb_S2x4x64x256_S1x1x64x256_0_3_0_0).view.loc (c : Thread nD τ) ↦[(rsM 0 3 inb_S2x4x64x256_S1x1x64x256_0_3_0_0).view.set]{fullShare} f : sProp 𝕄),
   ((rsM 1 0 inb_rs_1_0).view.loc (c : Thread nD τ) ↦[(rsM 1 0 inb_rs_1_0).view.set]{fullShare} f : sProp 𝕄),
   ((rsM 1 1 inb_S2x4x64x256_S1x1x64x256_1_1_0_0).view.loc (c : Thread nD τ) ↦[(rsM 1 1 inb_S2x4x64x256_S1x1x64x256_1_1_0_0).view.set]{fullShare} f : sProp 𝕄),
   ((rsM 1 2 inb_S2x4x64x256_S1x1x64x256_1_2_0_0).view.loc (c : Thread nD τ) ↦[(rsM 1 2 inb_S2x4x64x256_S1x1x64x256_1_2_0_0).view.set]{fullShare} f : sProp 𝕄),
   ((rsM 1 3 inb_S2x4x64x256_S1x1x64x256_1_3_0_0).view.loc (c : Thread nD τ) ↦[(rsM 1 3 inb_S2x4x64x256_S1x1x64x256_1_3_0_0).view.set]{fullShare} f : sProp 𝕄)]

theorem scratch0_cut (c : Dev nD) (f : Buf (Elt F) ((c : Thread nD τ).loc cc0_scratch0)) :
    ((((c : Thread nD τ).loc cc0_scratch0) ↦{fullShare} f : sProp 𝕄)) ⊢ bigSepL (slots0 c f) id := (scratch0_split c f).1
theorem scratch1_cut (c : Dev nD) (f : Buf (Elt F) ((c : Thread nD τ).loc cc0_scratch1)) :
    ((((c : Thread nD τ).loc cc0_scratch1) ↦{fullShare} f : sProp 𝕄)) ⊢ bigSepL (slots1 c f) id := (scratch1_split c f).1

/-! ### The body's starting context, as chains over the copies -/

theorem bodyPre_eq (K : GSem nD τ sig → ℕ) (c : Dev nD) (W : Waits sig Unit)
    (f0 : Buf (Elt F) ((c : Thread nD τ).loc cc0_scratch0)) (f1 : Buf (Elt F) ((c : Thread nD τ).loc cc0_scratch1))
    (g7 : (cc0_stg7_0 : Ref sig .tc).ty.Contents (Elt F)) :
    bodyPre m ρ val jk jr K c W f0 f1 g7 = iprop(cellInv ER (Rd val jk jr) (K (barCell c)) (barCell c)
      ∗ bigSepLR k27 (fun k => cellInv ER (Rd val jk jr) (K (sndC c k)) (sndC c k))
        (bigSepLR k27 (fun k => cellInv ER (Rd val jk jr) (K (rcvC c k)) (rcvC c k))
          iprop(cellInv ER (Rd val jk jr) (K (barCell (pe c 1))) (barCell (pe c 1)) ∗ cellInv ER (Rd val jk jr) (K (barCell (pe c 2))) (barCell (pe c 2)) ∗ cellInv ER (Rd val jk jr) (K (barCell (pe c 3))) (barCell (pe c 3))
            ∗ bigSepLR k27 (fun k => cellInv ER (Rd val jk jr) (K (rcvC (pe c (ko k)) k)) (rcvC (pe c (ko k)) k))
              iprop(reached ER (barCell (pe c 1)) 0 ∗ reached ER (barCell (pe c 2)) 0 ∗ reached ER (barCell (pe c 3)) 0
                ∗ bigSepLR k27 (fun k => reached ER (sndC c k) 0)
                  (bigSepLR k27 (fun k => reached ER (rcvC (pe c (ko k)) k) 0)
                    iprop(levAts L lv ∗ atPos ER (barCell c) 0 ∅ 0
                      ∗ bigSepLR k27 (fun k => atPos ER (sndC c k) 0 ∅ 0)
                        (bigSepLR k27 (fun k => atPos ER (rcvC c k) 0 ∅ 0)
                          iprop(dutyTok ER (barCell (pe c 1)) 0 (1 : Fin 4) ∗ dutyTok ER (barCell (pe c 2)) 0 (2 : Fin 4) ∗ dutyTok ER (barCell (pe c 3)) 0 (3 : Fin 4)
                            ∗ toksLeft c 27
                            ∗ cred (tallyAt (barCell c) () 3)
                            ∗ bigSepLR k27 (fun k => cred (tallyAt (rcvC c k) () N))
                              (bigSepLR (slots0 c f0) id (bigSepLR (slots1 c f1) id
                                iprop(((Memref.whole cc0_stg0_0).view.loc (c : Thread nD τ) ↦{fullShare} xstg0 m ρ c)
                                  ∗ ((Memref.whole cc0_stg1_0).view.loc (c : Thread nD τ) ↦{fullShare} xstg1 m ρ c)
                                  ∗ ((Memref.whole cc0_stg2_0).view.loc (c : Thread nD τ) ↦{fullShare} xstg2 m ρ c)
                                  ∗ ((Memref.whole cc0_stg3_0).view.loc (c : Thread nD τ) ↦{fullShare} xstg3 m ρ c)
                                  ∗ ((Memref.whole cc0_stg4_0).view.loc (c : Thread nD τ) ↦{fullShare} xstg4 m ρ c)
                                  ∗ ((Memref.whole cc0_stg5_0).view.loc (c : Thread nD τ) ↦{fullShare} xstg5 m ρ c)
                                  ∗ ((Memref.whole cc0_stg6_0).view.loc (c : Thread nD τ) ↦{fullShare} xstg6 m ρ c)
                                  ∗ ((Memref.whole cc0_stg7_0).view.loc (c : Thread nD τ) ↦{fullShare} g7)
                                  ∗ owes (c : Thread nD τ) (owesLeft c 27 + tallyAt (barCell (pe c 3)) () 1 + tallyAt (barCell (pe c 2)) () 1 + tallyAt (barCell (pe c 1)) () 1) W))))))))))) := rfl

/-! ### The obligation -/

/-- What the pipeline hands the body at the one point. -/
def bodyPre' (c : Dev nD) : sProp 𝕄 :=
  iprop(Φ₀ val jk jr c ∗ (dats m ρ val jk jr outv 0 c).owesAt () t₀.castSucc
    ∗ (∃ d, stgP c cc0_stg0_0 ((dats m ρ val jk jr outv 0 c).before (0 : Fin 8) t₀ d))
    ∗ (∃ d, stgP c cc0_stg1_0 ((dats m ρ val jk jr outv 0 c).before (1 : Fin 8) t₀ d))
    ∗ (∃ d, stgP c cc0_stg2_0 ((dats m ρ val jk jr outv 0 c).before (2 : Fin 8) t₀ d))
    ∗ (∃ d, stgP c cc0_stg3_0 ((dats m ρ val jk jr outv 0 c).before (3 : Fin 8) t₀ d))
    ∗ (∃ d, stgP c cc0_stg4_0 ((dats m ρ val jk jr outv 0 c).before (4 : Fin 8) t₀ d))
    ∗ (∃ d, stgP c cc0_stg5_0 ((dats m ρ val jk jr outv 0 c).before (5 : Fin 8) t₀ d))
    ∗ (∃ d, stgP c cc0_stg6_0 ((dats m ρ val jk jr outv 0 c).before (6 : Fin 8) t₀ d))
    ∗ (∃ d, stgP c cc0_stg7_0 ((dats m ρ val jk jr outv 0 c).before (7 : Fin 8) t₀ d)))

/-- What it wants back. -/
def libPost (c : Dev nD) : sProp 𝕄 :=
  iprop(Φ₁ (F := F) c ∗ (dats m ρ val jk jr outv 0 c).owesAt () t₀.succ
    ∗ stgP c cc0_stg0_0 (xstg0 m ρ c) ∗ stgP c cc0_stg1_0 (xstg1 m ρ c) ∗ stgP c cc0_stg2_0 (xstg2 m ρ c) ∗ stgP c cc0_stg3_0 (xstg3 m ρ c) ∗ stgP c cc0_stg4_0 (xstg4 m ρ c) ∗ stgP c cc0_stg5_0 (xstg5 m ρ c) ∗ stgP c cc0_stg6_0 (xstg6 m ρ c) ∗ stgP c cc0_stg7_0 (outv c))

theorem post_close (c : Dev nD) : bodyPost m ρ outv c ⊢ libPost m ρ val jk jr outv c := by
  unfold bodyPost libPost Dat.owesAt Pipeline.owesWithin
  rw [show (dats m ρ val jk jr outv 0 c).owed t₀.succ = 0 from rfl]
  iintro ⟨HΦ, ⟨%W, HO⟩, H0, H1, H2, H3, H4, H5, H6, H7⟩
  isplitl [HΦ]; · iexact HΦ
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  isplitl [H5]; · iexists _; isplitr; · (ipureintro; rfl)
                  iexact H5
  isplitl [H6]; · iexists _; isplitr; · (ipureintro; rfl)
                  iexact H6
  iexists _; isplitr; · (ipureintro; rfl)
  iexact H7

set_option maxRecDepth 8000 in
set_option maxHeartbeats 1600000 in
/-- The pipeline's hand-over opened into the body's starting context. -/
theorem pre_open (c : Dev nD) :
    bodyPre' m ρ val jk jr outv c ⊢ iprop(∃ K W f0 f1 g7, bodyPre m ρ val jk jr K c W f0 f1 g7) := by
  unfold bodyPre' Φ₀ Dat.owesAt Pipeline.owesWithin
  rw [start_eq, bigSepLR_fin27, show (dats m ρ val jk jr outv 0 c).owed t₀.castSucc = O₀ c from rfl, O₀_eq]
  iintro ⟨⟨⟨⟨%K, Hg⟩, HcB, HcR, #Hlev⟩, ⟨%f0, Hs0⟩, ⟨%f1, Hs1⟩⟩, ⟨%W, %hW, HO⟩,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩⟩
  rw [before_0] at hg0; rw [before_1] at hg1; rw [before_2] at hg2; rw [before_3] at hg3
  rw [before_4] at hg4; rw [before_5] at hg5; rw [before_6] at hg6
  subst hg0; subst hg1; subst hg2; subst hg3; subst hg4; subst hg5; subst hg6
  iexists K; iexists W; iexists f0; iexists f1; iexists g7
  rw [bodyPre_eq]
  simp only [bigSepLR_fin27]
  rw [bigSepLR_eq, bigSepLR_eq, toksLeft_eq]
  ihave Hg' := (Entails.of_eq (ghost_groups val jk jr K c)) $$ Hg
  icases Hg' with ⟨⟨#I0, #IS, #IV, #I1, #I2, #I3, #IP⟩, HaB, HaS, HaV, #R1, #R2, #R3, #RS, #RP, T1, T2, T3, TS, TP⟩
  ihave Hc0 := (scratch0_cut (F := F) c f0) $$ Hs0
  ihave Hc1 := (scratch1_cut (F := F) c f1) $$ Hs1
  isplitr; · iexact I0
  isplitr; · iexact IS
  isplitr; · iexact IV
  isplitr; · iexact I1
  isplitr; · iexact I2
  isplitr; · iexact I3
  isplitr; · iexact IP
  isplitr; · iexact R1
  isplitr; · iexact R2
  isplitr; · iexact R3
  isplitr; · iexact RS
  isplitr; · iexact RP
  isplitr; · iexact Hlev
  isplitl [HaB]; · iexact HaB
  isplitl [HaS]; · iexact HaS
  isplitl [HaV]; · iexact HaV
  isplitl [T1]; · iexact T1
  isplitl [T2]; · iexact T2
  isplitl [T3]; · iexact T3
  isplitl [TS TP]
  · isplitl [TS] <;> iassumption
  isplitl [HcB]; · iexact HcB
  isplitl [HcR]; · iexact HcR
  isplitl [Hc0]; · iexact Hc0
  isplitl [Hc1]; · iexact Hc1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HO

set_option maxRecDepth 8000 in
/-- The pipeline's body obligation on device `c`, from the body's run. -/
theorem body_obligation
    (hsound : ∀ (K : GSem nD τ sig → ℕ) (c : Dev nD) (Kt : PUnit → sProp 𝕄) (W : Waits sig Unit)
      (f0 : Buf (Elt F) ((c : Thread nD τ).loc cc0_scratch0)) (f1 : Buf (Elt F) ((c : Thread nD τ).loc cc0_scratch1))
      (g7 : (cc0_stg7_0 : Ref sig .tc).ty.Contents (Elt F)),
      iprop(bodyPre m ρ val jk jr K c W f0 f1 g7 ∗ (bodyPost m ρ outv c -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) Kt)
    (c : Dev nD) : BodyObligation (dats m ρ val jk jr outv 0 c) (defs₀ (F := F)) 𝒱₀ () Set.univ := fun t => by
  rw [fin_N t]
  rw [bigSep_W8, bigSep_W8]
  simp only [owns_whole_eq]
  show bodyPre' m ρ val jk jr outv c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) (fun _ => libPost m ρ val jk jr outv c)
  iintro H
  ihave H' := (pre_open m ρ val jk jr outv c) $$ H
  icases H' with ⟨%K, %W, %f0, %f1, %g7, Hpre⟩
  iapply (hsound K c (fun _ => libPost m ρ val jk jr outv c) W f0 f1 g7)
  isplitl [Hpre]; · iexact Hpre
  iintro Hp
  iapply (post_close m ρ val jk jr outv c)
  iexact Hp

/-- info: 'Cert.Kernel.Mlp.body_obligation' depends on axioms: [propext, Classical.choice, Quot.sound] -/
#guard_msgs in #print axioms body_obligation

end Cert.Kernel.Mlp

end
-- ==== Proof.ClaimsBits.lean ====
import proofs.«900991_g7700000000000992_dist_mlpseq_tp1d_rep_bs_b256_d256_h512_v7x_i4_bf16_1_alg».proof.Defs
import proofs.«900991_g7700000000000992_dist_mlpseq_tp1d_rep_bs_b256_d256_h512_v7x_i4_bf16_1_alg».proof.Proof.Bits.ValsG
import proofs.«900991_g7700000000000992_dist_mlpseq_tp1d_rep_bs_b256_d256_h512_v7x_i4_bf16_1_alg».proof.Proof.Bits.FinalK
import proofs.«900991_g7700000000000992_dist_mlpseq_tp1d_rep_bs_b256_d256_h512_v7x_i4_bf16_1_alg».proof.Proof.Bits.BodyOblig
import proofs.«900991_g7700000000000992_dist_mlpseq_tp1d_rep_bs_b256_d256_h512_v7x_i4_bf16_1_alg».proof.Proof.Gen.Kernel
import proofs.«900991_g7700000000000992_dist_mlpseq_tp1d_rep_bs_b256_d256_h512_v7x_i4_bf16_1_alg».proof.Proof.Gen.Pre_finite_inputs_Kernel

/-!
# The claim about the program as printed, at the bit-exact values

The program as printed is the same text as its idealization, so the same argument gives its run: given the
symbolic run of one device's body at the bit-exact values, every device's body meets what the launch asks of it
and the program runs to the end on every device with the argument arrays unchanged.  Nothing is claimed here
about the value of the result.
-/

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The body's run at the bit-exact values, at the values fixed from the memory at launch. -/
abbrev Sound' : Prop :=
  ∀ (m : (ℓ : Loc nD τ sig) → Buf (Elt Bits) ℓ) (ρ : Dev nD → PrngReg)
    (K : GSem nD τ sig → ℕ) (c : Dev nD) (Kt : PUnit → sProp (MT nD τ sig Unit (Elt Bits) ℕ UU ℕ)) (W : Waits sig Unit)
    (f0 : Buf (Elt Bits) ((c : Thread nD τ).loc cc0_scratch0)) (f1 : Buf (Elt Bits) ((c : Thread nD τ).loc cc0_scratch1))
    (g7 : (cc0_stg7_0 : Ref sig .tc).ty.Contents (Elt Bits)),
    iprop(bodyPre m ρ (valF m ρ) jkF jrF K c W f0 f1 g7 ∗ (bodyPost m ρ (outF m ρ) c -∗ Kt ⟨⟩))
      ⊢ wp frame (wpE (defs₀ (F := Bits)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) Kt

end Cert.Kernel.Mlp

namespace Cert.Proof.ClaimsBits

open Idealize.ShloMosaic
open Idealize.ShloMosaic.TcCoe
open Cert.Kernel Cert.Kernel.Gen Cert.Kernel.Mlp
open Idealize.SL.Sem

/-- The program's run at the bit-exact values: every device's result array ends holding the value computed from
    the memory at launch and its seven argument arrays are unchanged. -/
theorem run_of (h : Cert.Kernel.Mlp.Sound') (m : (ℓ : Loc nD τ sig) → Buf (Elt Bits) ℓ) (ρ : Dev nD → PrngReg) :
    θ_run defs (onTc (τ := τ) (main (F := Bits))) ⟨m, fun _ => 0, ρ⟩ (fun r => ∀ c : Dev nD,
      r.2.mem ((c.tc : Thread nD τ).loc main_v1) = outF m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  kernel_run m ρ (valF m ρ) jkF jrF (outF m ρ) (fun c =>
    body_obligation m ρ (valF m ρ) jkF jrF (outF m ρ) (fun K c Kt W f0 f1 g7 => h m ρ K c Kt W f0 f1 g7) c)

/-- The program as printed runs to the end and leaves its argument arrays as they were. -/
theorem frame_Kernel_of (h : Cert.Kernel.Mlp.Sound') : Cert.frame_Kernel := fun m ρ _ =>
  (θ_run Cert.Kernel.defs _ _).mono (fun _ hr c => (hr c).2) (run_of h m ρ)

end Cert.Proof.ClaimsBits

end
-- ==== Proof.OwesLevels.lean ====
import proofs.«900991_g7700000000000992_dist_mlpseq_tp1d_rep_bs_b256_d256_h512_v7x_i4_bf16_1_alg».proof.Proof.Owes
import proofs.«900991_g7700000000000992_dist_mlpseq_tp1d_rep_bs_b256_d256_h512_v7x_i4_bf16_1_alg».proof.Proof.Levels

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## What is still owed lies above the level of the copies that remain

The copies are numbered downwards in the order they are started, and their layers rise as the numbers fall: the receive
cells of copies `16 … 27` sit at level 2, those of `4 … 15` at level 3, those of `1 … 3` at level 4. So the lowest level
among the cells of copies `1 … n` can only rise as `n` falls, and what is owed for copies `1 … n` lies at that level or above. -/

/-- With one more copy remaining the lowest level is no higher. -/
theorem lvLeft_succ_le (n : ℕ) : lvLeft (n + 1) ≤ lvLeft n := by
  unfold lvLeft
  split_ifs <;> first | omega | contradiction

/-- The credit of copy `k` lies on a receive cell of the copy's layer, at the level named for `k`. -/
theorem above_owedBy (c : Dev nD) (k : ℕ) (h1 : 1 ≤ k) (h27 : k ≤ 27) : Above (lvLeft k - 1) (owedBy c k) := by
  have hk : k = 1 ∨ k = 2 ∨ k = 3 ∨ k = 4 ∨ k = 5 ∨ k = 6 ∨ k = 7 ∨ k = 8 ∨ k = 9 ∨ k = 10 ∨ k = 11 ∨ k = 12 ∨ k = 13
      ∨ k = 14 ∨ k = 15 ∨ k = 16 ∨ k = 17 ∨ k = 18 ∨ k = 19 ∨ k = 20 ∨ k = 21 ∨ k = 22 ∨ k = 23 ∨ k = 24 ∨ k = 25
      ∨ k = 26 ∨ k = 27 := by omega
  rcases hk with rfl | rfl | rfl | rfl | rfl | rfl | rfl | rfl | rfl | rfl | rfl | rfl | rfl | rfl | rfl | rfl | rfl | rfl
    | rfl | rfl | rfl | rfl | rfl | rfl | rfl | rfl | rfl
  all_goals
    simp only [owedBy]
    exact Above.mono (by decide) (above_rcv _ (by decide) (by decide) (by decide) _ _)

/-- What is owed for the copies `1 … n` lies on cores' cells at the lowest level among those copies' cells, or above. -/
theorem above_left (c : Dev nD) (n : ℕ) (hn : n ≤ 27) : Above (lvLeft n - 1) (owesLeft c n) := by
  induction n with
  | zero => exact Supp.zero _
  | succ n ih =>
    rw [owesLeft_succ]
    exact Supp.add (Above.mono (Nat.sub_le_sub_right (lvLeft_succ_le n) 1) (ih (by omega)))
      (above_owedBy c (n + 1) (by omega) hn)

omit [FloatOps F] in
/-- A device may wait on any of its cells whose level is below the lowest level of the copies that remain. -/
theorem mayWait_left (c : Dev nD) (sm : SemLoc sig) (n : ℕ) (hn : n ≤ 27)
    (h : lv ((c : Thread nD τ), sm) () < lvLeft n) :
    (levAts L lv : sProp 𝕄) ⊢ MayWait (c : Thread nD τ) sm () (owesLeft c n) :=
  mayWait_of_above c sm (owesLeft c n) (fun g u hg => by
    have hg' := above_left c n hn g u hg
    exact ⟨hg'.1, by have := hg'.2; omega⟩)

omit [FloatOps F] in
/-- The same, the level comparison stated for every device: no level depends on the device, so at a literal cell the
    comparison holds of all four devices or of none. -/
theorem mayWait_left_all (c : Dev nD) (sm : SemLoc sig) (n : ℕ) (hn : n ≤ 27)
    (h : ∀ d : Dev nD, lv ((d : Thread nD τ), sm) () < lvLeft n) :
    (levAts L lv : sProp 𝕄) ⊢ MayWait (c : Thread nD τ) sm () (owesLeft c n) :=
  mayWait_left c sm n hn (h c)

/-! At literal cells the two premises are closed by evaluation. The bound on `n` is a closed numeral comparison. The level
    comparison names the waiting device, so it is evaluated with the device generalised; stated for every device it is a
    closed proposition and is evaluated as it stands. -/

/-- A layer-0 receive cell (level 2) while the copies of layer 1 and the reduce-scatter remain (lowest level 3). -/
example (c : Dev nD) : (levAts L lv : sProp 𝕄) ⊢
    MayWait (c : Thread nD τ) (SemLoc.dma (rcvS 0 0 1 inb_S3x4x4_S1x1x1_0_0_1)) () (owesLeft c 15) :=
  mayWait_left c _ 15 (by decide) (by decide +revert)

/-- The barrier cell (level 1) with all 27 copies remaining (lowest level 2). -/
example (c : Dev nD) : (levAts L lv : sProp 𝕄) ⊢ MayWait (c : Thread nD τ) (SemLoc.reg barS) () (owesLeft c 27) :=
  mayWait_left c _ 27 (by decide) (by decide +revert)

/-- A send cell (level 0) while the three reduce-scatter copies remain (lowest level 4). -/
example (c : Dev nD) : (levAts L lv : sProp 𝕄) ⊢
    MayWait (c : Thread nD τ) (SemLoc.dma (sndS 1 3 3 inb_S3x4x4_S1x1x1_1_3_3)) () (owesLeft c 3) :=
  mayWait_left c _ 3 (by decide) (by decide +revert)

/-- The same three through the form quantified over the device: both premises by plain evaluation. -/
example (c : Dev nD) : (levAts L lv : sProp 𝕄) ⊢
    MayWait (c : Thread nD τ) (SemLoc.dma (rcvS 0 0 1 inb_S3x4x4_S1x1x1_0_0_1)) () (owesLeft c 15) :=
  mayWait_left_all c _ 15 (by decide) (by decide)
example (c : Dev nD) : (levAts L lv : sProp 𝕄) ⊢ MayWait (c : Thread nD τ) (SemLoc.reg barS) () (owesLeft c 27) :=
  mayWait_left_all c _ 27 (by decide) (by decide)
example (c : Dev nD) : (levAts L lv : sProp 𝕄) ⊢
    MayWait (c : Thread nD τ) (SemLoc.dma (sndS 1 3 3 inb_S3x4x4_S1x1x1_1_3_3)) () (owesLeft c 3) :=
  mayWait_left_all c _ 3 (by decide) (by decide)

/-- info: 'Cert.KernelIdeal.Mlp.above_left' depends on axioms: [propext, Classical.choice, Quot.sound] -/
#guard_msgs in #print axioms above_left

/-- info: 'Cert.KernelIdeal.Mlp.mayWait_left' depends on axioms: [propext, Classical.choice, Quot.sound] -/
#guard_msgs in #print axioms mayWait_left

/-- info: 'Cert.KernelIdeal.Mlp.mayWait_left_all' depends on axioms: [propext, Classical.choice, Quot.sound] -/
#guard_msgs in #print axioms mayWait_left_all

end Cert.KernelIdeal.Mlp

end
-- ==== Proof.SendRule.lean ====
import proofs.«900991_g7700000000000992_dist_mlpseq_tp1d_rep_bs_b256_d256_h512_v7x_i4_bf16_1_alg».proof.Proof.BodyDefs
import Idealize.ShloMosaic.Lib.Pipeline.Value

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## A block held through a view

A points-to over the elements under a view sees only the contents at those elements, and a write of a whole payload
through the view fixes exactly those. -/

section Block

variable {sp : Space} {s : Shape} {e : EltTy}

omit [FloatOps F] in
/-- Contents that agree on the elements under the view give the same points-to over them. -/
theorem pointsTo_congr_on (t : Thread nD τ) (v : View sig t.2.kind sp s e) (q : PosShare TreeShare)
    {f g : Buf (Elt F) (v.loc t)} (h : ∀ i ∈ v.set, f i = g i) :
    (v.loc t ↦[v.set]{q} f : sProp 𝕄) ⊣⊢ (v.loc t ↦[v.set]{q} g) :=
  BIBase.BiEntails.of_eq (pointsTo_congr h)

omit [FloatOps F] in
/-- One payload written through the view over two bases: the results agree on the elements under the view. -/
theorem write_univ_agree {κ : Kind} (v : View sig κ sp s e) (fd fd' : v.ty.Contents (Elt F)) (x : s.Idx → Elt F e) :
    ∀ i ∈ v.set, v.write (Elt F) fd x Finset.univ i = v.write (Elt F) fd' x Finset.univ i := by
  intro i hi
  obtain ⟨y, rfl⟩ := View.exists_emb_of_mem_set v hi
  rw [View.write_emb_of_mem _ _ (Finset.mem_univ y), View.write_emb_of_mem _ _ (Finset.mem_univ y)]

omit [FloatOps F] in
/-- Writing back through the view what the view reads of `fs` gives `fs` again on the elements under the view. -/
theorem write_read_agree {κ : Kind} (v : View sig κ sp s e) (fd fs : v.ty.Contents (Elt F)) :
    ∀ i ∈ v.set, fs i = v.write (Elt F) fd (v.read (Elt F) fs) Finset.univ i := by
  intro i hi
  obtain ⟨y, rfl⟩ := View.exists_emb_of_mem_set v hi
  rw [View.write_emb_of_mem _ _ (Finset.mem_univ y), View.read_apply, cast_cast, cast_eq]

omit [FloatOps F] in
/-- Reading through the view what was written through it over the whole view gives the payload. -/
theorem read_write {κ : Kind} (v : View sig κ sp s e) (fd : v.ty.Contents (Elt F)) (x : s.Idx → Elt F e) :
    v.read (Elt F) (v.write (Elt F) fd x Finset.univ) = x :=
  View.read_write_univ fd x

end Block

/-- The copy of key `(0, 0, 2)`: device `c` sends its block to the device `2` ahead, paying the one duty of its own send cell
    and the one duty of that device's receive cell; the source share comes back with the send cell's credit. -/
theorem wp_send_0_0_2 (K : GSem nD τ sig → ℕ) (c : Dev nD)
    (fs : Buf (Elt F) ((c : Thread nD τ).loc cc0_scratch0)) (fd : Buf (Elt F) ((pe c 2 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 2 inb_S2x4x4x64x256_S1x1x1x64x256_0_0_2_0_0) : Memref sig (Dev.tc (pe c 2) : Thread nD τ).2.kind .vmem S64x256 .bf16).view.ref.isScScratch = false}
    {hsrc : (slotM 0 0 0 inb_S2x4x4x64x256_S1x1x1x64x256_0_0_0_0_0).view.WordExact} {hdst : (slotM 0 0 2 inb_S2x4x4x64x256_S1x1x1x64x256_0_0_2_0_0).view.WordExact}
    {hsem : DmaTarget.Typed .vmem (.dma (rcvS 0 0 2 inb_S3x4x4_S1x1x1_0_0_2)) (.remote (Dev.tc (pe c 2) : Thread nD τ) (slotM 0 0 2 inb_S2x4x4x64x256_S1x1x1x64x256_0_0_2_0_0) (.dma (sndS 0 0 2 inb_S3x4x4_S1x1x1_0_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
        ∗ cellInv ER (Rd val jk jr) (K ((pe c 2 : Thread nD τ), SemLoc.dma (rcvS 0 0 2 inb_S3x4x4_S1x1x1_0_0_2))) ((pe c 2 : Thread nD τ), SemLoc.dma (rcvS 0 0 2 inb_S3x4x4_S1x1x1_0_0_2))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} fs)
        ∗ ((slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} fd)
        ∗ owes (c : Thread nD τ) (O + tallyAt ((pe c 2 : Thread nD τ), SemLoc.dma (rcvS 0 0 2 inb_S3x4x4_S1x1x1_0_0_2)) () N) W
        ∗ dutyTok ER ((c : Thread nD τ), SemLoc.dma (sndS 0 0 2 inb_S3x4x4_S1x1x1_0_0_2)) 0 (0 : Fin 4) ∗ reached ER ((c : Thread nD τ), SemLoc.dma (sndS 0 0 2 inb_S3x4x4_S1x1x1_0_0_2)) 0
        ∗ dutyTok ER ((pe c 2 : Thread nD τ), SemLoc.dma (rcvS 0 0 2 inb_S3x4x4_S1x1x1_0_0_2)) 0 (0 : Fin 4) ∗ reached ER ((pe c 2 : Thread nD τ), SemLoc.dma (rcvS 0 0 2 inb_S3x4x4_S1x1x1_0_0_2)) 0)
      ⊢ iprop(((cred (tallyAt ((c : Thread nD τ), SemLoc.dma (sndS 0 0 2 inb_S3x4x4_S1x1x1_0_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc (pe c 2) : Thread nD τ) (slotM 0 0 2 inb_S2x4x4x64x256_S1x1x1x64x256_0_0_2_0_0) (.dma (sndS 0 0 2 inb_S3x4x4_S1x1x1_0_0_2)) hsc) (.dma (rcvS 0 0 2 inb_S3x4x4_S1x1x1_0_0_2)) hsrc hdst hsem) k) Q) := by
  refine Rounds.wp_send_pointsTo 𝒱₀ ER (Rd val jk jr) (c : Thread nD τ) none
    (c' := (pe c 2 : Thread nD τ)) (src := (slotM 0 0 0 inb_S2x4x4x64x256_S1x1x1x64x256_0_0_0_0_0)) (dst := (slotM 0 0 2 inb_S2x4x4x64x256_S1x1x1x64x256_0_0_2_0_0)) (q := Transfers.shareTokN fullShare 1) (fs := fs) (fd := fd)
    (κ₁ := K ((c : Thread nD τ), SemLoc.dma (sndS 0 0 2 inb_S3x4x4_S1x1x1_0_0_2))) (κ₂ := K ((pe c 2 : Thread nD τ), SemLoc.dma (rcvS 0 0 2 inb_S3x4x4_S1x1x1_0_0_2))) (r₁ := 0) (r₂ := 0) (d₁ := (0 : Fin 4)) (d₂ := (0 : Fin 4))
    (by rw [duties_snd_0_0_2]; exact Finset.mem_singleton_self _) (by rw [duties_rcv_0_0_2]; exact Finset.mem_singleton_self _)
    () () N rfl (amount_snd_0_0_2 val jk jr c 0) (amount_rcv_0_0_2 val jk jr (pe c 2) 0) O rfl (W := W) ?_ ?_
  · rw [payload_snd_0_0_2]
    exact (pointsTo_congr_on (c : Thread nD τ) (slotM 0 0 0 inb_S2x4x4x64x256_S1x1x1x64x256_0_0_0_0_0).view _ (by
      rw [← hfs]; exact write_read_agree (slotM 0 0 0 inb_S2x4x4x64x256_S1x1x1x64x256_0_0_0_0_0).view (jk c) fs)).1
  · rw [payload_rcv_0_0_2, ps_pe2, hfs]
    exact (pointsTo_congr_on (pe c 2 : Thread nD τ) (slotM 0 0 2 inb_S2x4x4x64x256_S1x1x1x64x256_0_0_2_0_0).view _
      (write_univ_agree (slotM 0 0 2 inb_S2x4x4x64x256_S1x1x1x64x256_0_0_2_0_0).view fd (jk (pe c 2)) (val c 0 0))).1

/-- info: 'Cert.KernelIdeal.Mlp.wp_send_0_0_2' depends on axioms: [propext, Classical.choice, Quot.sound] -/
#guard_msgs in #print axioms wp_send_0_0_2

end Cert.KernelIdeal.Mlp

end
-- ==== Proof.SendRules.lean ====
import proofs.«900991_g7700000000000992_dist_mlpseq_tp1d_rep_bs_b256_d256_h512_v7x_i4_bf16_1_alg».proof.Proof.SendRule

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! The rule of the copy of key `(0, 0, 2)`, at every other used key: layers 0 and 1 send block `p` of the exchange buffer from
    slot 0 to slot `o` of the device `o` ahead, lending the share numbered `o - 1` of the source; layer 2 sends reduce-scatter
    row `o` of the first bank to row `o` of the second bank of the device `o` ahead, lending the whole source. -/

/-- The copy of key `(0, 0, 1)`: device `c` sends its block to the device `1` ahead, paying the one duty of its own send cell
    and the one duty of that device's receive cell; the source share comes back with the send cell's credit. -/
theorem wp_send_0_0_1 (K : GSem nD τ sig → ℕ) (c : Dev nD)
    (fs : Buf (Elt F) ((c : Thread nD τ).loc cc0_scratch0)) (fd : Buf (Elt F) ((pe c 1 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 1 inb_S2x4x4x64x256_S1x1x1x64x256_0_0_1_0_0) : Memref sig (Dev.tc (pe c 1) : Thread nD τ).2.kind .vmem S64x256 .bf16).view.ref.isScScratch = false}
    {hsrc : (slotM 0 0 0 inb_S2x4x4x64x256_S1x1x1x64x256_0_0_0_0_0).view.WordExact} {hdst : (slotM 0 0 1 inb_S2x4x4x64x256_S1x1x1x64x256_0_0_1_0_0).view.WordExact}
    {hsem : DmaTarget.Typed .vmem (.dma (rcvS 0 0 1 inb_S3x4x4_S1x1x1_0_0_1)) (.remote (Dev.tc (pe c 1) : Thread nD τ) (slotM 0 0 1 inb_S2x4x4x64x256_S1x1x1x64x256_0_0_1_0_0) (.dma (sndS 0 0 1 inb_S3x4x4_S1x1x1_0_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
        ∗ cellInv ER (Rd val jk jr) (K ((pe c 1 : Thread nD τ), SemLoc.dma (rcvS 0 0 1 inb_S3x4x4_S1x1x1_0_0_1))) ((pe c 1 : Thread nD τ), SemLoc.dma (rcvS 0 0 1 inb_S3x4x4_S1x1x1_0_0_1))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} fs)
        ∗ ((slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} fd)
        ∗ owes (c : Thread nD τ) (O + tallyAt ((pe c 1 : Thread nD τ), SemLoc.dma (rcvS 0 0 1 inb_S3x4x4_S1x1x1_0_0_1)) () N) W
        ∗ dutyTok ER ((c : Thread nD τ), SemLoc.dma (sndS 0 0 1 inb_S3x4x4_S1x1x1_0_0_1)) 0 (0 : Fin 4) ∗ reached ER ((c : Thread nD τ), SemLoc.dma (sndS 0 0 1 inb_S3x4x4_S1x1x1_0_0_1)) 0
        ∗ dutyTok ER ((pe c 1 : Thread nD τ), SemLoc.dma (rcvS 0 0 1 inb_S3x4x4_S1x1x1_0_0_1)) 0 (0 : Fin 4) ∗ reached ER ((pe c 1 : Thread nD τ), SemLoc.dma (rcvS 0 0 1 inb_S3x4x4_S1x1x1_0_0_1)) 0)
      ⊢ iprop(((cred (tallyAt ((c : Thread nD τ), SemLoc.dma (sndS 0 0 1 inb_S3x4x4_S1x1x1_0_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc (pe c 1) : Thread nD τ) (slotM 0 0 1 inb_S2x4x4x64x256_S1x1x1x64x256_0_0_1_0_0) (.dma (sndS 0 0 1 inb_S3x4x4_S1x1x1_0_0_1)) hsc) (.dma (rcvS 0 0 1 inb_S3x4x4_S1x1x1_0_0_1)) hsrc hdst hsem) k) Q) := by
  refine Rounds.wp_send_pointsTo 𝒱₀ ER (Rd val jk jr) (c : Thread nD τ) none
    (c' := (pe c 1 : Thread nD τ)) (src := (slotM 0 0 0 inb_S2x4x4x64x256_S1x1x1x64x256_0_0_0_0_0)) (dst := (slotM 0 0 1 inb_S2x4x4x64x256_S1x1x1x64x256_0_0_1_0_0)) (q := Transfers.shareTokN fullShare 0) (fs := fs) (fd := fd)
    (κ₁ := K ((c : Thread nD τ), SemLoc.dma (sndS 0 0 1 inb_S3x4x4_S1x1x1_0_0_1))) (κ₂ := K ((pe c 1 : Thread nD τ), SemLoc.dma (rcvS 0 0 1 inb_S3x4x4_S1x1x1_0_0_1))) (r₁ := 0) (r₂ := 0) (d₁ := (0 : Fin 4)) (d₂ := (0 : Fin 4))
    (by rw [duties_snd_0_0_1]; exact Finset.mem_singleton_self _) (by rw [duties_rcv_0_0_1]; exact Finset.mem_singleton_self _)
    () () N rfl (amount_snd_0_0_1 val jk jr c 0) (amount_rcv_0_0_1 val jk jr (pe c 1) 0) O rfl (W := W) ?_ ?_
  · rw [payload_snd_0_0_1]
    exact (pointsTo_congr_on (c : Thread nD τ) (slotM 0 0 0 inb_S2x4x4x64x256_S1x1x1x64x256_0_0_0_0_0).view _ (by
      rw [← hfs]; exact write_read_agree (slotM 0 0 0 inb_S2x4x4x64x256_S1x1x1x64x256_0_0_0_0_0).view (jk c) fs)).1
  · rw [payload_rcv_0_0_1, ps_pe1, hfs]
    exact (pointsTo_congr_on (pe c 1 : Thread nD τ) (slotM 0 0 1 inb_S2x4x4x64x256_S1x1x1x64x256_0_0_1_0_0).view _
      (write_univ_agree (slotM 0 0 1 inb_S2x4x4x64x256_S1x1x1x64x256_0_0_1_0_0).view fd (jk (pe c 1)) (val c 0 0))).1

/-- info: 'Cert.KernelIdeal.Mlp.wp_send_0_0_1' depends on axioms: [propext, Classical.choice, Quot.sound] -/
#guard_msgs in #print axioms wp_send_0_0_1

/-- The copy of key `(0, 0, 3)`: device `c` sends its block to the device `3` ahead, paying the one duty of its own send cell
    and the one duty of that device's receive cell; the source share comes back with the send cell's credit. -/
theorem wp_send_0_0_3 (K : GSem nD τ sig → ℕ) (c : Dev nD)
    (fs : Buf (Elt F) ((c : Thread nD τ).loc cc0_scratch0)) (fd : Buf (Elt F) ((pe c 3 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 3 inb_S2x4x4x64x256_S1x1x1x64x256_0_0_3_0_0) : Memref sig (Dev.tc (pe c 3) : Thread nD τ).2.kind .vmem S64x256 .bf16).view.ref.isScScratch = false}
    {hsrc : (slotM 0 0 0 inb_S2x4x4x64x256_S1x1x1x64x256_0_0_0_0_0).view.WordExact} {hdst : (slotM 0 0 3 inb_S2x4x4x64x256_S1x1x1x64x256_0_0_3_0_0).view.WordExact}
    {hsem : DmaTarget.Typed .vmem (.dma (rcvS 0 0 3 inb_S3x4x4_S1x1x1_0_0_3)) (.remote (Dev.tc (pe c 3) : Thread nD τ) (slotM 0 0 3 inb_S2x4x4x64x256_S1x1x1x64x256_0_0_3_0_0) (.dma (sndS 0 0 3 inb_S3x4x4_S1x1x1_0_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
        ∗ cellInv ER (Rd val jk jr) (K ((pe c 3 : Thread nD τ), SemLoc.dma (rcvS 0 0 3 inb_S3x4x4_S1x1x1_0_0_3))) ((pe c 3 : Thread nD τ), SemLoc.dma (rcvS 0 0 3 inb_S3x4x4_S1x1x1_0_0_3))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} fs)
        ∗ ((slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} fd)
        ∗ owes (c : Thread nD τ) (O + tallyAt ((pe c 3 : Thread nD τ), SemLoc.dma (rcvS 0 0 3 inb_S3x4x4_S1x1x1_0_0_3)) () N) W
        ∗ dutyTok ER ((c : Thread nD τ), SemLoc.dma (sndS 0 0 3 inb_S3x4x4_S1x1x1_0_0_3)) 0 (0 : Fin 4) ∗ reached ER ((c : Thread nD τ), SemLoc.dma (sndS 0 0 3 inb_S3x4x4_S1x1x1_0_0_3)) 0
        ∗ dutyTok ER ((pe c 3 : Thread nD τ), SemLoc.dma (rcvS 0 0 3 inb_S3x4x4_S1x1x1_0_0_3)) 0 (0 : Fin 4) ∗ reached ER ((pe c 3 : Thread nD τ), SemLoc.dma (rcvS 0 0 3 inb_S3x4x4_S1x1x1_0_0_3)) 0)
      ⊢ iprop(((cred (tallyAt ((c : Thread nD τ), SemLoc.dma (sndS 0 0 3 inb_S3x4x4_S1x1x1_0_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc (pe c 3) : Thread nD τ) (slotM 0 0 3 inb_S2x4x4x64x256_S1x1x1x64x256_0_0_3_0_0) (.dma (sndS 0 0 3 inb_S3x4x4_S1x1x1_0_0_3)) hsc) (.dma (rcvS 0 0 3 inb_S3x4x4_S1x1x1_0_0_3)) hsrc hdst hsem) k) Q) := by
  refine Rounds.wp_send_pointsTo 𝒱₀ ER (Rd val jk jr) (c : Thread nD τ) none
    (c' := (pe c 3 : Thread nD τ)) (src := (slotM 0 0 0 inb_S2x4x4x64x256_S1x1x1x64x256_0_0_0_0_0)) (dst := (slotM 0 0 3 inb_S2x4x4x64x256_S1x1x1x64x256_0_0_3_0_0)) (q := Transfers.shareTokN fullShare 2) (fs := fs) (fd := fd)
    (κ₁ := K ((c : Thread nD τ), SemLoc.dma (sndS 0 0 3 inb_S3x4x4_S1x1x1_0_0_3))) (κ₂ := K ((pe c 3 : Thread nD τ), SemLoc.dma (rcvS 0 0 3 inb_S3x4x4_S1x1x1_0_0_3))) (r₁ := 0) (r₂ := 0) (d₁ := (0 : Fin 4)) (d₂ := (0 : Fin 4))
    (by rw [duties_snd_0_0_3]; exact Finset.mem_singleton_self _) (by rw [duties_rcv_0_0_3]; exact Finset.mem_singleton_self _)
    () () N rfl (amount_snd_0_0_3 val jk jr c 0) (amount_rcv_0_0_3 val jk jr (pe c 3) 0) O rfl (W := W) ?_ ?_
  · rw [payload_snd_0_0_3]
    exact (pointsTo_congr_on (c : Thread nD τ) (slotM 0 0 0 inb_S2x4x4x64x256_S1x1x1x64x256_0_0_0_0_0).view _ (by
      rw [← hfs]; exact write_read_agree (slotM 0 0 0 inb_S2x4x4x64x256_S1x1x1x64x256_0_0_0_0_0).view (jk c) fs)).1
  · rw [payload_rcv_0_0_3, ps_pe3, hfs]
    exact (pointsTo_congr_on (pe c 3 : Thread nD τ) (slotM 0 0 3 inb_S2x4x4x64x256_S1x1x1x64x256_0_0_3_0_0).view _
      (write_univ_agree (slotM 0 0 3 inb_S2x4x4x64x256_S1x1x1x64x256_0_0_3_0_0).view fd (jk (pe c 3)) (val c 0 0))).1

/-- info: 'Cert.KernelIdeal.Mlp.wp_send_0_0_3' depends on axioms: [propext, Classical.choice, Quot.sound] -/
#guard_msgs in #print axioms wp_send_0_0_3

/-- The copy of key `(0, 1, 1)`: device `c` sends its block to the device `1` ahead, paying the one duty of its own send cell
    and the one duty of that device's receive cell; the source share comes back with the send cell's credit. -/
theorem wp_send_0_1_1 (K : GSem nD τ sig → ℕ) (c : Dev nD)
    (fs : Buf (Elt F) ((c : Thread nD τ).loc cc0_scratch0)) (fd : Buf (Elt F) ((pe c 1 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 1 inb_S2x4x4x64x256_S1x1x1x64x256_0_1_1_0_0) : Memref sig (Dev.tc (pe c 1) : Thread nD τ).2.kind .vmem S64x256 .bf16).view.ref.isScScratch = false}
    {hsrc : (slotM 0 1 0 inb_S2x4x4x64x256_S1x1x1x64x256_0_1_0_0_0).view.WordExact} {hdst : (slotM 0 1 1 inb_S2x4x4x64x256_S1x1x1x64x256_0_1_1_0_0).view.WordExact}
    {hsem : DmaTarget.Typed .vmem (.dma (rcvS 0 1 1 inb_S3x4x4_S1x1x1_0_1_1)) (.remote (Dev.tc (pe c 1) : Thread nD τ) (slotM 0 1 1 inb_S2x4x4x64x256_S1x1x1x64x256_0_1_1_0_0) (.dma (sndS 0 1 1 inb_S3x4x4_S1x1x1_0_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
        ∗ cellInv ER (Rd val jk jr) (K ((pe c 1 : Thread nD τ), SemLoc.dma (rcvS 0 1 1 inb_S3x4x4_S1x1x1_0_1_1))) ((pe c 1 : Thread nD τ), SemLoc.dma (rcvS 0 1 1 inb_S3x4x4_S1x1x1_0_1_1))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} fs)
        ∗ ((slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} fd)
        ∗ owes (c : Thread nD τ) (O + tallyAt ((pe c 1 : Thread nD τ), SemLoc.dma (rcvS 0 1 1 inb_S3x4x4_S1x1x1_0_1_1)) () N) W
        ∗ dutyTok ER ((c : Thread nD τ), SemLoc.dma (sndS 0 1 1 inb_S3x4x4_S1x1x1_0_1_1)) 0 (0 : Fin 4) ∗ reached ER ((c : Thread nD τ), SemLoc.dma (sndS 0 1 1 inb_S3x4x4_S1x1x1_0_1_1)) 0
        ∗ dutyTok ER ((pe c 1 : Thread nD τ), SemLoc.dma (rcvS 0 1 1 inb_S3x4x4_S1x1x1_0_1_1)) 0 (0 : Fin 4) ∗ reached ER ((pe c 1 : Thread nD τ), SemLoc.dma (rcvS 0 1 1 inb_S3x4x4_S1x1x1_0_1_1)) 0)
      ⊢ iprop(((cred (tallyAt ((c : Thread nD τ), SemLoc.dma (sndS 0 1 1 inb_S3x4x4_S1x1x1_0_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc (pe c 1) : Thread nD τ) (slotM 0 1 1 inb_S2x4x4x64x256_S1x1x1x64x256_0_1_1_0_0) (.dma (sndS 0 1 1 inb_S3x4x4_S1x1x1_0_1_1)) hsc) (.dma (rcvS 0 1 1 inb_S3x4x4_S1x1x1_0_1_1)) hsrc hdst hsem) k) Q) := by
  refine Rounds.wp_send_pointsTo 𝒱₀ ER (Rd val jk jr) (c : Thread nD τ) none
    (c' := (pe c 1 : Thread nD τ)) (src := (slotM 0 1 0 inb_S2x4x4x64x256_S1x1x1x64x256_0_1_0_0_0)) (dst := (slotM 0 1 1 inb_S2x4x4x64x256_S1x1x1x64x256_0_1_1_0_0)) (q := Transfers.shareTokN fullShare 0) (fs := fs) (fd := fd)
    (κ₁ := K ((c : Thread nD τ), SemLoc.dma (sndS 0 1 1 inb_S3x4x4_S1x1x1_0_1_1))) (κ₂ := K ((pe c 1 : Thread nD τ), SemLoc.dma (rcvS 0 1 1 inb_S3x4x4_S1x1x1_0_1_1))) (r₁ := 0) (r₂ := 0) (d₁ := (0 : Fin 4)) (d₂ := (0 : Fin 4))
    (by rw [duties_snd_0_1_1]; exact Finset.mem_singleton_self _) (by rw [duties_rcv_0_1_1]; exact Finset.mem_singleton_self _)
    () () N rfl (amount_snd_0_1_1 val jk jr c 0) (amount_rcv_0_1_1 val jk jr (pe c 1) 0) O rfl (W := W) ?_ ?_
  · rw [payload_snd_0_1_1]
    exact (pointsTo_congr_on (c : Thread nD τ) (slotM 0 1 0 inb_S2x4x4x64x256_S1x1x1x64x256_0_1_0_0_0).view _ (by
      rw [← hfs]; exact write_read_agree (slotM 0 1 0 inb_S2x4x4x64x256_S1x1x1x64x256_0_1_0_0_0).view (jk c) fs)).1
  · rw [payload_rcv_0_1_1, ps_pe1, hfs]
    exact (pointsTo_congr_on (pe c 1 : Thread nD τ) (slotM 0 1 1 inb_S2x4x4x64x256_S1x1x1x64x256_0_1_1_0_0).view _
      (write_univ_agree (slotM 0 1 1 inb_S2x4x4x64x256_S1x1x1x64x256_0_1_1_0_0).view fd (jk (pe c 1)) (val c 0 1))).1

/-- info: 'Cert.KernelIdeal.Mlp.wp_send_0_1_1' depends on axioms: [propext, Classical.choice, Quot.sound] -/
#guard_msgs in #print axioms wp_send_0_1_1

/-- The copy of key `(0, 1, 2)`: device `c` sends its block to the device `2` ahead, paying the one duty of its own send cell
    and the one duty of that device's receive cell; the source share comes back with the send cell's credit. -/
theorem wp_send_0_1_2 (K : GSem nD τ sig → ℕ) (c : Dev nD)
    (fs : Buf (Elt F) ((c : Thread nD τ).loc cc0_scratch0)) (fd : Buf (Elt F) ((pe c 2 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 2 inb_S2x4x4x64x256_S1x1x1x64x256_0_1_2_0_0) : Memref sig (Dev.tc (pe c 2) : Thread nD τ).2.kind .vmem S64x256 .bf16).view.ref.isScScratch = false}
    {hsrc : (slotM 0 1 0 inb_S2x4x4x64x256_S1x1x1x64x256_0_1_0_0_0).view.WordExact} {hdst : (slotM 0 1 2 inb_S2x4x4x64x256_S1x1x1x64x256_0_1_2_0_0).view.WordExact}
    {hsem : DmaTarget.Typed .vmem (.dma (rcvS 0 1 2 inb_S3x4x4_S1x1x1_0_1_2)) (.remote (Dev.tc (pe c 2) : Thread nD τ) (slotM 0 1 2 inb_S2x4x4x64x256_S1x1x1x64x256_0_1_2_0_0) (.dma (sndS 0 1 2 inb_S3x4x4_S1x1x1_0_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
        ∗ cellInv ER (Rd val jk jr) (K ((pe c 2 : Thread nD τ), SemLoc.dma (rcvS 0 1 2 inb_S3x4x4_S1x1x1_0_1_2))) ((pe c 2 : Thread nD τ), SemLoc.dma (rcvS 0 1 2 inb_S3x4x4_S1x1x1_0_1_2))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} fs)
        ∗ ((slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} fd)
        ∗ owes (c : Thread nD τ) (O + tallyAt ((pe c 2 : Thread nD τ), SemLoc.dma (rcvS 0 1 2 inb_S3x4x4_S1x1x1_0_1_2)) () N) W
        ∗ dutyTok ER ((c : Thread nD τ), SemLoc.dma (sndS 0 1 2 inb_S3x4x4_S1x1x1_0_1_2)) 0 (0 : Fin 4) ∗ reached ER ((c : Thread nD τ), SemLoc.dma (sndS 0 1 2 inb_S3x4x4_S1x1x1_0_1_2)) 0
        ∗ dutyTok ER ((pe c 2 : Thread nD τ), SemLoc.dma (rcvS 0 1 2 inb_S3x4x4_S1x1x1_0_1_2)) 0 (0 : Fin 4) ∗ reached ER ((pe c 2 : Thread nD τ), SemLoc.dma (rcvS 0 1 2 inb_S3x4x4_S1x1x1_0_1_2)) 0)
      ⊢ iprop(((cred (tallyAt ((c : Thread nD τ), SemLoc.dma (sndS 0 1 2 inb_S3x4x4_S1x1x1_0_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc (pe c 2) : Thread nD τ) (slotM 0 1 2 inb_S2x4x4x64x256_S1x1x1x64x256_0_1_2_0_0) (.dma (sndS 0 1 2 inb_S3x4x4_S1x1x1_0_1_2)) hsc) (.dma (rcvS 0 1 2 inb_S3x4x4_S1x1x1_0_1_2)) hsrc hdst hsem) k) Q) := by
  refine Rounds.wp_send_pointsTo 𝒱₀ ER (Rd val jk jr) (c : Thread nD τ) none
    (c' := (pe c 2 : Thread nD τ)) (src := (slotM 0 1 0 inb_S2x4x4x64x256_S1x1x1x64x256_0_1_0_0_0)) (dst := (slotM 0 1 2 inb_S2x4x4x64x256_S1x1x1x64x256_0_1_2_0_0)) (q := Transfers.shareTokN fullShare 1) (fs := fs) (fd := fd)
    (κ₁ := K ((c : Thread nD τ), SemLoc.dma (sndS 0 1 2 inb_S3x4x4_S1x1x1_0_1_2))) (κ₂ := K ((pe c 2 : Thread nD τ), SemLoc.dma (rcvS 0 1 2 inb_S3x4x4_S1x1x1_0_1_2))) (r₁ := 0) (r₂ := 0) (d₁ := (0 : Fin 4)) (d₂ := (0 : Fin 4))
    (by rw [duties_snd_0_1_2]; exact Finset.mem_singleton_self _) (by rw [duties_rcv_0_1_2]; exact Finset.mem_singleton_self _)
    () () N rfl (amount_snd_0_1_2 val jk jr c 0) (amount_rcv_0_1_2 val jk jr (pe c 2) 0) O rfl (W := W) ?_ ?_
  · rw [payload_snd_0_1_2]
    exact (pointsTo_congr_on (c : Thread nD τ) (slotM 0 1 0 inb_S2x4x4x64x256_S1x1x1x64x256_0_1_0_0_0).view _ (by
      rw [← hfs]; exact write_read_agree (slotM 0 1 0 inb_S2x4x4x64x256_S1x1x1x64x256_0_1_0_0_0).view (jk c) fs)).1
  · rw [payload_rcv_0_1_2, ps_pe2, hfs]
    exact (pointsTo_congr_on (pe c 2 : Thread nD τ) (slotM 0 1 2 inb_S2x4x4x64x256_S1x1x1x64x256_0_1_2_0_0).view _
      (write_univ_agree (slotM 0 1 2 inb_S2x4x4x64x256_S1x1x1x64x256_0_1_2_0_0).view fd (jk (pe c 2)) (val c 0 1))).1

/-- info: 'Cert.KernelIdeal.Mlp.wp_send_0_1_2' depends on axioms: [propext, Classical.choice, Quot.sound] -/
#guard_msgs in #print axioms wp_send_0_1_2

/-- The copy of key `(0, 1, 3)`: device `c` sends its block to the device `3` ahead, paying the one duty of its own send cell
    and the one duty of that device's receive cell; the source share comes back with the send cell's credit. -/
theorem wp_send_0_1_3 (K : GSem nD τ sig → ℕ) (c : Dev nD)
    (fs : Buf (Elt F) ((c : Thread nD τ).loc cc0_scratch0)) (fd : Buf (Elt F) ((pe c 3 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 3 inb_S2x4x4x64x256_S1x1x1x64x256_0_1_3_0_0) : Memref sig (Dev.tc (pe c 3) : Thread nD τ).2.kind .vmem S64x256 .bf16).view.ref.isScScratch = false}
    {hsrc : (slotM 0 1 0 inb_S2x4x4x64x256_S1x1x1x64x256_0_1_0_0_0).view.WordExact} {hdst : (slotM 0 1 3 inb_S2x4x4x64x256_S1x1x1x64x256_0_1_3_0_0).view.WordExact}
    {hsem : DmaTarget.Typed .vmem (.dma (rcvS 0 1 3 inb_S3x4x4_S1x1x1_0_1_3)) (.remote (Dev.tc (pe c 3) : Thread nD τ) (slotM 0 1 3 inb_S2x4x4x64x256_S1x1x1x64x256_0_1_3_0_0) (.dma (sndS 0 1 3 inb_S3x4x4_S1x1x1_0_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
        ∗ cellInv ER (Rd val jk jr) (K ((pe c 3 : Thread nD τ), SemLoc.dma (rcvS 0 1 3 inb_S3x4x4_S1x1x1_0_1_3))) ((pe c 3 : Thread nD τ), SemLoc.dma (rcvS 0 1 3 inb_S3x4x4_S1x1x1_0_1_3))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} fs)
        ∗ ((slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} fd)
        ∗ owes (c : Thread nD τ) (O + tallyAt ((pe c 3 : Thread nD τ), SemLoc.dma (rcvS 0 1 3 inb_S3x4x4_S1x1x1_0_1_3)) () N) W
        ∗ dutyTok ER ((c : Thread nD τ), SemLoc.dma (sndS 0 1 3 inb_S3x4x4_S1x1x1_0_1_3)) 0 (0 : Fin 4) ∗ reached ER ((c : Thread nD τ), SemLoc.dma (sndS 0 1 3 inb_S3x4x4_S1x1x1_0_1_3)) 0
        ∗ dutyTok ER ((pe c 3 : Thread nD τ), SemLoc.dma (rcvS 0 1 3 inb_S3x4x4_S1x1x1_0_1_3)) 0 (0 : Fin 4) ∗ reached ER ((pe c 3 : Thread nD τ), SemLoc.dma (rcvS 0 1 3 inb_S3x4x4_S1x1x1_0_1_3)) 0)
      ⊢ iprop(((cred (tallyAt ((c : Thread nD τ), SemLoc.dma (sndS 0 1 3 inb_S3x4x4_S1x1x1_0_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc (pe c 3) : Thread nD τ) (slotM 0 1 3 inb_S2x4x4x64x256_S1x1x1x64x256_0_1_3_0_0) (.dma (sndS 0 1 3 inb_S3x4x4_S1x1x1_0_1_3)) hsc) (.dma (rcvS 0 1 3 inb_S3x4x4_S1x1x1_0_1_3)) hsrc hdst hsem) k) Q) := by
  refine Rounds.wp_send_pointsTo 𝒱₀ ER (Rd val jk jr) (c : Thread nD τ) none
    (c' := (pe c 3 : Thread nD τ)) (src := (slotM 0 1 0 inb_S2x4x4x64x256_S1x1x1x64x256_0_1_0_0_0)) (dst := (slotM 0 1 3 inb_S2x4x4x64x256_S1x1x1x64x256_0_1_3_0_0)) (q := Transfers.shareTokN fullShare 2) (fs := fs) (fd := fd)
    (κ₁ := K ((c : Thread nD τ), SemLoc.dma (sndS 0 1 3 inb_S3x4x4_S1x1x1_0_1_3))) (κ₂ := K ((pe c 3 : Thread nD τ), SemLoc.dma (rcvS 0 1 3 inb_S3x4x4_S1x1x1_0_1_3))) (r₁ := 0) (r₂ := 0) (d₁ := (0 : Fin 4)) (d₂ := (0 : Fin 4))
    (by rw [duties_snd_0_1_3]; exact Finset.mem_singleton_self _) (by rw [duties_rcv_0_1_3]; exact Finset.mem_singleton_self _)
    () () N rfl (amount_snd_0_1_3 val jk jr c 0) (amount_rcv_0_1_3 val jk jr (pe c 3) 0) O rfl (W := W) ?_ ?_
  · rw [payload_snd_0_1_3]
    exact (pointsTo_congr_on (c : Thread nD τ) (slotM 0 1 0 inb_S2x4x4x64x256_S1x1x1x64x256_0_1_0_0_0).view _ (by
      rw [← hfs]; exact write_read_agree (slotM 0 1 0 inb_S2x4x4x64x256_S1x1x1x64x256_0_1_0_0_0).view (jk c) fs)).1
  · rw [payload_rcv_0_1_3, ps_pe3, hfs]
    exact (pointsTo_congr_on (pe c 3 : Thread nD τ) (slotM 0 1 3 inb_S2x4x4x64x256_S1x1x1x64x256_0_1_3_0_0).view _
      (write_univ_agree (slotM 0 1 3 inb_S2x4x4x64x256_S1x1x1x64x256_0_1_3_0_0).view fd (jk (pe c 3)) (val c 0 1))).1

/-- info: 'Cert.KernelIdeal.Mlp.wp_send_0_1_3' depends on axioms: [propext, Classical.choice, Quot.sound] -/
#guard_msgs in #print axioms wp_send_0_1_3

/-- The copy of key `(0, 2, 1)`: device `c` sends its block to the device `1` ahead, paying the one duty of its own send cell
    and the one duty of that device's receive cell; the source share comes back with the send cell's credit. -/
theorem wp_send_0_2_1 (K : GSem nD τ sig → ℕ) (c : Dev nD)
    (fs : Buf (Elt F) ((c : Thread nD τ).loc cc0_scratch0)) (fd : Buf (Elt F) ((pe c 1 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 1 inb_S2x4x4x64x256_S1x1x1x64x256_0_2_1_0_0) : Memref sig (Dev.tc (pe c 1) : Thread nD τ).2.kind .vmem S64x256 .bf16).view.ref.isScScratch = false}
    {hsrc : (slotM 0 2 0 inb_S2x4x4x64x256_S1x1x1x64x256_0_2_0_0_0).view.WordExact} {hdst : (slotM 0 2 1 inb_S2x4x4x64x256_S1x1x1x64x256_0_2_1_0_0).view.WordExact}
    {hsem : DmaTarget.Typed .vmem (.dma (rcvS 0 2 1 inb_S3x4x4_S1x1x1_0_2_1)) (.remote (Dev.tc (pe c 1) : Thread nD τ) (slotM 0 2 1 inb_S2x4x4x64x256_S1x1x1x64x256_0_2_1_0_0) (.dma (sndS 0 2 1 inb_S3x4x4_S1x1x1_0_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
        ∗ cellInv ER (Rd val jk jr) (K ((pe c 1 : Thread nD τ), SemLoc.dma (rcvS 0 2 1 inb_S3x4x4_S1x1x1_0_2_1))) ((pe c 1 : Thread nD τ), SemLoc.dma (rcvS 0 2 1 inb_S3x4x4_S1x1x1_0_2_1))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} fs)
        ∗ ((slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} fd)
        ∗ owes (c : Thread nD τ) (O + tallyAt ((pe c 1 : Thread nD τ), SemLoc.dma (rcvS 0 2 1 inb_S3x4x4_S1x1x1_0_2_1)) () N) W
        ∗ dutyTok ER ((c : Thread nD τ), SemLoc.dma (sndS 0 2 1 inb_S3x4x4_S1x1x1_0_2_1)) 0 (0 : Fin 4) ∗ reached ER ((c : Thread nD τ), SemLoc.dma (sndS 0 2 1 inb_S3x4x4_S1x1x1_0_2_1)) 0
        ∗ dutyTok ER ((pe c 1 : Thread nD τ), SemLoc.dma (rcvS 0 2 1 inb_S3x4x4_S1x1x1_0_2_1)) 0 (0 : Fin 4) ∗ reached ER ((pe c 1 : Thread nD τ), SemLoc.dma (rcvS 0 2 1 inb_S3x4x4_S1x1x1_0_2_1)) 0)
      ⊢ iprop(((cred (tallyAt ((c : Thread nD τ), SemLoc.dma (sndS 0 2 1 inb_S3x4x4_S1x1x1_0_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc (pe c 1) : Thread nD τ) (slotM 0 2 1 inb_S2x4x4x64x256_S1x1x1x64x256_0_2_1_0_0) (.dma (sndS 0 2 1 inb_S3x4x4_S1x1x1_0_2_1)) hsc) (.dma (rcvS 0 2 1 inb_S3x4x4_S1x1x1_0_2_1)) hsrc hdst hsem) k) Q) := by
  refine Rounds.wp_send_pointsTo 𝒱₀ ER (Rd val jk jr) (c : Thread nD τ) none
    (c' := (pe c 1 : Thread nD τ)) (src := (slotM 0 2 0 inb_S2x4x4x64x256_S1x1x1x64x256_0_2_0_0_0)) (dst := (slotM 0 2 1 inb_S2x4x4x64x256_S1x1x1x64x256_0_2_1_0_0)) (q := Transfers.shareTokN fullShare 0) (fs := fs) (fd := fd)
    (κ₁ := K ((c : Thread nD τ), SemLoc.dma (sndS 0 2 1 inb_S3x4x4_S1x1x1_0_2_1))) (κ₂ := K ((pe c 1 : Thread nD τ), SemLoc.dma (rcvS 0 2 1 inb_S3x4x4_S1x1x1_0_2_1))) (r₁ := 0) (r₂ := 0) (d₁ := (0 : Fin 4)) (d₂ := (0 : Fin 4))
    (by rw [duties_snd_0_2_1]; exact Finset.mem_singleton_self _) (by rw [duties_rcv_0_2_1]; exact Finset.mem_singleton_self _)
    () () N rfl (amount_snd_0_2_1 val jk jr c 0) (amount_rcv_0_2_1 val jk jr (pe c 1) 0) O rfl (W := W) ?_ ?_
  · rw [payload_snd_0_2_1]
    exact (pointsTo_congr_on (c : Thread nD τ) (slotM 0 2 0 inb_S2x4x4x64x256_S1x1x1x64x256_0_2_0_0_0).view _ (by
      rw [← hfs]; exact write_read_agree (slotM 0 2 0 inb_S2x4x4x64x256_S1x1x1x64x256_0_2_0_0_0).view (jk c) fs)).1
  · rw [payload_rcv_0_2_1, ps_pe1, hfs]
    exact (pointsTo_congr_on (pe c 1 : Thread nD τ) (slotM 0 2 1 inb_S2x4x4x64x256_S1x1x1x64x256_0_2_1_0_0).view _
      (write_univ_agree (slotM 0 2 1 inb_S2x4x4x64x256_S1x1x1x64x256_0_2_1_0_0).view fd (jk (pe c 1)) (val c 0 2))).1

/-- info: 'Cert.KernelIdeal.Mlp.wp_send_0_2_1' depends on axioms: [propext, Classical.choice, Quot.sound] -/
#guard_msgs in #print axioms wp_send_0_2_1

/-- The copy of key `(0, 2, 2)`: device `c` sends its block to the device `2` ahead, paying the one duty of its own send cell
    and the one duty of that device's receive cell; the source share comes back with the send cell's credit. -/
theorem wp_send_0_2_2 (K : GSem nD τ sig → ℕ) (c : Dev nD)
    (fs : Buf (Elt F) ((c : Thread nD τ).loc cc0_scratch0)) (fd : Buf (Elt F) ((pe c 2 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 2 inb_S2x4x4x64x256_S1x1x1x64x256_0_2_2_0_0) : Memref sig (Dev.tc (pe c 2) : Thread nD τ).2.kind .vmem S64x256 .bf16).view.ref.isScScratch = false}
    {hsrc : (slotM 0 2 0 inb_S2x4x4x64x256_S1x1x1x64x256_0_2_0_0_0).view.WordExact} {hdst : (slotM 0 2 2 inb_S2x4x4x64x256_S1x1x1x64x256_0_2_2_0_0).view.WordExact}
    {hsem : DmaTarget.Typed .vmem (.dma (rcvS 0 2 2 inb_S3x4x4_S1x1x1_0_2_2)) (.remote (Dev.tc (pe c 2) : Thread nD τ) (slotM 0 2 2 inb_S2x4x4x64x256_S1x1x1x64x256_0_2_2_0_0) (.dma (sndS 0 2 2 inb_S3x4x4_S1x1x1_0_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
        ∗ cellInv ER (Rd val jk jr) (K ((pe c 2 : Thread nD τ), SemLoc.dma (rcvS 0 2 2 inb_S3x4x4_S1x1x1_0_2_2))) ((pe c 2 : Thread nD τ), SemLoc.dma (rcvS 0 2 2 inb_S3x4x4_S1x1x1_0_2_2))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} fs)
        ∗ ((slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} fd)
        ∗ owes (c : Thread nD τ) (O + tallyAt ((pe c 2 : Thread nD τ), SemLoc.dma (rcvS 0 2 2 inb_S3x4x4_S1x1x1_0_2_2)) () N) W
        ∗ dutyTok ER ((c : Thread nD τ), SemLoc.dma (sndS 0 2 2 inb_S3x4x4_S1x1x1_0_2_2)) 0 (0 : Fin 4) ∗ reached ER ((c : Thread nD τ), SemLoc.dma (sndS 0 2 2 inb_S3x4x4_S1x1x1_0_2_2)) 0
        ∗ dutyTok ER ((pe c 2 : Thread nD τ), SemLoc.dma (rcvS 0 2 2 inb_S3x4x4_S1x1x1_0_2_2)) 0 (0 : Fin 4) ∗ reached ER ((pe c 2 : Thread nD τ), SemLoc.dma (rcvS 0 2 2 inb_S3x4x4_S1x1x1_0_2_2)) 0)
      ⊢ iprop(((cred (tallyAt ((c : Thread nD τ), SemLoc.dma (sndS 0 2 2 inb_S3x4x4_S1x1x1_0_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc (pe c 2) : Thread nD τ) (slotM 0 2 2 inb_S2x4x4x64x256_S1x1x1x64x256_0_2_2_0_0) (.dma (sndS 0 2 2 inb_S3x4x4_S1x1x1_0_2_2)) hsc) (.dma (rcvS 0 2 2 inb_S3x4x4_S1x1x1_0_2_2)) hsrc hdst hsem) k) Q) := by
  refine Rounds.wp_send_pointsTo 𝒱₀ ER (Rd val jk jr) (c : Thread nD τ) none
    (c' := (pe c 2 : Thread nD τ)) (src := (slotM 0 2 0 inb_S2x4x4x64x256_S1x1x1x64x256_0_2_0_0_0)) (dst := (slotM 0 2 2 inb_S2x4x4x64x256_S1x1x1x64x256_0_2_2_0_0)) (q := Transfers.shareTokN fullShare 1) (fs := fs) (fd := fd)
    (κ₁ := K ((c : Thread nD τ), SemLoc.dma (sndS 0 2 2 inb_S3x4x4_S1x1x1_0_2_2))) (κ₂ := K ((pe c 2 : Thread nD τ), SemLoc.dma (rcvS 0 2 2 inb_S3x4x4_S1x1x1_0_2_2))) (r₁ := 0) (r₂ := 0) (d₁ := (0 : Fin 4)) (d₂ := (0 : Fin 4))
    (by rw [duties_snd_0_2_2]; exact Finset.mem_singleton_self _) (by rw [duties_rcv_0_2_2]; exact Finset.mem_singleton_self _)
    () () N rfl (amount_snd_0_2_2 val jk jr c 0) (amount_rcv_0_2_2 val jk jr (pe c 2) 0) O rfl (W := W) ?_ ?_
  · rw [payload_snd_0_2_2]
    exact (pointsTo_congr_on (c : Thread nD τ) (slotM 0 2 0 inb_S2x4x4x64x256_S1x1x1x64x256_0_2_0_0_0).view _ (by
      rw [← hfs]; exact write_read_agree (slotM 0 2 0 inb_S2x4x4x64x256_S1x1x1x64x256_0_2_0_0_0).view (jk c) fs)).1
  · rw [payload_rcv_0_2_2, ps_pe2, hfs]
    exact (pointsTo_congr_on (pe c 2 : Thread nD τ) (slotM 0 2 2 inb_S2x4x4x64x256_S1x1x1x64x256_0_2_2_0_0).view _
      (write_univ_agree (slotM 0 2 2 inb_S2x4x4x64x256_S1x1x1x64x256_0_2_2_0_0).view fd (jk (pe c 2)) (val c 0 2))).1

/-- info: 'Cert.KernelIdeal.Mlp.wp_send_0_2_2' depends on axioms: [propext, Classical.choice, Quot.sound] -/
#guard_msgs in #print axioms wp_send_0_2_2

/-- The copy of key `(0, 2, 3)`: device `c` sends its block to the device `3` ahead, paying the one duty of its own send cell
    and the one duty of that device's receive cell; the source share comes back with the send cell's credit. -/
theorem wp_send_0_2_3 (K : GSem nD τ sig → ℕ) (c : Dev nD)
    (fs : Buf (Elt F) ((c : Thread nD τ).loc cc0_scratch0)) (fd : Buf (Elt F) ((pe c 3 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 3 inb_S2x4x4x64x256_S1x1x1x64x256_0_2_3_0_0) : Memref sig (Dev.tc (pe c 3) : Thread nD τ).2.kind .vmem S64x256 .bf16).view.ref.isScScratch = false}
    {hsrc : (slotM 0 2 0 inb_S2x4x4x64x256_S1x1x1x64x256_0_2_0_0_0).view.WordExact} {hdst : (slotM 0 2 3 inb_S2x4x4x64x256_S1x1x1x64x256_0_2_3_0_0).view.WordExact}
    {hsem : DmaTarget.Typed .vmem (.dma (rcvS 0 2 3 inb_S3x4x4_S1x1x1_0_2_3)) (.remote (Dev.tc (pe c 3) : Thread nD τ) (slotM 0 2 3 inb_S2x4x4x64x256_S1x1x1x64x256_0_2_3_0_0) (.dma (sndS 0 2 3 inb_S3x4x4_S1x1x1_0_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
        ∗ cellInv ER (Rd val jk jr) (K ((pe c 3 : Thread nD τ), SemLoc.dma (rcvS 0 2 3 inb_S3x4x4_S1x1x1_0_2_3))) ((pe c 3 : Thread nD τ), SemLoc.dma (rcvS 0 2 3 inb_S3x4x4_S1x1x1_0_2_3))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} fs)
        ∗ ((slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} fd)
        ∗ owes (c : Thread nD τ) (O + tallyAt ((pe c 3 : Thread nD τ), SemLoc.dma (rcvS 0 2 3 inb_S3x4x4_S1x1x1_0_2_3)) () N) W
        ∗ dutyTok ER ((c : Thread nD τ), SemLoc.dma (sndS 0 2 3 inb_S3x4x4_S1x1x1_0_2_3)) 0 (0 : Fin 4) ∗ reached ER ((c : Thread nD τ), SemLoc.dma (sndS 0 2 3 inb_S3x4x4_S1x1x1_0_2_3)) 0
        ∗ dutyTok ER ((pe c 3 : Thread nD τ), SemLoc.dma (rcvS 0 2 3 inb_S3x4x4_S1x1x1_0_2_3)) 0 (0 : Fin 4) ∗ reached ER ((pe c 3 : Thread nD τ), SemLoc.dma (rcvS 0 2 3 inb_S3x4x4_S1x1x1_0_2_3)) 0)
      ⊢ iprop(((cred (tallyAt ((c : Thread nD τ), SemLoc.dma (sndS 0 2 3 inb_S3x4x4_S1x1x1_0_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc (pe c 3) : Thread nD τ) (slotM 0 2 3 inb_S2x4x4x64x256_S1x1x1x64x256_0_2_3_0_0) (.dma (sndS 0 2 3 inb_S3x4x4_S1x1x1_0_2_3)) hsc) (.dma (rcvS 0 2 3 inb_S3x4x4_S1x1x1_0_2_3)) hsrc hdst hsem) k) Q) := by
  refine Rounds.wp_send_pointsTo 𝒱₀ ER (Rd val jk jr) (c : Thread nD τ) none
    (c' := (pe c 3 : Thread nD τ)) (src := (slotM 0 2 0 inb_S2x4x4x64x256_S1x1x1x64x256_0_2_0_0_0)) (dst := (slotM 0 2 3 inb_S2x4x4x64x256_S1x1x1x64x256_0_2_3_0_0)) (q := Transfers.shareTokN fullShare 2) (fs := fs) (fd := fd)
    (κ₁ := K ((c : Thread nD τ), SemLoc.dma (sndS 0 2 3 inb_S3x4x4_S1x1x1_0_2_3))) (κ₂ := K ((pe c 3 : Thread nD τ), SemLoc.dma (rcvS 0 2 3 inb_S3x4x4_S1x1x1_0_2_3))) (r₁ := 0) (r₂ := 0) (d₁ := (0 : Fin 4)) (d₂ := (0 : Fin 4))
    (by rw [duties_snd_0_2_3]; exact Finset.mem_singleton_self _) (by rw [duties_rcv_0_2_3]; exact Finset.mem_singleton_self _)
    () () N rfl (amount_snd_0_2_3 val jk jr c 0) (amount_rcv_0_2_3 val jk jr (pe c 3) 0) O rfl (W := W) ?_ ?_
  · rw [payload_snd_0_2_3]
    exact (pointsTo_congr_on (c : Thread nD τ) (slotM 0 2 0 inb_S2x4x4x64x256_S1x1x1x64x256_0_2_0_0_0).view _ (by
      rw [← hfs]; exact write_read_agree (slotM 0 2 0 inb_S2x4x4x64x256_S1x1x1x64x256_0_2_0_0_0).view (jk c) fs)).1
  · rw [payload_rcv_0_2_3, ps_pe3, hfs]
    exact (pointsTo_congr_on (pe c 3 : Thread nD τ) (slotM 0 2 3 inb_S2x4x4x64x256_S1x1x1x64x256_0_2_3_0_0).view _
      (write_univ_agree (slotM 0 2 3 inb_S2x4x4x64x256_S1x1x1x64x256_0_2_3_0_0).view fd (jk (pe c 3)) (val c 0 2))).1

/-- info: 'Cert.KernelIdeal.Mlp.wp_send_0_2_3' depends on axioms: [propext, Classical.choice, Quot.sound] -/
#guard_msgs in #print axioms wp_send_0_2_3

/-- The copy of key `(0, 3, 1)`: device `c` sends its block to the device `1` ahead, paying the one duty of its own send cell
    and the one duty of that device's receive cell; the source share comes back with the send cell's credit. -/
theorem wp_send_0_3_1 (K : GSem nD τ sig → ℕ) (c : Dev nD)
    (fs : Buf (Elt F) ((c : Thread nD τ).loc cc0_scratch0)) (fd : Buf (Elt F) ((pe c 1 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 1 inb_S2x4x4x64x256_S1x1x1x64x256_0_3_1_0_0) : Memref sig (Dev.tc (pe c 1) : Thread nD τ).2.kind .vmem S64x256 .bf16).view.ref.isScScratch = false}
    {hsrc : (slotM 0 3 0 inb_S2x4x4x64x256_S1x1x1x64x256_0_3_0_0_0).view.WordExact} {hdst : (slotM 0 3 1 inb_S2x4x4x64x256_S1x1x1x64x256_0_3_1_0_0).view.WordExact}
    {hsem : DmaTarget.Typed .vmem (.dma (rcvS 0 3 1 inb_S3x4x4_S1x1x1_0_3_1)) (.remote (Dev.tc (pe c 1) : Thread nD τ) (slotM 0 3 1 inb_S2x4x4x64x256_S1x1x1x64x256_0_3_1_0_0) (.dma (sndS 0 3 1 inb_S3x4x4_S1x1x1_0_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
        ∗ cellInv ER (Rd val jk jr) (K ((pe c 1 : Thread nD τ), SemLoc.dma (rcvS 0 3 1 inb_S3x4x4_S1x1x1_0_3_1))) ((pe c 1 : Thread nD τ), SemLoc.dma (rcvS 0 3 1 inb_S3x4x4_S1x1x1_0_3_1))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} fs)
        ∗ ((slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} fd)
        ∗ owes (c : Thread nD τ) (O + tallyAt ((pe c 1 : Thread nD τ), SemLoc.dma (rcvS 0 3 1 inb_S3x4x4_S1x1x1_0_3_1)) () N) W
        ∗ dutyTok ER ((c : Thread nD τ), SemLoc.dma (sndS 0 3 1 inb_S3x4x4_S1x1x1_0_3_1)) 0 (0 : Fin 4) ∗ reached ER ((c : Thread nD τ), SemLoc.dma (sndS 0 3 1 inb_S3x4x4_S1x1x1_0_3_1)) 0
        ∗ dutyTok ER ((pe c 1 : Thread nD τ), SemLoc.dma (rcvS 0 3 1 inb_S3x4x4_S1x1x1_0_3_1)) 0 (0 : Fin 4) ∗ reached ER ((pe c 1 : Thread nD τ), SemLoc.dma (rcvS 0 3 1 inb_S3x4x4_S1x1x1_0_3_1)) 0)
      ⊢ iprop(((cred (tallyAt ((c : Thread nD τ), SemLoc.dma (sndS 0 3 1 inb_S3x4x4_S1x1x1_0_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc (pe c 1) : Thread nD τ) (slotM 0 3 1 inb_S2x4x4x64x256_S1x1x1x64x256_0_3_1_0_0) (.dma (sndS 0 3 1 inb_S3x4x4_S1x1x1_0_3_1)) hsc) (.dma (rcvS 0 3 1 inb_S3x4x4_S1x1x1_0_3_1)) hsrc hdst hsem) k) Q) := by
  refine Rounds.wp_send_pointsTo 𝒱₀ ER (Rd val jk jr) (c : Thread nD τ) none
    (c' := (pe c 1 : Thread nD τ)) (src := (slotM 0 3 0 inb_S2x4x4x64x256_S1x1x1x64x256_0_3_0_0_0)) (dst := (slotM 0 3 1 inb_S2x4x4x64x256_S1x1x1x64x256_0_3_1_0_0)) (q := Transfers.shareTokN fullShare 0) (fs := fs) (fd := fd)
    (κ₁ := K ((c : Thread nD τ), SemLoc.dma (sndS 0 3 1 inb_S3x4x4_S1x1x1_0_3_1))) (κ₂ := K ((pe c 1 : Thread nD τ), SemLoc.dma (rcvS 0 3 1 inb_S3x4x4_S1x1x1_0_3_1))) (r₁ := 0) (r₂ := 0) (d₁ := (0 : Fin 4)) (d₂ := (0 : Fin 4))
    (by rw [duties_snd_0_3_1]; exact Finset.mem_singleton_self _) (by rw [duties_rcv_0_3_1]; exact Finset.mem_singleton_self _)
    () () N rfl (amount_snd_0_3_1 val jk jr c 0) (amount_rcv_0_3_1 val jk jr (pe c 1) 0) O rfl (W := W) ?_ ?_
  · rw [payload_snd_0_3_1]
    exact (pointsTo_congr_on (c : Thread nD τ) (slotM 0 3 0 inb_S2x4x4x64x256_S1x1x1x64x256_0_3_0_0_0).view _ (by
      rw [← hfs]; exact write_read_agree (slotM 0 3 0 inb_S2x4x4x64x256_S1x1x1x64x256_0_3_0_0_0).view (jk c) fs)).1
  · rw [payload_rcv_0_3_1, ps_pe1, hfs]
    exact (pointsTo_congr_on (pe c 1 : Thread nD τ) (slotM 0 3 1 inb_S2x4x4x64x256_S1x1x1x64x256_0_3_1_0_0).view _
      (write_univ_agree (slotM 0 3 1 inb_S2x4x4x64x256_S1x1x1x64x256_0_3_1_0_0).view fd (jk (pe c 1)) (val c 0 3))).1

/-- info: 'Cert.KernelIdeal.Mlp.wp_send_0_3_1' depends on axioms: [propext, Classical.choice, Quot.sound] -/
#guard_msgs in #print axioms wp_send_0_3_1

/-- The copy of key `(0, 3, 2)`: device `c` sends its block to the device `2` ahead, paying the one duty of its own send cell
    and the one duty of that device's receive cell; the source share comes back with the send cell's credit. -/
theorem wp_send_0_3_2 (K : GSem nD τ sig → ℕ) (c : Dev nD)
    (fs : Buf (Elt F) ((c : Thread nD τ).loc cc0_scratch0)) (fd : Buf (Elt F) ((pe c 2 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 2 inb_S2x4x4x64x256_S1x1x1x64x256_0_3_2_0_0) : Memref sig (Dev.tc (pe c 2) : Thread nD τ).2.kind .vmem S64x256 .bf16).view.ref.isScScratch = false}
    {hsrc : (slotM 0 3 0 inb_S2x4x4x64x256_S1x1x1x64x256_0_3_0_0_0).view.WordExact} {hdst : (slotM 0 3 2 inb_S2x4x4x64x256_S1x1x1x64x256_0_3_2_0_0).view.WordExact}
    {hsem : DmaTarget.Typed .vmem (.dma (rcvS 0 3 2 inb_S3x4x4_S1x1x1_0_3_2)) (.remote (Dev.tc (pe c 2) : Thread nD τ) (slotM 0 3 2 inb_S2x4x4x64x256_S1x1x1x64x256_0_3_2_0_0) (.dma (sndS 0 3 2 inb_S3x4x4_S1x1x1_0_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
        ∗ cellInv ER (Rd val jk jr) (K ((pe c 2 : Thread nD τ), SemLoc.dma (rcvS 0 3 2 inb_S3x4x4_S1x1x1_0_3_2))) ((pe c 2 : Thread nD τ), SemLoc.dma (rcvS 0 3 2 inb_S3x4x4_S1x1x1_0_3_2))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} fs)
        ∗ ((slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} fd)
        ∗ owes (c : Thread nD τ) (O + tallyAt ((pe c 2 : Thread nD τ), SemLoc.dma (rcvS 0 3 2 inb_S3x4x4_S1x1x1_0_3_2)) () N) W
        ∗ dutyTok ER ((c : Thread nD τ), SemLoc.dma (sndS 0 3 2 inb_S3x4x4_S1x1x1_0_3_2)) 0 (0 : Fin 4) ∗ reached ER ((c : Thread nD τ), SemLoc.dma (sndS 0 3 2 inb_S3x4x4_S1x1x1_0_3_2)) 0
        ∗ dutyTok ER ((pe c 2 : Thread nD τ), SemLoc.dma (rcvS 0 3 2 inb_S3x4x4_S1x1x1_0_3_2)) 0 (0 : Fin 4) ∗ reached ER ((pe c 2 : Thread nD τ), SemLoc.dma (rcvS 0 3 2 inb_S3x4x4_S1x1x1_0_3_2)) 0)
      ⊢ iprop(((cred (tallyAt ((c : Thread nD τ), SemLoc.dma (sndS 0 3 2 inb_S3x4x4_S1x1x1_0_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc (pe c 2) : Thread nD τ) (slotM 0 3 2 inb_S2x4x4x64x256_S1x1x1x64x256_0_3_2_0_0) (.dma (sndS 0 3 2 inb_S3x4x4_S1x1x1_0_3_2)) hsc) (.dma (rcvS 0 3 2 inb_S3x4x4_S1x1x1_0_3_2)) hsrc hdst hsem) k) Q) := by
  refine Rounds.wp_send_pointsTo 𝒱₀ ER (Rd val jk jr) (c : Thread nD τ) none
    (c' := (pe c 2 : Thread nD τ)) (src := (slotM 0 3 0 inb_S2x4x4x64x256_S1x1x1x64x256_0_3_0_0_0)) (dst := (slotM 0 3 2 inb_S2x4x4x64x256_S1x1x1x64x256_0_3_2_0_0)) (q := Transfers.shareTokN fullShare 1) (fs := fs) (fd := fd)
    (κ₁ := K ((c : Thread nD τ), SemLoc.dma (sndS 0 3 2 inb_S3x4x4_S1x1x1_0_3_2))) (κ₂ := K ((pe c 2 : Thread nD τ), SemLoc.dma (rcvS 0 3 2 inb_S3x4x4_S1x1x1_0_3_2))) (r₁ := 0) (r₂ := 0) (d₁ := (0 : Fin 4)) (d₂ := (0 : Fin 4))
    (by rw [duties_snd_0_3_2]; exact Finset.mem_singleton_self _) (by rw [duties_rcv_0_3_2]; exact Finset.mem_singleton_self _)
    () () N rfl (amount_snd_0_3_2 val jk jr c 0) (amount_rcv_0_3_2 val jk jr (pe c 2) 0) O rfl (W := W) ?_ ?_
  · rw [payload_snd_0_3_2]
    exact (pointsTo_congr_on (c : Thread nD τ) (slotM 0 3 0 inb_S2x4x4x64x256_S1x1x1x64x256_0_3_0_0_0).view _ (by
      rw [← hfs]; exact write_read_agree (slotM 0 3 0 inb_S2x4x4x64x256_S1x1x1x64x256_0_3_0_0_0).view (jk c) fs)).1
  · rw [payload_rcv_0_3_2, ps_pe2, hfs]
    exact (pointsTo_congr_on (pe c 2 : Thread nD τ) (slotM 0 3 2 inb_S2x4x4x64x256_S1x1x1x64x256_0_3_2_0_0).view _
      (write_univ_agree (slotM 0 3 2 inb_S2x4x4x64x256_S1x1x1x64x256_0_3_2_0_0).view fd (jk (pe c 2)) (val c 0 3))).1

/-- info: 'Cert.KernelIdeal.Mlp.wp_send_0_3_2' depends on axioms: [propext, Classical.choice, Quot.sound] -/
#guard_msgs in #print axioms wp_send_0_3_2

/-- The copy of key `(0, 3, 3)`: device `c` sends its block to the device `3` ahead, paying the one duty of its own send cell
    and the one duty of that device's receive cell; the source share comes back with the send cell's credit. -/
theorem wp_send_0_3_3 (K : GSem nD τ sig → ℕ) (c : Dev nD)
    (fs : Buf (Elt F) ((c : Thread nD τ).loc cc0_scratch0)) (fd : Buf (Elt F) ((pe c 3 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 3 inb_S2x4x4x64x256_S1x1x1x64x256_0_3_3_0_0) : Memref sig (Dev.tc (pe c 3) : Thread nD τ).2.kind .vmem S64x256 .bf16).view.ref.isScScratch = false}
    {hsrc : (slotM 0 3 0 inb_S2x4x4x64x256_S1x1x1x64x256_0_3_0_0_0).view.WordExact} {hdst : (slotM 0 3 3 inb_S2x4x4x64x256_S1x1x1x64x256_0_3_3_0_0).view.WordExact}
    {hsem : DmaTarget.Typed .vmem (.dma (rcvS 0 3 3 inb_S3x4x4_S1x1x1_0_3_3)) (.remote (Dev.tc (pe c 3) : Thread nD τ) (slotM 0 3 3 inb_S2x4x4x64x256_S1x1x1x64x256_0_3_3_0_0) (.dma (sndS 0 3 3 inb_S3x4x4_S1x1x1_0_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
        ∗ cellInv ER (Rd val jk jr) (K ((pe c 3 : Thread nD τ), SemLoc.dma (rcvS 0 3 3 inb_S3x4x4_S1x1x1_0_3_3))) ((pe c 3 : Thread nD τ), SemLoc.dma (rcvS 0 3 3 inb_S3x4x4_S1x1x1_0_3_3))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} fs)
        ∗ ((slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} fd)
        ∗ owes (c : Thread nD τ) (O + tallyAt ((pe c 3 : Thread nD τ), SemLoc.dma (rcvS 0 3 3 inb_S3x4x4_S1x1x1_0_3_3)) () N) W
        ∗ dutyTok ER ((c : Thread nD τ), SemLoc.dma (sndS 0 3 3 inb_S3x4x4_S1x1x1_0_3_3)) 0 (0 : Fin 4) ∗ reached ER ((c : Thread nD τ), SemLoc.dma (sndS 0 3 3 inb_S3x4x4_S1x1x1_0_3_3)) 0
        ∗ dutyTok ER ((pe c 3 : Thread nD τ), SemLoc.dma (rcvS 0 3 3 inb_S3x4x4_S1x1x1_0_3_3)) 0 (0 : Fin 4) ∗ reached ER ((pe c 3 : Thread nD τ), SemLoc.dma (rcvS 0 3 3 inb_S3x4x4_S1x1x1_0_3_3)) 0)
      ⊢ iprop(((cred (tallyAt ((c : Thread nD τ), SemLoc.dma (sndS 0 3 3 inb_S3x4x4_S1x1x1_0_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc (pe c 3) : Thread nD τ) (slotM 0 3 3 inb_S2x4x4x64x256_S1x1x1x64x256_0_3_3_0_0) (.dma (sndS 0 3 3 inb_S3x4x4_S1x1x1_0_3_3)) hsc) (.dma (rcvS 0 3 3 inb_S3x4x4_S1x1x1_0_3_3)) hsrc hdst hsem) k) Q) := by
  refine Rounds.wp_send_pointsTo 𝒱₀ ER (Rd val jk jr) (c : Thread nD τ) none
    (c' := (pe c 3 : Thread nD τ)) (src := (slotM 0 3 0 inb_S2x4x4x64x256_S1x1x1x64x256_0_3_0_0_0)) (dst := (slotM 0 3 3 inb_S2x4x4x64x256_S1x1x1x64x256_0_3_3_0_0)) (q := Transfers.shareTokN fullShare 2) (fs := fs) (fd := fd)
    (κ₁ := K ((c : Thread nD τ), SemLoc.dma (sndS 0 3 3 inb_S3x4x4_S1x1x1_0_3_3))) (κ₂ := K ((pe c 3 : Thread nD τ), SemLoc.dma (rcvS 0 3 3 inb_S3x4x4_S1x1x1_0_3_3))) (r₁ := 0) (r₂ := 0) (d₁ := (0 : Fin 4)) (d₂ := (0 : Fin 4))
    (by rw [duties_snd_0_3_3]; exact Finset.mem_singleton_self _) (by rw [duties_rcv_0_3_3]; exact Finset.mem_singleton_self _)
    () () N rfl (amount_snd_0_3_3 val jk jr c 0) (amount_rcv_0_3_3 val jk jr (pe c 3) 0) O rfl (W := W) ?_ ?_
  · rw [payload_snd_0_3_3]
    exact (pointsTo_congr_on (c : Thread nD τ) (slotM 0 3 0 inb_S2x4x4x64x256_S1x1x1x64x256_0_3_0_0_0).view _ (by
      rw [← hfs]; exact write_read_agree (slotM 0 3 0 inb_S2x4x4x64x256_S1x1x1x64x256_0_3_0_0_0).view (jk c) fs)).1
  · rw [payload_rcv_0_3_3, ps_pe3, hfs]
    exact (pointsTo_congr_on (pe c 3 : Thread nD τ) (slotM 0 3 3 inb_S2x4x4x64x256_S1x1x1x64x256_0_3_3_0_0).view _
      (write_univ_agree (slotM 0 3 3 inb_S2x4x4x64x256_S1x1x1x64x256_0_3_3_0_0).view fd (jk (pe c 3)) (val c 0 3))).1

/-- info: 'Cert.KernelIdeal.Mlp.wp_send_0_3_3' depends on axioms: [propext, Classical.choice, Quot.sound] -/
#guard_msgs in #print axioms wp_send_0_3_3

/-- The copy of key `(1, 0, 1)`: device `c` sends its block to the device `1` ahead, paying the one duty of its own send cell
    and the one duty of that device's receive cell; the source share comes back with the send cell's credit. -/
theorem wp_send_1_0_1 (K : GSem nD τ sig → ℕ) (c : Dev nD)
    (fs : Buf (Elt F) ((c : Thread nD τ).loc cc0_scratch0)) (fd : Buf (Elt F) ((pe c 1 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 1 inb_S2x4x4x64x256_S1x1x1x64x256_1_0_1_0_0) : Memref sig (Dev.tc (pe c 1) : Thread nD τ).2.kind .vmem S64x256 .bf16).view.ref.isScScratch = false}
    {hsrc : (slotM 1 0 0 inb_S2x4x4x64x256_S1x1x1x64x256_1_0_0_0_0).view.WordExact} {hdst : (slotM 1 0 1 inb_S2x4x4x64x256_S1x1x1x64x256_1_0_1_0_0).view.WordExact}
    {hsem : DmaTarget.Typed .vmem (.dma (rcvS 1 0 1 inb_S3x4x4_S1x1x1_1_0_1)) (.remote (Dev.tc (pe c 1) : Thread nD τ) (slotM 1 0 1 inb_S2x4x4x64x256_S1x1x1x64x256_1_0_1_0_0) (.dma (sndS 1 0 1 inb_S3x4x4_S1x1x1_1_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
        ∗ cellInv ER (Rd val jk jr) (K ((pe c 1 : Thread nD τ), SemLoc.dma (rcvS 1 0 1 inb_S3x4x4_S1x1x1_1_0_1))) ((pe c 1 : Thread nD τ), SemLoc.dma (rcvS 1 0 1 inb_S3x4x4_S1x1x1_1_0_1))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} fs)
        ∗ ((slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} fd)
        ∗ owes (c : Thread nD τ) (O + tallyAt ((pe c 1 : Thread nD τ), SemLoc.dma (rcvS 1 0 1 inb_S3x4x4_S1x1x1_1_0_1)) () N) W
        ∗ dutyTok ER ((c : Thread nD τ), SemLoc.dma (sndS 1 0 1 inb_S3x4x4_S1x1x1_1_0_1)) 0 (0 : Fin 4) ∗ reached ER ((c : Thread nD τ), SemLoc.dma (sndS 1 0 1 inb_S3x4x4_S1x1x1_1_0_1)) 0
        ∗ dutyTok ER ((pe c 1 : Thread nD τ), SemLoc.dma (rcvS 1 0 1 inb_S3x4x4_S1x1x1_1_0_1)) 0 (0 : Fin 4) ∗ reached ER ((pe c 1 : Thread nD τ), SemLoc.dma (rcvS 1 0 1 inb_S3x4x4_S1x1x1_1_0_1)) 0)
      ⊢ iprop(((cred (tallyAt ((c : Thread nD τ), SemLoc.dma (sndS 1 0 1 inb_S3x4x4_S1x1x1_1_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc (pe c 1) : Thread nD τ) (slotM 1 0 1 inb_S2x4x4x64x256_S1x1x1x64x256_1_0_1_0_0) (.dma (sndS 1 0 1 inb_S3x4x4_S1x1x1_1_0_1)) hsc) (.dma (rcvS 1 0 1 inb_S3x4x4_S1x1x1_1_0_1)) hsrc hdst hsem) k) Q) := by
  refine Rounds.wp_send_pointsTo 𝒱₀ ER (Rd val jk jr) (c : Thread nD τ) none
    (c' := (pe c 1 : Thread nD τ)) (src := (slotM 1 0 0 inb_S2x4x4x64x256_S1x1x1x64x256_1_0_0_0_0)) (dst := (slotM 1 0 1 inb_S2x4x4x64x256_S1x1x1x64x256_1_0_1_0_0)) (q := Transfers.shareTokN fullShare 0) (fs := fs) (fd := fd)
    (κ₁ := K ((c : Thread nD τ), SemLoc.dma (sndS 1 0 1 inb_S3x4x4_S1x1x1_1_0_1))) (κ₂ := K ((pe c 1 : Thread nD τ), SemLoc.dma (rcvS 1 0 1 inb_S3x4x4_S1x1x1_1_0_1))) (r₁ := 0) (r₂ := 0) (d₁ := (0 : Fin 4)) (d₂ := (0 : Fin 4))
    (by rw [duties_snd_1_0_1]; exact Finset.mem_singleton_self _) (by rw [duties_rcv_1_0_1]; exact Finset.mem_singleton_self _)
    () () N rfl (amount_snd_1_0_1 val jk jr c 0) (amount_rcv_1_0_1 val jk jr (pe c 1) 0) O rfl (W := W) ?_ ?_
  · rw [payload_snd_1_0_1]
    exact (pointsTo_congr_on (c : Thread nD τ) (slotM 1 0 0 inb_S2x4x4x64x256_S1x1x1x64x256_1_0_0_0_0).view _ (by
      rw [← hfs]; exact write_read_agree (slotM 1 0 0 inb_S2x4x4x64x256_S1x1x1x64x256_1_0_0_0_0).view (jk c) fs)).1
  · rw [payload_rcv_1_0_1, ps_pe1, hfs]
    exact (pointsTo_congr_on (pe c 1 : Thread nD τ) (slotM 1 0 1 inb_S2x4x4x64x256_S1x1x1x64x256_1_0_1_0_0).view _
      (write_univ_agree (slotM 1 0 1 inb_S2x4x4x64x256_S1x1x1x64x256_1_0_1_0_0).view fd (jk (pe c 1)) (val c 1 0))).1

/-- info: 'Cert.KernelIdeal.Mlp.wp_send_1_0_1' depends on axioms: [propext, Classical.choice, Quot.sound] -/
#guard_msgs in #print axioms wp_send_1_0_1

/-- The copy of key `(1, 0, 2)`: device `c` sends its block to the device `2` ahead, paying the one duty of its own send cell
    and the one duty of that device's receive cell; the source share comes back with the send cell's credit. -/
theorem wp_send_1_0_2 (K : GSem nD τ sig → ℕ) (c : Dev nD)
    (fs : Buf (Elt F) ((c : Thread nD τ).loc cc0_scratch0)) (fd : Buf (Elt F) ((pe c 2 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 2 inb_S2x4x4x64x256_S1x1x1x64x256_1_0_2_0_0) : Memref sig (Dev.tc (pe c 2) : Thread nD τ).2.kind .vmem S64x256 .bf16).view.ref.isScScratch = false}
    {hsrc : (slotM 1 0 0 inb_S2x4x4x64x256_S1x1x1x64x256_1_0_0_0_0).view.WordExact} {hdst : (slotM 1 0 2 inb_S2x4x4x64x256_S1x1x1x64x256_1_0_2_0_0).view.WordExact}
    {hsem : DmaTarget.Typed .vmem (.dma (rcvS 1 0 2 inb_S3x4x4_S1x1x1_1_0_2)) (.remote (Dev.tc (pe c 2) : Thread nD τ) (slotM 1 0 2 inb_S2x4x4x64x256_S1x1x1x64x256_1_0_2_0_0) (.dma (sndS 1 0 2 inb_S3x4x4_S1x1x1_1_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
        ∗ cellInv ER (Rd val jk jr) (K ((pe c 2 : Thread nD τ), SemLoc.dma (rcvS 1 0 2 inb_S3x4x4_S1x1x1_1_0_2))) ((pe c 2 : Thread nD τ), SemLoc.dma (rcvS 1 0 2 inb_S3x4x4_S1x1x1_1_0_2))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} fs)
        ∗ ((slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} fd)
        ∗ owes (c : Thread nD τ) (O + tallyAt ((pe c 2 : Thread nD τ), SemLoc.dma (rcvS 1 0 2 inb_S3x4x4_S1x1x1_1_0_2)) () N) W
        ∗ dutyTok ER ((c : Thread nD τ), SemLoc.dma (sndS 1 0 2 inb_S3x4x4_S1x1x1_1_0_2)) 0 (0 : Fin 4) ∗ reached ER ((c : Thread nD τ), SemLoc.dma (sndS 1 0 2 inb_S3x4x4_S1x1x1_1_0_2)) 0
        ∗ dutyTok ER ((pe c 2 : Thread nD τ), SemLoc.dma (rcvS 1 0 2 inb_S3x4x4_S1x1x1_1_0_2)) 0 (0 : Fin 4) ∗ reached ER ((pe c 2 : Thread nD τ), SemLoc.dma (rcvS 1 0 2 inb_S3x4x4_S1x1x1_1_0_2)) 0)
      ⊢ iprop(((cred (tallyAt ((c : Thread nD τ), SemLoc.dma (sndS 1 0 2 inb_S3x4x4_S1x1x1_1_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc (pe c 2) : Thread nD τ) (slotM 1 0 2 inb_S2x4x4x64x256_S1x1x1x64x256_1_0_2_0_0) (.dma (sndS 1 0 2 inb_S3x4x4_S1x1x1_1_0_2)) hsc) (.dma (rcvS 1 0 2 inb_S3x4x4_S1x1x1_1_0_2)) hsrc hdst hsem) k) Q) := by
  refine Rounds.wp_send_pointsTo 𝒱₀ ER (Rd val jk jr) (c : Thread nD τ) none
    (c' := (pe c 2 : Thread nD τ)) (src := (slotM 1 0 0 inb_S2x4x4x64x256_S1x1x1x64x256_1_0_0_0_0)) (dst := (slotM 1 0 2 inb_S2x4x4x64x256_S1x1x1x64x256_1_0_2_0_0)) (q := Transfers.shareTokN fullShare 1) (fs := fs) (fd := fd)
    (κ₁ := K ((c : Thread nD τ), SemLoc.dma (sndS 1 0 2 inb_S3x4x4_S1x1x1_1_0_2))) (κ₂ := K ((pe c 2 : Thread nD τ), SemLoc.dma (rcvS 1 0 2 inb_S3x4x4_S1x1x1_1_0_2))) (r₁ := 0) (r₂ := 0) (d₁ := (0 : Fin 4)) (d₂ := (0 : Fin 4))
    (by rw [duties_snd_1_0_2]; exact Finset.mem_singleton_self _) (by rw [duties_rcv_1_0_2]; exact Finset.mem_singleton_self _)
    () () N rfl (amount_snd_1_0_2 val jk jr c 0) (amount_rcv_1_0_2 val jk jr (pe c 2) 0) O rfl (W := W) ?_ ?_
  · rw [payload_snd_1_0_2]
    exact (pointsTo_congr_on (c : Thread nD τ) (slotM 1 0 0 inb_S2x4x4x64x256_S1x1x1x64x256_1_0_0_0_0).view _ (by
      rw [← hfs]; exact write_read_agree (slotM 1 0 0 inb_S2x4x4x64x256_S1x1x1x64x256_1_0_0_0_0).view (jk c) fs)).1
  · rw [payload_rcv_1_0_2, ps_pe2, hfs]
    exact (pointsTo_congr_on (pe c 2 : Thread nD τ) (slotM 1 0 2 inb_S2x4x4x64x256_S1x1x1x64x256_1_0_2_0_0).view _
      (write_univ_agree (slotM 1 0 2 inb_S2x4x4x64x256_S1x1x1x64x256_1_0_2_0_0).view fd (jk (pe c 2)) (val c 1 0))).1

/-- info: 'Cert.KernelIdeal.Mlp.wp_send_1_0_2' depends on axioms: [propext, Classical.choice, Quot.sound] -/
#guard_msgs in #print axioms wp_send_1_0_2

/-- The copy of key `(1, 0, 3)`: device `c` sends its block to the device `3` ahead, paying the one duty of its own send cell
    and the one duty of that device's receive cell; the source share comes back with the send cell's credit. -/
theorem wp_send_1_0_3 (K : GSem nD τ sig → ℕ) (c : Dev nD)
    (fs : Buf (Elt F) ((c : Thread nD τ).loc cc0_scratch0)) (fd : Buf (Elt F) ((pe c 3 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 3 inb_S2x4x4x64x256_S1x1x1x64x256_1_0_3_0_0) : Memref sig (Dev.tc (pe c 3) : Thread nD τ).2.kind .vmem S64x256 .bf16).view.ref.isScScratch = false}
    {hsrc : (slotM 1 0 0 inb_S2x4x4x64x256_S1x1x1x64x256_1_0_0_0_0).view.WordExact} {hdst : (slotM 1 0 3 inb_S2x4x4x64x256_S1x1x1x64x256_1_0_3_0_0).view.WordExact}
    {hsem : DmaTarget.Typed .vmem (.dma (rcvS 1 0 3 inb_S3x4x4_S1x1x1_1_0_3)) (.remote (Dev.tc (pe c 3) : Thread nD τ) (slotM 1 0 3 inb_S2x4x4x64x256_S1x1x1x64x256_1_0_3_0_0) (.dma (sndS 1 0 3 inb_S3x4x4_S1x1x1_1_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
        ∗ cellInv ER (Rd val jk jr) (K ((pe c 3 : Thread nD τ), SemLoc.dma (rcvS 1 0 3 inb_S3x4x4_S1x1x1_1_0_3))) ((pe c 3 : Thread nD τ), SemLoc.dma (rcvS 1 0 3 inb_S3x4x4_S1x1x1_1_0_3))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} fs)
        ∗ ((slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} fd)
        ∗ owes (c : Thread nD τ) (O + tallyAt ((pe c 3 : Thread nD τ), SemLoc.dma (rcvS 1 0 3 inb_S3x4x4_S1x1x1_1_0_3)) () N) W
        ∗ dutyTok ER ((c : Thread nD τ), SemLoc.dma (sndS 1 0 3 inb_S3x4x4_S1x1x1_1_0_3)) 0 (0 : Fin 4) ∗ reached ER ((c : Thread nD τ), SemLoc.dma (sndS 1 0 3 inb_S3x4x4_S1x1x1_1_0_3)) 0
        ∗ dutyTok ER ((pe c 3 : Thread nD τ), SemLoc.dma (rcvS 1 0 3 inb_S3x4x4_S1x1x1_1_0_3)) 0 (0 : Fin 4) ∗ reached ER ((pe c 3 : Thread nD τ), SemLoc.dma (rcvS 1 0 3 inb_S3x4x4_S1x1x1_1_0_3)) 0)
      ⊢ iprop(((cred (tallyAt ((c : Thread nD τ), SemLoc.dma (sndS 1 0 3 inb_S3x4x4_S1x1x1_1_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc (pe c 3) : Thread nD τ) (slotM 1 0 3 inb_S2x4x4x64x256_S1x1x1x64x256_1_0_3_0_0) (.dma (sndS 1 0 3 inb_S3x4x4_S1x1x1_1_0_3)) hsc) (.dma (rcvS 1 0 3 inb_S3x4x4_S1x1x1_1_0_3)) hsrc hdst hsem) k) Q) := by
  refine Rounds.wp_send_pointsTo 𝒱₀ ER (Rd val jk jr) (c : Thread nD τ) none
    (c' := (pe c 3 : Thread nD τ)) (src := (slotM 1 0 0 inb_S2x4x4x64x256_S1x1x1x64x256_1_0_0_0_0)) (dst := (slotM 1 0 3 inb_S2x4x4x64x256_S1x1x1x64x256_1_0_3_0_0)) (q := Transfers.shareTokN fullShare 2) (fs := fs) (fd := fd)
    (κ₁ := K ((c : Thread nD τ), SemLoc.dma (sndS 1 0 3 inb_S3x4x4_S1x1x1_1_0_3))) (κ₂ := K ((pe c 3 : Thread nD τ), SemLoc.dma (rcvS 1 0 3 inb_S3x4x4_S1x1x1_1_0_3))) (r₁ := 0) (r₂ := 0) (d₁ := (0 : Fin 4)) (d₂ := (0 : Fin 4))
    (by rw [duties_snd_1_0_3]; exact Finset.mem_singleton_self _) (by rw [duties_rcv_1_0_3]; exact Finset.mem_singleton_self _)
    () () N rfl (amount_snd_1_0_3 val jk jr c 0) (amount_rcv_1_0_3 val jk jr (pe c 3) 0) O rfl (W := W) ?_ ?_
  · rw [payload_snd_1_0_3]
    exact (pointsTo_congr_on (c : Thread nD τ) (slotM 1 0 0 inb_S2x4x4x64x256_S1x1x1x64x256_1_0_0_0_0).view _ (by
      rw [← hfs]; exact write_read_agree (slotM 1 0 0 inb_S2x4x4x64x256_S1x1x1x64x256_1_0_0_0_0).view (jk c) fs)).1
  · rw [payload_rcv_1_0_3, ps_pe3, hfs]
    exact (pointsTo_congr_on (pe c 3 : Thread nD τ) (slotM 1 0 3 inb_S2x4x4x64x256_S1x1x1x64x256_1_0_3_0_0).view _
      (write_univ_agree (slotM 1 0 3 inb_S2x4x4x64x256_S1x1x1x64x256_1_0_3_0_0).view fd (jk (pe c 3)) (val c 1 0))).1

/-- info: 'Cert.KernelIdeal.Mlp.wp_send_1_0_3' depends on axioms: [propext, Classical.choice, Quot.sound] -/
#guard_msgs in #print axioms wp_send_1_0_3

/-- The copy of key `(1, 1, 1)`: device `c` sends its block to the device `1` ahead, paying the one duty of its own send cell
    and the one duty of that device's receive cell; the source share comes back with the send cell's credit. -/
theorem wp_send_1_1_1 (K : GSem nD τ sig → ℕ) (c : Dev nD)
    (fs : Buf (Elt F) ((c : Thread nD τ).loc cc0_scratch0)) (fd : Buf (Elt F) ((pe c 1 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 1 inb_S2x4x4x64x256_S1x1x1x64x256_1_1_1_0_0) : Memref sig (Dev.tc (pe c 1) : Thread nD τ).2.kind .vmem S64x256 .bf16).view.ref.isScScratch = false}
    {hsrc : (slotM 1 1 0 inb_S2x4x4x64x256_S1x1x1x64x256_1_1_0_0_0).view.WordExact} {hdst : (slotM 1 1 1 inb_S2x4x4x64x256_S1x1x1x64x256_1_1_1_0_0).view.WordExact}
    {hsem : DmaTarget.Typed .vmem (.dma (rcvS 1 1 1 inb_S3x4x4_S1x1x1_1_1_1)) (.remote (Dev.tc (pe c 1) : Thread nD τ) (slotM 1 1 1 inb_S2x4x4x64x256_S1x1x1x64x256_1_1_1_0_0) (.dma (sndS 1 1 1 inb_S3x4x4_S1x1x1_1_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
        ∗ cellInv ER (Rd val jk jr) (K ((pe c 1 : Thread nD τ), SemLoc.dma (rcvS 1 1 1 inb_S3x4x4_S1x1x1_1_1_1))) ((pe c 1 : Thread nD τ), SemLoc.dma (rcvS 1 1 1 inb_S3x4x4_S1x1x1_1_1_1))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} fs)
        ∗ ((slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} fd)
        ∗ owes (c : Thread nD τ) (O + tallyAt ((pe c 1 : Thread nD τ), SemLoc.dma (rcvS 1 1 1 inb_S3x4x4_S1x1x1_1_1_1)) () N) W
        ∗ dutyTok ER ((c : Thread nD τ), SemLoc.dma (sndS 1 1 1 inb_S3x4x4_S1x1x1_1_1_1)) 0 (0 : Fin 4) ∗ reached ER ((c : Thread nD τ), SemLoc.dma (sndS 1 1 1 inb_S3x4x4_S1x1x1_1_1_1)) 0
        ∗ dutyTok ER ((pe c 1 : Thread nD τ), SemLoc.dma (rcvS 1 1 1 inb_S3x4x4_S1x1x1_1_1_1)) 0 (0 : Fin 4) ∗ reached ER ((pe c 1 : Thread nD τ), SemLoc.dma (rcvS 1 1 1 inb_S3x4x4_S1x1x1_1_1_1)) 0)
      ⊢ iprop(((cred (tallyAt ((c : Thread nD τ), SemLoc.dma (sndS 1 1 1 inb_S3x4x4_S1x1x1_1_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc (pe c 1) : Thread nD τ) (slotM 1 1 1 inb_S2x4x4x64x256_S1x1x1x64x256_1_1_1_0_0) (.dma (sndS 1 1 1 inb_S3x4x4_S1x1x1_1_1_1)) hsc) (.dma (rcvS 1 1 1 inb_S3x4x4_S1x1x1_1_1_1)) hsrc hdst hsem) k) Q) := by
  refine Rounds.wp_send_pointsTo 𝒱₀ ER (Rd val jk jr) (c : Thread nD τ) none
    (c' := (pe c 1 : Thread nD τ)) (src := (slotM 1 1 0 inb_S2x4x4x64x256_S1x1x1x64x256_1_1_0_0_0)) (dst := (slotM 1 1 1 inb_S2x4x4x64x256_S1x1x1x64x256_1_1_1_0_0)) (q := Transfers.shareTokN fullShare 0) (fs := fs) (fd := fd)
    (κ₁ := K ((c : Thread nD τ), SemLoc.dma (sndS 1 1 1 inb_S3x4x4_S1x1x1_1_1_1))) (κ₂ := K ((pe c 1 : Thread nD τ), SemLoc.dma (rcvS 1 1 1 inb_S3x4x4_S1x1x1_1_1_1))) (r₁ := 0) (r₂ := 0) (d₁ := (0 : Fin 4)) (d₂ := (0 : Fin 4))
    (by rw [duties_snd_1_1_1]; exact Finset.mem_singleton_self _) (by rw [duties_rcv_1_1_1]; exact Finset.mem_singleton_self _)
    () () N rfl (amount_snd_1_1_1 val jk jr c 0) (amount_rcv_1_1_1 val jk jr (pe c 1) 0) O rfl (W := W) ?_ ?_
  · rw [payload_snd_1_1_1]
    exact (pointsTo_congr_on (c : Thread nD τ) (slotM 1 1 0 inb_S2x4x4x64x256_S1x1x1x64x256_1_1_0_0_0).view _ (by
      rw [← hfs]; exact write_read_agree (slotM 1 1 0 inb_S2x4x4x64x256_S1x1x1x64x256_1_1_0_0_0).view (jk c) fs)).1
  · rw [payload_rcv_1_1_1, ps_pe1, hfs]
    exact (pointsTo_congr_on (pe c 1 : Thread nD τ) (slotM 1 1 1 inb_S2x4x4x64x256_S1x1x1x64x256_1_1_1_0_0).view _
      (write_univ_agree (slotM 1 1 1 inb_S2x4x4x64x256_S1x1x1x64x256_1_1_1_0_0).view fd (jk (pe c 1)) (val c 1 1))).1

/-- info: 'Cert.KernelIdeal.Mlp.wp_send_1_1_1' depends on axioms: [propext, Classical.choice, Quot.sound] -/
#guard_msgs in #print axioms wp_send_1_1_1

/-- The copy of key `(1, 1, 2)`: device `c` sends its block to the device `2` ahead, paying the one duty of its own send cell
    and the one duty of that device's receive cell; the source share comes back with the send cell's credit. -/
theorem wp_send_1_1_2 (K : GSem nD τ sig → ℕ) (c : Dev nD)
    (fs : Buf (Elt F) ((c : Thread nD τ).loc cc0_scratch0)) (fd : Buf (Elt F) ((pe c 2 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 2 inb_S2x4x4x64x256_S1x1x1x64x256_1_1_2_0_0) : Memref sig (Dev.tc (pe c 2) : Thread nD τ).2.kind .vmem S64x256 .bf16).view.ref.isScScratch = false}
    {hsrc : (slotM 1 1 0 inb_S2x4x4x64x256_S1x1x1x64x256_1_1_0_0_0).view.WordExact} {hdst : (slotM 1 1 2 inb_S2x4x4x64x256_S1x1x1x64x256_1_1_2_0_0).view.WordExact}
    {hsem : DmaTarget.Typed .vmem (.dma (rcvS 1 1 2 inb_S3x4x4_S1x1x1_1_1_2)) (.remote (Dev.tc (pe c 2) : Thread nD τ) (slotM 1 1 2 inb_S2x4x4x64x256_S1x1x1x64x256_1_1_2_0_0) (.dma (sndS 1 1 2 inb_S3x4x4_S1x1x1_1_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
        ∗ cellInv ER (Rd val jk jr) (K ((pe c 2 : Thread nD τ), SemLoc.dma (rcvS 1 1 2 inb_S3x4x4_S1x1x1_1_1_2))) ((pe c 2 : Thread nD τ), SemLoc.dma (rcvS 1 1 2 inb_S3x4x4_S1x1x1_1_1_2))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} fs)
        ∗ ((slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} fd)
        ∗ owes (c : Thread nD τ) (O + tallyAt ((pe c 2 : Thread nD τ), SemLoc.dma (rcvS 1 1 2 inb_S3x4x4_S1x1x1_1_1_2)) () N) W
        ∗ dutyTok ER ((c : Thread nD τ), SemLoc.dma (sndS 1 1 2 inb_S3x4x4_S1x1x1_1_1_2)) 0 (0 : Fin 4) ∗ reached ER ((c : Thread nD τ), SemLoc.dma (sndS 1 1 2 inb_S3x4x4_S1x1x1_1_1_2)) 0
        ∗ dutyTok ER ((pe c 2 : Thread nD τ), SemLoc.dma (rcvS 1 1 2 inb_S3x4x4_S1x1x1_1_1_2)) 0 (0 : Fin 4) ∗ reached ER ((pe c 2 : Thread nD τ), SemLoc.dma (rcvS 1 1 2 inb_S3x4x4_S1x1x1_1_1_2)) 0)
      ⊢ iprop(((cred (tallyAt ((c : Thread nD τ), SemLoc.dma (sndS 1 1 2 inb_S3x4x4_S1x1x1_1_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc (pe c 2) : Thread nD τ) (slotM 1 1 2 inb_S2x4x4x64x256_S1x1x1x64x256_1_1_2_0_0) (.dma (sndS 1 1 2 inb_S3x4x4_S1x1x1_1_1_2)) hsc) (.dma (rcvS 1 1 2 inb_S3x4x4_S1x1x1_1_1_2)) hsrc hdst hsem) k) Q) := by
  refine Rounds.wp_send_pointsTo 𝒱₀ ER (Rd val jk jr) (c : Thread nD τ) none
    (c' := (pe c 2 : Thread nD τ)) (src := (slotM 1 1 0 inb_S2x4x4x64x256_S1x1x1x64x256_1_1_0_0_0)) (dst := (slotM 1 1 2 inb_S2x4x4x64x256_S1x1x1x64x256_1_1_2_0_0)) (q := Transfers.shareTokN fullShare 1) (fs := fs) (fd := fd)
    (κ₁ := K ((c : Thread nD τ), SemLoc.dma (sndS 1 1 2 inb_S3x4x4_S1x1x1_1_1_2))) (κ₂ := K ((pe c 2 : Thread nD τ), SemLoc.dma (rcvS 1 1 2 inb_S3x4x4_S1x1x1_1_1_2))) (r₁ := 0) (r₂ := 0) (d₁ := (0 : Fin 4)) (d₂ := (0 : Fin 4))
    (by rw [duties_snd_1_1_2]; exact Finset.mem_singleton_self _) (by rw [duties_rcv_1_1_2]; exact Finset.mem_singleton_self _)
    () () N rfl (amount_snd_1_1_2 val jk jr c 0) (amount_rcv_1_1_2 val jk jr (pe c 2) 0) O rfl (W := W) ?_ ?_
  · rw [payload_snd_1_1_2]
    exact (pointsTo_congr_on (c : Thread nD τ) (slotM 1 1 0 inb_S2x4x4x64x256_S1x1x1x64x256_1_1_0_0_0).view _ (by
      rw [← hfs]; exact write_read_agree (slotM 1 1 0 inb_S2x4x4x64x256_S1x1x1x64x256_1_1_0_0_0).view (jk c) fs)).1
  · rw [payload_rcv_1_1_2, ps_pe2, hfs]
    exact (pointsTo_congr_on (pe c 2 : Thread nD τ) (slotM 1 1 2 inb_S2x4x4x64x256_S1x1x1x64x256_1_1_2_0_0).view _
      (write_univ_agree (slotM 1 1 2 inb_S2x4x4x64x256_S1x1x1x64x256_1_1_2_0_0).view fd (jk (pe c 2)) (val c 1 1))).1

/-- info: 'Cert.KernelIdeal.Mlp.wp_send_1_1_2' depends on axioms: [propext, Classical.choice, Quot.sound] -/
#guard_msgs in #print axioms wp_send_1_1_2

/-- The copy of key `(1, 1, 3)`: device `c` sends its block to the device `3` ahead, paying the one duty of its own send cell
    and the one duty of that device's receive cell; the source share comes back with the send cell's credit. -/
theorem wp_send_1_1_3 (K : GSem nD τ sig → ℕ) (c : Dev nD)
    (fs : Buf (Elt F) ((c : Thread nD τ).loc cc0_scratch0)) (fd : Buf (Elt F) ((pe c 3 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 3 inb_S2x4x4x64x256_S1x1x1x64x256_1_1_3_0_0) : Memref sig (Dev.tc (pe c 3) : Thread nD τ).2.kind .vmem S64x256 .bf16).view.ref.isScScratch = false}
    {hsrc : (slotM 1 1 0 inb_S2x4x4x64x256_S1x1x1x64x256_1_1_0_0_0).view.WordExact} {hdst : (slotM 1 1 3 inb_S2x4x4x64x256_S1x1x1x64x256_1_1_3_0_0).view.WordExact}
    {hsem : DmaTarget.Typed .vmem (.dma (rcvS 1 1 3 inb_S3x4x4_S1x1x1_1_1_3)) (.remote (Dev.tc (pe c 3) : Thread nD τ) (slotM 1 1 3 inb_S2x4x4x64x256_S1x1x1x64x256_1_1_3_0_0) (.dma (sndS 1 1 3 inb_S3x4x4_S1x1x1_1_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
        ∗ cellInv ER (Rd val jk jr) (K ((pe c 3 : Thread nD τ), SemLoc.dma (rcvS 1 1 3 inb_S3x4x4_S1x1x1_1_1_3))) ((pe c 3 : Thread nD τ), SemLoc.dma (rcvS 1 1 3 inb_S3x4x4_S1x1x1_1_1_3))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} fs)
        ∗ ((slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} fd)
        ∗ owes (c : Thread nD τ) (O + tallyAt ((pe c 3 : Thread nD τ), SemLoc.dma (rcvS 1 1 3 inb_S3x4x4_S1x1x1_1_1_3)) () N) W
        ∗ dutyTok ER ((c : Thread nD τ), SemLoc.dma (sndS 1 1 3 inb_S3x4x4_S1x1x1_1_1_3)) 0 (0 : Fin 4) ∗ reached ER ((c : Thread nD τ), SemLoc.dma (sndS 1 1 3 inb_S3x4x4_S1x1x1_1_1_3)) 0
        ∗ dutyTok ER ((pe c 3 : Thread nD τ), SemLoc.dma (rcvS 1 1 3 inb_S3x4x4_S1x1x1_1_1_3)) 0 (0 : Fin 4) ∗ reached ER ((pe c 3 : Thread nD τ), SemLoc.dma (rcvS 1 1 3 inb_S3x4x4_S1x1x1_1_1_3)) 0)
      ⊢ iprop(((cred (tallyAt ((c : Thread nD τ), SemLoc.dma (sndS 1 1 3 inb_S3x4x4_S1x1x1_1_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc (pe c 3) : Thread nD τ) (slotM 1 1 3 inb_S2x4x4x64x256_S1x1x1x64x256_1_1_3_0_0) (.dma (sndS 1 1 3 inb_S3x4x4_S1x1x1_1_1_3)) hsc) (.dma (rcvS 1 1 3 inb_S3x4x4_S1x1x1_1_1_3)) hsrc hdst hsem) k) Q) := by
  refine Rounds.wp_send_pointsTo 𝒱₀ ER (Rd val jk jr) (c : Thread nD τ) none
    (c' := (pe c 3 : Thread nD τ)) (src := (slotM 1 1 0 inb_S2x4x4x64x256_S1x1x1x64x256_1_1_0_0_0)) (dst := (slotM 1 1 3 inb_S2x4x4x64x256_S1x1x1x64x256_1_1_3_0_0)) (q := Transfers.shareTokN fullShare 2) (fs := fs) (fd := fd)
    (κ₁ := K ((c : Thread nD τ), SemLoc.dma (sndS 1 1 3 inb_S3x4x4_S1x1x1_1_1_3))) (κ₂ := K ((pe c 3 : Thread nD τ), SemLoc.dma (rcvS 1 1 3 inb_S3x4x4_S1x1x1_1_1_3))) (r₁ := 0) (r₂ := 0) (d₁ := (0 : Fin 4)) (d₂ := (0 : Fin 4))
    (by rw [duties_snd_1_1_3]; exact Finset.mem_singleton_self _) (by rw [duties_rcv_1_1_3]; exact Finset.mem_singleton_self _)
    () () N rfl (amount_snd_1_1_3 val jk jr c 0) (amount_rcv_1_1_3 val jk jr (pe c 3) 0) O rfl (W := W) ?_ ?_
  · rw [payload_snd_1_1_3]
    exact (pointsTo_congr_on (c : Thread nD τ) (slotM 1 1 0 inb_S2x4x4x64x256_S1x1x1x64x256_1_1_0_0_0).view _ (by
      rw [← hfs]; exact write_read_agree (slotM 1 1 0 inb_S2x4x4x64x256_S1x1x1x64x256_1_1_0_0_0).view (jk c) fs)).1
  · rw [payload_rcv_1_1_3, ps_pe3, hfs]
    exact (pointsTo_congr_on (pe c 3 : Thread nD τ) (slotM 1 1 3 inb_S2x4x4x64x256_S1x1x1x64x256_1_1_3_0_0).view _
      (write_univ_agree (slotM 1 1 3 inb_S2x4x4x64x256_S1x1x1x64x256_1_1_3_0_0).view fd (jk (pe c 3)) (val c 1 1))).1

/-- info: 'Cert.KernelIdeal.Mlp.wp_send_1_1_3' depends on axioms: [propext, Classical.choice, Quot.sound] -/
#guard_msgs in #print axioms wp_send_1_1_3

/-- The copy of key `(1, 2, 1)`: device `c` sends its block to the device `1` ahead, paying the one duty of its own send cell
    and the one duty of that device's receive cell; the source share comes back with the send cell's credit. -/
theorem wp_send_1_2_1 (K : GSem nD τ sig → ℕ) (c : Dev nD)
    (fs : Buf (Elt F) ((c : Thread nD τ).loc cc0_scratch0)) (fd : Buf (Elt F) ((pe c 1 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 1 inb_S2x4x4x64x256_S1x1x1x64x256_1_2_1_0_0) : Memref sig (Dev.tc (pe c 1) : Thread nD τ).2.kind .vmem S64x256 .bf16).view.ref.isScScratch = false}
    {hsrc : (slotM 1 2 0 inb_S2x4x4x64x256_S1x1x1x64x256_1_2_0_0_0).view.WordExact} {hdst : (slotM 1 2 1 inb_S2x4x4x64x256_S1x1x1x64x256_1_2_1_0_0).view.WordExact}
    {hsem : DmaTarget.Typed .vmem (.dma (rcvS 1 2 1 inb_S3x4x4_S1x1x1_1_2_1)) (.remote (Dev.tc (pe c 1) : Thread nD τ) (slotM 1 2 1 inb_S2x4x4x64x256_S1x1x1x64x256_1_2_1_0_0) (.dma (sndS 1 2 1 inb_S3x4x4_S1x1x1_1_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
        ∗ cellInv ER (Rd val jk jr) (K ((pe c 1 : Thread nD τ), SemLoc.dma (rcvS 1 2 1 inb_S3x4x4_S1x1x1_1_2_1))) ((pe c 1 : Thread nD τ), SemLoc.dma (rcvS 1 2 1 inb_S3x4x4_S1x1x1_1_2_1))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} fs)
        ∗ ((slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} fd)
        ∗ owes (c : Thread nD τ) (O + tallyAt ((pe c 1 : Thread nD τ), SemLoc.dma (rcvS 1 2 1 inb_S3x4x4_S1x1x1_1_2_1)) () N) W
        ∗ dutyTok ER ((c : Thread nD τ), SemLoc.dma (sndS 1 2 1 inb_S3x4x4_S1x1x1_1_2_1)) 0 (0 : Fin 4) ∗ reached ER ((c : Thread nD τ), SemLoc.dma (sndS 1 2 1 inb_S3x4x4_S1x1x1_1_2_1)) 0
        ∗ dutyTok ER ((pe c 1 : Thread nD τ), SemLoc.dma (rcvS 1 2 1 inb_S3x4x4_S1x1x1_1_2_1)) 0 (0 : Fin 4) ∗ reached ER ((pe c 1 : Thread nD τ), SemLoc.dma (rcvS 1 2 1 inb_S3x4x4_S1x1x1_1_2_1)) 0)
      ⊢ iprop(((cred (tallyAt ((c : Thread nD τ), SemLoc.dma (sndS 1 2 1 inb_S3x4x4_S1x1x1_1_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc (pe c 1) : Thread nD τ) (slotM 1 2 1 inb_S2x4x4x64x256_S1x1x1x64x256_1_2_1_0_0) (.dma (sndS 1 2 1 inb_S3x4x4_S1x1x1_1_2_1)) hsc) (.dma (rcvS 1 2 1 inb_S3x4x4_S1x1x1_1_2_1)) hsrc hdst hsem) k) Q) := by
  refine Rounds.wp_send_pointsTo 𝒱₀ ER (Rd val jk jr) (c : Thread nD τ) none
    (c' := (pe c 1 : Thread nD τ)) (src := (slotM 1 2 0 inb_S2x4x4x64x256_S1x1x1x64x256_1_2_0_0_0)) (dst := (slotM 1 2 1 inb_S2x4x4x64x256_S1x1x1x64x256_1_2_1_0_0)) (q := Transfers.shareTokN fullShare 0) (fs := fs) (fd := fd)
    (κ₁ := K ((c : Thread nD τ), SemLoc.dma (sndS 1 2 1 inb_S3x4x4_S1x1x1_1_2_1))) (κ₂ := K ((pe c 1 : Thread nD τ), SemLoc.dma (rcvS 1 2 1 inb_S3x4x4_S1x1x1_1_2_1))) (r₁ := 0) (r₂ := 0) (d₁ := (0 : Fin 4)) (d₂ := (0 : Fin 4))
    (by rw [duties_snd_1_2_1]; exact Finset.mem_singleton_self _) (by rw [duties_rcv_1_2_1]; exact Finset.mem_singleton_self _)
    () () N rfl (amount_snd_1_2_1 val jk jr c 0) (amount_rcv_1_2_1 val jk jr (pe c 1) 0) O rfl (W := W) ?_ ?_
  · rw [payload_snd_1_2_1]
    exact (pointsTo_congr_on (c : Thread nD τ) (slotM 1 2 0 inb_S2x4x4x64x256_S1x1x1x64x256_1_2_0_0_0).view _ (by
      rw [← hfs]; exact write_read_agree (slotM 1 2 0 inb_S2x4x4x64x256_S1x1x1x64x256_1_2_0_0_0).view (jk c) fs)).1
  · rw [payload_rcv_1_2_1, ps_pe1, hfs]
    exact (pointsTo_congr_on (pe c 1 : Thread nD τ) (slotM 1 2 1 inb_S2x4x4x64x256_S1x1x1x64x256_1_2_1_0_0).view _
      (write_univ_agree (slotM 1 2 1 inb_S2x4x4x64x256_S1x1x1x64x256_1_2_1_0_0).view fd (jk (pe c 1)) (val c 1 2))).1

/-- info: 'Cert.KernelIdeal.Mlp.wp_send_1_2_1' depends on axioms: [propext, Classical.choice, Quot.sound] -/
#guard_msgs in #print axioms wp_send_1_2_1

/-- The copy of key `(1, 2, 2)`: device `c` sends its block to the device `2` ahead, paying the one duty of its own send cell
    and the one duty of that device's receive cell; the source share comes back with the send cell's credit. -/
theorem wp_send_1_2_2 (K : GSem nD τ sig → ℕ) (c : Dev nD)
    (fs : Buf (Elt F) ((c : Thread nD τ).loc cc0_scratch0)) (fd : Buf (Elt F) ((pe c 2 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 2 inb_S2x4x4x64x256_S1x1x1x64x256_1_2_2_0_0) : Memref sig (Dev.tc (pe c 2) : Thread nD τ).2.kind .vmem S64x256 .bf16).view.ref.isScScratch = false}
    {hsrc : (slotM 1 2 0 inb_S2x4x4x64x256_S1x1x1x64x256_1_2_0_0_0).view.WordExact} {hdst : (slotM 1 2 2 inb_S2x4x4x64x256_S1x1x1x64x256_1_2_2_0_0).view.WordExact}
    {hsem : DmaTarget.Typed .vmem (.dma (rcvS 1 2 2 inb_S3x4x4_S1x1x1_1_2_2)) (.remote (Dev.tc (pe c 2) : Thread nD τ) (slotM 1 2 2 inb_S2x4x4x64x256_S1x1x1x64x256_1_2_2_0_0) (.dma (sndS 1 2 2 inb_S3x4x4_S1x1x1_1_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
        ∗ cellInv ER (Rd val jk jr) (K ((pe c 2 : Thread nD τ), SemLoc.dma (rcvS 1 2 2 inb_S3x4x4_S1x1x1_1_2_2))) ((pe c 2 : Thread nD τ), SemLoc.dma (rcvS 1 2 2 inb_S3x4x4_S1x1x1_1_2_2))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} fs)
        ∗ ((slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} fd)
        ∗ owes (c : Thread nD τ) (O + tallyAt ((pe c 2 : Thread nD τ), SemLoc.dma (rcvS 1 2 2 inb_S3x4x4_S1x1x1_1_2_2)) () N) W
        ∗ dutyTok ER ((c : Thread nD τ), SemLoc.dma (sndS 1 2 2 inb_S3x4x4_S1x1x1_1_2_2)) 0 (0 : Fin 4) ∗ reached ER ((c : Thread nD τ), SemLoc.dma (sndS 1 2 2 inb_S3x4x4_S1x1x1_1_2_2)) 0
        ∗ dutyTok ER ((pe c 2 : Thread nD τ), SemLoc.dma (rcvS 1 2 2 inb_S3x4x4_S1x1x1_1_2_2)) 0 (0 : Fin 4) ∗ reached ER ((pe c 2 : Thread nD τ), SemLoc.dma (rcvS 1 2 2 inb_S3x4x4_S1x1x1_1_2_2)) 0)
      ⊢ iprop(((cred (tallyAt ((c : Thread nD τ), SemLoc.dma (sndS 1 2 2 inb_S3x4x4_S1x1x1_1_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc (pe c 2) : Thread nD τ) (slotM 1 2 2 inb_S2x4x4x64x256_S1x1x1x64x256_1_2_2_0_0) (.dma (sndS 1 2 2 inb_S3x4x4_S1x1x1_1_2_2)) hsc) (.dma (rcvS 1 2 2 inb_S3x4x4_S1x1x1_1_2_2)) hsrc hdst hsem) k) Q) := by
  refine Rounds.wp_send_pointsTo 𝒱₀ ER (Rd val jk jr) (c : Thread nD τ) none
    (c' := (pe c 2 : Thread nD τ)) (src := (slotM 1 2 0 inb_S2x4x4x64x256_S1x1x1x64x256_1_2_0_0_0)) (dst := (slotM 1 2 2 inb_S2x4x4x64x256_S1x1x1x64x256_1_2_2_0_0)) (q := Transfers.shareTokN fullShare 1) (fs := fs) (fd := fd)
    (κ₁ := K ((c : Thread nD τ), SemLoc.dma (sndS 1 2 2 inb_S3x4x4_S1x1x1_1_2_2))) (κ₂ := K ((pe c 2 : Thread nD τ), SemLoc.dma (rcvS 1 2 2 inb_S3x4x4_S1x1x1_1_2_2))) (r₁ := 0) (r₂ := 0) (d₁ := (0 : Fin 4)) (d₂ := (0 : Fin 4))
    (by rw [duties_snd_1_2_2]; exact Finset.mem_singleton_self _) (by rw [duties_rcv_1_2_2]; exact Finset.mem_singleton_self _)
    () () N rfl (amount_snd_1_2_2 val jk jr c 0) (amount_rcv_1_2_2 val jk jr (pe c 2) 0) O rfl (W := W) ?_ ?_
  · rw [payload_snd_1_2_2]
    exact (pointsTo_congr_on (c : Thread nD τ) (slotM 1 2 0 inb_S2x4x4x64x256_S1x1x1x64x256_1_2_0_0_0).view _ (by
      rw [← hfs]; exact write_read_agree (slotM 1 2 0 inb_S2x4x4x64x256_S1x1x1x64x256_1_2_0_0_0).view (jk c) fs)).1
  · rw [payload_rcv_1_2_2, ps_pe2, hfs]
    exact (pointsTo_congr_on (pe c 2 : Thread nD τ) (slotM 1 2 2 inb_S2x4x4x64x256_S1x1x1x64x256_1_2_2_0_0).view _
      (write_univ_agree (slotM 1 2 2 inb_S2x4x4x64x256_S1x1x1x64x256_1_2_2_0_0).view fd (jk (pe c 2)) (val c 1 2))).1

/-- info: 'Cert.KernelIdeal.Mlp.wp_send_1_2_2' depends on axioms: [propext, Classical.choice, Quot.sound] -/
#guard_msgs in #print axioms wp_send_1_2_2

/-- The copy of key `(1, 2, 3)`: device `c` sends its block to the device `3` ahead, paying the one duty of its own send cell
    and the one duty of that device's receive cell; the source share comes back with the send cell's credit. -/
theorem wp_send_1_2_3 (K : GSem nD τ sig → ℕ) (c : Dev nD)
    (fs : Buf (Elt F) ((c : Thread nD τ).loc cc0_scratch0)) (fd : Buf (Elt F) ((pe c 3 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 3 inb_S2x4x4x64x256_S1x1x1x64x256_1_2_3_0_0) : Memref sig (Dev.tc (pe c 3) : Thread nD τ).2.kind .vmem S64x256 .bf16).view.ref.isScScratch = false}
    {hsrc : (slotM 1 2 0 inb_S2x4x4x64x256_S1x1x1x64x256_1_2_0_0_0).view.WordExact} {hdst : (slotM 1 2 3 inb_S2x4x4x64x256_S1x1x1x64x256_1_2_3_0_0).view.WordExact}
    {hsem : DmaTarget.Typed .vmem (.dma (rcvS 1 2 3 inb_S3x4x4_S1x1x1_1_2_3)) (.remote (Dev.tc (pe c 3) : Thread nD τ) (slotM 1 2 3 inb_S2x4x4x64x256_S1x1x1x64x256_1_2_3_0_0) (.dma (sndS 1 2 3 inb_S3x4x4_S1x1x1_1_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
        ∗ cellInv ER (Rd val jk jr) (K ((pe c 3 : Thread nD τ), SemLoc.dma (rcvS 1 2 3 inb_S3x4x4_S1x1x1_1_2_3))) ((pe c 3 : Thread nD τ), SemLoc.dma (rcvS 1 2 3 inb_S3x4x4_S1x1x1_1_2_3))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} fs)
        ∗ ((slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} fd)
        ∗ owes (c : Thread nD τ) (O + tallyAt ((pe c 3 : Thread nD τ), SemLoc.dma (rcvS 1 2 3 inb_S3x4x4_S1x1x1_1_2_3)) () N) W
        ∗ dutyTok ER ((c : Thread nD τ), SemLoc.dma (sndS 1 2 3 inb_S3x4x4_S1x1x1_1_2_3)) 0 (0 : Fin 4) ∗ reached ER ((c : Thread nD τ), SemLoc.dma (sndS 1 2 3 inb_S3x4x4_S1x1x1_1_2_3)) 0
        ∗ dutyTok ER ((pe c 3 : Thread nD τ), SemLoc.dma (rcvS 1 2 3 inb_S3x4x4_S1x1x1_1_2_3)) 0 (0 : Fin 4) ∗ reached ER ((pe c 3 : Thread nD τ), SemLoc.dma (rcvS 1 2 3 inb_S3x4x4_S1x1x1_1_2_3)) 0)
      ⊢ iprop(((cred (tallyAt ((c : Thread nD τ), SemLoc.dma (sndS 1 2 3 inb_S3x4x4_S1x1x1_1_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc (pe c 3) : Thread nD τ) (slotM 1 2 3 inb_S2x4x4x64x256_S1x1x1x64x256_1_2_3_0_0) (.dma (sndS 1 2 3 inb_S3x4x4_S1x1x1_1_2_3)) hsc) (.dma (rcvS 1 2 3 inb_S3x4x4_S1x1x1_1_2_3)) hsrc hdst hsem) k) Q) := by
  refine Rounds.wp_send_pointsTo 𝒱₀ ER (Rd val jk jr) (c : Thread nD τ) none
    (c' := (pe c 3 : Thread nD τ)) (src := (slotM 1 2 0 inb_S2x4x4x64x256_S1x1x1x64x256_1_2_0_0_0)) (dst := (slotM 1 2 3 inb_S2x4x4x64x256_S1x1x1x64x256_1_2_3_0_0)) (q := Transfers.shareTokN fullShare 2) (fs := fs) (fd := fd)
    (κ₁ := K ((c : Thread nD τ), SemLoc.dma (sndS 1 2 3 inb_S3x4x4_S1x1x1_1_2_3))) (κ₂ := K ((pe c 3 : Thread nD τ), SemLoc.dma (rcvS 1 2 3 inb_S3x4x4_S1x1x1_1_2_3))) (r₁ := 0) (r₂ := 0) (d₁ := (0 : Fin 4)) (d₂ := (0 : Fin 4))
    (by rw [duties_snd_1_2_3]; exact Finset.mem_singleton_self _) (by rw [duties_rcv_1_2_3]; exact Finset.mem_singleton_self _)
    () () N rfl (amount_snd_1_2_3 val jk jr c 0) (amount_rcv_1_2_3 val jk jr (pe c 3) 0) O rfl (W := W) ?_ ?_
  · rw [payload_snd_1_2_3]
    exact (pointsTo_congr_on (c : Thread nD τ) (slotM 1 2 0 inb_S2x4x4x64x256_S1x1x1x64x256_1_2_0_0_0).view _ (by
      rw [← hfs]; exact write_read_agree (slotM 1 2 0 inb_S2x4x4x64x256_S1x1x1x64x256_1_2_0_0_0).view (jk c) fs)).1
  · rw [payload_rcv_1_2_3, ps_pe3, hfs]
    exact (pointsTo_congr_on (pe c 3 : Thread nD τ) (slotM 1 2 3 inb_S2x4x4x64x256_S1x1x1x64x256_1_2_3_0_0).view _
      (write_univ_agree (slotM 1 2 3 inb_S2x4x4x64x256_S1x1x1x64x256_1_2_3_0_0).view fd (jk (pe c 3)) (val c 1 2))).1

/-- info: 'Cert.KernelIdeal.Mlp.wp_send_1_2_3' depends on axioms: [propext, Classical.choice, Quot.sound] -/
#guard_msgs in #print axioms wp_send_1_2_3

/-- The copy of key `(1, 3, 1)`: device `c` sends its block to the device `1` ahead, paying the one duty of its own send cell
    and the one duty of that device's receive cell; the source share comes back with the send cell's credit. -/
theorem wp_send_1_3_1 (K : GSem nD τ sig → ℕ) (c : Dev nD)
    (fs : Buf (Elt F) ((c : Thread nD τ).loc cc0_scratch0)) (fd : Buf (Elt F) ((pe c 1 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 1 inb_S2x4x4x64x256_S1x1x1x64x256_1_3_1_0_0) : Memref sig (Dev.tc (pe c 1) : Thread nD τ).2.kind .vmem S64x256 .bf16).view.ref.isScScratch = false}
    {hsrc : (slotM 1 3 0 inb_S2x4x4x64x256_S1x1x1x64x256_1_3_0_0_0).view.WordExact} {hdst : (slotM 1 3 1 inb_S2x4x4x64x256_S1x1x1x64x256_1_3_1_0_0).view.WordExact}
    {hsem : DmaTarget.Typed .vmem (.dma (rcvS 1 3 1 inb_S3x4x4_S1x1x1_1_3_1)) (.remote (Dev.tc (pe c 1) : Thread nD τ) (slotM 1 3 1 inb_S2x4x4x64x256_S1x1x1x64x256_1_3_1_0_0) (.dma (sndS 1 3 1 inb_S3x4x4_S1x1x1_1_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
        ∗ cellInv ER (Rd val jk jr) (K ((pe c 1 : Thread nD τ), SemLoc.dma (rcvS 1 3 1 inb_S3x4x4_S1x1x1_1_3_1))) ((pe c 1 : Thread nD τ), SemLoc.dma (rcvS 1 3 1 inb_S3x4x4_S1x1x1_1_3_1))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} fs)
        ∗ ((slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} fd)
        ∗ owes (c : Thread nD τ) (O + tallyAt ((pe c 1 : Thread nD τ), SemLoc.dma (rcvS 1 3 1 inb_S3x4x4_S1x1x1_1_3_1)) () N) W
        ∗ dutyTok ER ((c : Thread nD τ), SemLoc.dma (sndS 1 3 1 inb_S3x4x4_S1x1x1_1_3_1)) 0 (0 : Fin 4) ∗ reached ER ((c : Thread nD τ), SemLoc.dma (sndS 1 3 1 inb_S3x4x4_S1x1x1_1_3_1)) 0
        ∗ dutyTok ER ((pe c 1 : Thread nD τ), SemLoc.dma (rcvS 1 3 1 inb_S3x4x4_S1x1x1_1_3_1)) 0 (0 : Fin 4) ∗ reached ER ((pe c 1 : Thread nD τ), SemLoc.dma (rcvS 1 3 1 inb_S3x4x4_S1x1x1_1_3_1)) 0)
      ⊢ iprop(((cred (tallyAt ((c : Thread nD τ), SemLoc.dma (sndS 1 3 1 inb_S3x4x4_S1x1x1_1_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc (pe c 1) : Thread nD τ) (slotM 1 3 1 inb_S2x4x4x64x256_S1x1x1x64x256_1_3_1_0_0) (.dma (sndS 1 3 1 inb_S3x4x4_S1x1x1_1_3_1)) hsc) (.dma (rcvS 1 3 1 inb_S3x4x4_S1x1x1_1_3_1)) hsrc hdst hsem) k) Q) := by
  refine Rounds.wp_send_pointsTo 𝒱₀ ER (Rd val jk jr) (c : Thread nD τ) none
    (c' := (pe c 1 : Thread nD τ)) (src := (slotM 1 3 0 inb_S2x4x4x64x256_S1x1x1x64x256_1_3_0_0_0)) (dst := (slotM 1 3 1 inb_S2x4x4x64x256_S1x1x1x64x256_1_3_1_0_0)) (q := Transfers.shareTokN fullShare 0) (fs := fs) (fd := fd)
    (κ₁ := K ((c : Thread nD τ), SemLoc.dma (sndS 1 3 1 inb_S3x4x4_S1x1x1_1_3_1))) (κ₂ := K ((pe c 1 : Thread nD τ), SemLoc.dma (rcvS 1 3 1 inb_S3x4x4_S1x1x1_1_3_1))) (r₁ := 0) (r₂ := 0) (d₁ := (0 : Fin 4)) (d₂ := (0 : Fin 4))
    (by rw [duties_snd_1_3_1]; exact Finset.mem_singleton_self _) (by rw [duties_rcv_1_3_1]; exact Finset.mem_singleton_self _)
    () () N rfl (amount_snd_1_3_1 val jk jr c 0) (amount_rcv_1_3_1 val jk jr (pe c 1) 0) O rfl (W := W) ?_ ?_
  · rw [payload_snd_1_3_1]
    exact (pointsTo_congr_on (c : Thread nD τ) (slotM 1 3 0 inb_S2x4x4x64x256_S1x1x1x64x256_1_3_0_0_0).view _ (by
      rw [← hfs]; exact write_read_agree (slotM 1 3 0 inb_S2x4x4x64x256_S1x1x1x64x256_1_3_0_0_0).view (jk c) fs)).1
  · rw [payload_rcv_1_3_1, ps_pe1, hfs]
    exact (pointsTo_congr_on (pe c 1 : Thread nD τ) (slotM 1 3 1 inb_S2x4x4x64x256_S1x1x1x64x256_1_3_1_0_0).view _
      (write_univ_agree (slotM 1 3 1 inb_S2x4x4x64x256_S1x1x1x64x256_1_3_1_0_0).view fd (jk (pe c 1)) (val c 1 3))).1

/-- info: 'Cert.KernelIdeal.Mlp.wp_send_1_3_1' depends on axioms: [propext, Classical.choice, Quot.sound] -/
#guard_msgs in #print axioms wp_send_1_3_1

/-- The copy of key `(1, 3, 2)`: device `c` sends its block to the device `2` ahead, paying the one duty of its own send cell
    and the one duty of that device's receive cell; the source share comes back with the send cell's credit. -/
theorem wp_send_1_3_2 (K : GSem nD τ sig → ℕ) (c : Dev nD)
    (fs : Buf (Elt F) ((c : Thread nD τ).loc cc0_scratch0)) (fd : Buf (Elt F) ((pe c 2 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 2 inb_S2x4x4x64x256_S1x1x1x64x256_1_3_2_0_0) : Memref sig (Dev.tc (pe c 2) : Thread nD τ).2.kind .vmem S64x256 .bf16).view.ref.isScScratch = false}
    {hsrc : (slotM 1 3 0 inb_S2x4x4x64x256_S1x1x1x64x256_1_3_0_0_0).view.WordExact} {hdst : (slotM 1 3 2 inb_S2x4x4x64x256_S1x1x1x64x256_1_3_2_0_0).view.WordExact}
    {hsem : DmaTarget.Typed .vmem (.dma (rcvS 1 3 2 inb_S3x4x4_S1x1x1_1_3_2)) (.remote (Dev.tc (pe c 2) : Thread nD τ) (slotM 1 3 2 inb_S2x4x4x64x256_S1x1x1x64x256_1_3_2_0_0) (.dma (sndS 1 3 2 inb_S3x4x4_S1x1x1_1_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
        ∗ cellInv ER (Rd val jk jr) (K ((pe c 2 : Thread nD τ), SemLoc.dma (rcvS 1 3 2 inb_S3x4x4_S1x1x1_1_3_2))) ((pe c 2 : Thread nD τ), SemLoc.dma (rcvS 1 3 2 inb_S3x4x4_S1x1x1_1_3_2))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} fs)
        ∗ ((slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} fd)
        ∗ owes (c : Thread nD τ) (O + tallyAt ((pe c 2 : Thread nD τ), SemLoc.dma (rcvS 1 3 2 inb_S3x4x4_S1x1x1_1_3_2)) () N) W
        ∗ dutyTok ER ((c : Thread nD τ), SemLoc.dma (sndS 1 3 2 inb_S3x4x4_S1x1x1_1_3_2)) 0 (0 : Fin 4) ∗ reached ER ((c : Thread nD τ), SemLoc.dma (sndS 1 3 2 inb_S3x4x4_S1x1x1_1_3_2)) 0
        ∗ dutyTok ER ((pe c 2 : Thread nD τ), SemLoc.dma (rcvS 1 3 2 inb_S3x4x4_S1x1x1_1_3_2)) 0 (0 : Fin 4) ∗ reached ER ((pe c 2 : Thread nD τ), SemLoc.dma (rcvS 1 3 2 inb_S3x4x4_S1x1x1_1_3_2)) 0)
      ⊢ iprop(((cred (tallyAt ((c : Thread nD τ), SemLoc.dma (sndS 1 3 2 inb_S3x4x4_S1x1x1_1_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc (pe c 2) : Thread nD τ) (slotM 1 3 2 inb_S2x4x4x64x256_S1x1x1x64x256_1_3_2_0_0) (.dma (sndS 1 3 2 inb_S3x4x4_S1x1x1_1_3_2)) hsc) (.dma (rcvS 1 3 2 inb_S3x4x4_S1x1x1_1_3_2)) hsrc hdst hsem) k) Q) := by
  refine Rounds.wp_send_pointsTo 𝒱₀ ER (Rd val jk jr) (c : Thread nD τ) none
    (c' := (pe c 2 : Thread nD τ)) (src := (slotM 1 3 0 inb_S2x4x4x64x256_S1x1x1x64x256_1_3_0_0_0)) (dst := (slotM 1 3 2 inb_S2x4x4x64x256_S1x1x1x64x256_1_3_2_0_0)) (q := Transfers.shareTokN fullShare 1) (fs := fs) (fd := fd)
    (κ₁ := K ((c : Thread nD τ), SemLoc.dma (sndS 1 3 2 inb_S3x4x4_S1x1x1_1_3_2))) (κ₂ := K ((pe c 2 : Thread nD τ), SemLoc.dma (rcvS 1 3 2 inb_S3x4x4_S1x1x1_1_3_2))) (r₁ := 0) (r₂ := 0) (d₁ := (0 : Fin 4)) (d₂ := (0 : Fin 4))
    (by rw [duties_snd_1_3_2]; exact Finset.mem_singleton_self _) (by rw [duties_rcv_1_3_2]; exact Finset.mem_singleton_self _)
    () () N rfl (amount_snd_1_3_2 val jk jr c 0) (amount_rcv_1_3_2 val jk jr (pe c 2) 0) O rfl (W := W) ?_ ?_
  · rw [payload_snd_1_3_2]
    exact (pointsTo_congr_on (c : Thread nD τ) (slotM 1 3 0 inb_S2x4x4x64x256_S1x1x1x64x256_1_3_0_0_0).view _ (by
      rw [← hfs]; exact write_read_agree (slotM 1 3 0 inb_S2x4x4x64x256_S1x1x1x64x256_1_3_0_0_0).view (jk c) fs)).1
  · rw [payload_rcv_1_3_2, ps_pe2, hfs]
    exact (pointsTo_congr_on (pe c 2 : Thread nD τ) (slotM 1 3 2 inb_S2x4x4x64x256_S1x1x1x64x256_1_3_2_0_0).view _
      (write_univ_agree (slotM 1 3 2 inb_S2x4x4x64x256_S1x1x1x64x256_1_3_2_0_0).view fd (jk (pe c 2)) (val c 1 3))).1

/-- info: 'Cert.KernelIdeal.Mlp.wp_send_1_3_2' depends on axioms: [propext, Classical.choice, Quot.sound] -/
#guard_msgs in #print axioms wp_send_1_3_2

/-- The copy of key `(1, 3, 3)`: device `c` sends its block to the device `3` ahead, paying the one duty of its own send cell
    and the one duty of that device's receive cell; the source share comes back with the send cell's credit. -/
theorem wp_send_1_3_3 (K : GSem nD τ sig → ℕ) (c : Dev nD)
    (fs : Buf (Elt F) ((c : Thread nD τ).loc cc0_scratch0)) (fd : Buf (Elt F) ((pe c 3 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 3 inb_S2x4x4x64x256_S1x1x1x64x256_1_3_3_0_0) : Memref sig (Dev.tc (pe c 3) : Thread nD τ).2.kind .vmem S64x256 .bf16).view.ref.isScScratch = false}
    {hsrc : (slotM 1 3 0 inb_S2x4x4x64x256_S1x1x1x64x256_1_3_0_0_0).view.WordExact} {hdst : (slotM 1 3 3 inb_S2x4x4x64x256_S1x1x1x64x256_1_3_3_0_0).view.WordExact}
    {hsem : DmaTarget.Typed .vmem (.dma (rcvS 1 3 3 inb_S3x4x4_S1x1x1_1_3_3)) (.remote (Dev.tc (pe c 3) : Thread nD τ) (slotM 1 3 3 inb_S2x4x4x64x256_S1x1x1x64x256_1_3_3_0_0) (.dma (sndS 1 3 3 inb_S3x4x4_S1x1x1_1_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
        ∗ cellInv ER (Rd val jk jr) (K ((pe c 3 : Thread nD τ), SemLoc.dma (rcvS 1 3 3 inb_S3x4x4_S1x1x1_1_3_3))) ((pe c 3 : Thread nD τ), SemLoc.dma (rcvS 1 3 3 inb_S3x4x4_S1x1x1_1_3_3))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} fs)
        ∗ ((slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} fd)
        ∗ owes (c : Thread nD τ) (O + tallyAt ((pe c 3 : Thread nD τ), SemLoc.dma (rcvS 1 3 3 inb_S3x4x4_S1x1x1_1_3_3)) () N) W
        ∗ dutyTok ER ((c : Thread nD τ), SemLoc.dma (sndS 1 3 3 inb_S3x4x4_S1x1x1_1_3_3)) 0 (0 : Fin 4) ∗ reached ER ((c : Thread nD τ), SemLoc.dma (sndS 1 3 3 inb_S3x4x4_S1x1x1_1_3_3)) 0
        ∗ dutyTok ER ((pe c 3 : Thread nD τ), SemLoc.dma (rcvS 1 3 3 inb_S3x4x4_S1x1x1_1_3_3)) 0 (0 : Fin 4) ∗ reached ER ((pe c 3 : Thread nD τ), SemLoc.dma (rcvS 1 3 3 inb_S3x4x4_S1x1x1_1_3_3)) 0)
      ⊢ iprop(((cred (tallyAt ((c : Thread nD τ), SemLoc.dma (sndS 1 3 3 inb_S3x4x4_S1x1x1_1_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc (pe c 3) : Thread nD τ) (slotM 1 3 3 inb_S2x4x4x64x256_S1x1x1x64x256_1_3_3_0_0) (.dma (sndS 1 3 3 inb_S3x4x4_S1x1x1_1_3_3)) hsc) (.dma (rcvS 1 3 3 inb_S3x4x4_S1x1x1_1_3_3)) hsrc hdst hsem) k) Q) := by
  refine Rounds.wp_send_pointsTo 𝒱₀ ER (Rd val jk jr) (c : Thread nD τ) none
    (c' := (pe c 3 : Thread nD τ)) (src := (slotM 1 3 0 inb_S2x4x4x64x256_S1x1x1x64x256_1_3_0_0_0)) (dst := (slotM 1 3 3 inb_S2x4x4x64x256_S1x1x1x64x256_1_3_3_0_0)) (q := Transfers.shareTokN fullShare 2) (fs := fs) (fd := fd)
    (κ₁ := K ((c : Thread nD τ), SemLoc.dma (sndS 1 3 3 inb_S3x4x4_S1x1x1_1_3_3))) (κ₂ := K ((pe c 3 : Thread nD τ), SemLoc.dma (rcvS 1 3 3 inb_S3x4x4_S1x1x1_1_3_3))) (r₁ := 0) (r₂ := 0) (d₁ := (0 : Fin 4)) (d₂ := (0 : Fin 4))
    (by rw [duties_snd_1_3_3]; exact Finset.mem_singleton_self _) (by rw [duties_rcv_1_3_3]; exact Finset.mem_singleton_self _)
    () () N rfl (amount_snd_1_3_3 val jk jr c 0) (amount_rcv_1_3_3 val jk jr (pe c 3) 0) O rfl (W := W) ?_ ?_
  · rw [payload_snd_1_3_3]
    exact (pointsTo_congr_on (c : Thread nD τ) (slotM 1 3 0 inb_S2x4x4x64x256_S1x1x1x64x256_1_3_0_0_0).view _ (by
      rw [← hfs]; exact write_read_agree (slotM 1 3 0 inb_S2x4x4x64x256_S1x1x1x64x256_1_3_0_0_0).view (jk c) fs)).1
  · rw [payload_rcv_1_3_3, ps_pe3, hfs]
    exact (pointsTo_congr_on (pe c 3 : Thread nD τ) (slotM 1 3 3 inb_S2x4x4x64x256_S1x1x1x64x256_1_3_3_0_0).view _
      (write_univ_agree (slotM 1 3 3 inb_S2x4x4x64x256_S1x1x1x64x256_1_3_3_0_0).view fd (jk (pe c 3)) (val c 1 3))).1

/-- info: 'Cert.KernelIdeal.Mlp.wp_send_1_3_3' depends on axioms: [propext, Classical.choice, Quot.sound] -/
#guard_msgs in #print axioms wp_send_1_3_3

/-- The copy of key `(2, 0, 1)`: device `c` sends its block to the device `1` ahead, paying the one duty of its own send cell
    and the one duty of that device's receive cell; the source share comes back with the send cell's credit. -/
theorem wp_send_2_0_1 (K : GSem nD τ sig → ℕ) (c : Dev nD)
    (fs : Buf (Elt F) ((c : Thread nD τ).loc cc0_scratch1)) (fd : Buf (Elt F) ((pe c 1 : Thread nD τ).loc cc0_scratch1))
    (hfs : (rsM 0 1 inb_S2x4x64x256_S1x1x64x256_0_1_0_0).view.read (Elt F) fs = val c 2 1)
    (O : CellTallies nD τ sig Unit) (W : Waits sig Unit)
    {hsc : ((rsM 1 1 inb_S2x4x64x256_S1x1x64x256_1_1_0_0) : Memref sig (Dev.tc (pe c 1) : Thread nD τ).2.kind .vmem S64x256 .bf16).view.ref.isScScratch = false}
    {hsrc : (rsM 0 1 inb_S2x4x64x256_S1x1x64x256_0_1_0_0).view.WordExact} {hdst : (rsM 1 1 inb_S2x4x64x256_S1x1x64x256_1_1_0_0).view.WordExact}
    {hsem : DmaTarget.Typed .vmem (.dma (rcvS 2 0 1 inb_S3x4x4_S1x1x1_2_0_1)) (.remote (Dev.tc (pe c 1) : Thread nD τ) (rsM 1 1 inb_S2x4x64x256_S1x1x64x256_1_1_0_0) (.dma (sndS 2 0 1 inb_S3x4x4_S1x1x1_2_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
        ∗ cellInv ER (Rd val jk jr) (K ((pe c 1 : Thread nD τ), SemLoc.dma (rcvS 2 0 1 inb_S3x4x4_S1x1x1_2_0_1))) ((pe c 1 : Thread nD τ), SemLoc.dma (rcvS 2 0 1 inb_S3x4x4_S1x1x1_2_0_1))
        ∗ ((rsM 0 1 inb_S2x4x64x256_S1x1x64x256_0_1_0_0).view.loc (c : Thread nD τ) ↦[(rsM 0 1 inb_S2x4x64x256_S1x1x64x256_0_1_0_0).view.set]{fullShare} fs)
        ∗ ((rsM 1 1 inb_S2x4x64x256_S1x1x64x256_1_1_0_0).view.loc (pe c 1 : Thread nD τ) ↦[(rsM 1 1 inb_S2x4x64x256_S1x1x64x256_1_1_0_0).view.set]{fullShare} fd)
        ∗ owes (c : Thread nD τ) (O + tallyAt ((pe c 1 : Thread nD τ), SemLoc.dma (rcvS 2 0 1 inb_S3x4x4_S1x1x1_2_0_1)) () N) W
        ∗ dutyTok ER ((c : Thread nD τ), SemLoc.dma (sndS 2 0 1 inb_S3x4x4_S1x1x1_2_0_1)) 0 (0 : Fin 4) ∗ reached ER ((c : Thread nD τ), SemLoc.dma (sndS 2 0 1 inb_S3x4x4_S1x1x1_2_0_1)) 0
        ∗ dutyTok ER ((pe c 1 : Thread nD τ), SemLoc.dma (rcvS 2 0 1 inb_S3x4x4_S1x1x1_2_0_1)) 0 (0 : Fin 4) ∗ reached ER ((pe c 1 : Thread nD τ), SemLoc.dma (rcvS 2 0 1 inb_S3x4x4_S1x1x1_2_0_1)) 0)
      ⊢ iprop(((cred (tallyAt ((c : Thread nD τ), SemLoc.dma (sndS 2 0 1 inb_S3x4x4_S1x1x1_2_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 1 inb_S2x4x64x256_S1x1x64x256_0_1_0_0) (.remote (Dev.tc (pe c 1) : Thread nD τ) (rsM 1 1 inb_S2x4x64x256_S1x1x64x256_1_1_0_0) (.dma (sndS 2 0 1 inb_S3x4x4_S1x1x1_2_0_1)) hsc) (.dma (rcvS 2 0 1 inb_S3x4x4_S1x1x1_2_0_1)) hsrc hdst hsem) k) Q) := by
  refine Rounds.wp_send_pointsTo 𝒱₀ ER (Rd val jk jr) (c : Thread nD τ) none
    (c' := (pe c 1 : Thread nD τ)) (src := (rsM 0 1 inb_S2x4x64x256_S1x1x64x256_0_1_0_0)) (dst := (rsM 1 1 inb_S2x4x64x256_S1x1x64x256_1_1_0_0)) (q := fullShare) (fs := fs) (fd := fd)
    (κ₁ := K ((c : Thread nD τ), SemLoc.dma (sndS 2 0 1 inb_S3x4x4_S1x1x1_2_0_1))) (κ₂ := K ((pe c 1 : Thread nD τ), SemLoc.dma (rcvS 2 0 1 inb_S3x4x4_S1x1x1_2_0_1))) (r₁ := 0) (r₂ := 0) (d₁ := (0 : Fin 4)) (d₂ := (0 : Fin 4))
    (by rw [duties_snd_2_0_1]; exact Finset.mem_singleton_self _) (by rw [duties_rcv_2_0_1]; exact Finset.mem_singleton_self _)
    () () N rfl (amount_snd_2_0_1 val jk jr c 0) (amount_rcv_2_0_1 val jk jr (pe c 1) 0) O rfl (W := W) ?_ ?_
  · rw [payload_snd_2_0_1]
    exact (pointsTo_congr_on (c : Thread nD τ) (rsM 0 1 inb_S2x4x64x256_S1x1x64x256_0_1_0_0).view _ (by
      rw [← hfs]; exact write_read_agree (rsM 0 1 inb_S2x4x64x256_S1x1x64x256_0_1_0_0).view (jr c) fs)).1
  · rw [payload_rcv_2_0_1, ps_pe1, hfs]
    exact (pointsTo_congr_on (pe c 1 : Thread nD τ) (rsM 1 1 inb_S2x4x64x256_S1x1x64x256_1_1_0_0).view _
      (write_univ_agree (rsM 1 1 inb_S2x4x64x256_S1x1x64x256_1_1_0_0).view fd (jr (pe c 1)) (val c 2 1))).1

/-- info: 'Cert.KernelIdeal.Mlp.wp_send_2_0_1' depends on axioms: [propext, Classical.choice, Quot.sound] -/
#guard_msgs in #print axioms wp_send_2_0_1

/-- The copy of key `(2, 0, 2)`: device `c` sends its block to the device `2` ahead, paying the one duty of its own send cell
    and the one duty of that device's receive cell; the source share comes back with the send cell's credit. -/
theorem wp_send_2_0_2 (K : GSem nD τ sig → ℕ) (c : Dev nD)
    (fs : Buf (Elt F) ((c : Thread nD τ).loc cc0_scratch1)) (fd : Buf (Elt F) ((pe c 2 : Thread nD τ).loc cc0_scratch1))
    (hfs : (rsM 0 2 inb_S2x4x64x256_S1x1x64x256_0_2_0_0).view.read (Elt F) fs = val c 2 2)
    (O : CellTallies nD τ sig Unit) (W : Waits sig Unit)
    {hsc : ((rsM 1 2 inb_S2x4x64x256_S1x1x64x256_1_2_0_0) : Memref sig (Dev.tc (pe c 2) : Thread nD τ).2.kind .vmem S64x256 .bf16).view.ref.isScScratch = false}
    {hsrc : (rsM 0 2 inb_S2x4x64x256_S1x1x64x256_0_2_0_0).view.WordExact} {hdst : (rsM 1 2 inb_S2x4x64x256_S1x1x64x256_1_2_0_0).view.WordExact}
    {hsem : DmaTarget.Typed .vmem (.dma (rcvS 2 0 2 inb_S3x4x4_S1x1x1_2_0_2)) (.remote (Dev.tc (pe c 2) : Thread nD τ) (rsM 1 2 inb_S2x4x64x256_S1x1x64x256_1_2_0_0) (.dma (sndS 2 0 2 inb_S3x4x4_S1x1x1_2_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
        ∗ cellInv ER (Rd val jk jr) (K ((pe c 2 : Thread nD τ), SemLoc.dma (rcvS 2 0 2 inb_S3x4x4_S1x1x1_2_0_2))) ((pe c 2 : Thread nD τ), SemLoc.dma (rcvS 2 0 2 inb_S3x4x4_S1x1x1_2_0_2))
        ∗ ((rsM 0 2 inb_S2x4x64x256_S1x1x64x256_0_2_0_0).view.loc (c : Thread nD τ) ↦[(rsM 0 2 inb_S2x4x64x256_S1x1x64x256_0_2_0_0).view.set]{fullShare} fs)
        ∗ ((rsM 1 2 inb_S2x4x64x256_S1x1x64x256_1_2_0_0).view.loc (pe c 2 : Thread nD τ) ↦[(rsM 1 2 inb_S2x4x64x256_S1x1x64x256_1_2_0_0).view.set]{fullShare} fd)
        ∗ owes (c : Thread nD τ) (O + tallyAt ((pe c 2 : Thread nD τ), SemLoc.dma (rcvS 2 0 2 inb_S3x4x4_S1x1x1_2_0_2)) () N) W
        ∗ dutyTok ER ((c : Thread nD τ), SemLoc.dma (sndS 2 0 2 inb_S3x4x4_S1x1x1_2_0_2)) 0 (0 : Fin 4) ∗ reached ER ((c : Thread nD τ), SemLoc.dma (sndS 2 0 2 inb_S3x4x4_S1x1x1_2_0_2)) 0
        ∗ dutyTok ER ((pe c 2 : Thread nD τ), SemLoc.dma (rcvS 2 0 2 inb_S3x4x4_S1x1x1_2_0_2)) 0 (0 : Fin 4) ∗ reached ER ((pe c 2 : Thread nD τ), SemLoc.dma (rcvS 2 0 2 inb_S3x4x4_S1x1x1_2_0_2)) 0)
      ⊢ iprop(((cred (tallyAt ((c : Thread nD τ), SemLoc.dma (sndS 2 0 2 inb_S3x4x4_S1x1x1_2_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 2 inb_S2x4x64x256_S1x1x64x256_0_2_0_0) (.remote (Dev.tc (pe c 2) : Thread nD τ) (rsM 1 2 inb_S2x4x64x256_S1x1x64x256_1_2_0_0) (.dma (sndS 2 0 2 inb_S3x4x4_S1x1x1_2_0_2)) hsc) (.dma (rcvS 2 0 2 inb_S3x4x4_S1x1x1_2_0_2)) hsrc hdst hsem) k) Q) := by
  refine Rounds.wp_send_pointsTo 𝒱₀ ER (Rd val jk jr) (c : Thread nD τ) none
    (c' := (pe c 2 : Thread nD τ)) (src := (rsM 0 2 inb_S2x4x64x256_S1x1x64x256_0_2_0_0)) (dst := (rsM 1 2 inb_S2x4x64x256_S1x1x64x256_1_2_0_0)) (q := fullShare) (fs := fs) (fd := fd)
    (κ₁ := K ((c : Thread nD τ), SemLoc.dma (sndS 2 0 2 inb_S3x4x4_S1x1x1_2_0_2))) (κ₂ := K ((pe c 2 : Thread nD τ), SemLoc.dma (rcvS 2 0 2 inb_S3x4x4_S1x1x1_2_0_2))) (r₁ := 0) (r₂ := 0) (d₁ := (0 : Fin 4)) (d₂ := (0 : Fin 4))
    (by rw [duties_snd_2_0_2]; exact Finset.mem_singleton_self _) (by rw [duties_rcv_2_0_2]; exact Finset.mem_singleton_self _)
    () () N rfl (amount_snd_2_0_2 val jk jr c 0) (amount_rcv_2_0_2 val jk jr (pe c 2) 0) O rfl (W := W) ?_ ?_
  · rw [payload_snd_2_0_2]
    exact (pointsTo_congr_on (c : Thread nD τ) (rsM 0 2 inb_S2x4x64x256_S1x1x64x256_0_2_0_0).view _ (by
      rw [← hfs]; exact write_read_agree (rsM 0 2 inb_S2x4x64x256_S1x1x64x256_0_2_0_0).view (jr c) fs)).1
  · rw [payload_rcv_2_0_2, ps_pe2, hfs]
    exact (pointsTo_congr_on (pe c 2 : Thread nD τ) (rsM 1 2 inb_S2x4x64x256_S1x1x64x256_1_2_0_0).view _
      (write_univ_agree (rsM 1 2 inb_S2x4x64x256_S1x1x64x256_1_2_0_0).view fd (jr (pe c 2)) (val c 2 2))).1

/-- info: 'Cert.KernelIdeal.Mlp.wp_send_2_0_2' depends on axioms: [propext, Classical.choice, Quot.sound] -/
#guard_msgs in #print axioms wp_send_2_0_2

/-- The copy of key `(2, 0, 3)`: device `c` sends its block to the device `3` ahead, paying the one duty of its own send cell
    and the one duty of that device's receive cell; the source share comes back with the send cell's credit. -/
theorem wp_send_2_0_3 (K : GSem nD τ sig → ℕ) (c : Dev nD)
    (fs : Buf (Elt F) ((c : Thread nD τ).loc cc0_scratch1)) (fd : Buf (Elt F) ((pe c 3 : Thread nD τ).loc cc0_scratch1))
    (hfs : (rsM 0 3 inb_S2x4x64x256_S1x1x64x256_0_3_0_0).view.read (Elt F) fs = val c 2 3)
    (O : CellTallies nD τ sig Unit) (W : Waits sig Unit)
    {hsc : ((rsM 1 3 inb_S2x4x64x256_S1x1x64x256_1_3_0_0) : Memref sig (Dev.tc (pe c 3) : Thread nD τ).2.kind .vmem S64x256 .bf16).view.ref.isScScratch = false}
    {hsrc : (rsM 0 3 inb_S2x4x64x256_S1x1x64x256_0_3_0_0).view.WordExact} {hdst : (rsM 1 3 inb_S2x4x64x256_S1x1x64x256_1_3_0_0).view.WordExact}
    {hsem : DmaTarget.Typed .vmem (.dma (rcvS 2 0 3 inb_S3x4x4_S1x1x1_2_0_3)) (.remote (Dev.tc (pe c 3) : Thread nD τ) (rsM 1 3 inb_S2x4x64x256_S1x1x64x256_1_3_0_0) (.dma (sndS 2 0 3 inb_S3x4x4_S1x1x1_2_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
        ∗ cellInv ER (Rd val jk jr) (K ((pe c 3 : Thread nD τ), SemLoc.dma (rcvS 2 0 3 inb_S3x4x4_S1x1x1_2_0_3))) ((pe c 3 : Thread nD τ), SemLoc.dma (rcvS 2 0 3 inb_S3x4x4_S1x1x1_2_0_3))
        ∗ ((rsM 0 3 inb_S2x4x64x256_S1x1x64x256_0_3_0_0).view.loc (c : Thread nD τ) ↦[(rsM 0 3 inb_S2x4x64x256_S1x1x64x256_0_3_0_0).view.set]{fullShare} fs)
        ∗ ((rsM 1 3 inb_S2x4x64x256_S1x1x64x256_1_3_0_0).view.loc (pe c 3 : Thread nD τ) ↦[(rsM 1 3 inb_S2x4x64x256_S1x1x64x256_1_3_0_0).view.set]{fullShare} fd)
        ∗ owes (c : Thread nD τ) (O + tallyAt ((pe c 3 : Thread nD τ), SemLoc.dma (rcvS 2 0 3 inb_S3x4x4_S1x1x1_2_0_3)) () N) W
        ∗ dutyTok ER ((c : Thread nD τ), SemLoc.dma (sndS 2 0 3 inb_S3x4x4_S1x1x1_2_0_3)) 0 (0 : Fin 4) ∗ reached ER ((c : Thread nD τ), SemLoc.dma (sndS 2 0 3 inb_S3x4x4_S1x1x1_2_0_3)) 0
        ∗ dutyTok ER ((pe c 3 : Thread nD τ), SemLoc.dma (rcvS 2 0 3 inb_S3x4x4_S1x1x1_2_0_3)) 0 (0 : Fin 4) ∗ reached ER ((pe c 3 : Thread nD τ), SemLoc.dma (rcvS 2 0 3 inb_S3x4x4_S1x1x1_2_0_3)) 0)
      ⊢ iprop(((cred (tallyAt ((c : Thread nD τ), SemLoc.dma (sndS 2 0 3 inb_S3x4x4_S1x1x1_2_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 3 inb_S2x4x64x256_S1x1x64x256_0_3_0_0) (.remote (Dev.tc (pe c 3) : Thread nD τ) (rsM 1 3 inb_S2x4x64x256_S1x1x64x256_1_3_0_0) (.dma (sndS 2 0 3 inb_S3x4x4_S1x1x1_2_0_3)) hsc) (.dma (rcvS 2 0 3 inb_S3x4x4_S1x1x1_2_0_3)) hsrc hdst hsem) k) Q) := by
  refine Rounds.wp_send_pointsTo 𝒱₀ ER (Rd val jk jr) (c : Thread nD τ) none
    (c' := (pe c 3 : Thread nD τ)) (src := (rsM 0 3 inb_S2x4x64x256_S1x1x64x256_0_3_0_0)) (dst := (rsM 1 3 inb_S2x4x64x256_S1x1x64x256_1_3_0_0)) (q := fullShare) (fs := fs) (fd := fd)
    (κ₁ := K ((c : Thread nD τ), SemLoc.dma (sndS 2 0 3 inb_S3x4x4_S1x1x1_2_0_3))) (κ₂ := K ((pe c 3 : Thread nD τ), SemLoc.dma (rcvS 2 0 3 inb_S3x4x4_S1x1x1_2_0_3))) (r₁ := 0) (r₂ := 0) (d₁ := (0 : Fin 4)) (d₂ := (0 : Fin 4))
    (by rw [duties_snd_2_0_3]; exact Finset.mem_singleton_self _) (by rw [duties_rcv_2_0_3]; exact Finset.mem_singleton_self _)
    () () N rfl (amount_snd_2_0_3 val jk jr c 0) (amount_rcv_2_0_3 val jk jr (pe c 3) 0) O rfl (W := W) ?_ ?_
  · rw [payload_snd_2_0_3]
    exact (pointsTo_congr_on (c : Thread nD τ) (rsM 0 3 inb_S2x4x64x256_S1x1x64x256_0_3_0_0).view _ (by
      rw [← hfs]; exact write_read_agree (rsM 0 3 inb_S2x4x64x256_S1x1x64x256_0_3_0_0).view (jr c) fs)).1
  · rw [payload_rcv_2_0_3, ps_pe3, hfs]
    exact (pointsTo_congr_on (pe c 3 : Thread nD τ) (rsM 1 3 inb_S2x4x64x256_S1x1x64x256_1_3_0_0).view _
      (write_univ_agree (rsM 1 3 inb_S2x4x64x256_S1x1x64x256_1_3_0_0).view fd (jr (pe c 3)) (val c 2 3))).1

/-- info: 'Cert.KernelIdeal.Mlp.wp_send_2_0_3' depends on axioms: [propext, Classical.choice, Quot.sound] -/
#guard_msgs in #print axioms wp_send_2_0_3

end Cert.KernelIdeal.Mlp

end
-- ==== Proof.SendRulesTo.lean ====
import proofs.«900991_g7700000000000992_dist_mlpseq_tp1d_rep_bs_b256_d256_h512_v7x_i4_bf16_1_alg».proof.Proof.SendRules

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! The rule of each copy with its destination device named by a variable: the program names that device by an expression of
    its own, equal to the device `o` ahead; the equation is substituted and the rule of the key applies. -/

/-- The rule of the copy of key `(0, 0, 1)` stated at the device `1` ahead of `c`, for a program that names that device `e'`. -/
theorem wp_sendTo_0_0_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 1 inb_S2x4x4x64x256_S1x1x1x64x256_0_0_1_0_0) : Memref sig (Dev.tc e' : Thread nD τ).2.kind .vmem S64x256 .bf16).view.ref.isScScratch = false}
    {hsrc : (slotM 0 0 0 inb_S2x4x4x64x256_S1x1x1x64x256_0_0_0_0_0).view.WordExact} {hdst : (slotM 0 0 1 inb_S2x4x4x64x256_S1x1x1x64x256_0_0_1_0_0).view.WordExact}
    {hsem : DmaTarget.Typed .vmem (.dma (rcvS 0 0 1 inb_S3x4x4_S1x1x1_0_0_1)) (.remote (Dev.tc e' : Thread nD τ) (slotM 0 0 1 inb_S2x4x4x64x256_S1x1x1x64x256_0_0_1_0_0) (.dma (sndS 0 0 1 inb_S3x4x4_S1x1x1_0_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
        ∗ cellInv ER (Rd val jk jr) (K ((pe c 1 : Thread nD τ), SemLoc.dma (rcvS 0 0 1 inb_S3x4x4_S1x1x1_0_0_1))) ((pe c 1 : Thread nD τ), SemLoc.dma (rcvS 0 0 1 inb_S3x4x4_S1x1x1_0_0_1))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} fs)
        ∗ ((slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} fd)
        ∗ owes (c : Thread nD τ) (O + tallyAt ((pe c 1 : Thread nD τ), SemLoc.dma (rcvS 0 0 1 inb_S3x4x4_S1x1x1_0_0_1)) () N) W
        ∗ dutyTok ER ((c : Thread nD τ), SemLoc.dma (sndS 0 0 1 inb_S3x4x4_S1x1x1_0_0_1)) 0 (0 : Fin 4) ∗ reached ER ((c : Thread nD τ), SemLoc.dma (sndS 0 0 1 inb_S3x4x4_S1x1x1_0_0_1)) 0
        ∗ dutyTok ER ((pe c 1 : Thread nD τ), SemLoc.dma (rcvS 0 0 1 inb_S3x4x4_S1x1x1_0_0_1)) 0 (0 : Fin 4) ∗ reached ER ((pe c 1 : Thread nD τ), SemLoc.dma (rcvS 0 0 1 inb_S3x4x4_S1x1x1_0_0_1)) 0)
      ⊢ iprop(((cred (tallyAt ((c : Thread nD τ), SemLoc.dma (sndS 0 0 1 inb_S3x4x4_S1x1x1_0_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc e' : Thread nD τ) (slotM 0 0 1 inb_S2x4x4x64x256_S1x1x1x64x256_0_0_1_0_0) (.dma (sndS 0 0 1 inb_S3x4x4_S1x1x1_0_0_1)) hsc) (.dma (rcvS 0 0 1 inb_S3x4x4_S1x1x1_0_0_1)) hsrc hdst hsem) k) Q) := by
  subst he
  exact wp_send_0_0_1 val jk jr K c fs fd hfs O W

/-- info: 'Cert.KernelIdeal.Mlp.wp_sendTo_0_0_1' depends on axioms: [propext, Classical.choice, Quot.sound] -/
#guard_msgs in #print axioms wp_sendTo_0_0_1

/-- The rule of the copy of key `(0, 0, 2)` stated at the device `2` ahead of `c`, for a program that names that device `e'`. -/
theorem wp_sendTo_0_0_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 2 inb_S2x4x4x64x256_S1x1x1x64x256_0_0_2_0_0) : Memref sig (Dev.tc e' : Thread nD τ).2.kind .vmem S64x256 .bf16).view.ref.isScScratch = false}
    {hsrc : (slotM 0 0 0 inb_S2x4x4x64x256_S1x1x1x64x256_0_0_0_0_0).view.WordExact} {hdst : (slotM 0 0 2 inb_S2x4x4x64x256_S1x1x1x64x256_0_0_2_0_0).view.WordExact}
    {hsem : DmaTarget.Typed .vmem (.dma (rcvS 0 0 2 inb_S3x4x4_S1x1x1_0_0_2)) (.remote (Dev.tc e' : Thread nD τ) (slotM 0 0 2 inb_S2x4x4x64x256_S1x1x1x64x256_0_0_2_0_0) (.dma (sndS 0 0 2 inb_S3x4x4_S1x1x1_0_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
        ∗ cellInv ER (Rd val jk jr) (K ((pe c 2 : Thread nD τ), SemLoc.dma (rcvS 0 0 2 inb_S3x4x4_S1x1x1_0_0_2))) ((pe c 2 : Thread nD τ), SemLoc.dma (rcvS 0 0 2 inb_S3x4x4_S1x1x1_0_0_2))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} fs)
        ∗ ((slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} fd)
        ∗ owes (c : Thread nD τ) (O + tallyAt ((pe c 2 : Thread nD τ), SemLoc.dma (rcvS 0 0 2 inb_S3x4x4_S1x1x1_0_0_2)) () N) W
        ∗ dutyTok ER ((c : Thread nD τ), SemLoc.dma (sndS 0 0 2 inb_S3x4x4_S1x1x1_0_0_2)) 0 (0 : Fin 4) ∗ reached ER ((c : Thread nD τ), SemLoc.dma (sndS 0 0 2 inb_S3x4x4_S1x1x1_0_0_2)) 0
        ∗ dutyTok ER ((pe c 2 : Thread nD τ), SemLoc.dma (rcvS 0 0 2 inb_S3x4x4_S1x1x1_0_0_2)) 0 (0 : Fin 4) ∗ reached ER ((pe c 2 : Thread nD τ), SemLoc.dma (rcvS 0 0 2 inb_S3x4x4_S1x1x1_0_0_2)) 0)
      ⊢ iprop(((cred (tallyAt ((c : Thread nD τ), SemLoc.dma (sndS 0 0 2 inb_S3x4x4_S1x1x1_0_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc e' : Thread nD τ) (slotM 0 0 2 inb_S2x4x4x64x256_S1x1x1x64x256_0_0_2_0_0) (.dma (sndS 0 0 2 inb_S3x4x4_S1x1x1_0_0_2)) hsc) (.dma (rcvS 0 0 2 inb_S3x4x4_S1x1x1_0_0_2)) hsrc hdst hsem) k) Q) := by
  subst he
  exact wp_send_0_0_2 val jk jr K c fs fd hfs O W

/-- info: 'Cert.KernelIdeal.Mlp.wp_sendTo_0_0_2' depends on axioms: [propext, Classical.choice, Quot.sound] -/
#guard_msgs in #print axioms wp_sendTo_0_0_2

/-- The rule of the copy of key `(0, 0, 3)` stated at the device `3` ahead of `c`, for a program that names that device `e'`. -/
theorem wp_sendTo_0_0_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 3 inb_S2x4x4x64x256_S1x1x1x64x256_0_0_3_0_0) : Memref sig (Dev.tc e' : Thread nD τ).2.kind .vmem S64x256 .bf16).view.ref.isScScratch = false}
    {hsrc : (slotM 0 0 0 inb_S2x4x4x64x256_S1x1x1x64x256_0_0_0_0_0).view.WordExact} {hdst : (slotM 0 0 3 inb_S2x4x4x64x256_S1x1x1x64x256_0_0_3_0_0).view.WordExact}
    {hsem : DmaTarget.Typed .vmem (.dma (rcvS 0 0 3 inb_S3x4x4_S1x1x1_0_0_3)) (.remote (Dev.tc e' : Thread nD τ) (slotM 0 0 3 inb_S2x4x4x64x256_S1x1x1x64x256_0_0_3_0_0) (.dma (sndS 0 0 3 inb_S3x4x4_S1x1x1_0_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
        ∗ cellInv ER (Rd val jk jr) (K ((pe c 3 : Thread nD τ), SemLoc.dma (rcvS 0 0 3 inb_S3x4x4_S1x1x1_0_0_3))) ((pe c 3 : Thread nD τ), SemLoc.dma (rcvS 0 0 3 inb_S3x4x4_S1x1x1_0_0_3))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} fs)
        ∗ ((slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} fd)
        ∗ owes (c : Thread nD τ) (O + tallyAt ((pe c 3 : Thread nD τ), SemLoc.dma (rcvS 0 0 3 inb_S3x4x4_S1x1x1_0_0_3)) () N) W
        ∗ dutyTok ER ((c : Thread nD τ), SemLoc.dma (sndS 0 0 3 inb_S3x4x4_S1x1x1_0_0_3)) 0 (0 : Fin 4) ∗ reached ER ((c : Thread nD τ), SemLoc.dma (sndS 0 0 3 inb_S3x4x4_S1x1x1_0_0_3)) 0
        ∗ dutyTok ER ((pe c 3 : Thread nD τ), SemLoc.dma (rcvS 0 0 3 inb_S3x4x4_S1x1x1_0_0_3)) 0 (0 : Fin 4) ∗ reached ER ((pe c 3 : Thread nD τ), SemLoc.dma (rcvS 0 0 3 inb_S3x4x4_S1x1x1_0_0_3)) 0)
      ⊢ iprop(((cred (tallyAt ((c : Thread nD τ), SemLoc.dma (sndS 0 0 3 inb_S3x4x4_S1x1x1_0_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc e' : Thread nD τ) (slotM 0 0 3 inb_S2x4x4x64x256_S1x1x1x64x256_0_0_3_0_0) (.dma (sndS 0 0 3 inb_S3x4x4_S1x1x1_0_0_3)) hsc) (.dma (rcvS 0 0 3 inb_S3x4x4_S1x1x1_0_0_3)) hsrc hdst hsem) k) Q) := by
  subst he
  exact wp_send_0_0_3 val jk jr K c fs fd hfs O W

/-- info: 'Cert.KernelIdeal.Mlp.wp_sendTo_0_0_3' depends on axioms: [propext, Classical.choice, Quot.sound] -/
#guard_msgs in #print axioms wp_sendTo_0_0_3

/-- The rule of the copy of key `(0, 1, 1)` stated at the device `1` ahead of `c`, for a program that names that device `e'`. -/
theorem wp_sendTo_0_1_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 1 inb_S2x4x4x64x256_S1x1x1x64x256_0_1_1_0_0) : Memref sig (Dev.tc e' : Thread nD τ).2.kind .vmem S64x256 .bf16).view.ref.isScScratch = false}
    {hsrc : (slotM 0 1 0 inb_S2x4x4x64x256_S1x1x1x64x256_0_1_0_0_0).view.WordExact} {hdst : (slotM 0 1 1 inb_S2x4x4x64x256_S1x1x1x64x256_0_1_1_0_0).view.WordExact}
    {hsem : DmaTarget.Typed .vmem (.dma (rcvS 0 1 1 inb_S3x4x4_S1x1x1_0_1_1)) (.remote (Dev.tc e' : Thread nD τ) (slotM 0 1 1 inb_S2x4x4x64x256_S1x1x1x64x256_0_1_1_0_0) (.dma (sndS 0 1 1 inb_S3x4x4_S1x1x1_0_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
        ∗ cellInv ER (Rd val jk jr) (K ((pe c 1 : Thread nD τ), SemLoc.dma (rcvS 0 1 1 inb_S3x4x4_S1x1x1_0_1_1))) ((pe c 1 : Thread nD τ), SemLoc.dma (rcvS 0 1 1 inb_S3x4x4_S1x1x1_0_1_1))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} fs)
        ∗ ((slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} fd)
        ∗ owes (c : Thread nD τ) (O + tallyAt ((pe c 1 : Thread nD τ), SemLoc.dma (rcvS 0 1 1 inb_S3x4x4_S1x1x1_0_1_1)) () N) W
        ∗ dutyTok ER ((c : Thread nD τ), SemLoc.dma (sndS 0 1 1 inb_S3x4x4_S1x1x1_0_1_1)) 0 (0 : Fin 4) ∗ reached ER ((c : Thread nD τ), SemLoc.dma (sndS 0 1 1 inb_S3x4x4_S1x1x1_0_1_1)) 0
        ∗ dutyTok ER ((pe c 1 : Thread nD τ), SemLoc.dma (rcvS 0 1 1 inb_S3x4x4_S1x1x1_0_1_1)) 0 (0 : Fin 4) ∗ reached ER ((pe c 1 : Thread nD τ), SemLoc.dma (rcvS 0 1 1 inb_S3x4x4_S1x1x1_0_1_1)) 0)
      ⊢ iprop(((cred (tallyAt ((c : Thread nD τ), SemLoc.dma (sndS 0 1 1 inb_S3x4x4_S1x1x1_0_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc e' : Thread nD τ) (slotM 0 1 1 inb_S2x4x4x64x256_S1x1x1x64x256_0_1_1_0_0) (.dma (sndS 0 1 1 inb_S3x4x4_S1x1x1_0_1_1)) hsc) (.dma (rcvS 0 1 1 inb_S3x4x4_S1x1x1_0_1_1)) hsrc hdst hsem) k) Q) := by
  subst he
  exact wp_send_0_1_1 val jk jr K c fs fd hfs O W

/-- info: 'Cert.KernelIdeal.Mlp.wp_sendTo_0_1_1' depends on axioms: [propext, Classical.choice, Quot.sound] -/
#guard_msgs in #print axioms wp_sendTo_0_1_1

/-- The rule of the copy of key `(0, 1, 2)` stated at the device `2` ahead of `c`, for a program that names that device `e'`. -/
theorem wp_sendTo_0_1_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 2 inb_S2x4x4x64x256_S1x1x1x64x256_0_1_2_0_0) : Memref sig (Dev.tc e' : Thread nD τ).2.kind .vmem S64x256 .bf16).view.ref.isScScratch = false}
    {hsrc : (slotM 0 1 0 inb_S2x4x4x64x256_S1x1x1x64x256_0_1_0_0_0).view.WordExact} {hdst : (slotM 0 1 2 inb_S2x4x4x64x256_S1x1x1x64x256_0_1_2_0_0).view.WordExact}
    {hsem : DmaTarget.Typed .vmem (.dma (rcvS 0 1 2 inb_S3x4x4_S1x1x1_0_1_2)) (.remote (Dev.tc e' : Thread nD τ) (slotM 0 1 2 inb_S2x4x4x64x256_S1x1x1x64x256_0_1_2_0_0) (.dma (sndS 0 1 2 inb_S3x4x4_S1x1x1_0_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
        ∗ cellInv ER (Rd val jk jr) (K ((pe c 2 : Thread nD τ), SemLoc.dma (rcvS 0 1 2 inb_S3x4x4_S1x1x1_0_1_2))) ((pe c 2 : Thread nD τ), SemLoc.dma (rcvS 0 1 2 inb_S3x4x4_S1x1x1_0_1_2))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} fs)
        ∗ ((slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} fd)
        ∗ owes (c : Thread nD τ) (O + tallyAt ((pe c 2 : Thread nD τ), SemLoc.dma (rcvS 0 1 2 inb_S3x4x4_S1x1x1_0_1_2)) () N) W
        ∗ dutyTok ER ((c : Thread nD τ), SemLoc.dma (sndS 0 1 2 inb_S3x4x4_S1x1x1_0_1_2)) 0 (0 : Fin 4) ∗ reached ER ((c : Thread nD τ), SemLoc.dma (sndS 0 1 2 inb_S3x4x4_S1x1x1_0_1_2)) 0
        ∗ dutyTok ER ((pe c 2 : Thread nD τ), SemLoc.dma (rcvS 0 1 2 inb_S3x4x4_S1x1x1_0_1_2)) 0 (0 : Fin 4) ∗ reached ER ((pe c 2 : Thread nD τ), SemLoc.dma (rcvS 0 1 2 inb_S3x4x4_S1x1x1_0_1_2)) 0)
      ⊢ iprop(((cred (tallyAt ((c : Thread nD τ), SemLoc.dma (sndS 0 1 2 inb_S3x4x4_S1x1x1_0_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc e' : Thread nD τ) (slotM 0 1 2 inb_S2x4x4x64x256_S1x1x1x64x256_0_1_2_0_0) (.dma (sndS 0 1 2 inb_S3x4x4_S1x1x1_0_1_2)) hsc) (.dma (rcvS 0 1 2 inb_S3x4x4_S1x1x1_0_1_2)) hsrc hdst hsem) k) Q) := by
  subst he
  exact wp_send_0_1_2 val jk jr K c fs fd hfs O W

/-- info: 'Cert.KernelIdeal.Mlp.wp_sendTo_0_1_2' depends on axioms: [propext, Classical.choice, Quot.sound] -/
#guard_msgs in #print axioms wp_sendTo_0_1_2

/-- The rule of the copy of key `(0, 1, 3)` stated at the device `3` ahead of `c`, for a program that names that device `e'`. -/
theorem wp_sendTo_0_1_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 3 inb_S2x4x4x64x256_S1x1x1x64x256_0_1_3_0_0) : Memref sig (Dev.tc e' : Thread nD τ).2.kind .vmem S64x256 .bf16).view.ref.isScScratch = false}
    {hsrc : (slotM 0 1 0 inb_S2x4x4x64x256_S1x1x1x64x256_0_1_0_0_0).view.WordExact} {hdst : (slotM 0 1 3 inb_S2x4x4x64x256_S1x1x1x64x256_0_1_3_0_0).view.WordExact}
    {hsem : DmaTarget.Typed .vmem (.dma (rcvS 0 1 3 inb_S3x4x4_S1x1x1_0_1_3)) (.remote (Dev.tc e' : Thread nD τ) (slotM 0 1 3 inb_S2x4x4x64x256_S1x1x1x64x256_0_1_3_0_0) (.dma (sndS 0 1 3 inb_S3x4x4_S1x1x1_0_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
        ∗ cellInv ER (Rd val jk jr) (K ((pe c 3 : Thread nD τ), SemLoc.dma (rcvS 0 1 3 inb_S3x4x4_S1x1x1_0_1_3))) ((pe c 3 : Thread nD τ), SemLoc.dma (rcvS 0 1 3 inb_S3x4x4_S1x1x1_0_1_3))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} fs)
        ∗ ((slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} fd)
        ∗ owes (c : Thread nD τ) (O + tallyAt ((pe c 3 : Thread nD τ), SemLoc.dma (rcvS 0 1 3 inb_S3x4x4_S1x1x1_0_1_3)) () N) W
        ∗ dutyTok ER ((c : Thread nD τ), SemLoc.dma (sndS 0 1 3 inb_S3x4x4_S1x1x1_0_1_3)) 0 (0 : Fin 4) ∗ reached ER ((c : Thread nD τ), SemLoc.dma (sndS 0 1 3 inb_S3x4x4_S1x1x1_0_1_3)) 0
        ∗ dutyTok ER ((pe c 3 : Thread nD τ), SemLoc.dma (rcvS 0 1 3 inb_S3x4x4_S1x1x1_0_1_3)) 0 (0 : Fin 4) ∗ reached ER ((pe c 3 : Thread nD τ), SemLoc.dma (rcvS 0 1 3 inb_S3x4x4_S1x1x1_0_1_3)) 0)
      ⊢ iprop(((cred (tallyAt ((c : Thread nD τ), SemLoc.dma (sndS 0 1 3 inb_S3x4x4_S1x1x1_0_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc e' : Thread nD τ) (slotM 0 1 3 inb_S2x4x4x64x256_S1x1x1x64x256_0_1_3_0_0) (.dma (sndS 0 1 3 inb_S3x4x4_S1x1x1_0_1_3)) hsc) (.dma (rcvS 0 1 3 inb_S3x4x4_S1x1x1_0_1_3)) hsrc hdst hsem) k) Q) := by
  subst he
  exact wp_send_0_1_3 val jk jr K c fs fd hfs O W

/-- info: 'Cert.KernelIdeal.Mlp.wp_sendTo_0_1_3' depends on axioms: [propext, Classical.choice, Quot.sound] -/
#guard_msgs in #print axioms wp_sendTo_0_1_3

/-- The rule of the copy of key `(0, 2, 1)` stated at the device `1` ahead of `c`, for a program that names that device `e'`. -/
theorem wp_sendTo_0_2_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 1 inb_S2x4x4x64x256_S1x1x1x64x256_0_2_1_0_0) : Memref sig (Dev.tc e' : Thread nD τ).2.kind .vmem S64x256 .bf16).view.ref.isScScratch = false}
    {hsrc : (slotM 0 2 0 inb_S2x4x4x64x256_S1x1x1x64x256_0_2_0_0_0).view.WordExact} {hdst : (slotM 0 2 1 inb_S2x4x4x64x256_S1x1x1x64x256_0_2_1_0_0).view.WordExact}
    {hsem : DmaTarget.Typed .vmem (.dma (rcvS 0 2 1 inb_S3x4x4_S1x1x1_0_2_1)) (.remote (Dev.tc e' : Thread nD τ) (slotM 0 2 1 inb_S2x4x4x64x256_S1x1x1x64x256_0_2_1_0_0) (.dma (sndS 0 2 1 inb_S3x4x4_S1x1x1_0_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
        ∗ cellInv ER (Rd val jk jr) (K ((pe c 1 : Thread nD τ), SemLoc.dma (rcvS 0 2 1 inb_S3x4x4_S1x1x1_0_2_1))) ((pe c 1 : Thread nD τ), SemLoc.dma (rcvS 0 2 1 inb_S3x4x4_S1x1x1_0_2_1))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} fs)
        ∗ ((slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} fd)
        ∗ owes (c : Thread nD τ) (O + tallyAt ((pe c 1 : Thread nD τ), SemLoc.dma (rcvS 0 2 1 inb_S3x4x4_S1x1x1_0_2_1)) () N) W
        ∗ dutyTok ER ((c : Thread nD τ), SemLoc.dma (sndS 0 2 1 inb_S3x4x4_S1x1x1_0_2_1)) 0 (0 : Fin 4) ∗ reached ER ((c : Thread nD τ), SemLoc.dma (sndS 0 2 1 inb_S3x4x4_S1x1x1_0_2_1)) 0
        ∗ dutyTok ER ((pe c 1 : Thread nD τ), SemLoc.dma (rcvS 0 2 1 inb_S3x4x4_S1x1x1_0_2_1)) 0 (0 : Fin 4) ∗ reached ER ((pe c 1 : Thread nD τ), SemLoc.dma (rcvS 0 2 1 inb_S3x4x4_S1x1x1_0_2_1)) 0)
      ⊢ iprop(((cred (tallyAt ((c : Thread nD τ), SemLoc.dma (sndS 0 2 1 inb_S3x4x4_S1x1x1_0_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc e' : Thread nD τ) (slotM 0 2 1 inb_S2x4x4x64x256_S1x1x1x64x256_0_2_1_0_0) (.dma (sndS 0 2 1 inb_S3x4x4_S1x1x1_0_2_1)) hsc) (.dma (rcvS 0 2 1 inb_S3x4x4_S1x1x1_0_2_1)) hsrc hdst hsem) k) Q) := by
  subst he
  exact wp_send_0_2_1 val jk jr K c fs fd hfs O W

/-- info: 'Cert.KernelIdeal.Mlp.wp_sendTo_0_2_1' depends on axioms: [propext, Classical.choice, Quot.sound] -/
#guard_msgs in #print axioms wp_sendTo_0_2_1

/-- The rule of the copy of key `(0, 2, 2)` stated at the device `2` ahead of `c`, for a program that names that device `e'`. -/
theorem wp_sendTo_0_2_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 2 inb_S2x4x4x64x256_S1x1x1x64x256_0_2_2_0_0) : Memref sig (Dev.tc e' : Thread nD τ).2.kind .vmem S64x256 .bf16).view.ref.isScScratch = false}
    {hsrc : (slotM 0 2 0 inb_S2x4x4x64x256_S1x1x1x64x256_0_2_0_0_0).view.WordExact} {hdst : (slotM 0 2 2 inb_S2x4x4x64x256_S1x1x1x64x256_0_2_2_0_0).view.WordExact}
    {hsem : DmaTarget.Typed .vmem (.dma (rcvS 0 2 2 inb_S3x4x4_S1x1x1_0_2_2)) (.remote (Dev.tc e' : Thread nD τ) (slotM 0 2 2 inb_S2x4x4x64x256_S1x1x1x64x256_0_2_2_0_0) (.dma (sndS 0 2 2 inb_S3x4x4_S1x1x1_0_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
        ∗ cellInv ER (Rd val jk jr) (K ((pe c 2 : Thread nD τ), SemLoc.dma (rcvS 0 2 2 inb_S3x4x4_S1x1x1_0_2_2))) ((pe c 2 : Thread nD τ), SemLoc.dma (rcvS 0 2 2 inb_S3x4x4_S1x1x1_0_2_2))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} fs)
        ∗ ((slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} fd)
        ∗ owes (c : Thread nD τ) (O + tallyAt ((pe c 2 : Thread nD τ), SemLoc.dma (rcvS 0 2 2 inb_S3x4x4_S1x1x1_0_2_2)) () N) W
        ∗ dutyTok ER ((c : Thread nD τ), SemLoc.dma (sndS 0 2 2 inb_S3x4x4_S1x1x1_0_2_2)) 0 (0 : Fin 4) ∗ reached ER ((c : Thread nD τ), SemLoc.dma (sndS 0 2 2 inb_S3x4x4_S1x1x1_0_2_2)) 0
        ∗ dutyTok ER ((pe c 2 : Thread nD τ), SemLoc.dma (rcvS 0 2 2 inb_S3x4x4_S1x1x1_0_2_2)) 0 (0 : Fin 4) ∗ reached ER ((pe c 2 : Thread nD τ), SemLoc.dma (rcvS 0 2 2 inb_S3x4x4_S1x1x1_0_2_2)) 0)
      ⊢ iprop(((cred (tallyAt ((c : Thread nD τ), SemLoc.dma (sndS 0 2 2 inb_S3x4x4_S1x1x1_0_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc e' : Thread nD τ) (slotM 0 2 2 inb_S2x4x4x64x256_S1x1x1x64x256_0_2_2_0_0) (.dma (sndS 0 2 2 inb_S3x4x4_S1x1x1_0_2_2)) hsc) (.dma (rcvS 0 2 2 inb_S3x4x4_S1x1x1_0_2_2)) hsrc hdst hsem) k) Q) := by
  subst he
  exact wp_send_0_2_2 val jk jr K c fs fd hfs O W

/-- info: 'Cert.KernelIdeal.Mlp.wp_sendTo_0_2_2' depends on axioms: [propext, Classical.choice, Quot.sound] -/
#guard_msgs in #print axioms wp_sendTo_0_2_2

/-- The rule of the copy of key `(0, 2, 3)` stated at the device `3` ahead of `c`, for a program that names that device `e'`. -/
theorem wp_sendTo_0_2_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 3 inb_S2x4x4x64x256_S1x1x1x64x256_0_2_3_0_0) : Memref sig (Dev.tc e' : Thread nD τ).2.kind .vmem S64x256 .bf16).view.ref.isScScratch = false}
    {hsrc : (slotM 0 2 0 inb_S2x4x4x64x256_S1x1x1x64x256_0_2_0_0_0).view.WordExact} {hdst : (slotM 0 2 3 inb_S2x4x4x64x256_S1x1x1x64x256_0_2_3_0_0).view.WordExact}
    {hsem : DmaTarget.Typed .vmem (.dma (rcvS 0 2 3 inb_S3x4x4_S1x1x1_0_2_3)) (.remote (Dev.tc e' : Thread nD τ) (slotM 0 2 3 inb_S2x4x4x64x256_S1x1x1x64x256_0_2_3_0_0) (.dma (sndS 0 2 3 inb_S3x4x4_S1x1x1_0_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
        ∗ cellInv ER (Rd val jk jr) (K ((pe c 3 : Thread nD τ), SemLoc.dma (rcvS 0 2 3 inb_S3x4x4_S1x1x1_0_2_3))) ((pe c 3 : Thread nD τ), SemLoc.dma (rcvS 0 2 3 inb_S3x4x4_S1x1x1_0_2_3))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} fs)
        ∗ ((slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} fd)
        ∗ owes (c : Thread nD τ) (O + tallyAt ((pe c 3 : Thread nD τ), SemLoc.dma (rcvS 0 2 3 inb_S3x4x4_S1x1x1_0_2_3)) () N) W
        ∗ dutyTok ER ((c : Thread nD τ), SemLoc.dma (sndS 0 2 3 inb_S3x4x4_S1x1x1_0_2_3)) 0 (0 : Fin 4) ∗ reached ER ((c : Thread nD τ), SemLoc.dma (sndS 0 2 3 inb_S3x4x4_S1x1x1_0_2_3)) 0
        ∗ dutyTok ER ((pe c 3 : Thread nD τ), SemLoc.dma (rcvS 0 2 3 inb_S3x4x4_S1x1x1_0_2_3)) 0 (0 : Fin 4) ∗ reached ER ((pe c 3 : Thread nD τ), SemLoc.dma (rcvS 0 2 3 inb_S3x4x4_S1x1x1_0_2_3)) 0)
      ⊢ iprop(((cred (tallyAt ((c : Thread nD τ), SemLoc.dma (sndS 0 2 3 inb_S3x4x4_S1x1x1_0_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc e' : Thread nD τ) (slotM 0 2 3 inb_S2x4x4x64x256_S1x1x1x64x256_0_2_3_0_0) (.dma (sndS 0 2 3 inb_S3x4x4_S1x1x1_0_2_3)) hsc) (.dma (rcvS 0 2 3 inb_S3x4x4_S1x1x1_0_2_3)) hsrc hdst hsem) k) Q) := by
  subst he
  exact wp_send_0_2_3 val jk jr K c fs fd hfs O W

/-- info: 'Cert.KernelIdeal.Mlp.wp_sendTo_0_2_3' depends on axioms: [propext, Classical.choice, Quot.sound] -/
#guard_msgs in #print axioms wp_sendTo_0_2_3

/-- The rule of the copy of key `(0, 3, 1)` stated at the device `1` ahead of `c`, for a program that names that device `e'`. -/
theorem wp_sendTo_0_3_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 1 inb_S2x4x4x64x256_S1x1x1x64x256_0_3_1_0_0) : Memref sig (Dev.tc e' : Thread nD τ).2.kind .vmem S64x256 .bf16).view.ref.isScScratch = false}
    {hsrc : (slotM 0 3 0 inb_S2x4x4x64x256_S1x1x1x64x256_0_3_0_0_0).view.WordExact} {hdst : (slotM 0 3 1 inb_S2x4x4x64x256_S1x1x1x64x256_0_3_1_0_0).view.WordExact}
    {hsem : DmaTarget.Typed .vmem (.dma (rcvS 0 3 1 inb_S3x4x4_S1x1x1_0_3_1)) (.remote (Dev.tc e' : Thread nD τ) (slotM 0 3 1 inb_S2x4x4x64x256_S1x1x1x64x256_0_3_1_0_0) (.dma (sndS 0 3 1 inb_S3x4x4_S1x1x1_0_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
        ∗ cellInv ER (Rd val jk jr) (K ((pe c 1 : Thread nD τ), SemLoc.dma (rcvS 0 3 1 inb_S3x4x4_S1x1x1_0_3_1))) ((pe c 1 : Thread nD τ), SemLoc.dma (rcvS 0 3 1 inb_S3x4x4_S1x1x1_0_3_1))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} fs)
        ∗ ((slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} fd)
        ∗ owes (c : Thread nD τ) (O + tallyAt ((pe c 1 : Thread nD τ), SemLoc.dma (rcvS 0 3 1 inb_S3x4x4_S1x1x1_0_3_1)) () N) W
        ∗ dutyTok ER ((c : Thread nD τ), SemLoc.dma (sndS 0 3 1 inb_S3x4x4_S1x1x1_0_3_1)) 0 (0 : Fin 4) ∗ reached ER ((c : Thread nD τ), SemLoc.dma (sndS 0 3 1 inb_S3x4x4_S1x1x1_0_3_1)) 0
        ∗ dutyTok ER ((pe c 1 : Thread nD τ), SemLoc.dma (rcvS 0 3 1 inb_S3x4x4_S1x1x1_0_3_1)) 0 (0 : Fin 4) ∗ reached ER ((pe c 1 : Thread nD τ), SemLoc.dma (rcvS 0 3 1 inb_S3x4x4_S1x1x1_0_3_1)) 0)
      ⊢ iprop(((cred (tallyAt ((c : Thread nD τ), SemLoc.dma (sndS 0 3 1 inb_S3x4x4_S1x1x1_0_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc e' : Thread nD τ) (slotM 0 3 1 inb_S2x4x4x64x256_S1x1x1x64x256_0_3_1_0_0) (.dma (sndS 0 3 1 inb_S3x4x4_S1x1x1_0_3_1)) hsc) (.dma (rcvS 0 3 1 inb_S3x4x4_S1x1x1_0_3_1)) hsrc hdst hsem) k) Q) := by
  subst he
  exact wp_send_0_3_1 val jk jr K c fs fd hfs O W

/-- info: 'Cert.KernelIdeal.Mlp.wp_sendTo_0_3_1' depends on axioms: [propext, Classical.choice, Quot.sound] -/
#guard_msgs in #print axioms wp_sendTo_0_3_1

/-- The rule of the copy of key `(0, 3, 2)` stated at the device `2` ahead of `c`, for a program that names that device `e'`. -/
theorem wp_sendTo_0_3_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 2 inb_S2x4x4x64x256_S1x1x1x64x256_0_3_2_0_0) : Memref sig (Dev.tc e' : Thread nD τ).2.kind .vmem S64x256 .bf16).view.ref.isScScratch = false}
    {hsrc : (slotM 0 3 0 inb_S2x4x4x64x256_S1x1x1x64x256_0_3_0_0_0).view.WordExact} {hdst : (slotM 0 3 2 inb_S2x4x4x64x256_S1x1x1x64x256_0_3_2_0_0).view.WordExact}
    {hsem : DmaTarget.Typed .vmem (.dma (rcvS 0 3 2 inb_S3x4x4_S1x1x1_0_3_2)) (.remote (Dev.tc e' : Thread nD τ) (slotM 0 3 2 inb_S2x4x4x64x256_S1x1x1x64x256_0_3_2_0_0) (.dma (sndS 0 3 2 inb_S3x4x4_S1x1x1_0_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
        ∗ cellInv ER (Rd val jk jr) (K ((pe c 2 : Thread nD τ), SemLoc.dma (rcvS 0 3 2 inb_S3x4x4_S1x1x1_0_3_2))) ((pe c 2 : Thread nD τ), SemLoc.dma (rcvS 0 3 2 inb_S3x4x4_S1x1x1_0_3_2))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} fs)
        ∗ ((slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} fd)
        ∗ owes (c : Thread nD τ) (O + tallyAt ((pe c 2 : Thread nD τ), SemLoc.dma (rcvS 0 3 2 inb_S3x4x4_S1x1x1_0_3_2)) () N) W
        ∗ dutyTok ER ((c : Thread nD τ), SemLoc.dma (sndS 0 3 2 inb_S3x4x4_S1x1x1_0_3_2)) 0 (0 : Fin 4) ∗ reached ER ((c : Thread nD τ), SemLoc.dma (sndS 0 3 2 inb_S3x4x4_S1x1x1_0_3_2)) 0
        ∗ dutyTok ER ((pe c 2 : Thread nD τ), SemLoc.dma (rcvS 0 3 2 inb_S3x4x4_S1x1x1_0_3_2)) 0 (0 : Fin 4) ∗ reached ER ((pe c 2 : Thread nD τ), SemLoc.dma (rcvS 0 3 2 inb_S3x4x4_S1x1x1_0_3_2)) 0)
      ⊢ iprop(((cred (tallyAt ((c : Thread nD τ), SemLoc.dma (sndS 0 3 2 inb_S3x4x4_S1x1x1_0_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc e' : Thread nD τ) (slotM 0 3 2 inb_S2x4x4x64x256_S1x1x1x64x256_0_3_2_0_0) (.dma (sndS 0 3 2 inb_S3x4x4_S1x1x1_0_3_2)) hsc) (.dma (rcvS 0 3 2 inb_S3x4x4_S1x1x1_0_3_2)) hsrc hdst hsem) k) Q) := by
  subst he
  exact wp_send_0_3_2 val jk jr K c fs fd hfs O W

/-- info: 'Cert.KernelIdeal.Mlp.wp_sendTo_0_3_2' depends on axioms: [propext, Classical.choice, Quot.sound] -/
#guard_msgs in #print axioms wp_sendTo_0_3_2

/-- The rule of the copy of key `(0, 3, 3)` stated at the device `3` ahead of `c`, for a program that names that device `e'`. -/
theorem wp_sendTo_0_3_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 3 inb_S2x4x4x64x256_S1x1x1x64x256_0_3_3_0_0) : Memref sig (Dev.tc e' : Thread nD τ).2.kind .vmem S64x256 .bf16).view.ref.isScScratch = false}
    {hsrc : (slotM 0 3 0 inb_S2x4x4x64x256_S1x1x1x64x256_0_3_0_0_0).view.WordExact} {hdst : (slotM 0 3 3 inb_S2x4x4x64x256_S1x1x1x64x256_0_3_3_0_0).view.WordExact}
    {hsem : DmaTarget.Typed .vmem (.dma (rcvS 0 3 3 inb_S3x4x4_S1x1x1_0_3_3)) (.remote (Dev.tc e' : Thread nD τ) (slotM 0 3 3 inb_S2x4x4x64x256_S1x1x1x64x256_0_3_3_0_0) (.dma (sndS 0 3 3 inb_S3x4x4_S1x1x1_0_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
        ∗ cellInv ER (Rd val jk jr) (K ((pe c 3 : Thread nD τ), SemLoc.dma (rcvS 0 3 3 inb_S3x4x4_S1x1x1_0_3_3))) ((pe c 3 : Thread nD τ), SemLoc.dma (rcvS 0 3 3 inb_S3x4x4_S1x1x1_0_3_3))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} fs)
        ∗ ((slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} fd)
        ∗ owes (c : Thread nD τ) (O + tallyAt ((pe c 3 : Thread nD τ), SemLoc.dma (rcvS 0 3 3 inb_S3x4x4_S1x1x1_0_3_3)) () N) W
        ∗ dutyTok ER ((c : Thread nD τ), SemLoc.dma (sndS 0 3 3 inb_S3x4x4_S1x1x1_0_3_3)) 0 (0 : Fin 4) ∗ reached ER ((c : Thread nD τ), SemLoc.dma (sndS 0 3 3 inb_S3x4x4_S1x1x1_0_3_3)) 0
        ∗ dutyTok ER ((pe c 3 : Thread nD τ), SemLoc.dma (rcvS 0 3 3 inb_S3x4x4_S1x1x1_0_3_3)) 0 (0 : Fin 4) ∗ reached ER ((pe c 3 : Thread nD τ), SemLoc.dma (rcvS 0 3 3 inb_S3x4x4_S1x1x1_0_3_3)) 0)
      ⊢ iprop(((cred (tallyAt ((c : Thread nD τ), SemLoc.dma (sndS 0 3 3 inb_S3x4x4_S1x1x1_0_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc e' : Thread nD τ) (slotM 0 3 3 inb_S2x4x4x64x256_S1x1x1x64x256_0_3_3_0_0) (.dma (sndS 0 3 3 inb_S3x4x4_S1x1x1_0_3_3)) hsc) (.dma (rcvS 0 3 3 inb_S3x4x4_S1x1x1_0_3_3)) hsrc hdst hsem) k) Q) := by
  subst he
  exact wp_send_0_3_3 val jk jr K c fs fd hfs O W

/-- info: 'Cert.KernelIdeal.Mlp.wp_sendTo_0_3_3' depends on axioms: [propext, Classical.choice, Quot.sound] -/
#guard_msgs in #print axioms wp_sendTo_0_3_3

/-- The rule of the copy of key `(1, 0, 1)` stated at the device `1` ahead of `c`, for a program that names that device `e'`. -/
theorem wp_sendTo_1_0_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 1 inb_S2x4x4x64x256_S1x1x1x64x256_1_0_1_0_0) : Memref sig (Dev.tc e' : Thread nD τ).2.kind .vmem S64x256 .bf16).view.ref.isScScratch = false}
    {hsrc : (slotM 1 0 0 inb_S2x4x4x64x256_S1x1x1x64x256_1_0_0_0_0).view.WordExact} {hdst : (slotM 1 0 1 inb_S2x4x4x64x256_S1x1x1x64x256_1_0_1_0_0).view.WordExact}
    {hsem : DmaTarget.Typed .vmem (.dma (rcvS 1 0 1 inb_S3x4x4_S1x1x1_1_0_1)) (.remote (Dev.tc e' : Thread nD τ) (slotM 1 0 1 inb_S2x4x4x64x256_S1x1x1x64x256_1_0_1_0_0) (.dma (sndS 1 0 1 inb_S3x4x4_S1x1x1_1_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
        ∗ cellInv ER (Rd val jk jr) (K ((pe c 1 : Thread nD τ), SemLoc.dma (rcvS 1 0 1 inb_S3x4x4_S1x1x1_1_0_1))) ((pe c 1 : Thread nD τ), SemLoc.dma (rcvS 1 0 1 inb_S3x4x4_S1x1x1_1_0_1))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} fs)
        ∗ ((slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} fd)
        ∗ owes (c : Thread nD τ) (O + tallyAt ((pe c 1 : Thread nD τ), SemLoc.dma (rcvS 1 0 1 inb_S3x4x4_S1x1x1_1_0_1)) () N) W
        ∗ dutyTok ER ((c : Thread nD τ), SemLoc.dma (sndS 1 0 1 inb_S3x4x4_S1x1x1_1_0_1)) 0 (0 : Fin 4) ∗ reached ER ((c : Thread nD τ), SemLoc.dma (sndS 1 0 1 inb_S3x4x4_S1x1x1_1_0_1)) 0
        ∗ dutyTok ER ((pe c 1 : Thread nD τ), SemLoc.dma (rcvS 1 0 1 inb_S3x4x4_S1x1x1_1_0_1)) 0 (0 : Fin 4) ∗ reached ER ((pe c 1 : Thread nD τ), SemLoc.dma (rcvS 1 0 1 inb_S3x4x4_S1x1x1_1_0_1)) 0)
      ⊢ iprop(((cred (tallyAt ((c : Thread nD τ), SemLoc.dma (sndS 1 0 1 inb_S3x4x4_S1x1x1_1_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc e' : Thread nD τ) (slotM 1 0 1 inb_S2x4x4x64x256_S1x1x1x64x256_1_0_1_0_0) (.dma (sndS 1 0 1 inb_S3x4x4_S1x1x1_1_0_1)) hsc) (.dma (rcvS 1 0 1 inb_S3x4x4_S1x1x1_1_0_1)) hsrc hdst hsem) k) Q) := by
  subst he
  exact wp_send_1_0_1 val jk jr K c fs fd hfs O W

/-- info: 'Cert.KernelIdeal.Mlp.wp_sendTo_1_0_1' depends on axioms: [propext, Classical.choice, Quot.sound] -/
#guard_msgs in #print axioms wp_sendTo_1_0_1

/-- The rule of the copy of key `(1, 0, 2)` stated at the device `2` ahead of `c`, for a program that names that device `e'`. -/
theorem wp_sendTo_1_0_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 2 inb_S2x4x4x64x256_S1x1x1x64x256_1_0_2_0_0) : Memref sig (Dev.tc e' : Thread nD τ).2.kind .vmem S64x256 .bf16).view.ref.isScScratch = false}
    {hsrc : (slotM 1 0 0 inb_S2x4x4x64x256_S1x1x1x64x256_1_0_0_0_0).view.WordExact} {hdst : (slotM 1 0 2 inb_S2x4x4x64x256_S1x1x1x64x256_1_0_2_0_0).view.WordExact}
    {hsem : DmaTarget.Typed .vmem (.dma (rcvS 1 0 2 inb_S3x4x4_S1x1x1_1_0_2)) (.remote (Dev.tc e' : Thread nD τ) (slotM 1 0 2 inb_S2x4x4x64x256_S1x1x1x64x256_1_0_2_0_0) (.dma (sndS 1 0 2 inb_S3x4x4_S1x1x1_1_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
        ∗ cellInv ER (Rd val jk jr) (K ((pe c 2 : Thread nD τ), SemLoc.dma (rcvS 1 0 2 inb_S3x4x4_S1x1x1_1_0_2))) ((pe c 2 : Thread nD τ), SemLoc.dma (rcvS 1 0 2 inb_S3x4x4_S1x1x1_1_0_2))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} fs)
        ∗ ((slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} fd)
        ∗ owes (c : Thread nD τ) (O + tallyAt ((pe c 2 : Thread nD τ), SemLoc.dma (rcvS 1 0 2 inb_S3x4x4_S1x1x1_1_0_2)) () N) W
        ∗ dutyTok ER ((c : Thread nD τ), SemLoc.dma (sndS 1 0 2 inb_S3x4x4_S1x1x1_1_0_2)) 0 (0 : Fin 4) ∗ reached ER ((c : Thread nD τ), SemLoc.dma (sndS 1 0 2 inb_S3x4x4_S1x1x1_1_0_2)) 0
        ∗ dutyTok ER ((pe c 2 : Thread nD τ), SemLoc.dma (rcvS 1 0 2 inb_S3x4x4_S1x1x1_1_0_2)) 0 (0 : Fin 4) ∗ reached ER ((pe c 2 : Thread nD τ), SemLoc.dma (rcvS 1 0 2 inb_S3x4x4_S1x1x1_1_0_2)) 0)
      ⊢ iprop(((cred (tallyAt ((c : Thread nD τ), SemLoc.dma (sndS 1 0 2 inb_S3x4x4_S1x1x1_1_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc e' : Thread nD τ) (slotM 1 0 2 inb_S2x4x4x64x256_S1x1x1x64x256_1_0_2_0_0) (.dma (sndS 1 0 2 inb_S3x4x4_S1x1x1_1_0_2)) hsc) (.dma (rcvS 1 0 2 inb_S3x4x4_S1x1x1_1_0_2)) hsrc hdst hsem) k) Q) := by
  subst he
  exact wp_send_1_0_2 val jk jr K c fs fd hfs O W

/-- info: 'Cert.KernelIdeal.Mlp.wp_sendTo_1_0_2' depends on axioms: [propext, Classical.choice, Quot.sound] -/
#guard_msgs in #print axioms wp_sendTo_1_0_2

/-- The rule of the copy of key `(1, 0, 3)` stated at the device `3` ahead of `c`, for a program that names that device `e'`. -/
theorem wp_sendTo_1_0_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 3 inb_S2x4x4x64x256_S1x1x1x64x256_1_0_3_0_0) : Memref sig (Dev.tc e' : Thread nD τ).2.kind .vmem S64x256 .bf16).view.ref.isScScratch = false}
    {hsrc : (slotM 1 0 0 inb_S2x4x4x64x256_S1x1x1x64x256_1_0_0_0_0).view.WordExact} {hdst : (slotM 1 0 3 inb_S2x4x4x64x256_S1x1x1x64x256_1_0_3_0_0).view.WordExact}
    {hsem : DmaTarget.Typed .vmem (.dma (rcvS 1 0 3 inb_S3x4x4_S1x1x1_1_0_3)) (.remote (Dev.tc e' : Thread nD τ) (slotM 1 0 3 inb_S2x4x4x64x256_S1x1x1x64x256_1_0_3_0_0) (.dma (sndS 1 0 3 inb_S3x4x4_S1x1x1_1_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
        ∗ cellInv ER (Rd val jk jr) (K ((pe c 3 : Thread nD τ), SemLoc.dma (rcvS 1 0 3 inb_S3x4x4_S1x1x1_1_0_3))) ((pe c 3 : Thread nD τ), SemLoc.dma (rcvS 1 0 3 inb_S3x4x4_S1x1x1_1_0_3))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} fs)
        ∗ ((slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} fd)
        ∗ owes (c : Thread nD τ) (O + tallyAt ((pe c 3 : Thread nD τ), SemLoc.dma (rcvS 1 0 3 inb_S3x4x4_S1x1x1_1_0_3)) () N) W
        ∗ dutyTok ER ((c : Thread nD τ), SemLoc.dma (sndS 1 0 3 inb_S3x4x4_S1x1x1_1_0_3)) 0 (0 : Fin 4) ∗ reached ER ((c : Thread nD τ), SemLoc.dma (sndS 1 0 3 inb_S3x4x4_S1x1x1_1_0_3)) 0
        ∗ dutyTok ER ((pe c 3 : Thread nD τ), SemLoc.dma (rcvS 1 0 3 inb_S3x4x4_S1x1x1_1_0_3)) 0 (0 : Fin 4) ∗ reached ER ((pe c 3 : Thread nD τ), SemLoc.dma (rcvS 1 0 3 inb_S3x4x4_S1x1x1_1_0_3)) 0)
      ⊢ iprop(((cred (tallyAt ((c : Thread nD τ), SemLoc.dma (sndS 1 0 3 inb_S3x4x4_S1x1x1_1_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc e' : Thread nD τ) (slotM 1 0 3 inb_S2x4x4x64x256_S1x1x1x64x256_1_0_3_0_0) (.dma (sndS 1 0 3 inb_S3x4x4_S1x1x1_1_0_3)) hsc) (.dma (rcvS 1 0 3 inb_S3x4x4_S1x1x1_1_0_3)) hsrc hdst hsem) k) Q) := by
  subst he
  exact wp_send_1_0_3 val jk jr K c fs fd hfs O W

/-- info: 'Cert.KernelIdeal.Mlp.wp_sendTo_1_0_3' depends on axioms: [propext, Classical.choice, Quot.sound] -/
#guard_msgs in #print axioms wp_sendTo_1_0_3

/-- The rule of the copy of key `(1, 1, 1)` stated at the device `1` ahead of `c`, for a program that names that device `e'`. -/
theorem wp_sendTo_1_1_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 1 inb_S2x4x4x64x256_S1x1x1x64x256_1_1_1_0_0) : Memref sig (Dev.tc e' : Thread nD τ).2.kind .vmem S64x256 .bf16).view.ref.isScScratch = false}
    {hsrc : (slotM 1 1 0 inb_S2x4x4x64x256_S1x1x1x64x256_1_1_0_0_0).view.WordExact} {hdst : (slotM 1 1 1 inb_S2x4x4x64x256_S1x1x1x64x256_1_1_1_0_0).view.WordExact}
    {hsem : DmaTarget.Typed .vmem (.dma (rcvS 1 1 1 inb_S3x4x4_S1x1x1_1_1_1)) (.remote (Dev.tc e' : Thread nD τ) (slotM 1 1 1 inb_S2x4x4x64x256_S1x1x1x64x256_1_1_1_0_0) (.dma (sndS 1 1 1 inb_S3x4x4_S1x1x1_1_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
        ∗ cellInv ER (Rd val jk jr) (K ((pe c 1 : Thread nD τ), SemLoc.dma (rcvS 1 1 1 inb_S3x4x4_S1x1x1_1_1_1))) ((pe c 1 : Thread nD τ), SemLoc.dma (rcvS 1 1 1 inb_S3x4x4_S1x1x1_1_1_1))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} fs)
        ∗ ((slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} fd)
        ∗ owes (c : Thread nD τ) (O + tallyAt ((pe c 1 : Thread nD τ), SemLoc.dma (rcvS 1 1 1 inb_S3x4x4_S1x1x1_1_1_1)) () N) W
        ∗ dutyTok ER ((c : Thread nD τ), SemLoc.dma (sndS 1 1 1 inb_S3x4x4_S1x1x1_1_1_1)) 0 (0 : Fin 4) ∗ reached ER ((c : Thread nD τ), SemLoc.dma (sndS 1 1 1 inb_S3x4x4_S1x1x1_1_1_1)) 0
        ∗ dutyTok ER ((pe c 1 : Thread nD τ), SemLoc.dma (rcvS 1 1 1 inb_S3x4x4_S1x1x1_1_1_1)) 0 (0 : Fin 4) ∗ reached ER ((pe c 1 : Thread nD τ), SemLoc.dma (rcvS 1 1 1 inb_S3x4x4_S1x1x1_1_1_1)) 0)
      ⊢ iprop(((cred (tallyAt ((c : Thread nD τ), SemLoc.dma (sndS 1 1 1 inb_S3x4x4_S1x1x1_1_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc e' : Thread nD τ) (slotM 1 1 1 inb_S2x4x4x64x256_S1x1x1x64x256_1_1_1_0_0) (.dma (sndS 1 1 1 inb_S3x4x4_S1x1x1_1_1_1)) hsc) (.dma (rcvS 1 1 1 inb_S3x4x4_S1x1x1_1_1_1)) hsrc hdst hsem) k) Q) := by
  subst he
  exact wp_send_1_1_1 val jk jr K c fs fd hfs O W

/-- info: 'Cert.KernelIdeal.Mlp.wp_sendTo_1_1_1' depends on axioms: [propext, Classical.choice, Quot.sound] -/
#guard_msgs in #print axioms wp_sendTo_1_1_1

/-- The rule of the copy of key `(1, 1, 2)` stated at the device `2` ahead of `c`, for a program that names that device `e'`. -/
theorem wp_sendTo_1_1_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 2 inb_S2x4x4x64x256_S1x1x1x64x256_1_1_2_0_0) : Memref sig (Dev.tc e' : Thread nD τ).2.kind .vmem S64x256 .bf16).view.ref.isScScratch = false}
    {hsrc : (slotM 1 1 0 inb_S2x4x4x64x256_S1x1x1x64x256_1_1_0_0_0).view.WordExact} {hdst : (slotM 1 1 2 inb_S2x4x4x64x256_S1x1x1x64x256_1_1_2_0_0).view.WordExact}
    {hsem : DmaTarget.Typed .vmem (.dma (rcvS 1 1 2 inb_S3x4x4_S1x1x1_1_1_2)) (.remote (Dev.tc e' : Thread nD τ) (slotM 1 1 2 inb_S2x4x4x64x256_S1x1x1x64x256_1_1_2_0_0) (.dma (sndS 1 1 2 inb_S3x4x4_S1x1x1_1_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
        ∗ cellInv ER (Rd val jk jr) (K ((pe c 2 : Thread nD τ), SemLoc.dma (rcvS 1 1 2 inb_S3x4x4_S1x1x1_1_1_2))) ((pe c 2 : Thread nD τ), SemLoc.dma (rcvS 1 1 2 inb_S3x4x4_S1x1x1_1_1_2))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} fs)
        ∗ ((slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} fd)
        ∗ owes (c : Thread nD τ) (O + tallyAt ((pe c 2 : Thread nD τ), SemLoc.dma (rcvS 1 1 2 inb_S3x4x4_S1x1x1_1_1_2)) () N) W
        ∗ dutyTok ER ((c : Thread nD τ), SemLoc.dma (sndS 1 1 2 inb_S3x4x4_S1x1x1_1_1_2)) 0 (0 : Fin 4) ∗ reached ER ((c : Thread nD τ), SemLoc.dma (sndS 1 1 2 inb_S3x4x4_S1x1x1_1_1_2)) 0
        ∗ dutyTok ER ((pe c 2 : Thread nD τ), SemLoc.dma (rcvS 1 1 2 inb_S3x4x4_S1x1x1_1_1_2)) 0 (0 : Fin 4) ∗ reached ER ((pe c 2 : Thread nD τ), SemLoc.dma (rcvS 1 1 2 inb_S3x4x4_S1x1x1_1_1_2)) 0)
      ⊢ iprop(((cred (tallyAt ((c : Thread nD τ), SemLoc.dma (sndS 1 1 2 inb_S3x4x4_S1x1x1_1_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc e' : Thread nD τ) (slotM 1 1 2 inb_S2x4x4x64x256_S1x1x1x64x256_1_1_2_0_0) (.dma (sndS 1 1 2 inb_S3x4x4_S1x1x1_1_1_2)) hsc) (.dma (rcvS 1 1 2 inb_S3x4x4_S1x1x1_1_1_2)) hsrc hdst hsem) k) Q) := by
  subst he
  exact wp_send_1_1_2 val jk jr K c fs fd hfs O W

/-- info: 'Cert.KernelIdeal.Mlp.wp_sendTo_1_1_2' depends on axioms: [propext, Classical.choice, Quot.sound] -/
#guard_msgs in #print axioms wp_sendTo_1_1_2

/-- The rule of the copy of key `(1, 1, 3)` stated at the device `3` ahead of `c`, for a program that names that device `e'`. -/
theorem wp_sendTo_1_1_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 3 inb_S2x4x4x64x256_S1x1x1x64x256_1_1_3_0_0) : Memref sig (Dev.tc e' : Thread nD τ).2.kind .vmem S64x256 .bf16).view.ref.isScScratch = false}
    {hsrc : (slotM 1 1 0 inb_S2x4x4x64x256_S1x1x1x64x256_1_1_0_0_0).view.WordExact} {hdst : (slotM 1 1 3 inb_S2x4x4x64x256_S1x1x1x64x256_1_1_3_0_0).view.WordExact}
    {hsem : DmaTarget.Typed .vmem (.dma (rcvS 1 1 3 inb_S3x4x4_S1x1x1_1_1_3)) (.remote (Dev.tc e' : Thread nD τ) (slotM 1 1 3 inb_S2x4x4x64x256_S1x1x1x64x256_1_1_3_0_0) (.dma (sndS 1 1 3 inb_S3x4x4_S1x1x1_1_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
        ∗ cellInv ER (Rd val jk jr) (K ((pe c 3 : Thread nD τ), SemLoc.dma (rcvS 1 1 3 inb_S3x4x4_S1x1x1_1_1_3))) ((pe c 3 : Thread nD τ), SemLoc.dma (rcvS 1 1 3 inb_S3x4x4_S1x1x1_1_1_3))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} fs)
        ∗ ((slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} fd)
        ∗ owes (c : Thread nD τ) (O + tallyAt ((pe c 3 : Thread nD τ), SemLoc.dma (rcvS 1 1 3 inb_S3x4x4_S1x1x1_1_1_3)) () N) W
        ∗ dutyTok ER ((c : Thread nD τ), SemLoc.dma (sndS 1 1 3 inb_S3x4x4_S1x1x1_1_1_3)) 0 (0 : Fin 4) ∗ reached ER ((c : Thread nD τ), SemLoc.dma (sndS 1 1 3 inb_S3x4x4_S1x1x1_1_1_3)) 0
        ∗ dutyTok ER ((pe c 3 : Thread nD τ), SemLoc.dma (rcvS 1 1 3 inb_S3x4x4_S1x1x1_1_1_3)) 0 (0 : Fin 4) ∗ reached ER ((pe c 3 : Thread nD τ), SemLoc.dma (rcvS 1 1 3 inb_S3x4x4_S1x1x1_1_1_3)) 0)
      ⊢ iprop(((cred (tallyAt ((c : Thread nD τ), SemLoc.dma (sndS 1 1 3 inb_S3x4x4_S1x1x1_1_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc e' : Thread nD τ) (slotM 1 1 3 inb_S2x4x4x64x256_S1x1x1x64x256_1_1_3_0_0) (.dma (sndS 1 1 3 inb_S3x4x4_S1x1x1_1_1_3)) hsc) (.dma (rcvS 1 1 3 inb_S3x4x4_S1x1x1_1_1_3)) hsrc hdst hsem) k) Q) := by
  subst he
  exact wp_send_1_1_3 val jk jr K c fs fd hfs O W

/-- info: 'Cert.KernelIdeal.Mlp.wp_sendTo_1_1_3' depends on axioms: [propext, Classical.choice, Quot.sound] -/
#guard_msgs in #print axioms wp_sendTo_1_1_3

/-- The rule of the copy of key `(1, 2, 1)` stated at the device `1` ahead of `c`, for a program that names that device `e'`. -/
theorem wp_sendTo_1_2_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 1 inb_S2x4x4x64x256_S1x1x1x64x256_1_2_1_0_0) : Memref sig (Dev.tc e' : Thread nD τ).2.kind .vmem S64x256 .bf16).view.ref.isScScratch = false}
    {hsrc : (slotM 1 2 0 inb_S2x4x4x64x256_S1x1x1x64x256_1_2_0_0_0).view.WordExact} {hdst : (slotM 1 2 1 inb_S2x4x4x64x256_S1x1x1x64x256_1_2_1_0_0).view.WordExact}
    {hsem : DmaTarget.Typed .vmem (.dma (rcvS 1 2 1 inb_S3x4x4_S1x1x1_1_2_1)) (.remote (Dev.tc e' : Thread nD τ) (slotM 1 2 1 inb_S2x4x4x64x256_S1x1x1x64x256_1_2_1_0_0) (.dma (sndS 1 2 1 inb_S3x4x4_S1x1x1_1_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
        ∗ cellInv ER (Rd val jk jr) (K ((pe c 1 : Thread nD τ), SemLoc.dma (rcvS 1 2 1 inb_S3x4x4_S1x1x1_1_2_1))) ((pe c 1 : Thread nD τ), SemLoc.dma (rcvS 1 2 1 inb_S3x4x4_S1x1x1_1_2_1))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} fs)
        ∗ ((slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} fd)
        ∗ owes (c : Thread nD τ) (O + tallyAt ((pe c 1 : Thread nD τ), SemLoc.dma (rcvS 1 2 1 inb_S3x4x4_S1x1x1_1_2_1)) () N) W
        ∗ dutyTok ER ((c : Thread nD τ), SemLoc.dma (sndS 1 2 1 inb_S3x4x4_S1x1x1_1_2_1)) 0 (0 : Fin 4) ∗ reached ER ((c : Thread nD τ), SemLoc.dma (sndS 1 2 1 inb_S3x4x4_S1x1x1_1_2_1)) 0
        ∗ dutyTok ER ((pe c 1 : Thread nD τ), SemLoc.dma (rcvS 1 2 1 inb_S3x4x4_S1x1x1_1_2_1)) 0 (0 : Fin 4) ∗ reached ER ((pe c 1 : Thread nD τ), SemLoc.dma (rcvS 1 2 1 inb_S3x4x4_S1x1x1_1_2_1)) 0)
      ⊢ iprop(((cred (tallyAt ((c : Thread nD τ), SemLoc.dma (sndS 1 2 1 inb_S3x4x4_S1x1x1_1_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc e' : Thread nD τ) (slotM 1 2 1 inb_S2x4x4x64x256_S1x1x1x64x256_1_2_1_0_0) (.dma (sndS 1 2 1 inb_S3x4x4_S1x1x1_1_2_1)) hsc) (.dma (rcvS 1 2 1 inb_S3x4x4_S1x1x1_1_2_1)) hsrc hdst hsem) k) Q) := by
  subst he
  exact wp_send_1_2_1 val jk jr K c fs fd hfs O W

/-- info: 'Cert.KernelIdeal.Mlp.wp_sendTo_1_2_1' depends on axioms: [propext, Classical.choice, Quot.sound] -/
#guard_msgs in #print axioms wp_sendTo_1_2_1

/-- The rule of the copy of key `(1, 2, 2)` stated at the device `2` ahead of `c`, for a program that names that device `e'`. -/
theorem wp_sendTo_1_2_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 2 inb_S2x4x4x64x256_S1x1x1x64x256_1_2_2_0_0) : Memref sig (Dev.tc e' : Thread nD τ).2.kind .vmem S64x256 .bf16).view.ref.isScScratch = false}
    {hsrc : (slotM 1 2 0 inb_S2x4x4x64x256_S1x1x1x64x256_1_2_0_0_0).view.WordExact} {hdst : (slotM 1 2 2 inb_S2x4x4x64x256_S1x1x1x64x256_1_2_2_0_0).view.WordExact}
    {hsem : DmaTarget.Typed .vmem (.dma (rcvS 1 2 2 inb_S3x4x4_S1x1x1_1_2_2)) (.remote (Dev.tc e' : Thread nD τ) (slotM 1 2 2 inb_S2x4x4x64x256_S1x1x1x64x256_1_2_2_0_0) (.dma (sndS 1 2 2 inb_S3x4x4_S1x1x1_1_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
        ∗ cellInv ER (Rd val jk jr) (K ((pe c 2 : Thread nD τ), SemLoc.dma (rcvS 1 2 2 inb_S3x4x4_S1x1x1_1_2_2))) ((pe c 2 : Thread nD τ), SemLoc.dma (rcvS 1 2 2 inb_S3x4x4_S1x1x1_1_2_2))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} fs)
        ∗ ((slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} fd)
        ∗ owes (c : Thread nD τ) (O + tallyAt ((pe c 2 : Thread nD τ), SemLoc.dma (rcvS 1 2 2 inb_S3x4x4_S1x1x1_1_2_2)) () N) W
        ∗ dutyTok ER ((c : Thread nD τ), SemLoc.dma (sndS 1 2 2 inb_S3x4x4_S1x1x1_1_2_2)) 0 (0 : Fin 4) ∗ reached ER ((c : Thread nD τ), SemLoc.dma (sndS 1 2 2 inb_S3x4x4_S1x1x1_1_2_2)) 0
        ∗ dutyTok ER ((pe c 2 : Thread nD τ), SemLoc.dma (rcvS 1 2 2 inb_S3x4x4_S1x1x1_1_2_2)) 0 (0 : Fin 4) ∗ reached ER ((pe c 2 : Thread nD τ), SemLoc.dma (rcvS 1 2 2 inb_S3x4x4_S1x1x1_1_2_2)) 0)
      ⊢ iprop(((cred (tallyAt ((c : Thread nD τ), SemLoc.dma (sndS 1 2 2 inb_S3x4x4_S1x1x1_1_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc e' : Thread nD τ) (slotM 1 2 2 inb_S2x4x4x64x256_S1x1x1x64x256_1_2_2_0_0) (.dma (sndS 1 2 2 inb_S3x4x4_S1x1x1_1_2_2)) hsc) (.dma (rcvS 1 2 2 inb_S3x4x4_S1x1x1_1_2_2)) hsrc hdst hsem) k) Q) := by
  subst he
  exact wp_send_1_2_2 val jk jr K c fs fd hfs O W

/-- info: 'Cert.KernelIdeal.Mlp.wp_sendTo_1_2_2' depends on axioms: [propext, Classical.choice, Quot.sound] -/
#guard_msgs in #print axioms wp_sendTo_1_2_2

/-- The rule of the copy of key `(1, 2, 3)` stated at the device `3` ahead of `c`, for a program that names that device `e'`. -/
theorem wp_sendTo_1_2_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 3 inb_S2x4x4x64x256_S1x1x1x64x256_1_2_3_0_0) : Memref sig (Dev.tc e' : Thread nD τ).2.kind .vmem S64x256 .bf16).view.ref.isScScratch = false}
    {hsrc : (slotM 1 2 0 inb_S2x4x4x64x256_S1x1x1x64x256_1_2_0_0_0).view.WordExact} {hdst : (slotM 1 2 3 inb_S2x4x4x64x256_S1x1x1x64x256_1_2_3_0_0).view.WordExact}
    {hsem : DmaTarget.Typed .vmem (.dma (rcvS 1 2 3 inb_S3x4x4_S1x1x1_1_2_3)) (.remote (Dev.tc e' : Thread nD τ) (slotM 1 2 3 inb_S2x4x4x64x256_S1x1x1x64x256_1_2_3_0_0) (.dma (sndS 1 2 3 inb_S3x4x4_S1x1x1_1_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
        ∗ cellInv ER (Rd val jk jr) (K ((pe c 3 : Thread nD τ), SemLoc.dma (rcvS 1 2 3 inb_S3x4x4_S1x1x1_1_2_3))) ((pe c 3 : Thread nD τ), SemLoc.dma (rcvS 1 2 3 inb_S3x4x4_S1x1x1_1_2_3))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} fs)
        ∗ ((slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} fd)
        ∗ owes (c : Thread nD τ) (O + tallyAt ((pe c 3 : Thread nD τ), SemLoc.dma (rcvS 1 2 3 inb_S3x4x4_S1x1x1_1_2_3)) () N) W
        ∗ dutyTok ER ((c : Thread nD τ), SemLoc.dma (sndS 1 2 3 inb_S3x4x4_S1x1x1_1_2_3)) 0 (0 : Fin 4) ∗ reached ER ((c : Thread nD τ), SemLoc.dma (sndS 1 2 3 inb_S3x4x4_S1x1x1_1_2_3)) 0
        ∗ dutyTok ER ((pe c 3 : Thread nD τ), SemLoc.dma (rcvS 1 2 3 inb_S3x4x4_S1x1x1_1_2_3)) 0 (0 : Fin 4) ∗ reached ER ((pe c 3 : Thread nD τ), SemLoc.dma (rcvS 1 2 3 inb_S3x4x4_S1x1x1_1_2_3)) 0)
      ⊢ iprop(((cred (tallyAt ((c : Thread nD τ), SemLoc.dma (sndS 1 2 3 inb_S3x4x4_S1x1x1_1_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc e' : Thread nD τ) (slotM 1 2 3 inb_S2x4x4x64x256_S1x1x1x64x256_1_2_3_0_0) (.dma (sndS 1 2 3 inb_S3x4x4_S1x1x1_1_2_3)) hsc) (.dma (rcvS 1 2 3 inb_S3x4x4_S1x1x1_1_2_3)) hsrc hdst hsem) k) Q) := by
  subst he
  exact wp_send_1_2_3 val jk jr K c fs fd hfs O W

/-- info: 'Cert.KernelIdeal.Mlp.wp_sendTo_1_2_3' depends on axioms: [propext, Classical.choice, Quot.sound] -/
#guard_msgs in #print axioms wp_sendTo_1_2_3

/-- The rule of the copy of key `(1, 3, 1)` stated at the device `1` ahead of `c`, for a program that names that device `e'`. -/
theorem wp_sendTo_1_3_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 1 inb_S2x4x4x64x256_S1x1x1x64x256_1_3_1_0_0) : Memref sig (Dev.tc e' : Thread nD τ).2.kind .vmem S64x256 .bf16).view.ref.isScScratch = false}
    {hsrc : (slotM 1 3 0 inb_S2x4x4x64x256_S1x1x1x64x256_1_3_0_0_0).view.WordExact} {hdst : (slotM 1 3 1 inb_S2x4x4x64x256_S1x1x1x64x256_1_3_1_0_0).view.WordExact}
    {hsem : DmaTarget.Typed .vmem (.dma (rcvS 1 3 1 inb_S3x4x4_S1x1x1_1_3_1)) (.remote (Dev.tc e' : Thread nD τ) (slotM 1 3 1 inb_S2x4x4x64x256_S1x1x1x64x256_1_3_1_0_0) (.dma (sndS 1 3 1 inb_S3x4x4_S1x1x1_1_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
        ∗ cellInv ER (Rd val jk jr) (K ((pe c 1 : Thread nD τ), SemLoc.dma (rcvS 1 3 1 inb_S3x4x4_S1x1x1_1_3_1))) ((pe c 1 : Thread nD τ), SemLoc.dma (rcvS 1 3 1 inb_S3x4x4_S1x1x1_1_3_1))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} fs)
        ∗ ((slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} fd)
        ∗ owes (c : Thread nD τ) (O + tallyAt ((pe c 1 : Thread nD τ), SemLoc.dma (rcvS 1 3 1 inb_S3x4x4_S1x1x1_1_3_1)) () N) W
        ∗ dutyTok ER ((c : Thread nD τ), SemLoc.dma (sndS 1 3 1 inb_S3x4x4_S1x1x1_1_3_1)) 0 (0 : Fin 4) ∗ reached ER ((c : Thread nD τ), SemLoc.dma (sndS 1 3 1 inb_S3x4x4_S1x1x1_1_3_1)) 0
        ∗ dutyTok ER ((pe c 1 : Thread nD τ), SemLoc.dma (rcvS 1 3 1 inb_S3x4x4_S1x1x1_1_3_1)) 0 (0 : Fin 4) ∗ reached ER ((pe c 1 : Thread nD τ), SemLoc.dma (rcvS 1 3 1 inb_S3x4x4_S1x1x1_1_3_1)) 0)
      ⊢ iprop(((cred (tallyAt ((c : Thread nD τ), SemLoc.dma (sndS 1 3 1 inb_S3x4x4_S1x1x1_1_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc e' : Thread nD τ) (slotM 1 3 1 inb_S2x4x4x64x256_S1x1x1x64x256_1_3_1_0_0) (.dma (sndS 1 3 1 inb_S3x4x4_S1x1x1_1_3_1)) hsc) (.dma (rcvS 1 3 1 inb_S3x4x4_S1x1x1_1_3_1)) hsrc hdst hsem) k) Q) := by
  subst he
  exact wp_send_1_3_1 val jk jr K c fs fd hfs O W

/-- info: 'Cert.KernelIdeal.Mlp.wp_sendTo_1_3_1' depends on axioms: [propext, Classical.choice, Quot.sound] -/
#guard_msgs in #print axioms wp_sendTo_1_3_1

/-- The rule of the copy of key `(1, 3, 2)` stated at the device `2` ahead of `c`, for a program that names that device `e'`. -/
theorem wp_sendTo_1_3_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 2 inb_S2x4x4x64x256_S1x1x1x64x256_1_3_2_0_0) : Memref sig (Dev.tc e' : Thread nD τ).2.kind .vmem S64x256 .bf16).view.ref.isScScratch = false}
    {hsrc : (slotM 1 3 0 inb_S2x4x4x64x256_S1x1x1x64x256_1_3_0_0_0).view.WordExact} {hdst : (slotM 1 3 2 inb_S2x4x4x64x256_S1x1x1x64x256_1_3_2_0_0).view.WordExact}
    {hsem : DmaTarget.Typed .vmem (.dma (rcvS 1 3 2 inb_S3x4x4_S1x1x1_1_3_2)) (.remote (Dev.tc e' : Thread nD τ) (slotM 1 3 2 inb_S2x4x4x64x256_S1x1x1x64x256_1_3_2_0_0) (.dma (sndS 1 3 2 inb_S3x4x4_S1x1x1_1_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
        ∗ cellInv ER (Rd val jk jr) (K ((pe c 2 : Thread nD τ), SemLoc.dma (rcvS 1 3 2 inb_S3x4x4_S1x1x1_1_3_2))) ((pe c 2 : Thread nD τ), SemLoc.dma (rcvS 1 3 2 inb_S3x4x4_S1x1x1_1_3_2))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} fs)
        ∗ ((slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} fd)
        ∗ owes (c : Thread nD τ) (O + tallyAt ((pe c 2 : Thread nD τ), SemLoc.dma (rcvS 1 3 2 inb_S3x4x4_S1x1x1_1_3_2)) () N) W
        ∗ dutyTok ER ((c : Thread nD τ), SemLoc.dma (sndS 1 3 2 inb_S3x4x4_S1x1x1_1_3_2)) 0 (0 : Fin 4) ∗ reached ER ((c : Thread nD τ), SemLoc.dma (sndS 1 3 2 inb_S3x4x4_S1x1x1_1_3_2)) 0
        ∗ dutyTok ER ((pe c 2 : Thread nD τ), SemLoc.dma (rcvS 1 3 2 inb_S3x4x4_S1x1x1_1_3_2)) 0 (0 : Fin 4) ∗ reached ER ((pe c 2 : Thread nD τ), SemLoc.dma (rcvS 1 3 2 inb_S3x4x4_S1x1x1_1_3_2)) 0)
      ⊢ iprop(((cred (tallyAt ((c : Thread nD τ), SemLoc.dma (sndS 1 3 2 inb_S3x4x4_S1x1x1_1_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc e' : Thread nD τ) (slotM 1 3 2 inb_S2x4x4x64x256_S1x1x1x64x256_1_3_2_0_0) (.dma (sndS 1 3 2 inb_S3x4x4_S1x1x1_1_3_2)) hsc) (.dma (rcvS 1 3 2 inb_S3x4x4_S1x1x1_1_3_2)) hsrc hdst hsem) k) Q) := by
  subst he
  exact wp_send_1_3_2 val jk jr K c fs fd hfs O W

/-- info: 'Cert.KernelIdeal.Mlp.wp_sendTo_1_3_2' depends on axioms: [propext, Classical.choice, Quot.sound] -/
#guard_msgs in #print axioms wp_sendTo_1_3_2

/-- The rule of the copy of key `(1, 3, 3)` stated at the device `3` ahead of `c`, for a program that names that device `e'`. -/
theorem wp_sendTo_1_3_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 3 inb_S2x4x4x64x256_S1x1x1x64x256_1_3_3_0_0) : Memref sig (Dev.tc e' : Thread nD τ).2.kind .vmem S64x256 .bf16).view.ref.isScScratch = false}
    {hsrc : (slotM 1 3 0 inb_S2x4x4x64x256_S1x1x1x64x256_1_3_0_0_0).view.WordExact} {hdst : (slotM 1 3 3 inb_S2x4x4x64x256_S1x1x1x64x256_1_3_3_0_0).view.WordExact}
    {hsem : DmaTarget.Typed .vmem (.dma (rcvS 1 3 3 inb_S3x4x4_S1x1x1_1_3_3)) (.remote (Dev.tc e' : Thread nD τ) (slotM 1 3 3 inb_S2x4x4x64x256_S1x1x1x64x256_1_3_3_0_0) (.dma (sndS 1 3 3 inb_S3x4x4_S1x1x1_1_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
        ∗ cellInv ER (Rd val jk jr) (K ((pe c 3 : Thread nD τ), SemLoc.dma (rcvS 1 3 3 inb_S3x4x4_S1x1x1_1_3_3))) ((pe c 3 : Thread nD τ), SemLoc.dma (rcvS 1 3 3 inb_S3x4x4_S1x1x1_1_3_3))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} fs)
        ∗ ((slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} fd)
        ∗ owes (c : Thread nD τ) (O + tallyAt ((pe c 3 : Thread nD τ), SemLoc.dma (rcvS 1 3 3 inb_S3x4x4_S1x1x1_1_3_3)) () N) W
        ∗ dutyTok ER ((c : Thread nD τ), SemLoc.dma (sndS 1 3 3 inb_S3x4x4_S1x1x1_1_3_3)) 0 (0 : Fin 4) ∗ reached ER ((c : Thread nD τ), SemLoc.dma (sndS 1 3 3 inb_S3x4x4_S1x1x1_1_3_3)) 0
        ∗ dutyTok ER ((pe c 3 : Thread nD τ), SemLoc.dma (rcvS 1 3 3 inb_S3x4x4_S1x1x1_1_3_3)) 0 (0 : Fin 4) ∗ reached ER ((pe c 3 : Thread nD τ), SemLoc.dma (rcvS 1 3 3 inb_S3x4x4_S1x1x1_1_3_3)) 0)
      ⊢ iprop(((cred (tallyAt ((c : Thread nD τ), SemLoc.dma (sndS 1 3 3 inb_S3x4x4_S1x1x1_1_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc e' : Thread nD τ) (slotM 1 3 3 inb_S2x4x4x64x256_S1x1x1x64x256_1_3_3_0_0) (.dma (sndS 1 3 3 inb_S3x4x4_S1x1x1_1_3_3)) hsc) (.dma (rcvS 1 3 3 inb_S3x4x4_S1x1x1_1_3_3)) hsrc hdst hsem) k) Q) := by
  subst he
  exact wp_send_1_3_3 val jk jr K c fs fd hfs O W

/-- info: 'Cert.KernelIdeal.Mlp.wp_sendTo_1_3_3' depends on axioms: [propext, Classical.choice, Quot.sound] -/
#guard_msgs in #print axioms wp_sendTo_1_3_3

/-- The rule of the copy of key `(2, 0, 1)` stated at the device `1` ahead of `c`, for a program that names that device `e'`. -/
theorem wp_sendTo_2_0_1 (K : GSem nD τ sig → ℕ) (c : Dev nD) (e' : Dev nD) (he : e' = pe c 1)
    (fs : Buf (Elt F) ((c : Thread nD τ).loc cc0_scratch1)) (fd : Buf (Elt F) ((pe c 1 : Thread nD τ).loc cc0_scratch1))
    (hfs : (rsM 0 1 inb_S2x4x64x256_S1x1x64x256_0_1_0_0).view.read (Elt F) fs = val c 2 1)
    (O : CellTallies nD τ sig Unit) (W : Waits sig Unit)
    {hsc : ((rsM 1 1 inb_S2x4x64x256_S1x1x64x256_1_1_0_0) : Memref sig (Dev.tc e' : Thread nD τ).2.kind .vmem S64x256 .bf16).view.ref.isScScratch = false}
    {hsrc : (rsM 0 1 inb_S2x4x64x256_S1x1x64x256_0_1_0_0).view.WordExact} {hdst : (rsM 1 1 inb_S2x4x64x256_S1x1x64x256_1_1_0_0).view.WordExact}
    {hsem : DmaTarget.Typed .vmem (.dma (rcvS 2 0 1 inb_S3x4x4_S1x1x1_2_0_1)) (.remote (Dev.tc e' : Thread nD τ) (rsM 1 1 inb_S2x4x64x256_S1x1x64x256_1_1_0_0) (.dma (sndS 2 0 1 inb_S3x4x4_S1x1x1_2_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
        ∗ cellInv ER (Rd val jk jr) (K ((pe c 1 : Thread nD τ), SemLoc.dma (rcvS 2 0 1 inb_S3x4x4_S1x1x1_2_0_1))) ((pe c 1 : Thread nD τ), SemLoc.dma (rcvS 2 0 1 inb_S3x4x4_S1x1x1_2_0_1))
        ∗ ((rsM 0 1 inb_S2x4x64x256_S1x1x64x256_0_1_0_0).view.loc (c : Thread nD τ) ↦[(rsM 0 1 inb_S2x4x64x256_S1x1x64x256_0_1_0_0).view.set]{fullShare} fs)
        ∗ ((rsM 1 1 inb_S2x4x64x256_S1x1x64x256_1_1_0_0).view.loc (pe c 1 : Thread nD τ) ↦[(rsM 1 1 inb_S2x4x64x256_S1x1x64x256_1_1_0_0).view.set]{fullShare} fd)
        ∗ owes (c : Thread nD τ) (O + tallyAt ((pe c 1 : Thread nD τ), SemLoc.dma (rcvS 2 0 1 inb_S3x4x4_S1x1x1_2_0_1)) () N) W
        ∗ dutyTok ER ((c : Thread nD τ), SemLoc.dma (sndS 2 0 1 inb_S3x4x4_S1x1x1_2_0_1)) 0 (0 : Fin 4) ∗ reached ER ((c : Thread nD τ), SemLoc.dma (sndS 2 0 1 inb_S3x4x4_S1x1x1_2_0_1)) 0
        ∗ dutyTok ER ((pe c 1 : Thread nD τ), SemLoc.dma (rcvS 2 0 1 inb_S3x4x4_S1x1x1_2_0_1)) 0 (0 : Fin 4) ∗ reached ER ((pe c 1 : Thread nD τ), SemLoc.dma (rcvS 2 0 1 inb_S3x4x4_S1x1x1_2_0_1)) 0)
      ⊢ iprop(((cred (tallyAt ((c : Thread nD τ), SemLoc.dma (sndS 2 0 1 inb_S3x4x4_S1x1x1_2_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 1 inb_S2x4x64x256_S1x1x64x256_0_1_0_0) (.remote (Dev.tc e' : Thread nD τ) (rsM 1 1 inb_S2x4x64x256_S1x1x64x256_1_1_0_0) (.dma (sndS 2 0 1 inb_S3x4x4_S1x1x1_2_0_1)) hsc) (.dma (rcvS 2 0 1 inb_S3x4x4_S1x1x1_2_0_1)) hsrc hdst hsem) k) Q) := by
  subst he
  exact wp_send_2_0_1 val jk jr K c fs fd hfs O W

/-- info: 'Cert.KernelIdeal.Mlp.wp_sendTo_2_0_1' depends on axioms: [propext, Classical.choice, Quot.sound] -/
#guard_msgs in #print axioms wp_sendTo_2_0_1

/-- The rule of the copy of key `(2, 0, 2)` stated at the device `2` ahead of `c`, for a program that names that device `e'`. -/
theorem wp_sendTo_2_0_2 (K : GSem nD τ sig → ℕ) (c : Dev nD) (e' : Dev nD) (he : e' = pe c 2)
    (fs : Buf (Elt F) ((c : Thread nD τ).loc cc0_scratch1)) (fd : Buf (Elt F) ((pe c 2 : Thread nD τ).loc cc0_scratch1))
    (hfs : (rsM 0 2 inb_S2x4x64x256_S1x1x64x256_0_2_0_0).view.read (Elt F) fs = val c 2 2)
    (O : CellTallies nD τ sig Unit) (W : Waits sig Unit)
    {hsc : ((rsM 1 2 inb_S2x4x64x256_S1x1x64x256_1_2_0_0) : Memref sig (Dev.tc e' : Thread nD τ).2.kind .vmem S64x256 .bf16).view.ref.isScScratch = false}
    {hsrc : (rsM 0 2 inb_S2x4x64x256_S1x1x64x256_0_2_0_0).view.WordExact} {hdst : (rsM 1 2 inb_S2x4x64x256_S1x1x64x256_1_2_0_0).view.WordExact}
    {hsem : DmaTarget.Typed .vmem (.dma (rcvS 2 0 2 inb_S3x4x4_S1x1x1_2_0_2)) (.remote (Dev.tc e' : Thread nD τ) (rsM 1 2 inb_S2x4x64x256_S1x1x64x256_1_2_0_0) (.dma (sndS 2 0 2 inb_S3x4x4_S1x1x1_2_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
        ∗ cellInv ER (Rd val jk jr) (K ((pe c 2 : Thread nD τ), SemLoc.dma (rcvS 2 0 2 inb_S3x4x4_S1x1x1_2_0_2))) ((pe c 2 : Thread nD τ), SemLoc.dma (rcvS 2 0 2 inb_S3x4x4_S1x1x1_2_0_2))
        ∗ ((rsM 0 2 inb_S2x4x64x256_S1x1x64x256_0_2_0_0).view.loc (c : Thread nD τ) ↦[(rsM 0 2 inb_S2x4x64x256_S1x1x64x256_0_2_0_0).view.set]{fullShare} fs)
        ∗ ((rsM 1 2 inb_S2x4x64x256_S1x1x64x256_1_2_0_0).view.loc (pe c 2 : Thread nD τ) ↦[(rsM 1 2 inb_S2x4x64x256_S1x1x64x256_1_2_0_0).view.set]{fullShare} fd)
        ∗ owes (c : Thread nD τ) (O + tallyAt ((pe c 2 : Thread nD τ), SemLoc.dma (rcvS 2 0 2 inb_S3x4x4_S1x1x1_2_0_2)) () N) W
        ∗ dutyTok ER ((c : Thread nD τ), SemLoc.dma (sndS 2 0 2 inb_S3x4x4_S1x1x1_2_0_2)) 0 (0 : Fin 4) ∗ reached ER ((c : Thread nD τ), SemLoc.dma (sndS 2 0 2 inb_S3x4x4_S1x1x1_2_0_2)) 0
        ∗ dutyTok ER ((pe c 2 : Thread nD τ), SemLoc.dma (rcvS 2 0 2 inb_S3x4x4_S1x1x1_2_0_2)) 0 (0 : Fin 4) ∗ reached ER ((pe c 2 : Thread nD τ), SemLoc.dma (rcvS 2 0 2 inb_S3x4x4_S1x1x1_2_0_2)) 0)
      ⊢ iprop(((cred (tallyAt ((c : Thread nD τ), SemLoc.dma (sndS 2 0 2 inb_S3x4x4_S1x1x1_2_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 2 inb_S2x4x64x256_S1x1x64x256_0_2_0_0) (.remote (Dev.tc e' : Thread nD τ) (rsM 1 2 inb_S2x4x64x256_S1x1x64x256_1_2_0_0) (.dma (sndS 2 0 2 inb_S3x4x4_S1x1x1_2_0_2)) hsc) (.dma (rcvS 2 0 2 inb_S3x4x4_S1x1x1_2_0_2)) hsrc hdst hsem) k) Q) := by
  subst he
  exact wp_send_2_0_2 val jk jr K c fs fd hfs O W

/-- info: 'Cert.KernelIdeal.Mlp.wp_sendTo_2_0_2' depends on axioms: [propext, Classical.choice, Quot.sound] -/
#guard_msgs in #print axioms wp_sendTo_2_0_2

/-- The rule of the copy of key `(2, 0, 3)` stated at the device `3` ahead of `c`, for a program that names that device `e'`. -/
theorem wp_sendTo_2_0_3 (K : GSem nD τ sig → ℕ) (c : Dev nD) (e' : Dev nD) (he : e' = pe c 3)
    (fs : Buf (Elt F) ((c : Thread nD τ).loc cc0_scratch1)) (fd : Buf (Elt F) ((pe c 3 : Thread nD τ).loc cc0_scratch1))
    (hfs : (rsM 0 3 inb_S2x4x64x256_S1x1x64x256_0_3_0_0).view.read (Elt F) fs = val c 2 3)
    (O : CellTallies nD τ sig Unit) (W : Waits sig Unit)
    {hsc : ((rsM 1 3 inb_S2x4x64x256_S1x1x64x256_1_3_0_0) : Memref sig (Dev.tc e' : Thread nD τ).2.kind .vmem S64x256 .bf16).view.ref.isScScratch = false}
    {hsrc : (rsM 0 3 inb_S2x4x64x256_S1x1x64x256_0_3_0_0).view.WordExact} {hdst : (rsM 1 3 inb_S2x4x64x256_S1x1x64x256_1_3_0_0).view.WordExact}
    {hsem : DmaTarget.Typed .vmem (.dma (rcvS 2 0 3 inb_S3x4x4_S1x1x1_2_0_3)) (.remote (Dev.tc e' : Thread nD τ) (rsM 1 3 inb_S2x4x64x256_S1x1x64x256_1_3_0_0) (.dma (sndS 2 0 3 inb_S3x4x4_S1x1x1_2_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
        ∗ cellInv ER (Rd val jk jr) (K ((pe c 3 : Thread nD τ), SemLoc.dma (rcvS 2 0 3 inb_S3x4x4_S1x1x1_2_0_3))) ((pe c 3 : Thread nD τ), SemLoc.dma (rcvS 2 0 3 inb_S3x4x4_S1x1x1_2_0_3))
        ∗ ((rsM 0 3 inb_S2x4x64x256_S1x1x64x256_0_3_0_0).view.loc (c : Thread nD τ) ↦[(rsM 0 3 inb_S2x4x64x256_S1x1x64x256_0_3_0_0).view.set]{fullShare} fs)
        ∗ ((rsM 1 3 inb_S2x4x64x256_S1x1x64x256_1_3_0_0).view.loc (pe c 3 : Thread nD τ) ↦[(rsM 1 3 inb_S2x4x64x256_S1x1x64x256_1_3_0_0).view.set]{fullShare} fd)
        ∗ owes (c : Thread nD τ) (O + tallyAt ((pe c 3 : Thread nD τ), SemLoc.dma (rcvS 2 0 3 inb_S3x4x4_S1x1x1_2_0_3)) () N) W
        ∗ dutyTok ER ((c : Thread nD τ), SemLoc.dma (sndS 2 0 3 inb_S3x4x4_S1x1x1_2_0_3)) 0 (0 : Fin 4) ∗ reached ER ((c : Thread nD τ), SemLoc.dma (sndS 2 0 3 inb_S3x4x4_S1x1x1_2_0_3)) 0
        ∗ dutyTok ER ((pe c 3 : Thread nD τ), SemLoc.dma (rcvS 2 0 3 inb_S3x4x4_S1x1x1_2_0_3)) 0 (0 : Fin 4) ∗ reached ER ((pe c 3 : Thread nD τ), SemLoc.dma (rcvS 2 0 3 inb_S3x4x4_S1x1x1_2_0_3)) 0)
      ⊢ iprop(((cred (tallyAt ((c : Thread nD τ), SemLoc.dma (sndS 2 0 3 inb_S3x4x4_S1x1x1_2_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 3 inb_S2x4x64x256_S1x1x64x256_0_3_0_0) (.remote (Dev.tc e' : Thread nD τ) (rsM 1 3 inb_S2x4x64x256_S1x1x64x256_1_3_0_0) (.dma (sndS 2 0 3 inb_S3x4x4_S1x1x1_2_0_3)) hsc) (.dma (rcvS 2 0 3 inb_S3x4x4_S1x1x1_2_0_3)) hsrc hdst hsem) k) Q) := by
  subst he
  exact wp_send_2_0_3 val jk jr K c fs fd hfs O W

/-- info: 'Cert.KernelIdeal.Mlp.wp_sendTo_2_0_3' depends on axioms: [propext, Classical.choice, Quot.sound] -/
#guard_msgs in #print axioms wp_sendTo_2_0_3

end Cert.KernelIdeal.Mlp

end
-- ==== Proof.Shares.lean ====
import proofs.«900991_g7700000000000992_dist_mlpseq_tp1d_rep_bs_b256_d256_h512_v7x_i4_bf16_1_alg».proof.Proof.Toks

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- A block held outright is a kept share and three lendable shares of the same contents: one for each of the three
    copies that read it while the device itself goes on reading it. -/
theorem share_split4 {ℓ : Loc nD τ sig} (S : Finset (ℓ.ty.shape.Idx)) (f : Buf (Elt F) ℓ) :
    (ℓ ↦[S]{fullShare} f : sProp 𝕄) ⊣⊢ iprop((ℓ ↦[S]{Transfers.shareDrop fullShare 3} f) ∗ (ℓ ↦[S]{Transfers.shareTokN fullShare 0} f)
      ∗ (ℓ ↦[S]{Transfers.shareTokN fullShare 1} f) ∗ (ℓ ↦[S]{Transfers.shareTokN fullShare 2} f)) := by
  have h : (ℓ ↦[S]{fullShare} f : sProp 𝕄) ⊣⊢ _ := Transfers.pointsTo_toks_range fullShare 3
  rw [BI.bigSep_eq_bigSepL_of_eq [0, 1, 2] (by decide) (by decide)] at h
  exact h

end Cert.KernelIdeal.Mlp

end
-- ==== Proof.ValueSteps.lean ====
import proofs.«900991_g7700000000000992_dist_mlpseq_tp1d_rep_bs_b256_d256_h512_v7x_i4_bf16_1_alg».proof.Proof.ValsG

/-!
# The values the body's stores leave and its loads return

Every copy of the body sends a block that a store has just written, and every later load reads either such a block or
one that a copy has landed.  Read back through the block's own view, a stored vector is the vector with its unit axes
dropped; read by a vector load, a landed block is the block under its unit axes.  With the stored vectors composed along
the exchange these give, store by store, the blocks named from the memory at launch, and at the end the device's result.
-/

set_option quotPrecheck false

noncomputable section

namespace Cert.KernelIdeal.Mlp

open Idealize.ShloMosaic
open Idealize.ShloMosaic.TcCoe
open Cert.KernelIdeal Cert.KernelIdeal.Gen Cert.KernelIdeal.Join Cert.KernelIdeal.KVal
open Idealize.SL.Sem

variable {F : FTy → Type} [FloatOps F]
variable (m : (ℓ : Loc nD τ sig) → Buf (Elt F) ℓ) (ρ : Dev nD → PrngReg)

/-! Shorthand for the three ways a block `[l, p, o]` of the first exchange buffer is touched: a vector load of it, a
    vector store over it, a landing in it; and the same for a block `[k, o]` of the second. -/
local notation "LD5(" l ", " p ", " o ", " h ", " x ")" =>
  View.readAt (Elt F) (Memref.whole cc0_scratch0).view
    (Rect.unit (s := S2x4x4x64x256) ![l, p, o, 0, 0] S1x1x1x64x256.size h).toLoadRect x
local notation "ST5(" l ", " p ", " o ", " h ", " b ", " v ")" =>
  View.write (Elt F) ((Memref.whole cc0_scratch0).access (Rect.unit (s := S2x4x4x64x256) ![l, p, o, 0, 0] S1x1x1x64x256.size h))
    b v Finset.univ
local notation "LN5(" l ", " p ", " o ", " h ", " fd ", " x ")" =>
  (slotM l p o h).view.write (Elt F) fd x Finset.univ
local notation "LD4(" k ", " o ", " h ", " x ")" =>
  View.readAt (Elt F) (Memref.whole cc0_scratch1).view
    (Rect.unit (s := S2x4x64x256) ![k, o, 0, 0] S1x1x64x256.size h).toLoadRect x
local notation "ST4(" k ", " o ", " h ", " b ", " v ")" =>
  View.write (Elt F) ((Memref.whole cc0_scratch1).access (Rect.unit (s := S2x4x64x256) ![k, o, 0, 0] S1x1x64x256.size h))
    b v Finset.univ
local notation "LN4(" k ", " o ", " h ", " fd ", " x ")" =>
  (rsM k o h).view.write (Elt F) fd x Finset.univ
/-- The stored vectors of all devices, from the memory at launch. -/
local notation "V0'" => V0 (XA0 m ρ) (WiA m ρ) (WoA m ρ)
local notation "V1'" => V1 (XA0 m ρ) (WiA m ρ) (WoA m ρ)

/-! ## Layer 0, for a row block `p` -/

section Layer0

variable (p : Fin 4)

/-- A load of what the layer-0 store left in slot 0 of block `p`: the device's own layer-0 vector. -/
theorem own_load0 (h : ∀ a, (![0, p.val, 0, 0, 0] : Fin 5 → Nat) a + S1x1x1x64x256.size a ≤ S2x4x4x64x256.size a)
    (c : Dev nD) (b : Buf (Elt F) ((c : Thread nD τ).loc cc0_scratch0)) :
    LD5(0, p.val, 0, h, ST5(0, p.val, 0, h, b, st0 (XA0 m ρ c) (XA1 m ρ c) (XA2 m ρ c) p)) = V0' c p :=
  slot_load_store 0 p.val 0 h c b _

/-- A load of slot `j` of block `p` after device `e`'s layer-0 block has landed there: `e`'s layer-0 vector. -/
theorem land_load0 (j : ℕ) (h : ∀ a, (![0, p.val, j, 0, 0] : Fin 5 → Nat) a + S1x1x1x64x256.size a ≤ S2x4x4x64x256.size a)
    (c e : Dev nD) (fd : Buf (Elt F) ((c : Thread nD τ).loc cc0_scratch0)) :
    LD5(0, p.val, j, h, LN5(0, p.val, j, h, fd, valF m ρ e 0 p.val)) = V0' e p := by
  rw [slot_load_landing, valF_0, un5_sq5]

/-- The layer-0 store, read through the slot's own view: the block named for the device, layer 0, row block `p`. -/
theorem read_store0 (h : ∀ a, (![0, p.val, 0, 0, 0] : Fin 5 → Nat) a + S1x1x1x64x256.size a ≤ S2x4x4x64x256.size a)
    (c : Dev nD) (b : Buf (Elt F) ((c : Thread nD τ).loc cc0_scratch0)) :
    (slotM 0 p.val 0 h).view.read (Elt F) ST5(0, p.val, 0, h, b, st0 (XA0 m ρ c) (XA1 m ρ c) (XA2 m ρ c) p)
      = valF m ρ c 0 p.val :=
  (slot_read_store 0 p.val 0 h c b _).trans (valF_0 m ρ c p).symm

end Layer0

/-! ## Layer 1, for a row block `p` -/

section Layer1

variable (p : Fin 4)

/-- The layer-1 store, read through the slot's own view, when the four loaded slots hold the layer-0 vectors of the
    device and of the devices 1, 3, 2 places behind it: the block named for the device, layer 1, row block `p`. -/
theorem read_store1 (h : ∀ a, (![1, p.val, 0, 0, 0] : Fin 5 → Nat) a + S1x1x1x64x256.size a ≤ S2x4x4x64x256.size a)
    (c : Dev nD) (b : Buf (Elt F) ((c : Thread nD τ).loc cc0_scratch0)) (own s1 s3 s2 : Vec F S1x1x1x64x256 .bf16)
    (hown : own = V0' c p) (hs1 : s1 = V0' (ps c 1) p) (hs3 : s3 = V0' (ps c 3) p) (hs2 : s2 = V0' (ps c 2) p) :
    (slotM 1 p.val 0 h).view.read (Elt F) ST5(1, p.val, 0, h, b, st1 (XA3 m ρ c) (XA4 m ρ c) own s1 s3 s2 p)
      = valF m ρ c 1 p.val := by
  subst hown hs1 hs3 hs2
  exact (slot_read_store 1 p.val 0 h c b _).trans (valF_1 m ρ c p).symm

/-- A load of what the layer-1 store left in slot 0 of block `p`, under the same hypotheses: the device's own layer-1
    vector. -/
theorem own_load1 (h : ∀ a, (![1, p.val, 0, 0, 0] : Fin 5 → Nat) a + S1x1x1x64x256.size a ≤ S2x4x4x64x256.size a)
    (c : Dev nD) (b : Buf (Elt F) ((c : Thread nD τ).loc cc0_scratch0)) (own s1 s3 s2 : Vec F S1x1x1x64x256 .bf16)
    (hown : own = V0' c p) (hs1 : s1 = V0' (ps c 1) p) (hs3 : s3 = V0' (ps c 3) p) (hs2 : s2 = V0' (ps c 2) p) :
    LD5(1, p.val, 0, h, ST5(1, p.val, 0, h, b, st1 (XA3 m ρ c) (XA4 m ρ c) own s1 s3 s2 p)) = V1' c p := by
  subst hown hs1 hs3 hs2
  exact slot_load_store 1 p.val 0 h c b _

/-- A load of slot `j` of block `p` after device `e`'s layer-1 block has landed there: `e`'s layer-1 vector. -/
theorem land_load1 (j : ℕ) (h : ∀ a, (![1, p.val, j, 0, 0] : Fin 5 → Nat) a + S1x1x1x64x256.size a ≤ S2x4x4x64x256.size a)
    (c e : Dev nD) (fd : Buf (Elt F) ((c : Thread nD τ).loc cc0_scratch0)) :
    LD5(1, p.val, j, h, LN5(1, p.val, j, h, fd, valF m ρ e 1 p.val)) = V1' e p := by
  rw [slot_load_landing, valF_1, un5_sq5]

end Layer1

/-! ## Layers 0 and 1 at the four literal row blocks -/

section Literal01

/-! ### Layer 0: the store read back through the slot's own view -/

theorem L0_0 (c : Dev nD) (b : Buf (Elt F) ((c : Thread nD τ).loc cc0_scratch0)) :
    (slotM 0 0 0 inb_S2x4x4x64x256_S1x1x1x64x256_0_0_0_0_0).view.read (Elt F)
        (ST5(0, 0, 0, inb_S2x4x4x64x256_S1x1x1x64x256_0_0_0_0_0, b, st0 (XA0 m ρ c) (XA1 m ρ c) (XA2 m ρ c) 0))
      = valF m ρ c 0 0 :=
  read_store0 m ρ 0 _ c b
theorem L0_1 (c : Dev nD) (b : Buf (Elt F) ((c : Thread nD τ).loc cc0_scratch0)) :
    (slotM 0 1 0 inb_S2x4x4x64x256_S1x1x1x64x256_0_1_0_0_0).view.read (Elt F)
        (ST5(0, 1, 0, inb_S2x4x4x64x256_S1x1x1x64x256_0_1_0_0_0, b, st0 (XA0 m ρ c) (XA1 m ρ c) (XA2 m ρ c) 1))
      = valF m ρ c 0 1 :=
  read_store0 m ρ 1 _ c b
theorem L0_2 (c : Dev nD) (b : Buf (Elt F) ((c : Thread nD τ).loc cc0_scratch0)) :
    (slotM 0 2 0 inb_S2x4x4x64x256_S1x1x1x64x256_0_2_0_0_0).view.read (Elt F)
        (ST5(0, 2, 0, inb_S2x4x4x64x256_S1x1x1x64x256_0_2_0_0_0, b, st0 (XA0 m ρ c) (XA1 m ρ c) (XA2 m ρ c) 2))
      = valF m ρ c 0 2 :=
  read_store0 m ρ 2 _ c b
theorem L0_3 (c : Dev nD) (b : Buf (Elt F) ((c : Thread nD τ).loc cc0_scratch0)) :
    (slotM 0 3 0 inb_S2x4x4x64x256_S1x1x1x64x256_0_3_0_0_0).view.read (Elt F)
        (ST5(0, 3, 0, inb_S2x4x4x64x256_S1x1x1x64x256_0_3_0_0_0, b, st0 (XA0 m ρ c) (XA1 m ρ c) (XA2 m ρ c) 3))
      = valF m ρ c 0 3 :=
  read_store0 m ρ 3 _ c b

/-! ### Layer 0: the load of the device's own slot after its store -/

theorem own_load0_0 (c : Dev nD) (b : Buf (Elt F) ((c : Thread nD τ).loc cc0_scratch0)) :
    LD5(0, 0, 0, inb_S2x4x4x64x256_S1x1x1x64x256_0_0_0_0_0,
        ST5(0, 0, 0, inb_S2x4x4x64x256_S1x1x1x64x256_0_0_0_0_0, b, st0 (XA0 m ρ c) (XA1 m ρ c) (XA2 m ρ c) 0))
      = V0' c 0 :=
  own_load0 m ρ 0 _ c b
theorem own_load0_1 (c : Dev nD) (b : Buf (Elt F) ((c : Thread nD τ).loc cc0_scratch0)) :
    LD5(0, 1, 0, inb_S2x4x4x64x256_S1x1x1x64x256_0_1_0_0_0,
        ST5(0, 1, 0, inb_S2x4x4x64x256_S1x1x1x64x256_0_1_0_0_0, b, st0 (XA0 m ρ c) (XA1 m ρ c) (XA2 m ρ c) 1))
      = V0' c 1 :=
  own_load0 m ρ 1 _ c b
theorem own_load0_2 (c : Dev nD) (b : Buf (Elt F) ((c : Thread nD τ).loc cc0_scratch0)) :
    LD5(0, 2, 0, inb_S2x4x4x64x256_S1x1x1x64x256_0_2_0_0_0,
        ST5(0, 2, 0, inb_S2x4x4x64x256_S1x1x1x64x256_0_2_0_0_0, b, st0 (XA0 m ρ c) (XA1 m ρ c) (XA2 m ρ c) 2))
      = V0' c 2 :=
  own_load0 m ρ 2 _ c b
theorem own_load0_3 (c : Dev nD) (b : Buf (Elt F) ((c : Thread nD τ).loc cc0_scratch0)) :
    LD5(0, 3, 0, inb_S2x4x4x64x256_S1x1x1x64x256_0_3_0_0_0,
        ST5(0, 3, 0, inb_S2x4x4x64x256_S1x1x1x64x256_0_3_0_0_0, b, st0 (XA0 m ρ c) (XA1 m ρ c) (XA2 m ρ c) 3))
      = V0' c 3 :=
  own_load0 m ρ 3 _ c b

/-! ### Layer 0: the load of slot `j` after the landing from the device `j` places behind -/

theorem land_load0_0_1 (c : Dev nD) :
    LD5(0, 0, 1, inb_S2x4x4x64x256_S1x1x1x64x256_0_0_1_0_0,
        LN5(0, 0, 1, inb_S2x4x4x64x256_S1x1x1x64x256_0_0_1_0_0, jkF c, valF m ρ (ps c 1) 0 0)) = V0' (ps c 1) 0 :=
  land_load0 m ρ 0 1 _ c (ps c 1) (jkF c)
theorem land_load0_0_2 (c : Dev nD) :
    LD5(0, 0, 2, inb_S2x4x4x64x256_S1x1x1x64x256_0_0_2_0_0,
        LN5(0, 0, 2, inb_S2x4x4x64x256_S1x1x1x64x256_0_0_2_0_0, jkF c, valF m ρ (ps c 2) 0 0)) = V0' (ps c 2) 0 :=
  land_load0 m ρ 0 2 _ c (ps c 2) (jkF c)
theorem land_load0_0_3 (c : Dev nD) :
    LD5(0, 0, 3, inb_S2x4x4x64x256_S1x1x1x64x256_0_0_3_0_0,
        LN5(0, 0, 3, inb_S2x4x4x64x256_S1x1x1x64x256_0_0_3_0_0, jkF c, valF m ρ (ps c 3) 0 0)) = V0' (ps c 3) 0 :=
  land_load0 m ρ 0 3 _ c (ps c 3) (jkF c)
theorem land_load0_1_1 (c : Dev nD) :
    LD5(0, 1, 1, inb_S2x4x4x64x256_S1x1x1x64x256_0_1_1_0_0,
        LN5(0, 1, 1, inb_S2x4x4x64x256_S1x1x1x64x256_0_1_1_0_0, jkF c, valF m ρ (ps c 1) 0 1)) = V0' (ps c 1) 1 :=
  land_load0 m ρ 1 1 _ c (ps c 1) (jkF c)
theorem land_load0_1_2 (c : Dev nD) :
    LD5(0, 1, 2, inb_S2x4x4x64x256_S1x1x1x64x256_0_1_2_0_0,
        LN5(0, 1, 2, inb_S2x4x4x64x256_S1x1x1x64x256_0_1_2_0_0, jkF c, valF m ρ (ps c 2) 0 1)) = V0' (ps c 2) 1 :=
  land_load0 m ρ 1 2 _ c (ps c 2) (jkF c)
theorem land_load0_1_3 (c : Dev nD) :
    LD5(0, 1, 3, inb_S2x4x4x64x256_S1x1x1x64x256_0_1_3_0_0,
        LN5(0, 1, 3, inb_S2x4x4x64x256_S1x1x1x64x256_0_1_3_0_0, jkF c, valF m ρ (ps c 3) 0 1)) = V0' (ps c 3) 1 :=
  land_load0 m ρ 1 3 _ c (ps c 3) (jkF c)
theorem land_load0_2_1 (c : Dev nD) :
    LD5(0, 2, 1, inb_S2x4x4x64x256_S1x1x1x64x256_0_2_1_0_0,
        LN5(0, 2, 1, inb_S2x4x4x64x256_S1x1x1x64x256_0_2_1_0_0, jkF c, valF m ρ (ps c 1) 0 2)) = V0' (ps c 1) 2 :=
  land_load0 m ρ 2 1 _ c (ps c 1) (jkF c)
theorem land_load0_2_2 (c : Dev nD) :
    LD5(0, 2, 2, inb_S2x4x4x64x256_S1x1x1x64x256_0_2_2_0_0,
        LN5(0, 2, 2, inb_S2x4x4x64x256_S1x1x1x64x256_0_2_2_0_0, jkF c, valF m ρ (ps c 2) 0 2)) = V0' (ps c 2) 2 :=
  land_load0 m ρ 2 2 _ c (ps c 2) (jkF c)
theorem land_load0_2_3 (c : Dev nD) :
    LD5(0, 2, 3, inb_S2x4x4x64x256_S1x1x1x64x256_0_2_3_0_0,
        LN5(0, 2, 3, inb_S2x4x4x64x256_S1x1x1x64x256_0_2_3_0_0, jkF c, valF m ρ (ps c 3) 0 2)) = V0' (ps c 3) 2 :=
  land_load0 m ρ 2 3 _ c (ps c 3) (jkF c)
theorem land_load0_3_1 (c : Dev nD) :
    LD5(0, 3, 1, inb_S2x4x4x64x256_S1x1x1x64x256_0_3_1_0_0,
        LN5(0, 3, 1, inb_S2x4x4x64x256_S1x1x1x64x256_0_3_1_0_0, jkF c, valF m ρ (ps c 1) 0 3)) = V0' (ps c 1) 3 :=
  land_load0 m ρ 3 1 _ c (ps c 1) (jkF c)
theorem land_load0_3_2 (c : Dev nD) :
    LD5(0, 3, 2, inb_S2x4x4x64x256_S1x1x1x64x256_0_3_2_0_0,
        LN5(0, 3, 2, inb_S2x4x4x64x256_S1x1x1x64x256_0_3_2_0_0, jkF c, valF m ρ (ps c 2) 0 3)) = V0' (ps c 2) 3 :=
  land_load0 m ρ 3 2 _ c (ps c 2) (jkF c)
theorem land_load0_3_3 (c : Dev nD) :
    LD5(0, 3, 3, inb_S2x4x4x64x256_S1x1x1x64x256_0_3_3_0_0,
        LN5(0, 3, 3, inb_S2x4x4x64x256_S1x1x1x64x256_0_3_3_0_0, jkF c, valF m ρ (ps c 3) 0 3)) = V0' (ps c 3) 3 :=
  land_load0 m ρ 3 3 _ c (ps c 3) (jkF c)

/-! ### Layer 1: the store read back through the slot's own view, its four inputs the loads of layer 0's slots -/

theorem L1_0 (c : Dev nD) (b b' : Buf (Elt F) ((c : Thread nD τ).loc cc0_scratch0)) :
    (slotM 1 0 0 inb_S2x4x4x64x256_S1x1x1x64x256_1_0_0_0_0).view.read (Elt F)
        (ST5(1, 0, 0, inb_S2x4x4x64x256_S1x1x1x64x256_1_0_0_0_0, b', st1 (XA3 m ρ c) (XA4 m ρ c)
          (LD5(0, 0, 0, inb_S2x4x4x64x256_S1x1x1x64x256_0_0_0_0_0,
            ST5(0, 0, 0, inb_S2x4x4x64x256_S1x1x1x64x256_0_0_0_0_0, b, st0 (XA0 m ρ c) (XA1 m ρ c) (XA2 m ρ c) 0)))
          (LD5(0, 0, 1, inb_S2x4x4x64x256_S1x1x1x64x256_0_0_1_0_0,
            LN5(0, 0, 1, inb_S2x4x4x64x256_S1x1x1x64x256_0_0_1_0_0, jkF c, valF m ρ (ps c 1) 0 0)))
          (LD5(0, 0, 3, inb_S2x4x4x64x256_S1x1x1x64x256_0_0_3_0_0,
            LN5(0, 0, 3, inb_S2x4x4x64x256_S1x1x1x64x256_0_0_3_0_0, jkF c, valF m ρ (ps c 3) 0 0)))
          (LD5(0, 0, 2, inb_S2x4x4x64x256_S1x1x1x64x256_0_0_2_0_0,
            LN5(0, 0, 2, inb_S2x4x4x64x256_S1x1x1x64x256_0_0_2_0_0, jkF c, valF m ρ (ps c 2) 0 0))) 0))
      = valF m ρ c 1 0 :=
  read_store1 m ρ 0 _ c b' _ _ _ _ (own_load0_0 m ρ c b) (land_load0_0_1 m ρ c) (land_load0_0_3 m ρ c)
    (land_load0_0_2 m ρ c)
theorem L1_1 (c : Dev nD) (b b' : Buf (Elt F) ((c : Thread nD τ).loc cc0_scratch0)) :
    (slotM 1 1 0 inb_S2x4x4x64x256_S1x1x1x64x256_1_1_0_0_0).view.read (Elt F)
        (ST5(1, 1, 0, inb_S2x4x4x64x256_S1x1x1x64x256_1_1_0_0_0, b', st1 (XA3 m ρ c) (XA4 m ρ c)
          (LD5(0, 1, 0, inb_S2x4x4x64x256_S1x1x1x64x256_0_1_0_0_0,
            ST5(0, 1, 0, inb_S2x4x4x64x256_S1x1x1x64x256_0_1_0_0_0, b, st0 (XA0 m ρ c) (XA1 m ρ c) (XA2 m ρ c) 1)))
          (LD5(0, 1, 1, inb_S2x4x4x64x256_S1x1x1x64x256_0_1_1_0_0,
            LN5(0, 1, 1, inb_S2x4x4x64x256_S1x1x1x64x256_0_1_1_0_0, jkF c, valF m ρ (ps c 1) 0 1)))
          (LD5(0, 1, 3, inb_S2x4x4x64x256_S1x1x1x64x256_0_1_3_0_0,
            LN5(0, 1, 3, inb_S2x4x4x64x256_S1x1x1x64x256_0_1_3_0_0, jkF c, valF m ρ (ps c 3) 0 1)))
          (LD5(0, 1, 2, inb_S2x4x4x64x256_S1x1x1x64x256_0_1_2_0_0,
            LN5(0, 1, 2, inb_S2x4x4x64x256_S1x1x1x64x256_0_1_2_0_0, jkF c, valF m ρ (ps c 2) 0 1))) 1))
      = valF m ρ c 1 1 :=
  read_store1 m ρ 1 _ c b' _ _ _ _ (own_load0_1 m ρ c b) (land_load0_1_1 m ρ c) (land_load0_1_3 m ρ c)
    (land_load0_1_2 m ρ c)
theorem L1_2 (c : Dev nD) (b b' : Buf (Elt F) ((c : Thread nD τ).loc cc0_scratch0)) :
    (slotM 1 2 0 inb_S2x4x4x64x256_S1x1x1x64x256_1_2_0_0_0).view.read (Elt F)
        (ST5(1, 2, 0, inb_S2x4x4x64x256_S1x1x1x64x256_1_2_0_0_0, b', st1 (XA3 m ρ c) (XA4 m ρ c)
          (LD5(0, 2, 0, inb_S2x4x4x64x256_S1x1x1x64x256_0_2_0_0_0,
            ST5(0, 2, 0, inb_S2x4x4x64x256_S1x1x1x64x256_0_2_0_0_0, b, st0 (XA0 m ρ c) (XA1 m ρ c) (XA2 m ρ c) 2)))
          (LD5(0, 2, 1, inb_S2x4x4x64x256_S1x1x1x64x256_0_2_1_0_0,
            LN5(0, 2, 1, inb_S2x4x4x64x256_S1x1x1x64x256_0_2_1_0_0, jkF c, valF m ρ (ps c 1) 0 2)))
          (LD5(0, 2, 3, inb_S2x4x4x64x256_S1x1x1x64x256_0_2_3_0_0,
            LN5(0, 2, 3, inb_S2x4x4x64x256_S1x1x1x64x256_0_2_3_0_0, jkF c, valF m ρ (ps c 3) 0 2)))
          (LD5(0, 2, 2, inb_S2x4x4x64x256_S1x1x1x64x256_0_2_2_0_0,
            LN5(0, 2, 2, inb_S2x4x4x64x256_S1x1x1x64x256_0_2_2_0_0, jkF c, valF m ρ (ps c 2) 0 2))) 2))
      = valF m ρ c 1 2 :=
  read_store1 m ρ 2 _ c b' _ _ _ _ (own_load0_2 m ρ c b) (land_load0_2_1 m ρ c) (land_load0_2_3 m ρ c)
    (land_load0_2_2 m ρ c)
theorem L1_3 (c : Dev nD) (b b' : Buf (Elt F) ((c : Thread nD τ).loc cc0_scratch0)) :
    (slotM 1 3 0 inb_S2x4x4x64x256_S1x1x1x64x256_1_3_0_0_0).view.read (Elt F)
        (ST5(1, 3, 0, inb_S2x4x4x64x256_S1x1x1x64x256_1_3_0_0_0, b', st1 (XA3 m ρ c) (XA4 m ρ c)
          (LD5(0, 3, 0, inb_S2x4x4x64x256_S1x1x1x64x256_0_3_0_0_0,
            ST5(0, 3, 0, inb_S2x4x4x64x256_S1x1x1x64x256_0_3_0_0_0, b, st0 (XA0 m ρ c) (XA1 m ρ c) (XA2 m ρ c) 3)))
          (LD5(0, 3, 1, inb_S2x4x4x64x256_S1x1x1x64x256_0_3_1_0_0,
            LN5(0, 3, 1, inb_S2x4x4x64x256_S1x1x1x64x256_0_3_1_0_0, jkF c, valF m ρ (ps c 1) 0 3)))
          (LD5(0, 3, 3, inb_S2x4x4x64x256_S1x1x1x64x256_0_3_3_0_0,
            LN5(0, 3, 3, inb_S2x4x4x64x256_S1x1x1x64x256_0_3_3_0_0, jkF c, valF m ρ (ps c 3) 0 3)))
          (LD5(0, 3, 2, inb_S2x4x4x64x256_S1x1x1x64x256_0_3_2_0_0,
            LN5(0, 3, 2, inb_S2x4x4x64x256_S1x1x1x64x256_0_3_2_0_0, jkF c, valF m ρ (ps c 2) 0 3))) 3))
      = valF m ρ c 1 3 :=
  read_store1 m ρ 3 _ c b' _ _ _ _ (own_load0_3 m ρ c b) (land_load0_3_1 m ρ c) (land_load0_3_3 m ρ c)
    (land_load0_3_2 m ρ c)

end Literal01

/-! ## Layer 1's loads at the four literal row blocks -/

section Literal1

/-! ### The load of the device's own slot after its layer-1 store -/

theorem own_load1_0 (c : Dev nD) (b b' : Buf (Elt F) ((c : Thread nD τ).loc cc0_scratch0)) :
    LD5(1, 0, 0, inb_S2x4x4x64x256_S1x1x1x64x256_1_0_0_0_0,
        ST5(1, 0, 0, inb_S2x4x4x64x256_S1x1x1x64x256_1_0_0_0_0, b', st1 (XA3 m ρ c) (XA4 m ρ c)
          (LD5(0, 0, 0, inb_S2x4x4x64x256_S1x1x1x64x256_0_0_0_0_0,
            ST5(0, 0, 0, inb_S2x4x4x64x256_S1x1x1x64x256_0_0_0_0_0, b, st0 (XA0 m ρ c) (XA1 m ρ c) (XA2 m ρ c) 0)))
          (LD5(0, 0, 1, inb_S2x4x4x64x256_S1x1x1x64x256_0_0_1_0_0,
            LN5(0, 0, 1, inb_S2x4x4x64x256_S1x1x1x64x256_0_0_1_0_0, jkF c, valF m ρ (ps c 1) 0 0)))
          (LD5(0, 0, 3, inb_S2x4x4x64x256_S1x1x1x64x256_0_0_3_0_0,
            LN5(0, 0, 3, inb_S2x4x4x64x256_S1x1x1x64x256_0_0_3_0_0, jkF c, valF m ρ (ps c 3) 0 0)))
          (LD5(0, 0, 2, inb_S2x4x4x64x256_S1x1x1x64x256_0_0_2_0_0,
            LN5(0, 0, 2, inb_S2x4x4x64x256_S1x1x1x64x256_0_0_2_0_0, jkF c, valF m ρ (ps c 2) 0 0))) 0))
      = V1' c 0 :=
  own_load1 m ρ 0 _ c b' _ _ _ _ (own_load0_0 m ρ c b) (land_load0_0_1 m ρ c) (land_load0_0_3 m ρ c)
    (land_load0_0_2 m ρ c)
theorem own_load1_1 (c : Dev nD) (b b' : Buf (Elt F) ((c : Thread nD τ).loc cc0_scratch0)) :
    LD5(1, 1, 0, inb_S2x4x4x64x256_S1x1x1x64x256_1_1_0_0_0,
        ST5(1, 1, 0, inb_S2x4x4x64x256_S1x1x1x64x256_1_1_0_0_0, b', st1 (XA3 m ρ c) (XA4 m ρ c)
          (LD5(0, 1, 0, inb_S2x4x4x64x256_S1x1x1x64x256_0_1_0_0_0,
            ST5(0, 1, 0, inb_S2x4x4x64x256_S1x1x1x64x256_0_1_0_0_0, b, st0 (XA0 m ρ c) (XA1 m ρ c) (XA2 m ρ c) 1)))
          (LD5(0, 1, 1, inb_S2x4x4x64x256_S1x1x1x64x256_0_1_1_0_0,
            LN5(0, 1, 1, inb_S2x4x4x64x256_S1x1x1x64x256_0_1_1_0_0, jkF c, valF m ρ (ps c 1) 0 1)))
          (LD5(0, 1, 3, inb_S2x4x4x64x256_S1x1x1x64x256_0_1_3_0_0,
            LN5(0, 1, 3, inb_S2x4x4x64x256_S1x1x1x64x256_0_1_3_0_0, jkF c, valF m ρ (ps c 3) 0 1)))
          (LD5(0, 1, 2, inb_S2x4x4x64x256_S1x1x1x64x256_0_1_2_0_0,
            LN5(0, 1, 2, inb_S2x4x4x64x256_S1x1x1x64x256_0_1_2_0_0, jkF c, valF m ρ (ps c 2) 0 1))) 1))
      = V1' c 1 :=
  own_load1 m ρ 1 _ c b' _ _ _ _ (own_load0_1 m ρ c b) (land_load0_1_1 m ρ c) (land_load0_1_3 m ρ c)
    (land_load0_1_2 m ρ c)
theorem own_load1_2 (c : Dev nD) (b b' : Buf (Elt F) ((c : Thread nD τ).loc cc0_scratch0)) :
    LD5(1, 2, 0, inb_S2x4x4x64x256_S1x1x1x64x256_1_2_0_0_0,
        ST5(1, 2, 0, inb_S2x4x4x64x256_S1x1x1x64x256_1_2_0_0_0, b', st1 (XA3 m ρ c) (XA4 m ρ c)
          (LD5(0, 2, 0, inb_S2x4x4x64x256_S1x1x1x64x256_0_2_0_0_0,
            ST5(0, 2, 0, inb_S2x4x4x64x256_S1x1x1x64x256_0_2_0_0_0, b, st0 (XA0 m ρ c) (XA1 m ρ c) (XA2 m ρ c) 2)))
          (LD5(0, 2, 1, inb_S2x4x4x64x256_S1x1x1x64x256_0_2_1_0_0,
            LN5(0, 2, 1, inb_S2x4x4x64x256_S1x1x1x64x256_0_2_1_0_0, jkF c, valF m ρ (ps c 1) 0 2)))
          (LD5(0, 2, 3, inb_S2x4x4x64x256_S1x1x1x64x256_0_2_3_0_0,
            LN5(0, 2, 3, inb_S2x4x4x64x256_S1x1x1x64x256_0_2_3_0_0, jkF c, valF m ρ (ps c 3) 0 2)))
          (LD5(0, 2, 2, inb_S2x4x4x64x256_S1x1x1x64x256_0_2_2_0_0,
            LN5(0, 2, 2, inb_S2x4x4x64x256_S1x1x1x64x256_0_2_2_0_0, jkF c, valF m ρ (ps c 2) 0 2))) 2))
      = V1' c 2 :=
  own_load1 m ρ 2 _ c b' _ _ _ _ (own_load0_2 m ρ c b) (land_load0_2_1 m ρ c) (land_load0_2_3 m ρ c)
    (land_load0_2_2 m ρ c)
theorem own_load1_3 (c : Dev nD) (b b' : Buf (Elt F) ((c : Thread nD τ).loc cc0_scratch0)) :
    LD5(1, 3, 0, inb_S2x4x4x64x256_S1x1x1x64x256_1_3_0_0_0,
        ST5(1, 3, 0, inb_S2x4x4x64x256_S1x1x1x64x256_1_3_0_0_0, b', st1 (XA3 m ρ c) (XA4 m ρ c)
          (LD5(0, 3, 0, inb_S2x4x4x64x256_S1x1x1x64x256_0_3_0_0_0,
            ST5(0, 3, 0, inb_S2x4x4x64x256_S1x1x1x64x256_0_3_0_0_0, b, st0 (XA0 m ρ c) (XA1 m ρ c) (XA2 m ρ c) 3)))
          (LD5(0, 3, 1, inb_S2x4x4x64x256_S1x1x1x64x256_0_3_1_0_0,
            LN5(0, 3, 1, inb_S2x4x4x64x256_S1x1x1x64x256_0_3_1_0_0, jkF c, valF m ρ (ps c 1) 0 3)))
          (LD5(0, 3, 3, inb_S2x4x4x64x256_S1x1x1x64x256_0_3_3_0_0,
            LN5(0, 3, 3, inb_S2x4x4x64x256_S1x1x1x64x256_0_3_3_0_0, jkF c, valF m ρ (ps c 3) 0 3)))
          (LD5(0, 3, 2, inb_S2x4x4x64x256_S1x1x1x64x256_0_3_2_0_0,
            LN5(0, 3, 2, inb_S2x4x4x64x256_S1x1x1x64x256_0_3_2_0_0, jkF c, valF m ρ (ps c 2) 0 3))) 3))
      = V1' c 3 :=
  own_load1 m ρ 3 _ c b' _ _ _ _ (own_load0_3 m ρ c b) (land_load0_3_1 m ρ c) (land_load0_3_3 m ρ c)
    (land_load0_3_2 m ρ c)

/-! ### The load of slot `j` after the layer-1 landing from the device `j` places behind -/

theorem land_load1_0_1 (c : Dev nD) :
    LD5(1, 0, 1, inb_S2x4x4x64x256_S1x1x1x64x256_1_0_1_0_0,
        LN5(1, 0, 1, inb_S2x4x4x64x256_S1x1x1x64x256_1_0_1_0_0, jkF c, valF m ρ (ps c 1) 1 0)) = V1' (ps c 1) 0 :=
  land_load1 m ρ 0 1 _ c (ps c 1) (jkF c)
theorem land_load1_0_2 (c : Dev nD) :
    LD5(1, 0, 2, inb_S2x4x4x64x256_S1x1x1x64x256_1_0_2_0_0,
        LN5(1, 0, 2, inb_S2x4x4x64x256_S1x1x1x64x256_1_0_2_0_0, jkF c, valF m ρ (ps c 2) 1 0)) = V1' (ps c 2) 0 :=
  land_load1 m ρ 0 2 _ c (ps c 2) (jkF c)
theorem land_load1_0_3 (c : Dev nD) :
    LD5(1, 0, 3, inb_S2x4x4x64x256_S1x1x1x64x256_1_0_3_0_0,
        LN5(1, 0, 3, inb_S2x4x4x64x256_S1x1x1x64x256_1_0_3_0_0, jkF c, valF m ρ (ps c 3) 1 0)) = V1' (ps c 3) 0 :=
  land_load1 m ρ 0 3 _ c (ps c 3) (jkF c)
theorem land_load1_1_1 (c : Dev nD) :
    LD5(1, 1, 1, inb_S2x4x4x64x256_S1x1x1x64x256_1_1_1_0_0,
        LN5(1, 1, 1, inb_S2x4x4x64x256_S1x1x1x64x256_1_1_1_0_0, jkF c, valF m ρ (ps c 1) 1 1)) = V1' (ps c 1) 1 :=
  land_load1 m ρ 1 1 _ c (ps c 1) (jkF c)
theorem land_load1_1_2 (c : Dev nD) :
    LD5(1, 1, 2, inb_S2x4x4x64x256_S1x1x1x64x256_1_1_2_0_0,
        LN5(1, 1, 2, inb_S2x4x4x64x256_S1x1x1x64x256_1_1_2_0_0, jkF c, valF m ρ (ps c 2) 1 1)) = V1' (ps c 2) 1 :=
  land_load1 m ρ 1 2 _ c (ps c 2) (jkF c)
theorem land_load1_1_3 (c : Dev nD) :
    LD5(1, 1, 3, inb_S2x4x4x64x256_S1x1x1x64x256_1_1_3_0_0,
        LN5(1, 1, 3, inb_S2x4x4x64x256_S1x1x1x64x256_1_1_3_0_0, jkF c, valF m ρ (ps c 3) 1 1)) = V1' (ps c 3) 1 :=
  land_load1 m ρ 1 3 _ c (ps c 3) (jkF c)
theorem land_load1_2_1 (c : Dev nD) :
    LD5(1, 2, 1, inb_S2x4x4x64x256_S1x1x1x64x256_1_2_1_0_0,
        LN5(1, 2, 1, inb_S2x4x4x64x256_S1x1x1x64x256_1_2_1_0_0, jkF c, valF m ρ (ps c 1) 1 2)) = V1' (ps c 1) 2 :=
  land_load1 m ρ 2 1 _ c (ps c 1) (jkF c)
theorem land_load1_2_2 (c : Dev nD) :
    LD5(1, 2, 2, inb_S2x4x4x64x256_S1x1x1x64x256_1_2_2_0_0,
        LN5(1, 2, 2, inb_S2x4x4x64x256_S1x1x1x64x256_1_2_2_0_0, jkF c, valF m ρ (ps c 2) 1 2)) = V1' (ps c 2) 2 :=
  land_load1 m ρ 2 2 _ c (ps c 2) (jkF c)
theorem land_load1_2_3 (c : Dev nD) :
    LD5(1, 2, 3, inb_S2x4x4x64x256_S1x1x1x64x256_1_2_3_0_0,
        LN5(1, 2, 3, inb_S2x4x4x64x256_S1x1x1x64x256_1_2_3_0_0, jkF c, valF m ρ (ps c 3) 1 2)) = V1' (ps c 3) 2 :=
  land_load1 m ρ 2 3 _ c (ps c 3) (jkF c)
theorem land_load1_3_1 (c : Dev nD) :
    LD5(1, 3, 1, inb_S2x4x4x64x256_S1x1x1x64x256_1_3_1_0_0,
        LN5(1, 3, 1, inb_S2x4x4x64x256_S1x1x1x64x256_1_3_1_0_0, jkF c, valF m ρ (ps c 1) 1 3)) = V1' (ps c 1) 3 :=
  land_load1 m ρ 3 1 _ c (ps c 1) (jkF c)
theorem land_load1_3_2 (c : Dev nD) :
    LD5(1, 3, 2, inb_S2x4x4x64x256_S1x1x1x64x256_1_3_2_0_0,
        LN5(1, 3, 2, inb_S2x4x4x64x256_S1x1x1x64x256_1_3_2_0_0, jkF c, valF m ρ (ps c 2) 1 3)) = V1' (ps c 2) 3 :=
  land_load1 m ρ 3 2 _ c (ps c 2) (jkF c)
theorem land_load1_3_3 (c : Dev nD) :
    LD5(1, 3, 3, inb_S2x4x4x64x256_S1x1x1x64x256_1_3_3_0_0,
        LN5(1, 3, 3, inb_S2x4x4x64x256_S1x1x1x64x256_1_3_3_0_0, jkF c, valF m ρ (ps c 3) 1 3)) = V1' (ps c 3) 3 :=
  land_load1 m ρ 3 3 _ c (ps c 3) (jkF c)

end Literal1

/-! ## Layer 2 and the result, for a device `c` -/

section Layer2

local notation "V2_1'" => V2_1 (XA0 m ρ) (WiA m ρ) (WoA m ρ)
local notation "V2_2'" => V2_2 (XA0 m ρ) (WiA m ρ) (WoA m ρ)
local notation "V2_3'" => V2_3 (XA0 m ρ) (WiA m ρ) (WoA m ρ)

/-- The store into slot 1 of the second exchange buffer, read through the slot's own view, when the four loaded slots
    hold the layer-1 vectors, for the row block of the device one place ahead, of the device and of the devices 1, 3, 2
    places behind it. -/
theorem read_store2_1 (h : ∀ a, (![0, 1, 0, 0] : Fin 4 → Nat) a + S1x1x64x256.size a ≤ S2x4x64x256.size a)
    (c : Dev nD) (b : Buf (Elt F) ((c : Thread nD τ).loc cc0_scratch1)) (own s1 s3 s2 : Vec F S1x1x1x64x256 .bf16)
    (hown : own = V1' c (pe c 1)) (hs1 : s1 = V1' (ps c 1) (pe c 1)) (hs3 : s3 = V1' (ps c 3) (pe c 1))
    (hs2 : s2 = V1' (ps c 2) (pe c 1)) :
    (rsM 0 1 h).view.read (Elt F) (ST4(0, 1, h, b, rsc1 c (w2in (XA5 m ρ c)) (w2out (XA6 m ρ c)) own s1 s3 s2))
      = valF m ρ c 2 1 := by
  subst hown hs1 hs3 hs2
  exact (row_read_store 0 1 h c b _).trans (valF_2_1 m ρ c).symm

/-- The same for slot 2 and the row block of the device two places ahead. -/
theorem read_store2_2 (h : ∀ a, (![0, 2, 0, 0] : Fin 4 → Nat) a + S1x1x64x256.size a ≤ S2x4x64x256.size a)
    (c : Dev nD) (b : Buf (Elt F) ((c : Thread nD τ).loc cc0_scratch1)) (own s1 s3 s2 : Vec F S1x1x1x64x256 .bf16)
    (hown : own = V1' c (pe c 2)) (hs1 : s1 = V1' (ps c 1) (pe c 2)) (hs3 : s3 = V1' (ps c 3) (pe c 2))
    (hs2 : s2 = V1' (ps c 2) (pe c 2)) :
    (rsM 0 2 h).view.read (Elt F) (ST4(0, 2, h, b, rsc2 c (w2in (XA5 m ρ c)) (w2out (XA6 m ρ c)) own s1 s3 s2))
      = valF m ρ c 2 2 := by
  subst hown hs1 hs3 hs2
  exact (row_read_store 0 2 h c b _).trans (valF_2_2 m ρ c).symm

/-- The same for slot 3 and the row block of the device three places ahead. -/
theorem read_store2_3 (h : ∀ a, (![0, 3, 0, 0] : Fin 4 → Nat) a + S1x1x64x256.size a ≤ S2x4x64x256.size a)
    (c : Dev nD) (b : Buf (Elt F) ((c : Thread nD τ).loc cc0_scratch1)) (own s1 s3 s2 : Vec F S1x1x1x64x256 .bf16)
    (hown : own = V1' c (pe c 3)) (hs1 : s1 = V1' (ps c 1) (pe c 3)) (hs3 : s3 = V1' (ps c 3) (pe c 3))
    (hs2 : s2 = V1' (ps c 2) (pe c 3)) :
    (rsM 0 3 h).view.read (Elt F) (ST4(0, 3, h, b, rsc3 c (w2in (XA5 m ρ c)) (w2out (XA6 m ρ c)) own s1 s3 s2))
      = valF m ρ c 2 3 := by
  subst hown hs1 hs3 hs2
  exact (row_read_store 0 3 h c b _).trans (valF_2_3 m ρ c).symm

/-- A load of a block of the second exchange buffer after device `e`'s share for slot 1 has landed there. -/
theorem row_land_1 (k o : ℕ) (h : ∀ a, (![k, o, 0, 0] : Fin 4 → Nat) a + S1x1x64x256.size a ≤ S2x4x64x256.size a)
    (c e : Dev nD) (fd : Buf (Elt F) ((c : Thread nD τ).loc cc0_scratch1)) :
    LD4(k, o, h, LN4(k, o, h, fd, valF m ρ e 2 1)) = V2_1' e := by
  rw [row_load_landing, valF_2_1, un4_sq4]
theorem row_land_2 (k o : ℕ) (h : ∀ a, (![k, o, 0, 0] : Fin 4 → Nat) a + S1x1x64x256.size a ≤ S2x4x64x256.size a)
    (c e : Dev nD) (fd : Buf (Elt F) ((c : Thread nD τ).loc cc0_scratch1)) :
    LD4(k, o, h, LN4(k, o, h, fd, valF m ρ e 2 2)) = V2_2' e := by
  rw [row_load_landing, valF_2_2, un4_sq4]
theorem row_land_3 (k o : ℕ) (h : ∀ a, (![k, o, 0, 0] : Fin 4 → Nat) a + S1x1x64x256.size a ≤ S2x4x64x256.size a)
    (c e : Dev nD) (fd : Buf (Elt F) ((c : Thread nD τ).loc cc0_scratch1)) :
    LD4(k, o, h, LN4(k, o, h, fd, valF m ρ e 2 3)) = V2_3' e := by
  rw [row_load_landing, valF_2_3, un4_sq4]

/-- The final store: the device's result, when the four loaded slots hold the layer-1 vectors for the device's own row
    block and the three loaded shares are those of the devices 1, 3, 2 places behind. -/
theorem write_out (c : Dev nD) (g7 : (cc0_stg7_0 : Ref sig .tc).ty.Contents (Elt F))
    (own s1 s3 s2 : Vec F S1x1x1x64x256 .bf16) (r1 r3 r2 : Vec F S1x1x64x256 .bf16)
    (hown : own = V1' c c) (hs1 : s1 = V1' (ps c 1) c) (hs3 : s3 = V1' (ps c 3) c) (hs2 : s2 = V1' (ps c 2) c)
    (hr1 : r1 = V2_1' (ps c 1)) (hr3 : r3 = V2_3' (ps c 3)) (hr2 : r2 = V2_2' (ps c 2)) :
    View.write (Elt F) ((Memref.whole cc0_stg7_0).access (Rect.unit (s := S64x256) ![0, 0] S64x256.size inb_S64x256_S64x256_0_0))
        g7 (outv c (w2in (XA5 m ρ c)) (w2out (XA6 m ρ c)) own s1 s3 s2 r1 r3 r2) Finset.univ
      = outF m ρ c := by
  subst hown hs1 hs3 hs2 hr1 hr3 hr2
  exact write_stg7 g7 _

end Layer2

/-! ## Layer 2 and the result on each of the four devices

On device `k` the store into slot `o` folds over the row block of the device `o` places ahead, block `(k + o) mod 4`. -/

section Literal2

local notation "V2_1'" => V2_1 (XA0 m ρ) (WiA m ρ) (WoA m ρ)
local notation "V2_2'" => V2_2 (XA0 m ρ) (WiA m ρ) (WoA m ρ)
local notation "V2_3'" => V2_3 (XA0 m ρ) (WiA m ρ) (WoA m ρ)

/-! ### Device 0 -/

theorem L2_0_1 (c : Dev nD) (hc : c = 0) (b : Buf (Elt F) ((c : Thread nD τ).loc cc0_scratch1))
    (own s1 s3 s2 : Vec F S1x1x1x64x256 .bf16)
    (hown : own = V1' c 1) (hs1 : s1 = V1' (ps c 1) 1) (hs3 : s3 = V1' (ps c 3) 1) (hs2 : s2 = V1' (ps c 2) 1) :
    (rsM 0 1 inb_S2x4x64x256_S1x1x64x256_0_1_0_0).view.read (Elt F)
        (ST4(0, 1, inb_S2x4x64x256_S1x1x64x256_0_1_0_0, b, rsc1 0 (w2in (XA5 m ρ c)) (w2out (XA6 m ρ c)) own s1 s3 s2))
      = valF m ρ c 2 1 := by
  subst hc
  exact read_store2_1 m ρ _ 0 b own s1 s3 s2 hown hs1 hs3 hs2
theorem L2_0_2 (c : Dev nD) (hc : c = 0) (b : Buf (Elt F) ((c : Thread nD τ).loc cc0_scratch1))
    (own s1 s3 s2 : Vec F S1x1x1x64x256 .bf16)
    (hown : own = V1' c 2) (hs1 : s1 = V1' (ps c 1) 2) (hs3 : s3 = V1' (ps c 3) 2) (hs2 : s2 = V1' (ps c 2) 2) :
    (rsM 0 2 inb_S2x4x64x256_S1x1x64x256_0_2_0_0).view.read (Elt F)
        (ST4(0, 2, inb_S2x4x64x256_S1x1x64x256_0_2_0_0, b, rsc2 0 (w2in (XA5 m ρ c)) (w2out (XA6 m ρ c)) own s1 s3 s2))
      = valF m ρ c 2 2 := by
  subst hc
  exact read_store2_2 m ρ _ 0 b own s1 s3 s2 hown hs1 hs3 hs2
theorem L2_0_3 (c : Dev nD) (hc : c = 0) (b : Buf (Elt F) ((c : Thread nD τ).loc cc0_scratch1))
    (own s1 s3 s2 : Vec F S1x1x1x64x256 .bf16)
    (hown : own = V1' c 3) (hs1 : s1 = V1' (ps c 1) 3) (hs3 : s3 = V1' (ps c 3) 3) (hs2 : s2 = V1' (ps c 2) 3) :
    (rsM 0 3 inb_S2x4x64x256_S1x1x64x256_0_3_0_0).view.read (Elt F)
        (ST4(0, 3, inb_S2x4x64x256_S1x1x64x256_0_3_0_0, b, rsc3 0 (w2in (XA5 m ρ c)) (w2out (XA6 m ρ c)) own s1 s3 s2))
      = valF m ρ c 2 3 := by
  subst hc
  exact read_store2_3 m ρ _ 0 b own s1 s3 s2 hown hs1 hs3 hs2

/-! ### Device 1 -/

theorem L2_1_1 (c : Dev nD) (hc : c = 1) (b : Buf (Elt F) ((c : Thread nD τ).loc cc0_scratch1))
    (own s1 s3 s2 : Vec F S1x1x1x64x256 .bf16)
    (hown : own = V1' c 2) (hs1 : s1 = V1' (ps c 1) 2) (hs3 : s3 = V1' (ps c 3) 2) (hs2 : s2 = V1' (ps c 2) 2) :
    (rsM 0 1 inb_S2x4x64x256_S1x1x64x256_0_1_0_0).view.read (Elt F)
        (ST4(0, 1, inb_S2x4x64x256_S1x1x64x256_0_1_0_0, b, rsc1 1 (w2in (XA5 m ρ c)) (w2out (XA6 m ρ c)) own s1 s3 s2))
      = valF m ρ c 2 1 := by
  subst hc
  exact read_store2_1 m ρ _ 1 b own s1 s3 s2 hown hs1 hs3 hs2
theorem L2_1_2 (c : Dev nD) (hc : c = 1) (b : Buf (Elt F) ((c : Thread nD τ).loc cc0_scratch1))
    (own s1 s3 s2 : Vec F S1x1x1x64x256 .bf16)
    (hown : own = V1' c 3) (hs1 : s1 = V1' (ps c 1) 3) (hs3 : s3 = V1' (ps c 3) 3) (hs2 : s2 = V1' (ps c 2) 3) :
    (rsM 0 2 inb_S2x4x64x256_S1x1x64x256_0_2_0_0).view.read (Elt F)
        (ST4(0, 2, inb_S2x4x64x256_S1x1x64x256_0_2_0_0, b, rsc2 1 (w2in (XA5 m ρ c)) (w2out (XA6 m ρ c)) own s1 s3 s2))
      = valF m ρ c 2 2 := by
  subst hc
  exact read_store2_2 m ρ _ 1 b own s1 s3 s2 hown hs1 hs3 hs2
theorem L2_1_3 (c : Dev nD) (hc : c = 1) (b : Buf (Elt F) ((c : Thread nD τ).loc cc0_scratch1))
    (own s1 s3 s2 : Vec F S1x1x1x64x256 .bf16)
    (hown : own = V1' c 0) (hs1 : s1 = V1' (ps c 1) 0) (hs3 : s3 = V1' (ps c 3) 0) (hs2 : s2 = V1' (ps c 2) 0) :
    (rsM 0 3 inb_S2x4x64x256_S1x1x64x256_0_3_0_0).view.read (Elt F)
        (ST4(0, 3, inb_S2x4x64x256_S1x1x64x256_0_3_0_0, b, rsc3 1 (w2in (XA5 m ρ c)) (w2out (XA6 m ρ c)) own s1 s3 s2))
      = valF m ρ c 2 3 := by
  subst hc
  exact read_store2_3 m ρ _ 1 b own s1 s3 s2 hown hs1 hs3 hs2

/-! ### Device 2 -/

theorem L2_2_1 (c : Dev nD) (hc : c = 2) (b : Buf (Elt F) ((c : Thread nD τ).loc cc0_scratch1))
    (own s1 s3 s2 : Vec F S1x1x1x64x256 .bf16)
    (hown : own = V1' c 3) (hs1 : s1 = V1' (ps c 1) 3) (hs3 : s3 = V1' (ps c 3) 3) (hs2 : s2 = V1' (ps c 2) 3) :
    (rsM 0 1 inb_S2x4x64x256_S1x1x64x256_0_1_0_0).view.read (Elt F)
        (ST4(0, 1, inb_S2x4x64x256_S1x1x64x256_0_1_0_0, b, rsc1 2 (w2in (XA5 m ρ c)) (w2out (XA6 m ρ c)) own s1 s3 s2))
      = valF m ρ c 2 1 := by
  subst hc
  exact read_store2_1 m ρ _ 2 b own s1 s3 s2 hown hs1 hs3 hs2
theorem L2_2_2 (c : Dev nD) (hc : c = 2) (b : Buf (Elt F) ((c : Thread nD τ).loc cc0_scratch1))
    (own s1 s3 s2 : Vec F S1x1x1x64x256 .bf16)
    (hown : own = V1' c 0) (hs1 : s1 = V1' (ps c 1) 0) (hs3 : s3 = V1' (ps c 3) 0) (hs2 : s2 = V1' (ps c 2) 0) :
    (rsM 0 2 inb_S2x4x64x256_S1x1x64x256_0_2_0_0).view.read (Elt F)
        (ST4(0, 2, inb_S2x4x64x256_S1x1x64x256_0_2_0_0, b, rsc2 2 (w2in (XA5 m ρ c)) (w2out (XA6 m ρ c)) own s1 s3 s2))
      = valF m ρ c 2 2 := by
  subst hc
  exact read_store2_2 m ρ _ 2 b own s1 s3 s2 hown hs1 hs3 hs2
theorem L2_2_3 (c : Dev nD) (hc : c = 2) (b : Buf (Elt F) ((c : Thread nD τ).loc cc0_scratch1))
    (own s1 s3 s2 : Vec F S1x1x1x64x256 .bf16)
    (hown : own = V1' c 1) (hs1 : s1 = V1' (ps c 1) 1) (hs3 : s3 = V1' (ps c 3) 1) (hs2 : s2 = V1' (ps c 2) 1) :
    (rsM 0 3 inb_S2x4x64x256_S1x1x64x256_0_3_0_0).view.read (Elt F)
        (ST4(0, 3, inb_S2x4x64x256_S1x1x64x256_0_3_0_0, b, rsc3 2 (w2in (XA5 m ρ c)) (w2out (XA6 m ρ c)) own s1 s3 s2))
      = valF m ρ c 2 3 := by
  subst hc
  exact read_store2_3 m ρ _ 2 b own s1 s3 s2 hown hs1 hs3 hs2

/-! ### Device 3 -/

theorem L2_3_1 (c : Dev nD) (hc : c = 3) (b : Buf (Elt F) ((c : Thread nD τ).loc cc0_scratch1))
    (own s1 s3 s2 : Vec F S1x1x1x64x256 .bf16)
    (hown : own = V1' c 0) (hs1 : s1 = V1' (ps c 1) 0) (hs3 : s3 = V1' (ps c 3) 0) (hs2 : s2 = V1' (ps c 2) 0) :
    (rsM 0 1 inb_S2x4x64x256_S1x1x64x256_0_1_0_0).view.read (Elt F)
        (ST4(0, 1, inb_S2x4x64x256_S1x1x64x256_0_1_0_0, b, rsc1 3 (w2in (XA5 m ρ c)) (w2out (XA6 m ρ c)) own s1 s3 s2))
      = valF m ρ c 2 1 := by
  subst hc
  exact read_store2_1 m ρ _ 3 b own s1 s3 s2 hown hs1 hs3 hs2
theorem L2_3_2 (c : Dev nD) (hc : c = 3) (b : Buf (Elt F) ((c : Thread nD τ).loc cc0_scratch1))
    (own s1 s3 s2 : Vec F S1x1x1x64x256 .bf16)
    (hown : own = V1' c 1) (hs1 : s1 = V1' (ps c 1) 1) (hs3 : s3 = V1' (ps c 3) 1) (hs2 : s2 = V1' (ps c 2) 1) :
    (rsM 0 2 inb_S2x4x64x256_S1x1x64x256_0_2_0_0).view.read (Elt F)
        (ST4(0, 2, inb_S2x4x64x256_S1x1x64x256_0_2_0_0, b, rsc2 3 (w2in (XA5 m ρ c)) (w2out (XA6 m ρ c)) own s1 s3 s2))
      = valF m ρ c 2 2 := by
  subst hc
  exact read_store2_2 m ρ _ 3 b own s1 s3 s2 hown hs1 hs3 hs2
theorem L2_3_3 (c : Dev nD) (hc : c = 3) (b : Buf (Elt F) ((c : Thread nD τ).loc cc0_scratch1))
    (own s1 s3 s2 : Vec F S1x1x1x64x256 .bf16)
    (hown : own = V1' c 2) (hs1 : s1 = V1' (ps c 1) 2) (hs3 : s3 = V1' (ps c 3) 2) (hs2 : s2 = V1' (ps c 2) 2) :
    (rsM 0 3 inb_S2x4x64x256_S1x1x64x256_0_3_0_0).view.read (Elt F)
        (ST4(0, 3, inb_S2x4x64x256_S1x1x64x256_0_3_0_0, b, rsc3 3 (w2in (XA5 m ρ c)) (w2out (XA6 m ρ c)) own s1 s3 s2))
      = valF m ρ c 2 3 := by
  subst hc
  exact read_store2_3 m ρ _ 3 b own s1 s3 s2 hown hs1 hs3 hs2

/-! ### The loads of the three shares that landed in the second exchange buffer -/

theorem land_load2_1 (c : Dev nD) :
    LD4(1, 1, inb_S2x4x64x256_S1x1x64x256_1_1_0_0,
        LN4(1, 1, inb_S2x4x64x256_S1x1x64x256_1_1_0_0, jrF c, valF m ρ (ps c 1) 2 1)) = V2_1' (ps c 1) :=
  row_land_1 m ρ 1 1 _ c (ps c 1) (jrF c)
theorem land_load2_2 (c : Dev nD) :
    LD4(1, 2, inb_S2x4x64x256_S1x1x64x256_1_2_0_0,
        LN4(1, 2, inb_S2x4x64x256_S1x1x64x256_1_2_0_0, jrF c, valF m ρ (ps c 2) 2 2)) = V2_2' (ps c 2) :=
  row_land_2 m ρ 1 2 _ c (ps c 2) (jrF c)
theorem land_load2_3 (c : Dev nD) :
    LD4(1, 3, inb_S2x4x64x256_S1x1x64x256_1_3_0_0,
        LN4(1, 3, inb_S2x4x64x256_S1x1x64x256_1_3_0_0, jrF c, valF m ρ (ps c 3) 2 3)) = V2_3' (ps c 3) :=
  row_land_3 m ρ 1 3 _ c (ps c 3) (jrF c)

/-! ### The final store on each device -/

theorem OUT_0 (c : Dev nD) (hc : c = 0) (g7 : (cc0_stg7_0 : Ref sig .tc).ty.Contents (Elt F))
    (own s1 s3 s2 : Vec F S1x1x1x64x256 .bf16)
    (hown : own = V1' c 0) (hs1 : s1 = V1' (ps c 1) 0) (hs3 : s3 = V1' (ps c 3) 0) (hs2 : s2 = V1' (ps c 2) 0) :
    View.write (Elt F) ((Memref.whole cc0_stg7_0).access (Rect.unit (s := S64x256) ![0, 0] S64x256.size inb_S64x256_S64x256_0_0))
        g7 (outv 0 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 0 g7 own s1 s3 s2 _ _ _ hown hs1 hs3 hs2 (land_load2_1 m ρ 0) (land_load2_3 m ρ 0) (land_load2_2 m ρ 0)
theorem OUT_1 (c : Dev nD) (hc : c = 1) (g7 : (cc0_stg7_0 : Ref sig .tc).ty.Contents (Elt F))
    (own s1 s3 s2 : Vec F S1x1x1x64x256 .bf16)
    (hown : own = V1' c 1) (hs1 : s1 = V1' (ps c 1) 1) (hs3 : s3 = V1' (ps c 3) 1) (hs2 : s2 = V1' (ps c 2) 1) :
    View.write (Elt F) ((Memref.whole cc0_stg7_0).access (Rect.unit (s := S64x256) ![0, 0] S64x256.size inb_S64x256_S64x256_0_0))
        g7 (outv 1 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 1 g7 own s1 s3 s2 _ _ _ hown hs1 hs3 hs2 (land_load2_1 m ρ 1) (land_load2_3 m ρ 1) (land_load2_2 m ρ 1)
theorem OUT_2 (c : Dev nD) (hc : c = 2) (g7 : (cc0_stg7_0 : Ref sig .tc).ty.Contents (Elt F))
    (own s1 s3 s2 : Vec F S1x1x1x64x256 .bf16)
    (hown : own = V1' c 2) (hs1 : s1 = V1' (ps c 1) 2) (hs3 : s3 = V1' (ps c 3) 2) (hs2 : s2 = V1' (ps c 2) 2) :
    View.write (Elt F) ((Memref.whole cc0_stg7_0).access (Rect.unit (s := S64x256) ![0, 0] S64x256.size inb_S64x256_S64x256_0_0))
        g7 (outv 2 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 2 g7 own s1 s3 s2 _ _ _ hown hs1 hs3 hs2 (land_load2_1 m ρ 2) (land_load2_3 m ρ 2) (land_load2_2 m ρ 2)
theorem OUT_3 (c : Dev nD) (hc : c = 3) (g7 : (cc0_stg7_0 : Ref sig .tc).ty.Contents (Elt F))
    (own s1 s3 s2 : Vec F S1x1x1x64x256 .bf16)
    (hown : own = V1' c 3) (hs1 : s1 = V1' (ps c 1) 3) (hs3 : s3 = V1' (ps c 3) 3) (hs2 : s2 = V1' (ps c 2) 3) :
    View.write (Elt F) ((Memref.whole cc0_stg7_0).access (Rect.unit (s := S64x256) ![0, 0] S64x256.size inb_S64x256_S64x256_0_0))
        g7 (outv 3 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 3 g7 own s1 s3 s2 _ _ _ hown hs1 hs3 hs2 (land_load2_1 m ρ 3) (land_load2_3 m ρ 3) (land_load2_2 m ρ 3)

end Literal2

/-! ## Layer 2 and the result with the loaded vectors written out

The four vectors a fold over row block `p` loads: the device's own layer-1 vector, read back from the slot its layer-1
store wrote (whose own four inputs were the loads of layer 0's slots), and the three landed layer-1 blocks, in the order
slot 0, slot 1, slot 3, slot 2.  `b0` is the buffer under the layer-0 store and `b1` the buffer under the layer-1 store. -/

section Closed

/-- The stored function `f` applied to the four loaded layer-1 vectors of row block 0. -/
local notation "ARGS1_0(" c ", " b0 ", " b1 ", " f ")" =>
  f (LD5(1, 0, 0, inb_S2x4x4x64x256_S1x1x1x64x256_1_0_0_0_0,
        ST5(1, 0, 0, inb_S2x4x4x64x256_S1x1x1x64x256_1_0_0_0_0, b1, st1 (XA3 m ρ c) (XA4 m ρ c)
          (LD5(0, 0, 0, inb_S2x4x4x64x256_S1x1x1x64x256_0_0_0_0_0,
            ST5(0, 0, 0, inb_S2x4x4x64x256_S1x1x1x64x256_0_0_0_0_0, b0, st0 (XA0 m ρ c) (XA1 m ρ c) (XA2 m ρ c) 0)))
          (LD5(0, 0, 1, inb_S2x4x4x64x256_S1x1x1x64x256_0_0_1_0_0,
            LN5(0, 0, 1, inb_S2x4x4x64x256_S1x1x1x64x256_0_0_1_0_0, jkF c, valF m ρ (ps c 1) 0 0)))
          (LD5(0, 0, 3, inb_S2x4x4x64x256_S1x1x1x64x256_0_0_3_0_0,
            LN5(0, 0, 3, inb_S2x4x4x64x256_S1x1x1x64x256_0_0_3_0_0, jkF c, valF m ρ (ps c 3) 0 0)))
          (LD5(0, 0, 2, inb_S2x4x4x64x256_S1x1x1x64x256_0_0_2_0_0,
            LN5(0, 0, 2, inb_S2x4x4x64x256_S1x1x1x64x256_0_0_2_0_0, jkF c, valF m ρ (ps c 2) 0 0))) 0)))
    (LD5(1, 0, 1, inb_S2x4x4x64x256_S1x1x1x64x256_1_0_1_0_0,
        LN5(1, 0, 1, inb_S2x4x4x64x256_S1x1x1x64x256_1_0_1_0_0, jkF c, valF m ρ (ps c 1) 1 0)))
    (LD5(1, 0, 3, inb_S2x4x4x64x256_S1x1x1x64x256_1_0_3_0_0,
        LN5(1, 0, 3, inb_S2x4x4x64x256_S1x1x1x64x256_1_0_3_0_0, jkF c, valF m ρ (ps c 3) 1 0)))
    (LD5(1, 0, 2, inb_S2x4x4x64x256_S1x1x1x64x256_1_0_2_0_0,
        LN5(1, 0, 2, inb_S2x4x4x64x256_S1x1x1x64x256_1_0_2_0_0, jkF c, valF m ρ (ps c 2) 1 0)))
/-- The same for row block 1. -/
local notation "ARGS1_1(" c ", " b0 ", " b1 ", " f ")" =>
  f (LD5(1, 1, 0, inb_S2x4x4x64x256_S1x1x1x64x256_1_1_0_0_0,
        ST5(1, 1, 0, inb_S2x4x4x64x256_S1x1x1x64x256_1_1_0_0_0, b1, st1 (XA3 m ρ c) (XA4 m ρ c)
          (LD5(0, 1, 0, inb_S2x4x4x64x256_S1x1x1x64x256_0_1_0_0_0,
            ST5(0, 1, 0, inb_S2x4x4x64x256_S1x1x1x64x256_0_1_0_0_0, b0, st0 (XA0 m ρ c) (XA1 m ρ c) (XA2 m ρ c) 1)))
          (LD5(0, 1, 1, inb_S2x4x4x64x256_S1x1x1x64x256_0_1_1_0_0,
            LN5(0, 1, 1, inb_S2x4x4x64x256_S1x1x1x64x256_0_1_1_0_0, jkF c, valF m ρ (ps c 1) 0 1)))
          (LD5(0, 1, 3, inb_S2x4x4x64x256_S1x1x1x64x256_0_1_3_0_0,
            LN5(0, 1, 3, inb_S2x4x4x64x256_S1x1x1x64x256_0_1_3_0_0, jkF c, valF m ρ (ps c 3) 0 1)))
          (LD5(0, 1, 2, inb_S2x4x4x64x256_S1x1x1x64x256_0_1_2_0_0,
            LN5(0, 1, 2, inb_S2x4x4x64x256_S1x1x1x64x256_0_1_2_0_0, jkF c, valF m ρ (ps c 2) 0 1))) 1)))
    (LD5(1, 1, 1, inb_S2x4x4x64x256_S1x1x1x64x256_1_1_1_0_0,
        LN5(1, 1, 1, inb_S2x4x4x64x256_S1x1x1x64x256_1_1_1_0_0, jkF c, valF m ρ (ps c 1) 1 1)))
    (LD5(1, 1, 3, inb_S2x4x4x64x256_S1x1x1x64x256_1_1_3_0_0,
        LN5(1, 1, 3, inb_S2x4x4x64x256_S1x1x1x64x256_1_1_3_0_0, jkF c, valF m ρ (ps c 3) 1 1)))
    (LD5(1, 1, 2, inb_S2x4x4x64x256_S1x1x1x64x256_1_1_2_0_0,
        LN5(1, 1, 2, inb_S2x4x4x64x256_S1x1x1x64x256_1_1_2_0_0, jkF c, valF m ρ (ps c 2) 1 1)))
/-- The same for row block 2. -/
local notation "ARGS1_2(" c ", " b0 ", " b1 ", " f ")" =>
  f (LD5(1, 2, 0, inb_S2x4x4x64x256_S1x1x1x64x256_1_2_0_0_0,
        ST5(1, 2, 0, inb_S2x4x4x64x256_S1x1x1x64x256_1_2_0_0_0, b1, st1 (XA3 m ρ c) (XA4 m ρ c)
          (LD5(0, 2, 0, inb_S2x4x4x64x256_S1x1x1x64x256_0_2_0_0_0,
            ST5(0, 2, 0, inb_S2x4x4x64x256_S1x1x1x64x256_0_2_0_0_0, b0, st0 (XA0 m ρ c) (XA1 m ρ c) (XA2 m ρ c) 2)))
          (LD5(0, 2, 1, inb_S2x4x4x64x256_S1x1x1x64x256_0_2_1_0_0,
            LN5(0, 2, 1, inb_S2x4x4x64x256_S1x1x1x64x256_0_2_1_0_0, jkF c, valF m ρ (ps c 1) 0 2)))
          (LD5(0, 2, 3, inb_S2x4x4x64x256_S1x1x1x64x256_0_2_3_0_0,
            LN5(0, 2, 3, inb_S2x4x4x64x256_S1x1x1x64x256_0_2_3_0_0, jkF c, valF m ρ (ps c 3) 0 2)))
          (LD5(0, 2, 2, inb_S2x4x4x64x256_S1x1x1x64x256_0_2_2_0_0,
            LN5(0, 2, 2, inb_S2x4x4x64x256_S1x1x1x64x256_0_2_2_0_0, jkF c, valF m ρ (ps c 2) 0 2))) 2)))
    (LD5(1, 2, 1, inb_S2x4x4x64x256_S1x1x1x64x256_1_2_1_0_0,
        LN5(1, 2, 1, inb_S2x4x4x64x256_S1x1x1x64x256_1_2_1_0_0, jkF c, valF m ρ (ps c 1) 1 2)))
    (LD5(1, 2, 3, inb_S2x4x4x64x256_S1x1x1x64x256_1_2_3_0_0,
        LN5(1, 2, 3, inb_S2x4x4x64x256_S1x1x1x64x256_1_2_3_0_0, jkF c, valF m ρ (ps c 3) 1 2)))
    (LD5(1, 2, 2, inb_S2x4x4x64x256_S1x1x1x64x256_1_2_2_0_0,
        LN5(1, 2, 2, inb_S2x4x4x64x256_S1x1x1x64x256_1_2_2_0_0, jkF c, valF m ρ (ps c 2) 1 2)))
/-- The same for row block 3. -/
local notation "ARGS1_3(" c ", " b0 ", " b1 ", " f ")" =>
  f (LD5(1, 3, 0, inb_S2x4x4x64x256_S1x1x1x64x256_1_3_0_0_0,
        ST5(1, 3, 0, inb_S2x4x4x64x256_S1x1x1x64x256_1_3_0_0_0, b1, st1 (XA3 m ρ c) (XA4 m ρ c)
          (LD5(0, 3, 0, inb_S2x4x4x64x256_S1x1x1x64x256_0_3_0_0_0,
            ST5(0, 3, 0, inb_S2x4x4x64x256_S1x1x1x64x256_0_3_0_0_0, b0, st0 (XA0 m ρ c) (XA1 m ρ c) (XA2 m ρ c) 3)))
          (LD5(0, 3, 1, inb_S2x4x4x64x256_S1x1x1x64x256_0_3_1_0_0,
            LN5(0, 3, 1, inb_S2x4x4x64x256_S1x1x1x64x256_0_3_1_0_0, jkF c, valF m ρ (ps c 1) 0 3)))
          (LD5(0, 3, 3, inb_S2x4x4x64x256_S1x1x1x64x256_0_3_3_0_0,
            LN5(0, 3, 3, inb_S2x4x4x64x256_S1x1x1x64x256_0_3_3_0_0, jkF c, valF m ρ (ps c 3) 0 3)))
          (LD5(0, 3, 2, inb_S2x4x4x64x256_S1x1x1x64x256_0_3_2_0_0,
            LN5(0, 3, 2, inb_S2x4x4x64x256_S1x1x1x64x256_0_3_2_0_0, jkF c, valF m ρ (ps c 2) 0 3))) 3)))
    (LD5(1, 3, 1, inb_S2x4x4x64x256_S1x1x1x64x256_1_3_1_0_0,
        LN5(1, 3, 1, inb_S2x4x4x64x256_S1x1x1x64x256_1_3_1_0_0, jkF c, valF m ρ (ps c 1) 1 3)))
    (LD5(1, 3, 3, inb_S2x4x4x64x256_S1x1x1x64x256_1_3_3_0_0,
        LN5(1, 3, 3, inb_S2x4x4x64x256_S1x1x1x64x256_1_3_3_0_0, jkF c, valF m ρ (ps c 3) 1 3)))
    (LD5(1, 3, 2, inb_S2x4x4x64x256_S1x1x1x64x256_1_3_2_0_0,
        LN5(1, 3, 2, inb_S2x4x4x64x256_S1x1x1x64x256_1_3_2_0_0, jkF c, valF m ρ (ps c 2) 1 3)))

/-! ### Device 0: slots 1, 2, 3 fold over row blocks 1, 2, 3 -/

theorem L2c_0_1 (c : Dev nD) (hc : c = 0) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_1(c, b0, b1, rsc1 0 (w2in (XA5 m ρ c)) (w2out (XA6 m ρ c)))))
      = valF m ρ c 2 1 :=
  L2_0_1 m ρ c hc b2 _ _ _ _ (own_load1_1 m ρ c b0 b1) (land_load1_1_1 m ρ c) (land_load1_1_3 m ρ c) (land_load1_1_2 m ρ c)
theorem L2c_0_2 (c : Dev nD) (hc : c = 0) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_2(c, b0, b1, rsc2 0 (w2in (XA5 m ρ c)) (w2out (XA6 m ρ c)))))
      = valF m ρ c 2 2 :=
  L2_0_2 m ρ c hc b2 _ _ _ _ (own_load1_2 m ρ c b0 b1) (land_load1_2_1 m ρ c) (land_load1_2_3 m ρ c) (land_load1_2_2 m ρ c)
theorem L2c_0_3 (c : Dev nD) (hc : c = 0) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_3(c, b0, b1, rsc3 0 (w2in (XA5 m ρ c)) (w2out (XA6 m ρ c)))))
      = valF m ρ c 2 3 :=
  L2_0_3 m ρ c hc b2 _ _ _ _ (own_load1_3 m ρ c b0 b1) (land_load1_3_1 m ρ c) (land_load1_3_3 m ρ c) (land_load1_3_2 m ρ c)

/-! ### Device 1: row blocks 2, 3, 0 -/

theorem L2c_1_1 (c : Dev nD) (hc : c = 1) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_2(c, b0, b1, rsc1 1 (w2in (XA5 m ρ c)) (w2out (XA6 m ρ c)))))
      = valF m ρ c 2 1 :=
  L2_1_1 m ρ c hc b2 _ _ _ _ (own_load1_2 m ρ c b0 b1) (land_load1_2_1 m ρ c) (land_load1_2_3 m ρ c) (land_load1_2_2 m ρ c)
theorem L2c_1_2 (c : Dev nD) (hc : c = 1) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_3(c, b0, b1, rsc2 1 (w2in (XA5 m ρ c)) (w2out (XA6 m ρ c)))))
      = valF m ρ c 2 2 :=
  L2_1_2 m ρ c hc b2 _ _ _ _ (own_load1_3 m ρ c b0 b1) (land_load1_3_1 m ρ c) (land_load1_3_3 m ρ c) (land_load1_3_2 m ρ c)
theorem L2c_1_3 (c : Dev nD) (hc : c = 1) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_0(c, b0, b1, rsc3 1 (w2in (XA5 m ρ c)) (w2out (XA6 m ρ c)))))
      = valF m ρ c 2 3 :=
  L2_1_3 m ρ c hc b2 _ _ _ _ (own_load1_0 m ρ c b0 b1) (land_load1_0_1 m ρ c) (land_load1_0_3 m ρ c) (land_load1_0_2 m ρ c)

/-! ### Device 2: row blocks 3, 0, 1 -/

theorem L2c_2_1 (c : Dev nD) (hc : c = 2) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_3(c, b0, b1, rsc1 2 (w2in (XA5 m ρ c)) (w2out (XA6 m ρ c)))))
      = valF m ρ c 2 1 :=
  L2_2_1 m ρ c hc b2 _ _ _ _ (own_load1_3 m ρ c b0 b1) (land_load1_3_1 m ρ c) (land_load1_3_3 m ρ c) (land_load1_3_2 m ρ c)
theorem L2c_2_2 (c : Dev nD) (hc : c = 2) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_0(c, b0, b1, rsc2 2 (w2in (XA5 m ρ c)) (w2out (XA6 m ρ c)))))
      = valF m ρ c 2 2 :=
  L2_2_2 m ρ c hc b2 _ _ _ _ (own_load1_0 m ρ c b0 b1) (land_load1_0_1 m ρ c) (land_load1_0_3 m ρ c) (land_load1_0_2 m ρ c)
theorem L2c_2_3 (c : Dev nD) (hc : c = 2) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_1(c, b0, b1, rsc3 2 (w2in (XA5 m ρ c)) (w2out (XA6 m ρ c)))))
      = valF m ρ c 2 3 :=
  L2_2_3 m ρ c hc b2 _ _ _ _ (own_load1_1 m ρ c b0 b1) (land_load1_1_1 m ρ c) (land_load1_1_3 m ρ c) (land_load1_1_2 m ρ c)

/-! ### Device 3: row blocks 0, 1, 2 -/

theorem L2c_3_1 (c : Dev nD) (hc : c = 3) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_0(c, b0, b1, rsc1 3 (w2in (XA5 m ρ c)) (w2out (XA6 m ρ c)))))
      = valF m ρ c 2 1 :=
  L2_3_1 m ρ c hc b2 _ _ _ _ (own_load1_0 m ρ c b0 b1) (land_load1_0_1 m ρ c) (land_load1_0_3 m ρ c) (land_load1_0_2 m ρ c)
theorem L2c_3_2 (c : Dev nD) (hc : c = 3) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_1(c, b0, b1, rsc2 3 (w2in (XA5 m ρ c)) (w2out (XA6 m ρ c)))))
      = valF m ρ c 2 2 :=
  L2_3_2 m ρ c hc b2 _ _ _ _ (own_load1_1 m ρ c b0 b1) (land_load1_1_1 m ρ c) (land_load1_1_3 m ρ c) (land_load1_1_2 m ρ c)
theorem L2c_3_3 (c : Dev nD) (hc : c = 3) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_2(c, b0, b1, rsc3 3 (w2in (XA5 m ρ c)) (w2out (XA6 m ρ c)))))
      = valF m ρ c 2 3 :=
  L2_3_3 m ρ c hc b2 _ _ _ _ (own_load1_2 m ρ c b0 b1) (land_load1_2_1 m ρ c) (land_load1_2_3 m ρ c) (land_load1_2_2 m ρ c)

/-! ### The final store on each device: the fold over the device's own row block, then the three loaded shares -/

theorem OUTc_0 (c : Dev nD) (hc : c = 0) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_0(c, b0, b1, outv 0 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_0 m ρ c hc g7 _ _ _ _ (own_load1_0 m ρ c b0 b1) (land_load1_0_1 m ρ c) (land_load1_0_3 m ρ c) (land_load1_0_2 m ρ c)
theorem OUTc_1 (c : Dev nD) (hc : c = 1) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_1(c, b0, b1, outv 1 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_1 m ρ c hc g7 _ _ _ _ (own_load1_1 m ρ c b0 b1) (land_load1_1_1 m ρ c) (land_load1_1_3 m ρ c) (land_load1_1_2 m ρ c)
theorem OUTc_2 (c : Dev nD) (hc : c = 2) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_2(c, b0, b1, outv 2 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_2 m ρ c hc g7 _ _ _ _ (own_load1_2 m ρ c b0 b1) (land_load1_2_1 m ρ c) (land_load1_2_3 m ρ c) (land_load1_2_2 m ρ c)
theorem OUTc_3 (c : Dev nD) (hc : c = 3) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_3(c, b0, b1, outv 3 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_3 m ρ c hc g7 _ _ _ _ (own_load1_3 m ρ c b0 b1) (land_load1_3_1 m ρ c) (land_load1_3_3 m ρ c) (land_load1_3_2 m ρ c)

end Closed

/-! ## The same with the device's own block taken as the stored vector itself

A load of a slot that the device's own store has just covered returns the stored vector; so the own input of a layer-1
store is the layer-0 stored vector, and the own input of a fold is the layer-1 stored vector, whose three other inputs
are the loads of layer 0's landed slots. -/

section Direct

/-- The layer-1 stored vector of row block `p`, its own input the layer-0 stored vector, is the device's layer-1 vector
    when the three other inputs are the layer-0 vectors of the devices 1, 3, 2 places behind. -/
theorem own1d (p : Fin 4) (c : Dev nD) (s1 s3 s2 : Vec F S1x1x1x64x256 .bf16)
    (hs1 : s1 = V0' (ps c 1) p) (hs3 : s3 = V0' (ps c 3) p) (hs2 : s2 = V0' (ps c 2) p) :
    st1 (XA3 m ρ c) (XA4 m ρ c) (st0 (XA0 m ρ c) (XA1 m ρ c) (XA2 m ρ c) p) s1 s3 s2 p = V1' c p := by
  subst hs1 hs3 hs2
  rfl

/-- The layer-1 stored vector of row block 0 with its inputs written out. -/
local notation "OWN1d_0(" c ")" =>
  st1 (XA3 m ρ c) (XA4 m ρ c) (st0 (XA0 m ρ c) (XA1 m ρ c) (XA2 m ρ c) 0)
    (LD5(0, 0, 1, inb_S2x4x4x64x256_S1x1x1x64x256_0_0_1_0_0,
      LN5(0, 0, 1, inb_S2x4x4x64x256_S1x1x1x64x256_0_0_1_0_0, jkF c, valF m ρ (ps c 1) 0 0)))
    (LD5(0, 0, 3, inb_S2x4x4x64x256_S1x1x1x64x256_0_0_3_0_0,
      LN5(0, 0, 3, inb_S2x4x4x64x256_S1x1x1x64x256_0_0_3_0_0, jkF c, valF m ρ (ps c 3) 0 0)))
    (LD5(0, 0, 2, inb_S2x4x4x64x256_S1x1x1x64x256_0_0_2_0_0,
      LN5(0, 0, 2, inb_S2x4x4x64x256_S1x1x1x64x256_0_0_2_0_0, jkF c, valF m ρ (ps c 2) 0 0))) 0
local notation "OWN1d_1(" c ")" =>
  st1 (XA3 m ρ c) (XA4 m ρ c) (st0 (XA0 m ρ c) (XA1 m ρ c) (XA2 m ρ c) 1)
    (LD5(0, 1, 1, inb_S2x4x4x64x256_S1x1x1x64x256_0_1_1_0_0,
      LN5(0, 1, 1, inb_S2x4x4x64x256_S1x1x1x64x256_0_1_1_0_0, jkF c, valF m ρ (ps c 1) 0 1)))
    (LD5(0, 1, 3, inb_S2x4x4x64x256_S1x1x1x64x256_0_1_3_0_0,
      LN5(0, 1, 3, inb_S2x4x4x64x256_S1x1x1x64x256_0_1_3_0_0, jkF c, valF m ρ (ps c 3) 0 1)))
    (LD5(0, 1, 2, inb_S2x4x4x64x256_S1x1x1x64x256_0_1_2_0_0,
      LN5(0, 1, 2, inb_S2x4x4x64x256_S1x1x1x64x256_0_1_2_0_0, jkF c, valF m ρ (ps c 2) 0 1))) 1
local notation "OWN1d_2(" c ")" =>
  st1 (XA3 m ρ c) (XA4 m ρ c) (st0 (XA0 m ρ c) (XA1 m ρ c) (XA2 m ρ c) 2)
    (LD5(0, 2, 1, inb_S2x4x4x64x256_S1x1x1x64x256_0_2_1_0_0,
      LN5(0, 2, 1, inb_S2x4x4x64x256_S1x1x1x64x256_0_2_1_0_0, jkF c, valF m ρ (ps c 1) 0 2)))
    (LD5(0, 2, 3, inb_S2x4x4x64x256_S1x1x1x64x256_0_2_3_0_0,
      LN5(0, 2, 3, inb_S2x4x4x64x256_S1x1x1x64x256_0_2_3_0_0, jkF c, valF m ρ (ps c 3) 0 2)))
    (LD5(0, 2, 2, inb_S2x4x4x64x256_S1x1x1x64x256_0_2_2_0_0,
      LN5(0, 2, 2, inb_S2x4x4x64x256_S1x1x1x64x256_0_2_2_0_0, jkF c, valF m ρ (ps c 2) 0 2))) 2
local notation "OWN1d_3(" c ")" =>
  st1 (XA3 m ρ c) (XA4 m ρ c) (st0 (XA0 m ρ c) (XA1 m ρ c) (XA2 m ρ c) 3)
    (LD5(0, 3, 1, inb_S2x4x4x64x256_S1x1x1x64x256_0_3_1_0_0,
      LN5(0, 3, 1, inb_S2x4x4x64x256_S1x1x1x64x256_0_3_1_0_0, jkF c, valF m ρ (ps c 1) 0 3)))
    (LD5(0, 3, 3, inb_S2x4x4x64x256_S1x1x1x64x256_0_3_3_0_0,
      LN5(0, 3, 3, inb_S2x4x4x64x256_S1x1x1x64x256_0_3_3_0_0, jkF c, valF m ρ (ps c 3) 0 3)))
    (LD5(0, 3, 2, inb_S2x4x4x64x256_S1x1x1x64x256_0_3_2_0_0,
      LN5(0, 3, 2, inb_S2x4x4x64x256_S1x1x1x64x256_0_3_2_0_0, jkF c, valF m ρ (ps c 2) 0 3))) 3

/-- The stored function `f` applied to the layer-1 stored vector of row block 0 and the three landed layer-1 blocks. -/
local notation "ARGS1d_0(" c ", " f ")" =>
  f (OWN1d_0(c))
    (LD5(1, 0, 1, inb_S2x4x4x64x256_S1x1x1x64x256_1_0_1_0_0,
        LN5(1, 0, 1, inb_S2x4x4x64x256_S1x1x1x64x256_1_0_1_0_0, jkF c, valF m ρ (ps c 1) 1 0)))
    (LD5(1, 0, 3, inb_S2x4x4x64x256_S1x1x1x64x256_1_0_3_0_0,
        LN5(1, 0, 3, inb_S2x4x4x64x256_S1x1x1x64x256_1_0_3_0_0, jkF c, valF m ρ (ps c 3) 1 0)))
    (LD5(1, 0, 2, inb_S2x4x4x64x256_S1x1x1x64x256_1_0_2_0_0,
        LN5(1, 0, 2, inb_S2x4x4x64x256_S1x1x1x64x256_1_0_2_0_0, jkF c, valF m ρ (ps c 2) 1 0)))
local notation "ARGS1d_1(" c ", " f ")" =>
  f (OWN1d_1(c))
    (LD5(1, 1, 1, inb_S2x4x4x64x256_S1x1x1x64x256_1_1_1_0_0,
        LN5(1, 1, 1, inb_S2x4x4x64x256_S1x1x1x64x256_1_1_1_0_0, jkF c, valF m ρ (ps c 1) 1 1)))
    (LD5(1, 1, 3, inb_S2x4x4x64x256_S1x1x1x64x256_1_1_3_0_0,
        LN5(1, 1, 3, inb_S2x4x4x64x256_S1x1x1x64x256_1_1_3_0_0, jkF c, valF m ρ (ps c 3) 1 1)))
    (LD5(1, 1, 2, inb_S2x4x4x64x256_S1x1x1x64x256_1_1_2_0_0,
        LN5(1, 1, 2, inb_S2x4x4x64x256_S1x1x1x64x256_1_1_2_0_0, jkF c, valF m ρ (ps c 2) 1 1)))
local notation "ARGS1d_2(" c ", " f ")" =>
  f (OWN1d_2(c))
    (LD5(1, 2, 1, inb_S2x4x4x64x256_S1x1x1x64x256_1_2_1_0_0,
        LN5(1, 2, 1, inb_S2x4x4x64x256_S1x1x1x64x256_1_2_1_0_0, jkF c, valF m ρ (ps c 1) 1 2)))
    (LD5(1, 2, 3, inb_S2x4x4x64x256_S1x1x1x64x256_1_2_3_0_0,
        LN5(1, 2, 3, inb_S2x4x4x64x256_S1x1x1x64x256_1_2_3_0_0, jkF c, valF m ρ (ps c 3) 1 2)))
    (LD5(1, 2, 2, inb_S2x4x4x64x256_S1x1x1x64x256_1_2_2_0_0,
        LN5(1, 2, 2, inb_S2x4x4x64x256_S1x1x1x64x256_1_2_2_0_0, jkF c, valF m ρ (ps c 2) 1 2)))
local notation "ARGS1d_3(" c ", " f ")" =>
  f (OWN1d_3(c))
    (LD5(1, 3, 1, inb_S2x4x4x64x256_S1x1x1x64x256_1_3_1_0_0,
        LN5(1, 3, 1, inb_S2x4x4x64x256_S1x1x1x64x256_1_3_1_0_0, jkF c, valF m ρ (ps c 1) 1 3)))
    (LD5(1, 3, 3, inb_S2x4x4x64x256_S1x1x1x64x256_1_3_3_0_0,
        LN5(1, 3, 3, inb_S2x4x4x64x256_S1x1x1x64x256_1_3_3_0_0, jkF c, valF m ρ (ps c 3) 1 3)))
    (LD5(1, 3, 2, inb_S2x4x4x64x256_S1x1x1x64x256_1_3_2_0_0,
        LN5(1, 3, 2, inb_S2x4x4x64x256_S1x1x1x64x256_1_3_2_0_0, jkF c, valF m ρ (ps c 2) 1 3)))

/-! ### The layer-1 stored vector at the four literal row blocks -/

theorem own1d_0 (c : Dev nD) : OWN1d_0(c) = V1' c 0 :=
  own1d m ρ 0 c _ _ _ (land_load0_0_1 m ρ c) (land_load0_0_3 m ρ c) (land_load0_0_2 m ρ c)
theorem own1d_1 (c : Dev nD) : OWN1d_1(c) = V1' c 1 :=
  own1d m ρ 1 c _ _ _ (land_load0_1_1 m ρ c) (land_load0_1_3 m ρ c) (land_load0_1_2 m ρ c)
theorem own1d_2 (c : Dev nD) : OWN1d_2(c) = V1' c 2 :=
  own1d m ρ 2 c _ _ _ (land_load0_2_1 m ρ c) (land_load0_2_3 m ρ c) (land_load0_2_2 m ρ c)
theorem own1d_3 (c : Dev nD) : OWN1d_3(c) = V1' c 3 :=
  own1d m ρ 3 c _ _ _ (land_load0_3_1 m ρ c) (land_load0_3_3 m ρ c) (land_load0_3_2 m ρ c)

/-! ### Layer 1: the store read back through the slot's own view -/

theorem L1d_0 (c : Dev nD) (b' : Buf (Elt F) ((c : Thread nD τ).loc cc0_scratch0)) :
    (slotM 1 0 0 inb_S2x4x4x64x256_S1x1x1x64x256_1_0_0_0_0).view.read (Elt F)
        (ST5(1, 0, 0, inb_S2x4x4x64x256_S1x1x1x64x256_1_0_0_0_0, b', OWN1d_0(c)))
      = valF m ρ c 1 0 :=
  read_store1 m ρ 0 _ c b' _ _ _ _ rfl (land_load0_0_1 m ρ c) (land_load0_0_3 m ρ c) (land_load0_0_2 m ρ c)
theorem L1d_1 (c : Dev nD) (b' : Buf (Elt F) ((c : Thread nD τ).loc cc0_scratch0)) :
    (slotM 1 1 0 inb_S2x4x4x64x256_S1x1x1x64x256_1_1_0_0_0).view.read (Elt F)
        (ST5(1, 1, 0, inb_S2x4x4x64x256_S1x1x1x64x256_1_1_0_0_0, b', OWN1d_1(c)))
      = valF m ρ c 1 1 :=
  read_store1 m ρ 1 _ c b' _ _ _ _ rfl (land_load0_1_1 m ρ c) (land_load0_1_3 m ρ c) (land_load0_1_2 m ρ c)
theorem L1d_2 (c : Dev nD) (b' : Buf (Elt F) ((c : Thread nD τ).loc cc0_scratch0)) :
    (slotM 1 2 0 inb_S2x4x4x64x256_S1x1x1x64x256_1_2_0_0_0).view.read (Elt F)
        (ST5(1, 2, 0, inb_S2x4x4x64x256_S1x1x1x64x256_1_2_0_0_0, b', OWN1d_2(c)))
      = valF m ρ c 1 2 :=
  read_store1 m ρ 2 _ c b' _ _ _ _ rfl (land_load0_2_1 m ρ c) (land_load0_2_3 m ρ c) (land_load0_2_2 m ρ c)
theorem L1d_3 (c : Dev nD) (b' : Buf (Elt F) ((c : Thread nD τ).loc cc0_scratch0)) :
    (slotM 1 3 0 inb_S2x4x4x64x256_S1x1x1x64x256_1_3_0_0_0).view.read (Elt F)
        (ST5(1, 3, 0, inb_S2x4x4x64x256_S1x1x1x64x256_1_3_0_0_0, b', OWN1d_3(c)))
      = valF m ρ c 1 3 :=
  read_store1 m ρ 3 _ c b' _ _ _ _ rfl (land_load0_3_1 m ρ c) (land_load0_3_3 m ρ c) (land_load0_3_2 m ρ c)

/-! ### Layer 2 on each device -/

theorem L2d_0_1 (c : Dev nD) (hc : c = 0) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_1(c, rsc1 0 (w2in (XA5 m ρ c)) (w2out (XA6 m ρ c)))))
      = valF m ρ c 2 1 :=
  L2_0_1 m ρ c hc b2 _ _ _ _ (own1d_1 m ρ c) (land_load1_1_1 m ρ c) (land_load1_1_3 m ρ c) (land_load1_1_2 m ρ c)
theorem L2d_0_2 (c : Dev nD) (hc : c = 0) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_2(c, rsc2 0 (w2in (XA5 m ρ c)) (w2out (XA6 m ρ c)))))
      = valF m ρ c 2 2 :=
  L2_0_2 m ρ c hc b2 _ _ _ _ (own1d_2 m ρ c) (land_load1_2_1 m ρ c) (land_load1_2_3 m ρ c) (land_load1_2_2 m ρ c)
theorem L2d_0_3 (c : Dev nD) (hc : c = 0) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_3(c, rsc3 0 (w2in (XA5 m ρ c)) (w2out (XA6 m ρ c)))))
      = valF m ρ c 2 3 :=
  L2_0_3 m ρ c hc b2 _ _ _ _ (own1d_3 m ρ c) (land_load1_3_1 m ρ c) (land_load1_3_3 m ρ c) (land_load1_3_2 m ρ c)
theorem L2d_1_1 (c : Dev nD) (hc : c = 1) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_2(c, rsc1 1 (w2in (XA5 m ρ c)) (w2out (XA6 m ρ c)))))
      = valF m ρ c 2 1 :=
  L2_1_1 m ρ c hc b2 _ _ _ _ (own1d_2 m ρ c) (land_load1_2_1 m ρ c) (land_load1_2_3 m ρ c) (land_load1_2_2 m ρ c)
theorem L2d_1_2 (c : Dev nD) (hc : c = 1) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_3(c, rsc2 1 (w2in (XA5 m ρ c)) (w2out (XA6 m ρ c)))))
      = valF m ρ c 2 2 :=
  L2_1_2 m ρ c hc b2 _ _ _ _ (own1d_3 m ρ c) (land_load1_3_1 m ρ c) (land_load1_3_3 m ρ c) (land_load1_3_2 m ρ c)
theorem L2d_1_3 (c : Dev nD) (hc : c = 1) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_0(c, rsc3 1 (w2in (XA5 m ρ c)) (w2out (XA6 m ρ c)))))
      = valF m ρ c 2 3 :=
  L2_1_3 m ρ c hc b2 _ _ _ _ (own1d_0 m ρ c) (land_load1_0_1 m ρ c) (land_load1_0_3 m ρ c) (land_load1_0_2 m ρ c)
theorem L2d_2_1 (c : Dev nD) (hc : c = 2) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_3(c, rsc1 2 (w2in (XA5 m ρ c)) (w2out (XA6 m ρ c)))))
      = valF m ρ c 2 1 :=
  L2_2_1 m ρ c hc b2 _ _ _ _ (own1d_3 m ρ c) (land_load1_3_1 m ρ c) (land_load1_3_3 m ρ c) (land_load1_3_2 m ρ c)
theorem L2d_2_2 (c : Dev nD) (hc : c = 2) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_0(c, rsc2 2 (w2in (XA5 m ρ c)) (w2out (XA6 m ρ c)))))
      = valF m ρ c 2 2 :=
  L2_2_2 m ρ c hc b2 _ _ _ _ (own1d_0 m ρ c) (land_load1_0_1 m ρ c) (land_load1_0_3 m ρ c) (land_load1_0_2 m ρ c)
theorem L2d_2_3 (c : Dev nD) (hc : c = 2) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_1(c, rsc3 2 (w2in (XA5 m ρ c)) (w2out (XA6 m ρ c)))))
      = valF m ρ c 2 3 :=
  L2_2_3 m ρ c hc b2 _ _ _ _ (own1d_1 m ρ c) (land_load1_1_1 m ρ c) (land_load1_1_3 m ρ c) (land_load1_1_2 m ρ c)
theorem L2d_3_1 (c : Dev nD) (hc : c = 3) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_0(c, rsc1 3 (w2in (XA5 m ρ c)) (w2out (XA6 m ρ c)))))
      = valF m ρ c 2 1 :=
  L2_3_1 m ρ c hc b2 _ _ _ _ (own1d_0 m ρ c) (land_load1_0_1 m ρ c) (land_load1_0_3 m ρ c) (land_load1_0_2 m ρ c)
theorem L2d_3_2 (c : Dev nD) (hc : c = 3) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_1(c, rsc2 3 (w2in (XA5 m ρ c)) (w2out (XA6 m ρ c)))))
      = valF m ρ c 2 2 :=
  L2_3_2 m ρ c hc b2 _ _ _ _ (own1d_1 m ρ c) (land_load1_1_1 m ρ c) (land_load1_1_3 m ρ c) (land_load1_1_2 m ρ c)
theorem L2d_3_3 (c : Dev nD) (hc : c = 3) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_2(c, rsc3 3 (w2in (XA5 m ρ c)) (w2out (XA6 m ρ c)))))
      = valF m ρ c 2 3 :=
  L2_3_3 m ρ c hc b2 _ _ _ _ (own1d_2 m ρ c) (land_load1_2_1 m ρ c) (land_load1_2_3 m ρ c) (land_load1_2_2 m ρ c)

/-! ### The final store on each device -/

theorem OUTd_0 (c : Dev nD) (hc : c = 0) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_0(c, outv 0 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_0 m ρ c hc g7 _ _ _ _ (own1d_0 m ρ c) (land_load1_0_1 m ρ c) (land_load1_0_3 m ρ c) (land_load1_0_2 m ρ c)
theorem OUTd_1 (c : Dev nD) (hc : c = 1) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_1(c, outv 1 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_1 m ρ c hc g7 _ _ _ _ (own1d_1 m ρ c) (land_load1_1_1 m ρ c) (land_load1_1_3 m ρ c) (land_load1_1_2 m ρ c)
theorem OUTd_2 (c : Dev nD) (hc : c = 2) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_2(c, outv 2 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_2 m ρ c hc g7 _ _ _ _ (own1d_2 m ρ c) (land_load1_2_1 m ρ c) (land_load1_2_3 m ρ c) (land_load1_2_2 m ρ c)
theorem OUTd_3 (c : Dev nD) (hc : c = 3) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_3(c, outv 3 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_3 m ρ c hc g7 _ _ _ _ (own1d_3 m ρ c) (land_load1_3_1 m ρ c) (land_load1_3_3 m ρ c) (land_load1_3_2 m ρ c)

end Direct

/-- info: 'Cert.KernelIdeal.Mlp.L0_3' depends on axioms: [propext, Classical.choice, Quot.sound] -/
#guard_msgs in #print axioms L0_3
/-- info: 'Cert.KernelIdeal.Mlp.L1_3' depends on axioms: [propext, Classical.choice, Quot.sound] -/
#guard_msgs in #print axioms L1_3
/-- info: 'Cert.KernelIdeal.Mlp.own_load1_3' depends on axioms: [propext, Classical.choice, Quot.sound] -/
#guard_msgs in #print axioms own_load1_3
/-- info: 'Cert.KernelIdeal.Mlp.L2_3_3' depends on axioms: [propext, Classical.choice, Quot.sound] -/
#guard_msgs in #print axioms L2_3_3
/-- info: 'Cert.KernelIdeal.Mlp.OUT_3' depends on axioms: [propext, Classical.choice, Quot.sound] -/
#guard_msgs in #print axioms OUT_3
/-- info: 'Cert.KernelIdeal.Mlp.L2c_3_3' depends on axioms: [propext, Classical.choice, Quot.sound] -/
#guard_msgs in #print axioms L2c_3_3
/-- info: 'Cert.KernelIdeal.Mlp.OUTc_3' depends on axioms: [propext, Classical.choice, Quot.sound] -/
#guard_msgs in #print axioms OUTc_3
/-- info: 'Cert.KernelIdeal.Mlp.L1d_3' depends on axioms: [propext, Classical.choice, Quot.sound] -/
#guard_msgs in #print axioms L1d_3
/-- info: 'Cert.KernelIdeal.Mlp.L2d_3_3' depends on axioms: [propext, Classical.choice, Quot.sound] -/
#guard_msgs in #print axioms L2d_3_3
/-- info: 'Cert.KernelIdeal.Mlp.OUTd_3' depends on axioms: [propext, Classical.choice, Quot.sound] -/
#guard_msgs in #print axioms OUTd_3

end Cert.KernelIdeal.Mlp

end
-- ==== Proof.Body.lean ====
import proofs.«900991_g7700000000000992_dist_mlpseq_tp1d_rep_bs_b256_d256_h512_v7x_i4_bf16_1_alg».proof.Proof.BodyIface
import proofs.«900991_g7700000000000992_dist_mlpseq_tp1d_rep_bs_b256_d256_h512_v7x_i4_bf16_1_alg».proof.Proof.Levels
import proofs.«900991_g7700000000000992_dist_mlpseq_tp1d_rep_bs_b256_d256_h512_v7x_i4_bf16_1_alg».proof.Proof.OwesLevels
import proofs.«900991_g7700000000000992_dist_mlpseq_tp1d_rep_bs_b256_d256_h512_v7x_i4_bf16_1_alg».proof.Proof.SendRulesTo
import proofs.«900991_g7700000000000992_dist_mlpseq_tp1d_rep_bs_b256_d256_h512_v7x_i4_bf16_1_alg».proof.Proof.Shares
import proofs.«900991_g7700000000000992_dist_mlpseq_tp1d_rep_bs_b256_d256_h512_v7x_i4_bf16_1_alg».proof.Proof.BlockViews
import proofs.«900991_g7700000000000992_dist_mlpseq_tp1d_rep_bs_b256_d256_h512_v7x_i4_bf16_1_alg».proof.Proof.ValueSteps

noncomputable section

namespace Cert.KernelIdeal.Mlp

open Idealize.ShloMosaic
open Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Cert.KernelIdeal.Join Cert.KernelIdeal.KVal
variable {F : FTy → Type} [FloatOps F]
local notation "𝕄" => MT nD τ sig Unit (Elt F) ℕ UU ℕ
variable (m : (ℓ : Loc nD τ sig) → Buf (Elt F) ℓ) (ρ : Dev nD → PrngReg)

attribute [local sl_rounds] duties_bar amount_bar expect_bar payload_bar1 payload_bar2 payload_bar3 duties_snd_0_0_1 duties_rcv_0_0_1 amount_snd_0_0_1 amount_rcv_0_0_1 expect_snd_0_0_1 expect_rcv_0_0_1 payload_snd_0_0_1 payload_rcv_0_0_1 duties_snd_0_0_2 duties_rcv_0_0_2 amount_snd_0_0_2 amount_rcv_0_0_2 expect_snd_0_0_2 expect_rcv_0_0_2 payload_snd_0_0_2 payload_rcv_0_0_2 duties_snd_0_0_3 duties_rcv_0_0_3 amount_snd_0_0_3 amount_rcv_0_0_3 expect_snd_0_0_3 expect_rcv_0_0_3 payload_snd_0_0_3 payload_rcv_0_0_3 duties_snd_0_1_1 duties_rcv_0_1_1 amount_snd_0_1_1 amount_rcv_0_1_1 expect_snd_0_1_1 expect_rcv_0_1_1 payload_snd_0_1_1 payload_rcv_0_1_1 duties_snd_0_1_2 duties_rcv_0_1_2 amount_snd_0_1_2 amount_rcv_0_1_2 expect_snd_0_1_2 expect_rcv_0_1_2 payload_snd_0_1_2 payload_rcv_0_1_2 duties_snd_0_1_3 duties_rcv_0_1_3 amount_snd_0_1_3 amount_rcv_0_1_3 expect_snd_0_1_3 expect_rcv_0_1_3 payload_snd_0_1_3 payload_rcv_0_1_3 duties_snd_0_2_1 duties_rcv_0_2_1 amount_snd_0_2_1 amount_rcv_0_2_1 expect_snd_0_2_1 expect_rcv_0_2_1 payload_snd_0_2_1 payload_rcv_0_2_1 duties_snd_0_2_2 duties_rcv_0_2_2 amount_snd_0_2_2 amount_rcv_0_2_2 expect_snd_0_2_2 expect_rcv_0_2_2 payload_snd_0_2_2 payload_rcv_0_2_2 duties_snd_0_2_3 duties_rcv_0_2_3 amount_snd_0_2_3 amount_rcv_0_2_3 expect_snd_0_2_3 expect_rcv_0_2_3 payload_snd_0_2_3 payload_rcv_0_2_3 duties_snd_0_3_1 duties_rcv_0_3_1 amount_snd_0_3_1 amount_rcv_0_3_1 expect_snd_0_3_1 expect_rcv_0_3_1 payload_snd_0_3_1 payload_rcv_0_3_1 duties_snd_0_3_2 duties_rcv_0_3_2 amount_snd_0_3_2 amount_rcv_0_3_2 expect_snd_0_3_2 expect_rcv_0_3_2 payload_snd_0_3_2 payload_rcv_0_3_2 duties_snd_0_3_3 duties_rcv_0_3_3 amount_snd_0_3_3 amount_rcv_0_3_3 expect_snd_0_3_3 expect_rcv_0_3_3 payload_snd_0_3_3 payload_rcv_0_3_3 duties_snd_1_0_1 duties_rcv_1_0_1 amount_snd_1_0_1 amount_rcv_1_0_1 expect_snd_1_0_1 expect_rcv_1_0_1 payload_snd_1_0_1 payload_rcv_1_0_1 duties_snd_1_0_2 duties_rcv_1_0_2 amount_snd_1_0_2 amount_rcv_1_0_2 expect_snd_1_0_2 expect_rcv_1_0_2 payload_snd_1_0_2 payload_rcv_1_0_2 duties_snd_1_0_3 duties_rcv_1_0_3 amount_snd_1_0_3 amount_rcv_1_0_3 expect_snd_1_0_3 expect_rcv_1_0_3 payload_snd_1_0_3 payload_rcv_1_0_3 duties_snd_1_1_1 duties_rcv_1_1_1 amount_snd_1_1_1 amount_rcv_1_1_1 expect_snd_1_1_1 expect_rcv_1_1_1 payload_snd_1_1_1 payload_rcv_1_1_1 duties_snd_1_1_2 duties_rcv_1_1_2 amount_snd_1_1_2 amount_rcv_1_1_2 expect_snd_1_1_2 expect_rcv_1_1_2 payload_snd_1_1_2 payload_rcv_1_1_2 duties_snd_1_1_3 duties_rcv_1_1_3 amount_snd_1_1_3 amount_rcv_1_1_3 expect_snd_1_1_3 expect_rcv_1_1_3 payload_snd_1_1_3 payload_rcv_1_1_3 duties_snd_1_2_1 duties_rcv_1_2_1 amount_snd_1_2_1 amount_rcv_1_2_1 expect_snd_1_2_1 expect_rcv_1_2_1 payload_snd_1_2_1 payload_rcv_1_2_1 duties_snd_1_2_2 duties_rcv_1_2_2 amount_snd_1_2_2 amount_rcv_1_2_2 expect_snd_1_2_2 expect_rcv_1_2_2 payload_snd_1_2_2 payload_rcv_1_2_2 duties_snd_1_2_3 duties_rcv_1_2_3 amount_snd_1_2_3 amount_rcv_1_2_3 expect_snd_1_2_3 expect_rcv_1_2_3 payload_snd_1_2_3 payload_rcv_1_2_3 duties_snd_1_3_1 duties_rcv_1_3_1 amount_snd_1_3_1 amount_rcv_1_3_1 expect_snd_1_3_1 expect_rcv_1_3_1 payload_snd_1_3_1 payload_rcv_1_3_1 duties_snd_1_3_2 duties_rcv_1_3_2 amount_snd_1_3_2 amount_rcv_1_3_2 expect_snd_1_3_2 expect_rcv_1_3_2 payload_snd_1_3_2 payload_rcv_1_3_2 duties_snd_1_3_3 duties_rcv_1_3_3 amount_snd_1_3_3 amount_rcv_1_3_3 expect_snd_1_3_3 expect_rcv_1_3_3 payload_snd_1_3_3 payload_rcv_1_3_3 duties_snd_2_0_1 duties_rcv_2_0_1 amount_snd_2_0_1 amount_rcv_2_0_1 expect_snd_2_0_1 expect_rcv_2_0_1 payload_snd_2_0_1 payload_rcv_2_0_1 duties_snd_2_0_2 duties_rcv_2_0_2 amount_snd_2_0_2 amount_rcv_2_0_2 expect_snd_2_0_2 expect_rcv_2_0_2 payload_snd_2_0_2 payload_rcv_2_0_2 duties_snd_2_0_3 duties_rcv_2_0_3 amount_snd_2_0_3 amount_rcv_2_0_3 expect_snd_2_0_3 expect_rcv_2_0_3 payload_snd_2_0_3 payload_rcv_2_0_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

omit [FloatOps F] in
theorem owes_congr {c : Dev nD} {O O' : CellTallies nD τ sig Unit} {W : Waits sig Unit} (h : O = O') :
    (owes (c : Thread nD τ) O W : sProp 𝕄) ⊢ owes (c : Thread nD τ) O' W := by subst h; exact BI.Entails.refl _

/-- Two contents of a block agree on the block's own elements when reading the one through the block's view gives what the
    other was written from. -/
theorem agree_of_read {κ : Kind} {sp : Space} {s : Shape} {e : EltTy} (v : View sig κ sp s e) (fd T : v.ty.Contents (Elt F))
    {x : s.Idx → Elt F e} (h : v.read (Elt F) T = x) : ∀ i ∈ v.set, v.write (Elt F) fd x Finset.univ i = T i :=
  fun i hi => by subst h; exact (write_read_agree v fd T i hi).symm

/-- Advance the symbolic run up to the next copy's start (the run stops there: the copy's tokens are not in its hands). -/
macro "adv" : tactic => `(tactic| (set_option sl_exec.foldHeartbeats 1 in sl_exec_parts (disch := decide)))

set_option maxHeartbeats 64000000 in
/-- One device's body, run symbolically from the flat context `bodyPre` to `bodyPost`: the three entry signals are paid by
    hand (each hands over the nine blocks the device ahead will write), the barrier wait brings the 27 destination blocks;
    every copy is started by its rule once the run has reached it, its source the block just stored (kept at one share,
    three lent), its value the layer's partial product; the waits, loads and stores between copies are the run's own steps;
    after the trunk the device's number decides which of the four guarded regions runs; at the end every own cell is closed,
    the lent shares joined back and the two exchange buffers reassembled from their blocks. -/
theorem sound_body (K : GSem nD τ sig → ℕ) (c : Dev nD) (Kt : PUnit → sProp 𝕄) (W : Waits sig Unit)
    (f0 : Buf (Elt F) ((c : Thread nD τ).loc cc0_scratch0)) (f1 : Buf (Elt F) ((c : Thread nD τ).loc cc0_scratch1))
    (g7 : (cc0_stg7_0 : Ref sig .tc).ty.Contents (Elt F)) :
    iprop(bodyPre m ρ (valF m ρ) jkF jrF K c W f0 f1 g7 ∗ (bodyPost m ρ (outF m ρ) c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) Kt := by
  unfold bodyPre
  iintro ⟨⟨#Ibar, #Isnd_0_0_1, #Isnd_0_0_2, #Isnd_0_0_3, #Isnd_0_1_1, #Isnd_0_1_2, #Isnd_0_1_3, #Isnd_0_2_1, #Isnd_0_2_2, #Isnd_0_2_3, #Isnd_0_3_1, #Isnd_0_3_2, #Isnd_0_3_3, #Isnd_1_0_1, #Isnd_1_0_2, #Isnd_1_0_3, #Isnd_1_1_1, #Isnd_1_1_2, #Isnd_1_1_3, #Isnd_1_2_1, #Isnd_1_2_2, #Isnd_1_2_3, #Isnd_1_3_1, #Isnd_1_3_2, #Isnd_1_3_3, #Isnd_2_0_1, #Isnd_2_0_2, #Isnd_2_0_3, #Ircv_0_0_1, #Ircv_0_0_2, #Ircv_0_0_3, #Ircv_0_1_1, #Ircv_0_1_2, #Ircv_0_1_3, #Ircv_0_2_1, #Ircv_0_2_2, #Ircv_0_2_3, #Ircv_0_3_1, #Ircv_0_3_2, #Ircv_0_3_3, #Ircv_1_0_1, #Ircv_1_0_2, #Ircv_1_0_3, #Ircv_1_1_1, #Ircv_1_1_2, #Ircv_1_1_3, #Ircv_1_2_1, #Ircv_1_2_2, #Ircv_1_2_3, #Ircv_1_3_1, #Ircv_1_3_2, #Ircv_1_3_3, #Ircv_2_0_1, #Ircv_2_0_2, #Ircv_2_0_3, #IbarP_1, #IbarP_2, #IbarP_3, #IrcvP_0_0_1, #IrcvP_0_0_2, #IrcvP_0_0_3, #IrcvP_0_1_1, #IrcvP_0_1_2, #IrcvP_0_1_3, #IrcvP_0_2_1, #IrcvP_0_2_2, #IrcvP_0_2_3, #IrcvP_0_3_1, #IrcvP_0_3_2, #IrcvP_0_3_3, #IrcvP_1_0_1, #IrcvP_1_0_2, #IrcvP_1_0_3, #IrcvP_1_1_1, #IrcvP_1_1_2, #IrcvP_1_1_3, #IrcvP_1_2_1, #IrcvP_1_2_2, #IrcvP_1_2_3, #IrcvP_1_3_1, #IrcvP_1_3_2, #IrcvP_1_3_3, #IrcvP_2_0_1, #IrcvP_2_0_2, #IrcvP_2_0_3, #RbarP_1, #RbarP_2, #RbarP_3, #Rsnd_0_0_1, #Rsnd_0_0_2, #Rsnd_0_0_3, #Rsnd_0_1_1, #Rsnd_0_1_2, #Rsnd_0_1_3, #Rsnd_0_2_1, #Rsnd_0_2_2, #Rsnd_0_2_3, #Rsnd_0_3_1, #Rsnd_0_3_2, #Rsnd_0_3_3, #Rsnd_1_0_1, #Rsnd_1_0_2, #Rsnd_1_0_3, #Rsnd_1_1_1, #Rsnd_1_1_2, #Rsnd_1_1_3, #Rsnd_1_2_1, #Rsnd_1_2_2, #Rsnd_1_2_3, #Rsnd_1_3_1, #Rsnd_1_3_2, #Rsnd_1_3_3, #Rsnd_2_0_1, #Rsnd_2_0_2, #Rsnd_2_0_3, #RrcvP_0_0_1, #RrcvP_0_0_2, #RrcvP_0_0_3, #RrcvP_0_1_1, #RrcvP_0_1_2, #RrcvP_0_1_3, #RrcvP_0_2_1, #RrcvP_0_2_2, #RrcvP_0_2_3, #RrcvP_0_3_1, #RrcvP_0_3_2, #RrcvP_0_3_3, #RrcvP_1_0_1, #RrcvP_1_0_2, #RrcvP_1_0_3, #RrcvP_1_1_1, #RrcvP_1_1_2, #RrcvP_1_1_3, #RrcvP_1_2_1, #RrcvP_1_2_2, #RrcvP_1_2_3, #RrcvP_1_3_1, #RrcvP_1_3_2, #RrcvP_1_3_3, #RrcvP_2_0_1, #RrcvP_2_0_2, #RrcvP_2_0_3, #Hlev, Abar, Asnd_0_0_1, Asnd_0_0_2, Asnd_0_0_3, Asnd_0_1_1, Asnd_0_1_2, Asnd_0_1_3, Asnd_0_2_1, Asnd_0_2_2, Asnd_0_2_3, Asnd_0_3_1, Asnd_0_3_2, Asnd_0_3_3, Asnd_1_0_1, Asnd_1_0_2, Asnd_1_0_3, Asnd_1_1_1, Asnd_1_1_2, Asnd_1_1_3, Asnd_1_2_1, Asnd_1_2_2, Asnd_1_2_3, Asnd_1_3_1, Asnd_1_3_2, Asnd_1_3_3, Asnd_2_0_1, Asnd_2_0_2, Asnd_2_0_3, Arcv_0_0_1, Arcv_0_0_2, Arcv_0_0_3, Arcv_0_1_1, Arcv_0_1_2, Arcv_0_1_3, Arcv_0_2_1, Arcv_0_2_2, Arcv_0_2_3, Arcv_0_3_1, Arcv_0_3_2, Arcv_0_3_3, Arcv_1_0_1, Arcv_1_0_2, Arcv_1_0_3, Arcv_1_1_1, Arcv_1_1_2, Arcv_1_1_3, Arcv_1_2_1, Arcv_1_2_2, Arcv_1_2_3, Arcv_1_3_1, Arcv_1_3_2, Arcv_1_3_3, Arcv_2_0_1, Arcv_2_0_2, Arcv_2_0_3, TbarP_1, TbarP_2, TbarP_3, HT, Cbar, Crcv_0_0_1, Crcv_0_0_2, Crcv_0_0_3, Crcv_0_1_1, Crcv_0_1_2, Crcv_0_1_3, Crcv_0_2_1, Crcv_0_2_2, Crcv_0_2_3, Crcv_0_3_1, Crcv_0_3_2, Crcv_0_3_3, Crcv_1_0_1, Crcv_1_0_2, Crcv_1_0_3, Crcv_1_1_1, Crcv_1_1_2, Crcv_1_1_3, Crcv_1_2_1, Crcv_1_2_2, Crcv_1_2_3, Crcv_1_3_1, Crcv_1_3_2, Crcv_1_3_3, Crcv_2_0_1, Crcv_2_0_2, Crcv_2_0_3, S_0_0_0, S_0_0_1, S_0_0_2, S_0_0_3, S_0_1_0, S_0_1_1, S_0_1_2, S_0_1_3, S_0_2_0, S_0_2_1, S_0_2_2, S_0_2_3, S_0_3_0, S_0_3_1, S_0_3_2, S_0_3_3, S_1_0_0, S_1_0_1, S_1_0_2, S_1_0_3, S_1_1_0, S_1_1_1, S_1_1_2, S_1_1_3, S_1_2_0, S_1_2_1, S_1_2_2, S_1_2_3, S_1_3_0, S_1_3_1, S_1_3_2, S_1_3_3, RS_0_0, RS_0_1, RS_0_2, RS_0_3, RS_1_0, RS_1_1, RS_1_2, RS_1_3, G0, G1, G2, G3, G4, G5, G6, G7, HO⟩, Hk⟩
  have hled := fun (sm : SemLoc sig) (n : ℕ) (hn : n ≤ 27) (h : ∀ d : Dev nD, lv ((d : Thread nD τ), sm) () < lvLeft n) => mayWait_left_all (F := F) c sm n hn h
  sl_exec_parts
  iapply (Rounds.wp_signal 𝒱₀ ER (Rd (valF m ρ) jkF jrF) (c : Thread nD τ) none (dst := (pe c 1 : Thread nD τ)) (κ := K (barCell (pe c 1)))
      (d := (1 : Fin 4)) (by rw [duties_bar]; decide) ((amount_bar (valF m ρ) jkF jrF (pe c 1) 1).trans (by decide)) () _ rfl)
    $$ [HO TbarP_1 S_0_0_3 S_0_1_3 S_0_2_3 S_0_3_3 S_1_0_3 S_1_1_3 S_1_2_3 S_1_3_3 RS_1_3]
  · isplitr; · iexact IbarP_1
    isplitl [HO]; · iexact HO
    isplitl [TbarP_1]; · iexact TbarP_1
    isplitl [S_0_0_3 S_0_1_3 S_0_2_3 S_0_3_3 S_1_0_3 S_1_1_3 S_1_2_3 S_1_3_3 RS_1_3]
    · rw [payload_pay1]
      isplitl [S_0_0_3]; · iexists f0; iexact S_0_0_3
      isplitl [S_0_1_3]; · iexists f0; iexact S_0_1_3
      isplitl [S_0_2_3]; · iexists f0; iexact S_0_2_3
      isplitl [S_0_3_3]; · iexists f0; iexact S_0_3_3
      isplitl [S_1_0_3]; · iexists f0; iexact S_1_0_3
      isplitl [S_1_1_3]; · iexists f0; iexact S_1_1_3
      isplitl [S_1_2_3]; · iexists f0; iexact S_1_2_3
      isplitl [S_1_3_3]; · iexists f0; iexact S_1_3_3
      iexists f1; iexact RS_1_3
    iexact RbarP_1
  iintro HO
  sl_exec_parts
  iapply (Rounds.wp_signal 𝒱₀ ER (Rd (valF m ρ) jkF jrF) (c : Thread nD τ) none (dst := (pe c 2 : Thread nD τ)) (κ := K (barCell (pe c 2)))
      (d := (2 : Fin 4)) (by rw [duties_bar]; decide) ((amount_bar (valF m ρ) jkF jrF (pe c 2) 2).trans (by decide)) () _ rfl)
    $$ [HO TbarP_2 S_0_0_2 S_0_1_2 S_0_2_2 S_0_3_2 S_1_0_2 S_1_1_2 S_1_2_2 S_1_3_2 RS_1_2]
  · isplitr; · iexact IbarP_2
    isplitl [HO]; · iexact HO
    isplitl [TbarP_2]; · iexact TbarP_2
    isplitl [S_0_0_2 S_0_1_2 S_0_2_2 S_0_3_2 S_1_0_2 S_1_1_2 S_1_2_2 S_1_3_2 RS_1_2]
    · rw [payload_pay2]
      isplitl [S_0_0_2]; · iexists f0; iexact S_0_0_2
      isplitl [S_0_1_2]; · iexists f0; iexact S_0_1_2
      isplitl [S_0_2_2]; · iexists f0; iexact S_0_2_2
      isplitl [S_0_3_2]; · iexists f0; iexact S_0_3_2
      isplitl [S_1_0_2]; · iexists f0; iexact S_1_0_2
      isplitl [S_1_1_2]; · iexists f0; iexact S_1_1_2
      isplitl [S_1_2_2]; · iexists f0; iexact S_1_2_2
      isplitl [S_1_3_2]; · iexists f0; iexact S_1_3_2
      iexists f1; iexact RS_1_2
    iexact RbarP_2
  iintro HO
  sl_exec_parts
  iapply (Rounds.wp_signal 𝒱₀ ER (Rd (valF m ρ) jkF jrF) (c : Thread nD τ) none (dst := (pe c 3 : Thread nD τ)) (κ := K (barCell (pe c 3)))
      (d := (3 : Fin 4)) (by rw [duties_bar]; decide) ((amount_bar (valF m ρ) jkF jrF (pe c 3) 3).trans (by decide)) () _ rfl)
    $$ [HO TbarP_3 S_0_0_1 S_0_1_1 S_0_2_1 S_0_3_1 S_1_0_1 S_1_1_1 S_1_2_1 S_1_3_1 RS_1_1]
  · isplitr; · iexact IbarP_3
    isplitl [HO]; · iexact HO
    isplitl [TbarP_3]; · iexact TbarP_3
    isplitl [S_0_0_1 S_0_1_1 S_0_2_1 S_0_3_1 S_1_0_1 S_1_1_1 S_1_2_1 S_1_3_1 RS_1_1]
    · rw [payload_pay3]
      isplitl [S_0_0_1]; · iexists f0; iexact S_0_0_1
      isplitl [S_0_1_1]; · iexists f0; iexact S_0_1_1
      isplitl [S_0_2_1]; · iexists f0; iexact S_0_2_1
      isplitl [S_0_3_1]; · iexists f0; iexact S_0_3_1
      isplitl [S_1_0_1]; · iexists f0; iexact S_1_0_1
      isplitl [S_1_1_1]; · iexists f0; iexact S_1_1_1
      isplitl [S_1_2_1]; · iexists f0; iexact S_1_2_1
      isplitl [S_1_3_1]; · iexists f0; iexact S_1_3_1
      iexists f1; iexact RS_1_1
    iexact RbarP_3
  iintro HO
  adv
  ihave HB := (show ∀ A B C : sProp 𝕄, BI.sep A (BI.sep B C) ⊢ iprop(A ∗ B ∗ C) from fun _ _ _ => BI.Entails.refl _) _ _ _ $$ Abar_pay1
  icases HB with ⟨HB1, HB2, HB3⟩
  icases HB1 with ⟨⟨%fd_0_0_3, D_0_0_3⟩, ⟨%fd_0_1_3, D_0_1_3⟩, ⟨%fd_0_2_3, D_0_2_3⟩, ⟨%fd_0_3_3, D_0_3_3⟩, ⟨%fd_1_0_3, D_1_0_3⟩, ⟨%fd_1_1_3, D_1_1_3⟩, ⟨%fd_1_2_3, D_1_2_3⟩, ⟨%fd_1_3_3, D_1_3_3⟩, ⟨%fd_2_0_3, D_2_0_3⟩⟩
  icases HB2 with ⟨⟨%fd_0_0_2, D_0_0_2⟩, ⟨%fd_0_1_2, D_0_1_2⟩, ⟨%fd_0_2_2, D_0_2_2⟩, ⟨%fd_0_3_2, D_0_3_2⟩, ⟨%fd_1_0_2, D_1_0_2⟩, ⟨%fd_1_1_2, D_1_1_2⟩, ⟨%fd_1_2_2, D_1_2_2⟩, ⟨%fd_1_3_2, D_1_3_2⟩, ⟨%fd_2_0_2, D_2_0_2⟩⟩
  icases HB3 with ⟨⟨%fd_0_0_1, D_0_0_1⟩, ⟨%fd_0_1_1, D_0_1_1⟩, ⟨%fd_0_2_1, D_0_2_1⟩, ⟨%fd_0_3_1, D_0_3_1⟩, ⟨%fd_1_0_1, D_1_0_1⟩, ⟨%fd_1_1_1, D_1_1_1⟩, ⟨%fd_1_2_1, D_1_2_1⟩, ⟨%fd_1_3_1, D_1_3_1⟩, ⟨%fd_2_0_1, D_2_0_1⟩⟩
  -- copy 27: block (0, 0) to slot 2 of the device 2 ahead
  have hfs_0_0 := L0_0 m ρ c f0
  icases (Entails.of_eq (show toksLeft (F := F) c 27 = iprop((dutyTok ER ((c : Thread nD τ), SemLoc.dma (sndS 0 0 2 inb_S3x4x4_S1x1x1_0_0_2)) 0 (0 : Fin 4) ∗ dutyTok ER (((pe c 2) : Thread nD τ), SemLoc.dma (rcvS 0 0 2 inb_S3x4x4_S1x1x1_0_0_2)) 0 (0 : Fin 4)) ∗ toksLeft c 26) from rfl)) $$ HT with ⟨⟨Hts, Htr⟩, HT⟩
  icases (owes_congr (F := F) (show owesLeft c 27 = owesLeft c 26 + tallyAt (((pe c 2) : Thread nD τ), SemLoc.dma (rcvS 0 0 2 inb_S3x4x4_S1x1x1_0_0_2)) () N from rfl)) $$ HO with HO
  icases (share_split4 _ _).1 $$ S_0_0_0 with ⟨S_0_0_0, S_0_0_0_t0, S_0_0_0_t1, S_0_0_0_t2⟩
  iapply (wp_sendTo_0_0_2 (valF m ρ) jkF jrF K c _ (dev4_eq c) _ _ ?hfs_27 (owesLeft c 26) _) $$ [S_0_0_0_t1 D_0_0_2 HO Hts Htr]
  pick_goal 2
  · isplitr; · iexact Isnd_0_0_2
    isplitr; · iexact IrcvP_0_0_2
    isplitl [S_0_0_0_t1]; · iexact S_0_0_0_t1
    isplitl [D_0_0_2]; · iexact D_0_0_2
    isplitl [HO]; · iexact HO
    isplitl [Hts]; · iexact Hts
    isplitr; · iexact Rsnd_0_0_2
    isplitl [Htr]; · iexact Htr
    iexact RrcvP_0_0_2
  case hfs_27 => exact hfs_0_0
  iintro ⟨Csnd_0_0_2, HO⟩
  -- copy 26: block (0, 0) to slot 1 of the device 1 ahead
  adv
  icases (Entails.of_eq (show toksLeft (F := F) c 26 = iprop((dutyTok ER ((c : Thread nD τ), SemLoc.dma (sndS 0 0 1 inb_S3x4x4_S1x1x1_0_0_1)) 0 (0 : Fin 4) ∗ dutyTok ER (((pe c 1) : Thread nD τ), SemLoc.dma (rcvS 0 0 1 inb_S3x4x4_S1x1x1_0_0_1)) 0 (0 : Fin 4)) ∗ toksLeft c 25) from rfl)) $$ HT with ⟨⟨Hts, Htr⟩, HT⟩
  icases (owes_congr (F := F) (show owesLeft c 26 = owesLeft c 25 + tallyAt (((pe c 1) : Thread nD τ), SemLoc.dma (rcvS 0 0 1 inb_S3x4x4_S1x1x1_0_0_1)) () N from rfl)) $$ HO with HO
  iapply (wp_sendTo_0_0_1 (valF m ρ) jkF jrF K c _ (dev5_eq c) _ _ ?hfs_26 (owesLeft c 25) _) $$ [S_0_0_0_t0 D_0_0_1 HO Hts Htr]
  pick_goal 2
  · isplitr; · iexact Isnd_0_0_1
    isplitr; · iexact IrcvP_0_0_1
    isplitl [S_0_0_0_t0]; · iexact S_0_0_0_t0
    isplitl [D_0_0_1]; · iexact D_0_0_1
    isplitl [HO]; · iexact HO
    isplitl [Hts]; · iexact Hts
    isplitr; · iexact Rsnd_0_0_1
    isplitl [Htr]; · iexact Htr
    iexact RrcvP_0_0_1
  case hfs_26 => exact hfs_0_0
  iintro ⟨Csnd_0_0_1, HO⟩
  -- copy 25: block (0, 0) to slot 3 of the device 3 ahead
  adv
  icases (Entails.of_eq (show toksLeft (F := F) c 25 = iprop((dutyTok ER ((c : Thread nD τ), SemLoc.dma (sndS 0 0 3 inb_S3x4x4_S1x1x1_0_0_3)) 0 (0 : Fin 4) ∗ dutyTok ER (((pe c 3) : Thread nD τ), SemLoc.dma (rcvS 0 0 3 inb_S3x4x4_S1x1x1_0_0_3)) 0 (0 : Fin 4)) ∗ toksLeft c 24) from rfl)) $$ HT with ⟨⟨Hts, Htr⟩, HT⟩
  icases (owes_congr (F := F) (show owesLeft c 25 = owesLeft c 24 + tallyAt (((pe c 3) : Thread nD τ), SemLoc.dma (rcvS 0 0 3 inb_S3x4x4_S1x1x1_0_0_3)) () N from rfl)) $$ HO with HO
  iapply (wp_sendTo_0_0_3 (valF m ρ) jkF jrF K c _ (dev6_eq c) _ _ ?hfs_25 (owesLeft c 24) _) $$ [S_0_0_0_t2 D_0_0_3 HO Hts Htr]
  pick_goal 2
  · isplitr; · iexact Isnd_0_0_3
    isplitr; · iexact IrcvP_0_0_3
    isplitl [S_0_0_0_t2]; · iexact S_0_0_0_t2
    isplitl [D_0_0_3]; · iexact D_0_0_3
    isplitl [HO]; · iexact HO
    isplitl [Hts]; · iexact Hts
    isplitr; · iexact Rsnd_0_0_3
    isplitl [Htr]; · iexact Htr
    iexact RrcvP_0_0_3
  case hfs_25 => exact hfs_0_0
  iintro ⟨Csnd_0_0_3, HO⟩
  -- copy 24: block (0, 1) to slot 2 of the device 2 ahead
  adv
  have hfs_0_1 := L0_1 m ρ c f0
  icases (Entails.of_eq (show toksLeft (F := F) c 24 = iprop((dutyTok ER ((c : Thread nD τ), SemLoc.dma (sndS 0 1 2 inb_S3x4x4_S1x1x1_0_1_2)) 0 (0 : Fin 4) ∗ dutyTok ER (((pe c 2) : Thread nD τ), SemLoc.dma (rcvS 0 1 2 inb_S3x4x4_S1x1x1_0_1_2)) 0 (0 : Fin 4)) ∗ toksLeft c 23) from rfl)) $$ HT with ⟨⟨Hts, Htr⟩, HT⟩
  icases (owes_congr (F := F) (show owesLeft c 24 = owesLeft c 23 + tallyAt (((pe c 2) : Thread nD τ), SemLoc.dma (rcvS 0 1 2 inb_S3x4x4_S1x1x1_0_1_2)) () N from rfl)) $$ HO with HO
  icases (share_split4 _ _).1 $$ S_0_1_0 with ⟨S_0_1_0, S_0_1_0_t0, S_0_1_0_t1, S_0_1_0_t2⟩
  iapply (wp_sendTo_0_1_2 (valF m ρ) jkF jrF K c _ (dev7_eq c) _ _ ?hfs_24 (owesLeft c 23) _) $$ [S_0_1_0_t1 D_0_1_2 HO Hts Htr]
  pick_goal 2
  · isplitr; · iexact Isnd_0_1_2
    isplitr; · iexact IrcvP_0_1_2
    isplitl [S_0_1_0_t1]; · iexact S_0_1_0_t1
    isplitl [D_0_1_2]; · iexact D_0_1_2
    isplitl [HO]; · iexact HO
    isplitl [Hts]; · iexact Hts
    isplitr; · iexact Rsnd_0_1_2
    isplitl [Htr]; · iexact Htr
    iexact RrcvP_0_1_2
  case hfs_24 => exact hfs_0_1
  iintro ⟨Csnd_0_1_2, HO⟩
  -- copy 23: block (0, 1) to slot 1 of the device 1 ahead
  adv
  icases (Entails.of_eq (show toksLeft (F := F) c 23 = iprop((dutyTok ER ((c : Thread nD τ), SemLoc.dma (sndS 0 1 1 inb_S3x4x4_S1x1x1_0_1_1)) 0 (0 : Fin 4) ∗ dutyTok ER (((pe c 1) : Thread nD τ), SemLoc.dma (rcvS 0 1 1 inb_S3x4x4_S1x1x1_0_1_1)) 0 (0 : Fin 4)) ∗ toksLeft c 22) from rfl)) $$ HT with ⟨⟨Hts, Htr⟩, HT⟩
  icases (owes_congr (F := F) (show owesLeft c 23 = owesLeft c 22 + tallyAt (((pe c 1) : Thread nD τ), SemLoc.dma (rcvS 0 1 1 inb_S3x4x4_S1x1x1_0_1_1)) () N from rfl)) $$ HO with HO
  iapply (wp_sendTo_0_1_1 (valF m ρ) jkF jrF K c _ (dev8_eq c) _ _ ?hfs_23 (owesLeft c 22) _) $$ [S_0_1_0_t0 D_0_1_1 HO Hts Htr]
  pick_goal 2
  · isplitr; · iexact Isnd_0_1_1
    isplitr; · iexact IrcvP_0_1_1
    isplitl [S_0_1_0_t0]; · iexact S_0_1_0_t0
    isplitl [D_0_1_1]; · iexact D_0_1_1
    isplitl [HO]; · iexact HO
    isplitl [Hts]; · iexact Hts
    isplitr; · iexact Rsnd_0_1_1
    isplitl [Htr]; · iexact Htr
    iexact RrcvP_0_1_1
  case hfs_23 => exact hfs_0_1
  iintro ⟨Csnd_0_1_1, HO⟩
  -- copy 22: block (0, 1) to slot 3 of the device 3 ahead
  adv
  icases (Entails.of_eq (show toksLeft (F := F) c 22 = iprop((dutyTok ER ((c : Thread nD τ), SemLoc.dma (sndS 0 1 3 inb_S3x4x4_S1x1x1_0_1_3)) 0 (0 : Fin 4) ∗ dutyTok ER (((pe c 3) : Thread nD τ), SemLoc.dma (rcvS 0 1 3 inb_S3x4x4_S1x1x1_0_1_3)) 0 (0 : Fin 4)) ∗ toksLeft c 21) from rfl)) $$ HT with ⟨⟨Hts, Htr⟩, HT⟩
  icases (owes_congr (F := F) (show owesLeft c 22 = owesLeft c 21 + tallyAt (((pe c 3) : Thread nD τ), SemLoc.dma (rcvS 0 1 3 inb_S3x4x4_S1x1x1_0_1_3)) () N from rfl)) $$ HO with HO
  iapply (wp_sendTo_0_1_3 (valF m ρ) jkF jrF K c _ (dev9_eq c) _ _ ?hfs_22 (owesLeft c 21) _) $$ [S_0_1_0_t2 D_0_1_3 HO Hts Htr]
  pick_goal 2
  · isplitr; · iexact Isnd_0_1_3
    isplitr; · iexact IrcvP_0_1_3
    isplitl [S_0_1_0_t2]; · iexact S_0_1_0_t2
    isplitl [D_0_1_3]; · iexact D_0_1_3
    isplitl [HO]; · iexact HO
    isplitl [Hts]; · iexact Hts
    isplitr; · iexact Rsnd_0_1_3
    isplitl [Htr]; · iexact Htr
    iexact RrcvP_0_1_3
  case hfs_22 => exact hfs_0_1
  iintro ⟨Csnd_0_1_3, HO⟩
  -- copy 21: block (0, 2) to slot 2 of the device 2 ahead
  adv
  have hfs_0_2 := L0_2 m ρ c f0
  icases (Entails.of_eq (show toksLeft (F := F) c 21 = iprop((dutyTok ER ((c : Thread nD τ), SemLoc.dma (sndS 0 2 2 inb_S3x4x4_S1x1x1_0_2_2)) 0 (0 : Fin 4) ∗ dutyTok ER (((pe c 2) : Thread nD τ), SemLoc.dma (rcvS 0 2 2 inb_S3x4x4_S1x1x1_0_2_2)) 0 (0 : Fin 4)) ∗ toksLeft c 20) from rfl)) $$ HT with ⟨⟨Hts, Htr⟩, HT⟩
  icases (owes_congr (F := F) (show owesLeft c 21 = owesLeft c 20 + tallyAt (((pe c 2) : Thread nD τ), SemLoc.dma (rcvS 0 2 2 inb_S3x4x4_S1x1x1_0_2_2)) () N from rfl)) $$ HO with HO
  icases (share_split4 _ _).1 $$ S_0_2_0 with ⟨S_0_2_0, S_0_2_0_t0, S_0_2_0_t1, S_0_2_0_t2⟩
  iapply (wp_sendTo_0_2_2 (valF m ρ) jkF jrF K c _ (dev10_eq c) _ _ ?hfs_21 (owesLeft c 20) _) $$ [S_0_2_0_t1 D_0_2_2 HO Hts Htr]
  pick_goal 2
  · isplitr; · iexact Isnd_0_2_2
    isplitr; · iexact IrcvP_0_2_2
    isplitl [S_0_2_0_t1]; · iexact S_0_2_0_t1
    isplitl [D_0_2_2]; · iexact D_0_2_2
    isplitl [HO]; · iexact HO
    isplitl [Hts]; · iexact Hts
    isplitr; · iexact Rsnd_0_2_2
    isplitl [Htr]; · iexact Htr
    iexact RrcvP_0_2_2
  case hfs_21 => exact hfs_0_2
  iintro ⟨Csnd_0_2_2, HO⟩
  -- copy 20: block (0, 2) to slot 1 of the device 1 ahead
  adv
  icases (Entails.of_eq (show toksLeft (F := F) c 20 = iprop((dutyTok ER ((c : Thread nD τ), SemLoc.dma (sndS 0 2 1 inb_S3x4x4_S1x1x1_0_2_1)) 0 (0 : Fin 4) ∗ dutyTok ER (((pe c 1) : Thread nD τ), SemLoc.dma (rcvS 0 2 1 inb_S3x4x4_S1x1x1_0_2_1)) 0 (0 : Fin 4)) ∗ toksLeft c 19) from rfl)) $$ HT with ⟨⟨Hts, Htr⟩, HT⟩
  icases (owes_congr (F := F) (show owesLeft c 20 = owesLeft c 19 + tallyAt (((pe c 1) : Thread nD τ), SemLoc.dma (rcvS 0 2 1 inb_S3x4x4_S1x1x1_0_2_1)) () N from rfl)) $$ HO with HO
  iapply (wp_sendTo_0_2_1 (valF m ρ) jkF jrF K c _ (dev11_eq c) _ _ ?hfs_20 (owesLeft c 19) _) $$ [S_0_2_0_t0 D_0_2_1 HO Hts Htr]
  pick_goal 2
  · isplitr; · iexact Isnd_0_2_1
    isplitr; · iexact IrcvP_0_2_1
    isplitl [S_0_2_0_t0]; · iexact S_0_2_0_t0
    isplitl [D_0_2_1]; · iexact D_0_2_1
    isplitl [HO]; · iexact HO
    isplitl [Hts]; · iexact Hts
    isplitr; · iexact Rsnd_0_2_1
    isplitl [Htr]; · iexact Htr
    iexact RrcvP_0_2_1
  case hfs_20 => exact hfs_0_2
  iintro ⟨Csnd_0_2_1, HO⟩
  -- copy 19: block (0, 2) to slot 3 of the device 3 ahead
  adv
  icases (Entails.of_eq (show toksLeft (F := F) c 19 = iprop((dutyTok ER ((c : Thread nD τ), SemLoc.dma (sndS 0 2 3 inb_S3x4x4_S1x1x1_0_2_3)) 0 (0 : Fin 4) ∗ dutyTok ER (((pe c 3) : Thread nD τ), SemLoc.dma (rcvS 0 2 3 inb_S3x4x4_S1x1x1_0_2_3)) 0 (0 : Fin 4)) ∗ toksLeft c 18) from rfl)) $$ HT with ⟨⟨Hts, Htr⟩, HT⟩
  icases (owes_congr (F := F) (show owesLeft c 19 = owesLeft c 18 + tallyAt (((pe c 3) : Thread nD τ), SemLoc.dma (rcvS 0 2 3 inb_S3x4x4_S1x1x1_0_2_3)) () N from rfl)) $$ HO with HO
  iapply (wp_sendTo_0_2_3 (valF m ρ) jkF jrF K c _ (dev12_eq c) _ _ ?hfs_19 (owesLeft c 18) _) $$ [S_0_2_0_t2 D_0_2_3 HO Hts Htr]
  pick_goal 2
  · isplitr; · iexact Isnd_0_2_3
    isplitr; · iexact IrcvP_0_2_3
    isplitl [S_0_2_0_t2]; · iexact S_0_2_0_t2
    isplitl [D_0_2_3]; · iexact D_0_2_3
    isplitl [HO]; · iexact HO
    isplitl [Hts]; · iexact Hts
    isplitr; · iexact Rsnd_0_2_3
    isplitl [Htr]; · iexact Htr
    iexact RrcvP_0_2_3
  case hfs_19 => exact hfs_0_2
  iintro ⟨Csnd_0_2_3, HO⟩
  -- copy 18: block (0, 3) to slot 2 of the device 2 ahead
  adv
  have hfs_0_3 := L0_3 m ρ c f0
  icases (Entails.of_eq (show toksLeft (F := F) c 18 = iprop((dutyTok ER ((c : Thread nD τ), SemLoc.dma (sndS 0 3 2 inb_S3x4x4_S1x1x1_0_3_2)) 0 (0 : Fin 4) ∗ dutyTok ER (((pe c 2) : Thread nD τ), SemLoc.dma (rcvS 0 3 2 inb_S3x4x4_S1x1x1_0_3_2)) 0 (0 : Fin 4)) ∗ toksLeft c 17) from rfl)) $$ HT with ⟨⟨Hts, Htr⟩, HT⟩
  icases (owes_congr (F := F) (show owesLeft c 18 = owesLeft c 17 + tallyAt (((pe c 2) : Thread nD τ), SemLoc.dma (rcvS 0 3 2 inb_S3x4x4_S1x1x1_0_3_2)) () N from rfl)) $$ HO with HO
  icases (share_split4 _ _).1 $$ S_0_3_0 with ⟨S_0_3_0, S_0_3_0_t0, S_0_3_0_t1, S_0_3_0_t2⟩
  iapply (wp_sendTo_0_3_2 (valF m ρ) jkF jrF K c _ (dev13_eq c) _ _ ?hfs_18 (owesLeft c 17) _) $$ [S_0_3_0_t1 D_0_3_2 HO Hts Htr]
  pick_goal 2
  · isplitr; · iexact Isnd_0_3_2
    isplitr; · iexact IrcvP_0_3_2
    isplitl [S_0_3_0_t1]; · iexact S_0_3_0_t1
    isplitl [D_0_3_2]; · iexact D_0_3_2
    isplitl [HO]; · iexact HO
    isplitl [Hts]; · iexact Hts
    isplitr; · iexact Rsnd_0_3_2
    isplitl [Htr]; · iexact Htr
    iexact RrcvP_0_3_2
  case hfs_18 => exact hfs_0_3
  iintro ⟨Csnd_0_3_2, HO⟩
  -- copy 17: block (0, 3) to slot 1 of the device 1 ahead
  adv
  icases (Entails.of_eq (show toksLeft (F := F) c 17 = iprop((dutyTok ER ((c : Thread nD τ), SemLoc.dma (sndS 0 3 1 inb_S3x4x4_S1x1x1_0_3_1)) 0 (0 : Fin 4) ∗ dutyTok ER (((pe c 1) : Thread nD τ), SemLoc.dma (rcvS 0 3 1 inb_S3x4x4_S1x1x1_0_3_1)) 0 (0 : Fin 4)) ∗ toksLeft c 16) from rfl)) $$ HT with ⟨⟨Hts, Htr⟩, HT⟩
  icases (owes_congr (F := F) (show owesLeft c 17 = owesLeft c 16 + tallyAt (((pe c 1) : Thread nD τ), SemLoc.dma (rcvS 0 3 1 inb_S3x4x4_S1x1x1_0_3_1)) () N from rfl)) $$ HO with HO
  iapply (wp_sendTo_0_3_1 (valF m ρ) jkF jrF K c _ (dev14_eq c) _ _ ?hfs_17 (owesLeft c 16) _) $$ [S_0_3_0_t0 D_0_3_1 HO Hts Htr]
  pick_goal 2
  · isplitr; · iexact Isnd_0_3_1
    isplitr; · iexact IrcvP_0_3_1
    isplitl [S_0_3_0_t0]; · iexact S_0_3_0_t0
    isplitl [D_0_3_1]; · iexact D_0_3_1
    isplitl [HO]; · iexact HO
    isplitl [Hts]; · iexact Hts
    isplitr; · iexact Rsnd_0_3_1
    isplitl [Htr]; · iexact Htr
    iexact RrcvP_0_3_1
  case hfs_17 => exact hfs_0_3
  iintro ⟨Csnd_0_3_1, HO⟩
  -- copy 16: block (0, 3) to slot 3 of the device 3 ahead
  adv
  icases (Entails.of_eq (show toksLeft (F := F) c 16 = iprop((dutyTok ER ((c : Thread nD τ), SemLoc.dma (sndS 0 3 3 inb_S3x4x4_S1x1x1_0_3_3)) 0 (0 : Fin 4) ∗ dutyTok ER (((pe c 3) : Thread nD τ), SemLoc.dma (rcvS 0 3 3 inb_S3x4x4_S1x1x1_0_3_3)) 0 (0 : Fin 4)) ∗ toksLeft c 15) from rfl)) $$ HT with ⟨⟨Hts, Htr⟩, HT⟩
  icases (owes_congr (F := F) (show owesLeft c 16 = owesLeft c 15 + tallyAt (((pe c 3) : Thread nD τ), SemLoc.dma (rcvS 0 3 3 inb_S3x4x4_S1x1x1_0_3_3)) () N from rfl)) $$ HO with HO
  iapply (wp_sendTo_0_3_3 (valF m ρ) jkF jrF K c _ (dev15_eq c) _ _ ?hfs_16 (owesLeft c 15) _) $$ [S_0_3_0_t2 D_0_3_3 HO Hts Htr]
  pick_goal 2
  · isplitr; · iexact Isnd_0_3_3
    isplitr; · iexact IrcvP_0_3_3
    isplitl [S_0_3_0_t2]; · iexact S_0_3_0_t2
    isplitl [D_0_3_3]; · iexact D_0_3_3
    isplitl [HO]; · iexact HO
    isplitl [Hts]; · iexact Hts
    isplitr; · iexact Rsnd_0_3_3
    isplitl [Htr]; · iexact Htr
    iexact RrcvP_0_3_3
  case hfs_16 => exact hfs_0_3
  iintro ⟨Csnd_0_3_3, HO⟩
  -- copy 15: block (1, 0) to slot 2 of the device 2 ahead
  adv
  have hfs_1_0 := L1d_0 m ρ c f0
  icases (Entails.of_eq (show toksLeft (F := F) c 15 = iprop((dutyTok ER ((c : Thread nD τ), SemLoc.dma (sndS 1 0 2 inb_S3x4x4_S1x1x1_1_0_2)) 0 (0 : Fin 4) ∗ dutyTok ER (((pe c 2) : Thread nD τ), SemLoc.dma (rcvS 1 0 2 inb_S3x4x4_S1x1x1_1_0_2)) 0 (0 : Fin 4)) ∗ toksLeft c 14) from rfl)) $$ HT with ⟨⟨Hts, Htr⟩, HT⟩
  icases (owes_congr (F := F) (show owesLeft c 15 = owesLeft c 14 + tallyAt (((pe c 2) : Thread nD τ), SemLoc.dma (rcvS 1 0 2 inb_S3x4x4_S1x1x1_1_0_2)) () N from rfl)) $$ HO with HO
  icases (share_split4 _ _).1 $$ S_1_0_0 with ⟨S_1_0_0, S_1_0_0_t0, S_1_0_0_t1, S_1_0_0_t2⟩
  iapply (wp_sendTo_1_0_2 (valF m ρ) jkF jrF K c _ (dev16_eq c) _ _ ?hfs_15 (owesLeft c 14) _) $$ [S_1_0_0_t1 D_1_0_2 HO Hts Htr]
  pick_goal 2
  · isplitr; · iexact Isnd_1_0_2
    isplitr; · iexact IrcvP_1_0_2
    isplitl [S_1_0_0_t1]; · iexact S_1_0_0_t1
    isplitl [D_1_0_2]; · iexact D_1_0_2
    isplitl [HO]; · iexact HO
    isplitl [Hts]; · iexact Hts
    isplitr; · iexact Rsnd_1_0_2
    isplitl [Htr]; · iexact Htr
    iexact RrcvP_1_0_2
  case hfs_15 => exact hfs_1_0
  iintro ⟨Csnd_1_0_2, HO⟩
  -- copy 14: block (1, 0) to slot 1 of the device 1 ahead
  adv
  icases (Entails.of_eq (show toksLeft (F := F) c 14 = iprop((dutyTok ER ((c : Thread nD τ), SemLoc.dma (sndS 1 0 1 inb_S3x4x4_S1x1x1_1_0_1)) 0 (0 : Fin 4) ∗ dutyTok ER (((pe c 1) : Thread nD τ), SemLoc.dma (rcvS 1 0 1 inb_S3x4x4_S1x1x1_1_0_1)) 0 (0 : Fin 4)) ∗ toksLeft c 13) from rfl)) $$ HT with ⟨⟨Hts, Htr⟩, HT⟩
  icases (owes_congr (F := F) (show owesLeft c 14 = owesLeft c 13 + tallyAt (((pe c 1) : Thread nD τ), SemLoc.dma (rcvS 1 0 1 inb_S3x4x4_S1x1x1_1_0_1)) () N from rfl)) $$ HO with HO
  iapply (wp_sendTo_1_0_1 (valF m ρ) jkF jrF K c _ (dev17_eq c) _ _ ?hfs_14 (owesLeft c 13) _) $$ [S_1_0_0_t0 D_1_0_1 HO Hts Htr]
  pick_goal 2
  · isplitr; · iexact Isnd_1_0_1
    isplitr; · iexact IrcvP_1_0_1
    isplitl [S_1_0_0_t0]; · iexact S_1_0_0_t0
    isplitl [D_1_0_1]; · iexact D_1_0_1
    isplitl [HO]; · iexact HO
    isplitl [Hts]; · iexact Hts
    isplitr; · iexact Rsnd_1_0_1
    isplitl [Htr]; · iexact Htr
    iexact RrcvP_1_0_1
  case hfs_14 => exact hfs_1_0
  iintro ⟨Csnd_1_0_1, HO⟩
  -- copy 13: block (1, 0) to slot 3 of the device 3 ahead
  adv
  icases (Entails.of_eq (show toksLeft (F := F) c 13 = iprop((dutyTok ER ((c : Thread nD τ), SemLoc.dma (sndS 1 0 3 inb_S3x4x4_S1x1x1_1_0_3)) 0 (0 : Fin 4) ∗ dutyTok ER (((pe c 3) : Thread nD τ), SemLoc.dma (rcvS 1 0 3 inb_S3x4x4_S1x1x1_1_0_3)) 0 (0 : Fin 4)) ∗ toksLeft c 12) from rfl)) $$ HT with ⟨⟨Hts, Htr⟩, HT⟩
  icases (owes_congr (F := F) (show owesLeft c 13 = owesLeft c 12 + tallyAt (((pe c 3) : Thread nD τ), SemLoc.dma (rcvS 1 0 3 inb_S3x4x4_S1x1x1_1_0_3)) () N from rfl)) $$ HO with HO
  iapply (wp_sendTo_1_0_3 (valF m ρ) jkF jrF K c _ (dev18_eq c) _ _ ?hfs_13 (owesLeft c 12) _) $$ [S_1_0_0_t2 D_1_0_3 HO Hts Htr]
  pick_goal 2
  · isplitr; · iexact Isnd_1_0_3
    isplitr; · iexact IrcvP_1_0_3
    isplitl [S_1_0_0_t2]; · iexact S_1_0_0_t2
    isplitl [D_1_0_3]; · iexact D_1_0_3
    isplitl [HO]; · iexact HO
    isplitl [Hts]; · iexact Hts
    isplitr; · iexact Rsnd_1_0_3
    isplitl [Htr]; · iexact Htr
    iexact RrcvP_1_0_3
  case hfs_13 => exact hfs_1_0
  iintro ⟨Csnd_1_0_3, HO⟩
  -- copy 12: block (1, 1) to slot 2 of the device 2 ahead
  adv
  have hfs_1_1 := L1d_1 m ρ c f0
  icases (Entails.of_eq (show toksLeft (F := F) c 12 = iprop((dutyTok ER ((c : Thread nD τ), SemLoc.dma (sndS 1 1 2 inb_S3x4x4_S1x1x1_1_1_2)) 0 (0 : Fin 4) ∗ dutyTok ER (((pe c 2) : Thread nD τ), SemLoc.dma (rcvS 1 1 2 inb_S3x4x4_S1x1x1_1_1_2)) 0 (0 : Fin 4)) ∗ toksLeft c 11) from rfl)) $$ HT with ⟨⟨Hts, Htr⟩, HT⟩
  icases (owes_congr (F := F) (show owesLeft c 12 = owesLeft c 11 + tallyAt (((pe c 2) : Thread nD τ), SemLoc.dma (rcvS 1 1 2 inb_S3x4x4_S1x1x1_1_1_2)) () N from rfl)) $$ HO with HO
  icases (share_split4 _ _).1 $$ S_1_1_0 with ⟨S_1_1_0, S_1_1_0_t0, S_1_1_0_t1, S_1_1_0_t2⟩
  iapply (wp_sendTo_1_1_2 (valF m ρ) jkF jrF K c _ (dev19_eq c) _ _ ?hfs_12 (owesLeft c 11) _) $$ [S_1_1_0_t1 D_1_1_2 HO Hts Htr]
  pick_goal 2
  · isplitr; · iexact Isnd_1_1_2
    isplitr; · iexact IrcvP_1_1_2
    isplitl [S_1_1_0_t1]; · iexact S_1_1_0_t1
    isplitl [D_1_1_2]; · iexact D_1_1_2
    isplitl [HO]; · iexact HO
    isplitl [Hts]; · iexact Hts
    isplitr; · iexact Rsnd_1_1_2
    isplitl [Htr]; · iexact Htr
    iexact RrcvP_1_1_2
  case hfs_12 => exact hfs_1_1
  iintro ⟨Csnd_1_1_2, HO⟩
  -- copy 11: block (1, 1) to slot 1 of the device 1 ahead
  adv
  icases (Entails.of_eq (show toksLeft (F := F) c 11 = iprop((dutyTok ER ((c : Thread nD τ), SemLoc.dma (sndS 1 1 1 inb_S3x4x4_S1x1x1_1_1_1)) 0 (0 : Fin 4) ∗ dutyTok ER (((pe c 1) : Thread nD τ), SemLoc.dma (rcvS 1 1 1 inb_S3x4x4_S1x1x1_1_1_1)) 0 (0 : Fin 4)) ∗ toksLeft c 10) from rfl)) $$ HT with ⟨⟨Hts, Htr⟩, HT⟩
  icases (owes_congr (F := F) (show owesLeft c 11 = owesLeft c 10 + tallyAt (((pe c 1) : Thread nD τ), SemLoc.dma (rcvS 1 1 1 inb_S3x4x4_S1x1x1_1_1_1)) () N from rfl)) $$ HO with HO
  iapply (wp_sendTo_1_1_1 (valF m ρ) jkF jrF K c _ (dev20_eq c) _ _ ?hfs_11 (owesLeft c 10) _) $$ [S_1_1_0_t0 D_1_1_1 HO Hts Htr]
  pick_goal 2
  · isplitr; · iexact Isnd_1_1_1
    isplitr; · iexact IrcvP_1_1_1
    isplitl [S_1_1_0_t0]; · iexact S_1_1_0_t0
    isplitl [D_1_1_1]; · iexact D_1_1_1
    isplitl [HO]; · iexact HO
    isplitl [Hts]; · iexact Hts
    isplitr; · iexact Rsnd_1_1_1
    isplitl [Htr]; · iexact Htr
    iexact RrcvP_1_1_1
  case hfs_11 => exact hfs_1_1
  iintro ⟨Csnd_1_1_1, HO⟩
  -- copy 10: block (1, 1) to slot 3 of the device 3 ahead
  adv
  icases (Entails.of_eq (show toksLeft (F := F) c 10 = iprop((dutyTok ER ((c : Thread nD τ), SemLoc.dma (sndS 1 1 3 inb_S3x4x4_S1x1x1_1_1_3)) 0 (0 : Fin 4) ∗ dutyTok ER (((pe c 3) : Thread nD τ), SemLoc.dma (rcvS 1 1 3 inb_S3x4x4_S1x1x1_1_1_3)) 0 (0 : Fin 4)) ∗ toksLeft c 9) from rfl)) $$ HT with ⟨⟨Hts, Htr⟩, HT⟩
  icases (owes_congr (F := F) (show owesLeft c 10 = owesLeft c 9 + tallyAt (((pe c 3) : Thread nD τ), SemLoc.dma (rcvS 1 1 3 inb_S3x4x4_S1x1x1_1_1_3)) () N from rfl)) $$ HO with HO
  iapply (wp_sendTo_1_1_3 (valF m ρ) jkF jrF K c _ (dev21_eq c) _ _ ?hfs_10 (owesLeft c 9) _) $$ [S_1_1_0_t2 D_1_1_3 HO Hts Htr]
  pick_goal 2
  · isplitr; · iexact Isnd_1_1_3
    isplitr; · iexact IrcvP_1_1_3
    isplitl [S_1_1_0_t2]; · iexact S_1_1_0_t2
    isplitl [D_1_1_3]; · iexact D_1_1_3
    isplitl [HO]; · iexact HO
    isplitl [Hts]; · iexact Hts
    isplitr; · iexact Rsnd_1_1_3
    isplitl [Htr]; · iexact Htr
    iexact RrcvP_1_1_3
  case hfs_10 => exact hfs_1_1
  iintro ⟨Csnd_1_1_3, HO⟩
  -- copy 9: block (1, 2) to slot 2 of the device 2 ahead
  adv
  have hfs_1_2 := L1d_2 m ρ c f0
  icases (Entails.of_eq (show toksLeft (F := F) c 9 = iprop((dutyTok ER ((c : Thread nD τ), SemLoc.dma (sndS 1 2 2 inb_S3x4x4_S1x1x1_1_2_2)) 0 (0 : Fin 4) ∗ dutyTok ER (((pe c 2) : Thread nD τ), SemLoc.dma (rcvS 1 2 2 inb_S3x4x4_S1x1x1_1_2_2)) 0 (0 : Fin 4)) ∗ toksLeft c 8) from rfl)) $$ HT with ⟨⟨Hts, Htr⟩, HT⟩
  icases (owes_congr (F := F) (show owesLeft c 9 = owesLeft c 8 + tallyAt (((pe c 2) : Thread nD τ), SemLoc.dma (rcvS 1 2 2 inb_S3x4x4_S1x1x1_1_2_2)) () N from rfl)) $$ HO with HO
  icases (share_split4 _ _).1 $$ S_1_2_0 with ⟨S_1_2_0, S_1_2_0_t0, S_1_2_0_t1, S_1_2_0_t2⟩
  iapply (wp_sendTo_1_2_2 (valF m ρ) jkF jrF K c _ (dev22_eq c) _ _ ?hfs_9 (owesLeft c 8) _) $$ [S_1_2_0_t1 D_1_2_2 HO Hts Htr]
  pick_goal 2
  · isplitr; · iexact Isnd_1_2_2
    isplitr; · iexact IrcvP_1_2_2
    isplitl [S_1_2_0_t1]; · iexact S_1_2_0_t1
    isplitl [D_1_2_2]; · iexact D_1_2_2
    isplitl [HO]; · iexact HO
    isplitl [Hts]; · iexact Hts
    isplitr; · iexact Rsnd_1_2_2
    isplitl [Htr]; · iexact Htr
    iexact RrcvP_1_2_2
  case hfs_9 => exact hfs_1_2
  iintro ⟨Csnd_1_2_2, HO⟩
  -- copy 8: block (1, 2) to slot 1 of the device 1 ahead
  adv
  icases (Entails.of_eq (show toksLeft (F := F) c 8 = iprop((dutyTok ER ((c : Thread nD τ), SemLoc.dma (sndS 1 2 1 inb_S3x4x4_S1x1x1_1_2_1)) 0 (0 : Fin 4) ∗ dutyTok ER (((pe c 1) : Thread nD τ), SemLoc.dma (rcvS 1 2 1 inb_S3x4x4_S1x1x1_1_2_1)) 0 (0 : Fin 4)) ∗ toksLeft c 7) from rfl)) $$ HT with ⟨⟨Hts, Htr⟩, HT⟩
  icases (owes_congr (F := F) (show owesLeft c 8 = owesLeft c 7 + tallyAt (((pe c 1) : Thread nD τ), SemLoc.dma (rcvS 1 2 1 inb_S3x4x4_S1x1x1_1_2_1)) () N from rfl)) $$ HO with HO
  iapply (wp_sendTo_1_2_1 (valF m ρ) jkF jrF K c _ (dev23_eq c) _ _ ?hfs_8 (owesLeft c 7) _) $$ [S_1_2_0_t0 D_1_2_1 HO Hts Htr]
  pick_goal 2
  · isplitr; · iexact Isnd_1_2_1
    isplitr; · iexact IrcvP_1_2_1
    isplitl [S_1_2_0_t0]; · iexact S_1_2_0_t0
    isplitl [D_1_2_1]; · iexact D_1_2_1
    isplitl [HO]; · iexact HO
    isplitl [Hts]; · iexact Hts
    isplitr; · iexact Rsnd_1_2_1
    isplitl [Htr]; · iexact Htr
    iexact RrcvP_1_2_1
  case hfs_8 => exact hfs_1_2
  iintro ⟨Csnd_1_2_1, HO⟩
  -- copy 7: block (1, 2) to slot 3 of the device 3 ahead
  adv
  icases (Entails.of_eq (show toksLeft (F := F) c 7 = iprop((dutyTok ER ((c : Thread nD τ), SemLoc.dma (sndS 1 2 3 inb_S3x4x4_S1x1x1_1_2_3)) 0 (0 : Fin 4) ∗ dutyTok ER (((pe c 3) : Thread nD τ), SemLoc.dma (rcvS 1 2 3 inb_S3x4x4_S1x1x1_1_2_3)) 0 (0 : Fin 4)) ∗ toksLeft c 6) from rfl)) $$ HT with ⟨⟨Hts, Htr⟩, HT⟩
  icases (owes_congr (F := F) (show owesLeft c 7 = owesLeft c 6 + tallyAt (((pe c 3) : Thread nD τ), SemLoc.dma (rcvS 1 2 3 inb_S3x4x4_S1x1x1_1_2_3)) () N from rfl)) $$ HO with HO
  iapply (wp_sendTo_1_2_3 (valF m ρ) jkF jrF K c _ (dev24_eq c) _ _ ?hfs_7 (owesLeft c 6) _) $$ [S_1_2_0_t2 D_1_2_3 HO Hts Htr]
  pick_goal 2
  · isplitr; · iexact Isnd_1_2_3
    isplitr; · iexact IrcvP_1_2_3
    isplitl [S_1_2_0_t2]; · iexact S_1_2_0_t2
    isplitl [D_1_2_3]; · iexact D_1_2_3
    isplitl [HO]; · iexact HO
    isplitl [Hts]; · iexact Hts
    isplitr; · iexact Rsnd_1_2_3
    isplitl [Htr]; · iexact Htr
    iexact RrcvP_1_2_3
  case hfs_7 => exact hfs_1_2
  iintro ⟨Csnd_1_2_3, HO⟩
  -- copy 6: block (1, 3) to slot 2 of the device 2 ahead
  adv
  have hfs_1_3 := L1d_3 m ρ c f0
  icases (Entails.of_eq (show toksLeft (F := F) c 6 = iprop((dutyTok ER ((c : Thread nD τ), SemLoc.dma (sndS 1 3 2 inb_S3x4x4_S1x1x1_1_3_2)) 0 (0 : Fin 4) ∗ dutyTok ER (((pe c 2) : Thread nD τ), SemLoc.dma (rcvS 1 3 2 inb_S3x4x4_S1x1x1_1_3_2)) 0 (0 : Fin 4)) ∗ toksLeft c 5) from rfl)) $$ HT with ⟨⟨Hts, Htr⟩, HT⟩
  icases (owes_congr (F := F) (show owesLeft c 6 = owesLeft c 5 + tallyAt (((pe c 2) : Thread nD τ), SemLoc.dma (rcvS 1 3 2 inb_S3x4x4_S1x1x1_1_3_2)) () N from rfl)) $$ HO with HO
  icases (share_split4 _ _).1 $$ S_1_3_0 with ⟨S_1_3_0, S_1_3_0_t0, S_1_3_0_t1, S_1_3_0_t2⟩
  iapply (wp_sendTo_1_3_2 (valF m ρ) jkF jrF K c _ (dev25_eq c) _ _ ?hfs_6 (owesLeft c 5) _) $$ [S_1_3_0_t1 D_1_3_2 HO Hts Htr]
  pick_goal 2
  · isplitr; · iexact Isnd_1_3_2
    isplitr; · iexact IrcvP_1_3_2
    isplitl [S_1_3_0_t1]; · iexact S_1_3_0_t1
    isplitl [D_1_3_2]; · iexact D_1_3_2
    isplitl [HO]; · iexact HO
    isplitl [Hts]; · iexact Hts
    isplitr; · iexact Rsnd_1_3_2
    isplitl [Htr]; · iexact Htr
    iexact RrcvP_1_3_2
  case hfs_6 => exact hfs_1_3
  iintro ⟨Csnd_1_3_2, HO⟩
  -- copy 5: block (1, 3) to slot 1 of the device 1 ahead
  adv
  icases (Entails.of_eq (show toksLeft (F := F) c 5 = iprop((dutyTok ER ((c : Thread nD τ), SemLoc.dma (sndS 1 3 1 inb_S3x4x4_S1x1x1_1_3_1)) 0 (0 : Fin 4) ∗ dutyTok ER (((pe c 1) : Thread nD τ), SemLoc.dma (rcvS 1 3 1 inb_S3x4x4_S1x1x1_1_3_1)) 0 (0 : Fin 4)) ∗ toksLeft c 4) from rfl)) $$ HT with ⟨⟨Hts, Htr⟩, HT⟩
  icases (owes_congr (F := F) (show owesLeft c 5 = owesLeft c 4 + tallyAt (((pe c 1) : Thread nD τ), SemLoc.dma (rcvS 1 3 1 inb_S3x4x4_S1x1x1_1_3_1)) () N from rfl)) $$ HO with HO
  iapply (wp_sendTo_1_3_1 (valF m ρ) jkF jrF K c _ (dev26_eq c) _ _ ?hfs_5 (owesLeft c 4) _) $$ [S_1_3_0_t0 D_1_3_1 HO Hts Htr]
  pick_goal 2
  · isplitr; · iexact Isnd_1_3_1
    isplitr; · iexact IrcvP_1_3_1
    isplitl [S_1_3_0_t0]; · iexact S_1_3_0_t0
    isplitl [D_1_3_1]; · iexact D_1_3_1
    isplitl [HO]; · iexact HO
    isplitl [Hts]; · iexact Hts
    isplitr; · iexact Rsnd_1_3_1
    isplitl [Htr]; · iexact Htr
    iexact RrcvP_1_3_1
  case hfs_5 => exact hfs_1_3
  iintro ⟨Csnd_1_3_1, HO⟩
  -- copy 4: block (1, 3) to slot 3 of the device 3 ahead
  adv
  icases (Entails.of_eq (show toksLeft (F := F) c 4 = iprop((dutyTok ER ((c : Thread nD τ), SemLoc.dma (sndS 1 3 3 inb_S3x4x4_S1x1x1_1_3_3)) 0 (0 : Fin 4) ∗ dutyTok ER (((pe c 3) : Thread nD τ), SemLoc.dma (rcvS 1 3 3 inb_S3x4x4_S1x1x1_1_3_3)) 0 (0 : Fin 4)) ∗ toksLeft c 3) from rfl)) $$ HT with ⟨⟨Hts, Htr⟩, HT⟩
  icases (owes_congr (F := F) (show owesLeft c 4 = owesLeft c 3 + tallyAt (((pe c 3) : Thread nD τ), SemLoc.dma (rcvS 1 3 3 inb_S3x4x4_S1x1x1_1_3_3)) () N from rfl)) $$ HO with HO
  iapply (wp_sendTo_1_3_3 (valF m ρ) jkF jrF K c _ (dev27_eq c) _ _ ?hfs_4 (owesLeft c 3) _) $$ [S_1_3_0_t2 D_1_3_3 HO Hts Htr]
  pick_goal 2
  · isplitr; · iexact Isnd_1_3_3
    isplitr; · iexact IrcvP_1_3_3
    isplitl [S_1_3_0_t2]; · iexact S_1_3_0_t2
    isplitl [D_1_3_3]; · iexact D_1_3_3
    isplitl [HO]; · iexact HO
    isplitl [Hts]; · iexact Hts
    isplitr; · iexact Rsnd_1_3_3
    isplitl [Htr]; · iexact Htr
    iexact RrcvP_1_3_3
  case hfs_4 => exact hfs_1_3
  iintro ⟨Csnd_1_3_3, HO⟩
  have hc4 : ∀ d : Dev nD, d = 0 ∨ d = 1 ∨ d = 2 ∨ d = 3 := by decide
  rcases hc4 c with hc | hc | hc | hc
  · -- the device is number 0: of the four guarded regions only region 1 is entered
    have hk1 : k0_cond1 c = 1#1 := by rw [hc]; decide +kernel
    have hk2 : ¬ k0_cond2 c = 1#1 := by rw [hc]; decide +kernel
    have hk3 : ¬ k0_cond3 c = 1#1 := by rw [hc]; decide +kernel
    have hk4 : ¬ k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev28_eq.trans (show (pe c 2).val = 2 by rw [hc]; rfl).symm)
    case hfs_3 => exact L2d_0_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev29_eq.trans (show (pe c 1).val = 1 by rw [hc]; rfl).symm)
    case hfs_2 => exact L2d_0_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev30_eq.trans (show (pe c 3).val = 3 by rw [hc]; rfl).symm)
    case hfs_1 => exact L2d_0_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_0)) $$ G7 with G7
    case hout_0 => exact OUTd_0 m ρ c hc g7
    iexact G7
  · -- the device is number 1: of the four guarded regions only region 2 is entered
    have hk1 : ¬ k0_cond1 c = 1#1 := by rw [hc]; decide +kernel
    have hk2 : k0_cond2 c = 1#1 := by rw [hc]; decide +kernel
    have hk3 : ¬ k0_cond3 c = 1#1 := by rw [hc]; decide +kernel
    have hk4 : ¬ k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev31_eq.trans (show (pe c 2).val = 3 by rw [hc]; rfl).symm)
    case hfs_3 => exact L2d_1_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev32_eq.trans (show (pe c 1).val = 2 by rw [hc]; rfl).symm)
    case hfs_2 => exact L2d_1_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev33_eq.trans (show (pe c 3).val = 0 by rw [hc]; rfl).symm)
    case hfs_1 => exact L2d_1_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_1)) $$ G7 with G7
    case hout_1 => exact OUTd_1 m ρ c hc g7
    iexact G7
  · -- the device is number 2: of the four guarded regions only region 3 is entered
    have hk1 : ¬ k0_cond1 c = 1#1 := by rw [hc]; decide +kernel
    have hk2 : ¬ k0_cond2 c = 1#1 := by rw [hc]; decide +kernel
    have hk3 : k0_cond3 c = 1#1 := by rw [hc]; decide +kernel
    have hk4 : ¬ k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev34_eq.trans (show (pe c 2).val = 0 by rw [hc]; rfl).symm)
    case hfs_3 => exact L2d_2_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev35_eq.trans (show (pe c 1).val = 3 by rw [hc]; rfl).symm)
    case hfs_2 => exact L2d_2_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev36_eq.trans (show (pe c 3).val = 1 by rw [hc]; rfl).symm)
    case hfs_1 => exact L2d_2_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_2)) $$ G7 with G7
    case hout_2 => exact OUTd_2 m ρ c hc g7
    iexact G7
  · -- the device is number 3: of the four guarded regions only region 4 is entered
    have hk1 : ¬ k0_cond1 c = 1#1 := by rw [hc]; decide +kernel
    have hk2 : ¬ k0_cond2 c = 1#1 := by rw [hc]; decide +kernel
    have hk3 : ¬ k0_cond3 c = 1#1 := by rw [hc]; decide +kernel
    have hk4 : k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev37_eq.trans (show (pe c 2).val = 1 by rw [hc]; rfl).symm)
    case hfs_3 => exact L2d_3_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev38_eq.trans (show (pe c 1).val = 0 by rw [hc]; rfl).symm)
    case hfs_2 => exact L2d_3_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev39_eq.trans (show (pe c 3).val = 2 by rw [hc]; rfl).symm)
    case hfs_1 => exact L2d_3_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_3)) $$ G7 with G7
    case hout_3 => exact OUTd_3 m ρ c hc g7
    iexact G7

end Cert.KernelIdeal.Mlp

end
-- ==== Proof.Bits.OwesLevels.lean ====
import proofs.«900991_g7700000000000992_dist_mlpseq_tp1d_rep_bs_b256_d256_h512_v7x_i4_bf16_1_alg».proof.Proof.Bits.Owes
import proofs.«900991_g7700000000000992_dist_mlpseq_tp1d_rep_bs_b256_d256_h512_v7x_i4_bf16_1_alg».proof.Proof.Bits.Levels

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## What is still owed lies above the level of the copies that remain

The copies are numbered downwards in the order they are started, and their layers rise as the numbers fall: the receive
cells of copies `16 … 27` sit at level 2, those of `4 … 15` at level 3, those of `1 … 3` at level 4. So the lowest level
among the cells of copies `1 … n` can only rise as `n` falls, and what is owed for copies `1 … n` lies at that level or above. -/

/-- With one more copy remaining the lowest level is no higher. -/
theorem lvLeft_succ_le (n : ℕ) : lvLeft (n + 1) ≤ lvLeft n := by
  unfold lvLeft
  split_ifs <;> first | omega | contradiction

/-- The credit of copy `k` lies on a receive cell of the copy's layer, at the level named for `k`. -/
theorem above_owedBy (c : Dev nD) (k : ℕ) (h1 : 1 ≤ k) (h27 : k ≤ 27) : Above (lvLeft k - 1) (owedBy c k) := by
  have hk : k = 1 ∨ k = 2 ∨ k = 3 ∨ k = 4 ∨ k = 5 ∨ k = 6 ∨ k = 7 ∨ k = 8 ∨ k = 9 ∨ k = 10 ∨ k = 11 ∨ k = 12 ∨ k = 13
      ∨ k = 14 ∨ k = 15 ∨ k = 16 ∨ k = 17 ∨ k = 18 ∨ k = 19 ∨ k = 20 ∨ k = 21 ∨ k = 22 ∨ k = 23 ∨ k = 24 ∨ k = 25
      ∨ k = 26 ∨ k = 27 := by omega
  rcases hk with rfl | rfl | rfl | rfl | rfl | rfl | rfl | rfl | rfl | rfl | rfl | rfl | rfl | rfl | rfl | rfl | rfl | rfl
    | rfl | rfl | rfl | rfl | rfl | rfl | rfl | rfl | rfl
  all_goals
    simp only [owedBy]
    exact Above.mono (by decide) (above_rcv _ (by decide) (by decide) (by decide) _ _)

/-- What is owed for the copies `1 … n` lies on cores' cells at the lowest level among those copies' cells, or above. -/
theorem above_left (c : Dev nD) (n : ℕ) (hn : n ≤ 27) : Above (lvLeft n - 1) (owesLeft c n) := by
  induction n with
  | zero => exact Supp.zero _
  | succ n ih =>
    rw [owesLeft_succ]
    exact Supp.add (Above.mono (Nat.sub_le_sub_right (lvLeft_succ_le n) 1) (ih (by omega)))
      (above_owedBy c (n + 1) (by omega) hn)

omit [FloatOps F] in
/-- A device may wait on any of its cells whose level is below the lowest level of the copies that remain. -/
theorem mayWait_left (c : Dev nD) (sm : SemLoc sig) (n : ℕ) (hn : n ≤ 27)
    (h : lv ((c : Thread nD τ), sm) () < lvLeft n) :
    (levAts L lv : sProp 𝕄) ⊢ MayWait (c : Thread nD τ) sm () (owesLeft c n) :=
  mayWait_of_above c sm (owesLeft c n) (fun g u hg => by
    have hg' := above_left c n hn g u hg
    exact ⟨hg'.1, by have := hg'.2; omega⟩)

omit [FloatOps F] in
/-- The same, the level comparison stated for every device: no level depends on the device, so at a literal cell the
    comparison holds of all four devices or of none. -/
theorem mayWait_left_all (c : Dev nD) (sm : SemLoc sig) (n : ℕ) (hn : n ≤ 27)
    (h : ∀ d : Dev nD, lv ((d : Thread nD τ), sm) () < lvLeft n) :
    (levAts L lv : sProp 𝕄) ⊢ MayWait (c : Thread nD τ) sm () (owesLeft c n) :=
  mayWait_left c sm n hn (h c)

/-! At literal cells the two premises are closed by evaluation. The bound on `n` is a closed numeral comparison. The level
    comparison names the waiting device, so it is evaluated with the device generalised; stated for every device it is a
    closed proposition and is evaluated as it stands. -/

/-- A layer-0 receive cell (level 2) while the copies of layer 1 and the reduce-scatter remain (lowest level 3). -/
example (c : Dev nD) : (levAts L lv : sProp 𝕄) ⊢
    MayWait (c : Thread nD τ) (SemLoc.dma (rcvS 0 0 1 inb_S3x4x4_S1x1x1_0_0_1)) () (owesLeft c 15) :=
  mayWait_left c _ 15 (by decide) (by decide +revert)

/-- The barrier cell (level 1) with all 27 copies remaining (lowest level 2). -/
example (c : Dev nD) : (levAts L lv : sProp 𝕄) ⊢ MayWait (c : Thread nD τ) (SemLoc.reg barS) () (owesLeft c 27) :=
  mayWait_left c _ 27 (by decide) (by decide +revert)

/-- A send cell (level 0) while the three reduce-scatter copies remain (lowest level 4). -/
example (c : Dev nD) : (levAts L lv : sProp 𝕄) ⊢
    MayWait (c : Thread nD τ) (SemLoc.dma (sndS 1 3 3 inb_S3x4x4_S1x1x1_1_3_3)) () (owesLeft c 3) :=
  mayWait_left c _ 3 (by decide) (by decide +revert)

/-- The same three through the form quantified over the device: both premises by plain evaluation. -/
example (c : Dev nD) : (levAts L lv : sProp 𝕄) ⊢
    MayWait (c : Thread nD τ) (SemLoc.dma (rcvS 0 0 1 inb_S3x4x4_S1x1x1_0_0_1)) () (owesLeft c 15) :=
  mayWait_left_all c _ 15 (by decide) (by decide)
example (c : Dev nD) : (levAts L lv : sProp 𝕄) ⊢ MayWait (c : Thread nD τ) (SemLoc.reg barS) () (owesLeft c 27) :=
  mayWait_left_all c _ 27 (by decide) (by decide)
example (c : Dev nD) : (levAts L lv : sProp 𝕄) ⊢
    MayWait (c : Thread nD τ) (SemLoc.dma (sndS 1 3 3 inb_S3x4x4_S1x1x1_1_3_3)) () (owesLeft c 3) :=
  mayWait_left_all c _ 3 (by decide) (by decide)

/-- info: 'Cert.Kernel.Mlp.above_left' depends on axioms: [propext, Classical.choice, Quot.sound] -/
#guard_msgs in #print axioms above_left

/-- info: 'Cert.Kernel.Mlp.mayWait_left' depends on axioms: [propext, Classical.choice, Quot.sound] -/
#guard_msgs in #print axioms mayWait_left

/-- info: 'Cert.Kernel.Mlp.mayWait_left_all' depends on axioms: [propext, Classical.choice, Quot.sound] -/
#guard_msgs in #print axioms mayWait_left_all

end Cert.Kernel.Mlp

end
-- ==== Proof.Bits.SendRule.lean ====
import proofs.«900991_g7700000000000992_dist_mlpseq_tp1d_rep_bs_b256_d256_h512_v7x_i4_bf16_1_alg».proof.Proof.Bits.BodyDefs
import Idealize.ShloMosaic.Lib.Pipeline.Value

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! ## A block held through a view

A points-to over the elements under a view sees only the contents at those elements, and a write of a whole payload
through the view fixes exactly those. -/

section Block

variable {sp : Space} {s : Shape} {e : EltTy}

omit [FloatOps F] in
/-- Contents that agree on the elements under the view give the same points-to over them. -/
theorem pointsTo_congr_on (t : Thread nD τ) (v : View sig t.2.kind sp s e) (q : PosShare TreeShare)
    {f g : Buf (Elt F) (v.loc t)} (h : ∀ i ∈ v.set, f i = g i) :
    (v.loc t ↦[v.set]{q} f : sProp 𝕄) ⊣⊢ (v.loc t ↦[v.set]{q} g) :=
  BIBase.BiEntails.of_eq (pointsTo_congr h)

omit [FloatOps F] in
/-- One payload written through the view over two bases: the results agree on the elements under the view. -/
theorem write_univ_agree {κ : Kind} (v : View sig κ sp s e) (fd fd' : v.ty.Contents (Elt F)) (x : s.Idx → Elt F e) :
    ∀ i ∈ v.set, v.write (Elt F) fd x Finset.univ i = v.write (Elt F) fd' x Finset.univ i := by
  intro i hi
  obtain ⟨y, rfl⟩ := View.exists_emb_of_mem_set v hi
  rw [View.write_emb_of_mem _ _ (Finset.mem_univ y), View.write_emb_of_mem _ _ (Finset.mem_univ y)]

omit [FloatOps F] in
/-- Writing back through the view what the view reads of `fs` gives `fs` again on the elements under the view. -/
theorem write_read_agree {κ : Kind} (v : View sig κ sp s e) (fd fs : v.ty.Contents (Elt F)) :
    ∀ i ∈ v.set, fs i = v.write (Elt F) fd (v.read (Elt F) fs) Finset.univ i := by
  intro i hi
  obtain ⟨y, rfl⟩ := View.exists_emb_of_mem_set v hi
  rw [View.write_emb_of_mem _ _ (Finset.mem_univ y), View.read_apply, cast_cast, cast_eq]

omit [FloatOps F] in
/-- Reading through the view what was written through it over the whole view gives the payload. -/
theorem read_write {κ : Kind} (v : View sig κ sp s e) (fd : v.ty.Contents (Elt F)) (x : s.Idx → Elt F e) :
    v.read (Elt F) (v.write (Elt F) fd x Finset.univ) = x :=
  View.read_write_univ fd x

end Block

/-- The copy of key `(0, 0, 2)`: device `c` sends its block to the device `2` ahead, paying the one duty of its own send cell
    and the one duty of that device's receive cell; the source share comes back with the send cell's credit. -/
theorem wp_send_0_0_2 (K : GSem nD τ sig → ℕ) (c : Dev nD)
    (fs : Buf (Elt F) ((c : Thread nD τ).loc cc0_scratch0)) (fd : Buf (Elt F) ((pe c 2 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 2 inb_S2x4x4x64x256_S1x1x1x64x256_0_0_2_0_0) : Memref sig (Dev.tc (pe c 2) : Thread nD τ).2.kind .vmem S64x256 .bf16).view.ref.isScScratch = false}
    {hsrc : (slotM 0 0 0 inb_S2x4x4x64x256_S1x1x1x64x256_0_0_0_0_0).view.WordExact} {hdst : (slotM 0 0 2 inb_S2x4x4x64x256_S1x1x1x64x256_0_0_2_0_0).view.WordExact}
    {hsem : DmaTarget.Typed .vmem (.dma (rcvS 0 0 2 inb_S3x4x4_S1x1x1_0_0_2)) (.remote (Dev.tc (pe c 2) : Thread nD τ) (slotM 0 0 2 inb_S2x4x4x64x256_S1x1x1x64x256_0_0_2_0_0) (.dma (sndS 0 0 2 inb_S3x4x4_S1x1x1_0_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
        ∗ cellInv ER (Rd val jk jr) (K ((pe c 2 : Thread nD τ), SemLoc.dma (rcvS 0 0 2 inb_S3x4x4_S1x1x1_0_0_2))) ((pe c 2 : Thread nD τ), SemLoc.dma (rcvS 0 0 2 inb_S3x4x4_S1x1x1_0_0_2))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} fs)
        ∗ ((slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} fd)
        ∗ owes (c : Thread nD τ) (O + tallyAt ((pe c 2 : Thread nD τ), SemLoc.dma (rcvS 0 0 2 inb_S3x4x4_S1x1x1_0_0_2)) () N) W
        ∗ dutyTok ER ((c : Thread nD τ), SemLoc.dma (sndS 0 0 2 inb_S3x4x4_S1x1x1_0_0_2)) 0 (0 : Fin 4) ∗ reached ER ((c : Thread nD τ), SemLoc.dma (sndS 0 0 2 inb_S3x4x4_S1x1x1_0_0_2)) 0
        ∗ dutyTok ER ((pe c 2 : Thread nD τ), SemLoc.dma (rcvS 0 0 2 inb_S3x4x4_S1x1x1_0_0_2)) 0 (0 : Fin 4) ∗ reached ER ((pe c 2 : Thread nD τ), SemLoc.dma (rcvS 0 0 2 inb_S3x4x4_S1x1x1_0_0_2)) 0)
      ⊢ iprop(((cred (tallyAt ((c : Thread nD τ), SemLoc.dma (sndS 0 0 2 inb_S3x4x4_S1x1x1_0_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc (pe c 2) : Thread nD τ) (slotM 0 0 2 inb_S2x4x4x64x256_S1x1x1x64x256_0_0_2_0_0) (.dma (sndS 0 0 2 inb_S3x4x4_S1x1x1_0_0_2)) hsc) (.dma (rcvS 0 0 2 inb_S3x4x4_S1x1x1_0_0_2)) hsrc hdst hsem) k) Q) := by
  refine Rounds.wp_send_pointsTo 𝒱₀ ER (Rd val jk jr) (c : Thread nD τ) none
    (c' := (pe c 2 : Thread nD τ)) (src := (slotM 0 0 0 inb_S2x4x4x64x256_S1x1x1x64x256_0_0_0_0_0)) (dst := (slotM 0 0 2 inb_S2x4x4x64x256_S1x1x1x64x256_0_0_2_0_0)) (q := Transfers.shareTokN fullShare 1) (fs := fs) (fd := fd)
    (κ₁ := K ((c : Thread nD τ), SemLoc.dma (sndS 0 0 2 inb_S3x4x4_S1x1x1_0_0_2))) (κ₂ := K ((pe c 2 : Thread nD τ), SemLoc.dma (rcvS 0 0 2 inb_S3x4x4_S1x1x1_0_0_2))) (r₁ := 0) (r₂ := 0) (d₁ := (0 : Fin 4)) (d₂ := (0 : Fin 4))
    (by rw [duties_snd_0_0_2]; exact Finset.mem_singleton_self _) (by rw [duties_rcv_0_0_2]; exact Finset.mem_singleton_self _)
    () () N rfl (amount_snd_0_0_2 val jk jr c 0) (amount_rcv_0_0_2 val jk jr (pe c 2) 0) O rfl (W := W) ?_ ?_
  · rw [payload_snd_0_0_2]
    exact (pointsTo_congr_on (c : Thread nD τ) (slotM 0 0 0 inb_S2x4x4x64x256_S1x1x1x64x256_0_0_0_0_0).view _ (by
      rw [← hfs]; exact write_read_agree (slotM 0 0 0 inb_S2x4x4x64x256_S1x1x1x64x256_0_0_0_0_0).view (jk c) fs)).1
  · rw [payload_rcv_0_0_2, ps_pe2, hfs]
    exact (pointsTo_congr_on (pe c 2 : Thread nD τ) (slotM 0 0 2 inb_S2x4x4x64x256_S1x1x1x64x256_0_0_2_0_0).view _
      (write_univ_agree (slotM 0 0 2 inb_S2x4x4x64x256_S1x1x1x64x256_0_0_2_0_0).view fd (jk (pe c 2)) (val c 0 0))).1

/-- info: 'Cert.Kernel.Mlp.wp_send_0_0_2' depends on axioms: [propext, Classical.choice, Quot.sound] -/
#guard_msgs in #print axioms wp_send_0_0_2

end Cert.Kernel.Mlp

end
-- ==== Proof.Bits.SendRules.lean ====
import proofs.«900991_g7700000000000992_dist_mlpseq_tp1d_rep_bs_b256_d256_h512_v7x_i4_bf16_1_alg».proof.Proof.Bits.SendRule

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! The rule of the copy of key `(0, 0, 2)`, at every other used key: layers 0 and 1 send block `p` of the exchange buffer from
    slot 0 to slot `o` of the device `o` ahead, lending the share numbered `o - 1` of the source; layer 2 sends reduce-scatter
    row `o` of the first bank to row `o` of the second bank of the device `o` ahead, lending the whole source. -/

/-- The copy of key `(0, 0, 1)`: device `c` sends its block to the device `1` ahead, paying the one duty of its own send cell
    and the one duty of that device's receive cell; the source share comes back with the send cell's credit. -/
theorem wp_send_0_0_1 (K : GSem nD τ sig → ℕ) (c : Dev nD)
    (fs : Buf (Elt F) ((c : Thread nD τ).loc cc0_scratch0)) (fd : Buf (Elt F) ((pe c 1 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 1 inb_S2x4x4x64x256_S1x1x1x64x256_0_0_1_0_0) : Memref sig (Dev.tc (pe c 1) : Thread nD τ).2.kind .vmem S64x256 .bf16).view.ref.isScScratch = false}
    {hsrc : (slotM 0 0 0 inb_S2x4x4x64x256_S1x1x1x64x256_0_0_0_0_0).view.WordExact} {hdst : (slotM 0 0 1 inb_S2x4x4x64x256_S1x1x1x64x256_0_0_1_0_0).view.WordExact}
    {hsem : DmaTarget.Typed .vmem (.dma (rcvS 0 0 1 inb_S3x4x4_S1x1x1_0_0_1)) (.remote (Dev.tc (pe c 1) : Thread nD τ) (slotM 0 0 1 inb_S2x4x4x64x256_S1x1x1x64x256_0_0_1_0_0) (.dma (sndS 0 0 1 inb_S3x4x4_S1x1x1_0_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
        ∗ cellInv ER (Rd val jk jr) (K ((pe c 1 : Thread nD τ), SemLoc.dma (rcvS 0 0 1 inb_S3x4x4_S1x1x1_0_0_1))) ((pe c 1 : Thread nD τ), SemLoc.dma (rcvS 0 0 1 inb_S3x4x4_S1x1x1_0_0_1))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} fs)
        ∗ ((slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} fd)
        ∗ owes (c : Thread nD τ) (O + tallyAt ((pe c 1 : Thread nD τ), SemLoc.dma (rcvS 0 0 1 inb_S3x4x4_S1x1x1_0_0_1)) () N) W
        ∗ dutyTok ER ((c : Thread nD τ), SemLoc.dma (sndS 0 0 1 inb_S3x4x4_S1x1x1_0_0_1)) 0 (0 : Fin 4) ∗ reached ER ((c : Thread nD τ), SemLoc.dma (sndS 0 0 1 inb_S3x4x4_S1x1x1_0_0_1)) 0
        ∗ dutyTok ER ((pe c 1 : Thread nD τ), SemLoc.dma (rcvS 0 0 1 inb_S3x4x4_S1x1x1_0_0_1)) 0 (0 : Fin 4) ∗ reached ER ((pe c 1 : Thread nD τ), SemLoc.dma (rcvS 0 0 1 inb_S3x4x4_S1x1x1_0_0_1)) 0)
      ⊢ iprop(((cred (tallyAt ((c : Thread nD τ), SemLoc.dma (sndS 0 0 1 inb_S3x4x4_S1x1x1_0_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc (pe c 1) : Thread nD τ) (slotM 0 0 1 inb_S2x4x4x64x256_S1x1x1x64x256_0_0_1_0_0) (.dma (sndS 0 0 1 inb_S3x4x4_S1x1x1_0_0_1)) hsc) (.dma (rcvS 0 0 1 inb_S3x4x4_S1x1x1_0_0_1)) hsrc hdst hsem) k) Q) := by
  refine Rounds.wp_send_pointsTo 𝒱₀ ER (Rd val jk jr) (c : Thread nD τ) none
    (c' := (pe c 1 : Thread nD τ)) (src := (slotM 0 0 0 inb_S2x4x4x64x256_S1x1x1x64x256_0_0_0_0_0)) (dst := (slotM 0 0 1 inb_S2x4x4x64x256_S1x1x1x64x256_0_0_1_0_0)) (q := Transfers.shareTokN fullShare 0) (fs := fs) (fd := fd)
    (κ₁ := K ((c : Thread nD τ), SemLoc.dma (sndS 0 0 1 inb_S3x4x4_S1x1x1_0_0_1))) (κ₂ := K ((pe c 1 : Thread nD τ), SemLoc.dma (rcvS 0 0 1 inb_S3x4x4_S1x1x1_0_0_1))) (r₁ := 0) (r₂ := 0) (d₁ := (0 : Fin 4)) (d₂ := (0 : Fin 4))
    (by rw [duties_snd_0_0_1]; exact Finset.mem_singleton_self _) (by rw [duties_rcv_0_0_1]; exact Finset.mem_singleton_self _)
    () () N rfl (amount_snd_0_0_1 val jk jr c 0) (amount_rcv_0_0_1 val jk jr (pe c 1) 0) O rfl (W := W) ?_ ?_
  · rw [payload_snd_0_0_1]
    exact (pointsTo_congr_on (c : Thread nD τ) (slotM 0 0 0 inb_S2x4x4x64x256_S1x1x1x64x256_0_0_0_0_0).view _ (by
      rw [← hfs]; exact write_read_agree (slotM 0 0 0 inb_S2x4x4x64x256_S1x1x1x64x256_0_0_0_0_0).view (jk c) fs)).1
  · rw [payload_rcv_0_0_1, ps_pe1, hfs]
    exact (pointsTo_congr_on (pe c 1 : Thread nD τ) (slotM 0 0 1 inb_S2x4x4x64x256_S1x1x1x64x256_0_0_1_0_0).view _
      (write_univ_agree (slotM 0 0 1 inb_S2x4x4x64x256_S1x1x1x64x256_0_0_1_0_0).view fd (jk (pe c 1)) (val c 0 0))).1

/-- info: 'Cert.Kernel.Mlp.wp_send_0_0_1' depends on axioms: [propext, Classical.choice, Quot.sound] -/
#guard_msgs in #print axioms wp_send_0_0_1

/-- The copy of key `(0, 0, 3)`: device `c` sends its block to the device `3` ahead, paying the one duty of its own send cell
    and the one duty of that device's receive cell; the source share comes back with the send cell's credit. -/
theorem wp_send_0_0_3 (K : GSem nD τ sig → ℕ) (c : Dev nD)
    (fs : Buf (Elt F) ((c : Thread nD τ).loc cc0_scratch0)) (fd : Buf (Elt F) ((pe c 3 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 3 inb_S2x4x4x64x256_S1x1x1x64x256_0_0_3_0_0) : Memref sig (Dev.tc (pe c 3) : Thread nD τ).2.kind .vmem S64x256 .bf16).view.ref.isScScratch = false}
    {hsrc : (slotM 0 0 0 inb_S2x4x4x64x256_S1x1x1x64x256_0_0_0_0_0).view.WordExact} {hdst : (slotM 0 0 3 inb_S2x4x4x64x256_S1x1x1x64x256_0_0_3_0_0).view.WordExact}
    {hsem : DmaTarget.Typed .vmem (.dma (rcvS 0 0 3 inb_S3x4x4_S1x1x1_0_0_3)) (.remote (Dev.tc (pe c 3) : Thread nD τ) (slotM 0 0 3 inb_S2x4x4x64x256_S1x1x1x64x256_0_0_3_0_0) (.dma (sndS 0 0 3 inb_S3x4x4_S1x1x1_0_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
        ∗ cellInv ER (Rd val jk jr) (K ((pe c 3 : Thread nD τ), SemLoc.dma (rcvS 0 0 3 inb_S3x4x4_S1x1x1_0_0_3))) ((pe c 3 : Thread nD τ), SemLoc.dma (rcvS 0 0 3 inb_S3x4x4_S1x1x1_0_0_3))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} fs)
        ∗ ((slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} fd)
        ∗ owes (c : Thread nD τ) (O + tallyAt ((pe c 3 : Thread nD τ), SemLoc.dma (rcvS 0 0 3 inb_S3x4x4_S1x1x1_0_0_3)) () N) W
        ∗ dutyTok ER ((c : Thread nD τ), SemLoc.dma (sndS 0 0 3 inb_S3x4x4_S1x1x1_0_0_3)) 0 (0 : Fin 4) ∗ reached ER ((c : Thread nD τ), SemLoc.dma (sndS 0 0 3 inb_S3x4x4_S1x1x1_0_0_3)) 0
        ∗ dutyTok ER ((pe c 3 : Thread nD τ), SemLoc.dma (rcvS 0 0 3 inb_S3x4x4_S1x1x1_0_0_3)) 0 (0 : Fin 4) ∗ reached ER ((pe c 3 : Thread nD τ), SemLoc.dma (rcvS 0 0 3 inb_S3x4x4_S1x1x1_0_0_3)) 0)
      ⊢ iprop(((cred (tallyAt ((c : Thread nD τ), SemLoc.dma (sndS 0 0 3 inb_S3x4x4_S1x1x1_0_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc (pe c 3) : Thread nD τ) (slotM 0 0 3 inb_S2x4x4x64x256_S1x1x1x64x256_0_0_3_0_0) (.dma (sndS 0 0 3 inb_S3x4x4_S1x1x1_0_0_3)) hsc) (.dma (rcvS 0 0 3 inb_S3x4x4_S1x1x1_0_0_3)) hsrc hdst hsem) k) Q) := by
  refine Rounds.wp_send_pointsTo 𝒱₀ ER (Rd val jk jr) (c : Thread nD τ) none
    (c' := (pe c 3 : Thread nD τ)) (src := (slotM 0 0 0 inb_S2x4x4x64x256_S1x1x1x64x256_0_0_0_0_0)) (dst := (slotM 0 0 3 inb_S2x4x4x64x256_S1x1x1x64x256_0_0_3_0_0)) (q := Transfers.shareTokN fullShare 2) (fs := fs) (fd := fd)
    (κ₁ := K ((c : Thread nD τ), SemLoc.dma (sndS 0 0 3 inb_S3x4x4_S1x1x1_0_0_3))) (κ₂ := K ((pe c 3 : Thread nD τ), SemLoc.dma (rcvS 0 0 3 inb_S3x4x4_S1x1x1_0_0_3))) (r₁ := 0) (r₂ := 0) (d₁ := (0 : Fin 4)) (d₂ := (0 : Fin 4))
    (by rw [duties_snd_0_0_3]; exact Finset.mem_singleton_self _) (by rw [duties_rcv_0_0_3]; exact Finset.mem_singleton_self _)
    () () N rfl (amount_snd_0_0_3 val jk jr c 0) (amount_rcv_0_0_3 val jk jr (pe c 3) 0) O rfl (W := W) ?_ ?_
  · rw [payload_snd_0_0_3]
    exact (pointsTo_congr_on (c : Thread nD τ) (slotM 0 0 0 inb_S2x4x4x64x256_S1x1x1x64x256_0_0_0_0_0).view _ (by
      rw [← hfs]; exact write_read_agree (slotM 0 0 0 inb_S2x4x4x64x256_S1x1x1x64x256_0_0_0_0_0).view (jk c) fs)).1
  · rw [payload_rcv_0_0_3, ps_pe3, hfs]
    exact (pointsTo_congr_on (pe c 3 : Thread nD τ) (slotM 0 0 3 inb_S2x4x4x64x256_S1x1x1x64x256_0_0_3_0_0).view _
      (write_univ_agree (slotM 0 0 3 inb_S2x4x4x64x256_S1x1x1x64x256_0_0_3_0_0).view fd (jk (pe c 3)) (val c 0 0))).1

/-- info: 'Cert.Kernel.Mlp.wp_send_0_0_3' depends on axioms: [propext, Classical.choice, Quot.sound] -/
#guard_msgs in #print axioms wp_send_0_0_3

/-- The copy of key `(0, 1, 1)`: device `c` sends its block to the device `1` ahead, paying the one duty of its own send cell
    and the one duty of that device's receive cell; the source share comes back with the send cell's credit. -/
theorem wp_send_0_1_1 (K : GSem nD τ sig → ℕ) (c : Dev nD)
    (fs : Buf (Elt F) ((c : Thread nD τ).loc cc0_scratch0)) (fd : Buf (Elt F) ((pe c 1 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 1 inb_S2x4x4x64x256_S1x1x1x64x256_0_1_1_0_0) : Memref sig (Dev.tc (pe c 1) : Thread nD τ).2.kind .vmem S64x256 .bf16).view.ref.isScScratch = false}
    {hsrc : (slotM 0 1 0 inb_S2x4x4x64x256_S1x1x1x64x256_0_1_0_0_0).view.WordExact} {hdst : (slotM 0 1 1 inb_S2x4x4x64x256_S1x1x1x64x256_0_1_1_0_0).view.WordExact}
    {hsem : DmaTarget.Typed .vmem (.dma (rcvS 0 1 1 inb_S3x4x4_S1x1x1_0_1_1)) (.remote (Dev.tc (pe c 1) : Thread nD τ) (slotM 0 1 1 inb_S2x4x4x64x256_S1x1x1x64x256_0_1_1_0_0) (.dma (sndS 0 1 1 inb_S3x4x4_S1x1x1_0_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
        ∗ cellInv ER (Rd val jk jr) (K ((pe c 1 : Thread nD τ), SemLoc.dma (rcvS 0 1 1 inb_S3x4x4_S1x1x1_0_1_1))) ((pe c 1 : Thread nD τ), SemLoc.dma (rcvS 0 1 1 inb_S3x4x4_S1x1x1_0_1_1))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} fs)
        ∗ ((slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} fd)
        ∗ owes (c : Thread nD τ) (O + tallyAt ((pe c 1 : Thread nD τ), SemLoc.dma (rcvS 0 1 1 inb_S3x4x4_S1x1x1_0_1_1)) () N) W
        ∗ dutyTok ER ((c : Thread nD τ), SemLoc.dma (sndS 0 1 1 inb_S3x4x4_S1x1x1_0_1_1)) 0 (0 : Fin 4) ∗ reached ER ((c : Thread nD τ), SemLoc.dma (sndS 0 1 1 inb_S3x4x4_S1x1x1_0_1_1)) 0
        ∗ dutyTok ER ((pe c 1 : Thread nD τ), SemLoc.dma (rcvS 0 1 1 inb_S3x4x4_S1x1x1_0_1_1)) 0 (0 : Fin 4) ∗ reached ER ((pe c 1 : Thread nD τ), SemLoc.dma (rcvS 0 1 1 inb_S3x4x4_S1x1x1_0_1_1)) 0)
      ⊢ iprop(((cred (tallyAt ((c : Thread nD τ), SemLoc.dma (sndS 0 1 1 inb_S3x4x4_S1x1x1_0_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc (pe c 1) : Thread nD τ) (slotM 0 1 1 inb_S2x4x4x64x256_S1x1x1x64x256_0_1_1_0_0) (.dma (sndS 0 1 1 inb_S3x4x4_S1x1x1_0_1_1)) hsc) (.dma (rcvS 0 1 1 inb_S3x4x4_S1x1x1_0_1_1)) hsrc hdst hsem) k) Q) := by
  refine Rounds.wp_send_pointsTo 𝒱₀ ER (Rd val jk jr) (c : Thread nD τ) none
    (c' := (pe c 1 : Thread nD τ)) (src := (slotM 0 1 0 inb_S2x4x4x64x256_S1x1x1x64x256_0_1_0_0_0)) (dst := (slotM 0 1 1 inb_S2x4x4x64x256_S1x1x1x64x256_0_1_1_0_0)) (q := Transfers.shareTokN fullShare 0) (fs := fs) (fd := fd)
    (κ₁ := K ((c : Thread nD τ), SemLoc.dma (sndS 0 1 1 inb_S3x4x4_S1x1x1_0_1_1))) (κ₂ := K ((pe c 1 : Thread nD τ), SemLoc.dma (rcvS 0 1 1 inb_S3x4x4_S1x1x1_0_1_1))) (r₁ := 0) (r₂ := 0) (d₁ := (0 : Fin 4)) (d₂ := (0 : Fin 4))
    (by rw [duties_snd_0_1_1]; exact Finset.mem_singleton_self _) (by rw [duties_rcv_0_1_1]; exact Finset.mem_singleton_self _)
    () () N rfl (amount_snd_0_1_1 val jk jr c 0) (amount_rcv_0_1_1 val jk jr (pe c 1) 0) O rfl (W := W) ?_ ?_
  · rw [payload_snd_0_1_1]
    exact (pointsTo_congr_on (c : Thread nD τ) (slotM 0 1 0 inb_S2x4x4x64x256_S1x1x1x64x256_0_1_0_0_0).view _ (by
      rw [← hfs]; exact write_read_agree (slotM 0 1 0 inb_S2x4x4x64x256_S1x1x1x64x256_0_1_0_0_0).view (jk c) fs)).1
  · rw [payload_rcv_0_1_1, ps_pe1, hfs]
    exact (pointsTo_congr_on (pe c 1 : Thread nD τ) (slotM 0 1 1 inb_S2x4x4x64x256_S1x1x1x64x256_0_1_1_0_0).view _
      (write_univ_agree (slotM 0 1 1 inb_S2x4x4x64x256_S1x1x1x64x256_0_1_1_0_0).view fd (jk (pe c 1)) (val c 0 1))).1

/-- info: 'Cert.Kernel.Mlp.wp_send_0_1_1' depends on axioms: [propext, Classical.choice, Quot.sound] -/
#guard_msgs in #print axioms wp_send_0_1_1

/-- The copy of key `(0, 1, 2)`: device `c` sends its block to the device `2` ahead, paying the one duty of its own send cell
    and the one duty of that device's receive cell; the source share comes back with the send cell's credit. -/
theorem wp_send_0_1_2 (K : GSem nD τ sig → ℕ) (c : Dev nD)
    (fs : Buf (Elt F) ((c : Thread nD τ).loc cc0_scratch0)) (fd : Buf (Elt F) ((pe c 2 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 2 inb_S2x4x4x64x256_S1x1x1x64x256_0_1_2_0_0) : Memref sig (Dev.tc (pe c 2) : Thread nD τ).2.kind .vmem S64x256 .bf16).view.ref.isScScratch = false}
    {hsrc : (slotM 0 1 0 inb_S2x4x4x64x256_S1x1x1x64x256_0_1_0_0_0).view.WordExact} {hdst : (slotM 0 1 2 inb_S2x4x4x64x256_S1x1x1x64x256_0_1_2_0_0).view.WordExact}
    {hsem : DmaTarget.Typed .vmem (.dma (rcvS 0 1 2 inb_S3x4x4_S1x1x1_0_1_2)) (.remote (Dev.tc (pe c 2) : Thread nD τ) (slotM 0 1 2 inb_S2x4x4x64x256_S1x1x1x64x256_0_1_2_0_0) (.dma (sndS 0 1 2 inb_S3x4x4_S1x1x1_0_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
        ∗ cellInv ER (Rd val jk jr) (K ((pe c 2 : Thread nD τ), SemLoc.dma (rcvS 0 1 2 inb_S3x4x4_S1x1x1_0_1_2))) ((pe c 2 : Thread nD τ), SemLoc.dma (rcvS 0 1 2 inb_S3x4x4_S1x1x1_0_1_2))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} fs)
        ∗ ((slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} fd)
        ∗ owes (c : Thread nD τ) (O + tallyAt ((pe c 2 : Thread nD τ), SemLoc.dma (rcvS 0 1 2 inb_S3x4x4_S1x1x1_0_1_2)) () N) W
        ∗ dutyTok ER ((c : Thread nD τ), SemLoc.dma (sndS 0 1 2 inb_S3x4x4_S1x1x1_0_1_2)) 0 (0 : Fin 4) ∗ reached ER ((c : Thread nD τ), SemLoc.dma (sndS 0 1 2 inb_S3x4x4_S1x1x1_0_1_2)) 0
        ∗ dutyTok ER ((pe c 2 : Thread nD τ), SemLoc.dma (rcvS 0 1 2 inb_S3x4x4_S1x1x1_0_1_2)) 0 (0 : Fin 4) ∗ reached ER ((pe c 2 : Thread nD τ), SemLoc.dma (rcvS 0 1 2 inb_S3x4x4_S1x1x1_0_1_2)) 0)
      ⊢ iprop(((cred (tallyAt ((c : Thread nD τ), SemLoc.dma (sndS 0 1 2 inb_S3x4x4_S1x1x1_0_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc (pe c 2) : Thread nD τ) (slotM 0 1 2 inb_S2x4x4x64x256_S1x1x1x64x256_0_1_2_0_0) (.dma (sndS 0 1 2 inb_S3x4x4_S1x1x1_0_1_2)) hsc) (.dma (rcvS 0 1 2 inb_S3x4x4_S1x1x1_0_1_2)) hsrc hdst hsem) k) Q) := by
  refine Rounds.wp_send_pointsTo 𝒱₀ ER (Rd val jk jr) (c : Thread nD τ) none
    (c' := (pe c 2 : Thread nD τ)) (src := (slotM 0 1 0 inb_S2x4x4x64x256_S1x1x1x64x256_0_1_0_0_0)) (dst := (slotM 0 1 2 inb_S2x4x4x64x256_S1x1x1x64x256_0_1_2_0_0)) (q := Transfers.shareTokN fullShare 1) (fs := fs) (fd := fd)
    (κ₁ := K ((c : Thread nD τ), SemLoc.dma (sndS 0 1 2 inb_S3x4x4_S1x1x1_0_1_2))) (κ₂ := K ((pe c 2 : Thread nD τ), SemLoc.dma (rcvS 0 1 2 inb_S3x4x4_S1x1x1_0_1_2))) (r₁ := 0) (r₂ := 0) (d₁ := (0 : Fin 4)) (d₂ := (0 : Fin 4))
    (by rw [duties_snd_0_1_2]; exact Finset.mem_singleton_self _) (by rw [duties_rcv_0_1_2]; exact Finset.mem_singleton_self _)
    () () N rfl (amount_snd_0_1_2 val jk jr c 0) (amount_rcv_0_1_2 val jk jr (pe c 2) 0) O rfl (W := W) ?_ ?_
  · rw [payload_snd_0_1_2]
    exact (pointsTo_congr_on (c : Thread nD τ) (slotM 0 1 0 inb_S2x4x4x64x256_S1x1x1x64x256_0_1_0_0_0).view _ (by
      rw [← hfs]; exact write_read_agree (slotM 0 1 0 inb_S2x4x4x64x256_S1x1x1x64x256_0_1_0_0_0).view (jk c) fs)).1
  · rw [payload_rcv_0_1_2, ps_pe2, hfs]
    exact (pointsTo_congr_on (pe c 2 : Thread nD τ) (slotM 0 1 2 inb_S2x4x4x64x256_S1x1x1x64x256_0_1_2_0_0).view _
      (write_univ_agree (slotM 0 1 2 inb_S2x4x4x64x256_S1x1x1x64x256_0_1_2_0_0).view fd (jk (pe c 2)) (val c 0 1))).1

/-- info: 'Cert.Kernel.Mlp.wp_send_0_1_2' depends on axioms: [propext, Classical.choice, Quot.sound] -/
#guard_msgs in #print axioms wp_send_0_1_2

/-- The copy of key `(0, 1, 3)`: device `c` sends its block to the device `3` ahead, paying the one duty of its own send cell
    and the one duty of that device's receive cell; the source share comes back with the send cell's credit. -/
theorem wp_send_0_1_3 (K : GSem nD τ sig → ℕ) (c : Dev nD)
    (fs : Buf (Elt F) ((c : Thread nD τ).loc cc0_scratch0)) (fd : Buf (Elt F) ((pe c 3 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 3 inb_S2x4x4x64x256_S1x1x1x64x256_0_1_3_0_0) : Memref sig (Dev.tc (pe c 3) : Thread nD τ).2.kind .vmem S64x256 .bf16).view.ref.isScScratch = false}
    {hsrc : (slotM 0 1 0 inb_S2x4x4x64x256_S1x1x1x64x256_0_1_0_0_0).view.WordExact} {hdst : (slotM 0 1 3 inb_S2x4x4x64x256_S1x1x1x64x256_0_1_3_0_0).view.WordExact}
    {hsem : DmaTarget.Typed .vmem (.dma (rcvS 0 1 3 inb_S3x4x4_S1x1x1_0_1_3)) (.remote (Dev.tc (pe c 3) : Thread nD τ) (slotM 0 1 3 inb_S2x4x4x64x256_S1x1x1x64x256_0_1_3_0_0) (.dma (sndS 0 1 3 inb_S3x4x4_S1x1x1_0_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
        ∗ cellInv ER (Rd val jk jr) (K ((pe c 3 : Thread nD τ), SemLoc.dma (rcvS 0 1 3 inb_S3x4x4_S1x1x1_0_1_3))) ((pe c 3 : Thread nD τ), SemLoc.dma (rcvS 0 1 3 inb_S3x4x4_S1x1x1_0_1_3))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} fs)
        ∗ ((slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} fd)
        ∗ owes (c : Thread nD τ) (O + tallyAt ((pe c 3 : Thread nD τ), SemLoc.dma (rcvS 0 1 3 inb_S3x4x4_S1x1x1_0_1_3)) () N) W
        ∗ dutyTok ER ((c : Thread nD τ), SemLoc.dma (sndS 0 1 3 inb_S3x4x4_S1x1x1_0_1_3)) 0 (0 : Fin 4) ∗ reached ER ((c : Thread nD τ), SemLoc.dma (sndS 0 1 3 inb_S3x4x4_S1x1x1_0_1_3)) 0
        ∗ dutyTok ER ((pe c 3 : Thread nD τ), SemLoc.dma (rcvS 0 1 3 inb_S3x4x4_S1x1x1_0_1_3)) 0 (0 : Fin 4) ∗ reached ER ((pe c 3 : Thread nD τ), SemLoc.dma (rcvS 0 1 3 inb_S3x4x4_S1x1x1_0_1_3)) 0)
      ⊢ iprop(((cred (tallyAt ((c : Thread nD τ), SemLoc.dma (sndS 0 1 3 inb_S3x4x4_S1x1x1_0_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc (pe c 3) : Thread nD τ) (slotM 0 1 3 inb_S2x4x4x64x256_S1x1x1x64x256_0_1_3_0_0) (.dma (sndS 0 1 3 inb_S3x4x4_S1x1x1_0_1_3)) hsc) (.dma (rcvS 0 1 3 inb_S3x4x4_S1x1x1_0_1_3)) hsrc hdst hsem) k) Q) := by
  refine Rounds.wp_send_pointsTo 𝒱₀ ER (Rd val jk jr) (c : Thread nD τ) none
    (c' := (pe c 3 : Thread nD τ)) (src := (slotM 0 1 0 inb_S2x4x4x64x256_S1x1x1x64x256_0_1_0_0_0)) (dst := (slotM 0 1 3 inb_S2x4x4x64x256_S1x1x1x64x256_0_1_3_0_0)) (q := Transfers.shareTokN fullShare 2) (fs := fs) (fd := fd)
    (κ₁ := K ((c : Thread nD τ), SemLoc.dma (sndS 0 1 3 inb_S3x4x4_S1x1x1_0_1_3))) (κ₂ := K ((pe c 3 : Thread nD τ), SemLoc.dma (rcvS 0 1 3 inb_S3x4x4_S1x1x1_0_1_3))) (r₁ := 0) (r₂ := 0) (d₁ := (0 : Fin 4)) (d₂ := (0 : Fin 4))
    (by rw [duties_snd_0_1_3]; exact Finset.mem_singleton_self _) (by rw [duties_rcv_0_1_3]; exact Finset.mem_singleton_self _)
    () () N rfl (amount_snd_0_1_3 val jk jr c 0) (amount_rcv_0_1_3 val jk jr (pe c 3) 0) O rfl (W := W) ?_ ?_
  · rw [payload_snd_0_1_3]
    exact (pointsTo_congr_on (c : Thread nD τ) (slotM 0 1 0 inb_S2x4x4x64x256_S1x1x1x64x256_0_1_0_0_0).view _ (by
      rw [← hfs]; exact write_read_agree (slotM 0 1 0 inb_S2x4x4x64x256_S1x1x1x64x256_0_1_0_0_0).view (jk c) fs)).1
  · rw [payload_rcv_0_1_3, ps_pe3, hfs]
    exact (pointsTo_congr_on (pe c 3 : Thread nD τ) (slotM 0 1 3 inb_S2x4x4x64x256_S1x1x1x64x256_0_1_3_0_0).view _
      (write_univ_agree (slotM 0 1 3 inb_S2x4x4x64x256_S1x1x1x64x256_0_1_3_0_0).view fd (jk (pe c 3)) (val c 0 1))).1

/-- info: 'Cert.Kernel.Mlp.wp_send_0_1_3' depends on axioms: [propext, Classical.choice, Quot.sound] -/
#guard_msgs in #print axioms wp_send_0_1_3

/-- The copy of key `(0, 2, 1)`: device `c` sends its block to the device `1` ahead, paying the one duty of its own send cell
    and the one duty of that device's receive cell; the source share comes back with the send cell's credit. -/
theorem wp_send_0_2_1 (K : GSem nD τ sig → ℕ) (c : Dev nD)
    (fs : Buf (Elt F) ((c : Thread nD τ).loc cc0_scratch0)) (fd : Buf (Elt F) ((pe c 1 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 1 inb_S2x4x4x64x256_S1x1x1x64x256_0_2_1_0_0) : Memref sig (Dev.tc (pe c 1) : Thread nD τ).2.kind .vmem S64x256 .bf16).view.ref.isScScratch = false}
    {hsrc : (slotM 0 2 0 inb_S2x4x4x64x256_S1x1x1x64x256_0_2_0_0_0).view.WordExact} {hdst : (slotM 0 2 1 inb_S2x4x4x64x256_S1x1x1x64x256_0_2_1_0_0).view.WordExact}
    {hsem : DmaTarget.Typed .vmem (.dma (rcvS 0 2 1 inb_S3x4x4_S1x1x1_0_2_1)) (.remote (Dev.tc (pe c 1) : Thread nD τ) (slotM 0 2 1 inb_S2x4x4x64x256_S1x1x1x64x256_0_2_1_0_0) (.dma (sndS 0 2 1 inb_S3x4x4_S1x1x1_0_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
        ∗ cellInv ER (Rd val jk jr) (K ((pe c 1 : Thread nD τ), SemLoc.dma (rcvS 0 2 1 inb_S3x4x4_S1x1x1_0_2_1))) ((pe c 1 : Thread nD τ), SemLoc.dma (rcvS 0 2 1 inb_S3x4x4_S1x1x1_0_2_1))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} fs)
        ∗ ((slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} fd)
        ∗ owes (c : Thread nD τ) (O + tallyAt ((pe c 1 : Thread nD τ), SemLoc.dma (rcvS 0 2 1 inb_S3x4x4_S1x1x1_0_2_1)) () N) W
        ∗ dutyTok ER ((c : Thread nD τ), SemLoc.dma (sndS 0 2 1 inb_S3x4x4_S1x1x1_0_2_1)) 0 (0 : Fin 4) ∗ reached ER ((c : Thread nD τ), SemLoc.dma (sndS 0 2 1 inb_S3x4x4_S1x1x1_0_2_1)) 0
        ∗ dutyTok ER ((pe c 1 : Thread nD τ), SemLoc.dma (rcvS 0 2 1 inb_S3x4x4_S1x1x1_0_2_1)) 0 (0 : Fin 4) ∗ reached ER ((pe c 1 : Thread nD τ), SemLoc.dma (rcvS 0 2 1 inb_S3x4x4_S1x1x1_0_2_1)) 0)
      ⊢ iprop(((cred (tallyAt ((c : Thread nD τ), SemLoc.dma (sndS 0 2 1 inb_S3x4x4_S1x1x1_0_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc (pe c 1) : Thread nD τ) (slotM 0 2 1 inb_S2x4x4x64x256_S1x1x1x64x256_0_2_1_0_0) (.dma (sndS 0 2 1 inb_S3x4x4_S1x1x1_0_2_1)) hsc) (.dma (rcvS 0 2 1 inb_S3x4x4_S1x1x1_0_2_1)) hsrc hdst hsem) k) Q) := by
  refine Rounds.wp_send_pointsTo 𝒱₀ ER (Rd val jk jr) (c : Thread nD τ) none
    (c' := (pe c 1 : Thread nD τ)) (src := (slotM 0 2 0 inb_S2x4x4x64x256_S1x1x1x64x256_0_2_0_0_0)) (dst := (slotM 0 2 1 inb_S2x4x4x64x256_S1x1x1x64x256_0_2_1_0_0)) (q := Transfers.shareTokN fullShare 0) (fs := fs) (fd := fd)
    (κ₁ := K ((c : Thread nD τ), SemLoc.dma (sndS 0 2 1 inb_S3x4x4_S1x1x1_0_2_1))) (κ₂ := K ((pe c 1 : Thread nD τ), SemLoc.dma (rcvS 0 2 1 inb_S3x4x4_S1x1x1_0_2_1))) (r₁ := 0) (r₂ := 0) (d₁ := (0 : Fin 4)) (d₂ := (0 : Fin 4))
    (by rw [duties_snd_0_2_1]; exact Finset.mem_singleton_self _) (by rw [duties_rcv_0_2_1]; exact Finset.mem_singleton_self _)
    () () N rfl (amount_snd_0_2_1 val jk jr c 0) (amount_rcv_0_2_1 val jk jr (pe c 1) 0) O rfl (W := W) ?_ ?_
  · rw [payload_snd_0_2_1]
    exact (pointsTo_congr_on (c : Thread nD τ) (slotM 0 2 0 inb_S2x4x4x64x256_S1x1x1x64x256_0_2_0_0_0).view _ (by
      rw [← hfs]; exact write_read_agree (slotM 0 2 0 inb_S2x4x4x64x256_S1x1x1x64x256_0_2_0_0_0).view (jk c) fs)).1
  · rw [payload_rcv_0_2_1, ps_pe1, hfs]
    exact (pointsTo_congr_on (pe c 1 : Thread nD τ) (slotM 0 2 1 inb_S2x4x4x64x256_S1x1x1x64x256_0_2_1_0_0).view _
      (write_univ_agree (slotM 0 2 1 inb_S2x4x4x64x256_S1x1x1x64x256_0_2_1_0_0).view fd (jk (pe c 1)) (val c 0 2))).1

/-- info: 'Cert.Kernel.Mlp.wp_send_0_2_1' depends on axioms: [propext, Classical.choice, Quot.sound] -/
#guard_msgs in #print axioms wp_send_0_2_1

/-- The copy of key `(0, 2, 2)`: device `c` sends its block to the device `2` ahead, paying the one duty of its own send cell
    and the one duty of that device's receive cell; the source share comes back with the send cell's credit. -/
theorem wp_send_0_2_2 (K : GSem nD τ sig → ℕ) (c : Dev nD)
    (fs : Buf (Elt F) ((c : Thread nD τ).loc cc0_scratch0)) (fd : Buf (Elt F) ((pe c 2 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 2 inb_S2x4x4x64x256_S1x1x1x64x256_0_2_2_0_0) : Memref sig (Dev.tc (pe c 2) : Thread nD τ).2.kind .vmem S64x256 .bf16).view.ref.isScScratch = false}
    {hsrc : (slotM 0 2 0 inb_S2x4x4x64x256_S1x1x1x64x256_0_2_0_0_0).view.WordExact} {hdst : (slotM 0 2 2 inb_S2x4x4x64x256_S1x1x1x64x256_0_2_2_0_0).view.WordExact}
    {hsem : DmaTarget.Typed .vmem (.dma (rcvS 0 2 2 inb_S3x4x4_S1x1x1_0_2_2)) (.remote (Dev.tc (pe c 2) : Thread nD τ) (slotM 0 2 2 inb_S2x4x4x64x256_S1x1x1x64x256_0_2_2_0_0) (.dma (sndS 0 2 2 inb_S3x4x4_S1x1x1_0_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
        ∗ cellInv ER (Rd val jk jr) (K ((pe c 2 : Thread nD τ), SemLoc.dma (rcvS 0 2 2 inb_S3x4x4_S1x1x1_0_2_2))) ((pe c 2 : Thread nD τ), SemLoc.dma (rcvS 0 2 2 inb_S3x4x4_S1x1x1_0_2_2))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} fs)
        ∗ ((slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} fd)
        ∗ owes (c : Thread nD τ) (O + tallyAt ((pe c 2 : Thread nD τ), SemLoc.dma (rcvS 0 2 2 inb_S3x4x4_S1x1x1_0_2_2)) () N) W
        ∗ dutyTok ER ((c : Thread nD τ), SemLoc.dma (sndS 0 2 2 inb_S3x4x4_S1x1x1_0_2_2)) 0 (0 : Fin 4) ∗ reached ER ((c : Thread nD τ), SemLoc.dma (sndS 0 2 2 inb_S3x4x4_S1x1x1_0_2_2)) 0
        ∗ dutyTok ER ((pe c 2 : Thread nD τ), SemLoc.dma (rcvS 0 2 2 inb_S3x4x4_S1x1x1_0_2_2)) 0 (0 : Fin 4) ∗ reached ER ((pe c 2 : Thread nD τ), SemLoc.dma (rcvS 0 2 2 inb_S3x4x4_S1x1x1_0_2_2)) 0)
      ⊢ iprop(((cred (tallyAt ((c : Thread nD τ), SemLoc.dma (sndS 0 2 2 inb_S3x4x4_S1x1x1_0_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc (pe c 2) : Thread nD τ) (slotM 0 2 2 inb_S2x4x4x64x256_S1x1x1x64x256_0_2_2_0_0) (.dma (sndS 0 2 2 inb_S3x4x4_S1x1x1_0_2_2)) hsc) (.dma (rcvS 0 2 2 inb_S3x4x4_S1x1x1_0_2_2)) hsrc hdst hsem) k) Q) := by
  refine Rounds.wp_send_pointsTo 𝒱₀ ER (Rd val jk jr) (c : Thread nD τ) none
    (c' := (pe c 2 : Thread nD τ)) (src := (slotM 0 2 0 inb_S2x4x4x64x256_S1x1x1x64x256_0_2_0_0_0)) (dst := (slotM 0 2 2 inb_S2x4x4x64x256_S1x1x1x64x256_0_2_2_0_0)) (q := Transfers.shareTokN fullShare 1) (fs := fs) (fd := fd)
    (κ₁ := K ((c : Thread nD τ), SemLoc.dma (sndS 0 2 2 inb_S3x4x4_S1x1x1_0_2_2))) (κ₂ := K ((pe c 2 : Thread nD τ), SemLoc.dma (rcvS 0 2 2 inb_S3x4x4_S1x1x1_0_2_2))) (r₁ := 0) (r₂ := 0) (d₁ := (0 : Fin 4)) (d₂ := (0 : Fin 4))
    (by rw [duties_snd_0_2_2]; exact Finset.mem_singleton_self _) (by rw [duties_rcv_0_2_2]; exact Finset.mem_singleton_self _)
    () () N rfl (amount_snd_0_2_2 val jk jr c 0) (amount_rcv_0_2_2 val jk jr (pe c 2) 0) O rfl (W := W) ?_ ?_
  · rw [payload_snd_0_2_2]
    exact (pointsTo_congr_on (c : Thread nD τ) (slotM 0 2 0 inb_S2x4x4x64x256_S1x1x1x64x256_0_2_0_0_0).view _ (by
      rw [← hfs]; exact write_read_agree (slotM 0 2 0 inb_S2x4x4x64x256_S1x1x1x64x256_0_2_0_0_0).view (jk c) fs)).1
  · rw [payload_rcv_0_2_2, ps_pe2, hfs]
    exact (pointsTo_congr_on (pe c 2 : Thread nD τ) (slotM 0 2 2 inb_S2x4x4x64x256_S1x1x1x64x256_0_2_2_0_0).view _
      (write_univ_agree (slotM 0 2 2 inb_S2x4x4x64x256_S1x1x1x64x256_0_2_2_0_0).view fd (jk (pe c 2)) (val c 0 2))).1

/-- info: 'Cert.Kernel.Mlp.wp_send_0_2_2' depends on axioms: [propext, Classical.choice, Quot.sound] -/
#guard_msgs in #print axioms wp_send_0_2_2

/-- The copy of key `(0, 2, 3)`: device `c` sends its block to the device `3` ahead, paying the one duty of its own send cell
    and the one duty of that device's receive cell; the source share comes back with the send cell's credit. -/
theorem wp_send_0_2_3 (K : GSem nD τ sig → ℕ) (c : Dev nD)
    (fs : Buf (Elt F) ((c : Thread nD τ).loc cc0_scratch0)) (fd : Buf (Elt F) ((pe c 3 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 3 inb_S2x4x4x64x256_S1x1x1x64x256_0_2_3_0_0) : Memref sig (Dev.tc (pe c 3) : Thread nD τ).2.kind .vmem S64x256 .bf16).view.ref.isScScratch = false}
    {hsrc : (slotM 0 2 0 inb_S2x4x4x64x256_S1x1x1x64x256_0_2_0_0_0).view.WordExact} {hdst : (slotM 0 2 3 inb_S2x4x4x64x256_S1x1x1x64x256_0_2_3_0_0).view.WordExact}
    {hsem : DmaTarget.Typed .vmem (.dma (rcvS 0 2 3 inb_S3x4x4_S1x1x1_0_2_3)) (.remote (Dev.tc (pe c 3) : Thread nD τ) (slotM 0 2 3 inb_S2x4x4x64x256_S1x1x1x64x256_0_2_3_0_0) (.dma (sndS 0 2 3 inb_S3x4x4_S1x1x1_0_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
        ∗ cellInv ER (Rd val jk jr) (K ((pe c 3 : Thread nD τ), SemLoc.dma (rcvS 0 2 3 inb_S3x4x4_S1x1x1_0_2_3))) ((pe c 3 : Thread nD τ), SemLoc.dma (rcvS 0 2 3 inb_S3x4x4_S1x1x1_0_2_3))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} fs)
        ∗ ((slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} fd)
        ∗ owes (c : Thread nD τ) (O + tallyAt ((pe c 3 : Thread nD τ), SemLoc.dma (rcvS 0 2 3 inb_S3x4x4_S1x1x1_0_2_3)) () N) W
        ∗ dutyTok ER ((c : Thread nD τ), SemLoc.dma (sndS 0 2 3 inb_S3x4x4_S1x1x1_0_2_3)) 0 (0 : Fin 4) ∗ reached ER ((c : Thread nD τ), SemLoc.dma (sndS 0 2 3 inb_S3x4x4_S1x1x1_0_2_3)) 0
        ∗ dutyTok ER ((pe c 3 : Thread nD τ), SemLoc.dma (rcvS 0 2 3 inb_S3x4x4_S1x1x1_0_2_3)) 0 (0 : Fin 4) ∗ reached ER ((pe c 3 : Thread nD τ), SemLoc.dma (rcvS 0 2 3 inb_S3x4x4_S1x1x1_0_2_3)) 0)
      ⊢ iprop(((cred (tallyAt ((c : Thread nD τ), SemLoc.dma (sndS 0 2 3 inb_S3x4x4_S1x1x1_0_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc (pe c 3) : Thread nD τ) (slotM 0 2 3 inb_S2x4x4x64x256_S1x1x1x64x256_0_2_3_0_0) (.dma (sndS 0 2 3 inb_S3x4x4_S1x1x1_0_2_3)) hsc) (.dma (rcvS 0 2 3 inb_S3x4x4_S1x1x1_0_2_3)) hsrc hdst hsem) k) Q) := by
  refine Rounds.wp_send_pointsTo 𝒱₀ ER (Rd val jk jr) (c : Thread nD τ) none
    (c' := (pe c 3 : Thread nD τ)) (src := (slotM 0 2 0 inb_S2x4x4x64x256_S1x1x1x64x256_0_2_0_0_0)) (dst := (slotM 0 2 3 inb_S2x4x4x64x256_S1x1x1x64x256_0_2_3_0_0)) (q := Transfers.shareTokN fullShare 2) (fs := fs) (fd := fd)
    (κ₁ := K ((c : Thread nD τ), SemLoc.dma (sndS 0 2 3 inb_S3x4x4_S1x1x1_0_2_3))) (κ₂ := K ((pe c 3 : Thread nD τ), SemLoc.dma (rcvS 0 2 3 inb_S3x4x4_S1x1x1_0_2_3))) (r₁ := 0) (r₂ := 0) (d₁ := (0 : Fin 4)) (d₂ := (0 : Fin 4))
    (by rw [duties_snd_0_2_3]; exact Finset.mem_singleton_self _) (by rw [duties_rcv_0_2_3]; exact Finset.mem_singleton_self _)
    () () N rfl (amount_snd_0_2_3 val jk jr c 0) (amount_rcv_0_2_3 val jk jr (pe c 3) 0) O rfl (W := W) ?_ ?_
  · rw [payload_snd_0_2_3]
    exact (pointsTo_congr_on (c : Thread nD τ) (slotM 0 2 0 inb_S2x4x4x64x256_S1x1x1x64x256_0_2_0_0_0).view _ (by
      rw [← hfs]; exact write_read_agree (slotM 0 2 0 inb_S2x4x4x64x256_S1x1x1x64x256_0_2_0_0_0).view (jk c) fs)).1
  · rw [payload_rcv_0_2_3, ps_pe3, hfs]
    exact (pointsTo_congr_on (pe c 3 : Thread nD τ) (slotM 0 2 3 inb_S2x4x4x64x256_S1x1x1x64x256_0_2_3_0_0).view _
      (write_univ_agree (slotM 0 2 3 inb_S2x4x4x64x256_S1x1x1x64x256_0_2_3_0_0).view fd (jk (pe c 3)) (val c 0 2))).1

/-- info: 'Cert.Kernel.Mlp.wp_send_0_2_3' depends on axioms: [propext, Classical.choice, Quot.sound] -/
#guard_msgs in #print axioms wp_send_0_2_3

/-- The copy of key `(0, 3, 1)`: device `c` sends its block to the device `1` ahead, paying the one duty of its own send cell
    and the one duty of that device's receive cell; the source share comes back with the send cell's credit. -/
theorem wp_send_0_3_1 (K : GSem nD τ sig → ℕ) (c : Dev nD)
    (fs : Buf (Elt F) ((c : Thread nD τ).loc cc0_scratch0)) (fd : Buf (Elt F) ((pe c 1 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 1 inb_S2x4x4x64x256_S1x1x1x64x256_0_3_1_0_0) : Memref sig (Dev.tc (pe c 1) : Thread nD τ).2.kind .vmem S64x256 .bf16).view.ref.isScScratch = false}
    {hsrc : (slotM 0 3 0 inb_S2x4x4x64x256_S1x1x1x64x256_0_3_0_0_0).view.WordExact} {hdst : (slotM 0 3 1 inb_S2x4x4x64x256_S1x1x1x64x256_0_3_1_0_0).view.WordExact}
    {hsem : DmaTarget.Typed .vmem (.dma (rcvS 0 3 1 inb_S3x4x4_S1x1x1_0_3_1)) (.remote (Dev.tc (pe c 1) : Thread nD τ) (slotM 0 3 1 inb_S2x4x4x64x256_S1x1x1x64x256_0_3_1_0_0) (.dma (sndS 0 3 1 inb_S3x4x4_S1x1x1_0_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
        ∗ cellInv ER (Rd val jk jr) (K ((pe c 1 : Thread nD τ), SemLoc.dma (rcvS 0 3 1 inb_S3x4x4_S1x1x1_0_3_1))) ((pe c 1 : Thread nD τ), SemLoc.dma (rcvS 0 3 1 inb_S3x4x4_S1x1x1_0_3_1))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} fs)
        ∗ ((slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} fd)
        ∗ owes (c : Thread nD τ) (O + tallyAt ((pe c 1 : Thread nD τ), SemLoc.dma (rcvS 0 3 1 inb_S3x4x4_S1x1x1_0_3_1)) () N) W
        ∗ dutyTok ER ((c : Thread nD τ), SemLoc.dma (sndS 0 3 1 inb_S3x4x4_S1x1x1_0_3_1)) 0 (0 : Fin 4) ∗ reached ER ((c : Thread nD τ), SemLoc.dma (sndS 0 3 1 inb_S3x4x4_S1x1x1_0_3_1)) 0
        ∗ dutyTok ER ((pe c 1 : Thread nD τ), SemLoc.dma (rcvS 0 3 1 inb_S3x4x4_S1x1x1_0_3_1)) 0 (0 : Fin 4) ∗ reached ER ((pe c 1 : Thread nD τ), SemLoc.dma (rcvS 0 3 1 inb_S3x4x4_S1x1x1_0_3_1)) 0)
      ⊢ iprop(((cred (tallyAt ((c : Thread nD τ), SemLoc.dma (sndS 0 3 1 inb_S3x4x4_S1x1x1_0_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc (pe c 1) : Thread nD τ) (slotM 0 3 1 inb_S2x4x4x64x256_S1x1x1x64x256_0_3_1_0_0) (.dma (sndS 0 3 1 inb_S3x4x4_S1x1x1_0_3_1)) hsc) (.dma (rcvS 0 3 1 inb_S3x4x4_S1x1x1_0_3_1)) hsrc hdst hsem) k) Q) := by
  refine Rounds.wp_send_pointsTo 𝒱₀ ER (Rd val jk jr) (c : Thread nD τ) none
    (c' := (pe c 1 : Thread nD τ)) (src := (slotM 0 3 0 inb_S2x4x4x64x256_S1x1x1x64x256_0_3_0_0_0)) (dst := (slotM 0 3 1 inb_S2x4x4x64x256_S1x1x1x64x256_0_3_1_0_0)) (q := Transfers.shareTokN fullShare 0) (fs := fs) (fd := fd)
    (κ₁ := K ((c : Thread nD τ), SemLoc.dma (sndS 0 3 1 inb_S3x4x4_S1x1x1_0_3_1))) (κ₂ := K ((pe c 1 : Thread nD τ), SemLoc.dma (rcvS 0 3 1 inb_S3x4x4_S1x1x1_0_3_1))) (r₁ := 0) (r₂ := 0) (d₁ := (0 : Fin 4)) (d₂ := (0 : Fin 4))
    (by rw [duties_snd_0_3_1]; exact Finset.mem_singleton_self _) (by rw [duties_rcv_0_3_1]; exact Finset.mem_singleton_self _)
    () () N rfl (amount_snd_0_3_1 val jk jr c 0) (amount_rcv_0_3_1 val jk jr (pe c 1) 0) O rfl (W := W) ?_ ?_
  · rw [payload_snd_0_3_1]
    exact (pointsTo_congr_on (c : Thread nD τ) (slotM 0 3 0 inb_S2x4x4x64x256_S1x1x1x64x256_0_3_0_0_0).view _ (by
      rw [← hfs]; exact write_read_agree (slotM 0 3 0 inb_S2x4x4x64x256_S1x1x1x64x256_0_3_0_0_0).view (jk c) fs)).1
  · rw [payload_rcv_0_3_1, ps_pe1, hfs]
    exact (pointsTo_congr_on (pe c 1 : Thread nD τ) (slotM 0 3 1 inb_S2x4x4x64x256_S1x1x1x64x256_0_3_1_0_0).view _
      (write_univ_agree (slotM 0 3 1 inb_S2x4x4x64x256_S1x1x1x64x256_0_3_1_0_0).view fd (jk (pe c 1)) (val c 0 3))).1

/-- info: 'Cert.Kernel.Mlp.wp_send_0_3_1' depends on axioms: [propext, Classical.choice, Quot.sound] -/
#guard_msgs in #print axioms wp_send_0_3_1

/-- The copy of key `(0, 3, 2)`: device `c` sends its block to the device `2` ahead, paying the one duty of its own send cell
    and the one duty of that device's receive cell; the source share comes back with the send cell's credit. -/
theorem wp_send_0_3_2 (K : GSem nD τ sig → ℕ) (c : Dev nD)
    (fs : Buf (Elt F) ((c : Thread nD τ).loc cc0_scratch0)) (fd : Buf (Elt F) ((pe c 2 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 2 inb_S2x4x4x64x256_S1x1x1x64x256_0_3_2_0_0) : Memref sig (Dev.tc (pe c 2) : Thread nD τ).2.kind .vmem S64x256 .bf16).view.ref.isScScratch = false}
    {hsrc : (slotM 0 3 0 inb_S2x4x4x64x256_S1x1x1x64x256_0_3_0_0_0).view.WordExact} {hdst : (slotM 0 3 2 inb_S2x4x4x64x256_S1x1x1x64x256_0_3_2_0_0).view.WordExact}
    {hsem : DmaTarget.Typed .vmem (.dma (rcvS 0 3 2 inb_S3x4x4_S1x1x1_0_3_2)) (.remote (Dev.tc (pe c 2) : Thread nD τ) (slotM 0 3 2 inb_S2x4x4x64x256_S1x1x1x64x256_0_3_2_0_0) (.dma (sndS 0 3 2 inb_S3x4x4_S1x1x1_0_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
        ∗ cellInv ER (Rd val jk jr) (K ((pe c 2 : Thread nD τ), SemLoc.dma (rcvS 0 3 2 inb_S3x4x4_S1x1x1_0_3_2))) ((pe c 2 : Thread nD τ), SemLoc.dma (rcvS 0 3 2 inb_S3x4x4_S1x1x1_0_3_2))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} fs)
        ∗ ((slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} fd)
        ∗ owes (c : Thread nD τ) (O + tallyAt ((pe c 2 : Thread nD τ), SemLoc.dma (rcvS 0 3 2 inb_S3x4x4_S1x1x1_0_3_2)) () N) W
        ∗ dutyTok ER ((c : Thread nD τ), SemLoc.dma (sndS 0 3 2 inb_S3x4x4_S1x1x1_0_3_2)) 0 (0 : Fin 4) ∗ reached ER ((c : Thread nD τ), SemLoc.dma (sndS 0 3 2 inb_S3x4x4_S1x1x1_0_3_2)) 0
        ∗ dutyTok ER ((pe c 2 : Thread nD τ), SemLoc.dma (rcvS 0 3 2 inb_S3x4x4_S1x1x1_0_3_2)) 0 (0 : Fin 4) ∗ reached ER ((pe c 2 : Thread nD τ), SemLoc.dma (rcvS 0 3 2 inb_S3x4x4_S1x1x1_0_3_2)) 0)
      ⊢ iprop(((cred (tallyAt ((c : Thread nD τ), SemLoc.dma (sndS 0 3 2 inb_S3x4x4_S1x1x1_0_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc (pe c 2) : Thread nD τ) (slotM 0 3 2 inb_S2x4x4x64x256_S1x1x1x64x256_0_3_2_0_0) (.dma (sndS 0 3 2 inb_S3x4x4_S1x1x1_0_3_2)) hsc) (.dma (rcvS 0 3 2 inb_S3x4x4_S1x1x1_0_3_2)) hsrc hdst hsem) k) Q) := by
  refine Rounds.wp_send_pointsTo 𝒱₀ ER (Rd val jk jr) (c : Thread nD τ) none
    (c' := (pe c 2 : Thread nD τ)) (src := (slotM 0 3 0 inb_S2x4x4x64x256_S1x1x1x64x256_0_3_0_0_0)) (dst := (slotM 0 3 2 inb_S2x4x4x64x256_S1x1x1x64x256_0_3_2_0_0)) (q := Transfers.shareTokN fullShare 1) (fs := fs) (fd := fd)
    (κ₁ := K ((c : Thread nD τ), SemLoc.dma (sndS 0 3 2 inb_S3x4x4_S1x1x1_0_3_2))) (κ₂ := K ((pe c 2 : Thread nD τ), SemLoc.dma (rcvS 0 3 2 inb_S3x4x4_S1x1x1_0_3_2))) (r₁ := 0) (r₂ := 0) (d₁ := (0 : Fin 4)) (d₂ := (0 : Fin 4))
    (by rw [duties_snd_0_3_2]; exact Finset.mem_singleton_self _) (by rw [duties_rcv_0_3_2]; exact Finset.mem_singleton_self _)
    () () N rfl (amount_snd_0_3_2 val jk jr c 0) (amount_rcv_0_3_2 val jk jr (pe c 2) 0) O rfl (W := W) ?_ ?_
  · rw [payload_snd_0_3_2]
    exact (pointsTo_congr_on (c : Thread nD τ) (slotM 0 3 0 inb_S2x4x4x64x256_S1x1x1x64x256_0_3_0_0_0).view _ (by
      rw [← hfs]; exact write_read_agree (slotM 0 3 0 inb_S2x4x4x64x256_S1x1x1x64x256_0_3_0_0_0).view (jk c) fs)).1
  · rw [payload_rcv_0_3_2, ps_pe2, hfs]
    exact (pointsTo_congr_on (pe c 2 : Thread nD τ) (slotM 0 3 2 inb_S2x4x4x64x256_S1x1x1x64x256_0_3_2_0_0).view _
      (write_univ_agree (slotM 0 3 2 inb_S2x4x4x64x256_S1x1x1x64x256_0_3_2_0_0).view fd (jk (pe c 2)) (val c 0 3))).1

/-- info: 'Cert.Kernel.Mlp.wp_send_0_3_2' depends on axioms: [propext, Classical.choice, Quot.sound] -/
#guard_msgs in #print axioms wp_send_0_3_2

/-- The copy of key `(0, 3, 3)`: device `c` sends its block to the device `3` ahead, paying the one duty of its own send cell
    and the one duty of that device's receive cell; the source share comes back with the send cell's credit. -/
theorem wp_send_0_3_3 (K : GSem nD τ sig → ℕ) (c : Dev nD)
    (fs : Buf (Elt F) ((c : Thread nD τ).loc cc0_scratch0)) (fd : Buf (Elt F) ((pe c 3 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 3 inb_S2x4x4x64x256_S1x1x1x64x256_0_3_3_0_0) : Memref sig (Dev.tc (pe c 3) : Thread nD τ).2.kind .vmem S64x256 .bf16).view.ref.isScScratch = false}
    {hsrc : (slotM 0 3 0 inb_S2x4x4x64x256_S1x1x1x64x256_0_3_0_0_0).view.WordExact} {hdst : (slotM 0 3 3 inb_S2x4x4x64x256_S1x1x1x64x256_0_3_3_0_0).view.WordExact}
    {hsem : DmaTarget.Typed .vmem (.dma (rcvS 0 3 3 inb_S3x4x4_S1x1x1_0_3_3)) (.remote (Dev.tc (pe c 3) : Thread nD τ) (slotM 0 3 3 inb_S2x4x4x64x256_S1x1x1x64x256_0_3_3_0_0) (.dma (sndS 0 3 3 inb_S3x4x4_S1x1x1_0_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
        ∗ cellInv ER (Rd val jk jr) (K ((pe c 3 : Thread nD τ), SemLoc.dma (rcvS 0 3 3 inb_S3x4x4_S1x1x1_0_3_3))) ((pe c 3 : Thread nD τ), SemLoc.dma (rcvS 0 3 3 inb_S3x4x4_S1x1x1_0_3_3))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} fs)
        ∗ ((slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} fd)
        ∗ owes (c : Thread nD τ) (O + tallyAt ((pe c 3 : Thread nD τ), SemLoc.dma (rcvS 0 3 3 inb_S3x4x4_S1x1x1_0_3_3)) () N) W
        ∗ dutyTok ER ((c : Thread nD τ), SemLoc.dma (sndS 0 3 3 inb_S3x4x4_S1x1x1_0_3_3)) 0 (0 : Fin 4) ∗ reached ER ((c : Thread nD τ), SemLoc.dma (sndS 0 3 3 inb_S3x4x4_S1x1x1_0_3_3)) 0
        ∗ dutyTok ER ((pe c 3 : Thread nD τ), SemLoc.dma (rcvS 0 3 3 inb_S3x4x4_S1x1x1_0_3_3)) 0 (0 : Fin 4) ∗ reached ER ((pe c 3 : Thread nD τ), SemLoc.dma (rcvS 0 3 3 inb_S3x4x4_S1x1x1_0_3_3)) 0)
      ⊢ iprop(((cred (tallyAt ((c : Thread nD τ), SemLoc.dma (sndS 0 3 3 inb_S3x4x4_S1x1x1_0_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc (pe c 3) : Thread nD τ) (slotM 0 3 3 inb_S2x4x4x64x256_S1x1x1x64x256_0_3_3_0_0) (.dma (sndS 0 3 3 inb_S3x4x4_S1x1x1_0_3_3)) hsc) (.dma (rcvS 0 3 3 inb_S3x4x4_S1x1x1_0_3_3)) hsrc hdst hsem) k) Q) := by
  refine Rounds.wp_send_pointsTo 𝒱₀ ER (Rd val jk jr) (c : Thread nD τ) none
    (c' := (pe c 3 : Thread nD τ)) (src := (slotM 0 3 0 inb_S2x4x4x64x256_S1x1x1x64x256_0_3_0_0_0)) (dst := (slotM 0 3 3 inb_S2x4x4x64x256_S1x1x1x64x256_0_3_3_0_0)) (q := Transfers.shareTokN fullShare 2) (fs := fs) (fd := fd)
    (κ₁ := K ((c : Thread nD τ), SemLoc.dma (sndS 0 3 3 inb_S3x4x4_S1x1x1_0_3_3))) (κ₂ := K ((pe c 3 : Thread nD τ), SemLoc.dma (rcvS 0 3 3 inb_S3x4x4_S1x1x1_0_3_3))) (r₁ := 0) (r₂ := 0) (d₁ := (0 : Fin 4)) (d₂ := (0 : Fin 4))
    (by rw [duties_snd_0_3_3]; exact Finset.mem_singleton_self _) (by rw [duties_rcv_0_3_3]; exact Finset.mem_singleton_self _)
    () () N rfl (amount_snd_0_3_3 val jk jr c 0) (amount_rcv_0_3_3 val jk jr (pe c 3) 0) O rfl (W := W) ?_ ?_
  · rw [payload_snd_0_3_3]
    exact (pointsTo_congr_on (c : Thread nD τ) (slotM 0 3 0 inb_S2x4x4x64x256_S1x1x1x64x256_0_3_0_0_0).view _ (by
      rw [← hfs]; exact write_read_agree (slotM 0 3 0 inb_S2x4x4x64x256_S1x1x1x64x256_0_3_0_0_0).view (jk c) fs)).1
  · rw [payload_rcv_0_3_3, ps_pe3, hfs]
    exact (pointsTo_congr_on (pe c 3 : Thread nD τ) (slotM 0 3 3 inb_S2x4x4x64x256_S1x1x1x64x256_0_3_3_0_0).view _
      (write_univ_agree (slotM 0 3 3 inb_S2x4x4x64x256_S1x1x1x64x256_0_3_3_0_0).view fd (jk (pe c 3)) (val c 0 3))).1

/-- info: 'Cert.Kernel.Mlp.wp_send_0_3_3' depends on axioms: [propext, Classical.choice, Quot.sound] -/
#guard_msgs in #print axioms wp_send_0_3_3

/-- The copy of key `(1, 0, 1)`: device `c` sends its block to the device `1` ahead, paying the one duty of its own send cell
    and the one duty of that device's receive cell; the source share comes back with the send cell's credit. -/
theorem wp_send_1_0_1 (K : GSem nD τ sig → ℕ) (c : Dev nD)
    (fs : Buf (Elt F) ((c : Thread nD τ).loc cc0_scratch0)) (fd : Buf (Elt F) ((pe c 1 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 1 inb_S2x4x4x64x256_S1x1x1x64x256_1_0_1_0_0) : Memref sig (Dev.tc (pe c 1) : Thread nD τ).2.kind .vmem S64x256 .bf16).view.ref.isScScratch = false}
    {hsrc : (slotM 1 0 0 inb_S2x4x4x64x256_S1x1x1x64x256_1_0_0_0_0).view.WordExact} {hdst : (slotM 1 0 1 inb_S2x4x4x64x256_S1x1x1x64x256_1_0_1_0_0).view.WordExact}
    {hsem : DmaTarget.Typed .vmem (.dma (rcvS 1 0 1 inb_S3x4x4_S1x1x1_1_0_1)) (.remote (Dev.tc (pe c 1) : Thread nD τ) (slotM 1 0 1 inb_S2x4x4x64x256_S1x1x1x64x256_1_0_1_0_0) (.dma (sndS 1 0 1 inb_S3x4x4_S1x1x1_1_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
        ∗ cellInv ER (Rd val jk jr) (K ((pe c 1 : Thread nD τ), SemLoc.dma (rcvS 1 0 1 inb_S3x4x4_S1x1x1_1_0_1))) ((pe c 1 : Thread nD τ), SemLoc.dma (rcvS 1 0 1 inb_S3x4x4_S1x1x1_1_0_1))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} fs)
        ∗ ((slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} fd)
        ∗ owes (c : Thread nD τ) (O + tallyAt ((pe c 1 : Thread nD τ), SemLoc.dma (rcvS 1 0 1 inb_S3x4x4_S1x1x1_1_0_1)) () N) W
        ∗ dutyTok ER ((c : Thread nD τ), SemLoc.dma (sndS 1 0 1 inb_S3x4x4_S1x1x1_1_0_1)) 0 (0 : Fin 4) ∗ reached ER ((c : Thread nD τ), SemLoc.dma (sndS 1 0 1 inb_S3x4x4_S1x1x1_1_0_1)) 0
        ∗ dutyTok ER ((pe c 1 : Thread nD τ), SemLoc.dma (rcvS 1 0 1 inb_S3x4x4_S1x1x1_1_0_1)) 0 (0 : Fin 4) ∗ reached ER ((pe c 1 : Thread nD τ), SemLoc.dma (rcvS 1 0 1 inb_S3x4x4_S1x1x1_1_0_1)) 0)
      ⊢ iprop(((cred (tallyAt ((c : Thread nD τ), SemLoc.dma (sndS 1 0 1 inb_S3x4x4_S1x1x1_1_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc (pe c 1) : Thread nD τ) (slotM 1 0 1 inb_S2x4x4x64x256_S1x1x1x64x256_1_0_1_0_0) (.dma (sndS 1 0 1 inb_S3x4x4_S1x1x1_1_0_1)) hsc) (.dma (rcvS 1 0 1 inb_S3x4x4_S1x1x1_1_0_1)) hsrc hdst hsem) k) Q) := by
  refine Rounds.wp_send_pointsTo 𝒱₀ ER (Rd val jk jr) (c : Thread nD τ) none
    (c' := (pe c 1 : Thread nD τ)) (src := (slotM 1 0 0 inb_S2x4x4x64x256_S1x1x1x64x256_1_0_0_0_0)) (dst := (slotM 1 0 1 inb_S2x4x4x64x256_S1x1x1x64x256_1_0_1_0_0)) (q := Transfers.shareTokN fullShare 0) (fs := fs) (fd := fd)
    (κ₁ := K ((c : Thread nD τ), SemLoc.dma (sndS 1 0 1 inb_S3x4x4_S1x1x1_1_0_1))) (κ₂ := K ((pe c 1 : Thread nD τ), SemLoc.dma (rcvS 1 0 1 inb_S3x4x4_S1x1x1_1_0_1))) (r₁ := 0) (r₂ := 0) (d₁ := (0 : Fin 4)) (d₂ := (0 : Fin 4))
    (by rw [duties_snd_1_0_1]; exact Finset.mem_singleton_self _) (by rw [duties_rcv_1_0_1]; exact Finset.mem_singleton_self _)
    () () N rfl (amount_snd_1_0_1 val jk jr c 0) (amount_rcv_1_0_1 val jk jr (pe c 1) 0) O rfl (W := W) ?_ ?_
  · rw [payload_snd_1_0_1]
    exact (pointsTo_congr_on (c : Thread nD τ) (slotM 1 0 0 inb_S2x4x4x64x256_S1x1x1x64x256_1_0_0_0_0).view _ (by
      rw [← hfs]; exact write_read_agree (slotM 1 0 0 inb_S2x4x4x64x256_S1x1x1x64x256_1_0_0_0_0).view (jk c) fs)).1
  · rw [payload_rcv_1_0_1, ps_pe1, hfs]
    exact (pointsTo_congr_on (pe c 1 : Thread nD τ) (slotM 1 0 1 inb_S2x4x4x64x256_S1x1x1x64x256_1_0_1_0_0).view _
      (write_univ_agree (slotM 1 0 1 inb_S2x4x4x64x256_S1x1x1x64x256_1_0_1_0_0).view fd (jk (pe c 1)) (val c 1 0))).1

/-- info: 'Cert.Kernel.Mlp.wp_send_1_0_1' depends on axioms: [propext, Classical.choice, Quot.sound] -/
#guard_msgs in #print axioms wp_send_1_0_1

/-- The copy of key `(1, 0, 2)`: device `c` sends its block to the device `2` ahead, paying the one duty of its own send cell
    and the one duty of that device's receive cell; the source share comes back with the send cell's credit. -/
theorem wp_send_1_0_2 (K : GSem nD τ sig → ℕ) (c : Dev nD)
    (fs : Buf (Elt F) ((c : Thread nD τ).loc cc0_scratch0)) (fd : Buf (Elt F) ((pe c 2 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 2 inb_S2x4x4x64x256_S1x1x1x64x256_1_0_2_0_0) : Memref sig (Dev.tc (pe c 2) : Thread nD τ).2.kind .vmem S64x256 .bf16).view.ref.isScScratch = false}
    {hsrc : (slotM 1 0 0 inb_S2x4x4x64x256_S1x1x1x64x256_1_0_0_0_0).view.WordExact} {hdst : (slotM 1 0 2 inb_S2x4x4x64x256_S1x1x1x64x256_1_0_2_0_0).view.WordExact}
    {hsem : DmaTarget.Typed .vmem (.dma (rcvS 1 0 2 inb_S3x4x4_S1x1x1_1_0_2)) (.remote (Dev.tc (pe c 2) : Thread nD τ) (slotM 1 0 2 inb_S2x4x4x64x256_S1x1x1x64x256_1_0_2_0_0) (.dma (sndS 1 0 2 inb_S3x4x4_S1x1x1_1_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
        ∗ cellInv ER (Rd val jk jr) (K ((pe c 2 : Thread nD τ), SemLoc.dma (rcvS 1 0 2 inb_S3x4x4_S1x1x1_1_0_2))) ((pe c 2 : Thread nD τ), SemLoc.dma (rcvS 1 0 2 inb_S3x4x4_S1x1x1_1_0_2))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} fs)
        ∗ ((slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} fd)
        ∗ owes (c : Thread nD τ) (O + tallyAt ((pe c 2 : Thread nD τ), SemLoc.dma (rcvS 1 0 2 inb_S3x4x4_S1x1x1_1_0_2)) () N) W
        ∗ dutyTok ER ((c : Thread nD τ), SemLoc.dma (sndS 1 0 2 inb_S3x4x4_S1x1x1_1_0_2)) 0 (0 : Fin 4) ∗ reached ER ((c : Thread nD τ), SemLoc.dma (sndS 1 0 2 inb_S3x4x4_S1x1x1_1_0_2)) 0
        ∗ dutyTok ER ((pe c 2 : Thread nD τ), SemLoc.dma (rcvS 1 0 2 inb_S3x4x4_S1x1x1_1_0_2)) 0 (0 : Fin 4) ∗ reached ER ((pe c 2 : Thread nD τ), SemLoc.dma (rcvS 1 0 2 inb_S3x4x4_S1x1x1_1_0_2)) 0)
      ⊢ iprop(((cred (tallyAt ((c : Thread nD τ), SemLoc.dma (sndS 1 0 2 inb_S3x4x4_S1x1x1_1_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc (pe c 2) : Thread nD τ) (slotM 1 0 2 inb_S2x4x4x64x256_S1x1x1x64x256_1_0_2_0_0) (.dma (sndS 1 0 2 inb_S3x4x4_S1x1x1_1_0_2)) hsc) (.dma (rcvS 1 0 2 inb_S3x4x4_S1x1x1_1_0_2)) hsrc hdst hsem) k) Q) := by
  refine Rounds.wp_send_pointsTo 𝒱₀ ER (Rd val jk jr) (c : Thread nD τ) none
    (c' := (pe c 2 : Thread nD τ)) (src := (slotM 1 0 0 inb_S2x4x4x64x256_S1x1x1x64x256_1_0_0_0_0)) (dst := (slotM 1 0 2 inb_S2x4x4x64x256_S1x1x1x64x256_1_0_2_0_0)) (q := Transfers.shareTokN fullShare 1) (fs := fs) (fd := fd)
    (κ₁ := K ((c : Thread nD τ), SemLoc.dma (sndS 1 0 2 inb_S3x4x4_S1x1x1_1_0_2))) (κ₂ := K ((pe c 2 : Thread nD τ), SemLoc.dma (rcvS 1 0 2 inb_S3x4x4_S1x1x1_1_0_2))) (r₁ := 0) (r₂ := 0) (d₁ := (0 : Fin 4)) (d₂ := (0 : Fin 4))
    (by rw [duties_snd_1_0_2]; exact Finset.mem_singleton_self _) (by rw [duties_rcv_1_0_2]; exact Finset.mem_singleton_self _)
    () () N rfl (amount_snd_1_0_2 val jk jr c 0) (amount_rcv_1_0_2 val jk jr (pe c 2) 0) O rfl (W := W) ?_ ?_
  · rw [payload_snd_1_0_2]
    exact (pointsTo_congr_on (c : Thread nD τ) (slotM 1 0 0 inb_S2x4x4x64x256_S1x1x1x64x256_1_0_0_0_0).view _ (by
      rw [← hfs]; exact write_read_agree (slotM 1 0 0 inb_S2x4x4x64x256_S1x1x1x64x256_1_0_0_0_0).view (jk c) fs)).1
  · rw [payload_rcv_1_0_2, ps_pe2, hfs]
    exact (pointsTo_congr_on (pe c 2 : Thread nD τ) (slotM 1 0 2 inb_S2x4x4x64x256_S1x1x1x64x256_1_0_2_0_0).view _
      (write_univ_agree (slotM 1 0 2 inb_S2x4x4x64x256_S1x1x1x64x256_1_0_2_0_0).view fd (jk (pe c 2)) (val c 1 0))).1

/-- info: 'Cert.Kernel.Mlp.wp_send_1_0_2' depends on axioms: [propext, Classical.choice, Quot.sound] -/
#guard_msgs in #print axioms wp_send_1_0_2

/-- The copy of key `(1, 0, 3)`: device `c` sends its block to the device `3` ahead, paying the one duty of its own send cell
    and the one duty of that device's receive cell; the source share comes back with the send cell's credit. -/
theorem wp_send_1_0_3 (K : GSem nD τ sig → ℕ) (c : Dev nD)
    (fs : Buf (Elt F) ((c : Thread nD τ).loc cc0_scratch0)) (fd : Buf (Elt F) ((pe c 3 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 3 inb_S2x4x4x64x256_S1x1x1x64x256_1_0_3_0_0) : Memref sig (Dev.tc (pe c 3) : Thread nD τ).2.kind .vmem S64x256 .bf16).view.ref.isScScratch = false}
    {hsrc : (slotM 1 0 0 inb_S2x4x4x64x256_S1x1x1x64x256_1_0_0_0_0).view.WordExact} {hdst : (slotM 1 0 3 inb_S2x4x4x64x256_S1x1x1x64x256_1_0_3_0_0).view.WordExact}
    {hsem : DmaTarget.Typed .vmem (.dma (rcvS 1 0 3 inb_S3x4x4_S1x1x1_1_0_3)) (.remote (Dev.tc (pe c 3) : Thread nD τ) (slotM 1 0 3 inb_S2x4x4x64x256_S1x1x1x64x256_1_0_3_0_0) (.dma (sndS 1 0 3 inb_S3x4x4_S1x1x1_1_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
        ∗ cellInv ER (Rd val jk jr) (K ((pe c 3 : Thread nD τ), SemLoc.dma (rcvS 1 0 3 inb_S3x4x4_S1x1x1_1_0_3))) ((pe c 3 : Thread nD τ), SemLoc.dma (rcvS 1 0 3 inb_S3x4x4_S1x1x1_1_0_3))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} fs)
        ∗ ((slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} fd)
        ∗ owes (c : Thread nD τ) (O + tallyAt ((pe c 3 : Thread nD τ), SemLoc.dma (rcvS 1 0 3 inb_S3x4x4_S1x1x1_1_0_3)) () N) W
        ∗ dutyTok ER ((c : Thread nD τ), SemLoc.dma (sndS 1 0 3 inb_S3x4x4_S1x1x1_1_0_3)) 0 (0 : Fin 4) ∗ reached ER ((c : Thread nD τ), SemLoc.dma (sndS 1 0 3 inb_S3x4x4_S1x1x1_1_0_3)) 0
        ∗ dutyTok ER ((pe c 3 : Thread nD τ), SemLoc.dma (rcvS 1 0 3 inb_S3x4x4_S1x1x1_1_0_3)) 0 (0 : Fin 4) ∗ reached ER ((pe c 3 : Thread nD τ), SemLoc.dma (rcvS 1 0 3 inb_S3x4x4_S1x1x1_1_0_3)) 0)
      ⊢ iprop(((cred (tallyAt ((c : Thread nD τ), SemLoc.dma (sndS 1 0 3 inb_S3x4x4_S1x1x1_1_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc (pe c 3) : Thread nD τ) (slotM 1 0 3 inb_S2x4x4x64x256_S1x1x1x64x256_1_0_3_0_0) (.dma (sndS 1 0 3 inb_S3x4x4_S1x1x1_1_0_3)) hsc) (.dma (rcvS 1 0 3 inb_S3x4x4_S1x1x1_1_0_3)) hsrc hdst hsem) k) Q) := by
  refine Rounds.wp_send_pointsTo 𝒱₀ ER (Rd val jk jr) (c : Thread nD τ) none
    (c' := (pe c 3 : Thread nD τ)) (src := (slotM 1 0 0 inb_S2x4x4x64x256_S1x1x1x64x256_1_0_0_0_0)) (dst := (slotM 1 0 3 inb_S2x4x4x64x256_S1x1x1x64x256_1_0_3_0_0)) (q := Transfers.shareTokN fullShare 2) (fs := fs) (fd := fd)
    (κ₁ := K ((c : Thread nD τ), SemLoc.dma (sndS 1 0 3 inb_S3x4x4_S1x1x1_1_0_3))) (κ₂ := K ((pe c 3 : Thread nD τ), SemLoc.dma (rcvS 1 0 3 inb_S3x4x4_S1x1x1_1_0_3))) (r₁ := 0) (r₂ := 0) (d₁ := (0 : Fin 4)) (d₂ := (0 : Fin 4))
    (by rw [duties_snd_1_0_3]; exact Finset.mem_singleton_self _) (by rw [duties_rcv_1_0_3]; exact Finset.mem_singleton_self _)
    () () N rfl (amount_snd_1_0_3 val jk jr c 0) (amount_rcv_1_0_3 val jk jr (pe c 3) 0) O rfl (W := W) ?_ ?_
  · rw [payload_snd_1_0_3]
    exact (pointsTo_congr_on (c : Thread nD τ) (slotM 1 0 0 inb_S2x4x4x64x256_S1x1x1x64x256_1_0_0_0_0).view _ (by
      rw [← hfs]; exact write_read_agree (slotM 1 0 0 inb_S2x4x4x64x256_S1x1x1x64x256_1_0_0_0_0).view (jk c) fs)).1
  · rw [payload_rcv_1_0_3, ps_pe3, hfs]
    exact (pointsTo_congr_on (pe c 3 : Thread nD τ) (slotM 1 0 3 inb_S2x4x4x64x256_S1x1x1x64x256_1_0_3_0_0).view _
      (write_univ_agree (slotM 1 0 3 inb_S2x4x4x64x256_S1x1x1x64x256_1_0_3_0_0).view fd (jk (pe c 3)) (val c 1 0))).1

/-- info: 'Cert.Kernel.Mlp.wp_send_1_0_3' depends on axioms: [propext, Classical.choice, Quot.sound] -/
#guard_msgs in #print axioms wp_send_1_0_3

/-- The copy of key `(1, 1, 1)`: device `c` sends its block to the device `1` ahead, paying the one duty of its own send cell
    and the one duty of that device's receive cell; the source share comes back with the send cell's credit. -/
theorem wp_send_1_1_1 (K : GSem nD τ sig → ℕ) (c : Dev nD)
    (fs : Buf (Elt F) ((c : Thread nD τ).loc cc0_scratch0)) (fd : Buf (Elt F) ((pe c 1 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 1 inb_S2x4x4x64x256_S1x1x1x64x256_1_1_1_0_0) : Memref sig (Dev.tc (pe c 1) : Thread nD τ).2.kind .vmem S64x256 .bf16).view.ref.isScScratch = false}
    {hsrc : (slotM 1 1 0 inb_S2x4x4x64x256_S1x1x1x64x256_1_1_0_0_0).view.WordExact} {hdst : (slotM 1 1 1 inb_S2x4x4x64x256_S1x1x1x64x256_1_1_1_0_0).view.WordExact}
    {hsem : DmaTarget.Typed .vmem (.dma (rcvS 1 1 1 inb_S3x4x4_S1x1x1_1_1_1)) (.remote (Dev.tc (pe c 1) : Thread nD τ) (slotM 1 1 1 inb_S2x4x4x64x256_S1x1x1x64x256_1_1_1_0_0) (.dma (sndS 1 1 1 inb_S3x4x4_S1x1x1_1_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
        ∗ cellInv ER (Rd val jk jr) (K ((pe c 1 : Thread nD τ), SemLoc.dma (rcvS 1 1 1 inb_S3x4x4_S1x1x1_1_1_1))) ((pe c 1 : Thread nD τ), SemLoc.dma (rcvS 1 1 1 inb_S3x4x4_S1x1x1_1_1_1))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} fs)
        ∗ ((slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} fd)
        ∗ owes (c : Thread nD τ) (O + tallyAt ((pe c 1 : Thread nD τ), SemLoc.dma (rcvS 1 1 1 inb_S3x4x4_S1x1x1_1_1_1)) () N) W
        ∗ dutyTok ER ((c : Thread nD τ), SemLoc.dma (sndS 1 1 1 inb_S3x4x4_S1x1x1_1_1_1)) 0 (0 : Fin 4) ∗ reached ER ((c : Thread nD τ), SemLoc.dma (sndS 1 1 1 inb_S3x4x4_S1x1x1_1_1_1)) 0
        ∗ dutyTok ER ((pe c 1 : Thread nD τ), SemLoc.dma (rcvS 1 1 1 inb_S3x4x4_S1x1x1_1_1_1)) 0 (0 : Fin 4) ∗ reached ER ((pe c 1 : Thread nD τ), SemLoc.dma (rcvS 1 1 1 inb_S3x4x4_S1x1x1_1_1_1)) 0)
      ⊢ iprop(((cred (tallyAt ((c : Thread nD τ), SemLoc.dma (sndS 1 1 1 inb_S3x4x4_S1x1x1_1_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc (pe c 1) : Thread nD τ) (slotM 1 1 1 inb_S2x4x4x64x256_S1x1x1x64x256_1_1_1_0_0) (.dma (sndS 1 1 1 inb_S3x4x4_S1x1x1_1_1_1)) hsc) (.dma (rcvS 1 1 1 inb_S3x4x4_S1x1x1_1_1_1)) hsrc hdst hsem) k) Q) := by
  refine Rounds.wp_send_pointsTo 𝒱₀ ER (Rd val jk jr) (c : Thread nD τ) none
    (c' := (pe c 1 : Thread nD τ)) (src := (slotM 1 1 0 inb_S2x4x4x64x256_S1x1x1x64x256_1_1_0_0_0)) (dst := (slotM 1 1 1 inb_S2x4x4x64x256_S1x1x1x64x256_1_1_1_0_0)) (q := Transfers.shareTokN fullShare 0) (fs := fs) (fd := fd)
    (κ₁ := K ((c : Thread nD τ), SemLoc.dma (sndS 1 1 1 inb_S3x4x4_S1x1x1_1_1_1))) (κ₂ := K ((pe c 1 : Thread nD τ), SemLoc.dma (rcvS 1 1 1 inb_S3x4x4_S1x1x1_1_1_1))) (r₁ := 0) (r₂ := 0) (d₁ := (0 : Fin 4)) (d₂ := (0 : Fin 4))
    (by rw [duties_snd_1_1_1]; exact Finset.mem_singleton_self _) (by rw [duties_rcv_1_1_1]; exact Finset.mem_singleton_self _)
    () () N rfl (amount_snd_1_1_1 val jk jr c 0) (amount_rcv_1_1_1 val jk jr (pe c 1) 0) O rfl (W := W) ?_ ?_
  · rw [payload_snd_1_1_1]
    exact (pointsTo_congr_on (c : Thread nD τ) (slotM 1 1 0 inb_S2x4x4x64x256_S1x1x1x64x256_1_1_0_0_0).view _ (by
      rw [← hfs]; exact write_read_agree (slotM 1 1 0 inb_S2x4x4x64x256_S1x1x1x64x256_1_1_0_0_0).view (jk c) fs)).1
  · rw [payload_rcv_1_1_1, ps_pe1, hfs]
    exact (pointsTo_congr_on (pe c 1 : Thread nD τ) (slotM 1 1 1 inb_S2x4x4x64x256_S1x1x1x64x256_1_1_1_0_0).view _
      (write_univ_agree (slotM 1 1 1 inb_S2x4x4x64x256_S1x1x1x64x256_1_1_1_0_0).view fd (jk (pe c 1)) (val c 1 1))).1

/-- info: 'Cert.Kernel.Mlp.wp_send_1_1_1' depends on axioms: [propext, Classical.choice, Quot.sound] -/
#guard_msgs in #print axioms wp_send_1_1_1

/-- The copy of key `(1, 1, 2)`: device `c` sends its block to the device `2` ahead, paying the one duty of its own send cell
    and the one duty of that device's receive cell; the source share comes back with the send cell's credit. -/
theorem wp_send_1_1_2 (K : GSem nD τ sig → ℕ) (c : Dev nD)
    (fs : Buf (Elt F) ((c : Thread nD τ).loc cc0_scratch0)) (fd : Buf (Elt F) ((pe c 2 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 2 inb_S2x4x4x64x256_S1x1x1x64x256_1_1_2_0_0) : Memref sig (Dev.tc (pe c 2) : Thread nD τ).2.kind .vmem S64x256 .bf16).view.ref.isScScratch = false}
    {hsrc : (slotM 1 1 0 inb_S2x4x4x64x256_S1x1x1x64x256_1_1_0_0_0).view.WordExact} {hdst : (slotM 1 1 2 inb_S2x4x4x64x256_S1x1x1x64x256_1_1_2_0_0).view.WordExact}
    {hsem : DmaTarget.Typed .vmem (.dma (rcvS 1 1 2 inb_S3x4x4_S1x1x1_1_1_2)) (.remote (Dev.tc (pe c 2) : Thread nD τ) (slotM 1 1 2 inb_S2x4x4x64x256_S1x1x1x64x256_1_1_2_0_0) (.dma (sndS 1 1 2 inb_S3x4x4_S1x1x1_1_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
        ∗ cellInv ER (Rd val jk jr) (K ((pe c 2 : Thread nD τ), SemLoc.dma (rcvS 1 1 2 inb_S3x4x4_S1x1x1_1_1_2))) ((pe c 2 : Thread nD τ), SemLoc.dma (rcvS 1 1 2 inb_S3x4x4_S1x1x1_1_1_2))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} fs)
        ∗ ((slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} fd)
        ∗ owes (c : Thread nD τ) (O + tallyAt ((pe c 2 : Thread nD τ), SemLoc.dma (rcvS 1 1 2 inb_S3x4x4_S1x1x1_1_1_2)) () N) W
        ∗ dutyTok ER ((c : Thread nD τ), SemLoc.dma (sndS 1 1 2 inb_S3x4x4_S1x1x1_1_1_2)) 0 (0 : Fin 4) ∗ reached ER ((c : Thread nD τ), SemLoc.dma (sndS 1 1 2 inb_S3x4x4_S1x1x1_1_1_2)) 0
        ∗ dutyTok ER ((pe c 2 : Thread nD τ), SemLoc.dma (rcvS 1 1 2 inb_S3x4x4_S1x1x1_1_1_2)) 0 (0 : Fin 4) ∗ reached ER ((pe c 2 : Thread nD τ), SemLoc.dma (rcvS 1 1 2 inb_S3x4x4_S1x1x1_1_1_2)) 0)
      ⊢ iprop(((cred (tallyAt ((c : Thread nD τ), SemLoc.dma (sndS 1 1 2 inb_S3x4x4_S1x1x1_1_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc (pe c 2) : Thread nD τ) (slotM 1 1 2 inb_S2x4x4x64x256_S1x1x1x64x256_1_1_2_0_0) (.dma (sndS 1 1 2 inb_S3x4x4_S1x1x1_1_1_2)) hsc) (.dma (rcvS 1 1 2 inb_S3x4x4_S1x1x1_1_1_2)) hsrc hdst hsem) k) Q) := by
  refine Rounds.wp_send_pointsTo 𝒱₀ ER (Rd val jk jr) (c : Thread nD τ) none
    (c' := (pe c 2 : Thread nD τ)) (src := (slotM 1 1 0 inb_S2x4x4x64x256_S1x1x1x64x256_1_1_0_0_0)) (dst := (slotM 1 1 2 inb_S2x4x4x64x256_S1x1x1x64x256_1_1_2_0_0)) (q := Transfers.shareTokN fullShare 1) (fs := fs) (fd := fd)
    (κ₁ := K ((c : Thread nD τ), SemLoc.dma (sndS 1 1 2 inb_S3x4x4_S1x1x1_1_1_2))) (κ₂ := K ((pe c 2 : Thread nD τ), SemLoc.dma (rcvS 1 1 2 inb_S3x4x4_S1x1x1_1_1_2))) (r₁ := 0) (r₂ := 0) (d₁ := (0 : Fin 4)) (d₂ := (0 : Fin 4))
    (by rw [duties_snd_1_1_2]; exact Finset.mem_singleton_self _) (by rw [duties_rcv_1_1_2]; exact Finset.mem_singleton_self _)
    () () N rfl (amount_snd_1_1_2 val jk jr c 0) (amount_rcv_1_1_2 val jk jr (pe c 2) 0) O rfl (W := W) ?_ ?_
  · rw [payload_snd_1_1_2]
    exact (pointsTo_congr_on (c : Thread nD τ) (slotM 1 1 0 inb_S2x4x4x64x256_S1x1x1x64x256_1_1_0_0_0).view _ (by
      rw [← hfs]; exact write_read_agree (slotM 1 1 0 inb_S2x4x4x64x256_S1x1x1x64x256_1_1_0_0_0).view (jk c) fs)).1
  · rw [payload_rcv_1_1_2, ps_pe2, hfs]
    exact (pointsTo_congr_on (pe c 2 : Thread nD τ) (slotM 1 1 2 inb_S2x4x4x64x256_S1x1x1x64x256_1_1_2_0_0).view _
      (write_univ_agree (slotM 1 1 2 inb_S2x4x4x64x256_S1x1x1x64x256_1_1_2_0_0).view fd (jk (pe c 2)) (val c 1 1))).1

/-- info: 'Cert.Kernel.Mlp.wp_send_1_1_2' depends on axioms: [propext, Classical.choice, Quot.sound] -/
#guard_msgs in #print axioms wp_send_1_1_2

/-- The copy of key `(1, 1, 3)`: device `c` sends its block to the device `3` ahead, paying the one duty of its own send cell
    and the one duty of that device's receive cell; the source share comes back with the send cell's credit. -/
theorem wp_send_1_1_3 (K : GSem nD τ sig → ℕ) (c : Dev nD)
    (fs : Buf (Elt F) ((c : Thread nD τ).loc cc0_scratch0)) (fd : Buf (Elt F) ((pe c 3 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 3 inb_S2x4x4x64x256_S1x1x1x64x256_1_1_3_0_0) : Memref sig (Dev.tc (pe c 3) : Thread nD τ).2.kind .vmem S64x256 .bf16).view.ref.isScScratch = false}
    {hsrc : (slotM 1 1 0 inb_S2x4x4x64x256_S1x1x1x64x256_1_1_0_0_0).view.WordExact} {hdst : (slotM 1 1 3 inb_S2x4x4x64x256_S1x1x1x64x256_1_1_3_0_0).view.WordExact}
    {hsem : DmaTarget.Typed .vmem (.dma (rcvS 1 1 3 inb_S3x4x4_S1x1x1_1_1_3)) (.remote (Dev.tc (pe c 3) : Thread nD τ) (slotM 1 1 3 inb_S2x4x4x64x256_S1x1x1x64x256_1_1_3_0_0) (.dma (sndS 1 1 3 inb_S3x4x4_S1x1x1_1_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
        ∗ cellInv ER (Rd val jk jr) (K ((pe c 3 : Thread nD τ), SemLoc.dma (rcvS 1 1 3 inb_S3x4x4_S1x1x1_1_1_3))) ((pe c 3 : Thread nD τ), SemLoc.dma (rcvS 1 1 3 inb_S3x4x4_S1x1x1_1_1_3))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} fs)
        ∗ ((slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} fd)
        ∗ owes (c : Thread nD τ) (O + tallyAt ((pe c 3 : Thread nD τ), SemLoc.dma (rcvS 1 1 3 inb_S3x4x4_S1x1x1_1_1_3)) () N) W
        ∗ dutyTok ER ((c : Thread nD τ), SemLoc.dma (sndS 1 1 3 inb_S3x4x4_S1x1x1_1_1_3)) 0 (0 : Fin 4) ∗ reached ER ((c : Thread nD τ), SemLoc.dma (sndS 1 1 3 inb_S3x4x4_S1x1x1_1_1_3)) 0
        ∗ dutyTok ER ((pe c 3 : Thread nD τ), SemLoc.dma (rcvS 1 1 3 inb_S3x4x4_S1x1x1_1_1_3)) 0 (0 : Fin 4) ∗ reached ER ((pe c 3 : Thread nD τ), SemLoc.dma (rcvS 1 1 3 inb_S3x4x4_S1x1x1_1_1_3)) 0)
      ⊢ iprop(((cred (tallyAt ((c : Thread nD τ), SemLoc.dma (sndS 1 1 3 inb_S3x4x4_S1x1x1_1_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc (pe c 3) : Thread nD τ) (slotM 1 1 3 inb_S2x4x4x64x256_S1x1x1x64x256_1_1_3_0_0) (.dma (sndS 1 1 3 inb_S3x4x4_S1x1x1_1_1_3)) hsc) (.dma (rcvS 1 1 3 inb_S3x4x4_S1x1x1_1_1_3)) hsrc hdst hsem) k) Q) := by
  refine Rounds.wp_send_pointsTo 𝒱₀ ER (Rd val jk jr) (c : Thread nD τ) none
    (c' := (pe c 3 : Thread nD τ)) (src := (slotM 1 1 0 inb_S2x4x4x64x256_S1x1x1x64x256_1_1_0_0_0)) (dst := (slotM 1 1 3 inb_S2x4x4x64x256_S1x1x1x64x256_1_1_3_0_0)) (q := Transfers.shareTokN fullShare 2) (fs := fs) (fd := fd)
    (κ₁ := K ((c : Thread nD τ), SemLoc.dma (sndS 1 1 3 inb_S3x4x4_S1x1x1_1_1_3))) (κ₂ := K ((pe c 3 : Thread nD τ), SemLoc.dma (rcvS 1 1 3 inb_S3x4x4_S1x1x1_1_1_3))) (r₁ := 0) (r₂ := 0) (d₁ := (0 : Fin 4)) (d₂ := (0 : Fin 4))
    (by rw [duties_snd_1_1_3]; exact Finset.mem_singleton_self _) (by rw [duties_rcv_1_1_3]; exact Finset.mem_singleton_self _)
    () () N rfl (amount_snd_1_1_3 val jk jr c 0) (amount_rcv_1_1_3 val jk jr (pe c 3) 0) O rfl (W := W) ?_ ?_
  · rw [payload_snd_1_1_3]
    exact (pointsTo_congr_on (c : Thread nD τ) (slotM 1 1 0 inb_S2x4x4x64x256_S1x1x1x64x256_1_1_0_0_0).view _ (by
      rw [← hfs]; exact write_read_agree (slotM 1 1 0 inb_S2x4x4x64x256_S1x1x1x64x256_1_1_0_0_0).view (jk c) fs)).1
  · rw [payload_rcv_1_1_3, ps_pe3, hfs]
    exact (pointsTo_congr_on (pe c 3 : Thread nD τ) (slotM 1 1 3 inb_S2x4x4x64x256_S1x1x1x64x256_1_1_3_0_0).view _
      (write_univ_agree (slotM 1 1 3 inb_S2x4x4x64x256_S1x1x1x64x256_1_1_3_0_0).view fd (jk (pe c 3)) (val c 1 1))).1

/-- info: 'Cert.Kernel.Mlp.wp_send_1_1_3' depends on axioms: [propext, Classical.choice, Quot.sound] -/
#guard_msgs in #print axioms wp_send_1_1_3

/-- The copy of key `(1, 2, 1)`: device `c` sends its block to the device `1` ahead, paying the one duty of its own send cell
    and the one duty of that device's receive cell; the source share comes back with the send cell's credit. -/
theorem wp_send_1_2_1 (K : GSem nD τ sig → ℕ) (c : Dev nD)
    (fs : Buf (Elt F) ((c : Thread nD τ).loc cc0_scratch0)) (fd : Buf (Elt F) ((pe c 1 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 1 inb_S2x4x4x64x256_S1x1x1x64x256_1_2_1_0_0) : Memref sig (Dev.tc (pe c 1) : Thread nD τ).2.kind .vmem S64x256 .bf16).view.ref.isScScratch = false}
    {hsrc : (slotM 1 2 0 inb_S2x4x4x64x256_S1x1x1x64x256_1_2_0_0_0).view.WordExact} {hdst : (slotM 1 2 1 inb_S2x4x4x64x256_S1x1x1x64x256_1_2_1_0_0).view.WordExact}
    {hsem : DmaTarget.Typed .vmem (.dma (rcvS 1 2 1 inb_S3x4x4_S1x1x1_1_2_1)) (.remote (Dev.tc (pe c 1) : Thread nD τ) (slotM 1 2 1 inb_S2x4x4x64x256_S1x1x1x64x256_1_2_1_0_0) (.dma (sndS 1 2 1 inb_S3x4x4_S1x1x1_1_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
        ∗ cellInv ER (Rd val jk jr) (K ((pe c 1 : Thread nD τ), SemLoc.dma (rcvS 1 2 1 inb_S3x4x4_S1x1x1_1_2_1))) ((pe c 1 : Thread nD τ), SemLoc.dma (rcvS 1 2 1 inb_S3x4x4_S1x1x1_1_2_1))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} fs)
        ∗ ((slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} fd)
        ∗ owes (c : Thread nD τ) (O + tallyAt ((pe c 1 : Thread nD τ), SemLoc.dma (rcvS 1 2 1 inb_S3x4x4_S1x1x1_1_2_1)) () N) W
        ∗ dutyTok ER ((c : Thread nD τ), SemLoc.dma (sndS 1 2 1 inb_S3x4x4_S1x1x1_1_2_1)) 0 (0 : Fin 4) ∗ reached ER ((c : Thread nD τ), SemLoc.dma (sndS 1 2 1 inb_S3x4x4_S1x1x1_1_2_1)) 0
        ∗ dutyTok ER ((pe c 1 : Thread nD τ), SemLoc.dma (rcvS 1 2 1 inb_S3x4x4_S1x1x1_1_2_1)) 0 (0 : Fin 4) ∗ reached ER ((pe c 1 : Thread nD τ), SemLoc.dma (rcvS 1 2 1 inb_S3x4x4_S1x1x1_1_2_1)) 0)
      ⊢ iprop(((cred (tallyAt ((c : Thread nD τ), SemLoc.dma (sndS 1 2 1 inb_S3x4x4_S1x1x1_1_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc (pe c 1) : Thread nD τ) (slotM 1 2 1 inb_S2x4x4x64x256_S1x1x1x64x256_1_2_1_0_0) (.dma (sndS 1 2 1 inb_S3x4x4_S1x1x1_1_2_1)) hsc) (.dma (rcvS 1 2 1 inb_S3x4x4_S1x1x1_1_2_1)) hsrc hdst hsem) k) Q) := by
  refine Rounds.wp_send_pointsTo 𝒱₀ ER (Rd val jk jr) (c : Thread nD τ) none
    (c' := (pe c 1 : Thread nD τ)) (src := (slotM 1 2 0 inb_S2x4x4x64x256_S1x1x1x64x256_1_2_0_0_0)) (dst := (slotM 1 2 1 inb_S2x4x4x64x256_S1x1x1x64x256_1_2_1_0_0)) (q := Transfers.shareTokN fullShare 0) (fs := fs) (fd := fd)
    (κ₁ := K ((c : Thread nD τ), SemLoc.dma (sndS 1 2 1 inb_S3x4x4_S1x1x1_1_2_1))) (κ₂ := K ((pe c 1 : Thread nD τ), SemLoc.dma (rcvS 1 2 1 inb_S3x4x4_S1x1x1_1_2_1))) (r₁ := 0) (r₂ := 0) (d₁ := (0 : Fin 4)) (d₂ := (0 : Fin 4))
    (by rw [duties_snd_1_2_1]; exact Finset.mem_singleton_self _) (by rw [duties_rcv_1_2_1]; exact Finset.mem_singleton_self _)
    () () N rfl (amount_snd_1_2_1 val jk jr c 0) (amount_rcv_1_2_1 val jk jr (pe c 1) 0) O rfl (W := W) ?_ ?_
  · rw [payload_snd_1_2_1]
    exact (pointsTo_congr_on (c : Thread nD τ) (slotM 1 2 0 inb_S2x4x4x64x256_S1x1x1x64x256_1_2_0_0_0).view _ (by
      rw [← hfs]; exact write_read_agree (slotM 1 2 0 inb_S2x4x4x64x256_S1x1x1x64x256_1_2_0_0_0).view (jk c) fs)).1
  · rw [payload_rcv_1_2_1, ps_pe1, hfs]
    exact (pointsTo_congr_on (pe c 1 : Thread nD τ) (slotM 1 2 1 inb_S2x4x4x64x256_S1x1x1x64x256_1_2_1_0_0).view _
      (write_univ_agree (slotM 1 2 1 inb_S2x4x4x64x256_S1x1x1x64x256_1_2_1_0_0).view fd (jk (pe c 1)) (val c 1 2))).1

/-- info: 'Cert.Kernel.Mlp.wp_send_1_2_1' depends on axioms: [propext, Classical.choice, Quot.sound] -/
#guard_msgs in #print axioms wp_send_1_2_1

/-- The copy of key `(1, 2, 2)`: device `c` sends its block to the device `2` ahead, paying the one duty of its own send cell
    and the one duty of that device's receive cell; the source share comes back with the send cell's credit. -/
theorem wp_send_1_2_2 (K : GSem nD τ sig → ℕ) (c : Dev nD)
    (fs : Buf (Elt F) ((c : Thread nD τ).loc cc0_scratch0)) (fd : Buf (Elt F) ((pe c 2 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 2 inb_S2x4x4x64x256_S1x1x1x64x256_1_2_2_0_0) : Memref sig (Dev.tc (pe c 2) : Thread nD τ).2.kind .vmem S64x256 .bf16).view.ref.isScScratch = false}
    {hsrc : (slotM 1 2 0 inb_S2x4x4x64x256_S1x1x1x64x256_1_2_0_0_0).view.WordExact} {hdst : (slotM 1 2 2 inb_S2x4x4x64x256_S1x1x1x64x256_1_2_2_0_0).view.WordExact}
    {hsem : DmaTarget.Typed .vmem (.dma (rcvS 1 2 2 inb_S3x4x4_S1x1x1_1_2_2)) (.remote (Dev.tc (pe c 2) : Thread nD τ) (slotM 1 2 2 inb_S2x4x4x64x256_S1x1x1x64x256_1_2_2_0_0) (.dma (sndS 1 2 2 inb_S3x4x4_S1x1x1_1_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
        ∗ cellInv ER (Rd val jk jr) (K ((pe c 2 : Thread nD τ), SemLoc.dma (rcvS 1 2 2 inb_S3x4x4_S1x1x1_1_2_2))) ((pe c 2 : Thread nD τ), SemLoc.dma (rcvS 1 2 2 inb_S3x4x4_S1x1x1_1_2_2))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} fs)
        ∗ ((slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} fd)
        ∗ owes (c : Thread nD τ) (O + tallyAt ((pe c 2 : Thread nD τ), SemLoc.dma (rcvS 1 2 2 inb_S3x4x4_S1x1x1_1_2_2)) () N) W
        ∗ dutyTok ER ((c : Thread nD τ), SemLoc.dma (sndS 1 2 2 inb_S3x4x4_S1x1x1_1_2_2)) 0 (0 : Fin 4) ∗ reached ER ((c : Thread nD τ), SemLoc.dma (sndS 1 2 2 inb_S3x4x4_S1x1x1_1_2_2)) 0
        ∗ dutyTok ER ((pe c 2 : Thread nD τ), SemLoc.dma (rcvS 1 2 2 inb_S3x4x4_S1x1x1_1_2_2)) 0 (0 : Fin 4) ∗ reached ER ((pe c 2 : Thread nD τ), SemLoc.dma (rcvS 1 2 2 inb_S3x4x4_S1x1x1_1_2_2)) 0)
      ⊢ iprop(((cred (tallyAt ((c : Thread nD τ), SemLoc.dma (sndS 1 2 2 inb_S3x4x4_S1x1x1_1_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc (pe c 2) : Thread nD τ) (slotM 1 2 2 inb_S2x4x4x64x256_S1x1x1x64x256_1_2_2_0_0) (.dma (sndS 1 2 2 inb_S3x4x4_S1x1x1_1_2_2)) hsc) (.dma (rcvS 1 2 2 inb_S3x4x4_S1x1x1_1_2_2)) hsrc hdst hsem) k) Q) := by
  refine Rounds.wp_send_pointsTo 𝒱₀ ER (Rd val jk jr) (c : Thread nD τ) none
    (c' := (pe c 2 : Thread nD τ)) (src := (slotM 1 2 0 inb_S2x4x4x64x256_S1x1x1x64x256_1_2_0_0_0)) (dst := (slotM 1 2 2 inb_S2x4x4x64x256_S1x1x1x64x256_1_2_2_0_0)) (q := Transfers.shareTokN fullShare 1) (fs := fs) (fd := fd)
    (κ₁ := K ((c : Thread nD τ), SemLoc.dma (sndS 1 2 2 inb_S3x4x4_S1x1x1_1_2_2))) (κ₂ := K ((pe c 2 : Thread nD τ), SemLoc.dma (rcvS 1 2 2 inb_S3x4x4_S1x1x1_1_2_2))) (r₁ := 0) (r₂ := 0) (d₁ := (0 : Fin 4)) (d₂ := (0 : Fin 4))
    (by rw [duties_snd_1_2_2]; exact Finset.mem_singleton_self _) (by rw [duties_rcv_1_2_2]; exact Finset.mem_singleton_self _)
    () () N rfl (amount_snd_1_2_2 val jk jr c 0) (amount_rcv_1_2_2 val jk jr (pe c 2) 0) O rfl (W := W) ?_ ?_
  · rw [payload_snd_1_2_2]
    exact (pointsTo_congr_on (c : Thread nD τ) (slotM 1 2 0 inb_S2x4x4x64x256_S1x1x1x64x256_1_2_0_0_0).view _ (by
      rw [← hfs]; exact write_read_agree (slotM 1 2 0 inb_S2x4x4x64x256_S1x1x1x64x256_1_2_0_0_0).view (jk c) fs)).1
  · rw [payload_rcv_1_2_2, ps_pe2, hfs]
    exact (pointsTo_congr_on (pe c 2 : Thread nD τ) (slotM 1 2 2 inb_S2x4x4x64x256_S1x1x1x64x256_1_2_2_0_0).view _
      (write_univ_agree (slotM 1 2 2 inb_S2x4x4x64x256_S1x1x1x64x256_1_2_2_0_0).view fd (jk (pe c 2)) (val c 1 2))).1

/-- info: 'Cert.Kernel.Mlp.wp_send_1_2_2' depends on axioms: [propext, Classical.choice, Quot.sound] -/
#guard_msgs in #print axioms wp_send_1_2_2

/-- The copy of key `(1, 2, 3)`: device `c` sends its block to the device `3` ahead, paying the one duty of its own send cell
    and the one duty of that device's receive cell; the source share comes back with the send cell's credit. -/
theorem wp_send_1_2_3 (K : GSem nD τ sig → ℕ) (c : Dev nD)
    (fs : Buf (Elt F) ((c : Thread nD τ).loc cc0_scratch0)) (fd : Buf (Elt F) ((pe c 3 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 3 inb_S2x4x4x64x256_S1x1x1x64x256_1_2_3_0_0) : Memref sig (Dev.tc (pe c 3) : Thread nD τ).2.kind .vmem S64x256 .bf16).view.ref.isScScratch = false}
    {hsrc : (slotM 1 2 0 inb_S2x4x4x64x256_S1x1x1x64x256_1_2_0_0_0).view.WordExact} {hdst : (slotM 1 2 3 inb_S2x4x4x64x256_S1x1x1x64x256_1_2_3_0_0).view.WordExact}
    {hsem : DmaTarget.Typed .vmem (.dma (rcvS 1 2 3 inb_S3x4x4_S1x1x1_1_2_3)) (.remote (Dev.tc (pe c 3) : Thread nD τ) (slotM 1 2 3 inb_S2x4x4x64x256_S1x1x1x64x256_1_2_3_0_0) (.dma (sndS 1 2 3 inb_S3x4x4_S1x1x1_1_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
        ∗ cellInv ER (Rd val jk jr) (K ((pe c 3 : Thread nD τ), SemLoc.dma (rcvS 1 2 3 inb_S3x4x4_S1x1x1_1_2_3))) ((pe c 3 : Thread nD τ), SemLoc.dma (rcvS 1 2 3 inb_S3x4x4_S1x1x1_1_2_3))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} fs)
        ∗ ((slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} fd)
        ∗ owes (c : Thread nD τ) (O + tallyAt ((pe c 3 : Thread nD τ), SemLoc.dma (rcvS 1 2 3 inb_S3x4x4_S1x1x1_1_2_3)) () N) W
        ∗ dutyTok ER ((c : Thread nD τ), SemLoc.dma (sndS 1 2 3 inb_S3x4x4_S1x1x1_1_2_3)) 0 (0 : Fin 4) ∗ reached ER ((c : Thread nD τ), SemLoc.dma (sndS 1 2 3 inb_S3x4x4_S1x1x1_1_2_3)) 0
        ∗ dutyTok ER ((pe c 3 : Thread nD τ), SemLoc.dma (rcvS 1 2 3 inb_S3x4x4_S1x1x1_1_2_3)) 0 (0 : Fin 4) ∗ reached ER ((pe c 3 : Thread nD τ), SemLoc.dma (rcvS 1 2 3 inb_S3x4x4_S1x1x1_1_2_3)) 0)
      ⊢ iprop(((cred (tallyAt ((c : Thread nD τ), SemLoc.dma (sndS 1 2 3 inb_S3x4x4_S1x1x1_1_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc (pe c 3) : Thread nD τ) (slotM 1 2 3 inb_S2x4x4x64x256_S1x1x1x64x256_1_2_3_0_0) (.dma (sndS 1 2 3 inb_S3x4x4_S1x1x1_1_2_3)) hsc) (.dma (rcvS 1 2 3 inb_S3x4x4_S1x1x1_1_2_3)) hsrc hdst hsem) k) Q) := by
  refine Rounds.wp_send_pointsTo 𝒱₀ ER (Rd val jk jr) (c : Thread nD τ) none
    (c' := (pe c 3 : Thread nD τ)) (src := (slotM 1 2 0 inb_S2x4x4x64x256_S1x1x1x64x256_1_2_0_0_0)) (dst := (slotM 1 2 3 inb_S2x4x4x64x256_S1x1x1x64x256_1_2_3_0_0)) (q := Transfers.shareTokN fullShare 2) (fs := fs) (fd := fd)
    (κ₁ := K ((c : Thread nD τ), SemLoc.dma (sndS 1 2 3 inb_S3x4x4_S1x1x1_1_2_3))) (κ₂ := K ((pe c 3 : Thread nD τ), SemLoc.dma (rcvS 1 2 3 inb_S3x4x4_S1x1x1_1_2_3))) (r₁ := 0) (r₂ := 0) (d₁ := (0 : Fin 4)) (d₂ := (0 : Fin 4))
    (by rw [duties_snd_1_2_3]; exact Finset.mem_singleton_self _) (by rw [duties_rcv_1_2_3]; exact Finset.mem_singleton_self _)
    () () N rfl (amount_snd_1_2_3 val jk jr c 0) (amount_rcv_1_2_3 val jk jr (pe c 3) 0) O rfl (W := W) ?_ ?_
  · rw [payload_snd_1_2_3]
    exact (pointsTo_congr_on (c : Thread nD τ) (slotM 1 2 0 inb_S2x4x4x64x256_S1x1x1x64x256_1_2_0_0_0).view _ (by
      rw [← hfs]; exact write_read_agree (slotM 1 2 0 inb_S2x4x4x64x256_S1x1x1x64x256_1_2_0_0_0).view (jk c) fs)).1
  · rw [payload_rcv_1_2_3, ps_pe3, hfs]
    exact (pointsTo_congr_on (pe c 3 : Thread nD τ) (slotM 1 2 3 inb_S2x4x4x64x256_S1x1x1x64x256_1_2_3_0_0).view _
      (write_univ_agree (slotM 1 2 3 inb_S2x4x4x64x256_S1x1x1x64x256_1_2_3_0_0).view fd (jk (pe c 3)) (val c 1 2))).1

/-- info: 'Cert.Kernel.Mlp.wp_send_1_2_3' depends on axioms: [propext, Classical.choice, Quot.sound] -/
#guard_msgs in #print axioms wp_send_1_2_3

/-- The copy of key `(1, 3, 1)`: device `c` sends its block to the device `1` ahead, paying the one duty of its own send cell
    and the one duty of that device's receive cell; the source share comes back with the send cell's credit. -/
theorem wp_send_1_3_1 (K : GSem nD τ sig → ℕ) (c : Dev nD)
    (fs : Buf (Elt F) ((c : Thread nD τ).loc cc0_scratch0)) (fd : Buf (Elt F) ((pe c 1 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 1 inb_S2x4x4x64x256_S1x1x1x64x256_1_3_1_0_0) : Memref sig (Dev.tc (pe c 1) : Thread nD τ).2.kind .vmem S64x256 .bf16).view.ref.isScScratch = false}
    {hsrc : (slotM 1 3 0 inb_S2x4x4x64x256_S1x1x1x64x256_1_3_0_0_0).view.WordExact} {hdst : (slotM 1 3 1 inb_S2x4x4x64x256_S1x1x1x64x256_1_3_1_0_0).view.WordExact}
    {hsem : DmaTarget.Typed .vmem (.dma (rcvS 1 3 1 inb_S3x4x4_S1x1x1_1_3_1)) (.remote (Dev.tc (pe c 1) : Thread nD τ) (slotM 1 3 1 inb_S2x4x4x64x256_S1x1x1x64x256_1_3_1_0_0) (.dma (sndS 1 3 1 inb_S3x4x4_S1x1x1_1_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
        ∗ cellInv ER (Rd val jk jr) (K ((pe c 1 : Thread nD τ), SemLoc.dma (rcvS 1 3 1 inb_S3x4x4_S1x1x1_1_3_1))) ((pe c 1 : Thread nD τ), SemLoc.dma (rcvS 1 3 1 inb_S3x4x4_S1x1x1_1_3_1))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} fs)
        ∗ ((slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} fd)
        ∗ owes (c : Thread nD τ) (O + tallyAt ((pe c 1 : Thread nD τ), SemLoc.dma (rcvS 1 3 1 inb_S3x4x4_S1x1x1_1_3_1)) () N) W
        ∗ dutyTok ER ((c : Thread nD τ), SemLoc.dma (sndS 1 3 1 inb_S3x4x4_S1x1x1_1_3_1)) 0 (0 : Fin 4) ∗ reached ER ((c : Thread nD τ), SemLoc.dma (sndS 1 3 1 inb_S3x4x4_S1x1x1_1_3_1)) 0
        ∗ dutyTok ER ((pe c 1 : Thread nD τ), SemLoc.dma (rcvS 1 3 1 inb_S3x4x4_S1x1x1_1_3_1)) 0 (0 : Fin 4) ∗ reached ER ((pe c 1 : Thread nD τ), SemLoc.dma (rcvS 1 3 1 inb_S3x4x4_S1x1x1_1_3_1)) 0)
      ⊢ iprop(((cred (tallyAt ((c : Thread nD τ), SemLoc.dma (sndS 1 3 1 inb_S3x4x4_S1x1x1_1_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc (pe c 1) : Thread nD τ) (slotM 1 3 1 inb_S2x4x4x64x256_S1x1x1x64x256_1_3_1_0_0) (.dma (sndS 1 3 1 inb_S3x4x4_S1x1x1_1_3_1)) hsc) (.dma (rcvS 1 3 1 inb_S3x4x4_S1x1x1_1_3_1)) hsrc hdst hsem) k) Q) := by
  refine Rounds.wp_send_pointsTo 𝒱₀ ER (Rd val jk jr) (c : Thread nD τ) none
    (c' := (pe c 1 : Thread nD τ)) (src := (slotM 1 3 0 inb_S2x4x4x64x256_S1x1x1x64x256_1_3_0_0_0)) (dst := (slotM 1 3 1 inb_S2x4x4x64x256_S1x1x1x64x256_1_3_1_0_0)) (q := Transfers.shareTokN fullShare 0) (fs := fs) (fd := fd)
    (κ₁ := K ((c : Thread nD τ), SemLoc.dma (sndS 1 3 1 inb_S3x4x4_S1x1x1_1_3_1))) (κ₂ := K ((pe c 1 : Thread nD τ), SemLoc.dma (rcvS 1 3 1 inb_S3x4x4_S1x1x1_1_3_1))) (r₁ := 0) (r₂ := 0) (d₁ := (0 : Fin 4)) (d₂ := (0 : Fin 4))
    (by rw [duties_snd_1_3_1]; exact Finset.mem_singleton_self _) (by rw [duties_rcv_1_3_1]; exact Finset.mem_singleton_self _)
    () () N rfl (amount_snd_1_3_1 val jk jr c 0) (amount_rcv_1_3_1 val jk jr (pe c 1) 0) O rfl (W := W) ?_ ?_
  · rw [payload_snd_1_3_1]
    exact (pointsTo_congr_on (c : Thread nD τ) (slotM 1 3 0 inb_S2x4x4x64x256_S1x1x1x64x256_1_3_0_0_0).view _ (by
      rw [← hfs]; exact write_read_agree (slotM 1 3 0 inb_S2x4x4x64x256_S1x1x1x64x256_1_3_0_0_0).view (jk c) fs)).1
  · rw [payload_rcv_1_3_1, ps_pe1, hfs]
    exact (pointsTo_congr_on (pe c 1 : Thread nD τ) (slotM 1 3 1 inb_S2x4x4x64x256_S1x1x1x64x256_1_3_1_0_0).view _
      (write_univ_agree (slotM 1 3 1 inb_S2x4x4x64x256_S1x1x1x64x256_1_3_1_0_0).view fd (jk (pe c 1)) (val c 1 3))).1

/-- info: 'Cert.Kernel.Mlp.wp_send_1_3_1' depends on axioms: [propext, Classical.choice, Quot.sound] -/
#guard_msgs in #print axioms wp_send_1_3_1

/-- The copy of key `(1, 3, 2)`: device `c` sends its block to the device `2` ahead, paying the one duty of its own send cell
    and the one duty of that device's receive cell; the source share comes back with the send cell's credit. -/
theorem wp_send_1_3_2 (K : GSem nD τ sig → ℕ) (c : Dev nD)
    (fs : Buf (Elt F) ((c : Thread nD τ).loc cc0_scratch0)) (fd : Buf (Elt F) ((pe c 2 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 2 inb_S2x4x4x64x256_S1x1x1x64x256_1_3_2_0_0) : Memref sig (Dev.tc (pe c 2) : Thread nD τ).2.kind .vmem S64x256 .bf16).view.ref.isScScratch = false}
    {hsrc : (slotM 1 3 0 inb_S2x4x4x64x256_S1x1x1x64x256_1_3_0_0_0).view.WordExact} {hdst : (slotM 1 3 2 inb_S2x4x4x64x256_S1x1x1x64x256_1_3_2_0_0).view.WordExact}
    {hsem : DmaTarget.Typed .vmem (.dma (rcvS 1 3 2 inb_S3x4x4_S1x1x1_1_3_2)) (.remote (Dev.tc (pe c 2) : Thread nD τ) (slotM 1 3 2 inb_S2x4x4x64x256_S1x1x1x64x256_1_3_2_0_0) (.dma (sndS 1 3 2 inb_S3x4x4_S1x1x1_1_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
        ∗ cellInv ER (Rd val jk jr) (K ((pe c 2 : Thread nD τ), SemLoc.dma (rcvS 1 3 2 inb_S3x4x4_S1x1x1_1_3_2))) ((pe c 2 : Thread nD τ), SemLoc.dma (rcvS 1 3 2 inb_S3x4x4_S1x1x1_1_3_2))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} fs)
        ∗ ((slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} fd)
        ∗ owes (c : Thread nD τ) (O + tallyAt ((pe c 2 : Thread nD τ), SemLoc.dma (rcvS 1 3 2 inb_S3x4x4_S1x1x1_1_3_2)) () N) W
        ∗ dutyTok ER ((c : Thread nD τ), SemLoc.dma (sndS 1 3 2 inb_S3x4x4_S1x1x1_1_3_2)) 0 (0 : Fin 4) ∗ reached ER ((c : Thread nD τ), SemLoc.dma (sndS 1 3 2 inb_S3x4x4_S1x1x1_1_3_2)) 0
        ∗ dutyTok ER ((pe c 2 : Thread nD τ), SemLoc.dma (rcvS 1 3 2 inb_S3x4x4_S1x1x1_1_3_2)) 0 (0 : Fin 4) ∗ reached ER ((pe c 2 : Thread nD τ), SemLoc.dma (rcvS 1 3 2 inb_S3x4x4_S1x1x1_1_3_2)) 0)
      ⊢ iprop(((cred (tallyAt ((c : Thread nD τ), SemLoc.dma (sndS 1 3 2 inb_S3x4x4_S1x1x1_1_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc (pe c 2) : Thread nD τ) (slotM 1 3 2 inb_S2x4x4x64x256_S1x1x1x64x256_1_3_2_0_0) (.dma (sndS 1 3 2 inb_S3x4x4_S1x1x1_1_3_2)) hsc) (.dma (rcvS 1 3 2 inb_S3x4x4_S1x1x1_1_3_2)) hsrc hdst hsem) k) Q) := by
  refine Rounds.wp_send_pointsTo 𝒱₀ ER (Rd val jk jr) (c : Thread nD τ) none
    (c' := (pe c 2 : Thread nD τ)) (src := (slotM 1 3 0 inb_S2x4x4x64x256_S1x1x1x64x256_1_3_0_0_0)) (dst := (slotM 1 3 2 inb_S2x4x4x64x256_S1x1x1x64x256_1_3_2_0_0)) (q := Transfers.shareTokN fullShare 1) (fs := fs) (fd := fd)
    (κ₁ := K ((c : Thread nD τ), SemLoc.dma (sndS 1 3 2 inb_S3x4x4_S1x1x1_1_3_2))) (κ₂ := K ((pe c 2 : Thread nD τ), SemLoc.dma (rcvS 1 3 2 inb_S3x4x4_S1x1x1_1_3_2))) (r₁ := 0) (r₂ := 0) (d₁ := (0 : Fin 4)) (d₂ := (0 : Fin 4))
    (by rw [duties_snd_1_3_2]; exact Finset.mem_singleton_self _) (by rw [duties_rcv_1_3_2]; exact Finset.mem_singleton_self _)
    () () N rfl (amount_snd_1_3_2 val jk jr c 0) (amount_rcv_1_3_2 val jk jr (pe c 2) 0) O rfl (W := W) ?_ ?_
  · rw [payload_snd_1_3_2]
    exact (pointsTo_congr_on (c : Thread nD τ) (slotM 1 3 0 inb_S2x4x4x64x256_S1x1x1x64x256_1_3_0_0_0).view _ (by
      rw [← hfs]; exact write_read_agree (slotM 1 3 0 inb_S2x4x4x64x256_S1x1x1x64x256_1_3_0_0_0).view (jk c) fs)).1
  · rw [payload_rcv_1_3_2, ps_pe2, hfs]
    exact (pointsTo_congr_on (pe c 2 : Thread nD τ) (slotM 1 3 2 inb_S2x4x4x64x256_S1x1x1x64x256_1_3_2_0_0).view _
      (write_univ_agree (slotM 1 3 2 inb_S2x4x4x64x256_S1x1x1x64x256_1_3_2_0_0).view fd (jk (pe c 2)) (val c 1 3))).1

/-- info: 'Cert.Kernel.Mlp.wp_send_1_3_2' depends on axioms: [propext, Classical.choice, Quot.sound] -/
#guard_msgs in #print axioms wp_send_1_3_2

/-- The copy of key `(1, 3, 3)`: device `c` sends its block to the device `3` ahead, paying the one duty of its own send cell
    and the one duty of that device's receive cell; the source share comes back with the send cell's credit. -/
theorem wp_send_1_3_3 (K : GSem nD τ sig → ℕ) (c : Dev nD)
    (fs : Buf (Elt F) ((c : Thread nD τ).loc cc0_scratch0)) (fd : Buf (Elt F) ((pe c 3 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 3 inb_S2x4x4x64x256_S1x1x1x64x256_1_3_3_0_0) : Memref sig (Dev.tc (pe c 3) : Thread nD τ).2.kind .vmem S64x256 .bf16).view.ref.isScScratch = false}
    {hsrc : (slotM 1 3 0 inb_S2x4x4x64x256_S1x1x1x64x256_1_3_0_0_0).view.WordExact} {hdst : (slotM 1 3 3 inb_S2x4x4x64x256_S1x1x1x64x256_1_3_3_0_0).view.WordExact}
    {hsem : DmaTarget.Typed .vmem (.dma (rcvS 1 3 3 inb_S3x4x4_S1x1x1_1_3_3)) (.remote (Dev.tc (pe c 3) : Thread nD τ) (slotM 1 3 3 inb_S2x4x4x64x256_S1x1x1x64x256_1_3_3_0_0) (.dma (sndS 1 3 3 inb_S3x4x4_S1x1x1_1_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
        ∗ cellInv ER (Rd val jk jr) (K ((pe c 3 : Thread nD τ), SemLoc.dma (rcvS 1 3 3 inb_S3x4x4_S1x1x1_1_3_3))) ((pe c 3 : Thread nD τ), SemLoc.dma (rcvS 1 3 3 inb_S3x4x4_S1x1x1_1_3_3))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} fs)
        ∗ ((slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} fd)
        ∗ owes (c : Thread nD τ) (O + tallyAt ((pe c 3 : Thread nD τ), SemLoc.dma (rcvS 1 3 3 inb_S3x4x4_S1x1x1_1_3_3)) () N) W
        ∗ dutyTok ER ((c : Thread nD τ), SemLoc.dma (sndS 1 3 3 inb_S3x4x4_S1x1x1_1_3_3)) 0 (0 : Fin 4) ∗ reached ER ((c : Thread nD τ), SemLoc.dma (sndS 1 3 3 inb_S3x4x4_S1x1x1_1_3_3)) 0
        ∗ dutyTok ER ((pe c 3 : Thread nD τ), SemLoc.dma (rcvS 1 3 3 inb_S3x4x4_S1x1x1_1_3_3)) 0 (0 : Fin 4) ∗ reached ER ((pe c 3 : Thread nD τ), SemLoc.dma (rcvS 1 3 3 inb_S3x4x4_S1x1x1_1_3_3)) 0)
      ⊢ iprop(((cred (tallyAt ((c : Thread nD τ), SemLoc.dma (sndS 1 3 3 inb_S3x4x4_S1x1x1_1_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc (pe c 3) : Thread nD τ) (slotM 1 3 3 inb_S2x4x4x64x256_S1x1x1x64x256_1_3_3_0_0) (.dma (sndS 1 3 3 inb_S3x4x4_S1x1x1_1_3_3)) hsc) (.dma (rcvS 1 3 3 inb_S3x4x4_S1x1x1_1_3_3)) hsrc hdst hsem) k) Q) := by
  refine Rounds.wp_send_pointsTo 𝒱₀ ER (Rd val jk jr) (c : Thread nD τ) none
    (c' := (pe c 3 : Thread nD τ)) (src := (slotM 1 3 0 inb_S2x4x4x64x256_S1x1x1x64x256_1_3_0_0_0)) (dst := (slotM 1 3 3 inb_S2x4x4x64x256_S1x1x1x64x256_1_3_3_0_0)) (q := Transfers.shareTokN fullShare 2) (fs := fs) (fd := fd)
    (κ₁ := K ((c : Thread nD τ), SemLoc.dma (sndS 1 3 3 inb_S3x4x4_S1x1x1_1_3_3))) (κ₂ := K ((pe c 3 : Thread nD τ), SemLoc.dma (rcvS 1 3 3 inb_S3x4x4_S1x1x1_1_3_3))) (r₁ := 0) (r₂ := 0) (d₁ := (0 : Fin 4)) (d₂ := (0 : Fin 4))
    (by rw [duties_snd_1_3_3]; exact Finset.mem_singleton_self _) (by rw [duties_rcv_1_3_3]; exact Finset.mem_singleton_self _)
    () () N rfl (amount_snd_1_3_3 val jk jr c 0) (amount_rcv_1_3_3 val jk jr (pe c 3) 0) O rfl (W := W) ?_ ?_
  · rw [payload_snd_1_3_3]
    exact (pointsTo_congr_on (c : Thread nD τ) (slotM 1 3 0 inb_S2x4x4x64x256_S1x1x1x64x256_1_3_0_0_0).view _ (by
      rw [← hfs]; exact write_read_agree (slotM 1 3 0 inb_S2x4x4x64x256_S1x1x1x64x256_1_3_0_0_0).view (jk c) fs)).1
  · rw [payload_rcv_1_3_3, ps_pe3, hfs]
    exact (pointsTo_congr_on (pe c 3 : Thread nD τ) (slotM 1 3 3 inb_S2x4x4x64x256_S1x1x1x64x256_1_3_3_0_0).view _
      (write_univ_agree (slotM 1 3 3 inb_S2x4x4x64x256_S1x1x1x64x256_1_3_3_0_0).view fd (jk (pe c 3)) (val c 1 3))).1

/-- info: 'Cert.Kernel.Mlp.wp_send_1_3_3' depends on axioms: [propext, Classical.choice, Quot.sound] -/
#guard_msgs in #print axioms wp_send_1_3_3

/-- The copy of key `(2, 0, 1)`: device `c` sends its block to the device `1` ahead, paying the one duty of its own send cell
    and the one duty of that device's receive cell; the source share comes back with the send cell's credit. -/
theorem wp_send_2_0_1 (K : GSem nD τ sig → ℕ) (c : Dev nD)
    (fs : Buf (Elt F) ((c : Thread nD τ).loc cc0_scratch1)) (fd : Buf (Elt F) ((pe c 1 : Thread nD τ).loc cc0_scratch1))
    (hfs : (rsM 0 1 inb_S2x4x64x256_S1x1x64x256_0_1_0_0).view.read (Elt F) fs = val c 2 1)
    (O : CellTallies nD τ sig Unit) (W : Waits sig Unit)
    {hsc : ((rsM 1 1 inb_S2x4x64x256_S1x1x64x256_1_1_0_0) : Memref sig (Dev.tc (pe c 1) : Thread nD τ).2.kind .vmem S64x256 .bf16).view.ref.isScScratch = false}
    {hsrc : (rsM 0 1 inb_S2x4x64x256_S1x1x64x256_0_1_0_0).view.WordExact} {hdst : (rsM 1 1 inb_S2x4x64x256_S1x1x64x256_1_1_0_0).view.WordExact}
    {hsem : DmaTarget.Typed .vmem (.dma (rcvS 2 0 1 inb_S3x4x4_S1x1x1_2_0_1)) (.remote (Dev.tc (pe c 1) : Thread nD τ) (rsM 1 1 inb_S2x4x64x256_S1x1x64x256_1_1_0_0) (.dma (sndS 2 0 1 inb_S3x4x4_S1x1x1_2_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
        ∗ cellInv ER (Rd val jk jr) (K ((pe c 1 : Thread nD τ), SemLoc.dma (rcvS 2 0 1 inb_S3x4x4_S1x1x1_2_0_1))) ((pe c 1 : Thread nD τ), SemLoc.dma (rcvS 2 0 1 inb_S3x4x4_S1x1x1_2_0_1))
        ∗ ((rsM 0 1 inb_S2x4x64x256_S1x1x64x256_0_1_0_0).view.loc (c : Thread nD τ) ↦[(rsM 0 1 inb_S2x4x64x256_S1x1x64x256_0_1_0_0).view.set]{fullShare} fs)
        ∗ ((rsM 1 1 inb_S2x4x64x256_S1x1x64x256_1_1_0_0).view.loc (pe c 1 : Thread nD τ) ↦[(rsM 1 1 inb_S2x4x64x256_S1x1x64x256_1_1_0_0).view.set]{fullShare} fd)
        ∗ owes (c : Thread nD τ) (O + tallyAt ((pe c 1 : Thread nD τ), SemLoc.dma (rcvS 2 0 1 inb_S3x4x4_S1x1x1_2_0_1)) () N) W
        ∗ dutyTok ER ((c : Thread nD τ), SemLoc.dma (sndS 2 0 1 inb_S3x4x4_S1x1x1_2_0_1)) 0 (0 : Fin 4) ∗ reached ER ((c : Thread nD τ), SemLoc.dma (sndS 2 0 1 inb_S3x4x4_S1x1x1_2_0_1)) 0
        ∗ dutyTok ER ((pe c 1 : Thread nD τ), SemLoc.dma (rcvS 2 0 1 inb_S3x4x4_S1x1x1_2_0_1)) 0 (0 : Fin 4) ∗ reached ER ((pe c 1 : Thread nD τ), SemLoc.dma (rcvS 2 0 1 inb_S3x4x4_S1x1x1_2_0_1)) 0)
      ⊢ iprop(((cred (tallyAt ((c : Thread nD τ), SemLoc.dma (sndS 2 0 1 inb_S3x4x4_S1x1x1_2_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 1 inb_S2x4x64x256_S1x1x64x256_0_1_0_0) (.remote (Dev.tc (pe c 1) : Thread nD τ) (rsM 1 1 inb_S2x4x64x256_S1x1x64x256_1_1_0_0) (.dma (sndS 2 0 1 inb_S3x4x4_S1x1x1_2_0_1)) hsc) (.dma (rcvS 2 0 1 inb_S3x4x4_S1x1x1_2_0_1)) hsrc hdst hsem) k) Q) := by
  refine Rounds.wp_send_pointsTo 𝒱₀ ER (Rd val jk jr) (c : Thread nD τ) none
    (c' := (pe c 1 : Thread nD τ)) (src := (rsM 0 1 inb_S2x4x64x256_S1x1x64x256_0_1_0_0)) (dst := (rsM 1 1 inb_S2x4x64x256_S1x1x64x256_1_1_0_0)) (q := fullShare) (fs := fs) (fd := fd)
    (κ₁ := K ((c : Thread nD τ), SemLoc.dma (sndS 2 0 1 inb_S3x4x4_S1x1x1_2_0_1))) (κ₂ := K ((pe c 1 : Thread nD τ), SemLoc.dma (rcvS 2 0 1 inb_S3x4x4_S1x1x1_2_0_1))) (r₁ := 0) (r₂ := 0) (d₁ := (0 : Fin 4)) (d₂ := (0 : Fin 4))
    (by rw [duties_snd_2_0_1]; exact Finset.mem_singleton_self _) (by rw [duties_rcv_2_0_1]; exact Finset.mem_singleton_self _)
    () () N rfl (amount_snd_2_0_1 val jk jr c 0) (amount_rcv_2_0_1 val jk jr (pe c 1) 0) O rfl (W := W) ?_ ?_
  · rw [payload_snd_2_0_1]
    exact (pointsTo_congr_on (c : Thread nD τ) (rsM 0 1 inb_S2x4x64x256_S1x1x64x256_0_1_0_0).view _ (by
      rw [← hfs]; exact write_read_agree (rsM 0 1 inb_S2x4x64x256_S1x1x64x256_0_1_0_0).view (jr c) fs)).1
  · rw [payload_rcv_2_0_1, ps_pe1, hfs]
    exact (pointsTo_congr_on (pe c 1 : Thread nD τ) (rsM 1 1 inb_S2x4x64x256_S1x1x64x256_1_1_0_0).view _
      (write_univ_agree (rsM 1 1 inb_S2x4x64x256_S1x1x64x256_1_1_0_0).view fd (jr (pe c 1)) (val c 2 1))).1

/-- info: 'Cert.Kernel.Mlp.wp_send_2_0_1' depends on axioms: [propext, Classical.choice, Quot.sound] -/
#guard_msgs in #print axioms wp_send_2_0_1

/-- The copy of key `(2, 0, 2)`: device `c` sends its block to the device `2` ahead, paying the one duty of its own send cell
    and the one duty of that device's receive cell; the source share comes back with the send cell's credit. -/
theorem wp_send_2_0_2 (K : GSem nD τ sig → ℕ) (c : Dev nD)
    (fs : Buf (Elt F) ((c : Thread nD τ).loc cc0_scratch1)) (fd : Buf (Elt F) ((pe c 2 : Thread nD τ).loc cc0_scratch1))
    (hfs : (rsM 0 2 inb_S2x4x64x256_S1x1x64x256_0_2_0_0).view.read (Elt F) fs = val c 2 2)
    (O : CellTallies nD τ sig Unit) (W : Waits sig Unit)
    {hsc : ((rsM 1 2 inb_S2x4x64x256_S1x1x64x256_1_2_0_0) : Memref sig (Dev.tc (pe c 2) : Thread nD τ).2.kind .vmem S64x256 .bf16).view.ref.isScScratch = false}
    {hsrc : (rsM 0 2 inb_S2x4x64x256_S1x1x64x256_0_2_0_0).view.WordExact} {hdst : (rsM 1 2 inb_S2x4x64x256_S1x1x64x256_1_2_0_0).view.WordExact}
    {hsem : DmaTarget.Typed .vmem (.dma (rcvS 2 0 2 inb_S3x4x4_S1x1x1_2_0_2)) (.remote (Dev.tc (pe c 2) : Thread nD τ) (rsM 1 2 inb_S2x4x64x256_S1x1x64x256_1_2_0_0) (.dma (sndS 2 0 2 inb_S3x4x4_S1x1x1_2_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
        ∗ cellInv ER (Rd val jk jr) (K ((pe c 2 : Thread nD τ), SemLoc.dma (rcvS 2 0 2 inb_S3x4x4_S1x1x1_2_0_2))) ((pe c 2 : Thread nD τ), SemLoc.dma (rcvS 2 0 2 inb_S3x4x4_S1x1x1_2_0_2))
        ∗ ((rsM 0 2 inb_S2x4x64x256_S1x1x64x256_0_2_0_0).view.loc (c : Thread nD τ) ↦[(rsM 0 2 inb_S2x4x64x256_S1x1x64x256_0_2_0_0).view.set]{fullShare} fs)
        ∗ ((rsM 1 2 inb_S2x4x64x256_S1x1x64x256_1_2_0_0).view.loc (pe c 2 : Thread nD τ) ↦[(rsM 1 2 inb_S2x4x64x256_S1x1x64x256_1_2_0_0).view.set]{fullShare} fd)
        ∗ owes (c : Thread nD τ) (O + tallyAt ((pe c 2 : Thread nD τ), SemLoc.dma (rcvS 2 0 2 inb_S3x4x4_S1x1x1_2_0_2)) () N) W
        ∗ dutyTok ER ((c : Thread nD τ), SemLoc.dma (sndS 2 0 2 inb_S3x4x4_S1x1x1_2_0_2)) 0 (0 : Fin 4) ∗ reached ER ((c : Thread nD τ), SemLoc.dma (sndS 2 0 2 inb_S3x4x4_S1x1x1_2_0_2)) 0
        ∗ dutyTok ER ((pe c 2 : Thread nD τ), SemLoc.dma (rcvS 2 0 2 inb_S3x4x4_S1x1x1_2_0_2)) 0 (0 : Fin 4) ∗ reached ER ((pe c 2 : Thread nD τ), SemLoc.dma (rcvS 2 0 2 inb_S3x4x4_S1x1x1_2_0_2)) 0)
      ⊢ iprop(((cred (tallyAt ((c : Thread nD τ), SemLoc.dma (sndS 2 0 2 inb_S3x4x4_S1x1x1_2_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 2 inb_S2x4x64x256_S1x1x64x256_0_2_0_0) (.remote (Dev.tc (pe c 2) : Thread nD τ) (rsM 1 2 inb_S2x4x64x256_S1x1x64x256_1_2_0_0) (.dma (sndS 2 0 2 inb_S3x4x4_S1x1x1_2_0_2)) hsc) (.dma (rcvS 2 0 2 inb_S3x4x4_S1x1x1_2_0_2)) hsrc hdst hsem) k) Q) := by
  refine Rounds.wp_send_pointsTo 𝒱₀ ER (Rd val jk jr) (c : Thread nD τ) none
    (c' := (pe c 2 : Thread nD τ)) (src := (rsM 0 2 inb_S2x4x64x256_S1x1x64x256_0_2_0_0)) (dst := (rsM 1 2 inb_S2x4x64x256_S1x1x64x256_1_2_0_0)) (q := fullShare) (fs := fs) (fd := fd)
    (κ₁ := K ((c : Thread nD τ), SemLoc.dma (sndS 2 0 2 inb_S3x4x4_S1x1x1_2_0_2))) (κ₂ := K ((pe c 2 : Thread nD τ), SemLoc.dma (rcvS 2 0 2 inb_S3x4x4_S1x1x1_2_0_2))) (r₁ := 0) (r₂ := 0) (d₁ := (0 : Fin 4)) (d₂ := (0 : Fin 4))
    (by rw [duties_snd_2_0_2]; exact Finset.mem_singleton_self _) (by rw [duties_rcv_2_0_2]; exact Finset.mem_singleton_self _)
    () () N rfl (amount_snd_2_0_2 val jk jr c 0) (amount_rcv_2_0_2 val jk jr (pe c 2) 0) O rfl (W := W) ?_ ?_
  · rw [payload_snd_2_0_2]
    exact (pointsTo_congr_on (c : Thread nD τ) (rsM 0 2 inb_S2x4x64x256_S1x1x64x256_0_2_0_0).view _ (by
      rw [← hfs]; exact write_read_agree (rsM 0 2 inb_S2x4x64x256_S1x1x64x256_0_2_0_0).view (jr c) fs)).1
  · rw [payload_rcv_2_0_2, ps_pe2, hfs]
    exact (pointsTo_congr_on (pe c 2 : Thread nD τ) (rsM 1 2 inb_S2x4x64x256_S1x1x64x256_1_2_0_0).view _
      (write_univ_agree (rsM 1 2 inb_S2x4x64x256_S1x1x64x256_1_2_0_0).view fd (jr (pe c 2)) (val c 2 2))).1

/-- info: 'Cert.Kernel.Mlp.wp_send_2_0_2' depends on axioms: [propext, Classical.choice, Quot.sound] -/
#guard_msgs in #print axioms wp_send_2_0_2

/-- The copy of key `(2, 0, 3)`: device `c` sends its block to the device `3` ahead, paying the one duty of its own send cell
    and the one duty of that device's receive cell; the source share comes back with the send cell's credit. -/
theorem wp_send_2_0_3 (K : GSem nD τ sig → ℕ) (c : Dev nD)
    (fs : Buf (Elt F) ((c : Thread nD τ).loc cc0_scratch1)) (fd : Buf (Elt F) ((pe c 3 : Thread nD τ).loc cc0_scratch1))
    (hfs : (rsM 0 3 inb_S2x4x64x256_S1x1x64x256_0_3_0_0).view.read (Elt F) fs = val c 2 3)
    (O : CellTallies nD τ sig Unit) (W : Waits sig Unit)
    {hsc : ((rsM 1 3 inb_S2x4x64x256_S1x1x64x256_1_3_0_0) : Memref sig (Dev.tc (pe c 3) : Thread nD τ).2.kind .vmem S64x256 .bf16).view.ref.isScScratch = false}
    {hsrc : (rsM 0 3 inb_S2x4x64x256_S1x1x64x256_0_3_0_0).view.WordExact} {hdst : (rsM 1 3 inb_S2x4x64x256_S1x1x64x256_1_3_0_0).view.WordExact}
    {hsem : DmaTarget.Typed .vmem (.dma (rcvS 2 0 3 inb_S3x4x4_S1x1x1_2_0_3)) (.remote (Dev.tc (pe c 3) : Thread nD τ) (rsM 1 3 inb_S2x4x64x256_S1x1x64x256_1_3_0_0) (.dma (sndS 2 0 3 inb_S3x4x4_S1x1x1_2_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
        ∗ cellInv ER (Rd val jk jr) (K ((pe c 3 : Thread nD τ), SemLoc.dma (rcvS 2 0 3 inb_S3x4x4_S1x1x1_2_0_3))) ((pe c 3 : Thread nD τ), SemLoc.dma (rcvS 2 0 3 inb_S3x4x4_S1x1x1_2_0_3))
        ∗ ((rsM 0 3 inb_S2x4x64x256_S1x1x64x256_0_3_0_0).view.loc (c : Thread nD τ) ↦[(rsM 0 3 inb_S2x4x64x256_S1x1x64x256_0_3_0_0).view.set]{fullShare} fs)
        ∗ ((rsM 1 3 inb_S2x4x64x256_S1x1x64x256_1_3_0_0).view.loc (pe c 3 : Thread nD τ) ↦[(rsM 1 3 inb_S2x4x64x256_S1x1x64x256_1_3_0_0).view.set]{fullShare} fd)
        ∗ owes (c : Thread nD τ) (O + tallyAt ((pe c 3 : Thread nD τ), SemLoc.dma (rcvS 2 0 3 inb_S3x4x4_S1x1x1_2_0_3)) () N) W
        ∗ dutyTok ER ((c : Thread nD τ), SemLoc.dma (sndS 2 0 3 inb_S3x4x4_S1x1x1_2_0_3)) 0 (0 : Fin 4) ∗ reached ER ((c : Thread nD τ), SemLoc.dma (sndS 2 0 3 inb_S3x4x4_S1x1x1_2_0_3)) 0
        ∗ dutyTok ER ((pe c 3 : Thread nD τ), SemLoc.dma (rcvS 2 0 3 inb_S3x4x4_S1x1x1_2_0_3)) 0 (0 : Fin 4) ∗ reached ER ((pe c 3 : Thread nD τ), SemLoc.dma (rcvS 2 0 3 inb_S3x4x4_S1x1x1_2_0_3)) 0)
      ⊢ iprop(((cred (tallyAt ((c : Thread nD τ), SemLoc.dma (sndS 2 0 3 inb_S3x4x4_S1x1x1_2_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 3 inb_S2x4x64x256_S1x1x64x256_0_3_0_0) (.remote (Dev.tc (pe c 3) : Thread nD τ) (rsM 1 3 inb_S2x4x64x256_S1x1x64x256_1_3_0_0) (.dma (sndS 2 0 3 inb_S3x4x4_S1x1x1_2_0_3)) hsc) (.dma (rcvS 2 0 3 inb_S3x4x4_S1x1x1_2_0_3)) hsrc hdst hsem) k) Q) := by
  refine Rounds.wp_send_pointsTo 𝒱₀ ER (Rd val jk jr) (c : Thread nD τ) none
    (c' := (pe c 3 : Thread nD τ)) (src := (rsM 0 3 inb_S2x4x64x256_S1x1x64x256_0_3_0_0)) (dst := (rsM 1 3 inb_S2x4x64x256_S1x1x64x256_1_3_0_0)) (q := fullShare) (fs := fs) (fd := fd)
    (κ₁ := K ((c : Thread nD τ), SemLoc.dma (sndS 2 0 3 inb_S3x4x4_S1x1x1_2_0_3))) (κ₂ := K ((pe c 3 : Thread nD τ), SemLoc.dma (rcvS 2 0 3 inb_S3x4x4_S1x1x1_2_0_3))) (r₁ := 0) (r₂ := 0) (d₁ := (0 : Fin 4)) (d₂ := (0 : Fin 4))
    (by rw [duties_snd_2_0_3]; exact Finset.mem_singleton_self _) (by rw [duties_rcv_2_0_3]; exact Finset.mem_singleton_self _)
    () () N rfl (amount_snd_2_0_3 val jk jr c 0) (amount_rcv_2_0_3 val jk jr (pe c 3) 0) O rfl (W := W) ?_ ?_
  · rw [payload_snd_2_0_3]
    exact (pointsTo_congr_on (c : Thread nD τ) (rsM 0 3 inb_S2x4x64x256_S1x1x64x256_0_3_0_0).view _ (by
      rw [← hfs]; exact write_read_agree (rsM 0 3 inb_S2x4x64x256_S1x1x64x256_0_3_0_0).view (jr c) fs)).1
  · rw [payload_rcv_2_0_3, ps_pe3, hfs]
    exact (pointsTo_congr_on (pe c 3 : Thread nD τ) (rsM 1 3 inb_S2x4x64x256_S1x1x64x256_1_3_0_0).view _
      (write_univ_agree (rsM 1 3 inb_S2x4x64x256_S1x1x64x256_1_3_0_0).view fd (jr (pe c 3)) (val c 2 3))).1

/-- info: 'Cert.Kernel.Mlp.wp_send_2_0_3' depends on axioms: [propext, Classical.choice, Quot.sound] -/
#guard_msgs in #print axioms wp_send_2_0_3

end Cert.Kernel.Mlp

end
-- ==== Proof.Bits.SendRulesTo.lean ====
import proofs.«900991_g7700000000000992_dist_mlpseq_tp1d_rep_bs_b256_d256_h512_v7x_i4_bf16_1_alg».proof.Proof.Bits.SendRules

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
variable (val : Dev nD → ℕ → ℕ → S64x256.Idx → Elt F .bf16)
variable (jk : (c : Dev nD) → Buf (Elt F) ((c : Thread nD τ).loc cc0_scratch0))
variable (jr : (c : Dev nD) → Buf (Elt F) ((c : Thread nD τ).loc cc0_scratch1))
variable (outv : (c : Dev nD) → (cc0_stg7_0 : Ref sig .tc).ty.Contents (Elt F))

/-! The rule of each copy with its destination device named by a variable: the program names that device by an expression of
    its own, equal to the device `o` ahead; the equation is substituted and the rule of the key applies. -/

/-- The rule of the copy of key `(0, 0, 1)` stated at the device `1` ahead of `c`, for a program that names that device `e'`. -/
theorem wp_sendTo_0_0_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 1 inb_S2x4x4x64x256_S1x1x1x64x256_0_0_1_0_0) : Memref sig (Dev.tc e' : Thread nD τ).2.kind .vmem S64x256 .bf16).view.ref.isScScratch = false}
    {hsrc : (slotM 0 0 0 inb_S2x4x4x64x256_S1x1x1x64x256_0_0_0_0_0).view.WordExact} {hdst : (slotM 0 0 1 inb_S2x4x4x64x256_S1x1x1x64x256_0_0_1_0_0).view.WordExact}
    {hsem : DmaTarget.Typed .vmem (.dma (rcvS 0 0 1 inb_S3x4x4_S1x1x1_0_0_1)) (.remote (Dev.tc e' : Thread nD τ) (slotM 0 0 1 inb_S2x4x4x64x256_S1x1x1x64x256_0_0_1_0_0) (.dma (sndS 0 0 1 inb_S3x4x4_S1x1x1_0_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 1 inb_S3x4x4_S1x1x1_0_0_1))) ((c : Thread nD τ), SemLoc.dma (sndS 0 0 1 inb_S3x4x4_S1x1x1_0_0_1))
        ∗ cellInv ER (Rd val jk jr) (K ((pe c 1 : Thread nD τ), SemLoc.dma (rcvS 0 0 1 inb_S3x4x4_S1x1x1_0_0_1))) ((pe c 1 : Thread nD τ), SemLoc.dma (rcvS 0 0 1 inb_S3x4x4_S1x1x1_0_0_1))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 0} fs)
        ∗ ((slotM 0 0 1 inb_S2x4x4x64x256_S1x1x1x64x256_0_0_1_0_0).view.loc (pe c 1 : Thread nD τ) ↦[(slotM 0 0 1 inb_S2x4x4x64x256_S1x1x1x64x256_0_0_1_0_0).view.set]{fullShare} fd)
        ∗ owes (c : Thread nD τ) (O + tallyAt ((pe c 1 : Thread nD τ), SemLoc.dma (rcvS 0 0 1 inb_S3x4x4_S1x1x1_0_0_1)) () N) W
        ∗ dutyTok ER ((c : Thread nD τ), SemLoc.dma (sndS 0 0 1 inb_S3x4x4_S1x1x1_0_0_1)) 0 (0 : Fin 4) ∗ reached ER ((c : Thread nD τ), SemLoc.dma (sndS 0 0 1 inb_S3x4x4_S1x1x1_0_0_1)) 0
        ∗ dutyTok ER ((pe c 1 : Thread nD τ), SemLoc.dma (rcvS 0 0 1 inb_S3x4x4_S1x1x1_0_0_1)) 0 (0 : Fin 4) ∗ reached ER ((pe c 1 : Thread nD τ), SemLoc.dma (rcvS 0 0 1 inb_S3x4x4_S1x1x1_0_0_1)) 0)
      ⊢ iprop(((cred (tallyAt ((c : Thread nD τ), SemLoc.dma (sndS 0 0 1 inb_S3x4x4_S1x1x1_0_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc e' : Thread nD τ) (slotM 0 0 1 inb_S2x4x4x64x256_S1x1x1x64x256_0_0_1_0_0) (.dma (sndS 0 0 1 inb_S3x4x4_S1x1x1_0_0_1)) hsc) (.dma (rcvS 0 0 1 inb_S3x4x4_S1x1x1_0_0_1)) hsrc hdst hsem) k) Q) := by
  subst he
  exact wp_send_0_0_1 val jk jr K c fs fd hfs O W

/-- info: 'Cert.Kernel.Mlp.wp_sendTo_0_0_1' depends on axioms: [propext, Classical.choice, Quot.sound] -/
#guard_msgs in #print axioms wp_sendTo_0_0_1

/-- The rule of the copy of key `(0, 0, 2)` stated at the device `2` ahead of `c`, for a program that names that device `e'`. -/
theorem wp_sendTo_0_0_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 2 inb_S2x4x4x64x256_S1x1x1x64x256_0_0_2_0_0) : Memref sig (Dev.tc e' : Thread nD τ).2.kind .vmem S64x256 .bf16).view.ref.isScScratch = false}
    {hsrc : (slotM 0 0 0 inb_S2x4x4x64x256_S1x1x1x64x256_0_0_0_0_0).view.WordExact} {hdst : (slotM 0 0 2 inb_S2x4x4x64x256_S1x1x1x64x256_0_0_2_0_0).view.WordExact}
    {hsem : DmaTarget.Typed .vmem (.dma (rcvS 0 0 2 inb_S3x4x4_S1x1x1_0_0_2)) (.remote (Dev.tc e' : Thread nD τ) (slotM 0 0 2 inb_S2x4x4x64x256_S1x1x1x64x256_0_0_2_0_0) (.dma (sndS 0 0 2 inb_S3x4x4_S1x1x1_0_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 2 inb_S3x4x4_S1x1x1_0_0_2))) ((c : Thread nD τ), SemLoc.dma (sndS 0 0 2 inb_S3x4x4_S1x1x1_0_0_2))
        ∗ cellInv ER (Rd val jk jr) (K ((pe c 2 : Thread nD τ), SemLoc.dma (rcvS 0 0 2 inb_S3x4x4_S1x1x1_0_0_2))) ((pe c 2 : Thread nD τ), SemLoc.dma (rcvS 0 0 2 inb_S3x4x4_S1x1x1_0_0_2))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 1} fs)
        ∗ ((slotM 0 0 2 inb_S2x4x4x64x256_S1x1x1x64x256_0_0_2_0_0).view.loc (pe c 2 : Thread nD τ) ↦[(slotM 0 0 2 inb_S2x4x4x64x256_S1x1x1x64x256_0_0_2_0_0).view.set]{fullShare} fd)
        ∗ owes (c : Thread nD τ) (O + tallyAt ((pe c 2 : Thread nD τ), SemLoc.dma (rcvS 0 0 2 inb_S3x4x4_S1x1x1_0_0_2)) () N) W
        ∗ dutyTok ER ((c : Thread nD τ), SemLoc.dma (sndS 0 0 2 inb_S3x4x4_S1x1x1_0_0_2)) 0 (0 : Fin 4) ∗ reached ER ((c : Thread nD τ), SemLoc.dma (sndS 0 0 2 inb_S3x4x4_S1x1x1_0_0_2)) 0
        ∗ dutyTok ER ((pe c 2 : Thread nD τ), SemLoc.dma (rcvS 0 0 2 inb_S3x4x4_S1x1x1_0_0_2)) 0 (0 : Fin 4) ∗ reached ER ((pe c 2 : Thread nD τ), SemLoc.dma (rcvS 0 0 2 inb_S3x4x4_S1x1x1_0_0_2)) 0)
      ⊢ iprop(((cred (tallyAt ((c : Thread nD τ), SemLoc.dma (sndS 0 0 2 inb_S3x4x4_S1x1x1_0_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc e' : Thread nD τ) (slotM 0 0 2 inb_S2x4x4x64x256_S1x1x1x64x256_0_0_2_0_0) (.dma (sndS 0 0 2 inb_S3x4x4_S1x1x1_0_0_2)) hsc) (.dma (rcvS 0 0 2 inb_S3x4x4_S1x1x1_0_0_2)) hsrc hdst hsem) k) Q) := by
  subst he
  exact wp_send_0_0_2 val jk jr K c fs fd hfs O W

/-- info: 'Cert.Kernel.Mlp.wp_sendTo_0_0_2' depends on axioms: [propext, Classical.choice, Quot.sound] -/
#guard_msgs in #print axioms wp_sendTo_0_0_2

/-- The rule of the copy of key `(0, 0, 3)` stated at the device `3` ahead of `c`, for a program that names that device `e'`. -/
theorem wp_sendTo_0_0_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 0 0 inb_S2x4x4x64x256_S1x1x1x64x256_0_0_0_0_0).view.read (Elt F) fs = val c 0 0)
    (O : CellTallies nD τ sig Unit) (W : Waits sig Unit)
    {hsc : ((slotM 0 0 3 inb_S2x4x4x64x256_S1x1x1x64x256_0_0_3_0_0) : Memref sig (Dev.tc e' : Thread nD τ).2.kind .vmem S64x256 .bf16).view.ref.isScScratch = false}
    {hsrc : (slotM 0 0 0 inb_S2x4x4x64x256_S1x1x1x64x256_0_0_0_0_0).view.WordExact} {hdst : (slotM 0 0 3 inb_S2x4x4x64x256_S1x1x1x64x256_0_0_3_0_0).view.WordExact}
    {hsem : DmaTarget.Typed .vmem (.dma (rcvS 0 0 3 inb_S3x4x4_S1x1x1_0_0_3)) (.remote (Dev.tc e' : Thread nD τ) (slotM 0 0 3 inb_S2x4x4x64x256_S1x1x1x64x256_0_0_3_0_0) (.dma (sndS 0 0 3 inb_S3x4x4_S1x1x1_0_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 0 3 inb_S3x4x4_S1x1x1_0_0_3))) ((c : Thread nD τ), SemLoc.dma (sndS 0 0 3 inb_S3x4x4_S1x1x1_0_0_3))
        ∗ cellInv ER (Rd val jk jr) (K ((pe c 3 : Thread nD τ), SemLoc.dma (rcvS 0 0 3 inb_S3x4x4_S1x1x1_0_0_3))) ((pe c 3 : Thread nD τ), SemLoc.dma (rcvS 0 0 3 inb_S3x4x4_S1x1x1_0_0_3))
        ∗ ((slotM 0 0 0 inb_S2x4x4x64x256_S1x1x1x64x256_0_0_0_0_0).view.loc (c : Thread nD τ) ↦[(slotM 0 0 0 inb_S2x4x4x64x256_S1x1x1x64x256_0_0_0_0_0).view.set]{Transfers.shareTokN fullShare 2} fs)
        ∗ ((slotM 0 0 3 inb_S2x4x4x64x256_S1x1x1x64x256_0_0_3_0_0).view.loc (pe c 3 : Thread nD τ) ↦[(slotM 0 0 3 inb_S2x4x4x64x256_S1x1x1x64x256_0_0_3_0_0).view.set]{fullShare} fd)
        ∗ owes (c : Thread nD τ) (O + tallyAt ((pe c 3 : Thread nD τ), SemLoc.dma (rcvS 0 0 3 inb_S3x4x4_S1x1x1_0_0_3)) () N) W
        ∗ dutyTok ER ((c : Thread nD τ), SemLoc.dma (sndS 0 0 3 inb_S3x4x4_S1x1x1_0_0_3)) 0 (0 : Fin 4) ∗ reached ER ((c : Thread nD τ), SemLoc.dma (sndS 0 0 3 inb_S3x4x4_S1x1x1_0_0_3)) 0
        ∗ dutyTok ER ((pe c 3 : Thread nD τ), SemLoc.dma (rcvS 0 0 3 inb_S3x4x4_S1x1x1_0_0_3)) 0 (0 : Fin 4) ∗ reached ER ((pe c 3 : Thread nD τ), SemLoc.dma (rcvS 0 0 3 inb_S3x4x4_S1x1x1_0_0_3)) 0)
      ⊢ iprop(((cred (tallyAt ((c : Thread nD τ), SemLoc.dma (sndS 0 0 3 inb_S3x4x4_S1x1x1_0_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 0 0 inb_S2x4x4x64x256_S1x1x1x64x256_0_0_0_0_0) (.remote (Dev.tc e' : Thread nD τ) (slotM 0 0 3 inb_S2x4x4x64x256_S1x1x1x64x256_0_0_3_0_0) (.dma (sndS 0 0 3 inb_S3x4x4_S1x1x1_0_0_3)) hsc) (.dma (rcvS 0 0 3 inb_S3x4x4_S1x1x1_0_0_3)) hsrc hdst hsem) k) Q) := by
  subst he
  exact wp_send_0_0_3 val jk jr K c fs fd hfs O W

/-- info: 'Cert.Kernel.Mlp.wp_sendTo_0_0_3' depends on axioms: [propext, Classical.choice, Quot.sound] -/
#guard_msgs in #print axioms wp_sendTo_0_0_3

/-- The rule of the copy of key `(0, 1, 1)` stated at the device `1` ahead of `c`, for a program that names that device `e'`. -/
theorem wp_sendTo_0_1_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 1 inb_S2x4x4x64x256_S1x1x1x64x256_0_1_1_0_0) : Memref sig (Dev.tc e' : Thread nD τ).2.kind .vmem S64x256 .bf16).view.ref.isScScratch = false}
    {hsrc : (slotM 0 1 0 inb_S2x4x4x64x256_S1x1x1x64x256_0_1_0_0_0).view.WordExact} {hdst : (slotM 0 1 1 inb_S2x4x4x64x256_S1x1x1x64x256_0_1_1_0_0).view.WordExact}
    {hsem : DmaTarget.Typed .vmem (.dma (rcvS 0 1 1 inb_S3x4x4_S1x1x1_0_1_1)) (.remote (Dev.tc e' : Thread nD τ) (slotM 0 1 1 inb_S2x4x4x64x256_S1x1x1x64x256_0_1_1_0_0) (.dma (sndS 0 1 1 inb_S3x4x4_S1x1x1_0_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 1 inb_S3x4x4_S1x1x1_0_1_1))) ((c : Thread nD τ), SemLoc.dma (sndS 0 1 1 inb_S3x4x4_S1x1x1_0_1_1))
        ∗ cellInv ER (Rd val jk jr) (K ((pe c 1 : Thread nD τ), SemLoc.dma (rcvS 0 1 1 inb_S3x4x4_S1x1x1_0_1_1))) ((pe c 1 : Thread nD τ), SemLoc.dma (rcvS 0 1 1 inb_S3x4x4_S1x1x1_0_1_1))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 0} fs)
        ∗ ((slotM 0 1 1 inb_S2x4x4x64x256_S1x1x1x64x256_0_1_1_0_0).view.loc (pe c 1 : Thread nD τ) ↦[(slotM 0 1 1 inb_S2x4x4x64x256_S1x1x1x64x256_0_1_1_0_0).view.set]{fullShare} fd)
        ∗ owes (c : Thread nD τ) (O + tallyAt ((pe c 1 : Thread nD τ), SemLoc.dma (rcvS 0 1 1 inb_S3x4x4_S1x1x1_0_1_1)) () N) W
        ∗ dutyTok ER ((c : Thread nD τ), SemLoc.dma (sndS 0 1 1 inb_S3x4x4_S1x1x1_0_1_1)) 0 (0 : Fin 4) ∗ reached ER ((c : Thread nD τ), SemLoc.dma (sndS 0 1 1 inb_S3x4x4_S1x1x1_0_1_1)) 0
        ∗ dutyTok ER ((pe c 1 : Thread nD τ), SemLoc.dma (rcvS 0 1 1 inb_S3x4x4_S1x1x1_0_1_1)) 0 (0 : Fin 4) ∗ reached ER ((pe c 1 : Thread nD τ), SemLoc.dma (rcvS 0 1 1 inb_S3x4x4_S1x1x1_0_1_1)) 0)
      ⊢ iprop(((cred (tallyAt ((c : Thread nD τ), SemLoc.dma (sndS 0 1 1 inb_S3x4x4_S1x1x1_0_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc e' : Thread nD τ) (slotM 0 1 1 inb_S2x4x4x64x256_S1x1x1x64x256_0_1_1_0_0) (.dma (sndS 0 1 1 inb_S3x4x4_S1x1x1_0_1_1)) hsc) (.dma (rcvS 0 1 1 inb_S3x4x4_S1x1x1_0_1_1)) hsrc hdst hsem) k) Q) := by
  subst he
  exact wp_send_0_1_1 val jk jr K c fs fd hfs O W

/-- info: 'Cert.Kernel.Mlp.wp_sendTo_0_1_1' depends on axioms: [propext, Classical.choice, Quot.sound] -/
#guard_msgs in #print axioms wp_sendTo_0_1_1

/-- The rule of the copy of key `(0, 1, 2)` stated at the device `2` ahead of `c`, for a program that names that device `e'`. -/
theorem wp_sendTo_0_1_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 2 inb_S2x4x4x64x256_S1x1x1x64x256_0_1_2_0_0) : Memref sig (Dev.tc e' : Thread nD τ).2.kind .vmem S64x256 .bf16).view.ref.isScScratch = false}
    {hsrc : (slotM 0 1 0 inb_S2x4x4x64x256_S1x1x1x64x256_0_1_0_0_0).view.WordExact} {hdst : (slotM 0 1 2 inb_S2x4x4x64x256_S1x1x1x64x256_0_1_2_0_0).view.WordExact}
    {hsem : DmaTarget.Typed .vmem (.dma (rcvS 0 1 2 inb_S3x4x4_S1x1x1_0_1_2)) (.remote (Dev.tc e' : Thread nD τ) (slotM 0 1 2 inb_S2x4x4x64x256_S1x1x1x64x256_0_1_2_0_0) (.dma (sndS 0 1 2 inb_S3x4x4_S1x1x1_0_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 2 inb_S3x4x4_S1x1x1_0_1_2))) ((c : Thread nD τ), SemLoc.dma (sndS 0 1 2 inb_S3x4x4_S1x1x1_0_1_2))
        ∗ cellInv ER (Rd val jk jr) (K ((pe c 2 : Thread nD τ), SemLoc.dma (rcvS 0 1 2 inb_S3x4x4_S1x1x1_0_1_2))) ((pe c 2 : Thread nD τ), SemLoc.dma (rcvS 0 1 2 inb_S3x4x4_S1x1x1_0_1_2))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 1} fs)
        ∗ ((slotM 0 1 2 inb_S2x4x4x64x256_S1x1x1x64x256_0_1_2_0_0).view.loc (pe c 2 : Thread nD τ) ↦[(slotM 0 1 2 inb_S2x4x4x64x256_S1x1x1x64x256_0_1_2_0_0).view.set]{fullShare} fd)
        ∗ owes (c : Thread nD τ) (O + tallyAt ((pe c 2 : Thread nD τ), SemLoc.dma (rcvS 0 1 2 inb_S3x4x4_S1x1x1_0_1_2)) () N) W
        ∗ dutyTok ER ((c : Thread nD τ), SemLoc.dma (sndS 0 1 2 inb_S3x4x4_S1x1x1_0_1_2)) 0 (0 : Fin 4) ∗ reached ER ((c : Thread nD τ), SemLoc.dma (sndS 0 1 2 inb_S3x4x4_S1x1x1_0_1_2)) 0
        ∗ dutyTok ER ((pe c 2 : Thread nD τ), SemLoc.dma (rcvS 0 1 2 inb_S3x4x4_S1x1x1_0_1_2)) 0 (0 : Fin 4) ∗ reached ER ((pe c 2 : Thread nD τ), SemLoc.dma (rcvS 0 1 2 inb_S3x4x4_S1x1x1_0_1_2)) 0)
      ⊢ iprop(((cred (tallyAt ((c : Thread nD τ), SemLoc.dma (sndS 0 1 2 inb_S3x4x4_S1x1x1_0_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc e' : Thread nD τ) (slotM 0 1 2 inb_S2x4x4x64x256_S1x1x1x64x256_0_1_2_0_0) (.dma (sndS 0 1 2 inb_S3x4x4_S1x1x1_0_1_2)) hsc) (.dma (rcvS 0 1 2 inb_S3x4x4_S1x1x1_0_1_2)) hsrc hdst hsem) k) Q) := by
  subst he
  exact wp_send_0_1_2 val jk jr K c fs fd hfs O W

/-- info: 'Cert.Kernel.Mlp.wp_sendTo_0_1_2' depends on axioms: [propext, Classical.choice, Quot.sound] -/
#guard_msgs in #print axioms wp_sendTo_0_1_2

/-- The rule of the copy of key `(0, 1, 3)` stated at the device `3` ahead of `c`, for a program that names that device `e'`. -/
theorem wp_sendTo_0_1_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 1 0 inb_S2x4x4x64x256_S1x1x1x64x256_0_1_0_0_0).view.read (Elt F) fs = val c 0 1)
    (O : CellTallies nD τ sig Unit) (W : Waits sig Unit)
    {hsc : ((slotM 0 1 3 inb_S2x4x4x64x256_S1x1x1x64x256_0_1_3_0_0) : Memref sig (Dev.tc e' : Thread nD τ).2.kind .vmem S64x256 .bf16).view.ref.isScScratch = false}
    {hsrc : (slotM 0 1 0 inb_S2x4x4x64x256_S1x1x1x64x256_0_1_0_0_0).view.WordExact} {hdst : (slotM 0 1 3 inb_S2x4x4x64x256_S1x1x1x64x256_0_1_3_0_0).view.WordExact}
    {hsem : DmaTarget.Typed .vmem (.dma (rcvS 0 1 3 inb_S3x4x4_S1x1x1_0_1_3)) (.remote (Dev.tc e' : Thread nD τ) (slotM 0 1 3 inb_S2x4x4x64x256_S1x1x1x64x256_0_1_3_0_0) (.dma (sndS 0 1 3 inb_S3x4x4_S1x1x1_0_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 1 3 inb_S3x4x4_S1x1x1_0_1_3))) ((c : Thread nD τ), SemLoc.dma (sndS 0 1 3 inb_S3x4x4_S1x1x1_0_1_3))
        ∗ cellInv ER (Rd val jk jr) (K ((pe c 3 : Thread nD τ), SemLoc.dma (rcvS 0 1 3 inb_S3x4x4_S1x1x1_0_1_3))) ((pe c 3 : Thread nD τ), SemLoc.dma (rcvS 0 1 3 inb_S3x4x4_S1x1x1_0_1_3))
        ∗ ((slotM 0 1 0 inb_S2x4x4x64x256_S1x1x1x64x256_0_1_0_0_0).view.loc (c : Thread nD τ) ↦[(slotM 0 1 0 inb_S2x4x4x64x256_S1x1x1x64x256_0_1_0_0_0).view.set]{Transfers.shareTokN fullShare 2} fs)
        ∗ ((slotM 0 1 3 inb_S2x4x4x64x256_S1x1x1x64x256_0_1_3_0_0).view.loc (pe c 3 : Thread nD τ) ↦[(slotM 0 1 3 inb_S2x4x4x64x256_S1x1x1x64x256_0_1_3_0_0).view.set]{fullShare} fd)
        ∗ owes (c : Thread nD τ) (O + tallyAt ((pe c 3 : Thread nD τ), SemLoc.dma (rcvS 0 1 3 inb_S3x4x4_S1x1x1_0_1_3)) () N) W
        ∗ dutyTok ER ((c : Thread nD τ), SemLoc.dma (sndS 0 1 3 inb_S3x4x4_S1x1x1_0_1_3)) 0 (0 : Fin 4) ∗ reached ER ((c : Thread nD τ), SemLoc.dma (sndS 0 1 3 inb_S3x4x4_S1x1x1_0_1_3)) 0
        ∗ dutyTok ER ((pe c 3 : Thread nD τ), SemLoc.dma (rcvS 0 1 3 inb_S3x4x4_S1x1x1_0_1_3)) 0 (0 : Fin 4) ∗ reached ER ((pe c 3 : Thread nD τ), SemLoc.dma (rcvS 0 1 3 inb_S3x4x4_S1x1x1_0_1_3)) 0)
      ⊢ iprop(((cred (tallyAt ((c : Thread nD τ), SemLoc.dma (sndS 0 1 3 inb_S3x4x4_S1x1x1_0_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 1 0 inb_S2x4x4x64x256_S1x1x1x64x256_0_1_0_0_0) (.remote (Dev.tc e' : Thread nD τ) (slotM 0 1 3 inb_S2x4x4x64x256_S1x1x1x64x256_0_1_3_0_0) (.dma (sndS 0 1 3 inb_S3x4x4_S1x1x1_0_1_3)) hsc) (.dma (rcvS 0 1 3 inb_S3x4x4_S1x1x1_0_1_3)) hsrc hdst hsem) k) Q) := by
  subst he
  exact wp_send_0_1_3 val jk jr K c fs fd hfs O W

/-- info: 'Cert.Kernel.Mlp.wp_sendTo_0_1_3' depends on axioms: [propext, Classical.choice, Quot.sound] -/
#guard_msgs in #print axioms wp_sendTo_0_1_3

/-- The rule of the copy of key `(0, 2, 1)` stated at the device `1` ahead of `c`, for a program that names that device `e'`. -/
theorem wp_sendTo_0_2_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 1 inb_S2x4x4x64x256_S1x1x1x64x256_0_2_1_0_0) : Memref sig (Dev.tc e' : Thread nD τ).2.kind .vmem S64x256 .bf16).view.ref.isScScratch = false}
    {hsrc : (slotM 0 2 0 inb_S2x4x4x64x256_S1x1x1x64x256_0_2_0_0_0).view.WordExact} {hdst : (slotM 0 2 1 inb_S2x4x4x64x256_S1x1x1x64x256_0_2_1_0_0).view.WordExact}
    {hsem : DmaTarget.Typed .vmem (.dma (rcvS 0 2 1 inb_S3x4x4_S1x1x1_0_2_1)) (.remote (Dev.tc e' : Thread nD τ) (slotM 0 2 1 inb_S2x4x4x64x256_S1x1x1x64x256_0_2_1_0_0) (.dma (sndS 0 2 1 inb_S3x4x4_S1x1x1_0_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 1 inb_S3x4x4_S1x1x1_0_2_1))) ((c : Thread nD τ), SemLoc.dma (sndS 0 2 1 inb_S3x4x4_S1x1x1_0_2_1))
        ∗ cellInv ER (Rd val jk jr) (K ((pe c 1 : Thread nD τ), SemLoc.dma (rcvS 0 2 1 inb_S3x4x4_S1x1x1_0_2_1))) ((pe c 1 : Thread nD τ), SemLoc.dma (rcvS 0 2 1 inb_S3x4x4_S1x1x1_0_2_1))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 0} fs)
        ∗ ((slotM 0 2 1 inb_S2x4x4x64x256_S1x1x1x64x256_0_2_1_0_0).view.loc (pe c 1 : Thread nD τ) ↦[(slotM 0 2 1 inb_S2x4x4x64x256_S1x1x1x64x256_0_2_1_0_0).view.set]{fullShare} fd)
        ∗ owes (c : Thread nD τ) (O + tallyAt ((pe c 1 : Thread nD τ), SemLoc.dma (rcvS 0 2 1 inb_S3x4x4_S1x1x1_0_2_1)) () N) W
        ∗ dutyTok ER ((c : Thread nD τ), SemLoc.dma (sndS 0 2 1 inb_S3x4x4_S1x1x1_0_2_1)) 0 (0 : Fin 4) ∗ reached ER ((c : Thread nD τ), SemLoc.dma (sndS 0 2 1 inb_S3x4x4_S1x1x1_0_2_1)) 0
        ∗ dutyTok ER ((pe c 1 : Thread nD τ), SemLoc.dma (rcvS 0 2 1 inb_S3x4x4_S1x1x1_0_2_1)) 0 (0 : Fin 4) ∗ reached ER ((pe c 1 : Thread nD τ), SemLoc.dma (rcvS 0 2 1 inb_S3x4x4_S1x1x1_0_2_1)) 0)
      ⊢ iprop(((cred (tallyAt ((c : Thread nD τ), SemLoc.dma (sndS 0 2 1 inb_S3x4x4_S1x1x1_0_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc e' : Thread nD τ) (slotM 0 2 1 inb_S2x4x4x64x256_S1x1x1x64x256_0_2_1_0_0) (.dma (sndS 0 2 1 inb_S3x4x4_S1x1x1_0_2_1)) hsc) (.dma (rcvS 0 2 1 inb_S3x4x4_S1x1x1_0_2_1)) hsrc hdst hsem) k) Q) := by
  subst he
  exact wp_send_0_2_1 val jk jr K c fs fd hfs O W

/-- info: 'Cert.Kernel.Mlp.wp_sendTo_0_2_1' depends on axioms: [propext, Classical.choice, Quot.sound] -/
#guard_msgs in #print axioms wp_sendTo_0_2_1

/-- The rule of the copy of key `(0, 2, 2)` stated at the device `2` ahead of `c`, for a program that names that device `e'`. -/
theorem wp_sendTo_0_2_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 2 inb_S2x4x4x64x256_S1x1x1x64x256_0_2_2_0_0) : Memref sig (Dev.tc e' : Thread nD τ).2.kind .vmem S64x256 .bf16).view.ref.isScScratch = false}
    {hsrc : (slotM 0 2 0 inb_S2x4x4x64x256_S1x1x1x64x256_0_2_0_0_0).view.WordExact} {hdst : (slotM 0 2 2 inb_S2x4x4x64x256_S1x1x1x64x256_0_2_2_0_0).view.WordExact}
    {hsem : DmaTarget.Typed .vmem (.dma (rcvS 0 2 2 inb_S3x4x4_S1x1x1_0_2_2)) (.remote (Dev.tc e' : Thread nD τ) (slotM 0 2 2 inb_S2x4x4x64x256_S1x1x1x64x256_0_2_2_0_0) (.dma (sndS 0 2 2 inb_S3x4x4_S1x1x1_0_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 2 inb_S3x4x4_S1x1x1_0_2_2))) ((c : Thread nD τ), SemLoc.dma (sndS 0 2 2 inb_S3x4x4_S1x1x1_0_2_2))
        ∗ cellInv ER (Rd val jk jr) (K ((pe c 2 : Thread nD τ), SemLoc.dma (rcvS 0 2 2 inb_S3x4x4_S1x1x1_0_2_2))) ((pe c 2 : Thread nD τ), SemLoc.dma (rcvS 0 2 2 inb_S3x4x4_S1x1x1_0_2_2))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 1} fs)
        ∗ ((slotM 0 2 2 inb_S2x4x4x64x256_S1x1x1x64x256_0_2_2_0_0).view.loc (pe c 2 : Thread nD τ) ↦[(slotM 0 2 2 inb_S2x4x4x64x256_S1x1x1x64x256_0_2_2_0_0).view.set]{fullShare} fd)
        ∗ owes (c : Thread nD τ) (O + tallyAt ((pe c 2 : Thread nD τ), SemLoc.dma (rcvS 0 2 2 inb_S3x4x4_S1x1x1_0_2_2)) () N) W
        ∗ dutyTok ER ((c : Thread nD τ), SemLoc.dma (sndS 0 2 2 inb_S3x4x4_S1x1x1_0_2_2)) 0 (0 : Fin 4) ∗ reached ER ((c : Thread nD τ), SemLoc.dma (sndS 0 2 2 inb_S3x4x4_S1x1x1_0_2_2)) 0
        ∗ dutyTok ER ((pe c 2 : Thread nD τ), SemLoc.dma (rcvS 0 2 2 inb_S3x4x4_S1x1x1_0_2_2)) 0 (0 : Fin 4) ∗ reached ER ((pe c 2 : Thread nD τ), SemLoc.dma (rcvS 0 2 2 inb_S3x4x4_S1x1x1_0_2_2)) 0)
      ⊢ iprop(((cred (tallyAt ((c : Thread nD τ), SemLoc.dma (sndS 0 2 2 inb_S3x4x4_S1x1x1_0_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc e' : Thread nD τ) (slotM 0 2 2 inb_S2x4x4x64x256_S1x1x1x64x256_0_2_2_0_0) (.dma (sndS 0 2 2 inb_S3x4x4_S1x1x1_0_2_2)) hsc) (.dma (rcvS 0 2 2 inb_S3x4x4_S1x1x1_0_2_2)) hsrc hdst hsem) k) Q) := by
  subst he
  exact wp_send_0_2_2 val jk jr K c fs fd hfs O W

/-- info: 'Cert.Kernel.Mlp.wp_sendTo_0_2_2' depends on axioms: [propext, Classical.choice, Quot.sound] -/
#guard_msgs in #print axioms wp_sendTo_0_2_2

/-- The rule of the copy of key `(0, 2, 3)` stated at the device `3` ahead of `c`, for a program that names that device `e'`. -/
theorem wp_sendTo_0_2_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 2 0 inb_S2x4x4x64x256_S1x1x1x64x256_0_2_0_0_0).view.read (Elt F) fs = val c 0 2)
    (O : CellTallies nD τ sig Unit) (W : Waits sig Unit)
    {hsc : ((slotM 0 2 3 inb_S2x4x4x64x256_S1x1x1x64x256_0_2_3_0_0) : Memref sig (Dev.tc e' : Thread nD τ).2.kind .vmem S64x256 .bf16).view.ref.isScScratch = false}
    {hsrc : (slotM 0 2 0 inb_S2x4x4x64x256_S1x1x1x64x256_0_2_0_0_0).view.WordExact} {hdst : (slotM 0 2 3 inb_S2x4x4x64x256_S1x1x1x64x256_0_2_3_0_0).view.WordExact}
    {hsem : DmaTarget.Typed .vmem (.dma (rcvS 0 2 3 inb_S3x4x4_S1x1x1_0_2_3)) (.remote (Dev.tc e' : Thread nD τ) (slotM 0 2 3 inb_S2x4x4x64x256_S1x1x1x64x256_0_2_3_0_0) (.dma (sndS 0 2 3 inb_S3x4x4_S1x1x1_0_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 2 3 inb_S3x4x4_S1x1x1_0_2_3))) ((c : Thread nD τ), SemLoc.dma (sndS 0 2 3 inb_S3x4x4_S1x1x1_0_2_3))
        ∗ cellInv ER (Rd val jk jr) (K ((pe c 3 : Thread nD τ), SemLoc.dma (rcvS 0 2 3 inb_S3x4x4_S1x1x1_0_2_3))) ((pe c 3 : Thread nD τ), SemLoc.dma (rcvS 0 2 3 inb_S3x4x4_S1x1x1_0_2_3))
        ∗ ((slotM 0 2 0 inb_S2x4x4x64x256_S1x1x1x64x256_0_2_0_0_0).view.loc (c : Thread nD τ) ↦[(slotM 0 2 0 inb_S2x4x4x64x256_S1x1x1x64x256_0_2_0_0_0).view.set]{Transfers.shareTokN fullShare 2} fs)
        ∗ ((slotM 0 2 3 inb_S2x4x4x64x256_S1x1x1x64x256_0_2_3_0_0).view.loc (pe c 3 : Thread nD τ) ↦[(slotM 0 2 3 inb_S2x4x4x64x256_S1x1x1x64x256_0_2_3_0_0).view.set]{fullShare} fd)
        ∗ owes (c : Thread nD τ) (O + tallyAt ((pe c 3 : Thread nD τ), SemLoc.dma (rcvS 0 2 3 inb_S3x4x4_S1x1x1_0_2_3)) () N) W
        ∗ dutyTok ER ((c : Thread nD τ), SemLoc.dma (sndS 0 2 3 inb_S3x4x4_S1x1x1_0_2_3)) 0 (0 : Fin 4) ∗ reached ER ((c : Thread nD τ), SemLoc.dma (sndS 0 2 3 inb_S3x4x4_S1x1x1_0_2_3)) 0
        ∗ dutyTok ER ((pe c 3 : Thread nD τ), SemLoc.dma (rcvS 0 2 3 inb_S3x4x4_S1x1x1_0_2_3)) 0 (0 : Fin 4) ∗ reached ER ((pe c 3 : Thread nD τ), SemLoc.dma (rcvS 0 2 3 inb_S3x4x4_S1x1x1_0_2_3)) 0)
      ⊢ iprop(((cred (tallyAt ((c : Thread nD τ), SemLoc.dma (sndS 0 2 3 inb_S3x4x4_S1x1x1_0_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 2 0 inb_S2x4x4x64x256_S1x1x1x64x256_0_2_0_0_0) (.remote (Dev.tc e' : Thread nD τ) (slotM 0 2 3 inb_S2x4x4x64x256_S1x1x1x64x256_0_2_3_0_0) (.dma (sndS 0 2 3 inb_S3x4x4_S1x1x1_0_2_3)) hsc) (.dma (rcvS 0 2 3 inb_S3x4x4_S1x1x1_0_2_3)) hsrc hdst hsem) k) Q) := by
  subst he
  exact wp_send_0_2_3 val jk jr K c fs fd hfs O W

/-- info: 'Cert.Kernel.Mlp.wp_sendTo_0_2_3' depends on axioms: [propext, Classical.choice, Quot.sound] -/
#guard_msgs in #print axioms wp_sendTo_0_2_3

/-- The rule of the copy of key `(0, 3, 1)` stated at the device `1` ahead of `c`, for a program that names that device `e'`. -/
theorem wp_sendTo_0_3_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 1 inb_S2x4x4x64x256_S1x1x1x64x256_0_3_1_0_0) : Memref sig (Dev.tc e' : Thread nD τ).2.kind .vmem S64x256 .bf16).view.ref.isScScratch = false}
    {hsrc : (slotM 0 3 0 inb_S2x4x4x64x256_S1x1x1x64x256_0_3_0_0_0).view.WordExact} {hdst : (slotM 0 3 1 inb_S2x4x4x64x256_S1x1x1x64x256_0_3_1_0_0).view.WordExact}
    {hsem : DmaTarget.Typed .vmem (.dma (rcvS 0 3 1 inb_S3x4x4_S1x1x1_0_3_1)) (.remote (Dev.tc e' : Thread nD τ) (slotM 0 3 1 inb_S2x4x4x64x256_S1x1x1x64x256_0_3_1_0_0) (.dma (sndS 0 3 1 inb_S3x4x4_S1x1x1_0_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 1 inb_S3x4x4_S1x1x1_0_3_1))) ((c : Thread nD τ), SemLoc.dma (sndS 0 3 1 inb_S3x4x4_S1x1x1_0_3_1))
        ∗ cellInv ER (Rd val jk jr) (K ((pe c 1 : Thread nD τ), SemLoc.dma (rcvS 0 3 1 inb_S3x4x4_S1x1x1_0_3_1))) ((pe c 1 : Thread nD τ), SemLoc.dma (rcvS 0 3 1 inb_S3x4x4_S1x1x1_0_3_1))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 0} fs)
        ∗ ((slotM 0 3 1 inb_S2x4x4x64x256_S1x1x1x64x256_0_3_1_0_0).view.loc (pe c 1 : Thread nD τ) ↦[(slotM 0 3 1 inb_S2x4x4x64x256_S1x1x1x64x256_0_3_1_0_0).view.set]{fullShare} fd)
        ∗ owes (c : Thread nD τ) (O + tallyAt ((pe c 1 : Thread nD τ), SemLoc.dma (rcvS 0 3 1 inb_S3x4x4_S1x1x1_0_3_1)) () N) W
        ∗ dutyTok ER ((c : Thread nD τ), SemLoc.dma (sndS 0 3 1 inb_S3x4x4_S1x1x1_0_3_1)) 0 (0 : Fin 4) ∗ reached ER ((c : Thread nD τ), SemLoc.dma (sndS 0 3 1 inb_S3x4x4_S1x1x1_0_3_1)) 0
        ∗ dutyTok ER ((pe c 1 : Thread nD τ), SemLoc.dma (rcvS 0 3 1 inb_S3x4x4_S1x1x1_0_3_1)) 0 (0 : Fin 4) ∗ reached ER ((pe c 1 : Thread nD τ), SemLoc.dma (rcvS 0 3 1 inb_S3x4x4_S1x1x1_0_3_1)) 0)
      ⊢ iprop(((cred (tallyAt ((c : Thread nD τ), SemLoc.dma (sndS 0 3 1 inb_S3x4x4_S1x1x1_0_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc e' : Thread nD τ) (slotM 0 3 1 inb_S2x4x4x64x256_S1x1x1x64x256_0_3_1_0_0) (.dma (sndS 0 3 1 inb_S3x4x4_S1x1x1_0_3_1)) hsc) (.dma (rcvS 0 3 1 inb_S3x4x4_S1x1x1_0_3_1)) hsrc hdst hsem) k) Q) := by
  subst he
  exact wp_send_0_3_1 val jk jr K c fs fd hfs O W

/-- info: 'Cert.Kernel.Mlp.wp_sendTo_0_3_1' depends on axioms: [propext, Classical.choice, Quot.sound] -/
#guard_msgs in #print axioms wp_sendTo_0_3_1

/-- The rule of the copy of key `(0, 3, 2)` stated at the device `2` ahead of `c`, for a program that names that device `e'`. -/
theorem wp_sendTo_0_3_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 2 inb_S2x4x4x64x256_S1x1x1x64x256_0_3_2_0_0) : Memref sig (Dev.tc e' : Thread nD τ).2.kind .vmem S64x256 .bf16).view.ref.isScScratch = false}
    {hsrc : (slotM 0 3 0 inb_S2x4x4x64x256_S1x1x1x64x256_0_3_0_0_0).view.WordExact} {hdst : (slotM 0 3 2 inb_S2x4x4x64x256_S1x1x1x64x256_0_3_2_0_0).view.WordExact}
    {hsem : DmaTarget.Typed .vmem (.dma (rcvS 0 3 2 inb_S3x4x4_S1x1x1_0_3_2)) (.remote (Dev.tc e' : Thread nD τ) (slotM 0 3 2 inb_S2x4x4x64x256_S1x1x1x64x256_0_3_2_0_0) (.dma (sndS 0 3 2 inb_S3x4x4_S1x1x1_0_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 2 inb_S3x4x4_S1x1x1_0_3_2))) ((c : Thread nD τ), SemLoc.dma (sndS 0 3 2 inb_S3x4x4_S1x1x1_0_3_2))
        ∗ cellInv ER (Rd val jk jr) (K ((pe c 2 : Thread nD τ), SemLoc.dma (rcvS 0 3 2 inb_S3x4x4_S1x1x1_0_3_2))) ((pe c 2 : Thread nD τ), SemLoc.dma (rcvS 0 3 2 inb_S3x4x4_S1x1x1_0_3_2))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 1} fs)
        ∗ ((slotM 0 3 2 inb_S2x4x4x64x256_S1x1x1x64x256_0_3_2_0_0).view.loc (pe c 2 : Thread nD τ) ↦[(slotM 0 3 2 inb_S2x4x4x64x256_S1x1x1x64x256_0_3_2_0_0).view.set]{fullShare} fd)
        ∗ owes (c : Thread nD τ) (O + tallyAt ((pe c 2 : Thread nD τ), SemLoc.dma (rcvS 0 3 2 inb_S3x4x4_S1x1x1_0_3_2)) () N) W
        ∗ dutyTok ER ((c : Thread nD τ), SemLoc.dma (sndS 0 3 2 inb_S3x4x4_S1x1x1_0_3_2)) 0 (0 : Fin 4) ∗ reached ER ((c : Thread nD τ), SemLoc.dma (sndS 0 3 2 inb_S3x4x4_S1x1x1_0_3_2)) 0
        ∗ dutyTok ER ((pe c 2 : Thread nD τ), SemLoc.dma (rcvS 0 3 2 inb_S3x4x4_S1x1x1_0_3_2)) 0 (0 : Fin 4) ∗ reached ER ((pe c 2 : Thread nD τ), SemLoc.dma (rcvS 0 3 2 inb_S3x4x4_S1x1x1_0_3_2)) 0)
      ⊢ iprop(((cred (tallyAt ((c : Thread nD τ), SemLoc.dma (sndS 0 3 2 inb_S3x4x4_S1x1x1_0_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc e' : Thread nD τ) (slotM 0 3 2 inb_S2x4x4x64x256_S1x1x1x64x256_0_3_2_0_0) (.dma (sndS 0 3 2 inb_S3x4x4_S1x1x1_0_3_2)) hsc) (.dma (rcvS 0 3 2 inb_S3x4x4_S1x1x1_0_3_2)) hsrc hdst hsem) k) Q) := by
  subst he
  exact wp_send_0_3_2 val jk jr K c fs fd hfs O W

/-- info: 'Cert.Kernel.Mlp.wp_sendTo_0_3_2' depends on axioms: [propext, Classical.choice, Quot.sound] -/
#guard_msgs in #print axioms wp_sendTo_0_3_2

/-- The rule of the copy of key `(0, 3, 3)` stated at the device `3` ahead of `c`, for a program that names that device `e'`. -/
theorem wp_sendTo_0_3_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 0 3 0 inb_S2x4x4x64x256_S1x1x1x64x256_0_3_0_0_0).view.read (Elt F) fs = val c 0 3)
    (O : CellTallies nD τ sig Unit) (W : Waits sig Unit)
    {hsc : ((slotM 0 3 3 inb_S2x4x4x64x256_S1x1x1x64x256_0_3_3_0_0) : Memref sig (Dev.tc e' : Thread nD τ).2.kind .vmem S64x256 .bf16).view.ref.isScScratch = false}
    {hsrc : (slotM 0 3 0 inb_S2x4x4x64x256_S1x1x1x64x256_0_3_0_0_0).view.WordExact} {hdst : (slotM 0 3 3 inb_S2x4x4x64x256_S1x1x1x64x256_0_3_3_0_0).view.WordExact}
    {hsem : DmaTarget.Typed .vmem (.dma (rcvS 0 3 3 inb_S3x4x4_S1x1x1_0_3_3)) (.remote (Dev.tc e' : Thread nD τ) (slotM 0 3 3 inb_S2x4x4x64x256_S1x1x1x64x256_0_3_3_0_0) (.dma (sndS 0 3 3 inb_S3x4x4_S1x1x1_0_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 0 3 3 inb_S3x4x4_S1x1x1_0_3_3))) ((c : Thread nD τ), SemLoc.dma (sndS 0 3 3 inb_S3x4x4_S1x1x1_0_3_3))
        ∗ cellInv ER (Rd val jk jr) (K ((pe c 3 : Thread nD τ), SemLoc.dma (rcvS 0 3 3 inb_S3x4x4_S1x1x1_0_3_3))) ((pe c 3 : Thread nD τ), SemLoc.dma (rcvS 0 3 3 inb_S3x4x4_S1x1x1_0_3_3))
        ∗ ((slotM 0 3 0 inb_S2x4x4x64x256_S1x1x1x64x256_0_3_0_0_0).view.loc (c : Thread nD τ) ↦[(slotM 0 3 0 inb_S2x4x4x64x256_S1x1x1x64x256_0_3_0_0_0).view.set]{Transfers.shareTokN fullShare 2} fs)
        ∗ ((slotM 0 3 3 inb_S2x4x4x64x256_S1x1x1x64x256_0_3_3_0_0).view.loc (pe c 3 : Thread nD τ) ↦[(slotM 0 3 3 inb_S2x4x4x64x256_S1x1x1x64x256_0_3_3_0_0).view.set]{fullShare} fd)
        ∗ owes (c : Thread nD τ) (O + tallyAt ((pe c 3 : Thread nD τ), SemLoc.dma (rcvS 0 3 3 inb_S3x4x4_S1x1x1_0_3_3)) () N) W
        ∗ dutyTok ER ((c : Thread nD τ), SemLoc.dma (sndS 0 3 3 inb_S3x4x4_S1x1x1_0_3_3)) 0 (0 : Fin 4) ∗ reached ER ((c : Thread nD τ), SemLoc.dma (sndS 0 3 3 inb_S3x4x4_S1x1x1_0_3_3)) 0
        ∗ dutyTok ER ((pe c 3 : Thread nD τ), SemLoc.dma (rcvS 0 3 3 inb_S3x4x4_S1x1x1_0_3_3)) 0 (0 : Fin 4) ∗ reached ER ((pe c 3 : Thread nD τ), SemLoc.dma (rcvS 0 3 3 inb_S3x4x4_S1x1x1_0_3_3)) 0)
      ⊢ iprop(((cred (tallyAt ((c : Thread nD τ), SemLoc.dma (sndS 0 3 3 inb_S3x4x4_S1x1x1_0_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 3 0 inb_S2x4x4x64x256_S1x1x1x64x256_0_3_0_0_0) (.remote (Dev.tc e' : Thread nD τ) (slotM 0 3 3 inb_S2x4x4x64x256_S1x1x1x64x256_0_3_3_0_0) (.dma (sndS 0 3 3 inb_S3x4x4_S1x1x1_0_3_3)) hsc) (.dma (rcvS 0 3 3 inb_S3x4x4_S1x1x1_0_3_3)) hsrc hdst hsem) k) Q) := by
  subst he
  exact wp_send_0_3_3 val jk jr K c fs fd hfs O W

/-- info: 'Cert.Kernel.Mlp.wp_sendTo_0_3_3' depends on axioms: [propext, Classical.choice, Quot.sound] -/
#guard_msgs in #print axioms wp_sendTo_0_3_3

/-- The rule of the copy of key `(1, 0, 1)` stated at the device `1` ahead of `c`, for a program that names that device `e'`. -/
theorem wp_sendTo_1_0_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 1 inb_S2x4x4x64x256_S1x1x1x64x256_1_0_1_0_0) : Memref sig (Dev.tc e' : Thread nD τ).2.kind .vmem S64x256 .bf16).view.ref.isScScratch = false}
    {hsrc : (slotM 1 0 0 inb_S2x4x4x64x256_S1x1x1x64x256_1_0_0_0_0).view.WordExact} {hdst : (slotM 1 0 1 inb_S2x4x4x64x256_S1x1x1x64x256_1_0_1_0_0).view.WordExact}
    {hsem : DmaTarget.Typed .vmem (.dma (rcvS 1 0 1 inb_S3x4x4_S1x1x1_1_0_1)) (.remote (Dev.tc e' : Thread nD τ) (slotM 1 0 1 inb_S2x4x4x64x256_S1x1x1x64x256_1_0_1_0_0) (.dma (sndS 1 0 1 inb_S3x4x4_S1x1x1_1_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 1 inb_S3x4x4_S1x1x1_1_0_1))) ((c : Thread nD τ), SemLoc.dma (sndS 1 0 1 inb_S3x4x4_S1x1x1_1_0_1))
        ∗ cellInv ER (Rd val jk jr) (K ((pe c 1 : Thread nD τ), SemLoc.dma (rcvS 1 0 1 inb_S3x4x4_S1x1x1_1_0_1))) ((pe c 1 : Thread nD τ), SemLoc.dma (rcvS 1 0 1 inb_S3x4x4_S1x1x1_1_0_1))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 0} fs)
        ∗ ((slotM 1 0 1 inb_S2x4x4x64x256_S1x1x1x64x256_1_0_1_0_0).view.loc (pe c 1 : Thread nD τ) ↦[(slotM 1 0 1 inb_S2x4x4x64x256_S1x1x1x64x256_1_0_1_0_0).view.set]{fullShare} fd)
        ∗ owes (c : Thread nD τ) (O + tallyAt ((pe c 1 : Thread nD τ), SemLoc.dma (rcvS 1 0 1 inb_S3x4x4_S1x1x1_1_0_1)) () N) W
        ∗ dutyTok ER ((c : Thread nD τ), SemLoc.dma (sndS 1 0 1 inb_S3x4x4_S1x1x1_1_0_1)) 0 (0 : Fin 4) ∗ reached ER ((c : Thread nD τ), SemLoc.dma (sndS 1 0 1 inb_S3x4x4_S1x1x1_1_0_1)) 0
        ∗ dutyTok ER ((pe c 1 : Thread nD τ), SemLoc.dma (rcvS 1 0 1 inb_S3x4x4_S1x1x1_1_0_1)) 0 (0 : Fin 4) ∗ reached ER ((pe c 1 : Thread nD τ), SemLoc.dma (rcvS 1 0 1 inb_S3x4x4_S1x1x1_1_0_1)) 0)
      ⊢ iprop(((cred (tallyAt ((c : Thread nD τ), SemLoc.dma (sndS 1 0 1 inb_S3x4x4_S1x1x1_1_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc e' : Thread nD τ) (slotM 1 0 1 inb_S2x4x4x64x256_S1x1x1x64x256_1_0_1_0_0) (.dma (sndS 1 0 1 inb_S3x4x4_S1x1x1_1_0_1)) hsc) (.dma (rcvS 1 0 1 inb_S3x4x4_S1x1x1_1_0_1)) hsrc hdst hsem) k) Q) := by
  subst he
  exact wp_send_1_0_1 val jk jr K c fs fd hfs O W

/-- info: 'Cert.Kernel.Mlp.wp_sendTo_1_0_1' depends on axioms: [propext, Classical.choice, Quot.sound] -/
#guard_msgs in #print axioms wp_sendTo_1_0_1

/-- The rule of the copy of key `(1, 0, 2)` stated at the device `2` ahead of `c`, for a program that names that device `e'`. -/
theorem wp_sendTo_1_0_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 2 inb_S2x4x4x64x256_S1x1x1x64x256_1_0_2_0_0) : Memref sig (Dev.tc e' : Thread nD τ).2.kind .vmem S64x256 .bf16).view.ref.isScScratch = false}
    {hsrc : (slotM 1 0 0 inb_S2x4x4x64x256_S1x1x1x64x256_1_0_0_0_0).view.WordExact} {hdst : (slotM 1 0 2 inb_S2x4x4x64x256_S1x1x1x64x256_1_0_2_0_0).view.WordExact}
    {hsem : DmaTarget.Typed .vmem (.dma (rcvS 1 0 2 inb_S3x4x4_S1x1x1_1_0_2)) (.remote (Dev.tc e' : Thread nD τ) (slotM 1 0 2 inb_S2x4x4x64x256_S1x1x1x64x256_1_0_2_0_0) (.dma (sndS 1 0 2 inb_S3x4x4_S1x1x1_1_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 2 inb_S3x4x4_S1x1x1_1_0_2))) ((c : Thread nD τ), SemLoc.dma (sndS 1 0 2 inb_S3x4x4_S1x1x1_1_0_2))
        ∗ cellInv ER (Rd val jk jr) (K ((pe c 2 : Thread nD τ), SemLoc.dma (rcvS 1 0 2 inb_S3x4x4_S1x1x1_1_0_2))) ((pe c 2 : Thread nD τ), SemLoc.dma (rcvS 1 0 2 inb_S3x4x4_S1x1x1_1_0_2))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 1} fs)
        ∗ ((slotM 1 0 2 inb_S2x4x4x64x256_S1x1x1x64x256_1_0_2_0_0).view.loc (pe c 2 : Thread nD τ) ↦[(slotM 1 0 2 inb_S2x4x4x64x256_S1x1x1x64x256_1_0_2_0_0).view.set]{fullShare} fd)
        ∗ owes (c : Thread nD τ) (O + tallyAt ((pe c 2 : Thread nD τ), SemLoc.dma (rcvS 1 0 2 inb_S3x4x4_S1x1x1_1_0_2)) () N) W
        ∗ dutyTok ER ((c : Thread nD τ), SemLoc.dma (sndS 1 0 2 inb_S3x4x4_S1x1x1_1_0_2)) 0 (0 : Fin 4) ∗ reached ER ((c : Thread nD τ), SemLoc.dma (sndS 1 0 2 inb_S3x4x4_S1x1x1_1_0_2)) 0
        ∗ dutyTok ER ((pe c 2 : Thread nD τ), SemLoc.dma (rcvS 1 0 2 inb_S3x4x4_S1x1x1_1_0_2)) 0 (0 : Fin 4) ∗ reached ER ((pe c 2 : Thread nD τ), SemLoc.dma (rcvS 1 0 2 inb_S3x4x4_S1x1x1_1_0_2)) 0)
      ⊢ iprop(((cred (tallyAt ((c : Thread nD τ), SemLoc.dma (sndS 1 0 2 inb_S3x4x4_S1x1x1_1_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc e' : Thread nD τ) (slotM 1 0 2 inb_S2x4x4x64x256_S1x1x1x64x256_1_0_2_0_0) (.dma (sndS 1 0 2 inb_S3x4x4_S1x1x1_1_0_2)) hsc) (.dma (rcvS 1 0 2 inb_S3x4x4_S1x1x1_1_0_2)) hsrc hdst hsem) k) Q) := by
  subst he
  exact wp_send_1_0_2 val jk jr K c fs fd hfs O W

/-- info: 'Cert.Kernel.Mlp.wp_sendTo_1_0_2' depends on axioms: [propext, Classical.choice, Quot.sound] -/
#guard_msgs in #print axioms wp_sendTo_1_0_2

/-- The rule of the copy of key `(1, 0, 3)` stated at the device `3` ahead of `c`, for a program that names that device `e'`. -/
theorem wp_sendTo_1_0_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 0 0 inb_S2x4x4x64x256_S1x1x1x64x256_1_0_0_0_0).view.read (Elt F) fs = val c 1 0)
    (O : CellTallies nD τ sig Unit) (W : Waits sig Unit)
    {hsc : ((slotM 1 0 3 inb_S2x4x4x64x256_S1x1x1x64x256_1_0_3_0_0) : Memref sig (Dev.tc e' : Thread nD τ).2.kind .vmem S64x256 .bf16).view.ref.isScScratch = false}
    {hsrc : (slotM 1 0 0 inb_S2x4x4x64x256_S1x1x1x64x256_1_0_0_0_0).view.WordExact} {hdst : (slotM 1 0 3 inb_S2x4x4x64x256_S1x1x1x64x256_1_0_3_0_0).view.WordExact}
    {hsem : DmaTarget.Typed .vmem (.dma (rcvS 1 0 3 inb_S3x4x4_S1x1x1_1_0_3)) (.remote (Dev.tc e' : Thread nD τ) (slotM 1 0 3 inb_S2x4x4x64x256_S1x1x1x64x256_1_0_3_0_0) (.dma (sndS 1 0 3 inb_S3x4x4_S1x1x1_1_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 0 3 inb_S3x4x4_S1x1x1_1_0_3))) ((c : Thread nD τ), SemLoc.dma (sndS 1 0 3 inb_S3x4x4_S1x1x1_1_0_3))
        ∗ cellInv ER (Rd val jk jr) (K ((pe c 3 : Thread nD τ), SemLoc.dma (rcvS 1 0 3 inb_S3x4x4_S1x1x1_1_0_3))) ((pe c 3 : Thread nD τ), SemLoc.dma (rcvS 1 0 3 inb_S3x4x4_S1x1x1_1_0_3))
        ∗ ((slotM 1 0 0 inb_S2x4x4x64x256_S1x1x1x64x256_1_0_0_0_0).view.loc (c : Thread nD τ) ↦[(slotM 1 0 0 inb_S2x4x4x64x256_S1x1x1x64x256_1_0_0_0_0).view.set]{Transfers.shareTokN fullShare 2} fs)
        ∗ ((slotM 1 0 3 inb_S2x4x4x64x256_S1x1x1x64x256_1_0_3_0_0).view.loc (pe c 3 : Thread nD τ) ↦[(slotM 1 0 3 inb_S2x4x4x64x256_S1x1x1x64x256_1_0_3_0_0).view.set]{fullShare} fd)
        ∗ owes (c : Thread nD τ) (O + tallyAt ((pe c 3 : Thread nD τ), SemLoc.dma (rcvS 1 0 3 inb_S3x4x4_S1x1x1_1_0_3)) () N) W
        ∗ dutyTok ER ((c : Thread nD τ), SemLoc.dma (sndS 1 0 3 inb_S3x4x4_S1x1x1_1_0_3)) 0 (0 : Fin 4) ∗ reached ER ((c : Thread nD τ), SemLoc.dma (sndS 1 0 3 inb_S3x4x4_S1x1x1_1_0_3)) 0
        ∗ dutyTok ER ((pe c 3 : Thread nD τ), SemLoc.dma (rcvS 1 0 3 inb_S3x4x4_S1x1x1_1_0_3)) 0 (0 : Fin 4) ∗ reached ER ((pe c 3 : Thread nD τ), SemLoc.dma (rcvS 1 0 3 inb_S3x4x4_S1x1x1_1_0_3)) 0)
      ⊢ iprop(((cred (tallyAt ((c : Thread nD τ), SemLoc.dma (sndS 1 0 3 inb_S3x4x4_S1x1x1_1_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 0 0 inb_S2x4x4x64x256_S1x1x1x64x256_1_0_0_0_0) (.remote (Dev.tc e' : Thread nD τ) (slotM 1 0 3 inb_S2x4x4x64x256_S1x1x1x64x256_1_0_3_0_0) (.dma (sndS 1 0 3 inb_S3x4x4_S1x1x1_1_0_3)) hsc) (.dma (rcvS 1 0 3 inb_S3x4x4_S1x1x1_1_0_3)) hsrc hdst hsem) k) Q) := by
  subst he
  exact wp_send_1_0_3 val jk jr K c fs fd hfs O W

/-- info: 'Cert.Kernel.Mlp.wp_sendTo_1_0_3' depends on axioms: [propext, Classical.choice, Quot.sound] -/
#guard_msgs in #print axioms wp_sendTo_1_0_3

/-- The rule of the copy of key `(1, 1, 1)` stated at the device `1` ahead of `c`, for a program that names that device `e'`. -/
theorem wp_sendTo_1_1_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 1 inb_S2x4x4x64x256_S1x1x1x64x256_1_1_1_0_0) : Memref sig (Dev.tc e' : Thread nD τ).2.kind .vmem S64x256 .bf16).view.ref.isScScratch = false}
    {hsrc : (slotM 1 1 0 inb_S2x4x4x64x256_S1x1x1x64x256_1_1_0_0_0).view.WordExact} {hdst : (slotM 1 1 1 inb_S2x4x4x64x256_S1x1x1x64x256_1_1_1_0_0).view.WordExact}
    {hsem : DmaTarget.Typed .vmem (.dma (rcvS 1 1 1 inb_S3x4x4_S1x1x1_1_1_1)) (.remote (Dev.tc e' : Thread nD τ) (slotM 1 1 1 inb_S2x4x4x64x256_S1x1x1x64x256_1_1_1_0_0) (.dma (sndS 1 1 1 inb_S3x4x4_S1x1x1_1_1_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 1 inb_S3x4x4_S1x1x1_1_1_1))) ((c : Thread nD τ), SemLoc.dma (sndS 1 1 1 inb_S3x4x4_S1x1x1_1_1_1))
        ∗ cellInv ER (Rd val jk jr) (K ((pe c 1 : Thread nD τ), SemLoc.dma (rcvS 1 1 1 inb_S3x4x4_S1x1x1_1_1_1))) ((pe c 1 : Thread nD τ), SemLoc.dma (rcvS 1 1 1 inb_S3x4x4_S1x1x1_1_1_1))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 0} fs)
        ∗ ((slotM 1 1 1 inb_S2x4x4x64x256_S1x1x1x64x256_1_1_1_0_0).view.loc (pe c 1 : Thread nD τ) ↦[(slotM 1 1 1 inb_S2x4x4x64x256_S1x1x1x64x256_1_1_1_0_0).view.set]{fullShare} fd)
        ∗ owes (c : Thread nD τ) (O + tallyAt ((pe c 1 : Thread nD τ), SemLoc.dma (rcvS 1 1 1 inb_S3x4x4_S1x1x1_1_1_1)) () N) W
        ∗ dutyTok ER ((c : Thread nD τ), SemLoc.dma (sndS 1 1 1 inb_S3x4x4_S1x1x1_1_1_1)) 0 (0 : Fin 4) ∗ reached ER ((c : Thread nD τ), SemLoc.dma (sndS 1 1 1 inb_S3x4x4_S1x1x1_1_1_1)) 0
        ∗ dutyTok ER ((pe c 1 : Thread nD τ), SemLoc.dma (rcvS 1 1 1 inb_S3x4x4_S1x1x1_1_1_1)) 0 (0 : Fin 4) ∗ reached ER ((pe c 1 : Thread nD τ), SemLoc.dma (rcvS 1 1 1 inb_S3x4x4_S1x1x1_1_1_1)) 0)
      ⊢ iprop(((cred (tallyAt ((c : Thread nD τ), SemLoc.dma (sndS 1 1 1 inb_S3x4x4_S1x1x1_1_1_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc e' : Thread nD τ) (slotM 1 1 1 inb_S2x4x4x64x256_S1x1x1x64x256_1_1_1_0_0) (.dma (sndS 1 1 1 inb_S3x4x4_S1x1x1_1_1_1)) hsc) (.dma (rcvS 1 1 1 inb_S3x4x4_S1x1x1_1_1_1)) hsrc hdst hsem) k) Q) := by
  subst he
  exact wp_send_1_1_1 val jk jr K c fs fd hfs O W

/-- info: 'Cert.Kernel.Mlp.wp_sendTo_1_1_1' depends on axioms: [propext, Classical.choice, Quot.sound] -/
#guard_msgs in #print axioms wp_sendTo_1_1_1

/-- The rule of the copy of key `(1, 1, 2)` stated at the device `2` ahead of `c`, for a program that names that device `e'`. -/
theorem wp_sendTo_1_1_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 2 inb_S2x4x4x64x256_S1x1x1x64x256_1_1_2_0_0) : Memref sig (Dev.tc e' : Thread nD τ).2.kind .vmem S64x256 .bf16).view.ref.isScScratch = false}
    {hsrc : (slotM 1 1 0 inb_S2x4x4x64x256_S1x1x1x64x256_1_1_0_0_0).view.WordExact} {hdst : (slotM 1 1 2 inb_S2x4x4x64x256_S1x1x1x64x256_1_1_2_0_0).view.WordExact}
    {hsem : DmaTarget.Typed .vmem (.dma (rcvS 1 1 2 inb_S3x4x4_S1x1x1_1_1_2)) (.remote (Dev.tc e' : Thread nD τ) (slotM 1 1 2 inb_S2x4x4x64x256_S1x1x1x64x256_1_1_2_0_0) (.dma (sndS 1 1 2 inb_S3x4x4_S1x1x1_1_1_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 2 inb_S3x4x4_S1x1x1_1_1_2))) ((c : Thread nD τ), SemLoc.dma (sndS 1 1 2 inb_S3x4x4_S1x1x1_1_1_2))
        ∗ cellInv ER (Rd val jk jr) (K ((pe c 2 : Thread nD τ), SemLoc.dma (rcvS 1 1 2 inb_S3x4x4_S1x1x1_1_1_2))) ((pe c 2 : Thread nD τ), SemLoc.dma (rcvS 1 1 2 inb_S3x4x4_S1x1x1_1_1_2))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 1} fs)
        ∗ ((slotM 1 1 2 inb_S2x4x4x64x256_S1x1x1x64x256_1_1_2_0_0).view.loc (pe c 2 : Thread nD τ) ↦[(slotM 1 1 2 inb_S2x4x4x64x256_S1x1x1x64x256_1_1_2_0_0).view.set]{fullShare} fd)
        ∗ owes (c : Thread nD τ) (O + tallyAt ((pe c 2 : Thread nD τ), SemLoc.dma (rcvS 1 1 2 inb_S3x4x4_S1x1x1_1_1_2)) () N) W
        ∗ dutyTok ER ((c : Thread nD τ), SemLoc.dma (sndS 1 1 2 inb_S3x4x4_S1x1x1_1_1_2)) 0 (0 : Fin 4) ∗ reached ER ((c : Thread nD τ), SemLoc.dma (sndS 1 1 2 inb_S3x4x4_S1x1x1_1_1_2)) 0
        ∗ dutyTok ER ((pe c 2 : Thread nD τ), SemLoc.dma (rcvS 1 1 2 inb_S3x4x4_S1x1x1_1_1_2)) 0 (0 : Fin 4) ∗ reached ER ((pe c 2 : Thread nD τ), SemLoc.dma (rcvS 1 1 2 inb_S3x4x4_S1x1x1_1_1_2)) 0)
      ⊢ iprop(((cred (tallyAt ((c : Thread nD τ), SemLoc.dma (sndS 1 1 2 inb_S3x4x4_S1x1x1_1_1_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc e' : Thread nD τ) (slotM 1 1 2 inb_S2x4x4x64x256_S1x1x1x64x256_1_1_2_0_0) (.dma (sndS 1 1 2 inb_S3x4x4_S1x1x1_1_1_2)) hsc) (.dma (rcvS 1 1 2 inb_S3x4x4_S1x1x1_1_1_2)) hsrc hdst hsem) k) Q) := by
  subst he
  exact wp_send_1_1_2 val jk jr K c fs fd hfs O W

/-- info: 'Cert.Kernel.Mlp.wp_sendTo_1_1_2' depends on axioms: [propext, Classical.choice, Quot.sound] -/
#guard_msgs in #print axioms wp_sendTo_1_1_2

/-- The rule of the copy of key `(1, 1, 3)` stated at the device `3` ahead of `c`, for a program that names that device `e'`. -/
theorem wp_sendTo_1_1_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 1 0 inb_S2x4x4x64x256_S1x1x1x64x256_1_1_0_0_0).view.read (Elt F) fs = val c 1 1)
    (O : CellTallies nD τ sig Unit) (W : Waits sig Unit)
    {hsc : ((slotM 1 1 3 inb_S2x4x4x64x256_S1x1x1x64x256_1_1_3_0_0) : Memref sig (Dev.tc e' : Thread nD τ).2.kind .vmem S64x256 .bf16).view.ref.isScScratch = false}
    {hsrc : (slotM 1 1 0 inb_S2x4x4x64x256_S1x1x1x64x256_1_1_0_0_0).view.WordExact} {hdst : (slotM 1 1 3 inb_S2x4x4x64x256_S1x1x1x64x256_1_1_3_0_0).view.WordExact}
    {hsem : DmaTarget.Typed .vmem (.dma (rcvS 1 1 3 inb_S3x4x4_S1x1x1_1_1_3)) (.remote (Dev.tc e' : Thread nD τ) (slotM 1 1 3 inb_S2x4x4x64x256_S1x1x1x64x256_1_1_3_0_0) (.dma (sndS 1 1 3 inb_S3x4x4_S1x1x1_1_1_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 1 3 inb_S3x4x4_S1x1x1_1_1_3))) ((c : Thread nD τ), SemLoc.dma (sndS 1 1 3 inb_S3x4x4_S1x1x1_1_1_3))
        ∗ cellInv ER (Rd val jk jr) (K ((pe c 3 : Thread nD τ), SemLoc.dma (rcvS 1 1 3 inb_S3x4x4_S1x1x1_1_1_3))) ((pe c 3 : Thread nD τ), SemLoc.dma (rcvS 1 1 3 inb_S3x4x4_S1x1x1_1_1_3))
        ∗ ((slotM 1 1 0 inb_S2x4x4x64x256_S1x1x1x64x256_1_1_0_0_0).view.loc (c : Thread nD τ) ↦[(slotM 1 1 0 inb_S2x4x4x64x256_S1x1x1x64x256_1_1_0_0_0).view.set]{Transfers.shareTokN fullShare 2} fs)
        ∗ ((slotM 1 1 3 inb_S2x4x4x64x256_S1x1x1x64x256_1_1_3_0_0).view.loc (pe c 3 : Thread nD τ) ↦[(slotM 1 1 3 inb_S2x4x4x64x256_S1x1x1x64x256_1_1_3_0_0).view.set]{fullShare} fd)
        ∗ owes (c : Thread nD τ) (O + tallyAt ((pe c 3 : Thread nD τ), SemLoc.dma (rcvS 1 1 3 inb_S3x4x4_S1x1x1_1_1_3)) () N) W
        ∗ dutyTok ER ((c : Thread nD τ), SemLoc.dma (sndS 1 1 3 inb_S3x4x4_S1x1x1_1_1_3)) 0 (0 : Fin 4) ∗ reached ER ((c : Thread nD τ), SemLoc.dma (sndS 1 1 3 inb_S3x4x4_S1x1x1_1_1_3)) 0
        ∗ dutyTok ER ((pe c 3 : Thread nD τ), SemLoc.dma (rcvS 1 1 3 inb_S3x4x4_S1x1x1_1_1_3)) 0 (0 : Fin 4) ∗ reached ER ((pe c 3 : Thread nD τ), SemLoc.dma (rcvS 1 1 3 inb_S3x4x4_S1x1x1_1_1_3)) 0)
      ⊢ iprop(((cred (tallyAt ((c : Thread nD τ), SemLoc.dma (sndS 1 1 3 inb_S3x4x4_S1x1x1_1_1_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 1 0 inb_S2x4x4x64x256_S1x1x1x64x256_1_1_0_0_0) (.remote (Dev.tc e' : Thread nD τ) (slotM 1 1 3 inb_S2x4x4x64x256_S1x1x1x64x256_1_1_3_0_0) (.dma (sndS 1 1 3 inb_S3x4x4_S1x1x1_1_1_3)) hsc) (.dma (rcvS 1 1 3 inb_S3x4x4_S1x1x1_1_1_3)) hsrc hdst hsem) k) Q) := by
  subst he
  exact wp_send_1_1_3 val jk jr K c fs fd hfs O W

/-- info: 'Cert.Kernel.Mlp.wp_sendTo_1_1_3' depends on axioms: [propext, Classical.choice, Quot.sound] -/
#guard_msgs in #print axioms wp_sendTo_1_1_3

/-- The rule of the copy of key `(1, 2, 1)` stated at the device `1` ahead of `c`, for a program that names that device `e'`. -/
theorem wp_sendTo_1_2_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 1 inb_S2x4x4x64x256_S1x1x1x64x256_1_2_1_0_0) : Memref sig (Dev.tc e' : Thread nD τ).2.kind .vmem S64x256 .bf16).view.ref.isScScratch = false}
    {hsrc : (slotM 1 2 0 inb_S2x4x4x64x256_S1x1x1x64x256_1_2_0_0_0).view.WordExact} {hdst : (slotM 1 2 1 inb_S2x4x4x64x256_S1x1x1x64x256_1_2_1_0_0).view.WordExact}
    {hsem : DmaTarget.Typed .vmem (.dma (rcvS 1 2 1 inb_S3x4x4_S1x1x1_1_2_1)) (.remote (Dev.tc e' : Thread nD τ) (slotM 1 2 1 inb_S2x4x4x64x256_S1x1x1x64x256_1_2_1_0_0) (.dma (sndS 1 2 1 inb_S3x4x4_S1x1x1_1_2_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 1 inb_S3x4x4_S1x1x1_1_2_1))) ((c : Thread nD τ), SemLoc.dma (sndS 1 2 1 inb_S3x4x4_S1x1x1_1_2_1))
        ∗ cellInv ER (Rd val jk jr) (K ((pe c 1 : Thread nD τ), SemLoc.dma (rcvS 1 2 1 inb_S3x4x4_S1x1x1_1_2_1))) ((pe c 1 : Thread nD τ), SemLoc.dma (rcvS 1 2 1 inb_S3x4x4_S1x1x1_1_2_1))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 0} fs)
        ∗ ((slotM 1 2 1 inb_S2x4x4x64x256_S1x1x1x64x256_1_2_1_0_0).view.loc (pe c 1 : Thread nD τ) ↦[(slotM 1 2 1 inb_S2x4x4x64x256_S1x1x1x64x256_1_2_1_0_0).view.set]{fullShare} fd)
        ∗ owes (c : Thread nD τ) (O + tallyAt ((pe c 1 : Thread nD τ), SemLoc.dma (rcvS 1 2 1 inb_S3x4x4_S1x1x1_1_2_1)) () N) W
        ∗ dutyTok ER ((c : Thread nD τ), SemLoc.dma (sndS 1 2 1 inb_S3x4x4_S1x1x1_1_2_1)) 0 (0 : Fin 4) ∗ reached ER ((c : Thread nD τ), SemLoc.dma (sndS 1 2 1 inb_S3x4x4_S1x1x1_1_2_1)) 0
        ∗ dutyTok ER ((pe c 1 : Thread nD τ), SemLoc.dma (rcvS 1 2 1 inb_S3x4x4_S1x1x1_1_2_1)) 0 (0 : Fin 4) ∗ reached ER ((pe c 1 : Thread nD τ), SemLoc.dma (rcvS 1 2 1 inb_S3x4x4_S1x1x1_1_2_1)) 0)
      ⊢ iprop(((cred (tallyAt ((c : Thread nD τ), SemLoc.dma (sndS 1 2 1 inb_S3x4x4_S1x1x1_1_2_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc e' : Thread nD τ) (slotM 1 2 1 inb_S2x4x4x64x256_S1x1x1x64x256_1_2_1_0_0) (.dma (sndS 1 2 1 inb_S3x4x4_S1x1x1_1_2_1)) hsc) (.dma (rcvS 1 2 1 inb_S3x4x4_S1x1x1_1_2_1)) hsrc hdst hsem) k) Q) := by
  subst he
  exact wp_send_1_2_1 val jk jr K c fs fd hfs O W

/-- info: 'Cert.Kernel.Mlp.wp_sendTo_1_2_1' depends on axioms: [propext, Classical.choice, Quot.sound] -/
#guard_msgs in #print axioms wp_sendTo_1_2_1

/-- The rule of the copy of key `(1, 2, 2)` stated at the device `2` ahead of `c`, for a program that names that device `e'`. -/
theorem wp_sendTo_1_2_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 2 inb_S2x4x4x64x256_S1x1x1x64x256_1_2_2_0_0) : Memref sig (Dev.tc e' : Thread nD τ).2.kind .vmem S64x256 .bf16).view.ref.isScScratch = false}
    {hsrc : (slotM 1 2 0 inb_S2x4x4x64x256_S1x1x1x64x256_1_2_0_0_0).view.WordExact} {hdst : (slotM 1 2 2 inb_S2x4x4x64x256_S1x1x1x64x256_1_2_2_0_0).view.WordExact}
    {hsem : DmaTarget.Typed .vmem (.dma (rcvS 1 2 2 inb_S3x4x4_S1x1x1_1_2_2)) (.remote (Dev.tc e' : Thread nD τ) (slotM 1 2 2 inb_S2x4x4x64x256_S1x1x1x64x256_1_2_2_0_0) (.dma (sndS 1 2 2 inb_S3x4x4_S1x1x1_1_2_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 2 inb_S3x4x4_S1x1x1_1_2_2))) ((c : Thread nD τ), SemLoc.dma (sndS 1 2 2 inb_S3x4x4_S1x1x1_1_2_2))
        ∗ cellInv ER (Rd val jk jr) (K ((pe c 2 : Thread nD τ), SemLoc.dma (rcvS 1 2 2 inb_S3x4x4_S1x1x1_1_2_2))) ((pe c 2 : Thread nD τ), SemLoc.dma (rcvS 1 2 2 inb_S3x4x4_S1x1x1_1_2_2))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 1} fs)
        ∗ ((slotM 1 2 2 inb_S2x4x4x64x256_S1x1x1x64x256_1_2_2_0_0).view.loc (pe c 2 : Thread nD τ) ↦[(slotM 1 2 2 inb_S2x4x4x64x256_S1x1x1x64x256_1_2_2_0_0).view.set]{fullShare} fd)
        ∗ owes (c : Thread nD τ) (O + tallyAt ((pe c 2 : Thread nD τ), SemLoc.dma (rcvS 1 2 2 inb_S3x4x4_S1x1x1_1_2_2)) () N) W
        ∗ dutyTok ER ((c : Thread nD τ), SemLoc.dma (sndS 1 2 2 inb_S3x4x4_S1x1x1_1_2_2)) 0 (0 : Fin 4) ∗ reached ER ((c : Thread nD τ), SemLoc.dma (sndS 1 2 2 inb_S3x4x4_S1x1x1_1_2_2)) 0
        ∗ dutyTok ER ((pe c 2 : Thread nD τ), SemLoc.dma (rcvS 1 2 2 inb_S3x4x4_S1x1x1_1_2_2)) 0 (0 : Fin 4) ∗ reached ER ((pe c 2 : Thread nD τ), SemLoc.dma (rcvS 1 2 2 inb_S3x4x4_S1x1x1_1_2_2)) 0)
      ⊢ iprop(((cred (tallyAt ((c : Thread nD τ), SemLoc.dma (sndS 1 2 2 inb_S3x4x4_S1x1x1_1_2_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc e' : Thread nD τ) (slotM 1 2 2 inb_S2x4x4x64x256_S1x1x1x64x256_1_2_2_0_0) (.dma (sndS 1 2 2 inb_S3x4x4_S1x1x1_1_2_2)) hsc) (.dma (rcvS 1 2 2 inb_S3x4x4_S1x1x1_1_2_2)) hsrc hdst hsem) k) Q) := by
  subst he
  exact wp_send_1_2_2 val jk jr K c fs fd hfs O W

/-- info: 'Cert.Kernel.Mlp.wp_sendTo_1_2_2' depends on axioms: [propext, Classical.choice, Quot.sound] -/
#guard_msgs in #print axioms wp_sendTo_1_2_2

/-- The rule of the copy of key `(1, 2, 3)` stated at the device `3` ahead of `c`, for a program that names that device `e'`. -/
theorem wp_sendTo_1_2_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 2 0 inb_S2x4x4x64x256_S1x1x1x64x256_1_2_0_0_0).view.read (Elt F) fs = val c 1 2)
    (O : CellTallies nD τ sig Unit) (W : Waits sig Unit)
    {hsc : ((slotM 1 2 3 inb_S2x4x4x64x256_S1x1x1x64x256_1_2_3_0_0) : Memref sig (Dev.tc e' : Thread nD τ).2.kind .vmem S64x256 .bf16).view.ref.isScScratch = false}
    {hsrc : (slotM 1 2 0 inb_S2x4x4x64x256_S1x1x1x64x256_1_2_0_0_0).view.WordExact} {hdst : (slotM 1 2 3 inb_S2x4x4x64x256_S1x1x1x64x256_1_2_3_0_0).view.WordExact}
    {hsem : DmaTarget.Typed .vmem (.dma (rcvS 1 2 3 inb_S3x4x4_S1x1x1_1_2_3)) (.remote (Dev.tc e' : Thread nD τ) (slotM 1 2 3 inb_S2x4x4x64x256_S1x1x1x64x256_1_2_3_0_0) (.dma (sndS 1 2 3 inb_S3x4x4_S1x1x1_1_2_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 2 3 inb_S3x4x4_S1x1x1_1_2_3))) ((c : Thread nD τ), SemLoc.dma (sndS 1 2 3 inb_S3x4x4_S1x1x1_1_2_3))
        ∗ cellInv ER (Rd val jk jr) (K ((pe c 3 : Thread nD τ), SemLoc.dma (rcvS 1 2 3 inb_S3x4x4_S1x1x1_1_2_3))) ((pe c 3 : Thread nD τ), SemLoc.dma (rcvS 1 2 3 inb_S3x4x4_S1x1x1_1_2_3))
        ∗ ((slotM 1 2 0 inb_S2x4x4x64x256_S1x1x1x64x256_1_2_0_0_0).view.loc (c : Thread nD τ) ↦[(slotM 1 2 0 inb_S2x4x4x64x256_S1x1x1x64x256_1_2_0_0_0).view.set]{Transfers.shareTokN fullShare 2} fs)
        ∗ ((slotM 1 2 3 inb_S2x4x4x64x256_S1x1x1x64x256_1_2_3_0_0).view.loc (pe c 3 : Thread nD τ) ↦[(slotM 1 2 3 inb_S2x4x4x64x256_S1x1x1x64x256_1_2_3_0_0).view.set]{fullShare} fd)
        ∗ owes (c : Thread nD τ) (O + tallyAt ((pe c 3 : Thread nD τ), SemLoc.dma (rcvS 1 2 3 inb_S3x4x4_S1x1x1_1_2_3)) () N) W
        ∗ dutyTok ER ((c : Thread nD τ), SemLoc.dma (sndS 1 2 3 inb_S3x4x4_S1x1x1_1_2_3)) 0 (0 : Fin 4) ∗ reached ER ((c : Thread nD τ), SemLoc.dma (sndS 1 2 3 inb_S3x4x4_S1x1x1_1_2_3)) 0
        ∗ dutyTok ER ((pe c 3 : Thread nD τ), SemLoc.dma (rcvS 1 2 3 inb_S3x4x4_S1x1x1_1_2_3)) 0 (0 : Fin 4) ∗ reached ER ((pe c 3 : Thread nD τ), SemLoc.dma (rcvS 1 2 3 inb_S3x4x4_S1x1x1_1_2_3)) 0)
      ⊢ iprop(((cred (tallyAt ((c : Thread nD τ), SemLoc.dma (sndS 1 2 3 inb_S3x4x4_S1x1x1_1_2_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 2 0 inb_S2x4x4x64x256_S1x1x1x64x256_1_2_0_0_0) (.remote (Dev.tc e' : Thread nD τ) (slotM 1 2 3 inb_S2x4x4x64x256_S1x1x1x64x256_1_2_3_0_0) (.dma (sndS 1 2 3 inb_S3x4x4_S1x1x1_1_2_3)) hsc) (.dma (rcvS 1 2 3 inb_S3x4x4_S1x1x1_1_2_3)) hsrc hdst hsem) k) Q) := by
  subst he
  exact wp_send_1_2_3 val jk jr K c fs fd hfs O W

/-- info: 'Cert.Kernel.Mlp.wp_sendTo_1_2_3' depends on axioms: [propext, Classical.choice, Quot.sound] -/
#guard_msgs in #print axioms wp_sendTo_1_2_3

/-- The rule of the copy of key `(1, 3, 1)` stated at the device `1` ahead of `c`, for a program that names that device `e'`. -/
theorem wp_sendTo_1_3_1 (K : GSem nD τ sig → ℕ) (c : Dev nD) (e' : Dev nD) (he : e' = pe c 1)
    (fs : Buf (Elt F) ((c : Thread nD τ).loc cc0_scratch0)) (fd : Buf (Elt F) ((pe c 1 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 1 inb_S2x4x4x64x256_S1x1x1x64x256_1_3_1_0_0) : Memref sig (Dev.tc e' : Thread nD τ).2.kind .vmem S64x256 .bf16).view.ref.isScScratch = false}
    {hsrc : (slotM 1 3 0 inb_S2x4x4x64x256_S1x1x1x64x256_1_3_0_0_0).view.WordExact} {hdst : (slotM 1 3 1 inb_S2x4x4x64x256_S1x1x1x64x256_1_3_1_0_0).view.WordExact}
    {hsem : DmaTarget.Typed .vmem (.dma (rcvS 1 3 1 inb_S3x4x4_S1x1x1_1_3_1)) (.remote (Dev.tc e' : Thread nD τ) (slotM 1 3 1 inb_S2x4x4x64x256_S1x1x1x64x256_1_3_1_0_0) (.dma (sndS 1 3 1 inb_S3x4x4_S1x1x1_1_3_1)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 1 inb_S3x4x4_S1x1x1_1_3_1))) ((c : Thread nD τ), SemLoc.dma (sndS 1 3 1 inb_S3x4x4_S1x1x1_1_3_1))
        ∗ cellInv ER (Rd val jk jr) (K ((pe c 1 : Thread nD τ), SemLoc.dma (rcvS 1 3 1 inb_S3x4x4_S1x1x1_1_3_1))) ((pe c 1 : Thread nD τ), SemLoc.dma (rcvS 1 3 1 inb_S3x4x4_S1x1x1_1_3_1))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 0} fs)
        ∗ ((slotM 1 3 1 inb_S2x4x4x64x256_S1x1x1x64x256_1_3_1_0_0).view.loc (pe c 1 : Thread nD τ) ↦[(slotM 1 3 1 inb_S2x4x4x64x256_S1x1x1x64x256_1_3_1_0_0).view.set]{fullShare} fd)
        ∗ owes (c : Thread nD τ) (O + tallyAt ((pe c 1 : Thread nD τ), SemLoc.dma (rcvS 1 3 1 inb_S3x4x4_S1x1x1_1_3_1)) () N) W
        ∗ dutyTok ER ((c : Thread nD τ), SemLoc.dma (sndS 1 3 1 inb_S3x4x4_S1x1x1_1_3_1)) 0 (0 : Fin 4) ∗ reached ER ((c : Thread nD τ), SemLoc.dma (sndS 1 3 1 inb_S3x4x4_S1x1x1_1_3_1)) 0
        ∗ dutyTok ER ((pe c 1 : Thread nD τ), SemLoc.dma (rcvS 1 3 1 inb_S3x4x4_S1x1x1_1_3_1)) 0 (0 : Fin 4) ∗ reached ER ((pe c 1 : Thread nD τ), SemLoc.dma (rcvS 1 3 1 inb_S3x4x4_S1x1x1_1_3_1)) 0)
      ⊢ iprop(((cred (tallyAt ((c : Thread nD τ), SemLoc.dma (sndS 1 3 1 inb_S3x4x4_S1x1x1_1_3_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc e' : Thread nD τ) (slotM 1 3 1 inb_S2x4x4x64x256_S1x1x1x64x256_1_3_1_0_0) (.dma (sndS 1 3 1 inb_S3x4x4_S1x1x1_1_3_1)) hsc) (.dma (rcvS 1 3 1 inb_S3x4x4_S1x1x1_1_3_1)) hsrc hdst hsem) k) Q) := by
  subst he
  exact wp_send_1_3_1 val jk jr K c fs fd hfs O W

/-- info: 'Cert.Kernel.Mlp.wp_sendTo_1_3_1' depends on axioms: [propext, Classical.choice, Quot.sound] -/
#guard_msgs in #print axioms wp_sendTo_1_3_1

/-- The rule of the copy of key `(1, 3, 2)` stated at the device `2` ahead of `c`, for a program that names that device `e'`. -/
theorem wp_sendTo_1_3_2 (K : GSem nD τ sig → ℕ) (c : Dev nD) (e' : Dev nD) (he : e' = pe c 2)
    (fs : Buf (Elt F) ((c : Thread nD τ).loc cc0_scratch0)) (fd : Buf (Elt F) ((pe c 2 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 2 inb_S2x4x4x64x256_S1x1x1x64x256_1_3_2_0_0) : Memref sig (Dev.tc e' : Thread nD τ).2.kind .vmem S64x256 .bf16).view.ref.isScScratch = false}
    {hsrc : (slotM 1 3 0 inb_S2x4x4x64x256_S1x1x1x64x256_1_3_0_0_0).view.WordExact} {hdst : (slotM 1 3 2 inb_S2x4x4x64x256_S1x1x1x64x256_1_3_2_0_0).view.WordExact}
    {hsem : DmaTarget.Typed .vmem (.dma (rcvS 1 3 2 inb_S3x4x4_S1x1x1_1_3_2)) (.remote (Dev.tc e' : Thread nD τ) (slotM 1 3 2 inb_S2x4x4x64x256_S1x1x1x64x256_1_3_2_0_0) (.dma (sndS 1 3 2 inb_S3x4x4_S1x1x1_1_3_2)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 2 inb_S3x4x4_S1x1x1_1_3_2))) ((c : Thread nD τ), SemLoc.dma (sndS 1 3 2 inb_S3x4x4_S1x1x1_1_3_2))
        ∗ cellInv ER (Rd val jk jr) (K ((pe c 2 : Thread nD τ), SemLoc.dma (rcvS 1 3 2 inb_S3x4x4_S1x1x1_1_3_2))) ((pe c 2 : Thread nD τ), SemLoc.dma (rcvS 1 3 2 inb_S3x4x4_S1x1x1_1_3_2))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 1} fs)
        ∗ ((slotM 1 3 2 inb_S2x4x4x64x256_S1x1x1x64x256_1_3_2_0_0).view.loc (pe c 2 : Thread nD τ) ↦[(slotM 1 3 2 inb_S2x4x4x64x256_S1x1x1x64x256_1_3_2_0_0).view.set]{fullShare} fd)
        ∗ owes (c : Thread nD τ) (O + tallyAt ((pe c 2 : Thread nD τ), SemLoc.dma (rcvS 1 3 2 inb_S3x4x4_S1x1x1_1_3_2)) () N) W
        ∗ dutyTok ER ((c : Thread nD τ), SemLoc.dma (sndS 1 3 2 inb_S3x4x4_S1x1x1_1_3_2)) 0 (0 : Fin 4) ∗ reached ER ((c : Thread nD τ), SemLoc.dma (sndS 1 3 2 inb_S3x4x4_S1x1x1_1_3_2)) 0
        ∗ dutyTok ER ((pe c 2 : Thread nD τ), SemLoc.dma (rcvS 1 3 2 inb_S3x4x4_S1x1x1_1_3_2)) 0 (0 : Fin 4) ∗ reached ER ((pe c 2 : Thread nD τ), SemLoc.dma (rcvS 1 3 2 inb_S3x4x4_S1x1x1_1_3_2)) 0)
      ⊢ iprop(((cred (tallyAt ((c : Thread nD τ), SemLoc.dma (sndS 1 3 2 inb_S3x4x4_S1x1x1_1_3_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc e' : Thread nD τ) (slotM 1 3 2 inb_S2x4x4x64x256_S1x1x1x64x256_1_3_2_0_0) (.dma (sndS 1 3 2 inb_S3x4x4_S1x1x1_1_3_2)) hsc) (.dma (rcvS 1 3 2 inb_S3x4x4_S1x1x1_1_3_2)) hsrc hdst hsem) k) Q) := by
  subst he
  exact wp_send_1_3_2 val jk jr K c fs fd hfs O W

/-- info: 'Cert.Kernel.Mlp.wp_sendTo_1_3_2' depends on axioms: [propext, Classical.choice, Quot.sound] -/
#guard_msgs in #print axioms wp_sendTo_1_3_2

/-- The rule of the copy of key `(1, 3, 3)` stated at the device `3` ahead of `c`, for a program that names that device `e'`. -/
theorem wp_sendTo_1_3_3 (K : GSem nD τ sig → ℕ) (c : Dev nD) (e' : Dev nD) (he : e' = pe c 3)
    (fs : Buf (Elt F) ((c : Thread nD τ).loc cc0_scratch0)) (fd : Buf (Elt F) ((pe c 3 : Thread nD τ).loc cc0_scratch0))
    (hfs : (slotM 1 3 0 inb_S2x4x4x64x256_S1x1x1x64x256_1_3_0_0_0).view.read (Elt F) fs = val c 1 3)
    (O : CellTallies nD τ sig Unit) (W : Waits sig Unit)
    {hsc : ((slotM 1 3 3 inb_S2x4x4x64x256_S1x1x1x64x256_1_3_3_0_0) : Memref sig (Dev.tc e' : Thread nD τ).2.kind .vmem S64x256 .bf16).view.ref.isScScratch = false}
    {hsrc : (slotM 1 3 0 inb_S2x4x4x64x256_S1x1x1x64x256_1_3_0_0_0).view.WordExact} {hdst : (slotM 1 3 3 inb_S2x4x4x64x256_S1x1x1x64x256_1_3_3_0_0).view.WordExact}
    {hsem : DmaTarget.Typed .vmem (.dma (rcvS 1 3 3 inb_S3x4x4_S1x1x1_1_3_3)) (.remote (Dev.tc e' : Thread nD τ) (slotM 1 3 3 inb_S2x4x4x64x256_S1x1x1x64x256_1_3_3_0_0) (.dma (sndS 1 3 3 inb_S3x4x4_S1x1x1_1_3_3)) hsc)}
    {α : Type} {Q : α → sProp 𝕄} {k : PUnit → Prog (TpuEff nD τ sig (Elt F) Λ₀ .tc) α} :
    iprop(cellInv ER (Rd val jk jr) (K ((c : Thread nD τ), SemLoc.dma (sndS 1 3 3 inb_S3x4x4_S1x1x1_1_3_3))) ((c : Thread nD τ), SemLoc.dma (sndS 1 3 3 inb_S3x4x4_S1x1x1_1_3_3))
        ∗ cellInv ER (Rd val jk jr) (K ((pe c 3 : Thread nD τ), SemLoc.dma (rcvS 1 3 3 inb_S3x4x4_S1x1x1_1_3_3))) ((pe c 3 : Thread nD τ), SemLoc.dma (rcvS 1 3 3 inb_S3x4x4_S1x1x1_1_3_3))
        ∗ ((slotM 1 3 0 inb_S2x4x4x64x256_S1x1x1x64x256_1_3_0_0_0).view.loc (c : Thread nD τ) ↦[(slotM 1 3 0 inb_S2x4x4x64x256_S1x1x1x64x256_1_3_0_0_0).view.set]{Transfers.shareTokN fullShare 2} fs)
        ∗ ((slotM 1 3 3 inb_S2x4x4x64x256_S1x1x1x64x256_1_3_3_0_0).view.loc (pe c 3 : Thread nD τ) ↦[(slotM 1 3 3 inb_S2x4x4x64x256_S1x1x1x64x256_1_3_3_0_0).view.set]{fullShare} fd)
        ∗ owes (c : Thread nD τ) (O + tallyAt ((pe c 3 : Thread nD τ), SemLoc.dma (rcvS 1 3 3 inb_S3x4x4_S1x1x1_1_3_3)) () N) W
        ∗ dutyTok ER ((c : Thread nD τ), SemLoc.dma (sndS 1 3 3 inb_S3x4x4_S1x1x1_1_3_3)) 0 (0 : Fin 4) ∗ reached ER ((c : Thread nD τ), SemLoc.dma (sndS 1 3 3 inb_S3x4x4_S1x1x1_1_3_3)) 0
        ∗ dutyTok ER ((pe c 3 : Thread nD τ), SemLoc.dma (rcvS 1 3 3 inb_S3x4x4_S1x1x1_1_3_3)) 0 (0 : Fin 4) ∗ reached ER ((pe c 3 : Thread nD τ), SemLoc.dma (rcvS 1 3 3 inb_S3x4x4_S1x1x1_1_3_3)) 0)
      ⊢ iprop(((cred (tallyAt ((c : Thread nD τ), SemLoc.dma (sndS 1 3 3 inb_S3x4x4_S1x1x1_1_3_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 1 3 0 inb_S2x4x4x64x256_S1x1x1x64x256_1_3_0_0_0) (.remote (Dev.tc e' : Thread nD τ) (slotM 1 3 3 inb_S2x4x4x64x256_S1x1x1x64x256_1_3_3_0_0) (.dma (sndS 1 3 3 inb_S3x4x4_S1x1x1_1_3_3)) hsc) (.dma (rcvS 1 3 3 inb_S3x4x4_S1x1x1_1_3_3)) hsrc hdst hsem) k) Q) := by
  subst he
  exact wp_send_1_3_3 val jk jr K c fs fd hfs O W

/-- info: 'Cert.Kernel.Mlp.wp_sendTo_1_3_3' depends on axioms: [propext, Classical.choice, Quot.sound] -/
#guard_msgs in #print axioms wp_sendTo_1_3_3

/-- The rule of the copy of key `(2, 0, 1)` stated at the device `1` ahead of `c`, for a program that names that device `e'`. -/
theorem wp_sendTo_2_0_1 (K : GSem nD τ sig → ℕ) (c : Dev nD) (e' : Dev nD) (he : e' = pe c 1)
    (fs : Buf (Elt F) ((c : Thread nD τ).loc cc0_scratch1)) (fd : Buf (Elt F) ((pe c 1 : Thread nD τ).loc cc0_scratch1))
    (hfs : (rsM 0 1 inb_S2x4x64x256_S1x1x64x256_0_1_0_0).view.read (Elt F) fs = val c 2 1)
    (O : CellTallies nD τ sig Unit) (W : Waits sig Unit)
    {hsc : ((rsM 1 1 inb_S2x4x64x256_S1x1x64x256_1_1_0_0) : Memref sig (Dev.tc e' : Thread nD τ).2.kind .vmem S64x256 .bf16).view.ref.isScScratch = false}
    {hsrc : (rsM 0 1 inb_S2x4x64x256_S1x1x64x256_0_1_0_0).view.WordExact} {hdst : (rsM 1 1 inb_S2x4x64x256_S1x1x64x256_1_1_0_0).view.WordExact}
    {hsem : DmaTarget.Typed .vmem (.dma (rcvS 2 0 1 inb_S3x4x4_S1x1x1_2_0_1)) (.remote (Dev.tc e' : Thread nD τ) (rsM 1 1 inb_S2x4x64x256_S1x1x64x256_1_1_0_0) (.dma (sndS 2 0 1 inb_S3x4x4_S1x1x1_2_0_1)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 1 inb_S3x4x4_S1x1x1_2_0_1))) ((c : Thread nD τ), SemLoc.dma (sndS 2 0 1 inb_S3x4x4_S1x1x1_2_0_1))
        ∗ cellInv ER (Rd val jk jr) (K ((pe c 1 : Thread nD τ), SemLoc.dma (rcvS 2 0 1 inb_S3x4x4_S1x1x1_2_0_1))) ((pe c 1 : Thread nD τ), SemLoc.dma (rcvS 2 0 1 inb_S3x4x4_S1x1x1_2_0_1))
        ∗ ((rsM 0 1 inb_S2x4x64x256_S1x1x64x256_0_1_0_0).view.loc (c : Thread nD τ) ↦[(rsM 0 1 inb_S2x4x64x256_S1x1x64x256_0_1_0_0).view.set]{fullShare} fs)
        ∗ ((rsM 1 1 inb_S2x4x64x256_S1x1x64x256_1_1_0_0).view.loc (pe c 1 : Thread nD τ) ↦[(rsM 1 1 inb_S2x4x64x256_S1x1x64x256_1_1_0_0).view.set]{fullShare} fd)
        ∗ owes (c : Thread nD τ) (O + tallyAt ((pe c 1 : Thread nD τ), SemLoc.dma (rcvS 2 0 1 inb_S3x4x4_S1x1x1_2_0_1)) () N) W
        ∗ dutyTok ER ((c : Thread nD τ), SemLoc.dma (sndS 2 0 1 inb_S3x4x4_S1x1x1_2_0_1)) 0 (0 : Fin 4) ∗ reached ER ((c : Thread nD τ), SemLoc.dma (sndS 2 0 1 inb_S3x4x4_S1x1x1_2_0_1)) 0
        ∗ dutyTok ER ((pe c 1 : Thread nD τ), SemLoc.dma (rcvS 2 0 1 inb_S3x4x4_S1x1x1_2_0_1)) 0 (0 : Fin 4) ∗ reached ER ((pe c 1 : Thread nD τ), SemLoc.dma (rcvS 2 0 1 inb_S3x4x4_S1x1x1_2_0_1)) 0)
      ⊢ iprop(((cred (tallyAt ((c : Thread nD τ), SemLoc.dma (sndS 2 0 1 inb_S3x4x4_S1x1x1_2_0_1)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 1 inb_S2x4x64x256_S1x1x64x256_0_1_0_0) (.remote (Dev.tc e' : Thread nD τ) (rsM 1 1 inb_S2x4x64x256_S1x1x64x256_1_1_0_0) (.dma (sndS 2 0 1 inb_S3x4x4_S1x1x1_2_0_1)) hsc) (.dma (rcvS 2 0 1 inb_S3x4x4_S1x1x1_2_0_1)) hsrc hdst hsem) k) Q) := by
  subst he
  exact wp_send_2_0_1 val jk jr K c fs fd hfs O W

/-- info: 'Cert.Kernel.Mlp.wp_sendTo_2_0_1' depends on axioms: [propext, Classical.choice, Quot.sound] -/
#guard_msgs in #print axioms wp_sendTo_2_0_1

/-- The rule of the copy of key `(2, 0, 2)` stated at the device `2` ahead of `c`, for a program that names that device `e'`. -/
theorem wp_sendTo_2_0_2 (K : GSem nD τ sig → ℕ) (c : Dev nD) (e' : Dev nD) (he : e' = pe c 2)
    (fs : Buf (Elt F) ((c : Thread nD τ).loc cc0_scratch1)) (fd : Buf (Elt F) ((pe c 2 : Thread nD τ).loc cc0_scratch1))
    (hfs : (rsM 0 2 inb_S2x4x64x256_S1x1x64x256_0_2_0_0).view.read (Elt F) fs = val c 2 2)
    (O : CellTallies nD τ sig Unit) (W : Waits sig Unit)
    {hsc : ((rsM 1 2 inb_S2x4x64x256_S1x1x64x256_1_2_0_0) : Memref sig (Dev.tc e' : Thread nD τ).2.kind .vmem S64x256 .bf16).view.ref.isScScratch = false}
    {hsrc : (rsM 0 2 inb_S2x4x64x256_S1x1x64x256_0_2_0_0).view.WordExact} {hdst : (rsM 1 2 inb_S2x4x64x256_S1x1x64x256_1_2_0_0).view.WordExact}
    {hsem : DmaTarget.Typed .vmem (.dma (rcvS 2 0 2 inb_S3x4x4_S1x1x1_2_0_2)) (.remote (Dev.tc e' : Thread nD τ) (rsM 1 2 inb_S2x4x64x256_S1x1x64x256_1_2_0_0) (.dma (sndS 2 0 2 inb_S3x4x4_S1x1x1_2_0_2)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 2 inb_S3x4x4_S1x1x1_2_0_2))) ((c : Thread nD τ), SemLoc.dma (sndS 2 0 2 inb_S3x4x4_S1x1x1_2_0_2))
        ∗ cellInv ER (Rd val jk jr) (K ((pe c 2 : Thread nD τ), SemLoc.dma (rcvS 2 0 2 inb_S3x4x4_S1x1x1_2_0_2))) ((pe c 2 : Thread nD τ), SemLoc.dma (rcvS 2 0 2 inb_S3x4x4_S1x1x1_2_0_2))
        ∗ ((rsM 0 2 inb_S2x4x64x256_S1x1x64x256_0_2_0_0).view.loc (c : Thread nD τ) ↦[(rsM 0 2 inb_S2x4x64x256_S1x1x64x256_0_2_0_0).view.set]{fullShare} fs)
        ∗ ((rsM 1 2 inb_S2x4x64x256_S1x1x64x256_1_2_0_0).view.loc (pe c 2 : Thread nD τ) ↦[(rsM 1 2 inb_S2x4x64x256_S1x1x64x256_1_2_0_0).view.set]{fullShare} fd)
        ∗ owes (c : Thread nD τ) (O + tallyAt ((pe c 2 : Thread nD τ), SemLoc.dma (rcvS 2 0 2 inb_S3x4x4_S1x1x1_2_0_2)) () N) W
        ∗ dutyTok ER ((c : Thread nD τ), SemLoc.dma (sndS 2 0 2 inb_S3x4x4_S1x1x1_2_0_2)) 0 (0 : Fin 4) ∗ reached ER ((c : Thread nD τ), SemLoc.dma (sndS 2 0 2 inb_S3x4x4_S1x1x1_2_0_2)) 0
        ∗ dutyTok ER ((pe c 2 : Thread nD τ), SemLoc.dma (rcvS 2 0 2 inb_S3x4x4_S1x1x1_2_0_2)) 0 (0 : Fin 4) ∗ reached ER ((pe c 2 : Thread nD τ), SemLoc.dma (rcvS 2 0 2 inb_S3x4x4_S1x1x1_2_0_2)) 0)
      ⊢ iprop(((cred (tallyAt ((c : Thread nD τ), SemLoc.dma (sndS 2 0 2 inb_S3x4x4_S1x1x1_2_0_2)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 2 inb_S2x4x64x256_S1x1x64x256_0_2_0_0) (.remote (Dev.tc e' : Thread nD τ) (rsM 1 2 inb_S2x4x64x256_S1x1x64x256_1_2_0_0) (.dma (sndS 2 0 2 inb_S3x4x4_S1x1x1_2_0_2)) hsc) (.dma (rcvS 2 0 2 inb_S3x4x4_S1x1x1_2_0_2)) hsrc hdst hsem) k) Q) := by
  subst he
  exact wp_send_2_0_2 val jk jr K c fs fd hfs O W

/-- info: 'Cert.Kernel.Mlp.wp_sendTo_2_0_2' depends on axioms: [propext, Classical.choice, Quot.sound] -/
#guard_msgs in #print axioms wp_sendTo_2_0_2

/-- The rule of the copy of key `(2, 0, 3)` stated at the device `3` ahead of `c`, for a program that names that device `e'`. -/
theorem wp_sendTo_2_0_3 (K : GSem nD τ sig → ℕ) (c : Dev nD) (e' : Dev nD) (he : e' = pe c 3)
    (fs : Buf (Elt F) ((c : Thread nD τ).loc cc0_scratch1)) (fd : Buf (Elt F) ((pe c 3 : Thread nD τ).loc cc0_scratch1))
    (hfs : (rsM 0 3 inb_S2x4x64x256_S1x1x64x256_0_3_0_0).view.read (Elt F) fs = val c 2 3)
    (O : CellTallies nD τ sig Unit) (W : Waits sig Unit)
    {hsc : ((rsM 1 3 inb_S2x4x64x256_S1x1x64x256_1_3_0_0) : Memref sig (Dev.tc e' : Thread nD τ).2.kind .vmem S64x256 .bf16).view.ref.isScScratch = false}
    {hsrc : (rsM 0 3 inb_S2x4x64x256_S1x1x64x256_0_3_0_0).view.WordExact} {hdst : (rsM 1 3 inb_S2x4x64x256_S1x1x64x256_1_3_0_0).view.WordExact}
    {hsem : DmaTarget.Typed .vmem (.dma (rcvS 2 0 3 inb_S3x4x4_S1x1x1_2_0_3)) (.remote (Dev.tc e' : Thread nD τ) (rsM 1 3 inb_S2x4x64x256_S1x1x64x256_1_3_0_0) (.dma (sndS 2 0 3 inb_S3x4x4_S1x1x1_2_0_3)) hsc)}
    {α : Type} {Q : α → sProp 𝕄} {k : PUnit → Prog (TpuEff nD τ sig (Elt F) Λ₀ .tc) α} :
    iprop(cellInv ER (Rd val jk jr) (K ((c : Thread nD τ), SemLoc.dma (sndS 2 0 3 inb_S3x4x4_S1x1x1_2_0_3))) ((c : Thread nD τ), SemLoc.dma (sndS 2 0 3 inb_S3x4x4_S1x1x1_2_0_3))
        ∗ cellInv ER (Rd val jk jr) (K ((pe c 3 : Thread nD τ), SemLoc.dma (rcvS 2 0 3 inb_S3x4x4_S1x1x1_2_0_3))) ((pe c 3 : Thread nD τ), SemLoc.dma (rcvS 2 0 3 inb_S3x4x4_S1x1x1_2_0_3))
        ∗ ((rsM 0 3 inb_S2x4x64x256_S1x1x64x256_0_3_0_0).view.loc (c : Thread nD τ) ↦[(rsM 0 3 inb_S2x4x64x256_S1x1x64x256_0_3_0_0).view.set]{fullShare} fs)
        ∗ ((rsM 1 3 inb_S2x4x64x256_S1x1x64x256_1_3_0_0).view.loc (pe c 3 : Thread nD τ) ↦[(rsM 1 3 inb_S2x4x64x256_S1x1x64x256_1_3_0_0).view.set]{fullShare} fd)
        ∗ owes (c : Thread nD τ) (O + tallyAt ((pe c 3 : Thread nD τ), SemLoc.dma (rcvS 2 0 3 inb_S3x4x4_S1x1x1_2_0_3)) () N) W
        ∗ dutyTok ER ((c : Thread nD τ), SemLoc.dma (sndS 2 0 3 inb_S3x4x4_S1x1x1_2_0_3)) 0 (0 : Fin 4) ∗ reached ER ((c : Thread nD τ), SemLoc.dma (sndS 2 0 3 inb_S3x4x4_S1x1x1_2_0_3)) 0
        ∗ dutyTok ER ((pe c 3 : Thread nD τ), SemLoc.dma (rcvS 2 0 3 inb_S3x4x4_S1x1x1_2_0_3)) 0 (0 : Fin 4) ∗ reached ER ((pe c 3 : Thread nD τ), SemLoc.dma (rcvS 2 0 3 inb_S3x4x4_S1x1x1_2_0_3)) 0)
      ⊢ iprop(((cred (tallyAt ((c : Thread nD τ), SemLoc.dma (sndS 2 0 3 inb_S3x4x4_S1x1x1_2_0_3)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsM 0 3 inb_S2x4x64x256_S1x1x64x256_0_3_0_0) (.remote (Dev.tc e' : Thread nD τ) (rsM 1 3 inb_S2x4x64x256_S1x1x64x256_1_3_0_0) (.dma (sndS 2 0 3 inb_S3x4x4_S1x1x1_2_0_3)) hsc) (.dma (rcvS 2 0 3 inb_S3x4x4_S1x1x1_2_0_3)) hsrc hdst hsem) k) Q) := by
  subst he
  exact wp_send_2_0_3 val jk jr K c fs fd hfs O W

/-- info: 'Cert.Kernel.Mlp.wp_sendTo_2_0_3' depends on axioms: [propext, Classical.choice, Quot.sound] -/
#guard_msgs in #print axioms wp_sendTo_2_0_3

end Cert.Kernel.Mlp

end
-- ==== Proof.Bits.Shares.lean ====
import proofs.«900991_g7700000000000992_dist_mlpseq_tp1d_rep_bs_b256_d256_h512_v7x_i4_bf16_1_alg».proof.Proof.Bits.Toks

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- A block held outright is a kept share and three lendable shares of the same contents: one for each of the three
    copies that read it while the device itself goes on reading it. -/
theorem share_split4 {ℓ : Loc nD τ sig} (S : Finset (ℓ.ty.shape.Idx)) (f : Buf (Elt F) ℓ) :
    (ℓ ↦[S]{fullShare} f : sProp 𝕄) ⊣⊢ iprop((ℓ ↦[S]{Transfers.shareDrop fullShare 3} f) ∗ (ℓ ↦[S]{Transfers.shareTokN fullShare 0} f)
      ∗ (ℓ ↦[S]{Transfers.shareTokN fullShare 1} f) ∗ (ℓ ↦[S]{Transfers.shareTokN fullShare 2} f)) := by
  have h : (ℓ ↦[S]{fullShare} f : sProp 𝕄) ⊣⊢ _ := Transfers.pointsTo_toks_range fullShare 3
  rw [BI.bigSep_eq_bigSepL_of_eq [0, 1, 2] (by decide) (by decide)] at h
  exact h

end Cert.Kernel.Mlp

end
-- ==== Proof.Bits.ValueSteps.lean ====
import proofs.«900991_g7700000000000992_dist_mlpseq_tp1d_rep_bs_b256_d256_h512_v7x_i4_bf16_1_alg».proof.Proof.Bits.ValsG

/-!
# The values the body's stores leave and its loads return

Every copy of the body sends a block that a store has just written, and every later load reads either such a block or
one that a copy has landed.  Read back through the block's own view, a stored vector is the vector with its unit axes
dropped; read by a vector load, a landed block is the block under its unit axes.  With the stored vectors composed along
the exchange these give, store by store, the blocks named from the memory at launch, and at the end the device's result.
-/

set_option quotPrecheck false

noncomputable section

namespace Cert.Kernel.Mlp

open Idealize.ShloMosaic
open Idealize.ShloMosaic.TcCoe
open Cert.Kernel Cert.Kernel.Gen Cert.Kernel.Join Cert.Kernel.KVal
open Idealize.SL.Sem

variable {F : FTy → Type} [FloatOps F]
variable (m : (ℓ : Loc nD τ sig) → Buf (Elt F) ℓ) (ρ : Dev nD → PrngReg)

/-! Shorthand for the three ways a block `[l, p, o]` of the first exchange buffer is touched: a vector load of it, a
    vector store over it, a landing in it; and the same for a block `[k, o]` of the second. -/
local notation "LD5(" l ", " p ", " o ", " h ", " x ")" =>
  View.readAt (Elt F) (Memref.whole cc0_scratch0).view
    (Rect.unit (s := S2x4x4x64x256) ![l, p, o, 0, 0] S1x1x1x64x256.size h).toLoadRect x
local notation "ST5(" l ", " p ", " o ", " h ", " b ", " v ")" =>
  View.write (Elt F) ((Memref.whole cc0_scratch0).access (Rect.unit (s := S2x4x4x64x256) ![l, p, o, 0, 0] S1x1x1x64x256.size h))
    b v Finset.univ
local notation "LN5(" l ", " p ", " o ", " h ", " fd ", " x ")" =>
  (slotM l p o h).view.write (Elt F) fd x Finset.univ
local notation "LD4(" k ", " o ", " h ", " x ")" =>
  View.readAt (Elt F) (Memref.whole cc0_scratch1).view
    (Rect.unit (s := S2x4x64x256) ![k, o, 0, 0] S1x1x64x256.size h).toLoadRect x
local notation "ST4(" k ", " o ", " h ", " b ", " v ")" =>
  View.write (Elt F) ((Memref.whole cc0_scratch1).access (Rect.unit (s := S2x4x64x256) ![k, o, 0, 0] S1x1x64x256.size h))
    b v Finset.univ
local notation "LN4(" k ", " o ", " h ", " fd ", " x ")" =>
  (rsM k o h).view.write (Elt F) fd x Finset.univ
/-- The stored vectors of all devices, from the memory at launch. -/
local notation "V0'" => V0 (XA0 m ρ) (WiA m ρ) (WoA m ρ)
local notation "V1'" => V1 (XA0 m ρ) (WiA m ρ) (WoA m ρ)

/-! ## Layer 0, for a row block `p` -/

section Layer0

variable (p : Fin 4)

/-- A load of what the layer-0 store left in slot 0 of block `p`: the device's own layer-0 vector. -/
theorem own_load0 (h : ∀ a, (![0, p.val, 0, 0, 0] : Fin 5 → Nat) a + S1x1x1x64x256.size a ≤ S2x4x4x64x256.size a)
    (c : Dev nD) (b : Buf (Elt F) ((c : Thread nD τ).loc cc0_scratch0)) :
    LD5(0, p.val, 0, h, ST5(0, p.val, 0, h, b, st0 (XA0 m ρ c) (XA1 m ρ c) (XA2 m ρ c) p)) = V0' c p :=
  slot_load_store 0 p.val 0 h c b _

/-- A load of slot `j` of block `p` after device `e`'s layer-0 block has landed there: `e`'s layer-0 vector. -/
theorem land_load0 (j : ℕ) (h : ∀ a, (![0, p.val, j, 0, 0] : Fin 5 → Nat) a + S1x1x1x64x256.size a ≤ S2x4x4x64x256.size a)
    (c e : Dev nD) (fd : Buf (Elt F) ((c : Thread nD τ).loc cc0_scratch0)) :
    LD5(0, p.val, j, h, LN5(0, p.val, j, h, fd, valF m ρ e 0 p.val)) = V0' e p := by
  rw [slot_load_landing, valF_0, un5_sq5]

/-- The layer-0 store, read through the slot's own view: the block named for the device, layer 0, row block `p`. -/
theorem read_store0 (h : ∀ a, (![0, p.val, 0, 0, 0] : Fin 5 → Nat) a + S1x1x1x64x256.size a ≤ S2x4x4x64x256.size a)
    (c : Dev nD) (b : Buf (Elt F) ((c : Thread nD τ).loc cc0_scratch0)) :
    (slotM 0 p.val 0 h).view.read (Elt F) ST5(0, p.val, 0, h, b, st0 (XA0 m ρ c) (XA1 m ρ c) (XA2 m ρ c) p)
      = valF m ρ c 0 p.val :=
  (slot_read_store 0 p.val 0 h c b _).trans (valF_0 m ρ c p).symm

end Layer0

/-! ## Layer 1, for a row block `p` -/

section Layer1

variable (p : Fin 4)

/-- The layer-1 store, read through the slot's own view, when the four loaded slots hold the layer-0 vectors of the
    device and of the devices 1, 3, 2 places behind it: the block named for the device, layer 1, row block `p`. -/
theorem read_store1 (h : ∀ a, (![1, p.val, 0, 0, 0] : Fin 5 → Nat) a + S1x1x1x64x256.size a ≤ S2x4x4x64x256.size a)
    (c : Dev nD) (b : Buf (Elt F) ((c : Thread nD τ).loc cc0_scratch0)) (own s1 s3 s2 : Vec F S1x1x1x64x256 .bf16)
    (hown : own = V0' c p) (hs1 : s1 = V0' (ps c 1) p) (hs3 : s3 = V0' (ps c 3) p) (hs2 : s2 = V0' (ps c 2) p) :
    (slotM 1 p.val 0 h).view.read (Elt F) ST5(1, p.val, 0, h, b, st1 (XA3 m ρ c) (XA4 m ρ c) own s1 s3 s2 p)
      = valF m ρ c 1 p.val := by
  subst hown hs1 hs3 hs2
  exact (slot_read_store 1 p.val 0 h c b _).trans (valF_1 m ρ c p).symm

/-- A load of what the layer-1 store left in slot 0 of block `p`, under the same hypotheses: the device's own layer-1
    vector. -/
theorem own_load1 (h : ∀ a, (![1, p.val, 0, 0, 0] : Fin 5 → Nat) a + S1x1x1x64x256.size a ≤ S2x4x4x64x256.size a)
    (c : Dev nD) (b : Buf (Elt F) ((c : Thread nD τ).loc cc0_scratch0)) (own s1 s3 s2 : Vec F S1x1x1x64x256 .bf16)
    (hown : own = V0' c p) (hs1 : s1 = V0' (ps c 1) p) (hs3 : s3 = V0' (ps c 3) p) (hs2 : s2 = V0' (ps c 2) p) :
    LD5(1, p.val, 0, h, ST5(1, p.val, 0, h, b, st1 (XA3 m ρ c) (XA4 m ρ c) own s1 s3 s2 p)) = V1' c p := by
  subst hown hs1 hs3 hs2
  exact slot_load_store 1 p.val 0 h c b _

/-- A load of slot `j` of block `p` after device `e`'s layer-1 block has landed there: `e`'s layer-1 vector. -/
theorem land_load1 (j : ℕ) (h : ∀ a, (![1, p.val, j, 0, 0] : Fin 5 → Nat) a + S1x1x1x64x256.size a ≤ S2x4x4x64x256.size a)
    (c e : Dev nD) (fd : Buf (Elt F) ((c : Thread nD τ).loc cc0_scratch0)) :
    LD5(1, p.val, j, h, LN5(1, p.val, j, h, fd, valF m ρ e 1 p.val)) = V1' e p := by
  rw [slot_load_landing, valF_1, un5_sq5]

end Layer1

/-! ## Layers 0 and 1 at the four literal row blocks -/

section Literal01

/-! ### Layer 0: the store read back through the slot's own view -/

theorem L0_0 (c : Dev nD) (b : Buf (Elt F) ((c : Thread nD τ).loc cc0_scratch0)) :
    (slotM 0 0 0 inb_S2x4x4x64x256_S1x1x1x64x256_0_0_0_0_0).view.read (Elt F)
        (ST5(0, 0, 0, inb_S2x4x4x64x256_S1x1x1x64x256_0_0_0_0_0, b, st0 (XA0 m ρ c) (XA1 m ρ c) (XA2 m ρ c) 0))
      = valF m ρ c 0 0 :=
  read_store0 m ρ 0 _ c b
theorem L0_1 (c : Dev nD) (b : Buf (Elt F) ((c : Thread nD τ).loc cc0_scratch0)) :
    (slotM 0 1 0 inb_S2x4x4x64x256_S1x1x1x64x256_0_1_0_0_0).view.read (Elt F)
        (ST5(0, 1, 0, inb_S2x4x4x64x256_S1x1x1x64x256_0_1_0_0_0, b, st0 (XA0 m ρ c) (XA1 m ρ c) (XA2 m ρ c) 1))
      = valF m ρ c 0 1 :=
  read_store0 m ρ 1 _ c b
theorem L0_2 (c : Dev nD) (b : Buf (Elt F) ((c : Thread nD τ).loc cc0_scratch0)) :
    (slotM 0 2 0 inb_S2x4x4x64x256_S1x1x1x64x256_0_2_0_0_0).view.read (Elt F)
        (ST5(0, 2, 0, inb_S2x4x4x64x256_S1x1x1x64x256_0_2_0_0_0, b, st0 (XA0 m ρ c) (XA1 m ρ c) (XA2 m ρ c) 2))
      = valF m ρ c 0 2 :=
  read_store0 m ρ 2 _ c b
theorem L0_3 (c : Dev nD) (b : Buf (Elt F) ((c : Thread nD τ).loc cc0_scratch0)) :
    (slotM 0 3 0 inb_S2x4x4x64x256_S1x1x1x64x256_0_3_0_0_0).view.read (Elt F)
        (ST5(0, 3, 0, inb_S2x4x4x64x256_S1x1x1x64x256_0_3_0_0_0, b, st0 (XA0 m ρ c) (XA1 m ρ c) (XA2 m ρ c) 3))
      = valF m ρ c 0 3 :=
  read_store0 m ρ 3 _ c b

/-! ### Layer 0: the load of the device's own slot after its store -/

theorem own_load0_0 (c : Dev nD) (b : Buf (Elt F) ((c : Thread nD τ).loc cc0_scratch0)) :
    LD5(0, 0, 0, inb_S2x4x4x64x256_S1x1x1x64x256_0_0_0_0_0,
        ST5(0, 0, 0, inb_S2x4x4x64x256_S1x1x1x64x256_0_0_0_0_0, b, st0 (XA0 m ρ c) (XA1 m ρ c) (XA2 m ρ c) 0))
      = V0' c 0 :=
  own_load0 m ρ 0 _ c b
theorem own_load0_1 (c : Dev nD) (b : Buf (Elt F) ((c : Thread nD τ).loc cc0_scratch0)) :
    LD5(0, 1, 0, inb_S2x4x4x64x256_S1x1x1x64x256_0_1_0_0_0,
        ST5(0, 1, 0, inb_S2x4x4x64x256_S1x1x1x64x256_0_1_0_0_0, b, st0 (XA0 m ρ c) (XA1 m ρ c) (XA2 m ρ c) 1))
      = V0' c 1 :=
  own_load0 m ρ 1 _ c b
theorem own_load0_2 (c : Dev nD) (b : Buf (Elt F) ((c : Thread nD τ).loc cc0_scratch0)) :
    LD5(0, 2, 0, inb_S2x4x4x64x256_S1x1x1x64x256_0_2_0_0_0,
        ST5(0, 2, 0, inb_S2x4x4x64x256_S1x1x1x64x256_0_2_0_0_0, b, st0 (XA0 m ρ c) (XA1 m ρ c) (XA2 m ρ c) 2))
      = V0' c 2 :=
  own_load0 m ρ 2 _ c b
theorem own_load0_3 (c : Dev nD) (b : Buf (Elt F) ((c : Thread nD τ).loc cc0_scratch0)) :
    LD5(0, 3, 0, inb_S2x4x4x64x256_S1x1x1x64x256_0_3_0_0_0,
        ST5(0, 3, 0, inb_S2x4x4x64x256_S1x1x1x64x256_0_3_0_0_0, b, st0 (XA0 m ρ c) (XA1 m ρ c) (XA2 m ρ c) 3))
      = V0' c 3 :=
  own_load0 m ρ 3 _ c b

/-! ### Layer 0: the load of slot `j` after the landing from the device `j` places behind -/

theorem land_load0_0_1 (c : Dev nD) :
    LD5(0, 0, 1, inb_S2x4x4x64x256_S1x1x1x64x256_0_0_1_0_0,
        LN5(0, 0, 1, inb_S2x4x4x64x256_S1x1x1x64x256_0_0_1_0_0, jkF c, valF m ρ (ps c 1) 0 0)) = V0' (ps c 1) 0 :=
  land_load0 m ρ 0 1 _ c (ps c 1) (jkF c)
theorem land_load0_0_2 (c : Dev nD) :
    LD5(0, 0, 2, inb_S2x4x4x64x256_S1x1x1x64x256_0_0_2_0_0,
        LN5(0, 0, 2, inb_S2x4x4x64x256_S1x1x1x64x256_0_0_2_0_0, jkF c, valF m ρ (ps c 2) 0 0)) = V0' (ps c 2) 0 :=
  land_load0 m ρ 0 2 _ c (ps c 2) (jkF c)
theorem land_load0_0_3 (c : Dev nD) :
    LD5(0, 0, 3, inb_S2x4x4x64x256_S1x1x1x64x256_0_0_3_0_0,
        LN5(0, 0, 3, inb_S2x4x4x64x256_S1x1x1x64x256_0_0_3_0_0, jkF c, valF m ρ (ps c 3) 0 0)) = V0' (ps c 3) 0 :=
  land_load0 m ρ 0 3 _ c (ps c 3) (jkF c)
theorem land_load0_1_1 (c : Dev nD) :
    LD5(0, 1, 1, inb_S2x4x4x64x256_S1x1x1x64x256_0_1_1_0_0,
        LN5(0, 1, 1, inb_S2x4x4x64x256_S1x1x1x64x256_0_1_1_0_0, jkF c, valF m ρ (ps c 1) 0 1)) = V0' (ps c 1) 1 :=
  land_load0 m ρ 1 1 _ c (ps c 1) (jkF c)
theorem land_load0_1_2 (c : Dev nD) :
    LD5(0, 1, 2, inb_S2x4x4x64x256_S1x1x1x64x256_0_1_2_0_0,
        LN5(0, 1, 2, inb_S2x4x4x64x256_S1x1x1x64x256_0_1_2_0_0, jkF c, valF m ρ (ps c 2) 0 1)) = V0' (ps c 2) 1 :=
  land_load0 m ρ 1 2 _ c (ps c 2) (jkF c)
theorem land_load0_1_3 (c : Dev nD) :
    LD5(0, 1, 3, inb_S2x4x4x64x256_S1x1x1x64x256_0_1_3_0_0,
        LN5(0, 1, 3, inb_S2x4x4x64x256_S1x1x1x64x256_0_1_3_0_0, jkF c, valF m ρ (ps c 3) 0 1)) = V0' (ps c 3) 1 :=
  land_load0 m ρ 1 3 _ c (ps c 3) (jkF c)
theorem land_load0_2_1 (c : Dev nD) :
    LD5(0, 2, 1, inb_S2x4x4x64x256_S1x1x1x64x256_0_2_1_0_0,
        LN5(0, 2, 1, inb_S2x4x4x64x256_S1x1x1x64x256_0_2_1_0_0, jkF c, valF m ρ (ps c 1) 0 2)) = V0' (ps c 1) 2 :=
  land_load0 m ρ 2 1 _ c (ps c 1) (jkF c)
theorem land_load0_2_2 (c : Dev nD) :
    LD5(0, 2, 2, inb_S2x4x4x64x256_S1x1x1x64x256_0_2_2_0_0,
        LN5(0, 2, 2, inb_S2x4x4x64x256_S1x1x1x64x256_0_2_2_0_0, jkF c, valF m ρ (ps c 2) 0 2)) = V0' (ps c 2) 2 :=
  land_load0 m ρ 2 2 _ c (ps c 2) (jkF c)
theorem land_load0_2_3 (c : Dev nD) :
    LD5(0, 2, 3, inb_S2x4x4x64x256_S1x1x1x64x256_0_2_3_0_0,
        LN5(0, 2, 3, inb_S2x4x4x64x256_S1x1x1x64x256_0_2_3_0_0, jkF c, valF m ρ (ps c 3) 0 2)) = V0' (ps c 3) 2 :=
  land_load0 m ρ 2 3 _ c (ps c 3) (jkF c)
theorem land_load0_3_1 (c : Dev nD) :
    LD5(0, 3, 1, inb_S2x4x4x64x256_S1x1x1x64x256_0_3_1_0_0,
        LN5(0, 3, 1, inb_S2x4x4x64x256_S1x1x1x64x256_0_3_1_0_0, jkF c, valF m ρ (ps c 1) 0 3)) = V0' (ps c 1) 3 :=
  land_load0 m ρ 3 1 _ c (ps c 1) (jkF c)
theorem land_load0_3_2 (c : Dev nD) :
    LD5(0, 3, 2, inb_S2x4x4x64x256_S1x1x1x64x256_0_3_2_0_0,
        LN5(0, 3, 2, inb_S2x4x4x64x256_S1x1x1x64x256_0_3_2_0_0, jkF c, valF m ρ (ps c 2) 0 3)) = V0' (ps c 2) 3 :=
  land_load0 m ρ 3 2 _ c (ps c 2) (jkF c)
theorem land_load0_3_3 (c : Dev nD) :
    LD5(0, 3, 3, inb_S2x4x4x64x256_S1x1x1x64x256_0_3_3_0_0,
        LN5(0, 3, 3, inb_S2x4x4x64x256_S1x1x1x64x256_0_3_3_0_0, jkF c, valF m ρ (ps c 3) 0 3)) = V0' (ps c 3) 3 :=
  land_load0 m ρ 3 3 _ c (ps c 3) (jkF c)

/-! ### Layer 1: the store read back through the slot's own view, its four inputs the loads of layer 0's slots -/

theorem L1_0 (c : Dev nD) (b b' : Buf (Elt F) ((c : Thread nD τ).loc cc0_scratch0)) :
    (slotM 1 0 0 inb_S2x4x4x64x256_S1x1x1x64x256_1_0_0_0_0).view.read (Elt F)
        (ST5(1, 0, 0, inb_S2x4x4x64x256_S1x1x1x64x256_1_0_0_0_0, b', st1 (XA3 m ρ c) (XA4 m ρ c)
          (LD5(0, 0, 0, inb_S2x4x4x64x256_S1x1x1x64x256_0_0_0_0_0,
            ST5(0, 0, 0, inb_S2x4x4x64x256_S1x1x1x64x256_0_0_0_0_0, b, st0 (XA0 m ρ c) (XA1 m ρ c) (XA2 m ρ c) 0)))
          (LD5(0, 0, 1, inb_S2x4x4x64x256_S1x1x1x64x256_0_0_1_0_0,
            LN5(0, 0, 1, inb_S2x4x4x64x256_S1x1x1x64x256_0_0_1_0_0, jkF c, valF m ρ (ps c 1) 0 0)))
          (LD5(0, 0, 3, inb_S2x4x4x64x256_S1x1x1x64x256_0_0_3_0_0,
            LN5(0, 0, 3, inb_S2x4x4x64x256_S1x1x1x64x256_0_0_3_0_0, jkF c, valF m ρ (ps c 3) 0 0)))
          (LD5(0, 0, 2, inb_S2x4x4x64x256_S1x1x1x64x256_0_0_2_0_0,
            LN5(0, 0, 2, inb_S2x4x4x64x256_S1x1x1x64x256_0_0_2_0_0, jkF c, valF m ρ (ps c 2) 0 0))) 0))
      = valF m ρ c 1 0 :=
  read_store1 m ρ 0 _ c b' _ _ _ _ (own_load0_0 m ρ c b) (land_load0_0_1 m ρ c) (land_load0_0_3 m ρ c)
    (land_load0_0_2 m ρ c)
theorem L1_1 (c : Dev nD) (b b' : Buf (Elt F) ((c : Thread nD τ).loc cc0_scratch0)) :
    (slotM 1 1 0 inb_S2x4x4x64x256_S1x1x1x64x256_1_1_0_0_0).view.read (Elt F)
        (ST5(1, 1, 0, inb_S2x4x4x64x256_S1x1x1x64x256_1_1_0_0_0, b', st1 (XA3 m ρ c) (XA4 m ρ c)
          (LD5(0, 1, 0, inb_S2x4x4x64x256_S1x1x1x64x256_0_1_0_0_0,
            ST5(0, 1, 0, inb_S2x4x4x64x256_S1x1x1x64x256_0_1_0_0_0, b, st0 (XA0 m ρ c) (XA1 m ρ c) (XA2 m ρ c) 1)))
          (LD5(0, 1, 1, inb_S2x4x4x64x256_S1x1x1x64x256_0_1_1_0_0,
            LN5(0, 1, 1, inb_S2x4x4x64x256_S1x1x1x64x256_0_1_1_0_0, jkF c, valF m ρ (ps c 1) 0 1)))
          (LD5(0, 1, 3, inb_S2x4x4x64x256_S1x1x1x64x256_0_1_3_0_0,
            LN5(0, 1, 3, inb_S2x4x4x64x256_S1x1x1x64x256_0_1_3_0_0, jkF c, valF m ρ (ps c 3) 0 1)))
          (LD5(0, 1, 2, inb_S2x4x4x64x256_S1x1x1x64x256_0_1_2_0_0,
            LN5(0, 1, 2, inb_S2x4x4x64x256_S1x1x1x64x256_0_1_2_0_0, jkF c, valF m ρ (ps c 2) 0 1))) 1))
      = valF m ρ c 1 1 :=
  read_store1 m ρ 1 _ c b' _ _ _ _ (own_load0_1 m ρ c b) (land_load0_1_1 m ρ c) (land_load0_1_3 m ρ c)
    (land_load0_1_2 m ρ c)
theorem L1_2 (c : Dev nD) (b b' : Buf (Elt F) ((c : Thread nD τ).loc cc0_scratch0)) :
    (slotM 1 2 0 inb_S2x4x4x64x256_S1x1x1x64x256_1_2_0_0_0).view.read (Elt F)
        (ST5(1, 2, 0, inb_S2x4x4x64x256_S1x1x1x64x256_1_2_0_0_0, b', st1 (XA3 m ρ c) (XA4 m ρ c)
          (LD5(0, 2, 0, inb_S2x4x4x64x256_S1x1x1x64x256_0_2_0_0_0,
            ST5(0, 2, 0, inb_S2x4x4x64x256_S1x1x1x64x256_0_2_0_0_0, b, st0 (XA0 m ρ c) (XA1 m ρ c) (XA2 m ρ c) 2)))
          (LD5(0, 2, 1, inb_S2x4x4x64x256_S1x1x1x64x256_0_2_1_0_0,
            LN5(0, 2, 1, inb_S2x4x4x64x256_S1x1x1x64x256_0_2_1_0_0, jkF c, valF m ρ (ps c 1) 0 2)))
          (LD5(0, 2, 3, inb_S2x4x4x64x256_S1x1x1x64x256_0_2_3_0_0,
            LN5(0, 2, 3, inb_S2x4x4x64x256_S1x1x1x64x256_0_2_3_0_0, jkF c, valF m ρ (ps c 3) 0 2)))
          (LD5(0, 2, 2, inb_S2x4x4x64x256_S1x1x1x64x256_0_2_2_0_0,
            LN5(0, 2, 2, inb_S2x4x4x64x256_S1x1x1x64x256_0_2_2_0_0, jkF c, valF m ρ (ps c 2) 0 2))) 2))
      = valF m ρ c 1 2 :=
  read_store1 m ρ 2 _ c b' _ _ _ _ (own_load0_2 m ρ c b) (land_load0_2_1 m ρ c) (land_load0_2_3 m ρ c)
    (land_load0_2_2 m ρ c)
theorem L1_3 (c : Dev nD) (b b' : Buf (Elt F) ((c : Thread nD τ).loc cc0_scratch0)) :
    (slotM 1 3 0 inb_S2x4x4x64x256_S1x1x1x64x256_1_3_0_0_0).view.read (Elt F)
        (ST5(1, 3, 0, inb_S2x4x4x64x256_S1x1x1x64x256_1_3_0_0_0, b', st1 (XA3 m ρ c) (XA4 m ρ c)
          (LD5(0, 3, 0, inb_S2x4x4x64x256_S1x1x1x64x256_0_3_0_0_0,
            ST5(0, 3, 0, inb_S2x4x4x64x256_S1x1x1x64x256_0_3_0_0_0, b, st0 (XA0 m ρ c) (XA1 m ρ c) (XA2 m ρ c) 3)))
          (LD5(0, 3, 1, inb_S2x4x4x64x256_S1x1x1x64x256_0_3_1_0_0,
            LN5(0, 3, 1, inb_S2x4x4x64x256_S1x1x1x64x256_0_3_1_0_0, jkF c, valF m ρ (ps c 1) 0 3)))
          (LD5(0, 3, 3, inb_S2x4x4x64x256_S1x1x1x64x256_0_3_3_0_0,
            LN5(0, 3, 3, inb_S2x4x4x64x256_S1x1x1x64x256_0_3_3_0_0, jkF c, valF m ρ (ps c 3) 0 3)))
          (LD5(0, 3, 2, inb_S2x4x4x64x256_S1x1x1x64x256_0_3_2_0_0,
            LN5(0, 3, 2, inb_S2x4x4x64x256_S1x1x1x64x256_0_3_2_0_0, jkF c, valF m ρ (ps c 2) 0 3))) 3))
      = valF m ρ c 1 3 :=
  read_store1 m ρ 3 _ c b' _ _ _ _ (own_load0_3 m ρ c b) (land_load0_3_1 m ρ c) (land_load0_3_3 m ρ c)
    (land_load0_3_2 m ρ c)

end Literal01

/-! ## Layer 1's loads at the four literal row blocks -/

section Literal1

/-! ### The load of the device's own slot after its layer-1 store -/

theorem own_load1_0 (c : Dev nD) (b b' : Buf (Elt F) ((c : Thread nD τ).loc cc0_scratch0)) :
    LD5(1, 0, 0, inb_S2x4x4x64x256_S1x1x1x64x256_1_0_0_0_0,
        ST5(1, 0, 0, inb_S2x4x4x64x256_S1x1x1x64x256_1_0_0_0_0, b', st1 (XA3 m ρ c) (XA4 m ρ c)
          (LD5(0, 0, 0, inb_S2x4x4x64x256_S1x1x1x64x256_0_0_0_0_0,
            ST5(0, 0, 0, inb_S2x4x4x64x256_S1x1x1x64x256_0_0_0_0_0, b, st0 (XA0 m ρ c) (XA1 m ρ c) (XA2 m ρ c) 0)))
          (LD5(0, 0, 1, inb_S2x4x4x64x256_S1x1x1x64x256_0_0_1_0_0,
            LN5(0, 0, 1, inb_S2x4x4x64x256_S1x1x1x64x256_0_0_1_0_0, jkF c, valF m ρ (ps c 1) 0 0)))
          (LD5(0, 0, 3, inb_S2x4x4x64x256_S1x1x1x64x256_0_0_3_0_0,
            LN5(0, 0, 3, inb_S2x4x4x64x256_S1x1x1x64x256_0_0_3_0_0, jkF c, valF m ρ (ps c 3) 0 0)))
          (LD5(0, 0, 2, inb_S2x4x4x64x256_S1x1x1x64x256_0_0_2_0_0,
            LN5(0, 0, 2, inb_S2x4x4x64x256_S1x1x1x64x256_0_0_2_0_0, jkF c, valF m ρ (ps c 2) 0 0))) 0))
      = V1' c 0 :=
  own_load1 m ρ 0 _ c b' _ _ _ _ (own_load0_0 m ρ c b) (land_load0_0_1 m ρ c) (land_load0_0_3 m ρ c)
    (land_load0_0_2 m ρ c)
theorem own_load1_1 (c : Dev nD) (b b' : Buf (Elt F) ((c : Thread nD τ).loc cc0_scratch0)) :
    LD5(1, 1, 0, inb_S2x4x4x64x256_S1x1x1x64x256_1_1_0_0_0,
        ST5(1, 1, 0, inb_S2x4x4x64x256_S1x1x1x64x256_1_1_0_0_0, b', st1 (XA3 m ρ c) (XA4 m ρ c)
          (LD5(0, 1, 0, inb_S2x4x4x64x256_S1x1x1x64x256_0_1_0_0_0,
            ST5(0, 1, 0, inb_S2x4x4x64x256_S1x1x1x64x256_0_1_0_0_0, b, st0 (XA0 m ρ c) (XA1 m ρ c) (XA2 m ρ c) 1)))
          (LD5(0, 1, 1, inb_S2x4x4x64x256_S1x1x1x64x256_0_1_1_0_0,
            LN5(0, 1, 1, inb_S2x4x4x64x256_S1x1x1x64x256_0_1_1_0_0, jkF c, valF m ρ (ps c 1) 0 1)))
          (LD5(0, 1, 3, inb_S2x4x4x64x256_S1x1x1x64x256_0_1_3_0_0,
            LN5(0, 1, 3, inb_S2x4x4x64x256_S1x1x1x64x256_0_1_3_0_0, jkF c, valF m ρ (ps c 3) 0 1)))
          (LD5(0, 1, 2, inb_S2x4x4x64x256_S1x1x1x64x256_0_1_2_0_0,
            LN5(0, 1, 2, inb_S2x4x4x64x256_S1x1x1x64x256_0_1_2_0_0, jkF c, valF m ρ (ps c 2) 0 1))) 1))
      = V1' c 1 :=
  own_load1 m ρ 1 _ c b' _ _ _ _ (own_load0_1 m ρ c b) (land_load0_1_1 m ρ c) (land_load0_1_3 m ρ c)
    (land_load0_1_2 m ρ c)
theorem own_load1_2 (c : Dev nD) (b b' : Buf (Elt F) ((c : Thread nD τ).loc cc0_scratch0)) :
    LD5(1, 2, 0, inb_S2x4x4x64x256_S1x1x1x64x256_1_2_0_0_0,
        ST5(1, 2, 0, inb_S2x4x4x64x256_S1x1x1x64x256_1_2_0_0_0, b', st1 (XA3 m ρ c) (XA4 m ρ c)
          (LD5(0, 2, 0, inb_S2x4x4x64x256_S1x1x1x64x256_0_2_0_0_0,
            ST5(0, 2, 0, inb_S2x4x4x64x256_S1x1x1x64x256_0_2_0_0_0, b, st0 (XA0 m ρ c) (XA1 m ρ c) (XA2 m ρ c) 2)))
          (LD5(0, 2, 1, inb_S2x4x4x64x256_S1x1x1x64x256_0_2_1_0_0,
            LN5(0, 2, 1, inb_S2x4x4x64x256_S1x1x1x64x256_0_2_1_0_0, jkF c, valF m ρ (ps c 1) 0 2)))
          (LD5(0, 2, 3, inb_S2x4x4x64x256_S1x1x1x64x256_0_2_3_0_0,
            LN5(0, 2, 3, inb_S2x4x4x64x256_S1x1x1x64x256_0_2_3_0_0, jkF c, valF m ρ (ps c 3) 0 2)))
          (LD5(0, 2, 2, inb_S2x4x4x64x256_S1x1x1x64x256_0_2_2_0_0,
            LN5(0, 2, 2, inb_S2x4x4x64x256_S1x1x1x64x256_0_2_2_0_0, jkF c, valF m ρ (ps c 2) 0 2))) 2))
      = V1' c 2 :=
  own_load1 m ρ 2 _ c b' _ _ _ _ (own_load0_2 m ρ c b) (land_load0_2_1 m ρ c) (land_load0_2_3 m ρ c)
    (land_load0_2_2 m ρ c)
theorem own_load1_3 (c : Dev nD) (b b' : Buf (Elt F) ((c : Thread nD τ).loc cc0_scratch0)) :
    LD5(1, 3, 0, inb_S2x4x4x64x256_S1x1x1x64x256_1_3_0_0_0,
        ST5(1, 3, 0, inb_S2x4x4x64x256_S1x1x1x64x256_1_3_0_0_0, b', st1 (XA3 m ρ c) (XA4 m ρ c)
          (LD5(0, 3, 0, inb_S2x4x4x64x256_S1x1x1x64x256_0_3_0_0_0,
            ST5(0, 3, 0, inb_S2x4x4x64x256_S1x1x1x64x256_0_3_0_0_0, b, st0 (XA0 m ρ c) (XA1 m ρ c) (XA2 m ρ c) 3)))
          (LD5(0, 3, 1, inb_S2x4x4x64x256_S1x1x1x64x256_0_3_1_0_0,
            LN5(0, 3, 1, inb_S2x4x4x64x256_S1x1x1x64x256_0_3_1_0_0, jkF c, valF m ρ (ps c 1) 0 3)))
          (LD5(0, 3, 3, inb_S2x4x4x64x256_S1x1x1x64x256_0_3_3_0_0,
            LN5(0, 3, 3, inb_S2x4x4x64x256_S1x1x1x64x256_0_3_3_0_0, jkF c, valF m ρ (ps c 3) 0 3)))
          (LD5(0, 3, 2, inb_S2x4x4x64x256_S1x1x1x64x256_0_3_2_0_0,
            LN5(0, 3, 2, inb_S2x4x4x64x256_S1x1x1x64x256_0_3_2_0_0, jkF c, valF m ρ (ps c 2) 0 3))) 3))
      = V1' c 3 :=
  own_load1 m ρ 3 _ c b' _ _ _ _ (own_load0_3 m ρ c b) (land_load0_3_1 m ρ c) (land_load0_3_3 m ρ c)
    (land_load0_3_2 m ρ c)

/-! ### The load of slot `j` after the layer-1 landing from the device `j` places behind -/

theorem land_load1_0_1 (c : Dev nD) :
    LD5(1, 0, 1, inb_S2x4x4x64x256_S1x1x1x64x256_1_0_1_0_0,
        LN5(1, 0, 1, inb_S2x4x4x64x256_S1x1x1x64x256_1_0_1_0_0, jkF c, valF m ρ (ps c 1) 1 0)) = V1' (ps c 1) 0 :=
  land_load1 m ρ 0 1 _ c (ps c 1) (jkF c)
theorem land_load1_0_2 (c : Dev nD) :
    LD5(1, 0, 2, inb_S2x4x4x64x256_S1x1x1x64x256_1_0_2_0_0,
        LN5(1, 0, 2, inb_S2x4x4x64x256_S1x1x1x64x256_1_0_2_0_0, jkF c, valF m ρ (ps c 2) 1 0)) = V1' (ps c 2) 0 :=
  land_load1 m ρ 0 2 _ c (ps c 2) (jkF c)
theorem land_load1_0_3 (c : Dev nD) :
    LD5(1, 0, 3, inb_S2x4x4x64x256_S1x1x1x64x256_1_0_3_0_0,
        LN5(1, 0, 3, inb_S2x4x4x64x256_S1x1x1x64x256_1_0_3_0_0, jkF c, valF m ρ (ps c 3) 1 0)) = V1' (ps c 3) 0 :=
  land_load1 m ρ 0 3 _ c (ps c 3) (jkF c)
theorem land_load1_1_1 (c : Dev nD) :
    LD5(1, 1, 1, inb_S2x4x4x64x256_S1x1x1x64x256_1_1_1_0_0,
        LN5(1, 1, 1, inb_S2x4x4x64x256_S1x1x1x64x256_1_1_1_0_0, jkF c, valF m ρ (ps c 1) 1 1)) = V1' (ps c 1) 1 :=
  land_load1 m ρ 1 1 _ c (ps c 1) (jkF c)
theorem land_load1_1_2 (c : Dev nD) :
    LD5(1, 1, 2, inb_S2x4x4x64x256_S1x1x1x64x256_1_1_2_0_0,
        LN5(1, 1, 2, inb_S2x4x4x64x256_S1x1x1x64x256_1_1_2_0_0, jkF c, valF m ρ (ps c 2) 1 1)) = V1' (ps c 2) 1 :=
  land_load1 m ρ 1 2 _ c (ps c 2) (jkF c)
theorem land_load1_1_3 (c : Dev nD) :
    LD5(1, 1, 3, inb_S2x4x4x64x256_S1x1x1x64x256_1_1_3_0_0,
        LN5(1, 1, 3, inb_S2x4x4x64x256_S1x1x1x64x256_1_1_3_0_0, jkF c, valF m ρ (ps c 3) 1 1)) = V1' (ps c 3) 1 :=
  land_load1 m ρ 1 3 _ c (ps c 3) (jkF c)
theorem land_load1_2_1 (c : Dev nD) :
    LD5(1, 2, 1, inb_S2x4x4x64x256_S1x1x1x64x256_1_2_1_0_0,
        LN5(1, 2, 1, inb_S2x4x4x64x256_S1x1x1x64x256_1_2_1_0_0, jkF c, valF m ρ (ps c 1) 1 2)) = V1' (ps c 1) 2 :=
  land_load1 m ρ 2 1 _ c (ps c 1) (jkF c)
theorem land_load1_2_2 (c : Dev nD) :
    LD5(1, 2, 2, inb_S2x4x4x64x256_S1x1x1x64x256_1_2_2_0_0,
        LN5(1, 2, 2, inb_S2x4x4x64x256_S1x1x1x64x256_1_2_2_0_0, jkF c, valF m ρ (ps c 2) 1 2)) = V1' (ps c 2) 2 :=
  land_load1 m ρ 2 2 _ c (ps c 2) (jkF c)
theorem land_load1_2_3 (c : Dev nD) :
    LD5(1, 2, 3, inb_S2x4x4x64x256_S1x1x1x64x256_1_2_3_0_0,
        LN5(1, 2, 3, inb_S2x4x4x64x256_S1x1x1x64x256_1_2_3_0_0, jkF c, valF m ρ (ps c 3) 1 2)) = V1' (ps c 3) 2 :=
  land_load1 m ρ 2 3 _ c (ps c 3) (jkF c)
theorem land_load1_3_1 (c : Dev nD) :
    LD5(1, 3, 1, inb_S2x4x4x64x256_S1x1x1x64x256_1_3_1_0_0,
        LN5(1, 3, 1, inb_S2x4x4x64x256_S1x1x1x64x256_1_3_1_0_0, jkF c, valF m ρ (ps c 1) 1 3)) = V1' (ps c 1) 3 :=
  land_load1 m ρ 3 1 _ c (ps c 1) (jkF c)
theorem land_load1_3_2 (c : Dev nD) :
    LD5(1, 3, 2, inb_S2x4x4x64x256_S1x1x1x64x256_1_3_2_0_0,
        LN5(1, 3, 2, inb_S2x4x4x64x256_S1x1x1x64x256_1_3_2_0_0, jkF c, valF m ρ (ps c 2) 1 3)) = V1' (ps c 2) 3 :=
  land_load1 m ρ 3 2 _ c (ps c 2) (jkF c)
theorem land_load1_3_3 (c : Dev nD) :
    LD5(1, 3, 3, inb_S2x4x4x64x256_S1x1x1x64x256_1_3_3_0_0,
        LN5(1, 3, 3, inb_S2x4x4x64x256_S1x1x1x64x256_1_3_3_0_0, jkF c, valF m ρ (ps c 3) 1 3)) = V1' (ps c 3) 3 :=
  land_load1 m ρ 3 3 _ c (ps c 3) (jkF c)

end Literal1

/-! ## Layer 2 and the result, for a device `c` -/

section Layer2

local notation "V2_1'" => V2_1 (XA0 m ρ) (WiA m ρ) (WoA m ρ)
local notation "V2_2'" => V2_2 (XA0 m ρ) (WiA m ρ) (WoA m ρ)
local notation "V2_3'" => V2_3 (XA0 m ρ) (WiA m ρ) (WoA m ρ)

/-- The store into slot 1 of the second exchange buffer, read through the slot's own view, when the four loaded slots
    hold the layer-1 vectors, for the row block of the device one place ahead, of the device and of the devices 1, 3, 2
    places behind it. -/
theorem read_store2_1 (h : ∀ a, (![0, 1, 0, 0] : Fin 4 → Nat) a + S1x1x64x256.size a ≤ S2x4x64x256.size a)
    (c : Dev nD) (b : Buf (Elt F) ((c : Thread nD τ).loc cc0_scratch1)) (own s1 s3 s2 : Vec F S1x1x1x64x256 .bf16)
    (hown : own = V1' c (pe c 1)) (hs1 : s1 = V1' (ps c 1) (pe c 1)) (hs3 : s3 = V1' (ps c 3) (pe c 1))
    (hs2 : s2 = V1' (ps c 2) (pe c 1)) :
    (rsM 0 1 h).view.read (Elt F) (ST4(0, 1, h, b, rsc1 c (w2in (XA5 m ρ c)) (w2out (XA6 m ρ c)) own s1 s3 s2))
      = valF m ρ c 2 1 := by
  subst hown hs1 hs3 hs2
  exact (row_read_store 0 1 h c b _).trans (valF_2_1 m ρ c).symm

/-- The same for slot 2 and the row block of the device two places ahead. -/
theorem read_store2_2 (h : ∀ a, (![0, 2, 0, 0] : Fin 4 → Nat) a + S1x1x64x256.size a ≤ S2x4x64x256.size a)
    (c : Dev nD) (b : Buf (Elt F) ((c : Thread nD τ).loc cc0_scratch1)) (own s1 s3 s2 : Vec F S1x1x1x64x256 .bf16)
    (hown : own = V1' c (pe c 2)) (hs1 : s1 = V1' (ps c 1) (pe c 2)) (hs3 : s3 = V1' (ps c 3) (pe c 2))
    (hs2 : s2 = V1' (ps c 2) (pe c 2)) :
    (rsM 0 2 h).view.read (Elt F) (ST4(0, 2, h, b, rsc2 c (w2in (XA5 m ρ c)) (w2out (XA6 m ρ c)) own s1 s3 s2))
      = valF m ρ c 2 2 := by
  subst hown hs1 hs3 hs2
  exact (row_read_store 0 2 h c b _).trans (valF_2_2 m ρ c).symm

/-- The same for slot 3 and the row block of the device three places ahead. -/
theorem read_store2_3 (h : ∀ a, (![0, 3, 0, 0] : Fin 4 → Nat) a + S1x1x64x256.size a ≤ S2x4x64x256.size a)
    (c : Dev nD) (b : Buf (Elt F) ((c : Thread nD τ).loc cc0_scratch1)) (own s1 s3 s2 : Vec F S1x1x1x64x256 .bf16)
    (hown : own = V1' c (pe c 3)) (hs1 : s1 = V1' (ps c 1) (pe c 3)) (hs3 : s3 = V1' (ps c 3) (pe c 3))
    (hs2 : s2 = V1' (ps c 2) (pe c 3)) :
    (rsM 0 3 h).view.read (Elt F) (ST4(0, 3, h, b, rsc3 c (w2in (XA5 m ρ c)) (w2out (XA6 m ρ c)) own s1 s3 s2))
      = valF m ρ c 2 3 := by
  subst hown hs1 hs3 hs2
  exact (row_read_store 0 3 h c b _).trans (valF_2_3 m ρ c).symm

/-- A load of a block of the second exchange buffer after device `e`'s share for slot 1 has landed there. -/
theorem row_land_1 (k o : ℕ) (h : ∀ a, (![k, o, 0, 0] : Fin 4 → Nat) a + S1x1x64x256.size a ≤ S2x4x64x256.size a)
    (c e : Dev nD) (fd : Buf (Elt F) ((c : Thread nD τ).loc cc0_scratch1)) :
    LD4(k, o, h, LN4(k, o, h, fd, valF m ρ e 2 1)) = V2_1' e := by
  rw [row_load_landing, valF_2_1, un4_sq4]
theorem row_land_2 (k o : ℕ) (h : ∀ a, (![k, o, 0, 0] : Fin 4 → Nat) a + S1x1x64x256.size a ≤ S2x4x64x256.size a)
    (c e : Dev nD) (fd : Buf (Elt F) ((c : Thread nD τ).loc cc0_scratch1)) :
    LD4(k, o, h, LN4(k, o, h, fd, valF m ρ e 2 2)) = V2_2' e := by
  rw [row_load_landing, valF_2_2, un4_sq4]
theorem row_land_3 (k o : ℕ) (h : ∀ a, (![k, o, 0, 0] : Fin 4 → Nat) a + S1x1x64x256.size a ≤ S2x4x64x256.size a)
    (c e : Dev nD) (fd : Buf (Elt F) ((c : Thread nD τ).loc cc0_scratch1)) :
    LD4(k, o, h, LN4(k, o, h, fd, valF m ρ e 2 3)) = V2_3' e := by
  rw [row_load_landing, valF_2_3, un4_sq4]

/-- The final store: the device's result, when the four loaded slots hold the layer-1 vectors for the device's own row
    block and the three loaded shares are those of the devices 1, 3, 2 places behind. -/
theorem write_out (c : Dev nD) (g7 : (cc0_stg7_0 : Ref sig .tc).ty.Contents (Elt F))
    (own s1 s3 s2 : Vec F S1x1x1x64x256 .bf16) (r1 r3 r2 : Vec F S1x1x64x256 .bf16)
    (hown : own = V1' c c) (hs1 : s1 = V1' (ps c 1) c) (hs3 : s3 = V1' (ps c 3) c) (hs2 : s2 = V1' (ps c 2) c)
    (hr1 : r1 = V2_1' (ps c 1)) (hr3 : r3 = V2_3' (ps c 3)) (hr2 : r2 = V2_2' (ps c 2)) :
    View.write (Elt F) ((Memref.whole cc0_stg7_0).access (Rect.unit (s := S64x256) ![0, 0] S64x256.size inb_S64x256_S64x256_0_0))
        g7 (outv c (w2in (XA5 m ρ c)) (w2out (XA6 m ρ c)) own s1 s3 s2 r1 r3 r2) Finset.univ
      = outF m ρ c := by
  subst hown hs1 hs3 hs2 hr1 hr3 hr2
  exact write_stg7 g7 _

end Layer2

/-! ## Layer 2 and the result on each of the four devices

On device `k` the store into slot `o` folds over the row block of the device `o` places ahead, block `(k + o) mod 4`. -/

section Literal2

local notation "V2_1'" => V2_1 (XA0 m ρ) (WiA m ρ) (WoA m ρ)
local notation "V2_2'" => V2_2 (XA0 m ρ) (WiA m ρ) (WoA m ρ)
local notation "V2_3'" => V2_3 (XA0 m ρ) (WiA m ρ) (WoA m ρ)

/-! ### Device 0 -/

theorem L2_0_1 (c : Dev nD) (hc : c = 0) (b : Buf (Elt F) ((c : Thread nD τ).loc cc0_scratch1))
    (own s1 s3 s2 : Vec F S1x1x1x64x256 .bf16)
    (hown : own = V1' c 1) (hs1 : s1 = V1' (ps c 1) 1) (hs3 : s3 = V1' (ps c 3) 1) (hs2 : s2 = V1' (ps c 2) 1) :
    (rsM 0 1 inb_S2x4x64x256_S1x1x64x256_0_1_0_0).view.read (Elt F)
        (ST4(0, 1, inb_S2x4x64x256_S1x1x64x256_0_1_0_0, b, rsc1 0 (w2in (XA5 m ρ c)) (w2out (XA6 m ρ c)) own s1 s3 s2))
      = valF m ρ c 2 1 := by
  subst hc
  exact read_store2_1 m ρ _ 0 b own s1 s3 s2 hown hs1 hs3 hs2
theorem L2_0_2 (c : Dev nD) (hc : c = 0) (b : Buf (Elt F) ((c : Thread nD τ).loc cc0_scratch1))
    (own s1 s3 s2 : Vec F S1x1x1x64x256 .bf16)
    (hown : own = V1' c 2) (hs1 : s1 = V1' (ps c 1) 2) (hs3 : s3 = V1' (ps c 3) 2) (hs2 : s2 = V1' (ps c 2) 2) :
    (rsM 0 2 inb_S2x4x64x256_S1x1x64x256_0_2_0_0).view.read (Elt F)
        (ST4(0, 2, inb_S2x4x64x256_S1x1x64x256_0_2_0_0, b, rsc2 0 (w2in (XA5 m ρ c)) (w2out (XA6 m ρ c)) own s1 s3 s2))
      = valF m ρ c 2 2 := by
  subst hc
  exact read_store2_2 m ρ _ 0 b own s1 s3 s2 hown hs1 hs3 hs2
theorem L2_0_3 (c : Dev nD) (hc : c = 0) (b : Buf (Elt F) ((c : Thread nD τ).loc cc0_scratch1))
    (own s1 s3 s2 : Vec F S1x1x1x64x256 .bf16)
    (hown : own = V1' c 3) (hs1 : s1 = V1' (ps c 1) 3) (hs3 : s3 = V1' (ps c 3) 3) (hs2 : s2 = V1' (ps c 2) 3) :
    (rsM 0 3 inb_S2x4x64x256_S1x1x64x256_0_3_0_0).view.read (Elt F)
        (ST4(0, 3, inb_S2x4x64x256_S1x1x64x256_0_3_0_0, b, rsc3 0 (w2in (XA5 m ρ c)) (w2out (XA6 m ρ c)) own s1 s3 s2))
      = valF m ρ c 2 3 := by
  subst hc
  exact read_store2_3 m ρ _ 0 b own s1 s3 s2 hown hs1 hs3 hs2

/-! ### Device 1 -/

theorem L2_1_1 (c : Dev nD) (hc : c = 1) (b : Buf (Elt F) ((c : Thread nD τ).loc cc0_scratch1))
    (own s1 s3 s2 : Vec F S1x1x1x64x256 .bf16)
    (hown : own = V1' c 2) (hs1 : s1 = V1' (ps c 1) 2) (hs3 : s3 = V1' (ps c 3) 2) (hs2 : s2 = V1' (ps c 2) 2) :
    (rsM 0 1 inb_S2x4x64x256_S1x1x64x256_0_1_0_0).view.read (Elt F)
        (ST4(0, 1, inb_S2x4x64x256_S1x1x64x256_0_1_0_0, b, rsc1 1 (w2in (XA5 m ρ c)) (w2out (XA6 m ρ c)) own s1 s3 s2))
      = valF m ρ c 2 1 := by
  subst hc
  exact read_store2_1 m ρ _ 1 b own s1 s3 s2 hown hs1 hs3 hs2
theorem L2_1_2 (c : Dev nD) (hc : c = 1) (b : Buf (Elt F) ((c : Thread nD τ).loc cc0_scratch1))
    (own s1 s3 s2 : Vec F S1x1x1x64x256 .bf16)
    (hown : own = V1' c 3) (hs1 : s1 = V1' (ps c 1) 3) (hs3 : s3 = V1' (ps c 3) 3) (hs2 : s2 = V1' (ps c 2) 3) :
    (rsM 0 2 inb_S2x4x64x256_S1x1x64x256_0_2_0_0).view.read (Elt F)
        (ST4(0, 2, inb_S2x4x64x256_S1x1x64x256_0_2_0_0, b, rsc2 1 (w2in (XA5 m ρ c)) (w2out (XA6 m ρ c)) own s1 s3 s2))
      = valF m ρ c 2 2 := by
  subst hc
  exact read_store2_2 m ρ _ 1 b own s1 s3 s2 hown hs1 hs3 hs2
theorem L2_1_3 (c : Dev nD) (hc : c = 1) (b : Buf (Elt F) ((c : Thread nD τ).loc cc0_scratch1))
    (own s1 s3 s2 : Vec F S1x1x1x64x256 .bf16)
    (hown : own = V1' c 0) (hs1 : s1 = V1' (ps c 1) 0) (hs3 : s3 = V1' (ps c 3) 0) (hs2 : s2 = V1' (ps c 2) 0) :
    (rsM 0 3 inb_S2x4x64x256_S1x1x64x256_0_3_0_0).view.read (Elt F)
        (ST4(0, 3, inb_S2x4x64x256_S1x1x64x256_0_3_0_0, b, rsc3 1 (w2in (XA5 m ρ c)) (w2out (XA6 m ρ c)) own s1 s3 s2))
      = valF m ρ c 2 3 := by
  subst hc
  exact read_store2_3 m ρ _ 1 b own s1 s3 s2 hown hs1 hs3 hs2

/-! ### Device 2 -/

theorem L2_2_1 (c : Dev nD) (hc : c = 2) (b : Buf (Elt F) ((c : Thread nD τ).loc cc0_scratch1))
    (own s1 s3 s2 : Vec F S1x1x1x64x256 .bf16)
    (hown : own = V1' c 3) (hs1 : s1 = V1' (ps c 1) 3) (hs3 : s3 = V1' (ps c 3) 3) (hs2 : s2 = V1' (ps c 2) 3) :
    (rsM 0 1 inb_S2x4x64x256_S1x1x64x256_0_1_0_0).view.read (Elt F)
        (ST4(0, 1, inb_S2x4x64x256_S1x1x64x256_0_1_0_0, b, rsc1 2 (w2in (XA5 m ρ c)) (w2out (XA6 m ρ c)) own s1 s3 s2))
      = valF m ρ c 2 1 := by
  subst hc
  exact read_store2_1 m ρ _ 2 b own s1 s3 s2 hown hs1 hs3 hs2
theorem L2_2_2 (c : Dev nD) (hc : c = 2) (b : Buf (Elt F) ((c : Thread nD τ).loc cc0_scratch1))
    (own s1 s3 s2 : Vec F S1x1x1x64x256 .bf16)
    (hown : own = V1' c 0) (hs1 : s1 = V1' (ps c 1) 0) (hs3 : s3 = V1' (ps c 3) 0) (hs2 : s2 = V1' (ps c 2) 0) :
    (rsM 0 2 inb_S2x4x64x256_S1x1x64x256_0_2_0_0).view.read (Elt F)
        (ST4(0, 2, inb_S2x4x64x256_S1x1x64x256_0_2_0_0, b, rsc2 2 (w2in (XA5 m ρ c)) (w2out (XA6 m ρ c)) own s1 s3 s2))
      = valF m ρ c 2 2 := by
  subst hc
  exact read_store2_2 m ρ _ 2 b own s1 s3 s2 hown hs1 hs3 hs2
theorem L2_2_3 (c : Dev nD) (hc : c = 2) (b : Buf (Elt F) ((c : Thread nD τ).loc cc0_scratch1))
    (own s1 s3 s2 : Vec F S1x1x1x64x256 .bf16)
    (hown : own = V1' c 1) (hs1 : s1 = V1' (ps c 1) 1) (hs3 : s3 = V1' (ps c 3) 1) (hs2 : s2 = V1' (ps c 2) 1) :
    (rsM 0 3 inb_S2x4x64x256_S1x1x64x256_0_3_0_0).view.read (Elt F)
        (ST4(0, 3, inb_S2x4x64x256_S1x1x64x256_0_3_0_0, b, rsc3 2 (w2in (XA5 m ρ c)) (w2out (XA6 m ρ c)) own s1 s3 s2))
      = valF m ρ c 2 3 := by
  subst hc
  exact read_store2_3 m ρ _ 2 b own s1 s3 s2 hown hs1 hs3 hs2

/-! ### Device 3 -/

theorem L2_3_1 (c : Dev nD) (hc : c = 3) (b : Buf (Elt F) ((c : Thread nD τ).loc cc0_scratch1))
    (own s1 s3 s2 : Vec F S1x1x1x64x256 .bf16)
    (hown : own = V1' c 0) (hs1 : s1 = V1' (ps c 1) 0) (hs3 : s3 = V1' (ps c 3) 0) (hs2 : s2 = V1' (ps c 2) 0) :
    (rsM 0 1 inb_S2x4x64x256_S1x1x64x256_0_1_0_0).view.read (Elt F)
        (ST4(0, 1, inb_S2x4x64x256_S1x1x64x256_0_1_0_0, b, rsc1 3 (w2in (XA5 m ρ c)) (w2out (XA6 m ρ c)) own s1 s3 s2))
      = valF m ρ c 2 1 := by
  subst hc
  exact read_store2_1 m ρ _ 3 b own s1 s3 s2 hown hs1 hs3 hs2
theorem L2_3_2 (c : Dev nD) (hc : c = 3) (b : Buf (Elt F) ((c : Thread nD τ).loc cc0_scratch1))
    (own s1 s3 s2 : Vec F S1x1x1x64x256 .bf16)
    (hown : own = V1' c 1) (hs1 : s1 = V1' (ps c 1) 1) (hs3 : s3 = V1' (ps c 3) 1) (hs2 : s2 = V1' (ps c 2) 1) :
    (rsM 0 2 inb_S2x4x64x256_S1x1x64x256_0_2_0_0).view.read (Elt F)
        (ST4(0, 2, inb_S2x4x64x256_S1x1x64x256_0_2_0_0, b, rsc2 3 (w2in (XA5 m ρ c)) (w2out (XA6 m ρ c)) own s1 s3 s2))
      = valF m ρ c 2 2 := by
  subst hc
  exact read_store2_2 m ρ _ 3 b own s1 s3 s2 hown hs1 hs3 hs2
theorem L2_3_3 (c : Dev nD) (hc : c = 3) (b : Buf (Elt F) ((c : Thread nD τ).loc cc0_scratch1))
    (own s1 s3 s2 : Vec F S1x1x1x64x256 .bf16)
    (hown : own = V1' c 2) (hs1 : s1 = V1' (ps c 1) 2) (hs3 : s3 = V1' (ps c 3) 2) (hs2 : s2 = V1' (ps c 2) 2) :
    (rsM 0 3 inb_S2x4x64x256_S1x1x64x256_0_3_0_0).view.read (Elt F)
        (ST4(0, 3, inb_S2x4x64x256_S1x1x64x256_0_3_0_0, b, rsc3 3 (w2in (XA5 m ρ c)) (w2out (XA6 m ρ c)) own s1 s3 s2))
      = valF m ρ c 2 3 := by
  subst hc
  exact read_store2_3 m ρ _ 3 b own s1 s3 s2 hown hs1 hs3 hs2

/-! ### The loads of the three shares that landed in the second exchange buffer -/

theorem land_load2_1 (c : Dev nD) :
    LD4(1, 1, inb_S2x4x64x256_S1x1x64x256_1_1_0_0,
        LN4(1, 1, inb_S2x4x64x256_S1x1x64x256_1_1_0_0, jrF c, valF m ρ (ps c 1) 2 1)) = V2_1' (ps c 1) :=
  row_land_1 m ρ 1 1 _ c (ps c 1) (jrF c)
theorem land_load2_2 (c : Dev nD) :
    LD4(1, 2, inb_S2x4x64x256_S1x1x64x256_1_2_0_0,
        LN4(1, 2, inb_S2x4x64x256_S1x1x64x256_1_2_0_0, jrF c, valF m ρ (ps c 2) 2 2)) = V2_2' (ps c 2) :=
  row_land_2 m ρ 1 2 _ c (ps c 2) (jrF c)
theorem land_load2_3 (c : Dev nD) :
    LD4(1, 3, inb_S2x4x64x256_S1x1x64x256_1_3_0_0,
        LN4(1, 3, inb_S2x4x64x256_S1x1x64x256_1_3_0_0, jrF c, valF m ρ (ps c 3) 2 3)) = V2_3' (ps c 3) :=
  row_land_3 m ρ 1 3 _ c (ps c 3) (jrF c)

/-! ### The final store on each device -/

theorem OUT_0 (c : Dev nD) (hc : c = 0) (g7 : (cc0_stg7_0 : Ref sig .tc).ty.Contents (Elt F))
    (own s1 s3 s2 : Vec F S1x1x1x64x256 .bf16)
    (hown : own = V1' c 0) (hs1 : s1 = V1' (ps c 1) 0) (hs3 : s3 = V1' (ps c 3) 0) (hs2 : s2 = V1' (ps c 2) 0) :
    View.write (Elt F) ((Memref.whole cc0_stg7_0).access (Rect.unit (s := S64x256) ![0, 0] S64x256.size inb_S64x256_S64x256_0_0))
        g7 (outv 0 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 0 g7 own s1 s3 s2 _ _ _ hown hs1 hs3 hs2 (land_load2_1 m ρ 0) (land_load2_3 m ρ 0) (land_load2_2 m ρ 0)
theorem OUT_1 (c : Dev nD) (hc : c = 1) (g7 : (cc0_stg7_0 : Ref sig .tc).ty.Contents (Elt F))
    (own s1 s3 s2 : Vec F S1x1x1x64x256 .bf16)
    (hown : own = V1' c 1) (hs1 : s1 = V1' (ps c 1) 1) (hs3 : s3 = V1' (ps c 3) 1) (hs2 : s2 = V1' (ps c 2) 1) :
    View.write (Elt F) ((Memref.whole cc0_stg7_0).access (Rect.unit (s := S64x256) ![0, 0] S64x256.size inb_S64x256_S64x256_0_0))
        g7 (outv 1 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 1 g7 own s1 s3 s2 _ _ _ hown hs1 hs3 hs2 (land_load2_1 m ρ 1) (land_load2_3 m ρ 1) (land_load2_2 m ρ 1)
theorem OUT_2 (c : Dev nD) (hc : c = 2) (g7 : (cc0_stg7_0 : Ref sig .tc).ty.Contents (Elt F))
    (own s1 s3 s2 : Vec F S1x1x1x64x256 .bf16)
    (hown : own = V1' c 2) (hs1 : s1 = V1' (ps c 1) 2) (hs3 : s3 = V1' (ps c 3) 2) (hs2 : s2 = V1' (ps c 2) 2) :
    View.write (Elt F) ((Memref.whole cc0_stg7_0).access (Rect.unit (s := S64x256) ![0, 0] S64x256.size inb_S64x256_S64x256_0_0))
        g7 (outv 2 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 2 g7 own s1 s3 s2 _ _ _ hown hs1 hs3 hs2 (land_load2_1 m ρ 2) (land_load2_3 m ρ 2) (land_load2_2 m ρ 2)
theorem OUT_3 (c : Dev nD) (hc : c = 3) (g7 : (cc0_stg7_0 : Ref sig .tc).ty.Contents (Elt F))
    (own s1 s3 s2 : Vec F S1x1x1x64x256 .bf16)
    (hown : own = V1' c 3) (hs1 : s1 = V1' (ps c 1) 3) (hs3 : s3 = V1' (ps c 3) 3) (hs2 : s2 = V1' (ps c 2) 3) :
    View.write (Elt F) ((Memref.whole cc0_stg7_0).access (Rect.unit (s := S64x256) ![0, 0] S64x256.size inb_S64x256_S64x256_0_0))
        g7 (outv 3 (w2in (XA5 m ρ c)) (w2out (XA6 m ρ c)) own s1 s3 s2
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c := by
  subst hc
  exact write_out m ρ 3 g7 own s1 s3 s2 _ _ _ hown hs1 hs3 hs2 (land_load2_1 m ρ 3) (land_load2_3 m ρ 3) (land_load2_2 m ρ 3)

end Literal2

/-! ## Layer 2 and the result with the loaded vectors written out

The four vectors a fold over row block `p` loads: the device's own layer-1 vector, read back from the slot its layer-1
store wrote (whose own four inputs were the loads of layer 0's slots), and the three landed layer-1 blocks, in the order
slot 0, slot 1, slot 3, slot 2.  `b0` is the buffer under the layer-0 store and `b1` the buffer under the layer-1 store. -/

section Closed

/-- The stored function `f` applied to the four loaded layer-1 vectors of row block 0. -/
local notation "ARGS1_0(" c ", " b0 ", " b1 ", " f ")" =>
  f (LD5(1, 0, 0, inb_S2x4x4x64x256_S1x1x1x64x256_1_0_0_0_0,
        ST5(1, 0, 0, inb_S2x4x4x64x256_S1x1x1x64x256_1_0_0_0_0, b1, st1 (XA3 m ρ c) (XA4 m ρ c)
          (LD5(0, 0, 0, inb_S2x4x4x64x256_S1x1x1x64x256_0_0_0_0_0,
            ST5(0, 0, 0, inb_S2x4x4x64x256_S1x1x1x64x256_0_0_0_0_0, b0, st0 (XA0 m ρ c) (XA1 m ρ c) (XA2 m ρ c) 0)))
          (LD5(0, 0, 1, inb_S2x4x4x64x256_S1x1x1x64x256_0_0_1_0_0,
            LN5(0, 0, 1, inb_S2x4x4x64x256_S1x1x1x64x256_0_0_1_0_0, jkF c, valF m ρ (ps c 1) 0 0)))
          (LD5(0, 0, 3, inb_S2x4x4x64x256_S1x1x1x64x256_0_0_3_0_0,
            LN5(0, 0, 3, inb_S2x4x4x64x256_S1x1x1x64x256_0_0_3_0_0, jkF c, valF m ρ (ps c 3) 0 0)))
          (LD5(0, 0, 2, inb_S2x4x4x64x256_S1x1x1x64x256_0_0_2_0_0,
            LN5(0, 0, 2, inb_S2x4x4x64x256_S1x1x1x64x256_0_0_2_0_0, jkF c, valF m ρ (ps c 2) 0 0))) 0)))
    (LD5(1, 0, 1, inb_S2x4x4x64x256_S1x1x1x64x256_1_0_1_0_0,
        LN5(1, 0, 1, inb_S2x4x4x64x256_S1x1x1x64x256_1_0_1_0_0, jkF c, valF m ρ (ps c 1) 1 0)))
    (LD5(1, 0, 3, inb_S2x4x4x64x256_S1x1x1x64x256_1_0_3_0_0,
        LN5(1, 0, 3, inb_S2x4x4x64x256_S1x1x1x64x256_1_0_3_0_0, jkF c, valF m ρ (ps c 3) 1 0)))
    (LD5(1, 0, 2, inb_S2x4x4x64x256_S1x1x1x64x256_1_0_2_0_0,
        LN5(1, 0, 2, inb_S2x4x4x64x256_S1x1x1x64x256_1_0_2_0_0, jkF c, valF m ρ (ps c 2) 1 0)))
/-- The same for row block 1. -/
local notation "ARGS1_1(" c ", " b0 ", " b1 ", " f ")" =>
  f (LD5(1, 1, 0, inb_S2x4x4x64x256_S1x1x1x64x256_1_1_0_0_0,
        ST5(1, 1, 0, inb_S2x4x4x64x256_S1x1x1x64x256_1_1_0_0_0, b1, st1 (XA3 m ρ c) (XA4 m ρ c)
          (LD5(0, 1, 0, inb_S2x4x4x64x256_S1x1x1x64x256_0_1_0_0_0,
            ST5(0, 1, 0, inb_S2x4x4x64x256_S1x1x1x64x256_0_1_0_0_0, b0, st0 (XA0 m ρ c) (XA1 m ρ c) (XA2 m ρ c) 1)))
          (LD5(0, 1, 1, inb_S2x4x4x64x256_S1x1x1x64x256_0_1_1_0_0,
            LN5(0, 1, 1, inb_S2x4x4x64x256_S1x1x1x64x256_0_1_1_0_0, jkF c, valF m ρ (ps c 1) 0 1)))
          (LD5(0, 1, 3, inb_S2x4x4x64x256_S1x1x1x64x256_0_1_3_0_0,
            LN5(0, 1, 3, inb_S2x4x4x64x256_S1x1x1x64x256_0_1_3_0_0, jkF c, valF m ρ (ps c 3) 0 1)))
          (LD5(0, 1, 2, inb_S2x4x4x64x256_S1x1x1x64x256_0_1_2_0_0,
            LN5(0, 1, 2, inb_S2x4x4x64x256_S1x1x1x64x256_0_1_2_0_0, jkF c, valF m ρ (ps c 2) 0 1))) 1)))
    (LD5(1, 1, 1, inb_S2x4x4x64x256_S1x1x1x64x256_1_1_1_0_0,
        LN5(1, 1, 1, inb_S2x4x4x64x256_S1x1x1x64x256_1_1_1_0_0, jkF c, valF m ρ (ps c 1) 1 1)))
    (LD5(1, 1, 3, inb_S2x4x4x64x256_S1x1x1x64x256_1_1_3_0_0,
        LN5(1, 1, 3, inb_S2x4x4x64x256_S1x1x1x64x256_1_1_3_0_0, jkF c, valF m ρ (ps c 3) 1 1)))
    (LD5(1, 1, 2, inb_S2x4x4x64x256_S1x1x1x64x256_1_1_2_0_0,
        LN5(1, 1, 2, inb_S2x4x4x64x256_S1x1x1x64x256_1_1_2_0_0, jkF c, valF m ρ (ps c 2) 1 1)))
/-- The same for row block 2. -/
local notation "ARGS1_2(" c ", " b0 ", " b1 ", " f ")" =>
  f (LD5(1, 2, 0, inb_S2x4x4x64x256_S1x1x1x64x256_1_2_0_0_0,
        ST5(1, 2, 0, inb_S2x4x4x64x256_S1x1x1x64x256_1_2_0_0_0, b1, st1 (XA3 m ρ c) (XA4 m ρ c)
          (LD5(0, 2, 0, inb_S2x4x4x64x256_S1x1x1x64x256_0_2_0_0_0,
            ST5(0, 2, 0, inb_S2x4x4x64x256_S1x1x1x64x256_0_2_0_0_0, b0, st0 (XA0 m ρ c) (XA1 m ρ c) (XA2 m ρ c) 2)))
          (LD5(0, 2, 1, inb_S2x4x4x64x256_S1x1x1x64x256_0_2_1_0_0,
            LN5(0, 2, 1, inb_S2x4x4x64x256_S1x1x1x64x256_0_2_1_0_0, jkF c, valF m ρ (ps c 1) 0 2)))
          (LD5(0, 2, 3, inb_S2x4x4x64x256_S1x1x1x64x256_0_2_3_0_0,
            LN5(0, 2, 3, inb_S2x4x4x64x256_S1x1x1x64x256_0_2_3_0_0, jkF c, valF m ρ (ps c 3) 0 2)))
          (LD5(0, 2, 2, inb_S2x4x4x64x256_S1x1x1x64x256_0_2_2_0_0,
            LN5(0, 2, 2, inb_S2x4x4x64x256_S1x1x1x64x256_0_2_2_0_0, jkF c, valF m ρ (ps c 2) 0 2))) 2)))
    (LD5(1, 2, 1, inb_S2x4x4x64x256_S1x1x1x64x256_1_2_1_0_0,
        LN5(1, 2, 1, inb_S2x4x4x64x256_S1x1x1x64x256_1_2_1_0_0, jkF c, valF m ρ (ps c 1) 1 2)))
    (LD5(1, 2, 3, inb_S2x4x4x64x256_S1x1x1x64x256_1_2_3_0_0,
        LN5(1, 2, 3, inb_S2x4x4x64x256_S1x1x1x64x256_1_2_3_0_0, jkF c, valF m ρ (ps c 3) 1 2)))
    (LD5(1, 2, 2, inb_S2x4x4x64x256_S1x1x1x64x256_1_2_2_0_0,
        LN5(1, 2, 2, inb_S2x4x4x64x256_S1x1x1x64x256_1_2_2_0_0, jkF c, valF m ρ (ps c 2) 1 2)))
/-- The same for row block 3. -/
local notation "ARGS1_3(" c ", " b0 ", " b1 ", " f ")" =>
  f (LD5(1, 3, 0, inb_S2x4x4x64x256_S1x1x1x64x256_1_3_0_0_0,
        ST5(1, 3, 0, inb_S2x4x4x64x256_S1x1x1x64x256_1_3_0_0_0, b1, st1 (XA3 m ρ c) (XA4 m ρ c)
          (LD5(0, 3, 0, inb_S2x4x4x64x256_S1x1x1x64x256_0_3_0_0_0,
            ST5(0, 3, 0, inb_S2x4x4x64x256_S1x1x1x64x256_0_3_0_0_0, b0, st0 (XA0 m ρ c) (XA1 m ρ c) (XA2 m ρ c) 3)))
          (LD5(0, 3, 1, inb_S2x4x4x64x256_S1x1x1x64x256_0_3_1_0_0,
            LN5(0, 3, 1, inb_S2x4x4x64x256_S1x1x1x64x256_0_3_1_0_0, jkF c, valF m ρ (ps c 1) 0 3)))
          (LD5(0, 3, 3, inb_S2x4x4x64x256_S1x1x1x64x256_0_3_3_0_0,
            LN5(0, 3, 3, inb_S2x4x4x64x256_S1x1x1x64x256_0_3_3_0_0, jkF c, valF m ρ (ps c 3) 0 3)))
          (LD5(0, 3, 2, inb_S2x4x4x64x256_S1x1x1x64x256_0_3_2_0_0,
            LN5(0, 3, 2, inb_S2x4x4x64x256_S1x1x1x64x256_0_3_2_0_0, jkF c, valF m ρ (ps c 2) 0 3))) 3)))
    (LD5(1, 3, 1, inb_S2x4x4x64x256_S1x1x1x64x256_1_3_1_0_0,
        LN5(1, 3, 1, inb_S2x4x4x64x256_S1x1x1x64x256_1_3_1_0_0, jkF c, valF m ρ (ps c 1) 1 3)))
    (LD5(1, 3, 3, inb_S2x4x4x64x256_S1x1x1x64x256_1_3_3_0_0,
        LN5(1, 3, 3, inb_S2x4x4x64x256_S1x1x1x64x256_1_3_3_0_0, jkF c, valF m ρ (ps c 3) 1 3)))
    (LD5(1, 3, 2, inb_S2x4x4x64x256_S1x1x1x64x256_1_3_2_0_0,
        LN5(1, 3, 2, inb_S2x4x4x64x256_S1x1x1x64x256_1_3_2_0_0, jkF c, valF m ρ (ps c 2) 1 3)))

/-! ### Device 0: slots 1, 2, 3 fold over row blocks 1, 2, 3 -/

theorem L2c_0_1 (c : Dev nD) (hc : c = 0) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_1(c, b0, b1, rsc1 0 (w2in (XA5 m ρ c)) (w2out (XA6 m ρ c)))))
      = valF m ρ c 2 1 :=
  L2_0_1 m ρ c hc b2 _ _ _ _ (own_load1_1 m ρ c b0 b1) (land_load1_1_1 m ρ c) (land_load1_1_3 m ρ c) (land_load1_1_2 m ρ c)
theorem L2c_0_2 (c : Dev nD) (hc : c = 0) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_2(c, b0, b1, rsc2 0 (w2in (XA5 m ρ c)) (w2out (XA6 m ρ c)))))
      = valF m ρ c 2 2 :=
  L2_0_2 m ρ c hc b2 _ _ _ _ (own_load1_2 m ρ c b0 b1) (land_load1_2_1 m ρ c) (land_load1_2_3 m ρ c) (land_load1_2_2 m ρ c)
theorem L2c_0_3 (c : Dev nD) (hc : c = 0) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_3(c, b0, b1, rsc3 0 (w2in (XA5 m ρ c)) (w2out (XA6 m ρ c)))))
      = valF m ρ c 2 3 :=
  L2_0_3 m ρ c hc b2 _ _ _ _ (own_load1_3 m ρ c b0 b1) (land_load1_3_1 m ρ c) (land_load1_3_3 m ρ c) (land_load1_3_2 m ρ c)

/-! ### Device 1: row blocks 2, 3, 0 -/

theorem L2c_1_1 (c : Dev nD) (hc : c = 1) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_2(c, b0, b1, rsc1 1 (w2in (XA5 m ρ c)) (w2out (XA6 m ρ c)))))
      = valF m ρ c 2 1 :=
  L2_1_1 m ρ c hc b2 _ _ _ _ (own_load1_2 m ρ c b0 b1) (land_load1_2_1 m ρ c) (land_load1_2_3 m ρ c) (land_load1_2_2 m ρ c)
theorem L2c_1_2 (c : Dev nD) (hc : c = 1) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_3(c, b0, b1, rsc2 1 (w2in (XA5 m ρ c)) (w2out (XA6 m ρ c)))))
      = valF m ρ c 2 2 :=
  L2_1_2 m ρ c hc b2 _ _ _ _ (own_load1_3 m ρ c b0 b1) (land_load1_3_1 m ρ c) (land_load1_3_3 m ρ c) (land_load1_3_2 m ρ c)
theorem L2c_1_3 (c : Dev nD) (hc : c = 1) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_0(c, b0, b1, rsc3 1 (w2in (XA5 m ρ c)) (w2out (XA6 m ρ c)))))
      = valF m ρ c 2 3 :=
  L2_1_3 m ρ c hc b2 _ _ _ _ (own_load1_0 m ρ c b0 b1) (land_load1_0_1 m ρ c) (land_load1_0_3 m ρ c) (land_load1_0_2 m ρ c)

/-! ### Device 2: row blocks 3, 0, 1 -/

theorem L2c_2_1 (c : Dev nD) (hc : c = 2) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_3(c, b0, b1, rsc1 2 (w2in (XA5 m ρ c)) (w2out (XA6 m ρ c)))))
      = valF m ρ c 2 1 :=
  L2_2_1 m ρ c hc b2 _ _ _ _ (own_load1_3 m ρ c b0 b1) (land_load1_3_1 m ρ c) (land_load1_3_3 m ρ c) (land_load1_3_2 m ρ c)
theorem L2c_2_2 (c : Dev nD) (hc : c = 2) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_0(c, b0, b1, rsc2 2 (w2in (XA5 m ρ c)) (w2out (XA6 m ρ c)))))
      = valF m ρ c 2 2 :=
  L2_2_2 m ρ c hc b2 _ _ _ _ (own_load1_0 m ρ c b0 b1) (land_load1_0_1 m ρ c) (land_load1_0_3 m ρ c) (land_load1_0_2 m ρ c)
theorem L2c_2_3 (c : Dev nD) (hc : c = 2) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_1(c, b0, b1, rsc3 2 (w2in (XA5 m ρ c)) (w2out (XA6 m ρ c)))))
      = valF m ρ c 2 3 :=
  L2_2_3 m ρ c hc b2 _ _ _ _ (own_load1_1 m ρ c b0 b1) (land_load1_1_1 m ρ c) (land_load1_1_3 m ρ c) (land_load1_1_2 m ρ c)

/-! ### Device 3: row blocks 0, 1, 2 -/

theorem L2c_3_1 (c : Dev nD) (hc : c = 3) (b0 b1 : Buf (Elt F) ((c : Thread nD τ).loc cc0_scratch0))
    (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1_0(c, b0, b1, rsc1 3 (w2in (XA5 m ρ c)) (w2out (XA6 m ρ c)))))
      = valF m ρ c 2 1 :=
  L2_3_1 m ρ c hc b2 _ _ _ _ (own_load1_0 m ρ c b0 b1) (land_load1_0_1 m ρ c) (land_load1_0_3 m ρ c) (land_load1_0_2 m ρ c)
theorem L2c_3_2 (c : Dev nD) (hc : c = 3) (b0 b1 : Buf (Elt F) ((c : Thread nD τ).loc cc0_scratch0))
    (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1_1(c, b0, b1, rsc2 3 (w2in (XA5 m ρ c)) (w2out (XA6 m ρ c)))))
      = valF m ρ c 2 2 :=
  L2_3_2 m ρ c hc b2 _ _ _ _ (own_load1_1 m ρ c b0 b1) (land_load1_1_1 m ρ c) (land_load1_1_3 m ρ c) (land_load1_1_2 m ρ c)
theorem L2c_3_3 (c : Dev nD) (hc : c = 3) (b0 b1 : Buf (Elt F) ((c : Thread nD τ).loc cc0_scratch0))
    (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1_2(c, b0, b1, rsc3 3 (w2in (XA5 m ρ c)) (w2out (XA6 m ρ c)))))
      = valF m ρ c 2 3 :=
  L2_3_3 m ρ c hc b2 _ _ _ _ (own_load1_2 m ρ c b0 b1) (land_load1_2_1 m ρ c) (land_load1_2_3 m ρ c) (land_load1_2_2 m ρ c)

/-! ### The final store on each device: the fold over the device's own row block, then the three loaded shares -/

theorem OUTc_0 (c : Dev nD) (hc : c = 0) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_0(c, b0, b1, outv 0 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_0 m ρ c hc g7 _ _ _ _ (own_load1_0 m ρ c b0 b1) (land_load1_0_1 m ρ c) (land_load1_0_3 m ρ c) (land_load1_0_2 m ρ c)
theorem OUTc_1 (c : Dev nD) (hc : c = 1) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_1(c, b0, b1, outv 1 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_1 m ρ c hc g7 _ _ _ _ (own_load1_1 m ρ c b0 b1) (land_load1_1_1 m ρ c) (land_load1_1_3 m ρ c) (land_load1_1_2 m ρ c)
theorem OUTc_2 (c : Dev nD) (hc : c = 2) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_2(c, b0, b1, outv 2 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_2 m ρ c hc g7 _ _ _ _ (own_load1_2 m ρ c b0 b1) (land_load1_2_1 m ρ c) (land_load1_2_3 m ρ c) (land_load1_2_2 m ρ c)
theorem OUTc_3 (c : Dev nD) (hc : c = 3) (b0 b1 : Buf (Elt F) ((c : Thread nD τ).loc cc0_scratch0))
    (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1_3(c, b0, b1, outv 3 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_3 m ρ c hc g7 _ _ _ _ (own_load1_3 m ρ c b0 b1) (land_load1_3_1 m ρ c) (land_load1_3_3 m ρ c) (land_load1_3_2 m ρ c)

end Closed

/-! ## The same with the device's own block taken as the stored vector itself

A load of a slot that the device's own store has just covered returns the stored vector; so the own input of a layer-1
store is the layer-0 stored vector, and the own input of a fold is the layer-1 stored vector, whose three other inputs
are the loads of layer 0's landed slots. -/

section Direct

/-- The layer-1 stored vector of row block `p`, its own input the layer-0 stored vector, is the device's layer-1 vector
    when the three other inputs are the layer-0 vectors of the devices 1, 3, 2 places behind. -/
theorem own1d (p : Fin 4) (c : Dev nD) (s1 s3 s2 : Vec F S1x1x1x64x256 .bf16)
    (hs1 : s1 = V0' (ps c 1) p) (hs3 : s3 = V0' (ps c 3) p) (hs2 : s2 = V0' (ps c 2) p) :
    st1 (XA3 m ρ c) (XA4 m ρ c) (st0 (XA0 m ρ c) (XA1 m ρ c) (XA2 m ρ c) p) s1 s3 s2 p = V1' c p := by
  subst hs1 hs3 hs2
  rfl

/-- The layer-1 stored vector of row block 0 with its inputs written out. -/
local notation "OWN1d_0(" c ")" =>
  st1 (XA3 m ρ c) (XA4 m ρ c) (st0 (XA0 m ρ c) (XA1 m ρ c) (XA2 m ρ c) 0)
    (LD5(0, 0, 1, inb_S2x4x4x64x256_S1x1x1x64x256_0_0_1_0_0,
      LN5(0, 0, 1, inb_S2x4x4x64x256_S1x1x1x64x256_0_0_1_0_0, jkF c, valF m ρ (ps c 1) 0 0)))
    (LD5(0, 0, 3, inb_S2x4x4x64x256_S1x1x1x64x256_0_0_3_0_0,
      LN5(0, 0, 3, inb_S2x4x4x64x256_S1x1x1x64x256_0_0_3_0_0, jkF c, valF m ρ (ps c 3) 0 0)))
    (LD5(0, 0, 2, inb_S2x4x4x64x256_S1x1x1x64x256_0_0_2_0_0,
      LN5(0, 0, 2, inb_S2x4x4x64x256_S1x1x1x64x256_0_0_2_0_0, jkF c, valF m ρ (ps c 2) 0 0))) 0
local notation "OWN1d_1(" c ")" =>
  st1 (XA3 m ρ c) (XA4 m ρ c) (st0 (XA0 m ρ c) (XA1 m ρ c) (XA2 m ρ c) 1)
    (LD5(0, 1, 1, inb_S2x4x4x64x256_S1x1x1x64x256_0_1_1_0_0,
      LN5(0, 1, 1, inb_S2x4x4x64x256_S1x1x1x64x256_0_1_1_0_0, jkF c, valF m ρ (ps c 1) 0 1)))
    (LD5(0, 1, 3, inb_S2x4x4x64x256_S1x1x1x64x256_0_1_3_0_0,
      LN5(0, 1, 3, inb_S2x4x4x64x256_S1x1x1x64x256_0_1_3_0_0, jkF c, valF m ρ (ps c 3) 0 1)))
    (LD5(0, 1, 2, inb_S2x4x4x64x256_S1x1x1x64x256_0_1_2_0_0,
      LN5(0, 1, 2, inb_S2x4x4x64x256_S1x1x1x64x256_0_1_2_0_0, jkF c, valF m ρ (ps c 2) 0 1))) 1
local notation "OWN1d_2(" c ")" =>
  st1 (XA3 m ρ c) (XA4 m ρ c) (st0 (XA0 m ρ c) (XA1 m ρ c) (XA2 m ρ c) 2)
    (LD5(0, 2, 1, inb_S2x4x4x64x256_S1x1x1x64x256_0_2_1_0_0,
      LN5(0, 2, 1, inb_S2x4x4x64x256_S1x1x1x64x256_0_2_1_0_0, jkF c, valF m ρ (ps c 1) 0 2)))
    (LD5(0, 2, 3, inb_S2x4x4x64x256_S1x1x1x64x256_0_2_3_0_0,
      LN5(0, 2, 3, inb_S2x4x4x64x256_S1x1x1x64x256_0_2_3_0_0, jkF c, valF m ρ (ps c 3) 0 2)))
    (LD5(0, 2, 2, inb_S2x4x4x64x256_S1x1x1x64x256_0_2_2_0_0,
      LN5(0, 2, 2, inb_S2x4x4x64x256_S1x1x1x64x256_0_2_2_0_0, jkF c, valF m ρ (ps c 2) 0 2))) 2
local notation "OWN1d_3(" c ")" =>
  st1 (XA3 m ρ c) (XA4 m ρ c) (st0 (XA0 m ρ c) (XA1 m ρ c) (XA2 m ρ c) 3)
    (LD5(0, 3, 1, inb_S2x4x4x64x256_S1x1x1x64x256_0_3_1_0_0,
      LN5(0, 3, 1, inb_S2x4x4x64x256_S1x1x1x64x256_0_3_1_0_0, jkF c, valF m ρ (ps c 1) 0 3)))
    (LD5(0, 3, 3, inb_S2x4x4x64x256_S1x1x1x64x256_0_3_3_0_0,
      LN5(0, 3, 3, inb_S2x4x4x64x256_S1x1x1x64x256_0_3_3_0_0, jkF c, valF m ρ (ps c 3) 0 3)))
    (LD5(0, 3, 2, inb_S2x4x4x64x256_S1x1x1x64x256_0_3_2_0_0,
      LN5(0, 3, 2, inb_S2x4x4x64x256_S1x1x1x64x256_0_3_2_0_0, jkF c, valF m ρ (ps c 2) 0 3))) 3

/-- The stored function `f` applied to the layer-1 stored vector of row block 0 and the three landed layer-1 blocks. -/
local notation "ARGS1d_0(" c ", " f ")" =>
  f (OWN1d_0(c))
    (LD5(1, 0, 1, inb_S2x4x4x64x256_S1x1x1x64x256_1_0_1_0_0,
        LN5(1, 0, 1, inb_S2x4x4x64x256_S1x1x1x64x256_1_0_1_0_0, jkF c, valF m ρ (ps c 1) 1 0)))
    (LD5(1, 0, 3, inb_S2x4x4x64x256_S1x1x1x64x256_1_0_3_0_0,
        LN5(1, 0, 3, inb_S2x4x4x64x256_S1x1x1x64x256_1_0_3_0_0, jkF c, valF m ρ (ps c 3) 1 0)))
    (LD5(1, 0, 2, inb_S2x4x4x64x256_S1x1x1x64x256_1_0_2_0_0,
        LN5(1, 0, 2, inb_S2x4x4x64x256_S1x1x1x64x256_1_0_2_0_0, jkF c, valF m ρ (ps c 2) 1 0)))
local notation "ARGS1d_1(" c ", " f ")" =>
  f (OWN1d_1(c))
    (LD5(1, 1, 1, inb_S2x4x4x64x256_S1x1x1x64x256_1_1_1_0_0,
        LN5(1, 1, 1, inb_S2x4x4x64x256_S1x1x1x64x256_1_1_1_0_0, jkF c, valF m ρ (ps c 1) 1 1)))
    (LD5(1, 1, 3, inb_S2x4x4x64x256_S1x1x1x64x256_1_1_3_0_0,
        LN5(1, 1, 3, inb_S2x4x4x64x256_S1x1x1x64x256_1_1_3_0_0, jkF c, valF m ρ (ps c 3) 1 1)))
    (LD5(1, 1, 2, inb_S2x4x4x64x256_S1x1x1x64x256_1_1_2_0_0,
        LN5(1, 1, 2, inb_S2x4x4x64x256_S1x1x1x64x256_1_1_2_0_0, jkF c, valF m ρ (ps c 2) 1 1)))
local notation "ARGS1d_2(" c ", " f ")" =>
  f (OWN1d_2(c))
    (LD5(1, 2, 1, inb_S2x4x4x64x256_S1x1x1x64x256_1_2_1_0_0,
        LN5(1, 2, 1, inb_S2x4x4x64x256_S1x1x1x64x256_1_2_1_0_0, jkF c, valF m ρ (ps c 1) 1 2)))
    (LD5(1, 2, 3, inb_S2x4x4x64x256_S1x1x1x64x256_1_2_3_0_0,
        LN5(1, 2, 3, inb_S2x4x4x64x256_S1x1x1x64x256_1_2_3_0_0, jkF c, valF m ρ (ps c 3) 1 2)))
    (LD5(1, 2, 2, inb_S2x4x4x64x256_S1x1x1x64x256_1_2_2_0_0,
        LN5(1, 2, 2, inb_S2x4x4x64x256_S1x1x1x64x256_1_2_2_0_0, jkF c, valF m ρ (ps c 2) 1 2)))
local notation "ARGS1d_3(" c ", " f ")" =>
  f (OWN1d_3(c))
    (LD5(1, 3, 1, inb_S2x4x4x64x256_S1x1x1x64x256_1_3_1_0_0,
        LN5(1, 3, 1, inb_S2x4x4x64x256_S1x1x1x64x256_1_3_1_0_0, jkF c, valF m ρ (ps c 1) 1 3)))
    (LD5(1, 3, 3, inb_S2x4x4x64x256_S1x1x1x64x256_1_3_3_0_0,
        LN5(1, 3, 3, inb_S2x4x4x64x256_S1x1x1x64x256_1_3_3_0_0, jkF c, valF m ρ (ps c 3) 1 3)))
    (LD5(1, 3, 2, inb_S2x4x4x64x256_S1x1x1x64x256_1_3_2_0_0,
        LN5(1, 3, 2, inb_S2x4x4x64x256_S1x1x1x64x256_1_3_2_0_0, jkF c, valF m ρ (ps c 2) 1 3)))

/-! ### The layer-1 stored vector at the four literal row blocks -/

theorem own1d_0 (c : Dev nD) : OWN1d_0(c) = V1' c 0 :=
  own1d m ρ 0 c _ _ _ (land_load0_0_1 m ρ c) (land_load0_0_3 m ρ c) (land_load0_0_2 m ρ c)
theorem own1d_1 (c : Dev nD) : OWN1d_1(c) = V1' c 1 :=
  own1d m ρ 1 c _ _ _ (land_load0_1_1 m ρ c) (land_load0_1_3 m ρ c) (land_load0_1_2 m ρ c)
theorem own1d_2 (c : Dev nD) : OWN1d_2(c) = V1' c 2 :=
  own1d m ρ 2 c _ _ _ (land_load0_2_1 m ρ c) (land_load0_2_3 m ρ c) (land_load0_2_2 m ρ c)
theorem own1d_3 (c : Dev nD) : OWN1d_3(c) = V1' c 3 :=
  own1d m ρ 3 c _ _ _ (land_load0_3_1 m ρ c) (land_load0_3_3 m ρ c) (land_load0_3_2 m ρ c)

/-! ### Layer 1: the store read back through the slot's own view -/

theorem L1d_0 (c : Dev nD) (b' : Buf (Elt F) ((c : Thread nD τ).loc cc0_scratch0)) :
    (slotM 1 0 0 inb_S2x4x4x64x256_S1x1x1x64x256_1_0_0_0_0).view.read (Elt F)
        (ST5(1, 0, 0, inb_S2x4x4x64x256_S1x1x1x64x256_1_0_0_0_0, b', OWN1d_0(c)))
      = valF m ρ c 1 0 :=
  read_store1 m ρ 0 _ c b' _ _ _ _ rfl (land_load0_0_1 m ρ c) (land_load0_0_3 m ρ c) (land_load0_0_2 m ρ c)
theorem L1d_1 (c : Dev nD) (b' : Buf (Elt F) ((c : Thread nD τ).loc cc0_scratch0)) :
    (slotM 1 1 0 inb_S2x4x4x64x256_S1x1x1x64x256_1_1_0_0_0).view.read (Elt F)
        (ST5(1, 1, 0, inb_S2x4x4x64x256_S1x1x1x64x256_1_1_0_0_0, b', OWN1d_1(c)))
      = valF m ρ c 1 1 :=
  read_store1 m ρ 1 _ c b' _ _ _ _ rfl (land_load0_1_1 m ρ c) (land_load0_1_3 m ρ c) (land_load0_1_2 m ρ c)
theorem L1d_2 (c : Dev nD) (b' : Buf (Elt F) ((c : Thread nD τ).loc cc0_scratch0)) :
    (slotM 1 2 0 inb_S2x4x4x64x256_S1x1x1x64x256_1_2_0_0_0).view.read (Elt F)
        (ST5(1, 2, 0, inb_S2x4x4x64x256_S1x1x1x64x256_1_2_0_0_0, b', OWN1d_2(c)))
      = valF m ρ c 1 2 :=
  read_store1 m ρ 2 _ c b' _ _ _ _ rfl (land_load0_2_1 m ρ c) (land_load0_2_3 m ρ c) (land_load0_2_2 m ρ c)
theorem L1d_3 (c : Dev nD) (b' : Buf (Elt F) ((c : Thread nD τ).loc cc0_scratch0)) :
    (slotM 1 3 0 inb_S2x4x4x64x256_S1x1x1x64x256_1_3_0_0_0).view.read (Elt F)
        (ST5(1, 3, 0, inb_S2x4x4x64x256_S1x1x1x64x256_1_3_0_0_0, b', OWN1d_3(c)))
      = valF m ρ c 1 3 :=
  read_store1 m ρ 3 _ c b' _ _ _ _ rfl (land_load0_3_1 m ρ c) (land_load0_3_3 m ρ c) (land_load0_3_2 m ρ c)

/-! ### Layer 2 on each device -/

theorem L2d_0_1 (c : Dev nD) (hc : c = 0) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_1(c, rsc1 0 (w2in (XA5 m ρ c)) (w2out (XA6 m ρ c)))))
      = valF m ρ c 2 1 :=
  L2_0_1 m ρ c hc b2 _ _ _ _ (own1d_1 m ρ c) (land_load1_1_1 m ρ c) (land_load1_1_3 m ρ c) (land_load1_1_2 m ρ c)
theorem L2d_0_2 (c : Dev nD) (hc : c = 0) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_2(c, rsc2 0 (w2in (XA5 m ρ c)) (w2out (XA6 m ρ c)))))
      = valF m ρ c 2 2 :=
  L2_0_2 m ρ c hc b2 _ _ _ _ (own1d_2 m ρ c) (land_load1_2_1 m ρ c) (land_load1_2_3 m ρ c) (land_load1_2_2 m ρ c)
theorem L2d_0_3 (c : Dev nD) (hc : c = 0) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_3(c, rsc3 0 (w2in (XA5 m ρ c)) (w2out (XA6 m ρ c)))))
      = valF m ρ c 2 3 :=
  L2_0_3 m ρ c hc b2 _ _ _ _ (own1d_3 m ρ c) (land_load1_3_1 m ρ c) (land_load1_3_3 m ρ c) (land_load1_3_2 m ρ c)
theorem L2d_1_1 (c : Dev nD) (hc : c = 1) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_2(c, rsc1 1 (w2in (XA5 m ρ c)) (w2out (XA6 m ρ c)))))
      = valF m ρ c 2 1 :=
  L2_1_1 m ρ c hc b2 _ _ _ _ (own1d_2 m ρ c) (land_load1_2_1 m ρ c) (land_load1_2_3 m ρ c) (land_load1_2_2 m ρ c)
theorem L2d_1_2 (c : Dev nD) (hc : c = 1) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_3(c, rsc2 1 (w2in (XA5 m ρ c)) (w2out (XA6 m ρ c)))))
      = valF m ρ c 2 2 :=
  L2_1_2 m ρ c hc b2 _ _ _ _ (own1d_3 m ρ c) (land_load1_3_1 m ρ c) (land_load1_3_3 m ρ c) (land_load1_3_2 m ρ c)
theorem L2d_1_3 (c : Dev nD) (hc : c = 1) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_0(c, rsc3 1 (w2in (XA5 m ρ c)) (w2out (XA6 m ρ c)))))
      = valF m ρ c 2 3 :=
  L2_1_3 m ρ c hc b2 _ _ _ _ (own1d_0 m ρ c) (land_load1_0_1 m ρ c) (land_load1_0_3 m ρ c) (land_load1_0_2 m ρ c)
theorem L2d_2_1 (c : Dev nD) (hc : c = 2) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_3(c, rsc1 2 (w2in (XA5 m ρ c)) (w2out (XA6 m ρ c)))))
      = valF m ρ c 2 1 :=
  L2_2_1 m ρ c hc b2 _ _ _ _ (own1d_3 m ρ c) (land_load1_3_1 m ρ c) (land_load1_3_3 m ρ c) (land_load1_3_2 m ρ c)
theorem L2d_2_2 (c : Dev nD) (hc : c = 2) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_0(c, rsc2 2 (w2in (XA5 m ρ c)) (w2out (XA6 m ρ c)))))
      = valF m ρ c 2 2 :=
  L2_2_2 m ρ c hc b2 _ _ _ _ (own1d_0 m ρ c) (land_load1_0_1 m ρ c) (land_load1_0_3 m ρ c) (land_load1_0_2 m ρ c)
theorem L2d_2_3 (c : Dev nD) (hc : c = 2) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_1(c, rsc3 2 (w2in (XA5 m ρ c)) (w2out (XA6 m ρ c)))))
      = valF m ρ c 2 3 :=
  L2_2_3 m ρ c hc b2 _ _ _ _ (own1d_1 m ρ c) (land_load1_1_1 m ρ c) (land_load1_1_3 m ρ c) (land_load1_1_2 m ρ c)
theorem L2d_3_1 (c : Dev nD) (hc : c = 3) (b2 : Buf (Elt F) ((c : Thread nD τ).loc cc0_scratch1)) :
    (rsM 0 1 inb_S2x4x64x256_S1x1x64x256_0_1_0_0).view.read (Elt F)
        (ST4(0, 1, inb_S2x4x64x256_S1x1x64x256_0_1_0_0, b2, ARGS1d_0(c, rsc1 3 (w2in (XA5 m ρ c)) (w2out (XA6 m ρ c)))))
      = valF m ρ c 2 1 :=
  L2_3_1 m ρ c hc b2 _ _ _ _ (own1d_0 m ρ c) (land_load1_0_1 m ρ c) (land_load1_0_3 m ρ c) (land_load1_0_2 m ρ c)
theorem L2d_3_2 (c : Dev nD) (hc : c = 3) (b2 : Buf (Elt F) ((c : Thread nD τ).loc cc0_scratch1)) :
    (rsM 0 2 inb_S2x4x64x256_S1x1x64x256_0_2_0_0).view.read (Elt F)
        (ST4(0, 2, inb_S2x4x64x256_S1x1x64x256_0_2_0_0, b2, ARGS1d_1(c, rsc2 3 (w2in (XA5 m ρ c)) (w2out (XA6 m ρ c)))))
      = valF m ρ c 2 2 :=
  L2_3_2 m ρ c hc b2 _ _ _ _ (own1d_1 m ρ c) (land_load1_1_1 m ρ c) (land_load1_1_3 m ρ c) (land_load1_1_2 m ρ c)
theorem L2d_3_3 (c : Dev nD) (hc : c = 3) (b2 : Buf (Elt F) ((c : Thread nD τ).loc cc0_scratch1)) :
    (rsM 0 3 inb_S2x4x64x256_S1x1x64x256_0_3_0_0).view.read (Elt F)
        (ST4(0, 3, inb_S2x4x64x256_S1x1x64x256_0_3_0_0, b2, ARGS1d_2(c, rsc3 3 (w2in (XA5 m ρ c)) (w2out (XA6 m ρ c)))))
      = valF m ρ c 2 3 :=
  L2_3_3 m ρ c hc b2 _ _ _ _ (own1d_2 m ρ c) (land_load1_2_1 m ρ c) (land_load1_2_3 m ρ c) (land_load1_2_2 m ρ c)

/-! ### The final store on each device -/

theorem OUTd_0 (c : Dev nD) (hc : c = 0) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_0(c, outv 0 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_0 m ρ c hc g7 _ _ _ _ (own1d_0 m ρ c) (land_load1_0_1 m ρ c) (land_load1_0_3 m ρ c) (land_load1_0_2 m ρ c)
theorem OUTd_1 (c : Dev nD) (hc : c = 1) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_1(c, outv 1 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_1 m ρ c hc g7 _ _ _ _ (own1d_1 m ρ c) (land_load1_1_1 m ρ c) (land_load1_1_3 m ρ c) (land_load1_1_2 m ρ c)
theorem OUTd_2 (c : Dev nD) (hc : c = 2) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_2(c, outv 2 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_2 m ρ c hc g7 _ _ _ _ (own1d_2 m ρ c) (land_load1_2_1 m ρ c) (land_load1_2_3 m ρ c) (land_load1_2_2 m ρ c)
theorem OUTd_3 (c : Dev nD) (hc : c = 3) (g7 : (cc0_stg7_0 : Ref sig .tc).ty.Contents (Elt F)) :
    View.write (Elt F) ((Memref.whole cc0_stg7_0).access (Rect.unit (s := S64x256) ![0, 0] S64x256.size inb_S64x256_S64x256_0_0))
        g7 ((ARGS1d_3(c, outv 3 (w2in (XA5 m ρ c)) (w2out (XA6 m ρ c))))
          (LD4(1, 1, inb_S2x4x64x256_S1x1x64x256_1_1_0_0, LN4(1, 1, inb_S2x4x64x256_S1x1x64x256_1_1_0_0, jrF c, valF m ρ (ps c 1) 2 1)))
          (LD4(1, 3, inb_S2x4x64x256_S1x1x64x256_1_3_0_0, LN4(1, 3, inb_S2x4x64x256_S1x1x64x256_1_3_0_0, jrF c, valF m ρ (ps c 3) 2 3)))
          (LD4(1, 2, inb_S2x4x64x256_S1x1x64x256_1_2_0_0, LN4(1, 2, inb_S2x4x64x256_S1x1x64x256_1_2_0_0, jrF c, valF m ρ (ps c 2) 2 2))))
        Finset.univ
      = outF m ρ c :=
  OUT_3 m ρ c hc g7 _ _ _ _ (own1d_3 m ρ c) (land_load1_3_1 m ρ c) (land_load1_3_3 m ρ c) (land_load1_3_2 m ρ c)

end Direct

/-- info: 'Cert.Kernel.Mlp.L0_3' depends on axioms: [propext, Classical.choice, Quot.sound] -/
#guard_msgs in #print axioms L0_3
/-- info: 'Cert.Kernel.Mlp.L1_3' depends on axioms: [propext, Classical.choice, Quot.sound] -/
#guard_msgs in #print axioms L1_3
/-- info: 'Cert.Kernel.Mlp.own_load1_3' depends on axioms: [propext, Classical.choice, Quot.sound] -/
#guard_msgs in #print axioms own_load1_3
/-- info: 'Cert.Kernel.Mlp.L2_3_3' depends on axioms: [propext, Classical.choice, Quot.sound] -/
#guard_msgs in #print axioms L2_3_3
/-- info: 'Cert.Kernel.Mlp.OUT_3' depends on axioms: [propext, Classical.choice, Quot.sound] -/
#guard_msgs in #print axioms OUT_3
/-- info: 'Cert.Kernel.Mlp.L2c_3_3' depends on axioms: [propext, Classical.choice, Quot.sound] -/
#guard_msgs in #print axioms L2c_3_3
/-- info: 'Cert.Kernel.Mlp.OUTc_3' depends on axioms: [propext, Classical.choice, Quot.sound] -/
#guard_msgs in #print axioms OUTc_3
/-- info: 'Cert.Kernel.Mlp.L1d_3' depends on axioms: [propext, Classical.choice, Quot.sound] -/
#guard_msgs in #print axioms L1d_3
/-- info: 'Cert.Kernel.Mlp.L2d_3_3' depends on axioms: [propext, Classical.choice, Quot.sound] -/
#guard_msgs in #print axioms L2d_3_3
/-- info: 'Cert.Kernel.Mlp.OUTd_3' depends on axioms: [propext, Classical.choice, Quot.sound] -/
#guard_msgs in #print axioms OUTd_3

end Cert.Kernel.Mlp

end
-- ==== Proof.Bits.Body.lean ====
import proofs.«900991_g7700000000000992_dist_mlpseq_tp1d_rep_bs_b256_d256_h512_v7x_i4_bf16_1_alg».proof.Proof.Bits.BodyIface
import proofs.«900991_g7700000000000992_dist_mlpseq_tp1d_rep_bs_b256_d256_h512_v7x_i4_bf16_1_alg».proof.Proof.Bits.Levels
import proofs.«900991_g7700000000000992_dist_mlpseq_tp1d_rep_bs_b256_d256_h512_v7x_i4_bf16_1_alg».proof.Proof.Bits.OwesLevels
import proofs.«900991_g7700000000000992_dist_mlpseq_tp1d_rep_bs_b256_d256_h512_v7x_i4_bf16_1_alg».proof.Proof.Bits.SendRulesTo
import proofs.«900991_g7700000000000992_dist_mlpseq_tp1d_rep_bs_b256_d256_h512_v7x_i4_bf16_1_alg».proof.Proof.Bits.Shares
import proofs.«900991_g7700000000000992_dist_mlpseq_tp1d_rep_bs_b256_d256_h512_v7x_i4_bf16_1_alg».proof.Proof.Bits.BlockViews
import proofs.«900991_g7700000000000992_dist_mlpseq_tp1d_rep_bs_b256_d256_h512_v7x_i4_bf16_1_alg».proof.Proof.Bits.ValueSteps

noncomputable section

namespace Cert.Kernel.Mlp

open Idealize.ShloMosaic
open Idealize.ShloMosaic.TcCoe
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Cert.Kernel.Join Cert.Kernel.KVal
variable {F : FTy → Type} [FloatOps F]
local notation "𝕄" => MT nD τ sig Unit (Elt F) ℕ UU ℕ
variable (m : (ℓ : Loc nD τ sig) → Buf (Elt F) ℓ) (ρ : Dev nD → PrngReg)

attribute [local sl_rounds] duties_bar amount_bar expect_bar payload_bar1 payload_bar2 payload_bar3 duties_snd_0_0_1 duties_rcv_0_0_1 amount_snd_0_0_1 amount_rcv_0_0_1 expect_snd_0_0_1 expect_rcv_0_0_1 payload_snd_0_0_1 payload_rcv_0_0_1 duties_snd_0_0_2 duties_rcv_0_0_2 amount_snd_0_0_2 amount_rcv_0_0_2 expect_snd_0_0_2 expect_rcv_0_0_2 payload_snd_0_0_2 payload_rcv_0_0_2 duties_snd_0_0_3 duties_rcv_0_0_3 amount_snd_0_0_3 amount_rcv_0_0_3 expect_snd_0_0_3 expect_rcv_0_0_3 payload_snd_0_0_3 payload_rcv_0_0_3 duties_snd_0_1_1 duties_rcv_0_1_1 amount_snd_0_1_1 amount_rcv_0_1_1 expect_snd_0_1_1 expect_rcv_0_1_1 payload_snd_0_1_1 payload_rcv_0_1_1 duties_snd_0_1_2 duties_rcv_0_1_2 amount_snd_0_1_2 amount_rcv_0_1_2 expect_snd_0_1_2 expect_rcv_0_1_2 payload_snd_0_1_2 payload_rcv_0_1_2 duties_snd_0_1_3 duties_rcv_0_1_3 amount_snd_0_1_3 amount_rcv_0_1_3 expect_snd_0_1_3 expect_rcv_0_1_3 payload_snd_0_1_3 payload_rcv_0_1_3 duties_snd_0_2_1 duties_rcv_0_2_1 amount_snd_0_2_1 amount_rcv_0_2_1 expect_snd_0_2_1 expect_rcv_0_2_1 payload_snd_0_2_1 payload_rcv_0_2_1 duties_snd_0_2_2 duties_rcv_0_2_2 amount_snd_0_2_2 amount_rcv_0_2_2 expect_snd_0_2_2 expect_rcv_0_2_2 payload_snd_0_2_2 payload_rcv_0_2_2 duties_snd_0_2_3 duties_rcv_0_2_3 amount_snd_0_2_3 amount_rcv_0_2_3 expect_snd_0_2_3 expect_rcv_0_2_3 payload_snd_0_2_3 payload_rcv_0_2_3 duties_snd_0_3_1 duties_rcv_0_3_1 amount_snd_0_3_1 amount_rcv_0_3_1 expect_snd_0_3_1 expect_rcv_0_3_1 payload_snd_0_3_1 payload_rcv_0_3_1 duties_snd_0_3_2 duties_rcv_0_3_2 amount_snd_0_3_2 amount_rcv_0_3_2 expect_snd_0_3_2 expect_rcv_0_3_2 payload_snd_0_3_2 payload_rcv_0_3_2 duties_snd_0_3_3 duties_rcv_0_3_3 amount_snd_0_3_3 amount_rcv_0_3_3 expect_snd_0_3_3 expect_rcv_0_3_3 payload_snd_0_3_3 payload_rcv_0_3_3 duties_snd_1_0_1 duties_rcv_1_0_1 amount_snd_1_0_1 amount_rcv_1_0_1 expect_snd_1_0_1 expect_rcv_1_0_1 payload_snd_1_0_1 payload_rcv_1_0_1 duties_snd_1_0_2 duties_rcv_1_0_2 amount_snd_1_0_2 amount_rcv_1_0_2 expect_snd_1_0_2 expect_rcv_1_0_2 payload_snd_1_0_2 payload_rcv_1_0_2 duties_snd_1_0_3 duties_rcv_1_0_3 amount_snd_1_0_3 amount_rcv_1_0_3 expect_snd_1_0_3 expect_rcv_1_0_3 payload_snd_1_0_3 payload_rcv_1_0_3 duties_snd_1_1_1 duties_rcv_1_1_1 amount_snd_1_1_1 amount_rcv_1_1_1 expect_snd_1_1_1 expect_rcv_1_1_1 payload_snd_1_1_1 payload_rcv_1_1_1 duties_snd_1_1_2 duties_rcv_1_1_2 amount_snd_1_1_2 amount_rcv_1_1_2 expect_snd_1_1_2 expect_rcv_1_1_2 payload_snd_1_1_2 payload_rcv_1_1_2 duties_snd_1_1_3 duties_rcv_1_1_3 amount_snd_1_1_3 amount_rcv_1_1_3 expect_snd_1_1_3 expect_rcv_1_1_3 payload_snd_1_1_3 payload_rcv_1_1_3 duties_snd_1_2_1 duties_rcv_1_2_1 amount_snd_1_2_1 amount_rcv_1_2_1 expect_snd_1_2_1 expect_rcv_1_2_1 payload_snd_1_2_1 payload_rcv_1_2_1 duties_snd_1_2_2 duties_rcv_1_2_2 amount_snd_1_2_2 amount_rcv_1_2_2 expect_snd_1_2_2 expect_rcv_1_2_2 payload_snd_1_2_2 payload_rcv_1_2_2 duties_snd_1_2_3 duties_rcv_1_2_3 amount_snd_1_2_3 amount_rcv_1_2_3 expect_snd_1_2_3 expect_rcv_1_2_3 payload_snd_1_2_3 payload_rcv_1_2_3 duties_snd_1_3_1 duties_rcv_1_3_1 amount_snd_1_3_1 amount_rcv_1_3_1 expect_snd_1_3_1 expect_rcv_1_3_1 payload_snd_1_3_1 payload_rcv_1_3_1 duties_snd_1_3_2 duties_rcv_1_3_2 amount_snd_1_3_2 amount_rcv_1_3_2 expect_snd_1_3_2 expect_rcv_1_3_2 payload_snd_1_3_2 payload_rcv_1_3_2 duties_snd_1_3_3 duties_rcv_1_3_3 amount_snd_1_3_3 amount_rcv_1_3_3 expect_snd_1_3_3 expect_rcv_1_3_3 payload_snd_1_3_3 payload_rcv_1_3_3 duties_snd_2_0_1 duties_rcv_2_0_1 amount_snd_2_0_1 amount_rcv_2_0_1 expect_snd_2_0_1 expect_rcv_2_0_1 payload_snd_2_0_1 payload_rcv_2_0_1 duties_snd_2_0_2 duties_rcv_2_0_2 amount_snd_2_0_2 amount_rcv_2_0_2 expect_snd_2_0_2 expect_rcv_2_0_2 payload_snd_2_0_2 payload_rcv_2_0_2 duties_snd_2_0_3 duties_rcv_2_0_3 amount_snd_2_0_3 amount_rcv_2_0_3 expect_snd_2_0_3 expect_rcv_2_0_3 payload_snd_2_0_3 payload_rcv_2_0_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

omit [FloatOps F] in
theorem owes_congr {c : Dev nD} {O O' : CellTallies nD τ sig Unit} {W : Waits sig Unit} (h : O = O') :
    (owes (c : Thread nD τ) O W : sProp 𝕄) ⊢ owes (c : Thread nD τ) O' W := by subst h; exact BI.Entails.refl _

/-- Two contents of a block agree on the block's own elements when reading the one through the block's view gives what the
    other was written from. -/
theorem agree_of_read {κ : Kind} {sp : Space} {s : Shape} {e : EltTy} (v : View sig κ sp s e) (fd T : v.ty.Contents (Elt F))
    {x : s.Idx → Elt F e} (h : v.read (Elt F) T = x) : ∀ i ∈ v.set, v.write (Elt F) fd x Finset.univ i = T i :=
  fun i hi => by subst h; exact (write_read_agree v fd T i hi).symm

/-- Advance the symbolic run up to the next copy's start (the run stops there: the copy's tokens are not in its hands). -/
macro "adv" : tactic => `(tactic| (set_option sl_exec.foldHeartbeats 1 in sl_exec_parts (disch := decide)))

set_option maxHeartbeats 64000000 in
/-- One device's body, run symbolically from the flat context `bodyPre` to `bodyPost`: the three entry signals are paid by
    hand (each hands over the nine blocks the device ahead will write), the barrier wait brings the 27 destination blocks;
    every copy is started by its rule once the run has reached it, its source the block just stored (kept at one share,
    three lent), its value the layer's partial product; the waits, loads and stores between copies are the run's own steps;
    after the trunk the device's number decides which of the four guarded regions runs; at the end every own cell is closed,
    the lent shares joined back and the two exchange buffers reassembled from their blocks. -/
theorem sound_body (K : GSem nD τ sig → ℕ) (c : Dev nD) (Kt : PUnit → sProp 𝕄) (W : Waits sig Unit)
    (f0 : Buf (Elt F) ((c : Thread nD τ).loc cc0_scratch0)) (f1 : Buf (Elt F) ((c : Thread nD τ).loc cc0_scratch1))
    (g7 : (cc0_stg7_0 : Ref sig .tc).ty.Contents (Elt F)) :
    iprop(bodyPre m ρ (valF m ρ) jkF jrF K c W f0 f1 g7 ∗ (bodyPost m ρ (outF m ρ) c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3) Kt := by
  unfold bodyPre
  iintro ⟨⟨#Ibar, #Isnd_0_0_1, #Isnd_0_0_2, #Isnd_0_0_3, #Isnd_0_1_1, #Isnd_0_1_2, #Isnd_0_1_3, #Isnd_0_2_1, #Isnd_0_2_2, #Isnd_0_2_3, #Isnd_0_3_1, #Isnd_0_3_2, #Isnd_0_3_3, #Isnd_1_0_1, #Isnd_1_0_2, #Isnd_1_0_3, #Isnd_1_1_1, #Isnd_1_1_2, #Isnd_1_1_3, #Isnd_1_2_1, #Isnd_1_2_2, #Isnd_1_2_3, #Isnd_1_3_1, #Isnd_1_3_2, #Isnd_1_3_3, #Isnd_2_0_1, #Isnd_2_0_2, #Isnd_2_0_3, #Ircv_0_0_1, #Ircv_0_0_2, #Ircv_0_0_3, #Ircv_0_1_1, #Ircv_0_1_2, #Ircv_0_1_3, #Ircv_0_2_1, #Ircv_0_2_2, #Ircv_0_2_3, #Ircv_0_3_1, #Ircv_0_3_2, #Ircv_0_3_3, #Ircv_1_0_1, #Ircv_1_0_2, #Ircv_1_0_3, #Ircv_1_1_1, #Ircv_1_1_2, #Ircv_1_1_3, #Ircv_1_2_1, #Ircv_1_2_2, #Ircv_1_2_3, #Ircv_1_3_1, #Ircv_1_3_2, #Ircv_1_3_3, #Ircv_2_0_1, #Ircv_2_0_2, #Ircv_2_0_3, #IbarP_1, #IbarP_2, #IbarP_3, #IrcvP_0_0_1, #IrcvP_0_0_2, #IrcvP_0_0_3, #IrcvP_0_1_1, #IrcvP_0_1_2, #IrcvP_0_1_3, #IrcvP_0_2_1, #IrcvP_0_2_2, #IrcvP_0_2_3, #IrcvP_0_3_1, #IrcvP_0_3_2, #IrcvP_0_3_3, #IrcvP_1_0_1, #IrcvP_1_0_2, #IrcvP_1_0_3, #IrcvP_1_1_1, #IrcvP_1_1_2, #IrcvP_1_1_3, #IrcvP_1_2_1, #IrcvP_1_2_2, #IrcvP_1_2_3, #IrcvP_1_3_1, #IrcvP_1_3_2, #IrcvP_1_3_3, #IrcvP_2_0_1, #IrcvP_2_0_2, #IrcvP_2_0_3, #RbarP_1, #RbarP_2, #RbarP_3, #Rsnd_0_0_1, #Rsnd_0_0_2, #Rsnd_0_0_3, #Rsnd_0_1_1, #Rsnd_0_1_2, #Rsnd_0_1_3, #Rsnd_0_2_1, #Rsnd_0_2_2, #Rsnd_0_2_3, #Rsnd_0_3_1, #Rsnd_0_3_2, #Rsnd_0_3_3, #Rsnd_1_0_1, #Rsnd_1_0_2, #Rsnd_1_0_3, #Rsnd_1_1_1, #Rsnd_1_1_2, #Rsnd_1_1_3, #Rsnd_1_2_1, #Rsnd_1_2_2, #Rsnd_1_2_3, #Rsnd_1_3_1, #Rsnd_1_3_2, #Rsnd_1_3_3, #Rsnd_2_0_1, #Rsnd_2_0_2, #Rsnd_2_0_3, #RrcvP_0_0_1, #RrcvP_0_0_2, #RrcvP_0_0_3, #RrcvP_0_1_1, #RrcvP_0_1_2, #RrcvP_0_1_3, #RrcvP_0_2_1, #RrcvP_0_2_2, #RrcvP_0_2_3, #RrcvP_0_3_1, #RrcvP_0_3_2, #RrcvP_0_3_3, #RrcvP_1_0_1, #RrcvP_1_0_2, #RrcvP_1_0_3, #RrcvP_1_1_1, #RrcvP_1_1_2, #RrcvP_1_1_3, #RrcvP_1_2_1, #RrcvP_1_2_2, #RrcvP_1_2_3, #RrcvP_1_3_1, #RrcvP_1_3_2, #RrcvP_1_3_3, #RrcvP_2_0_1, #RrcvP_2_0_2, #RrcvP_2_0_3, #Hlev, Abar, Asnd_0_0_1, Asnd_0_0_2, Asnd_0_0_3, Asnd_0_1_1, Asnd_0_1_2, Asnd_0_1_3, Asnd_0_2_1, Asnd_0_2_2, Asnd_0_2_3, Asnd_0_3_1, Asnd_0_3_2, Asnd_0_3_3, Asnd_1_0_1, Asnd_1_0_2, Asnd_1_0_3, Asnd_1_1_1, Asnd_1_1_2, Asnd_1_1_3, Asnd_1_2_1, Asnd_1_2_2, Asnd_1_2_3, Asnd_1_3_1, Asnd_1_3_2, Asnd_1_3_3, Asnd_2_0_1, Asnd_2_0_2, Asnd_2_0_3, Arcv_0_0_1, Arcv_0_0_2, Arcv_0_0_3, Arcv_0_1_1, Arcv_0_1_2, Arcv_0_1_3, Arcv_0_2_1, Arcv_0_2_2, Arcv_0_2_3, Arcv_0_3_1, Arcv_0_3_2, Arcv_0_3_3, Arcv_1_0_1, Arcv_1_0_2, Arcv_1_0_3, Arcv_1_1_1, Arcv_1_1_2, Arcv_1_1_3, Arcv_1_2_1, Arcv_1_2_2, Arcv_1_2_3, Arcv_1_3_1, Arcv_1_3_2, Arcv_1_3_3, Arcv_2_0_1, Arcv_2_0_2, Arcv_2_0_3, TbarP_1, TbarP_2, TbarP_3, HT, Cbar, Crcv_0_0_1, Crcv_0_0_2, Crcv_0_0_3, Crcv_0_1_1, Crcv_0_1_2, Crcv_0_1_3, Crcv_0_2_1, Crcv_0_2_2, Crcv_0_2_3, Crcv_0_3_1, Crcv_0_3_2, Crcv_0_3_3, Crcv_1_0_1, Crcv_1_0_2, Crcv_1_0_3, Crcv_1_1_1, Crcv_1_1_2, Crcv_1_1_3, Crcv_1_2_1, Crcv_1_2_2, Crcv_1_2_3, Crcv_1_3_1, Crcv_1_3_2, Crcv_1_3_3, Crcv_2_0_1, Crcv_2_0_2, Crcv_2_0_3, S_0_0_0, S_0_0_1, S_0_0_2, S_0_0_3, S_0_1_0, S_0_1_1, S_0_1_2, S_0_1_3, S_0_2_0, S_0_2_1, S_0_2_2, S_0_2_3, S_0_3_0, S_0_3_1, S_0_3_2, S_0_3_3, S_1_0_0, S_1_0_1, S_1_0_2, S_1_0_3, S_1_1_0, S_1_1_1, S_1_1_2, S_1_1_3, S_1_2_0, S_1_2_1, S_1_2_2, S_1_2_3, S_1_3_0, S_1_3_1, S_1_3_2, S_1_3_3, RS_0_0, RS_0_1, RS_0_2, RS_0_3, RS_1_0, RS_1_1, RS_1_2, RS_1_3, G0, G1, G2, G3, G4, G5, G6, G7, HO⟩, Hk⟩
  have hled := fun (sm : SemLoc sig) (n : ℕ) (hn : n ≤ 27) (h : ∀ d : Dev nD, lv ((d : Thread nD τ), sm) () < lvLeft n) => mayWait_left_all (F := F) c sm n hn h
  sl_exec_parts
  iapply (Rounds.wp_signal 𝒱₀ ER (Rd (valF m ρ) jkF jrF) (c : Thread nD τ) none (dst := (pe c 1 : Thread nD τ)) (κ := K (barCell (pe c 1)))
      (d := (1 : Fin 4)) (by rw [duties_bar]; decide) ((amount_bar (valF m ρ) jkF jrF (pe c 1) 1).trans (by decide)) () _ rfl)
    $$ [HO TbarP_1 S_0_0_3 S_0_1_3 S_0_2_3 S_0_3_3 S_1_0_3 S_1_1_3 S_1_2_3 S_1_3_3 RS_1_3]
  · isplitr; · iexact IbarP_1
    isplitl [HO]; · iexact HO
    isplitl [TbarP_1]; · iexact TbarP_1
    isplitl [S_0_0_3 S_0_1_3 S_0_2_3 S_0_3_3 S_1_0_3 S_1_1_3 S_1_2_3 S_1_3_3 RS_1_3]
    · rw [payload_pay1]
      isplitl [S_0_0_3]; · iexists f0; iexact S_0_0_3
      isplitl [S_0_1_3]; · iexists f0; iexact S_0_1_3
      isplitl [S_0_2_3]; · iexists f0; iexact S_0_2_3
      isplitl [S_0_3_3]; · iexists f0; iexact S_0_3_3
      isplitl [S_1_0_3]; · iexists f0; iexact S_1_0_3
      isplitl [S_1_1_3]; · iexists f0; iexact S_1_1_3
      isplitl [S_1_2_3]; · iexists f0; iexact S_1_2_3
      isplitl [S_1_3_3]; · iexists f0; iexact S_1_3_3
      iexists f1; iexact RS_1_3
    iexact RbarP_1
  iintro HO
  sl_exec_parts
  iapply (Rounds.wp_signal 𝒱₀ ER (Rd (valF m ρ) jkF jrF) (c : Thread nD τ) none (dst := (pe c 2 : Thread nD τ)) (κ := K (barCell (pe c 2)))
      (d := (2 : Fin 4)) (by rw [duties_bar]; decide) ((amount_bar (valF m ρ) jkF jrF (pe c 2) 2).trans (by decide)) () _ rfl)
    $$ [HO TbarP_2 S_0_0_2 S_0_1_2 S_0_2_2 S_0_3_2 S_1_0_2 S_1_1_2 S_1_2_2 S_1_3_2 RS_1_2]
  · isplitr; · iexact IbarP_2
    isplitl [HO]; · iexact HO
    isplitl [TbarP_2]; · iexact TbarP_2
    isplitl [S_0_0_2 S_0_1_2 S_0_2_2 S_0_3_2 S_1_0_2 S_1_1_2 S_1_2_2 S_1_3_2 RS_1_2]
    · rw [payload_pay2]
      isplitl [S_0_0_2]; · iexists f0; iexact S_0_0_2
      isplitl [S_0_1_2]; · iexists f0; iexact S_0_1_2
      isplitl [S_0_2_2]; · iexists f0; iexact S_0_2_2
      isplitl [S_0_3_2]; · iexists f0; iexact S_0_3_2
      isplitl [S_1_0_2]; · iexists f0; iexact S_1_0_2
      isplitl [S_1_1_2]; · iexists f0; iexact S_1_1_2
      isplitl [S_1_2_2]; · iexists f0; iexact S_1_2_2
      isplitl [S_1_3_2]; · iexists f0; iexact S_1_3_2
      iexists f1; iexact RS_1_2
    iexact RbarP_2
  iintro HO
  sl_exec_parts
  iapply (Rounds.wp_signal 𝒱₀ ER (Rd (valF m ρ) jkF jrF) (c : Thread nD τ) none (dst := (pe c 3 : Thread nD τ)) (κ := K (barCell (pe c 3)))
      (d := (3 : Fin 4)) (by rw [duties_bar]; decide) ((amount_bar (valF m ρ) jkF jrF (pe c 3) 3).trans (by decide)) () _ rfl)
    $$ [HO TbarP_3 S_0_0_1 S_0_1_1 S_0_2_1 S_0_3_1 S_1_0_1 S_1_1_1 S_1_2_1 S_1_3_1 RS_1_1]
  · isplitr; · iexact IbarP_3
    isplitl [HO]; · iexact HO
    isplitl [TbarP_3]; · iexact TbarP_3
    isplitl [S_0_0_1 S_0_1_1 S_0_2_1 S_0_3_1 S_1_0_1 S_1_1_1 S_1_2_1 S_1_3_1 RS_1_1]
    · rw [payload_pay3]
      isplitl [S_0_0_1]; · iexists f0; iexact S_0_0_1
      isplitl [S_0_1_1]; · iexists f0; iexact S_0_1_1
      isplitl [S_0_2_1]; · iexists f0; iexact S_0_2_1
      isplitl [S_0_3_1]; · iexists f0; iexact S_0_3_1
      isplitl [S_1_0_1]; · iexists f0; iexact S_1_0_1
      isplitl [S_1_1_1]; · iexists f0; iexact S_1_1_1
      isplitl [S_1_2_1]; · iexists f0; iexact S_1_2_1
      isplitl [S_1_3_1]; · iexists f0; iexact S_1_3_1
      iexists f1; iexact RS_1_1
    iexact RbarP_3
  iintro HO
  adv
  ihave HB := (show ∀ A B C : sProp 𝕄, BI.sep A (BI.sep B C) ⊢ iprop(A ∗ B ∗ C) from fun _ _ _ => BI.Entails.refl _) _ _ _ $$ Abar_pay1
  icases HB with ⟨HB1, HB2, HB3⟩
  icases HB1 with ⟨⟨%fd_0_0_3, D_0_0_3⟩, ⟨%fd_0_1_3, D_0_1_3⟩, ⟨%fd_0_2_3, D_0_2_3⟩, ⟨%fd_0_3_3, D_0_3_3⟩, ⟨%fd_1_0_3, D_1_0_3⟩, ⟨%fd_1_1_3, D_1_1_3⟩, ⟨%fd_1_2_3, D_1_2_3⟩, ⟨%fd_1_3_3, D_1_3_3⟩, ⟨%fd_2_0_3, D_2_0_3⟩⟩
  icases HB2 with ⟨⟨%fd_0_0_2, D_0_0_2⟩, ⟨%fd_0_1_2, D_0_1_2⟩, ⟨%fd_0_2_2, D_0_2_2⟩, ⟨%fd_0_3_2, D_0_3_2⟩, ⟨%fd_1_0_2, D_1_0_2⟩, ⟨%fd_1_1_2, D_1_1_2⟩, ⟨%fd_1_2_2, D_1_2_2⟩, ⟨%fd_1_3_2, D_1_3_2⟩, ⟨%fd_2_0_2, D_2_0_2⟩⟩
  icases HB3 with ⟨⟨%fd_0_0_1, D_0_0_1⟩, ⟨%fd_0_1_1, D_0_1_1⟩, ⟨%fd_0_2_1, D_0_2_1⟩, ⟨%fd_0_3_1, D_0_3_1⟩, ⟨%fd_1_0_1, D_1_0_1⟩, ⟨%fd_1_1_1, D_1_1_1⟩, ⟨%fd_1_2_1, D_1_2_1⟩, ⟨%fd_1_3_1, D_1_3_1⟩, ⟨%fd_2_0_1, D_2_0_1⟩⟩
  -- copy 27: block (0, 0) to slot 2 of the device 2 ahead
  have hfs_0_0 := L0_0 m ρ c f0
  icases (Entails.of_eq (show toksLeft (F := F) c 27 = iprop((dutyTok ER ((c : Thread nD τ), SemLoc.dma (sndS 0 0 2 inb_S3x4x4_S1x1x1_0_0_2)) 0 (0 : Fin 4) ∗ dutyTok ER (((pe c 2) : Thread nD τ), SemLoc.dma (rcvS 0 0 2 inb_S3x4x4_S1x1x1_0_0_2)) 0 (0 : Fin 4)) ∗ toksLeft c 26) from rfl)) $$ HT with ⟨⟨Hts, Htr⟩, HT⟩
  icases (owes_congr (F := F) (show owesLeft c 27 = owesLeft c 26 + tallyAt (((pe c 2) : Thread nD τ), SemLoc.dma (rcvS 0 0 2 inb_S3x4x4_S1x1x1_0_0_2)) () N from rfl)) $$ HO with HO
  icases (share_split4 _ _).1 $$ S_0_0_0 with ⟨S_0_0_0, S_0_0_0_t0, S_0_0_0_t1, S_0_0_0_t2⟩
  iapply (wp_sendTo_0_0_2 (valF m ρ) jkF jrF K c _ (dev4_eq c) _ _ ?hfs_27 (owesLeft c 26) _) $$ [S_0_0_0_t1 D_0_0_2 HO Hts Htr]
  pick_goal 2
  · isplitr; · iexact Isnd_0_0_2
    isplitr; · iexact IrcvP_0_0_2
    isplitl [S_0_0_0_t1]; · iexact S_0_0_0_t1
    isplitl [D_0_0_2]; · iexact D_0_0_2
    isplitl [HO]; · iexact HO
    isplitl [Hts]; · iexact Hts
    isplitr; · iexact Rsnd_0_0_2
    isplitl [Htr]; · iexact Htr
    iexact RrcvP_0_0_2
  case hfs_27 => exact hfs_0_0
  iintro ⟨Csnd_0_0_2, HO⟩
  -- copy 26: block (0, 0) to slot 1 of the device 1 ahead
  adv
  icases (Entails.of_eq (show toksLeft (F := F) c 26 = iprop((dutyTok ER ((c : Thread nD τ), SemLoc.dma (sndS 0 0 1 inb_S3x4x4_S1x1x1_0_0_1)) 0 (0 : Fin 4) ∗ dutyTok ER (((pe c 1) : Thread nD τ), SemLoc.dma (rcvS 0 0 1 inb_S3x4x4_S1x1x1_0_0_1)) 0 (0 : Fin 4)) ∗ toksLeft c 25) from rfl)) $$ HT with ⟨⟨Hts, Htr⟩, HT⟩
  icases (owes_congr (F := F) (show owesLeft c 26 = owesLeft c 25 + tallyAt (((pe c 1) : Thread nD τ), SemLoc.dma (rcvS 0 0 1 inb_S3x4x4_S1x1x1_0_0_1)) () N from rfl)) $$ HO with HO
  iapply (wp_sendTo_0_0_1 (valF m ρ) jkF jrF K c _ (dev5_eq c) _ _ ?hfs_26 (owesLeft c 25) _) $$ [S_0_0_0_t0 D_0_0_1 HO Hts Htr]
  pick_goal 2
  · isplitr; · iexact Isnd_0_0_1
    isplitr; · iexact IrcvP_0_0_1
    isplitl [S_0_0_0_t0]; · iexact S_0_0_0_t0
    isplitl [D_0_0_1]; · iexact D_0_0_1
    isplitl [HO]; · iexact HO
    isplitl [Hts]; · iexact Hts
    isplitr; · iexact Rsnd_0_0_1
    isplitl [Htr]; · iexact Htr
    iexact RrcvP_0_0_1
  case hfs_26 => exact hfs_0_0
  iintro ⟨Csnd_0_0_1, HO⟩
  -- copy 25: block (0, 0) to slot 3 of the device 3 ahead
  adv
  icases (Entails.of_eq (show toksLeft (F := F) c 25 = iprop((dutyTok ER ((c : Thread nD τ), SemLoc.dma (sndS 0 0 3 inb_S3x4x4_S1x1x1_0_0_3)) 0 (0 : Fin 4) ∗ dutyTok ER (((pe c 3) : Thread nD τ), SemLoc.dma (rcvS 0 0 3 inb_S3x4x4_S1x1x1_0_0_3)) 0 (0 : Fin 4)) ∗ toksLeft c 24) from rfl)) $$ HT with ⟨⟨Hts, Htr⟩, HT⟩
  icases (owes_congr (F := F) (show owesLeft c 25 = owesLeft c 24 + tallyAt (((pe c 3) : Thread nD τ), SemLoc.dma (rcvS 0 0 3 inb_S3x4x4_S1x1x1_0_0_3)) () N from rfl)) $$ HO with HO
  iapply (wp_sendTo_0_0_3 (valF m ρ) jkF jrF K c _ (dev6_eq c) _ _ ?hfs_25 (owesLeft c 24) _) $$ [S_0_0_0_t2 D_0_0_3 HO Hts Htr]
  pick_goal 2
  · isplitr; · iexact Isnd_0_0_3
    isplitr; · iexact IrcvP_0_0_3
    isplitl [S_0_0_0_t2]; · iexact S_0_0_0_t2
    isplitl [D_0_0_3]; · iexact D_0_0_3
    isplitl [HO]; · iexact HO
    isplitl [Hts]; · iexact Hts
    isplitr; · iexact Rsnd_0_0_3
    isplitl [Htr]; · iexact Htr
    iexact RrcvP_0_0_3
  case hfs_25 => exact hfs_0_0
  iintro ⟨Csnd_0_0_3, HO⟩
  -- copy 24: block (0, 1) to slot 2 of the device 2 ahead
  adv
  have hfs_0_1 := L0_1 m ρ c f0
  icases (Entails.of_eq (show toksLeft (F := F) c 24 = iprop((dutyTok ER ((c : Thread nD τ), SemLoc.dma (sndS 0 1 2 inb_S3x4x4_S1x1x1_0_1_2)) 0 (0 : Fin 4) ∗ dutyTok ER (((pe c 2) : Thread nD τ), SemLoc.dma (rcvS 0 1 2 inb_S3x4x4_S1x1x1_0_1_2)) 0 (0 : Fin 4)) ∗ toksLeft c 23) from rfl)) $$ HT with ⟨⟨Hts, Htr⟩, HT⟩
  icases (owes_congr (F := F) (show owesLeft c 24 = owesLeft c 23 + tallyAt (((pe c 2) : Thread nD τ), SemLoc.dma (rcvS 0 1 2 inb_S3x4x4_S1x1x1_0_1_2)) () N from rfl)) $$ HO with HO
  icases (share_split4 _ _).1 $$ S_0_1_0 with ⟨S_0_1_0, S_0_1_0_t0, S_0_1_0_t1, S_0_1_0_t2⟩
  iapply (wp_sendTo_0_1_2 (valF m ρ) jkF jrF K c _ (dev7_eq c) _ _ ?hfs_24 (owesLeft c 23) _) $$ [S_0_1_0_t1 D_0_1_2 HO Hts Htr]
  pick_goal 2
  · isplitr; · iexact Isnd_0_1_2
    isplitr; · iexact IrcvP_0_1_2
    isplitl [S_0_1_0_t1]; · iexact S_0_1_0_t1
    isplitl [D_0_1_2]; · iexact D_0_1_2
    isplitl [HO]; · iexact HO
    isplitl [Hts]; · iexact Hts
    isplitr; · iexact Rsnd_0_1_2
    isplitl [Htr]; · iexact Htr
    iexact RrcvP_0_1_2
  case hfs_24 => exact hfs_0_1
  iintro ⟨Csnd_0_1_2, HO⟩
  -- copy 23: block (0, 1) to slot 1 of the device 1 ahead
  adv
  icases (Entails.of_eq (show toksLeft (F := F) c 23 = iprop((dutyTok ER ((c : Thread nD τ), SemLoc.dma (sndS 0 1 1 inb_S3x4x4_S1x1x1_0_1_1)) 0 (0 : Fin 4) ∗ dutyTok ER (((pe c 1) : Thread nD τ), SemLoc.dma (rcvS 0 1 1 inb_S3x4x4_S1x1x1_0_1_1)) 0 (0 : Fin 4)) ∗ toksLeft c 22) from rfl)) $$ HT with ⟨⟨Hts, Htr⟩, HT⟩
  icases (owes_congr (F := F) (show owesLeft c 23 = owesLeft c 22 + tallyAt (((pe c 1) : Thread nD τ), SemLoc.dma (rcvS 0 1 1 inb_S3x4x4_S1x1x1_0_1_1)) () N from rfl)) $$ HO with HO
  iapply (wp_sendTo_0_1_1 (valF m ρ) jkF jrF K c _ (dev8_eq c) _ _ ?hfs_23 (owesLeft c 22) _) $$ [S_0_1_0_t0 D_0_1_1 HO Hts Htr]
  pick_goal 2
  · isplitr; · iexact Isnd_0_1_1
    isplitr; · iexact IrcvP_0_1_1
    isplitl [S_0_1_0_t0]; · iexact S_0_1_0_t0
    isplitl [D_0_1_1]; · iexact D_0_1_1
    isplitl [HO]; · iexact HO
    isplitl [Hts]; · iexact Hts
    isplitr; · iexact Rsnd_0_1_1
    isplitl [Htr]; · iexact Htr
    iexact RrcvP_0_1_1
  case hfs_23 => exact hfs_0_1
  iintro ⟨Csnd_0_1_1, HO⟩
  -- copy 22: block (0, 1) to slot 3 of the device 3 ahead
  adv
  icases (Entails.of_eq (show toksLeft (F := F) c 22 = iprop((dutyTok ER ((c : Thread nD τ), SemLoc.dma (sndS 0 1 3 inb_S3x4x4_S1x1x1_0_1_3)) 0 (0 : Fin 4) ∗ dutyTok ER (((pe c 3) : Thread nD τ), SemLoc.dma (rcvS 0 1 3 inb_S3x4x4_S1x1x1_0_1_3)) 0 (0 : Fin 4)) ∗ toksLeft c 21) from rfl)) $$ HT with ⟨⟨Hts, Htr⟩, HT⟩
  icases (owes_congr (F := F) (show owesLeft c 22 = owesLeft c 21 + tallyAt (((pe c 3) : Thread nD τ), SemLoc.dma (rcvS 0 1 3 inb_S3x4x4_S1x1x1_0_1_3)) () N from rfl)) $$ HO with HO
  iapply (wp_sendTo_0_1_3 (valF m ρ) jkF jrF K c _ (dev9_eq c) _ _ ?hfs_22 (owesLeft c 21) _) $$ [S_0_1_0_t2 D_0_1_3 HO Hts Htr]
  pick_goal 2
  · isplitr; · iexact Isnd_0_1_3
    isplitr; · iexact IrcvP_0_1_3
    isplitl [S_0_1_0_t2]; · iexact S_0_1_0_t2
    isplitl [D_0_1_3]; · iexact D_0_1_3
    isplitl [HO]; · iexact HO
    isplitl [Hts]; · iexact Hts
    isplitr; · iexact Rsnd_0_1_3
    isplitl [Htr]; · iexact Htr
    iexact RrcvP_0_1_3
  case hfs_22 => exact hfs_0_1
  iintro ⟨Csnd_0_1_3, HO⟩
  -- copy 21: block (0, 2) to slot 2 of the device 2 ahead
  adv
  have hfs_0_2 := L0_2 m ρ c f0
  icases (Entails.of_eq (show toksLeft (F := F) c 21 = iprop((dutyTok ER ((c : Thread nD τ), SemLoc.dma (sndS 0 2 2 inb_S3x4x4_S1x1x1_0_2_2)) 0 (0 : Fin 4) ∗ dutyTok ER (((pe c 2) : Thread nD τ), SemLoc.dma (rcvS 0 2 2 inb_S3x4x4_S1x1x1_0_2_2)) 0 (0 : Fin 4)) ∗ toksLeft c 20) from rfl)) $$ HT with ⟨⟨Hts, Htr⟩, HT⟩
  icases (owes_congr (F := F) (show owesLeft c 21 = owesLeft c 20 + tallyAt (((pe c 2) : Thread nD τ), SemLoc.dma (rcvS 0 2 2 inb_S3x4x4_S1x1x1_0_2_2)) () N from rfl)) $$ HO with HO
  icases (share_split4 _ _).1 $$ S_0_2_0 with ⟨S_0_2_0, S_0_2_0_t0, S_0_2_0_t1, S_0_2_0_t2⟩
  iapply (wp_sendTo_0_2_2 (valF m ρ) jkF jrF K c _ (dev10_eq c) _ _ ?hfs_21 (owesLeft c 20) _) $$ [S_0_2_0_t1 D_0_2_2 HO Hts Htr]
  pick_goal 2
  · isplitr; · iexact Isnd_0_2_2
    isplitr; · iexact IrcvP_0_2_2
    isplitl [S_0_2_0_t1]; · iexact S_0_2_0_t1
    isplitl [D_0_2_2]; · iexact D_0_2_2
    isplitl [HO]; · iexact HO
    isplitl [Hts]; · iexact Hts
    isplitr; · iexact Rsnd_0_2_2
    isplitl [Htr]; · iexact Htr
    iexact RrcvP_0_2_2
  case hfs_21 => exact hfs_0_2
  iintro ⟨Csnd_0_2_2, HO⟩
  -- copy 20: block (0, 2) to slot 1 of the device 1 ahead
  adv
  icases (Entails.of_eq (show toksLeft (F := F) c 20 = iprop((dutyTok ER ((c : Thread nD τ), SemLoc.dma (sndS 0 2 1 inb_S3x4x4_S1x1x1_0_2_1)) 0 (0 : Fin 4) ∗ dutyTok ER (((pe c 1) : Thread nD τ), SemLoc.dma (rcvS 0 2 1 inb_S3x4x4_S1x1x1_0_2_1)) 0 (0 : Fin 4)) ∗ toksLeft c 19) from rfl)) $$ HT with ⟨⟨Hts, Htr⟩, HT⟩
  icases (owes_congr (F := F) (show owesLeft c 20 = owesLeft c 19 + tallyAt (((pe c 1) : Thread nD τ), SemLoc.dma (rcvS 0 2 1 inb_S3x4x4_S1x1x1_0_2_1)) () N from rfl)) $$ HO with HO
  iapply (wp_sendTo_0_2_1 (valF m ρ) jkF jrF K c _ (dev11_eq c) _ _ ?hfs_20 (owesLeft c 19) _) $$ [S_0_2_0_t0 D_0_2_1 HO Hts Htr]
  pick_goal 2
  · isplitr; · iexact Isnd_0_2_1
    isplitr; · iexact IrcvP_0_2_1
    isplitl [S_0_2_0_t0]; · iexact S_0_2_0_t0
    isplitl [D_0_2_1]; · iexact D_0_2_1
    isplitl [HO]; · iexact HO
    isplitl [Hts]; · iexact Hts
    isplitr; · iexact Rsnd_0_2_1
    isplitl [Htr]; · iexact Htr
    iexact RrcvP_0_2_1
  case hfs_20 => exact hfs_0_2
  iintro ⟨Csnd_0_2_1, HO⟩
  -- copy 19: block (0, 2) to slot 3 of the device 3 ahead
  adv
  icases (Entails.of_eq (show toksLeft (F := F) c 19 = iprop((dutyTok ER ((c : Thread nD τ), SemLoc.dma (sndS 0 2 3 inb_S3x4x4_S1x1x1_0_2_3)) 0 (0 : Fin 4) ∗ dutyTok ER (((pe c 3) : Thread nD τ), SemLoc.dma (rcvS 0 2 3 inb_S3x4x4_S1x1x1_0_2_3)) 0 (0 : Fin 4)) ∗ toksLeft c 18) from rfl)) $$ HT with ⟨⟨Hts, Htr⟩, HT⟩
  icases (owes_congr (F := F) (show owesLeft c 19 = owesLeft c 18 + tallyAt (((pe c 3) : Thread nD τ), SemLoc.dma (rcvS 0 2 3 inb_S3x4x4_S1x1x1_0_2_3)) () N from rfl)) $$ HO with HO
  iapply (wp_sendTo_0_2_3 (valF m ρ) jkF jrF K c _ (dev12_eq c) _ _ ?hfs_19 (owesLeft c 18) _) $$ [S_0_2_0_t2 D_0_2_3 HO Hts Htr]
  pick_goal 2
  · isplitr; · iexact Isnd_0_2_3
    isplitr; · iexact IrcvP_0_2_3
    isplitl [S_0_2_0_t2]; · iexact S_0_2_0_t2
    isplitl [D_0_2_3]; · iexact D_0_2_3
    isplitl [HO]; · iexact HO
    isplitl [Hts]; · iexact Hts
    isplitr; · iexact Rsnd_0_2_3
    isplitl [Htr]; · iexact Htr
    iexact RrcvP_0_2_3
  case hfs_19 => exact hfs_0_2
  iintro ⟨Csnd_0_2_3, HO⟩
  -- copy 18: block (0, 3) to slot 2 of the device 2 ahead
  adv
  have hfs_0_3 := L0_3 m ρ c f0
  icases (Entails.of_eq (show toksLeft (F := F) c 18 = iprop((dutyTok ER ((c : Thread nD τ), SemLoc.dma (sndS 0 3 2 inb_S3x4x4_S1x1x1_0_3_2)) 0 (0 : Fin 4) ∗ dutyTok ER (((pe c 2) : Thread nD τ), SemLoc.dma (rcvS 0 3 2 inb_S3x4x4_S1x1x1_0_3_2)) 0 (0 : Fin 4)) ∗ toksLeft c 17) from rfl)) $$ HT with ⟨⟨Hts, Htr⟩, HT⟩
  icases (owes_congr (F := F) (show owesLeft c 18 = owesLeft c 17 + tallyAt (((pe c 2) : Thread nD τ), SemLoc.dma (rcvS 0 3 2 inb_S3x4x4_S1x1x1_0_3_2)) () N from rfl)) $$ HO with HO
  icases (share_split4 _ _).1 $$ S_0_3_0 with ⟨S_0_3_0, S_0_3_0_t0, S_0_3_0_t1, S_0_3_0_t2⟩
  iapply (wp_sendTo_0_3_2 (valF m ρ) jkF jrF K c _ (dev13_eq c) _ _ ?hfs_18 (owesLeft c 17) _) $$ [S_0_3_0_t1 D_0_3_2 HO Hts Htr]
  pick_goal 2
  · isplitr; · iexact Isnd_0_3_2
    isplitr; · iexact IrcvP_0_3_2
    isplitl [S_0_3_0_t1]; · iexact S_0_3_0_t1
    isplitl [D_0_3_2]; · iexact D_0_3_2
    isplitl [HO]; · iexact HO
    isplitl [Hts]; · iexact Hts
    isplitr; · iexact Rsnd_0_3_2
    isplitl [Htr]; · iexact Htr
    iexact RrcvP_0_3_2
  case hfs_18 => exact hfs_0_3
  iintro ⟨Csnd_0_3_2, HO⟩
  -- copy 17: block (0, 3) to slot 1 of the device 1 ahead
  adv
  icases (Entails.of_eq (show toksLeft (F := F) c 17 = iprop((dutyTok ER ((c : Thread nD τ), SemLoc.dma (sndS 0 3 1 inb_S3x4x4_S1x1x1_0_3_1)) 0 (0 : Fin 4) ∗ dutyTok ER (((pe c 1) : Thread nD τ), SemLoc.dma (rcvS 0 3 1 inb_S3x4x4_S1x1x1_0_3_1)) 0 (0 : Fin 4)) ∗ toksLeft c 16) from rfl)) $$ HT with ⟨⟨Hts, Htr⟩, HT⟩
  icases (owes_congr (F := F) (show owesLeft c 17 = owesLeft c 16 + tallyAt (((pe c 1) : Thread nD τ), SemLoc.dma (rcvS 0 3 1 inb_S3x4x4_S1x1x1_0_3_1)) () N from rfl)) $$ HO with HO
  iapply (wp_sendTo_0_3_1 (valF m ρ) jkF jrF K c _ (dev14_eq c) _ _ ?hfs_17 (owesLeft c 16) _) $$ [S_0_3_0_t0 D_0_3_1 HO Hts Htr]
  pick_goal 2
  · isplitr; · iexact Isnd_0_3_1
    isplitr; · iexact IrcvP_0_3_1
    isplitl [S_0_3_0_t0]; · iexact S_0_3_0_t0
    isplitl [D_0_3_1]; · iexact D_0_3_1
    isplitl [HO]; · iexact HO
    isplitl [Hts]; · iexact Hts
    isplitr; · iexact Rsnd_0_3_1
    isplitl [Htr]; · iexact Htr
    iexact RrcvP_0_3_1
  case hfs_17 => exact hfs_0_3
  iintro ⟨Csnd_0_3_1, HO⟩
  -- copy 16: block (0, 3) to slot 3 of the device 3 ahead
  adv
  icases (Entails.of_eq (show toksLeft (F := F) c 16 = iprop((dutyTok ER ((c : Thread nD τ), SemLoc.dma (sndS 0 3 3 inb_S3x4x4_S1x1x1_0_3_3)) 0 (0 : Fin 4) ∗ dutyTok ER (((pe c 3) : Thread nD τ), SemLoc.dma (rcvS 0 3 3 inb_S3x4x4_S1x1x1_0_3_3)) 0 (0 : Fin 4)) ∗ toksLeft c 15) from rfl)) $$ HT with ⟨⟨Hts, Htr⟩, HT⟩
  icases (owes_congr (F := F) (show owesLeft c 16 = owesLeft c 15 + tallyAt (((pe c 3) : Thread nD τ), SemLoc.dma (rcvS 0 3 3 inb_S3x4x4_S1x1x1_0_3_3)) () N from rfl)) $$ HO with HO
  iapply (wp_sendTo_0_3_3 (valF m ρ) jkF jrF K c _ (dev15_eq c) _ _ ?hfs_16 (owesLeft c 15) _) $$ [S_0_3_0_t2 D_0_3_3 HO Hts Htr]
  pick_goal 2
  · isplitr; · iexact Isnd_0_3_3
    isplitr; · iexact IrcvP_0_3_3
    isplitl [S_0_3_0_t2]; · iexact S_0_3_0_t2
    isplitl [D_0_3_3]; · iexact D_0_3_3
    isplitl [HO]; · iexact HO
    isplitl [Hts]; · iexact Hts
    isplitr; · iexact Rsnd_0_3_3
    isplitl [Htr]; · iexact Htr
    iexact RrcvP_0_3_3
  case hfs_16 => exact hfs_0_3
  iintro ⟨Csnd_0_3_3, HO⟩
  -- copy 15: block (1, 0) to slot 2 of the device 2 ahead
  adv
  have hfs_1_0 := L1d_0 m ρ c f0
  icases (Entails.of_eq (show toksLeft (F := F) c 15 = iprop((dutyTok ER ((c : Thread nD τ), SemLoc.dma (sndS 1 0 2 inb_S3x4x4_S1x1x1_1_0_2)) 0 (0 : Fin 4) ∗ dutyTok ER (((pe c 2) : Thread nD τ), SemLoc.dma (rcvS 1 0 2 inb_S3x4x4_S1x1x1_1_0_2)) 0 (0 : Fin 4)) ∗ toksLeft c 14) from rfl)) $$ HT with ⟨⟨Hts, Htr⟩, HT⟩
  icases (owes_congr (F := F) (show owesLeft c 15 = owesLeft c 14 + tallyAt (((pe c 2) : Thread nD τ), SemLoc.dma (rcvS 1 0 2 inb_S3x4x4_S1x1x1_1_0_2)) () N from rfl)) $$ HO with HO
  icases (share_split4 _ _).1 $$ S_1_0_0 with ⟨S_1_0_0, S_1_0_0_t0, S_1_0_0_t1, S_1_0_0_t2⟩
  iapply (wp_sendTo_1_0_2 (valF m ρ) jkF jrF K c _ (dev16_eq c) _ _ ?hfs_15 (owesLeft c 14) _) $$ [S_1_0_0_t1 D_1_0_2 HO Hts Htr]
  pick_goal 2
  · isplitr; · iexact Isnd_1_0_2
    isplitr; · iexact IrcvP_1_0_2
    isplitl [S_1_0_0_t1]; · iexact S_1_0_0_t1
    isplitl [D_1_0_2]; · iexact D_1_0_2
    isplitl [HO]; · iexact HO
    isplitl [Hts]; · iexact Hts
    isplitr; · iexact Rsnd_1_0_2
    isplitl [Htr]; · iexact Htr
    iexact RrcvP_1_0_2
  case hfs_15 => exact hfs_1_0
  iintro ⟨Csnd_1_0_2, HO⟩
  -- copy 14: block (1, 0) to slot 1 of the device 1 ahead
  adv
  icases (Entails.of_eq (show toksLeft (F := F) c 14 = iprop((dutyTok ER ((c : Thread nD τ), SemLoc.dma (sndS 1 0 1 inb_S3x4x4_S1x1x1_1_0_1)) 0 (0 : Fin 4) ∗ dutyTok ER (((pe c 1) : Thread nD τ), SemLoc.dma (rcvS 1 0 1 inb_S3x4x4_S1x1x1_1_0_1)) 0 (0 : Fin 4)) ∗ toksLeft c 13) from rfl)) $$ HT with ⟨⟨Hts, Htr⟩, HT⟩
  icases (owes_congr (F := F) (show owesLeft c 14 = owesLeft c 13 + tallyAt (((pe c 1) : Thread nD τ), SemLoc.dma (rcvS 1 0 1 inb_S3x4x4_S1x1x1_1_0_1)) () N from rfl)) $$ HO with HO
  iapply (wp_sendTo_1_0_1 (valF m ρ) jkF jrF K c _ (dev17_eq c) _ _ ?hfs_14 (owesLeft c 13) _) $$ [S_1_0_0_t0 D_1_0_1 HO Hts Htr]
  pick_goal 2
  · isplitr; · iexact Isnd_1_0_1
    isplitr; · iexact IrcvP_1_0_1
    isplitl [S_1_0_0_t0]; · iexact S_1_0_0_t0
    isplitl [D_1_0_1]; · iexact D_1_0_1
    isplitl [HO]; · iexact HO
    isplitl [Hts]; · iexact Hts
    isplitr; · iexact Rsnd_1_0_1
    isplitl [Htr]; · iexact Htr
    iexact RrcvP_1_0_1
  case hfs_14 => exact hfs_1_0
  iintro ⟨Csnd_1_0_1, HO⟩
  -- copy 13: block (1, 0) to slot 3 of the device 3 ahead
  adv
  icases (Entails.of_eq (show toksLeft (F := F) c 13 = iprop((dutyTok ER ((c : Thread nD τ), SemLoc.dma (sndS 1 0 3 inb_S3x4x4_S1x1x1_1_0_3)) 0 (0 : Fin 4) ∗ dutyTok ER (((pe c 3) : Thread nD τ), SemLoc.dma (rcvS 1 0 3 inb_S3x4x4_S1x1x1_1_0_3)) 0 (0 : Fin 4)) ∗ toksLeft c 12) from rfl)) $$ HT with ⟨⟨Hts, Htr⟩, HT⟩
  icases (owes_congr (F := F) (show owesLeft c 13 = owesLeft c 12 + tallyAt (((pe c 3) : Thread nD τ), SemLoc.dma (rcvS 1 0 3 inb_S3x4x4_S1x1x1_1_0_3)) () N from rfl)) $$ HO with HO
  iapply (wp_sendTo_1_0_3 (valF m ρ) jkF jrF K c _ (dev18_eq c) _ _ ?hfs_13 (owesLeft c 12) _) $$ [S_1_0_0_t2 D_1_0_3 HO Hts Htr]
  pick_goal 2
  · isplitr; · iexact Isnd_1_0_3
    isplitr; · iexact IrcvP_1_0_3
    isplitl [S_1_0_0_t2]; · iexact S_1_0_0_t2
    isplitl [D_1_0_3]; · iexact D_1_0_3
    isplitl [HO]; · iexact HO
    isplitl [Hts]; · iexact Hts
    isplitr; · iexact Rsnd_1_0_3
    isplitl [Htr]; · iexact Htr
    iexact RrcvP_1_0_3
  case hfs_13 => exact hfs_1_0
  iintro ⟨Csnd_1_0_3, HO⟩
  -- copy 12: block (1, 1) to slot 2 of the device 2 ahead
  adv
  have hfs_1_1 := L1d_1 m ρ c f0
  icases (Entails.of_eq (show toksLeft (F := F) c 12 = iprop((dutyTok ER ((c : Thread nD τ), SemLoc.dma (sndS 1 1 2 inb_S3x4x4_S1x1x1_1_1_2)) 0 (0 : Fin 4) ∗ dutyTok ER (((pe c 2) : Thread nD τ), SemLoc.dma (rcvS 1 1 2 inb_S3x4x4_S1x1x1_1_1_2)) 0 (0 : Fin 4)) ∗ toksLeft c 11) from rfl)) $$ HT with ⟨⟨Hts, Htr⟩, HT⟩
  icases (owes_congr (F := F) (show owesLeft c 12 = owesLeft c 11 + tallyAt (((pe c 2) : Thread nD τ), SemLoc.dma (rcvS 1 1 2 inb_S3x4x4_S1x1x1_1_1_2)) () N from rfl)) $$ HO with HO
  icases (share_split4 _ _).1 $$ S_1_1_0 with ⟨S_1_1_0, S_1_1_0_t0, S_1_1_0_t1, S_1_1_0_t2⟩
  iapply (wp_sendTo_1_1_2 (valF m ρ) jkF jrF K c _ (dev19_eq c) _ _ ?hfs_12 (owesLeft c 11) _) $$ [S_1_1_0_t1 D_1_1_2 HO Hts Htr]
  pick_goal 2
  · isplitr; · iexact Isnd_1_1_2
    isplitr; · iexact IrcvP_1_1_2
    isplitl [S_1_1_0_t1]; · iexact S_1_1_0_t1
    isplitl [D_1_1_2]; · iexact D_1_1_2
    isplitl [HO]; · iexact HO
    isplitl [Hts]; · iexact Hts
    isplitr; · iexact Rsnd_1_1_2
    isplitl [Htr]; · iexact Htr
    iexact RrcvP_1_1_2
  case hfs_12 => exact hfs_1_1
  iintro ⟨Csnd_1_1_2, HO⟩
  -- copy 11: block (1, 1) to slot 1 of the device 1 ahead
  adv
  icases (Entails.of_eq (show toksLeft (F := F) c 11 = iprop((dutyTok ER ((c : Thread nD τ), SemLoc.dma (sndS 1 1 1 inb_S3x4x4_S1x1x1_1_1_1)) 0 (0 : Fin 4) ∗ dutyTok ER (((pe c 1) : Thread nD τ), SemLoc.dma (rcvS 1 1 1 inb_S3x4x4_S1x1x1_1_1_1)) 0 (0 : Fin 4)) ∗ toksLeft c 10) from rfl)) $$ HT with ⟨⟨Hts, Htr⟩, HT⟩
  icases (owes_congr (F := F) (show owesLeft c 11 = owesLeft c 10 + tallyAt (((pe c 1) : Thread nD τ), SemLoc.dma (rcvS 1 1 1 inb_S3x4x4_S1x1x1_1_1_1)) () N from rfl)) $$ HO with HO
  iapply (wp_sendTo_1_1_1 (valF m ρ) jkF jrF K c _ (dev20_eq c) _ _ ?hfs_11 (owesLeft c 10) _) $$ [S_1_1_0_t0 D_1_1_1 HO Hts Htr]
  pick_goal 2
  · isplitr; · iexact Isnd_1_1_1
    isplitr; · iexact IrcvP_1_1_1
    isplitl [S_1_1_0_t0]; · iexact S_1_1_0_t0
    isplitl [D_1_1_1]; · iexact D_1_1_1
    isplitl [HO]; · iexact HO
    isplitl [Hts]; · iexact Hts
    isplitr; · iexact Rsnd_1_1_1
    isplitl [Htr]; · iexact Htr
    iexact RrcvP_1_1_1
  case hfs_11 => exact hfs_1_1
  iintro ⟨Csnd_1_1_1, HO⟩
  -- copy 10: block (1, 1) to slot 3 of the device 3 ahead
  adv
  icases (Entails.of_eq (show toksLeft (F := F) c 10 = iprop((dutyTok ER ((c : Thread nD τ), SemLoc.dma (sndS 1 1 3 inb_S3x4x4_S1x1x1_1_1_3)) 0 (0 : Fin 4) ∗ dutyTok ER (((pe c 3) : Thread nD τ), SemLoc.dma (rcvS 1 1 3 inb_S3x4x4_S1x1x1_1_1_3)) 0 (0 : Fin 4)) ∗ toksLeft c 9) from rfl)) $$ HT with ⟨⟨Hts, Htr⟩, HT⟩
  icases (owes_congr (F := F) (show owesLeft c 10 = owesLeft c 9 + tallyAt (((pe c 3) : Thread nD τ), SemLoc.dma (rcvS 1 1 3 inb_S3x4x4_S1x1x1_1_1_3)) () N from rfl)) $$ HO with HO
  iapply (wp_sendTo_1_1_3 (valF m ρ) jkF jrF K c _ (dev21_eq c) _ _ ?hfs_10 (owesLeft c 9) _) $$ [S_1_1_0_t2 D_1_1_3 HO Hts Htr]
  pick_goal 2
  · isplitr; · iexact Isnd_1_1_3
    isplitr; · iexact IrcvP_1_1_3
    isplitl [S_1_1_0_t2]; · iexact S_1_1_0_t2
    isplitl [D_1_1_3]; · iexact D_1_1_3
    isplitl [HO]; · iexact HO
    isplitl [Hts]; · iexact Hts
    isplitr; · iexact Rsnd_1_1_3
    isplitl [Htr]; · iexact Htr
    iexact RrcvP_1_1_3
  case hfs_10 => exact hfs_1_1
  iintro ⟨Csnd_1_1_3, HO⟩
  -- copy 9: block (1, 2) to slot 2 of the device 2 ahead
  adv
  have hfs_1_2 := L1d_2 m ρ c f0
  icases (Entails.of_eq (show toksLeft (F := F) c 9 = iprop((dutyTok ER ((c : Thread nD τ), SemLoc.dma (sndS 1 2 2 inb_S3x4x4_S1x1x1_1_2_2)) 0 (0 : Fin 4) ∗ dutyTok ER (((pe c 2) : Thread nD τ), SemLoc.dma (rcvS 1 2 2 inb_S3x4x4_S1x1x1_1_2_2)) 0 (0 : Fin 4)) ∗ toksLeft c 8) from rfl)) $$ HT with ⟨⟨Hts, Htr⟩, HT⟩
  icases (owes_congr (F := F) (show owesLeft c 9 = owesLeft c 8 + tallyAt (((pe c 2) : Thread nD τ), SemLoc.dma (rcvS 1 2 2 inb_S3x4x4_S1x1x1_1_2_2)) () N from rfl)) $$ HO with HO
  icases (share_split4 _ _).1 $$ S_1_2_0 with ⟨S_1_2_0, S_1_2_0_t0, S_1_2_0_t1, S_1_2_0_t2⟩
  iapply (wp_sendTo_1_2_2 (valF m ρ) jkF jrF K c _ (dev22_eq c) _ _ ?hfs_9 (owesLeft c 8) _) $$ [S_1_2_0_t1 D_1_2_2 HO Hts Htr]
  pick_goal 2
  · isplitr; · iexact Isnd_1_2_2
    isplitr; · iexact IrcvP_1_2_2
    isplitl [S_1_2_0_t1]; · iexact S_1_2_0_t1
    isplitl [D_1_2_2]; · iexact D_1_2_2
    isplitl [HO]; · iexact HO
    isplitl [Hts]; · iexact Hts
    isplitr; · iexact Rsnd_1_2_2
    isplitl [Htr]; · iexact Htr
    iexact RrcvP_1_2_2
  case hfs_9 => exact hfs_1_2
  iintro ⟨Csnd_1_2_2, HO⟩
  -- copy 8: block (1, 2) to slot 1 of the device 1 ahead
  adv
  icases (Entails.of_eq (show toksLeft (F := F) c 8 = iprop((dutyTok ER ((c : Thread nD τ), SemLoc.dma (sndS 1 2 1 inb_S3x4x4_S1x1x1_1_2_1)) 0 (0 : Fin 4) ∗ dutyTok ER (((pe c 1) : Thread nD τ), SemLoc.dma (rcvS 1 2 1 inb_S3x4x4_S1x1x1_1_2_1)) 0 (0 : Fin 4)) ∗ toksLeft c 7) from rfl)) $$ HT with ⟨⟨Hts, Htr⟩, HT⟩
  icases (owes_congr (F := F) (show owesLeft c 8 = owesLeft c 7 + tallyAt (((pe c 1) : Thread nD τ), SemLoc.dma (rcvS 1 2 1 inb_S3x4x4_S1x1x1_1_2_1)) () N from rfl)) $$ HO with HO
  iapply (wp_sendTo_1_2_1 (valF m ρ) jkF jrF K c _ (dev23_eq c) _ _ ?hfs_8 (owesLeft c 7) _) $$ [S_1_2_0_t0 D_1_2_1 HO Hts Htr]
  pick_goal 2
  · isplitr; · iexact Isnd_1_2_1
    isplitr; · iexact IrcvP_1_2_1
    isplitl [S_1_2_0_t0]; · iexact S_1_2_0_t0
    isplitl [D_1_2_1]; · iexact D_1_2_1
    isplitl [HO]; · iexact HO
    isplitl [Hts]; · iexact Hts
    isplitr; · iexact Rsnd_1_2_1
    isplitl [Htr]; · iexact Htr
    iexact RrcvP_1_2_1
  case hfs_8 => exact hfs_1_2
  iintro ⟨Csnd_1_2_1, HO⟩
  -- copy 7: block (1, 2) to slot 3 of the device 3 ahead
  adv
  icases (Entails.of_eq (show toksLeft (F := F) c 7 = iprop((dutyTok ER ((c : Thread nD τ), SemLoc.dma (sndS 1 2 3 inb_S3x4x4_S1x1x1_1_2_3)) 0 (0 : Fin 4) ∗ dutyTok ER (((pe c 3) : Thread nD τ), SemLoc.dma (rcvS 1 2 3 inb_S3x4x4_S1x1x1_1_2_3)) 0 (0 : Fin 4)) ∗ toksLeft c 6) from rfl)) $$ HT with ⟨⟨Hts, Htr⟩, HT⟩
  icases (owes_congr (F := F) (show owesLeft c 7 = owesLeft c 6 + tallyAt (((pe c 3) : Thread nD τ), SemLoc.dma (rcvS 1 2 3 inb_S3x4x4_S1x1x1_1_2_3)) () N from rfl)) $$ HO with HO
  iapply (wp_sendTo_1_2_3 (valF m ρ) jkF jrF K c _ (dev24_eq c) _ _ ?hfs_7 (owesLeft c 6) _) $$ [S_1_2_0_t2 D_1_2_3 HO Hts Htr]
  pick_goal 2
  · isplitr; · iexact Isnd_1_2_3
    isplitr; · iexact IrcvP_1_2_3
    isplitl [S_1_2_0_t2]; · iexact S_1_2_0_t2
    isplitl [D_1_2_3]; · iexact D_1_2_3
    isplitl [HO]; · iexact HO
    isplitl [Hts]; · iexact Hts
    isplitr; · iexact Rsnd_1_2_3
    isplitl [Htr]; · iexact Htr
    iexact RrcvP_1_2_3
  case hfs_7 => exact hfs_1_2
  iintro ⟨Csnd_1_2_3, HO⟩
  -- copy 6: block (1, 3) to slot 2 of the device 2 ahead
  adv
  have hfs_1_3 := L1d_3 m ρ c f0
  icases (Entails.of_eq (show toksLeft (F := F) c 6 = iprop((dutyTok ER ((c : Thread nD τ), SemLoc.dma (sndS 1 3 2 inb_S3x4x4_S1x1x1_1_3_2)) 0 (0 : Fin 4) ∗ dutyTok ER (((pe c 2) : Thread nD τ), SemLoc.dma (rcvS 1 3 2 inb_S3x4x4_S1x1x1_1_3_2)) 0 (0 : Fin 4)) ∗ toksLeft c 5) from rfl)) $$ HT with ⟨⟨Hts, Htr⟩, HT⟩
  icases (owes_congr (F := F) (show owesLeft c 6 = owesLeft c 5 + tallyAt (((pe c 2) : Thread nD τ), SemLoc.dma (rcvS 1 3 2 inb_S3x4x4_S1x1x1_1_3_2)) () N from rfl)) $$ HO with HO
  icases (share_split4 _ _).1 $$ S_1_3_0 with ⟨S_1_3_0, S_1_3_0_t0, S_1_3_0_t1, S_1_3_0_t2⟩
  iapply (wp_sendTo_1_3_2 (valF m ρ) jkF jrF K c _ (dev25_eq c) _ _ ?hfs_6 (owesLeft c 5) _) $$ [S_1_3_0_t1 D_1_3_2 HO Hts Htr]
  pick_goal 2
  · isplitr; · iexact Isnd_1_3_2
    isplitr; · iexact IrcvP_1_3_2
    isplitl [S_1_3_0_t1]; · iexact S_1_3_0_t1
    isplitl [D_1_3_2]; · iexact D_1_3_2
    isplitl [HO]; · iexact HO
    isplitl [Hts]; · iexact Hts
    isplitr; · iexact Rsnd_1_3_2
    isplitl [Htr]; · iexact Htr
    iexact RrcvP_1_3_2
  case hfs_6 => exact hfs_1_3
  iintro ⟨Csnd_1_3_2, HO⟩
  -- copy 5: block (1, 3) to slot 1 of the device 1 ahead
  adv
  icases (Entails.of_eq (show toksLeft (F := F) c 5 = iprop((dutyTok ER ((c : Thread nD τ), SemLoc.dma (sndS 1 3 1 inb_S3x4x4_S1x1x1_1_3_1)) 0 (0 : Fin 4) ∗ dutyTok ER (((pe c 1) : Thread nD τ), SemLoc.dma (rcvS 1 3 1 inb_S3x4x4_S1x1x1_1_3_1)) 0 (0 : Fin 4)) ∗ toksLeft c 4) from rfl)) $$ HT with ⟨⟨Hts, Htr⟩, HT⟩
  icases (owes_congr (F := F) (show owesLeft c 5 = owesLeft c 4 + tallyAt (((pe c 1) : Thread nD τ), SemLoc.dma (rcvS 1 3 1 inb_S3x4x4_S1x1x1_1_3_1)) () N from rfl)) $$ HO with HO
  iapply (wp_sendTo_1_3_1 (valF m ρ) jkF jrF K c _ (dev26_eq c) _ _ ?hfs_5 (owesLeft c 4) _) $$ [S_1_3_0_t0 D_1_3_1 HO Hts Htr]
  pick_goal 2
  · isplitr; · iexact Isnd_1_3_1
    isplitr; · iexact IrcvP_1_3_1
    isplitl [S_1_3_0_t0]; · iexact S_1_3_0_t0
    isplitl [D_1_3_1]; · iexact D_1_3_1
    isplitl [HO]; · iexact HO
    isplitl [Hts]; · iexact Hts
    isplitr; · iexact Rsnd_1_3_1
    isplitl [Htr]; · iexact Htr
    iexact RrcvP_1_3_1
  case hfs_5 => exact hfs_1_3
  iintro ⟨Csnd_1_3_1, HO⟩
  -- copy 4: block (1, 3) to slot 3 of the device 3 ahead
  adv
  icases (Entails.of_eq (show toksLeft (F := F) c 4 = iprop((dutyTok ER ((c : Thread nD τ), SemLoc.dma (sndS 1 3 3 inb_S3x4x4_S1x1x1_1_3_3)) 0 (0 : Fin 4) ∗ dutyTok ER (((pe c 3) : Thread nD τ), SemLoc.dma (rcvS 1 3 3 inb_S3x4x4_S1x1x1_1_3_3)) 0 (0 : Fin 4)) ∗ toksLeft c 3) from rfl)) $$ HT with ⟨⟨Hts, Htr⟩, HT⟩
  icases (owes_congr (F := F) (show owesLeft c 4 = owesLeft c 3 + tallyAt (((pe c 3) : Thread nD τ), SemLoc.dma (rcvS 1 3 3 inb_S3x4x4_S1x1x1_1_3_3)) () N from rfl)) $$ HO with HO
  iapply (wp_sendTo_1_3_3 (valF m ρ) jkF jrF K c _ (dev27_eq c) _ _ ?hfs_4 (owesLeft c 3) _) $$ [S_1_3_0_t2 D_1_3_3 HO Hts Htr]
  pick_goal 2
  · isplitr; · iexact Isnd_1_3_3
    isplitr; · iexact IrcvP_1_3_3
    isplitl [S_1_3_0_t2]; · iexact S_1_3_0_t2
    isplitl [D_1_3_3]; · iexact D_1_3_3
    isplitl [HO]; · iexact HO
    isplitl [Hts]; · iexact Hts
    isplitr; · iexact Rsnd_1_3_3
    isplitl [Htr]; · iexact Htr
    iexact RrcvP_1_3_3
  case hfs_4 => exact hfs_1_3
  iintro ⟨Csnd_1_3_3, HO⟩
  have hc4 : ∀ d : Dev nD, d = 0 ∨ d = 1 ∨ d = 2 ∨ d = 3 := by decide
  rcases hc4 c with hc | hc | hc | hc
  · -- the device is number 0: of the four guarded regions only region 1 is entered
    have hk1 : k0_cond1 c = 1#1 := by rw [hc]; decide +kernel
    have hk2 : ¬ k0_cond2 c = 1#1 := by rw [hc]; decide +kernel
    have hk3 : ¬ k0_cond3 c = 1#1 := by rw [hc]; decide +kernel
    have hk4 : ¬ k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev28_eq.trans (show (pe c 2).val = 2 by rw [hc]; rfl).symm)
    case hfs_3 => exact L2d_0_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev29_eq.trans (show (pe c 1).val = 1 by rw [hc]; rfl).symm)
    case hfs_2 => exact L2d_0_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev30_eq.trans (show (pe c 3).val = 3 by rw [hc]; rfl).symm)
    case hfs_1 => exact L2d_0_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_0)) $$ G7 with G7
    case hout_0 => exact OUTd_0 m ρ c hc g7
    iexact G7
  · -- the device is number 1: of the four guarded regions only region 2 is entered
    have hk1 : ¬ k0_cond1 c = 1#1 := by rw [hc]; decide +kernel
    have hk2 : k0_cond2 c = 1#1 := by rw [hc]; decide +kernel
    have hk3 : ¬ k0_cond3 c = 1#1 := by rw [hc]; decide +kernel
    have hk4 : ¬ k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev31_eq.trans (show (pe c 2).val = 3 by rw [hc]; rfl).symm)
    case hfs_3 => exact L2d_1_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev32_eq.trans (show (pe c 1).val = 2 by rw [hc]; rfl).symm)
    case hfs_2 => exact L2d_1_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev33_eq.trans (show (pe c 3).val = 0 by rw [hc]; rfl).symm)
    case hfs_1 => exact L2d_1_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_1)) $$ G7 with G7
    case hout_1 => exact OUTd_1 m ρ c hc g7
    iexact G7
  · -- the device is number 2: of the four guarded regions only region 3 is entered
    have hk1 : ¬ k0_cond1 c = 1#1 := by rw [hc]; decide +kernel
    have hk2 : ¬ k0_cond2 c = 1#1 := by rw [hc]; decide +kernel
    have hk3 : k0_cond3 c = 1#1 := by rw [hc]; decide +kernel
    have hk4 : ¬ k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev34_eq.trans (show (pe c 2).val = 0 by rw [hc]; rfl).symm)
    case hfs_3 => exact L2d_2_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev35_eq.trans (show (pe c 1).val = 3 by rw [hc]; rfl).symm)
    case hfs_2 => exact L2d_2_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev36_eq.trans (show (pe c 3).val = 1 by rw [hc]; rfl).symm)
    case hfs_1 => exact L2d_2_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_2)) $$ G7 with G7
    case hout_2 => exact OUTd_2 m ρ c hc g7
    iexact G7
  · -- the device is number 3: of the four guarded regions only region 4 is entered
    have hk1 : ¬ k0_cond1 c = 1#1 := by rw [hc]; decide +kernel
    have hk2 : ¬ k0_cond2 c = 1#1 := by rw [hc]; decide +kernel
    have hk3 : ¬ k0_cond3 c = 1#1 := by rw [hc]; decide +kernel
    have hk4 : k0_cond4 c = 1#1 := by rw [hc]; decide +kernel
    -- copy 3: block (2, 0) to slot 2 of the device 2 ahead
    adv
    icases (Entails.of_eq (show toksLeft (F := F) c 3 = iprop((dutyTok ER ((c : Thread nD τ), SemLoc.dma (sndS 2 0 2 inb_S3x4x4_S1x1x1_2_0_2)) 0 (0 : Fin 4) ∗ dutyTok ER (((pe c 2) : Thread nD τ), SemLoc.dma (rcvS 2 0 2 inb_S3x4x4_S1x1x1_2_0_2)) 0 (0 : Fin 4)) ∗ toksLeft c 2) from rfl)) $$ HT with ⟨⟨Hts, Htr⟩, HT⟩
    icases (owes_congr (F := F) (show owesLeft c 3 = owesLeft c 2 + tallyAt (((pe c 2) : Thread nD τ), SemLoc.dma (rcvS 2 0 2 inb_S3x4x4_S1x1x1_2_0_2)) () N from rfl)) $$ HO with HO
    iapply (wp_sendTo_2_0_2 (valF m ρ) jkF jrF K c _ ?he_3 _ _ ?hfs_3 (owesLeft c 2) _) $$ [RS_0_2 D_2_0_2 HO Hts Htr]
    pick_goal 3
    · isplitr; · iexact Isnd_2_0_2
      isplitr; · iexact IrcvP_2_0_2
      isplitl [RS_0_2]; · iexact RS_0_2
      isplitl [D_2_0_2]; · iexact D_2_0_2
      isplitl [HO]; · iexact HO
      isplitl [Hts]; · iexact Hts
      isplitr; · iexact Rsnd_2_0_2
      isplitl [Htr]; · iexact Htr
      iexact RrcvP_2_0_2
    case he_3 => exact Fin.ext (k0_dev37_eq.trans (show (pe c 2).val = 1 by rw [hc]; rfl).symm)
    case hfs_3 => exact L2d_3_2 m ρ c hc f1
    iintro ⟨Csnd_2_0_2, HO⟩
    -- copy 2: block (2, 0) to slot 1 of the device 1 ahead
    adv
    icases (Entails.of_eq (show toksLeft (F := F) c 2 = iprop((dutyTok ER ((c : Thread nD τ), SemLoc.dma (sndS 2 0 1 inb_S3x4x4_S1x1x1_2_0_1)) 0 (0 : Fin 4) ∗ dutyTok ER (((pe c 1) : Thread nD τ), SemLoc.dma (rcvS 2 0 1 inb_S3x4x4_S1x1x1_2_0_1)) 0 (0 : Fin 4)) ∗ toksLeft c 1) from rfl)) $$ HT with ⟨⟨Hts, Htr⟩, HT⟩
    icases (owes_congr (F := F) (show owesLeft c 2 = owesLeft c 1 + tallyAt (((pe c 1) : Thread nD τ), SemLoc.dma (rcvS 2 0 1 inb_S3x4x4_S1x1x1_2_0_1)) () N from rfl)) $$ HO with HO
    iapply (wp_sendTo_2_0_1 (valF m ρ) jkF jrF K c _ ?he_2 _ _ ?hfs_2 (owesLeft c 1) _) $$ [RS_0_1 D_2_0_1 HO Hts Htr]
    pick_goal 3
    · isplitr; · iexact Isnd_2_0_1
      isplitr; · iexact IrcvP_2_0_1
      isplitl [RS_0_1]; · iexact RS_0_1
      isplitl [D_2_0_1]; · iexact D_2_0_1
      isplitl [HO]; · iexact HO
      isplitl [Hts]; · iexact Hts
      isplitr; · iexact Rsnd_2_0_1
      isplitl [Htr]; · iexact Htr
      iexact RrcvP_2_0_1
    case he_2 => exact Fin.ext (k0_dev38_eq.trans (show (pe c 1).val = 0 by rw [hc]; rfl).symm)
    case hfs_2 => exact L2d_3_1 m ρ c hc f1
    iintro ⟨Csnd_2_0_1, HO⟩
    -- copy 1: block (2, 0) to slot 3 of the device 3 ahead
    adv
    icases (Entails.of_eq (show toksLeft (F := F) c 1 = iprop((dutyTok ER ((c : Thread nD τ), SemLoc.dma (sndS 2 0 3 inb_S3x4x4_S1x1x1_2_0_3)) 0 (0 : Fin 4) ∗ dutyTok ER (((pe c 3) : Thread nD τ), SemLoc.dma (rcvS 2 0 3 inb_S3x4x4_S1x1x1_2_0_3)) 0 (0 : Fin 4)) ∗ toksLeft c 0) from rfl)) $$ HT with ⟨⟨Hts, Htr⟩, HT⟩
    icases (owes_congr (F := F) (show owesLeft c 1 = owesLeft c 0 + tallyAt (((pe c 3) : Thread nD τ), SemLoc.dma (rcvS 2 0 3 inb_S3x4x4_S1x1x1_2_0_3)) () N from rfl)) $$ HO with HO
    iapply (wp_sendTo_2_0_3 (valF m ρ) jkF jrF K c _ ?he_1 _ _ ?hfs_1 (owesLeft c 0) _) $$ [RS_0_3 D_2_0_3 HO Hts Htr]
    pick_goal 3
    · isplitr; · iexact Isnd_2_0_3
      isplitr; · iexact IrcvP_2_0_3
      isplitl [RS_0_3]; · iexact RS_0_3
      isplitl [D_2_0_3]; · iexact D_2_0_3
      isplitl [HO]; · iexact HO
      isplitl [Hts]; · iexact Hts
      isplitr; · iexact Rsnd_2_0_3
      isplitl [Htr]; · iexact Htr
      iexact RrcvP_2_0_3
    case he_1 => exact Fin.ext (k0_dev39_eq.trans (show (pe c 3).val = 2 by rw [hc]; rfl).symm)
    case hfs_1 => exact L2d_3_3 m ρ c hc f1
    iintro ⟨Csnd_2_0_3, HO⟩
    adv
    imod (Rounds.cell_close ER (Rd (valF m ρ) jkF jrF) (Set.mem_univ (K ((c : Thread nD τ), SemLoc.dma (sndS 0 0 1 inb_S3x4x4_S1x1x1_0_0_1)))) (fun h => h) (R := 1) (fun r hr => duties_later (valF m ρ) jkF jrF ((c : Thread nD τ), SemLoc.dma (sndS 0 0 1 inb_S3x4x4_S1x1x1_0_0_1)) r hr)) $$ [Asnd_0_0_1] with Zsnd_0_0_1
    · isplitr; · iexact Isnd_0_0_1
      iexact Asnd_0_0_1
    imod (Rounds.cell_close ER (Rd (valF m ρ) jkF jrF) (Set.mem_univ (K ((c : Thread nD τ), SemLoc.dma (rcvS 0 0 1 inb_S3x4x4_S1x1x1_0_0_1)))) (fun h => h) (R := 1) (fun r hr => duties_later (valF m ρ) jkF jrF ((c : Thread nD τ), SemLoc.dma (rcvS 0 0 1 inb_S3x4x4_S1x1x1_0_0_1)) r hr)) $$ [Arcv_0_0_1] with Zrcv_0_0_1
    · isplitr; · iexact Ircv_0_0_1
      iexact Arcv_0_0_1
    imod (Rounds.cell_close ER (Rd (valF m ρ) jkF jrF) (Set.mem_univ (K ((c : Thread nD τ), SemLoc.dma (sndS 0 0 2 inb_S3x4x4_S1x1x1_0_0_2)))) (fun h => h) (R := 1) (fun r hr => duties_later (valF m ρ) jkF jrF ((c : Thread nD τ), SemLoc.dma (sndS 0 0 2 inb_S3x4x4_S1x1x1_0_0_2)) r hr)) $$ [Asnd_0_0_2] with Zsnd_0_0_2
    · isplitr; · iexact Isnd_0_0_2
      iexact Asnd_0_0_2
    imod (Rounds.cell_close ER (Rd (valF m ρ) jkF jrF) (Set.mem_univ (K ((c : Thread nD τ), SemLoc.dma (rcvS 0 0 2 inb_S3x4x4_S1x1x1_0_0_2)))) (fun h => h) (R := 1) (fun r hr => duties_later (valF m ρ) jkF jrF ((c : Thread nD τ), SemLoc.dma (rcvS 0 0 2 inb_S3x4x4_S1x1x1_0_0_2)) r hr)) $$ [Arcv_0_0_2] with Zrcv_0_0_2
    · isplitr; · iexact Ircv_0_0_2
      iexact Arcv_0_0_2
    imod (Rounds.cell_close ER (Rd (valF m ρ) jkF jrF) (Set.mem_univ (K ((c : Thread nD τ), SemLoc.dma (sndS 0 0 3 inb_S3x4x4_S1x1x1_0_0_3)))) (fun h => h) (R := 1) (fun r hr => duties_later (valF m ρ) jkF jrF ((c : Thread nD τ), SemLoc.dma (sndS 0 0 3 inb_S3x4x4_S1x1x1_0_0_3)) r hr)) $$ [Asnd_0_0_3] with Zsnd_0_0_3
    · isplitr; · iexact Isnd_0_0_3
      iexact Asnd_0_0_3
    imod (Rounds.cell_close ER (Rd (valF m ρ) jkF jrF) (Set.mem_univ (K ((c : Thread nD τ), SemLoc.dma (rcvS 0 0 3 inb_S3x4x4_S1x1x1_0_0_3)))) (fun h => h) (R := 1) (fun r hr => duties_later (valF m ρ) jkF jrF ((c : Thread nD τ), SemLoc.dma (rcvS 0 0 3 inb_S3x4x4_S1x1x1_0_0_3)) r hr)) $$ [Arcv_0_0_3] with Zrcv_0_0_3
    · isplitr; · iexact Ircv_0_0_3
      iexact Arcv_0_0_3
    imod (Rounds.cell_close ER (Rd (valF m ρ) jkF jrF) (Set.mem_univ (K ((c : Thread nD τ), SemLoc.dma (sndS 0 1 1 inb_S3x4x4_S1x1x1_0_1_1)))) (fun h => h) (R := 1) (fun r hr => duties_later (valF m ρ) jkF jrF ((c : Thread nD τ), SemLoc.dma (sndS 0 1 1 inb_S3x4x4_S1x1x1_0_1_1)) r hr)) $$ [Asnd_0_1_1] with Zsnd_0_1_1
    · isplitr; · iexact Isnd_0_1_1
      iexact Asnd_0_1_1
    imod (Rounds.cell_close ER (Rd (valF m ρ) jkF jrF) (Set.mem_univ (K ((c : Thread nD τ), SemLoc.dma (rcvS 0 1 1 inb_S3x4x4_S1x1x1_0_1_1)))) (fun h => h) (R := 1) (fun r hr => duties_later (valF m ρ) jkF jrF ((c : Thread nD τ), SemLoc.dma (rcvS 0 1 1 inb_S3x4x4_S1x1x1_0_1_1)) r hr)) $$ [Arcv_0_1_1] with Zrcv_0_1_1
    · isplitr; · iexact Ircv_0_1_1
      iexact Arcv_0_1_1
    imod (Rounds.cell_close ER (Rd (valF m ρ) jkF jrF) (Set.mem_univ (K ((c : Thread nD τ), SemLoc.dma (sndS 0 1 2 inb_S3x4x4_S1x1x1_0_1_2)))) (fun h => h) (R := 1) (fun r hr => duties_later (valF m ρ) jkF jrF ((c : Thread nD τ), SemLoc.dma (sndS 0 1 2 inb_S3x4x4_S1x1x1_0_1_2)) r hr)) $$ [Asnd_0_1_2] with Zsnd_0_1_2
    · isplitr; · iexact Isnd_0_1_2
      iexact Asnd_0_1_2
    imod (Rounds.cell_close ER (Rd (valF m ρ) jkF jrF) (Set.mem_univ (K ((c : Thread nD τ), SemLoc.dma (rcvS 0 1 2 inb_S3x4x4_S1x1x1_0_1_2)))) (fun h => h) (R := 1) (fun r hr => duties_later (valF m ρ) jkF jrF ((c : Thread nD τ), SemLoc.dma (rcvS 0 1 2 inb_S3x4x4_S1x1x1_0_1_2)) r hr)) $$ [Arcv_0_1_2] with Zrcv_0_1_2
    · isplitr; · iexact Ircv_0_1_2
      iexact Arcv_0_1_2
    imod (Rounds.cell_close ER (Rd (valF m ρ) jkF jrF) (Set.mem_univ (K ((c : Thread nD τ), SemLoc.dma (sndS 0 1 3 inb_S3x4x4_S1x1x1_0_1_3)))) (fun h => h) (R := 1) (fun r hr => duties_later (valF m ρ) jkF jrF ((c : Thread nD τ), SemLoc.dma (sndS 0 1 3 inb_S3x4x4_S1x1x1_0_1_3)) r hr)) $$ [Asnd_0_1_3] with Zsnd_0_1_3
    · isplitr; · iexact Isnd_0_1_3
      iexact Asnd_0_1_3
    imod (Rounds.cell_close ER (Rd (valF m ρ) jkF jrF) (Set.mem_univ (K ((c : Thread nD τ), SemLoc.dma (rcvS 0 1 3 inb_S3x4x4_S1x1x1_0_1_3)))) (fun h => h) (R := 1) (fun r hr => duties_later (valF m ρ) jkF jrF ((c : Thread nD τ), SemLoc.dma (rcvS 0 1 3 inb_S3x4x4_S1x1x1_0_1_3)) r hr)) $$ [Arcv_0_1_3] with Zrcv_0_1_3
    · isplitr; · iexact Ircv_0_1_3
      iexact Arcv_0_1_3
    imod (Rounds.cell_close ER (Rd (valF m ρ) jkF jrF) (Set.mem_univ (K ((c : Thread nD τ), SemLoc.dma (sndS 0 2 1 inb_S3x4x4_S1x1x1_0_2_1)))) (fun h => h) (R := 1) (fun r hr => duties_later (valF m ρ) jkF jrF ((c : Thread nD τ), SemLoc.dma (sndS 0 2 1 inb_S3x4x4_S1x1x1_0_2_1)) r hr)) $$ [Asnd_0_2_1] with Zsnd_0_2_1
    · isplitr; · iexact Isnd_0_2_1
      iexact Asnd_0_2_1
    imod (Rounds.cell_close ER (Rd (valF m ρ) jkF jrF) (Set.mem_univ (K ((c : Thread nD τ), SemLoc.dma (rcvS 0 2 1 inb_S3x4x4_S1x1x1_0_2_1)))) (fun h => h) (R := 1) (fun r hr => duties_later (valF m ρ) jkF jrF ((c : Thread nD τ), SemLoc.dma (rcvS 0 2 1 inb_S3x4x4_S1x1x1_0_2_1)) r hr)) $$ [Arcv_0_2_1] with Zrcv_0_2_1
    · isplitr; · iexact Ircv_0_2_1
      iexact Arcv_0_2_1
    imod (Rounds.cell_close ER (Rd (valF m ρ) jkF jrF) (Set.mem_univ (K ((c : Thread nD τ), SemLoc.dma (sndS 0 2 2 inb_S3x4x4_S1x1x1_0_2_2)))) (fun h => h) (R := 1) (fun r hr => duties_later (valF m ρ) jkF jrF ((c : Thread nD τ), SemLoc.dma (sndS 0 2 2 inb_S3x4x4_S1x1x1_0_2_2)) r hr)) $$ [Asnd_0_2_2] with Zsnd_0_2_2
    · isplitr; · iexact Isnd_0_2_2
      iexact Asnd_0_2_2
    imod (Rounds.cell_close ER (Rd (valF m ρ) jkF jrF) (Set.mem_univ (K ((c : Thread nD τ), SemLoc.dma (rcvS 0 2 2 inb_S3x4x4_S1x1x1_0_2_2)))) (fun h => h) (R := 1) (fun r hr => duties_later (valF m ρ) jkF jrF ((c : Thread nD τ), SemLoc.dma (rcvS 0 2 2 inb_S3x4x4_S1x1x1_0_2_2)) r hr)) $$ [Arcv_0_2_2] with Zrcv_0_2_2
    · isplitr; · iexact Ircv_0_2_2
      iexact Arcv_0_2_2
    imod (Rounds.cell_close ER (Rd (valF m ρ) jkF jrF) (Set.mem_univ (K ((c : Thread nD τ), SemLoc.dma (sndS 0 2 3 inb_S3x4x4_S1x1x1_0_2_3)))) (fun h => h) (R := 1) (fun r hr => duties_later (valF m ρ) jkF jrF ((c : Thread nD τ), SemLoc.dma (sndS 0 2 3 inb_S3x4x4_S1x1x1_0_2_3)) r hr)) $$ [Asnd_0_2_3] with Zsnd_0_2_3
    · isplitr; · iexact Isnd_0_2_3
      iexact Asnd_0_2_3
    imod (Rounds.cell_close ER (Rd (valF m ρ) jkF jrF) (Set.mem_univ (K ((c : Thread nD τ), SemLoc.dma (rcvS 0 2 3 inb_S3x4x4_S1x1x1_0_2_3)))) (fun h => h) (R := 1) (fun r hr => duties_later (valF m ρ) jkF jrF ((c : Thread nD τ), SemLoc.dma (rcvS 0 2 3 inb_S3x4x4_S1x1x1_0_2_3)) r hr)) $$ [Arcv_0_2_3] with Zrcv_0_2_3
    · isplitr; · iexact Ircv_0_2_3
      iexact Arcv_0_2_3
    imod (Rounds.cell_close ER (Rd (valF m ρ) jkF jrF) (Set.mem_univ (K ((c : Thread nD τ), SemLoc.dma (sndS 0 3 1 inb_S3x4x4_S1x1x1_0_3_1)))) (fun h => h) (R := 1) (fun r hr => duties_later (valF m ρ) jkF jrF ((c : Thread nD τ), SemLoc.dma (sndS 0 3 1 inb_S3x4x4_S1x1x1_0_3_1)) r hr)) $$ [Asnd_0_3_1] with Zsnd_0_3_1
    · isplitr; · iexact Isnd_0_3_1
      iexact Asnd_0_3_1
    imod (Rounds.cell_close ER (Rd (valF m ρ) jkF jrF) (Set.mem_univ (K ((c : Thread nD τ), SemLoc.dma (rcvS 0 3 1 inb_S3x4x4_S1x1x1_0_3_1)))) (fun h => h) (R := 1) (fun r hr => duties_later (valF m ρ) jkF jrF ((c : Thread nD τ), SemLoc.dma (rcvS 0 3 1 inb_S3x4x4_S1x1x1_0_3_1)) r hr)) $$ [Arcv_0_3_1] with Zrcv_0_3_1
    · isplitr; · iexact Ircv_0_3_1
      iexact Arcv_0_3_1
    imod (Rounds.cell_close ER (Rd (valF m ρ) jkF jrF) (Set.mem_univ (K ((c : Thread nD τ), SemLoc.dma (sndS 0 3 2 inb_S3x4x4_S1x1x1_0_3_2)))) (fun h => h) (R := 1) (fun r hr => duties_later (valF m ρ) jkF jrF ((c : Thread nD τ), SemLoc.dma (sndS 0 3 2 inb_S3x4x4_S1x1x1_0_3_2)) r hr)) $$ [Asnd_0_3_2] with Zsnd_0_3_2
    · isplitr; · iexact Isnd_0_3_2
      iexact Asnd_0_3_2
    imod (Rounds.cell_close ER (Rd (valF m ρ) jkF jrF) (Set.mem_univ (K ((c : Thread nD τ), SemLoc.dma (rcvS 0 3 2 inb_S3x4x4_S1x1x1_0_3_2)))) (fun h => h) (R := 1) (fun r hr => duties_later (valF m ρ) jkF jrF ((c : Thread nD τ), SemLoc.dma (rcvS 0 3 2 inb_S3x4x4_S1x1x1_0_3_2)) r hr)) $$ [Arcv_0_3_2] with Zrcv_0_3_2
    · isplitr; · iexact Ircv_0_3_2
      iexact Arcv_0_3_2
    imod (Rounds.cell_close ER (Rd (valF m ρ) jkF jrF) (Set.mem_univ (K ((c : Thread nD τ), SemLoc.dma (sndS 0 3 3 inb_S3x4x4_S1x1x1_0_3_3)))) (fun h => h) (R := 1) (fun r hr => duties_later (valF m ρ) jkF jrF ((c : Thread nD τ), SemLoc.dma (sndS 0 3 3 inb_S3x4x4_S1x1x1_0_3_3)) r hr)) $$ [Asnd_0_3_3] with Zsnd_0_3_3
    · isplitr; · iexact Isnd_0_3_3
      iexact Asnd_0_3_3
    imod (Rounds.cell_close ER (Rd (valF m ρ) jkF jrF) (Set.mem_univ (K ((c : Thread nD τ), SemLoc.dma (rcvS 0 3 3 inb_S3x4x4_S1x1x1_0_3_3)))) (fun h => h) (R := 1) (fun r hr => duties_later (valF m ρ) jkF jrF ((c : Thread nD τ), SemLoc.dma (rcvS 0 3 3 inb_S3x4x4_S1x1x1_0_3_3)) r hr)) $$ [Arcv_0_3_3] with Zrcv_0_3_3
    · isplitr; · iexact Ircv_0_3_3
      iexact Arcv_0_3_3
    imod (Rounds.cell_close ER (Rd (valF m ρ) jkF jrF) (Set.mem_univ (K ((c : Thread nD τ), SemLoc.dma (sndS 1 0 1 inb_S3x4x4_S1x1x1_1_0_1)))) (fun h => h) (R := 1) (fun r hr => duties_later (valF m ρ) jkF jrF ((c : Thread nD τ), SemLoc.dma (sndS 1 0 1 inb_S3x4x4_S1x1x1_1_0_1)) r hr)) $$ [Asnd_1_0_1] with Zsnd_1_0_1
    · isplitr; · iexact Isnd_1_0_1
      iexact Asnd_1_0_1
    imod (Rounds.cell_close ER (Rd (valF m ρ) jkF jrF) (Set.mem_univ (K ((c : Thread nD τ), SemLoc.dma (rcvS 1 0 1 inb_S3x4x4_S1x1x1_1_0_1)))) (fun h => h) (R := 1) (fun r hr => duties_later (valF m ρ) jkF jrF ((c : Thread nD τ), SemLoc.dma (rcvS 1 0 1 inb_S3x4x4_S1x1x1_1_0_1)) r hr)) $$ [Arcv_1_0_1] with Zrcv_1_0_1
    · isplitr; · iexact Ircv_1_0_1
      iexact Arcv_1_0_1
    imod (Rounds.cell_close ER (Rd (valF m ρ) jkF jrF) (Set.mem_univ (K ((c : Thread nD τ), SemLoc.dma (sndS 1 0 2 inb_S3x4x4_S1x1x1_1_0_2)))) (fun h => h) (R := 1) (fun r hr => duties_later (valF m ρ) jkF jrF ((c : Thread nD τ), SemLoc.dma (sndS 1 0 2 inb_S3x4x4_S1x1x1_1_0_2)) r hr)) $$ [Asnd_1_0_2] with Zsnd_1_0_2
    · isplitr; · iexact Isnd_1_0_2
      iexact Asnd_1_0_2
    imod (Rounds.cell_close ER (Rd (valF m ρ) jkF jrF) (Set.mem_univ (K ((c : Thread nD τ), SemLoc.dma (rcvS 1 0 2 inb_S3x4x4_S1x1x1_1_0_2)))) (fun h => h) (R := 1) (fun r hr => duties_later (valF m ρ) jkF jrF ((c : Thread nD τ), SemLoc.dma (rcvS 1 0 2 inb_S3x4x4_S1x1x1_1_0_2)) r hr)) $$ [Arcv_1_0_2] with Zrcv_1_0_2
    · isplitr; · iexact Ircv_1_0_2
      iexact Arcv_1_0_2
    imod (Rounds.cell_close ER (Rd (valF m ρ) jkF jrF) (Set.mem_univ (K ((c : Thread nD τ), SemLoc.dma (sndS 1 0 3 inb_S3x4x4_S1x1x1_1_0_3)))) (fun h => h) (R := 1) (fun r hr => duties_later (valF m ρ) jkF jrF ((c : Thread nD τ), SemLoc.dma (sndS 1 0 3 inb_S3x4x4_S1x1x1_1_0_3)) r hr)) $$ [Asnd_1_0_3] with Zsnd_1_0_3
    · isplitr; · iexact Isnd_1_0_3
      iexact Asnd_1_0_3
    imod (Rounds.cell_close ER (Rd (valF m ρ) jkF jrF) (Set.mem_univ (K ((c : Thread nD τ), SemLoc.dma (rcvS 1 0 3 inb_S3x4x4_S1x1x1_1_0_3)))) (fun h => h) (R := 1) (fun r hr => duties_later (valF m ρ) jkF jrF ((c : Thread nD τ), SemLoc.dma (rcvS 1 0 3 inb_S3x4x4_S1x1x1_1_0_3)) r hr)) $$ [Arcv_1_0_3] with Zrcv_1_0_3
    · isplitr; · iexact Ircv_1_0_3
      iexact Arcv_1_0_3
    imod (Rounds.cell_close ER (Rd (valF m ρ) jkF jrF) (Set.mem_univ (K ((c : Thread nD τ), SemLoc.dma (sndS 1 1 1 inb_S3x4x4_S1x1x1_1_1_1)))) (fun h => h) (R := 1) (fun r hr => duties_later (valF m ρ) jkF jrF ((c : Thread nD τ), SemLoc.dma (sndS 1 1 1 inb_S3x4x4_S1x1x1_1_1_1)) r hr)) $$ [Asnd_1_1_1] with Zsnd_1_1_1
    · isplitr; · iexact Isnd_1_1_1
      iexact Asnd_1_1_1
    imod (Rounds.cell_close ER (Rd (valF m ρ) jkF jrF) (Set.mem_univ (K ((c : Thread nD τ), SemLoc.dma (rcvS 1 1 1 inb_S3x4x4_S1x1x1_1_1_1)))) (fun h => h) (R := 1) (fun r hr => duties_later (valF m ρ) jkF jrF ((c : Thread nD τ), SemLoc.dma (rcvS 1 1 1 inb_S3x4x4_S1x1x1_1_1_1)) r hr)) $$ [Arcv_1_1_1] with Zrcv_1_1_1
    · isplitr; · iexact Ircv_1_1_1
      iexact Arcv_1_1_1
    imod (Rounds.cell_close ER (Rd (valF m ρ) jkF jrF) (Set.mem_univ (K ((c : Thread nD τ), SemLoc.dma (sndS 1 1 2 inb_S3x4x4_S1x1x1_1_1_2)))) (fun h => h) (R := 1) (fun r hr => duties_later (valF m ρ) jkF jrF ((c : Thread nD τ), SemLoc.dma (sndS 1 1 2 inb_S3x4x4_S1x1x1_1_1_2)) r hr)) $$ [Asnd_1_1_2] with Zsnd_1_1_2
    · isplitr; · iexact Isnd_1_1_2
      iexact Asnd_1_1_2
    imod (Rounds.cell_close ER (Rd (valF m ρ) jkF jrF) (Set.mem_univ (K ((c : Thread nD τ), SemLoc.dma (rcvS 1 1 2 inb_S3x4x4_S1x1x1_1_1_2)))) (fun h => h) (R := 1) (fun r hr => duties_later (valF m ρ) jkF jrF ((c : Thread nD τ), SemLoc.dma (rcvS 1 1 2 inb_S3x4x4_S1x1x1_1_1_2)) r hr)) $$ [Arcv_1_1_2] with Zrcv_1_1_2
    · isplitr; · iexact Ircv_1_1_2
      iexact Arcv_1_1_2
    imod (Rounds.cell_close ER (Rd (valF m ρ) jkF jrF) (Set.mem_univ (K ((c : Thread nD τ), SemLoc.dma (sndS 1 1 3 inb_S3x4x4_S1x1x1_1_1_3)))) (fun h => h) (R := 1) (fun r hr => duties_later (valF m ρ) jkF jrF ((c : Thread nD τ), SemLoc.dma (sndS 1 1 3 inb_S3x4x4_S1x1x1_1_1_3)) r hr)) $$ [Asnd_1_1_3] with Zsnd_1_1_3
    · isplitr; · iexact Isnd_1_1_3
      iexact Asnd_1_1_3
    imod (Rounds.cell_close ER (Rd (valF m ρ) jkF jrF) (Set.mem_univ (K ((c : Thread nD τ), SemLoc.dma (rcvS 1 1 3 inb_S3x4x4_S1x1x1_1_1_3)))) (fun h => h) (R := 1) (fun r hr => duties_later (valF m ρ) jkF jrF ((c : Thread nD τ), SemLoc.dma (rcvS 1 1 3 inb_S3x4x4_S1x1x1_1_1_3)) r hr)) $$ [Arcv_1_1_3] with Zrcv_1_1_3
    · isplitr; · iexact Ircv_1_1_3
      iexact Arcv_1_1_3
    imod (Rounds.cell_close ER (Rd (valF m ρ) jkF jrF) (Set.mem_univ (K ((c : Thread nD τ), SemLoc.dma (sndS 1 2 1 inb_S3x4x4_S1x1x1_1_2_1)))) (fun h => h) (R := 1) (fun r hr => duties_later (valF m ρ) jkF jrF ((c : Thread nD τ), SemLoc.dma (sndS 1 2 1 inb_S3x4x4_S1x1x1_1_2_1)) r hr)) $$ [Asnd_1_2_1] with Zsnd_1_2_1
    · isplitr; · iexact Isnd_1_2_1
      iexact Asnd_1_2_1
    imod (Rounds.cell_close ER (Rd (valF m ρ) jkF jrF) (Set.mem_univ (K ((c : Thread nD τ), SemLoc.dma (rcvS 1 2 1 inb_S3x4x4_S1x1x1_1_2_1)))) (fun h => h) (R := 1) (fun r hr => duties_later (valF m ρ) jkF jrF ((c : Thread nD τ), SemLoc.dma (rcvS 1 2 1 inb_S3x4x4_S1x1x1_1_2_1)) r hr)) $$ [Arcv_1_2_1] with Zrcv_1_2_1
    · isplitr; · iexact Ircv_1_2_1
      iexact Arcv_1_2_1
    imod (Rounds.cell_close ER (Rd (valF m ρ) jkF jrF) (Set.mem_univ (K ((c : Thread nD τ), SemLoc.dma (sndS 1 2 2 inb_S3x4x4_S1x1x1_1_2_2)))) (fun h => h) (R := 1) (fun r hr => duties_later (valF m ρ) jkF jrF ((c : Thread nD τ), SemLoc.dma (sndS 1 2 2 inb_S3x4x4_S1x1x1_1_2_2)) r hr)) $$ [Asnd_1_2_2] with Zsnd_1_2_2
    · isplitr; · iexact Isnd_1_2_2
      iexact Asnd_1_2_2
    imod (Rounds.cell_close ER (Rd (valF m ρ) jkF jrF) (Set.mem_univ (K ((c : Thread nD τ), SemLoc.dma (rcvS 1 2 2 inb_S3x4x4_S1x1x1_1_2_2)))) (fun h => h) (R := 1) (fun r hr => duties_later (valF m ρ) jkF jrF ((c : Thread nD τ), SemLoc.dma (rcvS 1 2 2 inb_S3x4x4_S1x1x1_1_2_2)) r hr)) $$ [Arcv_1_2_2] with Zrcv_1_2_2
    · isplitr; · iexact Ircv_1_2_2
      iexact Arcv_1_2_2
    imod (Rounds.cell_close ER (Rd (valF m ρ) jkF jrF) (Set.mem_univ (K ((c : Thread nD τ), SemLoc.dma (sndS 1 2 3 inb_S3x4x4_S1x1x1_1_2_3)))) (fun h => h) (R := 1) (fun r hr => duties_later (valF m ρ) jkF jrF ((c : Thread nD τ), SemLoc.dma (sndS 1 2 3 inb_S3x4x4_S1x1x1_1_2_3)) r hr)) $$ [Asnd_1_2_3] with Zsnd_1_2_3
    · isplitr; · iexact Isnd_1_2_3
      iexact Asnd_1_2_3
    imod (Rounds.cell_close ER (Rd (valF m ρ) jkF jrF) (Set.mem_univ (K ((c : Thread nD τ), SemLoc.dma (rcvS 1 2 3 inb_S3x4x4_S1x1x1_1_2_3)))) (fun h => h) (R := 1) (fun r hr => duties_later (valF m ρ) jkF jrF ((c : Thread nD τ), SemLoc.dma (rcvS 1 2 3 inb_S3x4x4_S1x1x1_1_2_3)) r hr)) $$ [Arcv_1_2_3] with Zrcv_1_2_3
    · isplitr; · iexact Ircv_1_2_3
      iexact Arcv_1_2_3
    imod (Rounds.cell_close ER (Rd (valF m ρ) jkF jrF) (Set.mem_univ (K ((c : Thread nD τ), SemLoc.dma (sndS 1 3 1 inb_S3x4x4_S1x1x1_1_3_1)))) (fun h => h) (R := 1) (fun r hr => duties_later (valF m ρ) jkF jrF ((c : Thread nD τ), SemLoc.dma (sndS 1 3 1 inb_S3x4x4_S1x1x1_1_3_1)) r hr)) $$ [Asnd_1_3_1] with Zsnd_1_3_1
    · isplitr; · iexact Isnd_1_3_1
      iexact Asnd_1_3_1
    imod (Rounds.cell_close ER (Rd (valF m ρ) jkF jrF) (Set.mem_univ (K ((c : Thread nD τ), SemLoc.dma (rcvS 1 3 1 inb_S3x4x4_S1x1x1_1_3_1)))) (fun h => h) (R := 1) (fun r hr => duties_later (valF m ρ) jkF jrF ((c : Thread nD τ), SemLoc.dma (rcvS 1 3 1 inb_S3x4x4_S1x1x1_1_3_1)) r hr)) $$ [Arcv_1_3_1] with Zrcv_1_3_1
    · isplitr; · iexact Ircv_1_3_1
      iexact Arcv_1_3_1
    imod (Rounds.cell_close ER (Rd (valF m ρ) jkF jrF) (Set.mem_univ (K ((c : Thread nD τ), SemLoc.dma (sndS 1 3 2 inb_S3x4x4_S1x1x1_1_3_2)))) (fun h => h) (R := 1) (fun r hr => duties_later (valF m ρ) jkF jrF ((c : Thread nD τ), SemLoc.dma (sndS 1 3 2 inb_S3x4x4_S1x1x1_1_3_2)) r hr)) $$ [Asnd_1_3_2] with Zsnd_1_3_2
    · isplitr; · iexact Isnd_1_3_2
      iexact Asnd_1_3_2
    imod (Rounds.cell_close ER (Rd (valF m ρ) jkF jrF) (Set.mem_univ (K ((c : Thread nD τ), SemLoc.dma (rcvS 1 3 2 inb_S3x4x4_S1x1x1_1_3_2)))) (fun h => h) (R := 1) (fun r hr => duties_later (valF m ρ) jkF jrF ((c : Thread nD τ), SemLoc.dma (rcvS 1 3 2 inb_S3x4x4_S1x1x1_1_3_2)) r hr)) $$ [Arcv_1_3_2] with Zrcv_1_3_2
    · isplitr; · iexact Ircv_1_3_2
      iexact Arcv_1_3_2
    imod (Rounds.cell_close ER (Rd (valF m ρ) jkF jrF) (Set.mem_univ (K ((c : Thread nD τ), SemLoc.dma (sndS 1 3 3 inb_S3x4x4_S1x1x1_1_3_3)))) (fun h => h) (R := 1) (fun r hr => duties_later (valF m ρ) jkF jrF ((c : Thread nD τ), SemLoc.dma (sndS 1 3 3 inb_S3x4x4_S1x1x1_1_3_3)) r hr)) $$ [Asnd_1_3_3] with Zsnd_1_3_3
    · isplitr; · iexact Isnd_1_3_3
      iexact Asnd_1_3_3
    imod (Rounds.cell_close ER (Rd (valF m ρ) jkF jrF) (Set.mem_univ (K ((c : Thread nD τ), SemLoc.dma (rcvS 1 3 3 inb_S3x4x4_S1x1x1_1_3_3)))) (fun h => h) (R := 1) (fun r hr => duties_later (valF m ρ) jkF jrF ((c : Thread nD τ), SemLoc.dma (rcvS 1 3 3 inb_S3x4x4_S1x1x1_1_3_3)) r hr)) $$ [Arcv_1_3_3] with Zrcv_1_3_3
    · isplitr; · iexact Ircv_1_3_3
      iexact Arcv_1_3_3
    imod (Rounds.cell_close ER (Rd (valF m ρ) jkF jrF) (Set.mem_univ (K ((c : Thread nD τ), SemLoc.dma (sndS 2 0 1 inb_S3x4x4_S1x1x1_2_0_1)))) (fun h => h) (R := 1) (fun r hr => duties_later (valF m ρ) jkF jrF ((c : Thread nD τ), SemLoc.dma (sndS 2 0 1 inb_S3x4x4_S1x1x1_2_0_1)) r hr)) $$ [Asnd_2_0_1] with Zsnd_2_0_1
    · isplitr; · iexact Isnd_2_0_1
      iexact Asnd_2_0_1
    imod (Rounds.cell_close ER (Rd (valF m ρ) jkF jrF) (Set.mem_univ (K ((c : Thread nD τ), SemLoc.dma (rcvS 2 0 1 inb_S3x4x4_S1x1x1_2_0_1)))) (fun h => h) (R := 1) (fun r hr => duties_later (valF m ρ) jkF jrF ((c : Thread nD τ), SemLoc.dma (rcvS 2 0 1 inb_S3x4x4_S1x1x1_2_0_1)) r hr)) $$ [Arcv_2_0_1] with Zrcv_2_0_1
    · isplitr; · iexact Ircv_2_0_1
      iexact Arcv_2_0_1
    imod (Rounds.cell_close ER (Rd (valF m ρ) jkF jrF) (Set.mem_univ (K ((c : Thread nD τ), SemLoc.dma (sndS 2 0 2 inb_S3x4x4_S1x1x1_2_0_2)))) (fun h => h) (R := 1) (fun r hr => duties_later (valF m ρ) jkF jrF ((c : Thread nD τ), SemLoc.dma (sndS 2 0 2 inb_S3x4x4_S1x1x1_2_0_2)) r hr)) $$ [Asnd_2_0_2] with Zsnd_2_0_2
    · isplitr; · iexact Isnd_2_0_2
      iexact Asnd_2_0_2
    imod (Rounds.cell_close ER (Rd (valF m ρ) jkF jrF) (Set.mem_univ (K ((c : Thread nD τ), SemLoc.dma (rcvS 2 0 2 inb_S3x4x4_S1x1x1_2_0_2)))) (fun h => h) (R := 1) (fun r hr => duties_later (valF m ρ) jkF jrF ((c : Thread nD τ), SemLoc.dma (rcvS 2 0 2 inb_S3x4x4_S1x1x1_2_0_2)) r hr)) $$ [Arcv_2_0_2] with Zrcv_2_0_2
    · isplitr; · iexact Ircv_2_0_2
      iexact Arcv_2_0_2
    imod (Rounds.cell_close ER (Rd (valF m ρ) jkF jrF) (Set.mem_univ (K ((c : Thread nD τ), SemLoc.dma (sndS 2 0 3 inb_S3x4x4_S1x1x1_2_0_3)))) (fun h => h) (R := 1) (fun r hr => duties_later (valF m ρ) jkF jrF ((c : Thread nD τ), SemLoc.dma (sndS 2 0 3 inb_S3x4x4_S1x1x1_2_0_3)) r hr)) $$ [Asnd_2_0_3] with Zsnd_2_0_3
    · isplitr; · iexact Isnd_2_0_3
      iexact Asnd_2_0_3
    imod (Rounds.cell_close ER (Rd (valF m ρ) jkF jrF) (Set.mem_univ (K ((c : Thread nD τ), SemLoc.dma (rcvS 2 0 3 inb_S3x4x4_S1x1x1_2_0_3)))) (fun h => h) (R := 1) (fun r hr => duties_later (valF m ρ) jkF jrF ((c : Thread nD τ), SemLoc.dma (rcvS 2 0 3 inb_S3x4x4_S1x1x1_2_0_3)) r hr)) $$ [Arcv_2_0_3] with Zrcv_2_0_3
    · isplitr; · iexact Ircv_2_0_3
      iexact Arcv_2_0_3
    sl_step
    iapply Hk
    unfold bodyPost Φ₁
    have hag_0_0 := agree_of_read (slotM 0 0 0 inb_S2x4x4x64x256_S1x1x1x64x256_0_0_0_0_0).view (jkF c) _ hfs_0_0
    icases (pointsTo_congr_on (c : Thread nD τ) (slotM 0 0 0 inb_S2x4x4x64x256_S1x1x1x64x256_0_0_0_0_0).view _ hag_0_0).1 $$ Asnd_0_0_1_pay1 with Asnd_0_0_1_pay1
    icases (pointsTo_congr_on (c : Thread nD τ) (slotM 0 0 0 inb_S2x4x4x64x256_S1x1x1x64x256_0_0_0_0_0).view _ hag_0_0).1 $$ Asnd_0_0_2_pay1 with Asnd_0_0_2_pay1
    icases (pointsTo_congr_on (c : Thread nD τ) (slotM 0 0 0 inb_S2x4x4x64x256_S1x1x1x64x256_0_0_0_0_0).view _ hag_0_0).1 $$ Asnd_0_0_3_pay1 with Asnd_0_0_3_pay1
    ihave S_0_0_0 := (share_split4 _ _).2 $$ [S_0_0_0 Asnd_0_0_1_pay1 Asnd_0_0_2_pay1 Asnd_0_0_3_pay1]
    · isplitl [S_0_0_0]; · iexact S_0_0_0
      isplitl [Asnd_0_0_1_pay1]; · iexact Asnd_0_0_1_pay1
      isplitl [Asnd_0_0_2_pay1]; · iexact Asnd_0_0_2_pay1
      iexact Asnd_0_0_3_pay1
    have hag_0_1 := agree_of_read (slotM 0 1 0 inb_S2x4x4x64x256_S1x1x1x64x256_0_1_0_0_0).view (jkF c) _ hfs_0_1
    icases (pointsTo_congr_on (c : Thread nD τ) (slotM 0 1 0 inb_S2x4x4x64x256_S1x1x1x64x256_0_1_0_0_0).view _ hag_0_1).1 $$ Asnd_0_1_1_pay1 with Asnd_0_1_1_pay1
    icases (pointsTo_congr_on (c : Thread nD τ) (slotM 0 1 0 inb_S2x4x4x64x256_S1x1x1x64x256_0_1_0_0_0).view _ hag_0_1).1 $$ Asnd_0_1_2_pay1 with Asnd_0_1_2_pay1
    icases (pointsTo_congr_on (c : Thread nD τ) (slotM 0 1 0 inb_S2x4x4x64x256_S1x1x1x64x256_0_1_0_0_0).view _ hag_0_1).1 $$ Asnd_0_1_3_pay1 with Asnd_0_1_3_pay1
    ihave S_0_1_0 := (share_split4 _ _).2 $$ [S_0_1_0 Asnd_0_1_1_pay1 Asnd_0_1_2_pay1 Asnd_0_1_3_pay1]
    · isplitl [S_0_1_0]; · iexact S_0_1_0
      isplitl [Asnd_0_1_1_pay1]; · iexact Asnd_0_1_1_pay1
      isplitl [Asnd_0_1_2_pay1]; · iexact Asnd_0_1_2_pay1
      iexact Asnd_0_1_3_pay1
    have hag_0_2 := agree_of_read (slotM 0 2 0 inb_S2x4x4x64x256_S1x1x1x64x256_0_2_0_0_0).view (jkF c) _ hfs_0_2
    icases (pointsTo_congr_on (c : Thread nD τ) (slotM 0 2 0 inb_S2x4x4x64x256_S1x1x1x64x256_0_2_0_0_0).view _ hag_0_2).1 $$ Asnd_0_2_1_pay1 with Asnd_0_2_1_pay1
    icases (pointsTo_congr_on (c : Thread nD τ) (slotM 0 2 0 inb_S2x4x4x64x256_S1x1x1x64x256_0_2_0_0_0).view _ hag_0_2).1 $$ Asnd_0_2_2_pay1 with Asnd_0_2_2_pay1
    icases (pointsTo_congr_on (c : Thread nD τ) (slotM 0 2 0 inb_S2x4x4x64x256_S1x1x1x64x256_0_2_0_0_0).view _ hag_0_2).1 $$ Asnd_0_2_3_pay1 with Asnd_0_2_3_pay1
    ihave S_0_2_0 := (share_split4 _ _).2 $$ [S_0_2_0 Asnd_0_2_1_pay1 Asnd_0_2_2_pay1 Asnd_0_2_3_pay1]
    · isplitl [S_0_2_0]; · iexact S_0_2_0
      isplitl [Asnd_0_2_1_pay1]; · iexact Asnd_0_2_1_pay1
      isplitl [Asnd_0_2_2_pay1]; · iexact Asnd_0_2_2_pay1
      iexact Asnd_0_2_3_pay1
    have hag_0_3 := agree_of_read (slotM 0 3 0 inb_S2x4x4x64x256_S1x1x1x64x256_0_3_0_0_0).view (jkF c) _ hfs_0_3
    icases (pointsTo_congr_on (c : Thread nD τ) (slotM 0 3 0 inb_S2x4x4x64x256_S1x1x1x64x256_0_3_0_0_0).view _ hag_0_3).1 $$ Asnd_0_3_1_pay1 with Asnd_0_3_1_pay1
    icases (pointsTo_congr_on (c : Thread nD τ) (slotM 0 3 0 inb_S2x4x4x64x256_S1x1x1x64x256_0_3_0_0_0).view _ hag_0_3).1 $$ Asnd_0_3_2_pay1 with Asnd_0_3_2_pay1
    icases (pointsTo_congr_on (c : Thread nD τ) (slotM 0 3 0 inb_S2x4x4x64x256_S1x1x1x64x256_0_3_0_0_0).view _ hag_0_3).1 $$ Asnd_0_3_3_pay1 with Asnd_0_3_3_pay1
    ihave S_0_3_0 := (share_split4 _ _).2 $$ [S_0_3_0 Asnd_0_3_1_pay1 Asnd_0_3_2_pay1 Asnd_0_3_3_pay1]
    · isplitl [S_0_3_0]; · iexact S_0_3_0
      isplitl [Asnd_0_3_1_pay1]; · iexact Asnd_0_3_1_pay1
      isplitl [Asnd_0_3_2_pay1]; · iexact Asnd_0_3_2_pay1
      iexact Asnd_0_3_3_pay1
    have hag_1_0 := agree_of_read (slotM 1 0 0 inb_S2x4x4x64x256_S1x1x1x64x256_1_0_0_0_0).view (jkF c) _ hfs_1_0
    icases (pointsTo_congr_on (c : Thread nD τ) (slotM 1 0 0 inb_S2x4x4x64x256_S1x1x1x64x256_1_0_0_0_0).view _ hag_1_0).1 $$ Asnd_1_0_1_pay1 with Asnd_1_0_1_pay1
    icases (pointsTo_congr_on (c : Thread nD τ) (slotM 1 0 0 inb_S2x4x4x64x256_S1x1x1x64x256_1_0_0_0_0).view _ hag_1_0).1 $$ Asnd_1_0_2_pay1 with Asnd_1_0_2_pay1
    icases (pointsTo_congr_on (c : Thread nD τ) (slotM 1 0 0 inb_S2x4x4x64x256_S1x1x1x64x256_1_0_0_0_0).view _ hag_1_0).1 $$ Asnd_1_0_3_pay1 with Asnd_1_0_3_pay1
    ihave S_1_0_0 := (share_split4 _ _).2 $$ [S_1_0_0 Asnd_1_0_1_pay1 Asnd_1_0_2_pay1 Asnd_1_0_3_pay1]
    · isplitl [S_1_0_0]; · iexact S_1_0_0
      isplitl [Asnd_1_0_1_pay1]; · iexact Asnd_1_0_1_pay1
      isplitl [Asnd_1_0_2_pay1]; · iexact Asnd_1_0_2_pay1
      iexact Asnd_1_0_3_pay1
    have hag_1_1 := agree_of_read (slotM 1 1 0 inb_S2x4x4x64x256_S1x1x1x64x256_1_1_0_0_0).view (jkF c) _ hfs_1_1
    icases (pointsTo_congr_on (c : Thread nD τ) (slotM 1 1 0 inb_S2x4x4x64x256_S1x1x1x64x256_1_1_0_0_0).view _ hag_1_1).1 $$ Asnd_1_1_1_pay1 with Asnd_1_1_1_pay1
    icases (pointsTo_congr_on (c : Thread nD τ) (slotM 1 1 0 inb_S2x4x4x64x256_S1x1x1x64x256_1_1_0_0_0).view _ hag_1_1).1 $$ Asnd_1_1_2_pay1 with Asnd_1_1_2_pay1
    icases (pointsTo_congr_on (c : Thread nD τ) (slotM 1 1 0 inb_S2x4x4x64x256_S1x1x1x64x256_1_1_0_0_0).view _ hag_1_1).1 $$ Asnd_1_1_3_pay1 with Asnd_1_1_3_pay1
    ihave S_1_1_0 := (share_split4 _ _).2 $$ [S_1_1_0 Asnd_1_1_1_pay1 Asnd_1_1_2_pay1 Asnd_1_1_3_pay1]
    · isplitl [S_1_1_0]; · iexact S_1_1_0
      isplitl [Asnd_1_1_1_pay1]; · iexact Asnd_1_1_1_pay1
      isplitl [Asnd_1_1_2_pay1]; · iexact Asnd_1_1_2_pay1
      iexact Asnd_1_1_3_pay1
    have hag_1_2 := agree_of_read (slotM 1 2 0 inb_S2x4x4x64x256_S1x1x1x64x256_1_2_0_0_0).view (jkF c) _ hfs_1_2
    icases (pointsTo_congr_on (c : Thread nD τ) (slotM 1 2 0 inb_S2x4x4x64x256_S1x1x1x64x256_1_2_0_0_0).view _ hag_1_2).1 $$ Asnd_1_2_1_pay1 with Asnd_1_2_1_pay1
    icases (pointsTo_congr_on (c : Thread nD τ) (slotM 1 2 0 inb_S2x4x4x64x256_S1x1x1x64x256_1_2_0_0_0).view _ hag_1_2).1 $$ Asnd_1_2_2_pay1 with Asnd_1_2_2_pay1
    icases (pointsTo_congr_on (c : Thread nD τ) (slotM 1 2 0 inb_S2x4x4x64x256_S1x1x1x64x256_1_2_0_0_0).view _ hag_1_2).1 $$ Asnd_1_2_3_pay1 with Asnd_1_2_3_pay1
    ihave S_1_2_0 := (share_split4 _ _).2 $$ [S_1_2_0 Asnd_1_2_1_pay1 Asnd_1_2_2_pay1 Asnd_1_2_3_pay1]
    · isplitl [S_1_2_0]; · iexact S_1_2_0
      isplitl [Asnd_1_2_1_pay1]; · iexact Asnd_1_2_1_pay1
      isplitl [Asnd_1_2_2_pay1]; · iexact Asnd_1_2_2_pay1
      iexact Asnd_1_2_3_pay1
    have hag_1_3 := agree_of_read (slotM 1 3 0 inb_S2x4x4x64x256_S1x1x1x64x256_1_3_0_0_0).view (jkF c) _ hfs_1_3
    icases (pointsTo_congr_on (c : Thread nD τ) (slotM 1 3 0 inb_S2x4x4x64x256_S1x1x1x64x256_1_3_0_0_0).view _ hag_1_3).1 $$ Asnd_1_3_1_pay1 with Asnd_1_3_1_pay1
    icases (pointsTo_congr_on (c : Thread nD τ) (slotM 1 3 0 inb_S2x4x4x64x256_S1x1x1x64x256_1_3_0_0_0).view _ hag_1_3).1 $$ Asnd_1_3_2_pay1 with Asnd_1_3_2_pay1
    icases (pointsTo_congr_on (c : Thread nD τ) (slotM 1 3 0 inb_S2x4x4x64x256_S1x1x1x64x256_1_3_0_0_0).view _ hag_1_3).1 $$ Asnd_1_3_3_pay1 with Asnd_1_3_3_pay1
    ihave S_1_3_0 := (share_split4 _ _).2 $$ [S_1_3_0 Asnd_1_3_1_pay1 Asnd_1_3_2_pay1 Asnd_1_3_3_pay1]
    · isplitl [S_1_3_0]; · iexact S_1_3_0
      isplitl [Asnd_1_3_1_pay1]; · iexact Asnd_1_3_1_pay1
      isplitl [Asnd_1_3_2_pay1]; · iexact Asnd_1_3_2_pay1
      iexact Asnd_1_3_3_pay1
    isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1 RS_0_0 Asnd_2_0_1_pay1 Asnd_2_0_2_pay1 Asnd_2_0_3_pay1 RS_1_0 Arcv_2_0_1_pay1 Arcv_2_0_2_pay1 Arcv_2_0_3_pay1 Zsnd_0_0_1 Zsnd_0_0_2 Zsnd_0_0_3 Zsnd_0_1_1 Zsnd_0_1_2 Zsnd_0_1_3 Zsnd_0_2_1 Zsnd_0_2_2 Zsnd_0_2_3 Zsnd_0_3_1 Zsnd_0_3_2 Zsnd_0_3_3 Zsnd_1_0_1 Zsnd_1_0_2 Zsnd_1_0_3 Zsnd_1_1_1 Zsnd_1_1_2 Zsnd_1_1_3 Zsnd_1_2_1 Zsnd_1_2_2 Zsnd_1_2_3 Zsnd_1_3_1 Zsnd_1_3_2 Zsnd_1_3_3 Zsnd_2_0_1 Zsnd_2_0_2 Zsnd_2_0_3 Zrcv_0_0_1 Zrcv_0_0_2 Zrcv_0_0_3 Zrcv_0_1_1 Zrcv_0_1_2 Zrcv_0_1_3 Zrcv_0_2_1 Zrcv_0_2_2 Zrcv_0_2_3 Zrcv_0_3_1 Zrcv_0_3_2 Zrcv_0_3_3 Zrcv_1_0_1 Zrcv_1_0_2 Zrcv_1_0_3 Zrcv_1_1_1 Zrcv_1_1_2 Zrcv_1_1_3 Zrcv_1_2_1 Zrcv_1_2_2 Zrcv_1_2_3 Zrcv_1_3_1 Zrcv_1_3_2 Zrcv_1_3_3 Zrcv_2_0_1 Zrcv_2_0_2 Zrcv_2_0_3]
    · isplitl [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      iapply (scratch0_join (F := F) c) $$ [S_0_0_0 Arcv_0_0_1_pay1 Arcv_0_0_2_pay1 Arcv_0_0_3_pay1 S_0_1_0 Arcv_0_1_1_pay1 Arcv_0_1_2_pay1 Arcv_0_1_3_pay1 S_0_2_0 Arcv_0_2_1_pay1 Arcv_0_2_2_pay1 Arcv_0_2_3_pay1 S_0_3_0 Arcv_0_3_1_pay1 Arcv_0_3_2_pay1 Arcv_0_3_3_pay1 S_1_0_0 Arcv_1_0_1_pay1 Arcv_1_0_2_pay1 Arcv_1_0_3_pay1 S_1_1_0 Arcv_1_1_1_pay1 Arcv_1_1_2_pay1 Arcv_1_1_3_pay1 S_1_2_0 Arcv_1_2_1_pay1 Arcv_1_2_2_pay1 Arcv_1_2_3_pay1 S_1_3_0 Arcv_1_3_1_pay1 Arcv_1_3_2_pay1 Arcv_1_3_3_pay1]
      · isplitl [S_0_0_0]; · iexists _; iexact S_0_0_0
        isplitl [Arcv_0_0_1_pay1]; · iexists _; iexact Arcv_0_0_1_pay1
        isplitl [Arcv_0_0_2_pay1]; · iexists _; iexact Arcv_0_0_2_pay1
        isplitl [Arcv_0_0_3_pay1]; · iexists _; iexact Arcv_0_0_3_pay1
        isplitl [S_0_1_0]; · iexists _; iexact S_0_1_0
        isplitl [Arcv_0_1_1_pay1]; · iexists _; iexact Arcv_0_1_1_pay1
        isplitl [Arcv_0_1_2_pay1]; · iexists _; iexact Arcv_0_1_2_pay1
        isplitl [Arcv_0_1_3_pay1]; · iexists _; iexact Arcv_0_1_3_pay1
        isplitl [S_0_2_0]; · iexists _; iexact S_0_2_0
        isplitl [Arcv_0_2_1_pay1]; · iexists _; iexact Arcv_0_2_1_pay1
        isplitl [Arcv_0_2_2_pay1]; · iexists _; iexact Arcv_0_2_2_pay1
        isplitl [Arcv_0_2_3_pay1]; · iexists _; iexact Arcv_0_2_3_pay1
        isplitl [S_0_3_0]; · iexists _; iexact S_0_3_0
        isplitl [Arcv_0_3_1_pay1]; · iexists _; iexact Arcv_0_3_1_pay1
        isplitl [Arcv_0_3_2_pay1]; · iexists _; iexact Arcv_0_3_2_pay1
        isplitl [Arcv_0_3_3_pay1]; · iexists _; iexact Arcv_0_3_3_pay1
        isplitl [S_1_0_0]; · iexists _; iexact S_1_0_0
        isplitl [Arcv_1_0_1_pay1]; · iexists _; iexact Arcv_1_0_1_pay1
        isplitl [Arcv_1_0_2_pay1]; · iexists _; iexact Arcv_1_0_2_pay1
        isplitl [Arcv_1_0_3_pay1]; · iexists _; iexact Arcv_1_0_3_pay1
        isplitl [S_1_1_0]; · iexists _; iexact S_1_1_0
        isplitl [Arcv_1_1_1_pay1]; · iexists _; iexact Arcv_1_1_1_pay1
        isplitl [Arcv_1_1_2_pay1]; · iexists _; iexact Arcv_1_1_2_pay1
        isplitl [Arcv_1_1_3_pay1]; · iexists _; iexact Arcv_1_1_3_pay1
        isplitl [S_1_2_0]; · iexists _; iexact S_1_2_0
        isplitl [Arcv_1_2_1_pay1]; · iexists _; iexact Arcv_1_2_1_pay1
        isplitl [Arcv_1_2_2_pay1]; · iexists _; iexact Arcv_1_2_2_pay1
        isplitl [Arcv_1_2_3_pay1]; · iexists _; iexact Arcv_1_2_3_pay1
        isplitl [S_1_3_0]; · iexists _; iexact S_1_3_0
        isplitl [Arcv_1_3_1_pay1]; · iexists _; iexact Arcv_1_3_1_pay1
        isplitl [Arcv_1_3_2_pay1]; · iexists _; iexact Arcv_1_3_2_pay1
        iexists _; iexact Arcv_1_3_3_pay1
      isplitl [RS_0_0 Asnd_2_0_1_pay1 Asnd_2_0_2_pay1 Asnd_2_0_3_pay1 RS_1_0 Arcv_2_0_1_pay1 Arcv_2_0_2_pay1 Arcv_2_0_3_pay1]
      iapply (scratch1_join (F := F) c) $$ [RS_0_0 Asnd_2_0_1_pay1 Asnd_2_0_2_pay1 Asnd_2_0_3_pay1 RS_1_0 Arcv_2_0_1_pay1 Arcv_2_0_2_pay1 Arcv_2_0_3_pay1]
      · isplitl [RS_0_0]; · iexists _; iexact RS_0_0
        isplitl [Asnd_2_0_1_pay1]; · iexists _; iexact Asnd_2_0_1_pay1
        isplitl [Asnd_2_0_2_pay1]; · iexists _; iexact Asnd_2_0_2_pay1
        isplitl [Asnd_2_0_3_pay1]; · iexists _; iexact Asnd_2_0_3_pay1
        isplitl [RS_1_0]; · iexists _; iexact RS_1_0
        isplitl [Arcv_2_0_1_pay1]; · iexists _; iexact Arcv_2_0_1_pay1
        isplitl [Arcv_2_0_2_pay1]; · iexists _; iexact Arcv_2_0_2_pay1
        iexists _; iexact Arcv_2_0_3_pay1
      isplitl [Zsnd_0_0_1]; · iexact Zsnd_0_0_1
      isplitl [Zsnd_0_0_2]; · iexact Zsnd_0_0_2
      isplitl [Zsnd_0_0_3]; · iexact Zsnd_0_0_3
      isplitl [Zsnd_0_1_1]; · iexact Zsnd_0_1_1
      isplitl [Zsnd_0_1_2]; · iexact Zsnd_0_1_2
      isplitl [Zsnd_0_1_3]; · iexact Zsnd_0_1_3
      isplitl [Zsnd_0_2_1]; · iexact Zsnd_0_2_1
      isplitl [Zsnd_0_2_2]; · iexact Zsnd_0_2_2
      isplitl [Zsnd_0_2_3]; · iexact Zsnd_0_2_3
      isplitl [Zsnd_0_3_1]; · iexact Zsnd_0_3_1
      isplitl [Zsnd_0_3_2]; · iexact Zsnd_0_3_2
      isplitl [Zsnd_0_3_3]; · iexact Zsnd_0_3_3
      isplitl [Zsnd_1_0_1]; · iexact Zsnd_1_0_1
      isplitl [Zsnd_1_0_2]; · iexact Zsnd_1_0_2
      isplitl [Zsnd_1_0_3]; · iexact Zsnd_1_0_3
      isplitl [Zsnd_1_1_1]; · iexact Zsnd_1_1_1
      isplitl [Zsnd_1_1_2]; · iexact Zsnd_1_1_2
      isplitl [Zsnd_1_1_3]; · iexact Zsnd_1_1_3
      isplitl [Zsnd_1_2_1]; · iexact Zsnd_1_2_1
      isplitl [Zsnd_1_2_2]; · iexact Zsnd_1_2_2
      isplitl [Zsnd_1_2_3]; · iexact Zsnd_1_2_3
      isplitl [Zsnd_1_3_1]; · iexact Zsnd_1_3_1
      isplitl [Zsnd_1_3_2]; · iexact Zsnd_1_3_2
      isplitl [Zsnd_1_3_3]; · iexact Zsnd_1_3_3
      isplitl [Zsnd_2_0_1]; · iexact Zsnd_2_0_1
      isplitl [Zsnd_2_0_2]; · iexact Zsnd_2_0_2
      isplitl [Zsnd_2_0_3]; · iexact Zsnd_2_0_3
      isplitl [Zrcv_0_0_1]; · iexact Zrcv_0_0_1
      isplitl [Zrcv_0_0_2]; · iexact Zrcv_0_0_2
      isplitl [Zrcv_0_0_3]; · iexact Zrcv_0_0_3
      isplitl [Zrcv_0_1_1]; · iexact Zrcv_0_1_1
      isplitl [Zrcv_0_1_2]; · iexact Zrcv_0_1_2
      isplitl [Zrcv_0_1_3]; · iexact Zrcv_0_1_3
      isplitl [Zrcv_0_2_1]; · iexact Zrcv_0_2_1
      isplitl [Zrcv_0_2_2]; · iexact Zrcv_0_2_2
      isplitl [Zrcv_0_2_3]; · iexact Zrcv_0_2_3
      isplitl [Zrcv_0_3_1]; · iexact Zrcv_0_3_1
      isplitl [Zrcv_0_3_2]; · iexact Zrcv_0_3_2
      isplitl [Zrcv_0_3_3]; · iexact Zrcv_0_3_3
      isplitl [Zrcv_1_0_1]; · iexact Zrcv_1_0_1
      isplitl [Zrcv_1_0_2]; · iexact Zrcv_1_0_2
      isplitl [Zrcv_1_0_3]; · iexact Zrcv_1_0_3
      isplitl [Zrcv_1_1_1]; · iexact Zrcv_1_1_1
      isplitl [Zrcv_1_1_2]; · iexact Zrcv_1_1_2
      isplitl [Zrcv_1_1_3]; · iexact Zrcv_1_1_3
      isplitl [Zrcv_1_2_1]; · iexact Zrcv_1_2_1
      isplitl [Zrcv_1_2_2]; · iexact Zrcv_1_2_2
      isplitl [Zrcv_1_2_3]; · iexact Zrcv_1_2_3
      isplitl [Zrcv_1_3_1]; · iexact Zrcv_1_3_1
      isplitl [Zrcv_1_3_2]; · iexact Zrcv_1_3_2
      isplitl [Zrcv_1_3_3]; · iexact Zrcv_1_3_3
      isplitl [Zrcv_2_0_1]; · iexact Zrcv_2_0_1
      isplitl [Zrcv_2_0_2]; · iexact Zrcv_2_0_2
      iexact Zrcv_2_0_3
    isplitl [HO]; · iexists _; iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    icases (Entails.of_eq (congrArg (fun f => ((Memref.whole cc0_stg7_0).view.loc (c : Thread nD τ) ↦{fullShare} f : sProp 𝕄)) ?hout_3)) $$ G7 with G7
    case hout_3 => exact OUTd_3 m ρ c hc g7
    iexact G7

end Cert.Kernel.Mlp

end
-- ==== Proof.lean ====
/- The proof of Cert.Claim: frame_Kernel ∧ frame_KernelIdeal ∧ frame_ReferenceIdeal ∧ preserves_Kernel_KernelIdeal ∧
   algebraic_KernelIdeal_ReferenceIdeal.

   The mathematics.  The program is a perceptron of three layers, each layer sending a matrix Y to
   relu (Y · W) · V with 2048 hidden units.  The hidden axis of every layer is cut over four devices: device d
   holds the 512 columns of W and the 512 rows of V that start at 512 d, and the input, 256 rows, is held whole by
   every device.  For each block of 64 rows a device forms its partial product relu (Y_block · W_d) · V_d; the
   partial products are exchanged block by block around the ring of four and added, each device adding its own
   first and then those of the devices one, three and two places behind it.  After the third layer device c keeps
   the sum for row block c.  Over the reals a sum over the 2048 hidden units is the sum over the four devices of the
   sums over their 512 units, finite sums may be regrouped and products distribute over them, so the sum of the four
   partial products is the one-device product; with every entry finite the extended reals compute as the reals do.
   Hence device c's result is rows 64 c … 64 c + 63 of the one-device result.

   The run.  Each device's body is run symbolically from what the launch hands it to what the launch asks back
   (sound_body), with the exchanged blocks, the initial buffers and the results fixed as functions of the memory at
   launch; the launch then gives the program's run with every argument array unchanged and every result array
   holding that device's value, at any float values.  At the ideal values the value is identified with the block of
   the reference's result; at the bit-exact values only the run and the unchanged arguments are claimed.  The
   reference is a list of host operations whose run is read back operation by operation. -/
import proofs.«900991_g7700000000000992_dist_mlpseq_tp1d_rep_bs_b256_d256_h512_v7x_i4_bf16_1_alg».proof.Defs
import proofs.«900991_g7700000000000992_dist_mlpseq_tp1d_rep_bs_b256_d256_h512_v7x_i4_bf16_1_alg».proof.Proof.Gen.Kernel
import proofs.«900991_g7700000000000992_dist_mlpseq_tp1d_rep_bs_b256_d256_h512_v7x_i4_bf16_1_alg».proof.Proof.Gen.Kernel.Skeleton
import proofs.«900991_g7700000000000992_dist_mlpseq_tp1d_rep_bs_b256_d256_h512_v7x_i4_bf16_1_alg».proof.Proof.Gen.Kernel.Launch
import proofs.«900991_g7700000000000992_dist_mlpseq_tp1d_rep_bs_b256_d256_h512_v7x_i4_bf16_1_alg».proof.Proof.Gen.Kernel.Points
import proofs.«900991_g7700000000000992_dist_mlpseq_tp1d_rep_bs_b256_d256_h512_v7x_i4_bf16_1_alg».proof.Proof.Gen.Kernel.Frame
import proofs.«900991_g7700000000000992_dist_mlpseq_tp1d_rep_bs_b256_d256_h512_v7x_i4_bf16_1_alg».proof.Proof.Gen.KernelIdeal
import proofs.«900991_g7700000000000992_dist_mlpseq_tp1d_rep_bs_b256_d256_h512_v7x_i4_bf16_1_alg».proof.Proof.Gen.KernelIdeal.Skeleton
import proofs.«900991_g7700000000000992_dist_mlpseq_tp1d_rep_bs_b256_d256_h512_v7x_i4_bf16_1_alg».proof.Proof.Gen.KernelIdeal.Launch
import proofs.«900991_g7700000000000992_dist_mlpseq_tp1d_rep_bs_b256_d256_h512_v7x_i4_bf16_1_alg».proof.Proof.Gen.KernelIdeal.Points
import proofs.«900991_g7700000000000992_dist_mlpseq_tp1d_rep_bs_b256_d256_h512_v7x_i4_bf16_1_alg».proof.Proof.Gen.KernelIdeal.Frame
import proofs.«900991_g7700000000000992_dist_mlpseq_tp1d_rep_bs_b256_d256_h512_v7x_i4_bf16_1_alg».proof.Proof.Gen.ReferenceIdeal
import proofs.«900991_g7700000000000992_dist_mlpseq_tp1d_rep_bs_b256_d256_h512_v7x_i4_bf16_1_alg».proof.Proof.Gen.Pre_finite_inputs_Kernel
import proofs.«900991_g7700000000000992_dist_mlpseq_tp1d_rep_bs_b256_d256_h512_v7x_i4_bf16_1_alg».proof.Proof.Gen.Pre_finite_inputs_ReferenceIdeal
import proofs.«900991_g7700000000000992_dist_mlpseq_tp1d_rep_bs_b256_d256_h512_v7x_i4_bf16_1_alg».proof.Proof.Claims
import proofs.«900991_g7700000000000992_dist_mlpseq_tp1d_rep_bs_b256_d256_h512_v7x_i4_bf16_1_alg».proof.Proof.ClaimsBits
import proofs.«900991_g7700000000000992_dist_mlpseq_tp1d_rep_bs_b256_d256_h512_v7x_i4_bf16_1_alg».proof.Proof.Body
import proofs.«900991_g7700000000000992_dist_mlpseq_tp1d_rep_bs_b256_d256_h512_v7x_i4_bf16_1_alg».proof.Proof.Bits.Body
import Idealize.ShloMosaic.Adequacy
import Idealize.ShloMosaic.Init

noncomputable section

namespace Cert.Proof

open Idealize.ShloMosaic Idealize.SL.Sem

/-- The body's run at the ideal values. -/
theorem sound_ideal : Cert.Proof.Claims.Sound Ideal := fun m ρ K c Kt W f0 f1 g7 =>
  Cert.KernelIdeal.Mlp.sound_body m ρ K c Kt W f0 f1 g7

/-- The body's run at the bit-exact values. -/
theorem sound_bits : Cert.Kernel.Mlp.Sound' := fun m ρ K c Kt W f0 f1 g7 =>
  Cert.Kernel.Mlp.sound_body m ρ K c Kt W f0 f1 g7

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.ClaimsBits.frame_Kernel_of sound_bits, Cert.Proof.Claims.frame_KernelIdeal_of sound_ideal, Cert.Proof.Claims.frame_ReferenceIdeal', Cert.Proof.Claims.preserves, Cert.Proof.Claims.algebraic_of sound_ideal⟩

end Cert.Proof

end
